-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v314)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v314) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v424) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x320000 : Shape := ⟨2, ![2, 320000]⟩
abbrev S50000 : Shape := ⟨1, ![50000]⟩
abbrev S128x512 : Shape := ⟨2, ![128, 512]⟩
abbrev S512x256 : Shape := ⟨2, ![512, 256]⟩
abbrev S512 : Shape := ⟨1, ![512]⟩
abbrev S256 : Shape := ⟨1, ![256]⟩
abbrev S256x512 : Shape := ⟨2, ![256, 512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg23 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg23
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg19 : FVec F S512x128 .f32) (main_arg20 : FVec F S512 .f32) (main_arg21 : FVec F S512 .f32) (main_arg22 : FVec F S128 .f32) (main_arg23 : FVec F S128 .f32) (main_v63 : IVec S_ 1) (main_v67 : IVec S_ 1) : IVec S_ 1 :=
  let main_v68 : IVec S_ 1 := andi main_v63 main_v67
  let main_v69 : FVec F S512x128 .f32 := Host.absf main_arg19
  let main_cst_26 : FVec F S_ .f32 := constant S_ .f32 0x7F800000#32
  let main_v70 : FVec F S512x128 .f32 := broadcastInDim S512x128 ![] bcast_S_S512x128 main_cst_26
  let main_v71 : IVec S512x128 1 := cmpf .olt main_v69 main_v70
  let main_c_27 : IVec S_ 1 := constantI S_ 1 1#1
  let main_v72 : IVec S_ 1 := (fun x v => Host.reduce IntOp.andi x v reducesTo_S512x128_S_d0_1 h_S_) main_v71 main_c_27
  let main_v73 : IVec S_ 1 := andi main_v68 main_v72
  let main_v74 : FVec F S512 .f32 := Host.absf main_arg20
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg21
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S128 .f32 := Host.absf main_arg22
  let main_cst_32 : FVec F S_ .f32 := constant S_ .f32 0x7F800000#32
  fn_part5 (F := F) main_arg23 main_v83 main_v84 main_cst_32

def fn_part3 {F : FTy → Type} [FloatOps F] (main_arg16 : FVec F S256 .f32) (main_arg17 : FVec F S256 .f32) (main_arg18 : FVec F S256x512 .f32) (main_arg19 : FVec F S512x128 .f32) (main_arg20 : FVec F S512 .f32) (main_arg21 : FVec F S512 .f32) (main_arg22 : FVec F S128 .f32) (main_arg23 : FVec F S128 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S256 .f32 := Host.absf main_arg16
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg17
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x512 .f32 := Host.absf main_arg18
  let main_cst_24 : FVec F S_ .f32 := constant S_ .f32 0x7F800000#32
  let main_v65 : FVec F S256x512 .f32 := broadcastInDim S256x512 ![] bcast_S_S256x512 main_cst_24
  let main_v66 : IVec S256x512 1 := cmpf .olt main_v64 main_v65
  let main_c_25 : IVec S_ 1 := constantI S_ 1 1#1
  let main_v67 : IVec S_ 1 := (fun x v => Host.reduce IntOp.andi x v reducesTo_S256x512_S_d0_1 h_S_) main_v66 main_c_25
  fn_part4 (F := F) main_arg19 main_arg20 main_arg21 main_arg22 main_arg23 main_v63 main_v67

def fn_part2 {F : FTy → Type} [FloatOps F] (main_arg12 : FVec F S256x512 .f32) (main_arg13 : FVec F S512x256 .f32) (main_arg14 : FVec F S512 .f32) (main_arg15 : FVec F S512 .f32) (main_arg16 : FVec F S256 .f32) (main_arg17 : FVec F S256 .f32) (main_arg18 : FVec F S256x512 .f32) (main_arg19 : FVec F S512x128 .f32) (main_arg20 : FVec F S512 .f32) (main_arg21 : FVec F S512 .f32) (main_arg22 : FVec F S128 .f32) (main_arg23 : FVec F S128 .f32) (main_v33 : IVec S_ 1) : IVec S_ 1 :=
  let main_v34 : FVec F S256x512 .f32 := Host.absf main_arg12
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512x256 .f32 := Host.absf main_arg13
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S512 .f32 := Host.absf main_arg14
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg15
  let main_cst_18 : FVec F S_ .f32 := constant S_ .f32 0x7F800000#32
  let main_v50 : FVec F S512 .f32 := broadcastInDim S512 ![] bcast_S_S512 main_cst_18
  fn_part3 (F := F) main_arg16 main_arg17 main_arg18 main_arg19 main_arg20 main_arg21 main_arg22 main_arg23 main_v48 main_v49 main_v50

def fn_part1 {F : FTy → Type} [FloatOps F] (main_arg9 : FVec F S512 .f32) (main_arg10 : FVec F S256 .f32) (main_arg11 : FVec F S256 .f32) (main_arg12 : FVec F S256x512 .f32) (main_arg13 : FVec F S512x256 .f32) (main_arg14 : FVec F S512 .f32) (main_arg15 : FVec F S512 .f32) (main_arg16 : FVec F S256 .f32) (main_arg17 : FVec F S256 .f32) (main_arg18 : FVec F S256x512 .f32) (main_arg19 : FVec F S512x128 .f32) (main_arg20 : FVec F S512 .f32) (main_arg21 : FVec F S512 .f32) (main_arg22 : FVec F S128 .f32) (main_arg23 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg9
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256 .f32 := Host.absf main_arg10
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg11
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : IVec S2x320000 32) (main_arg2 : IVec S2x320000 32) (main_arg3 : IVec S50000 1) (main_arg4 : IVec S50000 1) (main_arg5 : IVec S50000 32) (main_arg6 : FVec F S128x512 .f32) (main_arg7 : FVec F S512x256 .f32) (main_arg8 : FVec F S512 .f32) (main_arg9 : FVec F S512 .f32) (main_arg10 : FVec F S256 .f32) (main_arg11 : FVec F S256 .f32) (main_arg12 : FVec F S256x512 .f32) (main_arg13 : FVec F S512x256 .f32) (main_arg14 : FVec F S512 .f32) (main_arg15 : FVec F S512 .f32) (main_arg16 : FVec F S256 .f32) (main_arg17 : FVec F S256 .f32) (main_arg18 : FVec F S256x512 .f32) (main_arg19 : FVec F S512x128 .f32) (main_arg20 : FVec F S512 .f32) (main_arg21 : FVec F S512 .f32) (main_arg22 : FVec F S128 .f32) (main_arg23 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg6
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512x256 .f32 := Host.absf main_arg7
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg8
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S2x320000 : Shape := ⟨2, ![2, 320000]⟩
abbrev S50000 : Shape := ⟨1, ![50000]⟩
abbrev S128x512 : Shape := ⟨2, ![128, 512]⟩
abbrev S512x256 : Shape := ⟨2, ![512, 256]⟩
abbrev S512 : Shape := ⟨1, ![512]⟩
abbrev S256 : Shape := ⟨1, ![256]⟩
abbrev S256x512 : Shape := ⟨2, ![256, 512]⟩
abbrev S512x128 : Shape := ⟨2, ![512, 128]⟩
abbrev S128 : Shape := ⟨1, ![128]⟩
abbrev S50000x1 : Shape := ⟨2, ![50000, 1]⟩
abbrev S_ : Shape := ⟨0, ![]⟩
abbrev S1x320000 : Shape := ⟨2, ![1, 320000]⟩
abbrev S320000 : Shape := ⟨1, ![320000]⟩
abbrev S320000x1 : Shape := ⟨2, ![320000, 1]⟩
abbrev S320000x128 : Shape := ⟨2, ![320000, 128]⟩
abbrev S50000x512 : Shape := ⟨2, ![50000, 512]⟩
abbrev S1x1024 : Shape := ⟨2, ![1, 1024]⟩
abbrev S2000x128 : Shape := ⟨2, ![2000, 128]⟩
abbrev S2000x512 : Shape := ⟨2, ![2000, 512]⟩
abbrev S1x512 : Shape := ⟨2, ![1, 512]⟩
abbrev S50000x256 : Shape := ⟨2, ![50000, 256]⟩
abbrev S2000x256 : Shape := ⟨2, ![2000, 256]⟩
abbrev S1x256 : Shape := ⟨2, ![1, 256]⟩
abbrev S320000x256 : Shape := ⟨2, ![320000, 256]⟩
abbrev S1x128 : Shape := ⟨2, ![1, 128]⟩

abbrev nBuf : Space → Nat
  | .hbm => 464
  | .vmem => 168
  | .smem => 0
  | _ => 0

abbrev hbmTy0_0 (i : Nat) : BufTy := match i % 128 with
  | 0 => ⟨S50000x128, .f32⟩
  | 1 => ⟨S2x320000, .i32⟩
  | 2 => ⟨S2x320000, .i32⟩
  | 3 => ⟨S50000, .i1⟩
  | 4 => ⟨S50000, .i1⟩
  | 5 => ⟨S50000, .i32⟩
  | 6 => ⟨S128x512, .f32⟩
  | 7 => ⟨S512x256, .f32⟩
  | 8 => ⟨S512, .f32⟩
  | 9 => ⟨S512, .f32⟩
  | 10 => ⟨S256, .f32⟩
  | 11 => ⟨S256, .f32⟩
  | 12 => ⟨S256x512, .f32⟩
  | 13 => ⟨S512x256, .f32⟩
  | 14 => ⟨S512, .f32⟩
  | 15 => ⟨S512, .f32⟩
  | 16 => ⟨S256, .f32⟩
  | 17 => ⟨S256, .f32⟩
  | 18 => ⟨S256x512, .f32⟩
  | 19 => ⟨S512x128, .f32⟩
  | 20 => ⟨S512, .f32⟩
  | 21 => ⟨S512, .f32⟩
  | 22 => ⟨S128, .f32⟩
  | 23 => ⟨S128, .f32⟩
  | 24 => ⟨S128x512, .bf16⟩
  | 25 => ⟨S512x256, .bf16⟩
  | 26 => ⟨S256x512, .bf16⟩
  | 27 => ⟨S512x256, .bf16⟩
  | 28 => ⟨S256x512, .bf16⟩
  | 29 => ⟨S512x128, .bf16⟩
  | 30 => ⟨S50000x1, .i1⟩
  | 31 => ⟨S_, .f32⟩
  | 32 => ⟨S_, .f32⟩
  | 33 => ⟨S50000x128, .i1⟩
  | 34 => ⟨S50000x128, .f32⟩
  | 35 => ⟨S50000x128, .f32⟩
  | 36 => ⟨S1x320000, .i32⟩
  | 37 => ⟨S320000, .i32⟩
  | 38 => ⟨S1x320000, .i32⟩
  | 39 => ⟨S320000, .i32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S320000x128, .f32⟩
  | 49 => ⟨S_, .f32⟩
  | 50 => ⟨S50000x128, .f32⟩
  | 51 => ⟨S320000x1, .i32⟩
  | 52 => ⟨S50000x128, .f32⟩
  | 53 => ⟨S50000x512, .f32⟩
  | 54 => ⟨S1x1024, .f32⟩
  | 55 => ⟨S1x512, .f32⟩
  | 56 => ⟨S_, .f32⟩
  | 57 => ⟨S1x512, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S1x512, .f32⟩
  | 65 => ⟨S_, .f32⟩
  | 66 => ⟨S1x512, .f32⟩
  | 67 => ⟨S1x512, .f32⟩
  | 68 => ⟨S1x512, .f32⟩
  | 69 => ⟨S1x512, .f32⟩
  | 70 => ⟨S50000x256, .f32⟩
  | 71 => ⟨S1x512, .f32⟩
  | 72 => ⟨S1x256, .f32⟩
  | 73 => ⟨S_, .f32⟩
  | 74 => ⟨S1x256, .f32⟩
  | 75 => ⟨S1x256, .f32⟩
  | 76 => ⟨S1x256, .f32⟩
  | 77 => ⟨S_, .f32⟩
  | 78 => ⟨S1x256, .f32⟩
  | 79 => ⟨S1x256, .f32⟩
  | 80 => ⟨S1x256, .f32⟩
  | 81 => ⟨S1x256, .f32⟩
  | 82 => ⟨S_, .f32⟩
  | 83 => ⟨S1x256, .f32⟩
  | 84 => ⟨S1x256, .f32⟩
  | 85 => ⟨S1x256, .f32⟩
  | 86 => ⟨S1x256, .f32⟩
  | 87 => ⟨S50000x256, .f32⟩
  | 88 => ⟨S1x320000, .i32⟩
  | 89 => ⟨S320000, .i32⟩
  | 90 => ⟨S1x320000, .i32⟩
  | 91 => ⟨S320000, .i32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x256, .f32⟩
  | 101 => ⟨S_, .f32⟩
  | 102 => ⟨S50000x256, .f32⟩
  | 103 => ⟨S320000x1, .i32⟩
  | 104 => ⟨S50000x256, .f32⟩
  | 105 => ⟨S50000x512, .f32⟩
  | 106 => ⟨S1x1024, .f32⟩
  | 107 => ⟨S1x512, .f32⟩
  | 108 => ⟨S_, .f32⟩
  | 109 => ⟨S1x512, .f32⟩
  | 110 => ⟨S1x512, .f32⟩
  | 111 => ⟨S1x512, .f32⟩
  | 112 => ⟨S_, .f32⟩
  | 113 => ⟨S1x512, .f32⟩
  | 114 => ⟨S1x512, .f32⟩
  | 115 => ⟨S1x512, .f32⟩
  | 116 => ⟨S1x512, .f32⟩
  | 117 => ⟨S_, .f32⟩
  | 118 => ⟨S1x512, .f32⟩
  | 119 => ⟨S1x512, .f32⟩
  | 120 => ⟨S1x512, .f32⟩
  | 121 => ⟨S1x512, .f32⟩
  | 122 => ⟨S50000x256, .f32⟩
  | 123 => ⟨S1x512, .f32⟩
  | 124 => ⟨S1x256, .f32⟩
  | 125 => ⟨S_, .f32⟩
  | 126 => ⟨S1x256, .f32⟩
  | 127 => ⟨S1x256, .f32⟩
  | _ => ⟨S50000x128, .f32⟩

abbrev hbmTy0_1 (i : Nat) : BufTy := match i % 128 with
  | 0 => ⟨S1x256, .f32⟩
  | 1 => ⟨S_, .f32⟩
  | 2 => ⟨S1x256, .f32⟩
  | 3 => ⟨S1x256, .f32⟩
  | 4 => ⟨S1x256, .f32⟩
  | 5 => ⟨S1x256, .f32⟩
  | 6 => ⟨S_, .f32⟩
  | 7 => ⟨S1x256, .f32⟩
  | 8 => ⟨S1x256, .f32⟩
  | 9 => ⟨S1x256, .f32⟩
  | 10 => ⟨S1x256, .f32⟩
  | 11 => ⟨S50000x256, .f32⟩
  | 12 => ⟨S_, .f32⟩
  | 13 => ⟨S_, .f32⟩
  | 14 => ⟨S50000x256, .i1⟩
  | 15 => ⟨S50000x256, .f32⟩
  | 16 => ⟨S50000x256, .f32⟩
  | 17 => ⟨S1x320000, .i32⟩
  | 18 => ⟨S320000, .i32⟩
  | 19 => ⟨S1x320000, .i32⟩
  | 20 => ⟨S320000, .i32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x256, .f32⟩
  | 30 => ⟨S_, .f32⟩
  | 31 => ⟨S50000x256, .f32⟩
  | 32 => ⟨S320000x1, .i32⟩
  | 33 => ⟨S50000x256, .f32⟩
  | 34 => ⟨S50000x512, .f32⟩
  | 35 => ⟨S1x1024, .f32⟩
  | 36 => ⟨S1x512, .f32⟩
  | 37 => ⟨S_, .f32⟩
  | 38 => ⟨S1x512, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S1x512, .f32⟩
  | 45 => ⟨S1x512, .f32⟩
  | 46 => ⟨S_, .f32⟩
  | 47 => ⟨S1x512, .f32⟩
  | 48 => ⟨S1x512, .f32⟩
  | 49 => ⟨S1x512, .f32⟩
  | 50 => ⟨S1x512, .f32⟩
  | 51 => ⟨S50000x128, .f32⟩
  | 52 => ⟨S1x256, .f32⟩
  | 53 => ⟨S1x128, .f32⟩
  | 54 => ⟨S_, .f32⟩
  | 55 => ⟨S1x128, .f32⟩
  | 56 => ⟨S1x128, .f32⟩
  | 57 => ⟨S1x128, .f32⟩
  | 58 => ⟨S_, .f32⟩
  | 59 => ⟨S1x128, .f32⟩
  | 60 => ⟨S1x128, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S1x128, .f32⟩
  | 68 => ⟨S50000x128, .f32⟩
  | 69 => ⟨S50000, .f32⟩
  | 70 => ⟨S50000x128, .f32⟩
  | 71 => ⟨S_, .f32⟩
  | 72 => ⟨S50000, .f32⟩
  | 73 => ⟨S50000x1, .f32⟩
  | 74 => ⟨S50000x1, .f32⟩
  | 75 => ⟨S_, .f32⟩
  | 76 => ⟨S50000x1, .f32⟩
  | 77 => ⟨S50000x1, .f32⟩
  | 78 => ⟨S50000x128, .f32⟩
  | 79 => ⟨S50000x128, .f32⟩
  | 80 => ⟨S50000x128, .f32⟩
  | 81 => ⟨S_, .f32⟩
  | 82 => ⟨S50000, .f32⟩
  | 83 => ⟨S50000x1, .f32⟩
  | 84 => ⟨S50000x1, .f32⟩
  | 85 => ⟨S_, .f32⟩
  | 86 => ⟨S50000x1, .f32⟩
  | 87 => ⟨S50000x1, .f32⟩
  | 88 => ⟨S50000x128, .f32⟩
  | 89 => ⟨S50000x128, .f32⟩
  | 90 => ⟨S50000x128, .f32⟩
  | 91 => ⟨S_, .f32⟩
  | 92 => ⟨S50000, .f32⟩
  | 93 => ⟨S_, .f32⟩
  | 94 => ⟨S50000, .f32⟩
  | 95 => ⟨S50000, .f32⟩
  | 96 => ⟨S50000, .f32⟩
  | 97 => ⟨S_, .f32⟩
  | 98 => ⟨S_, .f32⟩
  | 99 => ⟨S_, .f32⟩
  | 100 => ⟨S_, .f32⟩
  | 101 => ⟨S_, .f32⟩
  | 102 => ⟨S50000x1, .i1⟩
  | 103 => ⟨S_, .f32⟩
  | 104 => ⟨S_, .f32⟩
  | 105 => ⟨S50000x128, .i1⟩
  | 106 => ⟨S50000x128, .f32⟩
  | 107 => ⟨S50000x128, .f32⟩
  | 108 => ⟨S1x320000, .i32⟩
  | 109 => ⟨S320000, .i32⟩
  | 110 => ⟨S1x320000, .i32⟩
  | 111 => ⟨S320000, .i32⟩
  | 112 => ⟨S_, .i32⟩
  | 113 => ⟨S320000, .i32⟩
  | 114 => ⟨S320000, .i1⟩
  | 115 => ⟨S_, .i32⟩
  | 116 => ⟨S320000, .i32⟩
  | 117 => ⟨S320000, .i32⟩
  | 118 => ⟨S320000, .i32⟩
  | 119 => ⟨S320000x1, .i32⟩
  | 120 => ⟨S320000x128, .f32⟩
  | 121 => ⟨S_, .f32⟩
  | 122 => ⟨S50000x128, .f32⟩
  | 123 => ⟨S320000x1, .i32⟩
  | 124 => ⟨S50000x128, .f32⟩
  | 125 => ⟨S50000x512, .f32⟩
  | 126 => ⟨S1x1024, .f32⟩
  | 127 => ⟨S1x512, .f32⟩
  | _ => ⟨S50000x128, .f32⟩

abbrev hbmTy0_2 (i : Nat) : BufTy := match i % 128 with
  | 0 => ⟨S_, .f32⟩
  | 1 => ⟨S1x512, .f32⟩
  | 2 => ⟨S1x512, .f32⟩
  | 3 => ⟨S1x512, .f32⟩
  | 4 => ⟨S_, .f32⟩
  | 5 => ⟨S1x512, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S1x512, .f32⟩
  | 13 => ⟨S1x512, .f32⟩
  | 14 => ⟨S50000x256, .f32⟩
  | 15 => ⟨S1x512, .f32⟩
  | 16 => ⟨S1x256, .f32⟩
  | 17 => ⟨S_, .f32⟩
  | 18 => ⟨S1x256, .f32⟩
  | 19 => ⟨S1x256, .f32⟩
  | 20 => ⟨S1x256, .f32⟩
  | 21 => ⟨S_, .f32⟩
  | 22 => ⟨S1x256, .f32⟩
  | 23 => ⟨S1x256, .f32⟩
  | 24 => ⟨S1x256, .f32⟩
  | 25 => ⟨S1x256, .f32⟩
  | 26 => ⟨S_, .f32⟩
  | 27 => ⟨S1x256, .f32⟩
  | 28 => ⟨S1x256, .f32⟩
  | 29 => ⟨S1x256, .f32⟩
  | 30 => ⟨S1x256, .f32⟩
  | 31 => ⟨S50000x256, .f32⟩
  | 32 => ⟨S1x320000, .i32⟩
  | 33 => ⟨S320000, .i32⟩
  | 34 => ⟨S1x320000, .i32⟩
  | 35 => ⟨S320000, .i32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x256, .f32⟩
  | 45 => ⟨S_, .f32⟩
  | 46 => ⟨S50000x256, .f32⟩
  | 47 => ⟨S320000x1, .i32⟩
  | 48 => ⟨S50000x256, .f32⟩
  | 49 => ⟨S50000x512, .f32⟩
  | 50 => ⟨S1x1024, .f32⟩
  | 51 => ⟨S1x512, .f32⟩
  | 52 => ⟨S_, .f32⟩
  | 53 => ⟨S1x512, .f32⟩
  | 54 => ⟨S1x512, .f32⟩
  | 55 => ⟨S1x512, .f32⟩
  | 56 => ⟨S_, .f32⟩
  | 57 => ⟨S1x512, .f32⟩
  | 58 => ⟨S1x512, .f32⟩
  | 59 => ⟨S1x512, .f32⟩
  | 60 => ⟨S1x512, .f32⟩
  | 61 => ⟨S_, .f32⟩
  | 62 => ⟨S1x512, .f32⟩
  | 63 => ⟨S1x512, .f32⟩
  | 64 => ⟨S1x512, .f32⟩
  | 65 => ⟨S1x512, .f32⟩
  | 66 => ⟨S50000x256, .f32⟩
  | 67 => ⟨S1x512, .f32⟩
  | 68 => ⟨S1x256, .f32⟩
  | 69 => ⟨S_, .f32⟩
  | 70 => ⟨S1x256, .f32⟩
  | 71 => ⟨S1x256, .f32⟩
  | 72 => ⟨S1x256, .f32⟩
  | 73 => ⟨S_, .f32⟩
  | 74 => ⟨S1x256, .f32⟩
  | 75 => ⟨S1x256, .f32⟩
  | 76 => ⟨S1x256, .f32⟩
  | 77 => ⟨S1x256, .f32⟩
  | 78 => ⟨S_, .f32⟩
  | 79 => ⟨S1x256, .f32⟩
  | 80 => ⟨S1x256, .f32⟩
  | 81 => ⟨S1x256, .f32⟩
  | 82 => ⟨S1x256, .f32⟩
  | 83 => ⟨S50000x256, .f32⟩
  | 84 => ⟨S_, .f32⟩
  | 85 => ⟨S_, .f32⟩
  | 86 => ⟨S50000x256, .i1⟩
  | 87 => ⟨S50000x256, .f32⟩
  | 88 => ⟨S50000x256, .f32⟩
  | 89 => ⟨S1x320000, .i32⟩
  | 90 => ⟨S320000, .i32⟩
  | 91 => ⟨S1x320000, .i32⟩
  | 92 => ⟨S320000, .i32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x256, .f32⟩
  | 102 => ⟨S_, .f32⟩
  | 103 => ⟨S50000x256, .f32⟩
  | 104 => ⟨S320000x1, .i32⟩
  | 105 => ⟨S50000x256, .f32⟩
  | 106 => ⟨S50000x512, .f32⟩
  | 107 => ⟨S1x1024, .f32⟩
  | 108 => ⟨S1x512, .f32⟩
  | 109 => ⟨S_, .f32⟩
  | 110 => ⟨S1x512, .f32⟩
  | 111 => ⟨S1x512, .f32⟩
  | 112 => ⟨S1x512, .f32⟩
  | 113 => ⟨S_, .f32⟩
  | 114 => ⟨S1x512, .f32⟩
  | 115 => ⟨S1x512, .f32⟩
  | 116 => ⟨S1x512, .f32⟩
  | 117 => ⟨S1x512, .f32⟩
  | 118 => ⟨S_, .f32⟩
  | 119 => ⟨S1x512, .f32⟩
  | 120 => ⟨S1x512, .f32⟩
  | 121 => ⟨S1x512, .f32⟩
  | 122 => ⟨S1x512, .f32⟩
  | 123 => ⟨S50000x128, .f32⟩
  | 124 => ⟨S1x256, .f32⟩
  | 125 => ⟨S1x128, .f32⟩
  | 126 => ⟨S_, .f32⟩
  | 127 => ⟨S1x128, .f32⟩
  | _ => ⟨S50000x128, .f32⟩

abbrev hbmTy0_3 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S1x128, .f32⟩
  | 11 => ⟨S1x128, .f32⟩
  | 12 => ⟨S50000x128, .f32⟩
  | 13 => ⟨S50000, .f32⟩
  | 14 => ⟨S50000x128, .f32⟩
  | 15 => ⟨S_, .f32⟩
  | 16 => ⟨S50000, .f32⟩
  | 17 => ⟨S50000x1, .f32⟩
  | 18 => ⟨S50000x1, .f32⟩
  | 19 => ⟨S_, .f32⟩
  | 20 => ⟨S50000x1, .f32⟩
  | 21 => ⟨S50000x1, .f32⟩
  | 22 => ⟨S50000x128, .f32⟩
  | 23 => ⟨S50000x128, .f32⟩
  | 24 => ⟨S50000x128, .f32⟩
  | 25 => ⟨S_, .f32⟩
  | 26 => ⟨S50000, .f32⟩
  | 27 => ⟨S50000x1, .f32⟩
  | 28 => ⟨S50000x1, .f32⟩
  | 29 => ⟨S_, .f32⟩
  | 30 => ⟨S50000x1, .f32⟩
  | 31 => ⟨S50000x1, .f32⟩
  | 32 => ⟨S50000x128, .f32⟩
  | 33 => ⟨S50000x128, .f32⟩
  | 34 => ⟨S50000x128, .f32⟩
  | 35 => ⟨S_, .f32⟩
  | 36 => ⟨S50000, .f32⟩
  | 37 => ⟨S_, .f32⟩
  | 38 => ⟨S50000, .f32⟩
  | 39 => ⟨S50000, .f32⟩
  | 40 => ⟨S50000, .f32⟩
  | 41 => ⟨S_, .f32⟩
  | 42 => ⟨S_, .f32⟩
  | 43 => ⟨S_, .f32⟩
  | 44 => ⟨S_, .f32⟩
  | 45 => ⟨S_, .f32⟩
  | 46 => ⟨S50000x128, .f32⟩
  | 47 => ⟨S_, .f32⟩
  | 48 => ⟨S50000, .f32⟩
  | 49 => ⟨S50000x1, .f32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S50000x128, .f32⟩
  | 57 => ⟨S_, .f32⟩
  | 58 => ⟨S50000, .f32⟩
  | 59 => ⟨S50000x1, .f32⟩
  | 60 => ⟨S50000x1, .f32⟩
  | 61 => ⟨S_, .f32⟩
  | 62 => ⟨S50000x1, .f32⟩
  | 63 => ⟨S50000x1, .f32⟩
  | 64 => ⟨S50000x128, .f32⟩
  | 65 => ⟨S50000x128, .f32⟩
  | 66 => ⟨S50000x128, .f32⟩
  | 67 => ⟨S_, .f32⟩
  | 68 => ⟨S50000, .f32⟩
  | 69 => ⟨S_, .f32⟩
  | 70 => ⟨S50000, .f32⟩
  | 71 => ⟨S50000, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev vmemTy0_0 (i : Nat) : BufTy := match i % 128 with
  | 0 => ⟨S2000x128, .f32⟩
  | 1 => ⟨S2000x128, .f32⟩
  | 2 => ⟨S2000x128, .f32⟩
  | 3 => ⟨S2000x128, .f32⟩
  | 4 => ⟨S128x512, .bf16⟩
  | 5 => ⟨S2000x512, .f32⟩
  | 6 => ⟨S2000x512, .f32⟩
  | 7 => ⟨S1x1024, .f32⟩
  | 8 => ⟨S1x1024, .f32⟩
  | 9 => ⟨S2000x512, .f32⟩
  | 10 => ⟨S2000x512, .f32⟩
  | 11 => ⟨S1x512, .f32⟩
  | 12 => ⟨S1x512, .f32⟩
  | 13 => ⟨S1x512, .f32⟩
  | 14 => ⟨S1x512, .f32⟩
  | 15 => ⟨S512x256, .bf16⟩
  | 16 => ⟨S2000x256, .f32⟩
  | 17 => ⟨S2000x256, .f32⟩
  | 18 => ⟨S1x512, .f32⟩
  | 19 => ⟨S1x512, .f32⟩
  | 20 => ⟨S2000x256, .f32⟩
  | 21 => ⟨S2000x256, .f32⟩
  | 22 => ⟨S1x256, .f32⟩
  | 23 => ⟨S1x256, .f32⟩
  | 24 => ⟨S1x256, .f32⟩
  | 25 => ⟨S1x256, .f32⟩
  | 26 => ⟨S2000x256, .f32⟩
  | 27 => ⟨S2000x256, .f32⟩
  | 28 => ⟨S2000x256, .f32⟩
  | 29 => ⟨S2000x256, .f32⟩
  | 30 => ⟨S2000x256, .f32⟩
  | 31 => ⟨S2000x256, .f32⟩
  | 32 => ⟨S256x512, .bf16⟩
  | 33 => ⟨S2000x512, .f32⟩
  | 34 => ⟨S2000x512, .f32⟩
  | 35 => ⟨S1x1024, .f32⟩
  | 36 => ⟨S1x1024, .f32⟩
  | 37 => ⟨S2000x512, .f32⟩
  | 38 => ⟨S2000x512, .f32⟩
  | 39 => ⟨S1x512, .f32⟩
  | 40 => ⟨S1x512, .f32⟩
  | 41 => ⟨S1x512, .f32⟩
  | 42 => ⟨S1x512, .f32⟩
  | 43 => ⟨S512x256, .bf16⟩
  | 44 => ⟨S2000x256, .f32⟩
  | 45 => ⟨S2000x256, .f32⟩
  | 46 => ⟨S1x512, .f32⟩
  | 47 => ⟨S1x512, .f32⟩
  | 48 => ⟨S2000x256, .f32⟩
  | 49 => ⟨S2000x256, .f32⟩
  | 50 => ⟨S1x256, .f32⟩
  | 51 => ⟨S1x256, .f32⟩
  | 52 => ⟨S1x256, .f32⟩
  | 53 => ⟨S1x256, .f32⟩
  | 54 => ⟨S2000x256, .f32⟩
  | 55 => ⟨S2000x256, .f32⟩
  | 56 => ⟨S2000x256, .f32⟩
  | 57 => ⟨S2000x256, .f32⟩
  | 58 => ⟨S2000x256, .f32⟩
  | 59 => ⟨S2000x256, .f32⟩
  | 60 => ⟨S256x512, .bf16⟩
  | 61 => ⟨S2000x512, .f32⟩
  | 62 => ⟨S2000x512, .f32⟩
  | 63 => ⟨S1x1024, .f32⟩
  | 64 => ⟨S1x1024, .f32⟩
  | 65 => ⟨S2000x512, .f32⟩
  | 66 => ⟨S2000x512, .f32⟩
  | 67 => ⟨S1x512, .f32⟩
  | 68 => ⟨S1x512, .f32⟩
  | 69 => ⟨S1x512, .f32⟩
  | 70 => ⟨S1x512, .f32⟩
  | 71 => ⟨S512x128, .bf16⟩
  | 72 => ⟨S2000x128, .f32⟩
  | 73 => ⟨S2000x128, .f32⟩
  | 74 => ⟨S1x256, .f32⟩
  | 75 => ⟨S1x256, .f32⟩
  | 76 => ⟨S2000x128, .f32⟩
  | 77 => ⟨S2000x128, .f32⟩
  | 78 => ⟨S1x128, .f32⟩
  | 79 => ⟨S1x128, .f32⟩
  | 80 => ⟨S1x128, .f32⟩
  | 81 => ⟨S1x128, .f32⟩
  | 82 => ⟨S2000x128, .f32⟩
  | 83 => ⟨S2000x128, .f32⟩
  | 84 => ⟨S2000x128, .f32⟩
  | 85 => ⟨S2000x128, .f32⟩
  | 86 => ⟨S2000x128, .f32⟩
  | 87 => ⟨S2000x128, .f32⟩
  | 88 => ⟨S128x512, .bf16⟩
  | 89 => ⟨S2000x512, .f32⟩
  | 90 => ⟨S2000x512, .f32⟩
  | 91 => ⟨S1x1024, .f32⟩
  | 92 => ⟨S1x1024, .f32⟩
  | 93 => ⟨S2000x512, .f32⟩
  | 94 => ⟨S2000x512, .f32⟩
  | 95 => ⟨S1x512, .f32⟩
  | 96 => ⟨S1x512, .f32⟩
  | 97 => ⟨S1x512, .f32⟩
  | 98 => ⟨S1x512, .f32⟩
  | 99 => ⟨S512x256, .bf16⟩
  | 100 => ⟨S2000x256, .f32⟩
  | 101 => ⟨S2000x256, .f32⟩
  | 102 => ⟨S1x512, .f32⟩
  | 103 => ⟨S1x512, .f32⟩
  | 104 => ⟨S2000x256, .f32⟩
  | 105 => ⟨S2000x256, .f32⟩
  | 106 => ⟨S1x256, .f32⟩
  | 107 => ⟨S1x256, .f32⟩
  | 108 => ⟨S1x256, .f32⟩
  | 109 => ⟨S1x256, .f32⟩
  | 110 => ⟨S2000x256, .f32⟩
  | 111 => ⟨S2000x256, .f32⟩
  | 112 => ⟨S2000x256, .f32⟩
  | 113 => ⟨S2000x256, .f32⟩
  | 114 => ⟨S2000x256, .f32⟩
  | 115 => ⟨S2000x256, .f32⟩
  | 116 => ⟨S256x512, .bf16⟩
  | 117 => ⟨S2000x512, .f32⟩
  | 118 => ⟨S2000x512, .f32⟩
  | 119 => ⟨S1x1024, .f32⟩
  | 120 => ⟨S1x1024, .f32⟩
  | 121 => ⟨S2000x512, .f32⟩
  | 122 => ⟨S2000x512, .f32⟩
  | 123 => ⟨S1x512, .f32⟩
  | 124 => ⟨S1x512, .f32⟩
  | 125 => ⟨S1x512, .f32⟩
  | 126 => ⟨S1x512, .f32⟩
  | 127 => ⟨S512x256, .bf16⟩
  | _ => ⟨S50000x128, .f32⟩

abbrev vmemTy0_1 (i : Nat) : BufTy := match i % 128 with
  | 0 => ⟨S2000x256, .f32⟩
  | 1 => ⟨S2000x256, .f32⟩
  | 2 => ⟨S1x512, .f32⟩
  | 3 => ⟨S1x512, .f32⟩
  | 4 => ⟨S2000x256, .f32⟩
  | 5 => ⟨S2000x256, .f32⟩
  | 6 => ⟨S1x256, .f32⟩
  | 7 => ⟨S1x256, .f32⟩
  | 8 => ⟨S1x256, .f32⟩
  | 9 => ⟨S1x256, .f32⟩
  | 10 => ⟨S2000x256, .f32⟩
  | 11 => ⟨S2000x256, .f32⟩
  | 12 => ⟨S2000x256, .f32⟩
  | 13 => ⟨S2000x256, .f32⟩
  | 14 => ⟨S2000x256, .f32⟩
  | 15 => ⟨S2000x256, .f32⟩
  | 16 => ⟨S256x512, .bf16⟩
  | 17 => ⟨S2000x512, .f32⟩
  | 18 => ⟨S2000x512, .f32⟩
  | 19 => ⟨S1x1024, .f32⟩
  | 20 => ⟨S1x1024, .f32⟩
  | 21 => ⟨S2000x512, .f32⟩
  | 22 => ⟨S2000x512, .f32⟩
  | 23 => ⟨S1x512, .f32⟩
  | 24 => ⟨S1x512, .f32⟩
  | 25 => ⟨S1x512, .f32⟩
  | 26 => ⟨S1x512, .f32⟩
  | 27 => ⟨S512x128, .bf16⟩
  | 28 => ⟨S2000x128, .f32⟩
  | 29 => ⟨S2000x128, .f32⟩
  | 30 => ⟨S1x256, .f32⟩
  | 31 => ⟨S1x256, .f32⟩
  | 32 => ⟨S2000x128, .f32⟩
  | 33 => ⟨S2000x128, .f32⟩
  | 34 => ⟨S1x128, .f32⟩
  | 35 => ⟨S1x128, .f32⟩
  | 36 => ⟨S1x128, .f32⟩
  | 37 => ⟨S1x128, .f32⟩
  | 38 => ⟨S2000x128, .f32⟩
  | 39 => ⟨S2000x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 156 → Bool
  | ⟨i, _⟩ => dmaSemScopedAt i

abbrev sig : RefSig :=
  ofTc nBuf bufTy 0 156 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_0 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_1 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22_0 : Ref sig .tc := ⟨.hbm, 53, rfl⟩
abbrev main_v22_1 : Ref sig .tc := ⟨.hbm, 54, rfl⟩
abbrev main_v23 : Ref sig .tc := ⟨.hbm, 55, rfl⟩
abbrev main_cst_2 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_3 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35_0 : Ref sig .tc := ⟨.hbm, 70, rfl⟩
abbrev main_v35_1 : Ref sig .tc := ⟨.hbm, 71, rfl⟩
abbrev main_v36 : Ref sig .tc := ⟨.hbm, 72, rfl⟩
abbrev main_cst_5 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_6 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_7 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_8 : Ref sig .tc := ⟨.hbm, 92, rfl⟩
abbrev main_v53 : Ref sig .tc := ⟨.hbm, 93, rfl⟩
abbrev main_v54 : Ref sig .tc := ⟨.hbm, 94, rfl⟩
abbrev main_c_9 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_10 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63_0 : Ref sig .tc := ⟨.hbm, 105, rfl⟩
abbrev main_v63_1 : Ref sig .tc := ⟨.hbm, 106, rfl⟩
abbrev main_v64 : Ref sig .tc := ⟨.hbm, 107, rfl⟩
abbrev main_cst_11 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_12 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_13 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76_0 : Ref sig .tc := ⟨.hbm, 122, rfl⟩
abbrev main_v76_1 : Ref sig .tc := ⟨.hbm, 123, rfl⟩
abbrev main_v77 : Ref sig .tc := ⟨.hbm, 124, rfl⟩
abbrev main_cst_14 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_15 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_16 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_17 : Ref sig .tc := ⟨.hbm, 140, rfl⟩
abbrev main_call1_v0 : Ref sig .tc := ⟨.hbm, 141, rfl⟩
abbrev main_call1_v1 : Ref sig .tc := ⟨.hbm, 142, rfl⟩
abbrev main_call1_v2 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_c_18 : Ref sig .tc := ⟨.hbm, 149, rfl⟩
abbrev main_v95 : Ref sig .tc := ⟨.hbm, 150, rfl⟩
abbrev main_v96 : Ref sig .tc := ⟨.hbm, 151, rfl⟩
abbrev main_c_19 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_cst_20 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105_0 : Ref sig .tc := ⟨.hbm, 162, rfl⟩
abbrev main_v105_1 : Ref sig .tc := ⟨.hbm, 163, rfl⟩
abbrev main_v106 : Ref sig .tc := ⟨.hbm, 164, rfl⟩
abbrev main_cst_21 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_cst_22 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_23 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118_0 : Ref sig .tc := ⟨.hbm, 179, rfl⟩
abbrev main_v118_1 : Ref sig .tc := ⟨.hbm, 180, rfl⟩
abbrev main_v119 : Ref sig .tc := ⟨.hbm, 181, rfl⟩
abbrev main_cst_24 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_25 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_26 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_call2_v0 : Ref sig .tc := ⟨.hbm, 198, rfl⟩
abbrev main_call2_cst : Ref sig .tc := ⟨.hbm, 199, rfl⟩
abbrev main_call2_v1 : Ref sig .tc := ⟨.hbm, 200, rfl⟩
abbrev main_call2_v2 : Ref sig .tc := ⟨.hbm, 201, rfl⟩
abbrev main_v133 : Ref sig .tc := ⟨.hbm, 202, rfl⟩
abbrev main_cst_27 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_call3_v0 : Ref sig .tc := ⟨.hbm, 208, rfl⟩
abbrev main_call3_cst : Ref sig .tc := ⟨.hbm, 209, rfl⟩
abbrev main_call3_v1 : Ref sig .tc := ⟨.hbm, 210, rfl⟩
abbrev main_call3_v2 : Ref sig .tc := ⟨.hbm, 211, rfl⟩
abbrev main_v138 : Ref sig .tc := ⟨.hbm, 212, rfl⟩
abbrev main_cst_28 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_cst_29 : Ref sig .tc := ⟨.hbm, 219, rfl⟩
abbrev main_v144 : Ref sig .tc := ⟨.hbm, 220, rfl⟩
abbrev main_cst_30 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_cst_31 : Ref sig .tc := ⟨.hbm, 225, rfl⟩
abbrev main_v148 : Ref sig .tc := ⟨.hbm, 226, rfl⟩
abbrev main_cst_32 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_cst_33 : Ref sig .tc := ⟨.hbm, 231, rfl⟩
abbrev main_call4_v0 : Ref sig .tc := ⟨.hbm, 232, rfl⟩
abbrev main_call4_v1 : Ref sig .tc := ⟨.hbm, 233, rfl⟩
abbrev main_call4_v2 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_c_34 : Ref sig .tc := ⟨.hbm, 240, rfl⟩
abbrev main_v157 : Ref sig .tc := ⟨.hbm, 241, rfl⟩
abbrev main_v158 : Ref sig .tc := ⟨.hbm, 242, rfl⟩
abbrev main_c_35 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_cst_36 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167_0 : Ref sig .tc := ⟨.hbm, 253, rfl⟩
abbrev main_v167_1 : Ref sig .tc := ⟨.hbm, 254, rfl⟩
abbrev main_v168 : Ref sig .tc := ⟨.hbm, 255, rfl⟩
abbrev main_cst_37 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_cst_38 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_cst_39 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180_0 : Ref sig .tc := ⟨.hbm, 270, rfl⟩
abbrev main_v180_1 : Ref sig .tc := ⟨.hbm, 271, rfl⟩
abbrev main_v181 : Ref sig .tc := ⟨.hbm, 272, rfl⟩
abbrev main_cst_40 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_cst_41 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_cst_42 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_c_43 : Ref sig .tc := ⟨.hbm, 292, rfl⟩
abbrev main_v198 : Ref sig .tc := ⟨.hbm, 293, rfl⟩
abbrev main_v199 : Ref sig .tc := ⟨.hbm, 294, rfl⟩
abbrev main_c_44 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_cst_45 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208_0 : Ref sig .tc := ⟨.hbm, 305, rfl⟩
abbrev main_v208_1 : Ref sig .tc := ⟨.hbm, 306, rfl⟩
abbrev main_v209 : Ref sig .tc := ⟨.hbm, 307, rfl⟩
abbrev main_cst_46 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_cst_47 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_cst_48 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221_0 : Ref sig .tc := ⟨.hbm, 322, rfl⟩
abbrev main_v221_1 : Ref sig .tc := ⟨.hbm, 323, rfl⟩
abbrev main_v222 : Ref sig .tc := ⟨.hbm, 324, rfl⟩
abbrev main_cst_49 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_cst_50 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_cst_51 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_cst_52 : Ref sig .tc := ⟨.hbm, 340, rfl⟩
abbrev main_call5_v0 : Ref sig .tc := ⟨.hbm, 341, rfl⟩
abbrev main_call5_v1 : Ref sig .tc := ⟨.hbm, 342, rfl⟩
abbrev main_call5_v2 : Ref sig .tc := ⟨.hbm, 343, rfl⟩
abbrev main_v235 : Ref sig .tc := ⟨.hbm, 344, rfl⟩
abbrev main_v236 : Ref sig .tc := ⟨.hbm, 345, rfl⟩
abbrev main_v237 : Ref sig .tc := ⟨.hbm, 346, rfl⟩
abbrev main_v238 : Ref sig .tc := ⟨.hbm, 347, rfl⟩
abbrev main_v239 : Ref sig .tc := ⟨.hbm, 348, rfl⟩
abbrev main_c_53 : Ref sig .tc := ⟨.hbm, 349, rfl⟩
abbrev main_v240 : Ref sig .tc := ⟨.hbm, 350, rfl⟩
abbrev main_v241 : Ref sig .tc := ⟨.hbm, 351, rfl⟩
abbrev main_c_54 : Ref sig .tc := ⟨.hbm, 352, rfl⟩
abbrev main_v242 : Ref sig .tc := ⟨.hbm, 353, rfl⟩
abbrev main_v243 : Ref sig .tc := ⟨.hbm, 354, rfl⟩
abbrev main_v244 : Ref sig .tc := ⟨.hbm, 355, rfl⟩
abbrev main_v245 : Ref sig .tc := ⟨.hbm, 356, rfl⟩
abbrev main_v246 : Ref sig .tc := ⟨.hbm, 357, rfl⟩
abbrev main_cst_55 : Ref sig .tc := ⟨.hbm, 358, rfl⟩
abbrev main_v247 : Ref sig .tc := ⟨.hbm, 359, rfl⟩
abbrev main_v248 : Ref sig .tc := ⟨.hbm, 360, rfl⟩
abbrev main_v249 : Ref sig .tc := ⟨.hbm, 361, rfl⟩
abbrev main_v250_0 : Ref sig .tc := ⟨.hbm, 362, rfl⟩
abbrev main_v250_1 : Ref sig .tc := ⟨.hbm, 363, rfl⟩
abbrev main_v251 : Ref sig .tc := ⟨.hbm, 364, rfl⟩
abbrev main_cst_56 : Ref sig .tc := ⟨.hbm, 365, rfl⟩
abbrev main_v252 : Ref sig .tc := ⟨.hbm, 366, rfl⟩
abbrev main_v253 : Ref sig .tc := ⟨.hbm, 367, rfl⟩
abbrev main_v254 : Ref sig .tc := ⟨.hbm, 368, rfl⟩
abbrev main_cst_57 : Ref sig .tc := ⟨.hbm, 369, rfl⟩
abbrev main_v255 : Ref sig .tc := ⟨.hbm, 370, rfl⟩
abbrev main_v256 : Ref sig .tc := ⟨.hbm, 371, rfl⟩
abbrev main_v257 : Ref sig .tc := ⟨.hbm, 372, rfl⟩
abbrev main_v258 : Ref sig .tc := ⟨.hbm, 373, rfl⟩
abbrev main_cst_58 : Ref sig .tc := ⟨.hbm, 374, rfl⟩
abbrev main_v259 : Ref sig .tc := ⟨.hbm, 375, rfl⟩
abbrev main_v260 : Ref sig .tc := ⟨.hbm, 376, rfl⟩
abbrev main_v261 : Ref sig .tc := ⟨.hbm, 377, rfl⟩
abbrev main_v262 : Ref sig .tc := ⟨.hbm, 378, rfl⟩
abbrev main_v263_0 : Ref sig .tc := ⟨.hbm, 379, rfl⟩
abbrev main_v263_1 : Ref sig .tc := ⟨.hbm, 380, rfl⟩
abbrev main_v264 : Ref sig .tc := ⟨.hbm, 381, rfl⟩
abbrev main_cst_59 : Ref sig .tc := ⟨.hbm, 382, rfl⟩
abbrev main_v265 : Ref sig .tc := ⟨.hbm, 383, rfl⟩
abbrev main_v266 : Ref sig .tc := ⟨.hbm, 384, rfl⟩
abbrev main_v267 : Ref sig .tc := ⟨.hbm, 385, rfl⟩
abbrev main_cst_60 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_cst_61 : Ref sig .tc := ⟨.hbm, 391, rfl⟩
abbrev main_v272 : Ref sig .tc := ⟨.hbm, 392, rfl⟩
abbrev main_v273 : Ref sig .tc := ⟨.hbm, 393, rfl⟩
abbrev main_v274 : Ref sig .tc := ⟨.hbm, 394, rfl⟩
abbrev main_v275 : Ref sig .tc := ⟨.hbm, 395, rfl⟩
abbrev main_v276 : Ref sig .tc := ⟨.hbm, 396, rfl⟩
abbrev main_v277 : Ref sig .tc := ⟨.hbm, 397, rfl⟩
abbrev main_call6_v0 : Ref sig .tc := ⟨.hbm, 398, rfl⟩
abbrev main_call6_cst : Ref sig .tc := ⟨.hbm, 399, rfl⟩
abbrev main_call6_v1 : Ref sig .tc := ⟨.hbm, 400, rfl⟩
abbrev main_call6_v2 : Ref sig .tc := ⟨.hbm, 401, rfl⟩
abbrev main_v278 : Ref sig .tc := ⟨.hbm, 402, rfl⟩
abbrev main_cst_62 : Ref sig .tc := ⟨.hbm, 403, rfl⟩
abbrev main_v279 : Ref sig .tc := ⟨.hbm, 404, rfl⟩
abbrev main_v280 : Ref sig .tc := ⟨.hbm, 405, rfl⟩
abbrev main_v281 : Ref sig .tc := ⟨.hbm, 406, rfl⟩
abbrev main_v282 : Ref sig .tc := ⟨.hbm, 407, rfl⟩
abbrev main_call7_v0 : Ref sig .tc := ⟨.hbm, 408, rfl⟩
abbrev main_call7_cst : Ref sig .tc := ⟨.hbm, 409, rfl⟩
abbrev main_call7_v1 : Ref sig .tc := ⟨.hbm, 410, rfl⟩
abbrev main_call7_v2 : Ref sig .tc := ⟨.hbm, 411, rfl⟩
abbrev main_v283 : Ref sig .tc := ⟨.hbm, 412, rfl⟩
abbrev main_cst_63 : Ref sig .tc := ⟨.hbm, 413, rfl⟩
abbrev main_v284 : Ref sig .tc := ⟨.hbm, 414, rfl⟩
abbrev main_v285 : Ref sig .tc := ⟨.hbm, 415, rfl⟩
abbrev main_v286 : Ref sig .tc := ⟨.hbm, 416, rfl⟩
abbrev main_v287 : Ref sig .tc := ⟨.hbm, 417, rfl⟩
abbrev main_v288 : Ref sig .tc := ⟨.hbm, 418, rfl⟩
abbrev main_cst_64 : Ref sig .tc := ⟨.hbm, 419, rfl⟩
abbrev main_v289 : Ref sig .tc := ⟨.hbm, 420, rfl⟩
abbrev main_cst_65 : Ref sig .tc := ⟨.hbm, 421, rfl⟩
abbrev main_v290 : Ref sig .tc := ⟨.hbm, 422, rfl⟩
abbrev main_v291 : Ref sig .tc := ⟨.hbm, 423, rfl⟩
abbrev main_v292 : Ref sig .tc := ⟨.hbm, 424, rfl⟩
abbrev main_cst_66 : Ref sig .tc := ⟨.hbm, 425, rfl⟩
abbrev main_v293 : Ref sig .tc := ⟨.hbm, 426, rfl⟩
abbrev main_cst_67 : Ref sig .tc := ⟨.hbm, 427, rfl⟩
abbrev main_v294 : Ref sig .tc := ⟨.hbm, 428, rfl⟩
abbrev main_v295 : Ref sig .tc := ⟨.hbm, 429, rfl⟩
abbrev main_call8_v0 : Ref sig .tc := ⟨.hbm, 430, rfl⟩
abbrev main_call8_cst : Ref sig .tc := ⟨.hbm, 431, rfl⟩
abbrev main_call8_v1 : Ref sig .tc := ⟨.hbm, 432, rfl⟩
abbrev main_call8_v2 : Ref sig .tc := ⟨.hbm, 433, rfl⟩
abbrev main_v296 : Ref sig .tc := ⟨.hbm, 434, rfl⟩
abbrev main_cst_68 : Ref sig .tc := ⟨.hbm, 435, rfl⟩
abbrev main_v297 : Ref sig .tc := ⟨.hbm, 436, rfl⟩
abbrev main_v298 : Ref sig .tc := ⟨.hbm, 437, rfl⟩
abbrev main_v299 : Ref sig .tc := ⟨.hbm, 438, rfl⟩
abbrev main_v300 : Ref sig .tc := ⟨.hbm, 439, rfl⟩
abbrev main_call9_v0 : Ref sig .tc := ⟨.hbm, 440, rfl⟩
abbrev main_call9_cst : Ref sig .tc := ⟨.hbm, 441, rfl⟩
abbrev main_call9_v1 : Ref sig .tc := ⟨.hbm, 442, rfl⟩
abbrev main_call9_v2 : Ref sig .tc := ⟨.hbm, 443, rfl⟩
abbrev main_v301 : Ref sig .tc := ⟨.hbm, 444, rfl⟩
abbrev main_cst_69 : Ref sig .tc := ⟨.hbm, 445, rfl⟩
abbrev main_v302 : Ref sig .tc := ⟨.hbm, 446, rfl⟩
abbrev main_v303 : Ref sig .tc := ⟨.hbm, 447, rfl⟩
abbrev main_v304 : Ref sig .tc := ⟨.hbm, 448, rfl⟩
abbrev main_v305 : Ref sig .tc := ⟨.hbm, 449, rfl⟩
abbrev main_v306 : Ref sig .tc := ⟨.hbm, 450, rfl⟩
abbrev main_cst_70 : Ref sig .tc := ⟨.hbm, 451, rfl⟩
abbrev main_v307 : Ref sig .tc := ⟨.hbm, 452, rfl⟩
abbrev main_cst_71 : Ref sig .tc := ⟨.hbm, 453, rfl⟩
abbrev main_v308 : Ref sig .tc := ⟨.hbm, 454, rfl⟩
abbrev main_v309 : Ref sig .tc := ⟨.hbm, 455, rfl⟩
abbrev main_cst_72 : Ref sig .tc := ⟨.hbm, 456, rfl⟩
abbrev main_v310 : Ref sig .tc := ⟨.hbm, 457, rfl⟩
abbrev main_cst_73 : Ref sig .tc := ⟨.hbm, 458, rfl⟩
abbrev main_v311 : Ref sig .tc := ⟨.hbm, 459, rfl⟩
abbrev main_v312 : Ref sig .tc := ⟨.hbm, 460, rfl⟩
abbrev main_cst_74 : Ref sig .tc := ⟨.hbm, 461, rfl⟩
abbrev main_v313 : Ref sig .tc := ⟨.hbm, 462, rfl⟩
abbrev main_v314 : Ref sig .tc := ⟨.hbm, 463, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_scratch0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_scratch0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg3_1 : Ref sig .tc := ⟨.vmem, 62, rfl⟩
abbrev cc6_stg4_0 : Ref sig .tc := ⟨.vmem, 63, rfl⟩
abbrev cc6_scratch0 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg2_0 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg5_0 : Ref sig .tc := ⟨.vmem, 71, rfl⟩
abbrev cc7_stg6_0 : Ref sig .tc := ⟨.vmem, 72, rfl⟩
abbrev cc7_stg6_1 : Ref sig .tc := ⟨.vmem, 73, rfl⟩
abbrev cc7_stg7_0 : Ref sig .tc := ⟨.vmem, 74, rfl⟩
abbrev cc7_scratch0 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_stg5_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg1_1 : Ref sig .tc := ⟨.vmem, 87, rfl⟩
abbrev cc9_stg2_0 : Ref sig .tc := ⟨.vmem, 88, rfl⟩
abbrev cc9_stg3_0 : Ref sig .tc := ⟨.vmem, 89, rfl⟩
abbrev cc9_stg3_1 : Ref sig .tc := ⟨.vmem, 90, rfl⟩
abbrev cc9_stg4_0 : Ref sig .tc := ⟨.vmem, 91, rfl⟩
abbrev cc9_scratch0 : Ref sig .tc := ⟨.vmem, 92, rfl⟩
abbrev cc10_stg0_0 : Ref sig .tc := ⟨.vmem, 93, rfl⟩
abbrev cc10_stg0_1 : Ref sig .tc := ⟨.vmem, 94, rfl⟩
abbrev cc10_stg1_0 : Ref sig .tc := ⟨.vmem, 95, rfl⟩
abbrev cc10_stg2_0 : Ref sig .tc := ⟨.vmem, 96, rfl⟩
abbrev cc10_stg3_0 : Ref sig .tc := ⟨.vmem, 97, rfl⟩
abbrev cc10_stg4_0 : Ref sig .tc := ⟨.vmem, 98, rfl⟩
abbrev cc10_stg5_0 : Ref sig .tc := ⟨.vmem, 99, rfl⟩
abbrev cc10_stg6_0 : Ref sig .tc := ⟨.vmem, 100, rfl⟩
abbrev cc10_stg6_1 : Ref sig .tc := ⟨.vmem, 101, rfl⟩
abbrev cc10_stg7_0 : Ref sig .tc := ⟨.vmem, 102, rfl⟩
abbrev cc10_scratch0 : Ref sig .tc := ⟨.vmem, 103, rfl⟩
abbrev cc11_stg0_0 : Ref sig .tc := ⟨.vmem, 104, rfl⟩
abbrev cc11_stg0_1 : Ref sig .tc := ⟨.vmem, 105, rfl⟩
abbrev cc11_stg1_0 : Ref sig .tc := ⟨.vmem, 106, rfl⟩
abbrev cc11_stg2_0 : Ref sig .tc := ⟨.vmem, 107, rfl⟩
abbrev cc11_stg3_0 : Ref sig .tc := ⟨.vmem, 108, rfl⟩
abbrev cc11_stg4_0 : Ref sig .tc := ⟨.vmem, 109, rfl⟩
abbrev cc11_stg5_0 : Ref sig .tc := ⟨.vmem, 110, rfl⟩
abbrev cc11_stg5_1 : Ref sig .tc := ⟨.vmem, 111, rfl⟩
abbrev cc12_stg0_0 : Ref sig .tc := ⟨.vmem, 112, rfl⟩
abbrev cc12_stg0_1 : Ref sig .tc := ⟨.vmem, 113, rfl⟩
abbrev cc12_stg1_0 : Ref sig .tc := ⟨.vmem, 114, rfl⟩
abbrev cc12_stg1_1 : Ref sig .tc := ⟨.vmem, 115, rfl⟩
abbrev cc12_stg2_0 : Ref sig .tc := ⟨.vmem, 116, rfl⟩
abbrev cc12_stg3_0 : Ref sig .tc := ⟨.vmem, 117, rfl⟩
abbrev cc12_stg3_1 : Ref sig .tc := ⟨.vmem, 118, rfl⟩
abbrev cc12_stg4_0 : Ref sig .tc := ⟨.vmem, 119, rfl⟩
abbrev cc12_scratch0 : Ref sig .tc := ⟨.vmem, 120, rfl⟩
abbrev cc13_stg0_0 : Ref sig .tc := ⟨.vmem, 121, rfl⟩
abbrev cc13_stg0_1 : Ref sig .tc := ⟨.vmem, 122, rfl⟩
abbrev cc13_stg1_0 : Ref sig .tc := ⟨.vmem, 123, rfl⟩
abbrev cc13_stg2_0 : Ref sig .tc := ⟨.vmem, 124, rfl⟩
abbrev cc13_stg3_0 : Ref sig .tc := ⟨.vmem, 125, rfl⟩
abbrev cc13_stg4_0 : Ref sig .tc := ⟨.vmem, 126, rfl⟩
abbrev cc13_stg5_0 : Ref sig .tc := ⟨.vmem, 127, rfl⟩
abbrev cc13_stg6_0 : Ref sig .tc := ⟨.vmem, 128, rfl⟩
abbrev cc13_stg6_1 : Ref sig .tc := ⟨.vmem, 129, rfl⟩
abbrev cc13_stg7_0 : Ref sig .tc := ⟨.vmem, 130, rfl⟩
abbrev cc13_scratch0 : Ref sig .tc := ⟨.vmem, 131, rfl⟩
abbrev cc14_stg0_0 : Ref sig .tc := ⟨.vmem, 132, rfl⟩
abbrev cc14_stg0_1 : Ref sig .tc := ⟨.vmem, 133, rfl⟩
abbrev cc14_stg1_0 : Ref sig .tc := ⟨.vmem, 134, rfl⟩
abbrev cc14_stg2_0 : Ref sig .tc := ⟨.vmem, 135, rfl⟩
abbrev cc14_stg3_0 : Ref sig .tc := ⟨.vmem, 136, rfl⟩
abbrev cc14_stg4_0 : Ref sig .tc := ⟨.vmem, 137, rfl⟩
abbrev cc14_stg5_0 : Ref sig .tc := ⟨.vmem, 138, rfl⟩
abbrev cc14_stg5_1 : Ref sig .tc := ⟨.vmem, 139, rfl⟩
abbrev cc15_stg0_0 : Ref sig .tc := ⟨.vmem, 140, rfl⟩
abbrev cc15_stg0_1 : Ref sig .tc := ⟨.vmem, 141, rfl⟩
abbrev cc15_stg1_0 : Ref sig .tc := ⟨.vmem, 142, rfl⟩
abbrev cc15_stg1_1 : Ref sig .tc := ⟨.vmem, 143, rfl⟩
abbrev cc15_stg2_0 : Ref sig .tc := ⟨.vmem, 144, rfl⟩
abbrev cc15_stg3_0 : Ref sig .tc := ⟨.vmem, 145, rfl⟩
abbrev cc15_stg3_1 : Ref sig .tc := ⟨.vmem, 146, rfl⟩
abbrev cc15_stg4_0 : Ref sig .tc := ⟨.vmem, 147, rfl⟩
abbrev cc15_scratch0 : Ref sig .tc := ⟨.vmem, 148, rfl⟩
abbrev cc16_stg0_0 : Ref sig .tc := ⟨.vmem, 149, rfl⟩
abbrev cc16_stg0_1 : Ref sig .tc := ⟨.vmem, 150, rfl⟩
abbrev cc16_stg1_0 : Ref sig .tc := ⟨.vmem, 151, rfl⟩
abbrev cc16_stg2_0 : Ref sig .tc := ⟨.vmem, 152, rfl⟩
abbrev cc16_stg3_0 : Ref sig .tc := ⟨.vmem, 153, rfl⟩
abbrev cc16_stg4_0 : Ref sig .tc := ⟨.vmem, 154, rfl⟩
abbrev cc16_stg5_0 : Ref sig .tc := ⟨.vmem, 155, rfl⟩
abbrev cc16_stg6_0 : Ref sig .tc := ⟨.vmem, 156, rfl⟩
abbrev cc16_stg6_1 : Ref sig .tc := ⟨.vmem, 157, rfl⟩
abbrev cc16_stg7_0 : Ref sig .tc := ⟨.vmem, 158, rfl⟩
abbrev cc16_scratch0 : Ref sig .tc := ⟨.vmem, 159, rfl⟩
abbrev cc17_stg0_0 : Ref sig .tc := ⟨.vmem, 160, rfl⟩
abbrev cc17_stg0_1 : Ref sig .tc := ⟨.vmem, 161, rfl⟩
abbrev cc17_stg1_0 : Ref sig .tc := ⟨.vmem, 162, rfl⟩
abbrev cc17_stg2_0 : Ref sig .tc := ⟨.vmem, 163, rfl⟩
abbrev cc17_stg3_0 : Ref sig .tc := ⟨.vmem, 164, rfl⟩
abbrev cc17_stg4_0 : Ref sig .tc := ⟨.vmem, 165, rfl⟩
abbrev cc17_stg5_0 : Ref sig .tc := ⟨.vmem, 166, rfl⟩
abbrev cc17_stg5_1 : Ref sig .tc := ⟨.vmem, 167, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem3_1 : DmaSem sig := 32
abbrev cc3_sem4_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem6_1 : DmaSem sig := 42
abbrev cc4_sem7_0 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem3_1 : DmaSem sig := 58
abbrev cc6_sem4_0 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem6_0 : DmaSem sig := 67
abbrev cc7_sem6_1 : DmaSem sig := 68
abbrev cc7_sem7_0 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem4_0 : DmaSem sig := 75
abbrev cc8_sem5_0 : DmaSem sig := 76
abbrev cc8_sem5_1 : DmaSem sig := 77
abbrev cc9_sem0_0 : DmaSem sig := 78
abbrev cc9_sem0_1 : DmaSem sig := 79
abbrev cc9_sem1_0 : DmaSem sig := 80
abbrev cc9_sem1_1 : DmaSem sig := 81
abbrev cc9_sem2_0 : DmaSem sig := 82
abbrev cc9_sem3_0 : DmaSem sig := 83
abbrev cc9_sem3_1 : DmaSem sig := 84
abbrev cc9_sem4_0 : DmaSem sig := 85
abbrev cc10_sem0_0 : DmaSem sig := 86
abbrev cc10_sem0_1 : DmaSem sig := 87
abbrev cc10_sem1_0 : DmaSem sig := 88
abbrev cc10_sem2_0 : DmaSem sig := 89
abbrev cc10_sem3_0 : DmaSem sig := 90
abbrev cc10_sem4_0 : DmaSem sig := 91
abbrev cc10_sem5_0 : DmaSem sig := 92
abbrev cc10_sem6_0 : DmaSem sig := 93
abbrev cc10_sem6_1 : DmaSem sig := 94
abbrev cc10_sem7_0 : DmaSem sig := 95
abbrev cc11_sem0_0 : DmaSem sig := 96
abbrev cc11_sem0_1 : DmaSem sig := 97
abbrev cc11_sem1_0 : DmaSem sig := 98
abbrev cc11_sem2_0 : DmaSem sig := 99
abbrev cc11_sem3_0 : DmaSem sig := 100
abbrev cc11_sem4_0 : DmaSem sig := 101
abbrev cc11_sem5_0 : DmaSem sig := 102
abbrev cc11_sem5_1 : DmaSem sig := 103
abbrev cc12_sem0_0 : DmaSem sig := 104
abbrev cc12_sem0_1 : DmaSem sig := 105
abbrev cc12_sem1_0 : DmaSem sig := 106
abbrev cc12_sem1_1 : DmaSem sig := 107
abbrev cc12_sem2_0 : DmaSem sig := 108
abbrev cc12_sem3_0 : DmaSem sig := 109
abbrev cc12_sem3_1 : DmaSem sig := 110
abbrev cc12_sem4_0 : DmaSem sig := 111
abbrev cc13_sem0_0 : DmaSem sig := 112
abbrev cc13_sem0_1 : DmaSem sig := 113
abbrev cc13_sem1_0 : DmaSem sig := 114
abbrev cc13_sem2_0 : DmaSem sig := 115
abbrev cc13_sem3_0 : DmaSem sig := 116
abbrev cc13_sem4_0 : DmaSem sig := 117
abbrev cc13_sem5_0 : DmaSem sig := 118
abbrev cc13_sem6_0 : DmaSem sig := 119
abbrev cc13_sem6_1 : DmaSem sig := 120
abbrev cc13_sem7_0 : DmaSem sig := 121
abbrev cc14_sem0_0 : DmaSem sig := 122
abbrev cc14_sem0_1 : DmaSem sig := 123
abbrev cc14_sem1_0 : DmaSem sig := 124
abbrev cc14_sem2_0 : DmaSem sig := 125
abbrev cc14_sem3_0 : DmaSem sig := 126
abbrev cc14_sem4_0 : DmaSem sig := 127
abbrev cc14_sem5_0 : DmaSem sig := 128
abbrev cc14_sem5_1 : DmaSem sig := 129
abbrev cc15_sem0_0 : DmaSem sig := 130
abbrev cc15_sem0_1 : DmaSem sig := 131
abbrev cc15_sem1_0 : DmaSem sig := 132
abbrev cc15_sem1_1 : DmaSem sig := 133
abbrev cc15_sem2_0 : DmaSem sig := 134
abbrev cc15_sem3_0 : DmaSem sig := 135
abbrev cc15_sem3_1 : DmaSem sig := 136
abbrev cc15_sem4_0 : DmaSem sig := 137
abbrev cc16_sem0_0 : DmaSem sig := 138
abbrev cc16_sem0_1 : DmaSem sig := 139
abbrev cc16_sem1_0 : DmaSem sig := 140
abbrev cc16_sem2_0 : DmaSem sig := 141
abbrev cc16_sem3_0 : DmaSem sig := 142
abbrev cc16_sem4_0 : DmaSem sig := 143
abbrev cc16_sem5_0 : DmaSem sig := 144
abbrev cc16_sem6_0 : DmaSem sig := 145
abbrev cc16_sem6_1 : DmaSem sig := 146
abbrev cc16_sem7_0 : DmaSem sig := 147
abbrev cc17_sem0_0 : DmaSem sig := 148
abbrev cc17_sem0_1 : DmaSem sig := 149
abbrev cc17_sem1_0 : DmaSem sig := 150
abbrev cc17_sem2_0 : DmaSem sig := 151
abbrev cc17_sem3_0 : DmaSem sig := 152
abbrev cc17_sem4_0 : DmaSem sig := 153
abbrev cc17_sem5_0 : DmaSem sig := 154
abbrev cc17_sem5_1 : DmaSem sig := 155

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_25 : BitVec 32 := 0#32
  let v48 : BitVec 1 := Scalar.cmpi .ne v47 c0_i32_25
  v48

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_17 : BitVec 32 := 0#32
  let v30 : BitVec 1 := Scalar.cmpi .ne v29 c0_i32_17
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_25 : BitVec 32 := 0#32
  let v48 : BitVec 1 := Scalar.cmpi .ne v47 c0_i32_25
  v48

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x256 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_17 : BitVec 32 := 0#32
  let v30 : BitVec 1 := Scalar.cmpi .ne v29 c0_i32_17
  v30

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x512 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![25], ![false]⟩

def k7_cond2 (i : grid7.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_25 : BitVec 32 := 0#32
  let v48 : BitVec 1 := Scalar.cmpi .ne v47 c0_i32_25
  v48

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x128 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 1 → Memref sig .tc .vmem S1x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def k9_cond2 (i : grid9.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_17 : BitVec 32 := 0#32
  let v30 : BitVec 1 := Scalar.cmpi .ne v29 c0_i32_17
  v30

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x512 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S1x1024 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev grid10 : Pipeline.Grid := ⟨1, ![25], ![false]⟩

def k10_cond2 (i : grid10.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_25 : BitVec 32 := 0#32
  let v48 : BitVec 1 := Scalar.cmpi .ne v47 c0_i32_25
  v48

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x512 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x512 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x512 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S512x256 .bf16 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S2000x256 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 1 → Memref sig .tc .vmem S1x512 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![25], ![false]⟩

def k12_cond2 (i : grid12.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_17 : BitVec 32 := 0#32
  let v30 : BitVec 1 := Scalar.cmpi .ne v29 c0_i32_17
  v30

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S2000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S256x512 .bf16 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x512 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 1 → Memref sig .tc .vmem S1x1024 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev grid13 : Pipeline.Grid := ⟨1, ![25], ![false]⟩

def k13_cond2 (i : grid13.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_25 : BitVec 32 := 0#32
  let v48 : BitVec 1 := Scalar.cmpi .ne v47 c0_i32_25
  v48

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S2000x512 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x512 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x512 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x512 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x512 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S512x256 .bf16 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S2000x256 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev stage13_7 : Fin 1 → Memref sig .tc .vmem S1x512 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S2000x256 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![25], ![false]⟩

def k15_cond2 (i : grid15.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_17 : BitVec 32 := 0#32
  let v30 : BitVec 1 := Scalar.cmpi .ne v29 c0_i32_17
  v30

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S2000x256 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S2000x256 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S256x512 .bf16 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S2000x512 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev stage15_4 : Fin 1 → Memref sig .tc .vmem S1x1024 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev grid16 : Pipeline.Grid := ⟨1, ![25], ![false]⟩

def k16_cond2 (i : grid16.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_25 : BitVec 32 := 0#32
  let v48 : BitVec 1 := Scalar.cmpi .ne v47 c0_i32_25
  v48

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_7 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S2000x512 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x512 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x512 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x512 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x512 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S512x128 .bf16 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 2 → Memref sig .tc .vmem S2000x128 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

abbrev stage16_7 : Fin 1 → Memref sig .tc .vmem S1x256 .f32 := fun | 0 => Memref.whole cc16_stg7_0 | ⟨_ + 1, h⟩ => absurd h (Nat.not_lt.2 (Nat.le_add_left _ _))
abbrev sem16_7 : Fin 1 → DmaSem sig := fun | 0 => cc16_sem7_0 | ⟨_ + 1, h⟩ => absurd h (Nat.not_lt.2 (Nat.le_add_left _ _))
abbrev reads16_7 : Fin grid16.rank → Bool := ![false]

abbrev grid17 : Pipeline.Grid := ⟨1, ![25], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 2 → Memref sig .tc .vmem S2000x128 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

class Facts₀ : Prop where
  bitsLt_bf16_f32 : FTy.bits .bf16 < FTy.bits .f32
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2000x512_S2000x512_0_0 : ∀ a, (![0, 0] : Fin 2 → Nat) a + S2000x512.size a ≤ S2000x512.size a
  h_S2000x512 : 0 < S2000x512.numel
  reduces_S2000x512_S512 : S2000x512.Reduces [0] S512
  shapeCasts_S512_S1x512 : S512.ShapeCasts S1x512
  inb_S1x1024_S1x512_0_0 : ∀ a, (![0, 0] : Fin 2 → Nat) a + S1x512.size a ≤ S1x1024.size a
  h_S1x512 : 0 < S1x512.numel
  shapeCasts_S1x512_S1x512 : S1x512.ShapeCasts S1x512
  inb_S1x1024_S1x512_0_512 : ∀ a, (![0, 512] : Fin 2 → Nat) a + S1x512.size a ≤ S1x1024.size a
  slices_S1x1024_S1x512_0_0 : S1x1024.Slices ![0, 0] S1x512
  bcast_S_S1x512 : S_.BroadcastsInDim S1x512 (![] : Fin 0 → Fin S1x512.rank)
  slices_S1x1024_S1x512_0_512 : S1x1024.Slices ![0, 512] S1x512
  inb_S1x512_S1x512_0_0 : ∀ a, (![0, 0] : Fin 2 → Nat) a + S1x512.size a ≤ S1x512.size a
  shapeCasts_S2000x512_S2000x512 : S2000x512.ShapeCasts S2000x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  shapeCasts_S256_S1x256 : S256.ShapeCasts S1x256
  inb_S1x512_S1x256_0_0 : ∀ a, (![0, 0] : Fin 2 → Nat) a + S1x256.size a ≤ S1x512.size a
  h_S1x256 : 0 < S1x256.numel
  shapeCasts_S1x256_S1x256 : S1x256.ShapeCasts S1x256
  inb_S1x512_S1x256_0_256 : ∀ a, (![0, 256] : Fin 2 → Nat) a + S1x256.size a ≤ S1x512.size a
  slices_S1x512_S1x256_0_0 : S1x512.Slices ![0, 0] S1x256
  bcast_S_S1x256 : S_.BroadcastsInDim S1x256 (![] : Fin 0 → Fin S1x256.rank)
  slices_S1x512_S1x256_0_256 : S1x512.Slices ![0, 256] S1x256
  shapeCasts_S2000x256_S2000x256 : S2000x256.ShapeCasts S2000x256
  inb_S1x256_S1x256_0_0 : ∀ a, (![0, 0] : Fin 2 → Nat) a + S1x256.size a ≤ S1x256.size a
  broadcasts_S1x256_S2000x256 : S1x256.Broadcasts S2000x256
  bcast_S_S50000x256 : S_.BroadcastsInDim S50000x256 (![] : Fin 0 → Fin S50000x256.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bcast_S50000x1_S50000x256_0_1 : S50000x1.BroadcastsInDim S50000x256 (![0, 1] : Fin 2 → Fin S50000x256.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S2000x128_S128 : S2000x128.Reduces [0] S128
  shapeCasts_S128_S1x128 : S128.ShapeCasts S1x128
  inb_S1x256_S1x128_0_0 : ∀ a, (![0, 0] : Fin 2 → Nat) a + S1x128.size a ≤ S1x256.size a
  h_S1x128 : 0 < S1x128.numel
  shapeCasts_S1x128_S1x128 : S1x128.ShapeCasts S1x128
  inb_S1x256_S1x128_0_128 : ∀ a, (![0, 128] : Fin 2 → Nat) a + S1x128.size a ≤ S1x256.size a
  slices_S1x256_S1x128_0_0 : S1x256.Slices ![0, 0] S1x128
  bcast_S_S1x128 : S_.BroadcastsInDim S1x128 (![] : Fin 0 → Fin S1x128.rank)
  slices_S1x256_S1x128_0_128 : S1x256.Slices ![0, 128] S1x128
  inb_S1x128_S1x128_0_0 : ∀ a, (![0, 0] : Fin 2 → Nat) a + S1x128.size a ≤ S1x128.size a
  broadcasts_S1x128_S2000x128 : S1x128.Broadcasts S2000x128
  reducesTo_S50000x128_S50000_d1 : S50000x128.ReducesTo [1] S50000
  h_S_ : 0 < S_.numel
  bcast_S_S50000x1 : S_.BroadcastsInDim S50000x1 (![] : Fin 0 → Fin S50000x1.rank)
  bcast_S_S50000 : S_.BroadcastsInDim S50000 (![] : Fin 0 → Fin S50000.rank)
  reducesTo_S50000_S_d0 : S50000.ReducesTo [0] S_
  gather_S50000x128_S320000x1_S320000x128_1_0_n_n_0_1_1128_wf : GatherDims.WF S50000x128 S320000x1 S320000x128 [1] [0] [] [0] [] 1 ![1, 128]
  scatter_S50000x128_S320000x1_S320000x128_1_0_0_1_wf : ScatterDims.WF S50000x128 S320000x1 S320000x128 [1] [0] [0] 1
  dot_S2000x128_S128x512_S2000x512_1_0_0_1_n_n_wf : DotDims.WF S2000x128 S128x512 S2000x512 [1] [0] [0] [1] [] []
  dot_S2000x512_S512x256_S2000x256_1_0_0_1_n_n_wf : DotDims.WF S2000x512 S512x256 S2000x256 [1] [0] [0] [1] [] []
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  dot_S2000x256_S256x512_S2000x512_1_0_0_1_n_n_wf : DotDims.WF S2000x256 S256x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .bf16 = 32 ∨ (Rect.block (s := S512x256) S512x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x512.size a ≤ S256x512.size a
  hwx3_2 : ∀ i : grid3.Coords, EltTy.bits .bf16 = 32 ∨ (Rect.block (s := S256x512) S256x512.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x512.size a ≤ S50000x512.size a
  hwx3_3 : ∀ i : grid3.Coords, EltTy.bits .f32 = 32 ∨ (Rect.block (s := S50000x512) S2000x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S50000x512.size a
  hwx4_0 : ∀ i : grid4.Coords, EltTy.bits .f32 = 32 ∨ (Rect.block (s := S50000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x512.size a ≤ S1x512.size a
  hwx4_1 : ∀ i : grid4.Coords, EltTy.bits .f32 = 32 ∨ (Rect.block (s := S1x512) S1x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x256.size a ≤ S512x256.size a
  hwx4_5 : ∀ i : grid4.Coords, EltTy.bits .bf16 = 32 ∨ (Rect.block (s := S512x256) S512x256.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S50000x256.size a
  hwx4_6 : ∀ i : grid4.Coords, EltTy.bits .f32 = 32 ∨ (Rect.block (s := S50000x256) S2000x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x512.size a ≤ S1x512.size a
  hwx4_7 : ∀ i : grid4.Coords, EltTy.bits .f32 = 32 ∨ (Rect.block (s := S1x512) S1x512.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x512.size a ≤ S256x512.size a
  hwx6_2 : ∀ i : grid6.Coords, EltTy.bits .bf16 = 32 ∨ (Rect.block (s := S256x512) S256x512.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x512.size a ≤ S50000x512.size a
  hwx6_3 : ∀ i : grid6.Coords, EltTy.bits .f32 = 32 ∨ (Rect.block (s := S50000x512) S2000x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1024.size a ≤ S1x1024.size a
  hwx6_4 : ∀ i : grid6.Coords, EltTy.bits .f32 = 32 ∨ (Rect.block (s := S1x1024) S1x1024.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x512.size a ≤ S50000x512.size a
  hwx7_0 : ∀ i : grid7.Coords, EltTy.bits .f32 = 32 ∨ (Rect.block (s := S50000x512) S2000x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x512.size a ≤ S1x512.size a
  hwx7_1 : ∀ i : grid7.Coords, EltTy.bits .f32 = 32 ∨ (Rect.block (s := S1x512) S1x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x512.size a ≤ S1x512.size a
  hwx7_3 : ∀ i : grid7.Coords, EltTy.bits .f32 = 32 ∨ (Rect.block (s := S1x512) S1x512.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x512.size a ≤ S1x512.size a
  hwx7_4 : ∀ i : grid7.Coords, EltTy.bits .f32 = 32 ∨ (Rect.block (s := S1x512) S1x512.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x128.size a ≤ S512x128.size a
  hwx7_5 : ∀ i : grid7.Coords, EltTy.bits .bf16 = 32 ∨ (Rect.block (s := S512x128) S512x128.size (cc7_transform_5 i) (hinb7_5 i)).WholeWords (EltTy.packing .bf16)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S50000x128.size a
  hwx7_6 : ∀ i : grid7.Coords, EltTy.bits .f32 = 32 ∨ (Rect.block (s := S50000x128) S2000x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x256.size a ≤ S1x256.size a
  hwx7_7 : ∀ i : grid7.Coords, EltTy.bits .f32 = 32 ∨ (Rect.block (s := S1x256) S1x256.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S50000x128.size a
  hwx8_5 : ∀ i : grid8.Coords, EltTy.bits .f32 = 32 ∨ (Rect.block (s := S50000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x512.size a ≤ S128x512.size a
  hwx9_2 : ∀ i : grid9.Coords, EltTy.bits .bf16 = 32 ∨ (Rect.block (s := S128x512) S128x512.size (cc9_transform_2 i) (hinb9_2 i)).WholeWords (EltTy.packing .bf16)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x512.size a ≤ S50000x512.size a
  hwx9_3 : ∀ i : grid9.Coords, EltTy.bits .f32 = 32 ∨ (Rect.block (s := S50000x512) S2000x512.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x1024.size a ≤ S1x1024.size a
  hwx9_4 : ∀ i : grid9.Coords, EltTy.bits .f32 = 32 ∨ (Rect.block (s := S1x1024) S1x1024.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x512.size a ≤ S50000x512.size a
  hwx10_0 : ∀ i : grid10.Coords, EltTy.bits .f32 = 32 ∨ (Rect.block (s := S50000x512) S2000x512.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x512.size a ≤ S1x512.size a
  hwx10_1 : ∀ i : grid10.Coords, EltTy.bits .f32 = 32 ∨ (Rect.block (s := S1x512) S1x512.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x512.size a ≤ S1x512.size a
  hwx10_2 : ∀ i : grid10.Coords, EltTy.bits .f32 = 32 ∨ (Rect.block (s := S1x512) S1x512.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x512.size a ≤ S1x512.size a
  hwx10_3 : ∀ i : grid10.Coords, EltTy.bits .f32 = 32 ∨ (Rect.block (s := S1x512) S1x512.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x512.size a ≤ S1x512.size a
  hwx10_4 : ∀ i : grid10.Coords, EltTy.bits .f32 = 32 ∨ (Rect.block (s := S1x512) S1x512.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S512x256.size a ≤ S512x256.size a
  hwx10_5 : ∀ i : grid10.Coords, EltTy.bits .bf16 = 32 ∨ (Rect.block (s := S512x256) S512x256.size (cc10_transform_5 i) (hinb10_5 i)).WholeWords (EltTy.packing .bf16)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S2000x256.size a ≤ S50000x256.size a
  hwx10_6 : ∀ i : grid10.Coords, EltTy.bits .f32 = 32 ∨ (Rect.block (s := S50000x256) S2000x256.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x512.size a ≤ S1x512.size a
  hwx10_7 : ∀ i : grid10.Coords, EltTy.bits .f32 = 32 ∨ (Rect.block (s := S1x512) S1x512.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x256.size a ≤ S50000x256.size a
  hwx11_0 : ∀ i : grid11.Coords, EltTy.bits .f32 = 32 ∨ (Rect.block (s := S50000x256) S2000x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x256.size a ≤ S1x256.size a
  hwx11_1 : ∀ i : grid11.Coords, EltTy.bits .f32 = 32 ∨ (Rect.block (s := S1x256) S1x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x256.size a ≤ S50000x256.size a
  hwx11_5 : ∀ i : grid11.Coords, EltTy.bits .f32 = 32 ∨ (Rect.block (s := S50000x256) S2000x256.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x256.size a ≤ S50000x256.size a
  hwx12_0 : ∀ i : grid12.Coords, EltTy.bits .f32 = 32 ∨ (Rect.block (s := S50000x256) S2000x256.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x256.size a ≤ S50000x256.size a
  hwx12_1 : ∀ i : grid12.Coords, EltTy.bits .f32 = 32 ∨ (Rect.block (s := S50000x256) S2000x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S256x512.size a ≤ S256x512.size a
  hwx12_2 : ∀ i : grid12.Coords, EltTy.bits .bf16 = 32 ∨ (Rect.block (s := S256x512) S256x512.size (cc12_transform_2 i) (hinb12_2 i)).WholeWords (EltTy.packing .bf16)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x512.size a ≤ S50000x512.size a
  hwx12_3 : ∀ i : grid12.Coords, EltTy.bits .f32 = 32 ∨ (Rect.block (s := S50000x512) S2000x512.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x1024.size a ≤ S1x1024.size a
  hwx12_4 : ∀ i : grid12.Coords, EltTy.bits .f32 = 32 ∨ (Rect.block (s := S1x1024) S1x1024.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x512.size a ≤ S50000x512.size a
  hwx13_0 : ∀ i : grid13.Coords, EltTy.bits .f32 = 32 ∨ (Rect.block (s := S50000x512) S2000x512.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x512.size a ≤ S1x512.size a
  hwx13_1 : ∀ i : grid13.Coords, EltTy.bits .f32 = 32 ∨ (Rect.block (s := S1x512) S1x512.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x512.size a ≤ S1x512.size a
  hwx13_2 : ∀ i : grid13.Coords, EltTy.bits .f32 = 32 ∨ (Rect.block (s := S1x512) S1x512.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x512.size a ≤ S1x512.size a
  hwx13_3 : ∀ i : grid13.Coords, EltTy.bits .f32 = 32 ∨ (Rect.block (s := S1x512) S1x512.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x512.size a ≤ S1x512.size a
  hwx13_4 : ∀ i : grid13.Coords, EltTy.bits .f32 = 32 ∨ (Rect.block (s := S1x512) S1x512.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S512x256.size a ≤ S512x256.size a
  hwx13_5 : ∀ i : grid13.Coords, EltTy.bits .bf16 = 32 ∨ (Rect.block (s := S512x256) S512x256.size (cc13_transform_5 i) (hinb13_5 i)).WholeWords (EltTy.packing .bf16)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S2000x256.size a ≤ S50000x256.size a
  hwx13_6 : ∀ i : grid13.Coords, EltTy.bits .f32 = 32 ∨ (Rect.block (s := S50000x256) S2000x256.size (cc13_transform_6 i) (hinb13_6 i)).WholeWords (EltTy.packing .f32)
  hstage13_7 : ∀ j, (stage13_7 j).IsWhole
  nbuf13_7 : grid13.bufCount reads13_7 true = 1
  hreads13_7 : ∀ i i' : grid13.Coords, (∀ a, reads13_7 a = true → i a = i' a) → cc13_transform_7 i = cc13_transform_7 i'
  hinb13_7 : ∀ (i : grid13.Coords) a, (cc13_transform_7 i a + 1) * S1x512.size a ≤ S1x512.size a
  hwx13_7 : ∀ i : grid13.Coords, EltTy.bits .f32 = 32 ∨ (Rect.block (s := S1x512) S1x512.size (cc13_transform_7 i) (hinb13_7 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x256.size a ≤ S50000x256.size a
  hwx14_0 : ∀ i : grid14.Coords, EltTy.bits .f32 = 32 ∨ (Rect.block (s := S50000x256) S2000x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x256.size a ≤ S1x256.size a
  hwx14_1 : ∀ i : grid14.Coords, EltTy.bits .f32 = 32 ∨ (Rect.block (s := S1x256) S1x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x256.size a ≤ S1x256.size a
  hwx14_3 : ∀ i : grid14.Coords, EltTy.bits .f32 = 32 ∨ (Rect.block (s := S1x256) S1x256.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x256.size a ≤ S1x256.size a
  hwx14_4 : ∀ i : grid14.Coords, EltTy.bits .f32 = 32 ∨ (Rect.block (s := S1x256) S1x256.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x256.size a ≤ S50000x256.size a
  hwx14_5 : ∀ i : grid14.Coords, EltTy.bits .f32 = 32 ∨ (Rect.block (s := S50000x256) S2000x256.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x256.size a ≤ S50000x256.size a
  hwx15_0 : ∀ i : grid15.Coords, EltTy.bits .f32 = 32 ∨ (Rect.block (s := S50000x256) S2000x256.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S2000x256.size a ≤ S50000x256.size a
  hwx15_1 : ∀ i : grid15.Coords, EltTy.bits .f32 = 32 ∨ (Rect.block (s := S50000x256) S2000x256.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S256x512.size a ≤ S256x512.size a
  hwx15_2 : ∀ i : grid15.Coords, EltTy.bits .bf16 = 32 ∨ (Rect.block (s := S256x512) S256x512.size (cc15_transform_2 i) (hinb15_2 i)).WholeWords (EltTy.packing .bf16)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S2000x512.size a ≤ S50000x512.size a
  hwx15_3 : ∀ i : grid15.Coords, EltTy.bits .f32 = 32 ∨ (Rect.block (s := S50000x512) S2000x512.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x1024.size a ≤ S1x1024.size a
  hwx15_4 : ∀ i : grid15.Coords, EltTy.bits .f32 = 32 ∨ (Rect.block (s := S1x1024) S1x1024.size (cc15_transform_4 i) (hinb15_4 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x512.size a ≤ S50000x512.size a
  hwx16_0 : ∀ i : grid16.Coords, EltTy.bits .f32 = 32 ∨ (Rect.block (s := S50000x512) S2000x512.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x512.size a ≤ S1x512.size a
  hwx16_1 : ∀ i : grid16.Coords, EltTy.bits .f32 = 32 ∨ (Rect.block (s := S1x512) S1x512.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x512.size a ≤ S1x512.size a
  hwx16_2 : ∀ i : grid16.Coords, EltTy.bits .f32 = 32 ∨ (Rect.block (s := S1x512) S1x512.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x512.size a ≤ S1x512.size a
  hwx16_3 : ∀ i : grid16.Coords, EltTy.bits .f32 = 32 ∨ (Rect.block (s := S1x512) S1x512.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x512.size a ≤ S1x512.size a
  hwx16_4 : ∀ i : grid16.Coords, EltTy.bits .f32 = 32 ∨ (Rect.block (s := S1x512) S1x512.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S512x128.size a ≤ S512x128.size a
  hwx16_5 : ∀ i : grid16.Coords, EltTy.bits .bf16 = 32 ∨ (Rect.block (s := S512x128) S512x128.size (cc16_transform_5 i) (hinb16_5 i)).WholeWords (EltTy.packing .bf16)
  hstage16_6 : ∀ j, (stage16_6 j).IsWhole
  nbuf16_6 : grid16.bufCount reads16_6 false = 2
  hreads16_6 : ∀ i i' : grid16.Coords, (∀ a, reads16_6 a = true → i a = i' a) → cc16_transform_6 i = cc16_transform_6 i'
  hinb16_6 : ∀ (i : grid16.Coords) a, (cc16_transform_6 i a + 1) * S2000x128.size a ≤ S50000x128.size a
  hwx16_6 : ∀ i : grid16.Coords, EltTy.bits .f32 = 32 ∨ (Rect.block (s := S50000x128) S2000x128.size (cc16_transform_6 i) (hinb16_6 i)).WholeWords (EltTy.packing .f32)
  hstage16_7 : ∀ j, (stage16_7 j).IsWhole
  nbuf16_7 : grid16.bufCount reads16_7 true = 1
  hreads16_7 : ∀ i i' : grid16.Coords, (∀ a, reads16_7 a = true → i a = i' a) → cc16_transform_7 i = cc16_transform_7 i'
  hinb16_7 : ∀ (i : grid16.Coords) a, (cc16_transform_7 i a + 1) * S1x256.size a ≤ S1x256.size a
  hwx16_7 : ∀ i : grid16.Coords, EltTy.bits .f32 = 32 ∨ (Rect.block (s := S1x256) S1x256.size (cc16_transform_7 i) (hinb16_7 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x128.size a ≤ S50000x128.size a
  hwx17_0 : ∀ i : grid17.Coords, EltTy.bits .f32 = 32 ∨ (Rect.block (s := S50000x128) S2000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x128.size a ≤ S1x128.size a
  hwx17_3 : ∀ i : grid17.Coords, EltTy.bits .f32 = 32 ∨ (Rect.block (s := S1x128) S1x128.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x128.size a ≤ S1x128.size a
  hwx17_4 : ∀ i : grid17.Coords, EltTy.bits .f32 = 32 ∨ (Rect.block (s := S1x128) S1x128.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S2000x128.size a ≤ S50000x128.size a
  hwx17_5 : ∀ i : grid17.Coords, EltTy.bits .f32 = 32 ∨ (Rect.block (s := S50000x128) S2000x128.size (cc17_transform_5 i) (hinb17_5 i)).WholeWords (EltTy.packing .f32)

variable [Facts₀]

def gather_S50000x128_S320000x1_S320000x128_1_0_n_n_0_1_1128 : GatherDims S50000x128 S320000x1 S320000x128 where
  offsetDims := [1]
  collapsedSliceDims := [0]
  operandBatchingDims := []
  startIndicesBatchingDims := []
  startIndexMap := [0]
  indexVectorDim := 1
  sliceSizes := ![1, 128]
  wf := gather_S50000x128_S320000x1_S320000x128_1_0_n_n_0_1_1128_wf
def scatter_S50000x128_S320000x1_S320000x128_1_0_0_1 : ScatterDims S50000x128 S320000x1 S320000x128 where
  updateWindowDims := [1]
  insertedWindowDims := [0]
  scatterDimsToOperandDims := [0]
  indexVectorDim := 1
  wf := scatter_S50000x128_S320000x1_S320000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v7) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22_0) S2000x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22_1) S1x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v22_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35_0) S2000x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v35_1) S1x512.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v35_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S256x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63_0) S2000x512.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v63_1) S1x1024.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v63_0) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v3) S512x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v76_0) S2000x256.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v76_1) S1x512.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun _ => false | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v76_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v89) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v90) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v104) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v4) S256x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v105_0) S2000x512.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v105_1) S1x1024.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

abbrev win7_0 : Pipeline.Window sig grid7 :=
  Pipeline.Window.ofSpec (Memref.whole main_v105_0) S2000x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S1x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v115) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v116) S1x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v117) S1x512.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v5) S512x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v118_0) S2000x128.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v118_1) S1x256.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev idle7 : Fin 8 → grid7.Coords → Bool := fun | 0 => fun _ => false | 1 => fun _ => false | 2 => fun _ => false | 3 => fun _ => false | 4 => fun _ => false | 5 => fun _ => false | 6 => fun _ => false | 7 => fun i => !(k7_cond2 i == 1#1) | ⟨_ + 8, h⟩ => absurd h (Nat.not_lt.2 (Nat.le_add_left _ _))

abbrev win8_0 : Pipeline.Window sig grid8 :=
  Pipeline.Window.ofSpec (Memref.whole main_v118_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v121) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v128) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v129) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v130) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v131) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v152) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v166) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v0) S128x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v167_0) S2000x512.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v167_1) S1x1024.size cc9_transform_4 reads9_4 true true 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev idle9 : Fin 5 → grid9.Coords → Bool := fun | 0 => fun _ => false | 1 => fun _ => false | 2 => fun _ => false | 3 => fun _ => false | 4 => fun i => !(k9_cond2 i == 1#1) | ⟨_ + 5, h⟩ => absurd h (Nat.not_lt.2 (Nat.le_add_left _ _))

abbrev win10_0 : Pipeline.Window sig grid10 :=
  Pipeline.Window.ofSpec (Memref.whole main_v167_0) S2000x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v170) S1x512.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v177) S1x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v178) S1x512.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v179) S1x512.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v1) S512x256.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v180_0) S2000x256.size cc10_transform_6 reads10_6 true false 2 stage10_6 sem10_6
    hrank10 hreads10_6 hinb10_6 nbuf10_6 (Memref.isWhole_whole _) hwx10_6 hstage10_6

abbrev win10_7 : Pipeline.Window sig grid10 :=
  Pipeline.Window.ofSpec (Memref.whole main_v180_1) S1x512.size cc10_transform_7 reads10_7 true true 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev idle10 : Fin 8 → grid10.Coords → Bool := fun | 0 => fun _ => false | 1 => fun _ => false | 2 => fun _ => false | 3 => fun _ => false | 4 => fun _ => false | 5 => fun _ => false | 6 => fun _ => false | 7 => fun i => !(k10_cond2 i == 1#1) | ⟨_ + 8, h⟩ => absurd h (Nat.not_lt.2 (Nat.le_add_left _ _))

abbrev win11_0 : Pipeline.Window sig grid11 :=
  Pipeline.Window.ofSpec (Memref.whole main_v180_0) S2000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v183) S1x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v190) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v191) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v192) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v193) S2000x256.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v193) S2000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v207) S2000x256.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v2) S256x512.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v208_0) S2000x512.size cc12_transform_3 reads12_3 true false 2 stage12_3 sem12_3
    hrank12 hreads12_3 hinb12_3 nbuf12_3 (Memref.isWhole_whole _) hwx12_3 hstage12_3

abbrev win12_4 : Pipeline.Window sig grid12 :=
  Pipeline.Window.ofSpec (Memref.whole main_v208_1) S1x1024.size cc12_transform_4 reads12_4 true true 1 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev idle12 : Fin 5 → grid12.Coords → Bool := fun | 0 => fun _ => false | 1 => fun _ => false | 2 => fun _ => false | 3 => fun _ => false | 4 => fun i => !(k12_cond2 i == 1#1) | ⟨_ + 5, h⟩ => absurd h (Nat.not_lt.2 (Nat.le_add_left _ _))

abbrev win13_0 : Pipeline.Window sig grid13 :=
  Pipeline.Window.ofSpec (Memref.whole main_v208_0) S2000x512.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v211) S1x512.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v218) S1x512.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v219) S1x512.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v220) S1x512.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v3) S512x256.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v221_0) S2000x256.size cc13_transform_6 reads13_6 true false 2 stage13_6 sem13_6
    hrank13 hreads13_6 hinb13_6 nbuf13_6 (Memref.isWhole_whole _) hwx13_6 hstage13_6

abbrev win13_7 : Pipeline.Window sig grid13 :=
  Pipeline.Window.ofSpec (Memref.whole main_v221_1) S1x512.size cc13_transform_7 reads13_7 true true 1 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev idle13 : Fin 8 → grid13.Coords → Bool := fun | 0 => fun _ => false | 1 => fun _ => false | 2 => fun _ => false | 3 => fun _ => false | 4 => fun _ => false | 5 => fun _ => false | 6 => fun _ => false | 7 => fun i => !(k13_cond2 i == 1#1) | ⟨_ + 8, h⟩ => absurd h (Nat.not_lt.2 (Nat.le_add_left _ _))

abbrev win14_0 : Pipeline.Window sig grid14 :=
  Pipeline.Window.ofSpec (Memref.whole main_v221_0) S2000x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v224) S1x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v231) S1x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v232) S1x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v233) S1x256.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v234) S2000x256.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v235) S2000x256.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v249) S2000x256.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v4) S256x512.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v250_0) S2000x512.size cc15_transform_3 reads15_3 true false 2 stage15_3 sem15_3
    hrank15 hreads15_3 hinb15_3 nbuf15_3 (Memref.isWhole_whole _) hwx15_3 hstage15_3

abbrev win15_4 : Pipeline.Window sig grid15 :=
  Pipeline.Window.ofSpec (Memref.whole main_v250_1) S1x1024.size cc15_transform_4 reads15_4 true true 1 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

abbrev idle15 : Fin 5 → grid15.Coords → Bool := fun | 0 => fun _ => false | 1 => fun _ => false | 2 => fun _ => false | 3 => fun _ => false | 4 => fun i => !(k15_cond2 i == 1#1) | ⟨_ + 5, h⟩ => absurd h (Nat.not_lt.2 (Nat.le_add_left _ _))

abbrev win16_0 : Pipeline.Window sig grid16 :=
  Pipeline.Window.ofSpec (Memref.whole main_v250_0) S2000x512.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v253) S1x512.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v260) S1x512.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v261) S1x512.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v262) S1x512.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v5) S512x128.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v263_0) S2000x128.size cc16_transform_6 reads16_6 true false 2 stage16_6 sem16_6
    hrank16 hreads16_6 hinb16_6 nbuf16_6 (Memref.isWhole_whole _) hwx16_6 hstage16_6

abbrev win16_7 : Pipeline.Window sig grid16 :=
  Pipeline.Window.ofSpec (Memref.whole main_v263_1) S1x256.size cc16_transform_7 reads16_7 true true 1 stage16_7 sem16_7
    hrank16 hreads16_7 hinb16_7 nbuf16_7 (Memref.isWhole_whole _) hwx16_7 hstage16_7

abbrev win16 : Fin 8 → Pipeline.Window sig grid16 := fun | 0 => win16_0 | 1 => win16_1 | 2 => win16_2 | 3 => win16_3 | 4 => win16_4 | 5 => win16_5 | 6 => win16_6 | 7 => win16_7 | ⟨_ + 8, h⟩ => absurd h (Nat.not_lt.2 (Nat.le_add_left _ _))
abbrev spec16 : Fin 8 → Pipeline.WinSpec sig grid16.rank := fun w => (win16 w).toWinSpec

abbrev idle16 : Fin 8 → grid16.Coords → Bool := fun | 0 => fun _ => false | 1 => fun _ => false | 2 => fun _ => false | 3 => fun _ => false | 4 => fun _ => false | 5 => fun _ => false | 6 => fun _ => false | 7 => fun i => !(k16_cond2 i == 1#1) | ⟨_ + 8, h⟩ => absurd h (Nat.not_lt.2 (Nat.le_add_left _ _))

abbrev win17_0 : Pipeline.Window sig grid17 :=
  Pipeline.Window.ofSpec (Memref.whole main_v263_0) S2000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v266) S1x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v273) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v274) S1x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v275) S1x128.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v276) S2000x128.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

class Facts : Prop extends Facts₀ where

variable [Facts]
-- ==== ReferenceIdeal.lean ====
abbrev S50000x128 : Shape := ⟨2, ![50000, 128]⟩
abbrev S2x320000 : Shape := ⟨2, ![2, 320000]⟩
abbrev S50000 : Shape := ⟨1, ![50000]⟩
abbrev S128x512 : Shape := ⟨2, ![128, 512]⟩
abbrev S512x256 : Shape := ⟨2, ![512, 256]⟩
abbrev S512 : Shape := ⟨1, ![512]⟩
abbrev S256 : Shape := ⟨1, ![256]⟩
abbrev S256x512 : Shape := ⟨2, ![256, 512]⟩
abbrev S512x128 : Shape := ⟨2, ![512, 128]⟩
abbrev S128 : Shape := ⟨1, ![128]⟩
abbrev S50000x1 : Shape := ⟨2, ![50000, 1]⟩
abbrev S_ : Shape := ⟨0, ![]⟩
abbrev S1x320000 : Shape := ⟨2, ![1, 320000]⟩
abbrev S320000 : Shape := ⟨1, ![320000]⟩
abbrev S320000x1 : Shape := ⟨2, ![320000, 1]⟩
abbrev S320000x128 : Shape := ⟨2, ![320000, 128]⟩
abbrev S50000x512 : Shape := ⟨2, ![50000, 512]⟩
abbrev S1x512 : Shape := ⟨2, ![1, 512]⟩
abbrev S50000x256 : Shape := ⟨2, ![50000, 256]⟩
abbrev S1x256 : Shape := ⟨2, ![1, 256]⟩
abbrev S320000x256 : Shape := ⟨2, ![320000, 256]⟩
abbrev S512x512 : Shape := ⟨2, ![512, 512]⟩
abbrev S1x128 : Shape := ⟨2, ![1, 128]⟩

abbrev nBuf : Space → Nat
  | .hbm => 856
  | .vmem => 0
  | .smem => 0
  | _ => 0

abbrev hbmTy0_0 (i : Nat) : BufTy := match i % 128 with
  | 0 => ⟨S50000x128, .f32⟩
  | 1 => ⟨S2x320000, .i32⟩
  | 2 => ⟨S2x320000, .i32⟩
  | 3 => ⟨S50000, .i1⟩
  | 4 => ⟨S50000, .i1⟩
  | 5 => ⟨S50000, .i32⟩
  | 6 => ⟨S128x512, .f32⟩
  | 7 => ⟨S512x256, .f32⟩
  | 8 => ⟨S512, .f32⟩
  | 9 => ⟨S512, .f32⟩
  | 10 => ⟨S256, .f32⟩
  | 11 => ⟨S256, .f32⟩
  | 12 => ⟨S256x512, .f32⟩
  | 13 => ⟨S512x256, .f32⟩
  | 14 => ⟨S512, .f32⟩
  | 15 => ⟨S512, .f32⟩
  | 16 => ⟨S256, .f32⟩
  | 17 => ⟨S256, .f32⟩
  | 18 => ⟨S256x512, .f32⟩
  | 19 => ⟨S512x128, .f32⟩
  | 20 => ⟨S512, .f32⟩
  | 21 => ⟨S512, .f32⟩
  | 22 => ⟨S128, .f32⟩
  | 23 => ⟨S128, .f32⟩
  | 24 => ⟨S50000x1, .i1⟩
  | 25 => ⟨S_, .f32⟩
  | 26 => ⟨S_, .f32⟩
  | 27 => ⟨S50000x128, .i1⟩
  | 28 => ⟨S50000x128, .f32⟩
  | 29 => ⟨S50000x128, .f32⟩
  | 30 => ⟨S1x320000, .i32⟩
  | 31 => ⟨S320000, .i32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x128, .f32⟩
  | 41 => ⟨S1x320000, .i32⟩
  | 42 => ⟨S320000, .i32⟩
  | 43 => ⟨S_, .f32⟩
  | 44 => ⟨S50000x128, .f32⟩
  | 45 => ⟨S320000x1, .i32⟩
  | 46 => ⟨S50000x128, .f32⟩
  | 47 => ⟨S50000x128, .f32⟩
  | 48 => ⟨S50000x512, .f32⟩
  | 49 => ⟨S_, .f32⟩
  | 50 => ⟨S512, .f32⟩
  | 51 => ⟨S_, .f32⟩
  | 52 => ⟨S512, .f32⟩
  | 53 => ⟨S512, .f32⟩
  | 54 => ⟨S_, .i32⟩
  | 55 => ⟨S_, .f32⟩
  | 56 => ⟨S512, .f32⟩
  | 57 => ⟨S1x512, .f32⟩
  | 58 => ⟨S_, .f32⟩
  | 59 => ⟨S1x512, .f32⟩
  | 60 => ⟨S1x512, .f32⟩
  | 61 => ⟨S50000x512, .f32⟩
  | 62 => ⟨S50000x512, .f32⟩
  | 63 => ⟨S50000x512, .f32⟩
  | 64 => ⟨S_, .f32⟩
  | 65 => ⟨S_, .f32⟩
  | 66 => ⟨S_, .f32⟩
  | 67 => ⟨S_, .f32⟩
  | 68 => ⟨S512, .f32⟩
  | 69 => ⟨S512, .f32⟩
  | 70 => ⟨S512, .f32⟩
  | 71 => ⟨S_, .f32⟩
  | 72 => ⟨S_, .i1⟩
  | 73 => ⟨S_, .f32⟩
  | 74 => ⟨S_, .f32⟩
  | 75 => ⟨S512, .f32⟩
  | 76 => ⟨S512, .f32⟩
  | 77 => ⟨S1x512, .f32⟩
  | 78 => ⟨S50000x512, .f32⟩
  | 79 => ⟨S50000x512, .f32⟩
  | 80 => ⟨S1x512, .f32⟩
  | 81 => ⟨S50000x512, .f32⟩
  | 82 => ⟨S50000x512, .f32⟩
  | 83 => ⟨S_, .f32⟩
  | 84 => ⟨S512, .f32⟩
  | 85 => ⟨S512, .f32⟩
  | 86 => ⟨S512, .f32⟩
  | 87 => ⟨S1x512, .f32⟩
  | 88 => ⟨S50000x512, .f32⟩
  | 89 => ⟨S50000x512, .f32⟩
  | 90 => ⟨S1x512, .f32⟩
  | 91 => ⟨S50000x512, .f32⟩
  | 92 => ⟨S50000x512, .f32⟩
  | 93 => ⟨S_, .f32⟩
  | 94 => ⟨S50000x512, .f32⟩
  | 95 => ⟨S50000x512, .f32⟩
  | 96 => ⟨S50000x256, .f32⟩
  | 97 => ⟨S_, .f32⟩
  | 98 => ⟨S256, .f32⟩
  | 99 => ⟨S_, .f32⟩
  | 100 => ⟨S256, .f32⟩
  | 101 => ⟨S256, .f32⟩
  | 102 => ⟨S_, .i32⟩
  | 103 => ⟨S_, .f32⟩
  | 104 => ⟨S256, .f32⟩
  | 105 => ⟨S1x256, .f32⟩
  | 106 => ⟨S_, .f32⟩
  | 107 => ⟨S1x256, .f32⟩
  | 108 => ⟨S1x256, .f32⟩
  | 109 => ⟨S50000x256, .f32⟩
  | 110 => ⟨S50000x256, .f32⟩
  | 111 => ⟨S50000x256, .f32⟩
  | 112 => ⟨S_, .f32⟩
  | 113 => ⟨S_, .f32⟩
  | 114 => ⟨S_, .f32⟩
  | 115 => ⟨S_, .f32⟩
  | 116 => ⟨S256, .f32⟩
  | 117 => ⟨S256, .f32⟩
  | 118 => ⟨S256, .f32⟩
  | 119 => ⟨S_, .f32⟩
  | 120 => ⟨S_, .i1⟩
  | 121 => ⟨S_, .f32⟩
  | 122 => ⟨S_, .f32⟩
  | 123 => ⟨S256, .f32⟩
  | 124 => ⟨S256, .f32⟩
  | 125 => ⟨S1x256, .f32⟩
  | 126 => ⟨S50000x256, .f32⟩
  | 127 => ⟨S50000x256, .f32⟩
  | _ => ⟨S50000x128, .f32⟩

abbrev hbmTy0_1 (i : Nat) : BufTy := match i % 128 with
  | 0 => ⟨S1x256, .f32⟩
  | 1 => ⟨S50000x256, .f32⟩
  | 2 => ⟨S50000x256, .f32⟩
  | 3 => ⟨S_, .f32⟩
  | 4 => ⟨S256, .f32⟩
  | 5 => ⟨S256, .f32⟩
  | 6 => ⟨S256, .f32⟩
  | 7 => ⟨S1x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .f32⟩
  | 16 => ⟨S_, .f32⟩
  | 17 => ⟨S512x256, .f32⟩
  | 18 => ⟨S50000x1, .i32⟩
  | 19 => ⟨S512x256, .f32⟩
  | 20 => ⟨S1x320000, .i32⟩
  | 21 => ⟨S320000, .i32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x256, .f32⟩
  | 31 => ⟨S1x320000, .i32⟩
  | 32 => ⟨S320000, .i32⟩
  | 33 => ⟨S_, .f32⟩
  | 34 => ⟨S50000x256, .f32⟩
  | 35 => ⟨S320000x1, .i32⟩
  | 36 => ⟨S50000x256, .f32⟩
  | 37 => ⟨S50000x256, .f32⟩
  | 38 => ⟨S50000x512, .f32⟩
  | 39 => ⟨S_, .f32⟩
  | 40 => ⟨S512, .f32⟩
  | 41 => ⟨S_, .f32⟩
  | 42 => ⟨S512, .f32⟩
  | 43 => ⟨S512, .f32⟩
  | 44 => ⟨S_, .i32⟩
  | 45 => ⟨S_, .f32⟩
  | 46 => ⟨S512, .f32⟩
  | 47 => ⟨S1x512, .f32⟩
  | 48 => ⟨S_, .f32⟩
  | 49 => ⟨S1x512, .f32⟩
  | 50 => ⟨S1x512, .f32⟩
  | 51 => ⟨S50000x512, .f32⟩
  | 52 => ⟨S50000x512, .f32⟩
  | 53 => ⟨S50000x512, .f32⟩
  | 54 => ⟨S_, .f32⟩
  | 55 => ⟨S_, .f32⟩
  | 56 => ⟨S_, .f32⟩
  | 57 => ⟨S_, .f32⟩
  | 58 => ⟨S512, .f32⟩
  | 59 => ⟨S512, .f32⟩
  | 60 => ⟨S512, .f32⟩
  | 61 => ⟨S_, .f32⟩
  | 62 => ⟨S_, .i1⟩
  | 63 => ⟨S_, .f32⟩
  | 64 => ⟨S_, .f32⟩
  | 65 => ⟨S512, .f32⟩
  | 66 => ⟨S512, .f32⟩
  | 67 => ⟨S1x512, .f32⟩
  | 68 => ⟨S50000x512, .f32⟩
  | 69 => ⟨S50000x512, .f32⟩
  | 70 => ⟨S1x512, .f32⟩
  | 71 => ⟨S50000x512, .f32⟩
  | 72 => ⟨S50000x512, .f32⟩
  | 73 => ⟨S_, .f32⟩
  | 74 => ⟨S512, .f32⟩
  | 75 => ⟨S512, .f32⟩
  | 76 => ⟨S512, .f32⟩
  | 77 => ⟨S1x512, .f32⟩
  | 78 => ⟨S50000x512, .f32⟩
  | 79 => ⟨S50000x512, .f32⟩
  | 80 => ⟨S1x512, .f32⟩
  | 81 => ⟨S50000x512, .f32⟩
  | 82 => ⟨S50000x512, .f32⟩
  | 83 => ⟨S_, .f32⟩
  | 84 => ⟨S50000x512, .f32⟩
  | 85 => ⟨S50000x512, .f32⟩
  | 86 => ⟨S50000x256, .f32⟩
  | 87 => ⟨S_, .f32⟩
  | 88 => ⟨S256, .f32⟩
  | 89 => ⟨S_, .f32⟩
  | 90 => ⟨S256, .f32⟩
  | 91 => ⟨S256, .f32⟩
  | 92 => ⟨S_, .i32⟩
  | 93 => ⟨S_, .f32⟩
  | 94 => ⟨S256, .f32⟩
  | 95 => ⟨S1x256, .f32⟩
  | 96 => ⟨S_, .f32⟩
  | 97 => ⟨S1x256, .f32⟩
  | 98 => ⟨S1x256, .f32⟩
  | 99 => ⟨S50000x256, .f32⟩
  | 100 => ⟨S50000x256, .f32⟩
  | 101 => ⟨S50000x256, .f32⟩
  | 102 => ⟨S_, .f32⟩
  | 103 => ⟨S_, .f32⟩
  | 104 => ⟨S_, .f32⟩
  | 105 => ⟨S_, .f32⟩
  | 106 => ⟨S256, .f32⟩
  | 107 => ⟨S256, .f32⟩
  | 108 => ⟨S256, .f32⟩
  | 109 => ⟨S_, .f32⟩
  | 110 => ⟨S_, .i1⟩
  | 111 => ⟨S_, .f32⟩
  | 112 => ⟨S_, .f32⟩
  | 113 => ⟨S256, .f32⟩
  | 114 => ⟨S256, .f32⟩
  | 115 => ⟨S1x256, .f32⟩
  | 116 => ⟨S50000x256, .f32⟩
  | 117 => ⟨S50000x256, .f32⟩
  | 118 => ⟨S1x256, .f32⟩
  | 119 => ⟨S50000x256, .f32⟩
  | 120 => ⟨S50000x256, .f32⟩
  | 121 => ⟨S_, .f32⟩
  | 122 => ⟨S256, .f32⟩
  | 123 => ⟨S256, .f32⟩
  | 124 => ⟨S256, .f32⟩
  | 125 => ⟨S1x256, .f32⟩
  | 126 => ⟨S50000x256, .f32⟩
  | 127 => ⟨S50000x256, .f32⟩
  | _ => ⟨S50000x128, .f32⟩

abbrev hbmTy0_2 (i : Nat) : BufTy := match i % 128 with
  | 0 => ⟨S1x256, .f32⟩
  | 1 => ⟨S50000x256, .f32⟩
  | 2 => ⟨S50000x256, .f32⟩
  | 3 => ⟨S_, .f32⟩
  | 4 => ⟨S50000x256, .f32⟩
  | 5 => ⟨S50000x256, .f32⟩
  | 6 => ⟨S_, .f32⟩
  | 7 => ⟨S512x256, .f32⟩
  | 8 => ⟨S50000x1, .i32⟩
  | 9 => ⟨S512x256, .f32⟩
  | 10 => ⟨S512x512, .f32⟩
  | 11 => ⟨S_, .f32⟩
  | 12 => ⟨S_, .f32⟩
  | 13 => ⟨S50000x256, .i1⟩
  | 14 => ⟨S50000x256, .f32⟩
  | 15 => ⟨S50000x256, .f32⟩
  | 16 => ⟨S1x320000, .i32⟩
  | 17 => ⟨S320000, .i32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S320000x256, .f32⟩
  | 27 => ⟨S1x320000, .i32⟩
  | 28 => ⟨S320000, .i32⟩
  | 29 => ⟨S_, .f32⟩
  | 30 => ⟨S50000x256, .f32⟩
  | 31 => ⟨S320000x1, .i32⟩
  | 32 => ⟨S50000x256, .f32⟩
  | 33 => ⟨S50000x256, .f32⟩
  | 34 => ⟨S50000x512, .f32⟩
  | 35 => ⟨S_, .f32⟩
  | 36 => ⟨S512, .f32⟩
  | 37 => ⟨S_, .f32⟩
  | 38 => ⟨S512, .f32⟩
  | 39 => ⟨S512, .f32⟩
  | 40 => ⟨S_, .i32⟩
  | 41 => ⟨S_, .f32⟩
  | 42 => ⟨S512, .f32⟩
  | 43 => ⟨S1x512, .f32⟩
  | 44 => ⟨S_, .f32⟩
  | 45 => ⟨S1x512, .f32⟩
  | 46 => ⟨S1x512, .f32⟩
  | 47 => ⟨S50000x512, .f32⟩
  | 48 => ⟨S50000x512, .f32⟩
  | 49 => ⟨S50000x512, .f32⟩
  | 50 => ⟨S_, .f32⟩
  | 51 => ⟨S_, .f32⟩
  | 52 => ⟨S_, .f32⟩
  | 53 => ⟨S_, .f32⟩
  | 54 => ⟨S512, .f32⟩
  | 55 => ⟨S512, .f32⟩
  | 56 => ⟨S512, .f32⟩
  | 57 => ⟨S_, .f32⟩
  | 58 => ⟨S_, .i1⟩
  | 59 => ⟨S_, .f32⟩
  | 60 => ⟨S_, .f32⟩
  | 61 => ⟨S512, .f32⟩
  | 62 => ⟨S512, .f32⟩
  | 63 => ⟨S1x512, .f32⟩
  | 64 => ⟨S50000x512, .f32⟩
  | 65 => ⟨S50000x512, .f32⟩
  | 66 => ⟨S1x512, .f32⟩
  | 67 => ⟨S50000x512, .f32⟩
  | 68 => ⟨S50000x512, .f32⟩
  | 69 => ⟨S_, .f32⟩
  | 70 => ⟨S512, .f32⟩
  | 71 => ⟨S512, .f32⟩
  | 72 => ⟨S512, .f32⟩
  | 73 => ⟨S1x512, .f32⟩
  | 74 => ⟨S50000x512, .f32⟩
  | 75 => ⟨S50000x512, .f32⟩
  | 76 => ⟨S1x512, .f32⟩
  | 77 => ⟨S50000x512, .f32⟩
  | 78 => ⟨S50000x512, .f32⟩
  | 79 => ⟨S_, .f32⟩
  | 80 => ⟨S50000x512, .f32⟩
  | 81 => ⟨S50000x512, .f32⟩
  | 82 => ⟨S50000x128, .f32⟩
  | 83 => ⟨S_, .f32⟩
  | 84 => ⟨S128, .f32⟩
  | 85 => ⟨S_, .f32⟩
  | 86 => ⟨S128, .f32⟩
  | 87 => ⟨S128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S50000x128, .f32⟩
  | 96 => ⟨S50000x128, .f32⟩
  | 97 => ⟨S50000x128, .f32⟩
  | 98 => ⟨S_, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .i1⟩
  | 107 => ⟨S_, .f32⟩
  | 108 => ⟨S_, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S128, .f32⟩
  | 119 => ⟨S128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_3 (i : Nat) : BufTy := match i % 128 with
  | 0 => ⟨S50000x128, .f32⟩
  | 1 => ⟨S50000x128, .f32⟩
  | 2 => ⟨S_, .f32⟩
  | 3 => ⟨S512x128, .f32⟩
  | 4 => ⟨S50000x1, .i32⟩
  | 5 => ⟨S512x128, .f32⟩
  | 6 => ⟨S50000, .f32⟩
  | 7 => ⟨S50000x128, .f32⟩
  | 8 => ⟨S_, .f32⟩
  | 9 => ⟨S50000, .f32⟩
  | 10 => ⟨S50000x1, .f32⟩
  | 11 => ⟨S50000x1, .f32⟩
  | 12 => ⟨S_, .f32⟩
  | 13 => ⟨S50000x1, .f32⟩
  | 14 => ⟨S50000x1, .f32⟩
  | 15 => ⟨S50000x128, .f32⟩
  | 16 => ⟨S50000x128, .f32⟩
  | 17 => ⟨S50000x128, .f32⟩
  | 18 => ⟨S_, .f32⟩
  | 19 => ⟨S50000, .f32⟩
  | 20 => ⟨S50000x1, .f32⟩
  | 21 => ⟨S50000x1, .f32⟩
  | 22 => ⟨S_, .f32⟩
  | 23 => ⟨S50000x1, .f32⟩
  | 24 => ⟨S50000x1, .f32⟩
  | 25 => ⟨S50000x128, .f32⟩
  | 26 => ⟨S50000x128, .f32⟩
  | 27 => ⟨S50000x128, .f32⟩
  | 28 => ⟨S_, .f32⟩
  | 29 => ⟨S50000, .f32⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S_, .f32⟩
  | 37 => ⟨S_, .f32⟩
  | 38 => ⟨S_, .f32⟩
  | 39 => ⟨S50000x1, .i1⟩
  | 40 => ⟨S_, .f32⟩
  | 41 => ⟨S_, .f32⟩
  | 42 => ⟨S50000x128, .i1⟩
  | 43 => ⟨S50000x128, .f32⟩
  | 44 => ⟨S50000x128, .f32⟩
  | 45 => ⟨S1x320000, .i32⟩
  | 46 => ⟨S320000, .i32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x128, .f32⟩
  | 56 => ⟨S1x320000, .i32⟩
  | 57 => ⟨S320000, .i32⟩
  | 58 => ⟨S_, .f32⟩
  | 59 => ⟨S50000x128, .f32⟩
  | 60 => ⟨S320000x1, .i32⟩
  | 61 => ⟨S50000x128, .f32⟩
  | 62 => ⟨S50000x128, .f32⟩
  | 63 => ⟨S50000x512, .f32⟩
  | 64 => ⟨S_, .f32⟩
  | 65 => ⟨S512, .f32⟩
  | 66 => ⟨S_, .f32⟩
  | 67 => ⟨S512, .f32⟩
  | 68 => ⟨S512, .f32⟩
  | 69 => ⟨S_, .i32⟩
  | 70 => ⟨S_, .f32⟩
  | 71 => ⟨S512, .f32⟩
  | 72 => ⟨S1x512, .f32⟩
  | 73 => ⟨S_, .f32⟩
  | 74 => ⟨S1x512, .f32⟩
  | 75 => ⟨S1x512, .f32⟩
  | 76 => ⟨S50000x512, .f32⟩
  | 77 => ⟨S50000x512, .f32⟩
  | 78 => ⟨S50000x512, .f32⟩
  | 79 => ⟨S_, .f32⟩
  | 80 => ⟨S_, .f32⟩
  | 81 => ⟨S_, .f32⟩
  | 82 => ⟨S_, .f32⟩
  | 83 => ⟨S512, .f32⟩
  | 84 => ⟨S512, .f32⟩
  | 85 => ⟨S512, .f32⟩
  | 86 => ⟨S_, .f32⟩
  | 87 => ⟨S_, .i1⟩
  | 88 => ⟨S_, .f32⟩
  | 89 => ⟨S_, .f32⟩
  | 90 => ⟨S512, .f32⟩
  | 91 => ⟨S512, .f32⟩
  | 92 => ⟨S1x512, .f32⟩
  | 93 => ⟨S50000x512, .f32⟩
  | 94 => ⟨S50000x512, .f32⟩
  | 95 => ⟨S1x512, .f32⟩
  | 96 => ⟨S50000x512, .f32⟩
  | 97 => ⟨S50000x512, .f32⟩
  | 98 => ⟨S_, .f32⟩
  | 99 => ⟨S512, .f32⟩
  | 100 => ⟨S512, .f32⟩
  | 101 => ⟨S512, .f32⟩
  | 102 => ⟨S1x512, .f32⟩
  | 103 => ⟨S50000x512, .f32⟩
  | 104 => ⟨S50000x512, .f32⟩
  | 105 => ⟨S1x512, .f32⟩
  | 106 => ⟨S50000x512, .f32⟩
  | 107 => ⟨S50000x512, .f32⟩
  | 108 => ⟨S_, .f32⟩
  | 109 => ⟨S50000x512, .f32⟩
  | 110 => ⟨S50000x512, .f32⟩
  | 111 => ⟨S50000x256, .f32⟩
  | 112 => ⟨S_, .f32⟩
  | 113 => ⟨S256, .f32⟩
  | 114 => ⟨S_, .f32⟩
  | 115 => ⟨S256, .f32⟩
  | 116 => ⟨S256, .f32⟩
  | 117 => ⟨S_, .i32⟩
  | 118 => ⟨S_, .f32⟩
  | 119 => ⟨S256, .f32⟩
  | 120 => ⟨S1x256, .f32⟩
  | 121 => ⟨S_, .f32⟩
  | 122 => ⟨S1x256, .f32⟩
  | 123 => ⟨S1x256, .f32⟩
  | 124 => ⟨S50000x256, .f32⟩
  | 125 => ⟨S50000x256, .f32⟩
  | 126 => ⟨S50000x256, .f32⟩
  | 127 => ⟨S_, .f32⟩
  | _ => ⟨S50000x128, .f32⟩

abbrev hbmTy0_4 (i : Nat) : BufTy := match i % 128 with
  | 0 => ⟨S_, .f32⟩
  | 1 => ⟨S_, .f32⟩
  | 2 => ⟨S_, .f32⟩
  | 3 => ⟨S256, .f32⟩
  | 4 => ⟨S256, .f32⟩
  | 5 => ⟨S256, .f32⟩
  | 6 => ⟨S_, .f32⟩
  | 7 => ⟨S_, .i1⟩
  | 8 => ⟨S_, .f32⟩
  | 9 => ⟨S_, .f32⟩
  | 10 => ⟨S256, .f32⟩
  | 11 => ⟨S256, .f32⟩
  | 12 => ⟨S1x256, .f32⟩
  | 13 => ⟨S50000x256, .f32⟩
  | 14 => ⟨S50000x256, .f32⟩
  | 15 => ⟨S1x256, .f32⟩
  | 16 => ⟨S50000x256, .f32⟩
  | 17 => ⟨S50000x256, .f32⟩
  | 18 => ⟨S_, .f32⟩
  | 19 => ⟨S256, .f32⟩
  | 20 => ⟨S256, .f32⟩
  | 21 => ⟨S256, .f32⟩
  | 22 => ⟨S1x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | 28 => ⟨S_, .f32⟩
  | 29 => ⟨S50000x256, .f32⟩
  | 30 => ⟨S50000x256, .f32⟩
  | 31 => ⟨S_, .f32⟩
  | 32 => ⟨S512x256, .f32⟩
  | 33 => ⟨S50000x1, .i32⟩
  | 34 => ⟨S512x256, .f32⟩
  | 35 => ⟨S1x320000, .i32⟩
  | 36 => ⟨S320000, .i32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000x256, .f32⟩
  | 46 => ⟨S1x320000, .i32⟩
  | 47 => ⟨S320000, .i32⟩
  | 48 => ⟨S_, .f32⟩
  | 49 => ⟨S50000x256, .f32⟩
  | 50 => ⟨S320000x1, .i32⟩
  | 51 => ⟨S50000x256, .f32⟩
  | 52 => ⟨S50000x256, .f32⟩
  | 53 => ⟨S50000x512, .f32⟩
  | 54 => ⟨S_, .f32⟩
  | 55 => ⟨S512, .f32⟩
  | 56 => ⟨S_, .f32⟩
  | 57 => ⟨S512, .f32⟩
  | 58 => ⟨S512, .f32⟩
  | 59 => ⟨S_, .i32⟩
  | 60 => ⟨S_, .f32⟩
  | 61 => ⟨S512, .f32⟩
  | 62 => ⟨S1x512, .f32⟩
  | 63 => ⟨S_, .f32⟩
  | 64 => ⟨S1x512, .f32⟩
  | 65 => ⟨S1x512, .f32⟩
  | 66 => ⟨S50000x512, .f32⟩
  | 67 => ⟨S50000x512, .f32⟩
  | 68 => ⟨S50000x512, .f32⟩
  | 69 => ⟨S_, .f32⟩
  | 70 => ⟨S_, .f32⟩
  | 71 => ⟨S_, .f32⟩
  | 72 => ⟨S_, .f32⟩
  | 73 => ⟨S512, .f32⟩
  | 74 => ⟨S512, .f32⟩
  | 75 => ⟨S512, .f32⟩
  | 76 => ⟨S_, .f32⟩
  | 77 => ⟨S_, .i1⟩
  | 78 => ⟨S_, .f32⟩
  | 79 => ⟨S_, .f32⟩
  | 80 => ⟨S512, .f32⟩
  | 81 => ⟨S512, .f32⟩
  | 82 => ⟨S1x512, .f32⟩
  | 83 => ⟨S50000x512, .f32⟩
  | 84 => ⟨S50000x512, .f32⟩
  | 85 => ⟨S1x512, .f32⟩
  | 86 => ⟨S50000x512, .f32⟩
  | 87 => ⟨S50000x512, .f32⟩
  | 88 => ⟨S_, .f32⟩
  | 89 => ⟨S512, .f32⟩
  | 90 => ⟨S512, .f32⟩
  | 91 => ⟨S512, .f32⟩
  | 92 => ⟨S1x512, .f32⟩
  | 93 => ⟨S50000x512, .f32⟩
  | 94 => ⟨S50000x512, .f32⟩
  | 95 => ⟨S1x512, .f32⟩
  | 96 => ⟨S50000x512, .f32⟩
  | 97 => ⟨S50000x512, .f32⟩
  | 98 => ⟨S_, .f32⟩
  | 99 => ⟨S50000x512, .f32⟩
  | 100 => ⟨S50000x512, .f32⟩
  | 101 => ⟨S50000x256, .f32⟩
  | 102 => ⟨S_, .f32⟩
  | 103 => ⟨S256, .f32⟩
  | 104 => ⟨S_, .f32⟩
  | 105 => ⟨S256, .f32⟩
  | 106 => ⟨S256, .f32⟩
  | 107 => ⟨S_, .i32⟩
  | 108 => ⟨S_, .f32⟩
  | 109 => ⟨S256, .f32⟩
  | 110 => ⟨S1x256, .f32⟩
  | 111 => ⟨S_, .f32⟩
  | 112 => ⟨S1x256, .f32⟩
  | 113 => ⟨S1x256, .f32⟩
  | 114 => ⟨S50000x256, .f32⟩
  | 115 => ⟨S50000x256, .f32⟩
  | 116 => ⟨S50000x256, .f32⟩
  | 117 => ⟨S_, .f32⟩
  | 118 => ⟨S_, .f32⟩
  | 119 => ⟨S_, .f32⟩
  | 120 => ⟨S_, .f32⟩
  | 121 => ⟨S256, .f32⟩
  | 122 => ⟨S256, .f32⟩
  | 123 => ⟨S256, .f32⟩
  | 124 => ⟨S_, .f32⟩
  | 125 => ⟨S_, .i1⟩
  | 126 => ⟨S_, .f32⟩
  | 127 => ⟨S_, .f32⟩
  | _ => ⟨S50000x128, .f32⟩

abbrev hbmTy0_5 (i : Nat) : BufTy := match i % 128 with
  | 0 => ⟨S256, .f32⟩
  | 1 => ⟨S256, .f32⟩
  | 2 => ⟨S1x256, .f32⟩
  | 3 => ⟨S50000x256, .f32⟩
  | 4 => ⟨S50000x256, .f32⟩
  | 5 => ⟨S1x256, .f32⟩
  | 6 => ⟨S50000x256, .f32⟩
  | 7 => ⟨S50000x256, .f32⟩
  | 8 => ⟨S_, .f32⟩
  | 9 => ⟨S256, .f32⟩
  | 10 => ⟨S256, .f32⟩
  | 11 => ⟨S256, .f32⟩
  | 12 => ⟨S1x256, .f32⟩
  | 13 => ⟨S50000x256, .f32⟩
  | 14 => ⟨S50000x256, .f32⟩
  | 15 => ⟨S1x256, .f32⟩
  | 16 => ⟨S50000x256, .f32⟩
  | 17 => ⟨S50000x256, .f32⟩
  | 18 => ⟨S_, .f32⟩
  | 19 => ⟨S50000x256, .f32⟩
  | 20 => ⟨S50000x256, .f32⟩
  | 21 => ⟨S_, .f32⟩
  | 22 => ⟨S512x256, .f32⟩
  | 23 => ⟨S50000x1, .i32⟩
  | 24 => ⟨S512x256, .f32⟩
  | 25 => ⟨S512x512, .f32⟩
  | 26 => ⟨S_, .f32⟩
  | 27 => ⟨S_, .f32⟩
  | 28 => ⟨S50000x256, .i1⟩
  | 29 => ⟨S50000x256, .f32⟩
  | 30 => ⟨S50000x256, .f32⟩
  | 31 => ⟨S1x320000, .i32⟩
  | 32 => ⟨S320000, .i32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x256, .f32⟩
  | 42 => ⟨S1x320000, .i32⟩
  | 43 => ⟨S320000, .i32⟩
  | 44 => ⟨S_, .f32⟩
  | 45 => ⟨S50000x256, .f32⟩
  | 46 => ⟨S320000x1, .i32⟩
  | 47 => ⟨S50000x256, .f32⟩
  | 48 => ⟨S50000x256, .f32⟩
  | 49 => ⟨S50000x512, .f32⟩
  | 50 => ⟨S_, .f32⟩
  | 51 => ⟨S512, .f32⟩
  | 52 => ⟨S_, .f32⟩
  | 53 => ⟨S512, .f32⟩
  | 54 => ⟨S512, .f32⟩
  | 55 => ⟨S_, .i32⟩
  | 56 => ⟨S_, .f32⟩
  | 57 => ⟨S512, .f32⟩
  | 58 => ⟨S1x512, .f32⟩
  | 59 => ⟨S_, .f32⟩
  | 60 => ⟨S1x512, .f32⟩
  | 61 => ⟨S1x512, .f32⟩
  | 62 => ⟨S50000x512, .f32⟩
  | 63 => ⟨S50000x512, .f32⟩
  | 64 => ⟨S50000x512, .f32⟩
  | 65 => ⟨S_, .f32⟩
  | 66 => ⟨S_, .f32⟩
  | 67 => ⟨S_, .f32⟩
  | 68 => ⟨S_, .f32⟩
  | 69 => ⟨S512, .f32⟩
  | 70 => ⟨S512, .f32⟩
  | 71 => ⟨S512, .f32⟩
  | 72 => ⟨S_, .f32⟩
  | 73 => ⟨S_, .i1⟩
  | 74 => ⟨S_, .f32⟩
  | 75 => ⟨S_, .f32⟩
  | 76 => ⟨S512, .f32⟩
  | 77 => ⟨S512, .f32⟩
  | 78 => ⟨S1x512, .f32⟩
  | 79 => ⟨S50000x512, .f32⟩
  | 80 => ⟨S50000x512, .f32⟩
  | 81 => ⟨S1x512, .f32⟩
  | 82 => ⟨S50000x512, .f32⟩
  | 83 => ⟨S50000x512, .f32⟩
  | 84 => ⟨S_, .f32⟩
  | 85 => ⟨S512, .f32⟩
  | 86 => ⟨S512, .f32⟩
  | 87 => ⟨S512, .f32⟩
  | 88 => ⟨S1x512, .f32⟩
  | 89 => ⟨S50000x512, .f32⟩
  | 90 => ⟨S50000x512, .f32⟩
  | 91 => ⟨S1x512, .f32⟩
  | 92 => ⟨S50000x512, .f32⟩
  | 93 => ⟨S50000x512, .f32⟩
  | 94 => ⟨S_, .f32⟩
  | 95 => ⟨S50000x512, .f32⟩
  | 96 => ⟨S50000x512, .f32⟩
  | 97 => ⟨S50000x128, .f32⟩
  | 98 => ⟨S_, .f32⟩
  | 99 => ⟨S128, .f32⟩
  | 100 => ⟨S_, .f32⟩
  | 101 => ⟨S128, .f32⟩
  | 102 => ⟨S128, .f32⟩
  | 103 => ⟨S_, .i32⟩
  | 104 => ⟨S_, .f32⟩
  | 105 => ⟨S128, .f32⟩
  | 106 => ⟨S1x128, .f32⟩
  | 107 => ⟨S_, .f32⟩
  | 108 => ⟨S1x128, .f32⟩
  | 109 => ⟨S1x128, .f32⟩
  | 110 => ⟨S50000x128, .f32⟩
  | 111 => ⟨S50000x128, .f32⟩
  | 112 => ⟨S50000x128, .f32⟩
  | 113 => ⟨S_, .f32⟩
  | 114 => ⟨S_, .f32⟩
  | 115 => ⟨S_, .f32⟩
  | 116 => ⟨S_, .f32⟩
  | 117 => ⟨S128, .f32⟩
  | 118 => ⟨S128, .f32⟩
  | 119 => ⟨S128, .f32⟩
  | 120 => ⟨S_, .f32⟩
  | 121 => ⟨S_, .i1⟩
  | 122 => ⟨S_, .f32⟩
  | 123 => ⟨S_, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_6 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S_, .f32⟩
  | 18 => ⟨S512x128, .f32⟩
  | 19 => ⟨S50000x1, .i32⟩
  | 20 => ⟨S512x128, .f32⟩
  | 21 => ⟨S50000, .f32⟩
  | 22 => ⟨S50000x128, .f32⟩
  | 23 => ⟨S_, .f32⟩
  | 24 => ⟨S50000, .f32⟩
  | 25 => ⟨S50000x1, .f32⟩
  | 26 => ⟨S50000x1, .f32⟩
  | 27 => ⟨S_, .f32⟩
  | 28 => ⟨S50000x1, .f32⟩
  | 29 => ⟨S50000x1, .f32⟩
  | 30 => ⟨S50000x128, .f32⟩
  | 31 => ⟨S50000x128, .f32⟩
  | 32 => ⟨S50000x128, .f32⟩
  | 33 => ⟨S_, .f32⟩
  | 34 => ⟨S50000, .f32⟩
  | 35 => ⟨S50000x1, .f32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S50000x128, .f32⟩
  | 43 => ⟨S_, .f32⟩
  | 44 => ⟨S50000, .f32⟩
  | 45 => ⟨S_, .f32⟩
  | 46 => ⟨S50000, .f32⟩
  | 47 => ⟨S50000, .f32⟩
  | 48 => ⟨S50000, .f32⟩
  | 49 => ⟨S_, .f32⟩
  | 50 => ⟨S_, .f32⟩
  | 51 => ⟨S_, .f32⟩
  | 52 => ⟨S_, .f32⟩
  | 53 => ⟨S_, .f32⟩
  | 54 => ⟨S50000x128, .f32⟩
  | 55 => ⟨S_, .f32⟩
  | 56 => ⟨S50000, .f32⟩
  | 57 => ⟨S50000x1, .f32⟩
  | 58 => ⟨S50000x1, .f32⟩
  | 59 => ⟨S_, .f32⟩
  | 60 => ⟨S50000x1, .f32⟩
  | 61 => ⟨S50000x1, .f32⟩
  | 62 => ⟨S50000x128, .f32⟩
  | 63 => ⟨S50000x128, .f32⟩
  | 64 => ⟨S50000x128, .f32⟩
  | 65 => ⟨S_, .f32⟩
  | 66 => ⟨S50000, .f32⟩
  | 67 => ⟨S50000x1, .f32⟩
  | 68 => ⟨S50000x1, .f32⟩
  | 69 => ⟨S_, .f32⟩
  | 70 => ⟨S50000x1, .f32⟩
  | 71 => ⟨S50000x1, .f32⟩
  | 72 => ⟨S50000x128, .f32⟩
  | 73 => ⟨S50000x128, .f32⟩
  | 74 => ⟨S50000x128, .f32⟩
  | 75 => ⟨S_, .f32⟩
  | 76 => ⟨S50000, .f32⟩
  | 77 => ⟨S_, .f32⟩
  | 78 => ⟨S50000, .f32⟩
  | 79 => ⟨S50000, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_c_4 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_cst_3 : Ref sig .tc := ⟨.hbm, 71, rfl⟩
abbrev main_call1_v12 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_cst_5 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_call2_cst : Ref sig .tc := ⟨.hbm, 93, rfl⟩
abbrev main_call2_v0 : Ref sig .tc := ⟨.hbm, 94, rfl⟩
abbrev main_v37 : Ref sig .tc := ⟨.hbm, 95, rfl⟩
abbrev main_v38 : Ref sig .tc := ⟨.hbm, 96, rfl⟩
abbrev main_cst_6 : Ref sig .tc := ⟨.hbm, 97, rfl⟩
abbrev main_v39 : Ref sig .tc := ⟨.hbm, 98, rfl⟩
abbrev main_cst_7 : Ref sig .tc := ⟨.hbm, 99, rfl⟩
abbrev main_v40 : Ref sig .tc := ⟨.hbm, 100, rfl⟩
abbrev main_v41 : Ref sig .tc := ⟨.hbm, 101, rfl⟩
abbrev main_c_8 : Ref sig .tc := ⟨.hbm, 102, rfl⟩
abbrev main_call3_cst : Ref sig .tc := ⟨.hbm, 103, rfl⟩
abbrev main_call3_v0 : Ref sig .tc := ⟨.hbm, 104, rfl⟩
abbrev main_call3_v1 : Ref sig .tc := ⟨.hbm, 105, rfl⟩
abbrev main_call3_cst_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_v6 : Ref sig .tc := ⟨.hbm, 111, rfl⟩
abbrev main_call3_v7 : Ref sig .tc := ⟨.hbm, 112, rfl⟩
abbrev main_call3_cst_1 : Ref sig .tc := ⟨.hbm, 113, rfl⟩
abbrev main_call3_v8 : Ref sig .tc := ⟨.hbm, 114, rfl⟩
abbrev main_call3_cst_2 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_cst_3 : Ref sig .tc := ⟨.hbm, 119, rfl⟩
abbrev main_call3_v12 : Ref sig .tc := ⟨.hbm, 120, rfl⟩
abbrev main_call3_cst_4 : Ref sig .tc := ⟨.hbm, 121, rfl⟩
abbrev main_call3_call0_v0 : Ref sig .tc := ⟨.hbm, 122, rfl⟩
abbrev main_call3_call0_v1 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_cst_9 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_call4_cst : Ref sig .tc := ⟨.hbm, 141, rfl⟩
abbrev main_call4_v0 : Ref sig .tc := ⟨.hbm, 142, rfl⟩
abbrev main_v58 : Ref sig .tc := ⟨.hbm, 143, rfl⟩
abbrev main_cst_10 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_c_11 : Ref sig .tc := ⟨.hbm, 150, rfl⟩
abbrev main_v64 : Ref sig .tc := ⟨.hbm, 151, rfl⟩
abbrev main_v65 : Ref sig .tc := ⟨.hbm, 152, rfl⟩
abbrev main_c_12 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_cst_13 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_cst_14 : Ref sig .tc := ⟨.hbm, 167, rfl⟩
abbrev main_v78 : Ref sig .tc := ⟨.hbm, 168, rfl⟩
abbrev main_cst_15 : Ref sig .tc := ⟨.hbm, 169, rfl⟩
abbrev main_v79 : Ref sig .tc := ⟨.hbm, 170, rfl⟩
abbrev main_v80 : Ref sig .tc := ⟨.hbm, 171, rfl⟩
abbrev main_c_16 : Ref sig .tc := ⟨.hbm, 172, rfl⟩
abbrev main_call5_cst : Ref sig .tc := ⟨.hbm, 173, rfl⟩
abbrev main_call5_v0 : Ref sig .tc := ⟨.hbm, 174, rfl⟩
abbrev main_call5_v1 : Ref sig .tc := ⟨.hbm, 175, rfl⟩
abbrev main_call5_cst_0 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_call5_v5 : Ref sig .tc := ⟨.hbm, 180, rfl⟩
abbrev main_call5_v6 : Ref sig .tc := ⟨.hbm, 181, rfl⟩
abbrev main_call5_v7 : Ref sig .tc := ⟨.hbm, 182, rfl⟩
abbrev main_call5_cst_1 : Ref sig .tc := ⟨.hbm, 183, rfl⟩
abbrev main_call5_v8 : Ref sig .tc := ⟨.hbm, 184, rfl⟩
abbrev main_call5_cst_2 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_cst_3 : Ref sig .tc := ⟨.hbm, 189, rfl⟩
abbrev main_call5_v12 : Ref sig .tc := ⟨.hbm, 190, rfl⟩
abbrev main_call5_cst_4 : Ref sig .tc := ⟨.hbm, 191, rfl⟩
abbrev main_call5_call0_v0 : Ref sig .tc := ⟨.hbm, 192, rfl⟩
abbrev main_call5_call0_v1 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_cst_17 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_call6_cst : Ref sig .tc := ⟨.hbm, 211, rfl⟩
abbrev main_call6_v0 : Ref sig .tc := ⟨.hbm, 212, rfl⟩
abbrev main_v97 : Ref sig .tc := ⟨.hbm, 213, rfl⟩
abbrev main_v98 : Ref sig .tc := ⟨.hbm, 214, rfl⟩
abbrev main_cst_18 : Ref sig .tc := ⟨.hbm, 215, rfl⟩
abbrev main_v99 : Ref sig .tc := ⟨.hbm, 216, rfl⟩
abbrev main_cst_19 : Ref sig .tc := ⟨.hbm, 217, rfl⟩
abbrev main_v100 : Ref sig .tc := ⟨.hbm, 218, rfl⟩
abbrev main_v101 : Ref sig .tc := ⟨.hbm, 219, rfl⟩
abbrev main_c_20 : Ref sig .tc := ⟨.hbm, 220, rfl⟩
abbrev main_call7_cst : Ref sig .tc := ⟨.hbm, 221, rfl⟩
abbrev main_call7_v0 : Ref sig .tc := ⟨.hbm, 222, rfl⟩
abbrev main_call7_v1 : Ref sig .tc := ⟨.hbm, 223, rfl⟩
abbrev main_call7_cst_0 : Ref sig .tc := ⟨.hbm, 224, rfl⟩
abbrev main_call7_v2 : Ref sig .tc := ⟨.hbm, 225, rfl⟩
abbrev main_call7_v3 : Ref sig .tc := ⟨.hbm, 226, rfl⟩
abbrev main_call7_v4 : Ref sig .tc := ⟨.hbm, 227, rfl⟩
abbrev main_call7_v5 : Ref sig .tc := ⟨.hbm, 228, rfl⟩
abbrev main_call7_v6 : Ref sig .tc := ⟨.hbm, 229, rfl⟩
abbrev main_call7_v7 : Ref sig .tc := ⟨.hbm, 230, rfl⟩
abbrev main_call7_cst_1 : Ref sig .tc := ⟨.hbm, 231, rfl⟩
abbrev main_call7_v8 : Ref sig .tc := ⟨.hbm, 232, rfl⟩
abbrev main_call7_cst_2 : Ref sig .tc := ⟨.hbm, 233, rfl⟩
abbrev main_call7_v9 : Ref sig .tc := ⟨.hbm, 234, rfl⟩
abbrev main_call7_v10 : Ref sig .tc := ⟨.hbm, 235, rfl⟩
abbrev main_call7_v11 : Ref sig .tc := ⟨.hbm, 236, rfl⟩
abbrev main_call7_cst_3 : Ref sig .tc := ⟨.hbm, 237, rfl⟩
abbrev main_call7_v12 : Ref sig .tc := ⟨.hbm, 238, rfl⟩
abbrev main_call7_cst_4 : Ref sig .tc := ⟨.hbm, 239, rfl⟩
abbrev main_call7_call0_v0 : Ref sig .tc := ⟨.hbm, 240, rfl⟩
abbrev main_call7_call0_v1 : Ref sig .tc := ⟨.hbm, 241, rfl⟩
abbrev main_v102 : Ref sig .tc := ⟨.hbm, 242, rfl⟩
abbrev main_v103 : Ref sig .tc := ⟨.hbm, 243, rfl⟩
abbrev main_v104 : Ref sig .tc := ⟨.hbm, 244, rfl⟩
abbrev main_v105 : Ref sig .tc := ⟨.hbm, 245, rfl⟩
abbrev main_v106 : Ref sig .tc := ⟨.hbm, 246, rfl⟩
abbrev main_v107 : Ref sig .tc := ⟨.hbm, 247, rfl⟩
abbrev main_v108 : Ref sig .tc := ⟨.hbm, 248, rfl⟩
abbrev main_cst_21 : Ref sig .tc := ⟨.hbm, 249, rfl⟩
abbrev main_v109 : Ref sig .tc := ⟨.hbm, 250, rfl⟩
abbrev main_v110 : Ref sig .tc := ⟨.hbm, 251, rfl⟩
abbrev main_v111 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_v115 : Ref sig .tc := ⟨.hbm, 256, rfl⟩
abbrev main_v116 : Ref sig .tc := ⟨.hbm, 257, rfl⟩
abbrev main_v117 : Ref sig .tc := ⟨.hbm, 258, rfl⟩
abbrev main_call8_cst : Ref sig .tc := ⟨.hbm, 259, rfl⟩
abbrev main_call8_v0 : Ref sig .tc := ⟨.hbm, 260, rfl⟩
abbrev main_v118 : Ref sig .tc := ⟨.hbm, 261, rfl⟩
abbrev main_cst_22 : Ref sig .tc := ⟨.hbm, 262, rfl⟩
abbrev main_v119 : Ref sig .tc := ⟨.hbm, 263, rfl⟩
abbrev main_v120 : Ref sig .tc := ⟨.hbm, 264, rfl⟩
abbrev main_v121 : Ref sig .tc := ⟨.hbm, 265, rfl⟩
abbrev main_v122 : Ref sig .tc := ⟨.hbm, 266, rfl⟩
abbrev main_cst_23 : Ref sig .tc := ⟨.hbm, 267, rfl⟩
abbrev main_call9_v0 : Ref sig .tc := ⟨.hbm, 268, rfl⟩
abbrev main_call9_v1 : Ref sig .tc := ⟨.hbm, 269, rfl⟩
abbrev main_call9_v2 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_c_24 : Ref sig .tc := ⟨.hbm, 274, rfl⟩
abbrev main_v126 : Ref sig .tc := ⟨.hbm, 275, rfl⟩
abbrev main_v127 : Ref sig .tc := ⟨.hbm, 276, rfl⟩
abbrev main_c_25 : Ref sig .tc := ⟨.hbm, 277, rfl⟩
abbrev main_v128 : Ref sig .tc := ⟨.hbm, 278, rfl⟩
abbrev main_v129 : Ref sig .tc := ⟨.hbm, 279, rfl⟩
abbrev main_v130 : Ref sig .tc := ⟨.hbm, 280, rfl⟩
abbrev main_v131 : Ref sig .tc := ⟨.hbm, 281, rfl⟩
abbrev main_v132 : Ref sig .tc := ⟨.hbm, 282, rfl⟩
abbrev main_v133 : Ref sig .tc := ⟨.hbm, 283, rfl⟩
abbrev main_v134 : Ref sig .tc := ⟨.hbm, 284, rfl⟩
abbrev main_cst_26 : Ref sig .tc := ⟨.hbm, 285, rfl⟩
abbrev main_v135 : Ref sig .tc := ⟨.hbm, 286, rfl⟩
abbrev main_v136 : Ref sig .tc := ⟨.hbm, 287, rfl⟩
abbrev main_v137 : Ref sig .tc := ⟨.hbm, 288, rfl⟩
abbrev main_v138 : Ref sig .tc := ⟨.hbm, 289, rfl⟩
abbrev main_v139 : Ref sig .tc := ⟨.hbm, 290, rfl⟩
abbrev main_cst_27 : Ref sig .tc := ⟨.hbm, 291, rfl⟩
abbrev main_v140 : Ref sig .tc := ⟨.hbm, 292, rfl⟩
abbrev main_cst_28 : Ref sig .tc := ⟨.hbm, 293, rfl⟩
abbrev main_v141 : Ref sig .tc := ⟨.hbm, 294, rfl⟩
abbrev main_v142 : Ref sig .tc := ⟨.hbm, 295, rfl⟩
abbrev main_c_29 : Ref sig .tc := ⟨.hbm, 296, rfl⟩
abbrev main_call10_cst : Ref sig .tc := ⟨.hbm, 297, rfl⟩
abbrev main_call10_v0 : Ref sig .tc := ⟨.hbm, 298, rfl⟩
abbrev main_call10_v1 : Ref sig .tc := ⟨.hbm, 299, rfl⟩
abbrev main_call10_cst_0 : Ref sig .tc := ⟨.hbm, 300, rfl⟩
abbrev main_call10_v2 : Ref sig .tc := ⟨.hbm, 301, rfl⟩
abbrev main_call10_v3 : Ref sig .tc := ⟨.hbm, 302, rfl⟩
abbrev main_call10_v4 : Ref sig .tc := ⟨.hbm, 303, rfl⟩
abbrev main_call10_v5 : Ref sig .tc := ⟨.hbm, 304, rfl⟩
abbrev main_call10_v6 : Ref sig .tc := ⟨.hbm, 305, rfl⟩
abbrev main_call10_v7 : Ref sig .tc := ⟨.hbm, 306, rfl⟩
abbrev main_call10_cst_1 : Ref sig .tc := ⟨.hbm, 307, rfl⟩
abbrev main_call10_v8 : Ref sig .tc := ⟨.hbm, 308, rfl⟩
abbrev main_call10_cst_2 : Ref sig .tc := ⟨.hbm, 309, rfl⟩
abbrev main_call10_v9 : Ref sig .tc := ⟨.hbm, 310, rfl⟩
abbrev main_call10_v10 : Ref sig .tc := ⟨.hbm, 311, rfl⟩
abbrev main_call10_v11 : Ref sig .tc := ⟨.hbm, 312, rfl⟩
abbrev main_call10_cst_3 : Ref sig .tc := ⟨.hbm, 313, rfl⟩
abbrev main_call10_v12 : Ref sig .tc := ⟨.hbm, 314, rfl⟩
abbrev main_call10_cst_4 : Ref sig .tc := ⟨.hbm, 315, rfl⟩
abbrev main_call10_call0_v0 : Ref sig .tc := ⟨.hbm, 316, rfl⟩
abbrev main_call10_call0_v1 : Ref sig .tc := ⟨.hbm, 317, rfl⟩
abbrev main_v143 : Ref sig .tc := ⟨.hbm, 318, rfl⟩
abbrev main_v144 : Ref sig .tc := ⟨.hbm, 319, rfl⟩
abbrev main_v145 : Ref sig .tc := ⟨.hbm, 320, rfl⟩
abbrev main_v146 : Ref sig .tc := ⟨.hbm, 321, rfl⟩
abbrev main_v147 : Ref sig .tc := ⟨.hbm, 322, rfl⟩
abbrev main_v148 : Ref sig .tc := ⟨.hbm, 323, rfl⟩
abbrev main_v149 : Ref sig .tc := ⟨.hbm, 324, rfl⟩
abbrev main_cst_30 : Ref sig .tc := ⟨.hbm, 325, rfl⟩
abbrev main_v150 : Ref sig .tc := ⟨.hbm, 326, rfl⟩
abbrev main_v151 : Ref sig .tc := ⟨.hbm, 327, rfl⟩
abbrev main_v152 : Ref sig .tc := ⟨.hbm, 328, rfl⟩
abbrev main_v153 : Ref sig .tc := ⟨.hbm, 329, rfl⟩
abbrev main_v154 : Ref sig .tc := ⟨.hbm, 330, rfl⟩
abbrev main_v155 : Ref sig .tc := ⟨.hbm, 331, rfl⟩
abbrev main_v156 : Ref sig .tc := ⟨.hbm, 332, rfl⟩
abbrev main_v157 : Ref sig .tc := ⟨.hbm, 333, rfl⟩
abbrev main_v158 : Ref sig .tc := ⟨.hbm, 334, rfl⟩
abbrev main_call11_cst : Ref sig .tc := ⟨.hbm, 335, rfl⟩
abbrev main_call11_v0 : Ref sig .tc := ⟨.hbm, 336, rfl⟩
abbrev main_v159 : Ref sig .tc := ⟨.hbm, 337, rfl⟩
abbrev main_v160 : Ref sig .tc := ⟨.hbm, 338, rfl⟩
abbrev main_cst_31 : Ref sig .tc := ⟨.hbm, 339, rfl⟩
abbrev main_v161 : Ref sig .tc := ⟨.hbm, 340, rfl⟩
abbrev main_cst_32 : Ref sig .tc := ⟨.hbm, 341, rfl⟩
abbrev main_v162 : Ref sig .tc := ⟨.hbm, 342, rfl⟩
abbrev main_v163 : Ref sig .tc := ⟨.hbm, 343, rfl⟩
abbrev main_c_33 : Ref sig .tc := ⟨.hbm, 344, rfl⟩
abbrev main_call12_cst : Ref sig .tc := ⟨.hbm, 345, rfl⟩
abbrev main_call12_v0 : Ref sig .tc := ⟨.hbm, 346, rfl⟩
abbrev main_call12_v1 : Ref sig .tc := ⟨.hbm, 347, rfl⟩
abbrev main_call12_cst_0 : Ref sig .tc := ⟨.hbm, 348, rfl⟩
abbrev main_call12_v2 : Ref sig .tc := ⟨.hbm, 349, rfl⟩
abbrev main_call12_v3 : Ref sig .tc := ⟨.hbm, 350, rfl⟩
abbrev main_call12_v4 : Ref sig .tc := ⟨.hbm, 351, rfl⟩
abbrev main_call12_v5 : Ref sig .tc := ⟨.hbm, 352, rfl⟩
abbrev main_call12_v6 : Ref sig .tc := ⟨.hbm, 353, rfl⟩
abbrev main_call12_v7 : Ref sig .tc := ⟨.hbm, 354, rfl⟩
abbrev main_call12_cst_1 : Ref sig .tc := ⟨.hbm, 355, rfl⟩
abbrev main_call12_v8 : Ref sig .tc := ⟨.hbm, 356, rfl⟩
abbrev main_call12_cst_2 : Ref sig .tc := ⟨.hbm, 357, rfl⟩
abbrev main_call12_v9 : Ref sig .tc := ⟨.hbm, 358, rfl⟩
abbrev main_call12_v10 : Ref sig .tc := ⟨.hbm, 359, rfl⟩
abbrev main_call12_v11 : Ref sig .tc := ⟨.hbm, 360, rfl⟩
abbrev main_call12_cst_3 : Ref sig .tc := ⟨.hbm, 361, rfl⟩
abbrev main_call12_v12 : Ref sig .tc := ⟨.hbm, 362, rfl⟩
abbrev main_call12_cst_4 : Ref sig .tc := ⟨.hbm, 363, rfl⟩
abbrev main_call12_call0_v0 : Ref sig .tc := ⟨.hbm, 364, rfl⟩
abbrev main_call12_call0_v1 : Ref sig .tc := ⟨.hbm, 365, rfl⟩
abbrev main_v164 : Ref sig .tc := ⟨.hbm, 366, rfl⟩
abbrev main_v165 : Ref sig .tc := ⟨.hbm, 367, rfl⟩
abbrev main_v166 : Ref sig .tc := ⟨.hbm, 368, rfl⟩
abbrev main_v167 : Ref sig .tc := ⟨.hbm, 369, rfl⟩
abbrev main_v168 : Ref sig .tc := ⟨.hbm, 370, rfl⟩
abbrev main_v169 : Ref sig .tc := ⟨.hbm, 371, rfl⟩
abbrev main_v170 : Ref sig .tc := ⟨.hbm, 372, rfl⟩
abbrev main_cst_34 : Ref sig .tc := ⟨.hbm, 373, rfl⟩
abbrev main_v171 : Ref sig .tc := ⟨.hbm, 374, rfl⟩
abbrev main_v172 : Ref sig .tc := ⟨.hbm, 375, rfl⟩
abbrev main_v173 : Ref sig .tc := ⟨.hbm, 376, rfl⟩
abbrev main_v174 : Ref sig .tc := ⟨.hbm, 377, rfl⟩
abbrev main_v175 : Ref sig .tc := ⟨.hbm, 378, rfl⟩
abbrev main_v176 : Ref sig .tc := ⟨.hbm, 379, rfl⟩
abbrev main_v177 : Ref sig .tc := ⟨.hbm, 380, rfl⟩
abbrev main_v178 : Ref sig .tc := ⟨.hbm, 381, rfl⟩
abbrev main_v179 : Ref sig .tc := ⟨.hbm, 382, rfl⟩
abbrev main_call13_cst : Ref sig .tc := ⟨.hbm, 383, rfl⟩
abbrev main_call13_v0 : Ref sig .tc := ⟨.hbm, 384, rfl⟩
abbrev main_v180 : Ref sig .tc := ⟨.hbm, 385, rfl⟩
abbrev main_cst_35 : Ref sig .tc := ⟨.hbm, 386, rfl⟩
abbrev main_v181 : Ref sig .tc := ⟨.hbm, 387, rfl⟩
abbrev main_v182 : Ref sig .tc := ⟨.hbm, 388, rfl⟩
abbrev main_v183 : Ref sig .tc := ⟨.hbm, 389, rfl⟩
abbrev main_v184 : Ref sig .tc := ⟨.hbm, 390, rfl⟩
abbrev main_call14_v0 : Ref sig .tc := ⟨.hbm, 391, rfl⟩
abbrev main_call14_cst : Ref sig .tc := ⟨.hbm, 392, rfl⟩
abbrev main_call14_v1 : Ref sig .tc := ⟨.hbm, 393, rfl⟩
abbrev main_call14_v2 : Ref sig .tc := ⟨.hbm, 394, rfl⟩
abbrev main_v185 : Ref sig .tc := ⟨.hbm, 395, rfl⟩
abbrev main_cst_36 : Ref sig .tc := ⟨.hbm, 396, rfl⟩
abbrev main_v186 : Ref sig .tc := ⟨.hbm, 397, rfl⟩
abbrev main_v187 : Ref sig .tc := ⟨.hbm, 398, rfl⟩
abbrev main_v188 : Ref sig .tc := ⟨.hbm, 399, rfl⟩
abbrev main_v189 : Ref sig .tc := ⟨.hbm, 400, rfl⟩
abbrev main_call15_v0 : Ref sig .tc := ⟨.hbm, 401, rfl⟩
abbrev main_call15_cst : Ref sig .tc := ⟨.hbm, 402, rfl⟩
abbrev main_call15_v1 : Ref sig .tc := ⟨.hbm, 403, rfl⟩
abbrev main_call15_v2 : Ref sig .tc := ⟨.hbm, 404, rfl⟩
abbrev main_v190 : Ref sig .tc := ⟨.hbm, 405, rfl⟩
abbrev main_cst_37 : Ref sig .tc := ⟨.hbm, 406, rfl⟩
abbrev main_v191 : Ref sig .tc := ⟨.hbm, 407, rfl⟩
abbrev main_v192 : Ref sig .tc := ⟨.hbm, 408, rfl⟩
abbrev main_v193 : Ref sig .tc := ⟨.hbm, 409, rfl⟩
abbrev main_v194 : Ref sig .tc := ⟨.hbm, 410, rfl⟩
abbrev main_v195 : Ref sig .tc := ⟨.hbm, 411, rfl⟩
abbrev main_cst_38 : Ref sig .tc := ⟨.hbm, 412, rfl⟩
abbrev main_v196 : Ref sig .tc := ⟨.hbm, 413, rfl⟩
abbrev main_cst_39 : Ref sig .tc := ⟨.hbm, 414, rfl⟩
abbrev main_v197 : Ref sig .tc := ⟨.hbm, 415, rfl⟩
abbrev main_v198 : Ref sig .tc := ⟨.hbm, 416, rfl⟩
abbrev main_v199 : Ref sig .tc := ⟨.hbm, 417, rfl⟩
abbrev main_cst_40 : Ref sig .tc := ⟨.hbm, 418, rfl⟩
abbrev main_v200 : Ref sig .tc := ⟨.hbm, 419, rfl⟩
abbrev main_cst_41 : Ref sig .tc := ⟨.hbm, 420, rfl⟩
abbrev main_v201 : Ref sig .tc := ⟨.hbm, 421, rfl⟩
abbrev main_v202 : Ref sig .tc := ⟨.hbm, 422, rfl⟩
abbrev main_v203 : Ref sig .tc := ⟨.hbm, 423, rfl⟩
abbrev main_cst_42 : Ref sig .tc := ⟨.hbm, 424, rfl⟩
abbrev main_call16_v0 : Ref sig .tc := ⟨.hbm, 425, rfl⟩
abbrev main_call16_v1 : Ref sig .tc := ⟨.hbm, 426, rfl⟩
abbrev main_call16_v2 : Ref sig .tc := ⟨.hbm, 427, rfl⟩
abbrev main_v204 : Ref sig .tc := ⟨.hbm, 428, rfl⟩
abbrev main_v205 : Ref sig .tc := ⟨.hbm, 429, rfl⟩
abbrev main_v206 : Ref sig .tc := ⟨.hbm, 430, rfl⟩
abbrev main_c_43 : Ref sig .tc := ⟨.hbm, 431, rfl⟩
abbrev main_v207 : Ref sig .tc := ⟨.hbm, 432, rfl⟩
abbrev main_v208 : Ref sig .tc := ⟨.hbm, 433, rfl⟩
abbrev main_c_44 : Ref sig .tc := ⟨.hbm, 434, rfl⟩
abbrev main_v209 : Ref sig .tc := ⟨.hbm, 435, rfl⟩
abbrev main_v210 : Ref sig .tc := ⟨.hbm, 436, rfl⟩
abbrev main_v211 : Ref sig .tc := ⟨.hbm, 437, rfl⟩
abbrev main_v212 : Ref sig .tc := ⟨.hbm, 438, rfl⟩
abbrev main_v213 : Ref sig .tc := ⟨.hbm, 439, rfl⟩
abbrev main_v214 : Ref sig .tc := ⟨.hbm, 440, rfl⟩
abbrev main_v215 : Ref sig .tc := ⟨.hbm, 441, rfl⟩
abbrev main_cst_45 : Ref sig .tc := ⟨.hbm, 442, rfl⟩
abbrev main_v216 : Ref sig .tc := ⟨.hbm, 443, rfl⟩
abbrev main_v217 : Ref sig .tc := ⟨.hbm, 444, rfl⟩
abbrev main_v218 : Ref sig .tc := ⟨.hbm, 445, rfl⟩
abbrev main_v219 : Ref sig .tc := ⟨.hbm, 446, rfl⟩
abbrev main_v220 : Ref sig .tc := ⟨.hbm, 447, rfl⟩
abbrev main_cst_46 : Ref sig .tc := ⟨.hbm, 448, rfl⟩
abbrev main_v221 : Ref sig .tc := ⟨.hbm, 449, rfl⟩
abbrev main_cst_47 : Ref sig .tc := ⟨.hbm, 450, rfl⟩
abbrev main_v222 : Ref sig .tc := ⟨.hbm, 451, rfl⟩
abbrev main_v223 : Ref sig .tc := ⟨.hbm, 452, rfl⟩
abbrev main_c_48 : Ref sig .tc := ⟨.hbm, 453, rfl⟩
abbrev main_call17_cst : Ref sig .tc := ⟨.hbm, 454, rfl⟩
abbrev main_call17_v0 : Ref sig .tc := ⟨.hbm, 455, rfl⟩
abbrev main_call17_v1 : Ref sig .tc := ⟨.hbm, 456, rfl⟩
abbrev main_call17_cst_0 : Ref sig .tc := ⟨.hbm, 457, rfl⟩
abbrev main_call17_v2 : Ref sig .tc := ⟨.hbm, 458, rfl⟩
abbrev main_call17_v3 : Ref sig .tc := ⟨.hbm, 459, rfl⟩
abbrev main_call17_v4 : Ref sig .tc := ⟨.hbm, 460, rfl⟩
abbrev main_call17_v5 : Ref sig .tc := ⟨.hbm, 461, rfl⟩
abbrev main_call17_v6 : Ref sig .tc := ⟨.hbm, 462, rfl⟩
abbrev main_call17_v7 : Ref sig .tc := ⟨.hbm, 463, rfl⟩
abbrev main_call17_cst_1 : Ref sig .tc := ⟨.hbm, 464, rfl⟩
abbrev main_call17_v8 : Ref sig .tc := ⟨.hbm, 465, rfl⟩
abbrev main_call17_cst_2 : Ref sig .tc := ⟨.hbm, 466, rfl⟩
abbrev main_call17_v9 : Ref sig .tc := ⟨.hbm, 467, rfl⟩
abbrev main_call17_v10 : Ref sig .tc := ⟨.hbm, 468, rfl⟩
abbrev main_call17_v11 : Ref sig .tc := ⟨.hbm, 469, rfl⟩
abbrev main_call17_cst_3 : Ref sig .tc := ⟨.hbm, 470, rfl⟩
abbrev main_call17_v12 : Ref sig .tc := ⟨.hbm, 471, rfl⟩
abbrev main_call17_cst_4 : Ref sig .tc := ⟨.hbm, 472, rfl⟩
abbrev main_call17_call0_v0 : Ref sig .tc := ⟨.hbm, 473, rfl⟩
abbrev main_call17_call0_v1 : Ref sig .tc := ⟨.hbm, 474, rfl⟩
abbrev main_v224 : Ref sig .tc := ⟨.hbm, 475, rfl⟩
abbrev main_v225 : Ref sig .tc := ⟨.hbm, 476, rfl⟩
abbrev main_v226 : Ref sig .tc := ⟨.hbm, 477, rfl⟩
abbrev main_v227 : Ref sig .tc := ⟨.hbm, 478, rfl⟩
abbrev main_v228 : Ref sig .tc := ⟨.hbm, 479, rfl⟩
abbrev main_v229 : Ref sig .tc := ⟨.hbm, 480, rfl⟩
abbrev main_v230 : Ref sig .tc := ⟨.hbm, 481, rfl⟩
abbrev main_cst_49 : Ref sig .tc := ⟨.hbm, 482, rfl⟩
abbrev main_v231 : Ref sig .tc := ⟨.hbm, 483, rfl⟩
abbrev main_v232 : Ref sig .tc := ⟨.hbm, 484, rfl⟩
abbrev main_v233 : Ref sig .tc := ⟨.hbm, 485, rfl⟩
abbrev main_v234 : Ref sig .tc := ⟨.hbm, 486, rfl⟩
abbrev main_v235 : Ref sig .tc := ⟨.hbm, 487, rfl⟩
abbrev main_v236 : Ref sig .tc := ⟨.hbm, 488, rfl⟩
abbrev main_v237 : Ref sig .tc := ⟨.hbm, 489, rfl⟩
abbrev main_v238 : Ref sig .tc := ⟨.hbm, 490, rfl⟩
abbrev main_v239 : Ref sig .tc := ⟨.hbm, 491, rfl⟩
abbrev main_call18_cst : Ref sig .tc := ⟨.hbm, 492, rfl⟩
abbrev main_call18_v0 : Ref sig .tc := ⟨.hbm, 493, rfl⟩
abbrev main_v240 : Ref sig .tc := ⟨.hbm, 494, rfl⟩
abbrev main_v241 : Ref sig .tc := ⟨.hbm, 495, rfl⟩
abbrev main_cst_50 : Ref sig .tc := ⟨.hbm, 496, rfl⟩
abbrev main_v242 : Ref sig .tc := ⟨.hbm, 497, rfl⟩
abbrev main_cst_51 : Ref sig .tc := ⟨.hbm, 498, rfl⟩
abbrev main_v243 : Ref sig .tc := ⟨.hbm, 499, rfl⟩
abbrev main_v244 : Ref sig .tc := ⟨.hbm, 500, rfl⟩
abbrev main_c_52 : Ref sig .tc := ⟨.hbm, 501, rfl⟩
abbrev main_call19_cst : Ref sig .tc := ⟨.hbm, 502, rfl⟩
abbrev main_call19_v0 : Ref sig .tc := ⟨.hbm, 503, rfl⟩
abbrev main_call19_v1 : Ref sig .tc := ⟨.hbm, 504, rfl⟩
abbrev main_call19_cst_0 : Ref sig .tc := ⟨.hbm, 505, rfl⟩
abbrev main_call19_v2 : Ref sig .tc := ⟨.hbm, 506, rfl⟩
abbrev main_call19_v3 : Ref sig .tc := ⟨.hbm, 507, rfl⟩
abbrev main_call19_v4 : Ref sig .tc := ⟨.hbm, 508, rfl⟩
abbrev main_call19_v5 : Ref sig .tc := ⟨.hbm, 509, rfl⟩
abbrev main_call19_v6 : Ref sig .tc := ⟨.hbm, 510, rfl⟩
abbrev main_call19_v7 : Ref sig .tc := ⟨.hbm, 511, rfl⟩
abbrev main_call19_cst_1 : Ref sig .tc := ⟨.hbm, 512, rfl⟩
abbrev main_call19_v8 : Ref sig .tc := ⟨.hbm, 513, rfl⟩
abbrev main_call19_cst_2 : Ref sig .tc := ⟨.hbm, 514, rfl⟩
abbrev main_call19_v9 : Ref sig .tc := ⟨.hbm, 515, rfl⟩
abbrev main_call19_v10 : Ref sig .tc := ⟨.hbm, 516, rfl⟩
abbrev main_call19_v11 : Ref sig .tc := ⟨.hbm, 517, rfl⟩
abbrev main_call19_cst_3 : Ref sig .tc := ⟨.hbm, 518, rfl⟩
abbrev main_call19_v12 : Ref sig .tc := ⟨.hbm, 519, rfl⟩
abbrev main_call19_cst_4 : Ref sig .tc := ⟨.hbm, 520, rfl⟩
abbrev main_call19_call0_v0 : Ref sig .tc := ⟨.hbm, 521, rfl⟩
abbrev main_call19_call0_v1 : Ref sig .tc := ⟨.hbm, 522, rfl⟩
abbrev main_v245 : Ref sig .tc := ⟨.hbm, 523, rfl⟩
abbrev main_v246 : Ref sig .tc := ⟨.hbm, 524, rfl⟩
abbrev main_v247 : Ref sig .tc := ⟨.hbm, 525, rfl⟩
abbrev main_v248 : Ref sig .tc := ⟨.hbm, 526, rfl⟩
abbrev main_v249 : Ref sig .tc := ⟨.hbm, 527, rfl⟩
abbrev main_v250 : Ref sig .tc := ⟨.hbm, 528, rfl⟩
abbrev main_v251 : Ref sig .tc := ⟨.hbm, 529, rfl⟩
abbrev main_cst_53 : Ref sig .tc := ⟨.hbm, 530, rfl⟩
abbrev main_v252 : Ref sig .tc := ⟨.hbm, 531, rfl⟩
abbrev main_v253 : Ref sig .tc := ⟨.hbm, 532, rfl⟩
abbrev main_v254 : Ref sig .tc := ⟨.hbm, 533, rfl⟩
abbrev main_v255 : Ref sig .tc := ⟨.hbm, 534, rfl⟩
abbrev main_v256 : Ref sig .tc := ⟨.hbm, 535, rfl⟩
abbrev main_v257 : Ref sig .tc := ⟨.hbm, 536, rfl⟩
abbrev main_v258 : Ref sig .tc := ⟨.hbm, 537, rfl⟩
abbrev main_v259 : Ref sig .tc := ⟨.hbm, 538, rfl⟩
abbrev main_v260 : Ref sig .tc := ⟨.hbm, 539, rfl⟩
abbrev main_call20_cst : Ref sig .tc := ⟨.hbm, 540, rfl⟩
abbrev main_call20_v0 : Ref sig .tc := ⟨.hbm, 541, rfl⟩
abbrev main_v261 : Ref sig .tc := ⟨.hbm, 542, rfl⟩
abbrev main_cst_54 : Ref sig .tc := ⟨.hbm, 543, rfl⟩
abbrev main_v262 : Ref sig .tc := ⟨.hbm, 544, rfl⟩
abbrev main_v263 : Ref sig .tc := ⟨.hbm, 545, rfl⟩
abbrev main_v264 : Ref sig .tc := ⟨.hbm, 546, rfl⟩
abbrev main_v265 : Ref sig .tc := ⟨.hbm, 547, rfl⟩
abbrev main_v266 : Ref sig .tc := ⟨.hbm, 548, rfl⟩
abbrev main_c_55 : Ref sig .tc := ⟨.hbm, 549, rfl⟩
abbrev main_v267 : Ref sig .tc := ⟨.hbm, 550, rfl⟩
abbrev main_v268 : Ref sig .tc := ⟨.hbm, 551, rfl⟩
abbrev main_c_56 : Ref sig .tc := ⟨.hbm, 552, rfl⟩
abbrev main_v269 : Ref sig .tc := ⟨.hbm, 553, rfl⟩
abbrev main_v270 : Ref sig .tc := ⟨.hbm, 554, rfl⟩
abbrev main_v271 : Ref sig .tc := ⟨.hbm, 555, rfl⟩
abbrev main_v272 : Ref sig .tc := ⟨.hbm, 556, rfl⟩
abbrev main_v273 : Ref sig .tc := ⟨.hbm, 557, rfl⟩
abbrev main_v274 : Ref sig .tc := ⟨.hbm, 558, rfl⟩
abbrev main_v275 : Ref sig .tc := ⟨.hbm, 559, rfl⟩
abbrev main_cst_57 : Ref sig .tc := ⟨.hbm, 560, rfl⟩
abbrev main_v276 : Ref sig .tc := ⟨.hbm, 561, rfl⟩
abbrev main_v277 : Ref sig .tc := ⟨.hbm, 562, rfl⟩
abbrev main_v278 : Ref sig .tc := ⟨.hbm, 563, rfl⟩
abbrev main_v279 : Ref sig .tc := ⟨.hbm, 564, rfl⟩
abbrev main_v280 : Ref sig .tc := ⟨.hbm, 565, rfl⟩
abbrev main_cst_58 : Ref sig .tc := ⟨.hbm, 566, rfl⟩
abbrev main_v281 : Ref sig .tc := ⟨.hbm, 567, rfl⟩
abbrev main_cst_59 : Ref sig .tc := ⟨.hbm, 568, rfl⟩
abbrev main_v282 : Ref sig .tc := ⟨.hbm, 569, rfl⟩
abbrev main_v283 : Ref sig .tc := ⟨.hbm, 570, rfl⟩
abbrev main_c_60 : Ref sig .tc := ⟨.hbm, 571, rfl⟩
abbrev main_call21_cst : Ref sig .tc := ⟨.hbm, 572, rfl⟩
abbrev main_call21_v0 : Ref sig .tc := ⟨.hbm, 573, rfl⟩
abbrev main_call21_v1 : Ref sig .tc := ⟨.hbm, 574, rfl⟩
abbrev main_call21_cst_0 : Ref sig .tc := ⟨.hbm, 575, rfl⟩
abbrev main_call21_v2 : Ref sig .tc := ⟨.hbm, 576, rfl⟩
abbrev main_call21_v3 : Ref sig .tc := ⟨.hbm, 577, rfl⟩
abbrev main_call21_v4 : Ref sig .tc := ⟨.hbm, 578, rfl⟩
abbrev main_call21_v5 : Ref sig .tc := ⟨.hbm, 579, rfl⟩
abbrev main_call21_v6 : Ref sig .tc := ⟨.hbm, 580, rfl⟩
abbrev main_call21_v7 : Ref sig .tc := ⟨.hbm, 581, rfl⟩
abbrev main_call21_cst_1 : Ref sig .tc := ⟨.hbm, 582, rfl⟩
abbrev main_call21_v8 : Ref sig .tc := ⟨.hbm, 583, rfl⟩
abbrev main_call21_cst_2 : Ref sig .tc := ⟨.hbm, 584, rfl⟩
abbrev main_call21_v9 : Ref sig .tc := ⟨.hbm, 585, rfl⟩
abbrev main_call21_v10 : Ref sig .tc := ⟨.hbm, 586, rfl⟩
abbrev main_call21_v11 : Ref sig .tc := ⟨.hbm, 587, rfl⟩
abbrev main_call21_cst_3 : Ref sig .tc := ⟨.hbm, 588, rfl⟩
abbrev main_call21_v12 : Ref sig .tc := ⟨.hbm, 589, rfl⟩
abbrev main_call21_cst_4 : Ref sig .tc := ⟨.hbm, 590, rfl⟩
abbrev main_call21_call0_v0 : Ref sig .tc := ⟨.hbm, 591, rfl⟩
abbrev main_call21_call0_v1 : Ref sig .tc := ⟨.hbm, 592, rfl⟩
abbrev main_v284 : Ref sig .tc := ⟨.hbm, 593, rfl⟩
abbrev main_v285 : Ref sig .tc := ⟨.hbm, 594, rfl⟩
abbrev main_v286 : Ref sig .tc := ⟨.hbm, 595, rfl⟩
abbrev main_v287 : Ref sig .tc := ⟨.hbm, 596, rfl⟩
abbrev main_v288 : Ref sig .tc := ⟨.hbm, 597, rfl⟩
abbrev main_v289 : Ref sig .tc := ⟨.hbm, 598, rfl⟩
abbrev main_v290 : Ref sig .tc := ⟨.hbm, 599, rfl⟩
abbrev main_cst_61 : Ref sig .tc := ⟨.hbm, 600, rfl⟩
abbrev main_v291 : Ref sig .tc := ⟨.hbm, 601, rfl⟩
abbrev main_v292 : Ref sig .tc := ⟨.hbm, 602, rfl⟩
abbrev main_v293 : Ref sig .tc := ⟨.hbm, 603, rfl⟩
abbrev main_v294 : Ref sig .tc := ⟨.hbm, 604, rfl⟩
abbrev main_v295 : Ref sig .tc := ⟨.hbm, 605, rfl⟩
abbrev main_v296 : Ref sig .tc := ⟨.hbm, 606, rfl⟩
abbrev main_v297 : Ref sig .tc := ⟨.hbm, 607, rfl⟩
abbrev main_v298 : Ref sig .tc := ⟨.hbm, 608, rfl⟩
abbrev main_v299 : Ref sig .tc := ⟨.hbm, 609, rfl⟩
abbrev main_call22_cst : Ref sig .tc := ⟨.hbm, 610, rfl⟩
abbrev main_call22_v0 : Ref sig .tc := ⟨.hbm, 611, rfl⟩
abbrev main_v300 : Ref sig .tc := ⟨.hbm, 612, rfl⟩
abbrev main_v301 : Ref sig .tc := ⟨.hbm, 613, rfl⟩
abbrev main_cst_62 : Ref sig .tc := ⟨.hbm, 614, rfl⟩
abbrev main_v302 : Ref sig .tc := ⟨.hbm, 615, rfl⟩
abbrev main_cst_63 : Ref sig .tc := ⟨.hbm, 616, rfl⟩
abbrev main_v303 : Ref sig .tc := ⟨.hbm, 617, rfl⟩
abbrev main_v304 : Ref sig .tc := ⟨.hbm, 618, rfl⟩
abbrev main_c_64 : Ref sig .tc := ⟨.hbm, 619, rfl⟩
abbrev main_call23_cst : Ref sig .tc := ⟨.hbm, 620, rfl⟩
abbrev main_call23_v0 : Ref sig .tc := ⟨.hbm, 621, rfl⟩
abbrev main_call23_v1 : Ref sig .tc := ⟨.hbm, 622, rfl⟩
abbrev main_call23_cst_0 : Ref sig .tc := ⟨.hbm, 623, rfl⟩
abbrev main_call23_v2 : Ref sig .tc := ⟨.hbm, 624, rfl⟩
abbrev main_call23_v3 : Ref sig .tc := ⟨.hbm, 625, rfl⟩
abbrev main_call23_v4 : Ref sig .tc := ⟨.hbm, 626, rfl⟩
abbrev main_call23_v5 : Ref sig .tc := ⟨.hbm, 627, rfl⟩
abbrev main_call23_v6 : Ref sig .tc := ⟨.hbm, 628, rfl⟩
abbrev main_call23_v7 : Ref sig .tc := ⟨.hbm, 629, rfl⟩
abbrev main_call23_cst_1 : Ref sig .tc := ⟨.hbm, 630, rfl⟩
abbrev main_call23_v8 : Ref sig .tc := ⟨.hbm, 631, rfl⟩
abbrev main_call23_cst_2 : Ref sig .tc := ⟨.hbm, 632, rfl⟩
abbrev main_call23_v9 : Ref sig .tc := ⟨.hbm, 633, rfl⟩
abbrev main_call23_v10 : Ref sig .tc := ⟨.hbm, 634, rfl⟩
abbrev main_call23_v11 : Ref sig .tc := ⟨.hbm, 635, rfl⟩
abbrev main_call23_cst_3 : Ref sig .tc := ⟨.hbm, 636, rfl⟩
abbrev main_call23_v12 : Ref sig .tc := ⟨.hbm, 637, rfl⟩
abbrev main_call23_cst_4 : Ref sig .tc := ⟨.hbm, 638, rfl⟩
abbrev main_call23_call0_v0 : Ref sig .tc := ⟨.hbm, 639, rfl⟩
abbrev main_call23_call0_v1 : Ref sig .tc := ⟨.hbm, 640, rfl⟩
abbrev main_v305 : Ref sig .tc := ⟨.hbm, 641, rfl⟩
abbrev main_v306 : Ref sig .tc := ⟨.hbm, 642, rfl⟩
abbrev main_v307 : Ref sig .tc := ⟨.hbm, 643, rfl⟩
abbrev main_v308 : Ref sig .tc := ⟨.hbm, 644, rfl⟩
abbrev main_v309 : Ref sig .tc := ⟨.hbm, 645, rfl⟩
abbrev main_v310 : Ref sig .tc := ⟨.hbm, 646, rfl⟩
abbrev main_v311 : Ref sig .tc := ⟨.hbm, 647, rfl⟩
abbrev main_cst_65 : Ref sig .tc := ⟨.hbm, 648, rfl⟩
abbrev main_v312 : Ref sig .tc := ⟨.hbm, 649, rfl⟩
abbrev main_v313 : Ref sig .tc := ⟨.hbm, 650, rfl⟩
abbrev main_v314 : Ref sig .tc := ⟨.hbm, 651, rfl⟩
abbrev main_v315 : Ref sig .tc := ⟨.hbm, 652, rfl⟩
abbrev main_v316 : Ref sig .tc := ⟨.hbm, 653, rfl⟩
abbrev main_v317 : Ref sig .tc := ⟨.hbm, 654, rfl⟩
abbrev main_v318 : Ref sig .tc := ⟨.hbm, 655, rfl⟩
abbrev main_v319 : Ref sig .tc := ⟨.hbm, 656, rfl⟩
abbrev main_v320 : Ref sig .tc := ⟨.hbm, 657, rfl⟩
abbrev main_call24_cst : Ref sig .tc := ⟨.hbm, 658, rfl⟩
abbrev main_call24_v0 : Ref sig .tc := ⟨.hbm, 659, rfl⟩
abbrev main_v321 : Ref sig .tc := ⟨.hbm, 660, rfl⟩
abbrev main_cst_66 : Ref sig .tc := ⟨.hbm, 661, rfl⟩
abbrev main_v322 : Ref sig .tc := ⟨.hbm, 662, rfl⟩
abbrev main_v323 : Ref sig .tc := ⟨.hbm, 663, rfl⟩
abbrev main_v324 : Ref sig .tc := ⟨.hbm, 664, rfl⟩
abbrev main_v325 : Ref sig .tc := ⟨.hbm, 665, rfl⟩
abbrev main_cst_67 : Ref sig .tc := ⟨.hbm, 666, rfl⟩
abbrev main_call25_v0 : Ref sig .tc := ⟨.hbm, 667, rfl⟩
abbrev main_call25_v1 : Ref sig .tc := ⟨.hbm, 668, rfl⟩
abbrev main_call25_v2 : Ref sig .tc := ⟨.hbm, 669, rfl⟩
abbrev main_v326 : Ref sig .tc := ⟨.hbm, 670, rfl⟩
abbrev main_v327 : Ref sig .tc := ⟨.hbm, 671, rfl⟩
abbrev main_v328 : Ref sig .tc := ⟨.hbm, 672, rfl⟩
abbrev main_c_68 : Ref sig .tc := ⟨.hbm, 673, rfl⟩
abbrev main_v329 : Ref sig .tc := ⟨.hbm, 674, rfl⟩
abbrev main_v330 : Ref sig .tc := ⟨.hbm, 675, rfl⟩
abbrev main_c_69 : Ref sig .tc := ⟨.hbm, 676, rfl⟩
abbrev main_v331 : Ref sig .tc := ⟨.hbm, 677, rfl⟩
abbrev main_v332 : Ref sig .tc := ⟨.hbm, 678, rfl⟩
abbrev main_v333 : Ref sig .tc := ⟨.hbm, 679, rfl⟩
abbrev main_v334 : Ref sig .tc := ⟨.hbm, 680, rfl⟩
abbrev main_v335 : Ref sig .tc := ⟨.hbm, 681, rfl⟩
abbrev main_v336 : Ref sig .tc := ⟨.hbm, 682, rfl⟩
abbrev main_v337 : Ref sig .tc := ⟨.hbm, 683, rfl⟩
abbrev main_cst_70 : Ref sig .tc := ⟨.hbm, 684, rfl⟩
abbrev main_v338 : Ref sig .tc := ⟨.hbm, 685, rfl⟩
abbrev main_v339 : Ref sig .tc := ⟨.hbm, 686, rfl⟩
abbrev main_v340 : Ref sig .tc := ⟨.hbm, 687, rfl⟩
abbrev main_v341 : Ref sig .tc := ⟨.hbm, 688, rfl⟩
abbrev main_v342 : Ref sig .tc := ⟨.hbm, 689, rfl⟩
abbrev main_cst_71 : Ref sig .tc := ⟨.hbm, 690, rfl⟩
abbrev main_v343 : Ref sig .tc := ⟨.hbm, 691, rfl⟩
abbrev main_cst_72 : Ref sig .tc := ⟨.hbm, 692, rfl⟩
abbrev main_v344 : Ref sig .tc := ⟨.hbm, 693, rfl⟩
abbrev main_v345 : Ref sig .tc := ⟨.hbm, 694, rfl⟩
abbrev main_c_73 : Ref sig .tc := ⟨.hbm, 695, rfl⟩
abbrev main_call26_cst : Ref sig .tc := ⟨.hbm, 696, rfl⟩
abbrev main_call26_v0 : Ref sig .tc := ⟨.hbm, 697, rfl⟩
abbrev main_call26_v1 : Ref sig .tc := ⟨.hbm, 698, rfl⟩
abbrev main_call26_cst_0 : Ref sig .tc := ⟨.hbm, 699, rfl⟩
abbrev main_call26_v2 : Ref sig .tc := ⟨.hbm, 700, rfl⟩
abbrev main_call26_v3 : Ref sig .tc := ⟨.hbm, 701, rfl⟩
abbrev main_call26_v4 : Ref sig .tc := ⟨.hbm, 702, rfl⟩
abbrev main_call26_v5 : Ref sig .tc := ⟨.hbm, 703, rfl⟩
abbrev main_call26_v6 : Ref sig .tc := ⟨.hbm, 704, rfl⟩
abbrev main_call26_v7 : Ref sig .tc := ⟨.hbm, 705, rfl⟩
abbrev main_call26_cst_1 : Ref sig .tc := ⟨.hbm, 706, rfl⟩
abbrev main_call26_v8 : Ref sig .tc := ⟨.hbm, 707, rfl⟩
abbrev main_call26_cst_2 : Ref sig .tc := ⟨.hbm, 708, rfl⟩
abbrev main_call26_v9 : Ref sig .tc := ⟨.hbm, 709, rfl⟩
abbrev main_call26_v10 : Ref sig .tc := ⟨.hbm, 710, rfl⟩
abbrev main_call26_v11 : Ref sig .tc := ⟨.hbm, 711, rfl⟩
abbrev main_call26_cst_3 : Ref sig .tc := ⟨.hbm, 712, rfl⟩
abbrev main_call26_v12 : Ref sig .tc := ⟨.hbm, 713, rfl⟩
abbrev main_call26_cst_4 : Ref sig .tc := ⟨.hbm, 714, rfl⟩
abbrev main_call26_call0_v0 : Ref sig .tc := ⟨.hbm, 715, rfl⟩
abbrev main_call26_call0_v1 : Ref sig .tc := ⟨.hbm, 716, rfl⟩
abbrev main_v346 : Ref sig .tc := ⟨.hbm, 717, rfl⟩
abbrev main_v347 : Ref sig .tc := ⟨.hbm, 718, rfl⟩
abbrev main_v348 : Ref sig .tc := ⟨.hbm, 719, rfl⟩
abbrev main_v349 : Ref sig .tc := ⟨.hbm, 720, rfl⟩
abbrev main_v350 : Ref sig .tc := ⟨.hbm, 721, rfl⟩
abbrev main_v351 : Ref sig .tc := ⟨.hbm, 722, rfl⟩
abbrev main_v352 : Ref sig .tc := ⟨.hbm, 723, rfl⟩
abbrev main_cst_74 : Ref sig .tc := ⟨.hbm, 724, rfl⟩
abbrev main_v353 : Ref sig .tc := ⟨.hbm, 725, rfl⟩
abbrev main_v354 : Ref sig .tc := ⟨.hbm, 726, rfl⟩
abbrev main_v355 : Ref sig .tc := ⟨.hbm, 727, rfl⟩
abbrev main_v356 : Ref sig .tc := ⟨.hbm, 728, rfl⟩
abbrev main_v357 : Ref sig .tc := ⟨.hbm, 729, rfl⟩
abbrev main_v358 : Ref sig .tc := ⟨.hbm, 730, rfl⟩
abbrev main_v359 : Ref sig .tc := ⟨.hbm, 731, rfl⟩
abbrev main_v360 : Ref sig .tc := ⟨.hbm, 732, rfl⟩
abbrev main_v361 : Ref sig .tc := ⟨.hbm, 733, rfl⟩
abbrev main_call27_cst : Ref sig .tc := ⟨.hbm, 734, rfl⟩
abbrev main_call27_v0 : Ref sig .tc := ⟨.hbm, 735, rfl⟩
abbrev main_v362 : Ref sig .tc := ⟨.hbm, 736, rfl⟩
abbrev main_v363 : Ref sig .tc := ⟨.hbm, 737, rfl⟩
abbrev main_cst_75 : Ref sig .tc := ⟨.hbm, 738, rfl⟩
abbrev main_v364 : Ref sig .tc := ⟨.hbm, 739, rfl⟩
abbrev main_cst_76 : Ref sig .tc := ⟨.hbm, 740, rfl⟩
abbrev main_v365 : Ref sig .tc := ⟨.hbm, 741, rfl⟩
abbrev main_v366 : Ref sig .tc := ⟨.hbm, 742, rfl⟩
abbrev main_c_77 : Ref sig .tc := ⟨.hbm, 743, rfl⟩
abbrev main_call28_cst : Ref sig .tc := ⟨.hbm, 744, rfl⟩
abbrev main_call28_v0 : Ref sig .tc := ⟨.hbm, 745, rfl⟩
abbrev main_call28_v1 : Ref sig .tc := ⟨.hbm, 746, rfl⟩
abbrev main_call28_cst_0 : Ref sig .tc := ⟨.hbm, 747, rfl⟩
abbrev main_call28_v2 : Ref sig .tc := ⟨.hbm, 748, rfl⟩
abbrev main_call28_v3 : Ref sig .tc := ⟨.hbm, 749, rfl⟩
abbrev main_call28_v4 : Ref sig .tc := ⟨.hbm, 750, rfl⟩
abbrev main_call28_v5 : Ref sig .tc := ⟨.hbm, 751, rfl⟩
abbrev main_call28_v6 : Ref sig .tc := ⟨.hbm, 752, rfl⟩
abbrev main_call28_v7 : Ref sig .tc := ⟨.hbm, 753, rfl⟩
abbrev main_call28_cst_1 : Ref sig .tc := ⟨.hbm, 754, rfl⟩
abbrev main_call28_v8 : Ref sig .tc := ⟨.hbm, 755, rfl⟩
abbrev main_call28_cst_2 : Ref sig .tc := ⟨.hbm, 756, rfl⟩
abbrev main_call28_v9 : Ref sig .tc := ⟨.hbm, 757, rfl⟩
abbrev main_call28_v10 : Ref sig .tc := ⟨.hbm, 758, rfl⟩
abbrev main_call28_v11 : Ref sig .tc := ⟨.hbm, 759, rfl⟩
abbrev main_call28_cst_3 : Ref sig .tc := ⟨.hbm, 760, rfl⟩
abbrev main_call28_v12 : Ref sig .tc := ⟨.hbm, 761, rfl⟩
abbrev main_call28_cst_4 : Ref sig .tc := ⟨.hbm, 762, rfl⟩
abbrev main_call28_call0_v0 : Ref sig .tc := ⟨.hbm, 763, rfl⟩
abbrev main_call28_call0_v1 : Ref sig .tc := ⟨.hbm, 764, rfl⟩
abbrev main_v367 : Ref sig .tc := ⟨.hbm, 765, rfl⟩
abbrev main_v368 : Ref sig .tc := ⟨.hbm, 766, rfl⟩
abbrev main_v369 : Ref sig .tc := ⟨.hbm, 767, rfl⟩
abbrev main_v370 : Ref sig .tc := ⟨.hbm, 768, rfl⟩
abbrev main_v371 : Ref sig .tc := ⟨.hbm, 769, rfl⟩
abbrev main_v372 : Ref sig .tc := ⟨.hbm, 770, rfl⟩
abbrev main_v373 : Ref sig .tc := ⟨.hbm, 771, rfl⟩
abbrev main_cst_78 : Ref sig .tc := ⟨.hbm, 772, rfl⟩
abbrev main_v374 : Ref sig .tc := ⟨.hbm, 773, rfl⟩
abbrev main_v375 : Ref sig .tc := ⟨.hbm, 774, rfl⟩
abbrev main_v376 : Ref sig .tc := ⟨.hbm, 775, rfl⟩
abbrev main_v377 : Ref sig .tc := ⟨.hbm, 776, rfl⟩
abbrev main_v378 : Ref sig .tc := ⟨.hbm, 777, rfl⟩
abbrev main_v379 : Ref sig .tc := ⟨.hbm, 778, rfl⟩
abbrev main_v380 : Ref sig .tc := ⟨.hbm, 779, rfl⟩
abbrev main_v381 : Ref sig .tc := ⟨.hbm, 780, rfl⟩
abbrev main_v382 : Ref sig .tc := ⟨.hbm, 781, rfl⟩
abbrev main_call29_cst : Ref sig .tc := ⟨.hbm, 782, rfl⟩
abbrev main_call29_v0 : Ref sig .tc := ⟨.hbm, 783, rfl⟩
abbrev main_v383 : Ref sig .tc := ⟨.hbm, 784, rfl⟩
abbrev main_cst_79 : Ref sig .tc := ⟨.hbm, 785, rfl⟩
abbrev main_v384 : Ref sig .tc := ⟨.hbm, 786, rfl⟩
abbrev main_v385 : Ref sig .tc := ⟨.hbm, 787, rfl⟩
abbrev main_v386 : Ref sig .tc := ⟨.hbm, 788, rfl⟩
abbrev main_v387 : Ref sig .tc := ⟨.hbm, 789, rfl⟩
abbrev main_call30_v0 : Ref sig .tc := ⟨.hbm, 790, rfl⟩
abbrev main_call30_cst : Ref sig .tc := ⟨.hbm, 791, rfl⟩
abbrev main_call30_v1 : Ref sig .tc := ⟨.hbm, 792, rfl⟩
abbrev main_call30_v2 : Ref sig .tc := ⟨.hbm, 793, rfl⟩
abbrev main_v388 : Ref sig .tc := ⟨.hbm, 794, rfl⟩
abbrev main_cst_80 : Ref sig .tc := ⟨.hbm, 795, rfl⟩
abbrev main_v389 : Ref sig .tc := ⟨.hbm, 796, rfl⟩
abbrev main_v390 : Ref sig .tc := ⟨.hbm, 797, rfl⟩
abbrev main_v391 : Ref sig .tc := ⟨.hbm, 798, rfl⟩
abbrev main_v392 : Ref sig .tc := ⟨.hbm, 799, rfl⟩
abbrev main_call31_v0 : Ref sig .tc := ⟨.hbm, 800, rfl⟩
abbrev main_call31_cst : Ref sig .tc := ⟨.hbm, 801, rfl⟩
abbrev main_call31_v1 : Ref sig .tc := ⟨.hbm, 802, rfl⟩
abbrev main_call31_v2 : Ref sig .tc := ⟨.hbm, 803, rfl⟩
abbrev main_v393 : Ref sig .tc := ⟨.hbm, 804, rfl⟩
abbrev main_cst_81 : Ref sig .tc := ⟨.hbm, 805, rfl⟩
abbrev main_v394 : Ref sig .tc := ⟨.hbm, 806, rfl⟩
abbrev main_v395 : Ref sig .tc := ⟨.hbm, 807, rfl⟩
abbrev main_v396 : Ref sig .tc := ⟨.hbm, 808, rfl⟩
abbrev main_v397 : Ref sig .tc := ⟨.hbm, 809, rfl⟩
abbrev main_v398 : Ref sig .tc := ⟨.hbm, 810, rfl⟩
abbrev main_cst_82 : Ref sig .tc := ⟨.hbm, 811, rfl⟩
abbrev main_v399 : Ref sig .tc := ⟨.hbm, 812, rfl⟩
abbrev main_cst_83 : Ref sig .tc := ⟨.hbm, 813, rfl⟩
abbrev main_v400 : Ref sig .tc := ⟨.hbm, 814, rfl⟩
abbrev main_v401 : Ref sig .tc := ⟨.hbm, 815, rfl⟩
abbrev main_v402 : Ref sig .tc := ⟨.hbm, 816, rfl⟩
abbrev main_cst_84 : Ref sig .tc := ⟨.hbm, 817, rfl⟩
abbrev main_v403 : Ref sig .tc := ⟨.hbm, 818, rfl⟩
abbrev main_cst_85 : Ref sig .tc := ⟨.hbm, 819, rfl⟩
abbrev main_v404 : Ref sig .tc := ⟨.hbm, 820, rfl⟩
abbrev main_v405 : Ref sig .tc := ⟨.hbm, 821, rfl⟩
abbrev main_call32_v0 : Ref sig .tc := ⟨.hbm, 822, rfl⟩
abbrev main_call32_cst : Ref sig .tc := ⟨.hbm, 823, rfl⟩
abbrev main_call32_v1 : Ref sig .tc := ⟨.hbm, 824, rfl⟩
abbrev main_call32_v2 : Ref sig .tc := ⟨.hbm, 825, rfl⟩
abbrev main_v406 : Ref sig .tc := ⟨.hbm, 826, rfl⟩
abbrev main_cst_86 : Ref sig .tc := ⟨.hbm, 827, rfl⟩
abbrev main_v407 : Ref sig .tc := ⟨.hbm, 828, rfl⟩
abbrev main_v408 : Ref sig .tc := ⟨.hbm, 829, rfl⟩
abbrev main_v409 : Ref sig .tc := ⟨.hbm, 830, rfl⟩
abbrev main_v410 : Ref sig .tc := ⟨.hbm, 831, rfl⟩
abbrev main_call33_v0 : Ref sig .tc := ⟨.hbm, 832, rfl⟩
abbrev main_call33_cst : Ref sig .tc := ⟨.hbm, 833, rfl⟩
abbrev main_call33_v1 : Ref sig .tc := ⟨.hbm, 834, rfl⟩
abbrev main_call33_v2 : Ref sig .tc := ⟨.hbm, 835, rfl⟩
abbrev main_v411 : Ref sig .tc := ⟨.hbm, 836, rfl⟩
abbrev main_cst_87 : Ref sig .tc := ⟨.hbm, 837, rfl⟩
abbrev main_v412 : Ref sig .tc := ⟨.hbm, 838, rfl⟩
abbrev main_v413 : Ref sig .tc := ⟨.hbm, 839, rfl⟩
abbrev main_v414 : Ref sig .tc := ⟨.hbm, 840, rfl⟩
abbrev main_v415 : Ref sig .tc := ⟨.hbm, 841, rfl⟩
abbrev main_v416 : Ref sig .tc := ⟨.hbm, 842, rfl⟩
abbrev main_cst_88 : Ref sig .tc := ⟨.hbm, 843, rfl⟩
abbrev main_v417 : Ref sig .tc := ⟨.hbm, 844, rfl⟩
abbrev main_cst_89 : Ref sig .tc := ⟨.hbm, 845, rfl⟩
abbrev main_v418 : Ref sig .tc := ⟨.hbm, 846, rfl⟩
abbrev main_v419 : Ref sig .tc := ⟨.hbm, 847, rfl⟩
abbrev main_cst_90 : Ref sig .tc := ⟨.hbm, 848, rfl⟩
abbrev main_v420 : Ref sig .tc := ⟨.hbm, 849, rfl⟩
abbrev main_cst_91 : Ref sig .tc := ⟨.hbm, 850, rfl⟩
abbrev main_v421 : Ref sig .tc := ⟨.hbm, 851, rfl⟩
abbrev main_v422 : Ref sig .tc := ⟨.hbm, 852, rfl⟩
abbrev main_cst_92 : Ref sig .tc := ⟨.hbm, 853, rfl⟩
abbrev main_v423 : Ref sig .tc := ⟨.hbm, 854, rfl⟩
abbrev main_v424 : Ref sig .tc := ⟨.hbm, 855, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  slices_S2x320000_S1x320000_1_0 : S2x320000.Slices ![1, 0] S1x320000
  reducesTo_S50000x512_S512_d0 : S50000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  reducesTo_S50000x256_S256_d0 : S50000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S512x256 : S_.BroadcastsInDim S512x256 (![] : Fin 0 → Fin S512x256.rank)
  concatenates_S512x256_S512x256_S512x512_d1 : Shape.Concatenates [S512x256, S512x256] S512x512 1
  bcast_S50000x1_S50000x256_0_1 : S50000x1.BroadcastsInDim S50000x256 (![0, 1] : Fin 2 → Fin S50000x256.rank)
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  reducesTo_S50000x128_S50000_d1 : S50000x128.ReducesTo [1] S50000
  bcast_S_S50000x1 : S_.BroadcastsInDim S50000x1 (![] : Fin 0 → Fin S50000x1.rank)
  bcast_S_S50000 : S_.BroadcastsInDim S50000 (![] : Fin 0 → Fin S50000.rank)
  reducesTo_S50000_S_d0 : S50000.ReducesTo [0] S_
  gather_S50000x128_S320000x1_S320000x128_1_0_n_n_0_1_1128_wf : GatherDims.WF S50000x128 S320000x1 S320000x128 [1] [0] [] [0] [] 1 ![1, 128]
  scatter_S50000x128_S320000x1_S320000x128_1_0_0_1_wf : ScatterDims.WF S50000x128 S320000x1 S320000x128 [1] [0] [0] 1
  dot_S50000x128_S128x512_S50000x512_1_0_0_1_n_n_wf : DotDims.WF S50000x128 S128x512 S50000x512 [1] [0] [0] [1] [] []
  dot_S50000x512_S512x256_S50000x256_1_0_0_1_n_n_wf : DotDims.WF S50000x512 S512x256 S50000x256 [1] [0] [0] [1] [] []
  scatter_S512x256_S50000x1_S50000x256_1_0_0_1_wf : ScatterDims.WF S512x256 S50000x1 S50000x256 [1] [0] [0] 1
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  dot_S50000x256_S256x512_S50000x512_1_0_0_1_n_n_wf : DotDims.WF S50000x256 S256x512 S50000x512 [1] [0] [0] [1] [] []
  dot_S50000x512_S512x128_S50000x128_1_0_0_1_n_n_wf : DotDims.WF S50000x512 S512x128 S50000x128 [1] [0] [0] [1] [] []
  scatter_S512x128_S50000x1_S50000x128_1_0_0_1_wf : ScatterDims.WF S512x128 S50000x1 S50000x128 [1] [0] [0] 1

variable [Facts₀]

def gather_S50000x128_S320000x1_S320000x128_1_0_n_n_0_1_1128 : GatherDims S50000x128 S320000x1 S320000x128 where
  offsetDims := [1]
  collapsedSliceDims := [0]
  operandBatchingDims := []
  startIndicesBatchingDims := []
  startIndexMap := [0]
  indexVectorDim := 1
  sliceSizes := ![1, 128]
  wf := gather_S50000x128_S320000x1_S320000x128_1_0_n_n_0_1_1128_wf
def scatter_S50000x128_S320000x1_S320000x128_1_0_0_1 : ScatterDims S50000x128 S320000x1 S320000x128 where
  updateWindowDims := [1]
  insertedWindowDims := [0]
  scatterDimsToOperandDims := [0]
  indexVectorDim := 1
  wf := scatter_S50000x128_S320000x1_S320000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

class Facts : Prop extends Facts₀ where

variable [Facts]
-- ==== Proof.K.Reg0.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt0`), the scratch row's component feeding the next point's run. Everything
is stated at an arbitrary float family and at a parameter `V`: the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, over the grid -/

/-- The zeroing branch's condition, from the grid coordinate: the coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The copying branch's condition: the coordinate is the last. -/
abbrev cond0_1 (i : grid0.Coords) : Prop := k0_cond2 i = 1#1
/-- It holds at the last point only. -/
theorem hcond0_1 : ∀ t : Fin cfg0.N, cond0_1 (grid0.coords t) ↔ t.val = 24 :=
  (by decide +kernel : ∀ t : Fin grid0.N, cond0_1 (grid0.coords t) ↔ t.val = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the statistics window is idle (the body stores nothing into it) and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The staging memrefs the body is called with, and the scratch row -/

/-- One staging buffer of each output window, through which its contents are stated (the choice does not matter). -/
abbrev VO0_3 : View sig .tc .vmem S2000x512 .f32 := (Memref.whole cc0_stg3_0 : Memref sig .tc .vmem S2000x512 .f32).view
abbrev VO0_4 : View sig .tc .vmem S1x1024 .f32 := (Memref.whole cc0_stg4_0 : Memref sig .tc .vmem S1x1024 .f32).view
/-- Each window's current staging memref at point `t`, spelled as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
/-- The scratch row: a whole scoped buffer of the kernel's own, passed beside the windows. -/
abbrev scM0_0 : Memref sig .tc .vmem S1x1024 .f32 := Memref.whole cc0_scratch0
/-- The same as a view: what the row holds is stated through it. -/
abbrev VS0_0 : View sig .tc .vmem S1x1024 .f32 := scM0_0.view

/-- The other scoped buffers of the core (no staging buffer of this pipeline, not the scratch row), unopened. -/
abbrev restBut0 (c : Dev nD) : sProp 𝕄 :=
  Pipeline.scopedRestBut (Ix := Unit) (Name := ℕ) (U := Pipeline.UD sig nD τ) (Lvl := ℕ) (Val := Elt F) spec0 c [cc0_scratch0]

/-- The region's invariant with the scratch row as a memref owned at some contents. -/
theorem PhiA0_eq (c : Dev nD) :
    (Pipeline.ΦA spec0 c : sProp 𝕄)
      = iprop(iprop((∃ d, owns (c : Thread nD τ) scM0_0 fullShare d) ∗ restBut0 (F := F) c) ∗ (∃ r, prngReg c r)) := by
  unfold Pipeline.ΦA; rw [scopedRest0_split]; simp only [scM0_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S2000x128 .f32) (x1 : Vec F S2000x128 .f32) (x2 : Vec F S128x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__stage1_kernel i arg1 harg1 arg2 harg2 arg3 harg3 arg4 harg4 arg5 harg5 arg6 harg6) K } := by
  refine ⟨?_, ?_, fun xi4 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i)
    (x0 : Vec F S2000x128 .f32) (x1 : Vec F S2000x128 .f32) (x2 : Vec F S128x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__stage1_kernel i arg1 harg1 arg2 harg2 arg3 harg3 arg4 harg4 arg5 harg5 arg6 harg6) K } := by
  refine ⟨?_, ?_, fun xi4 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__stage1_kernel i arg1 harg1 arg2 harg2 arg3 harg3 arg4 harg4 arg5 harg5 arg6 harg6) K } := by
  refine ⟨?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover0_A_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S2000x128 .f32) (x1 : Vec F S2000x128 .f32) (x2 : Vec F S128x512 .bf16) (y : S2000x512.Idx) :
    ∃ pc ∈ (kernelRun0_A c i arg1 harg1 arg2 harg2 arg3 harg3 arg4 harg4 arg5 harg5 arg6 harg6 hc0 hc1 x0 x1 x2).1, y ∈ pc.1.set :=
  View.cover_of_tiledL (kernelRun0_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out0_A_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S2000x128 .f32) (x1 : Vec F S2000x128 .f32) (x2 : Vec F S128x512 .bf16) : Vec F S2000x512 .f32 :=
  VO0_3.read (Elt F) (VO0_3.writes (Elt F) VO0_3.junk (kernelRun0_A c i arg1 harg1 arg2 harg2 arg3 harg3 arg4 harg4 arg5 harg5 arg6 harg6 hc0 hc1 x0 x1 x2).1)

/-- The first point's pieces for the scratch row cover it: the zeroing store is the whole row. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S2000x128 .f32) (x1 : Vec F S2000x128 .f32) (x2 : Vec F S128x512 .bf16) (y : S1x1024.Idx) :
    ∃ pc ∈ (kernelRun0_A c i arg1 harg1 arg2 harg2 arg3 harg3 arg4 harg4 arg5 harg5 arg6 harg6 hc0 hc1 x0 x1 x2).2.1, y ∈ pc.1.set :=
  View.cover_of_tiledL (kernelRun0_A c i arg1 harg1 arg2 harg2 arg3 harg3 arg4 harg4 arg5 harg5 arg6 harg6 hc0 hc1 x0 x1 x2).2.1 S1x1024.size (by sl_kernel_rfl) y

/-- What the first point leaves in the scratch row. -/
def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S2000x128 .f32) (x1 : Vec F S2000x128 .f32) (x2 : Vec F S128x512 .bf16) : Vec F S1x1024 .f32 :=
  VS0_0.read (Elt F) (VS0_0.writes (Elt F) VS0_0.junk (kernelRun0_A c i arg1 harg1 arg2 harg2 arg3 harg3 arg4 harg4 arg5 harg5 arg6 harg6 hc0 hc1 x0 x1 x2).2.1)

/-- A middle point's pieces for the output block tile it. -/
theorem cover0_B_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i)
    (x0 : Vec F S2000x128 .f32) (x1 : Vec F S2000x128 .f32) (x2 : Vec F S128x512 .bf16) (xs0 : Vec F S1x1024 .f32) (y : S2000x512.Idx) :
    ∃ pc ∈ (kernelRun0_B c i arg1 harg1 arg2 harg2 arg3 harg3 arg4 harg4 arg5 harg5 arg6 harg6 hc0 hc1 x0 x1 x2 xs0).1, y ∈ pc.1.set :=
  View.cover_of_tiledL (kernelRun0_B c i arg1 harg1 arg2 harg2 arg3 harg3 arg4 harg4 arg5 harg5 arg6 harg6 hc0 hc1 x0 x1 x2 xs0).1 S2000x512.size (by sl_kernel_rfl) y

/-- What a middle point leaves in the output block's staging buffer. -/
def out0_B_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i)
    (x0 : Vec F S2000x128 .f32) (x1 : Vec F S2000x128 .f32) (x2 : Vec F S128x512 .bf16) (xs0 : Vec F S1x1024 .f32) : Vec F S2000x512 .f32 :=
  VO0_3.read (Elt F) (VO0_3.writes (Elt F) VO0_3.junk (kernelRun0_B c i arg1 harg1 arg2 harg2 arg3 harg3 arg4 harg4 arg5 harg5 arg6 harg6 hc0 hc1 x0 x1 x2 xs0).1)

/-- A middle point's pieces for the scratch row tile it: the two half-row stores. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i)
    (x0 : Vec F S2000x128 .f32) (x1 : Vec F S2000x128 .f32) (x2 : Vec F S128x512 .bf16) (xs0 : Vec F S1x1024 .f32) (y : S1x1024.Idx) :
    ∃ pc ∈ (kernelRun0_B c i arg1 harg1 arg2 harg2 arg3 harg3 arg4 harg4 arg5 harg5 arg6 harg6 hc0 hc1 x0 x1 x2 xs0).2.1, y ∈ pc.1.set :=
  View.cover_of_tiledL (kernelRun0_B c i arg1 harg1 arg2 harg2 arg3 harg3 arg4 harg4 arg5 harg5 arg6 harg6 hc0 hc1 x0 x1 x2 xs0).2.1 S1x512.size (by sl_kernel_rfl) y

/-- What a middle point leaves in the scratch row. -/
def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i)
    (x0 : Vec F S2000x128 .f32) (x1 : Vec F S2000x128 .f32) (x2 : Vec F S128x512 .bf16) (xs0 : Vec F S1x1024 .f32) : Vec F S1x1024 .f32 :=
  VS0_0.read (Elt F) (VS0_0.writes (Elt F) VS0_0.junk (kernelRun0_B c i arg1 harg1 arg2 harg2 arg3 harg3 arg4 harg4 arg5 harg5 arg6 harg6 hc0 hc1 x0 x1 x2 xs0).2.1)

/-- The last point's pieces for the output block tile it. -/
theorem cover0_C_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) (y : S2000x512.Idx) :
    ∃ pc ∈ (kernelRun0_C c i arg1 harg1 arg2 harg2 arg3 harg3 arg4 harg4 arg5 harg5 arg6 harg6 hc0 hc1 x0 x1 x2 xs0).1, y ∈ pc.1.set :=
  View.cover_of_tiledL (kernelRun0_C c i arg1 harg1 arg2 harg2 arg3 harg3 arg4 harg4 arg5 harg5 arg6 harg6 hc0 hc1 x0 x1 x2 xs0).1 S2000x512.size (by sl_kernel_rfl) y

/-- What the last point leaves in the output block's staging buffer. -/
def out0_C_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) : Vec F S2000x512 .f32 :=
  VO0_3.read (Elt F) (VO0_3.writes (Elt F) VO0_3.junk (kernelRun0_C c i arg1 harg1 arg2 harg2 arg3 harg3 arg4 harg4 arg5 harg5 arg6 harg6 hc0 hc1 x0 x1 x2 xs0).1)

/-- The last point's pieces for the statistics block tile it: the copy of the whole scratch row. -/
theorem cover0_C_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) (y : S1x1024.Idx) :
    ∃ pc ∈ (kernelRun0_C c i arg1 harg1 arg2 harg2 arg3 harg3 arg4 harg4 arg5 harg5 arg6 harg6 hc0 hc1 x0 x1 x2 xs0).2.1, y ∈ pc.1.set :=
  View.cover_of_tiledL (kernelRun0_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out0_C_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) : Vec F S1x1024 .f32 :=
  VO0_4.read (Elt F) (VO0_4.writes (Elt F) VO0_4.junk (kernelRun0_C c i arg1 harg1 arg2 harg2 arg3 harg3 arg4 harg4 arg5 harg5 arg6 harg6 hc0 hc1 x0 x1 x2 xs0).2.1)

/-- The last point's pieces for the scratch row tile it: the two half-row stores. -/
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) (y : S1x1024.Idx) :
    ∃ pc ∈ (kernelRun0_C c i arg1 harg1 arg2 harg2 arg3 harg3 arg4 harg4 arg5 harg5 arg6 harg6 hc0 hc1 x0 x1 x2 xs0).2.2.1, y ∈ pc.1.set :=
  View.cover_of_tiledL (kernelRun0_C c i arg1 harg1 arg2 harg2 arg3 harg3 arg4 harg4 arg5 harg5 arg6 harg6 hc0 hc1 x0 x1 x2 xs0).2.2.1 S1x512.size (by sl_kernel_rfl) y

/-- What the last point leaves in the scratch row. -/
def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) : Vec F S1x1024 .f32 :=
  VS0_0.read (Elt F) (VS0_0.writes (Elt F) VS0_0.junk (kernelRun0_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut0_4 : Vec F S1x1024 .f32 := VO0_4.read (Elt F) VO0_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt0 (c : Dev nD) : (n : ℕ) → n < cfg0.N → Vec F S2000x512 .f32 × Vec F S1x1024 .f32 × Vec F S1x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩), idleOut0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h1 : n + 1 = 24 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, idleOut0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

/-- `outsAt0` at the first point. -/
theorem outsAt0_A (c : Dev nD) (t : Fin cfg0.N) (h0 : t.val = 0) (h1 : ¬t.val = 24) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t), idleOut0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact absurd h0 (Nat.succ_ne_zero n)

/-- `outsAt0` at a middle point: that case's contents, over the scratch row the point before left. -/
theorem outsAt0_B (c : Dev nD) (t : Fin cfg0.N) (h0 : ¬t.val = 0) (h1 : ¬t.val = 24) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, idleOut0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt0` at the last point. -/
theorem outsAt0_C (c : Dev nD) (t : Fin cfg0.N) (h0 : ¬t.val = 0) (h1 : t.val = 24) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ restBut0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ restBut0 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt0`'s components; the invariant `PhiS0`; nothing owed; full
    shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val = 0
  · have h1 : ¬t.val = 24 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold out0_A_3 sout0_A_0; (try dsimp only)
    rw [PhiS0_castSucc V c t, PhiS0_zero V c _ _ h0, PhiA0_eq]
    iintro ⟨⟨⟨HS0, HR⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _)
    iexists _; iexact H4
  · by_cases h1 : t.val = 24
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C_0; (try dsimp only)
      rw [PhiS0_castSucc V c t, PhiS0_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold out0_B_3 sout0_B_0; (try dsimp only)
      rw [PhiS0_castSucc V c t, PhiS0_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _)
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch row's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Cert.Kernel.Hand

end
-- ==== Proof.K.Reg1.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond1_0 (i : grid1.Coords) : Prop :=
  (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The body's second condition: the point is the grid's last. -/
abbrev cond1_1 (i : grid1.Coords) : Prop := k1_cond2 i = 1#1
/-- It holds at point 24 only. -/
theorem hcond1_1 : ∀ t : Fin cfg1.N, cond1_1 (grid1.coords t) ↔ t.val = 24 :=
  (by decide +kernel : ∀ t : Fin grid1.N, cond1_1 (grid1.coords t) ↔ t.val = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- At the first point the statistics window is idle, and its block is not written back there. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
/-- At the points between, the same. -/
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
/-- At the last point the statistics window is live. -/
theorem liveAt1_7_C : ∀ t : Fin cfg1.N, ¬cond1_0 (grid1.coords t) → cond1_1 (grid1.coords t) → cfg1.idle 7 (grid1.coords t) = false := by decide +kernel

/-! ## The staging memrefs, the accumulator, and the views the results are stated through -/

abbrev ms1_0 (t : Fin cfg1.N) : Memref sig .tc .vmem S2000x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .f32 := win1_7.stage (cfg1.slots t 7)
abbrev hs1_7 (t : Fin cfg1.N) : (ms1_7 t).IsWhole := hstage1_7 ((cfg1.slots t 7).cast nbuf1_7)
/-- The accumulator: a whole scoped buffer of the kernel's own, carried from point to point. -/
abbrev scM1_0 : Memref sig .tc .vmem S1x512 .f32 := Memref.whole cc1_scratch0
abbrev VS1_0 : View sig .tc .vmem S1x512 .f32 := scM1_0.view
/-- One staging buffer of each output window, through which its contents are stated (the choice does not matter). -/
abbrev VO1_6 : View sig .tc .vmem S2000x256 .f32 := (Memref.whole cc1_stg6_0 : Memref sig .tc .vmem S2000x256 .f32).view
abbrev VO1_7 : View sig .tc .vmem S1x512 .f32 := (Memref.whole cc1_stg7_0 : Memref sig .tc .vmem S1x512 .f32).view

/-- The class's invariant with the accumulator opened as a memref owned at some contents; every other scoped buffer
    stays closed. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := Pipeline.UD sig nD τ) (Lvl := ℕ) (Val := Elt F) spec1 c [cc1_scratch0])
          ∗ (∃ r, prngReg c r)) := by
  unfold Pipeline.ΦA; rw [scopedRest1_split]; simp only [scM1_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun1_A (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond1_0 i) (hc1 : ¬cond1_1 i)
    (x0 : Vec F S2000x512 .f32) (x1 : Vec F S1x512 .f32) (x2 : Vec F S1x512 .f32) (x3 : Vec F S1x512 .f32) (x4 : Vec F S1x512 .f32) (x5 : Vec F S512x256 .bf16) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun1_B (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond1_0 i) (hc1 : ¬cond1_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun1_C (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond1_0 i) (hc1 : cond1_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond1_0 i) (hc1 : ¬cond1_1 i)
  (x0 : Vec F S2000x512 .f32) (x1 : Vec F S1x512 .f32) (x2 : Vec F S1x512 .f32) (x3 : Vec F S1x512 .f32) (x4 : Vec F S1x512 .f32) (x5 : Vec F S512x256 .bf16)

/-- At the first point the one store into the product window covers its block. -/
theorem cover1_A_6 (y : S2000x256.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).1 S2000x256.size (by sl_kernel_rfl) y

/-- What the first point leaves in the product window: its pieces read back. -/
def out1_A_6 : Vec F S2000x256 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out1_A_7 : Vec F S1x512 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover1_A_0 (y : S1x512.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).2.2.1 S1x512.size (by sl_kernel_rfl) y

/-- What the first point leaves in the accumulator. -/
def sout1_A_0 : Vec F S1x512 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond1_0 i) (hc1 : ¬cond1_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At a point between the one store into the product window covers its block. -/
theorem cover1_B_6 (y : S2000x256.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out1_B_6 : Vec F S2000x256 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out1_B_7 : Vec F S1x512 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover1_B_0 (y : S1x512.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout1_B_0 : Vec F S1x512 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond1_0 i) (hc1 : cond1_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At the last point the one store into the product window covers its block. -/
theorem cover1_C_6 (y : S2000x256.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out1_C_6 : Vec F S2000x256 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover1_C_7 (y : S1x512.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).2.1 S1x512.size (by sl_kernel_rfl) y

/-- What the last point leaves in the statistics window. -/
def out1_C_7 : Vec F S1x512 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover1_C_0 (y : S1x512.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout1_C_0 : Vec F S1x512 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' buffers hold their blocks at every point

An input window is never idle and the body leaves its block in place; so its current buffer holds what a fetch at the
point puts there whether or not one happened: where none did, the block index has not moved (the five row and weight
windows are fetched once, at the first point). -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the outputs and the accumulator hold after each point -/

/-- The first point is not the last, -/
theorem notLast1_of_first (t : Fin cfg1.N) (h0 : t.val = 0) : ¬cond1_1 (grid1.coords t) :=
  fun h => by have := (hcond1_1 t).mp h; omega

/-- The first point's results at the point's own memrefs and input blocks: the product block, the statistics
    placeholder, the accumulator. -/
def outsPt1_A (c : Dev nD) (t : Fin cfg1.N) (h0 : t.val = 0) : Vec F S2000x256 .f32 × Vec F S1x512 .f32 × Vec F S1x512 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (notLast1_of_first t h0) (iblk1 V c 0 t) (iblk1 V c 1 t) (iblk1 V c 2 t) (iblk1 V c 3 t) (iblk1 V c 4 t) (iblk1 V c 5 t),
   out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (notLast1_of_first t h0) (iblk1 V c 0 t) (iblk1 V c 1 t) (iblk1 V c 2 t) (iblk1 V c 3 t) (iblk1 V c 4 t) (iblk1 V c 5 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (notLast1_of_first t h0) (iblk1 V c 0 t) (iblk1 V c 1 t) (iblk1 V c 2 t) (iblk1 V c 3 t) (iblk1 V c 4 t) (iblk1 V c 5 t))

/-- A point between, over the accumulator xs0 the point before left. -/
def outsPt1_B (c : Dev nD) (t : Fin cfg1.N) (h0 : ¬t.val = 0) (h1 : ¬t.val = 24) (xs0 : Vec F S1x512 .f32) : Vec F S2000x256 .f32 × Vec F S1x512 .f32 × Vec F S1x512 .f32 :=
  (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0,
   out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0)

/-- The last point, over the accumulator xs0 the point before left. -/
def outsPt1_C (c : Dev nD) (t : Fin cfg1.N) (h0 : ¬t.val = 0) (h1 : t.val = 24) (xs0 : Vec F S1x512 .f32) : Vec F S2000x256 .f32 × Vec F S1x512 .f32 × Vec F S1x512 .f32 :=
  (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0,
   out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0)

/-- THE ACCUMULATION. What the product window, the statistics window and the accumulator hold after the body at
    position n: the case the position selects, run at the point's memrefs and input blocks, the accumulator it reads
    at what position n - 1 left. -/
def outsAt1 (c : Dev nD) : (n : ℕ) → n < cfg1.N → Vec F S2000x256 .f32 × Vec F S1x512 .f32 × Vec F S1x512 .f32
  | 0, hn => outsPt1_A V c ⟨0, hn⟩ rfl
  | n + 1, hn =>
    if h1 : n + 1 = 24 then
      outsPt1_C V c ⟨n + 1, hn⟩ (Nat.succ_ne_zero n) h1 (outsAt1 c n (Nat.lt_of_succ_lt hn)).2.2
    else
      outsPt1_B V c ⟨n + 1, hn⟩ (Nat.succ_ne_zero n) h1 (outsAt1 c n (Nat.lt_of_succ_lt hn)).2.2

/-- outsAt1 at the first point. -/
theorem outsAt1_A (c : Dev nD) (t : Fin cfg1.N) (h0 : t.val = 0) :
    outsAt1 V c t.val t.isLt = outsPt1_A V c t h0 := by
  obtain ⟨n, hn⟩ := t
  cases n with
  | zero => exact rfl
  | succ n => exact absurd h0 (Nat.succ_ne_zero n)

/-- outsAt1 at a point between: over what the point before left in the accumulator. -/
theorem outsAt1_B (c : Dev nD) (t : Fin cfg1.N) (h0 : ¬t.val = 0) (h1 : ¬t.val = 24) :
    outsAt1 V c t.val t.isLt = outsPt1_B V c t h0 h1 (outsAt1 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt1 at the last point: over what the point before left in the accumulator. -/
theorem outsAt1_C (c : Dev nD) (t : Fin cfg1.N) (h0 : ¬t.val = 0) (h1 : t.val = 24) :
    outsAt1 V c t.val t.isLt = outsPt1_C V c t h0 h1 (outsAt1 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2)
      ∗ Pipeline.scopedRestBut (Ix := Unit) (Name := ℕ) (U := Pipeline.UD sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2)
      ∗ Pipeline.scopedRestBut (Ix := Unit) (Name := ℕ) (U := Pipeline.UD sig nD τ) (Lvl := ℕ) (Val := Elt F) spec1 c [cc1_scratch0])
      ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2)
      ∗ Pipeline.scopedRestBut (Ix := Unit) (Name := ℕ) (U := Pipeline.UD sig nD τ) (Lvl := ℕ) (Val := Elt F) spec1 c [cc1_scratch0])
      ∗ (∃ r, prngReg c r)) := by
  cases n with
  | zero => exact absurd rfl hz
  | succ n => rfl

/-! ## The proof data -/

/-- The arrays as the region finds them; after the body at point t each input's buffer at its block, the product
    window's at the first component of outsAt1, the statistics window's at the second; the invariant PhiS1; nothing
    owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t: the invariant, what the core owes, and each window's current buffer at
    what it then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val = 0
  · -- the first point
    have hc0 : cond1_0 (grid1.coords t) := (hcond1_0 t).mpr h0
    have hc1 : ¬cond1_1 (grid1.coords t) := notLast1_of_first t h0
    rw [Dat.leavesExact_idle (dat1 V c) 7 t (idleAt1_7_A t hc0 hc1) (noFlush1_7_A t hc0 hc1)]
    rw [outsAt1_A V c t h0]
    unfold outsPt1_A out1_A_6 sout1_A_0; (try dsimp only)
    rw [PhiS1_castSucc V c t, PhiS1_zero V c _ _ h0, PhiA1_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_A_6 c _ _ _ _ _ _ _ _ _ _ _ _ _ _ _ _ _ _ _ _ _ _ _ _ _ _ _)
    iexists _; iexact H7
  · by_cases h1 : t.val = 24
    · -- the last point
      have hc0 : ¬cond1_0 (grid1.coords t) := fun h => h0 ((hcond1_0 t).mp h)
      have hc1 : cond1_1 (grid1.coords t) := (hcond1_1 t).mpr h1
      rw [show (dat1 V c).leavesExact 7 t = owns (c : Thread nD τ) (ms1_7 t) fullShare ((dat1 V c).after 7 t) from by
        unfold Dat.leavesExact; rw [liveAt1_7_C t hc0 hc1], after1_7]
      rw [outsAt1_C V c t h0 h1]
      unfold outsPt1_C out1_C_6 out1_C_7 sout1_C_0; (try dsimp only)
      rw [PhiS1_castSucc V c t, PhiS1_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _ _ _)
    · -- a point between
      have hc0 : ¬cond1_0 (grid1.coords t) := fun h => h0 ((hcond1_0 t).mp h)
      have hc1 : ¬cond1_1 (grid1.coords t) := fun h => h1 ((hcond1_1 t).mp h)
      rw [Dat.leavesExact_idle (dat1 V c) 7 t (idleAt1_7_B t hc0 hc1) (noFlush1_7_B t hc0 hc1)]
      rw [outsAt1_B V c t h0 h1]
      unfold outsPt1_B out1_B_6 sout1_B_0; (try dsimp only)
      rw [PhiS1_castSucc V c t, PhiS1_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _)
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Region

end Cert.Kernel.Hand

end
-- ==== Proof.K.Reg2.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body leaves in the output block -/

/-- The whole block of rows, as a rectangle of itself. -/
abbrev rB2 : Rect S2000x256 := Rect.unit (s := S2000x256) ![0, 0] S2000x256.size inb_S2000x256_S2000x256_0_0
/-- The whole single row, as a rectangle of itself. -/
abbrev rR2 : Rect S1x256 := Rect.unit (s := S1x256) ![0, 0] S1x256.size inb_S1x256_S1x256_0_0

/-- The output block after the body, from the five input blocks: the body's one store, of the
    payload of the five whole loads, laid over the block.  (The payload takes the row operands in
    the order the body loads them: the fourth, the second, the third, the fifth.) -/
def out2_5 (x0 : Vec F S2000x256 .f32) (x1 x2 x3 x4 : Vec F S1x256 .f32) : Vec F S2000x256 .f32 :=
  View.canon [⟨rB2, k2_pay1 (View.ld x0 rB2) (View.ld x3 rR2) (View.ld x1 rR2) (View.ld x2 rR2) (View.ld x4 rR2)⟩]

/-- One store of the whole block covers it. -/
theorem cover2_5 (p : Vec F S2000x256 .f32) (y : S2000x256.Idx) :
    ∃ pc ∈ ([⟨rB2, p⟩] : List (View.Piece (Elt F) S2000x256 .f32)), y ∈ pc.1.set :=
  View.cover_of_tiled [⟨rB2, p⟩] S2000x256.size (by rfl) y

/-! ## The body's triple -/

set_option maxHeartbeats 1000000 in
/-- The kernel body on whole staging memrefs: holding the five inputs' at contents reading `x0 … x4`
    and the output's at anything, it runs to a state holding the inputs' as they were and the
    output's at `out2_5` of them.  The body is its skeleton of memory operations over the named
    payload; the executor steps through the six loads and the store. -/
theorem sound_kernel2 (c : Dev nD) (E : Set ℕ) (i : grid2.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__stage3_kernel i arg1 harg1 arg2 harg2 arg3 harg3 arg4 harg4 arg5 harg5 arg6 harg6) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

/-- The proof data of the pipeline on core `c`: the arrays as the region finds them; after the
    body at point `t` each input's buffer at its block and the output's at `out2_5` of the input
    blocks; the class's invariant; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

/-! ## What the body finds in the input windows' buffers

An input window's current staging buffer holds its block at every point, whether the pipeline
fetched it there or not: a window not fetched at a point has the block index of the point before,
and the body left that point's block in place.  (The four row operands are fetched at the first
point only; the first operand at every point.) -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0 V c t]; unfold Dat.blockOf iblk2; rw [A_eq2 V c 0]; try rfl) t d).trans
    (by unfold Dat.fetched Dat.blockOf iblk2; rw [A_eq2 V c 0]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1 V c t]; unfold Dat.blockOf iblk2; rw [A_eq2 V c 1]; try rfl) t d).trans
    (by unfold Dat.fetched Dat.blockOf iblk2; rw [A_eq2 V c 1]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2 V c t]; unfold Dat.blockOf iblk2; rw [A_eq2 V c 2]; try rfl) t d).trans
    (by unfold Dat.fetched Dat.blockOf iblk2; rw [A_eq2 V c 2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3 V c t]; unfold Dat.blockOf iblk2; rw [A_eq2 V c 3]; try rfl) t d).trans
    (by unfold Dat.fetched Dat.blockOf iblk2; rw [A_eq2 V c 3]; try rfl)
theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4 V c t]; unfold Dat.blockOf iblk2; rw [A_eq2 V c 4]; try rfl) t d).trans
    (by unfold Dat.fetched Dat.blockOf iblk2; rw [A_eq2 V c 4]; try rfl)

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the two ends -/

/-- The proof data's invariant is the class's at every point: the region's entry hands it over as it is, -/
theorem hin2 (c : Dev nD) : Pipeline.ΦA spec2 c ⊢ (dat2 V c).Φ 0 := by
  dsimp only [dat2]; exact .rfl

/-- and takes it back as it is. -/
theorem hout2 (c : Dev nD) : (dat2 V c).Φ (Fin.last cfg2.N) ⊢ Pipeline.ΦA spec2 c := by
  dsimp only [dat2]; exact .rfl

end Cert.Kernel.Hand

end
-- ==== Proof.K.Reg3.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt3`), the scratch row's component feeding the next point's run. Everything
is stated at an arbitrary float family and at a parameter `V`: the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is `V`'s and whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, over the grid -/

/-- The zeroing branch's condition, from the grid coordinate: the coordinate is 0. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The copying branch's condition: the coordinate is the last. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Away from the last point the statistics window is idle (the body stores nothing into it) and not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last point it is live. -/
theorem liveAt3_4 : ∀ t : Fin cfg3.N, cond3_1 (grid3.coords t) → cfg3.idle 4 (grid3.coords t) = false := by decide +kernel

/-! ## The staging memrefs the body is called with, and the scratch row -/

/-- One staging buffer of each output window, through which its contents are stated (the choice does not matter). -/
abbrev VO3_3 : View sig .tc .vmem S2000x512 .f32 := (Memref.whole cc3_stg3_0 : Memref sig .tc .vmem S2000x512 .f32).view
abbrev VO3_4 : View sig .tc .vmem S1x1024 .f32 := (Memref.whole cc3_stg4_0 : Memref sig .tc .vmem S1x1024 .f32).view
/-- Each window's current staging memref at point `t`, spelled as the pipeline passes it, and its wholeness. -/
abbrev ms3_0 (t : Fin cfg3.N) : Memref sig .tc .vmem S2000x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x512 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
/-- The scratch row: a whole scoped buffer of the kernel's own, passed beside the windows. -/
abbrev scM3_0 : Memref sig .tc .vmem S1x1024 .f32 := Memref.whole cc3_scratch0
/-- The same as a view: what the row holds is stated through it. -/
abbrev VS3_0 : View sig .tc .vmem S1x1024 .f32 := scM3_0.view

/-- The other scoped buffers of the core (no staging buffer of this pipeline, not the scratch row), unopened. -/
abbrev restBut3 (c : Dev nD) : sProp 𝕄 :=
  Pipeline.scopedRestBut (Ix := Unit) (Name := ℕ) (U := Pipeline.UD sig nD τ) (Lvl := ℕ) (Val := Elt F) spec3 c [cc3_scratch0]

/-- The region's invariant with the scratch row as a memref owned at some contents. -/
theorem PhiA3_eq (c : Dev nD) :
    (Pipeline.ΦA spec3 c : sProp 𝕄)
      = iprop(iprop((∃ d, owns (c : Thread nD τ) scM3_0 fullShare d) ∗ restBut3 (F := F) c) ∗ (∃ r, prngReg c r)) := by
  unfold Pipeline.ΦA; rw [scopedRest3_split]; simp only [scM3_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun3_A (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i)
    (x0 : Vec F S2000x256 .f32) (x1 : Vec F S2000x256 .f32) (x2 : Vec F S256x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__stage1_kernel i arg1 harg1 arg2 harg2 arg3 harg3 arg4 harg4 arg5 harg5 arg6 harg6) K } := by
  refine ⟨?_, ?_, fun xi4 E K => ?run⟩
  case run =>
    simp only [cc3__stage1_kernel_eq_skeleton]; unfold cc3__stage1_kernel_skel
    simp only [k3_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun3_B (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i)
    (x0 : Vec F S2000x256 .f32) (x1 : Vec F S2000x256 .f32) (x2 : Vec F S256x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__stage1_kernel i arg1 harg1 arg2 harg2 arg3 harg3 arg4 harg4 arg5 harg5 arg6 harg6) K } := by
  refine ⟨?_, ?_, fun xi4 E K => ?run⟩
  case run =>
    simp only [cc3__stage1_kernel_eq_skeleton]; unfold cc3__stage1_kernel_skel
    simp only [k3_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun3_C (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc3__stage1_kernel i arg1 harg1 arg2 harg2 arg3 harg3 arg4 harg4 arg5 harg5 arg6 harg6) K } := by
  refine ⟨?_, ?_, ?_, fun E K => ?run⟩
  case run =>
    simp only [cc3__stage1_kernel_eq_skeleton]; unfold cc3__stage1_kernel_skel
    simp only [k3_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover3_A_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i)
    (x0 : Vec F S2000x256 .f32) (x1 : Vec F S2000x256 .f32) (x2 : Vec F S256x512 .bf16) (y : S2000x512.Idx) :
    ∃ pc ∈ (kernelRun3_A c i arg1 harg1 arg2 harg2 arg3 harg3 arg4 harg4 arg5 harg5 arg6 harg6 hc0 hc1 x0 x1 x2).1, y ∈ pc.1.set :=
  View.cover_of_tiledL (kernelRun3_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out3_A_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i)
    (x0 : Vec F S2000x256 .f32) (x1 : Vec F S2000x256 .f32) (x2 : Vec F S256x512 .bf16) : Vec F S2000x512 .f32 :=
  VO3_3.read (Elt F) (VO3_3.writes (Elt F) VO3_3.junk (kernelRun3_A c i arg1 harg1 arg2 harg2 arg3 harg3 arg4 harg4 arg5 harg5 arg6 harg6 hc0 hc1 x0 x1 x2).1)

/-- The first point's pieces for the scratch row cover it: the zeroing store is the whole row. -/
theorem scover3_A_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i)
    (x0 : Vec F S2000x256 .f32) (x1 : Vec F S2000x256 .f32) (x2 : Vec F S256x512 .bf16) (y : S1x1024.Idx) :
    ∃ pc ∈ (kernelRun3_A c i arg1 harg1 arg2 harg2 arg3 harg3 arg4 harg4 arg5 harg5 arg6 harg6 hc0 hc1 x0 x1 x2).2.1, y ∈ pc.1.set :=
  View.cover_of_tiledL (kernelRun3_A c i arg1 harg1 arg2 harg2 arg3 harg3 arg4 harg4 arg5 harg5 arg6 harg6 hc0 hc1 x0 x1 x2).2.1 S1x1024.size (by sl_kernel_rfl) y

/-- What the first point leaves in the scratch row. -/
def sout3_A_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i)
    (x0 : Vec F S2000x256 .f32) (x1 : Vec F S2000x256 .f32) (x2 : Vec F S256x512 .bf16) : Vec F S1x1024 .f32 :=
  VS3_0.read (Elt F) (VS3_0.writes (Elt F) VS3_0.junk (kernelRun3_A c i arg1 harg1 arg2 harg2 arg3 harg3 arg4 harg4 arg5 harg5 arg6 harg6 hc0 hc1 x0 x1 x2).2.1)

/-- A middle point's pieces for the output block tile it. -/
theorem cover3_B_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i)
    (x0 : Vec F S2000x256 .f32) (x1 : Vec F S2000x256 .f32) (x2 : Vec F S256x512 .bf16) (xs0 : Vec F S1x1024 .f32) (y : S2000x512.Idx) :
    ∃ pc ∈ (kernelRun3_B c i arg1 harg1 arg2 harg2 arg3 harg3 arg4 harg4 arg5 harg5 arg6 harg6 hc0 hc1 x0 x1 x2 xs0).1, y ∈ pc.1.set :=
  View.cover_of_tiledL (kernelRun3_B c i arg1 harg1 arg2 harg2 arg3 harg3 arg4 harg4 arg5 harg5 arg6 harg6 hc0 hc1 x0 x1 x2 xs0).1 S2000x512.size (by sl_kernel_rfl) y

/-- What a middle point leaves in the output block's staging buffer. -/
def out3_B_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i)
    (x0 : Vec F S2000x256 .f32) (x1 : Vec F S2000x256 .f32) (x2 : Vec F S256x512 .bf16) (xs0 : Vec F S1x1024 .f32) : Vec F S2000x512 .f32 :=
  VO3_3.read (Elt F) (VO3_3.writes (Elt F) VO3_3.junk (kernelRun3_B c i arg1 harg1 arg2 harg2 arg3 harg3 arg4 harg4 arg5 harg5 arg6 harg6 hc0 hc1 x0 x1 x2 xs0).1)

/-- A middle point's pieces for the scratch row tile it: the two half-row stores. -/
theorem scover3_B_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i)
    (x0 : Vec F S2000x256 .f32) (x1 : Vec F S2000x256 .f32) (x2 : Vec F S256x512 .bf16) (xs0 : Vec F S1x1024 .f32) (y : S1x1024.Idx) :
    ∃ pc ∈ (kernelRun3_B c i arg1 harg1 arg2 harg2 arg3 harg3 arg4 harg4 arg5 harg5 arg6 harg6 hc0 hc1 x0 x1 x2 xs0).2.1, y ∈ pc.1.set :=
  View.cover_of_tiledL (kernelRun3_B c i arg1 harg1 arg2 harg2 arg3 harg3 arg4 harg4 arg5 harg5 arg6 harg6 hc0 hc1 x0 x1 x2 xs0).2.1 S1x512.size (by sl_kernel_rfl) y

/-- What a middle point leaves in the scratch row. -/
def sout3_B_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i)
    (x0 : Vec F S2000x256 .f32) (x1 : Vec F S2000x256 .f32) (x2 : Vec F S256x512 .bf16) (xs0 : Vec F S1x1024 .f32) : Vec F S1x1024 .f32 :=
  VS3_0.read (Elt F) (VS3_0.writes (Elt F) VS3_0.junk (kernelRun3_B c i arg1 harg1 arg2 harg2 arg3 harg3 arg4 harg4 arg5 harg5 arg6 harg6 hc0 hc1 x0 x1 x2 xs0).2.1)

/-- The last point's pieces for the output block tile it. -/
theorem cover3_C_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) (y : S2000x512.Idx) :
    ∃ pc ∈ (kernelRun3_C c i arg1 harg1 arg2 harg2 arg3 harg3 arg4 harg4 arg5 harg5 arg6 harg6 hc0 hc1 x0 x1 x2 xs0).1, y ∈ pc.1.set :=
  View.cover_of_tiledL (kernelRun3_C c i arg1 harg1 arg2 harg2 arg3 harg3 arg4 harg4 arg5 harg5 arg6 harg6 hc0 hc1 x0 x1 x2 xs0).1 S2000x512.size (by sl_kernel_rfl) y

/-- What the last point leaves in the output block's staging buffer. -/
def out3_C_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) : Vec F S2000x512 .f32 :=
  VO3_3.read (Elt F) (VO3_3.writes (Elt F) VO3_3.junk (kernelRun3_C c i arg1 harg1 arg2 harg2 arg3 harg3 arg4 harg4 arg5 harg5 arg6 harg6 hc0 hc1 x0 x1 x2 xs0).1)

/-- The last point's pieces for the statistics block tile it: the copy of the whole scratch row. -/
theorem cover3_C_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) (y : S1x1024.Idx) :
    ∃ pc ∈ (kernelRun3_C c i arg1 harg1 arg2 harg2 arg3 harg3 arg4 harg4 arg5 harg5 arg6 harg6 hc0 hc1 x0 x1 x2 xs0).2.1, y ∈ pc.1.set :=
  View.cover_of_tiledL (kernelRun3_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out3_C_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) : Vec F S1x1024 .f32 :=
  VO3_4.read (Elt F) (VO3_4.writes (Elt F) VO3_4.junk (kernelRun3_C c i arg1 harg1 arg2 harg2 arg3 harg3 arg4 harg4 arg5 harg5 arg6 harg6 hc0 hc1 x0 x1 x2 xs0).2.1)

/-- The last point's pieces for the scratch row tile it: the two half-row stores. -/
theorem scover3_C_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) (y : S1x1024.Idx) :
    ∃ pc ∈ (kernelRun3_C c i arg1 harg1 arg2 harg2 arg3 harg3 arg4 harg4 arg5 harg5 arg6 harg6 hc0 hc1 x0 x1 x2 xs0).2.2.1, y ∈ pc.1.set :=
  View.cover_of_tiledL (kernelRun3_C c i arg1 harg1 arg2 harg2 arg3 harg3 arg4 harg4 arg5 harg5 arg6 harg6 hc0 hc1 x0 x1 x2 xs0).2.2.1 S1x512.size (by sl_kernel_rfl) y

/-- What the last point leaves in the scratch row. -/
def sout3_C_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) : Vec F S1x1024 .f32 :=
  VS3_0.read (Elt F) (VS3_0.writes (Elt F) VS3_0.junk (kernelRun3_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut3_4 : Vec F S1x1024 .f32 := VO3_4.read (Elt F) VO3_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt3 (c : Dev nD) : (n : ℕ) → n < cfg3.N → Vec F S2000x512 .f32 × Vec F S1x1024 .f32 × Vec F S1x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩), idleOut3_4, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h1 : n + 1 = 24 then
      (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => absurd ((hcond3_0 ⟨n + 1, hn⟩).mp h) (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => absurd ((hcond3_0 ⟨n + 1, hn⟩).mp h) (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => absurd ((hcond3_0 ⟨n + 1, hn⟩).mp h) (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2)
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => absurd ((hcond3_0 ⟨n + 1, hn⟩).mp h) (Nat.succ_ne_zero n)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2, idleOut3_4, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => absurd ((hcond3_0 ⟨n + 1, hn⟩).mp h) (Nat.succ_ne_zero n)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2)

/-- `outsAt3` at the first point. -/
theorem outsAt3_A (c : Dev nD) (t : Fin cfg3.N) (h0 : t.val = 0) (h1 : ¬t.val = 24) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t), idleOut3_4, sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact absurd h0 (Nat.succ_ne_zero n)

/-- `outsAt3` at a middle point: that case's contents, over the scratch row the point before left. -/
theorem outsAt3_B (c : Dev nD) (t : Fin cfg3.N) (h0 : ¬t.val = 0) (h1 : ¬t.val = 24) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2, idleOut3_4, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt3` at the last point. -/
theorem outsAt3_C (c : Dev nD) (t : Fin cfg3.N) (h0 : ¬t.val = 0) (h1 : t.val = 24) :
    outsAt3 V c t.val t.isLt = (out3_C_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2.2) ∗ restBut3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2.2) ∗ restBut3 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt3`'s components; the invariant `PhiS3`; nothing owed; full
    shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h0 : t.val = 0
  · have h1 : ¬t.val = 24 := by omega
    rw [Dat.leavesExact_idle (dat3 V c) 4 t (idleAt3_4 t (fun h => h1 ((hcond3_1 t).mp h))) (noFlush3_4 t (fun h => h1 ((hcond3_1 t).mp h)))]
    rw [outsAt3_A V c t h0 h1]
    unfold out3_A_3 sout3_A_0; (try dsimp only)
    rw [PhiS3_castSucc V c t, PhiS3_zero V c _ _ h0, PhiA3_eq]
    iintro ⟨⟨⟨HS0, HR⟩, Hg⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_A_3 c _ _ _ _ _ _ _ _ _ _ _ _ _ _ _ _ _ _)
    iexists _; iexact H4
  · by_cases h1 : t.val = 24
    · rw [show (dat3 V c).leavesExact 4 t = owns (c : Thread nD τ) (ms3_4 t) fullShare ((dat3 V c).after 4 t) from by
        unfold Dat.leavesExact; rw [liveAt3_4 t ((hcond3_1 t).mpr h1)], after3_4]
      rw [outsAt3_C V c t h0 h1]
      unfold out3_C_3 out3_C_4 sout3_C_0; (try dsimp only)
      rw [PhiS3_castSucc V c t, PhiS3_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_C_3 c _ _ _ _ _ _ _ _ _ _ _ _ _ _ _ _ _ _ _)
      unfold owns; iexists _; isplitr
      swap; · iexact H4
      ipureintro; exact View.read_writes_of_cover _ _ _ _ _ (cover3_C_4 c _ _ _ _ _ _ _ _ _ _ _ _ _ _ _ _ _ _ _)
    · rw [Dat.leavesExact_idle (dat3 V c) 4 t (idleAt3_4 t (fun h => h1 ((hcond3_1 t).mp h))) (noFlush3_4 t (fun h => h1 ((hcond3_1 t).mp h)))]
      rw [outsAt3_B V c t h0 h1]
      unfold out3_B_3 sout3_B_0; (try dsimp only)
      rw [PhiS3_castSucc V c t, PhiS3_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_B_3 c _ _ _ _ _ _ _ _ _ _ _ _ _ _ _ _ _ _ _)
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the scratch row's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 25 := N_3; omega)

end Cert.Kernel.Hand

end
-- ==== Proof.K.Reg4.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond4_0 (i : grid4.Coords) : Prop :=
  (Scalar.cmpi .ne (Scalar.extui (Scalar.cmpi .eq (BitVec.ofNat 32 (i 0).val) 0#32)) 0#32) = 1#1
/-- It holds at point 0 only. -/
theorem hcond4_0 : ∀ t : Fin cfg4.N, cond4_0 (grid4.coords t) ↔ t.val = 0 :=
  (by decide +kernel : ∀ t : Fin grid4.N, cond4_0 (grid4.coords t) ↔ t.val = 0)

/-- The body's second condition: the point is the grid's last. -/
abbrev cond4_1 (i : grid4.Coords) : Prop := k4_cond2 i = 1#1
/-- It holds at point 24 only. -/
theorem hcond4_1 : ∀ t : Fin cfg4.N, cond4_1 (grid4.coords t) ↔ t.val = 24 :=
  (by decide +kernel : ∀ t : Fin grid4.N, cond4_1 (grid4.coords t) ↔ t.val = 24)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
/-- At the first point the statistics window is idle, and its block is not written back there. -/
theorem idleAt4_7_A : ∀ t : Fin cfg4.N, cond4_0 (grid4.coords t) → ¬cond4_1 (grid4.coords t) → cfg4.idle 7 (grid4.coords t) = true := by decide +kernel
theorem noFlush4_7_A : ∀ t : Fin cfg4.N, cond4_0 (grid4.coords t) → ¬cond4_1 (grid4.coords t) → (cfg4.win 7).flush t = false := by decide +kernel
/-- At the points between, the same. -/
theorem idleAt4_7_B : ∀ t : Fin cfg4.N, ¬cond4_0 (grid4.coords t) → ¬cond4_1 (grid4.coords t) → cfg4.idle 7 (grid4.coords t) = true := by decide +kernel
theorem noFlush4_7_B : ∀ t : Fin cfg4.N, ¬cond4_0 (grid4.coords t) → ¬cond4_1 (grid4.coords t) → (cfg4.win 7).flush t = false := by decide +kernel
/-- At the last point the statistics window is live. -/
theorem liveAt4_7_C : ∀ t : Fin cfg4.N, ¬cond4_0 (grid4.coords t) → cond4_1 (grid4.coords t) → cfg4.idle 7 (grid4.coords t) = false := by decide +kernel

/-! ## The staging memrefs, the accumulator, and the views the results are stated through -/

abbrev ms4_0 (t : Fin cfg4.N) : Memref sig .tc .vmem S2000x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x512 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S512x256 .bf16 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x512 .f32 := win4_7.stage (cfg4.slots t 7)
abbrev hs4_7 (t : Fin cfg4.N) : (ms4_7 t).IsWhole := hstage4_7 ((cfg4.slots t 7).cast nbuf4_7)
/-- The accumulator: a whole scoped buffer of the kernel's own, carried from point to point. -/
abbrev scM4_0 : Memref sig .tc .vmem S1x512 .f32 := Memref.whole cc4_scratch0
abbrev VS4_0 : View sig .tc .vmem S1x512 .f32 := scM4_0.view
/-- One staging buffer of each output window, through which its contents are stated (the choice does not matter). -/
abbrev VO4_6 : View sig .tc .vmem S2000x256 .f32 := (Memref.whole cc4_stg6_0 : Memref sig .tc .vmem S2000x256 .f32).view
abbrev VO4_7 : View sig .tc .vmem S1x512 .f32 := (Memref.whole cc4_stg7_0 : Memref sig .tc .vmem S1x512 .f32).view

/-- The class's invariant with the accumulator opened as a memref owned at some contents; every other scoped buffer
    stays closed. -/
theorem PhiA4_eq (c : Dev nD) :
    (Pipeline.ΦA spec4 c : sProp 𝕄)
      = iprop(iprop((∃ d, owns (c : Thread nD τ) scM4_0 fullShare d)
          ∗ Pipeline.scopedRestBut (Ix := Unit) (Name := ℕ) (U := Pipeline.UD sig nD τ) (Lvl := ℕ) (Val := Elt F) spec4 c [cc4_scratch0])
          ∗ (∃ r, prngReg c r)) := by
  unfold Pipeline.ΦA; rw [scopedRest4_split]; simp only [scM4_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun4_A (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond4_0 i) (hc1 : ¬cond4_1 i)
    (x0 : Vec F S2000x512 .f32) (x1 : Vec F S1x512 .f32) (x2 : Vec F S1x512 .f32) (x3 : Vec F S1x512 .f32) (x4 : Vec F S1x512 .f32) (x5 : Vec F S512x256 .bf16) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc4__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc4__stage2_kernel_eq_skeleton]; unfold cc4__stage2_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun4_B (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond4_0 i) (hc1 : ¬cond4_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc4__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc4__stage2_kernel_eq_skeleton]; unfold cc4__stage2_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun4_C (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond4_0 i) (hc1 : cond4_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc4__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__stage2_kernel_eq_skeleton]; unfold cc4__stage2_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond4_0 i) (hc1 : ¬cond4_1 i)
  (x0 : Vec F S2000x512 .f32) (x1 : Vec F S1x512 .f32) (x2 : Vec F S1x512 .f32) (x3 : Vec F S1x512 .f32) (x4 : Vec F S1x512 .f32) (x5 : Vec F S512x256 .bf16)

/-- At the first point the one store into the product window covers its block. -/
theorem cover4_A_6 (y : S2000x256.Idx) :
    ∃ pc ∈ (kernelRun4_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3 x4 x5).1 S2000x256.size (by sl_kernel_rfl) y

/-- What the first point leaves in the product window: its pieces read back. -/
def out4_A_6 : Vec F S2000x256 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out4_A_7 : Vec F S1x512 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover4_A_0 (y : S1x512.Idx) :
    ∃ pc ∈ (kernelRun4_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3 x4 x5).2.2.1 S1x512.size (by sl_kernel_rfl) y

/-- What the first point leaves in the accumulator. -/
def sout4_A_0 : Vec F S1x512 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond4_0 i) (hc1 : ¬cond4_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At a point between the one store into the product window covers its block. -/
theorem cover4_B_6 (y : S2000x256.Idx) :
    ∃ pc ∈ (kernelRun4_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out4_B_6 : Vec F S2000x256 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out4_B_7 : Vec F S1x512 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover4_B_0 (y : S1x512.Idx) :
    ∃ pc ∈ (kernelRun4_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout4_B_0 : Vec F S1x512 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond4_0 i) (hc1 : cond4_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At the last point the one store into the product window covers its block. -/
theorem cover4_C_6 (y : S2000x256.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out4_C_6 : Vec F S2000x256 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover4_C_7 (y : S1x512.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0).2.1 S1x512.size (by sl_kernel_rfl) y

/-- What the last point leaves in the statistics window. -/
def out4_C_7 : Vec F S1x512 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover4_C_0 (y : S1x512.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout4_C_0 : Vec F S1x512 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The inputs' buffers hold their blocks at every point

An input window is never idle and the body leaves its block in place; so its current buffer holds what a fetch at the
point puts there whether or not one happened: where none did, the block index has not moved (the five row and weight
windows are fetched once, at the first point). -/

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## What the outputs and the accumulator hold after each point -/

/-- The first point is not the last, -/
theorem notLast4_of_first (t : Fin cfg4.N) (h0 : t.val = 0) : ¬cond4_1 (grid4.coords t) :=
  fun h => by have := (hcond4_1 t).mp h; omega

/-- The first point's results at the point's own memrefs and input blocks: the product block, the statistics
    placeholder, the accumulator. -/
def outsPt4_A (c : Dev nD) (t : Fin cfg4.N) (h0 : t.val = 0) : Vec F S2000x256 .f32 × Vec F S1x512 .f32 × Vec F S1x512 .f32 :=
  (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (notLast4_of_first t h0) (iblk4 V c 0 t) (iblk4 V c 1 t) (iblk4 V c 2 t) (iblk4 V c 3 t) (iblk4 V c 4 t) (iblk4 V c 5 t),
   out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (notLast4_of_first t h0) (iblk4 V c 0 t) (iblk4 V c 1 t) (iblk4 V c 2 t) (iblk4 V c 3 t) (iblk4 V c 4 t) (iblk4 V c 5 t),
   sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (notLast4_of_first t h0) (iblk4 V c 0 t) (iblk4 V c 1 t) (iblk4 V c 2 t) (iblk4 V c 3 t) (iblk4 V c 4 t) (iblk4 V c 5 t))

/-- A point between, over the accumulator xs0 the point before left. -/
def outsPt4_B (c : Dev nD) (t : Fin cfg4.N) (h0 : ¬t.val = 0) (h1 : ¬t.val = 24) (xs0 : Vec F S1x512 .f32) : Vec F S2000x256 .f32 × Vec F S1x512 .f32 × Vec F S1x512 .f32 :=
  (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs0,
   out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs0,
   sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs0)

/-- The last point, over the accumulator xs0 the point before left. -/
def outsPt4_C (c : Dev nD) (t : Fin cfg4.N) (h0 : ¬t.val = 0) (h1 : t.val = 24) (xs0 : Vec F S1x512 .f32) : Vec F S2000x256 .f32 × Vec F S1x512 .f32 × Vec F S1x512 .f32 :=
  (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) xs0,
   out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) xs0,
   sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) xs0)

/-- THE ACCUMULATION. What the product window, the statistics window and the accumulator hold after the body at
    position n: the case the position selects, run at the point's memrefs and input blocks, the accumulator it reads
    at what position n - 1 left. -/
def outsAt4 (c : Dev nD) : (n : ℕ) → n < cfg4.N → Vec F S2000x256 .f32 × Vec F S1x512 .f32 × Vec F S1x512 .f32
  | 0, hn => outsPt4_A V c ⟨0, hn⟩ rfl
  | n + 1, hn =>
    if h1 : n + 1 = 24 then
      outsPt4_C V c ⟨n + 1, hn⟩ (Nat.succ_ne_zero n) h1 (outsAt4 c n (Nat.lt_of_succ_lt hn)).2.2
    else
      outsPt4_B V c ⟨n + 1, hn⟩ (Nat.succ_ne_zero n) h1 (outsAt4 c n (Nat.lt_of_succ_lt hn)).2.2

/-- outsAt4 at the first point. -/
theorem outsAt4_A (c : Dev nD) (t : Fin cfg4.N) (h0 : t.val = 0) :
    outsAt4 V c t.val t.isLt = outsPt4_A V c t h0 := by
  obtain ⟨n, hn⟩ := t
  cases n with
  | zero => exact rfl
  | succ n => exact absurd h0 (Nat.succ_ne_zero n)

/-- outsAt4 at a point between: over what the point before left in the accumulator. -/
theorem outsAt4_B (c : Dev nD) (t : Fin cfg4.N) (h0 : ¬t.val = 0) (h1 : ¬t.val = 24) :
    outsAt4 V c t.val t.isLt = outsPt4_B V c t h0 h1 (outsAt4 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt4 at the last point: over what the point before left in the accumulator. -/
theorem outsAt4_C (c : Dev nD) (t : Fin cfg4.N) (h0 : ¬t.val = 0) (h1 : t.val = 24) :
    outsAt4 V c t.val t.isLt = outsPt4_C V c t h0 h1 (outsAt4 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2.2)
      ∗ Pipeline.scopedRestBut (Ix := Unit) (Name := ℕ) (U := Pipeline.UD sig nD τ) (Lvl := ℕ) (Val := Elt F) spec4 c [cc4_scratch0])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2.2)
      ∗ Pipeline.scopedRestBut (Ix := Unit) (Name := ℕ) (U := Pipeline.UD sig nD τ) (Lvl := ℕ) (Val := Elt F) spec4 c [cc4_scratch0])
      ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2.2)
      ∗ Pipeline.scopedRestBut (Ix := Unit) (Name := ℕ) (U := Pipeline.UD sig nD τ) (Lvl := ℕ) (Val := Elt F) spec4 c [cc4_scratch0])
      ∗ (∃ r, prngReg c r)) := by
  cases n with
  | zero => exact absurd rfl hz
  | succ n => rfl

/-! ## The proof data -/

/-- The arrays as the region finds them; after the body at point t each input's buffer at its block, the product
    window's at the first component of outsAt4, the statistics window's at the second; the invariant PhiS4; nothing
    owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point t: the invariant, what the core owes, and each window's current buffer at
    what it then holds, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  by_cases h0 : t.val = 0
  · -- the first point
    have hc0 : cond4_0 (grid4.coords t) := (hcond4_0 t).mpr h0
    have hc1 : ¬cond4_1 (grid4.coords t) := notLast4_of_first t h0
    rw [Dat.leavesExact_idle (dat4 V c) 7 t (idleAt4_7_A t hc0 hc1) (noFlush4_7_A t hc0 hc1)]
    rw [outsAt4_A V c t h0]
    unfold outsPt4_A out4_A_6 sout4_A_0; (try dsimp only)
    rw [PhiS4_castSucc V c t, PhiS4_zero V c _ _ h0, PhiA4_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover4_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _ _)
    iexists _; iexact H7
  · by_cases h1 : t.val = 24
    · -- the last point
      have hc0 : ¬cond4_0 (grid4.coords t) := fun h => h0 ((hcond4_0 t).mp h)
      have hc1 : cond4_1 (grid4.coords t) := (hcond4_1 t).mpr h1
      rw [show (dat4 V c).leavesExact 7 t = owns (c : Thread nD τ) (ms4_7 t) fullShare ((dat4 V c).after 7 t) from by
        unfold Dat.leavesExact; rw [liveAt4_7_C t hc0 hc1], after4_7]
      rw [outsAt4_C V c t h0 h1]
      unfold outsPt4_C out4_C_6 out4_C_7 sout4_C_0; (try dsimp only)
      rw [PhiS4_castSucc V c t, PhiS4_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_C c (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _)
      unfold owns; iexists _; isplitr
      swap; · iexact H7
      ipureintro; exact View.read_writes_of_cover _ _ _ _ _ (cover4_C_7 c _ _ _ _ _ _ _ _ _ _ _ _ _ _ _ _ _ _ _ _ _ _ _ _ _ _ _ _)
    · -- a point between
      have hc0 : ¬cond4_0 (grid4.coords t) := fun h => h0 ((hcond4_0 t).mp h)
      have hc1 : ¬cond4_1 (grid4.coords t) := fun h => h1 ((hcond4_1 t).mp h)
      rw [Dat.leavesExact_idle (dat4 V c) 7 t (idleAt4_7_B t hc0 hc1) (noFlush4_7_B t hc0 hc1)]
      rw [outsAt4_B V c t h0 h1]
      unfold outsPt4_B out4_B_6 sout4_B_0; (try dsimp only)
      rw [PhiS4_castSucc V c t, PhiS4_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _)
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the launch's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 25 := N_4; omega)

end Region

end Cert.Kernel.Hand

end
-- ==== Proof.K.Reg5.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## What the body leaves in the output block -/

/-- The whole block of rows, as a rectangle of itself. -/
abbrev rB5 : Rect S2000x256 := Rect.unit (s := S2000x256) ![0, 0] S2000x256.size inb_S2000x256_S2000x256_0_0
/-- The whole single row, as a rectangle of itself. -/
abbrev rR5 : Rect S1x256 := Rect.unit (s := S1x256) ![0, 0] S1x256.size inb_S1x256_S1x256_0_0

/-- The output block after the body, from the five input blocks: the body's one store, of the
    payload of the five whole loads, laid over the block.  (The payload takes the row operands in
    the order the body loads them: the fourth, the second, the third, the fifth.) -/
def out5_5 (x0 : Vec F S2000x256 .f32) (x1 x2 x3 x4 : Vec F S1x256 .f32) : Vec F S2000x256 .f32 :=
  View.canon [⟨rB5, k5_pay1 (View.ld x0 rB5) (View.ld x3 rR5) (View.ld x1 rR5) (View.ld x2 rR5) (View.ld x4 rR5)⟩]

/-- One store of the whole block covers it. -/
theorem cover5_5 (p : Vec F S2000x256 .f32) (y : S2000x256.Idx) :
    ∃ pc ∈ ([⟨rB5, p⟩] : List (View.Piece (Elt F) S2000x256 .f32)), y ∈ pc.1.set :=
  View.cover_of_tiled [⟨rB5, p⟩] S2000x256.size (by rfl) y

/-! ## The body's triple -/

set_option maxHeartbeats 1000000 in
/-- The kernel body on whole staging memrefs: holding the five inputs' at contents reading `x0 … x4`
    and the output's at anything, it runs to a state holding the inputs' as they were and the
    output's at `out5_5` of them.  The body is its skeleton of memory operations over the named
    payload; the executor steps through the six loads and the store. -/
theorem sound_kernel5 (c : Dev nD) (E : Set ℕ) (i : grid5.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__stage3_kernel i arg1 harg1 arg2 harg2 arg3 harg3 arg4 harg4 arg5 harg5 arg6 harg6) K := by
  simp only [cc5__stage3_kernel_eq_skeleton]; unfold cc5__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data -/

/-- The proof data of the pipeline on core `c`: the arrays as the region finds them; after the
    body at point `t` each input's buffer at its block and the output's at `out5_5` of the input
    blocks; the class's invariant; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

/-! ## What the body finds in the input windows' buffers

An input window's current staging buffer holds its block at every point, whether the pipeline
fetched it there or not: a window not fetched at a point has the block index of the point before,
and the body left that point's block in place.  (The four row operands are fetched at the first
point only; the first operand at every point.) -/

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0 V c t]; unfold Dat.blockOf iblk5; rw [A_eq5 V c 0]; try rfl) t d).trans
    (by unfold Dat.fetched Dat.blockOf iblk5; rw [A_eq5 V c 0]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1 V c t]; unfold Dat.blockOf iblk5; rw [A_eq5 V c 1]; try rfl) t d).trans
    (by unfold Dat.fetched Dat.blockOf iblk5; rw [A_eq5 V c 1]; try rfl)
theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2 V c t]; unfold Dat.blockOf iblk5; rw [A_eq5 V c 2]; try rfl) t d).trans
    (by unfold Dat.fetched Dat.blockOf iblk5; rw [A_eq5 V c 2]; try rfl)
theorem before5_3 (c : Dev nD) (t : Fin cfg5.N) (d) : (dat5 V c).before 3 t d = iblk5 V c 3 t :=
  ((dat5 V c).before_in_eq_fetched 3 rfl (fun _ => rfl) (fun _ _ _ => rfl)
      (fun t => by rw [after5_3 V c t]; unfold Dat.blockOf iblk5; rw [A_eq5 V c 3]; try rfl) t d).trans
    (by unfold Dat.fetched Dat.blockOf iblk5; rw [A_eq5 V c 3]; try rfl)
theorem before5_4 (c : Dev nD) (t : Fin cfg5.N) (d) : (dat5 V c).before 4 t d = iblk5 V c 4 t :=
  ((dat5 V c).before_in_eq_fetched 4 rfl (fun _ => rfl) (fun _ _ _ => rfl)
      (fun t => by rw [after5_4 V c t]; unfold Dat.blockOf iblk5; rw [A_eq5 V c 4]; try rfl) t d).trans
    (by unfold Dat.fetched Dat.blockOf iblk5; rw [A_eq5 V c 4]; try rfl)

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the
    invariant and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the two ends -/

/-- The proof data's invariant is the class's at every point: the region's entry hands it over as it is, -/
theorem hin5 (c : Dev nD) : Pipeline.ΦA spec5 c ⊢ (dat5 V c).Φ 0 := by
  dsimp only [dat5]; exact .rfl

/-- and takes it back as it is. -/
theorem hout5 (c : Dev nD) : (dat5 V c).Φ (Fin.last cfg5.N) ⊢ Pipeline.ΦA spec5 c := by
  dsimp only [dat5]; exact .rfl

end Cert.Kernel.Hand

end
-- ==== Proof.K.Reg6.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt6`), the scratch row's component feeding the next point's run. Everything
is stated at an arbitrary float family and at a parameter `V`: the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not (unfetched, the
    block index has not moved), for any proof data whose array is `V`'s and whose body leaves the block in place. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's two branch conditions, over the grid -/

/-- The zeroing branch's condition, from the grid coordinate: the coordinate is 0. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- The copying branch's condition: the coordinate is the last. -/
abbrev cond6_1 (i : grid6.Coords) : Prop := k6_cond2 i = 1#1
/-- It holds at the last point only. -/
theorem hcond6_1 : ∀ t : Fin cfg6.N, cond6_1 (grid6.coords t) ↔ t.val = 24 :=
  (by decide +kernel : ∀ t : Fin grid6.N, cond6_1 (grid6.coords t) ↔ t.val = 24)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Away from the last point the statistics window is idle (the body stores nothing into it) and not written back. -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
/-- At the last point it is live. -/
theorem liveAt6_4 : ∀ t : Fin cfg6.N, cond6_1 (grid6.coords t) → cfg6.idle 4 (grid6.coords t) = false := by decide +kernel

/-! ## The staging memrefs the body is called with, and the scratch row -/

/-- One staging buffer of each output window, through which its contents are stated (the choice does not matter). -/
abbrev VO6_3 : View sig .tc .vmem S2000x512 .f32 := (Memref.whole cc6_stg3_0 : Memref sig .tc .vmem S2000x512 .f32).view
abbrev VO6_4 : View sig .tc .vmem S1x1024 .f32 := (Memref.whole cc6_stg4_0 : Memref sig .tc .vmem S1x1024 .f32).view
/-- Each window's current staging memref at point `t`, spelled as the pipeline passes it, and its wholeness. -/
abbrev ms6_0 (t : Fin cfg6.N) : Memref sig .tc .vmem S2000x256 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S256x512 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2000x512 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x1024 .f32 := win6_4.stage (cfg6.slots t 4)
abbrev hs6_4 (t : Fin cfg6.N) : (ms6_4 t).IsWhole := hstage6_4 ((cfg6.slots t 4).cast nbuf6_4)
/-- The scratch row: a whole scoped buffer of the kernel's own, passed beside the windows. -/
abbrev scM6_0 : Memref sig .tc .vmem S1x1024 .f32 := Memref.whole cc6_scratch0
/-- The same as a view: what the row holds is stated through it. -/
abbrev VS6_0 : View sig .tc .vmem S1x1024 .f32 := scM6_0.view

/-- The other scoped buffers of the core (no staging buffer of this pipeline, not the scratch row), unopened. -/
abbrev restBut6 (c : Dev nD) : sProp 𝕄 :=
  Pipeline.scopedRestBut (Ix := Unit) (Name := ℕ) (U := Pipeline.UD sig nD τ) (Lvl := ℕ) (Val := Elt F) spec6 c [cc6_scratch0]

/-- The region's invariant with the scratch row as a memref owned at some contents. -/
theorem PhiA6_eq (c : Dev nD) :
    (Pipeline.ΦA spec6 c : sProp 𝕄)
      = iprop(iprop((∃ d, owns (c : Thread nD τ) scM6_0 fullShare d) ∗ restBut6 (F := F) c) ∗ (∃ r, prngReg c r)) := by
  unfold Pipeline.ΦA; rw [scopedRest6_split]; simp only [scM6_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun6_A (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i)
    (x0 : Vec F S2000x256 .f32) (x1 : Vec F S2000x256 .f32) (x2 : Vec F S256x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc6__stage1_kernel i arg1 harg1 arg2 harg2 arg3 harg3 arg4 harg4 arg5 harg5 arg6 harg6) K } := by
  refine ⟨?_, ?_, fun xi4 E K => ?run⟩
  case run =>
    simp only [cc6__stage1_kernel_eq_skeleton]; unfold cc6__stage1_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun6_B (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i)
    (x0 : Vec F S2000x256 .f32) (x1 : Vec F S2000x256 .f32) (x2 : Vec F S256x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc6__stage1_kernel i arg1 harg1 arg2 harg2 arg3 harg3 arg4 harg4 arg5 harg5 arg6 harg6) K } := by
  refine ⟨?_, ?_, fun xi4 E K => ?run⟩
  case run =>
    simp only [cc6__stage1_kernel_eq_skeleton]; unfold cc6__stage1_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun6_C (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc6__stage1_kernel i arg1 harg1 arg2 harg2 arg3 harg3 arg4 harg4 arg5 harg5 arg6 harg6) K } := by
  refine ⟨?_, ?_, ?_, fun E K => ?run⟩
  case run =>
    simp only [cc6__stage1_kernel_eq_skeleton]; unfold cc6__stage1_kernel_skel
    simp only [k6_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover6_A_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i)
    (x0 : Vec F S2000x256 .f32) (x1 : Vec F S2000x256 .f32) (x2 : Vec F S256x512 .bf16) (y : S2000x512.Idx) :
    ∃ pc ∈ (kernelRun6_A c i arg1 harg1 arg2 harg2 arg3 harg3 arg4 harg4 arg5 harg5 arg6 harg6 hc0 hc1 x0 x1 x2).1, y ∈ pc.1.set :=
  View.cover_of_tiledL (kernelRun6_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out6_A_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i)
    (x0 : Vec F S2000x256 .f32) (x1 : Vec F S2000x256 .f32) (x2 : Vec F S256x512 .bf16) : Vec F S2000x512 .f32 :=
  VO6_3.read (Elt F) (VO6_3.writes (Elt F) VO6_3.junk (kernelRun6_A c i arg1 harg1 arg2 harg2 arg3 harg3 arg4 harg4 arg5 harg5 arg6 harg6 hc0 hc1 x0 x1 x2).1)

/-- The first point's pieces for the scratch row cover it: the zeroing store is the whole row. -/
theorem scover6_A_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i)
    (x0 : Vec F S2000x256 .f32) (x1 : Vec F S2000x256 .f32) (x2 : Vec F S256x512 .bf16) (y : S1x1024.Idx) :
    ∃ pc ∈ (kernelRun6_A c i arg1 harg1 arg2 harg2 arg3 harg3 arg4 harg4 arg5 harg5 arg6 harg6 hc0 hc1 x0 x1 x2).2.1, y ∈ pc.1.set :=
  View.cover_of_tiledL (kernelRun6_A c i arg1 harg1 arg2 harg2 arg3 harg3 arg4 harg4 arg5 harg5 arg6 harg6 hc0 hc1 x0 x1 x2).2.1 S1x1024.size (by sl_kernel_rfl) y

/-- What the first point leaves in the scratch row. -/
def sout6_A_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i)
    (x0 : Vec F S2000x256 .f32) (x1 : Vec F S2000x256 .f32) (x2 : Vec F S256x512 .bf16) : Vec F S1x1024 .f32 :=
  VS6_0.read (Elt F) (VS6_0.writes (Elt F) VS6_0.junk (kernelRun6_A c i arg1 harg1 arg2 harg2 arg3 harg3 arg4 harg4 arg5 harg5 arg6 harg6 hc0 hc1 x0 x1 x2).2.1)

/-- A middle point's pieces for the output block tile it. -/
theorem cover6_B_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i)
    (x0 : Vec F S2000x256 .f32) (x1 : Vec F S2000x256 .f32) (x2 : Vec F S256x512 .bf16) (xs0 : Vec F S1x1024 .f32) (y : S2000x512.Idx) :
    ∃ pc ∈ (kernelRun6_B c i arg1 harg1 arg2 harg2 arg3 harg3 arg4 harg4 arg5 harg5 arg6 harg6 hc0 hc1 x0 x1 x2 xs0).1, y ∈ pc.1.set :=
  View.cover_of_tiledL (kernelRun6_B c i arg1 harg1 arg2 harg2 arg3 harg3 arg4 harg4 arg5 harg5 arg6 harg6 hc0 hc1 x0 x1 x2 xs0).1 S2000x512.size (by sl_kernel_rfl) y

/-- What a middle point leaves in the output block's staging buffer. -/
def out6_B_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i)
    (x0 : Vec F S2000x256 .f32) (x1 : Vec F S2000x256 .f32) (x2 : Vec F S256x512 .bf16) (xs0 : Vec F S1x1024 .f32) : Vec F S2000x512 .f32 :=
  VO6_3.read (Elt F) (VO6_3.writes (Elt F) VO6_3.junk (kernelRun6_B c i arg1 harg1 arg2 harg2 arg3 harg3 arg4 harg4 arg5 harg5 arg6 harg6 hc0 hc1 x0 x1 x2 xs0).1)

/-- A middle point's pieces for the scratch row tile it: the two half-row stores. -/
theorem scover6_B_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i)
    (x0 : Vec F S2000x256 .f32) (x1 : Vec F S2000x256 .f32) (x2 : Vec F S256x512 .bf16) (xs0 : Vec F S1x1024 .f32) (y : S1x1024.Idx) :
    ∃ pc ∈ (kernelRun6_B c i arg1 harg1 arg2 harg2 arg3 harg3 arg4 harg4 arg5 harg5 arg6 harg6 hc0 hc1 x0 x1 x2 xs0).2.1, y ∈ pc.1.set :=
  View.cover_of_tiledL (kernelRun6_B c i arg1 harg1 arg2 harg2 arg3 harg3 arg4 harg4 arg5 harg5 arg6 harg6 hc0 hc1 x0 x1 x2 xs0).2.1 S1x512.size (by sl_kernel_rfl) y

/-- What a middle point leaves in the scratch row. -/
def sout6_B_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i)
    (x0 : Vec F S2000x256 .f32) (x1 : Vec F S2000x256 .f32) (x2 : Vec F S256x512 .bf16) (xs0 : Vec F S1x1024 .f32) : Vec F S1x1024 .f32 :=
  VS6_0.read (Elt F) (VS6_0.writes (Elt F) VS6_0.junk (kernelRun6_B c i arg1 harg1 arg2 harg2 arg3 harg3 arg4 harg4 arg5 harg5 arg6 harg6 hc0 hc1 x0 x1 x2 xs0).2.1)

/-- The last point's pieces for the output block tile it. -/
theorem cover6_C_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) (y : S2000x512.Idx) :
    ∃ pc ∈ (kernelRun6_C c i arg1 harg1 arg2 harg2 arg3 harg3 arg4 harg4 arg5 harg5 arg6 harg6 hc0 hc1 x0 x1 x2 xs0).1, y ∈ pc.1.set :=
  View.cover_of_tiledL (kernelRun6_C c i arg1 harg1 arg2 harg2 arg3 harg3 arg4 harg4 arg5 harg5 arg6 harg6 hc0 hc1 x0 x1 x2 xs0).1 S2000x512.size (by sl_kernel_rfl) y

/-- What the last point leaves in the output block's staging buffer. -/
def out6_C_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) : Vec F S2000x512 .f32 :=
  VO6_3.read (Elt F) (VO6_3.writes (Elt F) VO6_3.junk (kernelRun6_C c i arg1 harg1 arg2 harg2 arg3 harg3 arg4 harg4 arg5 harg5 arg6 harg6 hc0 hc1 x0 x1 x2 xs0).1)

/-- The last point's pieces for the statistics block tile it: the copy of the whole scratch row. -/
theorem cover6_C_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) (y : S1x1024.Idx) :
    ∃ pc ∈ (kernelRun6_C c i arg1 harg1 arg2 harg2 arg3 harg3 arg4 harg4 arg5 harg5 arg6 harg6 hc0 hc1 x0 x1 x2 xs0).2.1, y ∈ pc.1.set :=
  View.cover_of_tiledL (kernelRun6_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out6_C_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) : Vec F S1x1024 .f32 :=
  VO6_4.read (Elt F) (VO6_4.writes (Elt F) VO6_4.junk (kernelRun6_C c i arg1 harg1 arg2 harg2 arg3 harg3 arg4 harg4 arg5 harg5 arg6 harg6 hc0 hc1 x0 x1 x2 xs0).2.1)

/-- The last point's pieces for the scratch row tile it: the two half-row stores. -/
theorem scover6_C_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) (y : S1x1024.Idx) :
    ∃ pc ∈ (kernelRun6_C c i arg1 harg1 arg2 harg2 arg3 harg3 arg4 harg4 arg5 harg5 arg6 harg6 hc0 hc1 x0 x1 x2 xs0).2.2.1, y ∈ pc.1.set :=
  View.cover_of_tiledL (kernelRun6_C c i arg1 harg1 arg2 harg2 arg3 harg3 arg4 harg4 arg5 harg5 arg6 harg6 hc0 hc1 x0 x1 x2 xs0).2.2.1 S1x512.size (by sl_kernel_rfl) y

/-- What the last point leaves in the scratch row. -/
def sout6_C_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) : Vec F S1x1024 .f32 :=
  VS6_0.read (Elt F) (VS6_0.writes (Elt F) VS6_0.junk (kernelRun6_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut6_4 : Vec F S1x1024 .f32 := VO6_4.read (Elt F) VO6_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt6 (c : Dev nD) : (n : ℕ) → n < cfg6.N → Vec F S2000x512 .f32 × Vec F S1x1024 .f32 × Vec F S1x1024 .f32
  | 0, hn => (out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6_0 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩), idleOut6_4, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6_0 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩))
  | n + 1, hn =>
    if h1 : n + 1 = 24 then
      (out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2, out6_C_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2)
    else
      (out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => absurd ((hcond6_0 ⟨n + 1, hn⟩).mp h) (Nat.succ_ne_zero n)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2, idleOut6_4, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => absurd ((hcond6_0 ⟨n + 1, hn⟩).mp h) (Nat.succ_ne_zero n)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2)

/-- `outsAt6` at the first point. -/
theorem outsAt6_A (c : Dev nD) (t : Fin cfg6.N) (h0 : t.val = 0) (h1 : ¬t.val = 24) :
    outsAt6 V c t.val t.isLt = (out6_A_3 c (grid6.coords t) (ms6_0 t) (hs6_0 t) (ms6_1 t) (hs6_1 t) (ms6_2 t) (hs6_2 t) (ms6_3 t) (hs6_3 t) (ms6_4 t) (hs6_4 t) scM6_0 (Memref.isWhole_whole _) ((hcond6_0 t).mpr h0) (fun h => h1 ((hcond6_1 t).mp h)) (iblk6 V c 0 t) (iblk6 V c 1 t) (iblk6 V c 2 t), idleOut6_4, sout6_A_0 c (grid6.coords t) (ms6_0 t) (hs6_0 t) (ms6_1 t) (hs6_1 t) (ms6_2 t) (hs6_2 t) (ms6_3 t) (hs6_3 t) (ms6_4 t) (hs6_4 t) scM6_0 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => exact rfl
  | succ n => exact absurd h0 (Nat.succ_ne_zero n)

/-- `outsAt6` at a middle point: that case's contents, over the scratch row the point before left. -/
theorem outsAt6_B (c : Dev nD) (t : Fin cfg6.N) (h0 : ¬t.val = 0) (h1 : ¬t.val = 24) :
    outsAt6 V c t.val t.isLt = (out6_B_3 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2, idleOut6_4, sout6_B_0 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt6` at the last point. -/
theorem outsAt6_C (c : Dev nD) (t : Fin cfg6.N) (h0 : ¬t.val = 0) (h1 : t.val = 24) :
    outsAt6 V c t.val t.isLt = (out6_C_3 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2, out6_C_4 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2.2) ∗ restBut6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2.2) ∗ restBut6 (F := F) c) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2.2) ∗ restBut6 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt6`'s components; the invariant `PhiS6`; nothing owed; full
    shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant at a point's start, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 25 := lt_of_lt_of_eq t.isLt (show cfg6.N = 25 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  by_cases h0 : t.val = 0
  · have h1 : ¬t.val = 24 := by omega
    rw [Dat.leavesExact_idle (dat6 V c) 4 t (idleAt6_4 t (fun h => h1 ((hcond6_1 t).mp h))) (noFlush6_4 t (fun h => h1 ((hcond6_1 t).mp h)))]
    rw [outsAt6_A V c t h0 h1]
    unfold out6_A_3 sout6_A_0; (try dsimp only)
    rw [PhiS6_castSucc V c t, PhiS6_zero V c _ _ h0, PhiA6_eq]
    iintro ⟨⟨⟨HS0, HR⟩, Hg⟩, Ho, ⟨%d0, H0⟩, ⟨%d1, H1⟩, ⟨%d2, H2⟩, ⟨%d3, H3⟩, ⟨%d4, H4⟩⟩
    iapply ((kernelRun6_A c (grid6.coords t) _ _ _ _ _ _ _ _ _ _ _ _ ((hcond6_0 t).mpr h0) (fun h => h1 ((hcond6_1 t).mp h)) (iblk6 V c 0 t) (iblk6 V c 1 t) (iblk6 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover6_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_A_3 c _ _ _ _ _ _ _ _ _ _ _ _ _ _ _ _ _ _)
    iexists _; iexact H4
  · by_cases h1 : t.val = 24
    · rw [show (dat6 V c).leavesExact 4 t = owns (c : Thread nD τ) (ms6_4 t) fullShare ((dat6 V c).after 4 t) from by
        unfold Dat.leavesExact; rw [liveAt6_4 t ((hcond6_1 t).mpr h1)], after6_4]
      rw [outsAt6_C V c t h0 h1]
      unfold out6_C_3 out6_C_4 sout6_C_0; (try dsimp only)
      rw [PhiS6_castSucc V c t, PhiS6_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun6_C c (grid6.coords t) _ _ _ _ _ _ _ _ _ _ _ _ (fun h => h0 ((hcond6_0 t).mp h)) ((hcond6_1 t).mpr h1) (iblk6 V c 0 t) (iblk6 V c 1 t) (iblk6 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_C_3 c _ _ _ _ _ _ _ _ _ _ _ _ _ _ _ _ _ _ _)
      unfold owns; iexists _; isplitr
      swap; · iexact H4
      ipureintro; exact View.read_writes_of_cover _ _ _ _ _ (cover6_C_4 c _ _ _ _ _ _ _ _ _ _ _ _ _ _ _ _ _ _ _)
    · rw [Dat.leavesExact_idle (dat6 V c) 4 t (idleAt6_4 t (fun h => h1 ((hcond6_1 t).mp h))) (noFlush6_4 t (fun h => h1 ((hcond6_1 t).mp h)))]
      rw [outsAt6_B V c t h0 h1]
      unfold out6_B_3 sout6_B_0; (try dsimp only)
      rw [PhiS6_castSucc V c t, PhiS6_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun6_B c (grid6.coords t) _ _ _ _ _ _ _ _ _ _ _ _ (fun h => h0 ((hcond6_0 t).mp h)) (fun h => h1 ((hcond6_1 t).mp h)) (iblk6 V c 0 t) (iblk6 V c 1 t) (iblk6 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_B_3 c _ _ _ _ _ _ _ _ _ _ _ _ _ _ _ _ _ _ _)
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the launch's back: the scratch row's contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

/-- The same after the last point. -/
theorem hout6 (c : Dev nD) : (dat6 V c).Φ (Fin.last cfg6.N) ⊢ Pipeline.ΦA spec6 c :=
  Phi_out6 V c _ (by rw [Fin.val_last]; have : cfg6.N = 25 := N_6; omega)

end Cert.Kernel.Hand

end
-- ==== Proof.K.Reg7.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond7_0 (i : grid7.Coords) : Prop :=
  (Scalar.cmpi .ne (Scalar.extui (Scalar.cmpi .eq (BitVec.ofNat 32 (i 0).val) 0#32)) 0#32) = 1#1
/-- It holds at point 0 only. -/
theorem hcond7_0 : ∀ t : Fin cfg7.N, cond7_0 (grid7.coords t) ↔ t.val = 0 :=
  (by decide +kernel : ∀ t : Fin grid7.N, cond7_0 (grid7.coords t) ↔ t.val = 0)

/-- The body's second condition: the point is the grid's last. -/
abbrev cond7_1 (i : grid7.Coords) : Prop := k7_cond2 i = 1#1
/-- It holds at point 24 only. -/
theorem hcond7_1 : ∀ t : Fin cfg7.N, cond7_1 (grid7.coords t) ↔ t.val = 24 :=
  (by decide +kernel : ∀ t : Fin grid7.N, cond7_1 (grid7.coords t) ↔ t.val = 24)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
theorem liveAt7_5 : ∀ t : Fin cfg7.N, cfg7.idle 5 (grid7.coords t) = false := by decide +kernel
theorem liveAt7_6 : ∀ t : Fin cfg7.N, cfg7.idle 6 (grid7.coords t) = false := by decide +kernel
/-- At the first point the statistics window is idle, and its block is not written back there. -/
theorem idleAt7_7_A : ∀ t : Fin cfg7.N, cond7_0 (grid7.coords t) → ¬cond7_1 (grid7.coords t) → cfg7.idle 7 (grid7.coords t) = true := by decide +kernel
theorem noFlush7_7_A : ∀ t : Fin cfg7.N, cond7_0 (grid7.coords t) → ¬cond7_1 (grid7.coords t) → (cfg7.win 7).flush t = false := by decide +kernel
/-- At the points between, the same. -/
theorem idleAt7_7_B : ∀ t : Fin cfg7.N, ¬cond7_0 (grid7.coords t) → ¬cond7_1 (grid7.coords t) → cfg7.idle 7 (grid7.coords t) = true := by decide +kernel
theorem noFlush7_7_B : ∀ t : Fin cfg7.N, ¬cond7_0 (grid7.coords t) → ¬cond7_1 (grid7.coords t) → (cfg7.win 7).flush t = false := by decide +kernel
/-- At the last point the statistics window is live. -/
theorem liveAt7_7_C : ∀ t : Fin cfg7.N, ¬cond7_0 (grid7.coords t) → cond7_1 (grid7.coords t) → cfg7.idle 7 (grid7.coords t) = false := by decide +kernel

/-! ## The staging memrefs, the accumulator, and the views the results are stated through -/

abbrev ms7_0 (t : Fin cfg7.N) : Memref sig .tc .vmem S2000x512 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x512 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x512 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x512 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x512 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S512x128 .bf16 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S2000x128 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S1x256 .f32 := win7_7.stage (cfg7.slots t 7)
abbrev hs7_7 (t : Fin cfg7.N) : (ms7_7 t).IsWhole := hstage7_7 ((cfg7.slots t 7).cast nbuf7_7)
/-- The accumulator: a whole scoped buffer of the kernel's own, carried from point to point. -/
abbrev scM7_0 : Memref sig .tc .vmem S1x256 .f32 := Memref.whole cc7_scratch0
abbrev VS7_0 : View sig .tc .vmem S1x256 .f32 := scM7_0.view
/-- One staging buffer of each output window, through which its contents are stated (the choice does not matter). -/
abbrev VO7_6 : View sig .tc .vmem S2000x128 .f32 := (Memref.whole cc7_stg6_0 : Memref sig .tc .vmem S2000x128 .f32).view
abbrev VO7_7 : View sig .tc .vmem S1x256 .f32 := (Memref.whole cc7_stg7_0 : Memref sig .tc .vmem S1x256 .f32).view

/-- The class's invariant with the accumulator opened as a memref owned at some contents; every other scoped buffer
    stays closed. -/
theorem PhiA7_eq (c : Dev nD) :
    (Pipeline.ΦA spec7 c : sProp 𝕄)
      = iprop(iprop((∃ d, owns (c : Thread nD τ) scM7_0 fullShare d)
          ∗ Pipeline.scopedRestBut (Ix := Unit) (Name := ℕ) (U := Pipeline.UD sig nD τ) (Lvl := ℕ) (Val := Elt F) spec7 c [cc7_scratch0])
          ∗ (∃ r, prngReg c r)) := by
  unfold Pipeline.ΦA; rw [scopedRest7_split]; simp only [scM7_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun7_A (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : cond7_0 i) (hc1 : ¬cond7_1 i)
    (x0 : Vec F S2000x512 .f32) (x1 : Vec F S1x512 .f32) (x2 : Vec F S1x512 .f32) (x3 : Vec F S1x512 .f32) (x4 : Vec F S1x512 .f32) (x5 : Vec F S512x128 .bf16) :
    Σ' (L6 : List (View.Piece (Elt F) S2000x128 .f32)) (L7 : List (View.Piece (Elt F) S1x256 .f32)), { LS0 : List (View.Piece (Elt F) S1x256 .f32) //
      ∀ (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc7__stage2_kernel_eq_skeleton]; unfold cc7__stage2_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun7_B (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : ¬cond7_1 i)
    (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32) :
    Σ' (L6 : List (View.Piece (Elt F) S2000x128 .f32)) (L7 : List (View.Piece (Elt F) S1x256 .f32)), { LS0 : List (View.Piece (Elt F) S1x256 .f32) //
      ∀ (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc7__stage2_kernel_eq_skeleton]; unfold cc7__stage2_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun7_C (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : cond7_1 i)
    (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32) :
    Σ' (L6 : List (View.Piece (Elt F) S2000x128 .f32)) (L7 : List (View.Piece (Elt F) S1x256 .f32)), { LS0 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc7__stage2_kernel_eq_skeleton]; unfold cc7__stage2_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : cond7_0 i) (hc1 : ¬cond7_1 i)
  (x0 : Vec F S2000x512 .f32) (x1 : Vec F S1x512 .f32) (x2 : Vec F S1x512 .f32) (x3 : Vec F S1x512 .f32) (x4 : Vec F S1x512 .f32) (x5 : Vec F S512x128 .bf16)

/-- At the first point the one store into the product window covers its block. -/
theorem cover7_A_6 (y : S2000x128.Idx) :
    ∃ pc ∈ (kernelRun7_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3 x4 x5).1 S2000x128.size (by sl_kernel_rfl) y

/-- What the first point leaves in the product window: its pieces read back. -/
def out7_A_6 : Vec F S2000x128 .f32 :=
  VO7_6.read (Elt F) (VO7_6.writes (Elt F) VO7_6.junk (kernelRun7_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out7_A_7 : Vec F S1x256 .f32 :=
  VO7_7.read (Elt F) (VO7_7.writes (Elt F) VO7_7.junk (kernelRun7_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover7_A_0 (y : S1x256.Idx) :
    ∃ pc ∈ (kernelRun7_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3 x4 x5).2.2.1 S1x256.size (by sl_kernel_rfl) y

/-- What the first point leaves in the accumulator. -/
def sout7_A_0 : Vec F S1x256 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : ¬cond7_1 i)
  (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32)

/-- At a point between the one store into the product window covers its block. -/
theorem cover7_B_6 (y : S2000x128.Idx) :
    ∃ pc ∈ (kernelRun7_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

def out7_B_6 : Vec F S2000x128 .f32 :=
  VO7_6.read (Elt F) (VO7_6.writes (Elt F) VO7_6.junk (kernelRun7_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out7_B_7 : Vec F S1x256 .f32 :=
  VO7_7.read (Elt F) (VO7_7.writes (Elt F) VO7_7.junk (kernelRun7_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover7_B_0 (y : S1x256.Idx) :
    ∃ pc ∈ (kernelRun7_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

def sout7_B_0 : Vec F S1x256 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : cond7_1 i)
  (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32)

/-- At the last point the one store into the product window covers its block. -/
theorem cover7_C_6 (y : S2000x128.Idx) :
    ∃ pc ∈ (kernelRun7_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

def out7_C_6 : Vec F S2000x128 .f32 :=
  VO7_6.read (Elt F) (VO7_6.writes (Elt F) VO7_6.junk (kernelRun7_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover7_C_7 (y : S1x256.Idx) :
    ∃ pc ∈ (kernelRun7_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 x4 x5 xs0).2.1 S1x256.size (by sl_kernel_rfl) y

/-- What the last point leaves in the statistics window. -/
def out7_C_7 : Vec F S1x256 .f32 :=
  VO7_7.read (Elt F) (VO7_7.writes (Elt F) VO7_7.junk (kernelRun7_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover7_C_0 (y : S1x256.Idx) :
    ∃ pc ∈ (kernelRun7_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

def sout7_C_0 : Vec F S1x256 .f32 :=
  VS7_0.read (Elt F) (VS7_0.writes (Elt F) VS7_0.junk (kernelRun7_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The inputs' buffers hold their blocks at every point

An input window is never idle and the body leaves its block in place; so its current buffer holds what a fetch at the
point puts there whether or not one happened: where none did, the block index has not moved (the five row and weight
windows are fetched once, at the first point). -/

theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (Pipeline.UD sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (Pipeline.UD sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## What the outputs and the accumulator hold after each point -/

/-- The first point is not the last, -/
theorem notLast7_of_first (t : Fin cfg7.N) (h0 : t.val = 0) : ¬cond7_1 (grid7.coords t) :=
  fun h => by have := (hcond7_1 t).mp h; omega

/-- The first point's results at the point's own memrefs and input blocks: the product block, the statistics
    placeholder, the accumulator. -/
def outsPt7_A (c : Dev nD) (t : Fin cfg7.N) (h0 : t.val = 0) : Vec F S2000x128 .f32 × Vec F S1x256 .f32 × Vec F S1x256 .f32 :=
  (out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (notLast7_of_first t h0) (iblk7 V c 0 t) (iblk7 V c 1 t) (iblk7 V c 2 t) (iblk7 V c 3 t) (iblk7 V c 4 t) (iblk7 V c 5 t),
   out7_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (notLast7_of_first t h0) (iblk7 V c 0 t) (iblk7 V c 1 t) (iblk7 V c 2 t) (iblk7 V c 3 t) (iblk7 V c 4 t) (iblk7 V c 5 t),
   sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (notLast7_of_first t h0) (iblk7 V c 0 t) (iblk7 V c 1 t) (iblk7 V c 2 t) (iblk7 V c 3 t) (iblk7 V c 4 t) (iblk7 V c 5 t))

/-- A point between, over the accumulator xs0 the point before left. -/
def outsPt7_B (c : Dev nD) (t : Fin cfg7.N) (h0 : ¬t.val = 0) (h1 : ¬t.val = 24) (xs0 : Vec F S1x256 .f32) : Vec F S2000x128 .f32 × Vec F S1x256 .f32 × Vec F S1x256 .f32 :=
  (out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) xs0,
   out7_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) xs0,
   sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) xs0)

/-- The last point, over the accumulator xs0 the point before left. -/
def outsPt7_C (c : Dev nD) (t : Fin cfg7.N) (h0 : ¬t.val = 0) (h1 : t.val = 24) (xs0 : Vec F S1x256 .f32) : Vec F S2000x128 .f32 × Vec F S1x256 .f32 × Vec F S1x256 .f32 :=
  (out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (iblk7 V c 5 t) xs0,
   out7_C_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (iblk7 V c 5 t) xs0,
   sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (iblk7 V c 5 t) xs0)

/-- THE ACCUMULATION. What the product window, the statistics window and the accumulator hold after the body at
    position n: the case the position selects, run at the point's memrefs and input blocks, the accumulator it reads
    at what position n - 1 left. -/
def outsAt7 (c : Dev nD) : (n : ℕ) → n < cfg7.N → Vec F S2000x128 .f32 × Vec F S1x256 .f32 × Vec F S1x256 .f32
  | 0, hn => outsPt7_A V c ⟨0, hn⟩ rfl
  | n + 1, hn =>
    if h1 : n + 1 = 24 then
      outsPt7_C V c ⟨n + 1, hn⟩ (Nat.succ_ne_zero n) h1 (outsAt7 c n (Nat.lt_of_succ_lt hn)).2.2
    else
      outsPt7_B V c ⟨n + 1, hn⟩ (Nat.succ_ne_zero n) h1 (outsAt7 c n (Nat.lt_of_succ_lt hn)).2.2

/-- outsAt7 at the first point. -/
theorem outsAt7_A (c : Dev nD) (t : Fin cfg7.N) (h0 : t.val = 0) :
    outsAt7 V c t.val t.isLt = outsPt7_A V c t h0 := by
  obtain ⟨n, hn⟩ := t
  cases n with
  | zero => exact rfl
  | succ n => exact absurd h0 (Nat.succ_ne_zero n)

/-- outsAt7 at a point between: over what the point before left in the accumulator. -/
theorem outsAt7_B (c : Dev nD) (t : Fin cfg7.N) (h0 : ¬t.val = 0) (h1 : ¬t.val = 24) :
    outsAt7 V c t.val t.isLt = outsPt7_B V c t h0 h1 (outsAt7 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt7 at the last point: over what the point before left in the accumulator. -/
theorem outsAt7_C (c : Dev nD) (t : Fin cfg7.N) (h0 : ¬t.val = 0) (h1 : t.val = 24) :
    outsAt7 V c t.val t.isLt = outsPt7_C V c t h0 h1 (outsAt7 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2.2)
      ∗ Pipeline.scopedRestBut (Ix := Unit) (Name := ℕ) (U := Pipeline.UD sig nD τ) (Lvl := ℕ) (Val := Elt F) spec7 c [cc7_scratch0])
      ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2.2)
      ∗ Pipeline.scopedRestBut (Ix := Unit) (Name := ℕ) (U := Pipeline.UD sig nD τ) (Lvl := ℕ) (Val := Elt F) spec7 c [cc7_scratch0])
      ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2.2)
      ∗ Pipeline.scopedRestBut (Ix := Unit) (Name := ℕ) (U := Pipeline.UD sig nD τ) (Lvl := ℕ) (Val := Elt F) spec7 c [cc7_scratch0])
      ∗ (∃ r, prngReg c r)) := by
  cases n with
  | zero => exact absurd rfl hz
  | succ n => rfl

/-! ## The proof data -/

/-- The arrays as the region finds them; after the body at point t each input's buffer at its block, the product
    window's at the first component of outsAt7, the statistics window's at the second; the invariant PhiS7; nothing
    owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => (outsAt7 V c t.val t.isLt).1
    | ⟨7, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = (outsAt7 V c t.val t.isLt).1 := by dsimp only [dat7]
theorem after7_7 (c : Dev nD) (t : Fin cfg7.N) : (dat7 V c).after 7 t = (outsAt7 V c t.val t.isLt).2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point t: the invariant, what the core owes, and each window's current buffer at
    what it then holds, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).owesAt () t.succ = (dat7 V c).owesAt () t.castSucc from rfl]
  rw [show (dat7 V c).Φ t.succ = PhiS7 V c (t.val + 1) t.isLt from rfl, PhiS7_succ]
  have hN : t.val < 25 := lt_of_lt_of_eq t.isLt (show cfg7.N = 25 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [show (dat7 V c).leavesExact 5 t = owns (c : Thread nD τ) (ms7_5 t) fullShare ((dat7 V c).after 5 t) from by
    unfold Dat.leavesExact; rw [liveAt7_5 t], after7_5]
  rw [show (dat7 V c).leavesExact 6 t = owns (c : Thread nD τ) (ms7_6 t) fullShare ((dat7 V c).after 6 t) from by
    unfold Dat.leavesExact; rw [liveAt7_6 t], after7_6]
  by_cases h0 : t.val = 0
  · -- the first point
    have hc0 : cond7_0 (grid7.coords t) := (hcond7_0 t).mpr h0
    have hc1 : ¬cond7_1 (grid7.coords t) := notLast7_of_first t h0
    rw [Dat.leavesExact_idle (dat7 V c) 7 t (idleAt7_7_A t hc0 hc1) (noFlush7_7_A t hc0 hc1)]
    rw [outsAt7_A V c t h0]
    unfold outsPt7_A out7_A_6 sout7_A_0; (try dsimp only)
    rw [PhiS7_castSucc V c t, PhiS7_zero V c _ _ h0, PhiA7_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_A c (grid7.coords t) _ _ _ _ _ _ _ _ _ _ _ _ _ _ _ _ _ _ hc0 hc1 (iblk7 V c 0 t) (iblk7 V c 1 t) (iblk7 V c 2 t) (iblk7 V c 3 t) (iblk7 V c 4 t) (iblk7 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover7_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover7_A_6 c _ _ _ _ _ _ _ _ _ _ _ _ _ _ _ _ _ _ _ _ _ _ _ _ _ _ _)
    iexists _; iexact H7
  · by_cases h1 : t.val = 24
    · -- the last point
      have hc0 : ¬cond7_0 (grid7.coords t) := fun h => h0 ((hcond7_0 t).mp h)
      have hc1 : cond7_1 (grid7.coords t) := (hcond7_1 t).mpr h1
      rw [show (dat7 V c).leavesExact 7 t = owns (c : Thread nD τ) (ms7_7 t) fullShare ((dat7 V c).after 7 t) from by
        unfold Dat.leavesExact; rw [liveAt7_7_C t hc0 hc1], after7_7]
      rw [outsAt7_C V c t h0 h1]
      unfold outsPt7_C out7_C_6 out7_C_7 sout7_C_0; (try dsimp only)
      rw [PhiS7_castSucc V c t, PhiS7_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun7_C c (grid7.coords t) _ _ _ _ _ _ _ _ _ _ _ _ _ _ _ _ _ _ hc0 hc1 (iblk7 V c 0 t) (iblk7 V c 1 t) (iblk7 V c 2 t) (iblk7 V c 3 t) (iblk7 V c 4 t) (iblk7 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover7_C_6 c _ _ _ _ _ _ _ _ _ _ _ _ _ _ _ _ _ _ _ _ _ _ _ _ _ _ _ _)
      unfold owns; iexists _; isplitr
      swap; · iexact H7
      ipureintro; exact View.read_writes_of_cover _ _ _ _ _ (cover7_C_7 c _ _ _ _ _ _ _ _ _ _ _ _ _ _ _ _ _ _ _ _ _ _ _ _ _ _ _ _)
    · -- a point between
      have hc0 : ¬cond7_0 (grid7.coords t) := fun h => h0 ((hcond7_0 t).mp h)
      have hc1 : ¬cond7_1 (grid7.coords t) := fun h => h1 ((hcond7_1 t).mp h)
      rw [Dat.leavesExact_idle (dat7 V c) 7 t (idleAt7_7_B t hc0 hc1) (noFlush7_7_B t hc0 hc1)]
      rw [outsAt7_B V c t h0 h1]
      unfold outsPt7_B out7_B_6 sout7_B_0; (try dsimp only)
      rw [PhiS7_castSucc V c t, PhiS7_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun7_B c (grid7.coords t) _ _ _ _ _ _ _ _ _ _ _ _ _ _ _ _ _ _ hc0 hc1 (iblk7 V c 0 t) (iblk7 V c 1 t) (iblk7 V c 2 t) (iblk7 V c 3 t) (iblk7 V c 4 t) (iblk7 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover7_B_6 c _ _ _ _ _ _ _ _ _ _ _ _ _ _ _ _ _ _ _ _ _ _ _ _ _ _ _ _)
      iexists _; iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point the invariant gives the launch's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 25 := N_7; omega)

end Region

end Cert.Kernel.Hand

end
-- ==== Proof.K.Reg8.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## What the body leaves in the output block -/

/-- The whole block of rows, as a rectangle of itself. -/
abbrev rB8 : Rect S2000x128 := Rect.unit (s := S2000x128) ![0, 0] S2000x128.size inb_S2000x128_S2000x128_0_0
/-- The whole single row, as a rectangle of itself. -/
abbrev rR8 : Rect S1x128 := Rect.unit (s := S1x128) ![0, 0] S1x128.size inb_S1x128_S1x128_0_0

/-- The output block after the body, from the five input blocks: the body's one store, of the
    payload of the five whole loads, laid over the block.  (The payload takes the row operands in
    the order the body loads them: the fourth, the second, the third, the fifth.) -/
def out8_5 (x0 : Vec F S2000x128 .f32) (x1 x2 x3 x4 : Vec F S1x128 .f32) : Vec F S2000x128 .f32 :=
  View.canon [⟨rB8, k8_pay1 (View.ld x0 rB8) (View.ld x3 rR8) (View.ld x1 rR8) (View.ld x2 rR8) (View.ld x4 rR8)⟩]

/-- One store of the whole block covers it. -/
theorem cover8_5 (p : Vec F S2000x128 .f32) (y : S2000x128.Idx) :
    ∃ pc ∈ ([⟨rB8, p⟩] : List (View.Piece (Elt F) S2000x128 .f32)), y ∈ pc.1.set :=
  View.cover_of_tiled [⟨rB8, p⟩] S2000x128.size (by rfl) y

/-! ## The body's triple -/

set_option maxHeartbeats 1000000 in
/-- The kernel body on whole staging memrefs: holding the five inputs' at contents reading `x0 … x4`
    and the output's at anything, it runs to a state holding the inputs' as they were and the
    output's at `out8_5` of them.  The body is its skeleton of memory operations over the named
    payload; the executor steps through the six loads and the store. -/
theorem sound_kernel8 (c : Dev nD) (E : Set ℕ) (i : grid8.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__stage3_kernel i arg1 harg1 arg2 harg2 arg3 harg3 arg4 harg4 arg5 harg5 arg6 harg6) K := by
  simp only [cc8__stage3_kernel_eq_skeleton]; unfold cc8__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The proof data -/

/-- The proof data of the pipeline on core `c`: the arrays as the region finds them; after the
    body at point `t` each input's buffer at its block and the output's at `out8_5` of the input
    blocks; the class's invariant; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t
    = out8_5 (iblk8 V c 0 t) (iblk8 V c 1 t) (iblk8 V c 2 t) (iblk8 V c 3 t) (iblk8 V c 4 t) := by dsimp only [dat8]

/-! ## What the body finds in the input windows' buffers

An input window's current staging buffer holds its block at every point, whether the pipeline
fetched it there or not: a window not fetched at a point has the block index of the point before,
and the body left that point's block in place.  (The four row operands are fetched at the first
point only; the first operand at every point.) -/

theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0 V c t]; unfold Dat.blockOf iblk8; rw [A_eq8 V c 0]; try rfl) t d).trans
    (by unfold Dat.fetched Dat.blockOf iblk8; rw [A_eq8 V c 0]; try rfl)
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1 V c t]; unfold Dat.blockOf iblk8; rw [A_eq8 V c 1]; try rfl) t d).trans
    (by unfold Dat.fetched Dat.blockOf iblk8; rw [A_eq8 V c 1]; try rfl)
theorem before8_2 (c : Dev nD) (t : Fin cfg8.N) (d) : (dat8 V c).before 2 t d = iblk8 V c 2 t :=
  ((dat8 V c).before_in_eq_fetched 2 rfl (fun _ => rfl) (fun _ _ _ => rfl)
      (fun t => by rw [after8_2 V c t]; unfold Dat.blockOf iblk8; rw [A_eq8 V c 2]; try rfl) t d).trans
    (by unfold Dat.fetched Dat.blockOf iblk8; rw [A_eq8 V c 2]; try rfl)
theorem before8_3 (c : Dev nD) (t : Fin cfg8.N) (d) : (dat8 V c).before 3 t d = iblk8 V c 3 t :=
  ((dat8 V c).before_in_eq_fetched 3 rfl (fun _ => rfl) (fun _ _ _ => rfl)
      (fun t => by rw [after8_3 V c t]; unfold Dat.blockOf iblk8; rw [A_eq8 V c 3]; try rfl) t d).trans
    (by unfold Dat.fetched Dat.blockOf iblk8; rw [A_eq8 V c 3]; try rfl)
theorem before8_4 (c : Dev nD) (t : Fin cfg8.N) (d) : (dat8 V c).before 4 t d = iblk8 V c 4 t :=
  ((dat8 V c).before_in_eq_fetched 4 rfl (fun _ => rfl) (fun _ _ _ => rfl)
      (fun t => by rw [after8_4 V c t]; unfold Dat.blockOf iblk8; rw [A_eq8 V c 4]; try rfl) t d).trans
    (by unfold Dat.fetched Dat.blockOf iblk8; rw [A_eq8 V c 4]; try rfl)

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the body's triple applies; the
    invariant and what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the two ends -/

/-- The proof data's invariant is the class's at every point: the region's entry hands it over as it is, -/
theorem hin8 (c : Dev nD) : Pipeline.ΦA spec8 c ⊢ (dat8 V c).Φ 0 := by
  dsimp only [dat8]; exact .rfl

/-- and takes it back as it is. -/
theorem hout8 (c : Dev nD) : (dat8 V c).Φ (Fin.last cfg8.N) ⊢ Pipeline.ΦA spec8 c := by
  dsimp only [dat8]; exact .rfl

end Cert.Kernel.Hand

end
-- ==== Proof.K.Reg9.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt9`), the scratch row's component feeding the next point's run. Everything
is stated at an arbitrary float family and at a parameter `V`: the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not (unfetched, the
    block index has not moved), for any proof data whose array is `V`'s and whose body leaves the block in place. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's two branch conditions, over the grid -/

/-- The zeroing branch's condition, from the grid coordinate: the coordinate is 0. -/
abbrev cond9_0 (i : grid9.Coords) : Prop := (Scalar.cmpi .ne (Scalar.extui (Scalar.cmpi .eq (BitVec.ofNat 32 (i 0).val) 0#32)) 0#32) = 1#1
/-- It holds at the first point only. -/
theorem hcond9_0 : ∀ t : Fin cfg9.N, cond9_0 (grid9.coords t) ↔ t.val = 0 :=
  (by decide +kernel : ∀ t : Fin grid9.N, cond9_0 (grid9.coords t) ↔ t.val = 0)

/-- The copying branch's condition: the coordinate is the last. -/
abbrev cond9_1 (i : grid9.Coords) : Prop := k9_cond2 i = 1#1
/-- It holds at the last point only. -/
theorem hcond9_1 : ∀ t : Fin cfg9.N, cond9_1 (grid9.coords t) ↔ t.val = 24 :=
  (by decide +kernel : ∀ t : Fin grid9.N, cond9_1 (grid9.coords t) ↔ t.val = 24)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
/-- Away from the last point the statistics window is idle (the body stores nothing into it) and not written back. -/
theorem idleAt9_4 : ∀ t : Fin cfg9.N, ¬cond9_1 (grid9.coords t) → cfg9.idle 4 (grid9.coords t) = true := by decide +kernel
theorem noFlush9_4 : ∀ t : Fin cfg9.N, ¬cond9_1 (grid9.coords t) → (cfg9.win 4).flush t = false := by decide +kernel
/-- At the last point it is live. -/
theorem liveAt9_4 : ∀ t : Fin cfg9.N, cond9_1 (grid9.coords t) → cfg9.idle 4 (grid9.coords t) = false := by decide +kernel

/-! ## The staging memrefs the body is called with, and the scratch row -/

/-- One staging buffer of each output window, through which its contents are stated (the choice does not matter). -/
abbrev VO9_3 : View sig .tc .vmem S2000x512 .f32 := (Memref.whole cc9_stg3_0 : Memref sig .tc .vmem S2000x512 .f32).view
abbrev VO9_4 : View sig .tc .vmem S1x1024 .f32 := (Memref.whole cc9_stg4_0 : Memref sig .tc .vmem S1x1024 .f32).view
/-- Each window's current staging memref at point `t`, spelled as the pipeline passes it, and its wholeness. -/
abbrev ms9_0 (t : Fin cfg9.N) : Memref sig .tc .vmem S2000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2000x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S128x512 .bf16 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S2000x512 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1x1024 .f32 := win9_4.stage (cfg9.slots t 4)
abbrev hs9_4 (t : Fin cfg9.N) : (ms9_4 t).IsWhole := hstage9_4 ((cfg9.slots t 4).cast nbuf9_4)
/-- The scratch row: a whole scoped buffer of the kernel's own, passed beside the windows. -/
abbrev scM9_0 : Memref sig .tc .vmem S1x1024 .f32 := Memref.whole cc9_scratch0
/-- The same as a view: what the row holds is stated through it. -/
abbrev VS9_0 : View sig .tc .vmem S1x1024 .f32 := scM9_0.view

/-- The other scoped buffers of the core (no staging buffer of this pipeline, not the scratch row), unopened. -/
abbrev restBut9 (c : Dev nD) : sProp 𝕄 :=
  Pipeline.scopedRestBut (Ix := Unit) (Name := ℕ) (U := Pipeline.UD sig nD τ) (Lvl := ℕ) (Val := Elt F) spec9 c [cc9_scratch0]

/-- The region's invariant with the scratch row as a memref owned at some contents. -/
theorem PhiA9_eq (c : Dev nD) :
    (Pipeline.ΦA spec9 c : sProp 𝕄)
      = iprop(iprop((∃ d, owns (c : Thread nD τ) scM9_0 fullShare d) ∗ restBut9 (F := F) c) ∗ (∃ r, prngReg c r)) := by
  unfold Pipeline.ΦA; rw [scopedRest9_split]; simp only [scM9_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun9_A (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i)
    (x0 : Vec F S2000x128 .f32) (x1 : Vec F S2000x128 .f32) (x2 : Vec F S128x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc9__stage1_kernel i arg1 harg1 arg2 harg2 arg3 harg3 arg4 harg4 arg5 harg5 arg6 harg6) K } := by
  refine ⟨?_, ?_, fun xi4 E K => ?run⟩
  case run =>
    simp only [cc9__stage1_kernel_eq_skeleton]; unfold cc9__stage1_kernel_skel
    simp only [k9_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun9_B (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i)
    (x0 : Vec F S2000x128 .f32) (x1 : Vec F S2000x128 .f32) (x2 : Vec F S128x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc9__stage1_kernel i arg1 harg1 arg2 harg2 arg3 harg3 arg4 harg4 arg5 harg5 arg6 harg6) K } := by
  refine ⟨?_, ?_, fun xi4 E K => ?run⟩
  case run =>
    simp only [cc9__stage1_kernel_eq_skeleton]; unfold cc9__stage1_kernel_skel
    simp only [k9_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun9_C (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc9__stage1_kernel i arg1 harg1 arg2 harg2 arg3 harg3 arg4 harg4 arg5 harg5 arg6 harg6) K } := by
  refine ⟨?_, ?_, ?_, fun E K => ?run⟩
  case run =>
    simp only [cc9__stage1_kernel_eq_skeleton]; unfold cc9__stage1_kernel_skel
    simp only [k9_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover9_A_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i)
    (x0 : Vec F S2000x128 .f32) (x1 : Vec F S2000x128 .f32) (x2 : Vec F S128x512 .bf16) (y : S2000x512.Idx) :
    ∃ pc ∈ (kernelRun9_A c i arg1 harg1 arg2 harg2 arg3 harg3 arg4 harg4 arg5 harg5 arg6 harg6 hc0 hc1 x0 x1 x2).1, y ∈ pc.1.set :=
  View.cover_of_tiledL (kernelRun9_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out9_A_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i)
    (x0 : Vec F S2000x128 .f32) (x1 : Vec F S2000x128 .f32) (x2 : Vec F S128x512 .bf16) : Vec F S2000x512 .f32 :=
  VO9_3.read (Elt F) (VO9_3.writes (Elt F) VO9_3.junk (kernelRun9_A c i arg1 harg1 arg2 harg2 arg3 harg3 arg4 harg4 arg5 harg5 arg6 harg6 hc0 hc1 x0 x1 x2).1)

/-- The first point's pieces for the scratch row cover it: the zeroing store is the whole row. -/
theorem scover9_A_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i)
    (x0 : Vec F S2000x128 .f32) (x1 : Vec F S2000x128 .f32) (x2 : Vec F S128x512 .bf16) (y : S1x1024.Idx) :
    ∃ pc ∈ (kernelRun9_A c i arg1 harg1 arg2 harg2 arg3 harg3 arg4 harg4 arg5 harg5 arg6 harg6 hc0 hc1 x0 x1 x2).2.1, y ∈ pc.1.set :=
  View.cover_of_tiledL (kernelRun9_A c i arg1 harg1 arg2 harg2 arg3 harg3 arg4 harg4 arg5 harg5 arg6 harg6 hc0 hc1 x0 x1 x2).2.1 S1x1024.size (by sl_kernel_rfl) y

/-- What the first point leaves in the scratch row. -/
def sout9_A_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i)
    (x0 : Vec F S2000x128 .f32) (x1 : Vec F S2000x128 .f32) (x2 : Vec F S128x512 .bf16) : Vec F S1x1024 .f32 :=
  VS9_0.read (Elt F) (VS9_0.writes (Elt F) VS9_0.junk (kernelRun9_A c i arg1 harg1 arg2 harg2 arg3 harg3 arg4 harg4 arg5 harg5 arg6 harg6 hc0 hc1 x0 x1 x2).2.1)

/-- A middle point's pieces for the output block tile it. -/
theorem cover9_B_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i)
    (x0 : Vec F S2000x128 .f32) (x1 : Vec F S2000x128 .f32) (x2 : Vec F S128x512 .bf16) (xs0 : Vec F S1x1024 .f32) (y : S2000x512.Idx) :
    ∃ pc ∈ (kernelRun9_B c i arg1 harg1 arg2 harg2 arg3 harg3 arg4 harg4 arg5 harg5 arg6 harg6 hc0 hc1 x0 x1 x2 xs0).1, y ∈ pc.1.set :=
  View.cover_of_tiledL (kernelRun9_B c i arg1 harg1 arg2 harg2 arg3 harg3 arg4 harg4 arg5 harg5 arg6 harg6 hc0 hc1 x0 x1 x2 xs0).1 S2000x512.size (by sl_kernel_rfl) y

/-- What a middle point leaves in the output block's staging buffer. -/
def out9_B_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i)
    (x0 : Vec F S2000x128 .f32) (x1 : Vec F S2000x128 .f32) (x2 : Vec F S128x512 .bf16) (xs0 : Vec F S1x1024 .f32) : Vec F S2000x512 .f32 :=
  VO9_3.read (Elt F) (VO9_3.writes (Elt F) VO9_3.junk (kernelRun9_B c i arg1 harg1 arg2 harg2 arg3 harg3 arg4 harg4 arg5 harg5 arg6 harg6 hc0 hc1 x0 x1 x2 xs0).1)

/-- A middle point's pieces for the scratch row tile it: the two half-row stores. -/
theorem scover9_B_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i)
    (x0 : Vec F S2000x128 .f32) (x1 : Vec F S2000x128 .f32) (x2 : Vec F S128x512 .bf16) (xs0 : Vec F S1x1024 .f32) (y : S1x1024.Idx) :
    ∃ pc ∈ (kernelRun9_B c i arg1 harg1 arg2 harg2 arg3 harg3 arg4 harg4 arg5 harg5 arg6 harg6 hc0 hc1 x0 x1 x2 xs0).2.1, y ∈ pc.1.set :=
  View.cover_of_tiledL (kernelRun9_B c i arg1 harg1 arg2 harg2 arg3 harg3 arg4 harg4 arg5 harg5 arg6 harg6 hc0 hc1 x0 x1 x2 xs0).2.1 S1x512.size (by sl_kernel_rfl) y

/-- What a middle point leaves in the scratch row. -/
def sout9_B_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i)
    (x0 : Vec F S2000x128 .f32) (x1 : Vec F S2000x128 .f32) (x2 : Vec F S128x512 .bf16) (xs0 : Vec F S1x1024 .f32) : Vec F S1x1024 .f32 :=
  VS9_0.read (Elt F) (VS9_0.writes (Elt F) VS9_0.junk (kernelRun9_B c i arg1 harg1 arg2 harg2 arg3 harg3 arg4 harg4 arg5 harg5 arg6 harg6 hc0 hc1 x0 x1 x2 xs0).2.1)

/-- The last point's pieces for the output block tile it. -/
theorem cover9_C_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) (y : S2000x512.Idx) :
    ∃ pc ∈ (kernelRun9_C c i arg1 harg1 arg2 harg2 arg3 harg3 arg4 harg4 arg5 harg5 arg6 harg6 hc0 hc1 x0 x1 x2 xs0).1, y ∈ pc.1.set :=
  View.cover_of_tiledL (kernelRun9_C c i arg1 harg1 arg2 harg2 arg3 harg3 arg4 harg4 arg5 harg5 arg6 harg6 hc0 hc1 x0 x1 x2 xs0).1 S2000x512.size (by sl_kernel_rfl) y

/-- What the last point leaves in the output block's staging buffer. -/
def out9_C_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) : Vec F S2000x512 .f32 :=
  VO9_3.read (Elt F) (VO9_3.writes (Elt F) VO9_3.junk (kernelRun9_C c i arg1 harg1 arg2 harg2 arg3 harg3 arg4 harg4 arg5 harg5 arg6 harg6 hc0 hc1 x0 x1 x2 xs0).1)

/-- The last point's pieces for the statistics block tile it: the copy of the whole scratch row. -/
theorem cover9_C_4 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) (y : S1x1024.Idx) :
    ∃ pc ∈ (kernelRun9_C c i arg1 harg1 arg2 harg2 arg3 harg3 arg4 harg4 arg5 harg5 arg6 harg6 hc0 hc1 x0 x1 x2 xs0).2.1, y ∈ pc.1.set :=
  View.cover_of_tiledL (kernelRun9_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out9_C_4 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) : Vec F S1x1024 .f32 :=
  VO9_4.read (Elt F) (VO9_4.writes (Elt F) VO9_4.junk (kernelRun9_C c i arg1 harg1 arg2 harg2 arg3 harg3 arg4 harg4 arg5 harg5 arg6 harg6 hc0 hc1 x0 x1 x2 xs0).2.1)

/-- The last point's pieces for the scratch row tile it: the two half-row stores. -/
theorem scover9_C_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) (y : S1x1024.Idx) :
    ∃ pc ∈ (kernelRun9_C c i arg1 harg1 arg2 harg2 arg3 harg3 arg4 harg4 arg5 harg5 arg6 harg6 hc0 hc1 x0 x1 x2 xs0).2.2.1, y ∈ pc.1.set :=
  View.cover_of_tiledL (kernelRun9_C c i arg1 harg1 arg2 harg2 arg3 harg3 arg4 harg4 arg5 harg5 arg6 harg6 hc0 hc1 x0 x1 x2 xs0).2.2.1 S1x512.size (by sl_kernel_rfl) y

/-- What the last point leaves in the scratch row. -/
def sout9_C_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) : Vec F S1x1024 .f32 :=
  VS9_0.read (Elt F) (VS9_0.writes (Elt F) VS9_0.junk (kernelRun9_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut9_4 : Vec F S1x1024 .f32 := VO9_4.read (Elt F) VO9_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt9 (c : Dev nD) : (n : ℕ) → n < cfg9.N → Vec F S2000x512 .f32 × Vec F S1x1024 .f32 × Vec F S1x1024 .f32
  | 0, hn => (out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) scM9_0 (Memref.isWhole_whole _) ((hcond9_0 ⟨0, hn⟩).mpr rfl) (fun h => (fun h => by (try dsimp only at h); omega) ((hcond9_1 ⟨0, hn⟩).mp h)) (iblk9 V c 0 ⟨0, hn⟩) (iblk9 V c 1 ⟨0, hn⟩) (iblk9 V c 2 ⟨0, hn⟩), idleOut9_4, sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) scM9_0 (Memref.isWhole_whole _) ((hcond9_0 ⟨0, hn⟩).mpr rfl) (fun h => (fun h => by (try dsimp only at h); omega) ((hcond9_1 ⟨0, hn⟩).mp h)) (iblk9 V c 0 ⟨0, hn⟩) (iblk9 V c 1 ⟨0, hn⟩) (iblk9 V c 2 ⟨0, hn⟩))
  | n + 1, hn =>
    if h1 : n + 1 = 24 then
      (out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => absurd ((hcond9_0 ⟨n + 1, hn⟩).mp h) (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2, out9_C_4 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => absurd ((hcond9_0 ⟨n + 1, hn⟩).mp h) (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => absurd ((hcond9_0 ⟨n + 1, hn⟩).mp h) (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2)
    else
      (out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => absurd ((hcond9_0 ⟨n + 1, hn⟩).mp h) (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2, idleOut9_4, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => absurd ((hcond9_0 ⟨n + 1, hn⟩).mp h) (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2)

/-- `outsAt9` at the first point. -/
theorem outsAt9_A (c : Dev nD) (t : Fin cfg9.N) (h0 : t.val = 0) (h1 : ¬t.val = 24) :
    outsAt9 V c t.val t.isLt = (out9_A_3 c (grid9.coords t) (ms9_0 t) (hs9_0 t) (ms9_1 t) (hs9_1 t) (ms9_2 t) (hs9_2 t) (ms9_3 t) (hs9_3 t) (ms9_4 t) (hs9_4 t) scM9_0 (Memref.isWhole_whole _) ((hcond9_0 t).mpr h0) (fun h => h1 ((hcond9_1 t).mp h)) (iblk9 V c 0 t) (iblk9 V c 1 t) (iblk9 V c 2 t), idleOut9_4, sout9_A_0 c (grid9.coords t) (ms9_0 t) (hs9_0 t) (ms9_1 t) (hs9_1 t) (ms9_2 t) (hs9_2 t) (ms9_3 t) (hs9_3 t) (ms9_4 t) (hs9_4 t) scM9_0 (Memref.isWhole_whole _) ((hcond9_0 t).mpr h0) (fun h => h1 ((hcond9_1 t).mp h)) (iblk9 V c 0 t) (iblk9 V c 1 t) (iblk9 V c 2 t)) := by
  obtain ⟨n, hn⟩ := t
  cases n with
  | zero => exact rfl
  | succ n => exact absurd h0 (Nat.succ_ne_zero n)

/-- `outsAt9` at a middle point: that case's contents, over the scratch row the point before left. -/
theorem outsAt9_B (c : Dev nD) (t : Fin cfg9.N) (h0 : ¬t.val = 0) (h1 : ¬t.val = 24) :
    outsAt9 V c t.val t.isLt = (out9_B_3 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2.2, idleOut9_4, sout9_B_0 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt9` at the last point. -/
theorem outsAt9_C (c : Dev nD) (t : Fin cfg9.N) (h0 : ¬t.val = 0) (h1 : t.val = 24) :
    outsAt9 V c t.val t.isLt = (out9_C_3 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2, out9_C_4 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2, sout9_C_0 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2.2) ∗ restBut9 (F := F) c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9_0 fullShare ((outsAt9 V c n hn).2.2) ∗ restBut9 (F := F) c) ∗ (∃ r, prngReg c r)) := rfl

theorem PhiS9_pos (c : Dev nD) (n : ℕ) (h : n ≤ cfg9.N) (hz : n ≠ 0) :
    PhiS9 V c n h = iprop(iprop(owns (c : Thread nD τ) scM9_0 fullShare ((outsAt9 V c (n - 1) (by omega)).2.2) ∗ restBut9 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt9`'s components; the invariant `PhiS9`; nothing owed; full
    shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
    | ⟨4, _⟩ => (outsAt9 V c t.val t.isLt).2.1
  Φ t := PhiS9 V c t.val (Nat.le_of_lt_succ t.isLt)
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant at a point's start, restated at `t.val`. -/
theorem PhiS9_castSucc (c : Dev nD) (t : Fin cfg9.N) :
    (dat9 V c).Φ t.castSucc = PhiS9 V c t.val (Nat.le_of_lt t.isLt) := by
  dsimp only [dat9]; simp only [Fin.coe_castSucc]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]
theorem after9_4 (c : Dev nD) (t : Fin cfg9.N) : (dat9 V c).after 4 t = (outsAt9 V c t.val t.isLt).2.1 := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  have hN : t.val < 25 := lt_of_lt_of_eq t.isLt (show cfg9.N = 25 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  rw [show (dat9 V c).leavesExact 3 t = owns (c : Thread nD τ) (ms9_3 t) fullShare ((dat9 V c).after 3 t) from by
    unfold Dat.leavesExact; rw [liveAt9_3 t], after9_3]
  by_cases h0 : t.val = 0
  · have h1 : ¬t.val = 24 := by omega
    rw [Dat.leavesExact_idle (dat9 V c) 4 t (idleAt9_4 t (fun h => h1 ((hcond9_1 t).mp h))) (noFlush9_4 t (fun h => h1 ((hcond9_1 t).mp h)))]
    rw [outsAt9_A V c t h0 h1]
    unfold out9_A_3 sout9_A_0; (try dsimp only)
    rw [PhiS9_castSucc V c t, PhiS9_zero V c _ _ h0, PhiA9_eq]
    iintro ⟨⟨⟨HS0, HR⟩, Hg⟩, Ho, ⟨%d0, H0⟩, ⟨%d1, H1⟩, ⟨%d2, H2⟩, ⟨%d3, H3⟩, ⟨%d4, H4⟩⟩
    iapply ((kernelRun9_A c (grid9.coords t) _ _ _ _ _ _ _ _ _ _ _ _ ((hcond9_0 t).mpr h0) (fun h => h1 ((hcond9_1 t).mp h)) (iblk9 V c 0 t) (iblk9 V c 1 t) (iblk9 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover9_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover9_A_3 c _ _ _ _ _ _ _ _ _ _ _ _ _ _ _ _ _ _)
    iexists _; iexact H4
  · by_cases h1 : t.val = 24
    · rw [show (dat9 V c).leavesExact 4 t = owns (c : Thread nD τ) (ms9_4 t) fullShare ((dat9 V c).after 4 t) from by
        unfold Dat.leavesExact; rw [liveAt9_4 t ((hcond9_1 t).mpr h1)], after9_4]
      rw [outsAt9_C V c t h0 h1]
      unfold out9_C_3 out9_C_4 sout9_C_0; (try dsimp only)
      rw [PhiS9_castSucc V c t, PhiS9_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun9_C c (grid9.coords t) _ _ _ _ _ _ _ _ _ _ _ _ (fun h => h0 ((hcond9_0 t).mp h)) ((hcond9_1 t).mpr h1) (iblk9 V c 0 t) (iblk9 V c 1 t) (iblk9 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover9_C_3 c _ _ _ _ _ _ _ _ _ _ _ _ _ _ _ _ _ _ _)
      unfold owns; iexists _; isplitr
      swap; · iexact H4
      ipureintro; exact View.read_writes_of_cover _ _ _ _ _ (cover9_C_4 c _ _ _ _ _ _ _ _ _ _ _ _ _ _ _ _ _ _ _)
    · rw [Dat.leavesExact_idle (dat9 V c) 4 t (idleAt9_4 t (fun h => h1 ((hcond9_1 t).mp h))) (noFlush9_4 t (fun h => h1 ((hcond9_1 t).mp h)))]
      rw [outsAt9_B V c t h0 h1]
      unfold out9_B_3 sout9_B_0; (try dsimp only)
      rw [PhiS9_castSucc V c t, PhiS9_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun9_B c (grid9.coords t) _ _ _ _ _ _ _ _ _ _ _ _ (fun h => h0 ((hcond9_0 t).mp h)) (fun h => h1 ((hcond9_1 t).mp h)) (iblk9 V c 0 t) (iblk9 V c 1 t) (iblk9 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover9_B_3 c _ _ _ _ _ _ _ _ _ _ _ _ _ _ _ _ _ _ _)
      iexists _; iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After any point but the first the invariant gives the launch's back: the scratch row's contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨HS0, HR⟩, Hg⟩
  isplitl [HS0 HR]
  · isplitl [HS0]
    · iexists _; iexact HS0
    iexact HR
  iexact Hg

/-- The same after the last point. -/
theorem hout9 (c : Dev nD) : (dat9 V c).Φ (Fin.last cfg9.N) ⊢ Pipeline.ΦA spec9 c :=
  Phi_out9 V c _ (by rw [Fin.val_last]; have : cfg9.N = 25 := N_9; omega)

end Cert.Kernel.Hand

end
-- ==== Proof.K.Reg10.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond10_0 (i : grid10.Coords) : Prop :=
  (Scalar.cmpi .ne (Scalar.extui (Scalar.cmpi .eq (BitVec.ofNat 32 (i 0).val) 0#32)) 0#32) = 1#1
/-- It holds at point 0 only. -/
theorem hcond10_0 : ∀ t : Fin cfg10.N, cond10_0 (grid10.coords t) ↔ t.val = 0 :=
  (by decide +kernel : ∀ t : Fin grid10.N, cond10_0 (grid10.coords t) ↔ t.val = 0)

/-- The body's second condition: the point is the grid's last. -/
abbrev cond10_1 (i : grid10.Coords) : Prop := k10_cond2 i = 1#1
/-- It holds at point 24 only. -/
theorem hcond10_1 : ∀ t : Fin cfg10.N, cond10_1 (grid10.coords t) ↔ t.val = 24 :=
  (by decide +kernel : ∀ t : Fin grid10.N, cond10_1 (grid10.coords t) ↔ t.val = 24)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
theorem liveAt10_4 : ∀ t : Fin cfg10.N, cfg10.idle 4 (grid10.coords t) = false := by decide +kernel
theorem liveAt10_5 : ∀ t : Fin cfg10.N, cfg10.idle 5 (grid10.coords t) = false := by decide +kernel
theorem liveAt10_6 : ∀ t : Fin cfg10.N, cfg10.idle 6 (grid10.coords t) = false := by decide +kernel
/-- At the first point the statistics window is idle, and its block is not written back there. -/
theorem idleAt10_7_A : ∀ t : Fin cfg10.N, cond10_0 (grid10.coords t) → ¬cond10_1 (grid10.coords t) → cfg10.idle 7 (grid10.coords t) = true := by decide +kernel
theorem noFlush10_7_A : ∀ t : Fin cfg10.N, cond10_0 (grid10.coords t) → ¬cond10_1 (grid10.coords t) → (cfg10.win 7).flush t = false := by decide +kernel
/-- At the points between, the same. -/
theorem idleAt10_7_B : ∀ t : Fin cfg10.N, ¬cond10_0 (grid10.coords t) → ¬cond10_1 (grid10.coords t) → cfg10.idle 7 (grid10.coords t) = true := by decide +kernel
theorem noFlush10_7_B : ∀ t : Fin cfg10.N, ¬cond10_0 (grid10.coords t) → ¬cond10_1 (grid10.coords t) → (cfg10.win 7).flush t = false := by decide +kernel
/-- At the last point the statistics window is live. -/
theorem liveAt10_7_C : ∀ t : Fin cfg10.N, ¬cond10_0 (grid10.coords t) → cond10_1 (grid10.coords t) → cfg10.idle 7 (grid10.coords t) = false := by decide +kernel

/-! ## The staging memrefs, the accumulator, and the views the results are stated through -/

abbrev ms10_0 (t : Fin cfg10.N) : Memref sig .tc .vmem S2000x512 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1x512 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x512 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x512 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x512 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S512x256 .bf16 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S2000x256 .f32 := win10_6.stage (cfg10.slots t 6)
abbrev hs10_6 (t : Fin cfg10.N) : (ms10_6 t).IsWhole := hstage10_6 ((cfg10.slots t 6).cast nbuf10_6)
abbrev ms10_7 (t : Fin cfg10.N) : Memref sig .tc .vmem S1x512 .f32 := win10_7.stage (cfg10.slots t 7)
abbrev hs10_7 (t : Fin cfg10.N) : (ms10_7 t).IsWhole := hstage10_7 ((cfg10.slots t 7).cast nbuf10_7)
/-- The accumulator: a whole scoped buffer of the kernel's own, carried from point to point. -/
abbrev scM10_0 : Memref sig .tc .vmem S1x512 .f32 := Memref.whole cc10_scratch0
abbrev VS10_0 : View sig .tc .vmem S1x512 .f32 := scM10_0.view
/-- One staging buffer of each output window, through which its contents are stated (the choice does not matter). -/
abbrev VO10_6 : View sig .tc .vmem S2000x256 .f32 := (Memref.whole cc10_stg6_0 : Memref sig .tc .vmem S2000x256 .f32).view
abbrev VO10_7 : View sig .tc .vmem S1x512 .f32 := (Memref.whole cc10_stg7_0 : Memref sig .tc .vmem S1x512 .f32).view

/-- The class's invariant with the accumulator opened as a memref owned at some contents; every other scoped buffer
    stays closed. -/
theorem PhiA10_eq (c : Dev nD) :
    (Pipeline.ΦA spec10 c : sProp 𝕄)
      = iprop(iprop((∃ d, owns (c : Thread nD τ) scM10_0 fullShare d)
          ∗ Pipeline.scopedRestBut (Ix := Unit) (Name := ℕ) (U := Pipeline.UD sig nD τ) (Lvl := ℕ) (Val := Elt F) spec10 c [cc10_scratch0])
          ∗ (∃ r, prngReg c r)) := by
  unfold Pipeline.ΦA; rw [scopedRest10_split]; simp only [scM10_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun10_A (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond10_0 i) (hc1 : ¬cond10_1 i)
    (x0 : Vec F S2000x512 .f32) (x1 : Vec F S1x512 .f32) (x2 : Vec F S1x512 .f32) (x3 : Vec F S1x512 .f32) (x4 : Vec F S1x512 .f32) (x5 : Vec F S512x256 .bf16) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc10__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc10__stage2_kernel_eq_skeleton]; unfold cc10__stage2_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun10_B (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond10_0 i) (hc1 : ¬cond10_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc10__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc10__stage2_kernel_eq_skeleton]; unfold cc10__stage2_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun10_C (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond10_0 i) (hc1 : cond10_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc10__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc10__stage2_kernel_eq_skeleton]; unfold cc10__stage2_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond10_0 i) (hc1 : ¬cond10_1 i)
  (x0 : Vec F S2000x512 .f32) (x1 : Vec F S1x512 .f32) (x2 : Vec F S1x512 .f32) (x3 : Vec F S1x512 .f32) (x4 : Vec F S1x512 .f32) (x5 : Vec F S512x256 .bf16)

/-- At the first point the one store into the product window covers its block. -/
theorem cover10_A_6 (y : S2000x256.Idx) :
    ∃ pc ∈ (kernelRun10_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun10_A c i arg1 harg1 arg2 harg2 arg3 harg3 arg4 harg4 arg5 harg5 arg6 harg6 arg7 harg7 arg8 harg8 arg9 harg9 hc0 hc1 x0 x1 x2 x3 x4 x5).1 S2000x256.size (by sl_kernel_rfl) y

/-- What the first point leaves in the product window: its pieces read back. -/
def out10_A_6 : Vec F S2000x256 .f32 :=
  VO10_6.read (Elt F) (VO10_6.writes (Elt F) VO10_6.junk (kernelRun10_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out10_A_7 : Vec F S1x512 .f32 :=
  VO10_7.read (Elt F) (VO10_7.writes (Elt F) VO10_7.junk (kernelRun10_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover10_A_0 (y : S1x512.Idx) :
    ∃ pc ∈ (kernelRun10_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun10_A c i arg1 harg1 arg2 harg2 arg3 harg3 arg4 harg4 arg5 harg5 arg6 harg6 arg7 harg7 arg8 harg8 arg9 harg9 hc0 hc1 x0 x1 x2 x3 x4 x5).2.2.1 S1x512.size (by sl_kernel_rfl) y

/-- What the first point leaves in the accumulator. -/
def sout10_A_0 : Vec F S1x512 .f32 :=
  VS10_0.read (Elt F) (VS10_0.writes (Elt F) VS10_0.junk (kernelRun10_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond10_0 i) (hc1 : ¬cond10_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At a point between the one store into the product window covers its block. -/
theorem cover10_B_6 (y : S2000x256.Idx) :
    ∃ pc ∈ (kernelRun10_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun10_B c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out10_B_6 : Vec F S2000x256 .f32 :=
  VO10_6.read (Elt F) (VO10_6.writes (Elt F) VO10_6.junk (kernelRun10_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out10_B_7 : Vec F S1x512 .f32 :=
  VO10_7.read (Elt F) (VO10_7.writes (Elt F) VO10_7.junk (kernelRun10_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover10_B_0 (y : S1x512.Idx) :
    ∃ pc ∈ (kernelRun10_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun10_B c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout10_B_0 : Vec F S1x512 .f32 :=
  VS10_0.read (Elt F) (VS10_0.writes (Elt F) VS10_0.junk (kernelRun10_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond10_0 i) (hc1 : cond10_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At the last point the one store into the product window covers its block. -/
theorem cover10_C_6 (y : S2000x256.Idx) :
    ∃ pc ∈ (kernelRun10_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out10_C_6 : Vec F S2000x256 .f32 :=
  VO10_6.read (Elt F) (VO10_6.writes (Elt F) VO10_6.junk (kernelRun10_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover10_C_7 (y : S1x512.Idx) :
    ∃ pc ∈ (kernelRun10_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 x4 x5 xs0).2.1 S1x512.size (by sl_kernel_rfl) y

/-- What the last point leaves in the statistics window. -/
def out10_C_7 : Vec F S1x512 .f32 :=
  VO10_7.read (Elt F) (VO10_7.writes (Elt F) VO10_7.junk (kernelRun10_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover10_C_0 (y : S1x512.Idx) :
    ∃ pc ∈ (kernelRun10_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout10_C_0 : Vec F S1x512 .f32 :=
  VS10_0.read (Elt F) (VS10_0.writes (Elt F) VS10_0.junk (kernelRun10_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The inputs' buffers hold their blocks at every point

An input window is never idle and the body leaves its block in place; so its current buffer holds what a fetch at the
point puts there whether or not one happened: where none did, the block index has not moved (the five row and weight
windows are fetched once, at the first point). -/

theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (Pipeline.UD sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (Pipeline.UD sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (Pipeline.UD sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (Pipeline.UD sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-! ## What the outputs and the accumulator hold after each point -/

/-- The first point is not the last, -/
theorem notLast10_of_first (t : Fin cfg10.N) (h0 : t.val = 0) : ¬cond10_1 (grid10.coords t) :=
  fun h => by have := (hcond10_1 t).mp h; omega

/-- The first point's results at the point's own memrefs and input blocks: the product block, the statistics
    placeholder, the accumulator. -/
def outsPt10_A (c : Dev nD) (t : Fin cfg10.N) (h0 : t.val = 0) : Vec F S2000x256 .f32 × Vec F S1x512 .f32 × Vec F S1x512 .f32 :=
  (out10_A_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (notLast10_of_first t h0) (iblk10 V c 0 t) (iblk10 V c 1 t) (iblk10 V c 2 t) (iblk10 V c 3 t) (iblk10 V c 4 t) (iblk10 V c 5 t),
   out10_A_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (notLast10_of_first t h0) (iblk10 V c 0 t) (iblk10 V c 1 t) (iblk10 V c 2 t) (iblk10 V c 3 t) (iblk10 V c 4 t) (iblk10 V c 5 t),
   sout10_A_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (notLast10_of_first t h0) (iblk10 V c 0 t) (iblk10 V c 1 t) (iblk10 V c 2 t) (iblk10 V c 3 t) (iblk10 V c 4 t) (iblk10 V c 5 t))

/-- A point between, over the accumulator xs0 the point before left. -/
def outsPt10_B (c : Dev nD) (t : Fin cfg10.N) (h0 : ¬t.val = 0) (h1 : ¬t.val = 24) (xs0 : Vec F S1x512 .f32) : Vec F S2000x256 .f32 × Vec F S1x512 .f32 × Vec F S1x512 .f32 :=
  (out10_B_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (fun h => h1 ((hcond10_1 t).mp h)) (iblk10 V c 0 t) (iblk10 V c 1 t) (iblk10 V c 2 t) (iblk10 V c 3 t) (iblk10 V c 4 t) (iblk10 V c 5 t) xs0,
   out10_B_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (fun h => h1 ((hcond10_1 t).mp h)) (iblk10 V c 0 t) (iblk10 V c 1 t) (iblk10 V c 2 t) (iblk10 V c 3 t) (iblk10 V c 4 t) (iblk10 V c 5 t) xs0,
   sout10_B_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (fun h => h1 ((hcond10_1 t).mp h)) (iblk10 V c 0 t) (iblk10 V c 1 t) (iblk10 V c 2 t) (iblk10 V c 3 t) (iblk10 V c 4 t) (iblk10 V c 5 t) xs0)

/-- The last point, over the accumulator xs0 the point before left. -/
def outsPt10_C (c : Dev nD) (t : Fin cfg10.N) (h0 : ¬t.val = 0) (h1 : t.val = 24) (xs0 : Vec F S1x512 .f32) : Vec F S2000x256 .f32 × Vec F S1x512 .f32 × Vec F S1x512 .f32 :=
  (out10_C_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) ((hcond10_1 t).mpr h1) (iblk10 V c 0 t) (iblk10 V c 1 t) (iblk10 V c 2 t) (iblk10 V c 3 t) (iblk10 V c 4 t) (iblk10 V c 5 t) xs0,
   out10_C_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) ((hcond10_1 t).mpr h1) (iblk10 V c 0 t) (iblk10 V c 1 t) (iblk10 V c 2 t) (iblk10 V c 3 t) (iblk10 V c 4 t) (iblk10 V c 5 t) xs0,
   sout10_C_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) ((hcond10_1 t).mpr h1) (iblk10 V c 0 t) (iblk10 V c 1 t) (iblk10 V c 2 t) (iblk10 V c 3 t) (iblk10 V c 4 t) (iblk10 V c 5 t) xs0)

/-- THE ACCUMULATION. What the product window, the statistics window and the accumulator hold after the body at
    position n: the case the position selects, run at the point's memrefs and input blocks, the accumulator it reads
    at what position n - 1 left. -/
def outsAt10 (c : Dev nD) : (n : ℕ) → n < cfg10.N → Vec F S2000x256 .f32 × Vec F S1x512 .f32 × Vec F S1x512 .f32
  | 0, hn => outsPt10_A V c ⟨0, hn⟩ rfl
  | n + 1, hn =>
    if h1 : n + 1 = 24 then
      outsPt10_C V c ⟨n + 1, hn⟩ (Nat.succ_ne_zero n) h1 (outsAt10 c n (Nat.lt_of_succ_lt hn)).2.2
    else
      outsPt10_B V c ⟨n + 1, hn⟩ (Nat.succ_ne_zero n) h1 (outsAt10 c n (Nat.lt_of_succ_lt hn)).2.2

/-- outsAt10 at the first point. -/
theorem outsAt10_A (c : Dev nD) (t : Fin cfg10.N) (h0 : t.val = 0) :
    outsAt10 V c t.val t.isLt = outsPt10_A V c t h0 := by
  obtain ⟨n, hn⟩ := t
  cases n with
  | zero => exact rfl
  | succ n => exact absurd h0 (Nat.succ_ne_zero n)

/-- outsAt10 at a point between: over what the point before left in the accumulator. -/
theorem outsAt10_B (c : Dev nD) (t : Fin cfg10.N) (h0 : ¬t.val = 0) (h1 : ¬t.val = 24) :
    outsAt10 V c t.val t.isLt = outsPt10_B V c t h0 h1 (outsAt10 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt10 at the last point: over what the point before left in the accumulator. -/
theorem outsAt10_C (c : Dev nD) (t : Fin cfg10.N) (h0 : ¬t.val = 0) (h1 : t.val = 24) :
    outsAt10 V c t.val t.isLt = outsPt10_C V c t h0 h1 (outsAt10 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2.2)
      ∗ Pipeline.scopedRestBut (Ix := Unit) (Name := ℕ) (U := Pipeline.UD sig nD τ) (Lvl := ℕ) (Val := Elt F) spec10 c [cc10_scratch0])
      ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(owns (c : Thread nD τ) scM10_0 fullShare ((outsAt10 V c n hn).2.2)
      ∗ Pipeline.scopedRestBut (Ix := Unit) (Name := ℕ) (U := Pipeline.UD sig nD τ) (Lvl := ℕ) (Val := Elt F) spec10 c [cc10_scratch0])
      ∗ (∃ r, prngReg c r)) := rfl

theorem PhiS10_pos (c : Dev nD) (n : ℕ) (h : n ≤ cfg10.N) (hz : n ≠ 0) :
    PhiS10 V c n h = iprop(iprop(owns (c : Thread nD τ) scM10_0 fullShare ((outsAt10 V c (n - 1) (by omega)).2.2)
      ∗ Pipeline.scopedRestBut (Ix := Unit) (Name := ℕ) (U := Pipeline.UD sig nD τ) (Lvl := ℕ) (Val := Elt F) spec10 c [cc10_scratch0])
      ∗ (∃ r, prngReg c r)) := by
  cases n with
  | zero => exact absurd rfl hz
  | succ n => rfl

/-! ## The proof data -/

/-- The arrays as the region finds them; after the body at point t each input's buffer at its block, the product
    window's at the first component of outsAt10, the statistics window's at the second; the invariant PhiS10; nothing
    owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => (outsAt10 V c t.val t.isLt).1
    | ⟨7, _⟩ => (outsAt10 V c t.val t.isLt).2.1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = (outsAt10 V c t.val t.isLt).1 := by dsimp only [dat10]
theorem after10_7 (c : Dev nD) (t : Fin cfg10.N) : (dat10 V c).after 7 t = (outsAt10 V c t.val t.isLt).2.1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-! ## The body obligation, at a generic point -/

/-- What the body is called with at point t: the invariant, what the core owes, and each window's current buffer at
    what it then holds, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).owesAt () t.succ = (dat10 V c).owesAt () t.castSucc from rfl]
  rw [show (dat10 V c).Φ t.succ = PhiS10 V c (t.val + 1) t.isLt from rfl, PhiS10_succ]
  have hN : t.val < 25 := lt_of_lt_of_eq t.isLt (show cfg10.N = 25 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  rw [show (dat10 V c).leavesExact 3 t = owns (c : Thread nD τ) (ms10_3 t) fullShare ((dat10 V c).after 3 t) from by
    unfold Dat.leavesExact; rw [liveAt10_3 t], after10_3]
  rw [show (dat10 V c).leavesExact 4 t = owns (c : Thread nD τ) (ms10_4 t) fullShare ((dat10 V c).after 4 t) from by
    unfold Dat.leavesExact; rw [liveAt10_4 t], after10_4]
  rw [show (dat10 V c).leavesExact 5 t = owns (c : Thread nD τ) (ms10_5 t) fullShare ((dat10 V c).after 5 t) from by
    unfold Dat.leavesExact; rw [liveAt10_5 t], after10_5]
  rw [show (dat10 V c).leavesExact 6 t = owns (c : Thread nD τ) (ms10_6 t) fullShare ((dat10 V c).after 6 t) from by
    unfold Dat.leavesExact; rw [liveAt10_6 t], after10_6]
  by_cases h0 : t.val = 0
  · -- the first point
    have hc0 : cond10_0 (grid10.coords t) := (hcond10_0 t).mpr h0
    have hc1 : ¬cond10_1 (grid10.coords t) := notLast10_of_first t h0
    rw [Dat.leavesExact_idle (dat10 V c) 7 t (idleAt10_7_A t hc0 hc1) (noFlush10_7_A t hc0 hc1)]
    rw [outsAt10_A V c t h0]
    unfold outsPt10_A out10_A_6 sout10_A_0; (try dsimp only)
    rw [PhiS10_castSucc V c t, PhiS10_zero V c _ _ h0, PhiA10_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun10_A c (grid10.coords t) _ _ _ _ _ _ _ _ _ _ _ _ _ _ _ _ _ _ hc0 hc1 (iblk10 V c 0 t) (iblk10 V c 1 t) (iblk10 V c 2 t) (iblk10 V c 3 t) (iblk10 V c 4 t) (iblk10 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover10_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover10_A_6 c _ _ _ _ _ _ _ _ _ _ _ _ _ _ _ _ _ _ _ _ _ _ _ _ _ _ _)
    iexists _; iexact H7
  · by_cases h1 : t.val = 24
    · -- the last point
      have hc0 : ¬cond10_0 (grid10.coords t) := fun h => h0 ((hcond10_0 t).mp h)
      have hc1 : cond10_1 (grid10.coords t) := (hcond10_1 t).mpr h1
      rw [show (dat10 V c).leavesExact 7 t = owns (c : Thread nD τ) (ms10_7 t) fullShare ((dat10 V c).after 7 t) from by
        unfold Dat.leavesExact; rw [liveAt10_7_C t hc0 hc1], after10_7]
      rw [outsAt10_C V c t h0 h1]
      unfold outsPt10_C out10_C_6 out10_C_7 sout10_C_0; (try dsimp only)
      rw [PhiS10_castSucc V c t, PhiS10_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun10_C c (grid10.coords t) _ _ _ _ _ _ _ _ _ _ _ _ _ _ _ _ _ _ hc0 hc1 (iblk10 V c 0 t) (iblk10 V c 1 t) (iblk10 V c 2 t) (iblk10 V c 3 t) (iblk10 V c 4 t) (iblk10 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover10_C_6 c _ _ _ _ _ _ _ _ _ _ _ _ _ _ _ _ _ _ _ _ _ _ _ _ _ _ _ _)
      unfold owns; iexists _; isplitr
      swap; · iexact H7
      ipureintro; exact View.read_writes_of_cover _ _ _ _ _ (cover10_C_7 c _ _ _ _ _ _ _ _ _ _ _ _ _ _ _ _ _ _ _ _ _ _ _ _ _ _ _ _)
    · -- a point between
      have hc0 : ¬cond10_0 (grid10.coords t) := fun h => h0 ((hcond10_0 t).mp h)
      have hc1 : ¬cond10_1 (grid10.coords t) := fun h => h1 ((hcond10_1 t).mp h)
      rw [Dat.leavesExact_idle (dat10 V c) 7 t (idleAt10_7_B t hc0 hc1) (noFlush10_7_B t hc0 hc1)]
      rw [outsAt10_B V c t h0 h1]
      unfold outsPt10_B out10_B_6 sout10_B_0; (try dsimp only)
      rw [PhiS10_castSucc V c t, PhiS10_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun10_B c (grid10.coords t) _ _ _ _ _ _ _ _ _ _ _ _ _ _ _ _ _ _ hc0 hc1 (iblk10 V c 0 t) (iblk10 V c 1 t) (iblk10 V c 2 t) (iblk10 V c 3 t) (iblk10 V c 4 t) (iblk10 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover10_B_6 c _ _ _ _ _ _ _ _ _ _ _ _ _ _ _ _ _ _ _ _ _ _ _ _ _ _ _ _)
      iexists _; iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point the invariant gives the launch's back: the accumulator's named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS0, HR⟩, Hg⟩
  isplitl [HS0 HR]
  · isplitl [HS0]
    · iexists _; iexact HS0
    iexact HR
  iexact Hg

/-- The same after the last point. -/
theorem hout10 (c : Dev nD) : (dat10 V c).Φ (Fin.last cfg10.N) ⊢ Pipeline.ΦA spec10 c :=
  Phi_out10 V c _ (by rw [Fin.val_last]; have : cfg10.N = 25 := N_10; omega)

end Region

end Cert.Kernel.Hand

end
-- ==== Proof.K.Reg11.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## What the body leaves in the output block -/

/-- The whole block of rows, as a rectangle of itself. -/
abbrev rB11 : Rect S2000x256 := Rect.unit (s := S2000x256) ![0, 0] S2000x256.size inb_S2000x256_S2000x256_0_0
/-- The whole single row, as a rectangle of itself. -/
abbrev rR11 : Rect S1x256 := Rect.unit (s := S1x256) ![0, 0] S1x256.size inb_S1x256_S1x256_0_0

/-- The output block after the body, from the five input blocks: the body's one store, of the
    payload of the five whole loads, laid over the block.  (The payload takes the row operands in
    the order the body loads them: the fourth, the second, the third, the fifth.) -/
def out11_5 (x0 : Vec F S2000x256 .f32) (x1 x2 x3 x4 : Vec F S1x256 .f32) : Vec F S2000x256 .f32 :=
  View.canon [⟨rB11, k11_pay1 (View.ld x0 rB11) (View.ld x3 rR11) (View.ld x1 rR11) (View.ld x2 rR11) (View.ld x4 rR11)⟩]

/-- One store of the whole block covers it. -/
theorem cover11_5 (p : Vec F S2000x256 .f32) (y : S2000x256.Idx) :
    ∃ pc ∈ ([⟨rB11, p⟩] : List (View.Piece (Elt F) S2000x256 .f32)), y ∈ pc.1.set :=
  View.cover_of_tiled [⟨rB11, p⟩] S2000x256.size (by rfl) y

/-! ## The body's triple -/

set_option maxHeartbeats 1000000 in
/-- The kernel body on whole staging memrefs: holding the five inputs' at contents reading `x0 … x4`
    and the output's at anything, it runs to a state holding the inputs' as they were and the
    output's at `out11_5` of them.  The body is its skeleton of memory operations over the named
    payload; the executor steps through the six loads and the store. -/
theorem sound_kernel11 (c : Dev nD) (E : Set ℕ) (i : grid11.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E
          (cc11__stage3_kernel i arg1 harg1 arg2 harg2 arg3 harg3 arg4 harg4 arg5 harg5 arg6 harg6) K := by
  simp only [cc11__stage3_kernel_eq_skeleton]; unfold cc11__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The proof data -/

/-- The proof data of the pipeline on core `c`: the arrays as the region finds them; after the
    body at point `t` each input's buffer at its block and the output's at `out11_5` of the input
    blocks; the class's invariant; nothing owed; full shares. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t
    = out11_5 (iblk11 V c 0 t) (iblk11 V c 1 t) (iblk11 V c 2 t) (iblk11 V c 3 t) (iblk11 V c 4 t) := by dsimp only [dat11]

/-! ## What the body finds in the input windows' buffers

An input window's current staging buffer holds its block at every point, whether the pipeline
fetched it there or not: a window not fetched at a point has the block index of the point before,
and the body left that point's block in place.  (The four row operands are fetched at the first
point only; the first operand at every point.) -/

theorem before11_0 (c : Dev nD) (t : Fin cfg11.N) (d) : (dat11 V c).before 0 t d = iblk11 V c 0 t :=
  ((dat11 V c).before_in_eq_fetched 0 rfl (fun _ => rfl) (fun _ _ _ => rfl)
      (fun t => by rw [after11_0 V c t]; unfold Dat.blockOf iblk11; rw [A_eq11 V c 0]; try rfl) t d).trans
    (by unfold Dat.fetched Dat.blockOf iblk11; rw [A_eq11 V c 0]; try rfl)
theorem before11_1 (c : Dev nD) (t : Fin cfg11.N) (d) : (dat11 V c).before 1 t d = iblk11 V c 1 t :=
  ((dat11 V c).before_in_eq_fetched 1 rfl (fun _ => rfl) (fun _ _ _ => rfl)
      (fun t => by rw [after11_1 V c t]; unfold Dat.blockOf iblk11; rw [A_eq11 V c 1]; try rfl) t d).trans
    (by unfold Dat.fetched Dat.blockOf iblk11; rw [A_eq11 V c 1]; try rfl)
theorem before11_2 (c : Dev nD) (t : Fin cfg11.N) (d) : (dat11 V c).before 2 t d = iblk11 V c 2 t :=
  ((dat11 V c).before_in_eq_fetched 2 rfl (fun _ => rfl) (fun _ _ _ => rfl)
      (fun t => by rw [after11_2 V c t]; unfold Dat.blockOf iblk11; rw [A_eq11 V c 2]; try rfl) t d).trans
    (by unfold Dat.fetched Dat.blockOf iblk11; rw [A_eq11 V c 2]; try rfl)
theorem before11_3 (c : Dev nD) (t : Fin cfg11.N) (d) : (dat11 V c).before 3 t d = iblk11 V c 3 t :=
  ((dat11 V c).before_in_eq_fetched 3 rfl (fun _ => rfl) (fun _ _ _ => rfl)
      (fun t => by rw [after11_3 V c t]; unfold Dat.blockOf iblk11; rw [A_eq11 V c 3]; try rfl) t d).trans
    (by unfold Dat.fetched Dat.blockOf iblk11; rw [A_eq11 V c 3]; try rfl)
theorem before11_4 (c : Dev nD) (t : Fin cfg11.N) (d) : (dat11 V c).before 4 t d = iblk11 V c 4 t :=
  ((dat11 V c).before_in_eq_fetched 4 rfl (fun _ => rfl) (fun _ _ _ => rfl)
      (fun t => by rw [after11_4 V c t]; unfold Dat.blockOf iblk11; rw [A_eq11 V c 4]; try rfl) t d).trans
    (by unfold Dat.fetched Dat.blockOf iblk11; rw [A_eq11 V c 4]; try rfl)

/-! ## The body obligation -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, so the body's triple applies; the
    invariant and what the core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _
    (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The invariant at the two ends -/

/-- The proof data's invariant is the class's at every point: the region's entry hands it over as it is, -/
theorem hin11 (c : Dev nD) : Pipeline.ΦA spec11 c ⊢ (dat11 V c).Φ 0 := by
  dsimp only [dat11]; exact .rfl

/-- and takes it back as it is. -/
theorem hout11 (c : Dev nD) : (dat11 V c).Φ (Fin.last cfg11.N) ⊢ Pipeline.ΦA spec11 c := by
  dsimp only [dat11]; exact .rfl

end Cert.Kernel.Hand

end
-- ==== Proof.K.Reg12.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt12`), the scratch row's component feeding the next point's run. Everything
is stated at an arbitrary float family and at a parameter `V`: the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not (unfetched, the
    block index has not moved), for any proof data whose array is `V`'s and whose body leaves the block in place. -/
theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (Pipeline.UD sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's two branch conditions, over the grid -/

/-- The zeroing branch's condition, from the grid coordinate: the coordinate is 0. -/
abbrev cond12_0 (i : grid12.Coords) : Prop := (Scalar.cmpi .ne (Scalar.extui (Scalar.cmpi .eq (BitVec.ofNat 32 (i 0).val) 0#32)) 0#32) = 1#1
/-- It holds at the first point only. -/
theorem hcond12_0 : ∀ t : Fin cfg12.N, cond12_0 (grid12.coords t) ↔ t.val = 0 :=
  (by decide +kernel : ∀ t : Fin grid12.N, cond12_0 (grid12.coords t) ↔ t.val = 0)

/-- The copying branch's condition: the coordinate is the last. -/
abbrev cond12_1 (i : grid12.Coords) : Prop := k12_cond2 i = 1#1
/-- It holds at the last point only. -/
theorem hcond12_1 : ∀ t : Fin cfg12.N, cond12_1 (grid12.coords t) ↔ t.val = 24 :=
  (by decide +kernel : ∀ t : Fin grid12.N, cond12_1 (grid12.coords t) ↔ t.val = 24)

/-! ## Where the windows are idle -/

theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel
theorem liveAt12_3 : ∀ t : Fin cfg12.N, cfg12.idle 3 (grid12.coords t) = false := by decide +kernel
/-- Away from the last point the statistics window is idle (the body stores nothing into it) and not written back. -/
theorem idleAt12_4 : ∀ t : Fin cfg12.N, ¬cond12_1 (grid12.coords t) → cfg12.idle 4 (grid12.coords t) = true := by decide +kernel
theorem noFlush12_4 : ∀ t : Fin cfg12.N, ¬cond12_1 (grid12.coords t) → (cfg12.win 4).flush t = false := by decide +kernel
/-- At the last point it is live. -/
theorem liveAt12_4 : ∀ t : Fin cfg12.N, cond12_1 (grid12.coords t) → cfg12.idle 4 (grid12.coords t) = false := by decide +kernel

/-! ## The staging memrefs the body is called with, and the scratch row -/

/-- One staging buffer of each output window, through which its contents are stated (the choice does not matter). -/
abbrev VO12_3 : View sig .tc .vmem S2000x512 .f32 := (Memref.whole cc12_stg3_0 : Memref sig .tc .vmem S2000x512 .f32).view
abbrev VO12_4 : View sig .tc .vmem S1x1024 .f32 := (Memref.whole cc12_stg4_0 : Memref sig .tc .vmem S1x1024 .f32).view
/-- Each window's current staging memref at point `t`, spelled as the pipeline passes it, and its wholeness. -/
abbrev ms12_0 (t : Fin cfg12.N) : Memref sig .tc .vmem S2000x256 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S2000x256 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S256x512 .bf16 := win12_2.stage (cfg12.slots t 2)
abbrev hs12_2 (t : Fin cfg12.N) : (ms12_2 t).IsWhole := hstage12_2 ((cfg12.slots t 2).cast nbuf12_2)
abbrev ms12_3 (t : Fin cfg12.N) : Memref sig .tc .vmem S2000x512 .f32 := win12_3.stage (cfg12.slots t 3)
abbrev hs12_3 (t : Fin cfg12.N) : (ms12_3 t).IsWhole := hstage12_3 ((cfg12.slots t 3).cast nbuf12_3)
abbrev ms12_4 (t : Fin cfg12.N) : Memref sig .tc .vmem S1x1024 .f32 := win12_4.stage (cfg12.slots t 4)
abbrev hs12_4 (t : Fin cfg12.N) : (ms12_4 t).IsWhole := hstage12_4 ((cfg12.slots t 4).cast nbuf12_4)
/-- The scratch row: a whole scoped buffer of the kernel's own, passed beside the windows. -/
abbrev scM12_0 : Memref sig .tc .vmem S1x1024 .f32 := Memref.whole cc12_scratch0
/-- The same as a view: what the row holds is stated through it. -/
abbrev VS12_0 : View sig .tc .vmem S1x1024 .f32 := scM12_0.view

/-- The other scoped buffers of the core (no staging buffer of this pipeline, not the scratch row), unopened. -/
abbrev restBut12 (c : Dev nD) : sProp 𝕄 :=
  Pipeline.scopedRestBut (Ix := Unit) (Name := ℕ) (U := Pipeline.UD sig nD τ) (Lvl := ℕ) (Val := Elt F) spec12 c [cc12_scratch0]

/-- The region's invariant with the scratch row as a memref owned at some contents. -/
theorem PhiA12_eq (c : Dev nD) :
    (Pipeline.ΦA spec12 c : sProp 𝕄)
      = iprop(iprop((∃ d, owns (c : Thread nD τ) scM12_0 fullShare d) ∗ restBut12 (F := F) c) ∗ (∃ r, prngReg c r)) := by
  unfold Pipeline.ΦA; rw [scopedRest12_split]; simp only [scM12_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun12_A (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i)
    (x0 : Vec F S2000x256 .f32) (x1 : Vec F S2000x256 .f32) (x2 : Vec F S256x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc12__stage1_kernel i arg1 harg1 arg2 harg2 arg3 harg3 arg4 harg4 arg5 harg5 arg6 harg6) K } := by
  refine ⟨?_, ?_, fun xi4 E K => ?run⟩
  case run =>
    simp only [cc12__stage1_kernel_eq_skeleton]; unfold cc12__stage1_kernel_skel
    simp only [k12_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun12_B (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i)
    (x0 : Vec F S2000x256 .f32) (x1 : Vec F S2000x256 .f32) (x2 : Vec F S256x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc12__stage1_kernel i arg1 harg1 arg2 harg2 arg3 harg3 arg4 harg4 arg5 harg5 arg6 harg6) K } := by
  refine ⟨?_, ?_, fun xi4 E K => ?run⟩
  case run =>
    simp only [cc12__stage1_kernel_eq_skeleton]; unfold cc12__stage1_kernel_skel
    simp only [k12_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun12_C (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc12__stage1_kernel i arg1 harg1 arg2 harg2 arg3 harg3 arg4 harg4 arg5 harg5 arg6 harg6) K } := by
  refine ⟨?_, ?_, ?_, fun E K => ?run⟩
  case run =>
    simp only [cc12__stage1_kernel_eq_skeleton]; unfold cc12__stage1_kernel_skel
    simp only [k12_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover12_A_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i)
    (x0 : Vec F S2000x256 .f32) (x1 : Vec F S2000x256 .f32) (x2 : Vec F S256x512 .bf16) (y : S2000x512.Idx) :
    ∃ pc ∈ (kernelRun12_A c i arg1 harg1 arg2 harg2 arg3 harg3 arg4 harg4 arg5 harg5 arg6 harg6 hc0 hc1 x0 x1 x2).1, y ∈ pc.1.set :=
  View.cover_of_tiledL (kernelRun12_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out12_A_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i)
    (x0 : Vec F S2000x256 .f32) (x1 : Vec F S2000x256 .f32) (x2 : Vec F S256x512 .bf16) : Vec F S2000x512 .f32 :=
  VO12_3.read (Elt F) (VO12_3.writes (Elt F) VO12_3.junk (kernelRun12_A c i arg1 harg1 arg2 harg2 arg3 harg3 arg4 harg4 arg5 harg5 arg6 harg6 hc0 hc1 x0 x1 x2).1)

/-- The first point's pieces for the scratch row cover it: the zeroing store is the whole row. -/
theorem scover12_A_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i)
    (x0 : Vec F S2000x256 .f32) (x1 : Vec F S2000x256 .f32) (x2 : Vec F S256x512 .bf16) (y : S1x1024.Idx) :
    ∃ pc ∈ (kernelRun12_A c i arg1 harg1 arg2 harg2 arg3 harg3 arg4 harg4 arg5 harg5 arg6 harg6 hc0 hc1 x0 x1 x2).2.1, y ∈ pc.1.set :=
  View.cover_of_tiledL (kernelRun12_A c i arg1 harg1 arg2 harg2 arg3 harg3 arg4 harg4 arg5 harg5 arg6 harg6 hc0 hc1 x0 x1 x2).2.1 S1x1024.size (by sl_kernel_rfl) y

/-- What the first point leaves in the scratch row. -/
def sout12_A_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i)
    (x0 : Vec F S2000x256 .f32) (x1 : Vec F S2000x256 .f32) (x2 : Vec F S256x512 .bf16) : Vec F S1x1024 .f32 :=
  VS12_0.read (Elt F) (VS12_0.writes (Elt F) VS12_0.junk (kernelRun12_A c i arg1 harg1 arg2 harg2 arg3 harg3 arg4 harg4 arg5 harg5 arg6 harg6 hc0 hc1 x0 x1 x2).2.1)

/-- A middle point's pieces for the output block tile it. -/
theorem cover12_B_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i)
    (x0 : Vec F S2000x256 .f32) (x1 : Vec F S2000x256 .f32) (x2 : Vec F S256x512 .bf16) (xs0 : Vec F S1x1024 .f32) (y : S2000x512.Idx) :
    ∃ pc ∈ (kernelRun12_B c i arg1 harg1 arg2 harg2 arg3 harg3 arg4 harg4 arg5 harg5 arg6 harg6 hc0 hc1 x0 x1 x2 xs0).1, y ∈ pc.1.set :=
  View.cover_of_tiledL (kernelRun12_B c i arg1 harg1 arg2 harg2 arg3 harg3 arg4 harg4 arg5 harg5 arg6 harg6 hc0 hc1 x0 x1 x2 xs0).1 S2000x512.size (by sl_kernel_rfl) y

/-- What a middle point leaves in the output block's staging buffer. -/
def out12_B_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i)
    (x0 : Vec F S2000x256 .f32) (x1 : Vec F S2000x256 .f32) (x2 : Vec F S256x512 .bf16) (xs0 : Vec F S1x1024 .f32) : Vec F S2000x512 .f32 :=
  VO12_3.read (Elt F) (VO12_3.writes (Elt F) VO12_3.junk (kernelRun12_B c i arg1 harg1 arg2 harg2 arg3 harg3 arg4 harg4 arg5 harg5 arg6 harg6 hc0 hc1 x0 x1 x2 xs0).1)

/-- A middle point's pieces for the scratch row tile it: the two half-row stores. -/
theorem scover12_B_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i)
    (x0 : Vec F S2000x256 .f32) (x1 : Vec F S2000x256 .f32) (x2 : Vec F S256x512 .bf16) (xs0 : Vec F S1x1024 .f32) (y : S1x1024.Idx) :
    ∃ pc ∈ (kernelRun12_B c i arg1 harg1 arg2 harg2 arg3 harg3 arg4 harg4 arg5 harg5 arg6 harg6 hc0 hc1 x0 x1 x2 xs0).2.1, y ∈ pc.1.set :=
  View.cover_of_tiledL (kernelRun12_B c i arg1 harg1 arg2 harg2 arg3 harg3 arg4 harg4 arg5 harg5 arg6 harg6 hc0 hc1 x0 x1 x2 xs0).2.1 S1x512.size (by sl_kernel_rfl) y

/-- What a middle point leaves in the scratch row. -/
def sout12_B_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i)
    (x0 : Vec F S2000x256 .f32) (x1 : Vec F S2000x256 .f32) (x2 : Vec F S256x512 .bf16) (xs0 : Vec F S1x1024 .f32) : Vec F S1x1024 .f32 :=
  VS12_0.read (Elt F) (VS12_0.writes (Elt F) VS12_0.junk (kernelRun12_B c i arg1 harg1 arg2 harg2 arg3 harg3 arg4 harg4 arg5 harg5 arg6 harg6 hc0 hc1 x0 x1 x2 xs0).2.1)

/-- The last point's pieces for the output block tile it. -/
theorem cover12_C_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) (y : S2000x512.Idx) :
    ∃ pc ∈ (kernelRun12_C c i arg1 harg1 arg2 harg2 arg3 harg3 arg4 harg4 arg5 harg5 arg6 harg6 hc0 hc1 x0 x1 x2 xs0).1, y ∈ pc.1.set :=
  View.cover_of_tiledL (kernelRun12_C c i arg1 harg1 arg2 harg2 arg3 harg3 arg4 harg4 arg5 harg5 arg6 harg6 hc0 hc1 x0 x1 x2 xs0).1 S2000x512.size (by sl_kernel_rfl) y

/-- What the last point leaves in the output block's staging buffer. -/
def out12_C_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) : Vec F S2000x512 .f32 :=
  VO12_3.read (Elt F) (VO12_3.writes (Elt F) VO12_3.junk (kernelRun12_C c i arg1 harg1 arg2 harg2 arg3 harg3 arg4 harg4 arg5 harg5 arg6 harg6 hc0 hc1 x0 x1 x2 xs0).1)

/-- The last point's pieces for the statistics block tile it: the copy of the whole scratch row. -/
theorem cover12_C_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) (y : S1x1024.Idx) :
    ∃ pc ∈ (kernelRun12_C c i arg1 harg1 arg2 harg2 arg3 harg3 arg4 harg4 arg5 harg5 arg6 harg6 hc0 hc1 x0 x1 x2 xs0).2.1, y ∈ pc.1.set :=
  View.cover_of_tiledL (kernelRun12_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out12_C_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) : Vec F S1x1024 .f32 :=
  VO12_4.read (Elt F) (VO12_4.writes (Elt F) VO12_4.junk (kernelRun12_C c i arg1 harg1 arg2 harg2 arg3 harg3 arg4 harg4 arg5 harg5 arg6 harg6 hc0 hc1 x0 x1 x2 xs0).2.1)

/-- The last point's pieces for the scratch row tile it: the two half-row stores. -/
theorem scover12_C_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) (y : S1x1024.Idx) :
    ∃ pc ∈ (kernelRun12_C c i arg1 harg1 arg2 harg2 arg3 harg3 arg4 harg4 arg5 harg5 arg6 harg6 hc0 hc1 x0 x1 x2 xs0).2.2.1, y ∈ pc.1.set :=
  View.cover_of_tiledL (kernelRun12_C c i arg1 harg1 arg2 harg2 arg3 harg3 arg4 harg4 arg5 harg5 arg6 harg6 hc0 hc1 x0 x1 x2 xs0).2.2.1 S1x512.size (by sl_kernel_rfl) y

/-- What the last point leaves in the scratch row. -/
def sout12_C_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) : Vec F S1x1024 .f32 :=
  VS12_0.read (Elt F) (VS12_0.writes (Elt F) VS12_0.junk (kernelRun12_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut12_4 : Vec F S1x1024 .f32 := VO12_4.read (Elt F) VO12_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt12 (c : Dev nD) : (n : ℕ) → n < cfg12.N → Vec F S2000x512 .f32 × Vec F S1x1024 .f32 × Vec F S1x1024 .f32
  | 0, hn => (out12_A_3 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) scM12_0 (Memref.isWhole_whole _) ((hcond12_0 ⟨0, hn⟩).mpr rfl) (fun h => (fun h => by (try dsimp only at h); omega) ((hcond12_1 ⟨0, hn⟩).mp h)) (iblk12 V c 0 ⟨0, hn⟩) (iblk12 V c 1 ⟨0, hn⟩) (iblk12 V c 2 ⟨0, hn⟩), idleOut12_4, sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) scM12_0 (Memref.isWhole_whole _) ((hcond12_0 ⟨0, hn⟩).mpr rfl) (fun h => (fun h => by (try dsimp only at h); omega) ((hcond12_1 ⟨0, hn⟩).mp h)) (iblk12 V c 0 ⟨0, hn⟩) (iblk12 V c 1 ⟨0, hn⟩) (iblk12 V c 2 ⟨0, hn⟩))
  | n + 1, hn =>
    if h1 : n + 1 = 24 then
      (out12_C_3 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => absurd ((hcond12_0 ⟨n + 1, hn⟩).mp h) (Nat.succ_ne_zero n)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2, out12_C_4 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => absurd ((hcond12_0 ⟨n + 1, hn⟩).mp h) (Nat.succ_ne_zero n)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2, sout12_C_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => absurd ((hcond12_0 ⟨n + 1, hn⟩).mp h) (Nat.succ_ne_zero n)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2)
    else
      (out12_B_3 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => absurd ((hcond12_0 ⟨n + 1, hn⟩).mp h) (Nat.succ_ne_zero n)) (fun h => h1 ((hcond12_1 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2, idleOut12_4, sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => absurd ((hcond12_0 ⟨n + 1, hn⟩).mp h) (Nat.succ_ne_zero n)) (fun h => h1 ((hcond12_1 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2)

/-- `outsAt12` at the first point. -/
theorem outsAt12_A (c : Dev nD) (t : Fin cfg12.N) (h0 : t.val = 0) (h1 : ¬t.val = 24) :
    outsAt12 V c t.val t.isLt = (out12_A_3 c (grid12.coords t) (ms12_0 t) (hs12_0 t) (ms12_1 t) (hs12_1 t) (ms12_2 t) (hs12_2 t) (ms12_3 t) (hs12_3 t) (ms12_4 t) (hs12_4 t) scM12_0 (Memref.isWhole_whole _) ((hcond12_0 t).mpr h0) (fun h => h1 ((hcond12_1 t).mp h)) (iblk12 V c 0 t) (iblk12 V c 1 t) (iblk12 V c 2 t), idleOut12_4, sout12_A_0 c (grid12.coords t) (ms12_0 t) (hs12_0 t) (ms12_1 t) (hs12_1 t) (ms12_2 t) (hs12_2 t) (ms12_3 t) (hs12_3 t) (ms12_4 t) (hs12_4 t) scM12_0 (Memref.isWhole_whole _) ((hcond12_0 t).mpr h0) (fun h => h1 ((hcond12_1 t).mp h)) (iblk12 V c 0 t) (iblk12 V c 1 t) (iblk12 V c 2 t)) := by
  obtain ⟨n, hn⟩ := t
  cases n with
  | zero => exact rfl
  | succ n => exact absurd h0 (Nat.succ_ne_zero n)

/-- `outsAt12` at a middle point: that case's contents, over the scratch row the point before left. -/
theorem outsAt12_B (c : Dev nD) (t : Fin cfg12.N) (h0 : ¬t.val = 0) (h1 : ¬t.val = 24) :
    outsAt12 V c t.val t.isLt = (out12_B_3 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) (fun h => h1 ((hcond12_1 t).mp h)) (iblk12 V c 0 t) (iblk12 V c 1 t) (iblk12 V c 2 t) (outsAt12 V c (t.val - 1) (Nat.lt_of_le_of_lt (Nat.sub_le _ _) t.isLt)).2.2, idleOut12_4, sout12_B_0 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) (fun h => h1 ((hcond12_1 t).mp h)) (iblk12 V c 0 t) (iblk12 V c 1 t) (iblk12 V c 2 t) (outsAt12 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt12` at the last point. -/
theorem outsAt12_C (c : Dev nD) (t : Fin cfg12.N) (h0 : ¬t.val = 0) (h1 : t.val = 24) :
    outsAt12 V c t.val t.isLt = (out12_C_3 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2, out12_C_4 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2, sout12_C_0 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS12 (c : Dev nD) : (n : ℕ) → n ≤ cfg12.N → sProp 𝕄
  | 0, _ => Pipeline.ΦA spec12 c
  | n + 1, hn => iprop(iprop(owns (c : Thread nD τ) scM12_0 fullShare ((outsAt12 V c n hn).2.2) ∗ restBut12 (F := F) c) ∗ (∃ r, prngReg c r))

theorem PhiS12_zero (c : Dev nD) (n : ℕ) (h : n ≤ cfg12.N) (hz : n = 0) : PhiS12 V c n h = Pipeline.ΦA spec12 c := by
  subst hz; rfl

theorem PhiS12_succ (c : Dev nD) (n : ℕ) (hn : n < cfg12.N) :
    PhiS12 V c (n + 1) hn = iprop(iprop(owns (c : Thread nD τ) scM12_0 fullShare ((outsAt12 V c n hn).2.2) ∗ restBut12 (F := F) c) ∗ (∃ r, prngReg c r)) := rfl

theorem PhiS12_pos (c : Dev nD) (n : ℕ) (h : n ≤ cfg12.N) (hz : n ≠ 0) :
    PhiS12 V c n h = iprop(iprop(owns (c : Thread nD τ) scM12_0 fullShare ((outsAt12 V c (n - 1) (by omega)).2.2) ∗ restBut12 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt12`'s components; the invariant `PhiS12`; nothing owed; full
    shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => (outsAt12 V c t.val t.isLt).1
    | ⟨4, _⟩ => (outsAt12 V c t.val t.isLt).2.1
  Φ t := PhiS12 V c t.val (Nat.le_of_lt_succ t.isLt)
  q _ := fullShare
  owed _ := 0

/-- The proof data's arrays are the region-entry contents. -/
theorem A_eq12 (c : Dev nD) (w : Fin cfg12.W) : (dat12 V c).A w = V c (Pipeline.arrRef spec12 w) := by
  dsimp only [dat12]

/-- The invariant at a point's start, restated at `t.val`. -/
theorem PhiS12_castSucc (c : Dev nD) (t : Fin cfg12.N) :
    (dat12 V c).Φ t.castSucc = PhiS12 V c t.val (Nat.le_of_lt t.isLt) := by
  dsimp only [dat12]; simp only [Fin.coe_castSucc]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = (outsAt12 V c t.val t.isLt).1 := by dsimp only [dat12]
theorem after12_4 (c : Dev nD) (t : Fin cfg12.N) : (dat12 V c).after 4 t = (outsAt12 V c t.val t.isLt).2.1 := by dsimp only [dat12]

/-- Each input's current staging buffer holds its block at every point. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d))
    ∗ (∃ d, owns (c : Thread nD τ) (ms12_3 t) fullShare ((dat12 V c).before 3 t d))
    ∗ (∃ d, owns (c : Thread nD τ) (ms12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t
    ∗ (dat12 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).owesAt () t.succ = (dat12 V c).owesAt () t.castSucc from rfl]
  rw [show (dat12 V c).Φ t.succ = PhiS12 V c (t.val + 1) t.isLt from rfl, PhiS12_succ]
  have hN : t.val < 25 := lt_of_lt_of_eq t.isLt (show cfg12.N = 25 from N_12)
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  rw [show (dat12 V c).leavesExact 2 t = owns (c : Thread nD τ) (ms12_2 t) fullShare ((dat12 V c).after 2 t) from by
    unfold Dat.leavesExact; rw [liveAt12_2 t], after12_2]
  rw [show (dat12 V c).leavesExact 3 t = owns (c : Thread nD τ) (ms12_3 t) fullShare ((dat12 V c).after 3 t) from by
    unfold Dat.leavesExact; rw [liveAt12_3 t], after12_3]
  by_cases h0 : t.val = 0
  · have h1 : ¬t.val = 24 := by omega
    rw [Dat.leavesExact_idle (dat12 V c) 4 t (idleAt12_4 t (fun h => h1 ((hcond12_1 t).mp h))) (noFlush12_4 t (fun h => h1 ((hcond12_1 t).mp h)))]
    rw [outsAt12_A V c t h0 h1]
    unfold out12_A_3 sout12_A_0; (try dsimp only)
    rw [PhiS12_castSucc V c t, PhiS12_zero V c _ _ h0, PhiA12_eq]
    iintro ⟨⟨⟨HS0, HR⟩, Hg⟩, Ho, ⟨%d0, H0⟩, ⟨%d1, H1⟩, ⟨%d2, H2⟩, ⟨%d3, H3⟩, ⟨%d4, H4⟩⟩
    iapply ((kernelRun12_A c (grid12.coords t) _ _ _ _ _ _ _ _ _ _ _ _ ((hcond12_0 t).mpr h0) (fun h => h1 ((hcond12_1 t).mp h)) (iblk12 V c 0 t) (iblk12 V c 1 t) (iblk12 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover12_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover12_A_3 c _ _ _ _ _ _ _ _ _ _ _ _ _ _ _ _ _ _)
    iexists _; iexact H4
  · by_cases h1 : t.val = 24
    · rw [show (dat12 V c).leavesExact 4 t = owns (c : Thread nD τ) (ms12_4 t) fullShare ((dat12 V c).after 4 t) from by
        unfold Dat.leavesExact; rw [liveAt12_4 t ((hcond12_1 t).mpr h1)], after12_4]
      rw [outsAt12_C V c t h0 h1]
      unfold out12_C_3 out12_C_4 sout12_C_0; (try dsimp only)
      rw [PhiS12_castSucc V c t, PhiS12_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun12_C c (grid12.coords t) _ _ _ _ _ _ _ _ _ _ _ _ (fun h => h0 ((hcond12_0 t).mp h)) ((hcond12_1 t).mpr h1) (iblk12 V c 0 t) (iblk12 V c 1 t) (iblk12 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover12_C_3 c _ _ _ _ _ _ _ _ _ _ _ _ _ _ _ _ _ _ _)
      unfold owns; iexists _; isplitr
      swap; · iexact H4
      ipureintro; exact View.read_writes_of_cover _ _ _ _ _ (cover12_C_4 c _ _ _ _ _ _ _ _ _ _ _ _ _ _ _ _ _ _ _)
    · rw [Dat.leavesExact_idle (dat12 V c) 4 t (idleAt12_4 t (fun h => h1 ((hcond12_1 t).mp h))) (noFlush12_4 t (fun h => h1 ((hcond12_1 t).mp h)))]
      rw [outsAt12_B V c t h0 h1]
      unfold out12_B_3 sout12_B_0; (try dsimp only)
      rw [PhiS12_castSucc V c t, PhiS12_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun12_B c (grid12.coords t) _ _ _ _ _ _ _ _ _ _ _ _ (fun h => h0 ((hcond12_0 t).mp h)) (fun h => h1 ((hcond12_1 t).mp h)) (iblk12 V c 0 t) (iblk12 V c 1 t) (iblk12 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover12_B_3 c _ _ _ _ _ _ _ _ _ _ _ _ _ _ _ _ _ _ _)
      iexists _; iexact H4

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- What the launch hands the region is the invariant before the first point. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After any point but the first the invariant gives the launch's back: the scratch row's contents are forgotten. -/
theorem Phi_out12 (c : Dev nD) (t : Fin (cfg12.N + 1)) (ht : t.val ≠ 0) : (dat12 V c).Φ t ⊢ Pipeline.ΦA spec12 c := by
  rw [show (dat12 V c).Φ t = PhiS12 V c t.val (Nat.le_of_lt_succ t.isLt) from rfl, PhiS12_pos V c _ _ ht, PhiA12_eq]
  iintro ⟨⟨HS0, HR⟩, Hg⟩
  isplitl [HS0 HR]
  · isplitl [HS0]
    · iexists _; iexact HS0
    iexact HR
  iexact Hg

/-- The same after the last point. -/
theorem hout12 (c : Dev nD) : (dat12 V c).Φ (Fin.last cfg12.N) ⊢ Pipeline.ΦA spec12 c :=
  Phi_out12 V c _ (by rw [Fin.val_last]; have : cfg12.N = 25 := N_12; omega)

end Cert.Kernel.Hand

end
-- ==== Proof.K.Reg13.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond13_0 (i : grid13.Coords) : Prop :=
  (Scalar.cmpi .ne (Scalar.extui (Scalar.cmpi .eq (BitVec.ofNat 32 (i 0).val) 0#32)) 0#32) = 1#1
/-- It holds at point 0 only. -/
theorem hcond13_0 : ∀ t : Fin cfg13.N, cond13_0 (grid13.coords t) ↔ t.val = 0 :=
  (by decide +kernel : ∀ t : Fin grid13.N, cond13_0 (grid13.coords t) ↔ t.val = 0)

/-- The body's second condition: the point is the grid's last. -/
abbrev cond13_1 (i : grid13.Coords) : Prop := k13_cond2 i = 1#1
/-- It holds at point 24 only. -/
theorem hcond13_1 : ∀ t : Fin cfg13.N, cond13_1 (grid13.coords t) ↔ t.val = 24 :=
  (by decide +kernel : ∀ t : Fin grid13.N, cond13_1 (grid13.coords t) ↔ t.val = 24)

/-! ## Where the windows are idle -/

theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
theorem liveAt13_3 : ∀ t : Fin cfg13.N, cfg13.idle 3 (grid13.coords t) = false := by decide +kernel
theorem liveAt13_4 : ∀ t : Fin cfg13.N, cfg13.idle 4 (grid13.coords t) = false := by decide +kernel
theorem liveAt13_5 : ∀ t : Fin cfg13.N, cfg13.idle 5 (grid13.coords t) = false := by decide +kernel
theorem liveAt13_6 : ∀ t : Fin cfg13.N, cfg13.idle 6 (grid13.coords t) = false := by decide +kernel
/-- At the first point the statistics window is idle, and its block is not written back there. -/
theorem idleAt13_7_A : ∀ t : Fin cfg13.N, cond13_0 (grid13.coords t) → ¬cond13_1 (grid13.coords t) → cfg13.idle 7 (grid13.coords t) = true := by decide +kernel
theorem noFlush13_7_A : ∀ t : Fin cfg13.N, cond13_0 (grid13.coords t) → ¬cond13_1 (grid13.coords t) → (cfg13.win 7).flush t = false := by decide +kernel
/-- At the points between, the same. -/
theorem idleAt13_7_B : ∀ t : Fin cfg13.N, ¬cond13_0 (grid13.coords t) → ¬cond13_1 (grid13.coords t) → cfg13.idle 7 (grid13.coords t) = true := by decide +kernel
theorem noFlush13_7_B : ∀ t : Fin cfg13.N, ¬cond13_0 (grid13.coords t) → ¬cond13_1 (grid13.coords t) → (cfg13.win 7).flush t = false := by decide +kernel
/-- At the last point the statistics window is live. -/
theorem liveAt13_7_C : ∀ t : Fin cfg13.N, ¬cond13_0 (grid13.coords t) → cond13_1 (grid13.coords t) → cfg13.idle 7 (grid13.coords t) = false := by decide +kernel

/-! ## The staging memrefs, the accumulator, and the views the results are stated through -/

abbrev ms13_0 (t : Fin cfg13.N) : Memref sig .tc .vmem S2000x512 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1x512 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x512 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S1x512 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S1x512 .f32 := win13_4.stage (cfg13.slots t 4)
abbrev hs13_4 (t : Fin cfg13.N) : (ms13_4 t).IsWhole := hstage13_4 ((cfg13.slots t 4).cast nbuf13_4)
abbrev ms13_5 (t : Fin cfg13.N) : Memref sig .tc .vmem S512x256 .bf16 := win13_5.stage (cfg13.slots t 5)
abbrev hs13_5 (t : Fin cfg13.N) : (ms13_5 t).IsWhole := hstage13_5 ((cfg13.slots t 5).cast nbuf13_5)
abbrev ms13_6 (t : Fin cfg13.N) : Memref sig .tc .vmem S2000x256 .f32 := win13_6.stage (cfg13.slots t 6)
abbrev hs13_6 (t : Fin cfg13.N) : (ms13_6 t).IsWhole := hstage13_6 ((cfg13.slots t 6).cast nbuf13_6)
abbrev ms13_7 (t : Fin cfg13.N) : Memref sig .tc .vmem S1x512 .f32 := win13_7.stage (cfg13.slots t 7)
abbrev hs13_7 (t : Fin cfg13.N) : (ms13_7 t).IsWhole := hstage13_7 ((cfg13.slots t 7).cast nbuf13_7)
/-- The accumulator: a whole scoped buffer of the kernel's own, carried from point to point. -/
abbrev scM13_0 : Memref sig .tc .vmem S1x512 .f32 := Memref.whole cc13_scratch0
abbrev VS13_0 : View sig .tc .vmem S1x512 .f32 := scM13_0.view
/-- One staging buffer of each output window, through which its contents are stated (the choice does not matter). -/
abbrev VO13_6 : View sig .tc .vmem S2000x256 .f32 := (Memref.whole cc13_stg6_0 : Memref sig .tc .vmem S2000x256 .f32).view
abbrev VO13_7 : View sig .tc .vmem S1x512 .f32 := (Memref.whole cc13_stg7_0 : Memref sig .tc .vmem S1x512 .f32).view

/-- The class's invariant with the accumulator opened as a memref owned at some contents; every other scoped buffer
    stays closed. -/
theorem PhiA13_eq (c : Dev nD) :
    (Pipeline.ΦA spec13 c : sProp 𝕄)
      = iprop(iprop((∃ d, owns (c : Thread nD τ) scM13_0 fullShare d)
          ∗ Pipeline.scopedRestBut (Ix := Unit) (Name := ℕ) (U := Pipeline.UD sig nD τ) (Lvl := ℕ) (Val := Elt F) spec13 c [cc13_scratch0])
          ∗ (∃ r, prngReg c r)) := by
  unfold Pipeline.ΦA; rw [scopedRest13_split]; simp only [scM13_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun13_A (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond13_0 i) (hc1 : ¬cond13_1 i)
    (x0 : Vec F S2000x512 .f32) (x1 : Vec F S1x512 .f32) (x2 : Vec F S1x512 .f32) (x3 : Vec F S1x512 .f32) (x4 : Vec F S1x512 .f32) (x5 : Vec F S512x256 .bf16) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc13__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc13__stage2_kernel_eq_skeleton]; unfold cc13__stage2_kernel_skel
    simp only [k13_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun13_B (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond13_0 i) (hc1 : ¬cond13_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc13__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc13__stage2_kernel_eq_skeleton]; unfold cc13__stage2_kernel_skel
    simp only [k13_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun13_C (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond13_0 i) (hc1 : cond13_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc13__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc13__stage2_kernel_eq_skeleton]; unfold cc13__stage2_kernel_skel
    simp only [k13_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond13_0 i) (hc1 : ¬cond13_1 i)
  (x0 : Vec F S2000x512 .f32) (x1 : Vec F S1x512 .f32) (x2 : Vec F S1x512 .f32) (x3 : Vec F S1x512 .f32) (x4 : Vec F S1x512 .f32) (x5 : Vec F S512x256 .bf16)

/-- At the first point the one store into the product window covers its block. -/
theorem cover13_A_6 (y : S2000x256.Idx) :
    ∃ pc ∈ (kernelRun13_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun13_A c i arg1 harg1 arg2 harg2 arg3 harg3 arg4 harg4 arg5 harg5 arg6 harg6 arg7 harg7 arg8 harg8 arg9 harg9 hc0 hc1 x0 x1 x2 x3 x4 x5).1 S2000x256.size (by sl_kernel_rfl) y

/-- What the first point leaves in the product window: its pieces read back. -/
def out13_A_6 : Vec F S2000x256 .f32 :=
  VO13_6.read (Elt F) (VO13_6.writes (Elt F) VO13_6.junk (kernelRun13_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out13_A_7 : Vec F S1x512 .f32 :=
  VO13_7.read (Elt F) (VO13_7.writes (Elt F) VO13_7.junk (kernelRun13_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover13_A_0 (y : S1x512.Idx) :
    ∃ pc ∈ (kernelRun13_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun13_A c i arg1 harg1 arg2 harg2 arg3 harg3 arg4 harg4 arg5 harg5 arg6 harg6 arg7 harg7 arg8 harg8 arg9 harg9 hc0 hc1 x0 x1 x2 x3 x4 x5).2.2.1 S1x512.size (by sl_kernel_rfl) y

/-- What the first point leaves in the accumulator. -/
def sout13_A_0 : Vec F S1x512 .f32 :=
  VS13_0.read (Elt F) (VS13_0.writes (Elt F) VS13_0.junk (kernelRun13_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond13_0 i) (hc1 : ¬cond13_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At a point between the one store into the product window covers its block. -/
theorem cover13_B_6 (y : S2000x256.Idx) :
    ∃ pc ∈ (kernelRun13_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun13_B c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out13_B_6 : Vec F S2000x256 .f32 :=
  VO13_6.read (Elt F) (VO13_6.writes (Elt F) VO13_6.junk (kernelRun13_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out13_B_7 : Vec F S1x512 .f32 :=
  VO13_7.read (Elt F) (VO13_7.writes (Elt F) VO13_7.junk (kernelRun13_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover13_B_0 (y : S1x512.Idx) :
    ∃ pc ∈ (kernelRun13_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun13_B c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout13_B_0 : Vec F S1x512 .f32 :=
  VS13_0.read (Elt F) (VS13_0.writes (Elt F) VS13_0.junk (kernelRun13_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond13_0 i) (hc1 : cond13_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At the last point the one store into the product window covers its block. -/
theorem cover13_C_6 (y : S2000x256.Idx) :
    ∃ pc ∈ (kernelRun13_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out13_C_6 : Vec F S2000x256 .f32 :=
  VO13_6.read (Elt F) (VO13_6.writes (Elt F) VO13_6.junk (kernelRun13_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover13_C_7 (y : S1x512.Idx) :
    ∃ pc ∈ (kernelRun13_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 x4 x5 xs0).2.1 S1x512.size (by sl_kernel_rfl) y

/-- What the last point leaves in the statistics window. -/
def out13_C_7 : Vec F S1x512 .f32 :=
  VO13_7.read (Elt F) (VO13_7.writes (Elt F) VO13_7.junk (kernelRun13_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover13_C_0 (y : S1x512.Idx) :
    ∃ pc ∈ (kernelRun13_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout13_C_0 : Vec F S1x512 .f32 :=
  VS13_0.read (Elt F) (VS13_0.writes (Elt F) VS13_0.junk (kernelRun13_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The inputs' buffers hold their blocks at every point

An input window is never idle and the body leaves its block in place; so its current buffer holds what a fetch at the
point puts there whether or not one happened: where none did, the block index has not moved (the five row and weight
windows are fetched once, at the first point). -/

theorem before13_0_of {c : Dev nD} (dat : Dat τ (Elt F) Unit ℕ (Pipeline.UD sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (Pipeline.UD sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (Pipeline.UD sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
theorem before13_3_of {c : Dev nD} (dat : Dat τ (Elt F) Unit ℕ (Pipeline.UD sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)
theorem before13_4_of {c : Dev nD} (dat : Dat τ (Elt F) Unit ℕ (Pipeline.UD sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)
theorem before13_5_of {c : Dev nD} (dat : Dat τ (Elt F) Unit ℕ (Pipeline.UD sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## What the outputs and the accumulator hold after each point -/

/-- The first point is not the last, -/
theorem notLast13_of_first (t : Fin cfg13.N) (h0 : t.val = 0) : ¬cond13_1 (grid13.coords t) :=
  fun h => by have := (hcond13_1 t).mp h; omega

/-- The first point's results at the point's own memrefs and input blocks: the product block, the statistics
    placeholder, the accumulator. -/
def outsPt13_A (c : Dev nD) (t : Fin cfg13.N) (h0 : t.val = 0) : Vec F S2000x256 .f32 × Vec F S1x512 .f32 × Vec F S1x512 .f32 :=
  (out13_A_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) ((hcond13_0 t).mpr h0) (notLast13_of_first t h0) (iblk13 V c 0 t) (iblk13 V c 1 t) (iblk13 V c 2 t) (iblk13 V c 3 t) (iblk13 V c 4 t) (iblk13 V c 5 t),
   out13_A_7 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) ((hcond13_0 t).mpr h0) (notLast13_of_first t h0) (iblk13 V c 0 t) (iblk13 V c 1 t) (iblk13 V c 2 t) (iblk13 V c 3 t) (iblk13 V c 4 t) (iblk13 V c 5 t),
   sout13_A_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) ((hcond13_0 t).mpr h0) (notLast13_of_first t h0) (iblk13 V c 0 t) (iblk13 V c 1 t) (iblk13 V c 2 t) (iblk13 V c 3 t) (iblk13 V c 4 t) (iblk13 V c 5 t))

/-- A point between, over the accumulator xs0 the point before left. -/
def outsPt13_B (c : Dev nD) (t : Fin cfg13.N) (h0 : ¬t.val = 0) (h1 : ¬t.val = 24) (xs0 : Vec F S1x512 .f32) : Vec F S2000x256 .f32 × Vec F S1x512 .f32 × Vec F S1x512 .f32 :=
  (out13_B_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) (fun h => h1 ((hcond13_1 t).mp h)) (iblk13 V c 0 t) (iblk13 V c 1 t) (iblk13 V c 2 t) (iblk13 V c 3 t) (iblk13 V c 4 t) (iblk13 V c 5 t) xs0,
   out13_B_7 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) (fun h => h1 ((hcond13_1 t).mp h)) (iblk13 V c 0 t) (iblk13 V c 1 t) (iblk13 V c 2 t) (iblk13 V c 3 t) (iblk13 V c 4 t) (iblk13 V c 5 t) xs0,
   sout13_B_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) (fun h => h1 ((hcond13_1 t).mp h)) (iblk13 V c 0 t) (iblk13 V c 1 t) (iblk13 V c 2 t) (iblk13 V c 3 t) (iblk13 V c 4 t) (iblk13 V c 5 t) xs0)

/-- The last point, over the accumulator xs0 the point before left. -/
def outsPt13_C (c : Dev nD) (t : Fin cfg13.N) (h0 : ¬t.val = 0) (h1 : t.val = 24) (xs0 : Vec F S1x512 .f32) : Vec F S2000x256 .f32 × Vec F S1x512 .f32 × Vec F S1x512 .f32 :=
  (out13_C_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) ((hcond13_1 t).mpr h1) (iblk13 V c 0 t) (iblk13 V c 1 t) (iblk13 V c 2 t) (iblk13 V c 3 t) (iblk13 V c 4 t) (iblk13 V c 5 t) xs0,
   out13_C_7 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) ((hcond13_1 t).mpr h1) (iblk13 V c 0 t) (iblk13 V c 1 t) (iblk13 V c 2 t) (iblk13 V c 3 t) (iblk13 V c 4 t) (iblk13 V c 5 t) xs0,
   sout13_C_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) ((hcond13_1 t).mpr h1) (iblk13 V c 0 t) (iblk13 V c 1 t) (iblk13 V c 2 t) (iblk13 V c 3 t) (iblk13 V c 4 t) (iblk13 V c 5 t) xs0)

/-- THE ACCUMULATION. What the product window, the statistics window and the accumulator hold after the body at
    position n: the case the position selects, run at the point's memrefs and input blocks, the accumulator it reads
    at what position n - 1 left. -/
def outsAt13 (c : Dev nD) : (n : ℕ) → n < cfg13.N → Vec F S2000x256 .f32 × Vec F S1x512 .f32 × Vec F S1x512 .f32
  | 0, hn => outsPt13_A V c ⟨0, hn⟩ rfl
  | n + 1, hn =>
    if h1 : n + 1 = 24 then
      outsPt13_C V c ⟨n + 1, hn⟩ (Nat.succ_ne_zero n) h1 (outsAt13 c n (Nat.lt_of_succ_lt hn)).2.2
    else
      outsPt13_B V c ⟨n + 1, hn⟩ (Nat.succ_ne_zero n) h1 (outsAt13 c n (Nat.lt_of_succ_lt hn)).2.2

/-- outsAt13 at the first point. -/
theorem outsAt13_A (c : Dev nD) (t : Fin cfg13.N) (h0 : t.val = 0) :
    outsAt13 V c t.val t.isLt = outsPt13_A V c t h0 := by
  obtain ⟨n, hn⟩ := t
  cases n with
  | zero => exact rfl
  | succ n => exact absurd h0 (Nat.succ_ne_zero n)

/-- outsAt13 at a point between: over what the point before left in the accumulator. -/
theorem outsAt13_B (c : Dev nD) (t : Fin cfg13.N) (h0 : ¬t.val = 0) (h1 : ¬t.val = 24) :
    outsAt13 V c t.val t.isLt = outsPt13_B V c t h0 h1 (outsAt13 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt13 at the last point: over what the point before left in the accumulator. -/
theorem outsAt13_C (c : Dev nD) (t : Fin cfg13.N) (h0 : ¬t.val = 0) (h1 : t.val = 24) :
    outsAt13 V c t.val t.isLt = outsPt13_C V c t h0 h1 (outsAt13 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS13 (c : Dev nD) : (n : ℕ) → n ≤ cfg13.N → sProp 𝕄
  | 0, _ => Pipeline.ΦA spec13 c
  | n + 1, hn => iprop(iprop(owns (c : Thread nD τ) scM13_0 fullShare ((outsAt13 V c n hn).2.2)
      ∗ Pipeline.scopedRestBut (Ix := Unit) (Name := ℕ) (U := Pipeline.UD sig nD τ) (Lvl := ℕ) (Val := Elt F) spec13 c [cc13_scratch0])
      ∗ (∃ r, prngReg c r))

theorem PhiS13_zero (c : Dev nD) (n : ℕ) (h : n ≤ cfg13.N) (hz : n = 0) : PhiS13 V c n h = Pipeline.ΦA spec13 c := by
  subst hz; rfl

theorem PhiS13_succ (c : Dev nD) (n : ℕ) (hn : n < cfg13.N) :
    PhiS13 V c (n + 1) hn = iprop(iprop(owns (c : Thread nD τ) scM13_0 fullShare ((outsAt13 V c n hn).2.2)
      ∗ Pipeline.scopedRestBut (Ix := Unit) (Name := ℕ) (U := Pipeline.UD sig nD τ) (Lvl := ℕ) (Val := Elt F) spec13 c [cc13_scratch0])
      ∗ (∃ r, prngReg c r)) := rfl

theorem PhiS13_pos (c : Dev nD) (n : ℕ) (h : n ≤ cfg13.N) (hz : n ≠ 0) :
    PhiS13 V c n h = iprop(iprop(owns (c : Thread nD τ) scM13_0 fullShare ((outsAt13 V c (n - 1) (by omega)).2.2)
      ∗ Pipeline.scopedRestBut (Ix := Unit) (Name := ℕ) (U := Pipeline.UD sig nD τ) (Lvl := ℕ) (Val := Elt F) spec13 c [cc13_scratch0])
      ∗ (∃ r, prngReg c r)) := by
  cases n with
  | zero => exact absurd rfl hz
  | succ n => rfl

/-! ## The proof data -/

/-- The arrays as the region finds them; after the body at point t each input's buffer at its block, the product
    window's at the first component of outsAt13, the statistics window's at the second; the invariant PhiS13; nothing
    owed; full shares. -/
def dat13 (c : Dev nD) : Dat τ (Elt F) Unit ℕ (Pipeline.UD sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => (outsAt13 V c t.val t.isLt).1
    | ⟨7, _⟩ => (outsAt13 V c t.val t.isLt).2.1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem PhiS13_castSucc (c : Dev nD) (t : Fin cfg13.N) :
    (dat13 V c).Φ t.castSucc = PhiS13 V c t.val (Nat.le_of_lt t.isLt) := by
  dsimp only [dat13]; simp only [Fin.coe_castSucc]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = (outsAt13 V c t.val t.isLt).1 := by dsimp only [dat13]
theorem after13_7 (c : Dev nD) (t : Fin cfg13.N) : (dat13 V c).after 7 t = (outsAt13 V c t.val t.isLt).2.1 := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point t: the invariant, what the core owes, and each window's current buffer at
    what it then holds, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d))
    ∗ (∃ d, owns (c : Thread nD τ) (ms13_5 t) fullShare ((dat13 V c).before 5 t d))
    ∗ (∃ d, owns (c : Thread nD τ) (ms13_6 t) fullShare ((dat13 V c).before 6 t d))
    ∗ (∃ d, owns (c : Thread nD τ) (ms13_7 t) fullShare ((dat13 V c).before 7 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t
    ∗ (dat13 V c).leavesExact 5 t
    ∗ (dat13 V c).leavesExact 6 t
    ∗ (dat13 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).owesAt () t.succ = (dat13 V c).owesAt () t.castSucc from rfl]
  rw [show (dat13 V c).Φ t.succ = PhiS13 V c (t.val + 1) t.isLt from rfl, PhiS13_succ]
  have hN : t.val < 25 := lt_of_lt_of_eq t.isLt (show cfg13.N = 25 from N_13)
  rw [show (dat13 V c).leavesExact 0 t = owns (c : Thread nD τ) (ms13_0 t) fullShare ((dat13 V c).after 0 t) from by
    unfold Dat.leavesExact; rw [liveAt13_0 t], after13_0]
  rw [show (dat13 V c).leavesExact 1 t = owns (c : Thread nD τ) (ms13_1 t) fullShare ((dat13 V c).after 1 t) from by
    unfold Dat.leavesExact; rw [liveAt13_1 t], after13_1]
  rw [show (dat13 V c).leavesExact 2 t = owns (c : Thread nD τ) (ms13_2 t) fullShare ((dat13 V c).after 2 t) from by
    unfold Dat.leavesExact; rw [liveAt13_2 t], after13_2]
  rw [show (dat13 V c).leavesExact 3 t = owns (c : Thread nD τ) (ms13_3 t) fullShare ((dat13 V c).after 3 t) from by
    unfold Dat.leavesExact; rw [liveAt13_3 t], after13_3]
  rw [show (dat13 V c).leavesExact 4 t = owns (c : Thread nD τ) (ms13_4 t) fullShare ((dat13 V c).after 4 t) from by
    unfold Dat.leavesExact; rw [liveAt13_4 t], after13_4]
  rw [show (dat13 V c).leavesExact 5 t = owns (c : Thread nD τ) (ms13_5 t) fullShare ((dat13 V c).after 5 t) from by
    unfold Dat.leavesExact; rw [liveAt13_5 t], after13_5]
  rw [show (dat13 V c).leavesExact 6 t = owns (c : Thread nD τ) (ms13_6 t) fullShare ((dat13 V c).after 6 t) from by
    unfold Dat.leavesExact; rw [liveAt13_6 t], after13_6]
  by_cases h0 : t.val = 0
  · -- the first point
    have hc0 : cond13_0 (grid13.coords t) := (hcond13_0 t).mpr h0
    have hc1 : ¬cond13_1 (grid13.coords t) := notLast13_of_first t h0
    rw [Dat.leavesExact_idle (dat13 V c) 7 t (idleAt13_7_A t hc0 hc1) (noFlush13_7_A t hc0 hc1)]
    rw [outsAt13_A V c t h0]
    unfold outsPt13_A out13_A_6 sout13_A_0; (try dsimp only)
    rw [PhiS13_castSucc V c t, PhiS13_zero V c _ _ h0, PhiA13_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun13_A c (grid13.coords t) _ _ _ _ _ _ _ _ _ _ _ _ _ _ _ _ _ _ hc0 hc1 (iblk13 V c 0 t) (iblk13 V c 1 t) (iblk13 V c 2 t) (iblk13 V c 3 t) (iblk13 V c 4 t) (iblk13 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover13_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover13_A_6 c _ _ _ _ _ _ _ _ _ _ _ _ _ _ _ _ _ _ _ _ _ _ _ _ _ _ _)
    iexists _; iexact H7
  · by_cases h1 : t.val = 24
    · -- the last point
      have hc0 : ¬cond13_0 (grid13.coords t) := fun h => h0 ((hcond13_0 t).mp h)
      have hc1 : cond13_1 (grid13.coords t) := (hcond13_1 t).mpr h1
      rw [show (dat13 V c).leavesExact 7 t = owns (c : Thread nD τ) (ms13_7 t) fullShare ((dat13 V c).after 7 t) from by
        unfold Dat.leavesExact; rw [liveAt13_7_C t hc0 hc1], after13_7]
      rw [outsAt13_C V c t h0 h1]
      unfold outsPt13_C out13_C_6 out13_C_7 sout13_C_0; (try dsimp only)
      rw [PhiS13_castSucc V c t, PhiS13_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun13_C c (grid13.coords t) _ _ _ _ _ _ _ _ _ _ _ _ _ _ _ _ _ _ hc0 hc1 (iblk13 V c 0 t) (iblk13 V c 1 t) (iblk13 V c 2 t) (iblk13 V c 3 t) (iblk13 V c 4 t) (iblk13 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover13_C_6 c _ _ _ _ _ _ _ _ _ _ _ _ _ _ _ _ _ _ _ _ _ _ _ _ _ _ _ _)
      unfold owns; iexists _; isplitr
      swap; · iexact H7
      ipureintro; exact View.read_writes_of_cover _ _ _ _ _ (cover13_C_7 c _ _ _ _ _ _ _ _ _ _ _ _ _ _ _ _ _ _ _ _ _ _ _ _ _ _ _ _)
    · -- a point between
      have hc0 : ¬cond13_0 (grid13.coords t) := fun h => h0 ((hcond13_0 t).mp h)
      have hc1 : ¬cond13_1 (grid13.coords t) := fun h => h1 ((hcond13_1 t).mp h)
      rw [Dat.leavesExact_idle (dat13 V c) 7 t (idleAt13_7_B t hc0 hc1) (noFlush13_7_B t hc0 hc1)]
      rw [outsAt13_B V c t h0 h1]
      unfold outsPt13_B out13_B_6 sout13_B_0; (try dsimp only)
      rw [PhiS13_castSucc V c t, PhiS13_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun13_B c (grid13.coords t) _ _ _ _ _ _ _ _ _ _ _ _ _ _ _ _ _ _ hc0 hc1 (iblk13 V c 0 t) (iblk13 V c 1 t) (iblk13 V c 2 t) (iblk13 V c 3 t) (iblk13 V c 4 t) (iblk13 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover13_B_6 c _ _ _ _ _ _ _ _ _ _ _ _ _ _ _ _ _ _ _ _ _ _ _ _ _ _ _ _)
      iexists _; iexact H7

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point the invariant gives the launch's back: the accumulator's named contents are forgotten. -/
theorem Phi_out13 (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨HS0, HR⟩, Hg⟩
  isplitl [HS0 HR]
  · isplitl [HS0]
    · iexists _; iexact HS0
    iexact HR
  iexact Hg

/-- The same after the last point. -/
theorem hout13 (c : Dev nD) : (dat13 V c).Φ (Fin.last cfg13.N) ⊢ Pipeline.ΦA spec13 c :=
  Phi_out13 V c _ (by rw [Fin.val_last]; have : cfg13.N = 25 := N_13; omega)

end Region

end Cert.Kernel.Hand

end
-- ==== Proof.K.Reg14.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## What the body leaves in the output block -/

/-- The whole block of rows, as a rectangle of itself. -/
abbrev rB14 : Rect S2000x256 := Rect.unit (s := S2000x256) ![0, 0] S2000x256.size inb_S2000x256_S2000x256_0_0
/-- The whole single row, as a rectangle of itself. -/
abbrev rR14 : Rect S1x256 := Rect.unit (s := S1x256) ![0, 0] S1x256.size inb_S1x256_S1x256_0_0

/-- The output block after the body, from the five input blocks: the body's one store, of the
    payload of the five whole loads, laid over the block.  (The payload takes the row operands in
    the order the body loads them: the fourth, the second, the third, the fifth.) -/
def out14_5 (x0 : Vec F S2000x256 .f32) (x1 x2 x3 x4 : Vec F S1x256 .f32) : Vec F S2000x256 .f32 :=
  View.canon [⟨rB14, k14_pay1 (View.ld x0 rB14) (View.ld x3 rR14) (View.ld x1 rR14) (View.ld x2 rR14) (View.ld x4 rR14)⟩]

/-- One store of the whole block covers it. -/
theorem cover14_5 (p : Vec F S2000x256 .f32) (y : S2000x256.Idx) :
    ∃ pc ∈ ([⟨rB14, p⟩] : List (View.Piece (Elt F) S2000x256 .f32)), y ∈ pc.1.set :=
  View.cover_of_tiled [⟨rB14, p⟩] S2000x256.size (by rfl) y

/-! ## The body's triple -/

set_option maxHeartbeats 1000000 in
/-- The kernel body on whole staging memrefs: holding the five inputs' at contents reading `x0 … x4`
    and the output's at anything, it runs to a state holding the inputs' as they were and the
    output's at `out14_5` of them.  The body is its skeleton of memory operations over the named
    payload; the executor steps through the six loads and the store. -/
theorem sound_kernel14 (c : Dev nD) (E : Set ℕ) (i : grid14.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out14_5 x0 x1 x2 x3 x4)) -∗ K ⟨⟩))
      ⊢ wp frame (wpE (defs₀ (F := F)) Variants.none c none) E
          (cc14__stage3_kernel i arg1 harg1 arg2 harg2 arg3 harg3 arg4 harg4 arg5 harg5 arg6 harg6) K := by
  simp only [cc14__stage3_kernel_eq_skeleton]; unfold cc14__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The proof data -/

/-- The proof data of the pipeline on core `c`: the arrays as the region finds them; after the
    body at point `t` each input's buffer at its block and the output's at `out14_5` of the input
    blocks; the class's invariant; nothing owed; full shares. -/
def dat14 (c : Dev nD) : Dat τ (Elt F) Unit ℕ (Pipeline.UD sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t
    = out14_5 (iblk14 V c 0 t) (iblk14 V c 1 t) (iblk14 V c 2 t) (iblk14 V c 3 t) (iblk14 V c 4 t) := by dsimp only [dat14]

/-! ## What the body finds in the input windows' buffers

An input window's current staging buffer holds its block at every point, whether the pipeline
fetched it there or not: a window not fetched at a point has the block index of the point before,
and the body left that point's block in place.  (The four row operands are fetched at the first
point only; the first operand at every point.) -/

theorem before14_0 (c : Dev nD) (t : Fin cfg14.N) (d) : (dat14 V c).before 0 t d = iblk14 V c 0 t :=
  ((dat14 V c).before_in_eq_fetched 0 rfl (fun _ => rfl) (fun _ _ _ => rfl)
      (fun t => by rw [after14_0 V c t]; unfold Dat.blockOf iblk14; rw [A_eq14 V c 0]; try rfl) t d).trans
    (by unfold Dat.fetched Dat.blockOf iblk14; rw [A_eq14 V c 0]; try rfl)
theorem before14_1 (c : Dev nD) (t : Fin cfg14.N) (d) : (dat14 V c).before 1 t d = iblk14 V c 1 t :=
  ((dat14 V c).before_in_eq_fetched 1 rfl (fun _ => rfl) (fun _ _ _ => rfl)
      (fun t => by rw [after14_1 V c t]; unfold Dat.blockOf iblk14; rw [A_eq14 V c 1]; try rfl) t d).trans
    (by unfold Dat.fetched Dat.blockOf iblk14; rw [A_eq14 V c 1]; try rfl)
theorem before14_2 (c : Dev nD) (t : Fin cfg14.N) (d) : (dat14 V c).before 2 t d = iblk14 V c 2 t :=
  ((dat14 V c).before_in_eq_fetched 2 rfl (fun _ => rfl) (fun _ _ _ => rfl)
      (fun t => by rw [after14_2 V c t]; unfold Dat.blockOf iblk14; rw [A_eq14 V c 2]; try rfl) t d).trans
    (by unfold Dat.fetched Dat.blockOf iblk14; rw [A_eq14 V c 2]; try rfl)
theorem before14_3 (c : Dev nD) (t : Fin cfg14.N) (d) : (dat14 V c).before 3 t d = iblk14 V c 3 t :=
  ((dat14 V c).before_in_eq_fetched 3 rfl (fun _ => rfl) (fun _ _ _ => rfl)
      (fun t => by rw [after14_3 V c t]; unfold Dat.blockOf iblk14; rw [A_eq14 V c 3]; try rfl) t d).trans
    (by unfold Dat.fetched Dat.blockOf iblk14; rw [A_eq14 V c 3]; try rfl)
theorem before14_4 (c : Dev nD) (t : Fin cfg14.N) (d) : (dat14 V c).before 4 t d = iblk14 V c 4 t :=
  ((dat14 V c).before_in_eq_fetched 4 rfl (fun _ => rfl) (fun _ _ _ => rfl)
      (fun t => by rw [after14_4 V c t]; unfold Dat.blockOf iblk14; rw [A_eq14 V c 4]; try rfl) t d).trans
    (by unfold Dat.fetched Dat.blockOf iblk14; rw [A_eq14 V c 4]; try rfl)

/-! ## The body obligation -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' buffers hold their blocks, so the body's triple applies; the
    invariant and what the core owes pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ (grid14.coords t) _ _ _ _ _ _ _ _ _ _ _ _
    (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

/-! ## The invariant at the two ends -/

/-- The proof data's invariant is the class's at every point: the region's entry hands it over as it is, -/
theorem hin14 (c : Dev nD) : Pipeline.ΦA spec14 c ⊢ (dat14 V c).Φ 0 := by
  dsimp only [dat14]; exact .rfl

/-- and takes it back as it is. -/
theorem hout14 (c : Dev nD) : (dat14 V c).Φ (Fin.last cfg14.N) ⊢ Pipeline.ΦA spec14 c := by
  dsimp only [dat14]; exact .rfl

end Cert.Kernel.Hand

end
-- ==== Proof.K.Reg15.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt15`), the scratch row's component feeding the next point's run. Everything
is stated at an arbitrary float family and at a parameter `V`: the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's current staging buffer holds its block at every point, fetched there or not (unfetched, the
    block index has not moved), for any proof data whose array is `V`'s and whose body leaves the block in place. -/
theorem before15_0_of {c : Dev nD} (dat : Dat τ (Elt F) Unit ℕ (Pipeline.UD sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (Pipeline.UD sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of {c : Dev nD} (dat : Dat τ (Elt F) Unit ℕ (Pipeline.UD sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's two branch conditions, over the grid -/

/-- The zeroing branch's condition, from the grid coordinate: the coordinate is 0. -/
abbrev cond15_0 (i : grid15.Coords) : Prop := (Scalar.cmpi .ne (Scalar.extui (Scalar.cmpi .eq (BitVec.ofNat 32 (i 0).val) 0#32)) 0#32) = 1#1
/-- It holds at the first point only. -/
theorem hcond15_0 : ∀ t : Fin cfg15.N, cond15_0 (grid15.coords t) ↔ t.val = 0 :=
  (by decide +kernel : ∀ t : Fin grid15.N, cond15_0 (grid15.coords t) ↔ t.val = 0)

/-- The copying branch's condition: the coordinate is the last. -/
abbrev cond15_1 (i : grid15.Coords) : Prop := k15_cond2 i = 1#1
/-- It holds at the last point only. -/
theorem hcond15_1 : ∀ t : Fin cfg15.N, cond15_1 (grid15.coords t) ↔ t.val = 24 :=
  (by decide +kernel : ∀ t : Fin grid15.N, cond15_1 (grid15.coords t) ↔ t.val = 24)

/-! ## Where the windows are idle -/

theorem liveAt15_0 : ∀ t : Fin cfg15.N, cfg15.idle 0 (grid15.coords t) = false := by decide +kernel
theorem liveAt15_1 : ∀ t : Fin cfg15.N, cfg15.idle 1 (grid15.coords t) = false := by decide +kernel
theorem liveAt15_2 : ∀ t : Fin cfg15.N, cfg15.idle 2 (grid15.coords t) = false := by decide +kernel
theorem liveAt15_3 : ∀ t : Fin cfg15.N, cfg15.idle 3 (grid15.coords t) = false := by decide +kernel
/-- Away from the last point the statistics window is idle (the body stores nothing into it) and not written back. -/
theorem idleAt15_4 : ∀ t : Fin cfg15.N, ¬cond15_1 (grid15.coords t) → cfg15.idle 4 (grid15.coords t) = true := by decide +kernel
theorem noFlush15_4 : ∀ t : Fin cfg15.N, ¬cond15_1 (grid15.coords t) → (cfg15.win 4).flush t = false := by decide +kernel
/-- At the last point it is live. -/
theorem liveAt15_4 : ∀ t : Fin cfg15.N, cond15_1 (grid15.coords t) → cfg15.idle 4 (grid15.coords t) = false := by decide +kernel

/-! ## The staging memrefs the body is called with, and the scratch row -/

/-- One staging buffer of each output window, through which its contents are stated (the choice does not matter). -/
abbrev VO15_3 : View sig .tc .vmem S2000x512 .f32 := (Memref.whole cc15_stg3_0 : Memref sig .tc .vmem S2000x512 .f32).view
abbrev VO15_4 : View sig .tc .vmem S1x1024 .f32 := (Memref.whole cc15_stg4_0 : Memref sig .tc .vmem S1x1024 .f32).view
/-- Each window's current staging memref at point `t`, spelled as the pipeline passes it, and its wholeness. -/
abbrev ms15_0 (t : Fin cfg15.N) : Memref sig .tc .vmem S2000x256 .f32 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S2000x256 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S256x512 .bf16 := win15_2.stage (cfg15.slots t 2)
abbrev hs15_2 (t : Fin cfg15.N) : (ms15_2 t).IsWhole := hstage15_2 ((cfg15.slots t 2).cast nbuf15_2)
abbrev ms15_3 (t : Fin cfg15.N) : Memref sig .tc .vmem S2000x512 .f32 := win15_3.stage (cfg15.slots t 3)
abbrev hs15_3 (t : Fin cfg15.N) : (ms15_3 t).IsWhole := hstage15_3 ((cfg15.slots t 3).cast nbuf15_3)
abbrev ms15_4 (t : Fin cfg15.N) : Memref sig .tc .vmem S1x1024 .f32 := win15_4.stage (cfg15.slots t 4)
abbrev hs15_4 (t : Fin cfg15.N) : (ms15_4 t).IsWhole := hstage15_4 ((cfg15.slots t 4).cast nbuf15_4)
/-- The scratch row: a whole scoped buffer of the kernel's own, passed beside the windows. -/
abbrev scM15_0 : Memref sig .tc .vmem S1x1024 .f32 := Memref.whole cc15_scratch0
/-- The same as a view: what the row holds is stated through it. -/
abbrev VS15_0 : View sig .tc .vmem S1x1024 .f32 := scM15_0.view

/-- The other scoped buffers of the core (no staging buffer of this pipeline, not the scratch row), unopened. -/
abbrev restBut15 (c : Dev nD) : sProp 𝕄 :=
  Pipeline.scopedRestBut (Ix := Unit) (Name := ℕ) (U := Pipeline.UD sig nD τ) (Lvl := ℕ) (Val := Elt F) spec15 c [cc15_scratch0]

/-- The region's invariant with the scratch row as a memref owned at some contents. -/
theorem PhiA15_eq (c : Dev nD) :
    (Pipeline.ΦA spec15 c : sProp 𝕄)
      = iprop(iprop((∃ d, owns (c : Thread nD τ) scM15_0 fullShare d) ∗ restBut15 (F := F) c) ∗ (∃ r, prngReg c r)) := by
  unfold Pipeline.ΦA; rw [scopedRest15_split]; simp only [scM15_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun15_A (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i)
    (x0 : Vec F S2000x256 .f32) (x1 : Vec F S2000x256 .f32) (x2 : Vec F S256x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc15__stage1_kernel i arg1 harg1 arg2 harg2 arg3 harg3 arg4 harg4 arg5 harg5 arg6 harg6) K } := by
  refine ⟨?_, ?_, fun xi4 E K => ?run⟩
  case run =>
    simp only [cc15__stage1_kernel_eq_skeleton]; unfold cc15__stage1_kernel_skel
    simp only [k15_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun15_B (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i)
    (x0 : Vec F S2000x256 .f32) (x1 : Vec F S2000x256 .f32) (x2 : Vec F S256x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc15__stage1_kernel i arg1 harg1 arg2 harg2 arg3 harg3 arg4 harg4 arg5 harg5 arg6 harg6) K } := by
  refine ⟨?_, ?_, fun xi4 E K => ?run⟩
  case run =>
    simp only [cc15__stage1_kernel_eq_skeleton]; unfold cc15__stage1_kernel_skel
    simp only [k15_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun15_C (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc15__stage1_kernel i arg1 harg1 arg2 harg2 arg3 harg3 arg4 harg4 arg5 harg5 arg6 harg6) K } := by
  refine ⟨?_, ?_, ?_, fun E K => ?run⟩
  case run =>
    simp only [cc15__stage1_kernel_eq_skeleton]; unfold cc15__stage1_kernel_skel
    simp only [k15_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover15_A_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i)
    (x0 : Vec F S2000x256 .f32) (x1 : Vec F S2000x256 .f32) (x2 : Vec F S256x512 .bf16) (y : S2000x512.Idx) :
    ∃ pc ∈ (kernelRun15_A c i arg1 harg1 arg2 harg2 arg3 harg3 arg4 harg4 arg5 harg5 arg6 harg6 hc0 hc1 x0 x1 x2).1, y ∈ pc.1.set :=
  View.cover_of_tiledL (kernelRun15_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out15_A_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i)
    (x0 : Vec F S2000x256 .f32) (x1 : Vec F S2000x256 .f32) (x2 : Vec F S256x512 .bf16) : Vec F S2000x512 .f32 :=
  VO15_3.read (Elt F) (VO15_3.writes (Elt F) VO15_3.junk (kernelRun15_A c i arg1 harg1 arg2 harg2 arg3 harg3 arg4 harg4 arg5 harg5 arg6 harg6 hc0 hc1 x0 x1 x2).1)

/-- The first point's pieces for the scratch row cover it: the zeroing store is the whole row. -/
theorem scover15_A_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i)
    (x0 : Vec F S2000x256 .f32) (x1 : Vec F S2000x256 .f32) (x2 : Vec F S256x512 .bf16) (y : S1x1024.Idx) :
    ∃ pc ∈ (kernelRun15_A c i arg1 harg1 arg2 harg2 arg3 harg3 arg4 harg4 arg5 harg5 arg6 harg6 hc0 hc1 x0 x1 x2).2.1, y ∈ pc.1.set :=
  View.cover_of_tiledL (kernelRun15_A c i arg1 harg1 arg2 harg2 arg3 harg3 arg4 harg4 arg5 harg5 arg6 harg6 hc0 hc1 x0 x1 x2).2.1 S1x1024.size (by sl_kernel_rfl) y

/-- What the first point leaves in the scratch row. -/
def sout15_A_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i)
    (x0 : Vec F S2000x256 .f32) (x1 : Vec F S2000x256 .f32) (x2 : Vec F S256x512 .bf16) : Vec F S1x1024 .f32 :=
  VS15_0.read (Elt F) (VS15_0.writes (Elt F) VS15_0.junk (kernelRun15_A c i arg1 harg1 arg2 harg2 arg3 harg3 arg4 harg4 arg5 harg5 arg6 harg6 hc0 hc1 x0 x1 x2).2.1)

/-- A middle point's pieces for the output block tile it. -/
theorem cover15_B_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i)
    (x0 : Vec F S2000x256 .f32) (x1 : Vec F S2000x256 .f32) (x2 : Vec F S256x512 .bf16) (xs0 : Vec F S1x1024 .f32) (y : S2000x512.Idx) :
    ∃ pc ∈ (kernelRun15_B c i arg1 harg1 arg2 harg2 arg3 harg3 arg4 harg4 arg5 harg5 arg6 harg6 hc0 hc1 x0 x1 x2 xs0).1, y ∈ pc.1.set :=
  View.cover_of_tiledL (kernelRun15_B c i arg1 harg1 arg2 harg2 arg3 harg3 arg4 harg4 arg5 harg5 arg6 harg6 hc0 hc1 x0 x1 x2 xs0).1 S2000x512.size (by sl_kernel_rfl) y

/-- What a middle point leaves in the output block's staging buffer. -/
def out15_B_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i)
    (x0 : Vec F S2000x256 .f32) (x1 : Vec F S2000x256 .f32) (x2 : Vec F S256x512 .bf16) (xs0 : Vec F S1x1024 .f32) : Vec F S2000x512 .f32 :=
  VO15_3.read (Elt F) (VO15_3.writes (Elt F) VO15_3.junk (kernelRun15_B c i arg1 harg1 arg2 harg2 arg3 harg3 arg4 harg4 arg5 harg5 arg6 harg6 hc0 hc1 x0 x1 x2 xs0).1)

/-- A middle point's pieces for the scratch row tile it: the two half-row stores. -/
theorem scover15_B_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i)
    (x0 : Vec F S2000x256 .f32) (x1 : Vec F S2000x256 .f32) (x2 : Vec F S256x512 .bf16) (xs0 : Vec F S1x1024 .f32) (y : S1x1024.Idx) :
    ∃ pc ∈ (kernelRun15_B c i arg1 harg1 arg2 harg2 arg3 harg3 arg4 harg4 arg5 harg5 arg6 harg6 hc0 hc1 x0 x1 x2 xs0).2.1, y ∈ pc.1.set :=
  View.cover_of_tiledL (kernelRun15_B c i arg1 harg1 arg2 harg2 arg3 harg3 arg4 harg4 arg5 harg5 arg6 harg6 hc0 hc1 x0 x1 x2 xs0).2.1 S1x512.size (by sl_kernel_rfl) y

/-- What a middle point leaves in the scratch row. -/
def sout15_B_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i)
    (x0 : Vec F S2000x256 .f32) (x1 : Vec F S2000x256 .f32) (x2 : Vec F S256x512 .bf16) (xs0 : Vec F S1x1024 .f32) : Vec F S1x1024 .f32 :=
  VS15_0.read (Elt F) (VS15_0.writes (Elt F) VS15_0.junk (kernelRun15_B c i arg1 harg1 arg2 harg2 arg3 harg3 arg4 harg4 arg5 harg5 arg6 harg6 hc0 hc1 x0 x1 x2 xs0).2.1)

/-- The last point's pieces for the output block tile it. -/
theorem cover15_C_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) (y : S2000x512.Idx) :
    ∃ pc ∈ (kernelRun15_C c i arg1 harg1 arg2 harg2 arg3 harg3 arg4 harg4 arg5 harg5 arg6 harg6 hc0 hc1 x0 x1 x2 xs0).1, y ∈ pc.1.set :=
  View.cover_of_tiledL (kernelRun15_C c i arg1 harg1 arg2 harg2 arg3 harg3 arg4 harg4 arg5 harg5 arg6 harg6 hc0 hc1 x0 x1 x2 xs0).1 S2000x512.size (by sl_kernel_rfl) y

/-- What the last point leaves in the output block's staging buffer. -/
def out15_C_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) : Vec F S2000x512 .f32 :=
  VO15_3.read (Elt F) (VO15_3.writes (Elt F) VO15_3.junk (kernelRun15_C c i arg1 harg1 arg2 harg2 arg3 harg3 arg4 harg4 arg5 harg5 arg6 harg6 hc0 hc1 x0 x1 x2 xs0).1)

/-- The last point's pieces for the statistics block tile it: the copy of the whole scratch row. -/
theorem cover15_C_4 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) (y : S1x1024.Idx) :
    ∃ pc ∈ (kernelRun15_C c i arg1 harg1 arg2 harg2 arg3 harg3 arg4 harg4 arg5 harg5 arg6 harg6 hc0 hc1 x0 x1 x2 xs0).2.1, y ∈ pc.1.set :=
  View.cover_of_tiledL (kernelRun15_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out15_C_4 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) : Vec F S1x1024 .f32 :=
  VO15_4.read (Elt F) (VO15_4.writes (Elt F) VO15_4.junk (kernelRun15_C c i arg1 harg1 arg2 harg2 arg3 harg3 arg4 harg4 arg5 harg5 arg6 harg6 hc0 hc1 x0 x1 x2 xs0).2.1)

/-- The last point's pieces for the scratch row tile it: the two half-row stores. -/
theorem scover15_C_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) (y : S1x1024.Idx) :
    ∃ pc ∈ (kernelRun15_C c i arg1 harg1 arg2 harg2 arg3 harg3 arg4 harg4 arg5 harg5 arg6 harg6 hc0 hc1 x0 x1 x2 xs0).2.2.1, y ∈ pc.1.set :=
  View.cover_of_tiledL (kernelRun15_C c i arg1 harg1 arg2 harg2 arg3 harg3 arg4 harg4 arg5 harg5 arg6 harg6 hc0 hc1 x0 x1 x2 xs0).2.2.1 S1x512.size (by sl_kernel_rfl) y

/-- What the last point leaves in the scratch row. -/
def sout15_C_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) : Vec F S1x1024 .f32 :=
  VS15_0.read (Elt F) (VS15_0.writes (Elt F) VS15_0.junk (kernelRun15_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut15_4 : Vec F S1x1024 .f32 := VO15_4.read (Elt F) VO15_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt15 (c : Dev nD) : (n : ℕ) → n < cfg15.N → Vec F S2000x512 .f32 × Vec F S1x1024 .f32 × Vec F S1x1024 .f32
  | 0, hn => (out15_A_3 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) (ms15_3 ⟨0, hn⟩) (hs15_3 ⟨0, hn⟩) (ms15_4 ⟨0, hn⟩) (hs15_4 ⟨0, hn⟩) scM15_0 (Memref.isWhole_whole _) ((hcond15_0 ⟨0, hn⟩).mpr rfl) (fun h => (fun h => by (try dsimp only at h); omega) ((hcond15_1 ⟨0, hn⟩).mp h)) (iblk15 V c 0 ⟨0, hn⟩) (iblk15 V c 1 ⟨0, hn⟩) (iblk15 V c 2 ⟨0, hn⟩), idleOut15_4, sout15_A_0 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) (ms15_3 ⟨0, hn⟩) (hs15_3 ⟨0, hn⟩) (ms15_4 ⟨0, hn⟩) (hs15_4 ⟨0, hn⟩) scM15_0 (Memref.isWhole_whole _) ((hcond15_0 ⟨0, hn⟩).mpr rfl) (fun h => (fun h => by (try dsimp only at h); omega) ((hcond15_1 ⟨0, hn⟩).mp h)) (iblk15 V c 0 ⟨0, hn⟩) (iblk15 V c 1 ⟨0, hn⟩) (iblk15 V c 2 ⟨0, hn⟩))
  | n + 1, hn =>
    if h1 : n + 1 = 24 then
      (out15_C_3 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) (ms15_4 ⟨n + 1, hn⟩) (hs15_4 ⟨n + 1, hn⟩) scM15_0 (Memref.isWhole_whole _) (fun h => absurd ((hcond15_0 ⟨n + 1, hn⟩).mp h) (Nat.succ_ne_zero n)) ((hcond15_1 ⟨n + 1, hn⟩).mpr h1) (iblk15 V c 0 ⟨n + 1, hn⟩) (iblk15 V c 1 ⟨n + 1, hn⟩) (iblk15 V c 2 ⟨n + 1, hn⟩) (outsAt15 c n (Nat.lt_of_succ_lt hn)).2.2, out15_C_4 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) (ms15_4 ⟨n + 1, hn⟩) (hs15_4 ⟨n + 1, hn⟩) scM15_0 (Memref.isWhole_whole _) (fun h => absurd ((hcond15_0 ⟨n + 1, hn⟩).mp h) (Nat.succ_ne_zero n)) ((hcond15_1 ⟨n + 1, hn⟩).mpr h1) (iblk15 V c 0 ⟨n + 1, hn⟩) (iblk15 V c 1 ⟨n + 1, hn⟩) (iblk15 V c 2 ⟨n + 1, hn⟩) (outsAt15 c n (Nat.lt_of_succ_lt hn)).2.2, sout15_C_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) (ms15_4 ⟨n + 1, hn⟩) (hs15_4 ⟨n + 1, hn⟩) scM15_0 (Memref.isWhole_whole _) (fun h => absurd ((hcond15_0 ⟨n + 1, hn⟩).mp h) (Nat.succ_ne_zero n)) ((hcond15_1 ⟨n + 1, hn⟩).mpr h1) (iblk15 V c 0 ⟨n + 1, hn⟩) (iblk15 V c 1 ⟨n + 1, hn⟩) (iblk15 V c 2 ⟨n + 1, hn⟩) (outsAt15 c n (Nat.lt_of_succ_lt hn)).2.2)
    else
      (out15_B_3 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) (ms15_4 ⟨n + 1, hn⟩) (hs15_4 ⟨n + 1, hn⟩) scM15_0 (Memref.isWhole_whole _) (fun h => absurd ((hcond15_0 ⟨n + 1, hn⟩).mp h) (Nat.succ_ne_zero n)) (fun h => h1 ((hcond15_1 ⟨n + 1, hn⟩).mp h)) (iblk15 V c 0 ⟨n + 1, hn⟩) (iblk15 V c 1 ⟨n + 1, hn⟩) (iblk15 V c 2 ⟨n + 1, hn⟩) (outsAt15 c n (Nat.lt_of_succ_lt hn)).2.2, idleOut15_4, sout15_B_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) (ms15_4 ⟨n + 1, hn⟩) (hs15_4 ⟨n + 1, hn⟩) scM15_0 (Memref.isWhole_whole _) (fun h => absurd ((hcond15_0 ⟨n + 1, hn⟩).mp h) (Nat.succ_ne_zero n)) (fun h => h1 ((hcond15_1 ⟨n + 1, hn⟩).mp h)) (iblk15 V c 0 ⟨n + 1, hn⟩) (iblk15 V c 1 ⟨n + 1, hn⟩) (iblk15 V c 2 ⟨n + 1, hn⟩) (outsAt15 c n (Nat.lt_of_succ_lt hn)).2.2)

/-- `outsAt15` at the first point. -/
theorem outsAt15_A (c : Dev nD) (t : Fin cfg15.N) (h0 : t.val = 0) (h1 : ¬t.val = 24) :
    outsAt15 V c t.val t.isLt = (out15_A_3 c (grid15.coords t) (ms15_0 t) (hs15_0 t) (ms15_1 t) (hs15_1 t) (ms15_2 t) (hs15_2 t) (ms15_3 t) (hs15_3 t) (ms15_4 t) (hs15_4 t) scM15_0 (Memref.isWhole_whole _) ((hcond15_0 t).mpr h0) (fun h => h1 ((hcond15_1 t).mp h)) (iblk15 V c 0 t) (iblk15 V c 1 t) (iblk15 V c 2 t), idleOut15_4, sout15_A_0 c (grid15.coords t) (ms15_0 t) (hs15_0 t) (ms15_1 t) (hs15_1 t) (ms15_2 t) (hs15_2 t) (ms15_3 t) (hs15_3 t) (ms15_4 t) (hs15_4 t) scM15_0 (Memref.isWhole_whole _) ((hcond15_0 t).mpr h0) (fun h => h1 ((hcond15_1 t).mp h)) (iblk15 V c 0 t) (iblk15 V c 1 t) (iblk15 V c 2 t)) := by
  obtain ⟨n, hn⟩ := t
  cases n with
  | zero => exact rfl
  | succ n => exact absurd h0 (Nat.succ_ne_zero n)

/-- `outsAt15` at a middle point: that case's contents, over the scratch row the point before left. -/
theorem outsAt15_B (c : Dev nD) (t : Fin cfg15.N) (h0 : ¬t.val = 0) (h1 : ¬t.val = 24) :
    outsAt15 V c t.val t.isLt = (out15_B_3 c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) (fun h => h1 ((hcond15_1 t).mp h)) (iblk15 V c 0 t) (iblk15 V c 1 t) (iblk15 V c 2 t) (outsAt15 V c (t.val - 1) (Nat.lt_of_le_of_lt (Nat.sub_le _ _) t.isLt)).2.2, idleOut15_4, sout15_B_0 c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) (fun h => h1 ((hcond15_1 t).mp h)) (iblk15 V c 0 t) (iblk15 V c 1 t) (iblk15 V c 2 t) (outsAt15 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt15` at the last point. -/
theorem outsAt15_C (c : Dev nD) (t : Fin cfg15.N) (h0 : ¬t.val = 0) (h1 : t.val = 24) :
    outsAt15 V c t.val t.isLt = (out15_C_3 c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) ((hcond15_1 t).mpr h1) (iblk15 V c 0 t) (iblk15 V c 1 t) (iblk15 V c 2 t) (outsAt15 V c (t.val - 1) (Nat.lt_of_le_of_lt (Nat.sub_le _ _) t.isLt)).2.2, out15_C_4 c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) ((hcond15_1 t).mpr h1) (iblk15 V c 0 t) (iblk15 V c 1 t) (iblk15 V c 2 t) (outsAt15 V c (t.val - 1) (Nat.lt_of_le_of_lt (Nat.sub_le _ _) t.isLt)).2.2, sout15_C_0 c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) ((hcond15_1 t).mpr h1) (iblk15 V c 0 t) (iblk15 V c 1 t) (iblk15 V c 2 t) (outsAt15 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS15 (c : Dev nD) : (n : ℕ) → n ≤ cfg15.N → sProp 𝕄
  | 0, _ => Pipeline.ΦA spec15 c
  | n + 1, hn => iprop(iprop(owns (c : Thread nD τ) scM15_0 fullShare ((outsAt15 V c n hn).2.2) ∗ restBut15 (F := F) c) ∗ (∃ r, prngReg c r))

theorem PhiS15_zero (c : Dev nD) (n : ℕ) (h : n ≤ cfg15.N) (hz : n = 0) : PhiS15 V c n h = Pipeline.ΦA spec15 c := by
  subst hz; rfl

theorem PhiS15_succ (c : Dev nD) (n : ℕ) (hn : n < cfg15.N) :
    PhiS15 V c (n + 1) hn = iprop(iprop(owns (c : Thread nD τ) scM15_0 fullShare ((outsAt15 V c n hn).2.2) ∗ restBut15 (F := F) c) ∗ (∃ r, prngReg c r)) := rfl

theorem PhiS15_pos (c : Dev nD) (n : ℕ) (h : n ≤ cfg15.N) (hz : n ≠ 0) :
    PhiS15 V c n h = iprop(iprop(owns (c : Thread nD τ) scM15_0 fullShare ((outsAt15 V c (n - 1) (by omega)).2.2) ∗ restBut15 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt15`'s components; the invariant `PhiS15`; nothing owed; full
    shares. -/
def dat15 (c : Dev nD) : Dat τ (Elt F) Unit ℕ (Pipeline.UD sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => (outsAt15 V c t.val t.isLt).1
    | ⟨4, _⟩ => (outsAt15 V c t.val t.isLt).2.1
  Φ t := PhiS15 V c t.val (Nat.le_of_lt_succ t.isLt)
  q _ := fullShare
  owed _ := 0

/-- The proof data's arrays are the region-entry contents. -/
theorem A_eq15 (c : Dev nD) (w : Fin cfg15.W) : (dat15 V c).A w = V c (Pipeline.arrRef spec15 w) := by
  dsimp only [dat15]

/-- The invariant at a point's start, restated at `t.val`. -/
theorem PhiS15_castSucc (c : Dev nD) (t : Fin cfg15.N) :
    (dat15 V c).Φ t.castSucc = PhiS15 V c t.val (Nat.le_of_lt t.isLt) := by
  dsimp only [dat15]; simp only [Fin.coe_castSucc]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = (outsAt15 V c t.val t.isLt).1 := by dsimp only [dat15]
theorem after15_4 (c : Dev nD) (t : Fin cfg15.N) : (dat15 V c).after 4 t = (outsAt15 V c t.val t.isLt).2.1 := by dsimp only [dat15]

/-- Each input's current staging buffer holds its block at every point. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d))
    ∗ (∃ d, owns (c : Thread nD τ) (ms15_3 t) fullShare ((dat15 V c).before 3 t d))
    ∗ (∃ d, owns (c : Thread nD τ) (ms15_4 t) fullShare ((dat15 V c).before 4 t d)))

/-- and what it returns. -/
def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t
    ∗ (dat15 V c).leavesExact 3 t
    ∗ (dat15 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).owesAt () t.succ = (dat15 V c).owesAt () t.castSucc from rfl]
  rw [show (dat15 V c).Φ t.succ = PhiS15 V c (t.val + 1) t.isLt from rfl, PhiS15_succ]
  have hN : t.val < 25 := lt_of_lt_of_eq t.isLt (show cfg15.N = 25 from N_15)
  rw [show (dat15 V c).leavesExact 0 t = owns (c : Thread nD τ) (ms15_0 t) fullShare ((dat15 V c).after 0 t) from by
    unfold Dat.leavesExact; rw [liveAt15_0 t], after15_0]
  rw [show (dat15 V c).leavesExact 1 t = owns (c : Thread nD τ) (ms15_1 t) fullShare ((dat15 V c).after 1 t) from by
    unfold Dat.leavesExact; rw [liveAt15_1 t], after15_1]
  rw [show (dat15 V c).leavesExact 2 t = owns (c : Thread nD τ) (ms15_2 t) fullShare ((dat15 V c).after 2 t) from by
    unfold Dat.leavesExact; rw [liveAt15_2 t], after15_2]
  rw [show (dat15 V c).leavesExact 3 t = owns (c : Thread nD τ) (ms15_3 t) fullShare ((dat15 V c).after 3 t) from by
    unfold Dat.leavesExact; rw [liveAt15_3 t], after15_3]
  by_cases h0 : t.val = 0
  · have h1 : ¬t.val = 24 := by omega
    rw [Dat.leavesExact_idle (dat15 V c) 4 t (idleAt15_4 t (fun h => h1 ((hcond15_1 t).mp h))) (noFlush15_4 t (fun h => h1 ((hcond15_1 t).mp h)))]
    rw [outsAt15_A V c t h0 h1]
    unfold out15_A_3 sout15_A_0; (try dsimp only)
    rw [PhiS15_castSucc V c t, PhiS15_zero V c _ _ h0, PhiA15_eq]
    iintro ⟨⟨⟨HS0, HR⟩, Hg⟩, Ho, ⟨%d0, H0⟩, ⟨%d1, H1⟩, ⟨%d2, H2⟩, ⟨%d3, H3⟩, ⟨%d4, H4⟩⟩
    iapply ((kernelRun15_A c (grid15.coords t) _ _ _ _ _ _ _ _ _ _ _ _ ((hcond15_0 t).mpr h0) (fun h => h1 ((hcond15_1 t).mp h)) (iblk15 V c 0 t) (iblk15 V c 1 t) (iblk15 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover15_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover15_A_3 c _ _ _ _ _ _ _ _ _ _ _ _ _ _ _ _ _ _)
    iexists _; iexact H4
  · by_cases h1 : t.val = 24
    · rw [show (dat15 V c).leavesExact 4 t = owns (c : Thread nD τ) (ms15_4 t) fullShare ((dat15 V c).after 4 t) from by
        unfold Dat.leavesExact; rw [liveAt15_4 t ((hcond15_1 t).mpr h1)], after15_4]
      rw [outsAt15_C V c t h0 h1]
      unfold out15_C_3 out15_C_4 sout15_C_0; (try dsimp only)
      rw [PhiS15_castSucc V c t, PhiS15_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun15_C c (grid15.coords t) _ _ _ _ _ _ _ _ _ _ _ _ (fun h => h0 ((hcond15_0 t).mp h)) ((hcond15_1 t).mpr h1) (iblk15 V c 0 t) (iblk15 V c 1 t) (iblk15 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover15_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover15_C_3 c _ _ _ _ _ _ _ _ _ _ _ _ _ _ _ _ _ _ _)
      unfold owns; iexists _; isplitr
      swap; · iexact H4
      ipureintro; exact View.read_writes_of_cover _ _ _ _ _ (cover15_C_4 c _ _ _ _ _ _ _ _ _ _ _ _ _ _ _ _ _ _ _)
    · rw [Dat.leavesExact_idle (dat15 V c) 4 t (idleAt15_4 t (fun h => h1 ((hcond15_1 t).mp h))) (noFlush15_4 t (fun h => h1 ((hcond15_1 t).mp h)))]
      rw [outsAt15_B V c t h0 h1]
      unfold out15_B_3 sout15_B_0; (try dsimp only)
      rw [PhiS15_castSucc V c t, PhiS15_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun15_B c (grid15.coords t) _ _ _ _ _ _ _ _ _ _ _ _ (fun h => h0 ((hcond15_0 t).mp h)) (fun h => h1 ((hcond15_1 t).mp h)) (iblk15 V c 0 t) (iblk15 V c 1 t) (iblk15 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover15_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover15_B_3 c _ _ _ _ _ _ _ _ _ _ _ _ _ _ _ _ _ _ _)
      iexists _; iexact H4

/-- The library's body obligation, at every point. -/
theorem body_obligation15 (c : Dev nD) : BodyObligation (dat15 (F := F) V c) (defs₀ (F := F)) Variants.none () Set.univ := fun t => by
  rw [bigSep_W15, bigSep_W15]
  exact sound_body15 V c t

/-- What the launch hands the region is the invariant before the first point. -/
theorem hin15 (c : Dev nD) : Pipeline.ΦA spec15 c ⊢ (dat15 V c).Φ 0 := by
  rw [show (dat15 V c).Φ 0 = PhiS15 V c 0 (Nat.zero_le _) from rfl, PhiS15_zero V c 0 _ rfl]
  try exact Idealize.SL.BI.Entails.refl _

/-- After any point but the first the invariant gives the launch's back: the scratch row's contents are forgotten. -/
theorem Phi_out15 (c : Dev nD) (t : Fin (cfg15.N + 1)) (ht : t.val ≠ 0) : (dat15 V c).Φ t ⊢ Pipeline.ΦA spec15 c := by
  rw [show (dat15 V c).Φ t = PhiS15 V c t.val (Nat.le_of_lt_succ t.isLt) from rfl, PhiS15_pos V c _ _ ht, PhiA15_eq]
  iintro ⟨⟨HS0, HR⟩, Hg⟩
  isplitl [HS0 HR]
  · isplitl [HS0]
    · iexists _; iexact HS0
    iexact HR
  iexact Hg

/-- The same after the last point. -/
theorem hout15 (c : Dev nD) : (dat15 V c).Φ (Fin.last cfg15.N) ⊢ Pipeline.ΦA spec15 c :=
  Phi_out15 V c _ (by rw [Fin.val_last]; have : cfg15.N = 25 := N_15; omega)

end Cert.Kernel.Hand

end
-- ==== Proof.K.Reg16.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond16_0 (i : grid16.Coords) : Prop :=
  (Scalar.cmpi .ne (Scalar.extui (Scalar.cmpi .eq (BitVec.ofNat 32 (i 0).val) 0#32)) 0#32) = 1#1
/-- It holds at point 0 only. -/
theorem hcond16_0 : ∀ t : Fin cfg16.N, cond16_0 (grid16.coords t) ↔ t.val = 0 :=
  (by decide +kernel : ∀ t : Fin grid16.N, cond16_0 (grid16.coords t) ↔ t.val = 0)

/-- The body's second condition: the point is the grid's last. -/
abbrev cond16_1 (i : grid16.Coords) : Prop := k16_cond2 i = 1#1
/-- It holds at point 24 only. -/
theorem hcond16_1 : ∀ t : Fin cfg16.N, cond16_1 (grid16.coords t) ↔ t.val = 24 :=
  (by decide +kernel : ∀ t : Fin grid16.N, cond16_1 (grid16.coords t) ↔ t.val = 24)

/-! ## Where the windows are idle -/

theorem liveAt16_0 : ∀ t : Fin cfg16.N, cfg16.idle 0 (grid16.coords t) = false := by decide +kernel
theorem liveAt16_1 : ∀ t : Fin cfg16.N, cfg16.idle 1 (grid16.coords t) = false := by decide +kernel
theorem liveAt16_2 : ∀ t : Fin cfg16.N, cfg16.idle 2 (grid16.coords t) = false := by decide +kernel
theorem liveAt16_3 : ∀ t : Fin cfg16.N, cfg16.idle 3 (grid16.coords t) = false := by decide +kernel
theorem liveAt16_4 : ∀ t : Fin cfg16.N, cfg16.idle 4 (grid16.coords t) = false := by decide +kernel
theorem liveAt16_5 : ∀ t : Fin cfg16.N, cfg16.idle 5 (grid16.coords t) = false := by decide +kernel
theorem liveAt16_6 : ∀ t : Fin cfg16.N, cfg16.idle 6 (grid16.coords t) = false := by decide +kernel
/-- At the first point the statistics window is idle, and its block is not written back there. -/
theorem idleAt16_7_A : ∀ t : Fin cfg16.N, cond16_0 (grid16.coords t) → ¬cond16_1 (grid16.coords t) → cfg16.idle 7 (grid16.coords t) = true := by decide +kernel
theorem noFlush16_7_A : ∀ t : Fin cfg16.N, cond16_0 (grid16.coords t) → ¬cond16_1 (grid16.coords t) → (cfg16.win 7).flush t = false := by decide +kernel
/-- At the points between, the same. -/
theorem idleAt16_7_B : ∀ t : Fin cfg16.N, ¬cond16_0 (grid16.coords t) → ¬cond16_1 (grid16.coords t) → cfg16.idle 7 (grid16.coords t) = true := by decide +kernel
theorem noFlush16_7_B : ∀ t : Fin cfg16.N, ¬cond16_0 (grid16.coords t) → ¬cond16_1 (grid16.coords t) → (cfg16.win 7).flush t = false := by decide +kernel
/-- At the last point the statistics window is live. -/
theorem liveAt16_7_C : ∀ t : Fin cfg16.N, ¬cond16_0 (grid16.coords t) → cond16_1 (grid16.coords t) → cfg16.idle 7 (grid16.coords t) = false := by decide +kernel

/-! ## The staging memrefs, the accumulator, and the views the results are stated through -/

abbrev ms16_0 (t : Fin cfg16.N) : Memref sig .tc .vmem S2000x512 .f32 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S1x512 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1x512 .f32 := win16_2.stage (cfg16.slots t 2)
abbrev hs16_2 (t : Fin cfg16.N) : (ms16_2 t).IsWhole := hstage16_2 ((cfg16.slots t 2).cast nbuf16_2)
abbrev ms16_3 (t : Fin cfg16.N) : Memref sig .tc .vmem S1x512 .f32 := win16_3.stage (cfg16.slots t 3)
abbrev hs16_3 (t : Fin cfg16.N) : (ms16_3 t).IsWhole := hstage16_3 ((cfg16.slots t 3).cast nbuf16_3)
abbrev ms16_4 (t : Fin cfg16.N) : Memref sig .tc .vmem S1x512 .f32 := win16_4.stage (cfg16.slots t 4)
abbrev hs16_4 (t : Fin cfg16.N) : (ms16_4 t).IsWhole := hstage16_4 ((cfg16.slots t 4).cast nbuf16_4)
abbrev ms16_5 (t : Fin cfg16.N) : Memref sig .tc .vmem S512x128 .bf16 := win16_5.stage (cfg16.slots t 5)
abbrev hs16_5 (t : Fin cfg16.N) : (ms16_5 t).IsWhole := hstage16_5 ((cfg16.slots t 5).cast nbuf16_5)
abbrev ms16_6 (t : Fin cfg16.N) : Memref sig .tc .vmem S2000x128 .f32 := win16_6.stage (cfg16.slots t 6)
abbrev hs16_6 (t : Fin cfg16.N) : (ms16_6 t).IsWhole := hstage16_6 ((cfg16.slots t 6).cast nbuf16_6)
abbrev ms16_7 (t : Fin cfg16.N) : Memref sig .tc .vmem S1x256 .f32 := win16_7.stage (cfg16.slots t 7)
abbrev hs16_7 (t : Fin cfg16.N) : (ms16_7 t).IsWhole := hstage16_7 ((cfg16.slots t 7).cast nbuf16_7)
/-- The accumulator: a whole scoped buffer of the kernel's own, carried from point to point. -/
abbrev scM16_0 : Memref sig .tc .vmem S1x256 .f32 := Memref.whole cc16_scratch0
abbrev VS16_0 : View sig .tc .vmem S1x256 .f32 := scM16_0.view
/-- One staging buffer of each output window, through which its contents are stated (the choice does not matter). -/
abbrev VO16_6 : View sig .tc .vmem S2000x128 .f32 := (Memref.whole cc16_stg6_0 : Memref sig .tc .vmem S2000x128 .f32).view
abbrev VO16_7 : View sig .tc .vmem S1x256 .f32 := (Memref.whole cc16_stg7_0 : Memref sig .tc .vmem S1x256 .f32).view

/-- The class's invariant with the accumulator opened as a memref owned at some contents; every other scoped buffer
    stays closed. -/
theorem PhiA16_eq (c : Dev nD) :
    (Pipeline.ΦA spec16 c : sProp 𝕄)
      = iprop(iprop((∃ d, owns (c : Thread nD τ) scM16_0 fullShare d)
          ∗ Pipeline.scopedRestBut (Ix := Unit) (Name := ℕ) (U := Pipeline.UD sig nD τ) (Lvl := ℕ) (Val := Elt F) spec16 c [cc16_scratch0])
          ∗ (∃ r, prngReg c r)) := by
  unfold Pipeline.ΦA; rw [scopedRest16_split]; simp only [scM16_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun16_A (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : cond16_0 i) (hc1 : ¬cond16_1 i)
    (x0 : Vec F S2000x512 .f32) (x1 : Vec F S1x512 .f32) (x2 : Vec F S1x512 .f32) (x3 : Vec F S1x512 .f32) (x4 : Vec F S1x512 .f32) (x5 : Vec F S512x128 .bf16) :
    Σ' (L6 : List (View.Piece (Elt F) S2000x128 .f32)) (L7 : List (View.Piece (Elt F) S1x256 .f32)), { LS0 : List (View.Piece (Elt F) S1x256 .f32) //
      ∀ (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc16__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc16__stage2_kernel_eq_skeleton]; unfold cc16__stage2_kernel_skel
    simp only [k16_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun16_B (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond16_0 i) (hc1 : ¬cond16_1 i)
    (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32) :
    Σ' (L6 : List (View.Piece (Elt F) S2000x128 .f32)) (L7 : List (View.Piece (Elt F) S1x256 .f32)), { LS0 : List (View.Piece (Elt F) S1x256 .f32) //
      ∀ (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc16__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc16__stage2_kernel_eq_skeleton]; unfold cc16__stage2_kernel_skel
    simp only [k16_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun16_C (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond16_0 i) (hc1 : cond16_1 i)
    (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32) :
    Σ' (L6 : List (View.Piece (Elt F) S2000x128 .f32)) (L7 : List (View.Piece (Elt F) S1x256 .f32)), { LS0 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc16__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc16__stage2_kernel_eq_skeleton]; unfold cc16__stage2_kernel_skel
    simp only [k16_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : cond16_0 i) (hc1 : ¬cond16_1 i)
  (x0 : Vec F S2000x512 .f32) (x1 : Vec F S1x512 .f32) (x2 : Vec F S1x512 .f32) (x3 : Vec F S1x512 .f32) (x4 : Vec F S1x512 .f32) (x5 : Vec F S512x128 .bf16)

/-- At the first point the one store into the product window covers its block. -/
theorem cover16_A_6 (y : S2000x128.Idx) :
    ∃ pc ∈ (kernelRun16_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun16_A c i arg1 harg1 arg2 harg2 arg3 harg3 arg4 harg4 arg5 harg5 arg6 harg6 arg7 harg7 arg8 harg8 arg9 harg9 hc0 hc1 x0 x1 x2 x3 x4 x5).1 S2000x128.size (by sl_kernel_rfl) y

/-- What the first point leaves in the product window: its pieces read back. -/
def out16_A_6 : Vec F S2000x128 .f32 :=
  VO16_6.read (Elt F) (VO16_6.writes (Elt F) VO16_6.junk (kernelRun16_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out16_A_7 : Vec F S1x256 .f32 :=
  VO16_7.read (Elt F) (VO16_7.writes (Elt F) VO16_7.junk (kernelRun16_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover16_A_0 (y : S1x256.Idx) :
    ∃ pc ∈ (kernelRun16_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun16_A c i arg1 harg1 arg2 harg2 arg3 harg3 arg4 harg4 arg5 harg5 arg6 harg6 arg7 harg7 arg8 harg8 arg9 harg9 hc0 hc1 x0 x1 x2 x3 x4 x5).2.2.1 S1x256.size (by sl_kernel_rfl) y

/-- What the first point leaves in the accumulator. -/
def sout16_A_0 : Vec F S1x256 .f32 :=
  VS16_0.read (Elt F) (VS16_0.writes (Elt F) VS16_0.junk (kernelRun16_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond16_0 i) (hc1 : ¬cond16_1 i)
  (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32)

/-- At a point between the one store into the product window covers its block. -/
theorem cover16_B_6 (y : S2000x128.Idx) :
    ∃ pc ∈ (kernelRun16_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun16_B c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

def out16_B_6 : Vec F S2000x128 .f32 :=
  VO16_6.read (Elt F) (VO16_6.writes (Elt F) VO16_6.junk (kernelRun16_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out16_B_7 : Vec F S1x256 .f32 :=
  VO16_7.read (Elt F) (VO16_7.writes (Elt F) VO16_7.junk (kernelRun16_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover16_B_0 (y : S1x256.Idx) :
    ∃ pc ∈ (kernelRun16_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun16_B c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

def sout16_B_0 : Vec F S1x256 .f32 :=
  VS16_0.read (Elt F) (VS16_0.writes (Elt F) VS16_0.junk (kernelRun16_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond16_0 i) (hc1 : cond16_1 i)
  (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32)

/-- At the last point the one store into the product window covers its block. -/
theorem cover16_C_6 (y : S2000x128.Idx) :
    ∃ pc ∈ (kernelRun16_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun16_C c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

def out16_C_6 : Vec F S2000x128 .f32 :=
  VO16_6.read (Elt F) (VO16_6.writes (Elt F) VO16_6.junk (kernelRun16_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover16_C_7 (y : S1x256.Idx) :
    ∃ pc ∈ (kernelRun16_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun16_C c i arg1 harg1 arg2 harg2 arg3 harg3 arg4 harg4 arg5 harg5 arg6 harg6 arg7 harg7 arg8 harg8 arg9 harg9 hc0 hc1 x0 x1 x2 x3 x4 x5 xs0).2.1 S1x256.size (by sl_kernel_rfl) y

/-- What the last point leaves in the statistics window. -/
def out16_C_7 : Vec F S1x256 .f32 :=
  VO16_7.read (Elt F) (VO16_7.writes (Elt F) VO16_7.junk (kernelRun16_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover16_C_0 (y : S1x256.Idx) :
    ∃ pc ∈ (kernelRun16_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun16_C c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

def sout16_C_0 : Vec F S1x256 .f32 :=
  VS16_0.read (Elt F) (VS16_0.writes (Elt F) VS16_0.junk (kernelRun16_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-! ## The inputs' buffers hold their blocks at every point

An input window is never idle and the body leaves its block in place; so its current buffer holds what a fetch at the
point puts there whether or not one happened: where none did, the block index has not moved (the five row and weight
windows are fetched once, at the first point). -/

theorem before16_0_of {c : Dev nD} (dat : Dat τ (Elt F) Unit ℕ (Pipeline.UD sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (Pipeline.UD sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (Pipeline.UD sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
theorem before16_3_of {c : Dev nD} (dat : Dat τ (Elt F) Unit ℕ (Pipeline.UD sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
theorem before16_4_of {c : Dev nD} (dat : Dat τ (Elt F) Unit ℕ (Pipeline.UD sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)
theorem before16_5_of {c : Dev nD} (dat : Dat τ (Elt F) Unit ℕ (Pipeline.UD sig nD τ) ℕ cfg16 c) (hA : dat.A 5 = V c (Pipeline.arrRef spec16 5))
    (hafter : ∀ t, dat.after 5 t = iblk16 V c 5 t) (t : Fin cfg16.N) (d) : dat.before 5 t d = iblk16 V c 5 t :=
  (dat.before_in_eq_fetched 5 rfl (fun _ => rfl) (fun _ _ _ => rfl) (fun t => by rw [hafter]; unfold Dat.blockOf iblk16; rw [hA]; try rfl) t d).trans
    (by unfold Dat.fetched Dat.blockOf iblk16; rw [hA]; try rfl)

/-! ## What the outputs and the accumulator hold after each point -/

/-- The first point is not the last, -/
theorem notLast16_of_first (t : Fin cfg16.N) (h0 : t.val = 0) : ¬cond16_1 (grid16.coords t) :=
  fun h => by have := (hcond16_1 t).mp h; omega

/-- The first point's results at the point's own memrefs and input blocks: the product block, the statistics
    placeholder, the accumulator. -/
def outsPt16_A (c : Dev nD) (t : Fin cfg16.N) (h0 : t.val = 0) : Vec F S2000x128 .f32 × Vec F S1x256 .f32 × Vec F S1x256 .f32 :=
  (out16_A_6 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) ((hcond16_0 t).mpr h0) (notLast16_of_first t h0) (iblk16 V c 0 t) (iblk16 V c 1 t) (iblk16 V c 2 t) (iblk16 V c 3 t) (iblk16 V c 4 t) (iblk16 V c 5 t),
   out16_A_7 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) ((hcond16_0 t).mpr h0) (notLast16_of_first t h0) (iblk16 V c 0 t) (iblk16 V c 1 t) (iblk16 V c 2 t) (iblk16 V c 3 t) (iblk16 V c 4 t) (iblk16 V c 5 t),
   sout16_A_0 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) ((hcond16_0 t).mpr h0) (notLast16_of_first t h0) (iblk16 V c 0 t) (iblk16 V c 1 t) (iblk16 V c 2 t) (iblk16 V c 3 t) (iblk16 V c 4 t) (iblk16 V c 5 t))

/-- A point between, over the accumulator xs0 the point before left. -/
def outsPt16_B (c : Dev nD) (t : Fin cfg16.N) (h0 : ¬t.val = 0) (h1 : ¬t.val = 24) (xs0 : Vec F S1x256 .f32) : Vec F S2000x128 .f32 × Vec F S1x256 .f32 × Vec F S1x256 .f32 :=
  (out16_B_6 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) (fun h => h1 ((hcond16_1 t).mp h)) (iblk16 V c 0 t) (iblk16 V c 1 t) (iblk16 V c 2 t) (iblk16 V c 3 t) (iblk16 V c 4 t) (iblk16 V c 5 t) xs0,
   out16_B_7 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) (fun h => h1 ((hcond16_1 t).mp h)) (iblk16 V c 0 t) (iblk16 V c 1 t) (iblk16 V c 2 t) (iblk16 V c 3 t) (iblk16 V c 4 t) (iblk16 V c 5 t) xs0,
   sout16_B_0 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) (fun h => h1 ((hcond16_1 t).mp h)) (iblk16 V c 0 t) (iblk16 V c 1 t) (iblk16 V c 2 t) (iblk16 V c 3 t) (iblk16 V c 4 t) (iblk16 V c 5 t) xs0)

/-- The last point, over the accumulator xs0 the point before left. -/
def outsPt16_C (c : Dev nD) (t : Fin cfg16.N) (h0 : ¬t.val = 0) (h1 : t.val = 24) (xs0 : Vec F S1x256 .f32) : Vec F S2000x128 .f32 × Vec F S1x256 .f32 × Vec F S1x256 .f32 :=
  (out16_C_6 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) ((hcond16_1 t).mpr h1) (iblk16 V c 0 t) (iblk16 V c 1 t) (iblk16 V c 2 t) (iblk16 V c 3 t) (iblk16 V c 4 t) (iblk16 V c 5 t) xs0,
   out16_C_7 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) ((hcond16_1 t).mpr h1) (iblk16 V c 0 t) (iblk16 V c 1 t) (iblk16 V c 2 t) (iblk16 V c 3 t) (iblk16 V c 4 t) (iblk16 V c 5 t) xs0,
   sout16_C_0 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) ((hcond16_1 t).mpr h1) (iblk16 V c 0 t) (iblk16 V c 1 t) (iblk16 V c 2 t) (iblk16 V c 3 t) (iblk16 V c 4 t) (iblk16 V c 5 t) xs0)

/-- THE ACCUMULATION. What the product window, the statistics window and the accumulator hold after the body at
    position n: the case the position selects, run at the point's memrefs and input blocks, the accumulator it reads
    at what position n - 1 left. -/
def outsAt16 (c : Dev nD) : (n : ℕ) → n < cfg16.N → Vec F S2000x128 .f32 × Vec F S1x256 .f32 × Vec F S1x256 .f32
  | 0, hn => outsPt16_A V c ⟨0, hn⟩ rfl
  | n + 1, hn =>
    if h1 : n + 1 = 24 then
      outsPt16_C V c ⟨n + 1, hn⟩ (Nat.succ_ne_zero n) h1 (outsAt16 c n (Nat.lt_of_succ_lt hn)).2.2
    else
      outsPt16_B V c ⟨n + 1, hn⟩ (Nat.succ_ne_zero n) h1 (outsAt16 c n (Nat.lt_of_succ_lt hn)).2.2

/-- outsAt16 at the first point. -/
theorem outsAt16_A (c : Dev nD) (t : Fin cfg16.N) (h0 : t.val = 0) :
    outsAt16 V c t.val t.isLt = outsPt16_A V c t h0 := by
  obtain ⟨n, hn⟩ := t
  cases n with
  | zero => exact rfl
  | succ n => exact absurd h0 (Nat.succ_ne_zero n)

/-- outsAt16 at a point between: over what the point before left in the accumulator. -/
theorem outsAt16_B (c : Dev nD) (t : Fin cfg16.N) (h0 : ¬t.val = 0) (h1 : ¬t.val = 24) :
    outsAt16 V c t.val t.isLt = outsPt16_B V c t h0 h1 (outsAt16 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt16 at the last point: over what the point before left in the accumulator. -/
theorem outsAt16_C (c : Dev nD) (t : Fin cfg16.N) (h0 : ¬t.val = 0) (h1 : t.val = 24) :
    outsAt16 V c t.val t.isLt = outsPt16_C V c t h0 h1 (outsAt16 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS16 (c : Dev nD) : (n : ℕ) → n ≤ cfg16.N → sProp 𝕄
  | 0, _ => Pipeline.ΦA spec16 c
  | n + 1, hn => iprop(iprop(owns (c : Thread nD τ) scM16_0 fullShare ((outsAt16 V c n hn).2.2)
      ∗ Pipeline.scopedRestBut (Ix := Unit) (Name := ℕ) (U := Pipeline.UD sig nD τ) (Lvl := ℕ) (Val := Elt F) spec16 c [cc16_scratch0])
      ∗ (∃ r, prngReg c r))

theorem PhiS16_zero (c : Dev nD) (n : ℕ) (h : n ≤ cfg16.N) (hz : n = 0) : PhiS16 V c n h = Pipeline.ΦA spec16 c := by
  subst hz; rfl

theorem PhiS16_succ (c : Dev nD) (n : ℕ) (hn : n < cfg16.N) :
    PhiS16 V c (n + 1) hn = iprop(iprop(owns (c : Thread nD τ) scM16_0 fullShare ((outsAt16 V c n hn).2.2)
      ∗ Pipeline.scopedRestBut (Ix := Unit) (Name := ℕ) (U := Pipeline.UD sig nD τ) (Lvl := ℕ) (Val := Elt F) spec16 c [cc16_scratch0])
      ∗ (∃ r, prngReg c r)) := rfl

theorem PhiS16_pos (c : Dev nD) (n : ℕ) (h : n ≤ cfg16.N) (hz : n ≠ 0) :
    PhiS16 V c n h = iprop(iprop(owns (c : Thread nD τ) scM16_0 fullShare ((outsAt16 V c (n - 1) (by omega)).2.2)
      ∗ Pipeline.scopedRestBut (Ix := Unit) (Name := ℕ) (U := Pipeline.UD sig nD τ) (Lvl := ℕ) (Val := Elt F) spec16 c [cc16_scratch0])
      ∗ (∃ r, prngReg c r)) := by
  cases n with
  | zero => exact absurd rfl hz
  | succ n => rfl

/-! ## The proof data -/

/-- The arrays as the region finds them; after the body at point t each input's buffer at its block, the product
    window's at the first component of outsAt16, the statistics window's at the second; the invariant PhiS16; nothing
    owed; full shares. -/
def dat16 (c : Dev nD) : Dat τ (Elt F) Unit ℕ (Pipeline.UD sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => (outsAt16 V c t.val t.isLt).1
    | ⟨7, _⟩ => (outsAt16 V c t.val t.isLt).2.1
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]

theorem PhiS16_castSucc (c : Dev nD) (t : Fin cfg16.N) :
    (dat16 V c).Φ t.castSucc = PhiS16 V c t.val (Nat.le_of_lt t.isLt) := by
  dsimp only [dat16]; simp only [Fin.coe_castSucc]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = (outsAt16 V c t.val t.isLt).1 := by dsimp only [dat16]
theorem after16_7 (c : Dev nD) (t : Fin cfg16.N) : (dat16 V c).after 7 t = (outsAt16 V c t.val t.isLt).2.1 := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d
theorem before16_5 (c : Dev nD) (t : Fin cfg16.N) (d) : (dat16 V c).before 5 t d = iblk16 V c 5 t :=
  before16_5_of V (dat16 V c) (A_eq16 V c 5) (after16_5 V c) t d

/-! ## The body obligation, at a generic point -/

/-- What the body is called with at point t: the invariant, what the core owes, and each window's current buffer at
    what it then holds, -/
def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d))
    ∗ (∃ d, owns (c : Thread nD τ) (ms16_3 t) fullShare ((dat16 V c).before 3 t d))
    ∗ (∃ d, owns (c : Thread nD τ) (ms16_4 t) fullShare ((dat16 V c).before 4 t d))
    ∗ (∃ d, owns (c : Thread nD τ) (ms16_5 t) fullShare ((dat16 V c).before 5 t d))
    ∗ (∃ d, owns (c : Thread nD τ) (ms16_6 t) fullShare ((dat16 V c).before 6 t d))
    ∗ (∃ d, owns (c : Thread nD τ) (ms16_7 t) fullShare ((dat16 V c).before 7 t d)))

/-- and what it returns. -/
def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t
    ∗ (dat16 V c).leavesExact 3 t
    ∗ (dat16 V c).leavesExact 4 t
    ∗ (dat16 V c).leavesExact 5 t
    ∗ (dat16 V c).leavesExact 6 t
    ∗ (dat16 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5]
  rw [show (dat16 V c).owesAt () t.succ = (dat16 V c).owesAt () t.castSucc from rfl]
  rw [show (dat16 V c).Φ t.succ = PhiS16 V c (t.val + 1) t.isLt from rfl, PhiS16_succ]
  have hN : t.val < 25 := lt_of_lt_of_eq t.isLt (show cfg16.N = 25 from N_16)
  rw [show (dat16 V c).leavesExact 0 t = owns (c : Thread nD τ) (ms16_0 t) fullShare ((dat16 V c).after 0 t) from by
    unfold Dat.leavesExact; rw [liveAt16_0 t], after16_0]
  rw [show (dat16 V c).leavesExact 1 t = owns (c : Thread nD τ) (ms16_1 t) fullShare ((dat16 V c).after 1 t) from by
    unfold Dat.leavesExact; rw [liveAt16_1 t], after16_1]
  rw [show (dat16 V c).leavesExact 2 t = owns (c : Thread nD τ) (ms16_2 t) fullShare ((dat16 V c).after 2 t) from by
    unfold Dat.leavesExact; rw [liveAt16_2 t], after16_2]
  rw [show (dat16 V c).leavesExact 3 t = owns (c : Thread nD τ) (ms16_3 t) fullShare ((dat16 V c).after 3 t) from by
    unfold Dat.leavesExact; rw [liveAt16_3 t], after16_3]
  rw [show (dat16 V c).leavesExact 4 t = owns (c : Thread nD τ) (ms16_4 t) fullShare ((dat16 V c).after 4 t) from by
    unfold Dat.leavesExact; rw [liveAt16_4 t], after16_4]
  rw [show (dat16 V c).leavesExact 5 t = owns (c : Thread nD τ) (ms16_5 t) fullShare ((dat16 V c).after 5 t) from by
    unfold Dat.leavesExact; rw [liveAt16_5 t], after16_5]
  rw [show (dat16 V c).leavesExact 6 t = owns (c : Thread nD τ) (ms16_6 t) fullShare ((dat16 V c).after 6 t) from by
    unfold Dat.leavesExact; rw [liveAt16_6 t], after16_6]
  by_cases h0 : t.val = 0
  · -- the first point
    have hc0 : cond16_0 (grid16.coords t) := (hcond16_0 t).mpr h0
    have hc1 : ¬cond16_1 (grid16.coords t) := notLast16_of_first t h0
    rw [Dat.leavesExact_idle (dat16 V c) 7 t (idleAt16_7_A t hc0 hc1) (noFlush16_7_A t hc0 hc1)]
    rw [outsAt16_A V c t h0]
    unfold outsPt16_A out16_A_6 sout16_A_0; (try dsimp only)
    rw [PhiS16_castSucc V c t, PhiS16_zero V c _ _ h0, PhiA16_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun16_A c (grid16.coords t) _ _ _ _ _ _ _ _ _ _ _ _ _ _ _ _ _ _ hc0 hc1 (iblk16 V c 0 t) (iblk16 V c 1 t) (iblk16 V c 2 t) (iblk16 V c 3 t) (iblk16 V c 4 t) (iblk16 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover16_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover16_A_6 c _ _ _ _ _ _ _ _ _ _ _ _ _ _ _ _ _ _ _ _ _ _ _ _ _ _ _)
    iexists _; iexact H7
  · by_cases h1 : t.val = 24
    · -- the last point
      have hc0 : ¬cond16_0 (grid16.coords t) := fun h => h0 ((hcond16_0 t).mp h)
      have hc1 : cond16_1 (grid16.coords t) := (hcond16_1 t).mpr h1
      rw [show (dat16 V c).leavesExact 7 t = owns (c : Thread nD τ) (ms16_7 t) fullShare ((dat16 V c).after 7 t) from by
        unfold Dat.leavesExact; rw [liveAt16_7_C t hc0 hc1], after16_7]
      rw [outsAt16_C V c t h0 h1]
      unfold outsPt16_C out16_C_6 out16_C_7 sout16_C_0; (try dsimp only)
      rw [PhiS16_castSucc V c t, PhiS16_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun16_C c (grid16.coords t) _ _ _ _ _ _ _ _ _ _ _ _ _ _ _ _ _ _ hc0 hc1 (iblk16 V c 0 t) (iblk16 V c 1 t) (iblk16 V c 2 t) (iblk16 V c 3 t) (iblk16 V c 4 t) (iblk16 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover16_C_6 c _ _ _ _ _ _ _ _ _ _ _ _ _ _ _ _ _ _ _ _ _ _ _ _ _ _ _ _)
      unfold owns; iexists _; isplitr
      swap; · iexact H7
      ipureintro; exact View.read_writes_of_cover _ _ _ _ _ (cover16_C_7 c _ _ _ _ _ _ _ _ _ _ _ _ _ _ _ _ _ _ _ _ _ _ _ _ _ _ _ _)
    · -- a point between
      have hc0 : ¬cond16_0 (grid16.coords t) := fun h => h0 ((hcond16_0 t).mp h)
      have hc1 : ¬cond16_1 (grid16.coords t) := fun h => h1 ((hcond16_1 t).mp h)
      rw [Dat.leavesExact_idle (dat16 V c) 7 t (idleAt16_7_B t hc0 hc1) (noFlush16_7_B t hc0 hc1)]
      rw [outsAt16_B V c t h0 h1]
      unfold outsPt16_B out16_B_6 sout16_B_0; (try dsimp only)
      rw [PhiS16_castSucc V c t, PhiS16_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun16_B c (grid16.coords t) _ _ _ _ _ _ _ _ _ _ _ _ _ _ _ _ _ _ hc0 hc1 (iblk16 V c 0 t) (iblk16 V c 1 t) (iblk16 V c 2 t) (iblk16 V c 3 t) (iblk16 V c 4 t) (iblk16 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover16_B_6 c _ _ _ _ _ _ _ _ _ _ _ _ _ _ _ _ _ _ _ _ _ _ _ _ _ _ _ _)
      iexists _; iexact H7

/-- The library's body obligation, at every point. -/
theorem body_obligation16 (c : Dev nD) : BodyObligation (dat16 (F := F) V c) (defs₀ (F := F)) Variants.none () Set.univ := fun t => by
  rw [bigSep_W16, bigSep_W16]
  exact sound_body16 V c t

/-- What the launch hands the region is the invariant before the first point. -/
theorem hin16 (c : Dev nD) : Pipeline.ΦA spec16 c ⊢ (dat16 V c).Φ 0 := by
  rw [show (dat16 V c).Φ 0 = PhiS16 V c 0 (Nat.zero_le _) from rfl, PhiS16_zero V c 0 _ rfl]
  try exact Idealize.SL.BI.Entails.refl _

/-- After any point the invariant gives the launch's back: the accumulator's named contents are forgotten. -/
theorem Phi_out16 (c : Dev nD) (t : Fin (cfg16.N + 1)) (ht : t.val ≠ 0) : (dat16 V c).Φ t ⊢ Pipeline.ΦA spec16 c := by
  rw [show (dat16 V c).Φ t = PhiS16 V c t.val (Nat.le_of_lt_succ t.isLt) from rfl, PhiS16_pos V c _ _ ht, PhiA16_eq]
  iintro ⟨⟨HS0, HR⟩, Hg⟩
  isplitl [HS0 HR]
  · isplitl [HS0]
    · iexists _; iexact HS0
    iexact HR
  iexact Hg

/-- The same after the last point. -/
theorem hout16 (c : Dev nD) : (dat16 V c).Φ (Fin.last cfg16.N) ⊢ Pipeline.ΦA spec16 c :=
  Phi_out16 V c _ (by rw [Fin.val_last]; have : cfg16.N = 25 := N_16; omega)

end Region

end Cert.Kernel.Hand

end
-- ==== Proof.K.Reg17.lean ====
import proofs.«427833_j20194936226511_1_alg».proof.Proof.Gen.Kernel.Launch
import proofs.«427833_j20194936226511_1_alg».proof.Proof.Gen.Kernel.Skeleton
import proofs.«427833_j20194936226511_1_alg».proof.Proof.Gen.Kernel.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-! ## What the body leaves in the output block -/

/-- The whole block of rows, as a rectangle of itself. -/
abbrev rB17 : Rect S2000x128 := Rect.unit (s := S2000x128) ![0, 0] S2000x128.size inb_S2000x128_S2000x128_0_0
/-- The whole single row, as a rectangle of itself. -/
abbrev rR17 : Rect S1x128 := Rect.unit (s := S1x128) ![0, 0] S1x128.size inb_S1x128_S1x128_0_0

/-- The output block after the body, from the five input blocks: the body's one store, of the
    payload of the five whole loads, laid over the block.  (The payload takes the row operands in
    the order the body loads them: the fourth, the second, the third, the fifth.) -/
def out17_5 (x0 : Vec F S2000x128 .f32) (x1 x2 x3 x4 : Vec F S1x128 .f32) : Vec F S2000x128 .f32 :=
  View.canon [⟨rB17, k17_pay1 (View.ld x0 rB17) (View.ld x3 rR17) (View.ld x1 rR17) (View.ld x2 rR17) (View.ld x4 rR17)⟩]

/-- One store of the whole block covers it. -/
theorem cover17_5 (p : Vec F S2000x128 .f32) (y : S2000x128.Idx) :
    ∃ pc ∈ ([⟨rB17, p⟩] : List (View.Piece (Elt F) S2000x128 .f32)), y ∈ pc.1.set :=
  View.cover_of_tiled [⟨rB17, p⟩] S2000x128.size (by rfl) y

/-! ## The body's triple -/

set_option maxHeartbeats 1000000 in
/-- The kernel body on whole staging memrefs: holding the five inputs' at contents reading `x0 … x4`
    and the output's at anything, it runs to a state holding the inputs' as they were and the
    output's at `out17_5` of them.  The body is its skeleton of memory operations over the named
    payload; the executor steps through the six loads and the store. -/
theorem sound_kernel17 (c : Dev nD) (E : Set ℕ) (i : grid17.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out17_5 x0 x1 x2 x3 x4)) -∗ K ⟨⟩))
      ⊢ wp frame (wpE (defs₀ (F := F)) Variants.none c none) E
          (cc17__stage3_kernel i arg1 harg1 arg2 harg2 arg3 harg3 arg4 harg4 arg5 harg5 arg6 harg6) K := by
  simp only [cc17__stage3_kernel_eq_skeleton]; unfold cc17__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover17_5 _)

/-! ## The proof data -/

/-- The proof data of the pipeline on core `c`: the arrays as the region finds them; after the
    body at point `t` each input's buffer at its block and the output's at `out17_5` of the input
    blocks; the class's invariant; nothing owed; full shares. -/
def dat17 (c : Dev nD) : Dat τ (Elt F) Unit ℕ (Pipeline.UD sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => out17_5 (iblk17 V c 0 t) (iblk17 V c 1 t) (iblk17 V c 2 t) (iblk17 V c 3 t) (iblk17 V c 4 t)
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) : (dat17 V c).after 5 t
    = out17_5 (iblk17 V c 0 t) (iblk17 V c 1 t) (iblk17 V c 2 t) (iblk17 V c 3 t) (iblk17 V c 4 t) := by dsimp only [dat17]

/-! ## What the body finds in the input windows' buffers

An input window's current staging buffer holds its block at every point, whether the pipeline
fetched it there or not: a window not fetched at a point has the block index of the point before,
and the body left that point's block in place.  (The four row operands are fetched at the first
point only; the first operand at every point.) -/

theorem before17_0 (c : Dev nD) (t : Fin cfg17.N) (d) : (dat17 V c).before 0 t d = iblk17 V c 0 t :=
  ((dat17 V c).before_in_eq_fetched 0 rfl (fun _ => rfl) (fun _ _ _ => rfl)
      (fun t => by rw [after17_0 V c t]; unfold Dat.blockOf iblk17; rw [A_eq17 V c 0]; try rfl) t d).trans
    (by unfold Dat.fetched Dat.blockOf iblk17; rw [A_eq17 V c 0]; try rfl)
theorem before17_1 (c : Dev nD) (t : Fin cfg17.N) (d) : (dat17 V c).before 1 t d = iblk17 V c 1 t :=
  ((dat17 V c).before_in_eq_fetched 1 rfl (fun _ => rfl) (fun _ _ _ => rfl)
      (fun t => by rw [after17_1 V c t]; unfold Dat.blockOf iblk17; rw [A_eq17 V c 1]; try rfl) t d).trans
    (by unfold Dat.fetched Dat.blockOf iblk17; rw [A_eq17 V c 1]; try rfl)
theorem before17_2 (c : Dev nD) (t : Fin cfg17.N) (d) : (dat17 V c).before 2 t d = iblk17 V c 2 t :=
  ((dat17 V c).before_in_eq_fetched 2 rfl (fun _ => rfl) (fun _ _ _ => rfl)
      (fun t => by rw [after17_2 V c t]; unfold Dat.blockOf iblk17; rw [A_eq17 V c 2]; try rfl) t d).trans
    (by unfold Dat.fetched Dat.blockOf iblk17; rw [A_eq17 V c 2]; try rfl)
theorem before17_3 (c : Dev nD) (t : Fin cfg17.N) (d) : (dat17 V c).before 3 t d = iblk17 V c 3 t :=
  ((dat17 V c).before_in_eq_fetched 3 rfl (fun _ => rfl) (fun _ _ _ => rfl)
      (fun t => by rw [after17_3 V c t]; unfold Dat.blockOf iblk17; rw [A_eq17 V c 3]; try rfl) t d).trans
    (by unfold Dat.fetched Dat.blockOf iblk17; rw [A_eq17 V c 3]; try rfl)
theorem before17_4 (c : Dev nD) (t : Fin cfg17.N) (d) : (dat17 V c).before 4 t d = iblk17 V c 4 t :=
  ((dat17 V c).before_in_eq_fetched 4 rfl (fun _ => rfl) (fun _ _ _ => rfl)
      (fun t => by rw [after17_4 V c t]; unfold Dat.blockOf iblk17; rw [A_eq17 V c 4]; try rfl) t d).trans
    (by unfold Dat.fetched Dat.blockOf iblk17; rw [A_eq17 V c 4]; try rfl)

/-! ## The body obligation -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t))

/-- The body at any point: the inputs' buffers hold their blocks, so the body's triple applies; the
    invariant and what the core owes pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4]
  rw [show (dat17 V c).Φ t.succ = (dat17 V c).Φ t.castSucc from rfl,
    show (dat17 V c).owesAt () t.succ = (dat17 V c).owesAt () t.castSucc from rfl,
    after17_0, after17_1, after17_2, after17_3, after17_4, after17_5]
  iintro ⟨HΦ, Ho, ⟨%d0, H0⟩, ⟨%d1, H1⟩, ⟨%d2, H2⟩, ⟨%d3, H3⟩, ⟨%d4, H4⟩, ⟨%d5, H5⟩⟩
  iapply (sound_kernel17 c Set.univ (grid17.coords t) _ _ _ _ _ _ _ _ _ _ _ _
    (iblk17 V c 0 t) (iblk17 V c 1 t) (iblk17 V c 2 t) (iblk17 V c 3 t) (iblk17 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation17 (c : Dev nD) : BodyObligation (dat17 (F := F) V c) (defs₀ (F := F)) Variants.none () Set.univ := fun t => by
  rw [bigSep_W17, bigSep_W17]
  exact sound_body17 V c t

/-! ## The invariant at the two ends -/

/-- The proof data's invariant is the class's at every point: the region's entry hands it over as it is, -/
theorem hin17 (c : Dev nD) : Pipeline.ΦA spec17 c ⊢ (dat17 V c).Φ 0 := by
  dsimp only [dat17]; exact .rfl

/-- and takes it back as it is. -/
theorem hout17 (c : Dev nD) : (dat17 V c).Φ (Fin.last cfg17.N) ⊢ Pipeline.ΦA spec17 c := by
  dsimp only [dat17]; exact .rfl

end Cert.Kernel.Hand

end
-- ==== Proof.K.Run.lean ====
import proofs.«427833_j20194936226511_1_alg».proof.Proof.K.RegionsP
import proofs.«427833_j20194936226511_1_alg».proof.Proof.K.Reg0
import proofs.«427833_j20194936226511_1_alg».proof.Proof.K.Reg1
import proofs.«427833_j20194936226511_1_alg».proof.Proof.K.Reg2
import proofs.«427833_j20194936226511_1_alg».proof.Proof.K.Reg3
import proofs.«427833_j20194936226511_1_alg».proof.Proof.K.Reg4
import proofs.«427833_j20194936226511_1_alg».proof.Proof.K.Reg5
import proofs.«427833_j20194936226511_1_alg».proof.Proof.K.Reg6
import proofs.«427833_j20194936226511_1_alg».proof.Proof.K.Reg7
import proofs.«427833_j20194936226511_1_alg».proof.Proof.K.Reg8
import proofs.«427833_j20194936226511_1_alg».proof.Proof.K.Reg9
import proofs.«427833_j20194936226511_1_alg».proof.Proof.K.Reg10
import proofs.«427833_j20194936226511_1_alg».proof.Proof.K.Reg11
import proofs.«427833_j20194936226511_1_alg».proof.Proof.K.Reg12
import proofs.«427833_j20194936226511_1_alg».proof.Proof.K.Reg13
import proofs.«427833_j20194936226511_1_alg».proof.Proof.K.Reg14
import proofs.«427833_j20194936226511_1_alg».proof.Proof.K.Reg15
import proofs.«427833_j20194936226511_1_alg».proof.Proof.K.Reg16
import proofs.«427833_j20194936226511_1_alg».proof.Proof.K.Reg17
import Idealize.ShloMosaic.Lib.Pipeline.FrameBody
import Idealize.ShloMosaic.Lib.Pipeline.RegionsLoop
import Idealize.ShloMosaic.Lib.Pipeline.FrameSuffix
import Idealize.ShloMosaic.Lib.Tactic

/-!
# The run of the program: eighteen kernel regions among fifty-seven items

Between two items of the program a core holds every unscoped buffer whole, at contents that are a fold
through the program: a host stretch replaces the contents by `StableHlo.after` of its operations, a
kernel region replaces the arrays of its output windows by what the pipeline's write-backs leave
(`Dat.arrAt … N` of the region's proof data, taken at the contents the region was entered from) and
leaves every other buffer alone.

The fold is written twice.  First as a chain of definitions `W4, W5, …, W48`, each from the one before,
so that what region `K` leaves is defined from contents that mention only earlier regions.  Then `outs`
reads the chain, and the program's own valuations `Gen.VJ m outs` at this `outs` are proved equal to the
chain link by link (`VJ_eq`).  The equations `outs_eq_K_w` say what each region's output array holds in
terms of the valuation the region was entered from: a value proof starts from them.

Each region is then a segment record over the thread state "every unscoped buffer at the boundary's
contents, the generator register at some state, nothing owed": its arrays are split out of the unscoped
buffers at entry and put back at exit, the register goes into the class's invariant and comes back.
The launch runs the fifty-seven segments in order; at the end every unscoped buffer is read off the
last valuation, the arguments through the program's own `V57_main_argK` and the result as it stands.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The fold, link by link -/

/-- The contents region 0 is entered from, read at the TensorCore's references. -/
abbrev entW0 : (c : Dev nD) → (b : Ref sig .tc) → Buf (Elt F) ((c : Thread nD τ).loc b) := fun c b => Gen.V3 m c b
/-- What region 0 leaves in `main_v22_0`: window 3's array after the last write-back. -/
def o4_0 (c : Dev nD) : Buf (Elt F) ((c : Thread nD τ).loc main_v22_0) := (dat0 (entW0 m) c).arrAt 3 cfg0.N
/-- What region 0 leaves in `main_v22_1`: window 4's array after the last write-back. -/
def o4_1 (c : Dev nD) : Buf (Elt F) ((c : Thread nD τ).loc main_v22_1) := (dat0 (entW0 m) c).arrAt 4 cfg0.N
/-- The contents after region 0: its output arrays replaced, every other buffer as entered. -/
def W4 (c : Dev nD) : Valuation τ sig (Elt F) := Function.update (Function.update (Gen.V3 m c) main_v22_0 (o4_0 m c)) main_v22_1 (o4_1 m c)
theorem W4_0 (c : Dev nD) : W4 m c main_v22_0 = o4_0 m c := by
  unfold W4
  rw [Function.update_of_ne (by decide : (Proc.devRef .tc main_v22_0 : DevRef τ sig) ≠ Proc.devRef .tc main_v22_1), Function.update_self]
theorem W4_1 (c : Dev nD) : W4 m c main_v22_1 = o4_1 m c := by
  unfold W4
  rw [Function.update_self]
/-- The contents after item 4, the host stretch `hostOps1`. -/
def W5 (c : Dev nD) : Valuation τ sig (Elt F) := StableHlo.after hostOps1 (W4 m c)

/-- The contents region 1 is entered from, read at the TensorCore's references. -/
abbrev entW1 : (c : Dev nD) → (b : Ref sig .tc) → Buf (Elt F) ((c : Thread nD τ).loc b) := fun c b => W5 m c b
/-- What region 1 leaves in `main_v35_0`: window 6's array after the last write-back. -/
def o6_0 (c : Dev nD) : Buf (Elt F) ((c : Thread nD τ).loc main_v35_0) := (dat1 (entW1 m) c).arrAt 6 cfg1.N
/-- What region 1 leaves in `main_v35_1`: window 7's array after the last write-back. -/
def o6_1 (c : Dev nD) : Buf (Elt F) ((c : Thread nD τ).loc main_v35_1) := (dat1 (entW1 m) c).arrAt 7 cfg1.N
/-- The contents after region 1: its output arrays replaced, every other buffer as entered. -/
def W6 (c : Dev nD) : Valuation τ sig (Elt F) := Function.update (Function.update (W5 m c) main_v35_0 (o6_0 m c)) main_v35_1 (o6_1 m c)
theorem W6_0 (c : Dev nD) : W6 m c main_v35_0 = o6_0 m c := by
  unfold W6
  rw [Function.update_of_ne (by decide : (Proc.devRef .tc main_v35_0 : DevRef τ sig) ≠ Proc.devRef .tc main_v35_1), Function.update_self]
theorem W6_1 (c : Dev nD) : W6 m c main_v35_1 = o6_1 m c := by
  unfold W6
  rw [Function.update_self]
/-- The contents after item 6, the host stretch `hostOps2`. -/
def W7 (c : Dev nD) : Valuation τ sig (Elt F) := StableHlo.after hostOps2 (W6 m c)

/-- The contents region 2 is entered from, read at the TensorCore's references. -/
abbrev entW2 : (c : Dev nD) → (b : Ref sig .tc) → Buf (Elt F) ((c : Thread nD τ).loc b) := fun c b => W7 m c b
/-- What region 2 leaves in `main_v48`: window 5's array after the last write-back. -/
def o8_0 (c : Dev nD) : Buf (Elt F) ((c : Thread nD τ).loc main_v48) := (dat2 (entW2 m) c).arrAt 5 cfg2.N
/-- The contents after region 2: its output arrays replaced, every other buffer as entered. -/
def W8 (c : Dev nD) : Valuation τ sig (Elt F) := Function.update (W7 m c) main_v48 (o8_0 m c)
theorem W8_0 (c : Dev nD) : W8 m c main_v48 = o8_0 m c := by
  unfold W8
  rw [Function.update_self]
/-- The contents after item 8, the host stretch `hostOps3`. -/
def W9 (c : Dev nD) : Valuation τ sig (Elt F) := StableHlo.after hostOps3 (W8 m c)

/-- The contents region 3 is entered from, read at the TensorCore's references. -/
abbrev entW3 : (c : Dev nD) → (b : Ref sig .tc) → Buf (Elt F) ((c : Thread nD τ).loc b) := fun c b => W9 m c b
/-- What region 3 leaves in `main_v63_0`: window 3's array after the last write-back. -/
def o10_0 (c : Dev nD) : Buf (Elt F) ((c : Thread nD τ).loc main_v63_0) := (dat3 (entW3 m) c).arrAt 3 cfg3.N
/-- What region 3 leaves in `main_v63_1`: window 4's array after the last write-back. -/
def o10_1 (c : Dev nD) : Buf (Elt F) ((c : Thread nD τ).loc main_v63_1) := (dat3 (entW3 m) c).arrAt 4 cfg3.N
/-- The contents after region 3: its output arrays replaced, every other buffer as entered. -/
def W10 (c : Dev nD) : Valuation τ sig (Elt F) := Function.update (Function.update (W9 m c) main_v63_0 (o10_0 m c)) main_v63_1 (o10_1 m c)
theorem W10_0 (c : Dev nD) : W10 m c main_v63_0 = o10_0 m c := by
  unfold W10
  rw [Function.update_of_ne (by decide : (Proc.devRef .tc main_v63_0 : DevRef τ sig) ≠ Proc.devRef .tc main_v63_1), Function.update_self]
theorem W10_1 (c : Dev nD) : W10 m c main_v63_1 = o10_1 m c := by
  unfold W10
  rw [Function.update_self]
/-- The contents after item 10, the host stretch `hostOps4`. -/
def W11 (c : Dev nD) : Valuation τ sig (Elt F) := StableHlo.after hostOps4 (W10 m c)

/-- The contents region 4 is entered from, read at the TensorCore's references. -/
abbrev entW4 : (c : Dev nD) → (b : Ref sig .tc) → Buf (Elt F) ((c : Thread nD τ).loc b) := fun c b => W11 m c b
/-- What region 4 leaves in `main_v76_0`: window 6's array after the last write-back. -/
def o12_0 (c : Dev nD) : Buf (Elt F) ((c : Thread nD τ).loc main_v76_0) := (dat4 (entW4 m) c).arrAt 6 cfg4.N
/-- What region 4 leaves in `main_v76_1`: window 7's array after the last write-back. -/
def o12_1 (c : Dev nD) : Buf (Elt F) ((c : Thread nD τ).loc main_v76_1) := (dat4 (entW4 m) c).arrAt 7 cfg4.N
/-- The contents after region 4: its output arrays replaced, every other buffer as entered. -/
def W12 (c : Dev nD) : Valuation τ sig (Elt F) := Function.update (Function.update (W11 m c) main_v76_0 (o12_0 m c)) main_v76_1 (o12_1 m c)
theorem W12_0 (c : Dev nD) : W12 m c main_v76_0 = o12_0 m c := by
  unfold W12
  rw [Function.update_of_ne (by decide : (Proc.devRef .tc main_v76_0 : DevRef τ sig) ≠ Proc.devRef .tc main_v76_1), Function.update_self]
theorem W12_1 (c : Dev nD) : W12 m c main_v76_1 = o12_1 m c := by
  unfold W12
  rw [Function.update_self]
/-- The contents after item 12, the host stretch `hostOps5`. -/
def W13 (c : Dev nD) : Valuation τ sig (Elt F) := StableHlo.after hostOps5 (W12 m c)

/-- The contents region 5 is entered from, read at the TensorCore's references. -/
abbrev entW5 : (c : Dev nD) → (b : Ref sig .tc) → Buf (Elt F) ((c : Thread nD τ).loc b) := fun c b => W13 m c b
/-- What region 5 leaves in `main_v89`: window 5's array after the last write-back. -/
def o14_0 (c : Dev nD) : Buf (Elt F) ((c : Thread nD τ).loc main_v89) := (dat5 (entW5 m) c).arrAt 5 cfg5.N
/-- The contents after region 5: its output arrays replaced, every other buffer as entered. -/
def W14 (c : Dev nD) : Valuation τ sig (Elt F) := Function.update (W13 m c) main_v89 (o14_0 m c)
theorem W14_0 (c : Dev nD) : W14 m c main_v89 = o14_0 m c := by
  unfold W14
  rw [Function.update_self]
/-- The contents after item 14, the host stretch `hostOps6`. -/
def W15 (c : Dev nD) : Valuation τ sig (Elt F) := StableHlo.after hostOps6 (W14 m c)
/-- The contents after item 15, the host stretch `hostOps6_1`. -/
def W16 (c : Dev nD) : Valuation τ sig (Elt F) := StableHlo.after hostOps6_1 (W15 m c)
/-- The contents after item 16, the host stretch `hostOps6_2`. -/
def W17 (c : Dev nD) : Valuation τ sig (Elt F) := StableHlo.after hostOps6_2 (W16 m c)

/-- The contents region 6 is entered from, read at the TensorCore's references. -/
abbrev entW6 : (c : Dev nD) → (b : Ref sig .tc) → Buf (Elt F) ((c : Thread nD τ).loc b) := fun c b => W17 m c b
/-- What region 6 leaves in `main_v105_0`: window 3's array after the last write-back. -/
def o18_0 (c : Dev nD) : Buf (Elt F) ((c : Thread nD τ).loc main_v105_0) := (dat6 (entW6 m) c).arrAt 3 cfg6.N
/-- What region 6 leaves in `main_v105_1`: window 4's array after the last write-back. -/
def o18_1 (c : Dev nD) : Buf (Elt F) ((c : Thread nD τ).loc main_v105_1) := (dat6 (entW6 m) c).arrAt 4 cfg6.N
/-- The contents after region 6: its output arrays replaced, every other buffer as entered. -/
def W18 (c : Dev nD) : Valuation τ sig (Elt F) := Function.update (Function.update (W17 m c) main_v105_0 (o18_0 m c)) main_v105_1 (o18_1 m c)
theorem W18_0 (c : Dev nD) : W18 m c main_v105_0 = o18_0 m c := by
  unfold W18
  rw [Function.update_of_ne (by decide : (Proc.devRef .tc main_v105_0 : DevRef τ sig) ≠ Proc.devRef .tc main_v105_1), Function.update_self]
theorem W18_1 (c : Dev nD) : W18 m c main_v105_1 = o18_1 m c := by
  unfold W18
  rw [Function.update_self]
/-- The contents after item 18, the host stretch `hostOps7`. -/
def W19 (c : Dev nD) : Valuation τ sig (Elt F) := StableHlo.after hostOps7 (W18 m c)

/-- The contents region 7 is entered from, read at the TensorCore's references. -/
abbrev entW7 : (c : Dev nD) → (b : Ref sig .tc) → Buf (Elt F) ((c : Thread nD τ).loc b) := fun c b => W19 m c b
/-- What region 7 leaves in `main_v118_0`: window 6's array after the last write-back. -/
def o20_0 (c : Dev nD) : Buf (Elt F) ((c : Thread nD τ).loc main_v118_0) := (dat7 (entW7 m) c).arrAt 6 cfg7.N
/-- What region 7 leaves in `main_v118_1`: window 7's array after the last write-back. -/
def o20_1 (c : Dev nD) : Buf (Elt F) ((c : Thread nD τ).loc main_v118_1) := (dat7 (entW7 m) c).arrAt 7 cfg7.N
/-- The contents after region 7: its output arrays replaced, every other buffer as entered. -/
def W20 (c : Dev nD) : Valuation τ sig (Elt F) := Function.update (Function.update (W19 m c) main_v118_0 (o20_0 m c)) main_v118_1 (o20_1 m c)
theorem W20_0 (c : Dev nD) : W20 m c main_v118_0 = o20_0 m c := by
  unfold W20
  rw [Function.update_of_ne (by decide : (Proc.devRef .tc main_v118_0 : DevRef τ sig) ≠ Proc.devRef .tc main_v118_1), Function.update_self]
theorem W20_1 (c : Dev nD) : W20 m c main_v118_1 = o20_1 m c := by
  unfold W20
  rw [Function.update_self]
/-- The contents after item 20, the host stretch `hostOps8`. -/
def W21 (c : Dev nD) : Valuation τ sig (Elt F) := StableHlo.after hostOps8 (W20 m c)

/-- The contents region 8 is entered from, read at the TensorCore's references. -/
abbrev entW8 : (c : Dev nD) → (b : Ref sig .tc) → Buf (Elt F) ((c : Thread nD τ).loc b) := fun c b => W21 m c b
/-- What region 8 leaves in `main_v131`: window 5's array after the last write-back. -/
def o22_0 (c : Dev nD) : Buf (Elt F) ((c : Thread nD τ).loc main_v131) := (dat8 (entW8 m) c).arrAt 5 cfg8.N
/-- The contents after region 8: its output arrays replaced, every other buffer as entered. -/
def W22 (c : Dev nD) : Valuation τ sig (Elt F) := Function.update (W21 m c) main_v131 (o22_0 m c)
theorem W22_0 (c : Dev nD) : W22 m c main_v131 = o22_0 m c := by
  unfold W22
  rw [Function.update_self]
/-- The contents after item 22, the host stretch `hostOps9`. -/
def W23 (c : Dev nD) : Valuation τ sig (Elt F) := StableHlo.after hostOps9 (W22 m c)
/-- The contents after item 23, the host stretch `hostOps9_1`. -/
def W24 (c : Dev nD) : Valuation τ sig (Elt F) := StableHlo.after hostOps9_1 (W23 m c)
/-- The contents after item 24, the host stretch `hostOps9_2`. -/
def W25 (c : Dev nD) : Valuation τ sig (Elt F) := StableHlo.after hostOps9_2 (W24 m c)
/-- The contents after item 25, the host stretch `hostOps9_3`. -/
def W26 (c : Dev nD) : Valuation τ sig (Elt F) := StableHlo.after hostOps9_3 (W25 m c)
/-- The contents after item 26, the host stretch `hostOps9_4`. -/
def W27 (c : Dev nD) : Valuation τ sig (Elt F) := StableHlo.after hostOps9_4 (W26 m c)
/-- The contents after item 27, the host stretch `hostOps9_5`. -/
def W28 (c : Dev nD) : Valuation τ sig (Elt F) := StableHlo.after hostOps9_5 (W27 m c)
/-- The contents after item 28, the host stretch `hostOps9_6`. -/
def W29 (c : Dev nD) : Valuation τ sig (Elt F) := StableHlo.after hostOps9_6 (W28 m c)

/-- The contents region 9 is entered from, read at the TensorCore's references. -/
abbrev entW9 : (c : Dev nD) → (b : Ref sig .tc) → Buf (Elt F) ((c : Thread nD τ).loc b) := fun c b => W29 m c b
/-- What region 9 leaves in `main_v167_0`: window 3's array after the last write-back. -/
def o30_0 (c : Dev nD) : Buf (Elt F) ((c : Thread nD τ).loc main_v167_0) := (dat9 (entW9 m) c).arrAt 3 cfg9.N
/-- What region 9 leaves in `main_v167_1`: window 4's array after the last write-back. -/
def o30_1 (c : Dev nD) : Buf (Elt F) ((c : Thread nD τ).loc main_v167_1) := (dat9 (entW9 m) c).arrAt 4 cfg9.N
/-- The contents after region 9: its output arrays replaced, every other buffer as entered. -/
def W30 (c : Dev nD) : Valuation τ sig (Elt F) := Function.update (Function.update (W29 m c) main_v167_0 (o30_0 m c)) main_v167_1 (o30_1 m c)
theorem W30_0 (c : Dev nD) : W30 m c main_v167_0 = o30_0 m c := by
  unfold W30
  rw [Function.update_of_ne (by decide : (Proc.devRef .tc main_v167_0 : DevRef τ sig) ≠ Proc.devRef .tc main_v167_1), Function.update_self]
theorem W30_1 (c : Dev nD) : W30 m c main_v167_1 = o30_1 m c := by
  unfold W30
  rw [Function.update_self]
/-- The contents after item 30, the host stretch `hostOps10`. -/
def W31 (c : Dev nD) : Valuation τ sig (Elt F) := StableHlo.after hostOps10 (W30 m c)

/-- The contents region 10 is entered from, read at the TensorCore's references. -/
abbrev entW10 : (c : Dev nD) → (b : Ref sig .tc) → Buf (Elt F) ((c : Thread nD τ).loc b) := fun c b => W31 m c b
/-- What region 10 leaves in `main_v180_0`: window 6's array after the last write-back. -/
def o32_0 (c : Dev nD) : Buf (Elt F) ((c : Thread nD τ).loc main_v180_0) := (dat10 (entW10 m) c).arrAt 6 cfg10.N
/-- What region 10 leaves in `main_v180_1`: window 7's array after the last write-back. -/
def o32_1 (c : Dev nD) : Buf (Elt F) ((c : Thread nD τ).loc main_v180_1) := (dat10 (entW10 m) c).arrAt 7 cfg10.N
/-- The contents after region 10: its output arrays replaced, every other buffer as entered. -/
def W32 (c : Dev nD) : Valuation τ sig (Elt F) := Function.update (Function.update (W31 m c) main_v180_0 (o32_0 m c)) main_v180_1 (o32_1 m c)
theorem W32_0 (c : Dev nD) : W32 m c main_v180_0 = o32_0 m c := by
  unfold W32
  rw [Function.update_of_ne (by decide : (Proc.devRef .tc main_v180_0 : DevRef τ sig) ≠ Proc.devRef .tc main_v180_1), Function.update_self]
theorem W32_1 (c : Dev nD) : W32 m c main_v180_1 = o32_1 m c := by
  unfold W32
  rw [Function.update_self]
/-- The contents after item 32, the host stretch `hostOps11`. -/
def W33 (c : Dev nD) : Valuation τ sig (Elt F) := StableHlo.after hostOps11 (W32 m c)

/-- The contents region 11 is entered from, read at the TensorCore's references. -/
abbrev entW11 : (c : Dev nD) → (b : Ref sig .tc) → Buf (Elt F) ((c : Thread nD τ).loc b) := fun c b => W33 m c b
/-- What region 11 leaves in `main_v193`: window 5's array after the last write-back. -/
def o34_0 (c : Dev nD) : Buf (Elt F) ((c : Thread nD τ).loc main_v193) := (dat11 (entW11 m) c).arrAt 5 cfg11.N
/-- The contents after region 11: its output arrays replaced, every other buffer as entered. -/
def W34 (c : Dev nD) : Valuation τ sig (Elt F) := Function.update (W33 m c) main_v193 (o34_0 m c)
theorem W34_0 (c : Dev nD) : W34 m c main_v193 = o34_0 m c := by
  unfold W34
  rw [Function.update_self]
/-- The contents after item 34, the host stretch `hostOps12`. -/
def W35 (c : Dev nD) : Valuation τ sig (Elt F) := StableHlo.after hostOps12 (W34 m c)

/-- The contents region 12 is entered from, read at the TensorCore's references. -/
abbrev entW12 : (c : Dev nD) → (b : Ref sig .tc) → Buf (Elt F) ((c : Thread nD τ).loc b) := fun c b => W35 m c b
/-- What region 12 leaves in `main_v208_0`: window 3's array after the last write-back. -/
def o36_0 (c : Dev nD) : Buf (Elt F) ((c : Thread nD τ).loc main_v208_0) := (dat12 (entW12 m) c).arrAt 3 cfg12.N
/-- What region 12 leaves in `main_v208_1`: window 4's array after the last write-back. -/
def o36_1 (c : Dev nD) : Buf (Elt F) ((c : Thread nD τ).loc main_v208_1) := (dat12 (entW12 m) c).arrAt 4 cfg12.N
/-- The contents after region 12: its output arrays replaced, every other buffer as entered. -/
def W36 (c : Dev nD) : Valuation τ sig (Elt F) := Function.update (Function.update (W35 m c) main_v208_0 (o36_0 m c)) main_v208_1 (o36_1 m c)
theorem W36_0 (c : Dev nD) : W36 m c main_v208_0 = o36_0 m c := by
  unfold W36
  rw [Function.update_of_ne (by decide : (Proc.devRef .tc main_v208_0 : DevRef τ sig) ≠ Proc.devRef .tc main_v208_1), Function.update_self]
theorem W36_1 (c : Dev nD) : W36 m c main_v208_1 = o36_1 m c := by
  unfold W36
  rw [Function.update_self]
/-- The contents after item 36, the host stretch `hostOps13`. -/
def W37 (c : Dev nD) : Valuation τ sig (Elt F) := StableHlo.after hostOps13 (W36 m c)

/-- The contents region 13 is entered from, read at the TensorCore's references. -/
abbrev entW13 : (c : Dev nD) → (b : Ref sig .tc) → Buf (Elt F) ((c : Thread nD τ).loc b) := fun c b => W37 m c b
/-- What region 13 leaves in `main_v221_0`: window 6's array after the last write-back. -/
def o38_0 (c : Dev nD) : Buf (Elt F) ((c : Thread nD τ).loc main_v221_0) := (dat13 (entW13 m) c).arrAt 6 cfg13.N
/-- What region 13 leaves in `main_v221_1`: window 7's array after the last write-back. -/
def o38_1 (c : Dev nD) : Buf (Elt F) ((c : Thread nD τ).loc main_v221_1) := (dat13 (entW13 m) c).arrAt 7 cfg13.N
/-- The contents after region 13: its output arrays replaced, every other buffer as entered. -/
def W38 (c : Dev nD) : Valuation τ sig (Elt F) := Function.update (Function.update (W37 m c) main_v221_0 (o38_0 m c)) main_v221_1 (o38_1 m c)
theorem W38_0 (c : Dev nD) : W38 m c main_v221_0 = o38_0 m c := by
  unfold W38
  rw [Function.update_of_ne (by decide : (Proc.devRef .tc main_v221_0 : DevRef τ sig) ≠ Proc.devRef .tc main_v221_1), Function.update_self]
theorem W38_1 (c : Dev nD) : W38 m c main_v221_1 = o38_1 m c := by
  unfold W38
  rw [Function.update_self]
/-- The contents after item 38, the host stretch `hostOps14`. -/
def W39 (c : Dev nD) : Valuation τ sig (Elt F) := StableHlo.after hostOps14 (W38 m c)

/-- The contents region 14 is entered from, read at the TensorCore's references. -/
abbrev entW14 : (c : Dev nD) → (b : Ref sig .tc) → Buf (Elt F) ((c : Thread nD τ).loc b) := fun c b => W39 m c b
/-- What region 14 leaves in `main_v234`: window 5's array after the last write-back. -/
def o40_0 (c : Dev nD) : Buf (Elt F) ((c : Thread nD τ).loc main_v234) := (dat14 (entW14 m) c).arrAt 5 cfg14.N
/-- The contents after region 14: its output arrays replaced, every other buffer as entered. -/
def W40 (c : Dev nD) : Valuation τ sig (Elt F) := Function.update (W39 m c) main_v234 (o40_0 m c)
theorem W40_0 (c : Dev nD) : W40 m c main_v234 = o40_0 m c := by
  unfold W40
  rw [Function.update_self]
/-- The contents after item 40, the host stretch `hostOps15`. -/
def W41 (c : Dev nD) : Valuation τ sig (Elt F) := StableHlo.after hostOps15 (W40 m c)
/-- The contents after item 41, the host stretch `hostOps15_1`. -/
def W42 (c : Dev nD) : Valuation τ sig (Elt F) := StableHlo.after hostOps15_1 (W41 m c)
/-- The contents after item 42, the host stretch `hostOps15_2`. -/
def W43 (c : Dev nD) : Valuation τ sig (Elt F) := StableHlo.after hostOps15_2 (W42 m c)

/-- The contents region 15 is entered from, read at the TensorCore's references. -/
abbrev entW15 : (c : Dev nD) → (b : Ref sig .tc) → Buf (Elt F) ((c : Thread nD τ).loc b) := fun c b => W43 m c b
/-- What region 15 leaves in `main_v250_0`: window 3's array after the last write-back. -/
def o44_0 (c : Dev nD) : Buf (Elt F) ((c : Thread nD τ).loc main_v250_0) := (dat15 (entW15 m) c).arrAt 3 cfg15.N
/-- What region 15 leaves in `main_v250_1`: window 4's array after the last write-back. -/
def o44_1 (c : Dev nD) : Buf (Elt F) ((c : Thread nD τ).loc main_v250_1) := (dat15 (entW15 m) c).arrAt 4 cfg15.N
/-- The contents after region 15: its output arrays replaced, every other buffer as entered. -/
def W44 (c : Dev nD) : Valuation τ sig (Elt F) := Function.update (Function.update (W43 m c) main_v250_0 (o44_0 m c)) main_v250_1 (o44_1 m c)
theorem W44_0 (c : Dev nD) : W44 m c main_v250_0 = o44_0 m c := by
  unfold W44
  rw [Function.update_of_ne (by decide : (Proc.devRef .tc main_v250_0 : DevRef τ sig) ≠ Proc.devRef .tc main_v250_1), Function.update_self]
theorem W44_1 (c : Dev nD) : W44 m c main_v250_1 = o44_1 m c := by
  unfold W44
  rw [Function.update_self]
/-- The contents after item 44, the host stretch `hostOps16`. -/
def W45 (c : Dev nD) : Valuation τ sig (Elt F) := StableHlo.after hostOps16 (W44 m c)

/-- The contents region 16 is entered from, read at the TensorCore's references. -/
abbrev entW16 : (c : Dev nD) → (b : Ref sig .tc) → Buf (Elt F) ((c : Thread nD τ).loc b) := fun c b => W45 m c b
/-- What region 16 leaves in `main_v263_0`: window 6's array after the last write-back. -/
def o46_0 (c : Dev nD) : Buf (Elt F) ((c : Thread nD τ).loc main_v263_0) := (dat16 (entW16 m) c).arrAt 6 cfg16.N
/-- What region 16 leaves in `main_v263_1`: window 7's array after the last write-back. -/
def o46_1 (c : Dev nD) : Buf (Elt F) ((c : Thread nD τ).loc main_v263_1) := (dat16 (entW16 m) c).arrAt 7 cfg16.N
/-- The contents after region 16: its output arrays replaced, every other buffer as entered. -/
def W46 (c : Dev nD) : Valuation τ sig (Elt F) := Function.update (Function.update (W45 m c) main_v263_0 (o46_0 m c)) main_v263_1 (o46_1 m c)
theorem W46_0 (c : Dev nD) : W46 m c main_v263_0 = o46_0 m c := by
  unfold W46
  rw [Function.update_of_ne (by decide : (Proc.devRef .tc main_v263_0 : DevRef τ sig) ≠ Proc.devRef .tc main_v263_1), Function.update_self]
theorem W46_1 (c : Dev nD) : W46 m c main_v263_1 = o46_1 m c := by
  unfold W46
  rw [Function.update_self]
/-- The contents after item 46, the host stretch `hostOps17`. -/
def W47 (c : Dev nD) : Valuation τ sig (Elt F) := StableHlo.after hostOps17 (W46 m c)

/-- The contents region 17 is entered from, read at the TensorCore's references. -/
abbrev entW17 : (c : Dev nD) → (b : Ref sig .tc) → Buf (Elt F) ((c : Thread nD τ).loc b) := fun c b => W47 m c b
/-- What region 17 leaves in `main_v276`: window 5's array after the last write-back. -/
def o48_0 (c : Dev nD) : Buf (Elt F) ((c : Thread nD τ).loc main_v276) := (dat17 (entW17 m) c).arrAt 5 cfg17.N
/-- The contents after region 17: its output arrays replaced, every other buffer as entered. -/
def W48 (c : Dev nD) : Valuation τ sig (Elt F) := Function.update (W47 m c) main_v276 (o48_0 m c)
theorem W48_0 (c : Dev nD) : W48 m c main_v276 = o48_0 m c := by
  unfold W48
  rw [Function.update_self]

/-! ## What the regions leave, as the program's valuations take it -/

/-- What each region leaves in the buffers it may change: after item `J − 1`, a region, the chain's contents `WJ`
    (read only at that region's output arrays); the launch contents at any other index (never read). -/
def outs : Gen.Outs (F := F) := fun J r c =>
  match J with
  | 4 => W4 m c r
  | 6 => W6 m c r
  | 8 => W8 m c r
  | 10 => W10 m c r
  | 12 => W12 m c r
  | 14 => W14 m c r
  | 18 => W18 m c r
  | 20 => W20 m c r
  | 22 => W22 m c r
  | 30 => W30 m c r
  | 32 => W32 m c r
  | 34 => W34 m c r
  | 36 => W36 m c r
  | 38 => W38 m c r
  | 40 => W40 m c r
  | 44 => W44 m c r
  | 46 => W46 m c r
  | 48 => W48 m c r
  | _ => Gen.V0 m c r

theorem outs_4_0 (c : Dev nD) : outs m 4 main_v22_0 c = o4_0 m c := W4_0 m c
theorem outs_4_1 (c : Dev nD) : outs m 4 main_v22_1 c = o4_1 m c := W4_1 m c
/-- The program's valuation after region 0, at these `outs`, is the chain's. -/
theorem V4_eq (c : Dev nD) : Gen.V4 m (outs m) c = W4 m c := by
  show Function.update (Function.update (Gen.V3 m c) main_v22_0 (outs m 4 main_v22_0 c)) main_v22_1 (outs m 4 main_v22_1 c) = W4 m c
  rw [outs_4_0 m c, outs_4_1 m c]; rfl
theorem V5_eq (c : Dev nD) : Gen.V5 m (outs m) c = W5 m c := congrArg (StableHlo.after hostOps1) (V4_eq m c)

theorem outs_6_0 (c : Dev nD) : outs m 6 main_v35_0 c = o6_0 m c := W6_0 m c
theorem outs_6_1 (c : Dev nD) : outs m 6 main_v35_1 c = o6_1 m c := W6_1 m c
/-- The program's valuation after region 1, at these `outs`, is the chain's. -/
theorem V6_eq (c : Dev nD) : Gen.V6 m (outs m) c = W6 m c := by
  show Function.update (Function.update (Gen.V5 m (outs m) c) main_v35_0 (outs m 6 main_v35_0 c)) main_v35_1 (outs m 6 main_v35_1 c) = W6 m c
  rw [outs_6_0 m c, outs_6_1 m c, V5_eq m c]; rfl
theorem V7_eq (c : Dev nD) : Gen.V7 m (outs m) c = W7 m c := congrArg (StableHlo.after hostOps2) (V6_eq m c)

theorem outs_8_0 (c : Dev nD) : outs m 8 main_v48 c = o8_0 m c := W8_0 m c
/-- The program's valuation after region 2, at these `outs`, is the chain's. -/
theorem V8_eq (c : Dev nD) : Gen.V8 m (outs m) c = W8 m c := by
  show Function.update (Gen.V7 m (outs m) c) main_v48 (outs m 8 main_v48 c) = W8 m c
  rw [outs_8_0 m c, V7_eq m c]; rfl
theorem V9_eq (c : Dev nD) : Gen.V9 m (outs m) c = W9 m c := congrArg (StableHlo.after hostOps3) (V8_eq m c)

theorem outs_10_0 (c : Dev nD) : outs m 10 main_v63_0 c = o10_0 m c := W10_0 m c
theorem outs_10_1 (c : Dev nD) : outs m 10 main_v63_1 c = o10_1 m c := W10_1 m c
/-- The program's valuation after region 3, at these `outs`, is the chain's. -/
theorem V10_eq (c : Dev nD) : Gen.V10 m (outs m) c = W10 m c := by
  show Function.update (Function.update (Gen.V9 m (outs m) c) main_v63_0 (outs m 10 main_v63_0 c)) main_v63_1 (outs m 10 main_v63_1 c) = W10 m c
  rw [outs_10_0 m c, outs_10_1 m c, V9_eq m c]; rfl
theorem V11_eq (c : Dev nD) : Gen.V11 m (outs m) c = W11 m c := congrArg (StableHlo.after hostOps4) (V10_eq m c)

theorem outs_12_0 (c : Dev nD) : outs m 12 main_v76_0 c = o12_0 m c := W12_0 m c
theorem outs_12_1 (c : Dev nD) : outs m 12 main_v76_1 c = o12_1 m c := W12_1 m c
/-- The program's valuation after region 4, at these `outs`, is the chain's. -/
theorem V12_eq (c : Dev nD) : Gen.V12 m (outs m) c = W12 m c := by
  show Function.update (Function.update (Gen.V11 m (outs m) c) main_v76_0 (outs m 12 main_v76_0 c)) main_v76_1 (outs m 12 main_v76_1 c) = W12 m c
  rw [outs_12_0 m c, outs_12_1 m c, V11_eq m c]; rfl
theorem V13_eq (c : Dev nD) : Gen.V13 m (outs m) c = W13 m c := congrArg (StableHlo.after hostOps5) (V12_eq m c)

theorem outs_14_0 (c : Dev nD) : outs m 14 main_v89 c = o14_0 m c := W14_0 m c
/-- The program's valuation after region 5, at these `outs`, is the chain's. -/
theorem V14_eq (c : Dev nD) : Gen.V14 m (outs m) c = W14 m c := by
  show Function.update (Gen.V13 m (outs m) c) main_v89 (outs m 14 main_v89 c) = W14 m c
  rw [outs_14_0 m c, V13_eq m c]; rfl
theorem V15_eq (c : Dev nD) : Gen.V15 m (outs m) c = W15 m c := congrArg (StableHlo.after hostOps6) (V14_eq m c)
theorem V16_eq (c : Dev nD) : Gen.V16 m (outs m) c = W16 m c := congrArg (StableHlo.after hostOps6_1) (V15_eq m c)
theorem V17_eq (c : Dev nD) : Gen.V17 m (outs m) c = W17 m c := congrArg (StableHlo.after hostOps6_2) (V16_eq m c)

theorem outs_18_0 (c : Dev nD) : outs m 18 main_v105_0 c = o18_0 m c := W18_0 m c
theorem outs_18_1 (c : Dev nD) : outs m 18 main_v105_1 c = o18_1 m c := W18_1 m c
/-- The program's valuation after region 6, at these `outs`, is the chain's. -/
theorem V18_eq (c : Dev nD) : Gen.V18 m (outs m) c = W18 m c := by
  show Function.update (Function.update (Gen.V17 m (outs m) c) main_v105_0 (outs m 18 main_v105_0 c)) main_v105_1 (outs m 18 main_v105_1 c) = W18 m c
  rw [outs_18_0 m c, outs_18_1 m c, V17_eq m c]; rfl
theorem V19_eq (c : Dev nD) : Gen.V19 m (outs m) c = W19 m c := congrArg (StableHlo.after hostOps7) (V18_eq m c)

theorem outs_20_0 (c : Dev nD) : outs m 20 main_v118_0 c = o20_0 m c := W20_0 m c
theorem outs_20_1 (c : Dev nD) : outs m 20 main_v118_1 c = o20_1 m c := W20_1 m c
/-- The program's valuation after region 7, at these `outs`, is the chain's. -/
theorem V20_eq (c : Dev nD) : Gen.V20 m (outs m) c = W20 m c := by
  show Function.update (Function.update (Gen.V19 m (outs m) c) main_v118_0 (outs m 20 main_v118_0 c)) main_v118_1 (outs m 20 main_v118_1 c) = W20 m c
  rw [outs_20_0 m c, outs_20_1 m c, V19_eq m c]; rfl
theorem V21_eq (c : Dev nD) : Gen.V21 m (outs m) c = W21 m c := congrArg (StableHlo.after hostOps8) (V20_eq m c)

theorem outs_22_0 (c : Dev nD) : outs m 22 main_v131 c = o22_0 m c := W22_0 m c
/-- The program's valuation after region 8, at these `outs`, is the chain's. -/
theorem V22_eq (c : Dev nD) : Gen.V22 m (outs m) c = W22 m c := by
  show Function.update (Gen.V21 m (outs m) c) main_v131 (outs m 22 main_v131 c) = W22 m c
  rw [outs_22_0 m c, V21_eq m c]; rfl
theorem V23_eq (c : Dev nD) : Gen.V23 m (outs m) c = W23 m c := congrArg (StableHlo.after hostOps9) (V22_eq m c)
theorem V24_eq (c : Dev nD) : Gen.V24 m (outs m) c = W24 m c := congrArg (StableHlo.after hostOps9_1) (V23_eq m c)
theorem V25_eq (c : Dev nD) : Gen.V25 m (outs m) c = W25 m c := congrArg (StableHlo.after hostOps9_2) (V24_eq m c)
theorem V26_eq (c : Dev nD) : Gen.V26 m (outs m) c = W26 m c := congrArg (StableHlo.after hostOps9_3) (V25_eq m c)
theorem V27_eq (c : Dev nD) : Gen.V27 m (outs m) c = W27 m c := congrArg (StableHlo.after hostOps9_4) (V26_eq m c)
theorem V28_eq (c : Dev nD) : Gen.V28 m (outs m) c = W28 m c := congrArg (StableHlo.after hostOps9_5) (V27_eq m c)
theorem V29_eq (c : Dev nD) : Gen.V29 m (outs m) c = W29 m c := congrArg (StableHlo.after hostOps9_6) (V28_eq m c)

theorem outs_30_0 (c : Dev nD) : outs m 30 main_v167_0 c = o30_0 m c := W30_0 m c
theorem outs_30_1 (c : Dev nD) : outs m 30 main_v167_1 c = o30_1 m c := W30_1 m c
/-- The program's valuation after region 9, at these `outs`, is the chain's. -/
theorem V30_eq (c : Dev nD) : Gen.V30 m (outs m) c = W30 m c := by
  show Function.update (Function.update (Gen.V29 m (outs m) c) main_v167_0 (outs m 30 main_v167_0 c)) main_v167_1 (outs m 30 main_v167_1 c) = W30 m c
  rw [outs_30_0 m c, outs_30_1 m c, V29_eq m c]; rfl
theorem V31_eq (c : Dev nD) : Gen.V31 m (outs m) c = W31 m c := congrArg (StableHlo.after hostOps10) (V30_eq m c)

theorem outs_32_0 (c : Dev nD) : outs m 32 main_v180_0 c = o32_0 m c := W32_0 m c
theorem outs_32_1 (c : Dev nD) : outs m 32 main_v180_1 c = o32_1 m c := W32_1 m c
/-- The program's valuation after region 10, at these `outs`, is the chain's. -/
theorem V32_eq (c : Dev nD) : Gen.V32 m (outs m) c = W32 m c := by
  show Function.update (Function.update (Gen.V31 m (outs m) c) main_v180_0 (outs m 32 main_v180_0 c)) main_v180_1 (outs m 32 main_v180_1 c) = W32 m c
  rw [outs_32_0 m c, outs_32_1 m c, V31_eq m c]; rfl
theorem V33_eq (c : Dev nD) : Gen.V33 m (outs m) c = W33 m c := congrArg (StableHlo.after hostOps11) (V32_eq m c)

theorem outs_34_0 (c : Dev nD) : outs m 34 main_v193 c = o34_0 m c := W34_0 m c
/-- The program's valuation after region 11, at these `outs`, is the chain's. -/
theorem V34_eq (c : Dev nD) : Gen.V34 m (outs m) c = W34 m c := by
  show Function.update (Gen.V33 m (outs m) c) main_v193 (outs m 34 main_v193 c) = W34 m c
  rw [outs_34_0 m c, V33_eq m c]; rfl
theorem V35_eq (c : Dev nD) : Gen.V35 m (outs m) c = W35 m c := congrArg (StableHlo.after hostOps12) (V34_eq m c)

theorem outs_36_0 (c : Dev nD) : outs m 36 main_v208_0 c = o36_0 m c := W36_0 m c
theorem outs_36_1 (c : Dev nD) : outs m 36 main_v208_1 c = o36_1 m c := W36_1 m c
/-- The program's valuation after region 12, at these `outs`, is the chain's. -/
theorem V36_eq (c : Dev nD) : Gen.V36 m (outs m) c = W36 m c := by
  show Function.update (Function.update (Gen.V35 m (outs m) c) main_v208_0 (outs m 36 main_v208_0 c)) main_v208_1 (outs m 36 main_v208_1 c) = W36 m c
  rw [outs_36_0 m c, outs_36_1 m c, V35_eq m c]; rfl
theorem V37_eq (c : Dev nD) : Gen.V37 m (outs m) c = W37 m c := congrArg (StableHlo.after hostOps13) (V36_eq m c)

theorem outs_38_0 (c : Dev nD) : outs m 38 main_v221_0 c = o38_0 m c := W38_0 m c
theorem outs_38_1 (c : Dev nD) : outs m 38 main_v221_1 c = o38_1 m c := W38_1 m c
/-- The program's valuation after region 13, at these `outs`, is the chain's. -/
theorem V38_eq (c : Dev nD) : Gen.V38 m (outs m) c = W38 m c := by
  show Function.update (Function.update (Gen.V37 m (outs m) c) main_v221_0 (outs m 38 main_v221_0 c)) main_v221_1 (outs m 38 main_v221_1 c) = W38 m c
  rw [outs_38_0 m c, outs_38_1 m c, V37_eq m c]; rfl
theorem V39_eq (c : Dev nD) : Gen.V39 m (outs m) c = W39 m c := congrArg (StableHlo.after hostOps14) (V38_eq m c)

theorem outs_40_0 (c : Dev nD) : outs m 40 main_v234 c = o40_0 m c := W40_0 m c
/-- The program's valuation after region 14, at these `outs`, is the chain's. -/
theorem V40_eq (c : Dev nD) : Gen.V40 m (outs m) c = W40 m c := by
  show Function.update (Gen.V39 m (outs m) c) main_v234 (outs m 40 main_v234 c) = W40 m c
  rw [outs_40_0 m c, V39_eq m c]; rfl
theorem V41_eq (c : Dev nD) : Gen.V41 m (outs m) c = W41 m c := congrArg (StableHlo.after hostOps15) (V40_eq m c)
theorem V42_eq (c : Dev nD) : Gen.V42 m (outs m) c = W42 m c := congrArg (StableHlo.after hostOps15_1) (V41_eq m c)
theorem V43_eq (c : Dev nD) : Gen.V43 m (outs m) c = W43 m c := congrArg (StableHlo.after hostOps15_2) (V42_eq m c)

theorem outs_44_0 (c : Dev nD) : outs m 44 main_v250_0 c = o44_0 m c := W44_0 m c
theorem outs_44_1 (c : Dev nD) : outs m 44 main_v250_1 c = o44_1 m c := W44_1 m c
/-- The program's valuation after region 15, at these `outs`, is the chain's. -/
theorem V44_eq (c : Dev nD) : Gen.V44 m (outs m) c = W44 m c := by
  show Function.update (Function.update (Gen.V43 m (outs m) c) main_v250_0 (outs m 44 main_v250_0 c)) main_v250_1 (outs m 44 main_v250_1 c) = W44 m c
  rw [outs_44_0 m c, outs_44_1 m c, V43_eq m c]; rfl
theorem V45_eq (c : Dev nD) : Gen.V45 m (outs m) c = W45 m c := congrArg (StableHlo.after hostOps16) (V44_eq m c)

theorem outs_46_0 (c : Dev nD) : outs m 46 main_v263_0 c = o46_0 m c := W46_0 m c
theorem outs_46_1 (c : Dev nD) : outs m 46 main_v263_1 c = o46_1 m c := W46_1 m c
/-- The program's valuation after region 16, at these `outs`, is the chain's. -/
theorem V46_eq (c : Dev nD) : Gen.V46 m (outs m) c = W46 m c := by
  show Function.update (Function.update (Gen.V45 m (outs m) c) main_v263_0 (outs m 46 main_v263_0 c)) main_v263_1 (outs m 46 main_v263_1 c) = W46 m c
  rw [outs_46_0 m c, outs_46_1 m c, V45_eq m c]; rfl
theorem V47_eq (c : Dev nD) : Gen.V47 m (outs m) c = W47 m c := congrArg (StableHlo.after hostOps17) (V46_eq m c)

theorem outs_48_0 (c : Dev nD) : outs m 48 main_v276 c = o48_0 m c := W48_0 m c
/-- The program's valuation after region 17, at these `outs`, is the chain's. -/
theorem V48_eq (c : Dev nD) : Gen.V48 m (outs m) c = W48 m c := by
  show Function.update (Gen.V47 m (outs m) c) main_v276 (outs m 48 main_v276 c) = W48 m c
  rw [outs_48_0 m c, V47_eq m c]; rfl

/-! ## Each region's entry and exit contents, and what its output arrays hold -/

/-- A statement about every window of a region of five holds when it holds of each: the cases are taken once, at a
    predicate, so that no statement whose type depends on the window is ever matched on. -/
theorem forall_fin5 {P : Fin 5 → Prop} (h0 : P 0) (h1 : P 1) (h2 : P 2) (h3 : P 3) (h4 : P 4) : ∀ w, P w
  | 0 => h0 | 1 => h1 | 2 => h2 | 3 => h3 | 4 => h4
  | ⟨_ + 5, h⟩ => absurd h (Nat.not_lt.2 (Nat.le_add_left _ _))
/-- The same of six and of eight windows. -/
theorem forall_fin6 {P : Fin 6 → Prop} (h0 : P 0) (h1 : P 1) (h2 : P 2) (h3 : P 3) (h4 : P 4) (h5 : P 5) : ∀ w, P w
  | 0 => h0 | 1 => h1 | 2 => h2 | 3 => h3 | 4 => h4 | 5 => h5
  | ⟨_ + 6, h⟩ => absurd h (Nat.not_lt.2 (Nat.le_add_left _ _))

theorem forall_fin8 {P : Fin 8 → Prop} (h0 : P 0) (h1 : P 1) (h2 : P 2) (h3 : P 3) (h4 : P 4) (h5 : P 5) (h6 : P 6) (h7 : P 7) : ∀ w, P w
  | 0 => h0 | 1 => h1 | 2 => h2 | 3 => h3 | 4 => h4 | 5 => h5 | 6 => h6 | 7 => h7
  | ⟨_ + 8, h⟩ => absurd h (Nat.not_lt.2 (Nat.le_add_left _ _))

/-- The program's valuation region 0 is entered from, read at the TensorCore's references; -/
abbrev ent0 : (c : Dev nD) → (b : Ref sig .tc) → Buf (Elt F) ((c : Thread nD τ).loc b) := fun c b => Gen.V3 m c b
/-- the one it leaves. -/
abbrev ext0 : (c : Dev nD) → (b : Ref sig .tc) → Buf (Elt F) ((c : Thread nD τ).loc b) := fun c b => Gen.V4 m (outs m) c b
theorem ent0_eq : ent0 m = entW0 m := rfl
/-- After region 0, `main_v22_0` holds window 3's array after the last write-back of the pipeline run from the
    contents the region was entered from. -/
theorem outs_eq_0_3 (c : Dev nD) : outs m 4 main_v22_0 c = (dat0 (ent0 m) c).arrAt 3 cfg0.N := by
  rw [ent0_eq m]; exact outs_4_0 m c
/-- After region 0, `main_v22_1` holds window 4's array after the last write-back of the pipeline run from the
    contents the region was entered from. -/
theorem outs_eq_0_4 (c : Dev nD) : outs m 4 main_v22_1 c = (dat0 (ent0 m) c).arrAt 4 cfg0.N := by
  rw [ent0_eq m]; exact outs_4_1 m c
/-- At region 0's exit each of its arrays holds what the pipeline leaves, window by window: an input window's array
    is as entered (no write-back touches it, and the region's exit valuation differs from the entry one only at the
    output arrays), an output window's is the chain's. -/
theorem hF0_0 (c : Dev nD) : (dat0 (ent0 m) c).arrAt 0 cfg0.N = ext0 m c (Pipeline.arrRef spec0 0) :=
  ((dat0 (ent0 m) c).arrAt_in 0 rfl _).trans ((A_eq0 (ent0 m) c 0).trans (Gen.V4_of m (outs m) c main_v7 (by decide)).symm)
theorem hF0_1 (c : Dev nD) : (dat0 (ent0 m) c).arrAt 1 cfg0.N = ext0 m c (Pipeline.arrRef spec0 1) :=
  ((dat0 (ent0 m) c).arrAt_in 1 rfl _).trans ((A_eq0 (ent0 m) c 1).trans (Gen.V4_of m (outs m) c main_v21 (by decide)).symm)
theorem hF0_2 (c : Dev nD) : (dat0 (ent0 m) c).arrAt 2 cfg0.N = ext0 m c (Pipeline.arrRef spec0 2) :=
  ((dat0 (ent0 m) c).arrAt_in 2 rfl _).trans ((A_eq0 (ent0 m) c 2).trans (Gen.V4_of m (outs m) c main_v0 (by decide)).symm)
theorem hF0_3 (c : Dev nD) : (dat0 (ent0 m) c).arrAt 3 cfg0.N = ext0 m c (Pipeline.arrRef spec0 3) :=
  (congrArg (fun V => (dat0 V c).arrAt 3 cfg0.N) (ent0_eq m)).trans ((W4_0 m c).symm.trans (congrFun (V4_eq m c) _).symm)
theorem hF0_4 (c : Dev nD) : (dat0 (ent0 m) c).arrAt 4 cfg0.N = ext0 m c (Pipeline.arrRef spec0 4) :=
  (congrArg (fun V => (dat0 V c).arrAt 4 cfg0.N) (ent0_eq m)).trans ((W4_1 m c).symm.trans (congrFun (V4_eq m c) _).symm)
/-- The same of every window at once. -/
theorem hF0 (c : Dev nD) : ∀ w : Fin 5, (dat0 (ent0 m) c).arrAt w cfg0.N = ext0 m c (Pipeline.arrRef spec0 w) :=
  forall_fin5 (P := fun w => (dat0 (ent0 m) c).arrAt w cfg0.N = ext0 m c (Pipeline.arrRef spec0 w))
    (hF0_0 m c) (hF0_1 m c) (hF0_2 m c) (hF0_3 m c) (hF0_4 m c)
/-- and every buffer that is none of its arrays holds what it held at entry. -/
theorem hrest0 (c : Dev nD) : ∀ b : Ref sig .tc, b ∉ Finset.univ.image (Pipeline.arrRef spec0) → ext0 m c b = ent0 m c b :=
  fun b hb => Gen.V4_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 1 is entered from, read at the TensorCore's references; -/
abbrev ent1 : (c : Dev nD) → (b : Ref sig .tc) → Buf (Elt F) ((c : Thread nD τ).loc b) := fun c b => Gen.V5 m (outs m) c b
/-- the one it leaves. -/
abbrev ext1 : (c : Dev nD) → (b : Ref sig .tc) → Buf (Elt F) ((c : Thread nD τ).loc b) := fun c b => Gen.V6 m (outs m) c b
theorem ent1_eq : ent1 m = entW1 m := funext fun c => funext fun b => congrFun (V5_eq m c) _
/-- After region 1, `main_v35_0` holds window 6's array after the last write-back of the pipeline run from the
    contents the region was entered from. -/
theorem outs_eq_1_6 (c : Dev nD) : outs m 6 main_v35_0 c = (dat1 (ent1 m) c).arrAt 6 cfg1.N := by
  rw [ent1_eq m]; exact outs_6_0 m c
/-- After region 1, `main_v35_1` holds window 7's array after the last write-back of the pipeline run from the
    contents the region was entered from. -/
theorem outs_eq_1_7 (c : Dev nD) : outs m 6 main_v35_1 c = (dat1 (ent1 m) c).arrAt 7 cfg1.N := by
  rw [ent1_eq m]; exact outs_6_1 m c
/-- At region 1's exit each of its arrays holds what the pipeline leaves, window by window: an input window's array
    is as entered (no write-back touches it, and the region's exit valuation differs from the entry one only at the
    output arrays), an output window's is the chain's. -/
theorem hF1_0 (c : Dev nD) : (dat1 (ent1 m) c).arrAt 0 cfg1.N = ext1 m c (Pipeline.arrRef spec1 0) :=
  ((dat1 (ent1 m) c).arrAt_in 0 rfl _).trans ((A_eq1 (ent1 m) c 0).trans (Gen.V6_of m (outs m) c main_v22_0 (by decide)).symm)
theorem hF1_1 (c : Dev nD) : (dat1 (ent1 m) c).arrAt 1 cfg1.N = ext1 m c (Pipeline.arrRef spec1 1) :=
  ((dat1 (ent1 m) c).arrAt_in 1 rfl _).trans ((A_eq1 (ent1 m) c 1).trans (Gen.V6_of m (outs m) c main_v25 (by decide)).symm)
theorem hF1_2 (c : Dev nD) : (dat1 (ent1 m) c).arrAt 2 cfg1.N = ext1 m c (Pipeline.arrRef spec1 2) :=
  ((dat1 (ent1 m) c).arrAt_in 2 rfl _).trans ((A_eq1 (ent1 m) c 2).trans (Gen.V6_of m (outs m) c main_v32 (by decide)).symm)
theorem hF1_3 (c : Dev nD) : (dat1 (ent1 m) c).arrAt 3 cfg1.N = ext1 m c (Pipeline.arrRef spec1 3) :=
  ((dat1 (ent1 m) c).arrAt_in 3 rfl _).trans ((A_eq1 (ent1 m) c 3).trans (Gen.V6_of m (outs m) c main_v33 (by decide)).symm)
theorem hF1_4 (c : Dev nD) : (dat1 (ent1 m) c).arrAt 4 cfg1.N = ext1 m c (Pipeline.arrRef spec1 4) :=
  ((dat1 (ent1 m) c).arrAt_in 4 rfl _).trans ((A_eq1 (ent1 m) c 4).trans (Gen.V6_of m (outs m) c main_v34 (by decide)).symm)
theorem hF1_5 (c : Dev nD) : (dat1 (ent1 m) c).arrAt 5 cfg1.N = ext1 m c (Pipeline.arrRef spec1 5) :=
  ((dat1 (ent1 m) c).arrAt_in 5 rfl _).trans ((A_eq1 (ent1 m) c 5).trans (Gen.V6_of m (outs m) c main_v1 (by decide)).symm)
theorem hF1_6 (c : Dev nD) : (dat1 (ent1 m) c).arrAt 6 cfg1.N = ext1 m c (Pipeline.arrRef spec1 6) :=
  (congrArg (fun V => (dat1 V c).arrAt 6 cfg1.N) (ent1_eq m)).trans ((W6_0 m c).symm.trans (congrFun (V6_eq m c) _).symm)
theorem hF1_7 (c : Dev nD) : (dat1 (ent1 m) c).arrAt 7 cfg1.N = ext1 m c (Pipeline.arrRef spec1 7) :=
  (congrArg (fun V => (dat1 V c).arrAt 7 cfg1.N) (ent1_eq m)).trans ((W6_1 m c).symm.trans (congrFun (V6_eq m c) _).symm)
/-- The same of every window at once. -/
theorem hF1 (c : Dev nD) : ∀ w : Fin 8, (dat1 (ent1 m) c).arrAt w cfg1.N = ext1 m c (Pipeline.arrRef spec1 w) :=
  forall_fin8 (P := fun w => (dat1 (ent1 m) c).arrAt w cfg1.N = ext1 m c (Pipeline.arrRef spec1 w))
    (hF1_0 m c) (hF1_1 m c) (hF1_2 m c) (hF1_3 m c) (hF1_4 m c) (hF1_5 m c) (hF1_6 m c) (hF1_7 m c)
/-- and every buffer that is none of its arrays holds what it held at entry. -/
theorem hrest1 (c : Dev nD) : ∀ b : Ref sig .tc, b ∉ Finset.univ.image (Pipeline.arrRef spec1) → ext1 m c b = ent1 m c b :=
  fun b hb => Gen.V6_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 2 is entered from, read at the TensorCore's references; -/
abbrev ent2 : (c : Dev nD) → (b : Ref sig .tc) → Buf (Elt F) ((c : Thread nD τ).loc b) := fun c b => Gen.V7 m (outs m) c b
/-- the one it leaves. -/
abbrev ext2 : (c : Dev nD) → (b : Ref sig .tc) → Buf (Elt F) ((c : Thread nD τ).loc b) := fun c b => Gen.V8 m (outs m) c b
theorem ent2_eq : ent2 m = entW2 m := funext fun c => funext fun b => congrFun (V7_eq m c) _
/-- After region 2, `main_v48` holds window 5's array after the last write-back of the pipeline run from the
    contents the region was entered from. -/
theorem outs_eq_2_5 (c : Dev nD) : outs m 8 main_v48 c = (dat2 (ent2 m) c).arrAt 5 cfg2.N := by
  rw [ent2_eq m]; exact outs_8_0 m c
/-- At region 2's exit each of its arrays holds what the pipeline leaves, window by window: an input window's array
    is as entered (no write-back touches it, and the region's exit valuation differs from the entry one only at the
    output arrays), an output window's is the chain's. -/
theorem hF2_0 (c : Dev nD) : (dat2 (ent2 m) c).arrAt 0 cfg2.N = ext2 m c (Pipeline.arrRef spec2 0) :=
  ((dat2 (ent2 m) c).arrAt_in 0 rfl _).trans ((A_eq2 (ent2 m) c 0).trans (Gen.V8_of m (outs m) c main_v35_0 (by decide)).symm)
theorem hF2_1 (c : Dev nD) : (dat2 (ent2 m) c).arrAt 1 cfg2.N = ext2 m c (Pipeline.arrRef spec2 1) :=
  ((dat2 (ent2 m) c).arrAt_in 1 rfl _).trans ((A_eq2 (ent2 m) c 1).trans (Gen.V8_of m (outs m) c main_v38 (by decide)).symm)
theorem hF2_2 (c : Dev nD) : (dat2 (ent2 m) c).arrAt 2 cfg2.N = ext2 m c (Pipeline.arrRef spec2 2) :=
  ((dat2 (ent2 m) c).arrAt_in 2 rfl _).trans ((A_eq2 (ent2 m) c 2).trans (Gen.V8_of m (outs m) c main_v45 (by decide)).symm)
theorem hF2_3 (c : Dev nD) : (dat2 (ent2 m) c).arrAt 3 cfg2.N = ext2 m c (Pipeline.arrRef spec2 3) :=
  ((dat2 (ent2 m) c).arrAt_in 3 rfl _).trans ((A_eq2 (ent2 m) c 3).trans (Gen.V8_of m (outs m) c main_v46 (by decide)).symm)
theorem hF2_4 (c : Dev nD) : (dat2 (ent2 m) c).arrAt 4 cfg2.N = ext2 m c (Pipeline.arrRef spec2 4) :=
  ((dat2 (ent2 m) c).arrAt_in 4 rfl _).trans ((A_eq2 (ent2 m) c 4).trans (Gen.V8_of m (outs m) c main_v47 (by decide)).symm)
theorem hF2_5 (c : Dev nD) : (dat2 (ent2 m) c).arrAt 5 cfg2.N = ext2 m c (Pipeline.arrRef spec2 5) :=
  (congrArg (fun V => (dat2 V c).arrAt 5 cfg2.N) (ent2_eq m)).trans ((W8_0 m c).symm.trans (congrFun (V8_eq m c) _).symm)
/-- The same of every window at once. -/
theorem hF2 (c : Dev nD) : ∀ w : Fin 6, (dat2 (ent2 m) c).arrAt w cfg2.N = ext2 m c (Pipeline.arrRef spec2 w) :=
  forall_fin6 (P := fun w => (dat2 (ent2 m) c).arrAt w cfg2.N = ext2 m c (Pipeline.arrRef spec2 w))
    (hF2_0 m c) (hF2_1 m c) (hF2_2 m c) (hF2_3 m c) (hF2_4 m c) (hF2_5 m c)
/-- and every buffer that is none of its arrays holds what it held at entry. -/
theorem hrest2 (c : Dev nD) : ∀ b : Ref sig .tc, b ∉ Finset.univ.image (Pipeline.arrRef spec2) → ext2 m c b = ent2 m c b :=
  fun b hb => Gen.V8_of m (outs m) c b fun hmem => hb (by
    rcases List.mem_cons.mp hmem with rfl | hmem
    · exact Finset.mem_image.mpr ⟨5, Finset.mem_univ _, rfl⟩
    cases hmem)

/-- The program's valuation region 3 is entered from, read at the TensorCore's references; -/
abbrev ent3 : (c : Dev nD) → (b : Ref sig .tc) → Buf (Elt F) ((c : Thread nD τ).loc b) := fun c b => Gen.V9 m (outs m) c b
/-- the one it leaves. -/
abbrev ext3 : (c : Dev nD) → (b : Ref sig .tc) → Buf (Elt F) ((c : Thread nD τ).loc b) := fun c b => Gen.V10 m (outs m) c b
theorem ent3_eq : ent3 m = entW3 m := funext fun c => funext fun b => congrFun (V9_eq m c) _
/-- After region 3, `main_v63_0` holds window 3's array after the last write-back of the pipeline run from the
    contents the region was entered from. -/
theorem outs_eq_3_3 (c : Dev nD) : outs m 10 main_v63_0 c = (dat3 (ent3 m) c).arrAt 3 cfg3.N := by
  rw [ent3_eq m]; exact outs_10_0 m c
/-- After region 3, `main_v63_1` holds window 4's array after the last write-back of the pipeline run from the
    contents the region was entered from. -/
theorem outs_eq_3_4 (c : Dev nD) : outs m 10 main_v63_1 c = (dat3 (ent3 m) c).arrAt 4 cfg3.N := by
  rw [ent3_eq m]; exact outs_10_1 m c
/-- At region 3's exit each of its arrays holds what the pipeline leaves, window by window: an input window's array
    is as entered (no write-back touches it, and the region's exit valuation differs from the entry one only at the
    output arrays), an output window's is the chain's. -/
theorem hF3_0 (c : Dev nD) : (dat3 (ent3 m) c).arrAt 0 cfg3.N = ext3 m c (Pipeline.arrRef spec3 0) :=
  ((dat3 (ent3 m) c).arrAt_in 0 rfl _).trans ((A_eq3 (ent3 m) c 0).trans (Gen.V10_of m (outs m) c main_v48 (by decide)).symm)
theorem hF3_1 (c : Dev nD) : (dat3 (ent3 m) c).arrAt 1 cfg3.N = ext3 m c (Pipeline.arrRef spec3 1) :=
  ((dat3 (ent3 m) c).arrAt_in 1 rfl _).trans ((A_eq3 (ent3 m) c 1).trans (Gen.V10_of m (outs m) c main_v62 (by decide)).symm)
theorem hF3_2 (c : Dev nD) : (dat3 (ent3 m) c).arrAt 2 cfg3.N = ext3 m c (Pipeline.arrRef spec3 2) :=
  ((dat3 (ent3 m) c).arrAt_in 2 rfl _).trans ((A_eq3 (ent3 m) c 2).trans (Gen.V10_of m (outs m) c main_v2 (by decide)).symm)
theorem hF3_3 (c : Dev nD) : (dat3 (ent3 m) c).arrAt 3 cfg3.N = ext3 m c (Pipeline.arrRef spec3 3) :=
  (congrArg (fun V => (dat3 V c).arrAt 3 cfg3.N) (ent3_eq m)).trans ((W10_0 m c).symm.trans (congrFun (V10_eq m c) _).symm)
theorem hF3_4 (c : Dev nD) : (dat3 (ent3 m) c).arrAt 4 cfg3.N = ext3 m c (Pipeline.arrRef spec3 4) :=
  (congrArg (fun V => (dat3 V c).arrAt 4 cfg3.N) (ent3_eq m)).trans ((W10_1 m c).symm.trans (congrFun (V10_eq m c) _).symm)
/-- The same of every window at once. -/
theorem hF3 (c : Dev nD) : ∀ w : Fin 5, (dat3 (ent3 m) c).arrAt w cfg3.N = ext3 m c (Pipeline.arrRef spec3 w) :=
  forall_fin5 (P := fun w => (dat3 (ent3 m) c).arrAt w cfg3.N = ext3 m c (Pipeline.arrRef spec3 w))
    (hF3_0 m c) (hF3_1 m c) (hF3_2 m c) (hF3_3 m c) (hF3_4 m c)
/-- and every buffer that is none of its arrays holds what it held at entry. -/
theorem hrest3 (c : Dev nD) : ∀ b : Ref sig .tc, b ∉ Finset.univ.image (Pipeline.arrRef spec3) → ext3 m c b = ent3 m c b :=
  fun b hb => Gen.V10_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 4 is entered from, read at the TensorCore's references; -/
abbrev ent4 : (c : Dev nD) → (b : Ref sig .tc) → Buf (Elt F) ((c : Thread nD τ).loc b) := fun c b => Gen.V11 m (outs m) c b
/-- the one it leaves. -/
abbrev ext4 : (c : Dev nD) → (b : Ref sig .tc) → Buf (Elt F) ((c : Thread nD τ).loc b) := fun c b => Gen.V12 m (outs m) c b
theorem ent4_eq : ent4 m = entW4 m := funext fun c => funext fun b => congrFun (V11_eq m c) _
/-- After region 4, `main_v76_0` holds window 6's array after the last write-back of the pipeline run from the
    contents the region was entered from. -/
theorem outs_eq_4_6 (c : Dev nD) : outs m 12 main_v76_0 c = (dat4 (ent4 m) c).arrAt 6 cfg4.N := by
  rw [ent4_eq m]; exact outs_12_0 m c
/-- After region 4, `main_v76_1` holds window 7's array after the last write-back of the pipeline run from the
    contents the region was entered from. -/
theorem outs_eq_4_7 (c : Dev nD) : outs m 12 main_v76_1 c = (dat4 (ent4 m) c).arrAt 7 cfg4.N := by
  rw [ent4_eq m]; exact outs_12_1 m c
/-- At region 4's exit each of its arrays holds what the pipeline leaves, window by window: an input window's array
    is as entered (no write-back touches it, and the region's exit valuation differs from the entry one only at the
    output arrays), an output window's is the chain's. -/
theorem hF4_0 (c : Dev nD) : (dat4 (ent4 m) c).arrAt 0 cfg4.N = ext4 m c (Pipeline.arrRef spec4 0) :=
  ((dat4 (ent4 m) c).arrAt_in 0 rfl _).trans ((A_eq4 (ent4 m) c 0).trans (Gen.V12_of m (outs m) c main_v63_0 (by decide)).symm)
theorem hF4_1 (c : Dev nD) : (dat4 (ent4 m) c).arrAt 1 cfg4.N = ext4 m c (Pipeline.arrRef spec4 1) :=
  ((dat4 (ent4 m) c).arrAt_in 1 rfl _).trans ((A_eq4 (ent4 m) c 1).trans (Gen.V12_of m (outs m) c main_v66 (by decide)).symm)
theorem hF4_2 (c : Dev nD) : (dat4 (ent4 m) c).arrAt 2 cfg4.N = ext4 m c (Pipeline.arrRef spec4 2) :=
  ((dat4 (ent4 m) c).arrAt_in 2 rfl _).trans ((A_eq4 (ent4 m) c 2).trans (Gen.V12_of m (outs m) c main_v73 (by decide)).symm)
theorem hF4_3 (c : Dev nD) : (dat4 (ent4 m) c).arrAt 3 cfg4.N = ext4 m c (Pipeline.arrRef spec4 3) :=
  ((dat4 (ent4 m) c).arrAt_in 3 rfl _).trans ((A_eq4 (ent4 m) c 3).trans (Gen.V12_of m (outs m) c main_v74 (by decide)).symm)
theorem hF4_4 (c : Dev nD) : (dat4 (ent4 m) c).arrAt 4 cfg4.N = ext4 m c (Pipeline.arrRef spec4 4) :=
  ((dat4 (ent4 m) c).arrAt_in 4 rfl _).trans ((A_eq4 (ent4 m) c 4).trans (Gen.V12_of m (outs m) c main_v75 (by decide)).symm)
theorem hF4_5 (c : Dev nD) : (dat4 (ent4 m) c).arrAt 5 cfg4.N = ext4 m c (Pipeline.arrRef spec4 5) :=
  ((dat4 (ent4 m) c).arrAt_in 5 rfl _).trans ((A_eq4 (ent4 m) c 5).trans (Gen.V12_of m (outs m) c main_v3 (by decide)).symm)
theorem hF4_6 (c : Dev nD) : (dat4 (ent4 m) c).arrAt 6 cfg4.N = ext4 m c (Pipeline.arrRef spec4 6) :=
  (congrArg (fun V => (dat4 V c).arrAt 6 cfg4.N) (ent4_eq m)).trans ((W12_0 m c).symm.trans (congrFun (V12_eq m c) _).symm)
theorem hF4_7 (c : Dev nD) : (dat4 (ent4 m) c).arrAt 7 cfg4.N = ext4 m c (Pipeline.arrRef spec4 7) :=
  (congrArg (fun V => (dat4 V c).arrAt 7 cfg4.N) (ent4_eq m)).trans ((W12_1 m c).symm.trans (congrFun (V12_eq m c) _).symm)
/-- The same of every window at once. -/
theorem hF4 (c : Dev nD) : ∀ w : Fin 8, (dat4 (ent4 m) c).arrAt w cfg4.N = ext4 m c (Pipeline.arrRef spec4 w) :=
  forall_fin8 (P := fun w => (dat4 (ent4 m) c).arrAt w cfg4.N = ext4 m c (Pipeline.arrRef spec4 w))
    (hF4_0 m c) (hF4_1 m c) (hF4_2 m c) (hF4_3 m c) (hF4_4 m c) (hF4_5 m c) (hF4_6 m c) (hF4_7 m c)
/-- and every buffer that is none of its arrays holds what it held at entry. -/
theorem hrest4 (c : Dev nD) : ∀ b : Ref sig .tc, b ∉ Finset.univ.image (Pipeline.arrRef spec4) → ext4 m c b = ent4 m c b :=
  fun b hb => Gen.V12_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 5 is entered from, read at the TensorCore's references; -/
abbrev ent5 : (c : Dev nD) → (b : Ref sig .tc) → Buf (Elt F) ((c : Thread nD τ).loc b) := fun c b => Gen.V13 m (outs m) c b
/-- the one it leaves. -/
abbrev ext5 : (c : Dev nD) → (b : Ref sig .tc) → Buf (Elt F) ((c : Thread nD τ).loc b) := fun c b => Gen.V14 m (outs m) c b
theorem ent5_eq : ent5 m = entW5 m := funext fun c => funext fun b => congrFun (V13_eq m c) _
/-- After region 5, `main_v89` holds window 5's array after the last write-back of the pipeline run from the
    contents the region was entered from. -/
theorem outs_eq_5_5 (c : Dev nD) : outs m 14 main_v89 c = (dat5 (ent5 m) c).arrAt 5 cfg5.N := by
  rw [ent5_eq m]; exact outs_14_0 m c
/-- At region 5's exit each of its arrays holds what the pipeline leaves, window by window: an input window's array
    is as entered (no write-back touches it, and the region's exit valuation differs from the entry one only at the
    output arrays), an output window's is the chain's. -/
theorem hF5_0 (c : Dev nD) : (dat5 (ent5 m) c).arrAt 0 cfg5.N = ext5 m c (Pipeline.arrRef spec5 0) :=
  ((dat5 (ent5 m) c).arrAt_in 0 rfl _).trans ((A_eq5 (ent5 m) c 0).trans (Gen.V14_of m (outs m) c main_v76_0 (by decide)).symm)
theorem hF5_1 (c : Dev nD) : (dat5 (ent5 m) c).arrAt 1 cfg5.N = ext5 m c (Pipeline.arrRef spec5 1) :=
  ((dat5 (ent5 m) c).arrAt_in 1 rfl _).trans ((A_eq5 (ent5 m) c 1).trans (Gen.V14_of m (outs m) c main_v79 (by decide)).symm)
theorem hF5_2 (c : Dev nD) : (dat5 (ent5 m) c).arrAt 2 cfg5.N = ext5 m c (Pipeline.arrRef spec5 2) :=
  ((dat5 (ent5 m) c).arrAt_in 2 rfl _).trans ((A_eq5 (ent5 m) c 2).trans (Gen.V14_of m (outs m) c main_v86 (by decide)).symm)
theorem hF5_3 (c : Dev nD) : (dat5 (ent5 m) c).arrAt 3 cfg5.N = ext5 m c (Pipeline.arrRef spec5 3) :=
  ((dat5 (ent5 m) c).arrAt_in 3 rfl _).trans ((A_eq5 (ent5 m) c 3).trans (Gen.V14_of m (outs m) c main_v87 (by decide)).symm)
theorem hF5_4 (c : Dev nD) : (dat5 (ent5 m) c).arrAt 4 cfg5.N = ext5 m c (Pipeline.arrRef spec5 4) :=
  ((dat5 (ent5 m) c).arrAt_in 4 rfl _).trans ((A_eq5 (ent5 m) c 4).trans (Gen.V14_of m (outs m) c main_v88 (by decide)).symm)
theorem hF5_5 (c : Dev nD) : (dat5 (ent5 m) c).arrAt 5 cfg5.N = ext5 m c (Pipeline.arrRef spec5 5) :=
  (congrArg (fun V => (dat5 V c).arrAt 5 cfg5.N) (ent5_eq m)).trans ((W14_0 m c).symm.trans (congrFun (V14_eq m c) _).symm)
/-- The same of every window at once. -/
theorem hF5 (c : Dev nD) : ∀ w : Fin 6, (dat5 (ent5 m) c).arrAt w cfg5.N = ext5 m c (Pipeline.arrRef spec5 w) :=
  forall_fin6 (P := fun w => (dat5 (ent5 m) c).arrAt w cfg5.N = ext5 m c (Pipeline.arrRef spec5 w))
    (hF5_0 m c) (hF5_1 m c) (hF5_2 m c) (hF5_3 m c) (hF5_4 m c) (hF5_5 m c)
/-- and every buffer that is none of its arrays holds what it held at entry. -/
theorem hrest5 (c : Dev nD) : ∀ b : Ref sig .tc, b ∉ Finset.univ.image (Pipeline.arrRef spec5) → ext5 m c b = ent5 m c b :=
  fun b hb => Gen.V14_of m (outs m) c b fun hmem => hb (by
    rcases List.mem_cons.mp hmem with rfl | hmem
    · exact Finset.mem_image.mpr ⟨5, Finset.mem_univ _, rfl⟩
    cases hmem)

/-- The program's valuation region 6 is entered from, read at the TensorCore's references; -/
abbrev ent6 : (c : Dev nD) → (b : Ref sig .tc) → Buf (Elt F) ((c : Thread nD τ).loc b) := fun c b => Gen.V17 m (outs m) c b
/-- the one it leaves. -/
abbrev ext6 : (c : Dev nD) → (b : Ref sig .tc) → Buf (Elt F) ((c : Thread nD τ).loc b) := fun c b => Gen.V18 m (outs m) c b
theorem ent6_eq : ent6 m = entW6 m := funext fun c => funext fun b => congrFun (V17_eq m c) _
/-- After region 6, `main_v105_0` holds window 3's array after the last write-back of the pipeline run from the
    contents the region was entered from. -/
theorem outs_eq_6_3 (c : Dev nD) : outs m 18 main_v105_0 c = (dat6 (ent6 m) c).arrAt 3 cfg6.N := by
  rw [ent6_eq m]; exact outs_18_0 m c
/-- After region 6, `main_v105_1` holds window 4's array after the last write-back of the pipeline run from the
    contents the region was entered from. -/
theorem outs_eq_6_4 (c : Dev nD) : outs m 18 main_v105_1 c = (dat6 (ent6 m) c).arrAt 4 cfg6.N := by
  rw [ent6_eq m]; exact outs_18_1 m c
/-- At region 6's exit each of its arrays holds what the pipeline leaves, window by window: an input window's array
    is as entered (no write-back touches it, and the region's exit valuation differs from the entry one only at the
    output arrays), an output window's is the chain's. -/
theorem hF6_0 (c : Dev nD) : (dat6 (ent6 m) c).arrAt 0 cfg6.N = ext6 m c (Pipeline.arrRef spec6 0) :=
  ((dat6 (ent6 m) c).arrAt_in 0 rfl _).trans ((A_eq6 (ent6 m) c 0).trans (Gen.V18_of m (outs m) c main_v90 (by decide)).symm)
theorem hF6_1 (c : Dev nD) : (dat6 (ent6 m) c).arrAt 1 cfg6.N = ext6 m c (Pipeline.arrRef spec6 1) :=
  ((dat6 (ent6 m) c).arrAt_in 1 rfl _).trans ((A_eq6 (ent6 m) c 1).trans (Gen.V18_of m (outs m) c main_v104 (by decide)).symm)
theorem hF6_2 (c : Dev nD) : (dat6 (ent6 m) c).arrAt 2 cfg6.N = ext6 m c (Pipeline.arrRef spec6 2) :=
  ((dat6 (ent6 m) c).arrAt_in 2 rfl _).trans ((A_eq6 (ent6 m) c 2).trans (Gen.V18_of m (outs m) c main_v4 (by decide)).symm)
theorem hF6_3 (c : Dev nD) : (dat6 (ent6 m) c).arrAt 3 cfg6.N = ext6 m c (Pipeline.arrRef spec6 3) :=
  (congrArg (fun V => (dat6 V c).arrAt 3 cfg6.N) (ent6_eq m)).trans ((W18_0 m c).symm.trans (congrFun (V18_eq m c) _).symm)
theorem hF6_4 (c : Dev nD) : (dat6 (ent6 m) c).arrAt 4 cfg6.N = ext6 m c (Pipeline.arrRef spec6 4) :=
  (congrArg (fun V => (dat6 V c).arrAt 4 cfg6.N) (ent6_eq m)).trans ((W18_1 m c).symm.trans (congrFun (V18_eq m c) _).symm)
/-- The same of every window at once. -/
theorem hF6 (c : Dev nD) : ∀ w : Fin 5, (dat6 (ent6 m) c).arrAt w cfg6.N = ext6 m c (Pipeline.arrRef spec6 w) :=
  forall_fin5 (P := fun w => (dat6 (ent6 m) c).arrAt w cfg6.N = ext6 m c (Pipeline.arrRef spec6 w))
    (hF6_0 m c) (hF6_1 m c) (hF6_2 m c) (hF6_3 m c) (hF6_4 m c)
/-- and every buffer that is none of its arrays holds what it held at entry. -/
theorem hrest6 (c : Dev nD) : ∀ b : Ref sig .tc, b ∉ Finset.univ.image (Pipeline.arrRef spec6) → ext6 m c b = ent6 m c b :=
  fun b hb => Gen.V18_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 7 is entered from, read at the TensorCore's references; -/
abbrev ent7 : (c : Dev nD) → (b : Ref sig .tc) → Buf (Elt F) ((c : Thread nD τ).loc b) := fun c b => Gen.V19 m (outs m) c b
/-- the one it leaves. -/
abbrev ext7 : (c : Dev nD) → (b : Ref sig .tc) → Buf (Elt F) ((c : Thread nD τ).loc b) := fun c b => Gen.V20 m (outs m) c b
theorem ent7_eq : ent7 m = entW7 m := funext fun c => funext fun b => congrFun (V19_eq m c) _
/-- After region 7, `main_v118_0` holds window 6's array after the last write-back of the pipeline run from the
    contents the region was entered from. -/
theorem outs_eq_7_6 (c : Dev nD) : outs m 20 main_v118_0 c = (dat7 (ent7 m) c).arrAt 6 cfg7.N := by
  rw [ent7_eq m]; exact outs_20_0 m c
/-- After region 7, `main_v118_1` holds window 7's array after the last write-back of the pipeline run from the
    contents the region was entered from. -/
theorem outs_eq_7_7 (c : Dev nD) : outs m 20 main_v118_1 c = (dat7 (ent7 m) c).arrAt 7 cfg7.N := by
  rw [ent7_eq m]; exact outs_20_1 m c
/-- At region 7's exit each of its arrays holds what the pipeline leaves, window by window: an input window's array
    is as entered (no write-back touches it, and the region's exit valuation differs from the entry one only at the
    output arrays), an output window's is the chain's. -/
theorem hF7_0 (c : Dev nD) : (dat7 (ent7 m) c).arrAt 0 cfg7.N = ext7 m c (Pipeline.arrRef spec7 0) :=
  ((dat7 (ent7 m) c).arrAt_in 0 rfl _).trans ((A_eq7 (ent7 m) c 0).trans (Gen.V20_of m (outs m) c main_v105_0 (by decide)).symm)
theorem hF7_1 (c : Dev nD) : (dat7 (ent7 m) c).arrAt 1 cfg7.N = ext7 m c (Pipeline.arrRef spec7 1) :=
  ((dat7 (ent7 m) c).arrAt_in 1 rfl _).trans ((A_eq7 (ent7 m) c 1).trans (Gen.V20_of m (outs m) c main_v108 (by decide)).symm)
theorem hF7_2 (c : Dev nD) : (dat7 (ent7 m) c).arrAt 2 cfg7.N = ext7 m c (Pipeline.arrRef spec7 2) :=
  ((dat7 (ent7 m) c).arrAt_in 2 rfl _).trans ((A_eq7 (ent7 m) c 2).trans (Gen.V20_of m (outs m) c main_v115 (by decide)).symm)
theorem hF7_3 (c : Dev nD) : (dat7 (ent7 m) c).arrAt 3 cfg7.N = ext7 m c (Pipeline.arrRef spec7 3) :=
  ((dat7 (ent7 m) c).arrAt_in 3 rfl _).trans ((A_eq7 (ent7 m) c 3).trans (Gen.V20_of m (outs m) c main_v116 (by decide)).symm)
theorem hF7_4 (c : Dev nD) : (dat7 (ent7 m) c).arrAt 4 cfg7.N = ext7 m c (Pipeline.arrRef spec7 4) :=
  ((dat7 (ent7 m) c).arrAt_in 4 rfl _).trans ((A_eq7 (ent7 m) c 4).trans (Gen.V20_of m (outs m) c main_v117 (by decide)).symm)
theorem hF7_5 (c : Dev nD) : (dat7 (ent7 m) c).arrAt 5 cfg7.N = ext7 m c (Pipeline.arrRef spec7 5) :=
  ((dat7 (ent7 m) c).arrAt_in 5 rfl _).trans ((A_eq7 (ent7 m) c 5).trans (Gen.V20_of m (outs m) c main_v5 (by decide)).symm)
theorem hF7_6 (c : Dev nD) : (dat7 (ent7 m) c).arrAt 6 cfg7.N = ext7 m c (Pipeline.arrRef spec7 6) :=
  (congrArg (fun V => (dat7 V c).arrAt 6 cfg7.N) (ent7_eq m)).trans ((W20_0 m c).symm.trans (congrFun (V20_eq m c) _).symm)
theorem hF7_7 (c : Dev nD) : (dat7 (ent7 m) c).arrAt 7 cfg7.N = ext7 m c (Pipeline.arrRef spec7 7) :=
  (congrArg (fun V => (dat7 V c).arrAt 7 cfg7.N) (ent7_eq m)).trans ((W20_1 m c).symm.trans (congrFun (V20_eq m c) _).symm)
/-- The same of every window at once. -/
theorem hF7 (c : Dev nD) : ∀ w : Fin 8, (dat7 (ent7 m) c).arrAt w cfg7.N = ext7 m c (Pipeline.arrRef spec7 w) :=
  forall_fin8 (P := fun w => (dat7 (ent7 m) c).arrAt w cfg7.N = ext7 m c (Pipeline.arrRef spec7 w))
    (hF7_0 m c) (hF7_1 m c) (hF7_2 m c) (hF7_3 m c) (hF7_4 m c) (hF7_5 m c) (hF7_6 m c) (hF7_7 m c)
/-- and every buffer that is none of its arrays holds what it held at entry. -/
theorem hrest7 (c : Dev nD) : ∀ b : Ref sig .tc, b ∉ Finset.univ.image (Pipeline.arrRef spec7) → ext7 m c b = ent7 m c b :=
  fun b hb => Gen.V20_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 8 is entered from, read at the TensorCore's references; -/
abbrev ent8 : (c : Dev nD) → (b : Ref sig .tc) → Buf (Elt F) ((c : Thread nD τ).loc b) := fun c b => Gen.V21 m (outs m) c b
/-- the one it leaves. -/
abbrev ext8 : (c : Dev nD) → (b : Ref sig .tc) → Buf (Elt F) ((c : Thread nD τ).loc b) := fun c b => Gen.V22 m (outs m) c b
theorem ent8_eq : ent8 m = entW8 m := funext fun c => funext fun b => congrFun (V21_eq m c) _
/-- After region 8, `main_v131` holds window 5's array after the last write-back of the pipeline run from the
    contents the region was entered from. -/
theorem outs_eq_8_5 (c : Dev nD) : outs m 22 main_v131 c = (dat8 (ent8 m) c).arrAt 5 cfg8.N := by
  rw [ent8_eq m]; exact outs_22_0 m c
/-- At region 8's exit each of its arrays holds what the pipeline leaves, window by window: an input window's array
    is as entered (no write-back touches it, and the region's exit valuation differs from the entry one only at the
    output arrays), an output window's is the chain's. -/
theorem hF8_0 (c : Dev nD) : (dat8 (ent8 m) c).arrAt 0 cfg8.N = ext8 m c (Pipeline.arrRef spec8 0) :=
  ((dat8 (ent8 m) c).arrAt_in 0 rfl _).trans ((A_eq8 (ent8 m) c 0).trans (Gen.V22_of m (outs m) c main_v118_0 (by decide)).symm)
theorem hF8_1 (c : Dev nD) : (dat8 (ent8 m) c).arrAt 1 cfg8.N = ext8 m c (Pipeline.arrRef spec8 1) :=
  ((dat8 (ent8 m) c).arrAt_in 1 rfl _).trans ((A_eq8 (ent8 m) c 1).trans (Gen.V22_of m (outs m) c main_v121 (by decide)).symm)
theorem hF8_2 (c : Dev nD) : (dat8 (ent8 m) c).arrAt 2 cfg8.N = ext8 m c (Pipeline.arrRef spec8 2) :=
  ((dat8 (ent8 m) c).arrAt_in 2 rfl _).trans ((A_eq8 (ent8 m) c 2).trans (Gen.V22_of m (outs m) c main_v128 (by decide)).symm)
theorem hF8_3 (c : Dev nD) : (dat8 (ent8 m) c).arrAt 3 cfg8.N = ext8 m c (Pipeline.arrRef spec8 3) :=
  ((dat8 (ent8 m) c).arrAt_in 3 rfl _).trans ((A_eq8 (ent8 m) c 3).trans (Gen.V22_of m (outs m) c main_v129 (by decide)).symm)
theorem hF8_4 (c : Dev nD) : (dat8 (ent8 m) c).arrAt 4 cfg8.N = ext8 m c (Pipeline.arrRef spec8 4) :=
  ((dat8 (ent8 m) c).arrAt_in 4 rfl _).trans ((A_eq8 (ent8 m) c 4).trans (Gen.V22_of m (outs m) c main_v130 (by decide)).symm)
theorem hF8_5 (c : Dev nD) : (dat8 (ent8 m) c).arrAt 5 cfg8.N = ext8 m c (Pipeline.arrRef spec8 5) :=
  (congrArg (fun V => (dat8 V c).arrAt 5 cfg8.N) (ent8_eq m)).trans ((W22_0 m c).symm.trans (congrFun (V22_eq m c) _).symm)
/-- The same of every window at once. -/
theorem hF8 (c : Dev nD) : ∀ w : Fin 6, (dat8 (ent8 m) c).arrAt w cfg8.N = ext8 m c (Pipeline.arrRef spec8 w) :=
  forall_fin6 (P := fun w => (dat8 (ent8 m) c).arrAt w cfg8.N = ext8 m c (Pipeline.arrRef spec8 w))
    (hF8_0 m c) (hF8_1 m c) (hF8_2 m c) (hF8_3 m c) (hF8_4 m c) (hF8_5 m c)
/-- and every buffer that is none of its arrays holds what it held at entry. -/
theorem hrest8 (c : Dev nD) : ∀ b : Ref sig .tc, b ∉ Finset.univ.image (Pipeline.arrRef spec8) → ext8 m c b = ent8 m c b :=
  fun b hb => Gen.V22_of m (outs m) c b fun hmem => hb (by
    rcases List.mem_cons.mp hmem with rfl | hmem
    · exact Finset.mem_image.mpr ⟨5, Finset.mem_univ _, rfl⟩
    cases hmem)

/-- The program's valuation region 9 is entered from, read at the TensorCore's references; -/
abbrev ent9 : (c : Dev nD) → (b : Ref sig .tc) → Buf (Elt F) ((c : Thread nD τ).loc b) := fun c b => Gen.V29 m (outs m) c b
/-- the one it leaves. -/
abbrev ext9 : (c : Dev nD) → (b : Ref sig .tc) → Buf (Elt F) ((c : Thread nD τ).loc b) := fun c b => Gen.V30 m (outs m) c b
theorem ent9_eq : ent9 m = entW9 m := funext fun c => funext fun b => congrFun (V29_eq m c) _
/-- After region 9, `main_v167_0` holds window 3's array after the last write-back of the pipeline run from the
    contents the region was entered from. -/
theorem outs_eq_9_3 (c : Dev nD) : outs m 30 main_v167_0 c = (dat9 (ent9 m) c).arrAt 3 cfg9.N := by
  rw [ent9_eq m]; exact outs_30_0 m c
/-- After region 9, `main_v167_1` holds window 4's array after the last write-back of the pipeline run from the
    contents the region was entered from. -/
theorem outs_eq_9_4 (c : Dev nD) : outs m 30 main_v167_1 c = (dat9 (ent9 m) c).arrAt 4 cfg9.N := by
  rw [ent9_eq m]; exact outs_30_1 m c
/-- At region 9's exit each of its arrays holds what the pipeline leaves, window by window: an input window's array
    is as entered (no write-back touches it, and the region's exit valuation differs from the entry one only at the
    output arrays), an output window's is the chain's. -/
theorem hF9_0 (c : Dev nD) : (dat9 (ent9 m) c).arrAt 0 cfg9.N = ext9 m c (Pipeline.arrRef spec9 0) :=
  ((dat9 (ent9 m) c).arrAt_in 0 rfl _).trans ((A_eq9 (ent9 m) c 0).trans (Gen.V30_of m (outs m) c main_v152 (by decide)).symm)
theorem hF9_1 (c : Dev nD) : (dat9 (ent9 m) c).arrAt 1 cfg9.N = ext9 m c (Pipeline.arrRef spec9 1) :=
  ((dat9 (ent9 m) c).arrAt_in 1 rfl _).trans ((A_eq9 (ent9 m) c 1).trans (Gen.V30_of m (outs m) c main_v166 (by decide)).symm)
theorem hF9_2 (c : Dev nD) : (dat9 (ent9 m) c).arrAt 2 cfg9.N = ext9 m c (Pipeline.arrRef spec9 2) :=
  ((dat9 (ent9 m) c).arrAt_in 2 rfl _).trans ((A_eq9 (ent9 m) c 2).trans (Gen.V30_of m (outs m) c main_v0 (by decide)).symm)
theorem hF9_3 (c : Dev nD) : (dat9 (ent9 m) c).arrAt 3 cfg9.N = ext9 m c (Pipeline.arrRef spec9 3) :=
  (congrArg (fun V => (dat9 V c).arrAt 3 cfg9.N) (ent9_eq m)).trans ((W30_0 m c).symm.trans (congrFun (V30_eq m c) _).symm)
theorem hF9_4 (c : Dev nD) : (dat9 (ent9 m) c).arrAt 4 cfg9.N = ext9 m c (Pipeline.arrRef spec9 4) :=
  (congrArg (fun V => (dat9 V c).arrAt 4 cfg9.N) (ent9_eq m)).trans ((W30_1 m c).symm.trans (congrFun (V30_eq m c) _).symm)
/-- The same of every window at once. -/
theorem hF9 (c : Dev nD) : ∀ w : Fin 5, (dat9 (ent9 m) c).arrAt w cfg9.N = ext9 m c (Pipeline.arrRef spec9 w) :=
  forall_fin5 (P := fun w => (dat9 (ent9 m) c).arrAt w cfg9.N = ext9 m c (Pipeline.arrRef spec9 w))
    (hF9_0 m c) (hF9_1 m c) (hF9_2 m c) (hF9_3 m c) (hF9_4 m c)
/-- and every buffer that is none of its arrays holds what it held at entry. -/
theorem hrest9 (c : Dev nD) : ∀ b : Ref sig .tc, b ∉ Finset.univ.image (Pipeline.arrRef spec9) → ext9 m c b = ent9 m c b :=
  fun b hb => Gen.V30_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 10 is entered from, read at the TensorCore's references; -/
abbrev ent10 : (c : Dev nD) → (b : Ref sig .tc) → Buf (Elt F) ((c : Thread nD τ).loc b) := fun c b => Gen.V31 m (outs m) c b
/-- the one it leaves. -/
abbrev ext10 : (c : Dev nD) → (b : Ref sig .tc) → Buf (Elt F) ((c : Thread nD τ).loc b) := fun c b => Gen.V32 m (outs m) c b
theorem ent10_eq : ent10 m = entW10 m := funext fun c => funext fun b => congrFun (V31_eq m c) _
/-- After region 10, `main_v180_0` holds window 6's array after the last write-back of the pipeline run from the
    contents the region was entered from. -/
theorem outs_eq_10_6 (c : Dev nD) : outs m 32 main_v180_0 c = (dat10 (ent10 m) c).arrAt 6 cfg10.N := by
  rw [ent10_eq m]; exact outs_32_0 m c
/-- After region 10, `main_v180_1` holds window 7's array after the last write-back of the pipeline run from the
    contents the region was entered from. -/
theorem outs_eq_10_7 (c : Dev nD) : outs m 32 main_v180_1 c = (dat10 (ent10 m) c).arrAt 7 cfg10.N := by
  rw [ent10_eq m]; exact outs_32_1 m c
/-- At region 10's exit each of its arrays holds what the pipeline leaves, window by window: an input window's array
    is as entered (no write-back touches it, and the region's exit valuation differs from the entry one only at the
    output arrays), an output window's is the chain's. -/
theorem hF10_0 (c : Dev nD) : (dat10 (ent10 m) c).arrAt 0 cfg10.N = ext10 m c (Pipeline.arrRef spec10 0) :=
  ((dat10 (ent10 m) c).arrAt_in 0 rfl _).trans ((A_eq10 (ent10 m) c 0).trans (Gen.V32_of m (outs m) c main_v167_0 (by decide)).symm)
theorem hF10_1 (c : Dev nD) : (dat10 (ent10 m) c).arrAt 1 cfg10.N = ext10 m c (Pipeline.arrRef spec10 1) :=
  ((dat10 (ent10 m) c).arrAt_in 1 rfl _).trans ((A_eq10 (ent10 m) c 1).trans (Gen.V32_of m (outs m) c main_v170 (by decide)).symm)
theorem hF10_2 (c : Dev nD) : (dat10 (ent10 m) c).arrAt 2 cfg10.N = ext10 m c (Pipeline.arrRef spec10 2) :=
  ((dat10 (ent10 m) c).arrAt_in 2 rfl _).trans ((A_eq10 (ent10 m) c 2).trans (Gen.V32_of m (outs m) c main_v177 (by decide)).symm)
theorem hF10_3 (c : Dev nD) : (dat10 (ent10 m) c).arrAt 3 cfg10.N = ext10 m c (Pipeline.arrRef spec10 3) :=
  ((dat10 (ent10 m) c).arrAt_in 3 rfl _).trans ((A_eq10 (ent10 m) c 3).trans (Gen.V32_of m (outs m) c main_v178 (by decide)).symm)
theorem hF10_4 (c : Dev nD) : (dat10 (ent10 m) c).arrAt 4 cfg10.N = ext10 m c (Pipeline.arrRef spec10 4) :=
  ((dat10 (ent10 m) c).arrAt_in 4 rfl _).trans ((A_eq10 (ent10 m) c 4).trans (Gen.V32_of m (outs m) c main_v179 (by decide)).symm)
theorem hF10_5 (c : Dev nD) : (dat10 (ent10 m) c).arrAt 5 cfg10.N = ext10 m c (Pipeline.arrRef spec10 5) :=
  ((dat10 (ent10 m) c).arrAt_in 5 rfl _).trans ((A_eq10 (ent10 m) c 5).trans (Gen.V32_of m (outs m) c main_v1 (by decide)).symm)
theorem hF10_6 (c : Dev nD) : (dat10 (ent10 m) c).arrAt 6 cfg10.N = ext10 m c (Pipeline.arrRef spec10 6) :=
  (congrArg (fun V => (dat10 V c).arrAt 6 cfg10.N) (ent10_eq m)).trans ((W32_0 m c).symm.trans (congrFun (V32_eq m c) _).symm)
theorem hF10_7 (c : Dev nD) : (dat10 (ent10 m) c).arrAt 7 cfg10.N = ext10 m c (Pipeline.arrRef spec10 7) :=
  (congrArg (fun V => (dat10 V c).arrAt 7 cfg10.N) (ent10_eq m)).trans ((W32_1 m c).symm.trans (congrFun (V32_eq m c) _).symm)
/-- The same of every window at once. -/
theorem hF10 (c : Dev nD) : ∀ w : Fin 8, (dat10 (ent10 m) c).arrAt w cfg10.N = ext10 m c (Pipeline.arrRef spec10 w) :=
  forall_fin8 (P := fun w => (dat10 (ent10 m) c).arrAt w cfg10.N = ext10 m c (Pipeline.arrRef spec10 w))
    (hF10_0 m c) (hF10_1 m c) (hF10_2 m c) (hF10_3 m c) (hF10_4 m c) (hF10_5 m c) (hF10_6 m c) (hF10_7 m c)
/-- and every buffer that is none of its arrays holds what it held at entry. -/
theorem hrest10 (c : Dev nD) : ∀ b : Ref sig .tc, b ∉ Finset.univ.image (Pipeline.arrRef spec10) → ext10 m c b = ent10 m c b :=
  fun b hb => Gen.V32_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 11 is entered from, read at the TensorCore's references; -/
abbrev ent11 : (c : Dev nD) → (b : Ref sig .tc) → Buf (Elt F) ((c : Thread nD τ).loc b) := fun c b => Gen.V33 m (outs m) c b
/-- the one it leaves. -/
abbrev ext11 : (c : Dev nD) → (b : Ref sig .tc) → Buf (Elt F) ((c : Thread nD τ).loc b) := fun c b => Gen.V34 m (outs m) c b
theorem ent11_eq : ent11 m = entW11 m := funext fun c => funext fun b => congrFun (V33_eq m c) _
/-- After region 11, `main_v193` holds window 5's array after the last write-back of the pipeline run from the
    contents the region was entered from. -/
theorem outs_eq_11_5 (c : Dev nD) : outs m 34 main_v193 c = (dat11 (ent11 m) c).arrAt 5 cfg11.N := by
  rw [ent11_eq m]; exact outs_34_0 m c
/-- At region 11's exit each of its arrays holds what the pipeline leaves, window by window: an input window's array
    is as entered (no write-back touches it, and the region's exit valuation differs from the entry one only at the
    output arrays), an output window's is the chain's. -/
theorem hF11_0 (c : Dev nD) : (dat11 (ent11 m) c).arrAt 0 cfg11.N = ext11 m c (Pipeline.arrRef spec11 0) :=
  ((dat11 (ent11 m) c).arrAt_in 0 rfl _).trans ((A_eq11 (ent11 m) c 0).trans (Gen.V34_of m (outs m) c main_v180_0 (by decide)).symm)
theorem hF11_1 (c : Dev nD) : (dat11 (ent11 m) c).arrAt 1 cfg11.N = ext11 m c (Pipeline.arrRef spec11 1) :=
  ((dat11 (ent11 m) c).arrAt_in 1 rfl _).trans ((A_eq11 (ent11 m) c 1).trans (Gen.V34_of m (outs m) c main_v183 (by decide)).symm)
theorem hF11_2 (c : Dev nD) : (dat11 (ent11 m) c).arrAt 2 cfg11.N = ext11 m c (Pipeline.arrRef spec11 2) :=
  ((dat11 (ent11 m) c).arrAt_in 2 rfl _).trans ((A_eq11 (ent11 m) c 2).trans (Gen.V34_of m (outs m) c main_v190 (by decide)).symm)
theorem hF11_3 (c : Dev nD) : (dat11 (ent11 m) c).arrAt 3 cfg11.N = ext11 m c (Pipeline.arrRef spec11 3) :=
  ((dat11 (ent11 m) c).arrAt_in 3 rfl _).trans ((A_eq11 (ent11 m) c 3).trans (Gen.V34_of m (outs m) c main_v191 (by decide)).symm)
theorem hF11_4 (c : Dev nD) : (dat11 (ent11 m) c).arrAt 4 cfg11.N = ext11 m c (Pipeline.arrRef spec11 4) :=
  ((dat11 (ent11 m) c).arrAt_in 4 rfl _).trans ((A_eq11 (ent11 m) c 4).trans (Gen.V34_of m (outs m) c main_v192 (by decide)).symm)
theorem hF11_5 (c : Dev nD) : (dat11 (ent11 m) c).arrAt 5 cfg11.N = ext11 m c (Pipeline.arrRef spec11 5) :=
  (congrArg (fun V => (dat11 V c).arrAt 5 cfg11.N) (ent11_eq m)).trans ((W34_0 m c).symm.trans (congrFun (V34_eq m c) _).symm)
/-- The same of every window at once. -/
theorem hF11 (c : Dev nD) : ∀ w : Fin 6, (dat11 (ent11 m) c).arrAt w cfg11.N = ext11 m c (Pipeline.arrRef spec11 w) :=
  forall_fin6 (P := fun w => (dat11 (ent11 m) c).arrAt w cfg11.N = ext11 m c (Pipeline.arrRef spec11 w))
    (hF11_0 m c) (hF11_1 m c) (hF11_2 m c) (hF11_3 m c) (hF11_4 m c) (hF11_5 m c)
/-- and every buffer that is none of its arrays holds what it held at entry. -/
theorem hrest11 (c : Dev nD) : ∀ b : Ref sig .tc, b ∉ Finset.univ.image (Pipeline.arrRef spec11) → ext11 m c b = ent11 m c b :=
  fun b hb => Gen.V34_of m (outs m) c b fun hmem => hb (by
    rcases List.mem_cons.mp hmem with rfl | hmem
    · exact Finset.mem_image.mpr ⟨5, Finset.mem_univ _, rfl⟩
    cases hmem)

/-- The program's valuation region 12 is entered from, read at the TensorCore's references; -/
abbrev ent12 : (c : Dev nD) → (b : Ref sig .tc) → Buf (Elt F) ((c : Thread nD τ).loc b) := fun c b => Gen.V35 m (outs m) c b
/-- the one it leaves. -/
abbrev ext12 : (c : Dev nD) → (b : Ref sig .tc) → Buf (Elt F) ((c : Thread nD τ).loc b) := fun c b => Gen.V36 m (outs m) c b
theorem ent12_eq : ent12 m = entW12 m := funext fun c => funext fun b => congrFun (V35_eq m c) _
/-- After region 12, `main_v208_0` holds window 3's array after the last write-back of the pipeline run from the
    contents the region was entered from. -/
theorem outs_eq_12_3 (c : Dev nD) : outs m 36 main_v208_0 c = (dat12 (ent12 m) c).arrAt 3 cfg12.N := by
  rw [ent12_eq m]; exact outs_36_0 m c
/-- After region 12, `main_v208_1` holds window 4's array after the last write-back of the pipeline run from the
    contents the region was entered from. -/
theorem outs_eq_12_4 (c : Dev nD) : outs m 36 main_v208_1 c = (dat12 (ent12 m) c).arrAt 4 cfg12.N := by
  rw [ent12_eq m]; exact outs_36_1 m c
/-- At region 12's exit each of its arrays holds what the pipeline leaves, window by window: an input window's array
    is as entered (no write-back touches it, and the region's exit valuation differs from the entry one only at the
    output arrays), an output window's is the chain's. -/
theorem hF12_0 (c : Dev nD) : (dat12 (ent12 m) c).arrAt 0 cfg12.N = ext12 m c (Pipeline.arrRef spec12 0) :=
  ((dat12 (ent12 m) c).arrAt_in 0 rfl _).trans ((A_eq12 (ent12 m) c 0).trans (Gen.V36_of m (outs m) c main_v193 (by decide)).symm)
theorem hF12_1 (c : Dev nD) : (dat12 (ent12 m) c).arrAt 1 cfg12.N = ext12 m c (Pipeline.arrRef spec12 1) :=
  ((dat12 (ent12 m) c).arrAt_in 1 rfl _).trans ((A_eq12 (ent12 m) c 1).trans (Gen.V36_of m (outs m) c main_v207 (by decide)).symm)
theorem hF12_2 (c : Dev nD) : (dat12 (ent12 m) c).arrAt 2 cfg12.N = ext12 m c (Pipeline.arrRef spec12 2) :=
  ((dat12 (ent12 m) c).arrAt_in 2 rfl _).trans ((A_eq12 (ent12 m) c 2).trans (Gen.V36_of m (outs m) c main_v2 (by decide)).symm)
theorem hF12_3 (c : Dev nD) : (dat12 (ent12 m) c).arrAt 3 cfg12.N = ext12 m c (Pipeline.arrRef spec12 3) :=
  (congrArg (fun V => (dat12 V c).arrAt 3 cfg12.N) (ent12_eq m)).trans ((W36_0 m c).symm.trans (congrFun (V36_eq m c) _).symm)
theorem hF12_4 (c : Dev nD) : (dat12 (ent12 m) c).arrAt 4 cfg12.N = ext12 m c (Pipeline.arrRef spec12 4) :=
  (congrArg (fun V => (dat12 V c).arrAt 4 cfg12.N) (ent12_eq m)).trans ((W36_1 m c).symm.trans (congrFun (V36_eq m c) _).symm)
/-- The same of every window at once. -/
theorem hF12 (c : Dev nD) : ∀ w : Fin 5, (dat12 (ent12 m) c).arrAt w cfg12.N = ext12 m c (Pipeline.arrRef spec12 w) :=
  forall_fin5 (P := fun w => (dat12 (ent12 m) c).arrAt w cfg12.N = ext12 m c (Pipeline.arrRef spec12 w))
    (hF12_0 m c) (hF12_1 m c) (hF12_2 m c) (hF12_3 m c) (hF12_4 m c)
/-- and every buffer that is none of its arrays holds what it held at entry. -/
theorem hrest12 (c : Dev nD) : ∀ b : Ref sig .tc, b ∉ Finset.univ.image (Pipeline.arrRef spec12) → ext12 m c b = ent12 m c b :=
  fun b hb => Gen.V36_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 13 is entered from, read at the TensorCore's references; -/
abbrev ent13 : (c : Dev nD) → (b : Ref sig .tc) → Buf (Elt F) ((c : Thread nD τ).loc b) := fun c b => Gen.V37 m (outs m) c b
/-- the one it leaves. -/
abbrev ext13 : (c : Dev nD) → (b : Ref sig .tc) → Buf (Elt F) ((c : Thread nD τ).loc b) := fun c b => Gen.V38 m (outs m) c b
theorem ent13_eq : ent13 m = entW13 m := funext fun c => funext fun b => congrFun (V37_eq m c) _
/-- After region 13, `main_v221_0` holds window 6's array after the last write-back of the pipeline run from the
    contents the region was entered from. -/
theorem outs_eq_13_6 (c : Dev nD) : outs m 38 main_v221_0 c = (dat13 (ent13 m) c).arrAt 6 cfg13.N := by
  rw [ent13_eq m]; exact outs_38_0 m c
/-- After region 13, `main_v221_1` holds window 7's array after the last write-back of the pipeline run from the
    contents the region was entered from. -/
theorem outs_eq_13_7 (c : Dev nD) : outs m 38 main_v221_1 c = (dat13 (ent13 m) c).arrAt 7 cfg13.N := by
  rw [ent13_eq m]; exact outs_38_1 m c
/-- At region 13's exit each of its arrays holds what the pipeline leaves, window by window: an input window's array
    is as entered (no write-back touches it, and the region's exit valuation differs from the entry one only at the
    output arrays), an output window's is the chain's. -/
theorem hF13_0 (c : Dev nD) : (dat13 (ent13 m) c).arrAt 0 cfg13.N = ext13 m c (Pipeline.arrRef spec13 0) :=
  ((dat13 (ent13 m) c).arrAt_in 0 rfl _).trans ((A_eq13 (ent13 m) c 0).trans (Gen.V38_of m (outs m) c main_v208_0 (by decide)).symm)
theorem hF13_1 (c : Dev nD) : (dat13 (ent13 m) c).arrAt 1 cfg13.N = ext13 m c (Pipeline.arrRef spec13 1) :=
  ((dat13 (ent13 m) c).arrAt_in 1 rfl _).trans ((A_eq13 (ent13 m) c 1).trans (Gen.V38_of m (outs m) c main_v211 (by decide)).symm)
theorem hF13_2 (c : Dev nD) : (dat13 (ent13 m) c).arrAt 2 cfg13.N = ext13 m c (Pipeline.arrRef spec13 2) :=
  ((dat13 (ent13 m) c).arrAt_in 2 rfl _).trans ((A_eq13 (ent13 m) c 2).trans (Gen.V38_of m (outs m) c main_v218 (by decide)).symm)
theorem hF13_3 (c : Dev nD) : (dat13 (ent13 m) c).arrAt 3 cfg13.N = ext13 m c (Pipeline.arrRef spec13 3) :=
  ((dat13 (ent13 m) c).arrAt_in 3 rfl _).trans ((A_eq13 (ent13 m) c 3).trans (Gen.V38_of m (outs m) c main_v219 (by decide)).symm)
theorem hF13_4 (c : Dev nD) : (dat13 (ent13 m) c).arrAt 4 cfg13.N = ext13 m c (Pipeline.arrRef spec13 4) :=
  ((dat13 (ent13 m) c).arrAt_in 4 rfl _).trans ((A_eq13 (ent13 m) c 4).trans (Gen.V38_of m (outs m) c main_v220 (by decide)).symm)
theorem hF13_5 (c : Dev nD) : (dat13 (ent13 m) c).arrAt 5 cfg13.N = ext13 m c (Pipeline.arrRef spec13 5) :=
  ((dat13 (ent13 m) c).arrAt_in 5 rfl _).trans ((A_eq13 (ent13 m) c 5).trans (Gen.V38_of m (outs m) c main_v3 (by decide)).symm)
theorem hF13_6 (c : Dev nD) : (dat13 (ent13 m) c).arrAt 6 cfg13.N = ext13 m c (Pipeline.arrRef spec13 6) :=
  (congrArg (fun V => (dat13 V c).arrAt 6 cfg13.N) (ent13_eq m)).trans ((W38_0 m c).symm.trans (congrFun (V38_eq m c) _).symm)
theorem hF13_7 (c : Dev nD) : (dat13 (ent13 m) c).arrAt 7 cfg13.N = ext13 m c (Pipeline.arrRef spec13 7) :=
  (congrArg (fun V => (dat13 V c).arrAt 7 cfg13.N) (ent13_eq m)).trans ((W38_1 m c).symm.trans (congrFun (V38_eq m c) _).symm)
/-- The same of every window at once. -/
theorem hF13 (c : Dev nD) : ∀ w : Fin 8, (dat13 (ent13 m) c).arrAt w cfg13.N = ext13 m c (Pipeline.arrRef spec13 w) :=
  forall_fin8 (P := fun w => (dat13 (ent13 m) c).arrAt w cfg13.N = ext13 m c (Pipeline.arrRef spec13 w))
    (hF13_0 m c) (hF13_1 m c) (hF13_2 m c) (hF13_3 m c) (hF13_4 m c) (hF13_5 m c) (hF13_6 m c) (hF13_7 m c)
/-- and every buffer that is none of its arrays holds what it held at entry. -/
theorem hrest13 (c : Dev nD) : ∀ b : Ref sig .tc, b ∉ Finset.univ.image (Pipeline.arrRef spec13) → ext13 m c b = ent13 m c b :=
  fun b hb => Gen.V38_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 14 is entered from, read at the TensorCore's references; -/
abbrev ent14 : (c : Dev nD) → (b : Ref sig .tc) → Buf (Elt F) ((c : Thread nD τ).loc b) := fun c b => Gen.V39 m (outs m) c b
/-- the one it leaves. -/
abbrev ext14 : (c : Dev nD) → (b : Ref sig .tc) → Buf (Elt F) ((c : Thread nD τ).loc b) := fun c b => Gen.V40 m (outs m) c b
theorem ent14_eq : ent14 m = entW14 m := funext fun c => funext fun b => congrFun (V39_eq m c) _
/-- After region 14, `main_v234` holds window 5's array after the last write-back of the pipeline run from the
    contents the region was entered from. -/
theorem outs_eq_14_5 (c : Dev nD) : outs m 40 main_v234 c = (dat14 (ent14 m) c).arrAt 5 cfg14.N := by
  rw [ent14_eq m]; exact outs_40_0 m c
/-- At region 14's exit each of its arrays holds what the pipeline leaves, window by window: an input window's array
    is as entered (no write-back touches it, and the region's exit valuation differs from the entry one only at the
    output arrays), an output window's is the chain's. -/
theorem hF14_0 (c : Dev nD) : (dat14 (ent14 m) c).arrAt 0 cfg14.N = ext14 m c (Pipeline.arrRef spec14 0) :=
  ((dat14 (ent14 m) c).arrAt_in 0 rfl _).trans ((A_eq14 (ent14 m) c 0).trans (Gen.V40_of m (outs m) c main_v221_0 (by decide)).symm)
theorem hF14_1 (c : Dev nD) : (dat14 (ent14 m) c).arrAt 1 cfg14.N = ext14 m c (Pipeline.arrRef spec14 1) :=
  ((dat14 (ent14 m) c).arrAt_in 1 rfl _).trans ((A_eq14 (ent14 m) c 1).trans (Gen.V40_of m (outs m) c main_v224 (by decide)).symm)
theorem hF14_2 (c : Dev nD) : (dat14 (ent14 m) c).arrAt 2 cfg14.N = ext14 m c (Pipeline.arrRef spec14 2) :=
  ((dat14 (ent14 m) c).arrAt_in 2 rfl _).trans ((A_eq14 (ent14 m) c 2).trans (Gen.V40_of m (outs m) c main_v231 (by decide)).symm)
theorem hF14_3 (c : Dev nD) : (dat14 (ent14 m) c).arrAt 3 cfg14.N = ext14 m c (Pipeline.arrRef spec14 3) :=
  ((dat14 (ent14 m) c).arrAt_in 3 rfl _).trans ((A_eq14 (ent14 m) c 3).trans (Gen.V40_of m (outs m) c main_v232 (by decide)).symm)
theorem hF14_4 (c : Dev nD) : (dat14 (ent14 m) c).arrAt 4 cfg14.N = ext14 m c (Pipeline.arrRef spec14 4) :=
  ((dat14 (ent14 m) c).arrAt_in 4 rfl _).trans ((A_eq14 (ent14 m) c 4).trans (Gen.V40_of m (outs m) c main_v233 (by decide)).symm)
theorem hF14_5 (c : Dev nD) : (dat14 (ent14 m) c).arrAt 5 cfg14.N = ext14 m c (Pipeline.arrRef spec14 5) :=
  (congrArg (fun V => (dat14 V c).arrAt 5 cfg14.N) (ent14_eq m)).trans ((W40_0 m c).symm.trans (congrFun (V40_eq m c) _).symm)
/-- The same of every window at once. -/
theorem hF14 (c : Dev nD) : ∀ w : Fin 6, (dat14 (ent14 m) c).arrAt w cfg14.N = ext14 m c (Pipeline.arrRef spec14 w) :=
  forall_fin6 (P := fun w => (dat14 (ent14 m) c).arrAt w cfg14.N = ext14 m c (Pipeline.arrRef spec14 w))
    (hF14_0 m c) (hF14_1 m c) (hF14_2 m c) (hF14_3 m c) (hF14_4 m c) (hF14_5 m c)
/-- and every buffer that is none of its arrays holds what it held at entry. -/
theorem hrest14 (c : Dev nD) : ∀ b : Ref sig .tc, b ∉ Finset.univ.image (Pipeline.arrRef spec14) → ext14 m c b = ent14 m c b :=
  fun b hb => Gen.V40_of m (outs m) c b fun hmem => hb (by
    rcases List.mem_cons.mp hmem with rfl | hmem
    · exact Finset.mem_image.mpr ⟨5, Finset.mem_univ _, rfl⟩
    cases hmem)

/-- The program's valuation region 15 is entered from, read at the TensorCore's references; -/
abbrev ent15 : (c : Dev nD) → (b : Ref sig .tc) → Buf (Elt F) ((c : Thread nD τ).loc b) := fun c b => Gen.V43 m (outs m) c b
/-- the one it leaves. -/
abbrev ext15 : (c : Dev nD) → (b : Ref sig .tc) → Buf (Elt F) ((c : Thread nD τ).loc b) := fun c b => Gen.V44 m (outs m) c b
theorem ent15_eq : ent15 m = entW15 m := funext fun c => funext fun b => congrFun (V43_eq m c) _
/-- After region 15, `main_v250_0` holds window 3's array after the last write-back of the pipeline run from the
    contents the region was entered from. -/
theorem outs_eq_15_3 (c : Dev nD) : outs m 44 main_v250_0 c = (dat15 (ent15 m) c).arrAt 3 cfg15.N := by
  rw [ent15_eq m]; exact outs_44_0 m c
/-- After region 15, `main_v250_1` holds window 4's array after the last write-back of the pipeline run from the
    contents the region was entered from. -/
theorem outs_eq_15_4 (c : Dev nD) : outs m 44 main_v250_1 c = (dat15 (ent15 m) c).arrAt 4 cfg15.N := by
  rw [ent15_eq m]; exact outs_44_1 m c
/-- At region 15's exit each of its arrays holds what the pipeline leaves, window by window: an input window's array
    is as entered (no write-back touches it, and the region's exit valuation differs from the entry one only at the
    output arrays), an output window's is the chain's. -/
theorem hF15_0 (c : Dev nD) : (dat15 (ent15 m) c).arrAt 0 cfg15.N = ext15 m c (Pipeline.arrRef spec15 0) :=
  ((dat15 (ent15 m) c).arrAt_in 0 rfl _).trans ((A_eq15 (ent15 m) c 0).trans (Gen.V44_of m (outs m) c main_v235 (by decide)).symm)
theorem hF15_1 (c : Dev nD) : (dat15 (ent15 m) c).arrAt 1 cfg15.N = ext15 m c (Pipeline.arrRef spec15 1) :=
  ((dat15 (ent15 m) c).arrAt_in 1 rfl _).trans ((A_eq15 (ent15 m) c 1).trans (Gen.V44_of m (outs m) c main_v249 (by decide)).symm)
theorem hF15_2 (c : Dev nD) : (dat15 (ent15 m) c).arrAt 2 cfg15.N = ext15 m c (Pipeline.arrRef spec15 2) :=
  ((dat15 (ent15 m) c).arrAt_in 2 rfl _).trans ((A_eq15 (ent15 m) c 2).trans (Gen.V44_of m (outs m) c main_v4 (by decide)).symm)
theorem hF15_3 (c : Dev nD) : (dat15 (ent15 m) c).arrAt 3 cfg15.N = ext15 m c (Pipeline.arrRef spec15 3) :=
  (congrArg (fun V => (dat15 V c).arrAt 3 cfg15.N) (ent15_eq m)).trans ((W44_0 m c).symm.trans (congrFun (V44_eq m c) _).symm)
theorem hF15_4 (c : Dev nD) : (dat15 (ent15 m) c).arrAt 4 cfg15.N = ext15 m c (Pipeline.arrRef spec15 4) :=
  (congrArg (fun V => (dat15 V c).arrAt 4 cfg15.N) (ent15_eq m)).trans ((W44_1 m c).symm.trans (congrFun (V44_eq m c) _).symm)
/-- The same of every window at once. -/
theorem hF15 (c : Dev nD) : ∀ w : Fin 5, (dat15 (ent15 m) c).arrAt w cfg15.N = ext15 m c (Pipeline.arrRef spec15 w) :=
  forall_fin5 (P := fun w => (dat15 (ent15 m) c).arrAt w cfg15.N = ext15 m c (Pipeline.arrRef spec15 w))
    (hF15_0 m c) (hF15_1 m c) (hF15_2 m c) (hF15_3 m c) (hF15_4 m c)
/-- and every buffer that is none of its arrays holds what it held at entry. -/
theorem hrest15 (c : Dev nD) : ∀ b : Ref sig .tc, b ∉ Finset.univ.image (Pipeline.arrRef spec15) → ext15 m c b = ent15 m c b :=
  fun b hb => Gen.V44_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 16 is entered from, read at the TensorCore's references; -/
abbrev ent16 : (c : Dev nD) → (b : Ref sig .tc) → Buf (Elt F) ((c : Thread nD τ).loc b) := fun c b => Gen.V45 m (outs m) c b
/-- the one it leaves. -/
abbrev ext16 : (c : Dev nD) → (b : Ref sig .tc) → Buf (Elt F) ((c : Thread nD τ).loc b) := fun c b => Gen.V46 m (outs m) c b
theorem ent16_eq : ent16 m = entW16 m := funext fun c => funext fun b => congrFun (V45_eq m c) _
/-- After region 16, `main_v263_0` holds window 6's array after the last write-back of the pipeline run from the
    contents the region was entered from. -/
theorem outs_eq_16_6 (c : Dev nD) : outs m 46 main_v263_0 c = (dat16 (ent16 m) c).arrAt 6 cfg16.N := by
  rw [ent16_eq m]; exact outs_46_0 m c
/-- After region 16, `main_v263_1` holds window 7's array after the last write-back of the pipeline run from the
    contents the region was entered from. -/
theorem outs_eq_16_7 (c : Dev nD) : outs m 46 main_v263_1 c = (dat16 (ent16 m) c).arrAt 7 cfg16.N := by
  rw [ent16_eq m]; exact outs_46_1 m c
/-- At region 16's exit each of its arrays holds what the pipeline leaves, window by window: an input window's array
    is as entered (no write-back touches it, and the region's exit valuation differs from the entry one only at the
    output arrays), an output window's is the chain's. -/
theorem hF16_0 (c : Dev nD) : (dat16 (ent16 m) c).arrAt 0 cfg16.N = ext16 m c (Pipeline.arrRef spec16 0) :=
  ((dat16 (ent16 m) c).arrAt_in 0 rfl _).trans ((A_eq16 (ent16 m) c 0).trans (Gen.V46_of m (outs m) c main_v250_0 (by decide)).symm)
theorem hF16_1 (c : Dev nD) : (dat16 (ent16 m) c).arrAt 1 cfg16.N = ext16 m c (Pipeline.arrRef spec16 1) :=
  ((dat16 (ent16 m) c).arrAt_in 1 rfl _).trans ((A_eq16 (ent16 m) c 1).trans (Gen.V46_of m (outs m) c main_v253 (by decide)).symm)
theorem hF16_2 (c : Dev nD) : (dat16 (ent16 m) c).arrAt 2 cfg16.N = ext16 m c (Pipeline.arrRef spec16 2) :=
  ((dat16 (ent16 m) c).arrAt_in 2 rfl _).trans ((A_eq16 (ent16 m) c 2).trans (Gen.V46_of m (outs m) c main_v260 (by decide)).symm)
theorem hF16_3 (c : Dev nD) : (dat16 (ent16 m) c).arrAt 3 cfg16.N = ext16 m c (Pipeline.arrRef spec16 3) :=
  ((dat16 (ent16 m) c).arrAt_in 3 rfl _).trans ((A_eq16 (ent16 m) c 3).trans (Gen.V46_of m (outs m) c main_v261 (by decide)).symm)
theorem hF16_4 (c : Dev nD) : (dat16 (ent16 m) c).arrAt 4 cfg16.N = ext16 m c (Pipeline.arrRef spec16 4) :=
  ((dat16 (ent16 m) c).arrAt_in 4 rfl _).trans ((A_eq16 (ent16 m) c 4).trans (Gen.V46_of m (outs m) c main_v262 (by decide)).symm)
theorem hF16_5 (c : Dev nD) : (dat16 (ent16 m) c).arrAt 5 cfg16.N = ext16 m c (Pipeline.arrRef spec16 5) :=
  ((dat16 (ent16 m) c).arrAt_in 5 rfl _).trans ((A_eq16 (ent16 m) c 5).trans (Gen.V46_of m (outs m) c main_v5 (by decide)).symm)
theorem hF16_6 (c : Dev nD) : (dat16 (ent16 m) c).arrAt 6 cfg16.N = ext16 m c (Pipeline.arrRef spec16 6) :=
  (congrArg (fun V => (dat16 V c).arrAt 6 cfg16.N) (ent16_eq m)).trans ((W46_0 m c).symm.trans (congrFun (V46_eq m c) _).symm)
theorem hF16_7 (c : Dev nD) : (dat16 (ent16 m) c).arrAt 7 cfg16.N = ext16 m c (Pipeline.arrRef spec16 7) :=
  (congrArg (fun V => (dat16 V c).arrAt 7 cfg16.N) (ent16_eq m)).trans ((W46_1 m c).symm.trans (congrFun (V46_eq m c) _).symm)
/-- The same of every window at once. -/
theorem hF16 (c : Dev nD) : ∀ w : Fin 8, (dat16 (ent16 m) c).arrAt w cfg16.N = ext16 m c (Pipeline.arrRef spec16 w) :=
  forall_fin8 (P := fun w => (dat16 (ent16 m) c).arrAt w cfg16.N = ext16 m c (Pipeline.arrRef spec16 w))
    (hF16_0 m c) (hF16_1 m c) (hF16_2 m c) (hF16_3 m c) (hF16_4 m c) (hF16_5 m c) (hF16_6 m c) (hF16_7 m c)
/-- and every buffer that is none of its arrays holds what it held at entry. -/
theorem hrest16 (c : Dev nD) : ∀ b : Ref sig .tc, b ∉ Finset.univ.image (Pipeline.arrRef spec16) → ext16 m c b = ent16 m c b :=
  fun b hb => Gen.V46_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 17 is entered from, read at the TensorCore's references; -/
abbrev ent17 : (c : Dev nD) → (b : Ref sig .tc) → Buf (Elt F) ((c : Thread nD τ).loc b) := fun c b => Gen.V47 m (outs m) c b
/-- the one it leaves. -/
abbrev ext17 : (c : Dev nD) → (b : Ref sig .tc) → Buf (Elt F) ((c : Thread nD τ).loc b) := fun c b => Gen.V48 m (outs m) c b
theorem ent17_eq : ent17 m = entW17 m := funext fun c => funext fun b => congrFun (V47_eq m c) _
/-- After region 17, `main_v276` holds window 5's array after the last write-back of the pipeline run from the
    contents the region was entered from. -/
theorem outs_eq_17_5 (c : Dev nD) : outs m 48 main_v276 c = (dat17 (ent17 m) c).arrAt 5 cfg17.N := by
  rw [ent17_eq m]; exact outs_48_0 m c
/-- At region 17's exit each of its arrays holds what the pipeline leaves, window by window: an input window's array
    is as entered (no write-back touches it, and the region's exit valuation differs from the entry one only at the
    output arrays), an output window's is the chain's. -/
theorem hF17_0 (c : Dev nD) : (dat17 (ent17 m) c).arrAt 0 cfg17.N = ext17 m c (Pipeline.arrRef spec17 0) :=
  ((dat17 (ent17 m) c).arrAt_in 0 rfl _).trans ((A_eq17 (ent17 m) c 0).trans (Gen.V48_of m (outs m) c main_v263_0 (by decide)).symm)
theorem hF17_1 (c : Dev nD) : (dat17 (ent17 m) c).arrAt 1 cfg17.N = ext17 m c (Pipeline.arrRef spec17 1) :=
  ((dat17 (ent17 m) c).arrAt_in 1 rfl _).trans ((A_eq17 (ent17 m) c 1).trans (Gen.V48_of m (outs m) c main_v266 (by decide)).symm)
theorem hF17_2 (c : Dev nD) : (dat17 (ent17 m) c).arrAt 2 cfg17.N = ext17 m c (Pipeline.arrRef spec17 2) :=
  ((dat17 (ent17 m) c).arrAt_in 2 rfl _).trans ((A_eq17 (ent17 m) c 2).trans (Gen.V48_of m (outs m) c main_v273 (by decide)).symm)
theorem hF17_3 (c : Dev nD) : (dat17 (ent17 m) c).arrAt 3 cfg17.N = ext17 m c (Pipeline.arrRef spec17 3) :=
  ((dat17 (ent17 m) c).arrAt_in 3 rfl _).trans ((A_eq17 (ent17 m) c 3).trans (Gen.V48_of m (outs m) c main_v274 (by decide)).symm)
theorem hF17_4 (c : Dev nD) : (dat17 (ent17 m) c).arrAt 4 cfg17.N = ext17 m c (Pipeline.arrRef spec17 4) :=
  ((dat17 (ent17 m) c).arrAt_in 4 rfl _).trans ((A_eq17 (ent17 m) c 4).trans (Gen.V48_of m (outs m) c main_v275 (by decide)).symm)
theorem hF17_5 (c : Dev nD) : (dat17 (ent17 m) c).arrAt 5 cfg17.N = ext17 m c (Pipeline.arrRef spec17 5) :=
  (congrArg (fun V => (dat17 V c).arrAt 5 cfg17.N) (ent17_eq m)).trans ((W48_0 m c).symm.trans (congrFun (V48_eq m c) _).symm)
/-- The same of every window at once. -/
theorem hF17 (c : Dev nD) : ∀ w : Fin 6, (dat17 (ent17 m) c).arrAt w cfg17.N = ext17 m c (Pipeline.arrRef spec17 w) :=
  forall_fin6 (P := fun w => (dat17 (ent17 m) c).arrAt w cfg17.N = ext17 m c (Pipeline.arrRef spec17 w))
    (hF17_0 m c) (hF17_1 m c) (hF17_2 m c) (hF17_3 m c) (hF17_4 m c) (hF17_5 m c)
/-- and every buffer that is none of its arrays holds what it held at entry. -/
theorem hrest17 (c : Dev nD) : ∀ b : Ref sig .tc, b ∉ Finset.univ.image (Pipeline.arrRef spec17) → ext17 m c b = ent17 m c b :=
  fun b hb => Gen.V48_of m (outs m) c b fun hmem => hb (by
    rcases List.mem_cons.mp hmem with rfl | hmem
    · exact Finset.mem_image.mpr ⟨5, Finset.mem_univ _, rfl⟩
    cases hmem)

/-! ## The proof data family and the thread state -/

/-- Every pipeline's proof data, each at the contents its region is entered from. -/
def pdats : (p : Fin 18) → (c : Dev nD) → Dat τ (Elt F) Unit ℕ (Pipeline.UD sig nD τ) ℕ (Pipeline.pin (pcfgs (F := F)) Gen.adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
  | ⟨7, _⟩ => fun c => dat7 (ent7 m) c
  | ⟨8, _⟩ => fun c => dat8 (ent8 m) c
  | ⟨9, _⟩ => fun c => dat9 (ent9 m) c
  | ⟨10, _⟩ => fun c => dat10 (ent10 m) c
  | ⟨11, _⟩ => fun c => dat11 (ent11 m) c
  | ⟨12, _⟩ => fun c => dat12 (ent12 m) c
  | ⟨13, _⟩ => fun c => dat13 (ent13 m) c
  | ⟨14, _⟩ => fun c => dat14 (ent14 m) c
  | ⟨15, _⟩ => fun c => dat15 (ent15 m) c
  | ⟨16, _⟩ => fun c => dat16 (ent16 m) c
  | ⟨17, _⟩ => fun c => dat17 (ent17 m) c
  | ⟨_ + 18, h⟩ => absurd h (Nat.not_lt.2 (Nat.le_add_left _ _))

/-- No core owes another anything: no level is assigned. -/
abbrev L : GSem nD τ sig → Finset Unit := fun _ => ∅
abbrev lv : GSem nD τ sig → Unit → ℕ := fun _ _ => 0
/-- What rides beside the buffers through every segment: the core's generator register at some state (the class's
    invariant takes it in and gives it back) and what the core owes, which is nothing. -/
abbrev R (c : Dev nD) : sProp 𝕄 := iprop((∃ r, prngReg c r) ∗ ∃ W, owes (c : Thread nD τ) (0 : CellTallies nD τ sig Unit) W)
/-- The same rest between any two items. -/
abbrev E : Fin 19 → Dev nD → sProp 𝕄 := fun _ c => R (F := F) c
/-- The rest ends owing nothing. -/
theorem hR (c : Dev nD) : (R (F := F) c : sProp 𝕄) ⊢ iprop(∃ W, owes (c : Thread nD τ) (0 : CellTallies nD τ sig Unit) W) := by
  iintro ⟨-, HO⟩; iexact HO
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 over the thread state: entered from every unscoped buffer at the program's valuation 3, left at valuation
    4. Its arrays are split out of the unscoped buffers and put back at the exit contents; the generator register goes
    into the class's invariant and comes back; nothing is owed; the kernel has no semaphore of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) (A_eq0 (ent0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (ent0 m) c)
    unfold Pipeline.ΦA
    iintro ⟨Hp, -, Hr⟩
    isplitl [Hr]; · iexact Hr
    iexact Hp
  hout c := by
    rw [Pipeline.ownSems0_none]
    refine BIBase.Entails.trans (hout0 (ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at the program's valuation 5, left at valuation
    6. Its arrays are split out of the unscoped buffers and put back at the exit contents; the generator register goes
    into the class's invariant and comes back; nothing is owed; the kernel has no semaphore of its own. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (ent1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (ent1 m c) (A_eq1 (ent1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (ent1 m) c)
    unfold Pipeline.ΦA
    iintro ⟨Hp, -, Hr⟩
    isplitl [Hr]; · iexact Hr
    iexact Hp
  hout c := by
    rw [Pipeline.ownSems0_none]
    refine BIBase.Entails.trans (hout1 (ent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at the program's valuation 7, left at valuation
    8. Its arrays are split out of the unscoped buffers and put back at the exit contents; the generator register goes
    into the class's invariant and comes back; nothing is owed; the kernel has no semaphore of its own. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L lv 2 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (ent2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (ent2 m c) (A_eq2 (ent2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (ent2 m) c)
    unfold Pipeline.ΦA
    iintro ⟨Hp, -, Hr⟩
    isplitl [Hr]; · iexact Hr
    iexact Hp
  hout c := by
    rw [Pipeline.ownSems0_none]
    refine BIBase.Entails.trans (hout2 (ent2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (ent2 m c) (ext2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at the program's valuation 9, left at valuation
    10. Its arrays are split out of the unscoped buffers and put back at the exit contents; the generator register goes
    into the class's invariant and comes back; nothing is owed; the kernel has no semaphore of its own. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L lv 3 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec3 c (ent3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (ent3 m c) (A_eq3 (ent3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (ent3 m) c)
    unfold Pipeline.ΦA
    iintro ⟨Hp, -, Hr⟩
    isplitl [Hr]; · iexact Hr
    iexact Hp
  hout c := by
    rw [Pipeline.ownSems0_none]
    refine BIBase.Entails.trans (hout3 (ent3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := Pipeline.UD sig nD τ) (Lvl := ℕ)
      launch3.win launch3.arr_whole c (pdats m) ((pdats m 3 c).share_full fun _ => rfl)
      (ent3 m c) (ext3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered from every unscoped buffer at the program's valuation 11, left at valuation
    12. Its arrays are split out of the unscoped buffers and put back at the exit contents; the generator register goes
    into the class's invariant and comes back; nothing is owed; the kernel has no semaphore of its own. -/
def reg4 : Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ L lv 4 fun _ _ => rfl
  pre c := iprop(StableHlo.held (c : Thread nD τ) (Pipeline.ucRefs τ sig) (Gen.V11 m (outs m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec4 c (ent4 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (ent4 m c) (A_eq4 (ent4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (ent4 m) c)
    unfold Pipeline.ΦA
    iintro ⟨Hp, -, Hr⟩
    isplitl [Hr]; · iexact Hr
    iexact Hp
  hout c := by
    rw [Pipeline.ownSems0_none]
    refine BIBase.Entails.trans (hout4 (ent4 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := Pipeline.UD sig nD τ) (Lvl := ℕ)
      launch4.win launch4.arr_whole c (pdats m) ((pdats m 4 c).share_full fun _ => rfl)
      (ent4 m c) (ext4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 5 over the thread state: entered from every unscoped buffer at the program's valuation 13, left at valuation
    14. Its arrays are split out of the unscoped buffers and put back at the exit contents; the generator register goes
    into the class's invariant and comes back; nothing is owed; the kernel has no semaphore of its own. -/
def reg5 : Pipeline.RegionSeg (pcfgs (F := F)) Gen.adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ L lv 5 fun _ _ => rfl
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec5 c (ent5 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (ent5 m c) (A_eq5 (ent5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (ent5 m) c)
    unfold Pipeline.ΦA
    iintro ⟨Hp, -, Hr⟩
    isplitl [Hr]; · iexact Hr
    iexact Hp
  hout c := by
    rw [Pipeline.ownSems0_none]
    refine BIBase.Entails.trans (hout5 (ent5 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := Pipeline.UD sig nD τ) (Lvl := ℕ)
      launch5.win launch5.arr_whole c (pdats m) ((pdats m 5 c).share_full fun _ => rfl)
      (ent5 m c) (ext5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 6 over the thread state: entered from every unscoped buffer at the program's valuation 17, left at valuation
    18. Its arrays are split out of the unscoped buffers and put back at the exit contents; the generator register goes
    into the class's invariant and comes back; nothing is owed; the kernel has no semaphore of its own. -/
def reg6 : Pipeline.RegionSeg (pcfgs (F := F)) Gen.adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ L lv 6 fun _ _ => rfl
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec6 c (ent6 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (ent6 m c) (A_eq6 (ent6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (ent6 m) c)
    unfold Pipeline.ΦA
    iintro ⟨Hp, -, Hr⟩
    isplitl [Hr]; · iexact Hr
    iexact Hp
  hout c := by
    rw [Pipeline.ownSems0_none]
    refine BIBase.Entails.trans (hout6 (ent6 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := Pipeline.UD sig nD τ) (Lvl := ℕ)
      launch6.win launch6.arr_whole c (pdats m) ((pdats m 6 c).share_full fun _ => rfl)
      (ent6 m c) (ext6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 7 over the thread state: entered from every unscoped buffer at the program's valuation 19, left at valuation
    20. Its arrays are split out of the unscoped buffers and put back at the exit contents; the generator register goes
    into the class's invariant and comes back; nothing is owed; the kernel has no semaphore of its own. -/
def reg7 : Pipeline.RegionSeg (pcfgs (F := F)) Gen.adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (ent7 m) c).loose
  hwaits := Pipeline.hwaits_of_owed_zero _ _ _ _ L lv 7 fun _ _ => rfl
  pre c := iprop(StableHlo.held (c : Thread nD τ) (Pipeline.ucRefs τ sig) (Gen.V19 m (outs m) c) ∗ R c)
  post c := iprop(StableHlo.held (c : Thread nD τ) (Pipeline.ucRefs τ sig) (Gen.V20 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec7 c (ent7 m c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (ent7 m c) (A_eq7 (ent7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (ent7 m) c)
    unfold Pipeline.ΦA
    iintro ⟨Hp, -, Hr⟩
    isplitl [Hr]; · iexact Hr
    iexact Hp
  hout c := by
    rw [Pipeline.ownSems0_none]
    refine BIBase.Entails.trans (hout7 (ent7 m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := Pipeline.UD sig nD τ) (Lvl := ℕ)
      launch7.win launch7.arr_whole c (pdats m) ((pdats m 7 c).share_full fun _ => rfl)
      (ent7 m c) (ext7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 8 over the thread state: entered from every unscoped buffer at the program's valuation 21, left at valuation
    22. Its arrays are split out of the unscoped buffers and put back at the exit contents; the generator register goes
    into the class's invariant and comes back; nothing is owed; the kernel has no semaphore of its own. -/
def reg8 : Pipeline.RegionSeg (pcfgs (F := F)) Gen.adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (ent8 m) c).loose
  hwaits := Pipeline.hwaits_of_owed_zero _ _ _ _ L lv 8 fun _ _ => rfl
  pre c := iprop(StableHlo.held (c : Thread nD τ) (Pipeline.ucRefs τ sig) (Gen.V21 m (outs m) c) ∗ R c)
  post c := iprop(StableHlo.held (c : Thread nD τ) (Pipeline.ucRefs τ sig) (Gen.V22 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec8 c (ent8 m c)
  hentry c := by
    rw [Pipeline.ownSems0_none]
    have hsplit := Pipeline.arrays_of_unscopedBufs (p := 8) (pcfgs (F := F)) Gen.adm (pdats m) launch8.win launch8.arr_whole c
      ((pdats m 8 c).share_full fun _ => rfl) (ent8 m c) (A_eq8 (ent8 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (ent8 m) c)
    unfold Pipeline.ΦA
    iintro ⟨Hp, -, Hr⟩
    isplitl [Hr]; · iexact Hr
    iexact Hp
  hout c := by
    rw [Pipeline.ownSems0_none]
    refine BIBase.Entails.trans (hout8 (ent8 m) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) Gen.adm (Ix := Unit) (Name := ℕ) (U := Pipeline.UD sig nD τ) (Lvl := ℕ)
      launch8.win launch8.arr_whole c (pdats m) ((pdats m 8 c).share_full fun _ => rfl)
      (ent8 m c) (ext8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 9 over the thread state: entered from every unscoped buffer at the program's valuation 29, left at valuation
    30. Its arrays are split out of the unscoped buffers and put back at the exit contents; the generator register goes
    into the class's invariant and comes back; nothing is owed; the kernel has no semaphore of its own. -/
def reg9 : Pipeline.RegionSeg (pcfgs (F := F)) Gen.adm (pdats m) () defs₀ Variants.none L lv 9 where
  win := launch9.win.to₀
  block_pos := launch9.block_pos
  stage_whole := launch9.stage_whole
  K := PEmpty
  osem k := k.elim
  ho := Pipeline.OwnSemFacts.none _
  hbody c := (body_obligation9 (ent9 m) c).loose
  hwaits := Pipeline.hwaits_of_owed_zero _ _ _ _ L lv 9 fun _ _ => rfl
  pre c := iprop(StableHlo.held (c : Thread nD τ) (Pipeline.ucRefs τ sig) (Gen.V29 m (outs m) c) ∗ R c)
  post c := iprop(StableHlo.held (c : Thread nD τ) (Pipeline.ucRefs τ sig) (Gen.V30 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec9 c (ent9 m c)
  hentry c := by
    rw [Pipeline.ownSems0_none]
    have hsplit := Pipeline.arrays_of_unscopedBufs (p := 9) (pcfgs (F := F)) Gen.adm (pdats m) launch9.win launch9.arr_whole c
      ((pdats m 9 c).share_full fun _ => rfl) (ent9 m c) (A_eq9 (ent9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin9 (ent9 m) c)
    unfold Pipeline.ΦA
    iintro ⟨Hp, -, Hr⟩
    isplitl [Hr]; · iexact Hr
    iexact Hp
  hout c := by
    rw [Pipeline.ownSems0_none]
    refine BIBase.Entails.trans (hout9 (ent9 m) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) Gen.adm (Ix := Unit) (Name := ℕ) (U := Pipeline.UD sig nD τ) (Lvl := ℕ)
      launch9.win launch9.arr_whole c (pdats m) ((pdats m 9 c).share_full fun _ => rfl)
      (ent9 m c) (ext9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 10 over the thread state: entered from every unscoped buffer at the program's valuation 31, left at valuation
    32. Its arrays are split out of the unscoped buffers and put back at the exit contents; the generator register goes
    into the class's invariant and comes back; nothing is owed; the kernel has no semaphore of its own. -/
def reg10 : Pipeline.RegionSeg (pcfgs (F := F)) Gen.adm (pdats m) () defs₀ Variants.none L lv 10 where
  win := launch10.win.to₀
  block_pos := launch10.block_pos
  stage_whole := launch10.stage_whole
  K := PEmpty
  osem k := k.elim
  ho := Pipeline.OwnSemFacts.none _
  hbody c := (body_obligation10 (ent10 m) c).loose
  hwaits := Pipeline.hwaits_of_owed_zero _ _ _ _ L lv 10 fun _ _ => rfl
  pre c := iprop(StableHlo.held (c : Thread nD τ) (Pipeline.ucRefs τ sig) (Gen.V31 m (outs m) c) ∗ R c)
  post c := iprop(StableHlo.held (c : Thread nD τ) (Pipeline.ucRefs τ sig) (Gen.V32 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec10 c (ent10 m c)
  hentry c := by
    rw [Pipeline.ownSems0_none]
    have hsplit := Pipeline.arrays_of_unscopedBufs (p := 10) (pcfgs (F := F)) Gen.adm (pdats m) launch10.win launch10.arr_whole c
      ((pdats m 10 c).share_full fun _ => rfl) (ent10 m c) (A_eq10 (ent10 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin10 (ent10 m) c)
    unfold Pipeline.ΦA
    iintro ⟨Hp, -, Hr⟩
    isplitl [Hr]; · iexact Hr
    iexact Hp
  hout c := by
    rw [Pipeline.ownSems0_none]
    refine BIBase.Entails.trans (hout10 (ent10 m) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) Gen.adm (Ix := Unit) (Name := ℕ) (U := Pipeline.UD sig nD τ) (Lvl := ℕ)
      launch10.win launch10.arr_whole c (pdats m) ((pdats m 10 c).share_full fun _ => rfl)
      (ent10 m c) (ext10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 11 over the thread state: entered from every unscoped buffer at the program's valuation 33, left at valuation
    34. Its arrays are split out of the unscoped buffers and put back at the exit contents; the generator register goes
    into the class's invariant and comes back; nothing is owed; the kernel has no semaphore of its own. -/
def reg11 : Pipeline.RegionSeg (pcfgs (F := F)) Gen.adm (pdats m) () defs₀ Variants.none L lv 11 where
  win := launch11.win.to₀
  block_pos := launch11.block_pos
  stage_whole := launch11.stage_whole
  K := PEmpty
  osem k := k.elim
  ho := Pipeline.OwnSemFacts.none _
  hbody c := (body_obligation11 (ent11 m) c).loose
  hwaits := Pipeline.hwaits_of_owed_zero _ _ _ _ L lv 11 fun _ _ => rfl
  pre c := iprop(StableHlo.held (c : Thread nD τ) (Pipeline.ucRefs τ sig) (Gen.V33 m (outs m) c) ∗ R c)
  post c := iprop(StableHlo.held (c : Thread nD τ) (Pipeline.ucRefs τ sig) (Gen.V34 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec11 c (ent11 m c)
  hentry c := by
    rw [Pipeline.ownSems0_none]
    have hsplit := Pipeline.arrays_of_unscopedBufs (p := 11) (pcfgs (F := F)) Gen.adm (pdats m) launch11.win launch11.arr_whole c
      ((pdats m 11 c).share_full fun _ => rfl) (ent11 m c) (A_eq11 (ent11 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin11 (ent11 m) c)
    unfold Pipeline.ΦA
    iintro ⟨Hp, -, Hr⟩
    isplitl [Hr]; · iexact Hr
    iexact Hp
  hout c := by
    rw [Pipeline.ownSems0_none]
    refine BIBase.Entails.trans (hout11 (ent11 m) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) Gen.adm (Ix := Unit) (Name := ℕ) (U := Pipeline.UD sig nD τ) (Lvl := ℕ)
      launch11.win launch11.arr_whole c (pdats m) ((pdats m 11 c).share_full fun _ => rfl)
      (ent11 m c) (ext11 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 12 over the thread state: entered from every unscoped buffer at the program's valuation 35, left at valuation
    36. Its arrays are split out of the unscoped buffers and put back at the exit contents; the generator register goes
    into the class's invariant and comes back; nothing is owed; the kernel has no semaphore of its own. -/
def reg12 : Pipeline.RegionSeg (pcfgs (F := F)) Gen.adm (pdats m) () defs₀ Variants.none L lv 12 where
  win := launch12.win.to₀
  block_pos := launch12.block_pos
  stage_whole := launch12.stage_whole
  K := PEmpty
  osem k := k.elim
  ho := Pipeline.OwnSemFacts.none _
  hbody c := (body_obligation12 (ent12 m) c).loose
  hwaits := Pipeline.hwaits_of_owed_zero _ _ _ _ L lv 12 fun _ _ => rfl
  pre c := iprop(StableHlo.held (c : Thread nD τ) (Pipeline.ucRefs τ sig) (Gen.V35 m (outs m) c) ∗ R c)
  post c := iprop(StableHlo.held (c : Thread nD τ) (Pipeline.ucRefs τ sig) (Gen.V36 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec12 c (ent12 m c)
  hentry c := by
    rw [Pipeline.ownSems0_none]
    have hsplit := Pipeline.arrays_of_unscopedBufs (p := 12) (pcfgs (F := F)) Gen.adm (pdats m) launch12.win launch12.arr_whole c
      ((pdats m 12 c).share_full fun _ => rfl) (ent12 m c) (A_eq12 (ent12 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin12 (ent12 m) c)
    unfold Pipeline.ΦA
    iintro ⟨Hp, -, Hr⟩
    isplitl [Hr]; · iexact Hr
    iexact Hp
  hout c := by
    rw [Pipeline.ownSems0_none]
    refine BIBase.Entails.trans (hout12 (ent12 m) c) ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) Gen.adm (Ix := Unit) (Name := ℕ) (U := Pipeline.UD sig nD τ) (Lvl := ℕ)
      launch12.win launch12.arr_whole c (pdats m) ((pdats m 12 c).share_full fun _ => rfl)
      (ent12 m c) (ext12 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 13 over the thread state: entered from every unscoped buffer at the program's valuation 37, left at valuation
    38. Its arrays are split out of the unscoped buffers and put back at the exit contents; the generator register goes
    into the class's invariant and comes back; nothing is owed; the kernel has no semaphore of its own. -/
def reg13 : Pipeline.RegionSeg (pcfgs (F := F)) Gen.adm (pdats m) () defs₀ Variants.none L lv 13 where
  win := launch13.win.to₀
  block_pos := launch13.block_pos
  stage_whole := launch13.stage_whole
  K := PEmpty
  osem k := k.elim
  ho := Pipeline.OwnSemFacts.none _
  hbody c := (body_obligation13 (ent13 m) c).loose
  hwaits := Pipeline.hwaits_of_owed_zero _ _ _ _ L lv 13 fun _ _ => rfl
  pre c := iprop(StableHlo.held (c : Thread nD τ) (Pipeline.ucRefs τ sig) (Gen.V37 m (outs m) c) ∗ R c)
  post c := iprop(StableHlo.held (c : Thread nD τ) (Pipeline.ucRefs τ sig) (Gen.V38 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec13 c (ent13 m c)
  hentry c := by
    rw [Pipeline.ownSems0_none]
    have hsplit := Pipeline.arrays_of_unscopedBufs (p := 13) (pcfgs (F := F)) Gen.adm (pdats m) launch13.win launch13.arr_whole c
      ((pdats m 13 c).share_full fun _ => rfl) (ent13 m c) (A_eq13 (ent13 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin13 (ent13 m) c)
    unfold Pipeline.ΦA
    iintro ⟨Hp, -, Hr⟩
    isplitl [Hr]; · iexact Hr
    iexact Hp
  hout c := by
    rw [Pipeline.ownSems0_none]
    refine BIBase.Entails.trans (hout13 (ent13 m) c) ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) Gen.adm (Ix := Unit) (Name := ℕ) (U := Pipeline.UD sig nD τ) (Lvl := ℕ)
      launch13.win launch13.arr_whole c (pdats m) ((pdats m 13 c).share_full fun _ => rfl)
      (ent13 m c) (ext13 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 14 over the thread state: entered from every unscoped buffer at the program's valuation 39, left at valuation
    40. Its arrays are split out of the unscoped buffers and put back at the exit contents; the generator register goes
    into the class's invariant and comes back; nothing is owed; the kernel has no semaphore of its own. -/
def reg14 : Pipeline.RegionSeg (pcfgs (F := F)) Gen.adm (pdats m) () defs₀ Variants.none L lv 14 where
  win := launch14.win.to₀
  block_pos := launch14.block_pos
  stage_whole := launch14.stage_whole
  K := PEmpty
  osem k := k.elim
  ho := Pipeline.OwnSemFacts.none _
  hbody c := (body_obligation14 (ent14 m) c).loose
  hwaits := Pipeline.hwaits_of_owed_zero _ _ _ _ L lv 14 fun _ _ => rfl
  pre c := iprop(StableHlo.held (c : Thread nD τ) (Pipeline.ucRefs τ sig) (Gen.V39 m (outs m) c) ∗ R c)
  post c := iprop(StableHlo.held (c : Thread nD τ) (Pipeline.ucRefs τ sig) (Gen.V40 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec14 c (ent14 m c)
  hentry c := by
    rw [Pipeline.ownSems0_none]
    have hsplit := Pipeline.arrays_of_unscopedBufs (p := 14) (pcfgs (F := F)) Gen.adm (pdats m) launch14.win launch14.arr_whole c
      ((pdats m 14 c).share_full fun _ => rfl) (ent14 m c) (A_eq14 (ent14 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin14 (ent14 m) c)
    unfold Pipeline.ΦA
    iintro ⟨Hp, -, Hr⟩
    isplitl [Hr]; · iexact Hr
    iexact Hp
  hout c := by
    rw [Pipeline.ownSems0_none]
    refine BIBase.Entails.trans (hout14 (ent14 m) c) ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) Gen.adm (Ix := Unit) (Name := ℕ) (U := Pipeline.UD sig nD τ) (Lvl := ℕ)
      launch14.win launch14.arr_whole c (pdats m) ((pdats m 14 c).share_full fun _ => rfl)
      (ent14 m c) (ext14 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 15 over the thread state: entered from every unscoped buffer at the program's valuation 43, left at valuation
    44. Its arrays are split out of the unscoped buffers and put back at the exit contents; the generator register goes
    into the class's invariant and comes back; nothing is owed; the kernel has no semaphore of its own. -/
def reg15 : Pipeline.RegionSeg (pcfgs (F := F)) Gen.adm (pdats m) () defs₀ Variants.none L lv 15 where
  win := launch15.win.to₀
  block_pos := launch15.block_pos
  stage_whole := launch15.stage_whole
  K := PEmpty
  osem k := k.elim
  ho := Pipeline.OwnSemFacts.none _
  hbody c := (body_obligation15 (ent15 m) c).loose
  hwaits := Pipeline.hwaits_of_owed_zero _ _ _ _ L lv 15 fun _ _ => rfl
  pre c := iprop(StableHlo.held (c : Thread nD τ) (Pipeline.ucRefs τ sig) (Gen.V43 m (outs m) c) ∗ R c)
  post c := iprop(StableHlo.held (c : Thread nD τ) (Pipeline.ucRefs τ sig) (Gen.V44 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec15 c (ent15 m c)
  hentry c := by
    rw [Pipeline.ownSems0_none]
    have hsplit := Pipeline.arrays_of_unscopedBufs (p := 15) (pcfgs (F := F)) Gen.adm (pdats m) launch15.win launch15.arr_whole c
      ((pdats m 15 c).share_full fun _ => rfl) (ent15 m c) (A_eq15 (ent15 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin15 (ent15 m) c)
    unfold Pipeline.ΦA
    iintro ⟨Hp, -, Hr⟩
    isplitl [Hr]; · iexact Hr
    iexact Hp
  hout c := by
    rw [Pipeline.ownSems0_none]
    refine BIBase.Entails.trans (hout15 (ent15 m) c) ?_
    unfold Pipeline.ΦA
    iintro ⟨Hr, Hp⟩
    isplitl [Hp]; · iexact Hp
    isplitr; · iempintro
    iexact Hr
  hexit c := by
    have hjoin := Pipeline.unscopedBufs_of_arrays (p := 15) (pcfgs (F := F)) Gen.adm (Ix := Unit) (Name := ℕ) (U := Pipeline.UD sig nD τ) (Lvl := ℕ)
      launch15.win launch15.arr_whole c (pdats m) ((pdats m 15 c).share_full fun _ => rfl)
      (ent15 m c) (ext15 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 16 over the thread state: entered from every unscoped buffer at the program's valuation 45, left at valuation
    46. Its arrays are split out of the unscoped buffers and put back at the exit contents; the generator register goes
    into the class's invariant and comes back; nothing is owed; the kernel has no semaphore of its own. -/
def reg16 : Pipeline.RegionSeg (pcfgs (F := F)) Gen.adm (pdats m) () defs₀ Variants.none L lv 16 where
  win := launch16.win.to₀
  block_pos := launch16.block_pos
  stage_whole := launch16.stage_whole
  K := PEmpty
  osem k := k.elim
  ho := Pipeline.OwnSemFacts.none _
  hbody c := (body_obligation16 (ent16 m) c).loose
  hwaits := Pipeline.hwaits_of_owed_zero _ _ _ _ L lv 16 fun _ _ => rfl
  pre c := iprop(StableHlo.held (c : Thread nD τ) (Pipeline.ucRefs τ sig) (Gen.V45 m (outs m) c) ∗ R c)
  post c := iprop(StableHlo.held (c : Thread nD τ) (Pipeline.ucRefs τ sig) (Gen.V46 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec16 c (ent16 m c)
  hentry c := by
    rw [Pipeline.ownSems0_none]
    have hsplit := Pipeline.arrays_of_unscopedBufs (p := 16) (pcfgs (F := F)) Gen.adm (pdats m) launch16.win launch16.arr_whole c
      ((pdats m 16 c).share_full fun _ => rfl) (ent16 m c) (A_eq16 (ent16 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin16 (ent16 m) c)
    unfold Pipeline.ΦA
    iintro ⟨Hp, -, Hr⟩
    isplitl [Hr]; · iexact Hr
    iexact Hp
  hout c := by
    rw [Pipeline.ownSems0_none]
    refine BIBase.Entails.trans (hout16 (ent16 m) c) ?_
    unfold Pipeline.ΦA
    iintro ⟨Hr, Hp⟩
    isplitl [Hp]; · iexact Hp
    isplitr; · iempintro
    iexact Hr
  hexit c := by
    have hjoin := Pipeline.unscopedBufs_of_arrays (p := 16) (pcfgs (F := F)) Gen.adm (Ix := Unit) (Name := ℕ) (U := Pipeline.UD sig nD τ) (Lvl := ℕ)
      launch16.win launch16.arr_whole c (pdats m) ((pdats m 16 c).share_full fun _ => rfl)
      (ent16 m c) (ext16 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 17 over the thread state: entered from every unscoped buffer at the program's valuation 47, left at valuation
    48. Its arrays are split out of the unscoped buffers and put back at the exit contents; the generator register goes
    into the class's invariant and comes back; nothing is owed; the kernel has no semaphore of its own. -/
def reg17 : Pipeline.RegionSeg (pcfgs (F := F)) Gen.adm (pdats m) () defs₀ Variants.none L lv 17 where
  win := launch17.win.to₀
  block_pos := launch17.block_pos
  stage_whole := launch17.stage_whole
  K := PEmpty
  osem k := k.elim
  ho := Pipeline.OwnSemFacts.none _
  hbody c := (body_obligation17 (ent17 m) c).loose
  hwaits := Pipeline.hwaits_of_owed_zero _ _ _ _ L lv 17 fun _ _ => rfl
  pre c := iprop(StableHlo.held (c : Thread nD τ) (Pipeline.ucRefs τ sig) (Gen.V47 m (outs m) c) ∗ R c)
  post c := iprop(StableHlo.held (c : Thread nD τ) (Pipeline.ucRefs τ sig) (Gen.V48 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec17 c (ent17 m c)
  hentry c := by
    rw [Pipeline.ownSems0_none]
    have hsplit := Pipeline.arrays_of_unscopedBufs (p := 17) (pcfgs (F := F)) Gen.adm (pdats m) launch17.win launch17.arr_whole c
      ((pdats m 17 c).share_full fun _ => rfl) (ent17 m c) (A_eq17 (ent17 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin17 (ent17 m) c)
    unfold Pipeline.ΦA
    iintro ⟨Hp, -, Hr⟩
    isplitl [Hr]; · iexact Hr
    iexact Hp
  hout c := by
    rw [Pipeline.ownSems0_none]
    refine BIBase.Entails.trans (hout17 (ent17 m) c) ?_
    unfold Pipeline.ΦA
    iintro ⟨Hr, Hp⟩
    isplitl [Hp]; · iexact Hp
    isplitr; · iempintro
    iexact Hr
  hexit c := by
    have hjoin := Pipeline.unscopedBufs_of_arrays (p := 17) (pcfgs (F := F)) Gen.adm (Ix := Unit) (Name := ℕ) (U := Pipeline.UD sig nD τ) (Lvl := ℕ)
      launch17.win launch17.arr_whole c (pdats m) ((pdats m 17 c).share_full fun _ => rfl)
      (ent17 m c) (ext17 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the launch theorem's implicit arguments are found by unifying its conclusion with this one, which takes unfolding
-- plain definitions in a metavariable's type
set_option backward.isDefEq.respectTransparency.types false in
/-- THE RUN, with the result: from any memory with zero counters every weakly fair execution of the program terminates,
    and in every final memory the result buffer holds what the last valuation holds there and every argument array
    holds its launch contents. The launch runs the segments in order from "every unscoped buffer at the launch
    contents" to "every unscoped buffer at the last valuation"; that state is read against the final memory. -/
theorem run_result : θ_run defs (onTc (τ := τ) (main (F := F))) ⟨m, fun _ => 0, ρ⟩ (fun r => ∀ c : Dev nD,
      r.2.mem ((c.tc : Thread nD τ).loc main_v314) = Gen.V57 m (outs m) c main_v314
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine Pipeline.θ_run_regions_kit_dev (pcfgs (F := F)) Gen.adm (pdats m) () cellOf_inj embL defs₀ Variants.none L lv m ρ main
    (Gen.segs m (outs m) Variants.none L lv (E (F := F)) () (pdats m) (reg0 m) (reg1 m) (reg2 m) (reg3 m) (reg4 m) (reg5 m) (reg6 m) (reg7 m) (reg8 m) (reg9 m) (reg10 m) (reg11 m) (reg12 m) (reg13 m) (reg14 m) (reg15 m) (reg16 m) (reg17 m))
    (fun c Q => by
      rewrite [main_chain c, Seg.run_eq_chain,
        show ((Gen.segs m (outs m) Variants.none L lv (E (F := F)) () (pdats m) (reg0 m) (reg1 m) (reg2 m) (reg3 m) (reg4 m) (reg5 m) (reg6 m) (reg7 m) (reg8 m) (reg9 m) (reg10 m) (reg11 m) (reg12 m) (reg13 m) (reg14 m) (reg15 m) (reg16 m) (reg17 m)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4,
          StableHlo.seq hostOps9_5,
          StableHlo.seq hostOps9_6,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          StableHlo.seq hostOps15_1,
          StableHlo.seq hostOps15_2,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          StableHlo.seq hostOps18_1,
          StableHlo.seq hostOps18_2,
          StableHlo.seq hostOps18_3,
          StableHlo.seq hostOps18_4,
          StableHlo.seq hostOps18_5,
          StableHlo.seq hostOps18_6,
          StableHlo.seq hostOps18_7,
          StableHlo.seq hostOps18_8 ] from rfl]
      with_reducible exact .rfl)
    (fun c => by simp only [Gen.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V57 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hR c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V57 m (outs m) c b)
    (hfin := fun c s' => by
      iintro ⟨Hh, HSI⟩
      unfold StableHlo.held
      imodintro
      iapply (pointsTo_read_all (Pipeline.ucRefs τ sig) (fun b => (((c : Thread nD τ)).1, b)) (Gen.V57 m (outs m) c) s')
      isplitl [Hh] <;> iassumption)
    (hQ := fun s h c =>
      ⟨h c _ (mem_uc main_v314 (by decide)),
       (h c _ (mem_uc main_arg0 (by decide))).trans (Gen.V57_main_arg0 m (outs m) c),
       (h c _ (mem_uc main_arg1 (by decide))).trans (Gen.V57_main_arg1 m (outs m) c),
       (h c _ (mem_uc main_arg2 (by decide))).trans (Gen.V57_main_arg2 m (outs m) c),
       (h c _ (mem_uc main_arg3 (by decide))).trans (Gen.V57_main_arg3 m (outs m) c),
       (h c _ (mem_uc main_arg4 (by decide))).trans (Gen.V57_main_arg4 m (outs m) c),
       (h c _ (mem_uc main_arg5 (by decide))).trans (Gen.V57_main_arg5 m (outs m) c),
       (h c _ (mem_uc main_arg6 (by decide))).trans (Gen.V57_main_arg6 m (outs m) c),
       (h c _ (mem_uc main_arg7 (by decide))).trans (Gen.V57_main_arg7 m (outs m) c),
       (h c _ (mem_uc main_arg8 (by decide))).trans (Gen.V57_main_arg8 m (outs m) c),
       (h c _ (mem_uc main_arg9 (by decide))).trans (Gen.V57_main_arg9 m (outs m) c),
       (h c _ (mem_uc main_arg10 (by decide))).trans (Gen.V57_main_arg10 m (outs m) c),
       (h c _ (mem_uc main_arg11 (by decide))).trans (Gen.V57_main_arg11 m (outs m) c),
       (h c _ (mem_uc main_arg12 (by decide))).trans (Gen.V57_main_arg12 m (outs m) c),
       (h c _ (mem_uc main_arg13 (by decide))).trans (Gen.V57_main_arg13 m (outs m) c),
       (h c _ (mem_uc main_arg14 (by decide))).trans (Gen.V57_main_arg14 m (outs m) c),
       (h c _ (mem_uc main_arg15 (by decide))).trans (Gen.V57_main_arg15 m (outs m) c),
       (h c _ (mem_uc main_arg16 (by decide))).trans (Gen.V57_main_arg16 m (outs m) c),
       (h c _ (mem_uc main_arg17 (by decide))).trans (Gen.V57_main_arg17 m (outs m) c),
       (h c _ (mem_uc main_arg18 (by decide))).trans (Gen.V57_main_arg18 m (outs m) c),
       (h c _ (mem_uc main_arg19 (by decide))).trans (Gen.V57_main_arg19 m (outs m) c),
       (h c _ (mem_uc main_arg20 (by decide))).trans (Gen.V57_main_arg20 m (outs m) c),
       (h c _ (mem_uc main_arg21 (by decide))).trans (Gen.V57_main_arg21 m (outs m) c),
       (h c _ (mem_uc main_arg22 (by decide))).trans (Gen.V57_main_arg22 m (outs m) c),
       (h c _ (mem_uc main_arg23 (by decide))).trans (Gen.V57_main_arg23 m (outs m) c)⟩)

/-- THE FRAME: the same run, keeping only that every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => (h c).2) (run_result m ρ)

end Cert.Kernel.Hand

end
-- ==== Proof.KI.Reg0.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt0`), the scratch row's component feeding the next point's run. Everything
is stated at an arbitrary float family and at a parameter `V`: the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, over the grid -/

/-- The zeroing branch's condition, from the grid coordinate: the coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The copying branch's condition: the coordinate is the last. -/
abbrev cond0_1 (i : grid0.Coords) : Prop := k0_cond2 i = 1#1
/-- It holds at the last point only. -/
theorem hcond0_1 : ∀ t : Fin cfg0.N, cond0_1 (grid0.coords t) ↔ t.val = 24 :=
  (by decide +kernel : ∀ t : Fin grid0.N, cond0_1 (grid0.coords t) ↔ t.val = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the statistics window is idle (the body stores nothing into it) and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The staging memrefs the body is called with, and the scratch row -/

/-- One staging buffer of each output window, through which its contents are stated (the choice does not matter). -/
abbrev VO0_3 : View sig .tc .vmem S2000x512 .f32 := (Memref.whole cc0_stg3_0 : Memref sig .tc .vmem S2000x512 .f32).view
abbrev VO0_4 : View sig .tc .vmem S1x1024 .f32 := (Memref.whole cc0_stg4_0 : Memref sig .tc .vmem S1x1024 .f32).view
/-- Each window's current staging memref at point `t`, spelled as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
/-- The scratch row: a whole scoped buffer of the kernel's own, passed beside the windows. -/
abbrev scM0_0 : Memref sig .tc .vmem S1x1024 .f32 := Memref.whole cc0_scratch0
/-- The same as a view: what the row holds is stated through it. -/
abbrev VS0_0 : View sig .tc .vmem S1x1024 .f32 := scM0_0.view

/-- The other scoped buffers of the core (no staging buffer of this pipeline, not the scratch row), unopened. -/
abbrev restBut0 (c : Dev nD) : sProp 𝕄 :=
  Pipeline.scopedRestBut (Ix := Unit) (Name := ℕ) (U := Pipeline.UD sig nD τ) (Lvl := ℕ) (Val := Elt F) spec0 c [cc0_scratch0]

/-- The region's invariant with the scratch row as a memref owned at some contents. -/
theorem PhiA0_eq (c : Dev nD) :
    (Pipeline.ΦA spec0 c : sProp 𝕄)
      = iprop(iprop((∃ d, owns (c : Thread nD τ) scM0_0 fullShare d) ∗ restBut0 (F := F) c) ∗ (∃ r, prngReg c r)) := by
  unfold Pipeline.ΦA; rw [scopedRest0_split]; simp only [scM0_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S2000x128 .f32) (x1 : Vec F S2000x128 .f32) (x2 : Vec F S128x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__stage1_kernel i arg1 harg1 arg2 harg2 arg3 harg3 arg4 harg4 arg5 harg5 arg6 harg6) K } := by
  refine ⟨?_, ?_, fun xi4 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i)
    (x0 : Vec F S2000x128 .f32) (x1 : Vec F S2000x128 .f32) (x2 : Vec F S128x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__stage1_kernel i arg1 harg1 arg2 harg2 arg3 harg3 arg4 harg4 arg5 harg5 arg6 harg6) K } := by
  refine ⟨?_, ?_, fun xi4 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__stage1_kernel i arg1 harg1 arg2 harg2 arg3 harg3 arg4 harg4 arg5 harg5 arg6 harg6) K } := by
  refine ⟨?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover0_A_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S2000x128 .f32) (x1 : Vec F S2000x128 .f32) (x2 : Vec F S128x512 .bf16) (y : S2000x512.Idx) :
    ∃ pc ∈ (kernelRun0_A c i arg1 harg1 arg2 harg2 arg3 harg3 arg4 harg4 arg5 harg5 arg6 harg6 hc0 hc1 x0 x1 x2).1, y ∈ pc.1.set :=
  View.cover_of_tiledL (kernelRun0_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out0_A_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S2000x128 .f32) (x1 : Vec F S2000x128 .f32) (x2 : Vec F S128x512 .bf16) : Vec F S2000x512 .f32 :=
  VO0_3.read (Elt F) (VO0_3.writes (Elt F) VO0_3.junk (kernelRun0_A c i arg1 harg1 arg2 harg2 arg3 harg3 arg4 harg4 arg5 harg5 arg6 harg6 hc0 hc1 x0 x1 x2).1)

/-- The first point's pieces for the scratch row cover it: the zeroing store is the whole row. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S2000x128 .f32) (x1 : Vec F S2000x128 .f32) (x2 : Vec F S128x512 .bf16) (y : S1x1024.Idx) :
    ∃ pc ∈ (kernelRun0_A c i arg1 harg1 arg2 harg2 arg3 harg3 arg4 harg4 arg5 harg5 arg6 harg6 hc0 hc1 x0 x1 x2).2.1, y ∈ pc.1.set :=
  View.cover_of_tiledL (kernelRun0_A c i arg1 harg1 arg2 harg2 arg3 harg3 arg4 harg4 arg5 harg5 arg6 harg6 hc0 hc1 x0 x1 x2).2.1 S1x1024.size (by sl_kernel_rfl) y

/-- What the first point leaves in the scratch row. -/
def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i)
    (x0 : Vec F S2000x128 .f32) (x1 : Vec F S2000x128 .f32) (x2 : Vec F S128x512 .bf16) : Vec F S1x1024 .f32 :=
  VS0_0.read (Elt F) (VS0_0.writes (Elt F) VS0_0.junk (kernelRun0_A c i arg1 harg1 arg2 harg2 arg3 harg3 arg4 harg4 arg5 harg5 arg6 harg6 hc0 hc1 x0 x1 x2).2.1)

/-- A middle point's pieces for the output block tile it. -/
theorem cover0_B_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i)
    (x0 : Vec F S2000x128 .f32) (x1 : Vec F S2000x128 .f32) (x2 : Vec F S128x512 .bf16) (xs0 : Vec F S1x1024 .f32) (y : S2000x512.Idx) :
    ∃ pc ∈ (kernelRun0_B c i arg1 harg1 arg2 harg2 arg3 harg3 arg4 harg4 arg5 harg5 arg6 harg6 hc0 hc1 x0 x1 x2 xs0).1, y ∈ pc.1.set :=
  View.cover_of_tiledL (kernelRun0_B c i arg1 harg1 arg2 harg2 arg3 harg3 arg4 harg4 arg5 harg5 arg6 harg6 hc0 hc1 x0 x1 x2 xs0).1 S2000x512.size (by sl_kernel_rfl) y

/-- What a middle point leaves in the output block's staging buffer. -/
def out0_B_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i)
    (x0 : Vec F S2000x128 .f32) (x1 : Vec F S2000x128 .f32) (x2 : Vec F S128x512 .bf16) (xs0 : Vec F S1x1024 .f32) : Vec F S2000x512 .f32 :=
  VO0_3.read (Elt F) (VO0_3.writes (Elt F) VO0_3.junk (kernelRun0_B c i arg1 harg1 arg2 harg2 arg3 harg3 arg4 harg4 arg5 harg5 arg6 harg6 hc0 hc1 x0 x1 x2 xs0).1)

/-- A middle point's pieces for the scratch row tile it: the two half-row stores. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i)
    (x0 : Vec F S2000x128 .f32) (x1 : Vec F S2000x128 .f32) (x2 : Vec F S128x512 .bf16) (xs0 : Vec F S1x1024 .f32) (y : S1x1024.Idx) :
    ∃ pc ∈ (kernelRun0_B c i arg1 harg1 arg2 harg2 arg3 harg3 arg4 harg4 arg5 harg5 arg6 harg6 hc0 hc1 x0 x1 x2 xs0).2.1, y ∈ pc.1.set :=
  View.cover_of_tiledL (kernelRun0_B c i arg1 harg1 arg2 harg2 arg3 harg3 arg4 harg4 arg5 harg5 arg6 harg6 hc0 hc1 x0 x1 x2 xs0).2.1 S1x512.size (by sl_kernel_rfl) y

/-- What a middle point leaves in the scratch row. -/
def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i)
    (x0 : Vec F S2000x128 .f32) (x1 : Vec F S2000x128 .f32) (x2 : Vec F S128x512 .bf16) (xs0 : Vec F S1x1024 .f32) : Vec F S1x1024 .f32 :=
  VS0_0.read (Elt F) (VS0_0.writes (Elt F) VS0_0.junk (kernelRun0_B c i arg1 harg1 arg2 harg2 arg3 harg3 arg4 harg4 arg5 harg5 arg6 harg6 hc0 hc1 x0 x1 x2 xs0).2.1)

/-- The last point's pieces for the output block tile it. -/
theorem cover0_C_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) (y : S2000x512.Idx) :
    ∃ pc ∈ (kernelRun0_C c i arg1 harg1 arg2 harg2 arg3 harg3 arg4 harg4 arg5 harg5 arg6 harg6 hc0 hc1 x0 x1 x2 xs0).1, y ∈ pc.1.set :=
  View.cover_of_tiledL (kernelRun0_C c i arg1 harg1 arg2 harg2 arg3 harg3 arg4 harg4 arg5 harg5 arg6 harg6 hc0 hc1 x0 x1 x2 xs0).1 S2000x512.size (by sl_kernel_rfl) y

/-- What the last point leaves in the output block's staging buffer. -/
def out0_C_3 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) : Vec F S2000x512 .f32 :=
  VO0_3.read (Elt F) (VO0_3.writes (Elt F) VO0_3.junk (kernelRun0_C c i arg1 harg1 arg2 harg2 arg3 harg3 arg4 harg4 arg5 harg5 arg6 harg6 hc0 hc1 x0 x1 x2 xs0).1)

/-- The last point's pieces for the statistics block tile it: the copy of the whole scratch row. -/
theorem cover0_C_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) (y : S1x1024.Idx) :
    ∃ pc ∈ (kernelRun0_C c i arg1 harg1 arg2 harg2 arg3 harg3 arg4 harg4 arg5 harg5 arg6 harg6 hc0 hc1 x0 x1 x2 xs0).2.1, y ∈ pc.1.set :=
  View.cover_of_tiledL (kernelRun0_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out0_C_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) : Vec F S1x1024 .f32 :=
  VO0_4.read (Elt F) (VO0_4.writes (Elt F) VO0_4.junk (kernelRun0_C c i arg1 harg1 arg2 harg2 arg3 harg3 arg4 harg4 arg5 harg5 arg6 harg6 hc0 hc1 x0 x1 x2 xs0).2.1)

/-- The last point's pieces for the scratch row tile it: the two half-row stores. -/
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) (y : S1x1024.Idx) :
    ∃ pc ∈ (kernelRun0_C c i arg1 harg1 arg2 harg2 arg3 harg3 arg4 harg4 arg5 harg5 arg6 harg6 hc0 hc1 x0 x1 x2 xs0).2.2.1, y ∈ pc.1.set :=
  View.cover_of_tiledL (kernelRun0_C c i arg1 harg1 arg2 harg2 arg3 harg3 arg4 harg4 arg5 harg5 arg6 harg6 hc0 hc1 x0 x1 x2 xs0).2.2.1 S1x512.size (by sl_kernel_rfl) y

/-- What the last point leaves in the scratch row. -/
def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i)
    (x0 : Vec F S2000x128 .f32) (x1 : Vec F S2000x128 .f32) (x2 : Vec F S128x512 .bf16) (xs0 : Vec F S1x1024 .f32) : Vec F S1x1024 .f32 :=
  VS0_0.read (Elt F) (VS0_0.writes (Elt F) VS0_0.junk (kernelRun0_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut0_4 : Vec F S1x1024 .f32 := VO0_4.read (Elt F) VO0_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt0 (c : Dev nD) : (n : ℕ) → n < cfg0.N → Vec F S2000x512 .f32 × Vec F S1x1024 .f32 × Vec F S1x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩), idleOut0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h1 : n + 1 = 24 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, idleOut0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

/-- `outsAt0` at the first point. -/
theorem outsAt0_A (c : Dev nD) (t : Fin cfg0.N) (h0 : t.val = 0) (h1 : ¬t.val = 24) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t), idleOut0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact absurd h0 (Nat.succ_ne_zero n)

/-- `outsAt0` at a middle point: that case's contents, over the scratch row the point before left. -/
theorem outsAt0_B (c : Dev nD) (t : Fin cfg0.N) (h0 : ¬t.val = 0) (h1 : ¬t.val = 24) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, idleOut0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt0` at the last point. -/
theorem outsAt0_C (c : Dev nD) (t : Fin cfg0.N) (h0 : ¬t.val = 0) (h1 : t.val = 24) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ restBut0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ restBut0 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt0`'s components; the invariant `PhiS0`; nothing owed; full
    shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val = 0
  · have h1 : ¬t.val = 24 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold out0_A_3 sout0_A_0; (try dsimp only)
    rw [PhiS0_castSucc V c t, PhiS0_zero V c _ _ h0, PhiA0_eq]
    iintro ⟨⟨⟨HS0, HR⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _)
    iexists _; iexact H4
  · by_cases h1 : t.val = 24
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C_0; (try dsimp only)
      rw [PhiS0_castSucc V c t, PhiS0_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold out0_B_3 sout0_B_0; (try dsimp only)
      rw [PhiS0_castSucc V c t, PhiS0_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _)
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch row's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Cert.KernelIdeal.Hand

end
-- ==== Proof.KI.Reg1.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond1_0 (i : grid1.Coords) : Prop :=
  (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The body's second condition: the point is the grid's last. -/
abbrev cond1_1 (i : grid1.Coords) : Prop := k1_cond2 i = 1#1
/-- It holds at point 24 only. -/
theorem hcond1_1 : ∀ t : Fin cfg1.N, cond1_1 (grid1.coords t) ↔ t.val = 24 :=
  (by decide +kernel : ∀ t : Fin grid1.N, cond1_1 (grid1.coords t) ↔ t.val = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- At the first point the statistics window is idle, and its block is not written back there. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
/-- At the points between, the same. -/
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
/-- At the last point the statistics window is live. -/
theorem liveAt1_7_C : ∀ t : Fin cfg1.N, ¬cond1_0 (grid1.coords t) → cond1_1 (grid1.coords t) → cfg1.idle 7 (grid1.coords t) = false := by decide +kernel

/-! ## The staging memrefs, the accumulator, and the views the results are stated through -/

abbrev ms1_0 (t : Fin cfg1.N) : Memref sig .tc .vmem S2000x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .f32 := win1_7.stage (cfg1.slots t 7)
abbrev hs1_7 (t : Fin cfg1.N) : (ms1_7 t).IsWhole := hstage1_7 ((cfg1.slots t 7).cast nbuf1_7)
/-- The accumulator: a whole scoped buffer of the kernel's own, carried from point to point. -/
abbrev scM1_0 : Memref sig .tc .vmem S1x512 .f32 := Memref.whole cc1_scratch0
abbrev VS1_0 : View sig .tc .vmem S1x512 .f32 := scM1_0.view
/-- One staging buffer of each output window, through which its contents are stated (the choice does not matter). -/
abbrev VO1_6 : View sig .tc .vmem S2000x256 .f32 := (Memref.whole cc1_stg6_0 : Memref sig .tc .vmem S2000x256 .f32).view
abbrev VO1_7 : View sig .tc .vmem S1x512 .f32 := (Memref.whole cc1_stg7_0 : Memref sig .tc .vmem S1x512 .f32).view

/-- The class's invariant with the accumulator opened as a memref owned at some contents; every other scoped buffer
    stays closed. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := Pipeline.UD sig nD τ) (Lvl := ℕ) (Val := Elt F) spec1 c [cc1_scratch0])
          ∗ (∃ r, prngReg c r)) := by
  unfold Pipeline.ΦA; rw [scopedRest1_split]; simp only [scM1_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun1_A (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond1_0 i) (hc1 : ¬cond1_1 i)
    (x0 : Vec F S2000x512 .f32) (x1 : Vec F S1x512 .f32) (x2 : Vec F S1x512 .f32) (x3 : Vec F S1x512 .f32) (x4 : Vec F S1x512 .f32) (x5 : Vec F S512x256 .bf16) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun1_B (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond1_0 i) (hc1 : ¬cond1_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun1_C (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond1_0 i) (hc1 : cond1_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc1__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__stage2_kernel_eq_skeleton]; unfold cc1__stage2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond1_0 i) (hc1 : ¬cond1_1 i)
  (x0 : Vec F S2000x512 .f32) (x1 : Vec F S1x512 .f32) (x2 : Vec F S1x512 .f32) (x3 : Vec F S1x512 .f32) (x4 : Vec F S1x512 .f32) (x5 : Vec F S512x256 .bf16)

/-- At the first point the one store into the product window covers its block. -/
theorem cover1_A_6 (y : S2000x256.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).1 S2000x256.size (by sl_kernel_rfl) y

/-- What the first point leaves in the product window: its pieces read back. -/
def out1_A_6 : Vec F S2000x256 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out1_A_7 : Vec F S1x512 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover1_A_0 (y : S1x512.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).2.2.1 S1x512.size (by sl_kernel_rfl) y

/-- What the first point leaves in the accumulator. -/
def sout1_A_0 : Vec F S1x512 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond1_0 i) (hc1 : ¬cond1_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At a point between the one store into the product window covers its block. -/
theorem cover1_B_6 (y : S2000x256.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out1_B_6 : Vec F S2000x256 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out1_B_7 : Vec F S1x512 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover1_B_0 (y : S1x512.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout1_B_0 : Vec F S1x512 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond1_0 i) (hc1 : cond1_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At the last point the one store into the product window covers its block. -/
theorem cover1_C_6 (y : S2000x256.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out1_C_6 : Vec F S2000x256 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover1_C_7 (y : S1x512.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).2.1 S1x512.size (by sl_kernel_rfl) y

/-- What the last point leaves in the statistics window. -/
def out1_C_7 : Vec F S1x512 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover1_C_0 (y : S1x512.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout1_C_0 : Vec F S1x512 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' buffers hold their blocks at every point

An input window is never idle and the body leaves its block in place; so its current buffer holds what a fetch at the
point puts there whether or not one happened: where none did, the block index has not moved (the five row and weight
windows are fetched once, at the first point). -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the outputs and the accumulator hold after each point -/

/-- The first point is not the last, -/
theorem notLast1_of_first (t : Fin cfg1.N) (h0 : t.val = 0) : ¬cond1_1 (grid1.coords t) :=
  fun h => by have := (hcond1_1 t).mp h; omega

/-- The first point's results at the point's own memrefs and input blocks: the product block, the statistics
    placeholder, the accumulator. -/
def outsPt1_A (c : Dev nD) (t : Fin cfg1.N) (h0 : t.val = 0) : Vec F S2000x256 .f32 × Vec F S1x512 .f32 × Vec F S1x512 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (notLast1_of_first t h0) (iblk1 V c 0 t) (iblk1 V c 1 t) (iblk1 V c 2 t) (iblk1 V c 3 t) (iblk1 V c 4 t) (iblk1 V c 5 t),
   out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (notLast1_of_first t h0) (iblk1 V c 0 t) (iblk1 V c 1 t) (iblk1 V c 2 t) (iblk1 V c 3 t) (iblk1 V c 4 t) (iblk1 V c 5 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (notLast1_of_first t h0) (iblk1 V c 0 t) (iblk1 V c 1 t) (iblk1 V c 2 t) (iblk1 V c 3 t) (iblk1 V c 4 t) (iblk1 V c 5 t))

/-- A point between, over the accumulator xs0 the point before left. -/
def outsPt1_B (c : Dev nD) (t : Fin cfg1.N) (h0 : ¬t.val = 0) (h1 : ¬t.val = 24) (xs0 : Vec F S1x512 .f32) : Vec F S2000x256 .f32 × Vec F S1x512 .f32 × Vec F S1x512 .f32 :=
  (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0,
   out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0)

/-- The last point, over the accumulator xs0 the point before left. -/
def outsPt1_C (c : Dev nD) (t : Fin cfg1.N) (h0 : ¬t.val = 0) (h1 : t.val = 24) (xs0 : Vec F S1x512 .f32) : Vec F S2000x256 .f32 × Vec F S1x512 .f32 × Vec F S1x512 .f32 :=
  (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0,
   out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0)

/-- THE ACCUMULATION. What the product window, the statistics window and the accumulator hold after the body at
    position n: the case the position selects, run at the point's memrefs and input blocks, the accumulator it reads
    at what position n - 1 left. -/
def outsAt1 (c : Dev nD) : (n : ℕ) → n < cfg1.N → Vec F S2000x256 .f32 × Vec F S1x512 .f32 × Vec F S1x512 .f32
  | 0, hn => outsPt1_A V c ⟨0, hn⟩ rfl
  | n + 1, hn =>
    if h1 : n + 1 = 24 then
      outsPt1_C V c ⟨n + 1, hn⟩ (Nat.succ_ne_zero n) h1 (outsAt1 c n (Nat.lt_of_succ_lt hn)).2.2
    else
      outsPt1_B V c ⟨n + 1, hn⟩ (Nat.succ_ne_zero n) h1 (outsAt1 c n (Nat.lt_of_succ_lt hn)).2.2

/-- outsAt1 at the first point. -/
theorem outsAt1_A (c : Dev nD) (t : Fin cfg1.N) (h0 : t.val = 0) :
    outsAt1 V c t.val t.isLt = outsPt1_A V c t h0 := by
  obtain ⟨n, hn⟩ := t
  cases n with
  | zero => exact rfl
  | succ n => exact absurd h0 (Nat.succ_ne_zero n)

/-- outsAt1 at a point between: over what the point before left in the accumulator. -/
theorem outsAt1_B (c : Dev nD) (t : Fin cfg1.N) (h0 : ¬t.val = 0) (h1 : ¬t.val = 24) :
    outsAt1 V c t.val t.isLt = outsPt1_B V c t h0 h1 (outsAt1 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt1 at the last point: over what the point before left in the accumulator. -/
theorem outsAt1_C (c : Dev nD) (t : Fin cfg1.N) (h0 : ¬t.val = 0) (h1 : t.val = 24) :
    outsAt1 V c t.val t.isLt = outsPt1_C V c t h0 h1 (outsAt1 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2)
      ∗ Pipeline.scopedRestBut (Ix := Unit) (Name := ℕ) (U := Pipeline.UD sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2)
      ∗ Pipeline.scopedRestBut (Ix := Unit) (Name := ℕ) (U := Pipeline.UD sig nD τ) (Lvl := ℕ) (Val := Elt F) spec1 c [cc1_scratch0])
      ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2)
      ∗ Pipeline.scopedRestBut (Ix := Unit) (Name := ℕ) (U := Pipeline.UD sig nD τ) (Lvl := ℕ) (Val := Elt F) spec1 c [cc1_scratch0])
      ∗ (∃ r, prngReg c r)) := by
  cases n with
  | zero => exact absurd rfl hz
  | succ n => rfl

/-! ## The proof data -/

/-- The arrays as the region finds them; after the body at point t each input's buffer at its block, the product
    window's at the first component of outsAt1, the statistics window's at the second; the invariant PhiS1; nothing
    owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t: the invariant, what the core owes, and each window's current buffer at
    what it then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val = 0
  · -- the first point
    have hc0 : cond1_0 (grid1.coords t) := (hcond1_0 t).mpr h0
    have hc1 : ¬cond1_1 (grid1.coords t) := notLast1_of_first t h0
    rw [Dat.leavesExact_idle (dat1 V c) 7 t (idleAt1_7_A t hc0 hc1) (noFlush1_7_A t hc0 hc1)]
    rw [outsAt1_A V c t h0]
    unfold outsPt1_A out1_A_6 sout1_A_0; (try dsimp only)
    rw [PhiS1_castSucc V c t, PhiS1_zero V c _ _ h0, PhiA1_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_A_6 c _ _ _ _ _ _ _ _ _ _ _ _ _ _ _ _ _ _ _ _ _ _ _ _ _ _ _)
    iexists _; iexact H7
  · by_cases h1 : t.val = 24
    · -- the last point
      have hc0 : ¬cond1_0 (grid1.coords t) := fun h => h0 ((hcond1_0 t).mp h)
      have hc1 : cond1_1 (grid1.coords t) := (hcond1_1 t).mpr h1
      rw [show (dat1 V c).leavesExact 7 t = owns (c : Thread nD τ) (ms1_7 t) fullShare ((dat1 V c).after 7 t) from by
        unfold Dat.leavesExact; rw [liveAt1_7_C t hc0 hc1], after1_7]
      rw [outsAt1_C V c t h0 h1]
      unfold outsPt1_C out1_C_6 out1_C_7 sout1_C_0; (try dsimp only)
      rw [PhiS1_castSucc V c t, PhiS1_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _ _ _)
    · -- a point between
      have hc0 : ¬cond1_0 (grid1.coords t) := fun h => h0 ((hcond1_0 t).mp h)
      have hc1 : ¬cond1_1 (grid1.coords t) := fun h => h1 ((hcond1_1 t).mp h)
      rw [Dat.leavesExact_idle (dat1 V c) 7 t (idleAt1_7_B t hc0 hc1) (noFlush1_7_B t hc0 hc1)]
      rw [outsAt1_B V c t h0 h1]
      unfold outsPt1_B out1_B_6 sout1_B_0; (try dsimp only)
      rw [PhiS1_castSucc V c t, PhiS1_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ hc0 hc1 (iblk1 V c 0 t) (iblk1 V c 1 t) (iblk1 V c 2 t) (iblk1 V c 3 t) (iblk1 V c 4 t) (iblk1 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _)
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Region

end Cert.KernelIdeal.Hand

end
-- ==== Proof.KI.Reg2.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body leaves in the output block -/

/-- The whole block of rows, as a rectangle of itself. -/
abbrev rB2 : Rect S2000x256 := Rect.unit (s := S2000x256) ![0, 0] S2000x256.size inb_S2000x256_S2000x256_0_0
/-- The whole single row, as a rectangle of itself. -/
abbrev rR2 : Rect S1x256 := Rect.unit (s := S1x256) ![0, 0] S1x256.size inb_S1x256_S1x256_0_0

/-- The output block after the body, from the five input blocks: the body's one store, of the
    payload of the five whole loads, laid over the block.  (The payload takes the row operands in
    the order the body loads them: the fourth, the second, the third, the fifth.) -/
def out2_5 (x0 : Vec F S2000x256 .f32) (x1 x2 x3 x4 : Vec F S1x256 .f32) : Vec F S2000x256 .f32 :=
  View.canon [⟨rB2, k2_pay1 (View.ld x0 rB2) (View.ld x3 rR2) (View.ld x1 rR2) (View.ld x2 rR2) (View.ld x4 rR2)⟩]

/-- One store of the whole block covers it. -/
theorem cover2_5 (p : Vec F S2000x256 .f32) (y : S2000x256.Idx) :
    ∃ pc ∈ ([⟨rB2, p⟩] : List (View.Piece (Elt F) S2000x256 .f32)), y ∈ pc.1.set :=
  View.cover_of_tiled [⟨rB2, p⟩] S2000x256.size (by rfl) y

/-! ## The body's triple -/

set_option maxHeartbeats 1000000 in
/-- The kernel body on whole staging memrefs: holding the five inputs' at contents reading `x0 … x4`
    and the output's at anything, it runs to a state holding the inputs' as they were and the
    output's at `out2_5` of them.  The body is its skeleton of memory operations over the named
    payload; the executor steps through the six loads and the store. -/
theorem sound_kernel2 (c : Dev nD) (E : Set ℕ) (i : grid2.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__stage3_kernel i arg1 harg1 arg2 harg2 arg3 harg3 arg4 harg4 arg5 harg5 arg6 harg6) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

/-- The proof data of the pipeline on core `c`: the arrays as the region finds them; after the
    body at point `t` each input's buffer at its block and the output's at `out2_5` of the input
    blocks; the class's invariant; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

/-! ## What the body finds in the input windows' buffers

An input window's current staging buffer holds its block at every point, whether the pipeline
fetched it there or not: a window not fetched at a point has the block index of the point before,
and the body left that point's block in place.  (The four row operands are fetched at the first
point only; the first operand at every point.) -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0 V c t]; unfold Dat.blockOf iblk2; rw [A_eq2 V c 0]; try rfl) t d).trans
    (by unfold Dat.fetched Dat.blockOf iblk2; rw [A_eq2 V c 0]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1 V c t]; unfold Dat.blockOf iblk2; rw [A_eq2 V c 1]; try rfl) t d).trans
    (by unfold Dat.fetched Dat.blockOf iblk2; rw [A_eq2 V c 1]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2 V c t]; unfold Dat.blockOf iblk2; rw [A_eq2 V c 2]; try rfl) t d).trans
    (by unfold Dat.fetched Dat.blockOf iblk2; rw [A_eq2 V c 2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3 V c t]; unfold Dat.blockOf iblk2; rw [A_eq2 V c 3]; try rfl) t d).trans
    (by unfold Dat.fetched Dat.blockOf iblk2; rw [A_eq2 V c 3]; try rfl)
theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4 V c t]; unfold Dat.blockOf iblk2; rw [A_eq2 V c 4]; try rfl) t d).trans
    (by unfold Dat.fetched Dat.blockOf iblk2; rw [A_eq2 V c 4]; try rfl)

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the two ends -/

/-- The proof data's invariant is the class's at every point: the region's entry hands it over as it is, -/
theorem hin2 (c : Dev nD) : Pipeline.ΦA spec2 c ⊢ (dat2 V c).Φ 0 := by
  dsimp only [dat2]; exact .rfl

/-- and takes it back as it is. -/
theorem hout2 (c : Dev nD) : (dat2 V c).Φ (Fin.last cfg2.N) ⊢ Pipeline.ΦA spec2 c := by
  dsimp only [dat2]; exact .rfl

end Cert.KernelIdeal.Hand

end
-- ==== Proof.KI.Reg3.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt3`), the scratch row's component feeding the next point's run. Everything
is stated at an arbitrary float family and at a parameter `V`: the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is `V`'s and whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, over the grid -/

/-- The zeroing branch's condition, from the grid coordinate: the coordinate is 0. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The copying branch's condition: the coordinate is the last. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Away from the last point the statistics window is idle (the body stores nothing into it) and not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last point it is live. -/
theorem liveAt3_4 : ∀ t : Fin cfg3.N, cond3_1 (grid3.coords t) → cfg3.idle 4 (grid3.coords t) = false := by decide +kernel

/-! ## The staging memrefs the body is called with, and the scratch row -/

/-- One staging buffer of each output window, through which its contents are stated (the choice does not matter). -/
abbrev VO3_3 : View sig .tc .vmem S2000x512 .f32 := (Memref.whole cc3_stg3_0 : Memref sig .tc .vmem S2000x512 .f32).view
abbrev VO3_4 : View sig .tc .vmem S1x1024 .f32 := (Memref.whole cc3_stg4_0 : Memref sig .tc .vmem S1x1024 .f32).view
/-- Each window's current staging memref at point `t`, spelled as the pipeline passes it, and its wholeness. -/
abbrev ms3_0 (t : Fin cfg3.N) : Memref sig .tc .vmem S2000x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x512 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
/-- The scratch row: a whole scoped buffer of the kernel's own, passed beside the windows. -/
abbrev scM3_0 : Memref sig .tc .vmem S1x1024 .f32 := Memref.whole cc3_scratch0
/-- The same as a view: what the row holds is stated through it. -/
abbrev VS3_0 : View sig .tc .vmem S1x1024 .f32 := scM3_0.view

/-- The other scoped buffers of the core (no staging buffer of this pipeline, not the scratch row), unopened. -/
abbrev restBut3 (c : Dev nD) : sProp 𝕄 :=
  Pipeline.scopedRestBut (Ix := Unit) (Name := ℕ) (U := Pipeline.UD sig nD τ) (Lvl := ℕ) (Val := Elt F) spec3 c [cc3_scratch0]

/-- The region's invariant with the scratch row as a memref owned at some contents. -/
theorem PhiA3_eq (c : Dev nD) :
    (Pipeline.ΦA spec3 c : sProp 𝕄)
      = iprop(iprop((∃ d, owns (c : Thread nD τ) scM3_0 fullShare d) ∗ restBut3 (F := F) c) ∗ (∃ r, prngReg c r)) := by
  unfold Pipeline.ΦA; rw [scopedRest3_split]; simp only [scM3_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun3_A (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i)
    (x0 : Vec F S2000x256 .f32) (x1 : Vec F S2000x256 .f32) (x2 : Vec F S256x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__stage1_kernel i arg1 harg1 arg2 harg2 arg3 harg3 arg4 harg4 arg5 harg5 arg6 harg6) K } := by
  refine ⟨?_, ?_, fun xi4 E K => ?run⟩
  case run =>
    simp only [cc3__stage1_kernel_eq_skeleton]; unfold cc3__stage1_kernel_skel
    simp only [k3_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun3_B (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i)
    (x0 : Vec F S2000x256 .f32) (x1 : Vec F S2000x256 .f32) (x2 : Vec F S256x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__stage1_kernel i arg1 harg1 arg2 harg2 arg3 harg3 arg4 harg4 arg5 harg5 arg6 harg6) K } := by
  refine ⟨?_, ?_, fun xi4 E K => ?run⟩
  case run =>
    simp only [cc3__stage1_kernel_eq_skeleton]; unfold cc3__stage1_kernel_skel
    simp only [k3_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun3_C (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc3__stage1_kernel i arg1 harg1 arg2 harg2 arg3 harg3 arg4 harg4 arg5 harg5 arg6 harg6) K } := by
  refine ⟨?_, ?_, ?_, fun E K => ?run⟩
  case run =>
    simp only [cc3__stage1_kernel_eq_skeleton]; unfold cc3__stage1_kernel_skel
    simp only [k3_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover3_A_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i)
    (x0 : Vec F S2000x256 .f32) (x1 : Vec F S2000x256 .f32) (x2 : Vec F S256x512 .bf16) (y : S2000x512.Idx) :
    ∃ pc ∈ (kernelRun3_A c i arg1 harg1 arg2 harg2 arg3 harg3 arg4 harg4 arg5 harg5 arg6 harg6 hc0 hc1 x0 x1 x2).1, y ∈ pc.1.set :=
  View.cover_of_tiledL (kernelRun3_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out3_A_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i)
    (x0 : Vec F S2000x256 .f32) (x1 : Vec F S2000x256 .f32) (x2 : Vec F S256x512 .bf16) : Vec F S2000x512 .f32 :=
  VO3_3.read (Elt F) (VO3_3.writes (Elt F) VO3_3.junk (kernelRun3_A c i arg1 harg1 arg2 harg2 arg3 harg3 arg4 harg4 arg5 harg5 arg6 harg6 hc0 hc1 x0 x1 x2).1)

/-- The first point's pieces for the scratch row cover it: the zeroing store is the whole row. -/
theorem scover3_A_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i)
    (x0 : Vec F S2000x256 .f32) (x1 : Vec F S2000x256 .f32) (x2 : Vec F S256x512 .bf16) (y : S1x1024.Idx) :
    ∃ pc ∈ (kernelRun3_A c i arg1 harg1 arg2 harg2 arg3 harg3 arg4 harg4 arg5 harg5 arg6 harg6 hc0 hc1 x0 x1 x2).2.1, y ∈ pc.1.set :=
  View.cover_of_tiledL (kernelRun3_A c i arg1 harg1 arg2 harg2 arg3 harg3 arg4 harg4 arg5 harg5 arg6 harg6 hc0 hc1 x0 x1 x2).2.1 S1x1024.size (by sl_kernel_rfl) y

/-- What the first point leaves in the scratch row. -/
def sout3_A_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i)
    (x0 : Vec F S2000x256 .f32) (x1 : Vec F S2000x256 .f32) (x2 : Vec F S256x512 .bf16) : Vec F S1x1024 .f32 :=
  VS3_0.read (Elt F) (VS3_0.writes (Elt F) VS3_0.junk (kernelRun3_A c i arg1 harg1 arg2 harg2 arg3 harg3 arg4 harg4 arg5 harg5 arg6 harg6 hc0 hc1 x0 x1 x2).2.1)

/-- A middle point's pieces for the output block tile it. -/
theorem cover3_B_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i)
    (x0 : Vec F S2000x256 .f32) (x1 : Vec F S2000x256 .f32) (x2 : Vec F S256x512 .bf16) (xs0 : Vec F S1x1024 .f32) (y : S2000x512.Idx) :
    ∃ pc ∈ (kernelRun3_B c i arg1 harg1 arg2 harg2 arg3 harg3 arg4 harg4 arg5 harg5 arg6 harg6 hc0 hc1 x0 x1 x2 xs0).1, y ∈ pc.1.set :=
  View.cover_of_tiledL (kernelRun3_B c i arg1 harg1 arg2 harg2 arg3 harg3 arg4 harg4 arg5 harg5 arg6 harg6 hc0 hc1 x0 x1 x2 xs0).1 S2000x512.size (by sl_kernel_rfl) y

/-- What a middle point leaves in the output block's staging buffer. -/
def out3_B_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i)
    (x0 : Vec F S2000x256 .f32) (x1 : Vec F S2000x256 .f32) (x2 : Vec F S256x512 .bf16) (xs0 : Vec F S1x1024 .f32) : Vec F S2000x512 .f32 :=
  VO3_3.read (Elt F) (VO3_3.writes (Elt F) VO3_3.junk (kernelRun3_B c i arg1 harg1 arg2 harg2 arg3 harg3 arg4 harg4 arg5 harg5 arg6 harg6 hc0 hc1 x0 x1 x2 xs0).1)

/-- A middle point's pieces for the scratch row tile it: the two half-row stores. -/
theorem scover3_B_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i)
    (x0 : Vec F S2000x256 .f32) (x1 : Vec F S2000x256 .f32) (x2 : Vec F S256x512 .bf16) (xs0 : Vec F S1x1024 .f32) (y : S1x1024.Idx) :
    ∃ pc ∈ (kernelRun3_B c i arg1 harg1 arg2 harg2 arg3 harg3 arg4 harg4 arg5 harg5 arg6 harg6 hc0 hc1 x0 x1 x2 xs0).2.1, y ∈ pc.1.set :=
  View.cover_of_tiledL (kernelRun3_B c i arg1 harg1 arg2 harg2 arg3 harg3 arg4 harg4 arg5 harg5 arg6 harg6 hc0 hc1 x0 x1 x2 xs0).2.1 S1x512.size (by sl_kernel_rfl) y

/-- What a middle point leaves in the scratch row. -/
def sout3_B_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i)
    (x0 : Vec F S2000x256 .f32) (x1 : Vec F S2000x256 .f32) (x2 : Vec F S256x512 .bf16) (xs0 : Vec F S1x1024 .f32) : Vec F S1x1024 .f32 :=
  VS3_0.read (Elt F) (VS3_0.writes (Elt F) VS3_0.junk (kernelRun3_B c i arg1 harg1 arg2 harg2 arg3 harg3 arg4 harg4 arg5 harg5 arg6 harg6 hc0 hc1 x0 x1 x2 xs0).2.1)

/-- The last point's pieces for the output block tile it. -/
theorem cover3_C_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) (y : S2000x512.Idx) :
    ∃ pc ∈ (kernelRun3_C c i arg1 harg1 arg2 harg2 arg3 harg3 arg4 harg4 arg5 harg5 arg6 harg6 hc0 hc1 x0 x1 x2 xs0).1, y ∈ pc.1.set :=
  View.cover_of_tiledL (kernelRun3_C c i arg1 harg1 arg2 harg2 arg3 harg3 arg4 harg4 arg5 harg5 arg6 harg6 hc0 hc1 x0 x1 x2 xs0).1 S2000x512.size (by sl_kernel_rfl) y

/-- What the last point leaves in the output block's staging buffer. -/
def out3_C_3 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) : Vec F S2000x512 .f32 :=
  VO3_3.read (Elt F) (VO3_3.writes (Elt F) VO3_3.junk (kernelRun3_C c i arg1 harg1 arg2 harg2 arg3 harg3 arg4 harg4 arg5 harg5 arg6 harg6 hc0 hc1 x0 x1 x2 xs0).1)

/-- The last point's pieces for the statistics block tile it: the copy of the whole scratch row. -/
theorem cover3_C_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) (y : S1x1024.Idx) :
    ∃ pc ∈ (kernelRun3_C c i arg1 harg1 arg2 harg2 arg3 harg3 arg4 harg4 arg5 harg5 arg6 harg6 hc0 hc1 x0 x1 x2 xs0).2.1, y ∈ pc.1.set :=
  View.cover_of_tiledL (kernelRun3_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out3_C_4 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) : Vec F S1x1024 .f32 :=
  VO3_4.read (Elt F) (VO3_4.writes (Elt F) VO3_4.junk (kernelRun3_C c i arg1 harg1 arg2 harg2 arg3 harg3 arg4 harg4 arg5 harg5 arg6 harg6 hc0 hc1 x0 x1 x2 xs0).2.1)

/-- The last point's pieces for the scratch row tile it: the two half-row stores. -/
theorem scover3_C_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) (y : S1x1024.Idx) :
    ∃ pc ∈ (kernelRun3_C c i arg1 harg1 arg2 harg2 arg3 harg3 arg4 harg4 arg5 harg5 arg6 harg6 hc0 hc1 x0 x1 x2 xs0).2.2.1, y ∈ pc.1.set :=
  View.cover_of_tiledL (kernelRun3_C c i arg1 harg1 arg2 harg2 arg3 harg3 arg4 harg4 arg5 harg5 arg6 harg6 hc0 hc1 x0 x1 x2 xs0).2.2.1 S1x512.size (by sl_kernel_rfl) y

/-- What the last point leaves in the scratch row. -/
def sout3_C_0 (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i)
    (x0 : Vec F S2000x256 .f32) (x1 : Vec F S2000x256 .f32) (x2 : Vec F S256x512 .bf16) (xs0 : Vec F S1x1024 .f32) : Vec F S1x1024 .f32 :=
  VS3_0.read (Elt F) (VS3_0.writes (Elt F) VS3_0.junk (kernelRun3_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut3_4 : Vec F S1x1024 .f32 := VO3_4.read (Elt F) VO3_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt3 (c : Dev nD) : (n : ℕ) → n < cfg3.N → Vec F S2000x512 .f32 × Vec F S1x1024 .f32 × Vec F S1x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩), idleOut3_4, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h1 : n + 1 = 24 then
      (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => absurd ((hcond3_0 ⟨n + 1, hn⟩).mp h) (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => absurd ((hcond3_0 ⟨n + 1, hn⟩).mp h) (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => absurd ((hcond3_0 ⟨n + 1, hn⟩).mp h) (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2)
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => absurd ((hcond3_0 ⟨n + 1, hn⟩).mp h) (Nat.succ_ne_zero n)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2, idleOut3_4, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => absurd ((hcond3_0 ⟨n + 1, hn⟩).mp h) (Nat.succ_ne_zero n)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2)

/-- `outsAt3` at the first point. -/
theorem outsAt3_A (c : Dev nD) (t : Fin cfg3.N) (h0 : t.val = 0) (h1 : ¬t.val = 24) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t), idleOut3_4, sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact absurd h0 (Nat.succ_ne_zero n)

/-- `outsAt3` at a middle point: that case's contents, over the scratch row the point before left. -/
theorem outsAt3_B (c : Dev nD) (t : Fin cfg3.N) (h0 : ¬t.val = 0) (h1 : ¬t.val = 24) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2, idleOut3_4, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt3` at the last point. -/
theorem outsAt3_C (c : Dev nD) (t : Fin cfg3.N) (h0 : ¬t.val = 0) (h1 : t.val = 24) :
    outsAt3 V c t.val t.isLt = (out3_C_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2.2) ∗ restBut3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2.2) ∗ restBut3 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt3`'s components; the invariant `PhiS3`; nothing owed; full
    shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h0 : t.val = 0
  · have h1 : ¬t.val = 24 := by omega
    rw [Dat.leavesExact_idle (dat3 V c) 4 t (idleAt3_4 t (fun h => h1 ((hcond3_1 t).mp h))) (noFlush3_4 t (fun h => h1 ((hcond3_1 t).mp h)))]
    rw [outsAt3_A V c t h0 h1]
    unfold out3_A_3 sout3_A_0; (try dsimp only)
    rw [PhiS3_castSucc V c t, PhiS3_zero V c _ _ h0, PhiA3_eq]
    iintro ⟨⟨⟨HS0, HR⟩, Hg⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_A_3 c _ _ _ _ _ _ _ _ _ _ _ _ _ _ _ _ _ _)
    iexists _; iexact H4
  · by_cases h1 : t.val = 24
    · rw [show (dat3 V c).leavesExact 4 t = owns (c : Thread nD τ) (ms3_4 t) fullShare ((dat3 V c).after 4 t) from by
        unfold Dat.leavesExact; rw [liveAt3_4 t ((hcond3_1 t).mpr h1)], after3_4]
      rw [outsAt3_C V c t h0 h1]
      unfold out3_C_3 out3_C_4 sout3_C_0; (try dsimp only)
      rw [PhiS3_castSucc V c t, PhiS3_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_C_3 c _ _ _ _ _ _ _ _ _ _ _ _ _ _ _ _ _ _ _)
      unfold owns; iexists _; isplitr
      swap; · iexact H4
      ipureintro; exact View.read_writes_of_cover _ _ _ _ _ (cover3_C_4 c _ _ _ _ _ _ _ _ _ _ _ _ _ _ _ _ _ _ _)
    · rw [Dat.leavesExact_idle (dat3 V c) 4 t (idleAt3_4 t (fun h => h1 ((hcond3_1 t).mp h))) (noFlush3_4 t (fun h => h1 ((hcond3_1 t).mp h)))]
      rw [outsAt3_B V c t h0 h1]
      unfold out3_B_3 sout3_B_0; (try dsimp only)
      rw [PhiS3_castSucc V c t, PhiS3_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_B_3 c _ _ _ _ _ _ _ _ _ _ _ _ _ _ _ _ _ _ _)
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the scratch row's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 25 := N_3; omega)

end Cert.KernelIdeal.Hand

end
-- ==== Proof.KI.Reg4.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond4_0 (i : grid4.Coords) : Prop :=
  (Scalar.cmpi .ne (Scalar.extui (Scalar.cmpi .eq (BitVec.ofNat 32 (i 0).val) 0#32)) 0#32) = 1#1
/-- It holds at point 0 only. -/
theorem hcond4_0 : ∀ t : Fin cfg4.N, cond4_0 (grid4.coords t) ↔ t.val = 0 :=
  (by decide +kernel : ∀ t : Fin grid4.N, cond4_0 (grid4.coords t) ↔ t.val = 0)

/-- The body's second condition: the point is the grid's last. -/
abbrev cond4_1 (i : grid4.Coords) : Prop := k4_cond2 i = 1#1
/-- It holds at point 24 only. -/
theorem hcond4_1 : ∀ t : Fin cfg4.N, cond4_1 (grid4.coords t) ↔ t.val = 24 :=
  (by decide +kernel : ∀ t : Fin grid4.N, cond4_1 (grid4.coords t) ↔ t.val = 24)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
/-- At the first point the statistics window is idle, and its block is not written back there. -/
theorem idleAt4_7_A : ∀ t : Fin cfg4.N, cond4_0 (grid4.coords t) → ¬cond4_1 (grid4.coords t) → cfg4.idle 7 (grid4.coords t) = true := by decide +kernel
theorem noFlush4_7_A : ∀ t : Fin cfg4.N, cond4_0 (grid4.coords t) → ¬cond4_1 (grid4.coords t) → (cfg4.win 7).flush t = false := by decide +kernel
/-- At the points between, the same. -/
theorem idleAt4_7_B : ∀ t : Fin cfg4.N, ¬cond4_0 (grid4.coords t) → ¬cond4_1 (grid4.coords t) → cfg4.idle 7 (grid4.coords t) = true := by decide +kernel
theorem noFlush4_7_B : ∀ t : Fin cfg4.N, ¬cond4_0 (grid4.coords t) → ¬cond4_1 (grid4.coords t) → (cfg4.win 7).flush t = false := by decide +kernel
/-- At the last point the statistics window is live. -/
theorem liveAt4_7_C : ∀ t : Fin cfg4.N, ¬cond4_0 (grid4.coords t) → cond4_1 (grid4.coords t) → cfg4.idle 7 (grid4.coords t) = false := by decide +kernel

/-! ## The staging memrefs, the accumulator, and the views the results are stated through -/

abbrev ms4_0 (t : Fin cfg4.N) : Memref sig .tc .vmem S2000x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x512 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S512x256 .bf16 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x512 .f32 := win4_7.stage (cfg4.slots t 7)
abbrev hs4_7 (t : Fin cfg4.N) : (ms4_7 t).IsWhole := hstage4_7 ((cfg4.slots t 7).cast nbuf4_7)
/-- The accumulator: a whole scoped buffer of the kernel's own, carried from point to point. -/
abbrev scM4_0 : Memref sig .tc .vmem S1x512 .f32 := Memref.whole cc4_scratch0
abbrev VS4_0 : View sig .tc .vmem S1x512 .f32 := scM4_0.view
/-- One staging buffer of each output window, through which its contents are stated (the choice does not matter). -/
abbrev VO4_6 : View sig .tc .vmem S2000x256 .f32 := (Memref.whole cc4_stg6_0 : Memref sig .tc .vmem S2000x256 .f32).view
abbrev VO4_7 : View sig .tc .vmem S1x512 .f32 := (Memref.whole cc4_stg7_0 : Memref sig .tc .vmem S1x512 .f32).view

/-- The class's invariant with the accumulator opened as a memref owned at some contents; every other scoped buffer
    stays closed. -/
theorem PhiA4_eq (c : Dev nD) :
    (Pipeline.ΦA spec4 c : sProp 𝕄)
      = iprop(iprop((∃ d, owns (c : Thread nD τ) scM4_0 fullShare d)
          ∗ Pipeline.scopedRestBut (Ix := Unit) (Name := ℕ) (U := Pipeline.UD sig nD τ) (Lvl := ℕ) (Val := Elt F) spec4 c [cc4_scratch0])
          ∗ (∃ r, prngReg c r)) := by
  unfold Pipeline.ΦA; rw [scopedRest4_split]; simp only [scM4_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun4_A (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond4_0 i) (hc1 : ¬cond4_1 i)
    (x0 : Vec F S2000x512 .f32) (x1 : Vec F S1x512 .f32) (x2 : Vec F S1x512 .f32) (x3 : Vec F S1x512 .f32) (x4 : Vec F S1x512 .f32) (x5 : Vec F S512x256 .bf16) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc4__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc4__stage2_kernel_eq_skeleton]; unfold cc4__stage2_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun4_B (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond4_0 i) (hc1 : ¬cond4_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc4__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc4__stage2_kernel_eq_skeleton]; unfold cc4__stage2_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun4_C (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond4_0 i) (hc1 : cond4_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc4__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__stage2_kernel_eq_skeleton]; unfold cc4__stage2_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond4_0 i) (hc1 : ¬cond4_1 i)
  (x0 : Vec F S2000x512 .f32) (x1 : Vec F S1x512 .f32) (x2 : Vec F S1x512 .f32) (x3 : Vec F S1x512 .f32) (x4 : Vec F S1x512 .f32) (x5 : Vec F S512x256 .bf16)

/-- At the first point the one store into the product window covers its block. -/
theorem cover4_A_6 (y : S2000x256.Idx) :
    ∃ pc ∈ (kernelRun4_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3 x4 x5).1 S2000x256.size (by sl_kernel_rfl) y

/-- What the first point leaves in the product window: its pieces read back. -/
def out4_A_6 : Vec F S2000x256 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out4_A_7 : Vec F S1x512 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover4_A_0 (y : S1x512.Idx) :
    ∃ pc ∈ (kernelRun4_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3 x4 x5).2.2.1 S1x512.size (by sl_kernel_rfl) y

/-- What the first point leaves in the accumulator. -/
def sout4_A_0 : Vec F S1x512 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond4_0 i) (hc1 : ¬cond4_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At a point between the one store into the product window covers its block. -/
theorem cover4_B_6 (y : S2000x256.Idx) :
    ∃ pc ∈ (kernelRun4_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out4_B_6 : Vec F S2000x256 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out4_B_7 : Vec F S1x512 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover4_B_0 (y : S1x512.Idx) :
    ∃ pc ∈ (kernelRun4_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout4_B_0 : Vec F S1x512 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond4_0 i) (hc1 : cond4_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At the last point the one store into the product window covers its block. -/
theorem cover4_C_6 (y : S2000x256.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out4_C_6 : Vec F S2000x256 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover4_C_7 (y : S1x512.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0).2.1 S1x512.size (by sl_kernel_rfl) y

/-- What the last point leaves in the statistics window. -/
def out4_C_7 : Vec F S1x512 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover4_C_0 (y : S1x512.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout4_C_0 : Vec F S1x512 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The inputs' buffers hold their blocks at every point

An input window is never idle and the body leaves its block in place; so its current buffer holds what a fetch at the
point puts there whether or not one happened: where none did, the block index has not moved (the five row and weight
windows are fetched once, at the first point). -/

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## What the outputs and the accumulator hold after each point -/

/-- The first point is not the last, -/
theorem notLast4_of_first (t : Fin cfg4.N) (h0 : t.val = 0) : ¬cond4_1 (grid4.coords t) :=
  fun h => by have := (hcond4_1 t).mp h; omega

/-- The first point's results at the point's own memrefs and input blocks: the product block, the statistics
    placeholder, the accumulator. -/
def outsPt4_A (c : Dev nD) (t : Fin cfg4.N) (h0 : t.val = 0) : Vec F S2000x256 .f32 × Vec F S1x512 .f32 × Vec F S1x512 .f32 :=
  (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (notLast4_of_first t h0) (iblk4 V c 0 t) (iblk4 V c 1 t) (iblk4 V c 2 t) (iblk4 V c 3 t) (iblk4 V c 4 t) (iblk4 V c 5 t),
   out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (notLast4_of_first t h0) (iblk4 V c 0 t) (iblk4 V c 1 t) (iblk4 V c 2 t) (iblk4 V c 3 t) (iblk4 V c 4 t) (iblk4 V c 5 t),
   sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) ((hcond4_0 t).mpr h0) (notLast4_of_first t h0) (iblk4 V c 0 t) (iblk4 V c 1 t) (iblk4 V c 2 t) (iblk4 V c 3 t) (iblk4 V c 4 t) (iblk4 V c 5 t))

/-- A point between, over the accumulator xs0 the point before left. -/
def outsPt4_B (c : Dev nD) (t : Fin cfg4.N) (h0 : ¬t.val = 0) (h1 : ¬t.val = 24) (xs0 : Vec F S1x512 .f32) : Vec F S2000x256 .f32 × Vec F S1x512 .f32 × Vec F S1x512 .f32 :=
  (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs0,
   out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs0,
   sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs0)

/-- The last point, over the accumulator xs0 the point before left. -/
def outsPt4_C (c : Dev nD) (t : Fin cfg4.N) (h0 : ¬t.val = 0) (h1 : t.val = 24) (xs0 : Vec F S1x512 .f32) : Vec F S2000x256 .f32 × Vec F S1x512 .f32 × Vec F S1x512 .f32 :=
  (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) xs0,
   out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) xs0,
   sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) xs0)

/-- THE ACCUMULATION. What the product window, the statistics window and the accumulator hold after the body at
    position n: the case the position selects, run at the point's memrefs and input blocks, the accumulator it reads
    at what position n - 1 left. -/
def outsAt4 (c : Dev nD) : (n : ℕ) → n < cfg4.N → Vec F S2000x256 .f32 × Vec F S1x512 .f32 × Vec F S1x512 .f32
  | 0, hn => outsPt4_A V c ⟨0, hn⟩ rfl
  | n + 1, hn =>
    if h1 : n + 1 = 24 then
      outsPt4_C V c ⟨n + 1, hn⟩ (Nat.succ_ne_zero n) h1 (outsAt4 c n (Nat.lt_of_succ_lt hn)).2.2
    else
      outsPt4_B V c ⟨n + 1, hn⟩ (Nat.succ_ne_zero n) h1 (outsAt4 c n (Nat.lt_of_succ_lt hn)).2.2

/-- outsAt4 at the first point. -/
theorem outsAt4_A (c : Dev nD) (t : Fin cfg4.N) (h0 : t.val = 0) :
    outsAt4 V c t.val t.isLt = outsPt4_A V c t h0 := by
  obtain ⟨n, hn⟩ := t
  cases n with
  | zero => exact rfl
  | succ n => exact absurd h0 (Nat.succ_ne_zero n)

/-- outsAt4 at a point between: over what the point before left in the accumulator. -/
theorem outsAt4_B (c : Dev nD) (t : Fin cfg4.N) (h0 : ¬t.val = 0) (h1 : ¬t.val = 24) :
    outsAt4 V c t.val t.isLt = outsPt4_B V c t h0 h1 (outsAt4 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt4 at the last point: over what the point before left in the accumulator. -/
theorem outsAt4_C (c : Dev nD) (t : Fin cfg4.N) (h0 : ¬t.val = 0) (h1 : t.val = 24) :
    outsAt4 V c t.val t.isLt = outsPt4_C V c t h0 h1 (outsAt4 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2.2)
      ∗ Pipeline.scopedRestBut (Ix := Unit) (Name := ℕ) (U := Pipeline.UD sig nD τ) (Lvl := ℕ) (Val := Elt F) spec4 c [cc4_scratch0])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2.2)
      ∗ Pipeline.scopedRestBut (Ix := Unit) (Name := ℕ) (U := Pipeline.UD sig nD τ) (Lvl := ℕ) (Val := Elt F) spec4 c [cc4_scratch0])
      ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2.2)
      ∗ Pipeline.scopedRestBut (Ix := Unit) (Name := ℕ) (U := Pipeline.UD sig nD τ) (Lvl := ℕ) (Val := Elt F) spec4 c [cc4_scratch0])
      ∗ (∃ r, prngReg c r)) := by
  cases n with
  | zero => exact absurd rfl hz
  | succ n => rfl

/-! ## The proof data -/

/-- The arrays as the region finds them; after the body at point t each input's buffer at its block, the product
    window's at the first component of outsAt4, the statistics window's at the second; the invariant PhiS4; nothing
    owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point t: the invariant, what the core owes, and each window's current buffer at
    what it then holds, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  by_cases h0 : t.val = 0
  · -- the first point
    have hc0 : cond4_0 (grid4.coords t) := (hcond4_0 t).mpr h0
    have hc1 : ¬cond4_1 (grid4.coords t) := notLast4_of_first t h0
    rw [Dat.leavesExact_idle (dat4 V c) 7 t (idleAt4_7_A t hc0 hc1) (noFlush4_7_A t hc0 hc1)]
    rw [outsAt4_A V c t h0]
    unfold outsPt4_A out4_A_6 sout4_A_0; (try dsimp only)
    rw [PhiS4_castSucc V c t, PhiS4_zero V c _ _ h0, PhiA4_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover4_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _ _)
    iexists _; iexact H7
  · by_cases h1 : t.val = 24
    · -- the last point
      have hc0 : ¬cond4_0 (grid4.coords t) := fun h => h0 ((hcond4_0 t).mp h)
      have hc1 : cond4_1 (grid4.coords t) := (hcond4_1 t).mpr h1
      rw [show (dat4 V c).leavesExact 7 t = owns (c : Thread nD τ) (ms4_7 t) fullShare ((dat4 V c).after 7 t) from by
        unfold Dat.leavesExact; rw [liveAt4_7_C t hc0 hc1], after4_7]
      rw [outsAt4_C V c t h0 h1]
      unfold outsPt4_C out4_C_6 out4_C_7 sout4_C_0; (try dsimp only)
      rw [PhiS4_castSucc V c t, PhiS4_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_C c (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _)
      unfold owns; iexists _; isplitr
      swap; · iexact H7
      ipureintro; exact View.read_writes_of_cover _ _ _ _ _ (cover4_C_7 c _ _ _ _ _ _ _ _ _ _ _ _ _ _ _ _ _ _ _ _ _ _ _ _ _ _ _ _)
    · -- a point between
      have hc0 : ¬cond4_0 (grid4.coords t) := fun h => h0 ((hcond4_0 t).mp h)
      have hc1 : ¬cond4_1 (grid4.coords t) := fun h => h1 ((hcond4_1 t).mp h)
      rw [Dat.leavesExact_idle (dat4 V c) 7 t (idleAt4_7_B t hc0 hc1) (noFlush4_7_B t hc0 hc1)]
      rw [outsAt4_B V c t h0 h1]
      unfold outsPt4_B out4_B_6 sout4_B_0; (try dsimp only)
      rw [PhiS4_castSucc V c t, PhiS4_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _)
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the launch's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 25 := N_4; omega)

end Region

end Cert.KernelIdeal.Hand

end
-- ==== Proof.KI.Reg5.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## What the body leaves in the output block -/

/-- The whole block of rows, as a rectangle of itself. -/
abbrev rB5 : Rect S2000x256 := Rect.unit (s := S2000x256) ![0, 0] S2000x256.size inb_S2000x256_S2000x256_0_0
/-- The whole single row, as a rectangle of itself. -/
abbrev rR5 : Rect S1x256 := Rect.unit (s := S1x256) ![0, 0] S1x256.size inb_S1x256_S1x256_0_0

/-- The output block after the body, from the five input blocks: the body's one store, of the
    payload of the five whole loads, laid over the block.  (The payload takes the row operands in
    the order the body loads them: the fourth, the second, the third, the fifth.) -/
def out5_5 (x0 : Vec F S2000x256 .f32) (x1 x2 x3 x4 : Vec F S1x256 .f32) : Vec F S2000x256 .f32 :=
  View.canon [⟨rB5, k5_pay1 (View.ld x0 rB5) (View.ld x3 rR5) (View.ld x1 rR5) (View.ld x2 rR5) (View.ld x4 rR5)⟩]

/-- One store of the whole block covers it. -/
theorem cover5_5 (p : Vec F S2000x256 .f32) (y : S2000x256.Idx) :
    ∃ pc ∈ ([⟨rB5, p⟩] : List (View.Piece (Elt F) S2000x256 .f32)), y ∈ pc.1.set :=
  View.cover_of_tiled [⟨rB5, p⟩] S2000x256.size (by rfl) y

/-! ## The body's triple -/

set_option maxHeartbeats 1000000 in
/-- The kernel body on whole staging memrefs: holding the five inputs' at contents reading `x0 … x4`
    and the output's at anything, it runs to a state holding the inputs' as they were and the
    output's at `out5_5` of them.  The body is its skeleton of memory operations over the named
    payload; the executor steps through the six loads and the store. -/
theorem sound_kernel5 (c : Dev nD) (E : Set ℕ) (i : grid5.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__stage3_kernel i arg1 harg1 arg2 harg2 arg3 harg3 arg4 harg4 arg5 harg5 arg6 harg6) K := by
  simp only [cc5__stage3_kernel_eq_skeleton]; unfold cc5__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data -/

/-- The proof data of the pipeline on core `c`: the arrays as the region finds them; after the
    body at point `t` each input's buffer at its block and the output's at `out5_5` of the input
    blocks; the class's invariant; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

/-! ## What the body finds in the input windows' buffers

An input window's current staging buffer holds its block at every point, whether the pipeline
fetched it there or not: a window not fetched at a point has the block index of the point before,
and the body left that point's block in place.  (The four row operands are fetched at the first
point only; the first operand at every point.) -/

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0 V c t]; unfold Dat.blockOf iblk5; rw [A_eq5 V c 0]; try rfl) t d).trans
    (by unfold Dat.fetched Dat.blockOf iblk5; rw [A_eq5 V c 0]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1 V c t]; unfold Dat.blockOf iblk5; rw [A_eq5 V c 1]; try rfl) t d).trans
    (by unfold Dat.fetched Dat.blockOf iblk5; rw [A_eq5 V c 1]; try rfl)
theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2 V c t]; unfold Dat.blockOf iblk5; rw [A_eq5 V c 2]; try rfl) t d).trans
    (by unfold Dat.fetched Dat.blockOf iblk5; rw [A_eq5 V c 2]; try rfl)
theorem before5_3 (c : Dev nD) (t : Fin cfg5.N) (d) : (dat5 V c).before 3 t d = iblk5 V c 3 t :=
  ((dat5 V c).before_in_eq_fetched 3 rfl (fun _ => rfl) (fun _ _ _ => rfl)
      (fun t => by rw [after5_3 V c t]; unfold Dat.blockOf iblk5; rw [A_eq5 V c 3]; try rfl) t d).trans
    (by unfold Dat.fetched Dat.blockOf iblk5; rw [A_eq5 V c 3]; try rfl)
theorem before5_4 (c : Dev nD) (t : Fin cfg5.N) (d) : (dat5 V c).before 4 t d = iblk5 V c 4 t :=
  ((dat5 V c).before_in_eq_fetched 4 rfl (fun _ => rfl) (fun _ _ _ => rfl)
      (fun t => by rw [after5_4 V c t]; unfold Dat.blockOf iblk5; rw [A_eq5 V c 4]; try rfl) t d).trans
    (by unfold Dat.fetched Dat.blockOf iblk5; rw [A_eq5 V c 4]; try rfl)

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the
    invariant and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the two ends -/

/-- The proof data's invariant is the class's at every point: the region's entry hands it over as it is, -/
theorem hin5 (c : Dev nD) : Pipeline.ΦA spec5 c ⊢ (dat5 V c).Φ 0 := by
  dsimp only [dat5]; exact .rfl

/-- and takes it back as it is. -/
theorem hout5 (c : Dev nD) : (dat5 V c).Φ (Fin.last cfg5.N) ⊢ Pipeline.ΦA spec5 c := by
  dsimp only [dat5]; exact .rfl

end Cert.KernelIdeal.Hand

end
-- ==== Proof.KI.Reg6.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt6`), the scratch row's component feeding the next point's run. Everything
is stated at an arbitrary float family and at a parameter `V`: the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not (unfetched, the
    block index has not moved), for any proof data whose array is `V`'s and whose body leaves the block in place. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's two branch conditions, over the grid -/

/-- The zeroing branch's condition, from the grid coordinate: the coordinate is 0. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- The copying branch's condition: the coordinate is the last. -/
abbrev cond6_1 (i : grid6.Coords) : Prop := k6_cond2 i = 1#1
/-- It holds at the last point only. -/
theorem hcond6_1 : ∀ t : Fin cfg6.N, cond6_1 (grid6.coords t) ↔ t.val = 24 :=
  (by decide +kernel : ∀ t : Fin grid6.N, cond6_1 (grid6.coords t) ↔ t.val = 24)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Away from the last point the statistics window is idle (the body stores nothing into it) and not written back. -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
/-- At the last point it is live. -/
theorem liveAt6_4 : ∀ t : Fin cfg6.N, cond6_1 (grid6.coords t) → cfg6.idle 4 (grid6.coords t) = false := by decide +kernel

/-! ## The staging memrefs the body is called with, and the scratch row -/

/-- One staging buffer of each output window, through which its contents are stated (the choice does not matter). -/
abbrev VO6_3 : View sig .tc .vmem S2000x512 .f32 := (Memref.whole cc6_stg3_0 : Memref sig .tc .vmem S2000x512 .f32).view
abbrev VO6_4 : View sig .tc .vmem S1x1024 .f32 := (Memref.whole cc6_stg4_0 : Memref sig .tc .vmem S1x1024 .f32).view
/-- Each window's current staging memref at point `t`, spelled as the pipeline passes it, and its wholeness. -/
abbrev ms6_0 (t : Fin cfg6.N) : Memref sig .tc .vmem S2000x256 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S256x512 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2000x512 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x1024 .f32 := win6_4.stage (cfg6.slots t 4)
abbrev hs6_4 (t : Fin cfg6.N) : (ms6_4 t).IsWhole := hstage6_4 ((cfg6.slots t 4).cast nbuf6_4)
/-- The scratch row: a whole scoped buffer of the kernel's own, passed beside the windows. -/
abbrev scM6_0 : Memref sig .tc .vmem S1x1024 .f32 := Memref.whole cc6_scratch0
/-- The same as a view: what the row holds is stated through it. -/
abbrev VS6_0 : View sig .tc .vmem S1x1024 .f32 := scM6_0.view

/-- The other scoped buffers of the core (no staging buffer of this pipeline, not the scratch row), unopened. -/
abbrev restBut6 (c : Dev nD) : sProp 𝕄 :=
  Pipeline.scopedRestBut (Ix := Unit) (Name := ℕ) (U := Pipeline.UD sig nD τ) (Lvl := ℕ) (Val := Elt F) spec6 c [cc6_scratch0]

/-- The region's invariant with the scratch row as a memref owned at some contents. -/
theorem PhiA6_eq (c : Dev nD) :
    (Pipeline.ΦA spec6 c : sProp 𝕄)
      = iprop(iprop((∃ d, owns (c : Thread nD τ) scM6_0 fullShare d) ∗ restBut6 (F := F) c) ∗ (∃ r, prngReg c r)) := by
  unfold Pipeline.ΦA; rw [scopedRest6_split]; simp only [scM6_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun6_A (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i)
    (x0 : Vec F S2000x256 .f32) (x1 : Vec F S2000x256 .f32) (x2 : Vec F S256x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc6__stage1_kernel i arg1 harg1 arg2 harg2 arg3 harg3 arg4 harg4 arg5 harg5 arg6 harg6) K } := by
  refine ⟨?_, ?_, fun xi4 E K => ?run⟩
  case run =>
    simp only [cc6__stage1_kernel_eq_skeleton]; unfold cc6__stage1_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun6_B (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i)
    (x0 : Vec F S2000x256 .f32) (x1 : Vec F S2000x256 .f32) (x2 : Vec F S256x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc6__stage1_kernel i arg1 harg1 arg2 harg2 arg3 harg3 arg4 harg4 arg5 harg5 arg6 harg6) K } := by
  refine ⟨?_, ?_, fun xi4 E K => ?run⟩
  case run =>
    simp only [cc6__stage1_kernel_eq_skeleton]; unfold cc6__stage1_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun6_C (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc6__stage1_kernel i arg1 harg1 arg2 harg2 arg3 harg3 arg4 harg4 arg5 harg5 arg6 harg6) K } := by
  refine ⟨?_, ?_, ?_, fun E K => ?run⟩
  case run =>
    simp only [cc6__stage1_kernel_eq_skeleton]; unfold cc6__stage1_kernel_skel
    simp only [k6_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover6_A_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i)
    (x0 : Vec F S2000x256 .f32) (x1 : Vec F S2000x256 .f32) (x2 : Vec F S256x512 .bf16) (y : S2000x512.Idx) :
    ∃ pc ∈ (kernelRun6_A c i arg1 harg1 arg2 harg2 arg3 harg3 arg4 harg4 arg5 harg5 arg6 harg6 hc0 hc1 x0 x1 x2).1, y ∈ pc.1.set :=
  View.cover_of_tiledL (kernelRun6_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out6_A_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i)
    (x0 : Vec F S2000x256 .f32) (x1 : Vec F S2000x256 .f32) (x2 : Vec F S256x512 .bf16) : Vec F S2000x512 .f32 :=
  VO6_3.read (Elt F) (VO6_3.writes (Elt F) VO6_3.junk (kernelRun6_A c i arg1 harg1 arg2 harg2 arg3 harg3 arg4 harg4 arg5 harg5 arg6 harg6 hc0 hc1 x0 x1 x2).1)

/-- The first point's pieces for the scratch row cover it: the zeroing store is the whole row. -/
theorem scover6_A_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i)
    (x0 : Vec F S2000x256 .f32) (x1 : Vec F S2000x256 .f32) (x2 : Vec F S256x512 .bf16) (y : S1x1024.Idx) :
    ∃ pc ∈ (kernelRun6_A c i arg1 harg1 arg2 harg2 arg3 harg3 arg4 harg4 arg5 harg5 arg6 harg6 hc0 hc1 x0 x1 x2).2.1, y ∈ pc.1.set :=
  View.cover_of_tiledL (kernelRun6_A c i arg1 harg1 arg2 harg2 arg3 harg3 arg4 harg4 arg5 harg5 arg6 harg6 hc0 hc1 x0 x1 x2).2.1 S1x1024.size (by sl_kernel_rfl) y

/-- What the first point leaves in the scratch row. -/
def sout6_A_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i)
    (x0 : Vec F S2000x256 .f32) (x1 : Vec F S2000x256 .f32) (x2 : Vec F S256x512 .bf16) : Vec F S1x1024 .f32 :=
  VS6_0.read (Elt F) (VS6_0.writes (Elt F) VS6_0.junk (kernelRun6_A c i arg1 harg1 arg2 harg2 arg3 harg3 arg4 harg4 arg5 harg5 arg6 harg6 hc0 hc1 x0 x1 x2).2.1)

/-- A middle point's pieces for the output block tile it. -/
theorem cover6_B_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i)
    (x0 : Vec F S2000x256 .f32) (x1 : Vec F S2000x256 .f32) (x2 : Vec F S256x512 .bf16) (xs0 : Vec F S1x1024 .f32) (y : S2000x512.Idx) :
    ∃ pc ∈ (kernelRun6_B c i arg1 harg1 arg2 harg2 arg3 harg3 arg4 harg4 arg5 harg5 arg6 harg6 hc0 hc1 x0 x1 x2 xs0).1, y ∈ pc.1.set :=
  View.cover_of_tiledL (kernelRun6_B c i arg1 harg1 arg2 harg2 arg3 harg3 arg4 harg4 arg5 harg5 arg6 harg6 hc0 hc1 x0 x1 x2 xs0).1 S2000x512.size (by sl_kernel_rfl) y

/-- What a middle point leaves in the output block's staging buffer. -/
def out6_B_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i)
    (x0 : Vec F S2000x256 .f32) (x1 : Vec F S2000x256 .f32) (x2 : Vec F S256x512 .bf16) (xs0 : Vec F S1x1024 .f32) : Vec F S2000x512 .f32 :=
  VO6_3.read (Elt F) (VO6_3.writes (Elt F) VO6_3.junk (kernelRun6_B c i arg1 harg1 arg2 harg2 arg3 harg3 arg4 harg4 arg5 harg5 arg6 harg6 hc0 hc1 x0 x1 x2 xs0).1)

/-- A middle point's pieces for the scratch row tile it: the two half-row stores. -/
theorem scover6_B_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i)
    (x0 : Vec F S2000x256 .f32) (x1 : Vec F S2000x256 .f32) (x2 : Vec F S256x512 .bf16) (xs0 : Vec F S1x1024 .f32) (y : S1x1024.Idx) :
    ∃ pc ∈ (kernelRun6_B c i arg1 harg1 arg2 harg2 arg3 harg3 arg4 harg4 arg5 harg5 arg6 harg6 hc0 hc1 x0 x1 x2 xs0).2.1, y ∈ pc.1.set :=
  View.cover_of_tiledL (kernelRun6_B c i arg1 harg1 arg2 harg2 arg3 harg3 arg4 harg4 arg5 harg5 arg6 harg6 hc0 hc1 x0 x1 x2 xs0).2.1 S1x512.size (by sl_kernel_rfl) y

/-- What a middle point leaves in the scratch row. -/
def sout6_B_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i)
    (x0 : Vec F S2000x256 .f32) (x1 : Vec F S2000x256 .f32) (x2 : Vec F S256x512 .bf16) (xs0 : Vec F S1x1024 .f32) : Vec F S1x1024 .f32 :=
  VS6_0.read (Elt F) (VS6_0.writes (Elt F) VS6_0.junk (kernelRun6_B c i arg1 harg1 arg2 harg2 arg3 harg3 arg4 harg4 arg5 harg5 arg6 harg6 hc0 hc1 x0 x1 x2 xs0).2.1)

/-- The last point's pieces for the output block tile it. -/
theorem cover6_C_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) (y : S2000x512.Idx) :
    ∃ pc ∈ (kernelRun6_C c i arg1 harg1 arg2 harg2 arg3 harg3 arg4 harg4 arg5 harg5 arg6 harg6 hc0 hc1 x0 x1 x2 xs0).1, y ∈ pc.1.set :=
  View.cover_of_tiledL (kernelRun6_C c i arg1 harg1 arg2 harg2 arg3 harg3 arg4 harg4 arg5 harg5 arg6 harg6 hc0 hc1 x0 x1 x2 xs0).1 S2000x512.size (by sl_kernel_rfl) y

/-- What the last point leaves in the output block's staging buffer. -/
def out6_C_3 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) : Vec F S2000x512 .f32 :=
  VO6_3.read (Elt F) (VO6_3.writes (Elt F) VO6_3.junk (kernelRun6_C c i arg1 harg1 arg2 harg2 arg3 harg3 arg4 harg4 arg5 harg5 arg6 harg6 hc0 hc1 x0 x1 x2 xs0).1)

/-- The last point's pieces for the statistics block tile it: the copy of the whole scratch row. -/
theorem cover6_C_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) (y : S1x1024.Idx) :
    ∃ pc ∈ (kernelRun6_C c i arg1 harg1 arg2 harg2 arg3 harg3 arg4 harg4 arg5 harg5 arg6 harg6 hc0 hc1 x0 x1 x2 xs0).2.1, y ∈ pc.1.set :=
  View.cover_of_tiledL (kernelRun6_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out6_C_4 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) : Vec F S1x1024 .f32 :=
  VO6_4.read (Elt F) (VO6_4.writes (Elt F) VO6_4.junk (kernelRun6_C c i arg1 harg1 arg2 harg2 arg3 harg3 arg4 harg4 arg5 harg5 arg6 harg6 hc0 hc1 x0 x1 x2 xs0).2.1)

/-- The last point's pieces for the scratch row tile it: the two half-row stores. -/
theorem scover6_C_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) (y : S1x1024.Idx) :
    ∃ pc ∈ (kernelRun6_C c i arg1 harg1 arg2 harg2 arg3 harg3 arg4 harg4 arg5 harg5 arg6 harg6 hc0 hc1 x0 x1 x2 xs0).2.2.1, y ∈ pc.1.set :=
  View.cover_of_tiledL (kernelRun6_C c i arg1 harg1 arg2 harg2 arg3 harg3 arg4 harg4 arg5 harg5 arg6 harg6 hc0 hc1 x0 x1 x2 xs0).2.2.1 S1x512.size (by sl_kernel_rfl) y

/-- What the last point leaves in the scratch row. -/
def sout6_C_0 (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i)
    (x0 : Vec F S2000x256 .f32) (x1 : Vec F S2000x256 .f32) (x2 : Vec F S256x512 .bf16) (xs0 : Vec F S1x1024 .f32) : Vec F S1x1024 .f32 :=
  VS6_0.read (Elt F) (VS6_0.writes (Elt F) VS6_0.junk (kernelRun6_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut6_4 : Vec F S1x1024 .f32 := VO6_4.read (Elt F) VO6_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt6 (c : Dev nD) : (n : ℕ) → n < cfg6.N → Vec F S2000x512 .f32 × Vec F S1x1024 .f32 × Vec F S1x1024 .f32
  | 0, hn => (out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6_0 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩), idleOut6_4, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6_0 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩))
  | n + 1, hn =>
    if h1 : n + 1 = 24 then
      (out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2, out6_C_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => absurd ((hcond6_0 ⟨n + 1, hn⟩).mp h) (Nat.succ_ne_zero n)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2)
    else
      (out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => absurd ((hcond6_0 ⟨n + 1, hn⟩).mp h) (Nat.succ_ne_zero n)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2, idleOut6_4, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => absurd ((hcond6_0 ⟨n + 1, hn⟩).mp h) (Nat.succ_ne_zero n)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2)

/-- `outsAt6` at the first point. -/
theorem outsAt6_A (c : Dev nD) (t : Fin cfg6.N) (h0 : t.val = 0) (h1 : ¬t.val = 24) :
    outsAt6 V c t.val t.isLt = (out6_A_3 c (grid6.coords t) (ms6_0 t) (hs6_0 t) (ms6_1 t) (hs6_1 t) (ms6_2 t) (hs6_2 t) (ms6_3 t) (hs6_3 t) (ms6_4 t) (hs6_4 t) scM6_0 (Memref.isWhole_whole _) ((hcond6_0 t).mpr h0) (fun h => h1 ((hcond6_1 t).mp h)) (iblk6 V c 0 t) (iblk6 V c 1 t) (iblk6 V c 2 t), idleOut6_4, sout6_A_0 c (grid6.coords t) (ms6_0 t) (hs6_0 t) (ms6_1 t) (hs6_1 t) (ms6_2 t) (hs6_2 t) (ms6_3 t) (hs6_3 t) (ms6_4 t) (hs6_4 t) scM6_0 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => exact rfl
  | succ n => exact absurd h0 (Nat.succ_ne_zero n)

/-- `outsAt6` at a middle point: that case's contents, over the scratch row the point before left. -/
theorem outsAt6_B (c : Dev nD) (t : Fin cfg6.N) (h0 : ¬t.val = 0) (h1 : ¬t.val = 24) :
    outsAt6 V c t.val t.isLt = (out6_B_3 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2, idleOut6_4, sout6_B_0 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt6` at the last point. -/
theorem outsAt6_C (c : Dev nD) (t : Fin cfg6.N) (h0 : ¬t.val = 0) (h1 : t.val = 24) :
    outsAt6 V c t.val t.isLt = (out6_C_3 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2, out6_C_4 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2.2) ∗ restBut6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2.2) ∗ restBut6 (F := F) c) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2.2) ∗ restBut6 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt6`'s components; the invariant `PhiS6`; nothing owed; full
    shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant at a point's start, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 25 := lt_of_lt_of_eq t.isLt (show cfg6.N = 25 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  by_cases h0 : t.val = 0
  · have h1 : ¬t.val = 24 := by omega
    rw [Dat.leavesExact_idle (dat6 V c) 4 t (idleAt6_4 t (fun h => h1 ((hcond6_1 t).mp h))) (noFlush6_4 t (fun h => h1 ((hcond6_1 t).mp h)))]
    rw [outsAt6_A V c t h0 h1]
    unfold out6_A_3 sout6_A_0; (try dsimp only)
    rw [PhiS6_castSucc V c t, PhiS6_zero V c _ _ h0, PhiA6_eq]
    iintro ⟨⟨⟨HS0, HR⟩, Hg⟩, Ho, ⟨%d0, H0⟩, ⟨%d1, H1⟩, ⟨%d2, H2⟩, ⟨%d3, H3⟩, ⟨%d4, H4⟩⟩
    iapply ((kernelRun6_A c (grid6.coords t) _ _ _ _ _ _ _ _ _ _ _ _ ((hcond6_0 t).mpr h0) (fun h => h1 ((hcond6_1 t).mp h)) (iblk6 V c 0 t) (iblk6 V c 1 t) (iblk6 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover6_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_A_3 c _ _ _ _ _ _ _ _ _ _ _ _ _ _ _ _ _ _)
    iexists _; iexact H4
  · by_cases h1 : t.val = 24
    · rw [show (dat6 V c).leavesExact 4 t = owns (c : Thread nD τ) (ms6_4 t) fullShare ((dat6 V c).after 4 t) from by
        unfold Dat.leavesExact; rw [liveAt6_4 t ((hcond6_1 t).mpr h1)], after6_4]
      rw [outsAt6_C V c t h0 h1]
      unfold out6_C_3 out6_C_4 sout6_C_0; (try dsimp only)
      rw [PhiS6_castSucc V c t, PhiS6_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun6_C c (grid6.coords t) _ _ _ _ _ _ _ _ _ _ _ _ (fun h => h0 ((hcond6_0 t).mp h)) ((hcond6_1 t).mpr h1) (iblk6 V c 0 t) (iblk6 V c 1 t) (iblk6 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_C_3 c _ _ _ _ _ _ _ _ _ _ _ _ _ _ _ _ _ _ _)
      unfold owns; iexists _; isplitr
      swap; · iexact H4
      ipureintro; exact View.read_writes_of_cover _ _ _ _ _ (cover6_C_4 c _ _ _ _ _ _ _ _ _ _ _ _ _ _ _ _ _ _ _)
    · rw [Dat.leavesExact_idle (dat6 V c) 4 t (idleAt6_4 t (fun h => h1 ((hcond6_1 t).mp h))) (noFlush6_4 t (fun h => h1 ((hcond6_1 t).mp h)))]
      rw [outsAt6_B V c t h0 h1]
      unfold out6_B_3 sout6_B_0; (try dsimp only)
      rw [PhiS6_castSucc V c t, PhiS6_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun6_B c (grid6.coords t) _ _ _ _ _ _ _ _ _ _ _ _ (fun h => h0 ((hcond6_0 t).mp h)) (fun h => h1 ((hcond6_1 t).mp h)) (iblk6 V c 0 t) (iblk6 V c 1 t) (iblk6 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_B_3 c _ _ _ _ _ _ _ _ _ _ _ _ _ _ _ _ _ _ _)
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the launch's back: the scratch row's contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

/-- The same after the last point. -/
theorem hout6 (c : Dev nD) : (dat6 V c).Φ (Fin.last cfg6.N) ⊢ Pipeline.ΦA spec6 c :=
  Phi_out6 V c _ (by rw [Fin.val_last]; have : cfg6.N = 25 := N_6; omega)

end Cert.KernelIdeal.Hand

end
-- ==== Proof.KI.Reg7.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond7_0 (i : grid7.Coords) : Prop :=
  (Scalar.cmpi .ne (Scalar.extui (Scalar.cmpi .eq (BitVec.ofNat 32 (i 0).val) 0#32)) 0#32) = 1#1
/-- It holds at point 0 only. -/
theorem hcond7_0 : ∀ t : Fin cfg7.N, cond7_0 (grid7.coords t) ↔ t.val = 0 :=
  (by decide +kernel : ∀ t : Fin grid7.N, cond7_0 (grid7.coords t) ↔ t.val = 0)

/-- The body's second condition: the point is the grid's last. -/
abbrev cond7_1 (i : grid7.Coords) : Prop := k7_cond2 i = 1#1
/-- It holds at point 24 only. -/
theorem hcond7_1 : ∀ t : Fin cfg7.N, cond7_1 (grid7.coords t) ↔ t.val = 24 :=
  (by decide +kernel : ∀ t : Fin grid7.N, cond7_1 (grid7.coords t) ↔ t.val = 24)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
theorem liveAt7_5 : ∀ t : Fin cfg7.N, cfg7.idle 5 (grid7.coords t) = false := by decide +kernel
theorem liveAt7_6 : ∀ t : Fin cfg7.N, cfg7.idle 6 (grid7.coords t) = false := by decide +kernel
/-- At the first point the statistics window is idle, and its block is not written back there. -/
theorem idleAt7_7_A : ∀ t : Fin cfg7.N, cond7_0 (grid7.coords t) → ¬cond7_1 (grid7.coords t) → cfg7.idle 7 (grid7.coords t) = true := by decide +kernel
theorem noFlush7_7_A : ∀ t : Fin cfg7.N, cond7_0 (grid7.coords t) → ¬cond7_1 (grid7.coords t) → (cfg7.win 7).flush t = false := by decide +kernel
/-- At the points between, the same. -/
theorem idleAt7_7_B : ∀ t : Fin cfg7.N, ¬cond7_0 (grid7.coords t) → ¬cond7_1 (grid7.coords t) → cfg7.idle 7 (grid7.coords t) = true := by decide +kernel
theorem noFlush7_7_B : ∀ t : Fin cfg7.N, ¬cond7_0 (grid7.coords t) → ¬cond7_1 (grid7.coords t) → (cfg7.win 7).flush t = false := by decide +kernel
/-- At the last point the statistics window is live. -/
theorem liveAt7_7_C : ∀ t : Fin cfg7.N, ¬cond7_0 (grid7.coords t) → cond7_1 (grid7.coords t) → cfg7.idle 7 (grid7.coords t) = false := by decide +kernel

/-! ## The staging memrefs, the accumulator, and the views the results are stated through -/

abbrev ms7_0 (t : Fin cfg7.N) : Memref sig .tc .vmem S2000x512 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x512 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x512 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x512 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x512 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S512x128 .bf16 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S2000x128 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S1x256 .f32 := win7_7.stage (cfg7.slots t 7)
abbrev hs7_7 (t : Fin cfg7.N) : (ms7_7 t).IsWhole := hstage7_7 ((cfg7.slots t 7).cast nbuf7_7)
/-- The accumulator: a whole scoped buffer of the kernel's own, carried from point to point. -/
abbrev scM7_0 : Memref sig .tc .vmem S1x256 .f32 := Memref.whole cc7_scratch0
abbrev VS7_0 : View sig .tc .vmem S1x256 .f32 := scM7_0.view
/-- One staging buffer of each output window, through which its contents are stated (the choice does not matter). -/
abbrev VO7_6 : View sig .tc .vmem S2000x128 .f32 := (Memref.whole cc7_stg6_0 : Memref sig .tc .vmem S2000x128 .f32).view
abbrev VO7_7 : View sig .tc .vmem S1x256 .f32 := (Memref.whole cc7_stg7_0 : Memref sig .tc .vmem S1x256 .f32).view

/-- The class's invariant with the accumulator opened as a memref owned at some contents; every other scoped buffer
    stays closed. -/
theorem PhiA7_eq (c : Dev nD) :
    (Pipeline.ΦA spec7 c : sProp 𝕄)
      = iprop(iprop((∃ d, owns (c : Thread nD τ) scM7_0 fullShare d)
          ∗ Pipeline.scopedRestBut (Ix := Unit) (Name := ℕ) (U := Pipeline.UD sig nD τ) (Lvl := ℕ) (Val := Elt F) spec7 c [cc7_scratch0])
          ∗ (∃ r, prngReg c r)) := by
  unfold Pipeline.ΦA; rw [scopedRest7_split]; simp only [scM7_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun7_A (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : cond7_0 i) (hc1 : ¬cond7_1 i)
    (x0 : Vec F S2000x512 .f32) (x1 : Vec F S1x512 .f32) (x2 : Vec F S1x512 .f32) (x3 : Vec F S1x512 .f32) (x4 : Vec F S1x512 .f32) (x5 : Vec F S512x128 .bf16) :
    Σ' (L6 : List (View.Piece (Elt F) S2000x128 .f32)) (L7 : List (View.Piece (Elt F) S1x256 .f32)), { LS0 : List (View.Piece (Elt F) S1x256 .f32) //
      ∀ (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc7__stage2_kernel_eq_skeleton]; unfold cc7__stage2_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun7_B (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : ¬cond7_1 i)
    (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32) :
    Σ' (L6 : List (View.Piece (Elt F) S2000x128 .f32)) (L7 : List (View.Piece (Elt F) S1x256 .f32)), { LS0 : List (View.Piece (Elt F) S1x256 .f32) //
      ∀ (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc7__stage2_kernel_eq_skeleton]; unfold cc7__stage2_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun7_C (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : cond7_1 i)
    (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32) :
    Σ' (L6 : List (View.Piece (Elt F) S2000x128 .f32)) (L7 : List (View.Piece (Elt F) S1x256 .f32)), { LS0 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc7__stage2_kernel_eq_skeleton]; unfold cc7__stage2_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : cond7_0 i) (hc1 : ¬cond7_1 i)
  (x0 : Vec F S2000x512 .f32) (x1 : Vec F S1x512 .f32) (x2 : Vec F S1x512 .f32) (x3 : Vec F S1x512 .f32) (x4 : Vec F S1x512 .f32) (x5 : Vec F S512x128 .bf16)

/-- At the first point the one store into the product window covers its block. -/
theorem cover7_A_6 (y : S2000x128.Idx) :
    ∃ pc ∈ (kernelRun7_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3 x4 x5).1 S2000x128.size (by sl_kernel_rfl) y

/-- What the first point leaves in the product window: its pieces read back. -/
def out7_A_6 : Vec F S2000x128 .f32 :=
  VO7_6.read (Elt F) (VO7_6.writes (Elt F) VO7_6.junk (kernelRun7_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out7_A_7 : Vec F S1x256 .f32 :=
  VO7_7.read (Elt F) (VO7_7.writes (Elt F) VO7_7.junk (kernelRun7_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover7_A_0 (y : S1x256.Idx) :
    ∃ pc ∈ (kernelRun7_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3 x4 x5).2.2.1 S1x256.size (by sl_kernel_rfl) y

/-- What the first point leaves in the accumulator. -/
def sout7_A_0 : Vec F S1x256 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : ¬cond7_1 i)
  (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32)

/-- At a point between the one store into the product window covers its block. -/
theorem cover7_B_6 (y : S2000x128.Idx) :
    ∃ pc ∈ (kernelRun7_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

def out7_B_6 : Vec F S2000x128 .f32 :=
  VO7_6.read (Elt F) (VO7_6.writes (Elt F) VO7_6.junk (kernelRun7_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out7_B_7 : Vec F S1x256 .f32 :=
  VO7_7.read (Elt F) (VO7_7.writes (Elt F) VO7_7.junk (kernelRun7_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover7_B_0 (y : S1x256.Idx) :
    ∃ pc ∈ (kernelRun7_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

def sout7_B_0 : Vec F S1x256 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : cond7_1 i)
  (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32)

/-- At the last point the one store into the product window covers its block. -/
theorem cover7_C_6 (y : S2000x128.Idx) :
    ∃ pc ∈ (kernelRun7_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

def out7_C_6 : Vec F S2000x128 .f32 :=
  VO7_6.read (Elt F) (VO7_6.writes (Elt F) VO7_6.junk (kernelRun7_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover7_C_7 (y : S1x256.Idx) :
    ∃ pc ∈ (kernelRun7_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 x4 x5 xs0).2.1 S1x256.size (by sl_kernel_rfl) y

/-- What the last point leaves in the statistics window. -/
def out7_C_7 : Vec F S1x256 .f32 :=
  VO7_7.read (Elt F) (VO7_7.writes (Elt F) VO7_7.junk (kernelRun7_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover7_C_0 (y : S1x256.Idx) :
    ∃ pc ∈ (kernelRun7_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

def sout7_C_0 : Vec F S1x256 .f32 :=
  VS7_0.read (Elt F) (VS7_0.writes (Elt F) VS7_0.junk (kernelRun7_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The inputs' buffers hold their blocks at every point

An input window is never idle and the body leaves its block in place; so its current buffer holds what a fetch at the
point puts there whether or not one happened: where none did, the block index has not moved (the five row and weight
windows are fetched once, at the first point). -/

theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (Pipeline.UD sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (Pipeline.UD sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## What the outputs and the accumulator hold after each point -/

/-- The first point is not the last, -/
theorem notLast7_of_first (t : Fin cfg7.N) (h0 : t.val = 0) : ¬cond7_1 (grid7.coords t) :=
  fun h => by have := (hcond7_1 t).mp h; omega

/-- The first point's results at the point's own memrefs and input blocks: the product block, the statistics
    placeholder, the accumulator. -/
def outsPt7_A (c : Dev nD) (t : Fin cfg7.N) (h0 : t.val = 0) : Vec F S2000x128 .f32 × Vec F S1x256 .f32 × Vec F S1x256 .f32 :=
  (out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (notLast7_of_first t h0) (iblk7 V c 0 t) (iblk7 V c 1 t) (iblk7 V c 2 t) (iblk7 V c 3 t) (iblk7 V c 4 t) (iblk7 V c 5 t),
   out7_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (notLast7_of_first t h0) (iblk7 V c 0 t) (iblk7 V c 1 t) (iblk7 V c 2 t) (iblk7 V c 3 t) (iblk7 V c 4 t) (iblk7 V c 5 t),
   sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) ((hcond7_0 t).mpr h0) (notLast7_of_first t h0) (iblk7 V c 0 t) (iblk7 V c 1 t) (iblk7 V c 2 t) (iblk7 V c 3 t) (iblk7 V c 4 t) (iblk7 V c 5 t))

/-- A point between, over the accumulator xs0 the point before left. -/
def outsPt7_B (c : Dev nD) (t : Fin cfg7.N) (h0 : ¬t.val = 0) (h1 : ¬t.val = 24) (xs0 : Vec F S1x256 .f32) : Vec F S2000x128 .f32 × Vec F S1x256 .f32 × Vec F S1x256 .f32 :=
  (out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) xs0,
   out7_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) xs0,
   sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) xs0)

/-- The last point, over the accumulator xs0 the point before left. -/
def outsPt7_C (c : Dev nD) (t : Fin cfg7.N) (h0 : ¬t.val = 0) (h1 : t.val = 24) (xs0 : Vec F S1x256 .f32) : Vec F S2000x128 .f32 × Vec F S1x256 .f32 × Vec F S1x256 .f32 :=
  (out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (iblk7 V c 5 t) xs0,
   out7_C_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (iblk7 V c 5 t) xs0,
   sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (iblk7 V c 5 t) xs0)

/-- THE ACCUMULATION. What the product window, the statistics window and the accumulator hold after the body at
    position n: the case the position selects, run at the point's memrefs and input blocks, the accumulator it reads
    at what position n - 1 left. -/
def outsAt7 (c : Dev nD) : (n : ℕ) → n < cfg7.N → Vec F S2000x128 .f32 × Vec F S1x256 .f32 × Vec F S1x256 .f32
  | 0, hn => outsPt7_A V c ⟨0, hn⟩ rfl
  | n + 1, hn =>
    if h1 : n + 1 = 24 then
      outsPt7_C V c ⟨n + 1, hn⟩ (Nat.succ_ne_zero n) h1 (outsAt7 c n (Nat.lt_of_succ_lt hn)).2.2
    else
      outsPt7_B V c ⟨n + 1, hn⟩ (Nat.succ_ne_zero n) h1 (outsAt7 c n (Nat.lt_of_succ_lt hn)).2.2

/-- outsAt7 at the first point. -/
theorem outsAt7_A (c : Dev nD) (t : Fin cfg7.N) (h0 : t.val = 0) :
    outsAt7 V c t.val t.isLt = outsPt7_A V c t h0 := by
  obtain ⟨n, hn⟩ := t
  cases n with
  | zero => exact rfl
  | succ n => exact absurd h0 (Nat.succ_ne_zero n)

/-- outsAt7 at a point between: over what the point before left in the accumulator. -/
theorem outsAt7_B (c : Dev nD) (t : Fin cfg7.N) (h0 : ¬t.val = 0) (h1 : ¬t.val = 24) :
    outsAt7 V c t.val t.isLt = outsPt7_B V c t h0 h1 (outsAt7 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt7 at the last point: over what the point before left in the accumulator. -/
theorem outsAt7_C (c : Dev nD) (t : Fin cfg7.N) (h0 : ¬t.val = 0) (h1 : t.val = 24) :
    outsAt7 V c t.val t.isLt = outsPt7_C V c t h0 h1 (outsAt7 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2.2)
      ∗ Pipeline.scopedRestBut (Ix := Unit) (Name := ℕ) (U := Pipeline.UD sig nD τ) (Lvl := ℕ) (Val := Elt F) spec7 c [cc7_scratch0])
      ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2.2)
      ∗ Pipeline.scopedRestBut (Ix := Unit) (Name := ℕ) (U := Pipeline.UD sig nD τ) (Lvl := ℕ) (Val := Elt F) spec7 c [cc7_scratch0])
      ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2.2)
      ∗ Pipeline.scopedRestBut (Ix := Unit) (Name := ℕ) (U := Pipeline.UD sig nD τ) (Lvl := ℕ) (Val := Elt F) spec7 c [cc7_scratch0])
      ∗ (∃ r, prngReg c r)) := by
  cases n with
  | zero => exact absurd rfl hz
  | succ n => rfl

/-! ## The proof data -/

/-- The arrays as the region finds them; after the body at point t each input's buffer at its block, the product
    window's at the first component of outsAt7, the statistics window's at the second; the invariant PhiS7; nothing
    owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => (outsAt7 V c t.val t.isLt).1
    | ⟨7, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = (outsAt7 V c t.val t.isLt).1 := by dsimp only [dat7]
theorem after7_7 (c : Dev nD) (t : Fin cfg7.N) : (dat7 V c).after 7 t = (outsAt7 V c t.val t.isLt).2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point t: the invariant, what the core owes, and each window's current buffer at
    what it then holds, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).owesAt () t.succ = (dat7 V c).owesAt () t.castSucc from rfl]
  rw [show (dat7 V c).Φ t.succ = PhiS7 V c (t.val + 1) t.isLt from rfl, PhiS7_succ]
  have hN : t.val < 25 := lt_of_lt_of_eq t.isLt (show cfg7.N = 25 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [show (dat7 V c).leavesExact 5 t = owns (c : Thread nD τ) (ms7_5 t) fullShare ((dat7 V c).after 5 t) from by
    unfold Dat.leavesExact; rw [liveAt7_5 t], after7_5]
  rw [show (dat7 V c).leavesExact 6 t = owns (c : Thread nD τ) (ms7_6 t) fullShare ((dat7 V c).after 6 t) from by
    unfold Dat.leavesExact; rw [liveAt7_6 t], after7_6]
  by_cases h0 : t.val = 0
  · -- the first point
    have hc0 : cond7_0 (grid7.coords t) := (hcond7_0 t).mpr h0
    have hc1 : ¬cond7_1 (grid7.coords t) := notLast7_of_first t h0
    rw [Dat.leavesExact_idle (dat7 V c) 7 t (idleAt7_7_A t hc0 hc1) (noFlush7_7_A t hc0 hc1)]
    rw [outsAt7_A V c t h0]
    unfold outsPt7_A out7_A_6 sout7_A_0; (try dsimp only)
    rw [PhiS7_castSucc V c t, PhiS7_zero V c _ _ h0, PhiA7_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_A c (grid7.coords t) _ _ _ _ _ _ _ _ _ _ _ _ _ _ _ _ _ _ hc0 hc1 (iblk7 V c 0 t) (iblk7 V c 1 t) (iblk7 V c 2 t) (iblk7 V c 3 t) (iblk7 V c 4 t) (iblk7 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover7_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover7_A_6 c _ _ _ _ _ _ _ _ _ _ _ _ _ _ _ _ _ _ _ _ _ _ _ _ _ _ _)
    iexists _; iexact H7
  · by_cases h1 : t.val = 24
    · -- the last point
      have hc0 : ¬cond7_0 (grid7.coords t) := fun h => h0 ((hcond7_0 t).mp h)
      have hc1 : cond7_1 (grid7.coords t) := (hcond7_1 t).mpr h1
      rw [show (dat7 V c).leavesExact 7 t = owns (c : Thread nD τ) (ms7_7 t) fullShare ((dat7 V c).after 7 t) from by
        unfold Dat.leavesExact; rw [liveAt7_7_C t hc0 hc1], after7_7]
      rw [outsAt7_C V c t h0 h1]
      unfold outsPt7_C out7_C_6 out7_C_7 sout7_C_0; (try dsimp only)
      rw [PhiS7_castSucc V c t, PhiS7_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun7_C c (grid7.coords t) _ _ _ _ _ _ _ _ _ _ _ _ _ _ _ _ _ _ hc0 hc1 (iblk7 V c 0 t) (iblk7 V c 1 t) (iblk7 V c 2 t) (iblk7 V c 3 t) (iblk7 V c 4 t) (iblk7 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover7_C_6 c _ _ _ _ _ _ _ _ _ _ _ _ _ _ _ _ _ _ _ _ _ _ _ _ _ _ _ _)
      unfold owns; iexists _; isplitr
      swap; · iexact H7
      ipureintro; exact View.read_writes_of_cover _ _ _ _ _ (cover7_C_7 c _ _ _ _ _ _ _ _ _ _ _ _ _ _ _ _ _ _ _ _ _ _ _ _ _ _ _ _)
    · -- a point between
      have hc0 : ¬cond7_0 (grid7.coords t) := fun h => h0 ((hcond7_0 t).mp h)
      have hc1 : ¬cond7_1 (grid7.coords t) := fun h => h1 ((hcond7_1 t).mp h)
      rw [Dat.leavesExact_idle (dat7 V c) 7 t (idleAt7_7_B t hc0 hc1) (noFlush7_7_B t hc0 hc1)]
      rw [outsAt7_B V c t h0 h1]
      unfold outsPt7_B out7_B_6 sout7_B_0; (try dsimp only)
      rw [PhiS7_castSucc V c t, PhiS7_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun7_B c (grid7.coords t) _ _ _ _ _ _ _ _ _ _ _ _ _ _ _ _ _ _ hc0 hc1 (iblk7 V c 0 t) (iblk7 V c 1 t) (iblk7 V c 2 t) (iblk7 V c 3 t) (iblk7 V c 4 t) (iblk7 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover7_B_6 c _ _ _ _ _ _ _ _ _ _ _ _ _ _ _ _ _ _ _ _ _ _ _ _ _ _ _ _)
      iexists _; iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point the invariant gives the launch's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 25 := N_7; omega)

end Region

end Cert.KernelIdeal.Hand

end
-- ==== Proof.KI.Reg8.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## What the body leaves in the output block -/

/-- The whole block of rows, as a rectangle of itself. -/
abbrev rB8 : Rect S2000x128 := Rect.unit (s := S2000x128) ![0, 0] S2000x128.size inb_S2000x128_S2000x128_0_0
/-- The whole single row, as a rectangle of itself. -/
abbrev rR8 : Rect S1x128 := Rect.unit (s := S1x128) ![0, 0] S1x128.size inb_S1x128_S1x128_0_0

/-- The output block after the body, from the five input blocks: the body's one store, of the
    payload of the five whole loads, laid over the block.  (The payload takes the row operands in
    the order the body loads them: the fourth, the second, the third, the fifth.) -/
def out8_5 (x0 : Vec F S2000x128 .f32) (x1 x2 x3 x4 : Vec F S1x128 .f32) : Vec F S2000x128 .f32 :=
  View.canon [⟨rB8, k8_pay1 (View.ld x0 rB8) (View.ld x3 rR8) (View.ld x1 rR8) (View.ld x2 rR8) (View.ld x4 rR8)⟩]

/-- One store of the whole block covers it. -/
theorem cover8_5 (p : Vec F S2000x128 .f32) (y : S2000x128.Idx) :
    ∃ pc ∈ ([⟨rB8, p⟩] : List (View.Piece (Elt F) S2000x128 .f32)), y ∈ pc.1.set :=
  View.cover_of_tiled [⟨rB8, p⟩] S2000x128.size (by rfl) y

/-! ## The body's triple -/

set_option maxHeartbeats 1000000 in
/-- The kernel body on whole staging memrefs: holding the five inputs' at contents reading `x0 … x4`
    and the output's at anything, it runs to a state holding the inputs' as they were and the
    output's at `out8_5` of them.  The body is its skeleton of memory operations over the named
    payload; the executor steps through the six loads and the store. -/
theorem sound_kernel8 (c : Dev nD) (E : Set ℕ) (i : grid8.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__stage3_kernel i arg1 harg1 arg2 harg2 arg3 harg3 arg4 harg4 arg5 harg5 arg6 harg6) K := by
  simp only [cc8__stage3_kernel_eq_skeleton]; unfold cc8__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The proof data -/

/-- The proof data of the pipeline on core `c`: the arrays as the region finds them; after the
    body at point `t` each input's buffer at its block and the output's at `out8_5` of the input
    blocks; the class's invariant; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t
    = out8_5 (iblk8 V c 0 t) (iblk8 V c 1 t) (iblk8 V c 2 t) (iblk8 V c 3 t) (iblk8 V c 4 t) := by dsimp only [dat8]

/-! ## What the body finds in the input windows' buffers

An input window's current staging buffer holds its block at every point, whether the pipeline
fetched it there or not: a window not fetched at a point has the block index of the point before,
and the body left that point's block in place.  (The four row operands are fetched at the first
point only; the first operand at every point.) -/

theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0 V c t]; unfold Dat.blockOf iblk8; rw [A_eq8 V c 0]; try rfl) t d).trans
    (by unfold Dat.fetched Dat.blockOf iblk8; rw [A_eq8 V c 0]; try rfl)
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1 V c t]; unfold Dat.blockOf iblk8; rw [A_eq8 V c 1]; try rfl) t d).trans
    (by unfold Dat.fetched Dat.blockOf iblk8; rw [A_eq8 V c 1]; try rfl)
theorem before8_2 (c : Dev nD) (t : Fin cfg8.N) (d) : (dat8 V c).before 2 t d = iblk8 V c 2 t :=
  ((dat8 V c).before_in_eq_fetched 2 rfl (fun _ => rfl) (fun _ _ _ => rfl)
      (fun t => by rw [after8_2 V c t]; unfold Dat.blockOf iblk8; rw [A_eq8 V c 2]; try rfl) t d).trans
    (by unfold Dat.fetched Dat.blockOf iblk8; rw [A_eq8 V c 2]; try rfl)
theorem before8_3 (c : Dev nD) (t : Fin cfg8.N) (d) : (dat8 V c).before 3 t d = iblk8 V c 3 t :=
  ((dat8 V c).before_in_eq_fetched 3 rfl (fun _ => rfl) (fun _ _ _ => rfl)
      (fun t => by rw [after8_3 V c t]; unfold Dat.blockOf iblk8; rw [A_eq8 V c 3]; try rfl) t d).trans
    (by unfold Dat.fetched Dat.blockOf iblk8; rw [A_eq8 V c 3]; try rfl)
theorem before8_4 (c : Dev nD) (t : Fin cfg8.N) (d) : (dat8 V c).before 4 t d = iblk8 V c 4 t :=
  ((dat8 V c).before_in_eq_fetched 4 rfl (fun _ => rfl) (fun _ _ _ => rfl)
      (fun t => by rw [after8_4 V c t]; unfold Dat.blockOf iblk8; rw [A_eq8 V c 4]; try rfl) t d).trans
    (by unfold Dat.fetched Dat.blockOf iblk8; rw [A_eq8 V c 4]; try rfl)

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the body's triple applies; the
    invariant and what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the two ends -/

/-- The proof data's invariant is the class's at every point: the region's entry hands it over as it is, -/
theorem hin8 (c : Dev nD) : Pipeline.ΦA spec8 c ⊢ (dat8 V c).Φ 0 := by
  dsimp only [dat8]; exact .rfl

/-- and takes it back as it is. -/
theorem hout8 (c : Dev nD) : (dat8 V c).Φ (Fin.last cfg8.N) ⊢ Pipeline.ΦA spec8 c := by
  dsimp only [dat8]; exact .rfl

end Cert.KernelIdeal.Hand

end
-- ==== Proof.KI.Reg9.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt9`), the scratch row's component feeding the next point's run. Everything
is stated at an arbitrary float family and at a parameter `V`: the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not (unfetched, the
    block index has not moved), for any proof data whose array is `V`'s and whose body leaves the block in place. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's two branch conditions, over the grid -/

/-- The zeroing branch's condition, from the grid coordinate: the coordinate is 0. -/
abbrev cond9_0 (i : grid9.Coords) : Prop := (Scalar.cmpi .ne (Scalar.extui (Scalar.cmpi .eq (BitVec.ofNat 32 (i 0).val) 0#32)) 0#32) = 1#1
/-- It holds at the first point only. -/
theorem hcond9_0 : ∀ t : Fin cfg9.N, cond9_0 (grid9.coords t) ↔ t.val = 0 :=
  (by decide +kernel : ∀ t : Fin grid9.N, cond9_0 (grid9.coords t) ↔ t.val = 0)

/-- The copying branch's condition: the coordinate is the last. -/
abbrev cond9_1 (i : grid9.Coords) : Prop := k9_cond2 i = 1#1
/-- It holds at the last point only. -/
theorem hcond9_1 : ∀ t : Fin cfg9.N, cond9_1 (grid9.coords t) ↔ t.val = 24 :=
  (by decide +kernel : ∀ t : Fin grid9.N, cond9_1 (grid9.coords t) ↔ t.val = 24)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
/-- Away from the last point the statistics window is idle (the body stores nothing into it) and not written back. -/
theorem idleAt9_4 : ∀ t : Fin cfg9.N, ¬cond9_1 (grid9.coords t) → cfg9.idle 4 (grid9.coords t) = true := by decide +kernel
theorem noFlush9_4 : ∀ t : Fin cfg9.N, ¬cond9_1 (grid9.coords t) → (cfg9.win 4).flush t = false := by decide +kernel
/-- At the last point it is live. -/
theorem liveAt9_4 : ∀ t : Fin cfg9.N, cond9_1 (grid9.coords t) → cfg9.idle 4 (grid9.coords t) = false := by decide +kernel

/-! ## The staging memrefs the body is called with, and the scratch row -/

/-- One staging buffer of each output window, through which its contents are stated (the choice does not matter). -/
abbrev VO9_3 : View sig .tc .vmem S2000x512 .f32 := (Memref.whole cc9_stg3_0 : Memref sig .tc .vmem S2000x512 .f32).view
abbrev VO9_4 : View sig .tc .vmem S1x1024 .f32 := (Memref.whole cc9_stg4_0 : Memref sig .tc .vmem S1x1024 .f32).view
/-- Each window's current staging memref at point `t`, spelled as the pipeline passes it, and its wholeness. -/
abbrev ms9_0 (t : Fin cfg9.N) : Memref sig .tc .vmem S2000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2000x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S128x512 .bf16 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S2000x512 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1x1024 .f32 := win9_4.stage (cfg9.slots t 4)
abbrev hs9_4 (t : Fin cfg9.N) : (ms9_4 t).IsWhole := hstage9_4 ((cfg9.slots t 4).cast nbuf9_4)
/-- The scratch row: a whole scoped buffer of the kernel's own, passed beside the windows. -/
abbrev scM9_0 : Memref sig .tc .vmem S1x1024 .f32 := Memref.whole cc9_scratch0
/-- The same as a view: what the row holds is stated through it. -/
abbrev VS9_0 : View sig .tc .vmem S1x1024 .f32 := scM9_0.view

/-- The other scoped buffers of the core (no staging buffer of this pipeline, not the scratch row), unopened. -/
abbrev restBut9 (c : Dev nD) : sProp 𝕄 :=
  Pipeline.scopedRestBut (Ix := Unit) (Name := ℕ) (U := Pipeline.UD sig nD τ) (Lvl := ℕ) (Val := Elt F) spec9 c [cc9_scratch0]

/-- The region's invariant with the scratch row as a memref owned at some contents. -/
theorem PhiA9_eq (c : Dev nD) :
    (Pipeline.ΦA spec9 c : sProp 𝕄)
      = iprop(iprop((∃ d, owns (c : Thread nD τ) scM9_0 fullShare d) ∗ restBut9 (F := F) c) ∗ (∃ r, prngReg c r)) := by
  unfold Pipeline.ΦA; rw [scopedRest9_split]; simp only [scM9_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun9_A (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i)
    (x0 : Vec F S2000x128 .f32) (x1 : Vec F S2000x128 .f32) (x2 : Vec F S128x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc9__stage1_kernel i arg1 harg1 arg2 harg2 arg3 harg3 arg4 harg4 arg5 harg5 arg6 harg6) K } := by
  refine ⟨?_, ?_, fun xi4 E K => ?run⟩
  case run =>
    simp only [cc9__stage1_kernel_eq_skeleton]; unfold cc9__stage1_kernel_skel
    simp only [k9_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun9_B (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i)
    (x0 : Vec F S2000x128 .f32) (x1 : Vec F S2000x128 .f32) (x2 : Vec F S128x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc9__stage1_kernel i arg1 harg1 arg2 harg2 arg3 harg3 arg4 harg4 arg5 harg5 arg6 harg6) K } := by
  refine ⟨?_, ?_, fun xi4 E K => ?run⟩
  case run =>
    simp only [cc9__stage1_kernel_eq_skeleton]; unfold cc9__stage1_kernel_skel
    simp only [k9_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun9_C (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc9__stage1_kernel i arg1 harg1 arg2 harg2 arg3 harg3 arg4 harg4 arg5 harg5 arg6 harg6) K } := by
  refine ⟨?_, ?_, ?_, fun E K => ?run⟩
  case run =>
    simp only [cc9__stage1_kernel_eq_skeleton]; unfold cc9__stage1_kernel_skel
    simp only [k9_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover9_A_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i)
    (x0 : Vec F S2000x128 .f32) (x1 : Vec F S2000x128 .f32) (x2 : Vec F S128x512 .bf16) (y : S2000x512.Idx) :
    ∃ pc ∈ (kernelRun9_A c i arg1 harg1 arg2 harg2 arg3 harg3 arg4 harg4 arg5 harg5 arg6 harg6 hc0 hc1 x0 x1 x2).1, y ∈ pc.1.set :=
  View.cover_of_tiledL (kernelRun9_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out9_A_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i)
    (x0 : Vec F S2000x128 .f32) (x1 : Vec F S2000x128 .f32) (x2 : Vec F S128x512 .bf16) : Vec F S2000x512 .f32 :=
  VO9_3.read (Elt F) (VO9_3.writes (Elt F) VO9_3.junk (kernelRun9_A c i arg1 harg1 arg2 harg2 arg3 harg3 arg4 harg4 arg5 harg5 arg6 harg6 hc0 hc1 x0 x1 x2).1)

/-- The first point's pieces for the scratch row cover it: the zeroing store is the whole row. -/
theorem scover9_A_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i)
    (x0 : Vec F S2000x128 .f32) (x1 : Vec F S2000x128 .f32) (x2 : Vec F S128x512 .bf16) (y : S1x1024.Idx) :
    ∃ pc ∈ (kernelRun9_A c i arg1 harg1 arg2 harg2 arg3 harg3 arg4 harg4 arg5 harg5 arg6 harg6 hc0 hc1 x0 x1 x2).2.1, y ∈ pc.1.set :=
  View.cover_of_tiledL (kernelRun9_A c i arg1 harg1 arg2 harg2 arg3 harg3 arg4 harg4 arg5 harg5 arg6 harg6 hc0 hc1 x0 x1 x2).2.1 S1x1024.size (by sl_kernel_rfl) y

/-- What the first point leaves in the scratch row. -/
def sout9_A_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i)
    (x0 : Vec F S2000x128 .f32) (x1 : Vec F S2000x128 .f32) (x2 : Vec F S128x512 .bf16) : Vec F S1x1024 .f32 :=
  VS9_0.read (Elt F) (VS9_0.writes (Elt F) VS9_0.junk (kernelRun9_A c i arg1 harg1 arg2 harg2 arg3 harg3 arg4 harg4 arg5 harg5 arg6 harg6 hc0 hc1 x0 x1 x2).2.1)

/-- A middle point's pieces for the output block tile it. -/
theorem cover9_B_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i)
    (x0 : Vec F S2000x128 .f32) (x1 : Vec F S2000x128 .f32) (x2 : Vec F S128x512 .bf16) (xs0 : Vec F S1x1024 .f32) (y : S2000x512.Idx) :
    ∃ pc ∈ (kernelRun9_B c i arg1 harg1 arg2 harg2 arg3 harg3 arg4 harg4 arg5 harg5 arg6 harg6 hc0 hc1 x0 x1 x2 xs0).1, y ∈ pc.1.set :=
  View.cover_of_tiledL (kernelRun9_B c i arg1 harg1 arg2 harg2 arg3 harg3 arg4 harg4 arg5 harg5 arg6 harg6 hc0 hc1 x0 x1 x2 xs0).1 S2000x512.size (by sl_kernel_rfl) y

/-- What a middle point leaves in the output block's staging buffer. -/
def out9_B_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i)
    (x0 : Vec F S2000x128 .f32) (x1 : Vec F S2000x128 .f32) (x2 : Vec F S128x512 .bf16) (xs0 : Vec F S1x1024 .f32) : Vec F S2000x512 .f32 :=
  VO9_3.read (Elt F) (VO9_3.writes (Elt F) VO9_3.junk (kernelRun9_B c i arg1 harg1 arg2 harg2 arg3 harg3 arg4 harg4 arg5 harg5 arg6 harg6 hc0 hc1 x0 x1 x2 xs0).1)

/-- A middle point's pieces for the scratch row tile it: the two half-row stores. -/
theorem scover9_B_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i)
    (x0 : Vec F S2000x128 .f32) (x1 : Vec F S2000x128 .f32) (x2 : Vec F S128x512 .bf16) (xs0 : Vec F S1x1024 .f32) (y : S1x1024.Idx) :
    ∃ pc ∈ (kernelRun9_B c i arg1 harg1 arg2 harg2 arg3 harg3 arg4 harg4 arg5 harg5 arg6 harg6 hc0 hc1 x0 x1 x2 xs0).2.1, y ∈ pc.1.set :=
  View.cover_of_tiledL (kernelRun9_B c i arg1 harg1 arg2 harg2 arg3 harg3 arg4 harg4 arg5 harg5 arg6 harg6 hc0 hc1 x0 x1 x2 xs0).2.1 S1x512.size (by sl_kernel_rfl) y

/-- What a middle point leaves in the scratch row. -/
def sout9_B_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i)
    (x0 : Vec F S2000x128 .f32) (x1 : Vec F S2000x128 .f32) (x2 : Vec F S128x512 .bf16) (xs0 : Vec F S1x1024 .f32) : Vec F S1x1024 .f32 :=
  VS9_0.read (Elt F) (VS9_0.writes (Elt F) VS9_0.junk (kernelRun9_B c i arg1 harg1 arg2 harg2 arg3 harg3 arg4 harg4 arg5 harg5 arg6 harg6 hc0 hc1 x0 x1 x2 xs0).2.1)

/-- The last point's pieces for the output block tile it. -/
theorem cover9_C_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) (y : S2000x512.Idx) :
    ∃ pc ∈ (kernelRun9_C c i arg1 harg1 arg2 harg2 arg3 harg3 arg4 harg4 arg5 harg5 arg6 harg6 hc0 hc1 x0 x1 x2 xs0).1, y ∈ pc.1.set :=
  View.cover_of_tiledL (kernelRun9_C c i arg1 harg1 arg2 harg2 arg3 harg3 arg4 harg4 arg5 harg5 arg6 harg6 hc0 hc1 x0 x1 x2 xs0).1 S2000x512.size (by sl_kernel_rfl) y

/-- What the last point leaves in the output block's staging buffer. -/
def out9_C_3 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) : Vec F S2000x512 .f32 :=
  VO9_3.read (Elt F) (VO9_3.writes (Elt F) VO9_3.junk (kernelRun9_C c i arg1 harg1 arg2 harg2 arg3 harg3 arg4 harg4 arg5 harg5 arg6 harg6 hc0 hc1 x0 x1 x2 xs0).1)

/-- The last point's pieces for the statistics block tile it: the copy of the whole scratch row. -/
theorem cover9_C_4 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) (y : S1x1024.Idx) :
    ∃ pc ∈ (kernelRun9_C c i arg1 harg1 arg2 harg2 arg3 harg3 arg4 harg4 arg5 harg5 arg6 harg6 hc0 hc1 x0 x1 x2 xs0).2.1, y ∈ pc.1.set :=
  View.cover_of_tiledL (kernelRun9_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out9_C_4 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) : Vec F S1x1024 .f32 :=
  VO9_4.read (Elt F) (VO9_4.writes (Elt F) VO9_4.junk (kernelRun9_C c i arg1 harg1 arg2 harg2 arg3 harg3 arg4 harg4 arg5 harg5 arg6 harg6 hc0 hc1 x0 x1 x2 xs0).2.1)

/-- The last point's pieces for the scratch row tile it: the two half-row stores. -/
theorem scover9_C_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) (y : S1x1024.Idx) :
    ∃ pc ∈ (kernelRun9_C c i arg1 harg1 arg2 harg2 arg3 harg3 arg4 harg4 arg5 harg5 arg6 harg6 hc0 hc1 x0 x1 x2 xs0).2.2.1, y ∈ pc.1.set :=
  View.cover_of_tiledL (kernelRun9_C c i arg1 harg1 arg2 harg2 arg3 harg3 arg4 harg4 arg5 harg5 arg6 harg6 hc0 hc1 x0 x1 x2 xs0).2.2.1 S1x512.size (by sl_kernel_rfl) y

/-- What the last point leaves in the scratch row. -/
def sout9_C_0 (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i)
    (x0 : Vec F S2000x128 .f32) (x1 : Vec F S2000x128 .f32) (x2 : Vec F S128x512 .bf16) (xs0 : Vec F S1x1024 .f32) : Vec F S1x1024 .f32 :=
  VS9_0.read (Elt F) (VS9_0.writes (Elt F) VS9_0.junk (kernelRun9_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut9_4 : Vec F S1x1024 .f32 := VO9_4.read (Elt F) VO9_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt9 (c : Dev nD) : (n : ℕ) → n < cfg9.N → Vec F S2000x512 .f32 × Vec F S1x1024 .f32 × Vec F S1x1024 .f32
  | 0, hn => (out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) scM9_0 (Memref.isWhole_whole _) ((hcond9_0 ⟨0, hn⟩).mpr rfl) (fun h => (fun h => by (try dsimp only at h); omega) ((hcond9_1 ⟨0, hn⟩).mp h)) (iblk9 V c 0 ⟨0, hn⟩) (iblk9 V c 1 ⟨0, hn⟩) (iblk9 V c 2 ⟨0, hn⟩), idleOut9_4, sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) scM9_0 (Memref.isWhole_whole _) ((hcond9_0 ⟨0, hn⟩).mpr rfl) (fun h => (fun h => by (try dsimp only at h); omega) ((hcond9_1 ⟨0, hn⟩).mp h)) (iblk9 V c 0 ⟨0, hn⟩) (iblk9 V c 1 ⟨0, hn⟩) (iblk9 V c 2 ⟨0, hn⟩))
  | n + 1, hn =>
    if h1 : n + 1 = 24 then
      (out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => absurd ((hcond9_0 ⟨n + 1, hn⟩).mp h) (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2, out9_C_4 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => absurd ((hcond9_0 ⟨n + 1, hn⟩).mp h) (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => absurd ((hcond9_0 ⟨n + 1, hn⟩).mp h) (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2)
    else
      (out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => absurd ((hcond9_0 ⟨n + 1, hn⟩).mp h) (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2, idleOut9_4, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => absurd ((hcond9_0 ⟨n + 1, hn⟩).mp h) (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2)

/-- `outsAt9` at the first point. -/
theorem outsAt9_A (c : Dev nD) (t : Fin cfg9.N) (h0 : t.val = 0) (h1 : ¬t.val = 24) :
    outsAt9 V c t.val t.isLt = (out9_A_3 c (grid9.coords t) (ms9_0 t) (hs9_0 t) (ms9_1 t) (hs9_1 t) (ms9_2 t) (hs9_2 t) (ms9_3 t) (hs9_3 t) (ms9_4 t) (hs9_4 t) scM9_0 (Memref.isWhole_whole _) ((hcond9_0 t).mpr h0) (fun h => h1 ((hcond9_1 t).mp h)) (iblk9 V c 0 t) (iblk9 V c 1 t) (iblk9 V c 2 t), idleOut9_4, sout9_A_0 c (grid9.coords t) (ms9_0 t) (hs9_0 t) (ms9_1 t) (hs9_1 t) (ms9_2 t) (hs9_2 t) (ms9_3 t) (hs9_3 t) (ms9_4 t) (hs9_4 t) scM9_0 (Memref.isWhole_whole _) ((hcond9_0 t).mpr h0) (fun h => h1 ((hcond9_1 t).mp h)) (iblk9 V c 0 t) (iblk9 V c 1 t) (iblk9 V c 2 t)) := by
  obtain ⟨n, hn⟩ := t
  cases n with
  | zero => exact rfl
  | succ n => exact absurd h0 (Nat.succ_ne_zero n)

/-- `outsAt9` at a middle point: that case's contents, over the scratch row the point before left. -/
theorem outsAt9_B (c : Dev nD) (t : Fin cfg9.N) (h0 : ¬t.val = 0) (h1 : ¬t.val = 24) :
    outsAt9 V c t.val t.isLt = (out9_B_3 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2.2, idleOut9_4, sout9_B_0 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt9` at the last point. -/
theorem outsAt9_C (c : Dev nD) (t : Fin cfg9.N) (h0 : ¬t.val = 0) (h1 : t.val = 24) :
    outsAt9 V c t.val t.isLt = (out9_C_3 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2, out9_C_4 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2, sout9_C_0 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2.2) ∗ restBut9 (F := F) c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9_0 fullShare ((outsAt9 V c n hn).2.2) ∗ restBut9 (F := F) c) ∗ (∃ r, prngReg c r)) := rfl

theorem PhiS9_pos (c : Dev nD) (n : ℕ) (h : n ≤ cfg9.N) (hz : n ≠ 0) :
    PhiS9 V c n h = iprop(iprop(owns (c : Thread nD τ) scM9_0 fullShare ((outsAt9 V c (n - 1) (by omega)).2.2) ∗ restBut9 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt9`'s components; the invariant `PhiS9`; nothing owed; full
    shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
    | ⟨4, _⟩ => (outsAt9 V c t.val t.isLt).2.1
  Φ t := PhiS9 V c t.val (Nat.le_of_lt_succ t.isLt)
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant at a point's start, restated at `t.val`. -/
theorem PhiS9_castSucc (c : Dev nD) (t : Fin cfg9.N) :
    (dat9 V c).Φ t.castSucc = PhiS9 V c t.val (Nat.le_of_lt t.isLt) := by
  dsimp only [dat9]; simp only [Fin.coe_castSucc]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]
theorem after9_4 (c : Dev nD) (t : Fin cfg9.N) : (dat9 V c).after 4 t = (outsAt9 V c t.val t.isLt).2.1 := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  have hN : t.val < 25 := lt_of_lt_of_eq t.isLt (show cfg9.N = 25 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  rw [show (dat9 V c).leavesExact 3 t = owns (c : Thread nD τ) (ms9_3 t) fullShare ((dat9 V c).after 3 t) from by
    unfold Dat.leavesExact; rw [liveAt9_3 t], after9_3]
  by_cases h0 : t.val = 0
  · have h1 : ¬t.val = 24 := by omega
    rw [Dat.leavesExact_idle (dat9 V c) 4 t (idleAt9_4 t (fun h => h1 ((hcond9_1 t).mp h))) (noFlush9_4 t (fun h => h1 ((hcond9_1 t).mp h)))]
    rw [outsAt9_A V c t h0 h1]
    unfold out9_A_3 sout9_A_0; (try dsimp only)
    rw [PhiS9_castSucc V c t, PhiS9_zero V c _ _ h0, PhiA9_eq]
    iintro ⟨⟨⟨HS0, HR⟩, Hg⟩, Ho, ⟨%d0, H0⟩, ⟨%d1, H1⟩, ⟨%d2, H2⟩, ⟨%d3, H3⟩, ⟨%d4, H4⟩⟩
    iapply ((kernelRun9_A c (grid9.coords t) _ _ _ _ _ _ _ _ _ _ _ _ ((hcond9_0 t).mpr h0) (fun h => h1 ((hcond9_1 t).mp h)) (iblk9 V c 0 t) (iblk9 V c 1 t) (iblk9 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover9_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover9_A_3 c _ _ _ _ _ _ _ _ _ _ _ _ _ _ _ _ _ _)
    iexists _; iexact H4
  · by_cases h1 : t.val = 24
    · rw [show (dat9 V c).leavesExact 4 t = owns (c : Thread nD τ) (ms9_4 t) fullShare ((dat9 V c).after 4 t) from by
        unfold Dat.leavesExact; rw [liveAt9_4 t ((hcond9_1 t).mpr h1)], after9_4]
      rw [outsAt9_C V c t h0 h1]
      unfold out9_C_3 out9_C_4 sout9_C_0; (try dsimp only)
      rw [PhiS9_castSucc V c t, PhiS9_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun9_C c (grid9.coords t) _ _ _ _ _ _ _ _ _ _ _ _ (fun h => h0 ((hcond9_0 t).mp h)) ((hcond9_1 t).mpr h1) (iblk9 V c 0 t) (iblk9 V c 1 t) (iblk9 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover9_C_3 c _ _ _ _ _ _ _ _ _ _ _ _ _ _ _ _ _ _ _)
      unfold owns; iexists _; isplitr
      swap; · iexact H4
      ipureintro; exact View.read_writes_of_cover _ _ _ _ _ (cover9_C_4 c _ _ _ _ _ _ _ _ _ _ _ _ _ _ _ _ _ _ _)
    · rw [Dat.leavesExact_idle (dat9 V c) 4 t (idleAt9_4 t (fun h => h1 ((hcond9_1 t).mp h))) (noFlush9_4 t (fun h => h1 ((hcond9_1 t).mp h)))]
      rw [outsAt9_B V c t h0 h1]
      unfold out9_B_3 sout9_B_0; (try dsimp only)
      rw [PhiS9_castSucc V c t, PhiS9_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun9_B c (grid9.coords t) _ _ _ _ _ _ _ _ _ _ _ _ (fun h => h0 ((hcond9_0 t).mp h)) (fun h => h1 ((hcond9_1 t).mp h)) (iblk9 V c 0 t) (iblk9 V c 1 t) (iblk9 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover9_B_3 c _ _ _ _ _ _ _ _ _ _ _ _ _ _ _ _ _ _ _)
      iexists _; iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After any point but the first the invariant gives the launch's back: the scratch row's contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨HS0, HR⟩, Hg⟩
  isplitl [HS0 HR]
  · isplitl [HS0]
    · iexists _; iexact HS0
    iexact HR
  iexact Hg

/-- The same after the last point. -/
theorem hout9 (c : Dev nD) : (dat9 V c).Φ (Fin.last cfg9.N) ⊢ Pipeline.ΦA spec9 c :=
  Phi_out9 V c _ (by rw [Fin.val_last]; have : cfg9.N = 25 := N_9; omega)

end Cert.KernelIdeal.Hand

end
-- ==== Proof.KI.Reg10.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond10_0 (i : grid10.Coords) : Prop :=
  (Scalar.cmpi .ne (Scalar.extui (Scalar.cmpi .eq (BitVec.ofNat 32 (i 0).val) 0#32)) 0#32) = 1#1
/-- It holds at point 0 only. -/
theorem hcond10_0 : ∀ t : Fin cfg10.N, cond10_0 (grid10.coords t) ↔ t.val = 0 :=
  (by decide +kernel : ∀ t : Fin grid10.N, cond10_0 (grid10.coords t) ↔ t.val = 0)

/-- The body's second condition: the point is the grid's last. -/
abbrev cond10_1 (i : grid10.Coords) : Prop := k10_cond2 i = 1#1
/-- It holds at point 24 only. -/
theorem hcond10_1 : ∀ t : Fin cfg10.N, cond10_1 (grid10.coords t) ↔ t.val = 24 :=
  (by decide +kernel : ∀ t : Fin grid10.N, cond10_1 (grid10.coords t) ↔ t.val = 24)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
theorem liveAt10_4 : ∀ t : Fin cfg10.N, cfg10.idle 4 (grid10.coords t) = false := by decide +kernel
theorem liveAt10_5 : ∀ t : Fin cfg10.N, cfg10.idle 5 (grid10.coords t) = false := by decide +kernel
theorem liveAt10_6 : ∀ t : Fin cfg10.N, cfg10.idle 6 (grid10.coords t) = false := by decide +kernel
/-- At the first point the statistics window is idle, and its block is not written back there. -/
theorem idleAt10_7_A : ∀ t : Fin cfg10.N, cond10_0 (grid10.coords t) → ¬cond10_1 (grid10.coords t) → cfg10.idle 7 (grid10.coords t) = true := by decide +kernel
theorem noFlush10_7_A : ∀ t : Fin cfg10.N, cond10_0 (grid10.coords t) → ¬cond10_1 (grid10.coords t) → (cfg10.win 7).flush t = false := by decide +kernel
/-- At the points between, the same. -/
theorem idleAt10_7_B : ∀ t : Fin cfg10.N, ¬cond10_0 (grid10.coords t) → ¬cond10_1 (grid10.coords t) → cfg10.idle 7 (grid10.coords t) = true := by decide +kernel
theorem noFlush10_7_B : ∀ t : Fin cfg10.N, ¬cond10_0 (grid10.coords t) → ¬cond10_1 (grid10.coords t) → (cfg10.win 7).flush t = false := by decide +kernel
/-- At the last point the statistics window is live. -/
theorem liveAt10_7_C : ∀ t : Fin cfg10.N, ¬cond10_0 (grid10.coords t) → cond10_1 (grid10.coords t) → cfg10.idle 7 (grid10.coords t) = false := by decide +kernel

/-! ## The staging memrefs, the accumulator, and the views the results are stated through -/

abbrev ms10_0 (t : Fin cfg10.N) : Memref sig .tc .vmem S2000x512 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1x512 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x512 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x512 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x512 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S512x256 .bf16 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S2000x256 .f32 := win10_6.stage (cfg10.slots t 6)
abbrev hs10_6 (t : Fin cfg10.N) : (ms10_6 t).IsWhole := hstage10_6 ((cfg10.slots t 6).cast nbuf10_6)
abbrev ms10_7 (t : Fin cfg10.N) : Memref sig .tc .vmem S1x512 .f32 := win10_7.stage (cfg10.slots t 7)
abbrev hs10_7 (t : Fin cfg10.N) : (ms10_7 t).IsWhole := hstage10_7 ((cfg10.slots t 7).cast nbuf10_7)
/-- The accumulator: a whole scoped buffer of the kernel's own, carried from point to point. -/
abbrev scM10_0 : Memref sig .tc .vmem S1x512 .f32 := Memref.whole cc10_scratch0
abbrev VS10_0 : View sig .tc .vmem S1x512 .f32 := scM10_0.view
/-- One staging buffer of each output window, through which its contents are stated (the choice does not matter). -/
abbrev VO10_6 : View sig .tc .vmem S2000x256 .f32 := (Memref.whole cc10_stg6_0 : Memref sig .tc .vmem S2000x256 .f32).view
abbrev VO10_7 : View sig .tc .vmem S1x512 .f32 := (Memref.whole cc10_stg7_0 : Memref sig .tc .vmem S1x512 .f32).view

/-- The class's invariant with the accumulator opened as a memref owned at some contents; every other scoped buffer
    stays closed. -/
theorem PhiA10_eq (c : Dev nD) :
    (Pipeline.ΦA spec10 c : sProp 𝕄)
      = iprop(iprop((∃ d, owns (c : Thread nD τ) scM10_0 fullShare d)
          ∗ Pipeline.scopedRestBut (Ix := Unit) (Name := ℕ) (U := Pipeline.UD sig nD τ) (Lvl := ℕ) (Val := Elt F) spec10 c [cc10_scratch0])
          ∗ (∃ r, prngReg c r)) := by
  unfold Pipeline.ΦA; rw [scopedRest10_split]; simp only [scM10_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun10_A (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond10_0 i) (hc1 : ¬cond10_1 i)
    (x0 : Vec F S2000x512 .f32) (x1 : Vec F S1x512 .f32) (x2 : Vec F S1x512 .f32) (x3 : Vec F S1x512 .f32) (x4 : Vec F S1x512 .f32) (x5 : Vec F S512x256 .bf16) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc10__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc10__stage2_kernel_eq_skeleton]; unfold cc10__stage2_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun10_B (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond10_0 i) (hc1 : ¬cond10_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc10__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc10__stage2_kernel_eq_skeleton]; unfold cc10__stage2_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun10_C (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond10_0 i) (hc1 : cond10_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc10__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc10__stage2_kernel_eq_skeleton]; unfold cc10__stage2_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond10_0 i) (hc1 : ¬cond10_1 i)
  (x0 : Vec F S2000x512 .f32) (x1 : Vec F S1x512 .f32) (x2 : Vec F S1x512 .f32) (x3 : Vec F S1x512 .f32) (x4 : Vec F S1x512 .f32) (x5 : Vec F S512x256 .bf16)

/-- At the first point the one store into the product window covers its block. -/
theorem cover10_A_6 (y : S2000x256.Idx) :
    ∃ pc ∈ (kernelRun10_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun10_A c i arg1 harg1 arg2 harg2 arg3 harg3 arg4 harg4 arg5 harg5 arg6 harg6 arg7 harg7 arg8 harg8 arg9 harg9 hc0 hc1 x0 x1 x2 x3 x4 x5).1 S2000x256.size (by sl_kernel_rfl) y

/-- What the first point leaves in the product window: its pieces read back. -/
def out10_A_6 : Vec F S2000x256 .f32 :=
  VO10_6.read (Elt F) (VO10_6.writes (Elt F) VO10_6.junk (kernelRun10_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out10_A_7 : Vec F S1x512 .f32 :=
  VO10_7.read (Elt F) (VO10_7.writes (Elt F) VO10_7.junk (kernelRun10_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover10_A_0 (y : S1x512.Idx) :
    ∃ pc ∈ (kernelRun10_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun10_A c i arg1 harg1 arg2 harg2 arg3 harg3 arg4 harg4 arg5 harg5 arg6 harg6 arg7 harg7 arg8 harg8 arg9 harg9 hc0 hc1 x0 x1 x2 x3 x4 x5).2.2.1 S1x512.size (by sl_kernel_rfl) y

/-- What the first point leaves in the accumulator. -/
def sout10_A_0 : Vec F S1x512 .f32 :=
  VS10_0.read (Elt F) (VS10_0.writes (Elt F) VS10_0.junk (kernelRun10_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond10_0 i) (hc1 : ¬cond10_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At a point between the one store into the product window covers its block. -/
theorem cover10_B_6 (y : S2000x256.Idx) :
    ∃ pc ∈ (kernelRun10_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun10_B c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out10_B_6 : Vec F S2000x256 .f32 :=
  VO10_6.read (Elt F) (VO10_6.writes (Elt F) VO10_6.junk (kernelRun10_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out10_B_7 : Vec F S1x512 .f32 :=
  VO10_7.read (Elt F) (VO10_7.writes (Elt F) VO10_7.junk (kernelRun10_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover10_B_0 (y : S1x512.Idx) :
    ∃ pc ∈ (kernelRun10_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun10_B c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout10_B_0 : Vec F S1x512 .f32 :=
  VS10_0.read (Elt F) (VS10_0.writes (Elt F) VS10_0.junk (kernelRun10_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond10_0 i) (hc1 : cond10_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At the last point the one store into the product window covers its block. -/
theorem cover10_C_6 (y : S2000x256.Idx) :
    ∃ pc ∈ (kernelRun10_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out10_C_6 : Vec F S2000x256 .f32 :=
  VO10_6.read (Elt F) (VO10_6.writes (Elt F) VO10_6.junk (kernelRun10_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover10_C_7 (y : S1x512.Idx) :
    ∃ pc ∈ (kernelRun10_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 x4 x5 xs0).2.1 S1x512.size (by sl_kernel_rfl) y

/-- What the last point leaves in the statistics window. -/
def out10_C_7 : Vec F S1x512 .f32 :=
  VO10_7.read (Elt F) (VO10_7.writes (Elt F) VO10_7.junk (kernelRun10_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover10_C_0 (y : S1x512.Idx) :
    ∃ pc ∈ (kernelRun10_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout10_C_0 : Vec F S1x512 .f32 :=
  VS10_0.read (Elt F) (VS10_0.writes (Elt F) VS10_0.junk (kernelRun10_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The inputs' buffers hold their blocks at every point

An input window is never idle and the body leaves its block in place; so its current buffer holds what a fetch at the
point puts there whether or not one happened: where none did, the block index has not moved (the five row and weight
windows are fetched once, at the first point). -/

theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (Pipeline.UD sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (Pipeline.UD sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (Pipeline.UD sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (Pipeline.UD sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-! ## What the outputs and the accumulator hold after each point -/

/-- The first point is not the last, -/
theorem notLast10_of_first (t : Fin cfg10.N) (h0 : t.val = 0) : ¬cond10_1 (grid10.coords t) :=
  fun h => by have := (hcond10_1 t).mp h; omega

/-- The first point's results at the point's own memrefs and input blocks: the product block, the statistics
    placeholder, the accumulator. -/
def outsPt10_A (c : Dev nD) (t : Fin cfg10.N) (h0 : t.val = 0) : Vec F S2000x256 .f32 × Vec F S1x512 .f32 × Vec F S1x512 .f32 :=
  (out10_A_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (notLast10_of_first t h0) (iblk10 V c 0 t) (iblk10 V c 1 t) (iblk10 V c 2 t) (iblk10 V c 3 t) (iblk10 V c 4 t) (iblk10 V c 5 t),
   out10_A_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (notLast10_of_first t h0) (iblk10 V c 0 t) (iblk10 V c 1 t) (iblk10 V c 2 t) (iblk10 V c 3 t) (iblk10 V c 4 t) (iblk10 V c 5 t),
   sout10_A_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) ((hcond10_0 t).mpr h0) (notLast10_of_first t h0) (iblk10 V c 0 t) (iblk10 V c 1 t) (iblk10 V c 2 t) (iblk10 V c 3 t) (iblk10 V c 4 t) (iblk10 V c 5 t))

/-- A point between, over the accumulator xs0 the point before left. -/
def outsPt10_B (c : Dev nD) (t : Fin cfg10.N) (h0 : ¬t.val = 0) (h1 : ¬t.val = 24) (xs0 : Vec F S1x512 .f32) : Vec F S2000x256 .f32 × Vec F S1x512 .f32 × Vec F S1x512 .f32 :=
  (out10_B_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (fun h => h1 ((hcond10_1 t).mp h)) (iblk10 V c 0 t) (iblk10 V c 1 t) (iblk10 V c 2 t) (iblk10 V c 3 t) (iblk10 V c 4 t) (iblk10 V c 5 t) xs0,
   out10_B_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (fun h => h1 ((hcond10_1 t).mp h)) (iblk10 V c 0 t) (iblk10 V c 1 t) (iblk10 V c 2 t) (iblk10 V c 3 t) (iblk10 V c 4 t) (iblk10 V c 5 t) xs0,
   sout10_B_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) (fun h => h1 ((hcond10_1 t).mp h)) (iblk10 V c 0 t) (iblk10 V c 1 t) (iblk10 V c 2 t) (iblk10 V c 3 t) (iblk10 V c 4 t) (iblk10 V c 5 t) xs0)

/-- The last point, over the accumulator xs0 the point before left. -/
def outsPt10_C (c : Dev nD) (t : Fin cfg10.N) (h0 : ¬t.val = 0) (h1 : t.val = 24) (xs0 : Vec F S1x512 .f32) : Vec F S2000x256 .f32 × Vec F S1x512 .f32 × Vec F S1x512 .f32 :=
  (out10_C_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) ((hcond10_1 t).mpr h1) (iblk10 V c 0 t) (iblk10 V c 1 t) (iblk10 V c 2 t) (iblk10 V c 3 t) (iblk10 V c 4 t) (iblk10 V c 5 t) xs0,
   out10_C_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) ((hcond10_1 t).mpr h1) (iblk10 V c 0 t) (iblk10 V c 1 t) (iblk10 V c 2 t) (iblk10 V c 3 t) (iblk10 V c 4 t) (iblk10 V c 5 t) xs0,
   sout10_C_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (fun h => h0 ((hcond10_0 t).mp h)) ((hcond10_1 t).mpr h1) (iblk10 V c 0 t) (iblk10 V c 1 t) (iblk10 V c 2 t) (iblk10 V c 3 t) (iblk10 V c 4 t) (iblk10 V c 5 t) xs0)

/-- THE ACCUMULATION. What the product window, the statistics window and the accumulator hold after the body at
    position n: the case the position selects, run at the point's memrefs and input blocks, the accumulator it reads
    at what position n - 1 left. -/
def outsAt10 (c : Dev nD) : (n : ℕ) → n < cfg10.N → Vec F S2000x256 .f32 × Vec F S1x512 .f32 × Vec F S1x512 .f32
  | 0, hn => outsPt10_A V c ⟨0, hn⟩ rfl
  | n + 1, hn =>
    if h1 : n + 1 = 24 then
      outsPt10_C V c ⟨n + 1, hn⟩ (Nat.succ_ne_zero n) h1 (outsAt10 c n (Nat.lt_of_succ_lt hn)).2.2
    else
      outsPt10_B V c ⟨n + 1, hn⟩ (Nat.succ_ne_zero n) h1 (outsAt10 c n (Nat.lt_of_succ_lt hn)).2.2

/-- outsAt10 at the first point. -/
theorem outsAt10_A (c : Dev nD) (t : Fin cfg10.N) (h0 : t.val = 0) :
    outsAt10 V c t.val t.isLt = outsPt10_A V c t h0 := by
  obtain ⟨n, hn⟩ := t
  cases n with
  | zero => exact rfl
  | succ n => exact absurd h0 (Nat.succ_ne_zero n)

/-- outsAt10 at a point between: over what the point before left in the accumulator. -/
theorem outsAt10_B (c : Dev nD) (t : Fin cfg10.N) (h0 : ¬t.val = 0) (h1 : ¬t.val = 24) :
    outsAt10 V c t.val t.isLt = outsPt10_B V c t h0 h1 (outsAt10 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt10 at the last point: over what the point before left in the accumulator. -/
theorem outsAt10_C (c : Dev nD) (t : Fin cfg10.N) (h0 : ¬t.val = 0) (h1 : t.val = 24) :
    outsAt10 V c t.val t.isLt = outsPt10_C V c t h0 h1 (outsAt10 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2.2)
      ∗ Pipeline.scopedRestBut (Ix := Unit) (Name := ℕ) (U := Pipeline.UD sig nD τ) (Lvl := ℕ) (Val := Elt F) spec10 c [cc10_scratch0])
      ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(owns (c : Thread nD τ) scM10_0 fullShare ((outsAt10 V c n hn).2.2)
      ∗ Pipeline.scopedRestBut (Ix := Unit) (Name := ℕ) (U := Pipeline.UD sig nD τ) (Lvl := ℕ) (Val := Elt F) spec10 c [cc10_scratch0])
      ∗ (∃ r, prngReg c r)) := rfl

theorem PhiS10_pos (c : Dev nD) (n : ℕ) (h : n ≤ cfg10.N) (hz : n ≠ 0) :
    PhiS10 V c n h = iprop(iprop(owns (c : Thread nD τ) scM10_0 fullShare ((outsAt10 V c (n - 1) (by omega)).2.2)
      ∗ Pipeline.scopedRestBut (Ix := Unit) (Name := ℕ) (U := Pipeline.UD sig nD τ) (Lvl := ℕ) (Val := Elt F) spec10 c [cc10_scratch0])
      ∗ (∃ r, prngReg c r)) := by
  cases n with
  | zero => exact absurd rfl hz
  | succ n => rfl

/-! ## The proof data -/

/-- The arrays as the region finds them; after the body at point t each input's buffer at its block, the product
    window's at the first component of outsAt10, the statistics window's at the second; the invariant PhiS10; nothing
    owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => (outsAt10 V c t.val t.isLt).1
    | ⟨7, _⟩ => (outsAt10 V c t.val t.isLt).2.1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = (outsAt10 V c t.val t.isLt).1 := by dsimp only [dat10]
theorem after10_7 (c : Dev nD) (t : Fin cfg10.N) : (dat10 V c).after 7 t = (outsAt10 V c t.val t.isLt).2.1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-! ## The body obligation, at a generic point -/

/-- What the body is called with at point t: the invariant, what the core owes, and each window's current buffer at
    what it then holds, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).owesAt () t.succ = (dat10 V c).owesAt () t.castSucc from rfl]
  rw [show (dat10 V c).Φ t.succ = PhiS10 V c (t.val + 1) t.isLt from rfl, PhiS10_succ]
  have hN : t.val < 25 := lt_of_lt_of_eq t.isLt (show cfg10.N = 25 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  rw [show (dat10 V c).leavesExact 3 t = owns (c : Thread nD τ) (ms10_3 t) fullShare ((dat10 V c).after 3 t) from by
    unfold Dat.leavesExact; rw [liveAt10_3 t], after10_3]
  rw [show (dat10 V c).leavesExact 4 t = owns (c : Thread nD τ) (ms10_4 t) fullShare ((dat10 V c).after 4 t) from by
    unfold Dat.leavesExact; rw [liveAt10_4 t], after10_4]
  rw [show (dat10 V c).leavesExact 5 t = owns (c : Thread nD τ) (ms10_5 t) fullShare ((dat10 V c).after 5 t) from by
    unfold Dat.leavesExact; rw [liveAt10_5 t], after10_5]
  rw [show (dat10 V c).leavesExact 6 t = owns (c : Thread nD τ) (ms10_6 t) fullShare ((dat10 V c).after 6 t) from by
    unfold Dat.leavesExact; rw [liveAt10_6 t], after10_6]
  by_cases h0 : t.val = 0
  · -- the first point
    have hc0 : cond10_0 (grid10.coords t) := (hcond10_0 t).mpr h0
    have hc1 : ¬cond10_1 (grid10.coords t) := notLast10_of_first t h0
    rw [Dat.leavesExact_idle (dat10 V c) 7 t (idleAt10_7_A t hc0 hc1) (noFlush10_7_A t hc0 hc1)]
    rw [outsAt10_A V c t h0]
    unfold outsPt10_A out10_A_6 sout10_A_0; (try dsimp only)
    rw [PhiS10_castSucc V c t, PhiS10_zero V c _ _ h0, PhiA10_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun10_A c (grid10.coords t) _ _ _ _ _ _ _ _ _ _ _ _ _ _ _ _ _ _ hc0 hc1 (iblk10 V c 0 t) (iblk10 V c 1 t) (iblk10 V c 2 t) (iblk10 V c 3 t) (iblk10 V c 4 t) (iblk10 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover10_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover10_A_6 c _ _ _ _ _ _ _ _ _ _ _ _ _ _ _ _ _ _ _ _ _ _ _ _ _ _ _)
    iexists _; iexact H7
  · by_cases h1 : t.val = 24
    · -- the last point
      have hc0 : ¬cond10_0 (grid10.coords t) := fun h => h0 ((hcond10_0 t).mp h)
      have hc1 : cond10_1 (grid10.coords t) := (hcond10_1 t).mpr h1
      rw [show (dat10 V c).leavesExact 7 t = owns (c : Thread nD τ) (ms10_7 t) fullShare ((dat10 V c).after 7 t) from by
        unfold Dat.leavesExact; rw [liveAt10_7_C t hc0 hc1], after10_7]
      rw [outsAt10_C V c t h0 h1]
      unfold outsPt10_C out10_C_6 out10_C_7 sout10_C_0; (try dsimp only)
      rw [PhiS10_castSucc V c t, PhiS10_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun10_C c (grid10.coords t) _ _ _ _ _ _ _ _ _ _ _ _ _ _ _ _ _ _ hc0 hc1 (iblk10 V c 0 t) (iblk10 V c 1 t) (iblk10 V c 2 t) (iblk10 V c 3 t) (iblk10 V c 4 t) (iblk10 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover10_C_6 c _ _ _ _ _ _ _ _ _ _ _ _ _ _ _ _ _ _ _ _ _ _ _ _ _ _ _ _)
      unfold owns; iexists _; isplitr
      swap; · iexact H7
      ipureintro; exact View.read_writes_of_cover _ _ _ _ _ (cover10_C_7 c _ _ _ _ _ _ _ _ _ _ _ _ _ _ _ _ _ _ _ _ _ _ _ _ _ _ _ _)
    · -- a point between
      have hc0 : ¬cond10_0 (grid10.coords t) := fun h => h0 ((hcond10_0 t).mp h)
      have hc1 : ¬cond10_1 (grid10.coords t) := fun h => h1 ((hcond10_1 t).mp h)
      rw [Dat.leavesExact_idle (dat10 V c) 7 t (idleAt10_7_B t hc0 hc1) (noFlush10_7_B t hc0 hc1)]
      rw [outsAt10_B V c t h0 h1]
      unfold outsPt10_B out10_B_6 sout10_B_0; (try dsimp only)
      rw [PhiS10_castSucc V c t, PhiS10_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun10_B c (grid10.coords t) _ _ _ _ _ _ _ _ _ _ _ _ _ _ _ _ _ _ hc0 hc1 (iblk10 V c 0 t) (iblk10 V c 1 t) (iblk10 V c 2 t) (iblk10 V c 3 t) (iblk10 V c 4 t) (iblk10 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover10_B_6 c _ _ _ _ _ _ _ _ _ _ _ _ _ _ _ _ _ _ _ _ _ _ _ _ _ _ _ _)
      iexists _; iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point the invariant gives the launch's back: the accumulator's named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS0, HR⟩, Hg⟩
  isplitl [HS0 HR]
  · isplitl [HS0]
    · iexists _; iexact HS0
    iexact HR
  iexact Hg

/-- The same after the last point. -/
theorem hout10 (c : Dev nD) : (dat10 V c).Φ (Fin.last cfg10.N) ⊢ Pipeline.ΦA spec10 c :=
  Phi_out10 V c _ (by rw [Fin.val_last]; have : cfg10.N = 25 := N_10; omega)

end Region

end Cert.KernelIdeal.Hand

end
-- ==== Proof.KI.Reg11.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## What the body leaves in the output block -/

/-- The whole block of rows, as a rectangle of itself. -/
abbrev rB11 : Rect S2000x256 := Rect.unit (s := S2000x256) ![0, 0] S2000x256.size inb_S2000x256_S2000x256_0_0
/-- The whole single row, as a rectangle of itself. -/
abbrev rR11 : Rect S1x256 := Rect.unit (s := S1x256) ![0, 0] S1x256.size inb_S1x256_S1x256_0_0

/-- The output block after the body, from the five input blocks: the body's one store, of the
    payload of the five whole loads, laid over the block.  (The payload takes the row operands in
    the order the body loads them: the fourth, the second, the third, the fifth.) -/
def out11_5 (x0 : Vec F S2000x256 .f32) (x1 x2 x3 x4 : Vec F S1x256 .f32) : Vec F S2000x256 .f32 :=
  View.canon [⟨rB11, k11_pay1 (View.ld x0 rB11) (View.ld x3 rR11) (View.ld x1 rR11) (View.ld x2 rR11) (View.ld x4 rR11)⟩]

/-- One store of the whole block covers it. -/
theorem cover11_5 (p : Vec F S2000x256 .f32) (y : S2000x256.Idx) :
    ∃ pc ∈ ([⟨rB11, p⟩] : List (View.Piece (Elt F) S2000x256 .f32)), y ∈ pc.1.set :=
  View.cover_of_tiled [⟨rB11, p⟩] S2000x256.size (by rfl) y

/-! ## The body's triple -/

set_option maxHeartbeats 1000000 in
/-- The kernel body on whole staging memrefs: holding the five inputs' at contents reading `x0 … x4`
    and the output's at anything, it runs to a state holding the inputs' as they were and the
    output's at `out11_5` of them.  The body is its skeleton of memory operations over the named
    payload; the executor steps through the six loads and the store. -/
theorem sound_kernel11 (c : Dev nD) (E : Set ℕ) (i : grid11.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E
          (cc11__stage3_kernel i arg1 harg1 arg2 harg2 arg3 harg3 arg4 harg4 arg5 harg5 arg6 harg6) K := by
  simp only [cc11__stage3_kernel_eq_skeleton]; unfold cc11__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The proof data -/

/-- The proof data of the pipeline on core `c`: the arrays as the region finds them; after the
    body at point `t` each input's buffer at its block and the output's at `out11_5` of the input
    blocks; the class's invariant; nothing owed; full shares. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t
    = out11_5 (iblk11 V c 0 t) (iblk11 V c 1 t) (iblk11 V c 2 t) (iblk11 V c 3 t) (iblk11 V c 4 t) := by dsimp only [dat11]

/-! ## What the body finds in the input windows' buffers

An input window's current staging buffer holds its block at every point, whether the pipeline
fetched it there or not: a window not fetched at a point has the block index of the point before,
and the body left that point's block in place.  (The four row operands are fetched at the first
point only; the first operand at every point.) -/

theorem before11_0 (c : Dev nD) (t : Fin cfg11.N) (d) : (dat11 V c).before 0 t d = iblk11 V c 0 t :=
  ((dat11 V c).before_in_eq_fetched 0 rfl (fun _ => rfl) (fun _ _ _ => rfl)
      (fun t => by rw [after11_0 V c t]; unfold Dat.blockOf iblk11; rw [A_eq11 V c 0]; try rfl) t d).trans
    (by unfold Dat.fetched Dat.blockOf iblk11; rw [A_eq11 V c 0]; try rfl)
theorem before11_1 (c : Dev nD) (t : Fin cfg11.N) (d) : (dat11 V c).before 1 t d = iblk11 V c 1 t :=
  ((dat11 V c).before_in_eq_fetched 1 rfl (fun _ => rfl) (fun _ _ _ => rfl)
      (fun t => by rw [after11_1 V c t]; unfold Dat.blockOf iblk11; rw [A_eq11 V c 1]; try rfl) t d).trans
    (by unfold Dat.fetched Dat.blockOf iblk11; rw [A_eq11 V c 1]; try rfl)
theorem before11_2 (c : Dev nD) (t : Fin cfg11.N) (d) : (dat11 V c).before 2 t d = iblk11 V c 2 t :=
  ((dat11 V c).before_in_eq_fetched 2 rfl (fun _ => rfl) (fun _ _ _ => rfl)
      (fun t => by rw [after11_2 V c t]; unfold Dat.blockOf iblk11; rw [A_eq11 V c 2]; try rfl) t d).trans
    (by unfold Dat.fetched Dat.blockOf iblk11; rw [A_eq11 V c 2]; try rfl)
theorem before11_3 (c : Dev nD) (t : Fin cfg11.N) (d) : (dat11 V c).before 3 t d = iblk11 V c 3 t :=
  ((dat11 V c).before_in_eq_fetched 3 rfl (fun _ => rfl) (fun _ _ _ => rfl)
      (fun t => by rw [after11_3 V c t]; unfold Dat.blockOf iblk11; rw [A_eq11 V c 3]; try rfl) t d).trans
    (by unfold Dat.fetched Dat.blockOf iblk11; rw [A_eq11 V c 3]; try rfl)
theorem before11_4 (c : Dev nD) (t : Fin cfg11.N) (d) : (dat11 V c).before 4 t d = iblk11 V c 4 t :=
  ((dat11 V c).before_in_eq_fetched 4 rfl (fun _ => rfl) (fun _ _ _ => rfl)
      (fun t => by rw [after11_4 V c t]; unfold Dat.blockOf iblk11; rw [A_eq11 V c 4]; try rfl) t d).trans
    (by unfold Dat.fetched Dat.blockOf iblk11; rw [A_eq11 V c 4]; try rfl)

/-! ## The body obligation -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, so the body's triple applies; the
    invariant and what the core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _
    (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The invariant at the two ends -/

/-- The proof data's invariant is the class's at every point: the region's entry hands it over as it is, -/
theorem hin11 (c : Dev nD) : Pipeline.ΦA spec11 c ⊢ (dat11 V c).Φ 0 := by
  dsimp only [dat11]; exact .rfl

/-- and takes it back as it is. -/
theorem hout11 (c : Dev nD) : (dat11 V c).Φ (Fin.last cfg11.N) ⊢ Pipeline.ΦA spec11 c := by
  dsimp only [dat11]; exact .rfl

end Cert.KernelIdeal.Hand

end
-- ==== Proof.KI.Reg12.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt12`), the scratch row's component feeding the next point's run. Everything
is stated at an arbitrary float family and at a parameter `V`: the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not (unfetched, the
    block index has not moved), for any proof data whose array is `V`'s and whose body leaves the block in place. -/
theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (Pipeline.UD sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's two branch conditions, over the grid -/

/-- The zeroing branch's condition, from the grid coordinate: the coordinate is 0. -/
abbrev cond12_0 (i : grid12.Coords) : Prop := (Scalar.cmpi .ne (Scalar.extui (Scalar.cmpi .eq (BitVec.ofNat 32 (i 0).val) 0#32)) 0#32) = 1#1
/-- It holds at the first point only. -/
theorem hcond12_0 : ∀ t : Fin cfg12.N, cond12_0 (grid12.coords t) ↔ t.val = 0 :=
  (by decide +kernel : ∀ t : Fin grid12.N, cond12_0 (grid12.coords t) ↔ t.val = 0)

/-- The copying branch's condition: the coordinate is the last. -/
abbrev cond12_1 (i : grid12.Coords) : Prop := k12_cond2 i = 1#1
/-- It holds at the last point only. -/
theorem hcond12_1 : ∀ t : Fin cfg12.N, cond12_1 (grid12.coords t) ↔ t.val = 24 :=
  (by decide +kernel : ∀ t : Fin grid12.N, cond12_1 (grid12.coords t) ↔ t.val = 24)

/-! ## Where the windows are idle -/

theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel
theorem liveAt12_3 : ∀ t : Fin cfg12.N, cfg12.idle 3 (grid12.coords t) = false := by decide +kernel
/-- Away from the last point the statistics window is idle (the body stores nothing into it) and not written back. -/
theorem idleAt12_4 : ∀ t : Fin cfg12.N, ¬cond12_1 (grid12.coords t) → cfg12.idle 4 (grid12.coords t) = true := by decide +kernel
theorem noFlush12_4 : ∀ t : Fin cfg12.N, ¬cond12_1 (grid12.coords t) → (cfg12.win 4).flush t = false := by decide +kernel
/-- At the last point it is live. -/
theorem liveAt12_4 : ∀ t : Fin cfg12.N, cond12_1 (grid12.coords t) → cfg12.idle 4 (grid12.coords t) = false := by decide +kernel

/-! ## The staging memrefs the body is called with, and the scratch row -/

/-- One staging buffer of each output window, through which its contents are stated (the choice does not matter). -/
abbrev VO12_3 : View sig .tc .vmem S2000x512 .f32 := (Memref.whole cc12_stg3_0 : Memref sig .tc .vmem S2000x512 .f32).view
abbrev VO12_4 : View sig .tc .vmem S1x1024 .f32 := (Memref.whole cc12_stg4_0 : Memref sig .tc .vmem S1x1024 .f32).view
/-- Each window's current staging memref at point `t`, spelled as the pipeline passes it, and its wholeness. -/
abbrev ms12_0 (t : Fin cfg12.N) : Memref sig .tc .vmem S2000x256 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S2000x256 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S256x512 .bf16 := win12_2.stage (cfg12.slots t 2)
abbrev hs12_2 (t : Fin cfg12.N) : (ms12_2 t).IsWhole := hstage12_2 ((cfg12.slots t 2).cast nbuf12_2)
abbrev ms12_3 (t : Fin cfg12.N) : Memref sig .tc .vmem S2000x512 .f32 := win12_3.stage (cfg12.slots t 3)
abbrev hs12_3 (t : Fin cfg12.N) : (ms12_3 t).IsWhole := hstage12_3 ((cfg12.slots t 3).cast nbuf12_3)
abbrev ms12_4 (t : Fin cfg12.N) : Memref sig .tc .vmem S1x1024 .f32 := win12_4.stage (cfg12.slots t 4)
abbrev hs12_4 (t : Fin cfg12.N) : (ms12_4 t).IsWhole := hstage12_4 ((cfg12.slots t 4).cast nbuf12_4)
/-- The scratch row: a whole scoped buffer of the kernel's own, passed beside the windows. -/
abbrev scM12_0 : Memref sig .tc .vmem S1x1024 .f32 := Memref.whole cc12_scratch0
/-- The same as a view: what the row holds is stated through it. -/
abbrev VS12_0 : View sig .tc .vmem S1x1024 .f32 := scM12_0.view

/-- The other scoped buffers of the core (no staging buffer of this pipeline, not the scratch row), unopened. -/
abbrev restBut12 (c : Dev nD) : sProp 𝕄 :=
  Pipeline.scopedRestBut (Ix := Unit) (Name := ℕ) (U := Pipeline.UD sig nD τ) (Lvl := ℕ) (Val := Elt F) spec12 c [cc12_scratch0]

/-- The region's invariant with the scratch row as a memref owned at some contents. -/
theorem PhiA12_eq (c : Dev nD) :
    (Pipeline.ΦA spec12 c : sProp 𝕄)
      = iprop(iprop((∃ d, owns (c : Thread nD τ) scM12_0 fullShare d) ∗ restBut12 (F := F) c) ∗ (∃ r, prngReg c r)) := by
  unfold Pipeline.ΦA; rw [scopedRest12_split]; simp only [scM12_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun12_A (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i)
    (x0 : Vec F S2000x256 .f32) (x1 : Vec F S2000x256 .f32) (x2 : Vec F S256x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc12__stage1_kernel i arg1 harg1 arg2 harg2 arg3 harg3 arg4 harg4 arg5 harg5 arg6 harg6) K } := by
  refine ⟨?_, ?_, fun xi4 E K => ?run⟩
  case run =>
    simp only [cc12__stage1_kernel_eq_skeleton]; unfold cc12__stage1_kernel_skel
    simp only [k12_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun12_B (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i)
    (x0 : Vec F S2000x256 .f32) (x1 : Vec F S2000x256 .f32) (x2 : Vec F S256x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc12__stage1_kernel i arg1 harg1 arg2 harg2 arg3 harg3 arg4 harg4 arg5 harg5 arg6 harg6) K } := by
  refine ⟨?_, ?_, fun xi4 E K => ?run⟩
  case run =>
    simp only [cc12__stage1_kernel_eq_skeleton]; unfold cc12__stage1_kernel_skel
    simp only [k12_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun12_C (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc12__stage1_kernel i arg1 harg1 arg2 harg2 arg3 harg3 arg4 harg4 arg5 harg5 arg6 harg6) K } := by
  refine ⟨?_, ?_, ?_, fun E K => ?run⟩
  case run =>
    simp only [cc12__stage1_kernel_eq_skeleton]; unfold cc12__stage1_kernel_skel
    simp only [k12_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover12_A_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i)
    (x0 : Vec F S2000x256 .f32) (x1 : Vec F S2000x256 .f32) (x2 : Vec F S256x512 .bf16) (y : S2000x512.Idx) :
    ∃ pc ∈ (kernelRun12_A c i arg1 harg1 arg2 harg2 arg3 harg3 arg4 harg4 arg5 harg5 arg6 harg6 hc0 hc1 x0 x1 x2).1, y ∈ pc.1.set :=
  View.cover_of_tiledL (kernelRun12_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out12_A_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i)
    (x0 : Vec F S2000x256 .f32) (x1 : Vec F S2000x256 .f32) (x2 : Vec F S256x512 .bf16) : Vec F S2000x512 .f32 :=
  VO12_3.read (Elt F) (VO12_3.writes (Elt F) VO12_3.junk (kernelRun12_A c i arg1 harg1 arg2 harg2 arg3 harg3 arg4 harg4 arg5 harg5 arg6 harg6 hc0 hc1 x0 x1 x2).1)

/-- The first point's pieces for the scratch row cover it: the zeroing store is the whole row. -/
theorem scover12_A_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i)
    (x0 : Vec F S2000x256 .f32) (x1 : Vec F S2000x256 .f32) (x2 : Vec F S256x512 .bf16) (y : S1x1024.Idx) :
    ∃ pc ∈ (kernelRun12_A c i arg1 harg1 arg2 harg2 arg3 harg3 arg4 harg4 arg5 harg5 arg6 harg6 hc0 hc1 x0 x1 x2).2.1, y ∈ pc.1.set :=
  View.cover_of_tiledL (kernelRun12_A c i arg1 harg1 arg2 harg2 arg3 harg3 arg4 harg4 arg5 harg5 arg6 harg6 hc0 hc1 x0 x1 x2).2.1 S1x1024.size (by sl_kernel_rfl) y

/-- What the first point leaves in the scratch row. -/
def sout12_A_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i)
    (x0 : Vec F S2000x256 .f32) (x1 : Vec F S2000x256 .f32) (x2 : Vec F S256x512 .bf16) : Vec F S1x1024 .f32 :=
  VS12_0.read (Elt F) (VS12_0.writes (Elt F) VS12_0.junk (kernelRun12_A c i arg1 harg1 arg2 harg2 arg3 harg3 arg4 harg4 arg5 harg5 arg6 harg6 hc0 hc1 x0 x1 x2).2.1)

/-- A middle point's pieces for the output block tile it. -/
theorem cover12_B_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i)
    (x0 : Vec F S2000x256 .f32) (x1 : Vec F S2000x256 .f32) (x2 : Vec F S256x512 .bf16) (xs0 : Vec F S1x1024 .f32) (y : S2000x512.Idx) :
    ∃ pc ∈ (kernelRun12_B c i arg1 harg1 arg2 harg2 arg3 harg3 arg4 harg4 arg5 harg5 arg6 harg6 hc0 hc1 x0 x1 x2 xs0).1, y ∈ pc.1.set :=
  View.cover_of_tiledL (kernelRun12_B c i arg1 harg1 arg2 harg2 arg3 harg3 arg4 harg4 arg5 harg5 arg6 harg6 hc0 hc1 x0 x1 x2 xs0).1 S2000x512.size (by sl_kernel_rfl) y

/-- What a middle point leaves in the output block's staging buffer. -/
def out12_B_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i)
    (x0 : Vec F S2000x256 .f32) (x1 : Vec F S2000x256 .f32) (x2 : Vec F S256x512 .bf16) (xs0 : Vec F S1x1024 .f32) : Vec F S2000x512 .f32 :=
  VO12_3.read (Elt F) (VO12_3.writes (Elt F) VO12_3.junk (kernelRun12_B c i arg1 harg1 arg2 harg2 arg3 harg3 arg4 harg4 arg5 harg5 arg6 harg6 hc0 hc1 x0 x1 x2 xs0).1)

/-- A middle point's pieces for the scratch row tile it: the two half-row stores. -/
theorem scover12_B_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i)
    (x0 : Vec F S2000x256 .f32) (x1 : Vec F S2000x256 .f32) (x2 : Vec F S256x512 .bf16) (xs0 : Vec F S1x1024 .f32) (y : S1x1024.Idx) :
    ∃ pc ∈ (kernelRun12_B c i arg1 harg1 arg2 harg2 arg3 harg3 arg4 harg4 arg5 harg5 arg6 harg6 hc0 hc1 x0 x1 x2 xs0).2.1, y ∈ pc.1.set :=
  View.cover_of_tiledL (kernelRun12_B c i arg1 harg1 arg2 harg2 arg3 harg3 arg4 harg4 arg5 harg5 arg6 harg6 hc0 hc1 x0 x1 x2 xs0).2.1 S1x512.size (by sl_kernel_rfl) y

/-- What a middle point leaves in the scratch row. -/
def sout12_B_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i)
    (x0 : Vec F S2000x256 .f32) (x1 : Vec F S2000x256 .f32) (x2 : Vec F S256x512 .bf16) (xs0 : Vec F S1x1024 .f32) : Vec F S1x1024 .f32 :=
  VS12_0.read (Elt F) (VS12_0.writes (Elt F) VS12_0.junk (kernelRun12_B c i arg1 harg1 arg2 harg2 arg3 harg3 arg4 harg4 arg5 harg5 arg6 harg6 hc0 hc1 x0 x1 x2 xs0).2.1)

/-- The last point's pieces for the output block tile it. -/
theorem cover12_C_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) (y : S2000x512.Idx) :
    ∃ pc ∈ (kernelRun12_C c i arg1 harg1 arg2 harg2 arg3 harg3 arg4 harg4 arg5 harg5 arg6 harg6 hc0 hc1 x0 x1 x2 xs0).1, y ∈ pc.1.set :=
  View.cover_of_tiledL (kernelRun12_C c i arg1 harg1 arg2 harg2 arg3 harg3 arg4 harg4 arg5 harg5 arg6 harg6 hc0 hc1 x0 x1 x2 xs0).1 S2000x512.size (by sl_kernel_rfl) y

/-- What the last point leaves in the output block's staging buffer. -/
def out12_C_3 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) : Vec F S2000x512 .f32 :=
  VO12_3.read (Elt F) (VO12_3.writes (Elt F) VO12_3.junk (kernelRun12_C c i arg1 harg1 arg2 harg2 arg3 harg3 arg4 harg4 arg5 harg5 arg6 harg6 hc0 hc1 x0 x1 x2 xs0).1)

/-- The last point's pieces for the statistics block tile it: the copy of the whole scratch row. -/
theorem cover12_C_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) (y : S1x1024.Idx) :
    ∃ pc ∈ (kernelRun12_C c i arg1 harg1 arg2 harg2 arg3 harg3 arg4 harg4 arg5 harg5 arg6 harg6 hc0 hc1 x0 x1 x2 xs0).2.1, y ∈ pc.1.set :=
  View.cover_of_tiledL (kernelRun12_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out12_C_4 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) : Vec F S1x1024 .f32 :=
  VO12_4.read (Elt F) (VO12_4.writes (Elt F) VO12_4.junk (kernelRun12_C c i arg1 harg1 arg2 harg2 arg3 harg3 arg4 harg4 arg5 harg5 arg6 harg6 hc0 hc1 x0 x1 x2 xs0).2.1)

/-- The last point's pieces for the scratch row tile it: the two half-row stores. -/
theorem scover12_C_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) (y : S1x1024.Idx) :
    ∃ pc ∈ (kernelRun12_C c i arg1 harg1 arg2 harg2 arg3 harg3 arg4 harg4 arg5 harg5 arg6 harg6 hc0 hc1 x0 x1 x2 xs0).2.2.1, y ∈ pc.1.set :=
  View.cover_of_tiledL (kernelRun12_C c i arg1 harg1 arg2 harg2 arg3 harg3 arg4 harg4 arg5 harg5 arg6 harg6 hc0 hc1 x0 x1 x2 xs0).2.2.1 S1x512.size (by sl_kernel_rfl) y

/-- What the last point leaves in the scratch row. -/
def sout12_C_0 (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i)
    (x0 : Vec F S2000x256 .f32) (x1 : Vec F S2000x256 .f32) (x2 : Vec F S256x512 .bf16) (xs0 : Vec F S1x1024 .f32) : Vec F S1x1024 .f32 :=
  VS12_0.read (Elt F) (VS12_0.writes (Elt F) VS12_0.junk (kernelRun12_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut12_4 : Vec F S1x1024 .f32 := VO12_4.read (Elt F) VO12_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt12 (c : Dev nD) : (n : ℕ) → n < cfg12.N → Vec F S2000x512 .f32 × Vec F S1x1024 .f32 × Vec F S1x1024 .f32
  | 0, hn => (out12_A_3 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) scM12_0 (Memref.isWhole_whole _) ((hcond12_0 ⟨0, hn⟩).mpr rfl) (fun h => (fun h => by (try dsimp only at h); omega) ((hcond12_1 ⟨0, hn⟩).mp h)) (iblk12 V c 0 ⟨0, hn⟩) (iblk12 V c 1 ⟨0, hn⟩) (iblk12 V c 2 ⟨0, hn⟩), idleOut12_4, sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) scM12_0 (Memref.isWhole_whole _) ((hcond12_0 ⟨0, hn⟩).mpr rfl) (fun h => (fun h => by (try dsimp only at h); omega) ((hcond12_1 ⟨0, hn⟩).mp h)) (iblk12 V c 0 ⟨0, hn⟩) (iblk12 V c 1 ⟨0, hn⟩) (iblk12 V c 2 ⟨0, hn⟩))
  | n + 1, hn =>
    if h1 : n + 1 = 24 then
      (out12_C_3 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => absurd ((hcond12_0 ⟨n + 1, hn⟩).mp h) (Nat.succ_ne_zero n)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2, out12_C_4 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => absurd ((hcond12_0 ⟨n + 1, hn⟩).mp h) (Nat.succ_ne_zero n)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2, sout12_C_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => absurd ((hcond12_0 ⟨n + 1, hn⟩).mp h) (Nat.succ_ne_zero n)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2)
    else
      (out12_B_3 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => absurd ((hcond12_0 ⟨n + 1, hn⟩).mp h) (Nat.succ_ne_zero n)) (fun h => h1 ((hcond12_1 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2, idleOut12_4, sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => absurd ((hcond12_0 ⟨n + 1, hn⟩).mp h) (Nat.succ_ne_zero n)) (fun h => h1 ((hcond12_1 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2)

/-- `outsAt12` at the first point. -/
theorem outsAt12_A (c : Dev nD) (t : Fin cfg12.N) (h0 : t.val = 0) (h1 : ¬t.val = 24) :
    outsAt12 V c t.val t.isLt = (out12_A_3 c (grid12.coords t) (ms12_0 t) (hs12_0 t) (ms12_1 t) (hs12_1 t) (ms12_2 t) (hs12_2 t) (ms12_3 t) (hs12_3 t) (ms12_4 t) (hs12_4 t) scM12_0 (Memref.isWhole_whole _) ((hcond12_0 t).mpr h0) (fun h => h1 ((hcond12_1 t).mp h)) (iblk12 V c 0 t) (iblk12 V c 1 t) (iblk12 V c 2 t), idleOut12_4, sout12_A_0 c (grid12.coords t) (ms12_0 t) (hs12_0 t) (ms12_1 t) (hs12_1 t) (ms12_2 t) (hs12_2 t) (ms12_3 t) (hs12_3 t) (ms12_4 t) (hs12_4 t) scM12_0 (Memref.isWhole_whole _) ((hcond12_0 t).mpr h0) (fun h => h1 ((hcond12_1 t).mp h)) (iblk12 V c 0 t) (iblk12 V c 1 t) (iblk12 V c 2 t)) := by
  obtain ⟨n, hn⟩ := t
  cases n with
  | zero => exact rfl
  | succ n => exact absurd h0 (Nat.succ_ne_zero n)

/-- `outsAt12` at a middle point: that case's contents, over the scratch row the point before left. -/
theorem outsAt12_B (c : Dev nD) (t : Fin cfg12.N) (h0 : ¬t.val = 0) (h1 : ¬t.val = 24) :
    outsAt12 V c t.val t.isLt = (out12_B_3 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) (fun h => h1 ((hcond12_1 t).mp h)) (iblk12 V c 0 t) (iblk12 V c 1 t) (iblk12 V c 2 t) (outsAt12 V c (t.val - 1) (Nat.lt_of_le_of_lt (Nat.sub_le _ _) t.isLt)).2.2, idleOut12_4, sout12_B_0 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) (fun h => h1 ((hcond12_1 t).mp h)) (iblk12 V c 0 t) (iblk12 V c 1 t) (iblk12 V c 2 t) (outsAt12 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt12` at the last point. -/
theorem outsAt12_C (c : Dev nD) (t : Fin cfg12.N) (h0 : ¬t.val = 0) (h1 : t.val = 24) :
    outsAt12 V c t.val t.isLt = (out12_C_3 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2, out12_C_4 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2, sout12_C_0 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS12 (c : Dev nD) : (n : ℕ) → n ≤ cfg12.N → sProp 𝕄
  | 0, _ => Pipeline.ΦA spec12 c
  | n + 1, hn => iprop(iprop(owns (c : Thread nD τ) scM12_0 fullShare ((outsAt12 V c n hn).2.2) ∗ restBut12 (F := F) c) ∗ (∃ r, prngReg c r))

theorem PhiS12_zero (c : Dev nD) (n : ℕ) (h : n ≤ cfg12.N) (hz : n = 0) : PhiS12 V c n h = Pipeline.ΦA spec12 c := by
  subst hz; rfl

theorem PhiS12_succ (c : Dev nD) (n : ℕ) (hn : n < cfg12.N) :
    PhiS12 V c (n + 1) hn = iprop(iprop(owns (c : Thread nD τ) scM12_0 fullShare ((outsAt12 V c n hn).2.2) ∗ restBut12 (F := F) c) ∗ (∃ r, prngReg c r)) := rfl

theorem PhiS12_pos (c : Dev nD) (n : ℕ) (h : n ≤ cfg12.N) (hz : n ≠ 0) :
    PhiS12 V c n h = iprop(iprop(owns (c : Thread nD τ) scM12_0 fullShare ((outsAt12 V c (n - 1) (by omega)).2.2) ∗ restBut12 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt12`'s components; the invariant `PhiS12`; nothing owed; full
    shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => (outsAt12 V c t.val t.isLt).1
    | ⟨4, _⟩ => (outsAt12 V c t.val t.isLt).2.1
  Φ t := PhiS12 V c t.val (Nat.le_of_lt_succ t.isLt)
  q _ := fullShare
  owed _ := 0

/-- The proof data's arrays are the region-entry contents. -/
theorem A_eq12 (c : Dev nD) (w : Fin cfg12.W) : (dat12 V c).A w = V c (Pipeline.arrRef spec12 w) := by
  dsimp only [dat12]

/-- The invariant at a point's start, restated at `t.val`. -/
theorem PhiS12_castSucc (c : Dev nD) (t : Fin cfg12.N) :
    (dat12 V c).Φ t.castSucc = PhiS12 V c t.val (Nat.le_of_lt t.isLt) := by
  dsimp only [dat12]; simp only [Fin.coe_castSucc]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = (outsAt12 V c t.val t.isLt).1 := by dsimp only [dat12]
theorem after12_4 (c : Dev nD) (t : Fin cfg12.N) : (dat12 V c).after 4 t = (outsAt12 V c t.val t.isLt).2.1 := by dsimp only [dat12]

/-- Each input's current staging buffer holds its block at every point. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d))
    ∗ (∃ d, owns (c : Thread nD τ) (ms12_3 t) fullShare ((dat12 V c).before 3 t d))
    ∗ (∃ d, owns (c : Thread nD τ) (ms12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t
    ∗ (dat12 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).owesAt () t.succ = (dat12 V c).owesAt () t.castSucc from rfl]
  rw [show (dat12 V c).Φ t.succ = PhiS12 V c (t.val + 1) t.isLt from rfl, PhiS12_succ]
  have hN : t.val < 25 := lt_of_lt_of_eq t.isLt (show cfg12.N = 25 from N_12)
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  rw [show (dat12 V c).leavesExact 2 t = owns (c : Thread nD τ) (ms12_2 t) fullShare ((dat12 V c).after 2 t) from by
    unfold Dat.leavesExact; rw [liveAt12_2 t], after12_2]
  rw [show (dat12 V c).leavesExact 3 t = owns (c : Thread nD τ) (ms12_3 t) fullShare ((dat12 V c).after 3 t) from by
    unfold Dat.leavesExact; rw [liveAt12_3 t], after12_3]
  by_cases h0 : t.val = 0
  · have h1 : ¬t.val = 24 := by omega
    rw [Dat.leavesExact_idle (dat12 V c) 4 t (idleAt12_4 t (fun h => h1 ((hcond12_1 t).mp h))) (noFlush12_4 t (fun h => h1 ((hcond12_1 t).mp h)))]
    rw [outsAt12_A V c t h0 h1]
    unfold out12_A_3 sout12_A_0; (try dsimp only)
    rw [PhiS12_castSucc V c t, PhiS12_zero V c _ _ h0, PhiA12_eq]
    iintro ⟨⟨⟨HS0, HR⟩, Hg⟩, Ho, ⟨%d0, H0⟩, ⟨%d1, H1⟩, ⟨%d2, H2⟩, ⟨%d3, H3⟩, ⟨%d4, H4⟩⟩
    iapply ((kernelRun12_A c (grid12.coords t) _ _ _ _ _ _ _ _ _ _ _ _ ((hcond12_0 t).mpr h0) (fun h => h1 ((hcond12_1 t).mp h)) (iblk12 V c 0 t) (iblk12 V c 1 t) (iblk12 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover12_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover12_A_3 c _ _ _ _ _ _ _ _ _ _ _ _ _ _ _ _ _ _)
    iexists _; iexact H4
  · by_cases h1 : t.val = 24
    · rw [show (dat12 V c).leavesExact 4 t = owns (c : Thread nD τ) (ms12_4 t) fullShare ((dat12 V c).after 4 t) from by
        unfold Dat.leavesExact; rw [liveAt12_4 t ((hcond12_1 t).mpr h1)], after12_4]
      rw [outsAt12_C V c t h0 h1]
      unfold out12_C_3 out12_C_4 sout12_C_0; (try dsimp only)
      rw [PhiS12_castSucc V c t, PhiS12_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun12_C c (grid12.coords t) _ _ _ _ _ _ _ _ _ _ _ _ (fun h => h0 ((hcond12_0 t).mp h)) ((hcond12_1 t).mpr h1) (iblk12 V c 0 t) (iblk12 V c 1 t) (iblk12 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover12_C_3 c _ _ _ _ _ _ _ _ _ _ _ _ _ _ _ _ _ _ _)
      unfold owns; iexists _; isplitr
      swap; · iexact H4
      ipureintro; exact View.read_writes_of_cover _ _ _ _ _ (cover12_C_4 c _ _ _ _ _ _ _ _ _ _ _ _ _ _ _ _ _ _ _)
    · rw [Dat.leavesExact_idle (dat12 V c) 4 t (idleAt12_4 t (fun h => h1 ((hcond12_1 t).mp h))) (noFlush12_4 t (fun h => h1 ((hcond12_1 t).mp h)))]
      rw [outsAt12_B V c t h0 h1]
      unfold out12_B_3 sout12_B_0; (try dsimp only)
      rw [PhiS12_castSucc V c t, PhiS12_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun12_B c (grid12.coords t) _ _ _ _ _ _ _ _ _ _ _ _ (fun h => h0 ((hcond12_0 t).mp h)) (fun h => h1 ((hcond12_1 t).mp h)) (iblk12 V c 0 t) (iblk12 V c 1 t) (iblk12 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover12_B_3 c _ _ _ _ _ _ _ _ _ _ _ _ _ _ _ _ _ _ _)
      iexists _; iexact H4

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- What the launch hands the region is the invariant before the first point. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After any point but the first the invariant gives the launch's back: the scratch row's contents are forgotten. -/
theorem Phi_out12 (c : Dev nD) (t : Fin (cfg12.N + 1)) (ht : t.val ≠ 0) : (dat12 V c).Φ t ⊢ Pipeline.ΦA spec12 c := by
  rw [show (dat12 V c).Φ t = PhiS12 V c t.val (Nat.le_of_lt_succ t.isLt) from rfl, PhiS12_pos V c _ _ ht, PhiA12_eq]
  iintro ⟨⟨HS0, HR⟩, Hg⟩
  isplitl [HS0 HR]
  · isplitl [HS0]
    · iexists _; iexact HS0
    iexact HR
  iexact Hg

/-- The same after the last point. -/
theorem hout12 (c : Dev nD) : (dat12 V c).Φ (Fin.last cfg12.N) ⊢ Pipeline.ΦA spec12 c :=
  Phi_out12 V c _ (by rw [Fin.val_last]; have : cfg12.N = 25 := N_12; omega)

end Cert.KernelIdeal.Hand

end
-- ==== Proof.KI.Reg13.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond13_0 (i : grid13.Coords) : Prop :=
  (Scalar.cmpi .ne (Scalar.extui (Scalar.cmpi .eq (BitVec.ofNat 32 (i 0).val) 0#32)) 0#32) = 1#1
/-- It holds at point 0 only. -/
theorem hcond13_0 : ∀ t : Fin cfg13.N, cond13_0 (grid13.coords t) ↔ t.val = 0 :=
  (by decide +kernel : ∀ t : Fin grid13.N, cond13_0 (grid13.coords t) ↔ t.val = 0)

/-- The body's second condition: the point is the grid's last. -/
abbrev cond13_1 (i : grid13.Coords) : Prop := k13_cond2 i = 1#1
/-- It holds at point 24 only. -/
theorem hcond13_1 : ∀ t : Fin cfg13.N, cond13_1 (grid13.coords t) ↔ t.val = 24 :=
  (by decide +kernel : ∀ t : Fin grid13.N, cond13_1 (grid13.coords t) ↔ t.val = 24)

/-! ## Where the windows are idle -/

theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
theorem liveAt13_3 : ∀ t : Fin cfg13.N, cfg13.idle 3 (grid13.coords t) = false := by decide +kernel
theorem liveAt13_4 : ∀ t : Fin cfg13.N, cfg13.idle 4 (grid13.coords t) = false := by decide +kernel
theorem liveAt13_5 : ∀ t : Fin cfg13.N, cfg13.idle 5 (grid13.coords t) = false := by decide +kernel
theorem liveAt13_6 : ∀ t : Fin cfg13.N, cfg13.idle 6 (grid13.coords t) = false := by decide +kernel
/-- At the first point the statistics window is idle, and its block is not written back there. -/
theorem idleAt13_7_A : ∀ t : Fin cfg13.N, cond13_0 (grid13.coords t) → ¬cond13_1 (grid13.coords t) → cfg13.idle 7 (grid13.coords t) = true := by decide +kernel
theorem noFlush13_7_A : ∀ t : Fin cfg13.N, cond13_0 (grid13.coords t) → ¬cond13_1 (grid13.coords t) → (cfg13.win 7).flush t = false := by decide +kernel
/-- At the points between, the same. -/
theorem idleAt13_7_B : ∀ t : Fin cfg13.N, ¬cond13_0 (grid13.coords t) → ¬cond13_1 (grid13.coords t) → cfg13.idle 7 (grid13.coords t) = true := by decide +kernel
theorem noFlush13_7_B : ∀ t : Fin cfg13.N, ¬cond13_0 (grid13.coords t) → ¬cond13_1 (grid13.coords t) → (cfg13.win 7).flush t = false := by decide +kernel
/-- At the last point the statistics window is live. -/
theorem liveAt13_7_C : ∀ t : Fin cfg13.N, ¬cond13_0 (grid13.coords t) → cond13_1 (grid13.coords t) → cfg13.idle 7 (grid13.coords t) = false := by decide +kernel

/-! ## The staging memrefs, the accumulator, and the views the results are stated through -/

abbrev ms13_0 (t : Fin cfg13.N) : Memref sig .tc .vmem S2000x512 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1x512 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x512 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S1x512 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S1x512 .f32 := win13_4.stage (cfg13.slots t 4)
abbrev hs13_4 (t : Fin cfg13.N) : (ms13_4 t).IsWhole := hstage13_4 ((cfg13.slots t 4).cast nbuf13_4)
abbrev ms13_5 (t : Fin cfg13.N) : Memref sig .tc .vmem S512x256 .bf16 := win13_5.stage (cfg13.slots t 5)
abbrev hs13_5 (t : Fin cfg13.N) : (ms13_5 t).IsWhole := hstage13_5 ((cfg13.slots t 5).cast nbuf13_5)
abbrev ms13_6 (t : Fin cfg13.N) : Memref sig .tc .vmem S2000x256 .f32 := win13_6.stage (cfg13.slots t 6)
abbrev hs13_6 (t : Fin cfg13.N) : (ms13_6 t).IsWhole := hstage13_6 ((cfg13.slots t 6).cast nbuf13_6)
abbrev ms13_7 (t : Fin cfg13.N) : Memref sig .tc .vmem S1x512 .f32 := win13_7.stage (cfg13.slots t 7)
abbrev hs13_7 (t : Fin cfg13.N) : (ms13_7 t).IsWhole := hstage13_7 ((cfg13.slots t 7).cast nbuf13_7)
/-- The accumulator: a whole scoped buffer of the kernel's own, carried from point to point. -/
abbrev scM13_0 : Memref sig .tc .vmem S1x512 .f32 := Memref.whole cc13_scratch0
abbrev VS13_0 : View sig .tc .vmem S1x512 .f32 := scM13_0.view
/-- One staging buffer of each output window, through which its contents are stated (the choice does not matter). -/
abbrev VO13_6 : View sig .tc .vmem S2000x256 .f32 := (Memref.whole cc13_stg6_0 : Memref sig .tc .vmem S2000x256 .f32).view
abbrev VO13_7 : View sig .tc .vmem S1x512 .f32 := (Memref.whole cc13_stg7_0 : Memref sig .tc .vmem S1x512 .f32).view

/-- The class's invariant with the accumulator opened as a memref owned at some contents; every other scoped buffer
    stays closed. -/
theorem PhiA13_eq (c : Dev nD) :
    (Pipeline.ΦA spec13 c : sProp 𝕄)
      = iprop(iprop((∃ d, owns (c : Thread nD τ) scM13_0 fullShare d)
          ∗ Pipeline.scopedRestBut (Ix := Unit) (Name := ℕ) (U := Pipeline.UD sig nD τ) (Lvl := ℕ) (Val := Elt F) spec13 c [cc13_scratch0])
          ∗ (∃ r, prngReg c r)) := by
  unfold Pipeline.ΦA; rw [scopedRest13_split]; simp only [scM13_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun13_A (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond13_0 i) (hc1 : ¬cond13_1 i)
    (x0 : Vec F S2000x512 .f32) (x1 : Vec F S1x512 .f32) (x2 : Vec F S1x512 .f32) (x3 : Vec F S1x512 .f32) (x4 : Vec F S1x512 .f32) (x5 : Vec F S512x256 .bf16) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc13__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc13__stage2_kernel_eq_skeleton]; unfold cc13__stage2_kernel_skel
    simp only [k13_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun13_B (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond13_0 i) (hc1 : ¬cond13_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (xi7 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc13__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc13__stage2_kernel_eq_skeleton]; unfold cc13__stage2_kernel_skel
    simp only [k13_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun13_C (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond13_0 i) (hc1 : cond13_1 i)
    (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32) :
    Σ' (L6 : List (View.Piece (Elt F) S2000x256 .f32)) (L7 : List (View.Piece (Elt F) S1x512 .f32)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc13__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc13__stage2_kernel_eq_skeleton]; unfold cc13__stage2_kernel_skel
    simp only [k13_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : cond13_0 i) (hc1 : ¬cond13_1 i)
  (x0 : Vec F S2000x512 .f32) (x1 : Vec F S1x512 .f32) (x2 : Vec F S1x512 .f32) (x3 : Vec F S1x512 .f32) (x4 : Vec F S1x512 .f32) (x5 : Vec F S512x256 .bf16)

/-- At the first point the one store into the product window covers its block. -/
theorem cover13_A_6 (y : S2000x256.Idx) :
    ∃ pc ∈ (kernelRun13_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun13_A c i arg1 harg1 arg2 harg2 arg3 harg3 arg4 harg4 arg5 harg5 arg6 harg6 arg7 harg7 arg8 harg8 arg9 harg9 hc0 hc1 x0 x1 x2 x3 x4 x5).1 S2000x256.size (by sl_kernel_rfl) y

/-- What the first point leaves in the product window: its pieces read back. -/
def out13_A_6 : Vec F S2000x256 .f32 :=
  VO13_6.read (Elt F) (VO13_6.writes (Elt F) VO13_6.junk (kernelRun13_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out13_A_7 : Vec F S1x512 .f32 :=
  VO13_7.read (Elt F) (VO13_7.writes (Elt F) VO13_7.junk (kernelRun13_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover13_A_0 (y : S1x512.Idx) :
    ∃ pc ∈ (kernelRun13_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun13_A c i arg1 harg1 arg2 harg2 arg3 harg3 arg4 harg4 arg5 harg5 arg6 harg6 arg7 harg7 arg8 harg8 arg9 harg9 hc0 hc1 x0 x1 x2 x3 x4 x5).2.2.1 S1x512.size (by sl_kernel_rfl) y

/-- What the first point leaves in the accumulator. -/
def sout13_A_0 : Vec F S1x512 .f32 :=
  VS13_0.read (Elt F) (VS13_0.writes (Elt F) VS13_0.junk (kernelRun13_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond13_0 i) (hc1 : ¬cond13_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At a point between the one store into the product window covers its block. -/
theorem cover13_B_6 (y : S2000x256.Idx) :
    ∃ pc ∈ (kernelRun13_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun13_B c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out13_B_6 : Vec F S2000x256 .f32 :=
  VO13_6.read (Elt F) (VO13_6.writes (Elt F) VO13_6.junk (kernelRun13_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out13_B_7 : Vec F S1x512 .f32 :=
  VO13_7.read (Elt F) (VO13_7.writes (Elt F) VO13_7.junk (kernelRun13_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover13_B_0 (y : S1x512.Idx) :
    ∃ pc ∈ (kernelRun13_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun13_B c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout13_B_0 : Vec F S1x512 .f32 :=
  VS13_0.read (Elt F) (VS13_0.writes (Elt F) VS13_0.junk (kernelRun13_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole) (hc0 : ¬cond13_0 i) (hc1 : cond13_1 i)
  (x0 : Vec F S2000x512 .f32) (x1 : Vec F S1x512 .f32) (x2 : Vec F S1x512 .f32) (x3 : Vec F S1x512 .f32) (x4 : Vec F S1x512 .f32) (x5 : Vec F S512x256 .bf16) (xs0 : Vec F S1x512 .f32)

/-- At the last point the one store into the product window covers its block. -/
theorem cover13_C_6 (y : S2000x256.Idx) :
    ∃ pc ∈ (kernelRun13_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 x4 x5 xs0).1 S2000x256.size (by sl_kernel_rfl) y

def out13_C_6 : Vec F S2000x256 .f32 :=
  VO13_6.read (Elt F) (VO13_6.writes (Elt F) VO13_6.junk (kernelRun13_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover13_C_7 (y : S1x512.Idx) :
    ∃ pc ∈ (kernelRun13_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 x4 x5 xs0).2.1 S1x512.size (by sl_kernel_rfl) y

/-- What the last point leaves in the statistics window. -/
def out13_C_7 : Vec F S1x512 .f32 :=
  VO13_7.read (Elt F) (VO13_7.writes (Elt F) VO13_7.junk (kernelRun13_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover13_C_0 (y : S1x512.Idx) :
    ∃ pc ∈ (kernelRun13_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun13_C c i arg1 harg1 arg2 harg2 arg3 harg3 arg4 harg4 arg5 harg5 arg6 harg6 arg7 harg7 arg8 harg8 arg9 harg9 hc0 hc1 x0 x1 x2 x3 x4 x5 xs0).2.2.1 S1x256.size (by sl_kernel_rfl) y

def sout13_C_0 : Vec F S1x512 .f32 :=
  VS13_0.read (Elt F) (VS13_0.writes (Elt F) VS13_0.junk (kernelRun13_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! ## The inputs' buffers hold their blocks at every point

An input window is never idle and the body leaves its block in place; so its current buffer holds what a fetch at the
point puts there whether or not one happened: where none did, the block index has not moved (the five row and weight
windows are fetched once, at the first point). -/

theorem before13_0_of {c : Dev nD} (dat : Dat τ (Elt F) Unit ℕ (Pipeline.UD sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (Pipeline.UD sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (Pipeline.UD sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
theorem before13_3_of {c : Dev nD} (dat : Dat τ (Elt F) Unit ℕ (Pipeline.UD sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)
theorem before13_4_of {c : Dev nD} (dat : Dat τ (Elt F) Unit ℕ (Pipeline.UD sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)
theorem before13_5_of {c : Dev nD} (dat : Dat τ (Elt F) Unit ℕ (Pipeline.UD sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## What the outputs and the accumulator hold after each point -/

/-- The first point is not the last, -/
theorem notLast13_of_first (t : Fin cfg13.N) (h0 : t.val = 0) : ¬cond13_1 (grid13.coords t) :=
  fun h => by have := (hcond13_1 t).mp h; omega

/-- The first point's results at the point's own memrefs and input blocks: the product block, the statistics
    placeholder, the accumulator. -/
def outsPt13_A (c : Dev nD) (t : Fin cfg13.N) (h0 : t.val = 0) : Vec F S2000x256 .f32 × Vec F S1x512 .f32 × Vec F S1x512 .f32 :=
  (out13_A_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) ((hcond13_0 t).mpr h0) (notLast13_of_first t h0) (iblk13 V c 0 t) (iblk13 V c 1 t) (iblk13 V c 2 t) (iblk13 V c 3 t) (iblk13 V c 4 t) (iblk13 V c 5 t),
   out13_A_7 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) ((hcond13_0 t).mpr h0) (notLast13_of_first t h0) (iblk13 V c 0 t) (iblk13 V c 1 t) (iblk13 V c 2 t) (iblk13 V c 3 t) (iblk13 V c 4 t) (iblk13 V c 5 t),
   sout13_A_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) ((hcond13_0 t).mpr h0) (notLast13_of_first t h0) (iblk13 V c 0 t) (iblk13 V c 1 t) (iblk13 V c 2 t) (iblk13 V c 3 t) (iblk13 V c 4 t) (iblk13 V c 5 t))

/-- A point between, over the accumulator xs0 the point before left. -/
def outsPt13_B (c : Dev nD) (t : Fin cfg13.N) (h0 : ¬t.val = 0) (h1 : ¬t.val = 24) (xs0 : Vec F S1x512 .f32) : Vec F S2000x256 .f32 × Vec F S1x512 .f32 × Vec F S1x512 .f32 :=
  (out13_B_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) (fun h => h1 ((hcond13_1 t).mp h)) (iblk13 V c 0 t) (iblk13 V c 1 t) (iblk13 V c 2 t) (iblk13 V c 3 t) (iblk13 V c 4 t) (iblk13 V c 5 t) xs0,
   out13_B_7 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) (fun h => h1 ((hcond13_1 t).mp h)) (iblk13 V c 0 t) (iblk13 V c 1 t) (iblk13 V c 2 t) (iblk13 V c 3 t) (iblk13 V c 4 t) (iblk13 V c 5 t) xs0,
   sout13_B_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) (fun h => h1 ((hcond13_1 t).mp h)) (iblk13 V c 0 t) (iblk13 V c 1 t) (iblk13 V c 2 t) (iblk13 V c 3 t) (iblk13 V c 4 t) (iblk13 V c 5 t) xs0)

/-- The last point, over the accumulator xs0 the point before left. -/
def outsPt13_C (c : Dev nD) (t : Fin cfg13.N) (h0 : ¬t.val = 0) (h1 : t.val = 24) (xs0 : Vec F S1x512 .f32) : Vec F S2000x256 .f32 × Vec F S1x512 .f32 × Vec F S1x512 .f32 :=
  (out13_C_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) ((hcond13_1 t).mpr h1) (iblk13 V c 0 t) (iblk13 V c 1 t) (iblk13 V c 2 t) (iblk13 V c 3 t) (iblk13 V c 4 t) (iblk13 V c 5 t) xs0,
   out13_C_7 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) ((hcond13_1 t).mpr h1) (iblk13 V c 0 t) (iblk13 V c 1 t) (iblk13 V c 2 t) (iblk13 V c 3 t) (iblk13 V c 4 t) (iblk13 V c 5 t) xs0,
   sout13_C_0 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (fun h => h0 ((hcond13_0 t).mp h)) ((hcond13_1 t).mpr h1) (iblk13 V c 0 t) (iblk13 V c 1 t) (iblk13 V c 2 t) (iblk13 V c 3 t) (iblk13 V c 4 t) (iblk13 V c 5 t) xs0)

/-- THE ACCUMULATION. What the product window, the statistics window and the accumulator hold after the body at
    position n: the case the position selects, run at the point's memrefs and input blocks, the accumulator it reads
    at what position n - 1 left. -/
def outsAt13 (c : Dev nD) : (n : ℕ) → n < cfg13.N → Vec F S2000x256 .f32 × Vec F S1x512 .f32 × Vec F S1x512 .f32
  | 0, hn => outsPt13_A V c ⟨0, hn⟩ rfl
  | n + 1, hn =>
    if h1 : n + 1 = 24 then
      outsPt13_C V c ⟨n + 1, hn⟩ (Nat.succ_ne_zero n) h1 (outsAt13 c n (Nat.lt_of_succ_lt hn)).2.2
    else
      outsPt13_B V c ⟨n + 1, hn⟩ (Nat.succ_ne_zero n) h1 (outsAt13 c n (Nat.lt_of_succ_lt hn)).2.2

/-- outsAt13 at the first point. -/
theorem outsAt13_A (c : Dev nD) (t : Fin cfg13.N) (h0 : t.val = 0) :
    outsAt13 V c t.val t.isLt = outsPt13_A V c t h0 := by
  obtain ⟨n, hn⟩ := t
  cases n with
  | zero => exact rfl
  | succ n => exact absurd h0 (Nat.succ_ne_zero n)

/-- outsAt13 at a point between: over what the point before left in the accumulator. -/
theorem outsAt13_B (c : Dev nD) (t : Fin cfg13.N) (h0 : ¬t.val = 0) (h1 : ¬t.val = 24) :
    outsAt13 V c t.val t.isLt = outsPt13_B V c t h0 h1 (outsAt13 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt13 at the last point: over what the point before left in the accumulator. -/
theorem outsAt13_C (c : Dev nD) (t : Fin cfg13.N) (h0 : ¬t.val = 0) (h1 : t.val = 24) :
    outsAt13 V c t.val t.isLt = outsPt13_C V c t h0 h1 (outsAt13 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS13 (c : Dev nD) : (n : ℕ) → n ≤ cfg13.N → sProp 𝕄
  | 0, _ => Pipeline.ΦA spec13 c
  | n + 1, hn => iprop(iprop(owns (c : Thread nD τ) scM13_0 fullShare ((outsAt13 V c n hn).2.2)
      ∗ Pipeline.scopedRestBut (Ix := Unit) (Name := ℕ) (U := Pipeline.UD sig nD τ) (Lvl := ℕ) (Val := Elt F) spec13 c [cc13_scratch0])
      ∗ (∃ r, prngReg c r))

theorem PhiS13_zero (c : Dev nD) (n : ℕ) (h : n ≤ cfg13.N) (hz : n = 0) : PhiS13 V c n h = Pipeline.ΦA spec13 c := by
  subst hz; rfl

theorem PhiS13_succ (c : Dev nD) (n : ℕ) (hn : n < cfg13.N) :
    PhiS13 V c (n + 1) hn = iprop(iprop(owns (c : Thread nD τ) scM13_0 fullShare ((outsAt13 V c n hn).2.2)
      ∗ Pipeline.scopedRestBut (Ix := Unit) (Name := ℕ) (U := Pipeline.UD sig nD τ) (Lvl := ℕ) (Val := Elt F) spec13 c [cc13_scratch0])
      ∗ (∃ r, prngReg c r)) := rfl

theorem PhiS13_pos (c : Dev nD) (n : ℕ) (h : n ≤ cfg13.N) (hz : n ≠ 0) :
    PhiS13 V c n h = iprop(iprop(owns (c : Thread nD τ) scM13_0 fullShare ((outsAt13 V c (n - 1) (by omega)).2.2)
      ∗ Pipeline.scopedRestBut (Ix := Unit) (Name := ℕ) (U := Pipeline.UD sig nD τ) (Lvl := ℕ) (Val := Elt F) spec13 c [cc13_scratch0])
      ∗ (∃ r, prngReg c r)) := by
  cases n with
  | zero => exact absurd rfl hz
  | succ n => rfl

/-! ## The proof data -/

/-- The arrays as the region finds them; after the body at point t each input's buffer at its block, the product
    window's at the first component of outsAt13, the statistics window's at the second; the invariant PhiS13; nothing
    owed; full shares. -/
def dat13 (c : Dev nD) : Dat τ (Elt F) Unit ℕ (Pipeline.UD sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => (outsAt13 V c t.val t.isLt).1
    | ⟨7, _⟩ => (outsAt13 V c t.val t.isLt).2.1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem PhiS13_castSucc (c : Dev nD) (t : Fin cfg13.N) :
    (dat13 V c).Φ t.castSucc = PhiS13 V c t.val (Nat.le_of_lt t.isLt) := by
  dsimp only [dat13]; simp only [Fin.coe_castSucc]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = (outsAt13 V c t.val t.isLt).1 := by dsimp only [dat13]
theorem after13_7 (c : Dev nD) (t : Fin cfg13.N) : (dat13 V c).after 7 t = (outsAt13 V c t.val t.isLt).2.1 := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point t: the invariant, what the core owes, and each window's current buffer at
    what it then holds, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d))
    ∗ (∃ d, owns (c : Thread nD τ) (ms13_5 t) fullShare ((dat13 V c).before 5 t d))
    ∗ (∃ d, owns (c : Thread nD τ) (ms13_6 t) fullShare ((dat13 V c).before 6 t d))
    ∗ (∃ d, owns (c : Thread nD τ) (ms13_7 t) fullShare ((dat13 V c).before 7 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t
    ∗ (dat13 V c).leavesExact 5 t
    ∗ (dat13 V c).leavesExact 6 t
    ∗ (dat13 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).owesAt () t.succ = (dat13 V c).owesAt () t.castSucc from rfl]
  rw [show (dat13 V c).Φ t.succ = PhiS13 V c (t.val + 1) t.isLt from rfl, PhiS13_succ]
  have hN : t.val < 25 := lt_of_lt_of_eq t.isLt (show cfg13.N = 25 from N_13)
  rw [show (dat13 V c).leavesExact 0 t = owns (c : Thread nD τ) (ms13_0 t) fullShare ((dat13 V c).after 0 t) from by
    unfold Dat.leavesExact; rw [liveAt13_0 t], after13_0]
  rw [show (dat13 V c).leavesExact 1 t = owns (c : Thread nD τ) (ms13_1 t) fullShare ((dat13 V c).after 1 t) from by
    unfold Dat.leavesExact; rw [liveAt13_1 t], after13_1]
  rw [show (dat13 V c).leavesExact 2 t = owns (c : Thread nD τ) (ms13_2 t) fullShare ((dat13 V c).after 2 t) from by
    unfold Dat.leavesExact; rw [liveAt13_2 t], after13_2]
  rw [show (dat13 V c).leavesExact 3 t = owns (c : Thread nD τ) (ms13_3 t) fullShare ((dat13 V c).after 3 t) from by
    unfold Dat.leavesExact; rw [liveAt13_3 t], after13_3]
  rw [show (dat13 V c).leavesExact 4 t = owns (c : Thread nD τ) (ms13_4 t) fullShare ((dat13 V c).after 4 t) from by
    unfold Dat.leavesExact; rw [liveAt13_4 t], after13_4]
  rw [show (dat13 V c).leavesExact 5 t = owns (c : Thread nD τ) (ms13_5 t) fullShare ((dat13 V c).after 5 t) from by
    unfold Dat.leavesExact; rw [liveAt13_5 t], after13_5]
  rw [show (dat13 V c).leavesExact 6 t = owns (c : Thread nD τ) (ms13_6 t) fullShare ((dat13 V c).after 6 t) from by
    unfold Dat.leavesExact; rw [liveAt13_6 t], after13_6]
  by_cases h0 : t.val = 0
  · -- the first point
    have hc0 : cond13_0 (grid13.coords t) := (hcond13_0 t).mpr h0
    have hc1 : ¬cond13_1 (grid13.coords t) := notLast13_of_first t h0
    rw [Dat.leavesExact_idle (dat13 V c) 7 t (idleAt13_7_A t hc0 hc1) (noFlush13_7_A t hc0 hc1)]
    rw [outsAt13_A V c t h0]
    unfold outsPt13_A out13_A_6 sout13_A_0; (try dsimp only)
    rw [PhiS13_castSucc V c t, PhiS13_zero V c _ _ h0, PhiA13_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun13_A c (grid13.coords t) _ _ _ _ _ _ _ _ _ _ _ _ _ _ _ _ _ _ hc0 hc1 (iblk13 V c 0 t) (iblk13 V c 1 t) (iblk13 V c 2 t) (iblk13 V c 3 t) (iblk13 V c 4 t) (iblk13 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover13_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover13_A_6 c _ _ _ _ _ _ _ _ _ _ _ _ _ _ _ _ _ _ _ _ _ _ _ _ _ _ _)
    iexists _; iexact H7
  · by_cases h1 : t.val = 24
    · -- the last point
      have hc0 : ¬cond13_0 (grid13.coords t) := fun h => h0 ((hcond13_0 t).mp h)
      have hc1 : cond13_1 (grid13.coords t) := (hcond13_1 t).mpr h1
      rw [show (dat13 V c).leavesExact 7 t = owns (c : Thread nD τ) (ms13_7 t) fullShare ((dat13 V c).after 7 t) from by
        unfold Dat.leavesExact; rw [liveAt13_7_C t hc0 hc1], after13_7]
      rw [outsAt13_C V c t h0 h1]
      unfold outsPt13_C out13_C_6 out13_C_7 sout13_C_0; (try dsimp only)
      rw [PhiS13_castSucc V c t, PhiS13_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun13_C c (grid13.coords t) _ _ _ _ _ _ _ _ _ _ _ _ _ _ _ _ _ _ hc0 hc1 (iblk13 V c 0 t) (iblk13 V c 1 t) (iblk13 V c 2 t) (iblk13 V c 3 t) (iblk13 V c 4 t) (iblk13 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover13_C_6 c _ _ _ _ _ _ _ _ _ _ _ _ _ _ _ _ _ _ _ _ _ _ _ _ _ _ _ _)
      unfold owns; iexists _; isplitr
      swap; · iexact H7
      ipureintro; exact View.read_writes_of_cover _ _ _ _ _ (cover13_C_7 c _ _ _ _ _ _ _ _ _ _ _ _ _ _ _ _ _ _ _ _ _ _ _ _ _ _ _ _)
    · -- a point between
      have hc0 : ¬cond13_0 (grid13.coords t) := fun h => h0 ((hcond13_0 t).mp h)
      have hc1 : ¬cond13_1 (grid13.coords t) := fun h => h1 ((hcond13_1 t).mp h)
      rw [Dat.leavesExact_idle (dat13 V c) 7 t (idleAt13_7_B t hc0 hc1) (noFlush13_7_B t hc0 hc1)]
      rw [outsAt13_B V c t h0 h1]
      unfold outsPt13_B out13_B_6 sout13_B_0; (try dsimp only)
      rw [PhiS13_castSucc V c t, PhiS13_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun13_B c (grid13.coords t) _ _ _ _ _ _ _ _ _ _ _ _ _ _ _ _ _ _ hc0 hc1 (iblk13 V c 0 t) (iblk13 V c 1 t) (iblk13 V c 2 t) (iblk13 V c 3 t) (iblk13 V c 4 t) (iblk13 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover13_B_6 c _ _ _ _ _ _ _ _ _ _ _ _ _ _ _ _ _ _ _ _ _ _ _ _ _ _ _ _)
      iexists _; iexact H7

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point the invariant gives the launch's back: the accumulator's named contents are forgotten. -/
theorem Phi_out13 (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨HS0, HR⟩, Hg⟩
  isplitl [HS0 HR]
  · isplitl [HS0]
    · iexists _; iexact HS0
    iexact HR
  iexact Hg

/-- The same after the last point. -/
theorem hout13 (c : Dev nD) : (dat13 V c).Φ (Fin.last cfg13.N) ⊢ Pipeline.ΦA spec13 c :=
  Phi_out13 V c _ (by rw [Fin.val_last]; have : cfg13.N = 25 := N_13; omega)

end Region

end Cert.KernelIdeal.Hand

end
-- ==== Proof.KI.Reg14.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## What the body leaves in the output block -/

/-- The whole block of rows, as a rectangle of itself. -/
abbrev rB14 : Rect S2000x256 := Rect.unit (s := S2000x256) ![0, 0] S2000x256.size inb_S2000x256_S2000x256_0_0
/-- The whole single row, as a rectangle of itself. -/
abbrev rR14 : Rect S1x256 := Rect.unit (s := S1x256) ![0, 0] S1x256.size inb_S1x256_S1x256_0_0

/-- The output block after the body, from the five input blocks: the body's one store, of the
    payload of the five whole loads, laid over the block.  (The payload takes the row operands in
    the order the body loads them: the fourth, the second, the third, the fifth.) -/
def out14_5 (x0 : Vec F S2000x256 .f32) (x1 x2 x3 x4 : Vec F S1x256 .f32) : Vec F S2000x256 .f32 :=
  View.canon [⟨rB14, k14_pay1 (View.ld x0 rB14) (View.ld x3 rR14) (View.ld x1 rR14) (View.ld x2 rR14) (View.ld x4 rR14)⟩]

/-- One store of the whole block covers it. -/
theorem cover14_5 (p : Vec F S2000x256 .f32) (y : S2000x256.Idx) :
    ∃ pc ∈ ([⟨rB14, p⟩] : List (View.Piece (Elt F) S2000x256 .f32)), y ∈ pc.1.set :=
  View.cover_of_tiled [⟨rB14, p⟩] S2000x256.size (by rfl) y

/-! ## The body's triple -/

set_option maxHeartbeats 1000000 in
/-- The kernel body on whole staging memrefs: holding the five inputs' at contents reading `x0 … x4`
    and the output's at anything, it runs to a state holding the inputs' as they were and the
    output's at `out14_5` of them.  The body is its skeleton of memory operations over the named
    payload; the executor steps through the six loads and the store. -/
theorem sound_kernel14 (c : Dev nD) (E : Set ℕ) (i : grid14.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out14_5 x0 x1 x2 x3 x4)) -∗ K ⟨⟩))
      ⊢ wp frame (wpE (defs₀ (F := F)) Variants.none c none) E
          (cc14__stage3_kernel i arg1 harg1 arg2 harg2 arg3 harg3 arg4 harg4 arg5 harg5 arg6 harg6) K := by
  simp only [cc14__stage3_kernel_eq_skeleton]; unfold cc14__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The proof data -/

/-- The proof data of the pipeline on core `c`: the arrays as the region finds them; after the
    body at point `t` each input's buffer at its block and the output's at `out14_5` of the input
    blocks; the class's invariant; nothing owed; full shares. -/
def dat14 (c : Dev nD) : Dat τ (Elt F) Unit ℕ (Pipeline.UD sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t
    = out14_5 (iblk14 V c 0 t) (iblk14 V c 1 t) (iblk14 V c 2 t) (iblk14 V c 3 t) (iblk14 V c 4 t) := by dsimp only [dat14]

/-! ## What the body finds in the input windows' buffers

An input window's current staging buffer holds its block at every point, whether the pipeline
fetched it there or not: a window not fetched at a point has the block index of the point before,
and the body left that point's block in place.  (The four row operands are fetched at the first
point only; the first operand at every point.) -/

theorem before14_0 (c : Dev nD) (t : Fin cfg14.N) (d) : (dat14 V c).before 0 t d = iblk14 V c 0 t :=
  ((dat14 V c).before_in_eq_fetched 0 rfl (fun _ => rfl) (fun _ _ _ => rfl)
      (fun t => by rw [after14_0 V c t]; unfold Dat.blockOf iblk14; rw [A_eq14 V c 0]; try rfl) t d).trans
    (by unfold Dat.fetched Dat.blockOf iblk14; rw [A_eq14 V c 0]; try rfl)
theorem before14_1 (c : Dev nD) (t : Fin cfg14.N) (d) : (dat14 V c).before 1 t d = iblk14 V c 1 t :=
  ((dat14 V c).before_in_eq_fetched 1 rfl (fun _ => rfl) (fun _ _ _ => rfl)
      (fun t => by rw [after14_1 V c t]; unfold Dat.blockOf iblk14; rw [A_eq14 V c 1]; try rfl) t d).trans
    (by unfold Dat.fetched Dat.blockOf iblk14; rw [A_eq14 V c 1]; try rfl)
theorem before14_2 (c : Dev nD) (t : Fin cfg14.N) (d) : (dat14 V c).before 2 t d = iblk14 V c 2 t :=
  ((dat14 V c).before_in_eq_fetched 2 rfl (fun _ => rfl) (fun _ _ _ => rfl)
      (fun t => by rw [after14_2 V c t]; unfold Dat.blockOf iblk14; rw [A_eq14 V c 2]; try rfl) t d).trans
    (by unfold Dat.fetched Dat.blockOf iblk14; rw [A_eq14 V c 2]; try rfl)
theorem before14_3 (c : Dev nD) (t : Fin cfg14.N) (d) : (dat14 V c).before 3 t d = iblk14 V c 3 t :=
  ((dat14 V c).before_in_eq_fetched 3 rfl (fun _ => rfl) (fun _ _ _ => rfl)
      (fun t => by rw [after14_3 V c t]; unfold Dat.blockOf iblk14; rw [A_eq14 V c 3]; try rfl) t d).trans
    (by unfold Dat.fetched Dat.blockOf iblk14; rw [A_eq14 V c 3]; try rfl)
theorem before14_4 (c : Dev nD) (t : Fin cfg14.N) (d) : (dat14 V c).before 4 t d = iblk14 V c 4 t :=
  ((dat14 V c).before_in_eq_fetched 4 rfl (fun _ => rfl) (fun _ _ _ => rfl)
      (fun t => by rw [after14_4 V c t]; unfold Dat.blockOf iblk14; rw [A_eq14 V c 4]; try rfl) t d).trans
    (by unfold Dat.fetched Dat.blockOf iblk14; rw [A_eq14 V c 4]; try rfl)

/-! ## The body obligation -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' buffers hold their blocks, so the body's triple applies; the
    invariant and what the core owes pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ (grid14.coords t) _ _ _ _ _ _ _ _ _ _ _ _
    (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

/-! ## The invariant at the two ends -/

/-- The proof data's invariant is the class's at every point: the region's entry hands it over as it is, -/
theorem hin14 (c : Dev nD) : Pipeline.ΦA spec14 c ⊢ (dat14 V c).Φ 0 := by
  dsimp only [dat14]; exact .rfl

/-- and takes it back as it is. -/
theorem hout14 (c : Dev nD) : (dat14 V c).Φ (Fin.last cfg14.N) ⊢ Pipeline.ΦA spec14 c := by
  dsimp only [dat14]; exact .rfl

end Cert.KernelIdeal.Hand

end
-- ==== Proof.KI.Reg15.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! # Kernel region 0: the proof data of its pipeline and the body obligation

Stage 1 of the layer: at grid point `i` the body adds the two input row blocks, rounds the sum to bf16, multiplies
it by the weights into the output block `z`, and adds the column sums of `z` and of `z²` into the two halves of a
scratch row that lives across the grid points. The first point zeroes the scratch row before accumulating; the
last point copies the accumulated row into the statistics window, which is written back only there.

Three control cases therefore partition the points: the first point (the zeroing branch taken, the copy not), the
middle points (neither), the last point (the copy taken, the zeroing not). Per case the body's run is found as a
subtype: the lists of pieces its stores leave in the output block, in the statistics block and in the scratch row,
with the proof that the body runs to a continuation holding exactly those. What the buffers hold after each point
is then a recursion on the point (`outsAt15`), the scratch row's component feeding the next point's run. Everything
is stated at an arbitrary float family and at a parameter `V`: the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's current staging buffer holds its block at every point, fetched there or not (unfetched, the
    block index has not moved), for any proof data whose array is `V`'s and whose body leaves the block in place. -/
theorem before15_0_of {c : Dev nD} (dat : Dat τ (Elt F) Unit ℕ (Pipeline.UD sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (Pipeline.UD sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of {c : Dev nD} (dat : Dat τ (Elt F) Unit ℕ (Pipeline.UD sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's two branch conditions, over the grid -/

/-- The zeroing branch's condition, from the grid coordinate: the coordinate is 0. -/
abbrev cond15_0 (i : grid15.Coords) : Prop := (Scalar.cmpi .ne (Scalar.extui (Scalar.cmpi .eq (BitVec.ofNat 32 (i 0).val) 0#32)) 0#32) = 1#1
/-- It holds at the first point only. -/
theorem hcond15_0 : ∀ t : Fin cfg15.N, cond15_0 (grid15.coords t) ↔ t.val = 0 :=
  (by decide +kernel : ∀ t : Fin grid15.N, cond15_0 (grid15.coords t) ↔ t.val = 0)

/-- The copying branch's condition: the coordinate is the last. -/
abbrev cond15_1 (i : grid15.Coords) : Prop := k15_cond2 i = 1#1
/-- It holds at the last point only. -/
theorem hcond15_1 : ∀ t : Fin cfg15.N, cond15_1 (grid15.coords t) ↔ t.val = 24 :=
  (by decide +kernel : ∀ t : Fin grid15.N, cond15_1 (grid15.coords t) ↔ t.val = 24)

/-! ## Where the windows are idle -/

theorem liveAt15_0 : ∀ t : Fin cfg15.N, cfg15.idle 0 (grid15.coords t) = false := by decide +kernel
theorem liveAt15_1 : ∀ t : Fin cfg15.N, cfg15.idle 1 (grid15.coords t) = false := by decide +kernel
theorem liveAt15_2 : ∀ t : Fin cfg15.N, cfg15.idle 2 (grid15.coords t) = false := by decide +kernel
theorem liveAt15_3 : ∀ t : Fin cfg15.N, cfg15.idle 3 (grid15.coords t) = false := by decide +kernel
/-- Away from the last point the statistics window is idle (the body stores nothing into it) and not written back. -/
theorem idleAt15_4 : ∀ t : Fin cfg15.N, ¬cond15_1 (grid15.coords t) → cfg15.idle 4 (grid15.coords t) = true := by decide +kernel
theorem noFlush15_4 : ∀ t : Fin cfg15.N, ¬cond15_1 (grid15.coords t) → (cfg15.win 4).flush t = false := by decide +kernel
/-- At the last point it is live. -/
theorem liveAt15_4 : ∀ t : Fin cfg15.N, cond15_1 (grid15.coords t) → cfg15.idle 4 (grid15.coords t) = false := by decide +kernel

/-! ## The staging memrefs the body is called with, and the scratch row -/

/-- One staging buffer of each output window, through which its contents are stated (the choice does not matter). -/
abbrev VO15_3 : View sig .tc .vmem S2000x512 .f32 := (Memref.whole cc15_stg3_0 : Memref sig .tc .vmem S2000x512 .f32).view
abbrev VO15_4 : View sig .tc .vmem S1x1024 .f32 := (Memref.whole cc15_stg4_0 : Memref sig .tc .vmem S1x1024 .f32).view
/-- Each window's current staging memref at point `t`, spelled as the pipeline passes it, and its wholeness. -/
abbrev ms15_0 (t : Fin cfg15.N) : Memref sig .tc .vmem S2000x256 .f32 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S2000x256 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S256x512 .bf16 := win15_2.stage (cfg15.slots t 2)
abbrev hs15_2 (t : Fin cfg15.N) : (ms15_2 t).IsWhole := hstage15_2 ((cfg15.slots t 2).cast nbuf15_2)
abbrev ms15_3 (t : Fin cfg15.N) : Memref sig .tc .vmem S2000x512 .f32 := win15_3.stage (cfg15.slots t 3)
abbrev hs15_3 (t : Fin cfg15.N) : (ms15_3 t).IsWhole := hstage15_3 ((cfg15.slots t 3).cast nbuf15_3)
abbrev ms15_4 (t : Fin cfg15.N) : Memref sig .tc .vmem S1x1024 .f32 := win15_4.stage (cfg15.slots t 4)
abbrev hs15_4 (t : Fin cfg15.N) : (ms15_4 t).IsWhole := hstage15_4 ((cfg15.slots t 4).cast nbuf15_4)
/-- The scratch row: a whole scoped buffer of the kernel's own, passed beside the windows. -/
abbrev scM15_0 : Memref sig .tc .vmem S1x1024 .f32 := Memref.whole cc15_scratch0
/-- The same as a view: what the row holds is stated through it. -/
abbrev VS15_0 : View sig .tc .vmem S1x1024 .f32 := scM15_0.view

/-- The other scoped buffers of the core (no staging buffer of this pipeline, not the scratch row), unopened. -/
abbrev restBut15 (c : Dev nD) : sProp 𝕄 :=
  Pipeline.scopedRestBut (Ix := Unit) (Name := ℕ) (U := Pipeline.UD sig nD τ) (Lvl := ℕ) (Val := Elt F) spec15 c [cc15_scratch0]

/-- The region's invariant with the scratch row as a memref owned at some contents. -/
theorem PhiA15_eq (c : Dev nD) :
    (Pipeline.ΦA spec15 c : sProp 𝕄)
      = iprop(iprop((∃ d, owns (c : Thread nD τ) scM15_0 fullShare d) ∗ restBut15 (F := F) c) ∗ (∃ r, prngReg c r)) := by
  unfold Pipeline.ΦA; rw [scopedRest15_split]; simp only [scM15_0, owns_whole]; try rfl

/-! ## The body on any staging memrefs, case by case: a subtype the run finds

In each case the body is run on whole staging memrefs: the three inputs' at their contents `x0`, `x1`, `x2`; the
output block's at anything; the statistics block's at contents `xi4` handed back untouched where the case stores
nothing into it, at anything where it does; the scratch row at anything in the first case (the zeroing store covers
it) and at the contents `xs0` the point before left in the others. The witnesses are the lists of pieces (last
store first) the run leaves in the output block (`L3`), the statistics block (`L4`, last case only) and the scratch
row (`LS0`). -/

set_option maxHeartbeats 4000000 in
/-- The first point: the zeroing branch taken, the copy not. -/
noncomputable def kernelRun15_A (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i)
    (x0 : Vec F S2000x256 .f32) (x1 : Vec F S2000x256 .f32) (x2 : Vec F S256x512 .bf16) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc15__stage1_kernel i arg1 harg1 arg2 harg2 arg3 harg3 arg4 harg4 arg5 harg5 arg6 harg6) K } := by
  refine ⟨?_, ?_, fun xi4 E K => ?run⟩
  case run =>
    simp only [cc15__stage1_kernel_eq_skeleton]; unfold cc15__stage1_kernel_skel
    simp only [k15_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The middle points: neither branch taken. -/
noncomputable def kernelRun15_B (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i)
    (x0 : Vec F S2000x256 .f32) (x1 : Vec F S2000x256 .f32) (x2 : Vec F S256x512 .bf16) (xs0 : Vec F S1x1024 .f32) :
    Σ' (L3 : List (View.Piece (Elt F) S2000x512 .f32)), { LS0 : List (View.Piece (Elt F) S1x1024 .f32) //
      ∀ (xi4 : Vec F S1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc15__stage1_kernel i arg1 harg1 arg2 harg2 arg3 harg3 arg4 harg4 arg5 harg5 arg6 harg6) K } := by
  refine ⟨?_, ?_, fun xi4 E K => ?run⟩
  case run =>
    simp only [cc15__stage1_kernel_eq_skeleton]; unfold cc15__stage1_kernel_skel
    simp only [k15_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexists _; iexact HS0

set_option maxHeartbeats 4000000 in
/-- The last point: the copy taken, the zeroing not. -/
noncomputable def kernelRun15_C (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) :
    Σ' (L3 : List (View.Piece (Elt F) S2000x512 .f32)) (L4 : List (View.Piece (Elt F) S1x1024 .f32)), { LS0 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc15__stage1_kernel i arg1 harg1 arg2 harg2 arg3 harg3 arg4 harg4 arg5 harg5 arg6 harg6) K } := by
  refine ⟨?_, ?_, ?_, fun E K => ?run⟩
  case run =>
    simp only [cc15__stage1_kernel_eq_skeleton]; unfold cc15__stage1_kernel_skel
    simp only [k15_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

/-! ## What each case leaves: the pieces read back, and that they cover -/

/-- The first point's pieces for the output block tile it (one store of the whole block). -/
theorem cover15_A_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i)
    (x0 : Vec F S2000x256 .f32) (x1 : Vec F S2000x256 .f32) (x2 : Vec F S256x512 .bf16) (y : S2000x512.Idx) :
    ∃ pc ∈ (kernelRun15_A c i arg1 harg1 arg2 harg2 arg3 harg3 arg4 harg4 arg5 harg5 arg6 harg6 hc0 hc1 x0 x1 x2).1, y ∈ pc.1.set :=
  View.cover_of_tiledL (kernelRun15_A c i arg1 harg1 arg2 harg2 arg3 harg3 arg4 harg4 arg5 harg5 arg6 harg6 hc0 hc1 x0 x1 x2).1 S2000x512.size (by sl_kernel_rfl) y

/-- What the first point leaves in the output block's staging buffer: its pieces read back over junk. -/
def out15_A_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i)
    (x0 : Vec F S2000x256 .f32) (x1 : Vec F S2000x256 .f32) (x2 : Vec F S256x512 .bf16) : Vec F S2000x512 .f32 :=
  VO15_3.read (Elt F) (VO15_3.writes (Elt F) VO15_3.junk (kernelRun15_A c i arg1 harg1 arg2 harg2 arg3 harg3 arg4 harg4 arg5 harg5 arg6 harg6 hc0 hc1 x0 x1 x2).1)

/-- The first point's pieces for the scratch row cover it: the zeroing store is the whole row. -/
theorem scover15_A_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i)
    (x0 : Vec F S2000x256 .f32) (x1 : Vec F S2000x256 .f32) (x2 : Vec F S256x512 .bf16) (y : S1x1024.Idx) :
    ∃ pc ∈ (kernelRun15_A c i arg1 harg1 arg2 harg2 arg3 harg3 arg4 harg4 arg5 harg5 arg6 harg6 hc0 hc1 x0 x1 x2).2.1, y ∈ pc.1.set :=
  View.cover_of_tiledL (kernelRun15_A c i arg1 harg1 arg2 harg2 arg3 harg3 arg4 harg4 arg5 harg5 arg6 harg6 hc0 hc1 x0 x1 x2).2.1 S1x1024.size (by sl_kernel_rfl) y

/-- What the first point leaves in the scratch row. -/
def sout15_A_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i)
    (x0 : Vec F S2000x256 .f32) (x1 : Vec F S2000x256 .f32) (x2 : Vec F S256x512 .bf16) : Vec F S1x1024 .f32 :=
  VS15_0.read (Elt F) (VS15_0.writes (Elt F) VS15_0.junk (kernelRun15_A c i arg1 harg1 arg2 harg2 arg3 harg3 arg4 harg4 arg5 harg5 arg6 harg6 hc0 hc1 x0 x1 x2).2.1)

/-- A middle point's pieces for the output block tile it. -/
theorem cover15_B_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i)
    (x0 : Vec F S2000x256 .f32) (x1 : Vec F S2000x256 .f32) (x2 : Vec F S256x512 .bf16) (xs0 : Vec F S1x1024 .f32) (y : S2000x512.Idx) :
    ∃ pc ∈ (kernelRun15_B c i arg1 harg1 arg2 harg2 arg3 harg3 arg4 harg4 arg5 harg5 arg6 harg6 hc0 hc1 x0 x1 x2 xs0).1, y ∈ pc.1.set :=
  View.cover_of_tiledL (kernelRun15_B c i arg1 harg1 arg2 harg2 arg3 harg3 arg4 harg4 arg5 harg5 arg6 harg6 hc0 hc1 x0 x1 x2 xs0).1 S2000x512.size (by sl_kernel_rfl) y

/-- What a middle point leaves in the output block's staging buffer. -/
def out15_B_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i)
    (x0 : Vec F S2000x256 .f32) (x1 : Vec F S2000x256 .f32) (x2 : Vec F S256x512 .bf16) (xs0 : Vec F S1x1024 .f32) : Vec F S2000x512 .f32 :=
  VO15_3.read (Elt F) (VO15_3.writes (Elt F) VO15_3.junk (kernelRun15_B c i arg1 harg1 arg2 harg2 arg3 harg3 arg4 harg4 arg5 harg5 arg6 harg6 hc0 hc1 x0 x1 x2 xs0).1)

/-- A middle point's pieces for the scratch row tile it: the two half-row stores. -/
theorem scover15_B_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i)
    (x0 : Vec F S2000x256 .f32) (x1 : Vec F S2000x256 .f32) (x2 : Vec F S256x512 .bf16) (xs0 : Vec F S1x1024 .f32) (y : S1x1024.Idx) :
    ∃ pc ∈ (kernelRun15_B c i arg1 harg1 arg2 harg2 arg3 harg3 arg4 harg4 arg5 harg5 arg6 harg6 hc0 hc1 x0 x1 x2 xs0).2.1, y ∈ pc.1.set :=
  View.cover_of_tiledL (kernelRun15_B c i arg1 harg1 arg2 harg2 arg3 harg3 arg4 harg4 arg5 harg5 arg6 harg6 hc0 hc1 x0 x1 x2 xs0).2.1 S1x512.size (by sl_kernel_rfl) y

/-- What a middle point leaves in the scratch row. -/
def sout15_B_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i)
    (x0 : Vec F S2000x256 .f32) (x1 : Vec F S2000x256 .f32) (x2 : Vec F S256x512 .bf16) (xs0 : Vec F S1x1024 .f32) : Vec F S1x1024 .f32 :=
  VS15_0.read (Elt F) (VS15_0.writes (Elt F) VS15_0.junk (kernelRun15_B c i arg1 harg1 arg2 harg2 arg3 harg3 arg4 harg4 arg5 harg5 arg6 harg6 hc0 hc1 x0 x1 x2 xs0).2.1)

/-- The last point's pieces for the output block tile it. -/
theorem cover15_C_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) (y : S2000x512.Idx) :
    ∃ pc ∈ (kernelRun15_C c i arg1 harg1 arg2 harg2 arg3 harg3 arg4 harg4 arg5 harg5 arg6 harg6 hc0 hc1 x0 x1 x2 xs0).1, y ∈ pc.1.set :=
  View.cover_of_tiledL (kernelRun15_C c i arg1 harg1 arg2 harg2 arg3 harg3 arg4 harg4 arg5 harg5 arg6 harg6 hc0 hc1 x0 x1 x2 xs0).1 S2000x512.size (by sl_kernel_rfl) y

/-- What the last point leaves in the output block's staging buffer. -/
def out15_C_3 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) : Vec F S2000x512 .f32 :=
  VO15_3.read (Elt F) (VO15_3.writes (Elt F) VO15_3.junk (kernelRun15_C c i arg1 harg1 arg2 harg2 arg3 harg3 arg4 harg4 arg5 harg5 arg6 harg6 hc0 hc1 x0 x1 x2 xs0).1)

/-- The last point's pieces for the statistics block tile it: the copy of the whole scratch row. -/
theorem cover15_C_4 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) (y : S1x1024.Idx) :
    ∃ pc ∈ (kernelRun15_C c i arg1 harg1 arg2 harg2 arg3 harg3 arg4 harg4 arg5 harg5 arg6 harg6 hc0 hc1 x0 x1 x2 xs0).2.1, y ∈ pc.1.set :=
  View.cover_of_tiledL (kernelRun15_C c i arg1 harg1 arg2 harg2 arg3 harg3 arg4 harg4 arg5 harg5 arg6 harg6 hc0 hc1 x0 x1 x2 xs0).2.1 S1x1024.size (by sl_kernel_rfl) y

/-- What the last point leaves in the statistics block's staging buffer. -/
def out15_C_4 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) : Vec F S1x1024 .f32 :=
  VO15_4.read (Elt F) (VO15_4.writes (Elt F) VO15_4.junk (kernelRun15_C c i arg1 harg1 arg2 harg2 arg3 harg3 arg4 harg4 arg5 harg5 arg6 harg6 hc0 hc1 x0 x1 x2 xs0).2.1)

/-- The last point's pieces for the scratch row tile it: the two half-row stores. -/
theorem scover15_C_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) (y : S1x1024.Idx) :
    ∃ pc ∈ (kernelRun15_C c i arg1 harg1 arg2 harg2 arg3 harg3 arg4 harg4 arg5 harg5 arg6 harg6 hc0 hc1 x0 x1 x2 xs0).2.2.1, y ∈ pc.1.set :=
  View.cover_of_tiledL (kernelRun15_C c i arg1 harg1 arg2 harg2 arg3 harg3 arg4 harg4 arg5 harg5 arg6 harg6 hc0 hc1 x0 x1 x2 xs0).2.2.1 S1x512.size (by sl_kernel_rfl) y

/-- What the last point leaves in the scratch row. -/
def sout15_C_0 (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i)
    (x0 : Vec F S2000x256 .f32) (x1 : Vec F S2000x256 .f32) (x2 : Vec F S256x512 .bf16) (xs0 : Vec F S1x1024 .f32) : Vec F S1x1024 .f32 :=
  VS15_0.read (Elt F) (VS15_0.writes (Elt F) VS15_0.junk (kernelRun15_C c i arg1 harg1 arg2 harg2 arg3 harg3 arg4 harg4 arg5 harg5 arg6 harg6 hc0 hc1 x0 x1 x2 xs0).2.2.1)

/-- A placeholder for the statistics block where the body stores nothing into it: nothing consults it, since there
    the window is neither written back nor read at the next point. -/
def idleOut15_4 : Vec F S1x1024 .f32 := VO15_4.read (Elt F) VO15_4.junk

/-! ## What the buffers hold after each point -/

/-- THE ACCUMULATION. After the body at position `n`: the output block, the statistics block and the scratch row (in
    this order). The first point runs from the inputs' blocks alone; every later point runs from them and from the
    scratch row the point before left; the last one also copies the row out. -/
def outsAt15 (c : Dev nD) : (n : ℕ) → n < cfg15.N → Vec F S2000x512 .f32 × Vec F S1x1024 .f32 × Vec F S1x1024 .f32
  | 0, hn => (out15_A_3 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) (ms15_3 ⟨0, hn⟩) (hs15_3 ⟨0, hn⟩) (ms15_4 ⟨0, hn⟩) (hs15_4 ⟨0, hn⟩) scM15_0 (Memref.isWhole_whole _) ((hcond15_0 ⟨0, hn⟩).mpr rfl) (fun h => (fun h => by (try dsimp only at h); omega) ((hcond15_1 ⟨0, hn⟩).mp h)) (iblk15 V c 0 ⟨0, hn⟩) (iblk15 V c 1 ⟨0, hn⟩) (iblk15 V c 2 ⟨0, hn⟩), idleOut15_4, sout15_A_0 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) (ms15_3 ⟨0, hn⟩) (hs15_3 ⟨0, hn⟩) (ms15_4 ⟨0, hn⟩) (hs15_4 ⟨0, hn⟩) scM15_0 (Memref.isWhole_whole _) ((hcond15_0 ⟨0, hn⟩).mpr rfl) (fun h => (fun h => by (try dsimp only at h); omega) ((hcond15_1 ⟨0, hn⟩).mp h)) (iblk15 V c 0 ⟨0, hn⟩) (iblk15 V c 1 ⟨0, hn⟩) (iblk15 V c 2 ⟨0, hn⟩))
  | n + 1, hn =>
    if h1 : n + 1 = 24 then
      (out15_C_3 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) (ms15_4 ⟨n + 1, hn⟩) (hs15_4 ⟨n + 1, hn⟩) scM15_0 (Memref.isWhole_whole _) (fun h => absurd ((hcond15_0 ⟨n + 1, hn⟩).mp h) (Nat.succ_ne_zero n)) ((hcond15_1 ⟨n + 1, hn⟩).mpr h1) (iblk15 V c 0 ⟨n + 1, hn⟩) (iblk15 V c 1 ⟨n + 1, hn⟩) (iblk15 V c 2 ⟨n + 1, hn⟩) (outsAt15 c n (Nat.lt_of_succ_lt hn)).2.2, out15_C_4 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) (ms15_4 ⟨n + 1, hn⟩) (hs15_4 ⟨n + 1, hn⟩) scM15_0 (Memref.isWhole_whole _) (fun h => absurd ((hcond15_0 ⟨n + 1, hn⟩).mp h) (Nat.succ_ne_zero n)) ((hcond15_1 ⟨n + 1, hn⟩).mpr h1) (iblk15 V c 0 ⟨n + 1, hn⟩) (iblk15 V c 1 ⟨n + 1, hn⟩) (iblk15 V c 2 ⟨n + 1, hn⟩) (outsAt15 c n (Nat.lt_of_succ_lt hn)).2.2, sout15_C_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) (ms15_4 ⟨n + 1, hn⟩) (hs15_4 ⟨n + 1, hn⟩) scM15_0 (Memref.isWhole_whole _) (fun h => absurd ((hcond15_0 ⟨n + 1, hn⟩).mp h) (Nat.succ_ne_zero n)) ((hcond15_1 ⟨n + 1, hn⟩).mpr h1) (iblk15 V c 0 ⟨n + 1, hn⟩) (iblk15 V c 1 ⟨n + 1, hn⟩) (iblk15 V c 2 ⟨n + 1, hn⟩) (outsAt15 c n (Nat.lt_of_succ_lt hn)).2.2)
    else
      (out15_B_3 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) (ms15_4 ⟨n + 1, hn⟩) (hs15_4 ⟨n + 1, hn⟩) scM15_0 (Memref.isWhole_whole _) (fun h => absurd ((hcond15_0 ⟨n + 1, hn⟩).mp h) (Nat.succ_ne_zero n)) (fun h => h1 ((hcond15_1 ⟨n + 1, hn⟩).mp h)) (iblk15 V c 0 ⟨n + 1, hn⟩) (iblk15 V c 1 ⟨n + 1, hn⟩) (iblk15 V c 2 ⟨n + 1, hn⟩) (outsAt15 c n (Nat.lt_of_succ_lt hn)).2.2, idleOut15_4, sout15_B_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) (ms15_3 ⟨n + 1, hn⟩) (hs15_3 ⟨n + 1, hn⟩) (ms15_4 ⟨n + 1, hn⟩) (hs15_4 ⟨n + 1, hn⟩) scM15_0 (Memref.isWhole_whole _) (fun h => absurd ((hcond15_0 ⟨n + 1, hn⟩).mp h) (Nat.succ_ne_zero n)) (fun h => h1 ((hcond15_1 ⟨n + 1, hn⟩).mp h)) (iblk15 V c 0 ⟨n + 1, hn⟩) (iblk15 V c 1 ⟨n + 1, hn⟩) (iblk15 V c 2 ⟨n + 1, hn⟩) (outsAt15 c n (Nat.lt_of_succ_lt hn)).2.2)

/-- `outsAt15` at the first point. -/
theorem outsAt15_A (c : Dev nD) (t : Fin cfg15.N) (h0 : t.val = 0) (h1 : ¬t.val = 24) :
    outsAt15 V c t.val t.isLt = (out15_A_3 c (grid15.coords t) (ms15_0 t) (hs15_0 t) (ms15_1 t) (hs15_1 t) (ms15_2 t) (hs15_2 t) (ms15_3 t) (hs15_3 t) (ms15_4 t) (hs15_4 t) scM15_0 (Memref.isWhole_whole _) ((hcond15_0 t).mpr h0) (fun h => h1 ((hcond15_1 t).mp h)) (iblk15 V c 0 t) (iblk15 V c 1 t) (iblk15 V c 2 t), idleOut15_4, sout15_A_0 c (grid15.coords t) (ms15_0 t) (hs15_0 t) (ms15_1 t) (hs15_1 t) (ms15_2 t) (hs15_2 t) (ms15_3 t) (hs15_3 t) (ms15_4 t) (hs15_4 t) scM15_0 (Memref.isWhole_whole _) ((hcond15_0 t).mpr h0) (fun h => h1 ((hcond15_1 t).mp h)) (iblk15 V c 0 t) (iblk15 V c 1 t) (iblk15 V c 2 t)) := by
  obtain ⟨n, hn⟩ := t
  cases n with
  | zero => exact rfl
  | succ n => exact absurd h0 (Nat.succ_ne_zero n)

/-- `outsAt15` at a middle point: that case's contents, over the scratch row the point before left. -/
theorem outsAt15_B (c : Dev nD) (t : Fin cfg15.N) (h0 : ¬t.val = 0) (h1 : ¬t.val = 24) :
    outsAt15 V c t.val t.isLt = (out15_B_3 c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) (fun h => h1 ((hcond15_1 t).mp h)) (iblk15 V c 0 t) (iblk15 V c 1 t) (iblk15 V c 2 t) (outsAt15 V c (t.val - 1) (Nat.lt_of_le_of_lt (Nat.sub_le _ _) t.isLt)).2.2, idleOut15_4, sout15_B_0 c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) (fun h => h1 ((hcond15_1 t).mp h)) (iblk15 V c 0 t) (iblk15 V c 1 t) (iblk15 V c 2 t) (outsAt15 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt15` at the last point. -/
theorem outsAt15_C (c : Dev nD) (t : Fin cfg15.N) (h0 : ¬t.val = 0) (h1 : t.val = 24) :
    outsAt15 V c t.val t.isLt = (out15_C_3 c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) ((hcond15_1 t).mpr h1) (iblk15 V c 0 t) (iblk15 V c 1 t) (iblk15 V c 2 t) (outsAt15 V c (t.val - 1) (Nat.lt_of_le_of_lt (Nat.sub_le _ _) t.isLt)).2.2, out15_C_4 c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) ((hcond15_1 t).mpr h1) (iblk15 V c 0 t) (iblk15 V c 1 t) (iblk15 V c 2 t) (outsAt15 V c (t.val - 1) (Nat.lt_of_le_of_lt (Nat.sub_le _ _) t.isLt)).2.2, sout15_C_0 c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) ((hcond15_1 t).mpr h1) (iblk15 V c 0 t) (iblk15 V c 1 t) (iblk15 V c 2 t) (outsAt15 V c (t.val - 1) (Nat.lt_of_le_of_lt (Nat.sub_le _ _) t.isLt)).2.2) := by
  obtain ⟨n, hn⟩ := t
  cases n with
  | zero => exact absurd rfl h0
  | succ n => exact (dif_pos h1).trans rfl

/-- The region's invariant before position `n`: before the first point the launch's (every scratch at anything);
    afterwards the scratch row at what the point before left in it, the other scoped buffers unopened, the generator
    register at some state. -/
def PhiS15 (c : Dev nD) : (n : ℕ) → n ≤ cfg15.N → sProp 𝕄
  | 0, _ => Pipeline.ΦA spec15 c
  | n + 1, hn => iprop(iprop(owns (c : Thread nD τ) scM15_0 fullShare ((outsAt15 V c n hn).2.2) ∗ restBut15 (F := F) c) ∗ (∃ r, prngReg c r))

theorem PhiS15_zero (c : Dev nD) (n : ℕ) (h : n ≤ cfg15.N) (hz : n = 0) : PhiS15 V c n h = Pipeline.ΦA spec15 c := by
  subst hz; rfl

theorem PhiS15_succ (c : Dev nD) (n : ℕ) (hn : n < cfg15.N) :
    PhiS15 V c (n + 1) hn = iprop(iprop(owns (c : Thread nD τ) scM15_0 fullShare ((outsAt15 V c n hn).2.2) ∗ restBut15 (F := F) c) ∗ (∃ r, prngReg c r)) := rfl

theorem PhiS15_pos (c : Dev nD) (n : ℕ) (h : n ≤ cfg15.N) (hz : n ≠ 0) :
    PhiS15 V c n h = iprop(iprop(owns (c : Thread nD τ) scM15_0 fullShare ((outsAt15 V c (n - 1) (by omega)).2.2) ∗ restBut15 (F := F) c) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `outsAt15`'s components; the invariant `PhiS15`; nothing owed; full
    shares. -/
def dat15 (c : Dev nD) : Dat τ (Elt F) Unit ℕ (Pipeline.UD sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => (outsAt15 V c t.val t.isLt).1
    | ⟨4, _⟩ => (outsAt15 V c t.val t.isLt).2.1
  Φ t := PhiS15 V c t.val (Nat.le_of_lt_succ t.isLt)
  q _ := fullShare
  owed _ := 0

/-- The proof data's arrays are the region-entry contents. -/
theorem A_eq15 (c : Dev nD) (w : Fin cfg15.W) : (dat15 V c).A w = V c (Pipeline.arrRef spec15 w) := by
  dsimp only [dat15]

/-- The invariant at a point's start, restated at `t.val`. -/
theorem PhiS15_castSucc (c : Dev nD) (t : Fin cfg15.N) :
    (dat15 V c).Φ t.castSucc = PhiS15 V c t.val (Nat.le_of_lt t.isLt) := by
  dsimp only [dat15]; simp only [Fin.coe_castSucc]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = (outsAt15 V c t.val t.isLt).1 := by dsimp only [dat15]
theorem after15_4 (c : Dev nD) (t : Fin cfg15.N) : (dat15 V c).after 4 t = (outsAt15 V c t.val t.isLt).2.1 := by dsimp only [dat15]

/-- Each input's current staging buffer holds its block at every point. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d))
    ∗ (∃ d, owns (c : Thread nD τ) (ms15_3 t) fullShare ((dat15 V c).before 3 t d))
    ∗ (∃ d, owns (c : Thread nD τ) (ms15_4 t) fullShare ((dat15 V c).before 4 t d)))

/-- and what it returns. -/
def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t
    ∗ (dat15 V c).leavesExact 3 t
    ∗ (dat15 V c).leavesExact 4 t)

set_option maxHeartbeats 4800000 in
/-- The body at any point. The inputs' memrefs hold their blocks; the point's position says which case it is in, so
    that case's run applies; the invariant hands the body the scratch row (at anything at the first point, at what
    the point before left otherwise) and takes it back at this point's contents, the pieces covering the row; the
    output block is handed back at its pieces read back, covering too; the statistics block untouched where the case
    stores nothing into it, at the copied row at the last point; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).owesAt () t.succ = (dat15 V c).owesAt () t.castSucc from rfl]
  rw [show (dat15 V c).Φ t.succ = PhiS15 V c (t.val + 1) t.isLt from rfl, PhiS15_succ]
  have hN : t.val < 25 := lt_of_lt_of_eq t.isLt (show cfg15.N = 25 from N_15)
  rw [show (dat15 V c).leavesExact 0 t = owns (c : Thread nD τ) (ms15_0 t) fullShare ((dat15 V c).after 0 t) from by
    unfold Dat.leavesExact; rw [liveAt15_0 t], after15_0]
  rw [show (dat15 V c).leavesExact 1 t = owns (c : Thread nD τ) (ms15_1 t) fullShare ((dat15 V c).after 1 t) from by
    unfold Dat.leavesExact; rw [liveAt15_1 t], after15_1]
  rw [show (dat15 V c).leavesExact 2 t = owns (c : Thread nD τ) (ms15_2 t) fullShare ((dat15 V c).after 2 t) from by
    unfold Dat.leavesExact; rw [liveAt15_2 t], after15_2]
  rw [show (dat15 V c).leavesExact 3 t = owns (c : Thread nD τ) (ms15_3 t) fullShare ((dat15 V c).after 3 t) from by
    unfold Dat.leavesExact; rw [liveAt15_3 t], after15_3]
  by_cases h0 : t.val = 0
  · have h1 : ¬t.val = 24 := by omega
    rw [Dat.leavesExact_idle (dat15 V c) 4 t (idleAt15_4 t (fun h => h1 ((hcond15_1 t).mp h))) (noFlush15_4 t (fun h => h1 ((hcond15_1 t).mp h)))]
    rw [outsAt15_A V c t h0 h1]
    unfold out15_A_3 sout15_A_0; (try dsimp only)
    rw [PhiS15_castSucc V c t, PhiS15_zero V c _ _ h0, PhiA15_eq]
    iintro ⟨⟨⟨HS0, HR⟩, Hg⟩, Ho, ⟨%d0, H0⟩, ⟨%d1, H1⟩, ⟨%d2, H2⟩, ⟨%d3, H3⟩, ⟨%d4, H4⟩⟩
    iapply ((kernelRun15_A c (grid15.coords t) _ _ _ _ _ _ _ _ _ _ _ _ ((hcond15_0 t).mpr h0) (fun h => h1 ((hcond15_1 t).mp h)) (iblk15 V c 0 t) (iblk15 V c 1 t) (iblk15 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover15_A_0 c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover15_A_3 c _ _ _ _ _ _ _ _ _ _ _ _ _ _ _ _ _ _)
    iexists _; iexact H4
  · by_cases h1 : t.val = 24
    · rw [show (dat15 V c).leavesExact 4 t = owns (c : Thread nD τ) (ms15_4 t) fullShare ((dat15 V c).after 4 t) from by
        unfold Dat.leavesExact; rw [liveAt15_4 t ((hcond15_1 t).mpr h1)], after15_4]
      rw [outsAt15_C V c t h0 h1]
      unfold out15_C_3 out15_C_4 sout15_C_0; (try dsimp only)
      rw [PhiS15_castSucc V c t, PhiS15_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun15_C c (grid15.coords t) _ _ _ _ _ _ _ _ _ _ _ _ (fun h => h0 ((hcond15_0 t).mp h)) ((hcond15_1 t).mpr h1) (iblk15 V c 0 t) (iblk15 V c 1 t) (iblk15 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover15_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover15_C_3 c _ _ _ _ _ _ _ _ _ _ _ _ _ _ _ _ _ _ _)
      unfold owns; iexists _; isplitr
      swap; · iexact H4
      ipureintro; exact View.read_writes_of_cover _ _ _ _ _ (cover15_C_4 c _ _ _ _ _ _ _ _ _ _ _ _ _ _ _ _ _ _ _)
    · rw [Dat.leavesExact_idle (dat15 V c) 4 t (idleAt15_4 t (fun h => h1 ((hcond15_1 t).mp h))) (noFlush15_4 t (fun h => h1 ((hcond15_1 t).mp h)))]
      rw [outsAt15_B V c t h0 h1]
      unfold out15_B_3 sout15_B_0; (try dsimp only)
      rw [PhiS15_castSucc V c t, PhiS15_pos V c _ _ h0]
      iintro ⟨⟨⟨HS0, HR⟩, Hg⟩, Ho, ⟨%d0, H0⟩, ⟨%d1, H1⟩, ⟨%d2, H2⟩, ⟨%d3, H3⟩, ⟨%d4, H4⟩⟩
      iapply ((kernelRun15_B c (grid15.coords t) _ _ _ _ _ _ _ _ _ _ _ _ (fun h => h0 ((hcond15_0 t).mp h)) (fun h => h1 ((hcond15_1 t).mp h)) (iblk15 V c 0 t) (iblk15 V c 1 t) (iblk15 V c 2 t) _).2.2 _ Set.univ _)
      isplitl [H0]; · iexact H0
      isplitl [H1]; · iexact H1
      isplitl [H2]; · iexact H2
      isplitl [H3]; · iexists _; iexact H3
      isplitl [H4]; · iexact H4
      isplitl [HS0]; · iexact HS0
      iintro ⟨H0, H1, H2, ⟨%e3, H3⟩, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover15_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover15_B_3 c _ _ _ _ _ _ _ _ _ _ _ _ _ _ _ _ _ _ _)
      iexists _; iexact H4

/-- The library's body obligation, at every point. -/
theorem body_obligation15 (c : Dev nD) : BodyObligation (dat15 (F := F) V c) (defs₀ (F := F)) Variants.none () Set.univ := fun t => by
  rw [bigSep_W15, bigSep_W15]
  exact sound_body15 V c t

/-- What the launch hands the region is the invariant before the first point. -/
theorem hin15 (c : Dev nD) : Pipeline.ΦA spec15 c ⊢ (dat15 V c).Φ 0 := by
  rw [show (dat15 V c).Φ 0 = PhiS15 V c 0 (Nat.zero_le _) from rfl, PhiS15_zero V c 0 _ rfl]
  try exact Idealize.SL.BI.Entails.refl _

/-- After any point but the first the invariant gives the launch's back: the scratch row's contents are forgotten. -/
theorem Phi_out15 (c : Dev nD) (t : Fin (cfg15.N + 1)) (ht : t.val ≠ 0) : (dat15 V c).Φ t ⊢ Pipeline.ΦA spec15 c := by
  rw [show (dat15 V c).Φ t = PhiS15 V c t.val (Nat.le_of_lt_succ t.isLt) from rfl, PhiS15_pos V c _ _ ht, PhiA15_eq]
  iintro ⟨⟨HS0, HR⟩, Hg⟩
  isplitl [HS0 HR]
  · isplitl [HS0]
    · iexists _; iexact HS0
    iexact HR
  iexact Hg

/-- The same after the last point. -/
theorem hout15 (c : Dev nD) : (dat15 V c).Φ (Fin.last cfg15.N) ⊢ Pipeline.ΦA spec15 c :=
  Phi_out15 V c _ (by rw [Fin.val_last]; have : cfg15.N = 25 := N_15; omega)

end Cert.KernelIdeal.Hand

end
-- ==== Proof.KI.Reg16.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-! A kernel region of the layer's second stage (normalise, rectify, multiply by the weights, accumulate column sums):
    the proof data of its pipeline at the contents V the region finds, and its body obligation.

    The grid has 25 points and the body three cases. At the first point it zeroes the accumulator and then adds the
    block's column sums of the product and of its square; at the points between it only adds; at the last point it
    adds and then copies the accumulator into the statistics window. The product block is stored whole at every
    point; the statistics window is stored only at the last point and elsewhere is idle: its buffer is handed back
    as it was found. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The body's two conditions, over the grid -/

/-- The body's first condition, as the kernel computes it from the coordinate: the point is the grid's first. -/
abbrev cond16_0 (i : grid16.Coords) : Prop :=
  (Scalar.cmpi .ne (Scalar.extui (Scalar.cmpi .eq (BitVec.ofNat 32 (i 0).val) 0#32)) 0#32) = 1#1
/-- It holds at point 0 only. -/
theorem hcond16_0 : ∀ t : Fin cfg16.N, cond16_0 (grid16.coords t) ↔ t.val = 0 :=
  (by decide +kernel : ∀ t : Fin grid16.N, cond16_0 (grid16.coords t) ↔ t.val = 0)

/-- The body's second condition: the point is the grid's last. -/
abbrev cond16_1 (i : grid16.Coords) : Prop := k16_cond2 i = 1#1
/-- It holds at point 24 only. -/
theorem hcond16_1 : ∀ t : Fin cfg16.N, cond16_1 (grid16.coords t) ↔ t.val = 24 :=
  (by decide +kernel : ∀ t : Fin grid16.N, cond16_1 (grid16.coords t) ↔ t.val = 24)

/-! ## Where the windows are idle -/

theorem liveAt16_0 : ∀ t : Fin cfg16.N, cfg16.idle 0 (grid16.coords t) = false := by decide +kernel
theorem liveAt16_1 : ∀ t : Fin cfg16.N, cfg16.idle 1 (grid16.coords t) = false := by decide +kernel
theorem liveAt16_2 : ∀ t : Fin cfg16.N, cfg16.idle 2 (grid16.coords t) = false := by decide +kernel
theorem liveAt16_3 : ∀ t : Fin cfg16.N, cfg16.idle 3 (grid16.coords t) = false := by decide +kernel
theorem liveAt16_4 : ∀ t : Fin cfg16.N, cfg16.idle 4 (grid16.coords t) = false := by decide +kernel
theorem liveAt16_5 : ∀ t : Fin cfg16.N, cfg16.idle 5 (grid16.coords t) = false := by decide +kernel
theorem liveAt16_6 : ∀ t : Fin cfg16.N, cfg16.idle 6 (grid16.coords t) = false := by decide +kernel
/-- At the first point the statistics window is idle, and its block is not written back there. -/
theorem idleAt16_7_A : ∀ t : Fin cfg16.N, cond16_0 (grid16.coords t) → ¬cond16_1 (grid16.coords t) → cfg16.idle 7 (grid16.coords t) = true := by decide +kernel
theorem noFlush16_7_A : ∀ t : Fin cfg16.N, cond16_0 (grid16.coords t) → ¬cond16_1 (grid16.coords t) → (cfg16.win 7).flush t = false := by decide +kernel
/-- At the points between, the same. -/
theorem idleAt16_7_B : ∀ t : Fin cfg16.N, ¬cond16_0 (grid16.coords t) → ¬cond16_1 (grid16.coords t) → cfg16.idle 7 (grid16.coords t) = true := by decide +kernel
theorem noFlush16_7_B : ∀ t : Fin cfg16.N, ¬cond16_0 (grid16.coords t) → ¬cond16_1 (grid16.coords t) → (cfg16.win 7).flush t = false := by decide +kernel
/-- At the last point the statistics window is live. -/
theorem liveAt16_7_C : ∀ t : Fin cfg16.N, ¬cond16_0 (grid16.coords t) → cond16_1 (grid16.coords t) → cfg16.idle 7 (grid16.coords t) = false := by decide +kernel

/-! ## The staging memrefs, the accumulator, and the views the results are stated through -/

abbrev ms16_0 (t : Fin cfg16.N) : Memref sig .tc .vmem S2000x512 .f32 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S1x512 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1x512 .f32 := win16_2.stage (cfg16.slots t 2)
abbrev hs16_2 (t : Fin cfg16.N) : (ms16_2 t).IsWhole := hstage16_2 ((cfg16.slots t 2).cast nbuf16_2)
abbrev ms16_3 (t : Fin cfg16.N) : Memref sig .tc .vmem S1x512 .f32 := win16_3.stage (cfg16.slots t 3)
abbrev hs16_3 (t : Fin cfg16.N) : (ms16_3 t).IsWhole := hstage16_3 ((cfg16.slots t 3).cast nbuf16_3)
abbrev ms16_4 (t : Fin cfg16.N) : Memref sig .tc .vmem S1x512 .f32 := win16_4.stage (cfg16.slots t 4)
abbrev hs16_4 (t : Fin cfg16.N) : (ms16_4 t).IsWhole := hstage16_4 ((cfg16.slots t 4).cast nbuf16_4)
abbrev ms16_5 (t : Fin cfg16.N) : Memref sig .tc .vmem S512x128 .bf16 := win16_5.stage (cfg16.slots t 5)
abbrev hs16_5 (t : Fin cfg16.N) : (ms16_5 t).IsWhole := hstage16_5 ((cfg16.slots t 5).cast nbuf16_5)
abbrev ms16_6 (t : Fin cfg16.N) : Memref sig .tc .vmem S2000x128 .f32 := win16_6.stage (cfg16.slots t 6)
abbrev hs16_6 (t : Fin cfg16.N) : (ms16_6 t).IsWhole := hstage16_6 ((cfg16.slots t 6).cast nbuf16_6)
abbrev ms16_7 (t : Fin cfg16.N) : Memref sig .tc .vmem S1x256 .f32 := win16_7.stage (cfg16.slots t 7)
abbrev hs16_7 (t : Fin cfg16.N) : (ms16_7 t).IsWhole := hstage16_7 ((cfg16.slots t 7).cast nbuf16_7)
/-- The accumulator: a whole scoped buffer of the kernel's own, carried from point to point. -/
abbrev scM16_0 : Memref sig .tc .vmem S1x256 .f32 := Memref.whole cc16_scratch0
abbrev VS16_0 : View sig .tc .vmem S1x256 .f32 := scM16_0.view
/-- One staging buffer of each output window, through which its contents are stated (the choice does not matter). -/
abbrev VO16_6 : View sig .tc .vmem S2000x128 .f32 := (Memref.whole cc16_stg6_0 : Memref sig .tc .vmem S2000x128 .f32).view
abbrev VO16_7 : View sig .tc .vmem S1x256 .f32 := (Memref.whole cc16_stg7_0 : Memref sig .tc .vmem S1x256 .f32).view

/-- The class's invariant with the accumulator opened as a memref owned at some contents; every other scoped buffer
    stays closed. -/
theorem PhiA16_eq (c : Dev nD) :
    (Pipeline.ΦA spec16 c : sProp 𝕄)
      = iprop(iprop((∃ d, owns (c : Thread nD τ) scM16_0 fullShare d)
          ∗ Pipeline.scopedRestBut (Ix := Unit) (Name := ℕ) (U := Pipeline.UD sig nD τ) (Lvl := ℕ) (Val := Elt F) spec16 c [cc16_scratch0])
          ∗ (∃ r, prngReg c r)) := by
  unfold Pipeline.ΦA; rw [scopedRest16_split]; simp only [scM16_0, owns_whole]; try rfl

/-! ## The body on any whole staging memrefs, case by case

Each case is a subtype: the pieces the body's stores leave in the product window (L6), in the statistics window
(L7) and in the accumulator (LS0), with the proof that from the inputs' buffers at their blocks the body runs to a
continuation that holds the inputs unchanged and every stored buffer with its pieces written. The pieces are the
witness the run itself finds. -/

set_option maxHeartbeats 4000000 in
/-- THE FIRST POINT: the accumulator, found at anything, is zeroed and then receives the two halves; the statistics
    window is not stored into and is handed back at the contents xi7 it was given. -/
noncomputable def kernelRun16_A (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : cond16_0 i) (hc1 : ¬cond16_1 i)
    (x0 : Vec F S2000x512 .f32) (x1 : Vec F S1x512 .f32) (x2 : Vec F S1x512 .f32) (x3 : Vec F S1x512 .f32) (x4 : Vec F S1x512 .f32) (x5 : Vec F S512x128 .bf16) :
    Σ' (L6 : List (View.Piece (Elt F) S2000x128 .f32)) (L7 : List (View.Piece (Elt F) S1x256 .f32)), { LS0 : List (View.Piece (Elt F) S1x256 .f32) //
      ∀ (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc16__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc16__stage2_kernel_eq_skeleton]; unfold cc16__stage2_kernel_skel
    simp only [k16_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- A POINT BETWEEN: the accumulator, found at what the point before left (xs0), receives the two halves; the
    statistics window is again handed back as given. -/
noncomputable def kernelRun16_B (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond16_0 i) (hc1 : ¬cond16_1 i)
    (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32) :
    Σ' (L6 : List (View.Piece (Elt F) S2000x128 .f32)) (L7 : List (View.Piece (Elt F) S1x256 .f32)), { LS0 : List (View.Piece (Elt F) S1x256 .f32) //
      ∀ (xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E (cc16__stage2_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc16__stage2_kernel_eq_skeleton]; unfold cc16__stage2_kernel_skel
    simp only [k16_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 4000000 in
/-- THE LAST POINT: the accumulator, found at xs0, receives the two halves and is then copied whole into the
    statistics window, found at anything. -/
noncomputable def kernelRun16_C (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond16_0 i) (hc1 : cond16_1 i)
    (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32) :
    Σ' (L6 : List (View.Piece (Elt F) S2000x128 .f32)) (L7 : List (View.Piece (Elt F) S1x256 .f32)), { LS0 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E (cc16__stage2_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc16__stage2_kernel_eq_skeleton]; unfold cc16__stage2_kernel_skel
    simp only [k16_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-! ## What each case leaves: the pieces cover their buffers, and the contents read back -/

section CaseA
variable (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : cond16_0 i) (hc1 : ¬cond16_1 i)
  (x0 : Vec F S2000x512 .f32) (x1 : Vec F S1x512 .f32) (x2 : Vec F S1x512 .f32) (x3 : Vec F S1x512 .f32) (x4 : Vec F S1x512 .f32) (x5 : Vec F S512x128 .bf16)

/-- At the first point the one store into the product window covers its block. -/
theorem cover16_A_6 (y : S2000x128.Idx) :
    ∃ pc ∈ (kernelRun16_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun16_A c i arg1 harg1 arg2 harg2 arg3 harg3 arg4 harg4 arg5 harg5 arg6 harg6 arg7 harg7 arg8 harg8 arg9 harg9 hc0 hc1 x0 x1 x2 x3 x4 x5).1 S2000x128.size (by sl_kernel_rfl) y

/-- What the first point leaves in the product window: its pieces read back. -/
def out16_A_6 : Vec F S2000x128 .f32 :=
  VO16_6.read (Elt F) (VO16_6.writes (Elt F) VO16_6.junk (kernelRun16_A c i arg1 harg1 arg2 harg2 arg3 harg3 arg4 harg4 arg5 harg5 arg6 harg6 arg7 harg7 arg8 harg8 arg9 harg9 hc0 hc1 x0 x1 x2 x3 x4 x5).1)

/-- The first point stores nothing into the statistics window: no pieces; a placeholder nothing consults, the window
    being neither written back there nor read at the next point. -/
def out16_A_7 : Vec F S1x256 .f32 :=
  VO16_7.read (Elt F) (VO16_7.writes (Elt F) VO16_7.junk (kernelRun16_A c i arg1 harg1 arg2 harg2 arg3 harg3 arg4 harg4 arg5 harg5 arg6 harg6 arg7 harg7 arg8 harg8 arg9 harg9 hc0 hc1 x0 x1 x2 x3 x4 x5).2.1)

/-- The first point's stores into the accumulator (the zeroing, then the two halves) cover it. -/
theorem scover16_A_0 (y : S1x256.Idx) :
    ∃ pc ∈ (kernelRun16_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun16_A c i arg1 harg1 arg2 harg2 arg3 harg3 arg4 harg4 arg5 harg5 arg6 harg6 arg7 harg7 arg8 harg8 arg9 harg9 hc0 hc1 x0 x1 x2 x3 x4 x5).2.2.1 S1x256.size (by sl_kernel_rfl) y

/-- What the first point leaves in the accumulator. -/
def sout16_A_0 : Vec F S1x256 .f32 :=
  VS16_0.read (Elt F) (VS16_0.writes (Elt F) VS16_0.junk (kernelRun16_A c i arg1 harg1 arg2 harg2 arg3 harg3 arg4 harg4 arg5 harg5 arg6 harg6 arg7 harg7 arg8 harg8 arg9 harg9 hc0 hc1 x0 x1 x2 x3 x4 x5).2.2.1)

end CaseA

section CaseB
variable (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond16_0 i) (hc1 : ¬cond16_1 i)
  (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32)

/-- At a point between the one store into the product window covers its block. -/
theorem cover16_B_6 (y : S2000x128.Idx) :
    ∃ pc ∈ (kernelRun16_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun16_B c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

def out16_B_6 : Vec F S2000x128 .f32 :=
  VO16_6.read (Elt F) (VO16_6.writes (Elt F) VO16_6.junk (kernelRun16_B c i arg1 harg1 arg2 harg2 arg3 harg3 arg4 harg4 arg5 harg5 arg6 harg6 arg7 harg7 arg8 harg8 arg9 harg9 hc0 hc1 x0 x1 x2 x3 x4 x5 xs0).1)

/-- A point between stores nothing into the statistics window: a placeholder, as at the first point. -/
def out16_B_7 : Vec F S1x256 .f32 :=
  VO16_7.read (Elt F) (VO16_7.writes (Elt F) VO16_7.junk (kernelRun16_B c i arg1 harg1 arg2 harg2 arg3 harg3 arg4 harg4 arg5 harg5 arg6 harg6 arg7 harg7 arg8 harg8 arg9 harg9 hc0 hc1 x0 x1 x2 x3 x4 x5 xs0).2.1)

/-- The two half stores into the accumulator (columns 0 to 255, columns 256 to 511) tile it in blocks of half a row. -/
theorem scover16_B_0 (y : S1x256.Idx) :
    ∃ pc ∈ (kernelRun16_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun16_B c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

def sout16_B_0 : Vec F S1x256 .f32 :=
  VS16_0.read (Elt F) (VS16_0.writes (Elt F) VS16_0.junk (kernelRun16_B c i arg1 harg1 arg2 harg2 arg3 harg3 arg4 harg4 arg5 harg5 arg6 harg6 arg7 harg7 arg8 harg8 arg9 harg9 hc0 hc1 x0 x1 x2 x3 x4 x5 xs0).2.2.1)

end CaseB

section CaseC
variable (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole) (hc0 : ¬cond16_0 i) (hc1 : cond16_1 i)
  (x0 : Vec F S2000x512 .f32) (x1 : Vec F S1x512 .f32) (x2 : Vec F S1x512 .f32) (x3 : Vec F S1x512 .f32) (x4 : Vec F S1x512 .f32) (x5 : Vec F S512x128 .bf16) (xs0 : Vec F S1x256 .f32)

/-- At the last point the one store into the product window covers its block. -/
theorem cover16_C_6 (y : S2000x128.Idx) :
    ∃ pc ∈ (kernelRun16_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun16_C c i arg1 harg1 arg2 harg2 arg3 harg3 arg4 harg4 arg5 harg5 arg6 harg6 arg7 harg7 arg8 harg8 arg9 harg9 hc0 hc1 x0 x1 x2 x3 x4 x5 xs0).1 S2000x128.size (by sl_kernel_rfl) y

def out16_C_6 : Vec F S2000x128 .f32 :=
  VO16_6.read (Elt F) (VO16_6.writes (Elt F) VO16_6.junk (kernelRun16_C c i arg1 harg1 arg2 harg2 arg3 harg3 arg4 harg4 arg5 harg5 arg6 harg6 arg7 harg7 arg8 harg8 arg9 harg9 hc0 hc1 x0 x1 x2 x3 x4 x5 xs0).1)

/-- At the last point the copy of the accumulator covers the statistics window. -/
theorem cover16_C_7 (y : S1x256.Idx) :
    ∃ pc ∈ (kernelRun16_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun16_C c i arg1 harg1 arg2 harg2 arg3 harg3 arg4 harg4 arg5 harg5 arg6 harg6 arg7 harg7 arg8 harg8 arg9 harg9 hc0 hc1 x0 x1 x2 x3 x4 x5 xs0).2.1 S1x256.size (by sl_kernel_rfl) y

/-- What the last point leaves in the statistics window. -/
def out16_C_7 : Vec F S1x256 .f32 :=
  VO16_7.read (Elt F) (VO16_7.writes (Elt F) VO16_7.junk (kernelRun16_C c i arg1 harg1 arg2 harg2 arg3 harg3 arg4 harg4 arg5 harg5 arg6 harg6 arg7 harg7 arg8 harg8 arg9 harg9 hc0 hc1 x0 x1 x2 x3 x4 x5 xs0).2.1)

/-- At the last point too the two half stores tile the accumulator in blocks of half a row. -/
theorem scover16_C_0 (y : S1x256.Idx) :
    ∃ pc ∈ (kernelRun16_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun16_C c i arg1 harg1 arg2 harg2 arg3 harg3 arg4 harg4 arg5 harg5 arg6 harg6 arg7 harg7 arg8 harg8 arg9 harg9 hc0 hc1 x0 x1 x2 x3 x4 x5 xs0).2.2.1 S1x128.size (by sl_kernel_rfl) y

def sout16_C_0 : Vec F S1x256 .f32 :=
  VS16_0.read (Elt F) (VS16_0.writes (Elt F) VS16_0.junk (kernelRun16_C c i arg1 harg1 arg2 harg2 arg3 harg3 arg4 harg4 arg5 harg5 arg6 harg6 arg7 harg7 arg8 harg8 arg9 harg9 hc0 hc1 x0 x1 x2 x3 x4 x5 xs0).2.2.1)

end CaseC

/-! # The region at the contents V it finds -/

section Region
-- the TensorCore's buffer contents when the region is entered
variable (V : (c : Dev nD) → (b : Ref sig .tc) → Buf (Elt F) ((c : Thread nD τ).loc b))

/-- Window w's block at point t, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-! ## The inputs' buffers hold their blocks at every point

An input window is never idle and the body leaves its block in place; so its current buffer holds what a fetch at the
point puts there whether or not one happened: where none did, the block index has not moved (the five row and weight
windows are fetched once, at the first point). -/

theorem before16_0_of {c : Dev nD} (dat : Dat τ (Elt F) Unit ℕ (Pipeline.UD sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (Pipeline.UD sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (Pipeline.UD sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
theorem before16_3_of {c : Dev nD} (dat : Dat τ (Elt F) Unit ℕ (Pipeline.UD sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
theorem before16_4_of {c : Dev nD} (dat : Dat τ (Elt F) Unit ℕ (Pipeline.UD sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)
theorem before16_5_of {c : Dev nD} (dat : Dat τ (Elt F) Unit ℕ (Pipeline.UD sig nD τ) ℕ cfg16 c) (hA : dat.A 5 = V c (Pipeline.arrRef spec16 5))
    (hafter : ∀ t, dat.after 5 t = iblk16 V c 5 t) (t : Fin cfg16.N) (d) : dat.before 5 t d = iblk16 V c 5 t :=
  (dat.before_in_eq_fetched 5 rfl (fun _ => rfl) (fun _ _ _ => rfl) (fun t => by rw [hafter]; unfold Dat.blockOf iblk16; rw [hA]; try rfl) t d).trans
    (by unfold Dat.fetched Dat.blockOf iblk16; rw [hA]; try rfl)

/-! ## What the outputs and the accumulator hold after each point -/

/-- The first point is not the last, -/
theorem notLast16_of_first (t : Fin cfg16.N) (h0 : t.val = 0) : ¬cond16_1 (grid16.coords t) :=
  fun h => by have := (hcond16_1 t).mp h; omega

/-- The first point's results at the point's own memrefs and input blocks: the product block, the statistics
    placeholder, the accumulator. -/
def outsPt16_A (c : Dev nD) (t : Fin cfg16.N) (h0 : t.val = 0) : Vec F S2000x128 .f32 × Vec F S1x256 .f32 × Vec F S1x256 .f32 :=
  (out16_A_6 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) ((hcond16_0 t).mpr h0) (notLast16_of_first t h0) (iblk16 V c 0 t) (iblk16 V c 1 t) (iblk16 V c 2 t) (iblk16 V c 3 t) (iblk16 V c 4 t) (iblk16 V c 5 t),
   out16_A_7 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) ((hcond16_0 t).mpr h0) (notLast16_of_first t h0) (iblk16 V c 0 t) (iblk16 V c 1 t) (iblk16 V c 2 t) (iblk16 V c 3 t) (iblk16 V c 4 t) (iblk16 V c 5 t),
   sout16_A_0 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) ((hcond16_0 t).mpr h0) (notLast16_of_first t h0) (iblk16 V c 0 t) (iblk16 V c 1 t) (iblk16 V c 2 t) (iblk16 V c 3 t) (iblk16 V c 4 t) (iblk16 V c 5 t))

/-- A point between, over the accumulator xs0 the point before left. -/
def outsPt16_B (c : Dev nD) (t : Fin cfg16.N) (h0 : ¬t.val = 0) (h1 : ¬t.val = 24) (xs0 : Vec F S1x256 .f32) : Vec F S2000x128 .f32 × Vec F S1x256 .f32 × Vec F S1x256 .f32 :=
  (out16_B_6 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) (fun h => h1 ((hcond16_1 t).mp h)) (iblk16 V c 0 t) (iblk16 V c 1 t) (iblk16 V c 2 t) (iblk16 V c 3 t) (iblk16 V c 4 t) (iblk16 V c 5 t) xs0,
   out16_B_7 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) (fun h => h1 ((hcond16_1 t).mp h)) (iblk16 V c 0 t) (iblk16 V c 1 t) (iblk16 V c 2 t) (iblk16 V c 3 t) (iblk16 V c 4 t) (iblk16 V c 5 t) xs0,
   sout16_B_0 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) (fun h => h1 ((hcond16_1 t).mp h)) (iblk16 V c 0 t) (iblk16 V c 1 t) (iblk16 V c 2 t) (iblk16 V c 3 t) (iblk16 V c 4 t) (iblk16 V c 5 t) xs0)

/-- The last point, over the accumulator xs0 the point before left. -/
def outsPt16_C (c : Dev nD) (t : Fin cfg16.N) (h0 : ¬t.val = 0) (h1 : t.val = 24) (xs0 : Vec F S1x256 .f32) : Vec F S2000x128 .f32 × Vec F S1x256 .f32 × Vec F S1x256 .f32 :=
  (out16_C_6 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) ((hcond16_1 t).mpr h1) (iblk16 V c 0 t) (iblk16 V c 1 t) (iblk16 V c 2 t) (iblk16 V c 3 t) (iblk16 V c 4 t) (iblk16 V c 5 t) xs0,
   out16_C_7 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) ((hcond16_1 t).mpr h1) (iblk16 V c 0 t) (iblk16 V c 1 t) (iblk16 V c 2 t) (iblk16 V c 3 t) (iblk16 V c 4 t) (iblk16 V c 5 t) xs0,
   sout16_C_0 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (fun h => h0 ((hcond16_0 t).mp h)) ((hcond16_1 t).mpr h1) (iblk16 V c 0 t) (iblk16 V c 1 t) (iblk16 V c 2 t) (iblk16 V c 3 t) (iblk16 V c 4 t) (iblk16 V c 5 t) xs0)

/-- THE ACCUMULATION. What the product window, the statistics window and the accumulator hold after the body at
    position n: the case the position selects, run at the point's memrefs and input blocks, the accumulator it reads
    at what position n - 1 left. -/
def outsAt16 (c : Dev nD) : (n : ℕ) → n < cfg16.N → Vec F S2000x128 .f32 × Vec F S1x256 .f32 × Vec F S1x256 .f32
  | 0, hn => outsPt16_A V c ⟨0, hn⟩ rfl
  | n + 1, hn =>
    if h1 : n + 1 = 24 then
      outsPt16_C V c ⟨n + 1, hn⟩ (Nat.succ_ne_zero n) h1 (outsAt16 c n (Nat.lt_of_succ_lt hn)).2.2
    else
      outsPt16_B V c ⟨n + 1, hn⟩ (Nat.succ_ne_zero n) h1 (outsAt16 c n (Nat.lt_of_succ_lt hn)).2.2

/-- outsAt16 at the first point. -/
theorem outsAt16_A (c : Dev nD) (t : Fin cfg16.N) (h0 : t.val = 0) :
    outsAt16 V c t.val t.isLt = outsPt16_A V c t h0 := by
  obtain ⟨n, hn⟩ := t
  cases n with
  | zero => exact rfl
  | succ n => exact absurd h0 (Nat.succ_ne_zero n)

/-- outsAt16 at a point between: over what the point before left in the accumulator. -/
theorem outsAt16_B (c : Dev nD) (t : Fin cfg16.N) (h0 : ¬t.val = 0) (h1 : ¬t.val = 24) :
    outsAt16 V c t.val t.isLt = outsPt16_B V c t h0 h1 (outsAt16 V c (t.val - 1) (Nat.lt_of_le_of_lt (Nat.sub_le _ _) t.isLt)).2.2 := by
  obtain ⟨n, hn⟩ := t
  cases n with
  | zero => exact absurd rfl h0
  | succ n => exact (dif_neg h1).trans rfl

/-- outsAt16 at the last point: over what the point before left in the accumulator. -/
theorem outsAt16_C (c : Dev nD) (t : Fin cfg16.N) (h0 : ¬t.val = 0) (h1 : t.val = 24) :
    outsAt16 V c t.val t.isLt = outsPt16_C V c t h0 h1 (outsAt16 V c (t.val - 1) (Nat.lt_of_le_of_lt (Nat.sub_le _ _) t.isLt)).2.2 := by
  obtain ⟨n, hn⟩ := t
  cases n with
  | zero => exact absurd rfl h0
  | succ n => exact (dif_pos h1).trans rfl

/-! ## The invariant -/

/-- Before position n: before the first point what the launch hands over (every scoped buffer that is no staging
    buffer at anything, the generator register at some state); afterwards the same with the accumulator at what the
    point before left in it. -/
def PhiS16 (c : Dev nD) : (n : ℕ) → n ≤ cfg16.N → sProp 𝕄
  | 0, _ => Pipeline.ΦA spec16 c
  | n + 1, hn => iprop(iprop(owns (c : Thread nD τ) scM16_0 fullShare ((outsAt16 V c n hn).2.2)
      ∗ Pipeline.scopedRestBut (Ix := Unit) (Name := ℕ) (U := Pipeline.UD sig nD τ) (Lvl := ℕ) (Val := Elt F) spec16 c [cc16_scratch0])
      ∗ (∃ r, prngReg c r))

theorem PhiS16_zero (c : Dev nD) (n : ℕ) (h : n ≤ cfg16.N) (hz : n = 0) : PhiS16 V c n h = Pipeline.ΦA spec16 c := by
  subst hz; rfl

theorem PhiS16_succ (c : Dev nD) (n : ℕ) (hn : n < cfg16.N) :
    PhiS16 V c (n + 1) hn = iprop(iprop(owns (c : Thread nD τ) scM16_0 fullShare ((outsAt16 V c n hn).2.2)
      ∗ Pipeline.scopedRestBut (Ix := Unit) (Name := ℕ) (U := Pipeline.UD sig nD τ) (Lvl := ℕ) (Val := Elt F) spec16 c [cc16_scratch0])
      ∗ (∃ r, prngReg c r)) := rfl

theorem PhiS16_pos (c : Dev nD) (n : ℕ) (h : n ≤ cfg16.N) (hz : n ≠ 0) :
    PhiS16 V c n h = iprop(iprop(owns (c : Thread nD τ) scM16_0 fullShare ((outsAt16 V c (n - 1) (by omega)).2.2)
      ∗ Pipeline.scopedRestBut (Ix := Unit) (Name := ℕ) (U := Pipeline.UD sig nD τ) (Lvl := ℕ) (Val := Elt F) spec16 c [cc16_scratch0])
      ∗ (∃ r, prngReg c r)) := by
  cases n with
  | zero => exact absurd rfl hz
  | succ n => rfl

/-! ## The proof data -/

/-- The arrays as the region finds them; after the body at point t each input's buffer at its block, the product
    window's at the first component of outsAt16, the statistics window's at the second; the invariant PhiS16; nothing
    owed; full shares. -/
def dat16 (c : Dev nD) : Dat τ (Elt F) Unit ℕ (Pipeline.UD sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => (outsAt16 V c t.val t.isLt).1
    | ⟨7, _⟩ => (outsAt16 V c t.val t.isLt).2.1
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]

theorem PhiS16_castSucc (c : Dev nD) (t : Fin cfg16.N) :
    (dat16 V c).Φ t.castSucc = PhiS16 V c t.val (Nat.le_of_lt t.isLt) := by
  dsimp only [dat16]; simp only [Fin.coe_castSucc]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = (outsAt16 V c t.val t.isLt).1 := by dsimp only [dat16]
theorem after16_7 (c : Dev nD) (t : Fin cfg16.N) : (dat16 V c).after 7 t = (outsAt16 V c t.val t.isLt).2.1 := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d
theorem before16_5 (c : Dev nD) (t : Fin cfg16.N) (d) : (dat16 V c).before 5 t d = iblk16 V c 5 t :=
  before16_5_of V (dat16 V c) (A_eq16 V c 5) (after16_5 V c) t d

/-! ## The body obligation, at a generic point -/

/-- What the body is called with at point t: the invariant, what the core owes, and each window's current buffer at
    what it then holds, -/
def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d))
    ∗ (∃ d, owns (c : Thread nD τ) (ms16_3 t) fullShare ((dat16 V c).before 3 t d))
    ∗ (∃ d, owns (c : Thread nD τ) (ms16_4 t) fullShare ((dat16 V c).before 4 t d))
    ∗ (∃ d, owns (c : Thread nD τ) (ms16_5 t) fullShare ((dat16 V c).before 5 t d))
    ∗ (∃ d, owns (c : Thread nD τ) (ms16_6 t) fullShare ((dat16 V c).before 6 t d))
    ∗ (∃ d, owns (c : Thread nD τ) (ms16_7 t) fullShare ((dat16 V c).before 7 t d)))

/-- and what it returns. -/
def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t
    ∗ (dat16 V c).leavesExact 3 t
    ∗ (dat16 V c).leavesExact 4 t
    ∗ (dat16 V c).leavesExact 5 t
    ∗ (dat16 V c).leavesExact 6 t
    ∗ (dat16 V c).leavesExact 7 t)

set_option maxHeartbeats 4800000 in
/-- The body at any point. The inputs' memrefs hold their blocks; the position says which case the point is in, so
    that case's run applies. The invariant hands the body the accumulator (at anything at the first point, at what the
    point before left afterwards) and takes it back at this point's contents, which its stores cover; the other scoped
    buffers, the generator register and what the core owes pass through untouched. The product window comes back at
    its covering store; the statistics window comes back as found where it is idle, and at the covering copy at the
    last point. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5]
  rw [show (dat16 V c).owesAt () t.succ = (dat16 V c).owesAt () t.castSucc from rfl]
  rw [show (dat16 V c).Φ t.succ = PhiS16 V c (t.val + 1) t.isLt from rfl, PhiS16_succ]
  have hN : t.val < 25 := lt_of_lt_of_eq t.isLt (show cfg16.N = 25 from N_16)
  rw [show (dat16 V c).leavesExact 0 t = owns (c : Thread nD τ) (ms16_0 t) fullShare ((dat16 V c).after 0 t) from by
    unfold Dat.leavesExact; rw [liveAt16_0 t], after16_0]
  rw [show (dat16 V c).leavesExact 1 t = owns (c : Thread nD τ) (ms16_1 t) fullShare ((dat16 V c).after 1 t) from by
    unfold Dat.leavesExact; rw [liveAt16_1 t], after16_1]
  rw [show (dat16 V c).leavesExact 2 t = owns (c : Thread nD τ) (ms16_2 t) fullShare ((dat16 V c).after 2 t) from by
    unfold Dat.leavesExact; rw [liveAt16_2 t], after16_2]
  rw [show (dat16 V c).leavesExact 3 t = owns (c : Thread nD τ) (ms16_3 t) fullShare ((dat16 V c).after 3 t) from by
    unfold Dat.leavesExact; rw [liveAt16_3 t], after16_3]
  rw [show (dat16 V c).leavesExact 4 t = owns (c : Thread nD τ) (ms16_4 t) fullShare ((dat16 V c).after 4 t) from by
    unfold Dat.leavesExact; rw [liveAt16_4 t], after16_4]
  rw [show (dat16 V c).leavesExact 5 t = owns (c : Thread nD τ) (ms16_5 t) fullShare ((dat16 V c).after 5 t) from by
    unfold Dat.leavesExact; rw [liveAt16_5 t], after16_5]
  rw [show (dat16 V c).leavesExact 6 t = owns (c : Thread nD τ) (ms16_6 t) fullShare ((dat16 V c).after 6 t) from by
    unfold Dat.leavesExact; rw [liveAt16_6 t], after16_6]
  by_cases h0 : t.val = 0
  · -- the first point
    have hc0 : cond16_0 (grid16.coords t) := (hcond16_0 t).mpr h0
    have hc1 : ¬cond16_1 (grid16.coords t) := notLast16_of_first t h0
    rw [Dat.leavesExact_idle (dat16 V c) 7 t (idleAt16_7_A t hc0 hc1) (noFlush16_7_A t hc0 hc1)]
    rw [outsAt16_A V c t h0]
    unfold outsPt16_A out16_A_6 sout16_A_0; (try dsimp only)
    rw [PhiS16_castSucc V c t, PhiS16_zero V c _ _ h0, PhiA16_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun16_A c (grid16.coords t) _ _ _ _ _ _ _ _ _ _ _ _ _ _ _ _ _ _ hc0 hc1 (iblk16 V c 0 t) (iblk16 V c 1 t) (iblk16 V c 2 t) (iblk16 V c 3 t) (iblk16 V c 4 t) (iblk16 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover16_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover16_A_6 c _ _ _ _ _ _ _ _ _ _ _ _ _ _ _ _ _ _ _ _ _ _ _ _ _ _ _)
    iexists _; iexact H7
  · by_cases h1 : t.val = 24
    · -- the last point
      have hc0 : ¬cond16_0 (grid16.coords t) := fun h => h0 ((hcond16_0 t).mp h)
      have hc1 : cond16_1 (grid16.coords t) := (hcond16_1 t).mpr h1
      rw [show (dat16 V c).leavesExact 7 t = owns (c : Thread nD τ) (ms16_7 t) fullShare ((dat16 V c).after 7 t) from by
        unfold Dat.leavesExact; rw [liveAt16_7_C t hc0 hc1], after16_7]
      rw [outsAt16_C V c t h0 h1]
      unfold outsPt16_C out16_C_6 out16_C_7 sout16_C_0; (try dsimp only)
      rw [PhiS16_castSucc V c t, PhiS16_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun16_C c (grid16.coords t) _ _ _ _ _ _ _ _ _ _ _ _ _ _ _ _ _ _ hc0 hc1 (iblk16 V c 0 t) (iblk16 V c 1 t) (iblk16 V c 2 t) (iblk16 V c 3 t) (iblk16 V c 4 t) (iblk16 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover16_C_6 c _ _ _ _ _ _ _ _ _ _ _ _ _ _ _ _ _ _ _ _ _ _ _ _ _ _ _ _)
      unfold owns; iexists _; isplitr
      swap; · iexact H7
      ipureintro; exact View.read_writes_of_cover _ _ _ _ _ (cover16_C_7 c _ _ _ _ _ _ _ _ _ _ _ _ _ _ _ _ _ _ _ _ _ _ _ _ _ _ _ _)
    · -- a point between
      have hc0 : ¬cond16_0 (grid16.coords t) := fun h => h0 ((hcond16_0 t).mp h)
      have hc1 : ¬cond16_1 (grid16.coords t) := fun h => h1 ((hcond16_1 t).mp h)
      rw [Dat.leavesExact_idle (dat16 V c) 7 t (idleAt16_7_B t hc0 hc1) (noFlush16_7_B t hc0 hc1)]
      rw [outsAt16_B V c t h0 h1]
      unfold outsPt16_B out16_B_6 sout16_B_0; (try dsimp only)
      rw [PhiS16_castSucc V c t, PhiS16_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun16_B c (grid16.coords t) _ _ _ _ _ _ _ _ _ _ _ _ _ _ _ _ _ _ hc0 hc1 (iblk16 V c 0 t) (iblk16 V c 1 t) (iblk16 V c 2 t) (iblk16 V c 3 t) (iblk16 V c 4 t) (iblk16 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover16_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover16_B_6 c _ _ _ _ _ _ _ _ _ _ _ _ _ _ _ _ _ _ _ _ _ _ _ _ _ _ _ _)
      iexists _; iexact H7

/-- The library's body obligation, at every point. -/
theorem body_obligation16 (c : Dev nD) : BodyObligation (dat16 (F := F) V c) (defs₀ (F := F)) Variants.none () Set.univ := fun t => by
  rw [bigSep_W16, bigSep_W16]
  exact sound_body16 V c t

/-- What the launch hands the region is the invariant before the first point. -/
theorem hin16 (c : Dev nD) : Pipeline.ΦA spec16 c ⊢ (dat16 V c).Φ 0 := by
  rw [show (dat16 V c).Φ 0 = PhiS16 V c 0 (Nat.zero_le _) from rfl, PhiS16_zero V c 0 _ rfl]
  try exact Idealize.SL.BI.Entails.refl _

/-- After any point the invariant gives the launch's back: the accumulator's named contents are forgotten. -/
theorem Phi_out16 (c : Dev nD) (t : Fin (cfg16.N + 1)) (ht : t.val ≠ 0) : (dat16 V c).Φ t ⊢ Pipeline.ΦA spec16 c := by
  rw [show (dat16 V c).Φ t = PhiS16 V c t.val (Nat.le_of_lt_succ t.isLt) from rfl, PhiS16_pos V c _ _ ht, PhiA16_eq]
  iintro ⟨⟨HS0, HR⟩, Hg⟩
  isplitl [HS0 HR]
  · isplitl [HS0]
    · iexists _; iexact HS0
    iexact HR
  iexact Hg

/-- The same after the last point. -/
theorem hout16 (c : Dev nD) : (dat16 V c).Φ (Fin.last cfg16.N) ⊢ Pipeline.ΦA spec16 c :=
  Phi_out16 V c _ (by rw [Fin.val_last]; have : cfg16.N = 25 := N_16; omega)

end Region

end Cert.KernelIdeal.Hand

end
-- ==== Proof.KI.Reg17.lean ====
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import Idealize.ShloMosaic.Lib.Pipeline.FrameBody
import Idealize.ShloMosaic.Lib.Ring
import Idealize.ShloMosaic.Lib.Tactic

/-!
# A kernel region: an elementwise normalisation followed by a rectifier

At every grid point the kernel reads a block of rows of its first operand together with four
one-row operands (which the pipeline fetches once, at the first point), computes one vector from
them and stores it over the whole output block.  What the output block holds after a point is
therefore a closed function of the five input blocks at that point, and the kernel keeps no state
from point to point: the invariant is the class's own, untouched by the body.

Everything is stated at a parameter `V`: the contents of the core's buffers when the region is
entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-! ## What the body leaves in the output block -/

/-- The whole block of rows, as a rectangle of itself. -/
abbrev rB17 : Rect S2000x128 := Rect.unit (s := S2000x128) ![0, 0] S2000x128.size inb_S2000x128_S2000x128_0_0
/-- The whole single row, as a rectangle of itself. -/
abbrev rR17 : Rect S1x128 := Rect.unit (s := S1x128) ![0, 0] S1x128.size inb_S1x128_S1x128_0_0

/-- The output block after the body, from the five input blocks: the body's one store, of the
    payload of the five whole loads, laid over the block.  (The payload takes the row operands in
    the order the body loads them: the fourth, the second, the third, the fifth.) -/
def out17_5 (x0 : Vec F S2000x128 .f32) (x1 x2 x3 x4 : Vec F S1x128 .f32) : Vec F S2000x128 .f32 :=
  View.canon [⟨rB17, k17_pay1 (View.ld x0 rB17) (View.ld x3 rR17) (View.ld x1 rR17) (View.ld x2 rR17) (View.ld x4 rR17)⟩]

/-- One store of the whole block covers it. -/
theorem cover17_5 (p : Vec F S2000x128 .f32) (y : S2000x128.Idx) :
    ∃ pc ∈ ([⟨rB17, p⟩] : List (View.Piece (Elt F) S2000x128 .f32)), y ∈ pc.1.set :=
  View.cover_of_tiled [⟨rB17, p⟩] S2000x128.size (by rfl) y

/-! ## The body's triple -/

set_option maxHeartbeats 1000000 in
/-- The kernel body on whole staging memrefs: holding the five inputs' at contents reading `x0 … x4`
    and the output's at anything, it runs to a state holding the inputs' as they were and the
    output's at `out17_5` of them.  The body is its skeleton of memory operations over the named
    payload; the executor steps through the six loads and the store. -/
theorem sound_kernel17 (c : Dev nD) (E : Set ℕ) (i : grid17.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out17_5 x0 x1 x2 x3 x4)) -∗ K ⟨⟩))
      ⊢ wp frame (wpE (defs₀ (F := F)) Variants.none c none) E
          (cc17__stage3_kernel i arg1 harg1 arg2 harg2 arg3 harg3 arg4 harg4 arg5 harg5 arg6 harg6) K := by
  simp only [cc17__stage3_kernel_eq_skeleton]; unfold cc17__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover17_5 _)

/-! ## The proof data -/

/-- The proof data of the pipeline on core `c`: the arrays as the region finds them; after the
    body at point `t` each input's buffer at its block and the output's at `out17_5` of the input
    blocks; the class's invariant; nothing owed; full shares. -/
def dat17 (c : Dev nD) : Dat τ (Elt F) Unit ℕ (Pipeline.UD sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => out17_5 (iblk17 V c 0 t) (iblk17 V c 1 t) (iblk17 V c 2 t) (iblk17 V c 3 t) (iblk17 V c 4 t)
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) : (dat17 V c).after 5 t
    = out17_5 (iblk17 V c 0 t) (iblk17 V c 1 t) (iblk17 V c 2 t) (iblk17 V c 3 t) (iblk17 V c 4 t) := by dsimp only [dat17]

/-! ## What the body finds in the input windows' buffers

An input window's current staging buffer holds its block at every point, whether the pipeline
fetched it there or not: a window not fetched at a point has the block index of the point before,
and the body left that point's block in place.  (The four row operands are fetched at the first
point only; the first operand at every point.) -/

theorem before17_0 (c : Dev nD) (t : Fin cfg17.N) (d) : (dat17 V c).before 0 t d = iblk17 V c 0 t :=
  ((dat17 V c).before_in_eq_fetched 0 rfl (fun _ => rfl) (fun _ _ _ => rfl)
      (fun t => by rw [after17_0 V c t]; unfold Dat.blockOf iblk17; rw [A_eq17 V c 0]; try rfl) t d).trans
    (by unfold Dat.fetched Dat.blockOf iblk17; rw [A_eq17 V c 0]; try rfl)
theorem before17_1 (c : Dev nD) (t : Fin cfg17.N) (d) : (dat17 V c).before 1 t d = iblk17 V c 1 t :=
  ((dat17 V c).before_in_eq_fetched 1 rfl (fun _ => rfl) (fun _ _ _ => rfl)
      (fun t => by rw [after17_1 V c t]; unfold Dat.blockOf iblk17; rw [A_eq17 V c 1]; try rfl) t d).trans
    (by unfold Dat.fetched Dat.blockOf iblk17; rw [A_eq17 V c 1]; try rfl)
theorem before17_2 (c : Dev nD) (t : Fin cfg17.N) (d) : (dat17 V c).before 2 t d = iblk17 V c 2 t :=
  ((dat17 V c).before_in_eq_fetched 2 rfl (fun _ => rfl) (fun _ _ _ => rfl)
      (fun t => by rw [after17_2 V c t]; unfold Dat.blockOf iblk17; rw [A_eq17 V c 2]; try rfl) t d).trans
    (by unfold Dat.fetched Dat.blockOf iblk17; rw [A_eq17 V c 2]; try rfl)
theorem before17_3 (c : Dev nD) (t : Fin cfg17.N) (d) : (dat17 V c).before 3 t d = iblk17 V c 3 t :=
  ((dat17 V c).before_in_eq_fetched 3 rfl (fun _ => rfl) (fun _ _ _ => rfl)
      (fun t => by rw [after17_3 V c t]; unfold Dat.blockOf iblk17; rw [A_eq17 V c 3]; try rfl) t d).trans
    (by unfold Dat.fetched Dat.blockOf iblk17; rw [A_eq17 V c 3]; try rfl)
theorem before17_4 (c : Dev nD) (t : Fin cfg17.N) (d) : (dat17 V c).before 4 t d = iblk17 V c 4 t :=
  ((dat17 V c).before_in_eq_fetched 4 rfl (fun _ => rfl) (fun _ _ _ => rfl)
      (fun t => by rw [after17_4 V c t]; unfold Dat.blockOf iblk17; rw [A_eq17 V c 4]; try rfl) t d).trans
    (by unfold Dat.fetched Dat.blockOf iblk17; rw [A_eq17 V c 4]; try rfl)

/-! ## The body obligation -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t))

/-- The body at any point: the inputs' buffers hold their blocks, so the body's triple applies; the
    invariant and what the core owes pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4]
  rw [show (dat17 V c).Φ t.succ = (dat17 V c).Φ t.castSucc from rfl,
    show (dat17 V c).owesAt () t.succ = (dat17 V c).owesAt () t.castSucc from rfl,
    after17_0, after17_1, after17_2, after17_3, after17_4, after17_5]
  iintro ⟨HΦ, Ho, ⟨%d0, H0⟩, ⟨%d1, H1⟩, ⟨%d2, H2⟩, ⟨%d3, H3⟩, ⟨%d4, H4⟩, ⟨%d5, H5⟩⟩
  iapply (sound_kernel17 c Set.univ (grid17.coords t) _ _ _ _ _ _ _ _ _ _ _ _
    (iblk17 V c 0 t) (iblk17 V c 1 t) (iblk17 V c 2 t) (iblk17 V c 3 t) (iblk17 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation17 (c : Dev nD) : BodyObligation (dat17 (F := F) V c) (defs₀ (F := F)) Variants.none () Set.univ := fun t => by
  rw [bigSep_W17, bigSep_W17]
  exact sound_body17 V c t

/-! ## The invariant at the two ends -/

/-- The proof data's invariant is the class's at every point: the region's entry hands it over as it is, -/
theorem hin17 (c : Dev nD) : Pipeline.ΦA spec17 c ⊢ (dat17 V c).Φ 0 := by
  dsimp only [dat17]; exact .rfl

/-- and takes it back as it is. -/
theorem hout17 (c : Dev nD) : (dat17 V c).Φ (Fin.last cfg17.N) ⊢ Pipeline.ΦA spec17 c := by
  dsimp only [dat17]; exact .rfl

end Cert.KernelIdeal.Hand

end
-- ==== Proof.KI.Run.lean ====
import proofs.«427833_j20194936226511_1_alg».proof.Proof.KI.RegionsP
import proofs.«427833_j20194936226511_1_alg».proof.Proof.KI.Reg0
import proofs.«427833_j20194936226511_1_alg».proof.Proof.KI.Reg1
import proofs.«427833_j20194936226511_1_alg».proof.Proof.KI.Reg2
import proofs.«427833_j20194936226511_1_alg».proof.Proof.KI.Reg3
import proofs.«427833_j20194936226511_1_alg».proof.Proof.KI.Reg4
import proofs.«427833_j20194936226511_1_alg».proof.Proof.KI.Reg5
import proofs.«427833_j20194936226511_1_alg».proof.Proof.KI.Reg6
import proofs.«427833_j20194936226511_1_alg».proof.Proof.KI.Reg7
import proofs.«427833_j20194936226511_1_alg».proof.Proof.KI.Reg8
import proofs.«427833_j20194936226511_1_alg».proof.Proof.KI.Reg9
import proofs.«427833_j20194936226511_1_alg».proof.Proof.KI.Reg10
import proofs.«427833_j20194936226511_1_alg».proof.Proof.KI.Reg11
import proofs.«427833_j20194936226511_1_alg».proof.Proof.KI.Reg12
import proofs.«427833_j20194936226511_1_alg».proof.Proof.KI.Reg13
import proofs.«427833_j20194936226511_1_alg».proof.Proof.KI.Reg14
import proofs.«427833_j20194936226511_1_alg».proof.Proof.KI.Reg15
import proofs.«427833_j20194936226511_1_alg».proof.Proof.KI.Reg16
import proofs.«427833_j20194936226511_1_alg».proof.Proof.KI.Reg17
import Idealize.ShloMosaic.Lib.Pipeline.FrameBody
import Idealize.ShloMosaic.Lib.Pipeline.RegionsLoop
import Idealize.ShloMosaic.Lib.Pipeline.FrameSuffix
import Idealize.ShloMosaic.Lib.Tactic

/-!
# The run of the program: eighteen kernel regions among fifty-seven items

Between two items of the program a core holds every unscoped buffer whole, at contents that are a fold
through the program: a host stretch replaces the contents by `StableHlo.after` of its operations, a
kernel region replaces the arrays of its output windows by what the pipeline's write-backs leave
(`Dat.arrAt … N` of the region's proof data, taken at the contents the region was entered from) and
leaves every other buffer alone.

The fold is written twice.  First as a chain of definitions `W4, W5, …, W48`, each from the one before,
so that what region `K` leaves is defined from contents that mention only earlier regions.  Then `outs`
reads the chain, and the program's own valuations `Gen.VJ m outs` at this `outs` are proved equal to the
chain link by link (`VJ_eq`).  The equations `outs_eq_K_w` say what each region's output array holds in
terms of the valuation the region was entered from: a value proof starts from them.

Each region is then a segment record over the thread state "every unscoped buffer at the boundary's
contents, the generator register at some state, nothing owed": its arrays are split out of the unscoped
buffers at entry and put back at exit, the register goes into the class's invariant and comes back.
The launch runs the fifty-seven segments in order; at the end every unscoped buffer is read off the
last valuation, the arguments through the program's own `V57_main_argK` and the result as it stands.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The fold, link by link -/

/-- The contents region 0 is entered from, read at the TensorCore's references. -/
abbrev entW0 : (c : Dev nD) → (b : Ref sig .tc) → Buf (Elt F) ((c : Thread nD τ).loc b) := fun c b => Gen.V3 m c b
/-- What region 0 leaves in `main_v22_0`: window 3's array after the last write-back. -/
def o4_0 (c : Dev nD) : Buf (Elt F) ((c : Thread nD τ).loc main_v22_0) := (dat0 (entW0 m) c).arrAt 3 cfg0.N
/-- What region 0 leaves in `main_v22_1`: window 4's array after the last write-back. -/
def o4_1 (c : Dev nD) : Buf (Elt F) ((c : Thread nD τ).loc main_v22_1) := (dat0 (entW0 m) c).arrAt 4 cfg0.N
/-- The contents after region 0: its output arrays replaced, every other buffer as entered. -/
def W4 (c : Dev nD) : Valuation τ sig (Elt F) := Function.update (Function.update (Gen.V3 m c) main_v22_0 (o4_0 m c)) main_v22_1 (o4_1 m c)
theorem W4_0 (c : Dev nD) : W4 m c main_v22_0 = o4_0 m c := by
  unfold W4
  rw [Function.update_of_ne (by decide : (Proc.devRef .tc main_v22_0 : DevRef τ sig) ≠ Proc.devRef .tc main_v22_1), Function.update_self]
theorem W4_1 (c : Dev nD) : W4 m c main_v22_1 = o4_1 m c := by
  unfold W4
  rw [Function.update_self]
/-- The contents after item 4, the host stretch `hostOps1`. -/
def W5 (c : Dev nD) : Valuation τ sig (Elt F) := StableHlo.after hostOps1 (W4 m c)

/-- The contents region 1 is entered from, read at the TensorCore's references. -/
abbrev entW1 : (c : Dev nD) → (b : Ref sig .tc) → Buf (Elt F) ((c : Thread nD τ).loc b) := fun c b => W5 m c b
/-- What region 1 leaves in `main_v35_0`: window 6's array after the last write-back. -/
def o6_0 (c : Dev nD) : Buf (Elt F) ((c : Thread nD τ).loc main_v35_0) := (dat1 (entW1 m) c).arrAt 6 cfg1.N
/-- What region 1 leaves in `main_v35_1`: window 7's array after the last write-back. -/
def o6_1 (c : Dev nD) : Buf (Elt F) ((c : Thread nD τ).loc main_v35_1) := (dat1 (entW1 m) c).arrAt 7 cfg1.N
/-- The contents after region 1: its output arrays replaced, every other buffer as entered. -/
def W6 (c : Dev nD) : Valuation τ sig (Elt F) := Function.update (Function.update (W5 m c) main_v35_0 (o6_0 m c)) main_v35_1 (o6_1 m c)
theorem W6_0 (c : Dev nD) : W6 m c main_v35_0 = o6_0 m c := by
  unfold W6
  rw [Function.update_of_ne (by decide : (Proc.devRef .tc main_v35_0 : DevRef τ sig) ≠ Proc.devRef .tc main_v35_1), Function.update_self]
theorem W6_1 (c : Dev nD) : W6 m c main_v35_1 = o6_1 m c := by
  unfold W6
  rw [Function.update_self]
/-- The contents after item 6, the host stretch `hostOps2`. -/
def W7 (c : Dev nD) : Valuation τ sig (Elt F) := StableHlo.after hostOps2 (W6 m c)

/-- The contents region 2 is entered from, read at the TensorCore's references. -/
abbrev entW2 : (c : Dev nD) → (b : Ref sig .tc) → Buf (Elt F) ((c : Thread nD τ).loc b) := fun c b => W7 m c b
/-- What region 2 leaves in `main_v48`: window 5's array after the last write-back. -/
def o8_0 (c : Dev nD) : Buf (Elt F) ((c : Thread nD τ).loc main_v48) := (dat2 (entW2 m) c).arrAt 5 cfg2.N
/-- The contents after region 2: its output arrays replaced, every other buffer as entered. -/
def W8 (c : Dev nD) : Valuation τ sig (Elt F) := Function.update (W7 m c) main_v48 (o8_0 m c)
theorem W8_0 (c : Dev nD) : W8 m c main_v48 = o8_0 m c := by
  unfold W8
  rw [Function.update_self]
/-- The contents after item 8, the host stretch `hostOps3`. -/
def W9 (c : Dev nD) : Valuation τ sig (Elt F) := StableHlo.after hostOps3 (W8 m c)

/-- The contents region 3 is entered from, read at the TensorCore's references. -/
abbrev entW3 : (c : Dev nD) → (b : Ref sig .tc) → Buf (Elt F) ((c : Thread nD τ).loc b) := fun c b => W9 m c b
/-- What region 3 leaves in `main_v63_0`: window 3's array after the last write-back. -/
def o10_0 (c : Dev nD) : Buf (Elt F) ((c : Thread nD τ).loc main_v63_0) := (dat3 (entW3 m) c).arrAt 3 cfg3.N
/-- What region 3 leaves in `main_v63_1`: window 4's array after the last write-back. -/
def o10_1 (c : Dev nD) : Buf (Elt F) ((c : Thread nD τ).loc main_v63_1) := (dat3 (entW3 m) c).arrAt 4 cfg3.N
/-- The contents after region 3: its output arrays replaced, every other buffer as entered. -/
def W10 (c : Dev nD) : Valuation τ sig (Elt F) := Function.update (Function.update (W9 m c) main_v63_0 (o10_0 m c)) main_v63_1 (o10_1 m c)
theorem W10_0 (c : Dev nD) : W10 m c main_v63_0 = o10_0 m c := by
  unfold W10
  rw [Function.update_of_ne (by decide : (Proc.devRef .tc main_v63_0 : DevRef τ sig) ≠ Proc.devRef .tc main_v63_1), Function.update_self]
theorem W10_1 (c : Dev nD) : W10 m c main_v63_1 = o10_1 m c := by
  unfold W10
  rw [Function.update_self]
/-- The contents after item 10, the host stretch `hostOps4`. -/
def W11 (c : Dev nD) : Valuation τ sig (Elt F) := StableHlo.after hostOps4 (W10 m c)

/-- The contents region 4 is entered from, read at the TensorCore's references. -/
abbrev entW4 : (c : Dev nD) → (b : Ref sig .tc) → Buf (Elt F) ((c : Thread nD τ).loc b) := fun c b => W11 m c b
/-- What region 4 leaves in `main_v76_0`: window 6's array after the last write-back. -/
def o12_0 (c : Dev nD) : Buf (Elt F) ((c : Thread nD τ).loc main_v76_0) := (dat4 (entW4 m) c).arrAt 6 cfg4.N
/-- What region 4 leaves in `main_v76_1`: window 7's array after the last write-back. -/
def o12_1 (c : Dev nD) : Buf (Elt F) ((c : Thread nD τ).loc main_v76_1) := (dat4 (entW4 m) c).arrAt 7 cfg4.N
/-- The contents after region 4: its output arrays replaced, every other buffer as entered. -/
def W12 (c : Dev nD) : Valuation τ sig (Elt F) := Function.update (Function.update (W11 m c) main_v76_0 (o12_0 m c)) main_v76_1 (o12_1 m c)
theorem W12_0 (c : Dev nD) : W12 m c main_v76_0 = o12_0 m c := by
  unfold W12
  rw [Function.update_of_ne (by decide : (Proc.devRef .tc main_v76_0 : DevRef τ sig) ≠ Proc.devRef .tc main_v76_1), Function.update_self]
theorem W12_1 (c : Dev nD) : W12 m c main_v76_1 = o12_1 m c := by
  unfold W12
  rw [Function.update_self]
/-- The contents after item 12, the host stretch `hostOps5`. -/
def W13 (c : Dev nD) : Valuation τ sig (Elt F) := StableHlo.after hostOps5 (W12 m c)

/-- The contents region 5 is entered from, read at the TensorCore's references. -/
abbrev entW5 : (c : Dev nD) → (b : Ref sig .tc) → Buf (Elt F) ((c : Thread nD τ).loc b) := fun c b => W13 m c b
/-- What region 5 leaves in `main_v89`: window 5's array after the last write-back. -/
def o14_0 (c : Dev nD) : Buf (Elt F) ((c : Thread nD τ).loc main_v89) := (dat5 (entW5 m) c).arrAt 5 cfg5.N
/-- The contents after region 5: its output arrays replaced, every other buffer as entered. -/
def W14 (c : Dev nD) : Valuation τ sig (Elt F) := Function.update (W13 m c) main_v89 (o14_0 m c)
theorem W14_0 (c : Dev nD) : W14 m c main_v89 = o14_0 m c := by
  unfold W14
  rw [Function.update_self]
/-- The contents after item 14, the host stretch `hostOps6`. -/
def W15 (c : Dev nD) : Valuation τ sig (Elt F) := StableHlo.after hostOps6 (W14 m c)
/-- The contents after item 15, the host stretch `hostOps6_1`. -/
def W16 (c : Dev nD) : Valuation τ sig (Elt F) := StableHlo.after hostOps6_1 (W15 m c)
/-- The contents after item 16, the host stretch `hostOps6_2`. -/
def W17 (c : Dev nD) : Valuation τ sig (Elt F) := StableHlo.after hostOps6_2 (W16 m c)

/-- The contents region 6 is entered from, read at the TensorCore's references. -/
abbrev entW6 : (c : Dev nD) → (b : Ref sig .tc) → Buf (Elt F) ((c : Thread nD τ).loc b) := fun c b => W17 m c b
/-- What region 6 leaves in `main_v105_0`: window 3's array after the last write-back. -/
def o18_0 (c : Dev nD) : Buf (Elt F) ((c : Thread nD τ).loc main_v105_0) := (dat6 (entW6 m) c).arrAt 3 cfg6.N
/-- What region 6 leaves in `main_v105_1`: window 4's array after the last write-back. -/
def o18_1 (c : Dev nD) : Buf (Elt F) ((c : Thread nD τ).loc main_v105_1) := (dat6 (entW6 m) c).arrAt 4 cfg6.N
/-- The contents after region 6: its output arrays replaced, every other buffer as entered. -/
def W18 (c : Dev nD) : Valuation τ sig (Elt F) := Function.update (Function.update (W17 m c) main_v105_0 (o18_0 m c)) main_v105_1 (o18_1 m c)
theorem W18_0 (c : Dev nD) : W18 m c main_v105_0 = o18_0 m c := by
  unfold W18
  rw [Function.update_of_ne (by decide : (Proc.devRef .tc main_v105_0 : DevRef τ sig) ≠ Proc.devRef .tc main_v105_1), Function.update_self]
theorem W18_1 (c : Dev nD) : W18 m c main_v105_1 = o18_1 m c := by
  unfold W18
  rw [Function.update_self]
/-- The contents after item 18, the host stretch `hostOps7`. -/
def W19 (c : Dev nD) : Valuation τ sig (Elt F) := StableHlo.after hostOps7 (W18 m c)

/-- The contents region 7 is entered from, read at the TensorCore's references. -/
abbrev entW7 : (c : Dev nD) → (b : Ref sig .tc) → Buf (Elt F) ((c : Thread nD τ).loc b) := fun c b => W19 m c b
/-- What region 7 leaves in `main_v118_0`: window 6's array after the last write-back. -/
def o20_0 (c : Dev nD) : Buf (Elt F) ((c : Thread nD τ).loc main_v118_0) := (dat7 (entW7 m) c).arrAt 6 cfg7.N
/-- What region 7 leaves in `main_v118_1`: window 7's array after the last write-back. -/
def o20_1 (c : Dev nD) : Buf (Elt F) ((c : Thread nD τ).loc main_v118_1) := (dat7 (entW7 m) c).arrAt 7 cfg7.N
/-- The contents after region 7: its output arrays replaced, every other buffer as entered. -/
def W20 (c : Dev nD) : Valuation τ sig (Elt F) := Function.update (Function.update (W19 m c) main_v118_0 (o20_0 m c)) main_v118_1 (o20_1 m c)
theorem W20_0 (c : Dev nD) : W20 m c main_v118_0 = o20_0 m c := by
  unfold W20
  rw [Function.update_of_ne (by decide : (Proc.devRef .tc main_v118_0 : DevRef τ sig) ≠ Proc.devRef .tc main_v118_1), Function.update_self]
theorem W20_1 (c : Dev nD) : W20 m c main_v118_1 = o20_1 m c := by
  unfold W20
  rw [Function.update_self]
/-- The contents after item 20, the host stretch `hostOps8`. -/
def W21 (c : Dev nD) : Valuation τ sig (Elt F) := StableHlo.after hostOps8 (W20 m c)

/-- The contents region 8 is entered from, read at the TensorCore's references. -/
abbrev entW8 : (c : Dev nD) → (b : Ref sig .tc) → Buf (Elt F) ((c : Thread nD τ).loc b) := fun c b => W21 m c b
/-- What region 8 leaves in `main_v131`: window 5's array after the last write-back. -/
def o22_0 (c : Dev nD) : Buf (Elt F) ((c : Thread nD τ).loc main_v131) := (dat8 (entW8 m) c).arrAt 5 cfg8.N
/-- The contents after region 8: its output arrays replaced, every other buffer as entered. -/
def W22 (c : Dev nD) : Valuation τ sig (Elt F) := Function.update (W21 m c) main_v131 (o22_0 m c)
theorem W22_0 (c : Dev nD) : W22 m c main_v131 = o22_0 m c := by
  unfold W22
  rw [Function.update_self]
/-- The contents after item 22, the host stretch `hostOps9`. -/
def W23 (c : Dev nD) : Valuation τ sig (Elt F) := StableHlo.after hostOps9 (W22 m c)
/-- The contents after item 23, the host stretch `hostOps9_1`. -/
def W24 (c : Dev nD) : Valuation τ sig (Elt F) := StableHlo.after hostOps9_1 (W23 m c)
/-- The contents after item 24, the host stretch `hostOps9_2`. -/
def W25 (c : Dev nD) : Valuation τ sig (Elt F) := StableHlo.after hostOps9_2 (W24 m c)
/-- The contents after item 25, the host stretch `hostOps9_3`. -/
def W26 (c : Dev nD) : Valuation τ sig (Elt F) := StableHlo.after hostOps9_3 (W25 m c)
/-- The contents after item 26, the host stretch `hostOps9_4`. -/
def W27 (c : Dev nD) : Valuation τ sig (Elt F) := StableHlo.after hostOps9_4 (W26 m c)
/-- The contents after item 27, the host stretch `hostOps9_5`. -/
def W28 (c : Dev nD) : Valuation τ sig (Elt F) := StableHlo.after hostOps9_5 (W27 m c)
/-- The contents after item 28, the host stretch `hostOps9_6`. -/
def W29 (c : Dev nD) : Valuation τ sig (Elt F) := StableHlo.after hostOps9_6 (W28 m c)

/-- The contents region 9 is entered from, read at the TensorCore's references. -/
abbrev entW9 : (c : Dev nD) → (b : Ref sig .tc) → Buf (Elt F) ((c : Thread nD τ).loc b) := fun c b => W29 m c b
/-- What region 9 leaves in `main_v167_0`: window 3's array after the last write-back. -/
def o30_0 (c : Dev nD) : Buf (Elt F) ((c : Thread nD τ).loc main_v167_0) := (dat9 (entW9 m) c).arrAt 3 cfg9.N
/-- What region 9 leaves in `main_v167_1`: window 4's array after the last write-back. -/
def o30_1 (c : Dev nD) : Buf (Elt F) ((c : Thread nD τ).loc main_v167_1) := (dat9 (entW9 m) c).arrAt 4 cfg9.N
/-- The contents after region 9: its output arrays replaced, every other buffer as entered. -/
def W30 (c : Dev nD) : Valuation τ sig (Elt F) := Function.update (Function.update (W29 m c) main_v167_0 (o30_0 m c)) main_v167_1 (o30_1 m c)
theorem W30_0 (c : Dev nD) : W30 m c main_v167_0 = o30_0 m c := by
  unfold W30
  rw [Function.update_of_ne (by decide : (Proc.devRef .tc main_v167_0 : DevRef τ sig) ≠ Proc.devRef .tc main_v167_1), Function.update_self]
theorem W30_1 (c : Dev nD) : W30 m c main_v167_1 = o30_1 m c := by
  unfold W30
  rw [Function.update_self]
/-- The contents after item 30, the host stretch `hostOps10`. -/
def W31 (c : Dev nD) : Valuation τ sig (Elt F) := StableHlo.after hostOps10 (W30 m c)

/-- The contents region 10 is entered from, read at the TensorCore's references. -/
abbrev entW10 : (c : Dev nD) → (b : Ref sig .tc) → Buf (Elt F) ((c : Thread nD τ).loc b) := fun c b => W31 m c b
/-- What region 10 leaves in `main_v180_0`: window 6's array after the last write-back. -/
def o32_0 (c : Dev nD) : Buf (Elt F) ((c : Thread nD τ).loc main_v180_0) := (dat10 (entW10 m) c).arrAt 6 cfg10.N
/-- What region 10 leaves in `main_v180_1`: window 7's array after the last write-back. -/
def o32_1 (c : Dev nD) : Buf (Elt F) ((c : Thread nD τ).loc main_v180_1) := (dat10 (entW10 m) c).arrAt 7 cfg10.N
/-- The contents after region 10: its output arrays replaced, every other buffer as entered. -/
def W32 (c : Dev nD) : Valuation τ sig (Elt F) := Function.update (Function.update (W31 m c) main_v180_0 (o32_0 m c)) main_v180_1 (o32_1 m c)
theorem W32_0 (c : Dev nD) : W32 m c main_v180_0 = o32_0 m c := by
  unfold W32
  rw [Function.update_of_ne (by decide : (Proc.devRef .tc main_v180_0 : DevRef τ sig) ≠ Proc.devRef .tc main_v180_1), Function.update_self]
theorem W32_1 (c : Dev nD) : W32 m c main_v180_1 = o32_1 m c := by
  unfold W32
  rw [Function.update_self]
/-- The contents after item 32, the host stretch `hostOps11`. -/
def W33 (c : Dev nD) : Valuation τ sig (Elt F) := StableHlo.after hostOps11 (W32 m c)

/-- The contents region 11 is entered from, read at the TensorCore's references. -/
abbrev entW11 : (c : Dev nD) → (b : Ref sig .tc) → Buf (Elt F) ((c : Thread nD τ).loc b) := fun c b => W33 m c b
/-- What region 11 leaves in `main_v193`: window 5's array after the last write-back. -/
def o34_0 (c : Dev nD) : Buf (Elt F) ((c : Thread nD τ).loc main_v193) := (dat11 (entW11 m) c).arrAt 5 cfg11.N
/-- The contents after region 11: its output arrays replaced, every other buffer as entered. -/
def W34 (c : Dev nD) : Valuation τ sig (Elt F) := Function.update (W33 m c) main_v193 (o34_0 m c)
theorem W34_0 (c : Dev nD) : W34 m c main_v193 = o34_0 m c := by
  unfold W34
  rw [Function.update_self]
/-- The contents after item 34, the host stretch `hostOps12`. -/
def W35 (c : Dev nD) : Valuation τ sig (Elt F) := StableHlo.after hostOps12 (W34 m c)

/-- The contents region 12 is entered from, read at the TensorCore's references. -/
abbrev entW12 : (c : Dev nD) → (b : Ref sig .tc) → Buf (Elt F) ((c : Thread nD τ).loc b) := fun c b => W35 m c b
/-- What region 12 leaves in `main_v208_0`: window 3's array after the last write-back. -/
def o36_0 (c : Dev nD) : Buf (Elt F) ((c : Thread nD τ).loc main_v208_0) := (dat12 (entW12 m) c).arrAt 3 cfg12.N
/-- What region 12 leaves in `main_v208_1`: window 4's array after the last write-back. -/
def o36_1 (c : Dev nD) : Buf (Elt F) ((c : Thread nD τ).loc main_v208_1) := (dat12 (entW12 m) c).arrAt 4 cfg12.N
/-- The contents after region 12: its output arrays replaced, every other buffer as entered. -/
def W36 (c : Dev nD) : Valuation τ sig (Elt F) := Function.update (Function.update (W35 m c) main_v208_0 (o36_0 m c)) main_v208_1 (o36_1 m c)
theorem W36_0 (c : Dev nD) : W36 m c main_v208_0 = o36_0 m c := by
  unfold W36
  rw [Function.update_of_ne (by decide : (Proc.devRef .tc main_v208_0 : DevRef τ sig) ≠ Proc.devRef .tc main_v208_1), Function.update_self]
theorem W36_1 (c : Dev nD) : W36 m c main_v208_1 = o36_1 m c := by
  unfold W36
  rw [Function.update_self]
/-- The contents after item 36, the host stretch `hostOps13`. -/
def W37 (c : Dev nD) : Valuation τ sig (Elt F) := StableHlo.after hostOps13 (W36 m c)

/-- The contents region 13 is entered from, read at the TensorCore's references. -/
abbrev entW13 : (c : Dev nD) → (b : Ref sig .tc) → Buf (Elt F) ((c : Thread nD τ).loc b) := fun c b => W37 m c b
/-- What region 13 leaves in `main_v221_0`: window 6's array after the last write-back. -/
def o38_0 (c : Dev nD) : Buf (Elt F) ((c : Thread nD τ).loc main_v221_0) := (dat13 (entW13 m) c).arrAt 6 cfg13.N
/-- What region 13 leaves in `main_v221_1`: window 7's array after the last write-back. -/
def o38_1 (c : Dev nD) : Buf (Elt F) ((c : Thread nD τ).loc main_v221_1) := (dat13 (entW13 m) c).arrAt 7 cfg13.N
/-- The contents after region 13: its output arrays replaced, every other buffer as entered. -/
def W38 (c : Dev nD) : Valuation τ sig (Elt F) := Function.update (Function.update (W37 m c) main_v221_0 (o38_0 m c)) main_v221_1 (o38_1 m c)
theorem W38_0 (c : Dev nD) : W38 m c main_v221_0 = o38_0 m c := by
  unfold W38
  rw [Function.update_of_ne (by decide : (Proc.devRef .tc main_v221_0 : DevRef τ sig) ≠ Proc.devRef .tc main_v221_1), Function.update_self]
theorem W38_1 (c : Dev nD) : W38 m c main_v221_1 = o38_1 m c := by
  unfold W38
  rw [Function.update_self]
/-- The contents after item 38, the host stretch `hostOps14`. -/
def W39 (c : Dev nD) : Valuation τ sig (Elt F) := StableHlo.after hostOps14 (W38 m c)

/-- The contents region 14 is entered from, read at the TensorCore's references. -/
abbrev entW14 : (c : Dev nD) → (b : Ref sig .tc) → Buf (Elt F) ((c : Thread nD τ).loc b) := fun c b => W39 m c b
/-- What region 14 leaves in `main_v234`: window 5's array after the last write-back. -/
def o40_0 (c : Dev nD) : Buf (Elt F) ((c : Thread nD τ).loc main_v234) := (dat14 (entW14 m) c).arrAt 5 cfg14.N
/-- The contents after region 14: its output arrays replaced, every other buffer as entered. -/
def W40 (c : Dev nD) : Valuation τ sig (Elt F) := Function.update (W39 m c) main_v234 (o40_0 m c)
theorem W40_0 (c : Dev nD) : W40 m c main_v234 = o40_0 m c := by
  unfold W40
  rw [Function.update_self]
/-- The contents after item 40, the host stretch `hostOps15`. -/
def W41 (c : Dev nD) : Valuation τ sig (Elt F) := StableHlo.after hostOps15 (W40 m c)
/-- The contents after item 41, the host stretch `hostOps15_1`. -/
def W42 (c : Dev nD) : Valuation τ sig (Elt F) := StableHlo.after hostOps15_1 (W41 m c)
/-- The contents after item 42, the host stretch `hostOps15_2`. -/
def W43 (c : Dev nD) : Valuation τ sig (Elt F) := StableHlo.after hostOps15_2 (W42 m c)

/-- The contents region 15 is entered from, read at the TensorCore's references. -/
abbrev entW15 : (c : Dev nD) → (b : Ref sig .tc) → Buf (Elt F) ((c : Thread nD τ).loc b) := fun c b => W43 m c b
/-- What region 15 leaves in `main_v250_0`: window 3's array after the last write-back. -/
def o44_0 (c : Dev nD) : Buf (Elt F) ((c : Thread nD τ).loc main_v250_0) := (dat15 (entW15 m) c).arrAt 3 cfg15.N
/-- What region 15 leaves in `main_v250_1`: window 4's array after the last write-back. -/
def o44_1 (c : Dev nD) : Buf (Elt F) ((c : Thread nD τ).loc main_v250_1) := (dat15 (entW15 m) c).arrAt 4 cfg15.N
/-- The contents after region 15: its output arrays replaced, every other buffer as entered. -/
def W44 (c : Dev nD) : Valuation τ sig (Elt F) := Function.update (Function.update (W43 m c) main_v250_0 (o44_0 m c)) main_v250_1 (o44_1 m c)
theorem W44_0 (c : Dev nD) : W44 m c main_v250_0 = o44_0 m c := by
  unfold W44
  rw [Function.update_of_ne (by decide : (Proc.devRef .tc main_v250_0 : DevRef τ sig) ≠ Proc.devRef .tc main_v250_1), Function.update_self]
theorem W44_1 (c : Dev nD) : W44 m c main_v250_1 = o44_1 m c := by
  unfold W44
  rw [Function.update_self]
/-- The contents after item 44, the host stretch `hostOps16`. -/
def W45 (c : Dev nD) : Valuation τ sig (Elt F) := StableHlo.after hostOps16 (W44 m c)

/-- The contents region 16 is entered from, read at the TensorCore's references. -/
abbrev entW16 : (c : Dev nD) → (b : Ref sig .tc) → Buf (Elt F) ((c : Thread nD τ).loc b) := fun c b => W45 m c b
/-- What region 16 leaves in `main_v263_0`: window 6's array after the last write-back. -/
def o46_0 (c : Dev nD) : Buf (Elt F) ((c : Thread nD τ).loc main_v263_0) := (dat16 (entW16 m) c).arrAt 6 cfg16.N
/-- What region 16 leaves in `main_v263_1`: window 7's array after the last write-back. -/
def o46_1 (c : Dev nD) : Buf (Elt F) ((c : Thread nD τ).loc main_v263_1) := (dat16 (entW16 m) c).arrAt 7 cfg16.N
/-- The contents after region 16: its output arrays replaced, every other buffer as entered. -/
def W46 (c : Dev nD) : Valuation τ sig (Elt F) := Function.update (Function.update (W45 m c) main_v263_0 (o46_0 m c)) main_v263_1 (o46_1 m c)
theorem W46_0 (c : Dev nD) : W46 m c main_v263_0 = o46_0 m c := by
  unfold W46
  rw [Function.update_of_ne (by decide : (Proc.devRef .tc main_v263_0 : DevRef τ sig) ≠ Proc.devRef .tc main_v263_1), Function.update_self]
theorem W46_1 (c : Dev nD) : W46 m c main_v263_1 = o46_1 m c := by
  unfold W46
  rw [Function.update_self]
/-- The contents after item 46, the host stretch `hostOps17`. -/
def W47 (c : Dev nD) : Valuation τ sig (Elt F) := StableHlo.after hostOps17 (W46 m c)

/-- The contents region 17 is entered from, read at the TensorCore's references. -/
abbrev entW17 : (c : Dev nD) → (b : Ref sig .tc) → Buf (Elt F) ((c : Thread nD τ).loc b) := fun c b => W47 m c b
/-- What region 17 leaves in `main_v276`: window 5's array after the last write-back. -/
def o48_0 (c : Dev nD) : Buf (Elt F) ((c : Thread nD τ).loc main_v276) := (dat17 (entW17 m) c).arrAt 5 cfg17.N
/-- The contents after region 17: its output arrays replaced, every other buffer as entered. -/
def W48 (c : Dev nD) : Valuation τ sig (Elt F) := Function.update (W47 m c) main_v276 (o48_0 m c)
theorem W48_0 (c : Dev nD) : W48 m c main_v276 = o48_0 m c := by
  unfold W48
  rw [Function.update_self]

/-! ## What the regions leave, as the program's valuations take it -/

/-- What each region leaves in the buffers it may change: after item `J − 1`, a region, the chain's contents `WJ`
    (read only at that region's output arrays); the launch contents at any other index (never read). -/
def outs : Gen.Outs (F := F) := fun J r c =>
  match J with
  | 4 => W4 m c r
  | 6 => W6 m c r
  | 8 => W8 m c r
  | 10 => W10 m c r
  | 12 => W12 m c r
  | 14 => W14 m c r
  | 18 => W18 m c r
  | 20 => W20 m c r
  | 22 => W22 m c r
  | 30 => W30 m c r
  | 32 => W32 m c r
  | 34 => W34 m c r
  | 36 => W36 m c r
  | 38 => W38 m c r
  | 40 => W40 m c r
  | 44 => W44 m c r
  | 46 => W46 m c r
  | 48 => W48 m c r
  | _ => Gen.V0 m c r

theorem outs_4_0 (c : Dev nD) : outs m 4 main_v22_0 c = o4_0 m c := W4_0 m c
theorem outs_4_1 (c : Dev nD) : outs m 4 main_v22_1 c = o4_1 m c := W4_1 m c
/-- The program's valuation after region 0, at these `outs`, is the chain's. -/
theorem V4_eq (c : Dev nD) : Gen.V4 m (outs m) c = W4 m c := by
  show Function.update (Function.update (Gen.V3 m c) main_v22_0 (outs m 4 main_v22_0 c)) main_v22_1 (outs m 4 main_v22_1 c) = W4 m c
  rw [outs_4_0 m c, outs_4_1 m c]; rfl
theorem V5_eq (c : Dev nD) : Gen.V5 m (outs m) c = W5 m c := congrArg (StableHlo.after hostOps1) (V4_eq m c)

theorem outs_6_0 (c : Dev nD) : outs m 6 main_v35_0 c = o6_0 m c := W6_0 m c
theorem outs_6_1 (c : Dev nD) : outs m 6 main_v35_1 c = o6_1 m c := W6_1 m c
/-- The program's valuation after region 1, at these `outs`, is the chain's. -/
theorem V6_eq (c : Dev nD) : Gen.V6 m (outs m) c = W6 m c := by
  show Function.update (Function.update (Gen.V5 m (outs m) c) main_v35_0 (outs m 6 main_v35_0 c)) main_v35_1 (outs m 6 main_v35_1 c) = W6 m c
  rw [outs_6_0 m c, outs_6_1 m c, V5_eq m c]; rfl
theorem V7_eq (c : Dev nD) : Gen.V7 m (outs m) c = W7 m c := congrArg (StableHlo.after hostOps2) (V6_eq m c)

theorem outs_8_0 (c : Dev nD) : outs m 8 main_v48 c = o8_0 m c := W8_0 m c
/-- The program's valuation after region 2, at these `outs`, is the chain's. -/
theorem V8_eq (c : Dev nD) : Gen.V8 m (outs m) c = W8 m c := by
  show Function.update (Gen.V7 m (outs m) c) main_v48 (outs m 8 main_v48 c) = W8 m c
  rw [outs_8_0 m c, V7_eq m c]; rfl
theorem V9_eq (c : Dev nD) : Gen.V9 m (outs m) c = W9 m c := congrArg (StableHlo.after hostOps3) (V8_eq m c)

theorem outs_10_0 (c : Dev nD) : outs m 10 main_v63_0 c = o10_0 m c := W10_0 m c
theorem outs_10_1 (c : Dev nD) : outs m 10 main_v63_1 c = o10_1 m c := W10_1 m c
/-- The program's valuation after region 3, at these `outs`, is the chain's. -/
theorem V10_eq (c : Dev nD) : Gen.V10 m (outs m) c = W10 m c := by
  show Function.update (Function.update (Gen.V9 m (outs m) c) main_v63_0 (outs m 10 main_v63_0 c)) main_v63_1 (outs m 10 main_v63_1 c) = W10 m c
  rw [outs_10_0 m c, outs_10_1 m c, V9_eq m c]; rfl
theorem V11_eq (c : Dev nD) : Gen.V11 m (outs m) c = W11 m c := congrArg (StableHlo.after hostOps4) (V10_eq m c)

theorem outs_12_0 (c : Dev nD) : outs m 12 main_v76_0 c = o12_0 m c := W12_0 m c
theorem outs_12_1 (c : Dev nD) : outs m 12 main_v76_1 c = o12_1 m c := W12_1 m c
/-- The program's valuation after region 4, at these `outs`, is the chain's. -/
theorem V12_eq (c : Dev nD) : Gen.V12 m (outs m) c = W12 m c := by
  show Function.update (Function.update (Gen.V11 m (outs m) c) main_v76_0 (outs m 12 main_v76_0 c)) main_v76_1 (outs m 12 main_v76_1 c) = W12 m c
  rw [outs_12_0 m c, outs_12_1 m c, V11_eq m c]; rfl
theorem V13_eq (c : Dev nD) : Gen.V13 m (outs m) c = W13 m c := congrArg (StableHlo.after hostOps5) (V12_eq m c)

theorem outs_14_0 (c : Dev nD) : outs m 14 main_v89 c = o14_0 m c := W14_0 m c
/-- The program's valuation after region 5, at these `outs`, is the chain's. -/
theorem V14_eq (c : Dev nD) : Gen.V14 m (outs m) c = W14 m c := by
  show Function.update (Gen.V13 m (outs m) c) main_v89 (outs m 14 main_v89 c) = W14 m c
  rw [outs_14_0 m c, V13_eq m c]; rfl
theorem V15_eq (c : Dev nD) : Gen.V15 m (outs m) c = W15 m c := congrArg (StableHlo.after hostOps6) (V14_eq m c)
theorem V16_eq (c : Dev nD) : Gen.V16 m (outs m) c = W16 m c := congrArg (StableHlo.after hostOps6_1) (V15_eq m c)
theorem V17_eq (c : Dev nD) : Gen.V17 m (outs m) c = W17 m c := congrArg (StableHlo.after hostOps6_2) (V16_eq m c)

theorem outs_18_0 (c : Dev nD) : outs m 18 main_v105_0 c = o18_0 m c := W18_0 m c
theorem outs_18_1 (c : Dev nD) : outs m 18 main_v105_1 c = o18_1 m c := W18_1 m c
/-- The program's valuation after region 6, at these `outs`, is the chain's. -/
theorem V18_eq (c : Dev nD) : Gen.V18 m (outs m) c = W18 m c := by
  show Function.update (Function.update (Gen.V17 m (outs m) c) main_v105_0 (outs m 18 main_v105_0 c)) main_v105_1 (outs m 18 main_v105_1 c) = W18 m c
  rw [outs_18_0 m c, outs_18_1 m c, V17_eq m c]; rfl
theorem V19_eq (c : Dev nD) : Gen.V19 m (outs m) c = W19 m c := congrArg (StableHlo.after hostOps7) (V18_eq m c)

theorem outs_20_0 (c : Dev nD) : outs m 20 main_v118_0 c = o20_0 m c := W20_0 m c
theorem outs_20_1 (c : Dev nD) : outs m 20 main_v118_1 c = o20_1 m c := W20_1 m c
/-- The program's valuation after region 7, at these `outs`, is the chain's. -/
theorem V20_eq (c : Dev nD) : Gen.V20 m (outs m) c = W20 m c := by
  show Function.update (Function.update (Gen.V19 m (outs m) c) main_v118_0 (outs m 20 main_v118_0 c)) main_v118_1 (outs m 20 main_v118_1 c) = W20 m c
  rw [outs_20_0 m c, outs_20_1 m c, V19_eq m c]; rfl
theorem V21_eq (c : Dev nD) : Gen.V21 m (outs m) c = W21 m c := congrArg (StableHlo.after hostOps8) (V20_eq m c)

theorem outs_22_0 (c : Dev nD) : outs m 22 main_v131 c = o22_0 m c := W22_0 m c
/-- The program's valuation after region 8, at these `outs`, is the chain's. -/
theorem V22_eq (c : Dev nD) : Gen.V22 m (outs m) c = W22 m c := by
  show Function.update (Gen.V21 m (outs m) c) main_v131 (outs m 22 main_v131 c) = W22 m c
  rw [outs_22_0 m c, V21_eq m c]; rfl
theorem V23_eq (c : Dev nD) : Gen.V23 m (outs m) c = W23 m c := congrArg (StableHlo.after hostOps9) (V22_eq m c)
theorem V24_eq (c : Dev nD) : Gen.V24 m (outs m) c = W24 m c := congrArg (StableHlo.after hostOps9_1) (V23_eq m c)
theorem V25_eq (c : Dev nD) : Gen.V25 m (outs m) c = W25 m c := congrArg (StableHlo.after hostOps9_2) (V24_eq m c)
theorem V26_eq (c : Dev nD) : Gen.V26 m (outs m) c = W26 m c := congrArg (StableHlo.after hostOps9_3) (V25_eq m c)
theorem V27_eq (c : Dev nD) : Gen.V27 m (outs m) c = W27 m c := congrArg (StableHlo.after hostOps9_4) (V26_eq m c)
theorem V28_eq (c : Dev nD) : Gen.V28 m (outs m) c = W28 m c := congrArg (StableHlo.after hostOps9_5) (V27_eq m c)
theorem V29_eq (c : Dev nD) : Gen.V29 m (outs m) c = W29 m c := congrArg (StableHlo.after hostOps9_6) (V28_eq m c)

theorem outs_30_0 (c : Dev nD) : outs m 30 main_v167_0 c = o30_0 m c := W30_0 m c
theorem outs_30_1 (c : Dev nD) : outs m 30 main_v167_1 c = o30_1 m c := W30_1 m c
/-- The program's valuation after region 9, at these `outs`, is the chain's. -/
theorem V30_eq (c : Dev nD) : Gen.V30 m (outs m) c = W30 m c := by
  show Function.update (Function.update (Gen.V29 m (outs m) c) main_v167_0 (outs m 30 main_v167_0 c)) main_v167_1 (outs m 30 main_v167_1 c) = W30 m c
  rw [outs_30_0 m c, outs_30_1 m c, V29_eq m c]; rfl
theorem V31_eq (c : Dev nD) : Gen.V31 m (outs m) c = W31 m c := congrArg (StableHlo.after hostOps10) (V30_eq m c)

theorem outs_32_0 (c : Dev nD) : outs m 32 main_v180_0 c = o32_0 m c := W32_0 m c
theorem outs_32_1 (c : Dev nD) : outs m 32 main_v180_1 c = o32_1 m c := W32_1 m c
/-- The program's valuation after region 10, at these `outs`, is the chain's. -/
theorem V32_eq (c : Dev nD) : Gen.V32 m (outs m) c = W32 m c := by
  show Function.update (Function.update (Gen.V31 m (outs m) c) main_v180_0 (outs m 32 main_v180_0 c)) main_v180_1 (outs m 32 main_v180_1 c) = W32 m c
  rw [outs_32_0 m c, outs_32_1 m c, V31_eq m c]; rfl
theorem V33_eq (c : Dev nD) : Gen.V33 m (outs m) c = W33 m c := congrArg (StableHlo.after hostOps11) (V32_eq m c)

theorem outs_34_0 (c : Dev nD) : outs m 34 main_v193 c = o34_0 m c := W34_0 m c
/-- The program's valuation after region 11, at these `outs`, is the chain's. -/
theorem V34_eq (c : Dev nD) : Gen.V34 m (outs m) c = W34 m c := by
  show Function.update (Gen.V33 m (outs m) c) main_v193 (outs m 34 main_v193 c) = W34 m c
  rw [outs_34_0 m c, V33_eq m c]; rfl
theorem V35_eq (c : Dev nD) : Gen.V35 m (outs m) c = W35 m c := congrArg (StableHlo.after hostOps12) (V34_eq m c)

theorem outs_36_0 (c : Dev nD) : outs m 36 main_v208_0 c = o36_0 m c := W36_0 m c
theorem outs_36_1 (c : Dev nD) : outs m 36 main_v208_1 c = o36_1 m c := W36_1 m c
/-- The program's valuation after region 12, at these `outs`, is the chain's. -/
theorem V36_eq (c : Dev nD) : Gen.V36 m (outs m) c = W36 m c := by
  show Function.update (Function.update (Gen.V35 m (outs m) c) main_v208_0 (outs m 36 main_v208_0 c)) main_v208_1 (outs m 36 main_v208_1 c) = W36 m c
  rw [outs_36_0 m c, outs_36_1 m c, V35_eq m c]; rfl
theorem V37_eq (c : Dev nD) : Gen.V37 m (outs m) c = W37 m c := congrArg (StableHlo.after hostOps13) (V36_eq m c)

theorem outs_38_0 (c : Dev nD) : outs m 38 main_v221_0 c = o38_0 m c := W38_0 m c
theorem outs_38_1 (c : Dev nD) : outs m 38 main_v221_1 c = o38_1 m c := W38_1 m c
/-- The program's valuation after region 13, at these `outs`, is the chain's. -/
theorem V38_eq (c : Dev nD) : Gen.V38 m (outs m) c = W38 m c := by
  show Function.update (Function.update (Gen.V37 m (outs m) c) main_v221_0 (outs m 38 main_v221_0 c)) main_v221_1 (outs m 38 main_v221_1 c) = W38 m c
  rw [outs_38_0 m c, outs_38_1 m c, V37_eq m c]; rfl
theorem V39_eq (c : Dev nD) : Gen.V39 m (outs m) c = W39 m c := congrArg (StableHlo.after hostOps14) (V38_eq m c)

theorem outs_40_0 (c : Dev nD) : outs m 40 main_v234 c = o40_0 m c := W40_0 m c
/-- The program's valuation after region 14, at these `outs`, is the chain's. -/
theorem V40_eq (c : Dev nD) : Gen.V40 m (outs m) c = W40 m c := by
  show Function.update (Gen.V39 m (outs m) c) main_v234 (outs m 40 main_v234 c) = W40 m c
  rw [outs_40_0 m c, V39_eq m c]; rfl
theorem V41_eq (c : Dev nD) : Gen.V41 m (outs m) c = W41 m c := congrArg (StableHlo.after hostOps15) (V40_eq m c)
theorem V42_eq (c : Dev nD) : Gen.V42 m (outs m) c = W42 m c := congrArg (StableHlo.after hostOps15_1) (V41_eq m c)
theorem V43_eq (c : Dev nD) : Gen.V43 m (outs m) c = W43 m c := congrArg (StableHlo.after hostOps15_2) (V42_eq m c)

theorem outs_44_0 (c : Dev nD) : outs m 44 main_v250_0 c = o44_0 m c := W44_0 m c
theorem outs_44_1 (c : Dev nD) : outs m 44 main_v250_1 c = o44_1 m c := W44_1 m c
/-- The program's valuation after region 15, at these `outs`, is the chain's. -/
theorem V44_eq (c : Dev nD) : Gen.V44 m (outs m) c = W44 m c := by
  show Function.update (Function.update (Gen.V43 m (outs m) c) main_v250_0 (outs m 44 main_v250_0 c)) main_v250_1 (outs m 44 main_v250_1 c) = W44 m c
  rw [outs_44_0 m c, outs_44_1 m c, V43_eq m c]; rfl
theorem V45_eq (c : Dev nD) : Gen.V45 m (outs m) c = W45 m c := congrArg (StableHlo.after hostOps16) (V44_eq m c)

theorem outs_46_0 (c : Dev nD) : outs m 46 main_v263_0 c = o46_0 m c := W46_0 m c
theorem outs_46_1 (c : Dev nD) : outs m 46 main_v263_1 c = o46_1 m c := W46_1 m c
/-- The program's valuation after region 16, at these `outs`, is the chain's. -/
theorem V46_eq (c : Dev nD) : Gen.V46 m (outs m) c = W46 m c := by
  show Function.update (Function.update (Gen.V45 m (outs m) c) main_v263_0 (outs m 46 main_v263_0 c)) main_v263_1 (outs m 46 main_v263_1 c) = W46 m c
  rw [outs_46_0 m c, outs_46_1 m c, V45_eq m c]; rfl
theorem V47_eq (c : Dev nD) : Gen.V47 m (outs m) c = W47 m c := congrArg (StableHlo.after hostOps17) (V46_eq m c)

theorem outs_48_0 (c : Dev nD) : outs m 48 main_v276 c = o48_0 m c := W48_0 m c
/-- The program's valuation after region 17, at these `outs`, is the chain's. -/
theorem V48_eq (c : Dev nD) : Gen.V48 m (outs m) c = W48 m c := by
  show Function.update (Gen.V47 m (outs m) c) main_v276 (outs m 48 main_v276 c) = W48 m c
  rw [outs_48_0 m c, V47_eq m c]; rfl

/-! ## Each region's entry and exit contents, and what its output arrays hold -/

/-- A statement about every window of a region of five holds when it holds of each: the cases are taken once, at a
    predicate, so that no statement whose type depends on the window is ever matched on. -/
theorem forall_fin5 {P : Fin 5 → Prop} (h0 : P 0) (h1 : P 1) (h2 : P 2) (h3 : P 3) (h4 : P 4) : ∀ w, P w
  | 0 => h0 | 1 => h1 | 2 => h2 | 3 => h3 | 4 => h4
  | ⟨_ + 5, h⟩ => absurd h (Nat.not_lt.2 (Nat.le_add_left _ _))
/-- The same of six and of eight windows. -/
theorem forall_fin6 {P : Fin 6 → Prop} (h0 : P 0) (h1 : P 1) (h2 : P 2) (h3 : P 3) (h4 : P 4) (h5 : P 5) : ∀ w, P w
  | 0 => h0 | 1 => h1 | 2 => h2 | 3 => h3 | 4 => h4 | 5 => h5
  | ⟨_ + 6, h⟩ => absurd h (Nat.not_lt.2 (Nat.le_add_left _ _))

theorem forall_fin8 {P : Fin 8 → Prop} (h0 : P 0) (h1 : P 1) (h2 : P 2) (h3 : P 3) (h4 : P 4) (h5 : P 5) (h6 : P 6) (h7 : P 7) : ∀ w, P w
  | 0 => h0 | 1 => h1 | 2 => h2 | 3 => h3 | 4 => h4 | 5 => h5 | 6 => h6 | 7 => h7
  | ⟨_ + 8, h⟩ => absurd h (Nat.not_lt.2 (Nat.le_add_left _ _))

/-- The program's valuation region 0 is entered from, read at the TensorCore's references; -/
abbrev ent0 : (c : Dev nD) → (b : Ref sig .tc) → Buf (Elt F) ((c : Thread nD τ).loc b) := fun c b => Gen.V3 m c b
/-- the one it leaves. -/
abbrev ext0 : (c : Dev nD) → (b : Ref sig .tc) → Buf (Elt F) ((c : Thread nD τ).loc b) := fun c b => Gen.V4 m (outs m) c b
theorem ent0_eq : ent0 m = entW0 m := rfl
/-- After region 0, `main_v22_0` holds window 3's array after the last write-back of the pipeline run from the
    contents the region was entered from. -/
theorem outs_eq_0_3 (c : Dev nD) : outs m 4 main_v22_0 c = (dat0 (ent0 m) c).arrAt 3 cfg0.N := by
  rw [ent0_eq m]; exact outs_4_0 m c
/-- After region 0, `main_v22_1` holds window 4's array after the last write-back of the pipeline run from the
    contents the region was entered from. -/
theorem outs_eq_0_4 (c : Dev nD) : outs m 4 main_v22_1 c = (dat0 (ent0 m) c).arrAt 4 cfg0.N := by
  rw [ent0_eq m]; exact outs_4_1 m c
/-- At region 0's exit each of its arrays holds what the pipeline leaves, window by window: an input window's array
    is as entered (no write-back touches it, and the region's exit valuation differs from the entry one only at the
    output arrays), an output window's is the chain's. -/
theorem hF0_0 (c : Dev nD) : (dat0 (ent0 m) c).arrAt 0 cfg0.N = ext0 m c (Pipeline.arrRef spec0 0) :=
  ((dat0 (ent0 m) c).arrAt_in 0 rfl _).trans ((A_eq0 (ent0 m) c 0).trans (Gen.V4_of m (outs m) c main_v7 (by decide)).symm)
theorem hF0_1 (c : Dev nD) : (dat0 (ent0 m) c).arrAt 1 cfg0.N = ext0 m c (Pipeline.arrRef spec0 1) :=
  ((dat0 (ent0 m) c).arrAt_in 1 rfl _).trans ((A_eq0 (ent0 m) c 1).trans (Gen.V4_of m (outs m) c main_v21 (by decide)).symm)
theorem hF0_2 (c : Dev nD) : (dat0 (ent0 m) c).arrAt 2 cfg0.N = ext0 m c (Pipeline.arrRef spec0 2) :=
  ((dat0 (ent0 m) c).arrAt_in 2 rfl _).trans ((A_eq0 (ent0 m) c 2).trans (Gen.V4_of m (outs m) c main_v0 (by decide)).symm)
theorem hF0_3 (c : Dev nD) : (dat0 (ent0 m) c).arrAt 3 cfg0.N = ext0 m c (Pipeline.arrRef spec0 3) :=
  (congrArg (fun V => (dat0 V c).arrAt 3 cfg0.N) (ent0_eq m)).trans ((W4_0 m c).symm.trans (congrFun (V4_eq m c) _).symm)
theorem hF0_4 (c : Dev nD) : (dat0 (ent0 m) c).arrAt 4 cfg0.N = ext0 m c (Pipeline.arrRef spec0 4) :=
  (congrArg (fun V => (dat0 V c).arrAt 4 cfg0.N) (ent0_eq m)).trans ((W4_1 m c).symm.trans (congrFun (V4_eq m c) _).symm)
/-- The same of every window at once. -/
theorem hF0 (c : Dev nD) : ∀ w : Fin 5, (dat0 (ent0 m) c).arrAt w cfg0.N = ext0 m c (Pipeline.arrRef spec0 w) :=
  forall_fin5 (P := fun w => (dat0 (ent0 m) c).arrAt w cfg0.N = ext0 m c (Pipeline.arrRef spec0 w))
    (hF0_0 m c) (hF0_1 m c) (hF0_2 m c) (hF0_3 m c) (hF0_4 m c)
/-- and every buffer that is none of its arrays holds what it held at entry. -/
theorem hrest0 (c : Dev nD) : ∀ b : Ref sig .tc, b ∉ Finset.univ.image (Pipeline.arrRef spec0) → ext0 m c b = ent0 m c b :=
  fun b hb => Gen.V4_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 1 is entered from, read at the TensorCore's references; -/
abbrev ent1 : (c : Dev nD) → (b : Ref sig .tc) → Buf (Elt F) ((c : Thread nD τ).loc b) := fun c b => Gen.V5 m (outs m) c b
/-- the one it leaves. -/
abbrev ext1 : (c : Dev nD) → (b : Ref sig .tc) → Buf (Elt F) ((c : Thread nD τ).loc b) := fun c b => Gen.V6 m (outs m) c b
theorem ent1_eq : ent1 m = entW1 m := funext fun c => funext fun b => congrFun (V5_eq m c) _
/-- After region 1, `main_v35_0` holds window 6's array after the last write-back of the pipeline run from the
    contents the region was entered from. -/
theorem outs_eq_1_6 (c : Dev nD) : outs m 6 main_v35_0 c = (dat1 (ent1 m) c).arrAt 6 cfg1.N := by
  rw [ent1_eq m]; exact outs_6_0 m c
/-- After region 1, `main_v35_1` holds window 7's array after the last write-back of the pipeline run from the
    contents the region was entered from. -/
theorem outs_eq_1_7 (c : Dev nD) : outs m 6 main_v35_1 c = (dat1 (ent1 m) c).arrAt 7 cfg1.N := by
  rw [ent1_eq m]; exact outs_6_1 m c
/-- At region 1's exit each of its arrays holds what the pipeline leaves, window by window: an input window's array
    is as entered (no write-back touches it, and the region's exit valuation differs from the entry one only at the
    output arrays), an output window's is the chain's. -/
theorem hF1_0 (c : Dev nD) : (dat1 (ent1 m) c).arrAt 0 cfg1.N = ext1 m c (Pipeline.arrRef spec1 0) :=
  ((dat1 (ent1 m) c).arrAt_in 0 rfl _).trans ((A_eq1 (ent1 m) c 0).trans (Gen.V6_of m (outs m) c main_v22_0 (by decide)).symm)
theorem hF1_1 (c : Dev nD) : (dat1 (ent1 m) c).arrAt 1 cfg1.N = ext1 m c (Pipeline.arrRef spec1 1) :=
  ((dat1 (ent1 m) c).arrAt_in 1 rfl _).trans ((A_eq1 (ent1 m) c 1).trans (Gen.V6_of m (outs m) c main_v25 (by decide)).symm)
theorem hF1_2 (c : Dev nD) : (dat1 (ent1 m) c).arrAt 2 cfg1.N = ext1 m c (Pipeline.arrRef spec1 2) :=
  ((dat1 (ent1 m) c).arrAt_in 2 rfl _).trans ((A_eq1 (ent1 m) c 2).trans (Gen.V6_of m (outs m) c main_v32 (by decide)).symm)
theorem hF1_3 (c : Dev nD) : (dat1 (ent1 m) c).arrAt 3 cfg1.N = ext1 m c (Pipeline.arrRef spec1 3) :=
  ((dat1 (ent1 m) c).arrAt_in 3 rfl _).trans ((A_eq1 (ent1 m) c 3).trans (Gen.V6_of m (outs m) c main_v33 (by decide)).symm)
theorem hF1_4 (c : Dev nD) : (dat1 (ent1 m) c).arrAt 4 cfg1.N = ext1 m c (Pipeline.arrRef spec1 4) :=
  ((dat1 (ent1 m) c).arrAt_in 4 rfl _).trans ((A_eq1 (ent1 m) c 4).trans (Gen.V6_of m (outs m) c main_v34 (by decide)).symm)
theorem hF1_5 (c : Dev nD) : (dat1 (ent1 m) c).arrAt 5 cfg1.N = ext1 m c (Pipeline.arrRef spec1 5) :=
  ((dat1 (ent1 m) c).arrAt_in 5 rfl _).trans ((A_eq1 (ent1 m) c 5).trans (Gen.V6_of m (outs m) c main_v1 (by decide)).symm)
theorem hF1_6 (c : Dev nD) : (dat1 (ent1 m) c).arrAt 6 cfg1.N = ext1 m c (Pipeline.arrRef spec1 6) :=
  (congrArg (fun V => (dat1 V c).arrAt 6 cfg1.N) (ent1_eq m)).trans ((W6_0 m c).symm.trans (congrFun (V6_eq m c) _).symm)
theorem hF1_7 (c : Dev nD) : (dat1 (ent1 m) c).arrAt 7 cfg1.N = ext1 m c (Pipeline.arrRef spec1 7) :=
  (congrArg (fun V => (dat1 V c).arrAt 7 cfg1.N) (ent1_eq m)).trans ((W6_1 m c).symm.trans (congrFun (V6_eq m c) _).symm)
/-- The same of every window at once. -/
theorem hF1 (c : Dev nD) : ∀ w : Fin 8, (dat1 (ent1 m) c).arrAt w cfg1.N = ext1 m c (Pipeline.arrRef spec1 w) :=
  forall_fin8 (P := fun w => (dat1 (ent1 m) c).arrAt w cfg1.N = ext1 m c (Pipeline.arrRef spec1 w))
    (hF1_0 m c) (hF1_1 m c) (hF1_2 m c) (hF1_3 m c) (hF1_4 m c) (hF1_5 m c) (hF1_6 m c) (hF1_7 m c)
/-- and every buffer that is none of its arrays holds what it held at entry. -/
theorem hrest1 (c : Dev nD) : ∀ b : Ref sig .tc, b ∉ Finset.univ.image (Pipeline.arrRef spec1) → ext1 m c b = ent1 m c b :=
  fun b hb => Gen.V6_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 2 is entered from, read at the TensorCore's references; -/
abbrev ent2 : (c : Dev nD) → (b : Ref sig .tc) → Buf (Elt F) ((c : Thread nD τ).loc b) := fun c b => Gen.V7 m (outs m) c b
/-- the one it leaves. -/
abbrev ext2 : (c : Dev nD) → (b : Ref sig .tc) → Buf (Elt F) ((c : Thread nD τ).loc b) := fun c b => Gen.V8 m (outs m) c b
theorem ent2_eq : ent2 m = entW2 m := funext fun c => funext fun b => congrFun (V7_eq m c) _
/-- After region 2, `main_v48` holds window 5's array after the last write-back of the pipeline run from the
    contents the region was entered from. -/
theorem outs_eq_2_5 (c : Dev nD) : outs m 8 main_v48 c = (dat2 (ent2 m) c).arrAt 5 cfg2.N := by
  rw [ent2_eq m]; exact outs_8_0 m c
/-- At region 2's exit each of its arrays holds what the pipeline leaves, window by window: an input window's array
    is as entered (no write-back touches it, and the region's exit valuation differs from the entry one only at the
    output arrays), an output window's is the chain's. -/
theorem hF2_0 (c : Dev nD) : (dat2 (ent2 m) c).arrAt 0 cfg2.N = ext2 m c (Pipeline.arrRef spec2 0) :=
  ((dat2 (ent2 m) c).arrAt_in 0 rfl _).trans ((A_eq2 (ent2 m) c 0).trans (Gen.V8_of m (outs m) c main_v35_0 (by decide)).symm)
theorem hF2_1 (c : Dev nD) : (dat2 (ent2 m) c).arrAt 1 cfg2.N = ext2 m c (Pipeline.arrRef spec2 1) :=
  ((dat2 (ent2 m) c).arrAt_in 1 rfl _).trans ((A_eq2 (ent2 m) c 1).trans (Gen.V8_of m (outs m) c main_v38 (by decide)).symm)
theorem hF2_2 (c : Dev nD) : (dat2 (ent2 m) c).arrAt 2 cfg2.N = ext2 m c (Pipeline.arrRef spec2 2) :=
  ((dat2 (ent2 m) c).arrAt_in 2 rfl _).trans ((A_eq2 (ent2 m) c 2).trans (Gen.V8_of m (outs m) c main_v45 (by decide)).symm)
theorem hF2_3 (c : Dev nD) : (dat2 (ent2 m) c).arrAt 3 cfg2.N = ext2 m c (Pipeline.arrRef spec2 3) :=
  ((dat2 (ent2 m) c).arrAt_in 3 rfl _).trans ((A_eq2 (ent2 m) c 3).trans (Gen.V8_of m (outs m) c main_v46 (by decide)).symm)
theorem hF2_4 (c : Dev nD) : (dat2 (ent2 m) c).arrAt 4 cfg2.N = ext2 m c (Pipeline.arrRef spec2 4) :=
  ((dat2 (ent2 m) c).arrAt_in 4 rfl _).trans ((A_eq2 (ent2 m) c 4).trans (Gen.V8_of m (outs m) c main_v47 (by decide)).symm)
theorem hF2_5 (c : Dev nD) : (dat2 (ent2 m) c).arrAt 5 cfg2.N = ext2 m c (Pipeline.arrRef spec2 5) :=
  (congrArg (fun V => (dat2 V c).arrAt 5 cfg2.N) (ent2_eq m)).trans ((W8_0 m c).symm.trans (congrFun (V8_eq m c) _).symm)
/-- The same of every window at once. -/
theorem hF2 (c : Dev nD) : ∀ w : Fin 6, (dat2 (ent2 m) c).arrAt w cfg2.N = ext2 m c (Pipeline.arrRef spec2 w) :=
  forall_fin6 (P := fun w => (dat2 (ent2 m) c).arrAt w cfg2.N = ext2 m c (Pipeline.arrRef spec2 w))
    (hF2_0 m c) (hF2_1 m c) (hF2_2 m c) (hF2_3 m c) (hF2_4 m c) (hF2_5 m c)
/-- and every buffer that is none of its arrays holds what it held at entry. -/
theorem hrest2 (c : Dev nD) : ∀ b : Ref sig .tc, b ∉ Finset.univ.image (Pipeline.arrRef spec2) → ext2 m c b = ent2 m c b :=
  fun b hb => Gen.V8_of m (outs m) c b fun hmem => hb (by
    rcases List.mem_cons.mp hmem with rfl | hmem
    · exact Finset.mem_image.mpr ⟨5, Finset.mem_univ _, rfl⟩
    cases hmem)

/-- The program's valuation region 3 is entered from, read at the TensorCore's references; -/
abbrev ent3 : (c : Dev nD) → (b : Ref sig .tc) → Buf (Elt F) ((c : Thread nD τ).loc b) := fun c b => Gen.V9 m (outs m) c b
/-- the one it leaves. -/
abbrev ext3 : (c : Dev nD) → (b : Ref sig .tc) → Buf (Elt F) ((c : Thread nD τ).loc b) := fun c b => Gen.V10 m (outs m) c b
theorem ent3_eq : ent3 m = entW3 m := funext fun c => funext fun b => congrFun (V9_eq m c) _
/-- After region 3, `main_v63_0` holds window 3's array after the last write-back of the pipeline run from the
    contents the region was entered from. -/
theorem outs_eq_3_3 (c : Dev nD) : outs m 10 main_v63_0 c = (dat3 (ent3 m) c).arrAt 3 cfg3.N := by
  rw [ent3_eq m]; exact outs_10_0 m c
/-- After region 3, `main_v63_1` holds window 4's array after the last write-back of the pipeline run from the
    contents the region was entered from. -/
theorem outs_eq_3_4 (c : Dev nD) : outs m 10 main_v63_1 c = (dat3 (ent3 m) c).arrAt 4 cfg3.N := by
  rw [ent3_eq m]; exact outs_10_1 m c
/-- At region 3's exit each of its arrays holds what the pipeline leaves, window by window: an input window's array
    is as entered (no write-back touches it, and the region's exit valuation differs from the entry one only at the
    output arrays), an output window's is the chain's. -/
theorem hF3_0 (c : Dev nD) : (dat3 (ent3 m) c).arrAt 0 cfg3.N = ext3 m c (Pipeline.arrRef spec3 0) :=
  ((dat3 (ent3 m) c).arrAt_in 0 rfl _).trans ((A_eq3 (ent3 m) c 0).trans (Gen.V10_of m (outs m) c main_v48 (by decide)).symm)
theorem hF3_1 (c : Dev nD) : (dat3 (ent3 m) c).arrAt 1 cfg3.N = ext3 m c (Pipeline.arrRef spec3 1) :=
  ((dat3 (ent3 m) c).arrAt_in 1 rfl _).trans ((A_eq3 (ent3 m) c 1).trans (Gen.V10_of m (outs m) c main_v62 (by decide)).symm)
theorem hF3_2 (c : Dev nD) : (dat3 (ent3 m) c).arrAt 2 cfg3.N = ext3 m c (Pipeline.arrRef spec3 2) :=
  ((dat3 (ent3 m) c).arrAt_in 2 rfl _).trans ((A_eq3 (ent3 m) c 2).trans (Gen.V10_of m (outs m) c main_v2 (by decide)).symm)
theorem hF3_3 (c : Dev nD) : (dat3 (ent3 m) c).arrAt 3 cfg3.N = ext3 m c (Pipeline.arrRef spec3 3) :=
  (congrArg (fun V => (dat3 V c).arrAt 3 cfg3.N) (ent3_eq m)).trans ((W10_0 m c).symm.trans (congrFun (V10_eq m c) _).symm)
theorem hF3_4 (c : Dev nD) : (dat3 (ent3 m) c).arrAt 4 cfg3.N = ext3 m c (Pipeline.arrRef spec3 4) :=
  (congrArg (fun V => (dat3 V c).arrAt 4 cfg3.N) (ent3_eq m)).trans ((W10_1 m c).symm.trans (congrFun (V10_eq m c) _).symm)
/-- The same of every window at once. -/
theorem hF3 (c : Dev nD) : ∀ w : Fin 5, (dat3 (ent3 m) c).arrAt w cfg3.N = ext3 m c (Pipeline.arrRef spec3 w) :=
  forall_fin5 (P := fun w => (dat3 (ent3 m) c).arrAt w cfg3.N = ext3 m c (Pipeline.arrRef spec3 w))
    (hF3_0 m c) (hF3_1 m c) (hF3_2 m c) (hF3_3 m c) (hF3_4 m c)
/-- and every buffer that is none of its arrays holds what it held at entry. -/
theorem hrest3 (c : Dev nD) : ∀ b : Ref sig .tc, b ∉ Finset.univ.image (Pipeline.arrRef spec3) → ext3 m c b = ent3 m c b :=
  fun b hb => Gen.V10_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 4 is entered from, read at the TensorCore's references; -/
abbrev ent4 : (c : Dev nD) → (b : Ref sig .tc) → Buf (Elt F) ((c : Thread nD τ).loc b) := fun c b => Gen.V11 m (outs m) c b
/-- the one it leaves. -/
abbrev ext4 : (c : Dev nD) → (b : Ref sig .tc) → Buf (Elt F) ((c : Thread nD τ).loc b) := fun c b => Gen.V12 m (outs m) c b
theorem ent4_eq : ent4 m = entW4 m := funext fun c => funext fun b => congrFun (V11_eq m c) _
/-- After region 4, `main_v76_0` holds window 6's array after the last write-back of the pipeline run from the
    contents the region was entered from. -/
theorem outs_eq_4_6 (c : Dev nD) : outs m 12 main_v76_0 c = (dat4 (ent4 m) c).arrAt 6 cfg4.N := by
  rw [ent4_eq m]; exact outs_12_0 m c
/-- After region 4, `main_v76_1` holds window 7's array after the last write-back of the pipeline run from the
    contents the region was entered from. -/
theorem outs_eq_4_7 (c : Dev nD) : outs m 12 main_v76_1 c = (dat4 (ent4 m) c).arrAt 7 cfg4.N := by
  rw [ent4_eq m]; exact outs_12_1 m c
/-- At region 4's exit each of its arrays holds what the pipeline leaves, window by window: an input window's array
    is as entered (no write-back touches it, and the region's exit valuation differs from the entry one only at the
    output arrays), an output window's is the chain's. -/
theorem hF4_0 (c : Dev nD) : (dat4 (ent4 m) c).arrAt 0 cfg4.N = ext4 m c (Pipeline.arrRef spec4 0) :=
  ((dat4 (ent4 m) c).arrAt_in 0 rfl _).trans ((A_eq4 (ent4 m) c 0).trans (Gen.V12_of m (outs m) c main_v63_0 (by decide)).symm)
theorem hF4_1 (c : Dev nD) : (dat4 (ent4 m) c).arrAt 1 cfg4.N = ext4 m c (Pipeline.arrRef spec4 1) :=
  ((dat4 (ent4 m) c).arrAt_in 1 rfl _).trans ((A_eq4 (ent4 m) c 1).trans (Gen.V12_of m (outs m) c main_v66 (by decide)).symm)
theorem hF4_2 (c : Dev nD) : (dat4 (ent4 m) c).arrAt 2 cfg4.N = ext4 m c (Pipeline.arrRef spec4 2) :=
  ((dat4 (ent4 m) c).arrAt_in 2 rfl _).trans ((A_eq4 (ent4 m) c 2).trans (Gen.V12_of m (outs m) c main_v73 (by decide)).symm)
theorem hF4_3 (c : Dev nD) : (dat4 (ent4 m) c).arrAt 3 cfg4.N = ext4 m c (Pipeline.arrRef spec4 3) :=
  ((dat4 (ent4 m) c).arrAt_in 3 rfl _).trans ((A_eq4 (ent4 m) c 3).trans (Gen.V12_of m (outs m) c main_v74 (by decide)).symm)
theorem hF4_4 (c : Dev nD) : (dat4 (ent4 m) c).arrAt 4 cfg4.N = ext4 m c (Pipeline.arrRef spec4 4) :=
  ((dat4 (ent4 m) c).arrAt_in 4 rfl _).trans ((A_eq4 (ent4 m) c 4).trans (Gen.V12_of m (outs m) c main_v75 (by decide)).symm)
theorem hF4_5 (c : Dev nD) : (dat4 (ent4 m) c).arrAt 5 cfg4.N = ext4 m c (Pipeline.arrRef spec4 5) :=
  ((dat4 (ent4 m) c).arrAt_in 5 rfl _).trans ((A_eq4 (ent4 m) c 5).trans (Gen.V12_of m (outs m) c main_v3 (by decide)).symm)
theorem hF4_6 (c : Dev nD) : (dat4 (ent4 m) c).arrAt 6 cfg4.N = ext4 m c (Pipeline.arrRef spec4 6) :=
  (congrArg (fun V => (dat4 V c).arrAt 6 cfg4.N) (ent4_eq m)).trans ((W12_0 m c).symm.trans (congrFun (V12_eq m c) _).symm)
theorem hF4_7 (c : Dev nD) : (dat4 (ent4 m) c).arrAt 7 cfg4.N = ext4 m c (Pipeline.arrRef spec4 7) :=
  (congrArg (fun V => (dat4 V c).arrAt 7 cfg4.N) (ent4_eq m)).trans ((W12_1 m c).symm.trans (congrFun (V12_eq m c) _).symm)
/-- The same of every window at once. -/
theorem hF4 (c : Dev nD) : ∀ w : Fin 8, (dat4 (ent4 m) c).arrAt w cfg4.N = ext4 m c (Pipeline.arrRef spec4 w) :=
  forall_fin8 (P := fun w => (dat4 (ent4 m) c).arrAt w cfg4.N = ext4 m c (Pipeline.arrRef spec4 w))
    (hF4_0 m c) (hF4_1 m c) (hF4_2 m c) (hF4_3 m c) (hF4_4 m c) (hF4_5 m c) (hF4_6 m c) (hF4_7 m c)
/-- and every buffer that is none of its arrays holds what it held at entry. -/
theorem hrest4 (c : Dev nD) : ∀ b : Ref sig .tc, b ∉ Finset.univ.image (Pipeline.arrRef spec4) → ext4 m c b = ent4 m c b :=
  fun b hb => Gen.V12_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 5 is entered from, read at the TensorCore's references; -/
abbrev ent5 : (c : Dev nD) → (b : Ref sig .tc) → Buf (Elt F) ((c : Thread nD τ).loc b) := fun c b => Gen.V13 m (outs m) c b
/-- the one it leaves. -/
abbrev ext5 : (c : Dev nD) → (b : Ref sig .tc) → Buf (Elt F) ((c : Thread nD τ).loc b) := fun c b => Gen.V14 m (outs m) c b
theorem ent5_eq : ent5 m = entW5 m := funext fun c => funext fun b => congrFun (V13_eq m c) _
/-- After region 5, `main_v89` holds window 5's array after the last write-back of the pipeline run from the
    contents the region was entered from. -/
theorem outs_eq_5_5 (c : Dev nD) : outs m 14 main_v89 c = (dat5 (ent5 m) c).arrAt 5 cfg5.N := by
  rw [ent5_eq m]; exact outs_14_0 m c
/-- At region 5's exit each of its arrays holds what the pipeline leaves, window by window: an input window's array
    is as entered (no write-back touches it, and the region's exit valuation differs from the entry one only at the
    output arrays), an output window's is the chain's. -/
theorem hF5_0 (c : Dev nD) : (dat5 (ent5 m) c).arrAt 0 cfg5.N = ext5 m c (Pipeline.arrRef spec5 0) :=
  ((dat5 (ent5 m) c).arrAt_in 0 rfl _).trans ((A_eq5 (ent5 m) c 0).trans (Gen.V14_of m (outs m) c main_v76_0 (by decide)).symm)
theorem hF5_1 (c : Dev nD) : (dat5 (ent5 m) c).arrAt 1 cfg5.N = ext5 m c (Pipeline.arrRef spec5 1) :=
  ((dat5 (ent5 m) c).arrAt_in 1 rfl _).trans ((A_eq5 (ent5 m) c 1).trans (Gen.V14_of m (outs m) c main_v79 (by decide)).symm)
theorem hF5_2 (c : Dev nD) : (dat5 (ent5 m) c).arrAt 2 cfg5.N = ext5 m c (Pipeline.arrRef spec5 2) :=
  ((dat5 (ent5 m) c).arrAt_in 2 rfl _).trans ((A_eq5 (ent5 m) c 2).trans (Gen.V14_of m (outs m) c main_v86 (by decide)).symm)
theorem hF5_3 (c : Dev nD) : (dat5 (ent5 m) c).arrAt 3 cfg5.N = ext5 m c (Pipeline.arrRef spec5 3) :=
  ((dat5 (ent5 m) c).arrAt_in 3 rfl _).trans ((A_eq5 (ent5 m) c 3).trans (Gen.V14_of m (outs m) c main_v87 (by decide)).symm)
theorem hF5_4 (c : Dev nD) : (dat5 (ent5 m) c).arrAt 4 cfg5.N = ext5 m c (Pipeline.arrRef spec5 4) :=
  ((dat5 (ent5 m) c).arrAt_in 4 rfl _).trans ((A_eq5 (ent5 m) c 4).trans (Gen.V14_of m (outs m) c main_v88 (by decide)).symm)
theorem hF5_5 (c : Dev nD) : (dat5 (ent5 m) c).arrAt 5 cfg5.N = ext5 m c (Pipeline.arrRef spec5 5) :=
  (congrArg (fun V => (dat5 V c).arrAt 5 cfg5.N) (ent5_eq m)).trans ((W14_0 m c).symm.trans (congrFun (V14_eq m c) _).symm)
/-- The same of every window at once. -/
theorem hF5 (c : Dev nD) : ∀ w : Fin 6, (dat5 (ent5 m) c).arrAt w cfg5.N = ext5 m c (Pipeline.arrRef spec5 w) :=
  forall_fin6 (P := fun w => (dat5 (ent5 m) c).arrAt w cfg5.N = ext5 m c (Pipeline.arrRef spec5 w))
    (hF5_0 m c) (hF5_1 m c) (hF5_2 m c) (hF5_3 m c) (hF5_4 m c) (hF5_5 m c)
/-- and every buffer that is none of its arrays holds what it held at entry. -/
theorem hrest5 (c : Dev nD) : ∀ b : Ref sig .tc, b ∉ Finset.univ.image (Pipeline.arrRef spec5) → ext5 m c b = ent5 m c b :=
  fun b hb => Gen.V14_of m (outs m) c b fun hmem => hb (by
    rcases List.mem_cons.mp hmem with rfl | hmem
    · exact Finset.mem_image.mpr ⟨5, Finset.mem_univ _, rfl⟩
    cases hmem)

/-- The program's valuation region 6 is entered from, read at the TensorCore's references; -/
abbrev ent6 : (c : Dev nD) → (b : Ref sig .tc) → Buf (Elt F) ((c : Thread nD τ).loc b) := fun c b => Gen.V17 m (outs m) c b
/-- the one it leaves. -/
abbrev ext6 : (c : Dev nD) → (b : Ref sig .tc) → Buf (Elt F) ((c : Thread nD τ).loc b) := fun c b => Gen.V18 m (outs m) c b
theorem ent6_eq : ent6 m = entW6 m := funext fun c => funext fun b => congrFun (V17_eq m c) _
/-- After region 6, `main_v105_0` holds window 3's array after the last write-back of the pipeline run from the
    contents the region was entered from. -/
theorem outs_eq_6_3 (c : Dev nD) : outs m 18 main_v105_0 c = (dat6 (ent6 m) c).arrAt 3 cfg6.N := by
  rw [ent6_eq m]; exact outs_18_0 m c
/-- After region 6, `main_v105_1` holds window 4's array after the last write-back of the pipeline run from the
    contents the region was entered from. -/
theorem outs_eq_6_4 (c : Dev nD) : outs m 18 main_v105_1 c = (dat6 (ent6 m) c).arrAt 4 cfg6.N := by
  rw [ent6_eq m]; exact outs_18_1 m c
/-- At region 6's exit each of its arrays holds what the pipeline leaves, window by window: an input window's array
    is as entered (no write-back touches it, and the region's exit valuation differs from the entry one only at the
    output arrays), an output window's is the chain's. -/
theorem hF6_0 (c : Dev nD) : (dat6 (ent6 m) c).arrAt 0 cfg6.N = ext6 m c (Pipeline.arrRef spec6 0) :=
  ((dat6 (ent6 m) c).arrAt_in 0 rfl _).trans ((A_eq6 (ent6 m) c 0).trans (Gen.V18_of m (outs m) c main_v90 (by decide)).symm)
theorem hF6_1 (c : Dev nD) : (dat6 (ent6 m) c).arrAt 1 cfg6.N = ext6 m c (Pipeline.arrRef spec6 1) :=
  ((dat6 (ent6 m) c).arrAt_in 1 rfl _).trans ((A_eq6 (ent6 m) c 1).trans (Gen.V18_of m (outs m) c main_v104 (by decide)).symm)
theorem hF6_2 (c : Dev nD) : (dat6 (ent6 m) c).arrAt 2 cfg6.N = ext6 m c (Pipeline.arrRef spec6 2) :=
  ((dat6 (ent6 m) c).arrAt_in 2 rfl _).trans ((A_eq6 (ent6 m) c 2).trans (Gen.V18_of m (outs m) c main_v4 (by decide)).symm)
theorem hF6_3 (c : Dev nD) : (dat6 (ent6 m) c).arrAt 3 cfg6.N = ext6 m c (Pipeline.arrRef spec6 3) :=
  (congrArg (fun V => (dat6 V c).arrAt 3 cfg6.N) (ent6_eq m)).trans ((W18_0 m c).symm.trans (congrFun (V18_eq m c) _).symm)
theorem hF6_4 (c : Dev nD) : (dat6 (ent6 m) c).arrAt 4 cfg6.N = ext6 m c (Pipeline.arrRef spec6 4) :=
  (congrArg (fun V => (dat6 V c).arrAt 4 cfg6.N) (ent6_eq m)).trans ((W18_1 m c).symm.trans (congrFun (V18_eq m c) _).symm)
/-- The same of every window at once. -/
theorem hF6 (c : Dev nD) : ∀ w : Fin 5, (dat6 (ent6 m) c).arrAt w cfg6.N = ext6 m c (Pipeline.arrRef spec6 w) :=
  forall_fin5 (P := fun w => (dat6 (ent6 m) c).arrAt w cfg6.N = ext6 m c (Pipeline.arrRef spec6 w))
    (hF6_0 m c) (hF6_1 m c) (hF6_2 m c) (hF6_3 m c) (hF6_4 m c)
/-- and every buffer that is none of its arrays holds what it held at entry. -/
theorem hrest6 (c : Dev nD) : ∀ b : Ref sig .tc, b ∉ Finset.univ.image (Pipeline.arrRef spec6) → ext6 m c b = ent6 m c b :=
  fun b hb => Gen.V18_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 7 is entered from, read at the TensorCore's references; -/
abbrev ent7 : (c : Dev nD) → (b : Ref sig .tc) → Buf (Elt F) ((c : Thread nD τ).loc b) := fun c b => Gen.V19 m (outs m) c b
/-- the one it leaves. -/
abbrev ext7 : (c : Dev nD) → (b : Ref sig .tc) → Buf (Elt F) ((c : Thread nD τ).loc b) := fun c b => Gen.V20 m (outs m) c b
theorem ent7_eq : ent7 m = entW7 m := funext fun c => funext fun b => congrFun (V19_eq m c) _
/-- After region 7, `main_v118_0` holds window 6's array after the last write-back of the pipeline run from the
    contents the region was entered from. -/
theorem outs_eq_7_6 (c : Dev nD) : outs m 20 main_v118_0 c = (dat7 (ent7 m) c).arrAt 6 cfg7.N := by
  rw [ent7_eq m]; exact outs_20_0 m c
/-- After region 7, `main_v118_1` holds window 7's array after the last write-back of the pipeline run from the
    contents the region was entered from. -/
theorem outs_eq_7_7 (c : Dev nD) : outs m 20 main_v118_1 c = (dat7 (ent7 m) c).arrAt 7 cfg7.N := by
  rw [ent7_eq m]; exact outs_20_1 m c
/-- At region 7's exit each of its arrays holds what the pipeline leaves, window by window: an input window's array
    is as entered (no write-back touches it, and the region's exit valuation differs from the entry one only at the
    output arrays), an output window's is the chain's. -/
theorem hF7_0 (c : Dev nD) : (dat7 (ent7 m) c).arrAt 0 cfg7.N = ext7 m c (Pipeline.arrRef spec7 0) :=
  ((dat7 (ent7 m) c).arrAt_in 0 rfl _).trans ((A_eq7 (ent7 m) c 0).trans (Gen.V20_of m (outs m) c main_v105_0 (by decide)).symm)
theorem hF7_1 (c : Dev nD) : (dat7 (ent7 m) c).arrAt 1 cfg7.N = ext7 m c (Pipeline.arrRef spec7 1) :=
  ((dat7 (ent7 m) c).arrAt_in 1 rfl _).trans ((A_eq7 (ent7 m) c 1).trans (Gen.V20_of m (outs m) c main_v108 (by decide)).symm)
theorem hF7_2 (c : Dev nD) : (dat7 (ent7 m) c).arrAt 2 cfg7.N = ext7 m c (Pipeline.arrRef spec7 2) :=
  ((dat7 (ent7 m) c).arrAt_in 2 rfl _).trans ((A_eq7 (ent7 m) c 2).trans (Gen.V20_of m (outs m) c main_v115 (by decide)).symm)
theorem hF7_3 (c : Dev nD) : (dat7 (ent7 m) c).arrAt 3 cfg7.N = ext7 m c (Pipeline.arrRef spec7 3) :=
  ((dat7 (ent7 m) c).arrAt_in 3 rfl _).trans ((A_eq7 (ent7 m) c 3).trans (Gen.V20_of m (outs m) c main_v116 (by decide)).symm)
theorem hF7_4 (c : Dev nD) : (dat7 (ent7 m) c).arrAt 4 cfg7.N = ext7 m c (Pipeline.arrRef spec7 4) :=
  ((dat7 (ent7 m) c).arrAt_in 4 rfl _).trans ((A_eq7 (ent7 m) c 4).trans (Gen.V20_of m (outs m) c main_v117 (by decide)).symm)
theorem hF7_5 (c : Dev nD) : (dat7 (ent7 m) c).arrAt 5 cfg7.N = ext7 m c (Pipeline.arrRef spec7 5) :=
  ((dat7 (ent7 m) c).arrAt_in 5 rfl _).trans ((A_eq7 (ent7 m) c 5).trans (Gen.V20_of m (outs m) c main_v5 (by decide)).symm)
theorem hF7_6 (c : Dev nD) : (dat7 (ent7 m) c).arrAt 6 cfg7.N = ext7 m c (Pipeline.arrRef spec7 6) :=
  (congrArg (fun V => (dat7 V c).arrAt 6 cfg7.N) (ent7_eq m)).trans ((W20_0 m c).symm.trans (congrFun (V20_eq m c) _).symm)
theorem hF7_7 (c : Dev nD) : (dat7 (ent7 m) c).arrAt 7 cfg7.N = ext7 m c (Pipeline.arrRef spec7 7) :=
  (congrArg (fun V => (dat7 V c).arrAt 7 cfg7.N) (ent7_eq m)).trans ((W20_1 m c).symm.trans (congrFun (V20_eq m c) _).symm)
/-- The same of every window at once. -/
theorem hF7 (c : Dev nD) : ∀ w : Fin 8, (dat7 (ent7 m) c).arrAt w cfg7.N = ext7 m c (Pipeline.arrRef spec7 w) :=
  forall_fin8 (P := fun w => (dat7 (ent7 m) c).arrAt w cfg7.N = ext7 m c (Pipeline.arrRef spec7 w))
    (hF7_0 m c) (hF7_1 m c) (hF7_2 m c) (hF7_3 m c) (hF7_4 m c) (hF7_5 m c) (hF7_6 m c) (hF7_7 m c)
/-- and every buffer that is none of its arrays holds what it held at entry. -/
theorem hrest7 (c : Dev nD) : ∀ b : Ref sig .tc, b ∉ Finset.univ.image (Pipeline.arrRef spec7) → ext7 m c b = ent7 m c b :=
  fun b hb => Gen.V20_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 8 is entered from, read at the TensorCore's references; -/
abbrev ent8 : (c : Dev nD) → (b : Ref sig .tc) → Buf (Elt F) ((c : Thread nD τ).loc b) := fun c b => Gen.V21 m (outs m) c b
/-- the one it leaves. -/
abbrev ext8 : (c : Dev nD) → (b : Ref sig .tc) → Buf (Elt F) ((c : Thread nD τ).loc b) := fun c b => Gen.V22 m (outs m) c b
theorem ent8_eq : ent8 m = entW8 m := funext fun c => funext fun b => congrFun (V21_eq m c) _
/-- After region 8, `main_v131` holds window 5's array after the last write-back of the pipeline run from the
    contents the region was entered from. -/
theorem outs_eq_8_5 (c : Dev nD) : outs m 22 main_v131 c = (dat8 (ent8 m) c).arrAt 5 cfg8.N := by
  rw [ent8_eq m]; exact outs_22_0 m c
/-- At region 8's exit each of its arrays holds what the pipeline leaves, window by window: an input window's array
    is as entered (no write-back touches it, and the region's exit valuation differs from the entry one only at the
    output arrays), an output window's is the chain's. -/
theorem hF8_0 (c : Dev nD) : (dat8 (ent8 m) c).arrAt 0 cfg8.N = ext8 m c (Pipeline.arrRef spec8 0) :=
  ((dat8 (ent8 m) c).arrAt_in 0 rfl _).trans ((A_eq8 (ent8 m) c 0).trans (Gen.V22_of m (outs m) c main_v118_0 (by decide)).symm)
theorem hF8_1 (c : Dev nD) : (dat8 (ent8 m) c).arrAt 1 cfg8.N = ext8 m c (Pipeline.arrRef spec8 1) :=
  ((dat8 (ent8 m) c).arrAt_in 1 rfl _).trans ((A_eq8 (ent8 m) c 1).trans (Gen.V22_of m (outs m) c main_v121 (by decide)).symm)
theorem hF8_2 (c : Dev nD) : (dat8 (ent8 m) c).arrAt 2 cfg8.N = ext8 m c (Pipeline.arrRef spec8 2) :=
  ((dat8 (ent8 m) c).arrAt_in 2 rfl _).trans ((A_eq8 (ent8 m) c 2).trans (Gen.V22_of m (outs m) c main_v128 (by decide)).symm)
theorem hF8_3 (c : Dev nD) : (dat8 (ent8 m) c).arrAt 3 cfg8.N = ext8 m c (Pipeline.arrRef spec8 3) :=
  ((dat8 (ent8 m) c).arrAt_in 3 rfl _).trans ((A_eq8 (ent8 m) c 3).trans (Gen.V22_of m (outs m) c main_v129 (by decide)).symm)
theorem hF8_4 (c : Dev nD) : (dat8 (ent8 m) c).arrAt 4 cfg8.N = ext8 m c (Pipeline.arrRef spec8 4) :=
  ((dat8 (ent8 m) c).arrAt_in 4 rfl _).trans ((A_eq8 (ent8 m) c 4).trans (Gen.V22_of m (outs m) c main_v130 (by decide)).symm)
theorem hF8_5 (c : Dev nD) : (dat8 (ent8 m) c).arrAt 5 cfg8.N = ext8 m c (Pipeline.arrRef spec8 5) :=
  (congrArg (fun V => (dat8 V c).arrAt 5 cfg8.N) (ent8_eq m)).trans ((W22_0 m c).symm.trans (congrFun (V22_eq m c) _).symm)
/-- The same of every window at once. -/
theorem hF8 (c : Dev nD) : ∀ w : Fin 6, (dat8 (ent8 m) c).arrAt w cfg8.N = ext8 m c (Pipeline.arrRef spec8 w) :=
  forall_fin6 (P := fun w => (dat8 (ent8 m) c).arrAt w cfg8.N = ext8 m c (Pipeline.arrRef spec8 w))
    (hF8_0 m c) (hF8_1 m c) (hF8_2 m c) (hF8_3 m c) (hF8_4 m c) (hF8_5 m c)
/-- and every buffer that is none of its arrays holds what it held at entry. -/
theorem hrest8 (c : Dev nD) : ∀ b : Ref sig .tc, b ∉ Finset.univ.image (Pipeline.arrRef spec8) → ext8 m c b = ent8 m c b :=
  fun b hb => Gen.V22_of m (outs m) c b fun hmem => hb (by
    rcases List.mem_cons.mp hmem with rfl | hmem
    · exact Finset.mem_image.mpr ⟨5, Finset.mem_univ _, rfl⟩
    cases hmem)

/-- The program's valuation region 9 is entered from, read at the TensorCore's references; -/
abbrev ent9 : (c : Dev nD) → (b : Ref sig .tc) → Buf (Elt F) ((c : Thread nD τ).loc b) := fun c b => Gen.V29 m (outs m) c b
/-- the one it leaves. -/
abbrev ext9 : (c : Dev nD) → (b : Ref sig .tc) → Buf (Elt F) ((c : Thread nD τ).loc b) := fun c b => Gen.V30 m (outs m) c b
theorem ent9_eq : ent9 m = entW9 m := funext fun c => funext fun b => congrFun (V29_eq m c) _
/-- After region 9, `main_v167_0` holds window 3's array after the last write-back of the pipeline run from the
    contents the region was entered from. -/
theorem outs_eq_9_3 (c : Dev nD) : outs m 30 main_v167_0 c = (dat9 (ent9 m) c).arrAt 3 cfg9.N := by
  rw [ent9_eq m]; exact outs_30_0 m c
/-- After region 9, `main_v167_1` holds window 4's array after the last write-back of the pipeline run from the
    contents the region was entered from. -/
theorem outs_eq_9_4 (c : Dev nD) : outs m 30 main_v167_1 c = (dat9 (ent9 m) c).arrAt 4 cfg9.N := by
  rw [ent9_eq m]; exact outs_30_1 m c
/-- At region 9's exit each of its arrays holds what the pipeline leaves, window by window: an input window's array
    is as entered (no write-back touches it, and the region's exit valuation differs from the entry one only at the
    output arrays), an output window's is the chain's. -/
theorem hF9_0 (c : Dev nD) : (dat9 (ent9 m) c).arrAt 0 cfg9.N = ext9 m c (Pipeline.arrRef spec9 0) :=
  ((dat9 (ent9 m) c).arrAt_in 0 rfl _).trans ((A_eq9 (ent9 m) c 0).trans (Gen.V30_of m (outs m) c main_v152 (by decide)).symm)
theorem hF9_1 (c : Dev nD) : (dat9 (ent9 m) c).arrAt 1 cfg9.N = ext9 m c (Pipeline.arrRef spec9 1) :=
  ((dat9 (ent9 m) c).arrAt_in 1 rfl _).trans ((A_eq9 (ent9 m) c 1).trans (Gen.V30_of m (outs m) c main_v166 (by decide)).symm)
theorem hF9_2 (c : Dev nD) : (dat9 (ent9 m) c).arrAt 2 cfg9.N = ext9 m c (Pipeline.arrRef spec9 2) :=
  ((dat9 (ent9 m) c).arrAt_in 2 rfl _).trans ((A_eq9 (ent9 m) c 2).trans (Gen.V30_of m (outs m) c main_v0 (by decide)).symm)
theorem hF9_3 (c : Dev nD) : (dat9 (ent9 m) c).arrAt 3 cfg9.N = ext9 m c (Pipeline.arrRef spec9 3) :=
  (congrArg (fun V => (dat9 V c).arrAt 3 cfg9.N) (ent9_eq m)).trans ((W30_0 m c).symm.trans (congrFun (V30_eq m c) _).symm)
theorem hF9_4 (c : Dev nD) : (dat9 (ent9 m) c).arrAt 4 cfg9.N = ext9 m c (Pipeline.arrRef spec9 4) :=
  (congrArg (fun V => (dat9 V c).arrAt 4 cfg9.N) (ent9_eq m)).trans ((W30_1 m c).symm.trans (congrFun (V30_eq m c) _).symm)
/-- The same of every window at once. -/
theorem hF9 (c : Dev nD) : ∀ w : Fin 5, (dat9 (ent9 m) c).arrAt w cfg9.N = ext9 m c (Pipeline.arrRef spec9 w) :=
  forall_fin5 (P := fun w => (dat9 (ent9 m) c).arrAt w cfg9.N = ext9 m c (Pipeline.arrRef spec9 w))
    (hF9_0 m c) (hF9_1 m c) (hF9_2 m c) (hF9_3 m c) (hF9_4 m c)
/-- and every buffer that is none of its arrays holds what it held at entry. -/
theorem hrest9 (c : Dev nD) : ∀ b : Ref sig .tc, b ∉ Finset.univ.image (Pipeline.arrRef spec9) → ext9 m c b = ent9 m c b :=
  fun b hb => Gen.V30_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 10 is entered from, read at the TensorCore's references; -/
abbrev ent10 : (c : Dev nD) → (b : Ref sig .tc) → Buf (Elt F) ((c : Thread nD τ).loc b) := fun c b => Gen.V31 m (outs m) c b
/-- the one it leaves. -/
abbrev ext10 : (c : Dev nD) → (b : Ref sig .tc) → Buf (Elt F) ((c : Thread nD τ).loc b) := fun c b => Gen.V32 m (outs m) c b
theorem ent10_eq : ent10 m = entW10 m := funext fun c => funext fun b => congrFun (V31_eq m c) _
/-- After region 10, `main_v180_0` holds window 6's array after the last write-back of the pipeline run from the
    contents the region was entered from. -/
theorem outs_eq_10_6 (c : Dev nD) : outs m 32 main_v180_0 c = (dat10 (ent10 m) c).arrAt 6 cfg10.N := by
  rw [ent10_eq m]; exact outs_32_0 m c
/-- After region 10, `main_v180_1` holds window 7's array after the last write-back of the pipeline run from the
    contents the region was entered from. -/
theorem outs_eq_10_7 (c : Dev nD) : outs m 32 main_v180_1 c = (dat10 (ent10 m) c).arrAt 7 cfg10.N := by
  rw [ent10_eq m]; exact outs_32_1 m c
/-- At region 10's exit each of its arrays holds what the pipeline leaves, window by window: an input window's array
    is as entered (no write-back touches it, and the region's exit valuation differs from the entry one only at the
    output arrays), an output window's is the chain's. -/
theorem hF10_0 (c : Dev nD) : (dat10 (ent10 m) c).arrAt 0 cfg10.N = ext10 m c (Pipeline.arrRef spec10 0) :=
  ((dat10 (ent10 m) c).arrAt_in 0 rfl _).trans ((A_eq10 (ent10 m) c 0).trans (Gen.V32_of m (outs m) c main_v167_0 (by decide)).symm)
theorem hF10_1 (c : Dev nD) : (dat10 (ent10 m) c).arrAt 1 cfg10.N = ext10 m c (Pipeline.arrRef spec10 1) :=
  ((dat10 (ent10 m) c).arrAt_in 1 rfl _).trans ((A_eq10 (ent10 m) c 1).trans (Gen.V32_of m (outs m) c main_v170 (by decide)).symm)
theorem hF10_2 (c : Dev nD) : (dat10 (ent10 m) c).arrAt 2 cfg10.N = ext10 m c (Pipeline.arrRef spec10 2) :=
  ((dat10 (ent10 m) c).arrAt_in 2 rfl _).trans ((A_eq10 (ent10 m) c 2).trans (Gen.V32_of m (outs m) c main_v177 (by decide)).symm)
theorem hF10_3 (c : Dev nD) : (dat10 (ent10 m) c).arrAt 3 cfg10.N = ext10 m c (Pipeline.arrRef spec10 3) :=
  ((dat10 (ent10 m) c).arrAt_in 3 rfl _).trans ((A_eq10 (ent10 m) c 3).trans (Gen.V32_of m (outs m) c main_v178 (by decide)).symm)
theorem hF10_4 (c : Dev nD) : (dat10 (ent10 m) c).arrAt 4 cfg10.N = ext10 m c (Pipeline.arrRef spec10 4) :=
  ((dat10 (ent10 m) c).arrAt_in 4 rfl _).trans ((A_eq10 (ent10 m) c 4).trans (Gen.V32_of m (outs m) c main_v179 (by decide)).symm)
theorem hF10_5 (c : Dev nD) : (dat10 (ent10 m) c).arrAt 5 cfg10.N = ext10 m c (Pipeline.arrRef spec10 5) :=
  ((dat10 (ent10 m) c).arrAt_in 5 rfl _).trans ((A_eq10 (ent10 m) c 5).trans (Gen.V32_of m (outs m) c main_v1 (by decide)).symm)
theorem hF10_6 (c : Dev nD) : (dat10 (ent10 m) c).arrAt 6 cfg10.N = ext10 m c (Pipeline.arrRef spec10 6) :=
  (congrArg (fun V => (dat10 V c).arrAt 6 cfg10.N) (ent10_eq m)).trans ((W32_0 m c).symm.trans (congrFun (V32_eq m c) _).symm)
theorem hF10_7 (c : Dev nD) : (dat10 (ent10 m) c).arrAt 7 cfg10.N = ext10 m c (Pipeline.arrRef spec10 7) :=
  (congrArg (fun V => (dat10 V c).arrAt 7 cfg10.N) (ent10_eq m)).trans ((W32_1 m c).symm.trans (congrFun (V32_eq m c) _).symm)
/-- The same of every window at once. -/
theorem hF10 (c : Dev nD) : ∀ w : Fin 8, (dat10 (ent10 m) c).arrAt w cfg10.N = ext10 m c (Pipeline.arrRef spec10 w) :=
  forall_fin8 (P := fun w => (dat10 (ent10 m) c).arrAt w cfg10.N = ext10 m c (Pipeline.arrRef spec10 w))
    (hF10_0 m c) (hF10_1 m c) (hF10_2 m c) (hF10_3 m c) (hF10_4 m c) (hF10_5 m c) (hF10_6 m c) (hF10_7 m c)
/-- and every buffer that is none of its arrays holds what it held at entry. -/
theorem hrest10 (c : Dev nD) : ∀ b : Ref sig .tc, b ∉ Finset.univ.image (Pipeline.arrRef spec10) → ext10 m c b = ent10 m c b :=
  fun b hb => Gen.V32_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 11 is entered from, read at the TensorCore's references; -/
abbrev ent11 : (c : Dev nD) → (b : Ref sig .tc) → Buf (Elt F) ((c : Thread nD τ).loc b) := fun c b => Gen.V33 m (outs m) c b
/-- the one it leaves. -/
abbrev ext11 : (c : Dev nD) → (b : Ref sig .tc) → Buf (Elt F) ((c : Thread nD τ).loc b) := fun c b => Gen.V34 m (outs m) c b
theorem ent11_eq : ent11 m = entW11 m := funext fun c => funext fun b => congrFun (V33_eq m c) _
/-- After region 11, `main_v193` holds window 5's array after the last write-back of the pipeline run from the
    contents the region was entered from. -/
theorem outs_eq_11_5 (c : Dev nD) : outs m 34 main_v193 c = (dat11 (ent11 m) c).arrAt 5 cfg11.N := by
  rw [ent11_eq m]; exact outs_34_0 m c
/-- At region 11's exit each of its arrays holds what the pipeline leaves, window by window: an input window's array
    is as entered (no write-back touches it, and the region's exit valuation differs from the entry one only at the
    output arrays), an output window's is the chain's. -/
theorem hF11_0 (c : Dev nD) : (dat11 (ent11 m) c).arrAt 0 cfg11.N = ext11 m c (Pipeline.arrRef spec11 0) :=
  ((dat11 (ent11 m) c).arrAt_in 0 rfl _).trans ((A_eq11 (ent11 m) c 0).trans (Gen.V34_of m (outs m) c main_v180_0 (by decide)).symm)
theorem hF11_1 (c : Dev nD) : (dat11 (ent11 m) c).arrAt 1 cfg11.N = ext11 m c (Pipeline.arrRef spec11 1) :=
  ((dat11 (ent11 m) c).arrAt_in 1 rfl _).trans ((A_eq11 (ent11 m) c 1).trans (Gen.V34_of m (outs m) c main_v183 (by decide)).symm)
theorem hF11_2 (c : Dev nD) : (dat11 (ent11 m) c).arrAt 2 cfg11.N = ext11 m c (Pipeline.arrRef spec11 2) :=
  ((dat11 (ent11 m) c).arrAt_in 2 rfl _).trans ((A_eq11 (ent11 m) c 2).trans (Gen.V34_of m (outs m) c main_v190 (by decide)).symm)
theorem hF11_3 (c : Dev nD) : (dat11 (ent11 m) c).arrAt 3 cfg11.N = ext11 m c (Pipeline.arrRef spec11 3) :=
  ((dat11 (ent11 m) c).arrAt_in 3 rfl _).trans ((A_eq11 (ent11 m) c 3).trans (Gen.V34_of m (outs m) c main_v191 (by decide)).symm)
theorem hF11_4 (c : Dev nD) : (dat11 (ent11 m) c).arrAt 4 cfg11.N = ext11 m c (Pipeline.arrRef spec11 4) :=
  ((dat11 (ent11 m) c).arrAt_in 4 rfl _).trans ((A_eq11 (ent11 m) c 4).trans (Gen.V34_of m (outs m) c main_v192 (by decide)).symm)
theorem hF11_5 (c : Dev nD) : (dat11 (ent11 m) c).arrAt 5 cfg11.N = ext11 m c (Pipeline.arrRef spec11 5) :=
  (congrArg (fun V => (dat11 V c).arrAt 5 cfg11.N) (ent11_eq m)).trans ((W34_0 m c).symm.trans (congrFun (V34_eq m c) _).symm)
/-- The same of every window at once. -/
theorem hF11 (c : Dev nD) : ∀ w : Fin 6, (dat11 (ent11 m) c).arrAt w cfg11.N = ext11 m c (Pipeline.arrRef spec11 w) :=
  forall_fin6 (P := fun w => (dat11 (ent11 m) c).arrAt w cfg11.N = ext11 m c (Pipeline.arrRef spec11 w))
    (hF11_0 m c) (hF11_1 m c) (hF11_2 m c) (hF11_3 m c) (hF11_4 m c) (hF11_5 m c)
/-- and every buffer that is none of its arrays holds what it held at entry. -/
theorem hrest11 (c : Dev nD) : ∀ b : Ref sig .tc, b ∉ Finset.univ.image (Pipeline.arrRef spec11) → ext11 m c b = ent11 m c b :=
  fun b hb => Gen.V34_of m (outs m) c b fun hmem => hb (by
    rcases List.mem_cons.mp hmem with rfl | hmem
    · exact Finset.mem_image.mpr ⟨5, Finset.mem_univ _, rfl⟩
    cases hmem)

/-- The program's valuation region 12 is entered from, read at the TensorCore's references; -/
abbrev ent12 : (c : Dev nD) → (b : Ref sig .tc) → Buf (Elt F) ((c : Thread nD τ).loc b) := fun c b => Gen.V35 m (outs m) c b
/-- the one it leaves. -/
abbrev ext12 : (c : Dev nD) → (b : Ref sig .tc) → Buf (Elt F) ((c : Thread nD τ).loc b) := fun c b => Gen.V36 m (outs m) c b
theorem ent12_eq : ent12 m = entW12 m := funext fun c => funext fun b => congrFun (V35_eq m c) _
/-- After region 12, `main_v208_0` holds window 3's array after the last write-back of the pipeline run from the
    contents the region was entered from. -/
theorem outs_eq_12_3 (c : Dev nD) : outs m 36 main_v208_0 c = (dat12 (ent12 m) c).arrAt 3 cfg12.N := by
  rw [ent12_eq m]; exact outs_36_0 m c
/-- After region 12, `main_v208_1` holds window 4's array after the last write-back of the pipeline run from the
    contents the region was entered from. -/
theorem outs_eq_12_4 (c : Dev nD) : outs m 36 main_v208_1 c = (dat12 (ent12 m) c).arrAt 4 cfg12.N := by
  rw [ent12_eq m]; exact outs_36_1 m c
/-- At region 12's exit each of its arrays holds what the pipeline leaves, window by window: an input window's array
    is as entered (no write-back touches it, and the region's exit valuation differs from the entry one only at the
    output arrays), an output window's is the chain's. -/
theorem hF12_0 (c : Dev nD) : (dat12 (ent12 m) c).arrAt 0 cfg12.N = ext12 m c (Pipeline.arrRef spec12 0) :=
  ((dat12 (ent12 m) c).arrAt_in 0 rfl _).trans ((A_eq12 (ent12 m) c 0).trans (Gen.V36_of m (outs m) c main_v193 (by decide)).symm)
theorem hF12_1 (c : Dev nD) : (dat12 (ent12 m) c).arrAt 1 cfg12.N = ext12 m c (Pipeline.arrRef spec12 1) :=
  ((dat12 (ent12 m) c).arrAt_in 1 rfl _).trans ((A_eq12 (ent12 m) c 1).trans (Gen.V36_of m (outs m) c main_v207 (by decide)).symm)
theorem hF12_2 (c : Dev nD) : (dat12 (ent12 m) c).arrAt 2 cfg12.N = ext12 m c (Pipeline.arrRef spec12 2) :=
  ((dat12 (ent12 m) c).arrAt_in 2 rfl _).trans ((A_eq12 (ent12 m) c 2).trans (Gen.V36_of m (outs m) c main_v2 (by decide)).symm)
theorem hF12_3 (c : Dev nD) : (dat12 (ent12 m) c).arrAt 3 cfg12.N = ext12 m c (Pipeline.arrRef spec12 3) :=
  (congrArg (fun V => (dat12 V c).arrAt 3 cfg12.N) (ent12_eq m)).trans ((W36_0 m c).symm.trans (congrFun (V36_eq m c) _).symm)
theorem hF12_4 (c : Dev nD) : (dat12 (ent12 m) c).arrAt 4 cfg12.N = ext12 m c (Pipeline.arrRef spec12 4) :=
  (congrArg (fun V => (dat12 V c).arrAt 4 cfg12.N) (ent12_eq m)).trans ((W36_1 m c).symm.trans (congrFun (V36_eq m c) _).symm)
/-- The same of every window at once. -/
theorem hF12 (c : Dev nD) : ∀ w : Fin 5, (dat12 (ent12 m) c).arrAt w cfg12.N = ext12 m c (Pipeline.arrRef spec12 w) :=
  forall_fin5 (P := fun w => (dat12 (ent12 m) c).arrAt w cfg12.N = ext12 m c (Pipeline.arrRef spec12 w))
    (hF12_0 m c) (hF12_1 m c) (hF12_2 m c) (hF12_3 m c) (hF12_4 m c)
/-- and every buffer that is none of its arrays holds what it held at entry. -/
theorem hrest12 (c : Dev nD) : ∀ b : Ref sig .tc, b ∉ Finset.univ.image (Pipeline.arrRef spec12) → ext12 m c b = ent12 m c b :=
  fun b hb => Gen.V36_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 13 is entered from, read at the TensorCore's references; -/
abbrev ent13 : (c : Dev nD) → (b : Ref sig .tc) → Buf (Elt F) ((c : Thread nD τ).loc b) := fun c b => Gen.V37 m (outs m) c b
/-- the one it leaves. -/
abbrev ext13 : (c : Dev nD) → (b : Ref sig .tc) → Buf (Elt F) ((c : Thread nD τ).loc b) := fun c b => Gen.V38 m (outs m) c b
theorem ent13_eq : ent13 m = entW13 m := funext fun c => funext fun b => congrFun (V37_eq m c) _
/-- After region 13, `main_v221_0` holds window 6's array after the last write-back of the pipeline run from the
    contents the region was entered from. -/
theorem outs_eq_13_6 (c : Dev nD) : outs m 38 main_v221_0 c = (dat13 (ent13 m) c).arrAt 6 cfg13.N := by
  rw [ent13_eq m]; exact outs_38_0 m c
/-- After region 13, `main_v221_1` holds window 7's array after the last write-back of the pipeline run from the
    contents the region was entered from. -/
theorem outs_eq_13_7 (c : Dev nD) : outs m 38 main_v221_1 c = (dat13 (ent13 m) c).arrAt 7 cfg13.N := by
  rw [ent13_eq m]; exact outs_38_1 m c
/-- At region 13's exit each of its arrays holds what the pipeline leaves, window by window: an input window's array
    is as entered (no write-back touches it, and the region's exit valuation differs from the entry one only at the
    output arrays), an output window's is the chain's. -/
theorem hF13_0 (c : Dev nD) : (dat13 (ent13 m) c).arrAt 0 cfg13.N = ext13 m c (Pipeline.arrRef spec13 0) :=
  ((dat13 (ent13 m) c).arrAt_in 0 rfl _).trans ((A_eq13 (ent13 m) c 0).trans (Gen.V38_of m (outs m) c main_v208_0 (by decide)).symm)
theorem hF13_1 (c : Dev nD) : (dat13 (ent13 m) c).arrAt 1 cfg13.N = ext13 m c (Pipeline.arrRef spec13 1) :=
  ((dat13 (ent13 m) c).arrAt_in 1 rfl _).trans ((A_eq13 (ent13 m) c 1).trans (Gen.V38_of m (outs m) c main_v211 (by decide)).symm)
theorem hF13_2 (c : Dev nD) : (dat13 (ent13 m) c).arrAt 2 cfg13.N = ext13 m c (Pipeline.arrRef spec13 2) :=
  ((dat13 (ent13 m) c).arrAt_in 2 rfl _).trans ((A_eq13 (ent13 m) c 2).trans (Gen.V38_of m (outs m) c main_v218 (by decide)).symm)
theorem hF13_3 (c : Dev nD) : (dat13 (ent13 m) c).arrAt 3 cfg13.N = ext13 m c (Pipeline.arrRef spec13 3) :=
  ((dat13 (ent13 m) c).arrAt_in 3 rfl _).trans ((A_eq13 (ent13 m) c 3).trans (Gen.V38_of m (outs m) c main_v219 (by decide)).symm)
theorem hF13_4 (c : Dev nD) : (dat13 (ent13 m) c).arrAt 4 cfg13.N = ext13 m c (Pipeline.arrRef spec13 4) :=
  ((dat13 (ent13 m) c).arrAt_in 4 rfl _).trans ((A_eq13 (ent13 m) c 4).trans (Gen.V38_of m (outs m) c main_v220 (by decide)).symm)
theorem hF13_5 (c : Dev nD) : (dat13 (ent13 m) c).arrAt 5 cfg13.N = ext13 m c (Pipeline.arrRef spec13 5) :=
  ((dat13 (ent13 m) c).arrAt_in 5 rfl _).trans ((A_eq13 (ent13 m) c 5).trans (Gen.V38_of m (outs m) c main_v3 (by decide)).symm)
theorem hF13_6 (c : Dev nD) : (dat13 (ent13 m) c).arrAt 6 cfg13.N = ext13 m c (Pipeline.arrRef spec13 6) :=
  (congrArg (fun V => (dat13 V c).arrAt 6 cfg13.N) (ent13_eq m)).trans ((W38_0 m c).symm.trans (congrFun (V38_eq m c) _).symm)
theorem hF13_7 (c : Dev nD) : (dat13 (ent13 m) c).arrAt 7 cfg13.N = ext13 m c (Pipeline.arrRef spec13 7) :=
  (congrArg (fun V => (dat13 V c).arrAt 7 cfg13.N) (ent13_eq m)).trans ((W38_1 m c).symm.trans (congrFun (V38_eq m c) _).symm)
/-- The same of every window at once. -/
theorem hF13 (c : Dev nD) : ∀ w : Fin 8, (dat13 (ent13 m) c).arrAt w cfg13.N = ext13 m c (Pipeline.arrRef spec13 w) :=
  forall_fin8 (P := fun w => (dat13 (ent13 m) c).arrAt w cfg13.N = ext13 m c (Pipeline.arrRef spec13 w))
    (hF13_0 m c) (hF13_1 m c) (hF13_2 m c) (hF13_3 m c) (hF13_4 m c) (hF13_5 m c) (hF13_6 m c) (hF13_7 m c)
/-- and every buffer that is none of its arrays holds what it held at entry. -/
theorem hrest13 (c : Dev nD) : ∀ b : Ref sig .tc, b ∉ Finset.univ.image (Pipeline.arrRef spec13) → ext13 m c b = ent13 m c b :=
  fun b hb => Gen.V38_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 14 is entered from, read at the TensorCore's references; -/
abbrev ent14 : (c : Dev nD) → (b : Ref sig .tc) → Buf (Elt F) ((c : Thread nD τ).loc b) := fun c b => Gen.V39 m (outs m) c b
/-- the one it leaves. -/
abbrev ext14 : (c : Dev nD) → (b : Ref sig .tc) → Buf (Elt F) ((c : Thread nD τ).loc b) := fun c b => Gen.V40 m (outs m) c b
theorem ent14_eq : ent14 m = entW14 m := funext fun c => funext fun b => congrFun (V39_eq m c) _
/-- After region 14, `main_v234` holds window 5's array after the last write-back of the pipeline run from the
    contents the region was entered from. -/
theorem outs_eq_14_5 (c : Dev nD) : outs m 40 main_v234 c = (dat14 (ent14 m) c).arrAt 5 cfg14.N := by
  rw [ent14_eq m]; exact outs_40_0 m c
/-- At region 14's exit each of its arrays holds what the pipeline leaves, window by window: an input window's array
    is as entered (no write-back touches it, and the region's exit valuation differs from the entry one only at the
    output arrays), an output window's is the chain's. -/
theorem hF14_0 (c : Dev nD) : (dat14 (ent14 m) c).arrAt 0 cfg14.N = ext14 m c (Pipeline.arrRef spec14 0) :=
  ((dat14 (ent14 m) c).arrAt_in 0 rfl _).trans ((A_eq14 (ent14 m) c 0).trans (Gen.V40_of m (outs m) c main_v221_0 (by decide)).symm)
theorem hF14_1 (c : Dev nD) : (dat14 (ent14 m) c).arrAt 1 cfg14.N = ext14 m c (Pipeline.arrRef spec14 1) :=
  ((dat14 (ent14 m) c).arrAt_in 1 rfl _).trans ((A_eq14 (ent14 m) c 1).trans (Gen.V40_of m (outs m) c main_v224 (by decide)).symm)
theorem hF14_2 (c : Dev nD) : (dat14 (ent14 m) c).arrAt 2 cfg14.N = ext14 m c (Pipeline.arrRef spec14 2) :=
  ((dat14 (ent14 m) c).arrAt_in 2 rfl _).trans ((A_eq14 (ent14 m) c 2).trans (Gen.V40_of m (outs m) c main_v231 (by decide)).symm)
theorem hF14_3 (c : Dev nD) : (dat14 (ent14 m) c).arrAt 3 cfg14.N = ext14 m c (Pipeline.arrRef spec14 3) :=
  ((dat14 (ent14 m) c).arrAt_in 3 rfl _).trans ((A_eq14 (ent14 m) c 3).trans (Gen.V40_of m (outs m) c main_v232 (by decide)).symm)
theorem hF14_4 (c : Dev nD) : (dat14 (ent14 m) c).arrAt 4 cfg14.N = ext14 m c (Pipeline.arrRef spec14 4) :=
  ((dat14 (ent14 m) c).arrAt_in 4 rfl _).trans ((A_eq14 (ent14 m) c 4).trans (Gen.V40_of m (outs m) c main_v233 (by decide)).symm)
theorem hF14_5 (c : Dev nD) : (dat14 (ent14 m) c).arrAt 5 cfg14.N = ext14 m c (Pipeline.arrRef spec14 5) :=
  (congrArg (fun V => (dat14 V c).arrAt 5 cfg14.N) (ent14_eq m)).trans ((W40_0 m c).symm.trans (congrFun (V40_eq m c) _).symm)
/-- The same of every window at once. -/
theorem hF14 (c : Dev nD) : ∀ w : Fin 6, (dat14 (ent14 m) c).arrAt w cfg14.N = ext14 m c (Pipeline.arrRef spec14 w) :=
  forall_fin6 (P := fun w => (dat14 (ent14 m) c).arrAt w cfg14.N = ext14 m c (Pipeline.arrRef spec14 w))
    (hF14_0 m c) (hF14_1 m c) (hF14_2 m c) (hF14_3 m c) (hF14_4 m c) (hF14_5 m c)
/-- and every buffer that is none of its arrays holds what it held at entry. -/
theorem hrest14 (c : Dev nD) : ∀ b : Ref sig .tc, b ∉ Finset.univ.image (Pipeline.arrRef spec14) → ext14 m c b = ent14 m c b :=
  fun b hb => Gen.V40_of m (outs m) c b fun hmem => hb (by
    rcases List.mem_cons.mp hmem with rfl | hmem
    · exact Finset.mem_image.mpr ⟨5, Finset.mem_univ _, rfl⟩
    cases hmem)

/-- The program's valuation region 15 is entered from, read at the TensorCore's references; -/
abbrev ent15 : (c : Dev nD) → (b : Ref sig .tc) → Buf (Elt F) ((c : Thread nD τ).loc b) := fun c b => Gen.V43 m (outs m) c b
/-- the one it leaves. -/
abbrev ext15 : (c : Dev nD) → (b : Ref sig .tc) → Buf (Elt F) ((c : Thread nD τ).loc b) := fun c b => Gen.V44 m (outs m) c b
theorem ent15_eq : ent15 m = entW15 m := funext fun c => funext fun b => congrFun (V43_eq m c) _
/-- After region 15, `main_v250_0` holds window 3's array after the last write-back of the pipeline run from the
    contents the region was entered from. -/
theorem outs_eq_15_3 (c : Dev nD) : outs m 44 main_v250_0 c = (dat15 (ent15 m) c).arrAt 3 cfg15.N := by
  rw [ent15_eq m]; exact outs_44_0 m c
/-- After region 15, `main_v250_1` holds window 4's array after the last write-back of the pipeline run from the
    contents the region was entered from. -/
theorem outs_eq_15_4 (c : Dev nD) : outs m 44 main_v250_1 c = (dat15 (ent15 m) c).arrAt 4 cfg15.N := by
  rw [ent15_eq m]; exact outs_44_1 m c
/-- At region 15's exit each of its arrays holds what the pipeline leaves, window by window: an input window's array
    is as entered (no write-back touches it, and the region's exit valuation differs from the entry one only at the
    output arrays), an output window's is the chain's. -/
theorem hF15_0 (c : Dev nD) : (dat15 (ent15 m) c).arrAt 0 cfg15.N = ext15 m c (Pipeline.arrRef spec15 0) :=
  ((dat15 (ent15 m) c).arrAt_in 0 rfl _).trans ((A_eq15 (ent15 m) c 0).trans (Gen.V44_of m (outs m) c main_v235 (by decide)).symm)
theorem hF15_1 (c : Dev nD) : (dat15 (ent15 m) c).arrAt 1 cfg15.N = ext15 m c (Pipeline.arrRef spec15 1) :=
  ((dat15 (ent15 m) c).arrAt_in 1 rfl _).trans ((A_eq15 (ent15 m) c 1).trans (Gen.V44_of m (outs m) c main_v249 (by decide)).symm)
theorem hF15_2 (c : Dev nD) : (dat15 (ent15 m) c).arrAt 2 cfg15.N = ext15 m c (Pipeline.arrRef spec15 2) :=
  ((dat15 (ent15 m) c).arrAt_in 2 rfl _).trans ((A_eq15 (ent15 m) c 2).trans (Gen.V44_of m (outs m) c main_v4 (by decide)).symm)
theorem hF15_3 (c : Dev nD) : (dat15 (ent15 m) c).arrAt 3 cfg15.N = ext15 m c (Pipeline.arrRef spec15 3) :=
  (congrArg (fun V => (dat15 V c).arrAt 3 cfg15.N) (ent15_eq m)).trans ((W44_0 m c).symm.trans (congrFun (V44_eq m c) _).symm)
theorem hF15_4 (c : Dev nD) : (dat15 (ent15 m) c).arrAt 4 cfg15.N = ext15 m c (Pipeline.arrRef spec15 4) :=
  (congrArg (fun V => (dat15 V c).arrAt 4 cfg15.N) (ent15_eq m)).trans ((W44_1 m c).symm.trans (congrFun (V44_eq m c) _).symm)
/-- The same of every window at once. -/
theorem hF15 (c : Dev nD) : ∀ w : Fin 5, (dat15 (ent15 m) c).arrAt w cfg15.N = ext15 m c (Pipeline.arrRef spec15 w) :=
  forall_fin5 (P := fun w => (dat15 (ent15 m) c).arrAt w cfg15.N = ext15 m c (Pipeline.arrRef spec15 w))
    (hF15_0 m c) (hF15_1 m c) (hF15_2 m c) (hF15_3 m c) (hF15_4 m c)
/-- and every buffer that is none of its arrays holds what it held at entry. -/
theorem hrest15 (c : Dev nD) : ∀ b : Ref sig .tc, b ∉ Finset.univ.image (Pipeline.arrRef spec15) → ext15 m c b = ent15 m c b :=
  fun b hb => Gen.V44_of m (outs m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    cases hmem)

/-- The program's valuation region 16 is entered from, read at the TensorCore's references; -/
abbrev ent16 : (c : Dev nD) → (b : Ref sig .tc) → Buf (Elt F) ((c : Thread nD τ).loc b) := fun c b => Gen.V45 m (outs m) c b
/-- the one it leaves. -/
abbrev ext16 : (c : Dev nD) → (b : Ref sig .tc) → Buf (Elt F) ((c : Thread nD τ).loc b) := fun c b => Gen.V46 m (outs m) c b
theorem ent16_eq : ent16 m = entW16 m := funext fun c => funext fun b => congrFun (V45_eq m c) _
/-- After region 16, `main_v263_0` holds window 6's array after the last write-back of the pipeline run from the
    contents the region was entered from. -/
theorem outs_eq_16_6 (c : Dev nD) : outs m 46 main_v263_0 c = (dat16 (ent16 m) c).arrAt 6 cfg16.N := by
  rw [ent16_eq m]; exact outs_46_0 m c
/-- After region 16, `main_v263_1` holds window 7's array after the last write-back of the pipeline run from the
    contents the region was entered from. -/
theorem outs_eq_16_7 (c : Dev nD) : outs m 46 main_v263_1 c = (dat16 (ent16 m) c).arrAt 7 cfg16.N := by
  rw [ent16_eq m]; exact outs_46_1 m c
/-- At region 16's exit each of its arrays holds what the pipeline leaves, window by window: an input window's array
    is as entered (no write-back touches it, and the region's exit valuation differs from the entry one only at the
    output arrays), an output window's is the chain's. -/
theorem hF16_0 (c : Dev nD) : (dat16 (ent16 m) c).arrAt 0 cfg16.N = ext16 m c (Pipeline.arrRef spec16 0) :=
  ((dat16 (ent16 m) c).arrAt_in 0 rfl _).trans ((A_eq16 (ent16 m) c 0).trans (Gen.V46_of m (outs m) c main_v250_0 (by decide)).symm)
theorem hF16_1 (c : Dev nD) : (dat16 (ent16 m) c).arrAt 1 cfg16.N = ext16 m c (Pipeline.arrRef spec16 1) :=
  ((dat16 (ent16 m) c).arrAt_in 1 rfl _).trans ((A_eq16 (ent16 m) c 1).trans (Gen.V46_of m (outs m) c main_v253 (by decide)).symm)
theorem hF16_2 (c : Dev nD) : (dat16 (ent16 m) c).arrAt 2 cfg16.N = ext16 m c (Pipeline.arrRef spec16 2) :=
  ((dat16 (ent16 m) c).arrAt_in 2 rfl _).trans ((A_eq16 (ent16 m) c 2).trans (Gen.V46_of m (outs m) c main_v260 (by decide)).symm)
theorem hF16_3 (c : Dev nD) : (dat16 (ent16 m) c).arrAt 3 cfg16.N = ext16 m c (Pipeline.arrRef spec16 3) :=
  ((dat16 (ent16 m) c).arrAt_in 3 rfl _).trans ((A_eq16 (ent16 m) c 3).trans (Gen.V46_of m (outs m) c main_v261 (by decide)).symm)
theorem hF16_4 (c : Dev nD) : (dat16 (ent16 m) c).arrAt 4 cfg16.N = ext16 m c (Pipeline.arrRef spec16 4) :=
  ((dat16 (ent16 m) c).arrAt_in 4 rfl _).trans ((A_eq16 (ent16 m) c 4).trans (Gen.V46_of m (outs m) c main_v262 (by decide)).symm)
theorem hF16_5 (c : Dev nD) : (dat16 (ent16 m) c).arrAt 5 cfg16.N = ext16 m c (Pipeline.arrRef spec16 5) :=
  ((dat16 (ent16 m) c).arrAt_in 5 rfl _).trans ((A_eq16 (ent16 m) c 5).trans (Gen.V46_of m (outs m) c main_v5 (by decide)).symm)
theorem hF16_6 (c : Dev nD) : (dat16 (ent16 m) c).arrAt 6 cfg16.N = ext16 m c (Pipeline.arrRef spec16 6) :=
  (congrArg (fun V => (dat16 V c).arrAt 6 cfg16.N) (ent16_eq m)).trans ((W46_0 m c).symm.trans (congrFun (V46_eq m c) _).symm)
theorem hF16_7 (c : Dev nD) : (dat16 (ent16 m) c).arrAt 7 cfg16.N = ext16 m c (Pipeline.arrRef spec16 7) :=
  (congrArg (fun V => (dat16 V c).arrAt 7 cfg16.N) (ent16_eq m)).trans ((W46_1 m c).symm.trans (congrFun (V46_eq m c) _).symm)
/-- The same of every window at once. -/
theorem hF16 (c : Dev nD) : ∀ w : Fin 8, (dat16 (ent16 m) c).arrAt w cfg16.N = ext16 m c (Pipeline.arrRef spec16 w) :=
  forall_fin8 (P := fun w => (dat16 (ent16 m) c).arrAt w cfg16.N = ext16 m c (Pipeline.arrRef spec16 w))
    (hF16_0 m c) (hF16_1 m c) (hF16_2 m c) (hF16_3 m c) (hF16_4 m c) (hF16_5 m c) (hF16_6 m c) (hF16_7 m c)
/-- and every buffer that is none of its arrays holds what it held at entry. -/
theorem hrest16 (c : Dev nD) : ∀ b : Ref sig .tc, b ∉ Finset.univ.image (Pipeline.arrRef spec16) → ext16 m c b = ent16 m c b :=
  fun b hb => Gen.V46_of m (outs m) c b fun hmem => hb (by
    rcases List.mem_cons.mp hmem with rfl | hmem
    · exact Finset.mem_image.mpr ⟨6, Finset.mem_univ _, rfl⟩
    rcases List.mem_cons.mp hmem with rfl | hmem
    · exact Finset.mem_image.mpr ⟨7, Finset.mem_univ _, rfl⟩
    cases hmem)

/-- The program's valuation region 17 is entered from, read at the TensorCore's references; -/
abbrev ent17 : (c : Dev nD) → (b : Ref sig .tc) → Buf (Elt F) ((c : Thread nD τ).loc b) := fun c b => Gen.V47 m (outs m) c b
/-- the one it leaves. -/
abbrev ext17 : (c : Dev nD) → (b : Ref sig .tc) → Buf (Elt F) ((c : Thread nD τ).loc b) := fun c b => Gen.V48 m (outs m) c b
theorem ent17_eq : ent17 m = entW17 m := funext fun c => funext fun b => congrFun (V47_eq m c) _
/-- After region 17, `main_v276` holds window 5's array after the last write-back of the pipeline run from the
    contents the region was entered from. -/
theorem outs_eq_17_5 (c : Dev nD) : outs m 48 main_v276 c = (dat17 (ent17 m) c).arrAt 5 cfg17.N := by
  rw [ent17_eq m]; exact outs_48_0 m c
/-- At region 17's exit each of its arrays holds what the pipeline leaves, window by window: an input window's array
    is as entered (no write-back touches it, and the region's exit valuation differs from the entry one only at the
    output arrays), an output window's is the chain's. -/
theorem hF17_0 (c : Dev nD) : (dat17 (ent17 m) c).arrAt 0 cfg17.N = ext17 m c (Pipeline.arrRef spec17 0) :=
  ((dat17 (ent17 m) c).arrAt_in 0 rfl _).trans ((A_eq17 (ent17 m) c 0).trans (Gen.V48_of m (outs m) c main_v263_0 (by decide)).symm)
theorem hF17_1 (c : Dev nD) : (dat17 (ent17 m) c).arrAt 1 cfg17.N = ext17 m c (Pipeline.arrRef spec17 1) :=
  ((dat17 (ent17 m) c).arrAt_in 1 rfl _).trans ((A_eq17 (ent17 m) c 1).trans (Gen.V48_of m (outs m) c main_v266 (by decide)).symm)
theorem hF17_2 (c : Dev nD) : (dat17 (ent17 m) c).arrAt 2 cfg17.N = ext17 m c (Pipeline.arrRef spec17 2) :=
  ((dat17 (ent17 m) c).arrAt_in 2 rfl _).trans ((A_eq17 (ent17 m) c 2).trans (Gen.V48_of m (outs m) c main_v273 (by decide)).symm)
theorem hF17_3 (c : Dev nD) : (dat17 (ent17 m) c).arrAt 3 cfg17.N = ext17 m c (Pipeline.arrRef spec17 3) :=
  ((dat17 (ent17 m) c).arrAt_in 3 rfl _).trans ((A_eq17 (ent17 m) c 3).trans (Gen.V48_of m (outs m) c main_v274 (by decide)).symm)
theorem hF17_4 (c : Dev nD) : (dat17 (ent17 m) c).arrAt 4 cfg17.N = ext17 m c (Pipeline.arrRef spec17 4) :=
  ((dat17 (ent17 m) c).arrAt_in 4 rfl _).trans ((A_eq17 (ent17 m) c 4).trans (Gen.V48_of m (outs m) c main_v275 (by decide)).symm)
theorem hF17_5 (c : Dev nD) : (dat17 (ent17 m) c).arrAt 5 cfg17.N = ext17 m c (Pipeline.arrRef spec17 5) :=
  (congrArg (fun V => (dat17 V c).arrAt 5 cfg17.N) (ent17_eq m)).trans ((W48_0 m c).symm.trans (congrFun (V48_eq m c) _).symm)
/-- The same of every window at once. -/
theorem hF17 (c : Dev nD) : ∀ w : Fin 6, (dat17 (ent17 m) c).arrAt w cfg17.N = ext17 m c (Pipeline.arrRef spec17 w) :=
  forall_fin6 (P := fun w => (dat17 (ent17 m) c).arrAt w cfg17.N = ext17 m c (Pipeline.arrRef spec17 w))
    (hF17_0 m c) (hF17_1 m c) (hF17_2 m c) (hF17_3 m c) (hF17_4 m c) (hF17_5 m c)
/-- and every buffer that is none of its arrays holds what it held at entry. -/
theorem hrest17 (c : Dev nD) : ∀ b : Ref sig .tc, b ∉ Finset.univ.image (Pipeline.arrRef spec17) → ext17 m c b = ent17 m c b :=
  fun b hb => Gen.V48_of m (outs m) c b fun hmem => hb (by
    rcases List.mem_cons.mp hmem with rfl | hmem
    · exact Finset.mem_image.mpr ⟨5, Finset.mem_univ _, rfl⟩
    cases hmem)

/-! ## The proof data family and the thread state -/

/-- Every pipeline's proof data, each at the contents its region is entered from. -/
def pdats : (p : Fin 18) → (c : Dev nD) → Dat τ (Elt F) Unit ℕ (Pipeline.UD sig nD τ) ℕ (Pipeline.pin (pcfgs (F := F)) Gen.adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
  | ⟨7, _⟩ => fun c => dat7 (ent7 m) c
  | ⟨8, _⟩ => fun c => dat8 (ent8 m) c
  | ⟨9, _⟩ => fun c => dat9 (ent9 m) c
  | ⟨10, _⟩ => fun c => dat10 (ent10 m) c
  | ⟨11, _⟩ => fun c => dat11 (ent11 m) c
  | ⟨12, _⟩ => fun c => dat12 (ent12 m) c
  | ⟨13, _⟩ => fun c => dat13 (ent13 m) c
  | ⟨14, _⟩ => fun c => dat14 (ent14 m) c
  | ⟨15, _⟩ => fun c => dat15 (ent15 m) c
  | ⟨16, _⟩ => fun c => dat16 (ent16 m) c
  | ⟨17, _⟩ => fun c => dat17 (ent17 m) c
  | ⟨_ + 18, h⟩ => absurd h (Nat.not_lt.2 (Nat.le_add_left _ _))

/-- No core owes another anything: no level is assigned. -/
abbrev L : GSem nD τ sig → Finset Unit := fun _ => ∅
abbrev lv : GSem nD τ sig → Unit → ℕ := fun _ _ => 0
/-- What rides beside the buffers through every segment: the core's generator register at some state (the class's
    invariant takes it in and gives it back) and what the core owes, which is nothing. -/
abbrev R (c : Dev nD) : sProp 𝕄 := iprop((∃ r, prngReg c r) ∗ ∃ W, owes (c : Thread nD τ) (0 : CellTallies nD τ sig Unit) W)
/-- The same rest between any two items. -/
abbrev E : Fin 19 → Dev nD → sProp 𝕄 := fun _ c => R (F := F) c
/-- The rest ends owing nothing. -/
theorem hR (c : Dev nD) : (R (F := F) c : sProp 𝕄) ⊢ iprop(∃ W, owes (c : Thread nD τ) (0 : CellTallies nD τ sig Unit) W) := by
  iintro ⟨-, HO⟩; iexact HO
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 over the thread state: entered from every unscoped buffer at the program's valuation 3, left at valuation
    4. Its arrays are split out of the unscoped buffers and put back at the exit contents; the generator register goes
    into the class's invariant and comes back; nothing is owed; the kernel has no semaphore of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) (A_eq0 (ent0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (ent0 m) c)
    unfold Pipeline.ΦA
    iintro ⟨Hp, -, Hr⟩
    isplitl [Hr]; · iexact Hr
    iexact Hp
  hout c := by
    rw [Pipeline.ownSems0_none]
    refine BIBase.Entails.trans (hout0 (ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at the program's valuation 5, left at valuation
    6. Its arrays are split out of the unscoped buffers and put back at the exit contents; the generator register goes
    into the class's invariant and comes back; nothing is owed; the kernel has no semaphore of its own. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (ent1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (ent1 m c) (A_eq1 (ent1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (ent1 m) c)
    unfold Pipeline.ΦA
    iintro ⟨Hp, -, Hr⟩
    isplitl [Hr]; · iexact Hr
    iexact Hp
  hout c := by
    rw [Pipeline.ownSems0_none]
    refine BIBase.Entails.trans (hout1 (ent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at the program's valuation 7, left at valuation
    8. Its arrays are split out of the unscoped buffers and put back at the exit contents; the generator register goes
    into the class's invariant and comes back; nothing is owed; the kernel has no semaphore of its own. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L lv 2 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (ent2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (ent2 m c) (A_eq2 (ent2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (ent2 m) c)
    unfold Pipeline.ΦA
    iintro ⟨Hp, -, Hr⟩
    isplitl [Hr]; · iexact Hr
    iexact Hp
  hout c := by
    rw [Pipeline.ownSems0_none]
    refine BIBase.Entails.trans (hout2 (ent2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (ent2 m c) (ext2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at the program's valuation 9, left at valuation
    10. Its arrays are split out of the unscoped buffers and put back at the exit contents; the generator register goes
    into the class's invariant and comes back; nothing is owed; the kernel has no semaphore of its own. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L lv 3 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec3 c (ent3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (ent3 m c) (A_eq3 (ent3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (ent3 m) c)
    unfold Pipeline.ΦA
    iintro ⟨Hp, -, Hr⟩
    isplitl [Hr]; · iexact Hr
    iexact Hp
  hout c := by
    rw [Pipeline.ownSems0_none]
    refine BIBase.Entails.trans (hout3 (ent3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := Pipeline.UD sig nD τ) (Lvl := ℕ)
      launch3.win launch3.arr_whole c (pdats m) ((pdats m 3 c).share_full fun _ => rfl)
      (ent3 m c) (ext3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered from every unscoped buffer at the program's valuation 11, left at valuation
    12. Its arrays are split out of the unscoped buffers and put back at the exit contents; the generator register goes
    into the class's invariant and comes back; nothing is owed; the kernel has no semaphore of its own. -/
def reg4 : Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ L lv 4 fun _ _ => rfl
  pre c := iprop(StableHlo.held (c : Thread nD τ) (Pipeline.ucRefs τ sig) (Gen.V11 m (outs m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec4 c (ent4 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (ent4 m c) (A_eq4 (ent4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (ent4 m) c)
    unfold Pipeline.ΦA
    iintro ⟨Hp, -, Hr⟩
    isplitl [Hr]; · iexact Hr
    iexact Hp
  hout c := by
    rw [Pipeline.ownSems0_none]
    refine BIBase.Entails.trans (hout4 (ent4 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := Pipeline.UD sig nD τ) (Lvl := ℕ)
      launch4.win launch4.arr_whole c (pdats m) ((pdats m 4 c).share_full fun _ => rfl)
      (ent4 m c) (ext4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 5 over the thread state: entered from every unscoped buffer at the program's valuation 13, left at valuation
    14. Its arrays are split out of the unscoped buffers and put back at the exit contents; the generator register goes
    into the class's invariant and comes back; nothing is owed; the kernel has no semaphore of its own. -/
def reg5 : Pipeline.RegionSeg (pcfgs (F := F)) Gen.adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ L lv 5 fun _ _ => rfl
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec5 c (ent5 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (ent5 m c) (A_eq5 (ent5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (ent5 m) c)
    unfold Pipeline.ΦA
    iintro ⟨Hp, -, Hr⟩
    isplitl [Hr]; · iexact Hr
    iexact Hp
  hout c := by
    rw [Pipeline.ownSems0_none]
    refine BIBase.Entails.trans (hout5 (ent5 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := Pipeline.UD sig nD τ) (Lvl := ℕ)
      launch5.win launch5.arr_whole c (pdats m) ((pdats m 5 c).share_full fun _ => rfl)
      (ent5 m c) (ext5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 6 over the thread state: entered from every unscoped buffer at the program's valuation 17, left at valuation
    18. Its arrays are split out of the unscoped buffers and put back at the exit contents; the generator register goes
    into the class's invariant and comes back; nothing is owed; the kernel has no semaphore of its own. -/
def reg6 : Pipeline.RegionSeg (pcfgs (F := F)) Gen.adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ L lv 6 fun _ _ => rfl
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec6 c (ent6 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (ent6 m c) (A_eq6 (ent6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (ent6 m) c)
    unfold Pipeline.ΦA
    iintro ⟨Hp, -, Hr⟩
    isplitl [Hr]; · iexact Hr
    iexact Hp
  hout c := by
    rw [Pipeline.ownSems0_none]
    refine BIBase.Entails.trans (hout6 (ent6 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := Pipeline.UD sig nD τ) (Lvl := ℕ)
      launch6.win launch6.arr_whole c (pdats m) ((pdats m 6 c).share_full fun _ => rfl)
      (ent6 m c) (ext6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 7 over the thread state: entered from every unscoped buffer at the program's valuation 19, left at valuation
    20. Its arrays are split out of the unscoped buffers and put back at the exit contents; the generator register goes
    into the class's invariant and comes back; nothing is owed; the kernel has no semaphore of its own. -/
def reg7 : Pipeline.RegionSeg (pcfgs (F := F)) Gen.adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (ent7 m) c).loose
  hwaits := Pipeline.hwaits_of_owed_zero _ _ _ _ L lv 7 fun _ _ => rfl
  pre c := iprop(StableHlo.held (c : Thread nD τ) (Pipeline.ucRefs τ sig) (Gen.V19 m (outs m) c) ∗ R c)
  post c := iprop(StableHlo.held (c : Thread nD τ) (Pipeline.ucRefs τ sig) (Gen.V20 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec7 c (ent7 m c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (ent7 m c) (A_eq7 (ent7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (ent7 m) c)
    unfold Pipeline.ΦA
    iintro ⟨Hp, -, Hr⟩
    isplitl [Hr]; · iexact Hr
    iexact Hp
  hout c := by
    rw [Pipeline.ownSems0_none]
    refine BIBase.Entails.trans (hout7 (ent7 m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := Pipeline.UD sig nD τ) (Lvl := ℕ)
      launch7.win launch7.arr_whole c (pdats m) ((pdats m 7 c).share_full fun _ => rfl)
      (ent7 m c) (ext7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 8 over the thread state: entered from every unscoped buffer at the program's valuation 21, left at valuation
    22. Its arrays are split out of the unscoped buffers and put back at the exit contents; the generator register goes
    into the class's invariant and comes back; nothing is owed; the kernel has no semaphore of its own. -/
def reg8 : Pipeline.RegionSeg (pcfgs (F := F)) Gen.adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (ent8 m) c).loose
  hwaits := Pipeline.hwaits_of_owed_zero _ _ _ _ L lv 8 fun _ _ => rfl
  pre c := iprop(StableHlo.held (c : Thread nD τ) (Pipeline.ucRefs τ sig) (Gen.V21 m (outs m) c) ∗ R c)
  post c := iprop(StableHlo.held (c : Thread nD τ) (Pipeline.ucRefs τ sig) (Gen.V22 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec8 c (ent8 m c)
  hentry c := by
    rw [Pipeline.ownSems0_none]
    have hsplit := Pipeline.arrays_of_unscopedBufs (p := 8) (pcfgs (F := F)) Gen.adm (pdats m) launch8.win launch8.arr_whole c
      ((pdats m 8 c).share_full fun _ => rfl) (ent8 m c) (A_eq8 (ent8 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (ent8 m) c)
    unfold Pipeline.ΦA
    iintro ⟨Hp, -, Hr⟩
    isplitl [Hr]; · iexact Hr
    iexact Hp
  hout c := by
    rw [Pipeline.ownSems0_none]
    refine BIBase.Entails.trans (hout8 (ent8 m) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) Gen.adm (Ix := Unit) (Name := ℕ) (U := Pipeline.UD sig nD τ) (Lvl := ℕ)
      launch8.win launch8.arr_whole c (pdats m) ((pdats m 8 c).share_full fun _ => rfl)
      (ent8 m c) (ext8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 9 over the thread state: entered from every unscoped buffer at the program's valuation 29, left at valuation
    30. Its arrays are split out of the unscoped buffers and put back at the exit contents; the generator register goes
    into the class's invariant and comes back; nothing is owed; the kernel has no semaphore of its own. -/
def reg9 : Pipeline.RegionSeg (pcfgs (F := F)) Gen.adm (pdats m) () defs₀ Variants.none L lv 9 where
  win := launch9.win.to₀
  block_pos := launch9.block_pos
  stage_whole := launch9.stage_whole
  K := PEmpty
  osem k := k.elim
  ho := Pipeline.OwnSemFacts.none _
  hbody c := (body_obligation9 (ent9 m) c).loose
  hwaits := Pipeline.hwaits_of_owed_zero _ _ _ _ L lv 9 fun _ _ => rfl
  pre c := iprop(StableHlo.held (c : Thread nD τ) (Pipeline.ucRefs τ sig) (Gen.V29 m (outs m) c) ∗ R c)
  post c := iprop(StableHlo.held (c : Thread nD τ) (Pipeline.ucRefs τ sig) (Gen.V30 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec9 c (ent9 m c)
  hentry c := by
    rw [Pipeline.ownSems0_none]
    have hsplit := Pipeline.arrays_of_unscopedBufs (p := 9) (pcfgs (F := F)) Gen.adm (pdats m) launch9.win launch9.arr_whole c
      ((pdats m 9 c).share_full fun _ => rfl) (ent9 m c) (A_eq9 (ent9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin9 (ent9 m) c)
    unfold Pipeline.ΦA
    iintro ⟨Hp, -, Hr⟩
    isplitl [Hr]; · iexact Hr
    iexact Hp
  hout c := by
    rw [Pipeline.ownSems0_none]
    refine BIBase.Entails.trans (hout9 (ent9 m) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) Gen.adm (Ix := Unit) (Name := ℕ) (U := Pipeline.UD sig nD τ) (Lvl := ℕ)
      launch9.win launch9.arr_whole c (pdats m) ((pdats m 9 c).share_full fun _ => rfl)
      (ent9 m c) (ext9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 10 over the thread state: entered from every unscoped buffer at the program's valuation 31, left at valuation
    32. Its arrays are split out of the unscoped buffers and put back at the exit contents; the generator register goes
    into the class's invariant and comes back; nothing is owed; the kernel has no semaphore of its own. -/
def reg10 : Pipeline.RegionSeg (pcfgs (F := F)) Gen.adm (pdats m) () defs₀ Variants.none L lv 10 where
  win := launch10.win.to₀
  block_pos := launch10.block_pos
  stage_whole := launch10.stage_whole
  K := PEmpty
  osem k := k.elim
  ho := Pipeline.OwnSemFacts.none _
  hbody c := (body_obligation10 (ent10 m) c).loose
  hwaits := Pipeline.hwaits_of_owed_zero _ _ _ _ L lv 10 fun _ _ => rfl
  pre c := iprop(StableHlo.held (c : Thread nD τ) (Pipeline.ucRefs τ sig) (Gen.V31 m (outs m) c) ∗ R c)
  post c := iprop(StableHlo.held (c : Thread nD τ) (Pipeline.ucRefs τ sig) (Gen.V32 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec10 c (ent10 m c)
  hentry c := by
    rw [Pipeline.ownSems0_none]
    have hsplit := Pipeline.arrays_of_unscopedBufs (p := 10) (pcfgs (F := F)) Gen.adm (pdats m) launch10.win launch10.arr_whole c
      ((pdats m 10 c).share_full fun _ => rfl) (ent10 m c) (A_eq10 (ent10 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin10 (ent10 m) c)
    unfold Pipeline.ΦA
    iintro ⟨Hp, -, Hr⟩
    isplitl [Hr]; · iexact Hr
    iexact Hp
  hout c := by
    rw [Pipeline.ownSems0_none]
    refine BIBase.Entails.trans (hout10 (ent10 m) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) Gen.adm (Ix := Unit) (Name := ℕ) (U := Pipeline.UD sig nD τ) (Lvl := ℕ)
      launch10.win launch10.arr_whole c (pdats m) ((pdats m 10 c).share_full fun _ => rfl)
      (ent10 m c) (ext10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 11 over the thread state: entered from every unscoped buffer at the program's valuation 33, left at valuation
    34. Its arrays are split out of the unscoped buffers and put back at the exit contents; the generator register goes
    into the class's invariant and comes back; nothing is owed; the kernel has no semaphore of its own. -/
def reg11 : Pipeline.RegionSeg (pcfgs (F := F)) Gen.adm (pdats m) () defs₀ Variants.none L lv 11 where
  win := launch11.win.to₀
  block_pos := launch11.block_pos
  stage_whole := launch11.stage_whole
  K := PEmpty
  osem k := k.elim
  ho := Pipeline.OwnSemFacts.none _
  hbody c := (body_obligation11 (ent11 m) c).loose
  hwaits := Pipeline.hwaits_of_owed_zero _ _ _ _ L lv 11 fun _ _ => rfl
  pre c := iprop(StableHlo.held (c : Thread nD τ) (Pipeline.ucRefs τ sig) (Gen.V33 m (outs m) c) ∗ R c)
  post c := iprop(StableHlo.held (c : Thread nD τ) (Pipeline.ucRefs τ sig) (Gen.V34 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec11 c (ent11 m c)
  hentry c := by
    rw [Pipeline.ownSems0_none]
    have hsplit := Pipeline.arrays_of_unscopedBufs (p := 11) (pcfgs (F := F)) Gen.adm (pdats m) launch11.win launch11.arr_whole c
      ((pdats m 11 c).share_full fun _ => rfl) (ent11 m c) (A_eq11 (ent11 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin11 (ent11 m) c)
    unfold Pipeline.ΦA
    iintro ⟨Hp, -, Hr⟩
    isplitl [Hr]; · iexact Hr
    iexact Hp
  hout c := by
    rw [Pipeline.ownSems0_none]
    refine BIBase.Entails.trans (hout11 (ent11 m) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) Gen.adm (Ix := Unit) (Name := ℕ) (U := Pipeline.UD sig nD τ) (Lvl := ℕ)
      launch11.win launch11.arr_whole c (pdats m) ((pdats m 11 c).share_full fun _ => rfl)
      (ent11 m c) (ext11 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 12 over the thread state: entered from every unscoped buffer at the program's valuation 35, left at valuation
    36. Its arrays are split out of the unscoped buffers and put back at the exit contents; the generator register goes
    into the class's invariant and comes back; nothing is owed; the kernel has no semaphore of its own. -/
def reg12 : Pipeline.RegionSeg (pcfgs (F := F)) Gen.adm (pdats m) () defs₀ Variants.none L lv 12 where
  win := launch12.win.to₀
  block_pos := launch12.block_pos
  stage_whole := launch12.stage_whole
  K := PEmpty
  osem k := k.elim
  ho := Pipeline.OwnSemFacts.none _
  hbody c := (body_obligation12 (ent12 m) c).loose
  hwaits := Pipeline.hwaits_of_owed_zero _ _ _ _ L lv 12 fun _ _ => rfl
  pre c := iprop(StableHlo.held (c : Thread nD τ) (Pipeline.ucRefs τ sig) (Gen.V35 m (outs m) c) ∗ R c)
  post c := iprop(StableHlo.held (c : Thread nD τ) (Pipeline.ucRefs τ sig) (Gen.V36 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec12 c (ent12 m c)
  hentry c := by
    rw [Pipeline.ownSems0_none]
    have hsplit := Pipeline.arrays_of_unscopedBufs (p := 12) (pcfgs (F := F)) Gen.adm (pdats m) launch12.win launch12.arr_whole c
      ((pdats m 12 c).share_full fun _ => rfl) (ent12 m c) (A_eq12 (ent12 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin12 (ent12 m) c)
    unfold Pipeline.ΦA
    iintro ⟨Hp, -, Hr⟩
    isplitl [Hr]; · iexact Hr
    iexact Hp
  hout c := by
    rw [Pipeline.ownSems0_none]
    refine BIBase.Entails.trans (hout12 (ent12 m) c) ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) Gen.adm (Ix := Unit) (Name := ℕ) (U := Pipeline.UD sig nD τ) (Lvl := ℕ)
      launch12.win launch12.arr_whole c (pdats m) ((pdats m 12 c).share_full fun _ => rfl)
      (ent12 m c) (ext12 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 13 over the thread state: entered from every unscoped buffer at the program's valuation 37, left at valuation
    38. Its arrays are split out of the unscoped buffers and put back at the exit contents; the generator register goes
    into the class's invariant and comes back; nothing is owed; the kernel has no semaphore of its own. -/
def reg13 : Pipeline.RegionSeg (pcfgs (F := F)) Gen.adm (pdats m) () defs₀ Variants.none L lv 13 where
  win := launch13.win.to₀
  block_pos := launch13.block_pos
  stage_whole := launch13.stage_whole
  K := PEmpty
  osem k := k.elim
  ho := Pipeline.OwnSemFacts.none _
  hbody c := (body_obligation13 (ent13 m) c).loose
  hwaits := Pipeline.hwaits_of_owed_zero _ _ _ _ L lv 13 fun _ _ => rfl
  pre c := iprop(StableHlo.held (c : Thread nD τ) (Pipeline.ucRefs τ sig) (Gen.V37 m (outs m) c) ∗ R c)
  post c := iprop(StableHlo.held (c : Thread nD τ) (Pipeline.ucRefs τ sig) (Gen.V38 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec13 c (ent13 m c)
  hentry c := by
    rw [Pipeline.ownSems0_none]
    have hsplit := Pipeline.arrays_of_unscopedBufs (p := 13) (pcfgs (F := F)) Gen.adm (pdats m) launch13.win launch13.arr_whole c
      ((pdats m 13 c).share_full fun _ => rfl) (ent13 m c) (A_eq13 (ent13 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin13 (ent13 m) c)
    unfold Pipeline.ΦA
    iintro ⟨Hp, -, Hr⟩
    isplitl [Hr]; · iexact Hr
    iexact Hp
  hout c := by
    rw [Pipeline.ownSems0_none]
    refine BIBase.Entails.trans (hout13 (ent13 m) c) ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) Gen.adm (Ix := Unit) (Name := ℕ) (U := Pipeline.UD sig nD τ) (Lvl := ℕ)
      launch13.win launch13.arr_whole c (pdats m) ((pdats m 13 c).share_full fun _ => rfl)
      (ent13 m c) (ext13 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 14 over the thread state: entered from every unscoped buffer at the program's valuation 39, left at valuation
    40. Its arrays are split out of the unscoped buffers and put back at the exit contents; the generator register goes
    into the class's invariant and comes back; nothing is owed; the kernel has no semaphore of its own. -/
def reg14 : Pipeline.RegionSeg (pcfgs (F := F)) Gen.adm (pdats m) () defs₀ Variants.none L lv 14 where
  win := launch14.win.to₀
  block_pos := launch14.block_pos
  stage_whole := launch14.stage_whole
  K := PEmpty
  osem k := k.elim
  ho := Pipeline.OwnSemFacts.none _
  hbody c := (body_obligation14 (ent14 m) c).loose
  hwaits := Pipeline.hwaits_of_owed_zero _ _ _ _ L lv 14 fun _ _ => rfl
  pre c := iprop(StableHlo.held (c : Thread nD τ) (Pipeline.ucRefs τ sig) (Gen.V39 m (outs m) c) ∗ R c)
  post c := iprop(StableHlo.held (c : Thread nD τ) (Pipeline.ucRefs τ sig) (Gen.V40 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec14 c (ent14 m c)
  hentry c := by
    rw [Pipeline.ownSems0_none]
    have hsplit := Pipeline.arrays_of_unscopedBufs (p := 14) (pcfgs (F := F)) Gen.adm (pdats m) launch14.win launch14.arr_whole c
      ((pdats m 14 c).share_full fun _ => rfl) (ent14 m c) (A_eq14 (ent14 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin14 (ent14 m) c)
    unfold Pipeline.ΦA
    iintro ⟨Hp, -, Hr⟩
    isplitl [Hr]; · iexact Hr
    iexact Hp
  hout c := by
    rw [Pipeline.ownSems0_none]
    refine BIBase.Entails.trans (hout14 (ent14 m) c) ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) Gen.adm (Ix := Unit) (Name := ℕ) (U := Pipeline.UD sig nD τ) (Lvl := ℕ)
      launch14.win launch14.arr_whole c (pdats m) ((pdats m 14 c).share_full fun _ => rfl)
      (ent14 m c) (ext14 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 15 over the thread state: entered from every unscoped buffer at the program's valuation 43, left at valuation
    44. Its arrays are split out of the unscoped buffers and put back at the exit contents; the generator register goes
    into the class's invariant and comes back; nothing is owed; the kernel has no semaphore of its own. -/
def reg15 : Pipeline.RegionSeg (pcfgs (F := F)) Gen.adm (pdats m) () defs₀ Variants.none L lv 15 where
  win := launch15.win.to₀
  block_pos := launch15.block_pos
  stage_whole := launch15.stage_whole
  K := PEmpty
  osem k := k.elim
  ho := Pipeline.OwnSemFacts.none _
  hbody c := (body_obligation15 (ent15 m) c).loose
  hwaits := Pipeline.hwaits_of_owed_zero _ _ _ _ L lv 15 fun _ _ => rfl
  pre c := iprop(StableHlo.held (c : Thread nD τ) (Pipeline.ucRefs τ sig) (Gen.V43 m (outs m) c) ∗ R c)
  post c := iprop(StableHlo.held (c : Thread nD τ) (Pipeline.ucRefs τ sig) (Gen.V44 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec15 c (ent15 m c)
  hentry c := by
    rw [Pipeline.ownSems0_none]
    have hsplit := Pipeline.arrays_of_unscopedBufs (p := 15) (pcfgs (F := F)) Gen.adm (pdats m) launch15.win launch15.arr_whole c
      ((pdats m 15 c).share_full fun _ => rfl) (ent15 m c) (A_eq15 (ent15 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin15 (ent15 m) c)
    unfold Pipeline.ΦA
    iintro ⟨Hp, -, Hr⟩
    isplitl [Hr]; · iexact Hr
    iexact Hp
  hout c := by
    rw [Pipeline.ownSems0_none]
    refine BIBase.Entails.trans (hout15 (ent15 m) c) ?_
    unfold Pipeline.ΦA
    iintro ⟨Hr, Hp⟩
    isplitl [Hp]; · iexact Hp
    isplitr; · iempintro
    iexact Hr
  hexit c := by
    have hjoin := Pipeline.unscopedBufs_of_arrays (p := 15) (pcfgs (F := F)) Gen.adm (Ix := Unit) (Name := ℕ) (U := Pipeline.UD sig nD τ) (Lvl := ℕ)
      launch15.win launch15.arr_whole c (pdats m) ((pdats m 15 c).share_full fun _ => rfl)
      (ent15 m c) (ext15 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 16 over the thread state: entered from every unscoped buffer at the program's valuation 45, left at valuation
    46. Its arrays are split out of the unscoped buffers and put back at the exit contents; the generator register goes
    into the class's invariant and comes back; nothing is owed; the kernel has no semaphore of its own. -/
def reg16 : Pipeline.RegionSeg (pcfgs (F := F)) Gen.adm (pdats m) () defs₀ Variants.none L lv 16 where
  win := launch16.win.to₀
  block_pos := launch16.block_pos
  stage_whole := launch16.stage_whole
  K := PEmpty
  osem k := k.elim
  ho := Pipeline.OwnSemFacts.none _
  hbody c := (body_obligation16 (ent16 m) c).loose
  hwaits := Pipeline.hwaits_of_owed_zero _ _ _ _ L lv 16 fun _ _ => rfl
  pre c := iprop(StableHlo.held (c : Thread nD τ) (Pipeline.ucRefs τ sig) (Gen.V45 m (outs m) c) ∗ R c)
  post c := iprop(StableHlo.held (c : Thread nD τ) (Pipeline.ucRefs τ sig) (Gen.V46 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec16 c (ent16 m c)
  hentry c := by
    rw [Pipeline.ownSems0_none]
    have hsplit := Pipeline.arrays_of_unscopedBufs (p := 16) (pcfgs (F := F)) Gen.adm (pdats m) launch16.win launch16.arr_whole c
      ((pdats m 16 c).share_full fun _ => rfl) (ent16 m c) (A_eq16 (ent16 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin16 (ent16 m) c)
    unfold Pipeline.ΦA
    iintro ⟨Hp, -, Hr⟩
    isplitl [Hr]; · iexact Hr
    iexact Hp
  hout c := by
    rw [Pipeline.ownSems0_none]
    refine BIBase.Entails.trans (hout16 (ent16 m) c) ?_
    unfold Pipeline.ΦA
    iintro ⟨Hr, Hp⟩
    isplitl [Hp]; · iexact Hp
    isplitr; · iempintro
    iexact Hr
  hexit c := by
    have hjoin := Pipeline.unscopedBufs_of_arrays (p := 16) (pcfgs (F := F)) Gen.adm (Ix := Unit) (Name := ℕ) (U := Pipeline.UD sig nD τ) (Lvl := ℕ)
      launch16.win launch16.arr_whole c (pdats m) ((pdats m 16 c).share_full fun _ => rfl)
      (ent16 m c) (ext16 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 17 over the thread state: entered from every unscoped buffer at the program's valuation 47, left at valuation
    48. Its arrays are split out of the unscoped buffers and put back at the exit contents; the generator register goes
    into the class's invariant and comes back; nothing is owed; the kernel has no semaphore of its own. -/
def reg17 : Pipeline.RegionSeg (pcfgs (F := F)) Gen.adm (pdats m) () defs₀ Variants.none L lv 17 where
  win := launch17.win.to₀
  block_pos := launch17.block_pos
  stage_whole := launch17.stage_whole
  K := PEmpty
  osem k := k.elim
  ho := Pipeline.OwnSemFacts.none _
  hbody c := (body_obligation17 (ent17 m) c).loose
  hwaits := Pipeline.hwaits_of_owed_zero _ _ _ _ L lv 17 fun _ _ => rfl
  pre c := iprop(StableHlo.held (c : Thread nD τ) (Pipeline.ucRefs τ sig) (Gen.V47 m (outs m) c) ∗ R c)
  post c := iprop(StableHlo.held (c : Thread nD τ) (Pipeline.ucRefs τ sig) (Gen.V48 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec17 c (ent17 m c)
  hentry c := by
    rw [Pipeline.ownSems0_none]
    have hsplit := Pipeline.arrays_of_unscopedBufs (p := 17) (pcfgs (F := F)) Gen.adm (pdats m) launch17.win launch17.arr_whole c
      ((pdats m 17 c).share_full fun _ => rfl) (ent17 m c) (A_eq17 (ent17 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin17 (ent17 m) c)
    unfold Pipeline.ΦA
    iintro ⟨Hp, -, Hr⟩
    isplitl [Hr]; · iexact Hr
    iexact Hp
  hout c := by
    rw [Pipeline.ownSems0_none]
    refine BIBase.Entails.trans (hout17 (ent17 m) c) ?_
    unfold Pipeline.ΦA
    iintro ⟨Hr, Hp⟩
    isplitl [Hp]; · iexact Hp
    isplitr; · iempintro
    iexact Hr
  hexit c := by
    have hjoin := Pipeline.unscopedBufs_of_arrays (p := 17) (pcfgs (F := F)) Gen.adm (Ix := Unit) (Name := ℕ) (U := Pipeline.UD sig nD τ) (Lvl := ℕ)
      launch17.win launch17.arr_whole c (pdats m) ((pdats m 17 c).share_full fun _ => rfl)
      (ent17 m c) (ext17 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the launch theorem's implicit arguments are found by unifying its conclusion with this one, which takes unfolding
-- plain definitions in a metavariable's type
set_option backward.isDefEq.respectTransparency.types false in
/-- THE RUN, with the result: from any memory with zero counters every weakly fair execution of the program terminates,
    and in every final memory the result buffer holds what the last valuation holds there and every argument array
    holds its launch contents. The launch runs the segments in order from "every unscoped buffer at the launch
    contents" to "every unscoped buffer at the last valuation"; that state is read against the final memory. -/
theorem run_result : θ_run defs (onTc (τ := τ) (main (F := F))) ⟨m, fun _ => 0, ρ⟩ (fun r => ∀ c : Dev nD,
      r.2.mem ((c.tc : Thread nD τ).loc main_v314) = Gen.V57 m (outs m) c main_v314
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine Pipeline.θ_run_regions_kit_dev (pcfgs (F := F)) Gen.adm (pdats m) () cellOf_inj embL defs₀ Variants.none L lv m ρ main
    (Gen.segs m (outs m) Variants.none L lv (E (F := F)) () (pdats m) (reg0 m) (reg1 m) (reg2 m) (reg3 m) (reg4 m) (reg5 m) (reg6 m) (reg7 m) (reg8 m) (reg9 m) (reg10 m) (reg11 m) (reg12 m) (reg13 m) (reg14 m) (reg15 m) (reg16 m) (reg17 m))
    (fun c Q => by
      rewrite [main_chain c, Seg.run_eq_chain,
        show ((Gen.segs m (outs m) Variants.none L lv (E (F := F)) () (pdats m) (reg0 m) (reg1 m) (reg2 m) (reg3 m) (reg4 m) (reg5 m) (reg6 m) (reg7 m) (reg8 m) (reg9 m) (reg10 m) (reg11 m) (reg12 m) (reg13 m) (reg14 m) (reg15 m) (reg16 m) (reg17 m)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4,
          StableHlo.seq hostOps9_5,
          StableHlo.seq hostOps9_6,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          StableHlo.seq hostOps15_1,
          StableHlo.seq hostOps15_2,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          StableHlo.seq hostOps18_1,
          StableHlo.seq hostOps18_2,
          StableHlo.seq hostOps18_3,
          StableHlo.seq hostOps18_4,
          StableHlo.seq hostOps18_5,
          StableHlo.seq hostOps18_6,
          StableHlo.seq hostOps18_7,
          StableHlo.seq hostOps18_8 ] from rfl]
      with_reducible exact .rfl)
    (fun c => by simp only [Gen.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V57 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hR c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V57 m (outs m) c b)
    (hfin := fun c s' => by
      iintro ⟨Hh, HSI⟩
      unfold StableHlo.held
      imodintro
      iapply (pointsTo_read_all (Pipeline.ucRefs τ sig) (fun b => (((c : Thread nD τ)).1, b)) (Gen.V57 m (outs m) c) s')
      isplitl [Hh] <;> iassumption)
    (hQ := fun s h c =>
      ⟨h c _ (mem_uc main_v314 (by decide)),
       (h c _ (mem_uc main_arg0 (by decide))).trans (Gen.V57_main_arg0 m (outs m) c),
       (h c _ (mem_uc main_arg1 (by decide))).trans (Gen.V57_main_arg1 m (outs m) c),
       (h c _ (mem_uc main_arg2 (by decide))).trans (Gen.V57_main_arg2 m (outs m) c),
       (h c _ (mem_uc main_arg3 (by decide))).trans (Gen.V57_main_arg3 m (outs m) c),
       (h c _ (mem_uc main_arg4 (by decide))).trans (Gen.V57_main_arg4 m (outs m) c),
       (h c _ (mem_uc main_arg5 (by decide))).trans (Gen.V57_main_arg5 m (outs m) c),
       (h c _ (mem_uc main_arg6 (by decide))).trans (Gen.V57_main_arg6 m (outs m) c),
       (h c _ (mem_uc main_arg7 (by decide))).trans (Gen.V57_main_arg7 m (outs m) c),
       (h c _ (mem_uc main_arg8 (by decide))).trans (Gen.V57_main_arg8 m (outs m) c),
       (h c _ (mem_uc main_arg9 (by decide))).trans (Gen.V57_main_arg9 m (outs m) c),
       (h c _ (mem_uc main_arg10 (by decide))).trans (Gen.V57_main_arg10 m (outs m) c),
       (h c _ (mem_uc main_arg11 (by decide))).trans (Gen.V57_main_arg11 m (outs m) c),
       (h c _ (mem_uc main_arg12 (by decide))).trans (Gen.V57_main_arg12 m (outs m) c),
       (h c _ (mem_uc main_arg13 (by decide))).trans (Gen.V57_main_arg13 m (outs m) c),
       (h c _ (mem_uc main_arg14 (by decide))).trans (Gen.V57_main_arg14 m (outs m) c),
       (h c _ (mem_uc main_arg15 (by decide))).trans (Gen.V57_main_arg15 m (outs m) c),
       (h c _ (mem_uc main_arg16 (by decide))).trans (Gen.V57_main_arg16 m (outs m) c),
       (h c _ (mem_uc main_arg17 (by decide))).trans (Gen.V57_main_arg17 m (outs m) c),
       (h c _ (mem_uc main_arg18 (by decide))).trans (Gen.V57_main_arg18 m (outs m) c),
       (h c _ (mem_uc main_arg19 (by decide))).trans (Gen.V57_main_arg19 m (outs m) c),
       (h c _ (mem_uc main_arg20 (by decide))).trans (Gen.V57_main_arg20 m (outs m) c),
       (h c _ (mem_uc main_arg21 (by decide))).trans (Gen.V57_main_arg21 m (outs m) c),
       (h c _ (mem_uc main_arg22 (by decide))).trans (Gen.V57_main_arg22 m (outs m) c),
       (h c _ (mem_uc main_arg23 (by decide))).trans (Gen.V57_main_arg23 m (outs m) c)⟩)

/-- THE FRAME: the same run, keeping only that every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => (h c).2) (run_result m ρ)

end Cert.KernelIdeal.Hand

end
-- ==== Proof.Spec.lean ====
/-
  The mathematics both programs compute, stated once over the extended reals, index by index.

  One GIN layer maps node features `xn : [N, K]` and their edge aggregate `agg : [N, K]` to
  `relu (bn (relu (bn ((xn + agg) · W₁)) · W₂))`, where `bn` is batch normalisation over the `N` rows with the
  biased variance. The two programs differ in one place only: the kernel reads the variance of a column as
  `max (E[z²] − E[z]², 0)` from column sums of `z` and `z²`, the reference as `E[(z − E[z])²]`. Both are spelt
  here (`varK`, `varR`); over finite reals they agree.
-/
import Idealize.ShloMosaic.PureOps.Ideal
import Idealize.ShloMosaic.Lib.ValueIdx

noncomputable section

namespace Cert.Spec

open Idealize.ShloMosaic Idealize.ShloMosaic.ValueIdx

/-- A matrix `[a, b]` and a row `[1, b]` of extended reals, at the literal shapes the programs use. -/
abbrev Mx (a b : ℕ) : Type := (⟨2, ![a, b]⟩ : Shape).Idx → EReal

/-- The number of rows every statistic divides by: the value of the `f32` word of `50000.0`. -/
def nrows : EReal := Ideal.ofBits .f32 0x47435000#32
/-- Batch normalisation's epsilon: the value of the `f32` word nearest `1e-5`. -/
def bnEps : EReal := Ideal.ofBits .f32 0x3727C5AC#32
/-- The zero word's value. -/
def zero : EReal := Ideal.ofBits .f32 0x00000000#32

/-- A matrix from its entries. -/
def ofFn2 {a b : ℕ} (f : Fin a → Fin b → EReal) : Mx a b := fun j => f (j 0) (j 1)

@[simp] theorem ofFn2_ix2 {a b : ℕ} (f : Fin a → Fin b → EReal) (i : Fin a) (j : Fin b) : ofFn2 f (ix2 i j) = f i j := rfl

/-- The sum of two matrices, entry by entry. -/
def add2 {a b : ℕ} (x y : Mx a b) : Mx a b := ofFn2 fun i j => x (ix2 i j) + y (ix2 i j)

/-- The matrix product, one contracted axis. -/
def mm {n k h : ℕ} (x : Mx n k) (w : Mx k h) : Mx n h := ofFn2 fun i j => ∑ l : Fin k, x (ix2 i l) * w (ix2 l j)

/-- The sum of a column, and of its squares. -/
def colSum {n b : ℕ} (z : Mx n b) (j : Fin b) : EReal := ∑ i : Fin n, z (ix2 i j)
def colSumSq {n b : ℕ} (z : Mx n b) (j : Fin b) : EReal := ∑ i : Fin n, z (ix2 i j) * z (ix2 i j)

/-- A column's mean: its sum over the number of rows. -/
def mean {n b : ℕ} (z : Mx n b) (j : Fin b) : EReal := Ideal.div (colSum z j) nrows

/-- The kernel's variance of a column: mean of squares less the squared mean, cut off at zero. -/
def varK {n b : ℕ} (z : Mx n b) (j : Fin b) : EReal :=
  max (Ideal.div (colSumSq z j) nrows - mean z j * mean z j) zero

/-- The reference's variance of a column: the mean squared distance from the mean. -/
def varR {n b : ℕ} (z : Mx n b) (j : Fin b) : EReal :=
  Ideal.div (∑ i : Fin n, (z (ix2 i j) - mean z j) * (z (ix2 i j) - mean z j)) nrows

/-- Batch normalisation with gain `g` and bias `b` at a given mean and variance per column, then `relu`. -/
def bnRelu {n b : ℕ} (z : Mx n b) (mu var g bias : Fin b → EReal) : Mx n b :=
  ofFn2 fun i j => max (g j * (z (ix2 i j) - mu j) * Ideal.rsqrt (var j + bnEps) + bias j) zero

/-- One GIN layer as the KERNEL computes it, from `h = xn + agg`. -/
def layerK {n k h o : ℕ} (x : Mx n k) (w1 : Mx k h) (w2 : Mx h o) (bg bb : Fin h → EReal) (ng nb : Fin o → EReal) : Mx n o :=
  let z1 := mm x w1
  let a1 := bnRelu z1 (mean z1) (varK z1) bg bb
  let z2 := mm a1 w2
  bnRelu z2 (mean z2) (varK z2) ng nb

/-- One GIN layer as the REFERENCE computes it, from `h = xn + agg`. -/
def layerR {n k h o : ℕ} (x : Mx n k) (w1 : Mx k h) (w2 : Mx h o) (bg bb : Fin h → EReal) (ng nb : Fin o → EReal) : Mx n o :=
  let z1 := mm x w1
  let a1 := bnRelu z1 (mean z1) (varR z1) bg bb
  let z2 := mm a1 w2
  bnRelu z2 (mean z2) (varR z2) ng nb

/-- Every entry is a real number. -/
def Fin2 {a b : ℕ} (x : Mx a b) : Prop := ∀ i j, ∃ r : ℝ, x (ix2 i j) = (r : EReal)
def Fin1 {b : ℕ} (g : Fin b → EReal) : Prop := ∀ j, ∃ r : ℝ, g j = (r : EReal)

end Cert.Spec

end
-- ==== Proof.Math.Skeleton.lean ====
/-
  The shape both programs share: two passes over the graph (one per edge set and node mask), each
  `layer_d ∘ mask ∘ layer_e1 ∘ layer_e0 ∘ mask` with every layer fed `xn + agg xn`, then the loss tail over the two
  reconstructions. The functions that are host glue in both programs (masking, edge aggregation, the loss tail) are a
  parameter `Glue`; the layer is a parameter too (`Spec.layerK` for the kernel, `Spec.layerR` for the reference).
-/
import proofs.«427833_j20194936226511_1_alg».proof.Proof.Spec

noncomputable section

namespace Cert.Spec

open Idealize.ShloMosaic Idealize.ShloMosaic.ValueIdx

/-- A node mask `[50000]` of bits, an edge list `[2, 320000]` of 32-bit words, the scalar result. -/
abbrev Mask : Type := (⟨1, ![50000]⟩ : Shape).Idx → BitVec 1
abbrev Edges : Type := (⟨2, ![2, 320000]⟩ : Shape).Idx → BitVec 32
abbrev Scal : Type := (⟨0, ![]⟩ : Shape).Idx → EReal

/-- The host functions the two programs share. -/
structure Glue where
  where128 : Mask → Mx 50000 128 → Mx 50000 128
  where256 : Mask → Mx 50000 256 → Mx 50000 256
  agg128 : Mx 50000 128 → Edges → Mx 50000 128
  agg256 : Mx 50000 256 → Edges → Mx 50000 256
  tail : Mx 50000 128 → Mx 50000 128 → Mx 50000 128 → Mask → Mask → Scal

/-- Masking and aggregation keep every entry a real number. -/
structure Glue.Finite (g : Glue) : Prop where
  where128 : ∀ m x, Fin2 x → Fin2 (g.where128 m x)
  where256 : ∀ m x, Fin2 x → Fin2 (g.where256 m x)
  agg128 : ∀ x e, Fin2 x → Fin2 (g.agg128 x e)
  agg256 : ∀ x e, Fin2 x → Fin2 (g.agg256 x e)

/-- One layer's parameters at widths `k → h → o`. -/
structure LayerW (k h o : ℕ) where
  w1 : Mx k h
  w2 : Mx h o
  bg : Fin h → EReal
  bb : Fin h → EReal
  ng : Fin o → EReal
  nb : Fin o → EReal

/-- Every parameter is a real number. -/
structure LayerW.Finite {k h o : ℕ} (p : LayerW k h o) : Prop where
  w1 : Fin2 p.w1
  w2 : Fin2 p.w2
  bg : Fin1 p.bg
  bb : Fin1 p.bb
  ng : Fin1 p.ng
  nb : Fin1 p.nb

/-- A way of computing one layer from `h = xn + agg`: `Spec.layerK` or `Spec.layerR`. -/
abbrev LayerFn : Type := ∀ {k h o : ℕ}, Mx 50000 k → Mx k h → Mx h o → (Fin h → EReal) → (Fin h → EReal) → (Fin o → EReal) → (Fin o → EReal) → Mx 50000 o

/-- One pass: mask the input, two encoder layers, mask again, the decoder layer. -/
def pass (L : LayerFn) (g : Glue) (e0 : LayerW 128 512 256) (e1 : LayerW 256 512 256) (d : LayerW 256 512 128)
    (x : Mx 50000 128) (ei : Edges) (mk : Mask) : Mx 50000 128 :=
  let x1 := g.where128 mk x
  let h0 := L (add2 x1 (g.agg128 x1 ei)) e0.w1 e0.w2 e0.bg e0.bb e0.ng e0.nb
  let h1 := L (add2 h0 (g.agg256 h0 ei)) e1.w1 e1.w2 e1.bg e1.bb e1.ng e1.nb
  let r := g.where256 mk h1
  L (add2 r (g.agg256 r ei)) d.w1 d.w2 d.bg d.bb d.ng d.nb

/-- The whole result: the loss tail over the two passes' reconstructions. -/
def loss (L : LayerFn) (g : Glue) (e0 : LayerW 128 512 256) (e1 : LayerW 256 512 256) (d : LayerW 256 512 128)
    (x : Mx 50000 128) (ei1 ei2 : Edges) (m1 m2 : Mask) : Scal :=
  g.tail (pass L g e0 e1 d x ei1 m1) (pass L g e0 e1 d x ei2 m2) x m1 m2

end Cert.Spec

end
-- ==== Proof.Math.LayerEq.lean ====
/-
  The algebra of one GIN layer over the extended reals.

  On finite inputs the two readings of a column's variance agree: with `N` the number of rows and `m` the mean,
  `E[z²] − m² = E[(z − m)²]`, and the right side is a mean of squares, so the cut-off at zero changes nothing.
  Every operation of the layer (sum of matrices, matrix product, batch normalisation followed by `relu`) maps
  finite entries to finite entries, because the variance is a nonnegative real and epsilon is positive, so the
  reciprocal square root is taken at a positive real. Hence the two layers are the same function of finite inputs,
  and a layer's output is finite.
-/
import proofs.«427833_j20194936226511_1_alg».proof.Proof.Spec
import Idealize.ShloMosaic.PureOps.Ideal
import Idealize.ShloMosaic.PureOps.Ideal.Laws
import Mathlib.Tactic.Ring
import Mathlib.Tactic.Linarith
import Mathlib.Tactic.LinearCombination
import Mathlib.Tactic.NormNum
import Mathlib.Tactic.Positivity
import Mathlib.Tactic.Choose
import Mathlib.Algebra.BigOperators.Ring.Finset
import Mathlib.Algebra.Order.BigOperators.Group.Finset

noncomputable section

namespace Cert.Spec

open Idealize.ShloMosaic Idealize.ShloMosaic.ValueIdx

open scoped BigOperators

/-- A finite sum of reals, read in the extended reals, is the real sum. -/
theorem coe_sum {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- The greater of two reals, read in the extended reals. -/
theorem coe_max (a b : ℝ) : max (a : EReal) (b : EReal) = ((max a b : ℝ) : EReal) :=
  (EReal.coe_strictMono.monotone.map_max).symm

/-- Over the reals, with `c` the reciprocal of the number of terms: the mean of the squares less the squared mean
    is the mean squared distance from the mean. -/
theorem real_var_law {ι : Type*} [Fintype ι] (f : ι → ℝ) (c : ℝ) (hc : (Fintype.card ι : ℝ) * c = 1) :
    (∑ i, f i * f i) * c - ((∑ i, f i) * c) * ((∑ i, f i) * c)
      = (∑ i, (f i - (∑ i, f i) * c) * (f i - (∑ i, f i) * c)) * c := by
  obtain ⟨m, hm⟩ : ∃ m : ℝ, m = (∑ i, f i) * c := ⟨_, rfl⟩
  rw [← hm]
  have hsq : ∑ i, (f i - m) * (f i - m)
      = (∑ i, f i * f i) - 2 * m * (∑ i, f i) + (Fintype.card ι : ℝ) * (m * m) := by
    have h : ∀ i, (f i - m) * (f i - m) = f i * f i - 2 * m * f i + m * m := fun i => by ring
    simp only [h, Finset.sum_add_distrib, Finset.sum_sub_distrib, ← Finset.mul_sum, Finset.sum_const,
      Finset.card_univ, nsmul_eq_mul]
    ring
  rw [hsq]
  linear_combination (-(m * m)) * hc + (-(2 * m)) * hm

/-- The row count's word denotes the real `50000`. -/
theorem nrows_eq : nrows = ((50000 : ℝ) : EReal) := by
  simp [nrows, Ideal.ofBits, Ideal.ieee, -EReal.coe_mul]; norm_num

/-- The zero word denotes `0`. -/
theorem zero_eq : zero = 0 := by
  rw [zero, Ideal.ofBits_zero_f32]

/-- Epsilon's word denotes a positive real. -/
theorem bnEps_pos : ∃ e : ℝ, 0 < e ∧ bnEps = (e : EReal) := by
  refine ⟨(10995116 : ℝ) * (2 : ℝ) ^ (-40 : ℤ), by positivity, ?_⟩
  simp [bnEps, Ideal.ofBits, Ideal.ieee, -EReal.coe_mul]

section Values

variable {b : ℕ} (z : Mx 50000 b) (f : Fin 50000 → Fin b → ℝ)
  (hf : ∀ i j, z (ix2 i j) = ((f i j : ℝ) : EReal))
include hf

/-- A column's sum, at real entries. -/
theorem colSum_val (j : Fin b) : colSum z j = ((∑ i, f i j : ℝ) : EReal) := by
  unfold colSum; simp only [hf]; exact coe_sum _ _

/-- A column's sum of squares, at real entries. -/
theorem colSumSq_val (j : Fin b) : colSumSq z j = ((∑ i, f i j * f i j : ℝ) : EReal) := by
  unfold colSumSq; simp only [hf, ← EReal.coe_mul]; exact coe_sum _ _

/-- A column's mean, at real entries. -/
theorem mean_val (j : Fin b) : mean z j = (((∑ i, f i j) * (1 / 50000) : ℝ) : EReal) := by
  rw [mean, colSum_val z f hf, nrows_eq, Ideal.div_coe (by norm_num), ← EReal.coe_mul]

/-- The kernel's variance, at real entries. -/
theorem varK_val (j : Fin b) : varK z j
    = ((max ((∑ i, f i j * f i j) * (1 / 50000)
        - ((∑ i, f i j) * (1 / 50000)) * ((∑ i, f i j) * (1 / 50000))) 0 : ℝ) : EReal) := by
  rw [varK, colSumSq_val z f hf, mean_val z f hf, nrows_eq, Ideal.div_coe (by norm_num), zero_eq,
    ← EReal.coe_mul, ← EReal.coe_mul, ← EReal.coe_sub, ← EReal.coe_zero, coe_max]

/-- The reference's variance, at real entries. -/
theorem varR_val (j : Fin b) : varR z j
    = (((∑ i, (f i j - (∑ i, f i j) * (1 / 50000)) * (f i j - (∑ i, f i j) * (1 / 50000))) * (1 / 50000) : ℝ) : EReal) := by
  unfold varR
  simp only [hf, mean_val z f hf, ← EReal.coe_sub, ← EReal.coe_mul]
  rw [coe_sum, nrows_eq, Ideal.div_coe (by norm_num), ← EReal.coe_mul]

end Values

/-- The column means of a finite matrix are finite. -/
theorem mean_fin {b : ℕ} (z : Mx 50000 b) (hz : Fin2 z) : Fin1 (mean z) := by
  choose f hf using hz
  exact fun j => ⟨_, mean_val z f hf j⟩

/-- The law: on a finite matrix, `max (E[z²] − E[z]², 0) = E[(z − E z)²]`. -/
theorem varK_eq_varR {b : ℕ} (z : Mx 50000 b) (hz : Fin2 z) (j : Fin b) : varK z j = varR z j := by
  choose f hf using hz
  rw [varK_val z f hf, varR_val z f hf]
  have hc : ((Fintype.card (Fin 50000) : ℕ) : ℝ) * (1 / 50000) = 1 := by rw [Fintype.card_fin]; norm_num
  have law := real_var_law (fun i => f i j) (1 / 50000) hc
  beta_reduce at law
  rw [law, max_eq_left]
  exact mul_nonneg (Finset.sum_nonneg fun i _ => mul_self_nonneg _) (by norm_num)

/-- The variance of a column of a finite matrix is a nonnegative real. -/
theorem varR_fin_nonneg {b : ℕ} (z : Mx 50000 b) (hz : Fin2 z) (j : Fin b) :
    ∃ r : ℝ, 0 ≤ r ∧ varR z j = (r : EReal) := by
  choose f hf using hz
  exact ⟨_, mul_nonneg (Finset.sum_nonneg fun i _ => mul_self_nonneg _) (by norm_num), varR_val z f hf j⟩

/-- The sum of two finite matrices is finite. -/
theorem add2_fin {a b : ℕ} (x y : Mx a b) (hx : Fin2 x) (hy : Fin2 y) : Fin2 (add2 x y) := by
  intro i j
  obtain ⟨r, hr⟩ := hx i j
  obtain ⟨s, hs⟩ := hy i j
  exact ⟨r + s, by rw [add2, ofFn2_ix2, hr, hs, EReal.coe_add]⟩

/-- The product of two finite matrices is finite. -/
theorem mm_fin {n k h : ℕ} (x : Mx n k) (w : Mx k h) (hx : Fin2 x) (hw : Fin2 w) : Fin2 (mm x w) := by
  choose fx hfx using hx
  choose fw hfw using hw
  intro i j
  refine ⟨∑ l, fx i l * fw l j, ?_⟩
  rw [mm, ofFn2_ix2]
  simp only [hfx, hfw, ← EReal.coe_mul]
  exact coe_sum _ _

/-- Batch normalisation then `relu`, at a finite mean, a nonnegative real variance and finite gain and bias,
    maps a finite matrix to a finite matrix. -/
theorem bnRelu_fin {n b : ℕ} (z : Mx n b) (mu var g bias : Fin b → EReal) (hz : Fin2 z) (hmu : Fin1 mu)
    (hvar : ∀ j, ∃ r : ℝ, 0 ≤ r ∧ var j = (r : EReal)) (hg : Fin1 g) (hbias : Fin1 bias) :
    Fin2 (bnRelu z mu var g bias) := by
  intro i j
  obtain ⟨zr, hzr⟩ := hz i j
  obtain ⟨m, hm⟩ := hmu j
  obtain ⟨v, hv0, hv⟩ := hvar j
  obtain ⟨gr, hgr⟩ := hg j
  obtain ⟨br, hbr⟩ := hbias j
  obtain ⟨e, he0, he⟩ := bnEps_pos
  have hpos : 0 < v + e := by linarith
  refine ⟨max (gr * (zr - m) * (Real.sqrt (v + e))⁻¹ + br) 0, ?_⟩
  rw [bnRelu, ofFn2_ix2, hzr, hm, hv, hgr, hbr, he, zero_eq, ← EReal.coe_add, Ideal.rsqrt_coe,
    if_neg (not_lt.2 hpos.le), if_neg hpos.ne', ← EReal.coe_sub, ← EReal.coe_mul, ← EReal.coe_mul,
    ← EReal.coe_add, ← EReal.coe_zero, coe_max]

/-- On finite inputs the kernel's layer and the reference's layer are the same matrix. -/
theorem layerK_eq_layerR {k h o : ℕ} (x : Mx 50000 k) (w1 : Mx k h) (w2 : Mx h o) (bg bb : Fin h → EReal)
    (ng nb : Fin o → EReal) (hx : Fin2 x) (hw1 : Fin2 w1) (hw2 : Fin2 w2) (hbg : Fin1 bg) (hbb : Fin1 bb)
    (hng : Fin1 ng) (hnb : Fin1 nb) : layerK x w1 w2 bg bb ng nb = layerR x w1 w2 bg bb ng nb := by
  have hz1 : Fin2 (mm x w1) := mm_fin x w1 hx hw1
  have e1 : varK (mm x w1) = varR (mm x w1) := funext (varK_eq_varR _ hz1)
  have ha1 : Fin2 (bnRelu (mm x w1) (mean (mm x w1)) (varR (mm x w1)) bg bb) :=
    bnRelu_fin _ _ _ _ _ hz1 (mean_fin _ hz1) (varR_fin_nonneg _ hz1) hbg hbb
  have hz2 := mm_fin _ w2 ha1 hw2
  have e2 := funext (varK_eq_varR _ hz2)
  simp only [layerK, layerR]
  rw [e1, e2]

/-- On finite inputs a layer's output is finite. -/
theorem layerR_fin {k h o : ℕ} (x : Mx 50000 k) (w1 : Mx k h) (w2 : Mx h o) (bg bb : Fin h → EReal)
    (ng nb : Fin o → EReal) (hx : Fin2 x) (hw1 : Fin2 w1) (hw2 : Fin2 w2) (hbg : Fin1 bg) (hbb : Fin1 bb)
    (hng : Fin1 ng) (hnb : Fin1 nb) : Fin2 (layerR x w1 w2 bg bb ng nb) := by
  have hz1 : Fin2 (mm x w1) := mm_fin x w1 hx hw1
  have ha1 : Fin2 (bnRelu (mm x w1) (mean (mm x w1)) (varR (mm x w1)) bg bb) :=
    bnRelu_fin _ _ _ _ _ hz1 (mean_fin _ hz1) (varR_fin_nonneg _ hz1) hbg hbb
  have hz2 := mm_fin _ w2 ha1 hw2
  exact bnRelu_fin _ _ _ _ _ hz2 (mean_fin _ hz2) (varR_fin_nonneg _ hz2) hng hnb

end Cert.Spec

end
-- ==== Proof.Math.LossEq.lean ====
/-
  The two programs' results agree on finite inputs.

  A pass is three layers, each fed `xn + agg xn`, with a masking before the first and before the third. Masking,
  aggregation and the sum of two matrices keep every entry a real number, and so does a layer; hence every layer of a
  pass is applied to a finite matrix, where the kernel's reading and the reference's are the same function. The two
  passes are therefore equal, and the loss tail, the same function of them on both sides, gives equal results.
-/
import proofs.«427833_j20194936226511_1_alg».proof.Proof.Math.Skeleton
import proofs.«427833_j20194936226511_1_alg».proof.Proof.Math.LayerEq

noncomputable section

namespace Cert.Spec

open Idealize.ShloMosaic Idealize.ShloMosaic.ValueIdx

/-- On a finite input, a pass through the kernel's layers is the pass through the reference's layers, and it is
    finite. -/
theorem pass_eq_fin (g : Glue) (hg : g.Finite) (e0 : LayerW 128 512 256) (e1 : LayerW 256 512 256)
    (d : LayerW 256 512 128) (h0 : e0.Finite) (h1 : e1.Finite) (hd : d.Finite) (x : Mx 50000 128) (hx : Fin2 x)
    (ei : Edges) (mk : Mask) :
    pass (@layerK 50000) g e0 e1 d x ei mk = pass (@layerR 50000) g e0 e1 d x ei mk
      ∧ Fin2 (pass (@layerR 50000) g e0 e1 d x ei mk) := by
  have hx1 : Fin2 (g.where128 mk x) := hg.where128 mk x hx
  have hi0 := add2_fin _ _ hx1 (hg.agg128 _ ei hx1)
  have eq0 := layerK_eq_layerR _ e0.w1 e0.w2 e0.bg e0.bb e0.ng e0.nb hi0 h0.w1 h0.w2 h0.bg h0.bb h0.ng h0.nb
  have f0 := layerR_fin _ e0.w1 e0.w2 e0.bg e0.bb e0.ng e0.nb hi0 h0.w1 h0.w2 h0.bg h0.bb h0.ng h0.nb
  have hi1 := add2_fin _ _ f0 (hg.agg256 _ ei f0)
  have eq1 := layerK_eq_layerR _ e1.w1 e1.w2 e1.bg e1.bb e1.ng e1.nb hi1 h1.w1 h1.w2 h1.bg h1.bb h1.ng h1.nb
  have f1 := layerR_fin _ e1.w1 e1.w2 e1.bg e1.bb e1.ng e1.nb hi1 h1.w1 h1.w2 h1.bg h1.bb h1.ng h1.nb
  have hr := hg.where256 mk _ f1
  have hi2 := add2_fin _ _ hr (hg.agg256 _ ei hr)
  have eq2 := layerK_eq_layerR _ d.w1 d.w2 d.bg d.bb d.ng d.nb hi2 hd.w1 hd.w2 hd.bg hd.bb hd.ng hd.nb
  have f2 := layerR_fin _ d.w1 d.w2 d.bg d.bb d.ng d.nb hi2 hd.w1 hd.w2 hd.bg hd.bb hd.ng hd.nb
  refine ⟨?_, f2⟩
  simp only [pass]
  rw [eq0, eq1, eq2]

/-- On a finite input, a pass through the kernel's layers is the pass through the reference's layers. -/
theorem pass_eq (g : Glue) (hg : g.Finite) (e0 : LayerW 128 512 256) (e1 : LayerW 256 512 256)
    (d : LayerW 256 512 128) (h0 : e0.Finite) (h1 : e1.Finite) (hd : d.Finite) (x : Mx 50000 128) (hx : Fin2 x)
    (ei : Edges) (mk : Mask) :
    pass (@layerK 50000) g e0 e1 d x ei mk = pass (@layerR 50000) g e0 e1 d x ei mk :=
  (pass_eq_fin g hg e0 e1 d h0 h1 hd x hx ei mk).1

/-- On a finite input, the result computed through the kernel's layers is the result computed through the
    reference's layers. -/
theorem loss_eq (g : Glue) (hg : g.Finite) (e0 : LayerW 128 512 256) (e1 : LayerW 256 512 256)
    (d : LayerW 256 512 128) (h0 : e0.Finite) (h1 : e1.Finite) (hd : d.Finite) (x : Mx 50000 128) (hx : Fin2 x)
    (ei1 ei2 : Edges) (m1 m2 : Mask) :
    loss (@layerK 50000) g e0 e1 d x ei1 ei2 m1 m2 = loss (@layerR 50000) g e0 e1 d x ei1 ei2 m1 m2 := by
  unfold loss
  rw [pass_eq g hg e0 e1 d h0 h1 hd x hx ei1 m1, pass_eq g hg e0 e1 d h0 h1 hd x hx ei2 m2]

/-- The same, with the layer functions written as explicit functions of the three widths. -/
theorem loss_eq' (g : Glue) (hg : g.Finite) (e0 : LayerW 128 512 256) (e1 : LayerW 256 512 256)
    (d : LayerW 256 512 128) (h0 : e0.Finite) (h1 : e1.Finite) (hd : d.Finite) (x : Mx 50000 128) (hx : Fin2 x)
    (ei1 ei2 : Edges) (m1 m2 : Mask) :
    loss (fun {k h o} => @layerK 50000 k h o) g e0 e1 d x ei1 ei2 m1 m2
      = loss (fun {k h o} => @layerR 50000 k h o) g e0 e1 d x ei1 ei2 m1 m2 :=
  loss_eq g hg e0 e1 d h0 h1 hd x hx ei1 ei2 m1 m2

end Cert.Spec

end
-- ==== Proof.PreFin.lean ====
/-
  From the precondition "every float input is finite" to finiteness, entry by entry.

  The precondition is a conjunction, one conjunct per float array `a`: the conjunction over all indices `i` of the
  comparison `|a i| < +∞`, where `|x| = max x (-x)` and `+∞` is the value of the word `0x7F800000`. Over the
  extended reals that word's value is `⊤`, and `max x (-x) < ⊤` fails at `x = ⊤` and at `x = ⊥` (there
  `-x = ⊤`), so it leaves exactly the real numbers. Hence: if the precondition holds, every entry of every float
  array is a real number.
-/
import Mathlib.Data.EReal.Basic
import Idealize.ShloMosaic.PureOps.Ideal
import Idealize.ShloMosaic.PureOps.Vector
import Idealize.ShloMosaic.PureOps.ShapeOps
import Idealize.ShloMosaic.Lib.Affine
import Idealize.ShloMosaic.Lib.ReduceAll
import Idealize.ShloMosaic.Lib.ValueIdx
import proofs.«427833_j20194936226511_1_alg».proof.Pre_finite_inputs
import proofs.«427833_j20194936226511_1_alg».proof.Proof.Spec

noncomputable section

namespace Cert.PreFin

open Idealize.ShloMosaic Cert.Pre_finite_inputs

/-- The word `0x7F800000` denotes `+∞`. -/
theorem inf_word : Ideal.ofBits .f32 0x7F800000#32 = (⊤ : EReal) := by
  simp [Ideal.ofBits, Ideal.ieee]

/-- An extended real whose absolute value `max x (-x)` compares below `+∞` is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The rank-0 shape has one index. -/
instance subsingleton_S_ : Subsingleton S_.Idx := ⟨fun a b => funext fun d => d.elim0⟩

/-- One conjunct: if the conjunction over all indices of `|a i| < +∞` is 1, every entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant S_ .f32 0x7F800000#32)))
          (constantI S_ 1 1#1) hr hu ValueIdx.ix0 = 1#1) :
    ∀ i, ∃ r : ℝ, a i = (r : EReal) := fun i =>
  real_of_abs_lt_inf (a i) (Host.reduce_andi_all _ _ hr hu ValueIdx.ix0 e i)

/-- A rank-2 array whose entries are all real numbers, in the specification's vocabulary. -/
theorem fin2_of {a b : ℕ} (x : Cert.Spec.Mx a b) (h : ∀ i, ∃ r : ℝ, x i = (r : EReal)) : Cert.Spec.Fin2 x :=
  fun i j => h (ValueIdx.ix2 i j)

/-- A rank-1 array whose entries are all real numbers, read as a function of its one coordinate. -/
theorem fin1_of {b : ℕ} (x : (⟨1, ![b]⟩ : Shape).Idx → EReal) (h : ∀ i, ∃ r : ℝ, x i = (r : EReal)) :
    Cert.Spec.Fin1 (fun j => x (ValueIdx.ix1 j)) :=
  fun j => h (ValueIdx.ix1 j)

variable [Cert.Pre_finite_inputs.Facts]

/-- The precondition gives, for each of the 19 float arrays in argument order, that every entry is a real number. -/
theorem fin_of_pre (a0 : FVec Ideal S50000x128 .f32) (a1 : IVec S2x320000 32) (a2 : IVec S2x320000 32) (a3 : IVec S50000 1) (a4 : IVec S50000 1) (a5 : IVec S50000 32) (a6 : FVec Ideal S128x512 .f32) (a7 : FVec Ideal S512x256 .f32) (a8 : FVec Ideal S512 .f32) (a9 : FVec Ideal S512 .f32) (a10 : FVec Ideal S256 .f32) (a11 : FVec Ideal S256 .f32) (a12 : FVec Ideal S256x512 .f32) (a13 : FVec Ideal S512x256 .f32) (a14 : FVec Ideal S512 .f32) (a15 : FVec Ideal S512 .f32) (a16 : FVec Ideal S256 .f32) (a17 : FVec Ideal S256 .f32) (a18 : FVec Ideal S256x512 .f32) (a19 : FVec Ideal S512x128 .f32) (a20 : FVec Ideal S512 .f32) (a21 : FVec Ideal S512 .f32) (a22 : FVec Ideal S128 .f32) (a23 : FVec Ideal S128 .f32)
    (h : Cert.Pre_finite_inputs.fn (F := Ideal) a0 a1 a2 a3 a4 a5 a6 a7 a8 a9 a10 a11 a12 a13 a14 a15 a16 a17 a18 a19 a20 a21 a22 a23 = fun _ => 1#1) :
    (∀ i, ∃ r : ℝ, a0 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ i, ∃ r : ℝ, a12 i = (r : EReal)) ∧
    (∀ i, ∃ r : ℝ, a13 i = (r : EReal)) ∧
    (∀ i, ∃ r : ℝ, a14 i = (r : EReal)) ∧
    (∀ i, ∃ r : ℝ, a15 i = (r : EReal)) ∧
    (∀ i, ∃ r : ℝ, a16 i = (r : EReal)) ∧
    (∀ i, ∃ r : ℝ, a17 i = (r : EReal)) ∧
    (∀ i, ∃ r : ℝ, a18 i = (r : EReal)) ∧
    (∀ i, ∃ r : ℝ, a19 i = (r : EReal)) ∧
    (∀ i, ∃ r : ℝ, a20 i = (r : EReal)) ∧
    (∀ i, ∃ r : ℝ, a21 i = (r : EReal)) ∧
    (∀ i, ∃ r : ℝ, a22 i = (r : EReal)) ∧
    (∀ i, ∃ r : ℝ, a23 i = (r : EReal)) := by
  have e := congrFun h ValueIdx.ix0
  dsimp only [fn, fn_part1, fn_part2, fn_part3, fn_part4, fn_part5] at e
  simp only [andi, IntOp.andi_eq_one] at e
  obtain ⟨⟨⟨⟨⟨⟨⟨⟨⟨⟨⟨⟨⟨⟨⟨⟨⟨⟨h0, h6⟩, h7⟩, h8⟩, h9⟩, h10⟩, h11⟩, h12⟩, h13⟩, h14⟩, h15⟩, h16⟩, h17⟩, h18⟩, h19⟩, h20⟩, h21⟩, h22⟩, h23⟩ := e
  exact ⟨real_of_all a0 _ _ _ h0,
    real_of_all a6 _ _ _ h6,
    real_of_all a7 _ _ _ h7,
    real_of_all a8 _ _ _ h8,
    real_of_all a9 _ _ _ h9,
    real_of_all a10 _ _ _ h10,
    real_of_all a11 _ _ _ h11,
    real_of_all a12 _ _ _ h12,
    real_of_all a13 _ _ _ h13,
    real_of_all a14 _ _ _ h14,
    real_of_all a15 _ _ _ h15,
    real_of_all a16 _ _ _ h16,
    real_of_all a17 _ _ _ h17,
    real_of_all a18 _ _ _ h18,
    real_of_all a19 _ _ _ h19,
    real_of_all a20 _ _ _ h20,
    real_of_all a21 _ _ _ h21,
    real_of_all a22 _ _ _ h22,
    real_of_all a23 _ _ _ h23⟩

/-- The same 19 facts in the specification's vocabulary: a rank-2 array entry by entry over its two coordinates,
    a rank-1 array as a function of its one coordinate. -/
theorem spec_of_pre (a0 : FVec Ideal S50000x128 .f32) (a1 : IVec S2x320000 32) (a2 : IVec S2x320000 32) (a3 : IVec S50000 1) (a4 : IVec S50000 1) (a5 : IVec S50000 32) (a6 : FVec Ideal S128x512 .f32) (a7 : FVec Ideal S512x256 .f32) (a8 : FVec Ideal S512 .f32) (a9 : FVec Ideal S512 .f32) (a10 : FVec Ideal S256 .f32) (a11 : FVec Ideal S256 .f32) (a12 : FVec Ideal S256x512 .f32) (a13 : FVec Ideal S512x256 .f32) (a14 : FVec Ideal S512 .f32) (a15 : FVec Ideal S512 .f32) (a16 : FVec Ideal S256 .f32) (a17 : FVec Ideal S256 .f32) (a18 : FVec Ideal S256x512 .f32) (a19 : FVec Ideal S512x128 .f32) (a20 : FVec Ideal S512 .f32) (a21 : FVec Ideal S512 .f32) (a22 : FVec Ideal S128 .f32) (a23 : FVec Ideal S128 .f32)
    (h : Cert.Pre_finite_inputs.fn (F := Ideal) a0 a1 a2 a3 a4 a5 a6 a7 a8 a9 a10 a11 a12 a13 a14 a15 a16 a17 a18 a19 a20 a21 a22 a23 = fun _ => 1#1) :
    Cert.Spec.Fin2 a0 ∧
    Cert.Spec.Fin2 a6 ∧
    Cert.Spec.Fin2 a7 ∧
    Cert.Spec.Fin1 (fun j => a8 (ValueIdx.ix1 j)) ∧
    Cert.Spec.Fin1 (fun j => a9 (ValueIdx.ix1 j)) ∧
    Cert.Spec.Fin1 (fun j => a10 (ValueIdx.ix1 j)) ∧
    Cert.Spec.Fin1 (fun j => a11 (ValueIdx.ix1 j)) ∧
    Cert.Spec.Fin2 a12 ∧
    Cert.Spec.Fin2 a13 ∧
    Cert.Spec.Fin1 (fun j => a14 (ValueIdx.ix1 j)) ∧
    Cert.Spec.Fin1 (fun j => a15 (ValueIdx.ix1 j)) ∧
    Cert.Spec.Fin1 (fun j => a16 (ValueIdx.ix1 j)) ∧
    Cert.Spec.Fin1 (fun j => a17 (ValueIdx.ix1 j)) ∧
    Cert.Spec.Fin2 a18 ∧
    Cert.Spec.Fin2 a19 ∧
    Cert.Spec.Fin1 (fun j => a20 (ValueIdx.ix1 j)) ∧
    Cert.Spec.Fin1 (fun j => a21 (ValueIdx.ix1 j)) ∧
    Cert.Spec.Fin1 (fun j => a22 (ValueIdx.ix1 j)) ∧
    Cert.Spec.Fin1 (fun j => a23 (ValueIdx.ix1 j)) := by
  obtain ⟨h0, h6, h7, h8, h9, h10, h11, h12, h13, h14, h15, h16, h17, h18, h19, h20, h21, h22, h23⟩ := fin_of_pre a0 a1 a2 a3 a4 a5 a6 a7 a8 a9 a10 a11 a12 a13 a14 a15 a16 a17 a18 a19 a20 a21 a22 a23 h
  exact ⟨fin2_of a0 h0,
    fin2_of a6 h6,
    fin2_of a7 h7,
    fin1_of a8 h8,
    fin1_of a9 h9,
    fin1_of a10 h10,
    fin1_of a11 h11,
    fin2_of a12 h12,
    fin2_of a13 h13,
    fin1_of a14 h14,
    fin1_of a15 h15,
    fin1_of a16 h16,
    fin1_of a17 h17,
    fin2_of a18 h18,
    fin2_of a19 h19,
    fin1_of a20 h20,
    fin1_of a21 h21,
    fin1_of a22 h22,
    fin1_of a23 h23⟩

end Cert.PreFin

end
-- ==== Proof.FinalOf.lean ====
/-
  The two claims that speak of values, assembled from what each program's run and value legs state.

  Both programs, run from memories that agree on the arguments, end with the specification's result in their result
  array: the kernel's is the result through the kernel's reading of a layer, the reference's through the reference's
  reading, over the same host glue. The precondition makes every float argument finite; on finite arguments the two
  readings are one function, so the two results are equal. Each run also keeps the arguments.
-/
import proofs.«427833_j20194936226511_1_alg».proof.Defs
import proofs.«427833_j20194936226511_1_alg».proof.Proof.Gen.KernelIdeal
import proofs.«427833_j20194936226511_1_alg».proof.Proof.Gen.ReferenceIdeal
import proofs.«427833_j20194936226511_1_alg».proof.Proof.Gen.Pre_finite_inputs
import proofs.«427833_j20194936226511_1_alg».proof.Proof.Math.LossEq
import Idealize.ShloMosaic.Lib.StableHlo.Run
import proofs.«427833_j20194936226511_1_alg».proof.Proof.PreFin

noncomputable section

namespace Cert.Proof.Final

open Idealize.ShloMosaic Idealize.ShloMosaic.ValueIdx Idealize.SL.Sem Cert.Spec

/-- The kernel's memories and the reference's. -/
abbrev MemK : Type := (ℓ : Loc Cert.KernelIdeal.nD Cert.KernelIdeal.τ Cert.KernelIdeal.sig) → Buf (Elt Ideal) ℓ
abbrev MemR : Type := (ℓ : Loc Cert.ReferenceIdeal.nD Cert.ReferenceIdeal.τ Cert.ReferenceIdeal.sig) → Buf (Elt Ideal) ℓ

/-- The specification's result at the kernel's argument arrays, through the kernel's layers. -/
def lossK (g : Glue) (m : MemK) (c : Dev Cert.KernelIdeal.nD) : Scal :=
  Cert.Spec.loss (@Cert.Spec.layerK 50000) g
    ⟨m ((c.tc : Thread Cert.KernelIdeal.nD Cert.KernelIdeal.τ).loc Cert.KernelIdeal.main_arg6), m ((c.tc : Thread Cert.KernelIdeal.nD Cert.KernelIdeal.τ).loc Cert.KernelIdeal.main_arg7), fun j => m ((c.tc : Thread Cert.KernelIdeal.nD Cert.KernelIdeal.τ).loc Cert.KernelIdeal.main_arg8) (ix1 j), fun j => m ((c.tc : Thread Cert.KernelIdeal.nD Cert.KernelIdeal.τ).loc Cert.KernelIdeal.main_arg9) (ix1 j), fun j => m ((c.tc : Thread Cert.KernelIdeal.nD Cert.KernelIdeal.τ).loc Cert.KernelIdeal.main_arg10) (ix1 j), fun j => m ((c.tc : Thread Cert.KernelIdeal.nD Cert.KernelIdeal.τ).loc Cert.KernelIdeal.main_arg11) (ix1 j)⟩
    ⟨m ((c.tc : Thread Cert.KernelIdeal.nD Cert.KernelIdeal.τ).loc Cert.KernelIdeal.main_arg12), m ((c.tc : Thread Cert.KernelIdeal.nD Cert.KernelIdeal.τ).loc Cert.KernelIdeal.main_arg13), fun j => m ((c.tc : Thread Cert.KernelIdeal.nD Cert.KernelIdeal.τ).loc Cert.KernelIdeal.main_arg14) (ix1 j), fun j => m ((c.tc : Thread Cert.KernelIdeal.nD Cert.KernelIdeal.τ).loc Cert.KernelIdeal.main_arg15) (ix1 j), fun j => m ((c.tc : Thread Cert.KernelIdeal.nD Cert.KernelIdeal.τ).loc Cert.KernelIdeal.main_arg16) (ix1 j), fun j => m ((c.tc : Thread Cert.KernelIdeal.nD Cert.KernelIdeal.τ).loc Cert.KernelIdeal.main_arg17) (ix1 j)⟩
    ⟨m ((c.tc : Thread Cert.KernelIdeal.nD Cert.KernelIdeal.τ).loc Cert.KernelIdeal.main_arg18), m ((c.tc : Thread Cert.KernelIdeal.nD Cert.KernelIdeal.τ).loc Cert.KernelIdeal.main_arg19), fun j => m ((c.tc : Thread Cert.KernelIdeal.nD Cert.KernelIdeal.τ).loc Cert.KernelIdeal.main_arg20) (ix1 j), fun j => m ((c.tc : Thread Cert.KernelIdeal.nD Cert.KernelIdeal.τ).loc Cert.KernelIdeal.main_arg21) (ix1 j), fun j => m ((c.tc : Thread Cert.KernelIdeal.nD Cert.KernelIdeal.τ).loc Cert.KernelIdeal.main_arg22) (ix1 j), fun j => m ((c.tc : Thread Cert.KernelIdeal.nD Cert.KernelIdeal.τ).loc Cert.KernelIdeal.main_arg23) (ix1 j)⟩
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))

/-- The specification's result at the reference's argument arrays, through the reference's layers. -/
def lossR (g : Glue) (m : MemR) (c : Dev Cert.ReferenceIdeal.nD) : Scal :=
  Cert.Spec.loss (@Cert.Spec.layerR 50000) g
    ⟨m ((c.tc : Thread Cert.ReferenceIdeal.nD Cert.ReferenceIdeal.τ).loc Cert.ReferenceIdeal.main_arg6), m ((c.tc : Thread Cert.ReferenceIdeal.nD Cert.ReferenceIdeal.τ).loc Cert.ReferenceIdeal.main_arg7), fun j => m ((c.tc : Thread Cert.ReferenceIdeal.nD Cert.ReferenceIdeal.τ).loc Cert.ReferenceIdeal.main_arg8) (ix1 j), fun j => m ((c.tc : Thread Cert.ReferenceIdeal.nD Cert.ReferenceIdeal.τ).loc Cert.ReferenceIdeal.main_arg9) (ix1 j), fun j => m ((c.tc : Thread Cert.ReferenceIdeal.nD Cert.ReferenceIdeal.τ).loc Cert.ReferenceIdeal.main_arg10) (ix1 j), fun j => m ((c.tc : Thread Cert.ReferenceIdeal.nD Cert.ReferenceIdeal.τ).loc Cert.ReferenceIdeal.main_arg11) (ix1 j)⟩
    ⟨m ((c.tc : Thread Cert.ReferenceIdeal.nD Cert.ReferenceIdeal.τ).loc Cert.ReferenceIdeal.main_arg12), m ((c.tc : Thread Cert.ReferenceIdeal.nD Cert.ReferenceIdeal.τ).loc Cert.ReferenceIdeal.main_arg13), fun j => m ((c.tc : Thread Cert.ReferenceIdeal.nD Cert.ReferenceIdeal.τ).loc Cert.ReferenceIdeal.main_arg14) (ix1 j), fun j => m ((c.tc : Thread Cert.ReferenceIdeal.nD Cert.ReferenceIdeal.τ).loc Cert.ReferenceIdeal.main_arg15) (ix1 j), fun j => m ((c.tc : Thread Cert.ReferenceIdeal.nD Cert.ReferenceIdeal.τ).loc Cert.ReferenceIdeal.main_arg16) (ix1 j), fun j => m ((c.tc : Thread Cert.ReferenceIdeal.nD Cert.ReferenceIdeal.τ).loc Cert.ReferenceIdeal.main_arg17) (ix1 j)⟩
    ⟨m ((c.tc : Thread Cert.ReferenceIdeal.nD Cert.ReferenceIdeal.τ).loc Cert.ReferenceIdeal.main_arg18), m ((c.tc : Thread Cert.ReferenceIdeal.nD Cert.ReferenceIdeal.τ).loc Cert.ReferenceIdeal.main_arg19), fun j => m ((c.tc : Thread Cert.ReferenceIdeal.nD Cert.ReferenceIdeal.τ).loc Cert.ReferenceIdeal.main_arg20) (ix1 j), fun j => m ((c.tc : Thread Cert.ReferenceIdeal.nD Cert.ReferenceIdeal.τ).loc Cert.ReferenceIdeal.main_arg21) (ix1 j), fun j => m ((c.tc : Thread Cert.ReferenceIdeal.nD Cert.ReferenceIdeal.τ).loc Cert.ReferenceIdeal.main_arg22) (ix1 j), fun j => m ((c.tc : Thread Cert.ReferenceIdeal.nD Cert.ReferenceIdeal.τ).loc Cert.ReferenceIdeal.main_arg23) (ix1 j)⟩
    (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))

/-- The reference's run with its result named by the specification: from the run that ends every buffer at the fold
    of the program's operations, that the fold keeps the arguments, and the fold's value at the result. -/
theorem runR_of (g : Glue)
    (opsR : List (HloOp Cert.ReferenceIdeal.τ Cert.ReferenceIdeal.sig (Elt Ideal)))
    (run : ∀ (m : MemR) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩
        fun r => ∀ (d : Dev Cert.ReferenceIdeal.nD) (b : Ref Cert.ReferenceIdeal.sig .tc),
          r.2.mem ((d.tc : Thread Cert.ReferenceIdeal.nD Cert.ReferenceIdeal.τ).loc b)
            = StableHlo.after opsR (StableHlo.launchContents m d) (Proc.devRef .tc b))
    (kept : ∀ V : Valuation Cert.ReferenceIdeal.τ Cert.ReferenceIdeal.sig (Elt Ideal),
        StableHlo.after opsR V (Proc.devRef .tc Cert.ReferenceIdeal.main_arg0) = V (Proc.devRef .tc Cert.ReferenceIdeal.main_arg0)
        ∧ StableHlo.after opsR V (Proc.devRef .tc Cert.ReferenceIdeal.main_arg1) = V (Proc.devRef .tc Cert.ReferenceIdeal.main_arg1)
        ∧ StableHlo.after opsR V (Proc.devRef .tc Cert.ReferenceIdeal.main_arg2) = V (Proc.devRef .tc Cert.ReferenceIdeal.main_arg2)
        ∧ StableHlo.after opsR V (Proc.devRef .tc Cert.ReferenceIdeal.main_arg3) = V (Proc.devRef .tc Cert.ReferenceIdeal.main_arg3)
        ∧ StableHlo.after opsR V (Proc.devRef .tc Cert.ReferenceIdeal.main_arg4) = V (Proc.devRef .tc Cert.ReferenceIdeal.main_arg4)
        ∧ StableHlo.after opsR V (Proc.devRef .tc Cert.ReferenceIdeal.main_arg5) = V (Proc.devRef .tc Cert.ReferenceIdeal.main_arg5)
        ∧ StableHlo.after opsR V (Proc.devRef .tc Cert.ReferenceIdeal.main_arg6) = V (Proc.devRef .tc Cert.ReferenceIdeal.main_arg6)
        ∧ StableHlo.after opsR V (Proc.devRef .tc Cert.ReferenceIdeal.main_arg7) = V (Proc.devRef .tc Cert.ReferenceIdeal.main_arg7)
        ∧ StableHlo.after opsR V (Proc.devRef .tc Cert.ReferenceIdeal.main_arg8) = V (Proc.devRef .tc Cert.ReferenceIdeal.main_arg8)
        ∧ StableHlo.after opsR V (Proc.devRef .tc Cert.ReferenceIdeal.main_arg9) = V (Proc.devRef .tc Cert.ReferenceIdeal.main_arg9)
        ∧ StableHlo.after opsR V (Proc.devRef .tc Cert.ReferenceIdeal.main_arg10) = V (Proc.devRef .tc Cert.ReferenceIdeal.main_arg10)
        ∧ StableHlo.after opsR V (Proc.devRef .tc Cert.ReferenceIdeal.main_arg11) = V (Proc.devRef .tc Cert.ReferenceIdeal.main_arg11)
        ∧ StableHlo.after opsR V (Proc.devRef .tc Cert.ReferenceIdeal.main_arg12) = V (Proc.devRef .tc Cert.ReferenceIdeal.main_arg12)
        ∧ StableHlo.after opsR V (Proc.devRef .tc Cert.ReferenceIdeal.main_arg13) = V (Proc.devRef .tc Cert.ReferenceIdeal.main_arg13)
        ∧ StableHlo.after opsR V (Proc.devRef .tc Cert.ReferenceIdeal.main_arg14) = V (Proc.devRef .tc Cert.ReferenceIdeal.main_arg14)
        ∧ StableHlo.after opsR V (Proc.devRef .tc Cert.ReferenceIdeal.main_arg15) = V (Proc.devRef .tc Cert.ReferenceIdeal.main_arg15)
        ∧ StableHlo.after opsR V (Proc.devRef .tc Cert.ReferenceIdeal.main_arg16) = V (Proc.devRef .tc Cert.ReferenceIdeal.main_arg16)
        ∧ StableHlo.after opsR V (Proc.devRef .tc Cert.ReferenceIdeal.main_arg17) = V (Proc.devRef .tc Cert.ReferenceIdeal.main_arg17)
        ∧ StableHlo.after opsR V (Proc.devRef .tc Cert.ReferenceIdeal.main_arg18) = V (Proc.devRef .tc Cert.ReferenceIdeal.main_arg18)
        ∧ StableHlo.after opsR V (Proc.devRef .tc Cert.ReferenceIdeal.main_arg19) = V (Proc.devRef .tc Cert.ReferenceIdeal.main_arg19)
        ∧ StableHlo.after opsR V (Proc.devRef .tc Cert.ReferenceIdeal.main_arg20) = V (Proc.devRef .tc Cert.ReferenceIdeal.main_arg20)
        ∧ StableHlo.after opsR V (Proc.devRef .tc Cert.ReferenceIdeal.main_arg21) = V (Proc.devRef .tc Cert.ReferenceIdeal.main_arg21)
        ∧ StableHlo.after opsR V (Proc.devRef .tc Cert.ReferenceIdeal.main_arg22) = V (Proc.devRef .tc Cert.ReferenceIdeal.main_arg22)
        ∧ StableHlo.after opsR V (Proc.devRef .tc Cert.ReferenceIdeal.main_arg23) = V (Proc.devRef .tc Cert.ReferenceIdeal.main_arg23))
    (value : ∀ (m : MemR) (c : Dev Cert.ReferenceIdeal.nD),
        StableHlo.after opsR (StableHlo.launchContents m c) (Proc.devRef .tc Cert.ReferenceIdeal.main_v424) = lossR g m c)
    (m : MemR) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
          r.2.mem ((c.tc : Thread Cert.ReferenceIdeal.nD Cert.ReferenceIdeal.τ).loc Cert.ReferenceIdeal.main_v424) = lossR g m c
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)) := by
  refine (θ_run _ _ _).mono (fun r h c => ?_) (run m ρ)
  obtain ⟨k0, k1, k2, k3, k4, k5, k6, k7, k8, k9, k10, k11, k12, k13, k14, k15, k16, k17, k18, k19, k20, k21, k22, k23⟩ := kept (StableHlo.launchContents m c)
  exact ⟨(h c _).trans (value m c), (h c _).trans k0, (h c _).trans k1, (h c _).trans k2, (h c _).trans k3, (h c _).trans k4, (h c _).trans k5, (h c _).trans k6, (h c _).trans k7, (h c _).trans k8, (h c _).trans k9, (h c _).trans k10, (h c _).trans k11, (h c _).trans k12, (h c _).trans k13, (h c _).trans k14, (h c _).trans k15, (h c _).trans k16, (h c _).trans k17, (h c _).trans k18, (h c _).trans k19, (h c _).trans k20, (h c _).trans k21, (h c _).trans k22, (h c _).trans k23⟩

/-- The reference runs and keeps its arguments. -/
theorem frame_ri_of
    (opsR : List (HloOp Cert.ReferenceIdeal.τ Cert.ReferenceIdeal.sig (Elt Ideal)))
    (run : ∀ (m : MemR) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩
        fun r => ∀ (d : Dev Cert.ReferenceIdeal.nD) (b : Ref Cert.ReferenceIdeal.sig .tc),
          r.2.mem ((d.tc : Thread Cert.ReferenceIdeal.nD Cert.ReferenceIdeal.τ).loc b)
            = StableHlo.after opsR (StableHlo.launchContents m d) (Proc.devRef .tc b))
    (kept : ∀ V : Valuation Cert.ReferenceIdeal.τ Cert.ReferenceIdeal.sig (Elt Ideal),
        StableHlo.after opsR V (Proc.devRef .tc Cert.ReferenceIdeal.main_arg0) = V (Proc.devRef .tc Cert.ReferenceIdeal.main_arg0)
        ∧ StableHlo.after opsR V (Proc.devRef .tc Cert.ReferenceIdeal.main_arg1) = V (Proc.devRef .tc Cert.ReferenceIdeal.main_arg1)
        ∧ StableHlo.after opsR V (Proc.devRef .tc Cert.ReferenceIdeal.main_arg2) = V (Proc.devRef .tc Cert.ReferenceIdeal.main_arg2)
        ∧ StableHlo.after opsR V (Proc.devRef .tc Cert.ReferenceIdeal.main_arg3) = V (Proc.devRef .tc Cert.ReferenceIdeal.main_arg3)
        ∧ StableHlo.after opsR V (Proc.devRef .tc Cert.ReferenceIdeal.main_arg4) = V (Proc.devRef .tc Cert.ReferenceIdeal.main_arg4)
        ∧ StableHlo.after opsR V (Proc.devRef .tc Cert.ReferenceIdeal.main_arg5) = V (Proc.devRef .tc Cert.ReferenceIdeal.main_arg5)
        ∧ StableHlo.after opsR V (Proc.devRef .tc Cert.ReferenceIdeal.main_arg6) = V (Proc.devRef .tc Cert.ReferenceIdeal.main_arg6)
        ∧ StableHlo.after opsR V (Proc.devRef .tc Cert.ReferenceIdeal.main_arg7) = V (Proc.devRef .tc Cert.ReferenceIdeal.main_arg7)
        ∧ StableHlo.after opsR V (Proc.devRef .tc Cert.ReferenceIdeal.main_arg8) = V (Proc.devRef .tc Cert.ReferenceIdeal.main_arg8)
        ∧ StableHlo.after opsR V (Proc.devRef .tc Cert.ReferenceIdeal.main_arg9) = V (Proc.devRef .tc Cert.ReferenceIdeal.main_arg9)
        ∧ StableHlo.after opsR V (Proc.devRef .tc Cert.ReferenceIdeal.main_arg10) = V (Proc.devRef .tc Cert.ReferenceIdeal.main_arg10)
        ∧ StableHlo.after opsR V (Proc.devRef .tc Cert.ReferenceIdeal.main_arg11) = V (Proc.devRef .tc Cert.ReferenceIdeal.main_arg11)
        ∧ StableHlo.after opsR V (Proc.devRef .tc Cert.ReferenceIdeal.main_arg12) = V (Proc.devRef .tc Cert.ReferenceIdeal.main_arg12)
        ∧ StableHlo.after opsR V (Proc.devRef .tc Cert.ReferenceIdeal.main_arg13) = V (Proc.devRef .tc Cert.ReferenceIdeal.main_arg13)
        ∧ StableHlo.after opsR V (Proc.devRef .tc Cert.ReferenceIdeal.main_arg14) = V (Proc.devRef .tc Cert.ReferenceIdeal.main_arg14)
        ∧ StableHlo.after opsR V (Proc.devRef .tc Cert.ReferenceIdeal.main_arg15) = V (Proc.devRef .tc Cert.ReferenceIdeal.main_arg15)
        ∧ StableHlo.after opsR V (Proc.devRef .tc Cert.ReferenceIdeal.main_arg16) = V (Proc.devRef .tc Cert.ReferenceIdeal.main_arg16)
        ∧ StableHlo.after opsR V (Proc.devRef .tc Cert.ReferenceIdeal.main_arg17) = V (Proc.devRef .tc Cert.ReferenceIdeal.main_arg17)
        ∧ StableHlo.after opsR V (Proc.devRef .tc Cert.ReferenceIdeal.main_arg18) = V (Proc.devRef .tc Cert.ReferenceIdeal.main_arg18)
        ∧ StableHlo.after opsR V (Proc.devRef .tc Cert.ReferenceIdeal.main_arg19) = V (Proc.devRef .tc Cert.ReferenceIdeal.main_arg19)
        ∧ StableHlo.after opsR V (Proc.devRef .tc Cert.ReferenceIdeal.main_arg20) = V (Proc.devRef .tc Cert.ReferenceIdeal.main_arg20)
        ∧ StableHlo.after opsR V (Proc.devRef .tc Cert.ReferenceIdeal.main_arg21) = V (Proc.devRef .tc Cert.ReferenceIdeal.main_arg21)
        ∧ StableHlo.after opsR V (Proc.devRef .tc Cert.ReferenceIdeal.main_arg22) = V (Proc.devRef .tc Cert.ReferenceIdeal.main_arg22)
        ∧ StableHlo.after opsR V (Proc.devRef .tc Cert.ReferenceIdeal.main_arg23) = V (Proc.devRef .tc Cert.ReferenceIdeal.main_arg23)) :
    Cert.frame_ReferenceIdeal := by
  intro m ρ _
  refine (θ_run _ _ _).mono (fun r h c => ?_) (run m ρ)
  obtain ⟨k0, k1, k2, k3, k4, k5, k6, k7, k8, k9, k10, k11, k12, k13, k14, k15, k16, k17, k18, k19, k20, k21, k22, k23⟩ := kept (StableHlo.launchContents m c)
  exact ⟨(h c _).trans k0, (h c _).trans k1, (h c _).trans k2, (h c _).trans k3, (h c _).trans k4, (h c _).trans k5, (h c _).trans k6, (h c _).trans k7, (h c _).trans k8, (h c _).trans k9, (h c _).trans k10, (h c _).trans k11, (h c _).trans k12, (h c _).trans k13, (h c _).trans k14, (h c _).trans k15, (h c _).trans k16, (h c _).trans k17, (h c _).trans k18, (h c _).trans k19, (h c _).trans k20, (h c _).trans k21, (h c _).trans k22, (h c _).trans k23⟩

/-- The kernel's run with its result named by the specification: from a run whose result is some term of the
    launch memory, and that term's value. -/
theorem runK_of (g : Glue)
    (VK : (m : MemK) → (c : Dev Cert.KernelIdeal.nD) → Buf (Elt Ideal) ((c.tc : Thread Cert.KernelIdeal.nD Cert.KernelIdeal.τ).loc Cert.KernelIdeal.main_v314))
    (run : ∀ (m : MemK) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v314) = VK m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)))
    (chain : ∀ (m : MemK) (c : Dev Cert.KernelIdeal.nD), VK m c = lossK g m c)
    (m : MemK) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
          r.2.mem ((c.tc : Thread Cert.KernelIdeal.nD Cert.KernelIdeal.τ).loc Cert.KernelIdeal.main_v314) = lossK g m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)) :=
  (θ_run _ _ _).mono (fun r h c => ⟨(h c).1.trans (chain m c), (h c).2⟩) (run m ρ)

/-- The kernel runs and keeps its arguments, from any run that says so besides naming its result. -/
theorem frame_ki_of
    (VK : (m : MemK) → (c : Dev Cert.KernelIdeal.nD) → Buf (Elt Ideal) ((c.tc : Thread Cert.KernelIdeal.nD Cert.KernelIdeal.τ).loc Cert.KernelIdeal.main_v314))
    (run : ∀ (m : MemK) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v314) = VK m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))) :
    Cert.frame_KernelIdeal := fun m ρ _ =>
  (θ_run _ _ _).mono (fun r h c => (h c).2) (run m ρ)

/-- The two programs' results agree: both runs end at the specification's result, through the kernel's layers on
    one side and the reference's on the other, over one glue that keeps entries finite; the arguments agree and are
    finite by the precondition, where the two readings of a layer are one function. -/
theorem algebraic_of (gK gR : Glue) (hg : gK = gR) (hfin : gR.Finite)
    (runK : ∀ (m : MemK) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v314) = lossK gK m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)))
    (runR : ∀ (m : MemR) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩
        (fun r => ∀ c : Dev Cert.ReferenceIdeal.nD,
          r.2.mem ((c.tc : Thread Cert.ReferenceIdeal.nD Cert.ReferenceIdeal.τ).loc Cert.ReferenceIdeal.main_v424) = lossR gR m c
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)))
    (hpre : ∀ m : MemK, Cert.Pre_KernelIdeal m → ∀ c : Dev Cert.KernelIdeal.nD,
      Fin2 (m ((c.tc : Thread Cert.KernelIdeal.nD Cert.KernelIdeal.τ).loc Cert.KernelIdeal.main_arg0))
      ∧ LayerW.Finite (k := 128) (h := 512) (o := 256) ⟨m ((c.tc : Thread Cert.KernelIdeal.nD Cert.KernelIdeal.τ).loc Cert.KernelIdeal.main_arg6), m ((c.tc : Thread Cert.KernelIdeal.nD Cert.KernelIdeal.τ).loc Cert.KernelIdeal.main_arg7), fun j => m ((c.tc : Thread Cert.KernelIdeal.nD Cert.KernelIdeal.τ).loc Cert.KernelIdeal.main_arg8) (ix1 j), fun j => m ((c.tc : Thread Cert.KernelIdeal.nD Cert.KernelIdeal.τ).loc Cert.KernelIdeal.main_arg9) (ix1 j), fun j => m ((c.tc : Thread Cert.KernelIdeal.nD Cert.KernelIdeal.τ).loc Cert.KernelIdeal.main_arg10) (ix1 j), fun j => m ((c.tc : Thread Cert.KernelIdeal.nD Cert.KernelIdeal.τ).loc Cert.KernelIdeal.main_arg11) (ix1 j)⟩
      ∧ LayerW.Finite (k := 256) (h := 512) (o := 256) ⟨m ((c.tc : Thread Cert.KernelIdeal.nD Cert.KernelIdeal.τ).loc Cert.KernelIdeal.main_arg12), m ((c.tc : Thread Cert.KernelIdeal.nD Cert.KernelIdeal.τ).loc Cert.KernelIdeal.main_arg13), fun j => m ((c.tc : Thread Cert.KernelIdeal.nD Cert.KernelIdeal.τ).loc Cert.KernelIdeal.main_arg14) (ix1 j), fun j => m ((c.tc : Thread Cert.KernelIdeal.nD Cert.KernelIdeal.τ).loc Cert.KernelIdeal.main_arg15) (ix1 j), fun j => m ((c.tc : Thread Cert.KernelIdeal.nD Cert.KernelIdeal.τ).loc Cert.KernelIdeal.main_arg16) (ix1 j), fun j => m ((c.tc : Thread Cert.KernelIdeal.nD Cert.KernelIdeal.τ).loc Cert.KernelIdeal.main_arg17) (ix1 j)⟩
      ∧ LayerW.Finite (k := 256) (h := 512) (o := 128) ⟨m ((c.tc : Thread Cert.KernelIdeal.nD Cert.KernelIdeal.τ).loc Cert.KernelIdeal.main_arg18), m ((c.tc : Thread Cert.KernelIdeal.nD Cert.KernelIdeal.τ).loc Cert.KernelIdeal.main_arg19), fun j => m ((c.tc : Thread Cert.KernelIdeal.nD Cert.KernelIdeal.τ).loc Cert.KernelIdeal.main_arg20) (ix1 j), fun j => m ((c.tc : Thread Cert.KernelIdeal.nD Cert.KernelIdeal.τ).loc Cert.KernelIdeal.main_arg21) (ix1 j), fun j => m ((c.tc : Thread Cert.KernelIdeal.nD Cert.KernelIdeal.τ).loc Cert.KernelIdeal.main_arg22) (ix1 j), fun j => m ((c.tc : Thread Cert.KernelIdeal.nD Cert.KernelIdeal.τ).loc Cert.KernelIdeal.main_arg23) (ix1 j)⟩) :
    Cert.algebraic_KernelIdeal_ReferenceIdeal := by
  intro m ρ m' ρ' hp hagree
  refine ⟨fun c => lossK gK m c, runK m ρ, ?_⟩
  refine (θ_run _ _ _).mono (fun r h c => ⟨(h c).1.trans ?_, (h c).2⟩) (runR m' ρ')
  obtain ⟨a0, a1, a2, a3, a4, a5, a6, a7, a8, a9, a10, a11, a12, a13, a14, a15, a16, a17, a18, a19, a20, a21, a22, a23⟩ := hagree c
  obtain ⟨hx, h0, h1, hd⟩ := hpre m hp c
  subst hg
  show lossR gK m' c = lossK gK m c
  unfold lossR lossK
  rw [a0, a1, a2, a3, a4, a6, a7, a8, a9, a10, a11, a12, a13, a14, a15, a16, a17, a18, a19, a20, a21, a22, a23]
  exact (loss_eq gK hfin _ _ _ h0 h1 hd _ hx _ _ _ _).symm

/-- The precondition makes every float argument finite, in the specification's vocabulary. -/
theorem pre_fin (m : MemK) (hp : Cert.Pre_KernelIdeal m) (c : Dev Cert.KernelIdeal.nD) :
    Fin2 (m ((c.tc : Thread Cert.KernelIdeal.nD Cert.KernelIdeal.τ).loc Cert.KernelIdeal.main_arg0))
      ∧ LayerW.Finite (k := 128) (h := 512) (o := 256) ⟨m ((c.tc : Thread Cert.KernelIdeal.nD Cert.KernelIdeal.τ).loc Cert.KernelIdeal.main_arg6), m ((c.tc : Thread Cert.KernelIdeal.nD Cert.KernelIdeal.τ).loc Cert.KernelIdeal.main_arg7), fun j => m ((c.tc : Thread Cert.KernelIdeal.nD Cert.KernelIdeal.τ).loc Cert.KernelIdeal.main_arg8) (ix1 j), fun j => m ((c.tc : Thread Cert.KernelIdeal.nD Cert.KernelIdeal.τ).loc Cert.KernelIdeal.main_arg9) (ix1 j), fun j => m ((c.tc : Thread Cert.KernelIdeal.nD Cert.KernelIdeal.τ).loc Cert.KernelIdeal.main_arg10) (ix1 j), fun j => m ((c.tc : Thread Cert.KernelIdeal.nD Cert.KernelIdeal.τ).loc Cert.KernelIdeal.main_arg11) (ix1 j)⟩
      ∧ LayerW.Finite (k := 256) (h := 512) (o := 256) ⟨m ((c.tc : Thread Cert.KernelIdeal.nD Cert.KernelIdeal.τ).loc Cert.KernelIdeal.main_arg12), m ((c.tc : Thread Cert.KernelIdeal.nD Cert.KernelIdeal.τ).loc Cert.KernelIdeal.main_arg13), fun j => m ((c.tc : Thread Cert.KernelIdeal.nD Cert.KernelIdeal.τ).loc Cert.KernelIdeal.main_arg14) (ix1 j), fun j => m ((c.tc : Thread Cert.KernelIdeal.nD Cert.KernelIdeal.τ).loc Cert.KernelIdeal.main_arg15) (ix1 j), fun j => m ((c.tc : Thread Cert.KernelIdeal.nD Cert.KernelIdeal.τ).loc Cert.KernelIdeal.main_arg16) (ix1 j), fun j => m ((c.tc : Thread Cert.KernelIdeal.nD Cert.KernelIdeal.τ).loc Cert.KernelIdeal.main_arg17) (ix1 j)⟩
      ∧ LayerW.Finite (k := 256) (h := 512) (o := 128) ⟨m ((c.tc : Thread Cert.KernelIdeal.nD Cert.KernelIdeal.τ).loc Cert.KernelIdeal.main_arg18), m ((c.tc : Thread Cert.KernelIdeal.nD Cert.KernelIdeal.τ).loc Cert.KernelIdeal.main_arg19), fun j => m ((c.tc : Thread Cert.KernelIdeal.nD Cert.KernelIdeal.τ).loc Cert.KernelIdeal.main_arg20) (ix1 j), fun j => m ((c.tc : Thread Cert.KernelIdeal.nD Cert.KernelIdeal.τ).loc Cert.KernelIdeal.main_arg21) (ix1 j), fun j => m ((c.tc : Thread Cert.KernelIdeal.nD Cert.KernelIdeal.τ).loc Cert.KernelIdeal.main_arg22) (ix1 j), fun j => m ((c.tc : Thread Cert.KernelIdeal.nD Cert.KernelIdeal.τ).loc Cert.KernelIdeal.main_arg23) (ix1 j)⟩ := by
  obtain ⟨h0, h6, h7, h8, h9, h10, h11, h12, h13, h14, h15, h16, h17, h18, h19, h20, h21, h22, h23⟩ := Cert.PreFin.spec_of_pre _ _ _ _ _ _ _ _ _ _ _ _ _ _ _ _ _ _ _ _ _ _ _ _ (hp c)
  exact ⟨h0, ⟨h6, h7, h8, h9, h10, h11⟩, ⟨h12, h13, h14, h15, h16, h17⟩, ⟨h18, h19, h20, h21, h22, h23⟩⟩

end Cert.Proof.Final

end
-- ==== Proof.KI.Glue.lean ====
import proofs.«427833_j20194936226511_1_alg».proof.Proof.KI.RegionsP
import proofs.«427833_j20194936226511_1_alg».proof.Proof.Math.Skeleton
import Idealize.ShloMosaic.Lib.StableHlo.Run
import Idealize.ShloMosaic.Lib.ValueIdx

set_option maxRecDepth 8192
set_option pp.maxSteps 20000
set_option pp.deepTerms false

noncomputable section

namespace Cert.KernelIdeal.HandValue

open Cert.KernelIdeal Cert.KernelIdeal.Gen
open Idealize.ShloMosaic Idealize.ShloMosaic.TcCoe Idealize.ShloMosaic.ValueIdx
open Idealize.SL.Sem

/-! ## The host functions of the program, as the literal compositions of its printed operations -/

/-- Scalar constants of the program, by their words. -/
abbrev c0 : FVec Ideal S_ .f32 := constant (F := Ideal) S_ .f32 0x00000000#32

/-- Rows of a masked node are replaced by zero: the mask is broadcast along the feature axis and selects the zero
    matrix where it is set. Width 128. -/
def whereK128 (mask : IVec S50000 1) (x : FVec Ideal S50000x128 .f32) : FVec Ideal S50000x128 .f32 :=
  select (broadcastInDim S50000x128 ![0, 1] bcast_S50000x1_S50000x128_0_1 (broadcastInDim S50000x1 ![0] bcast_S50000_S50000x1_0 mask))
    (broadcastInDim S50000x128 ![] bcast_S_S50000x128 (id c0)) x

/-- The same at width 256. -/
def whereK256 (mask : IVec S50000 1) (x : FVec Ideal S50000x256 .f32) : FVec Ideal S50000x256 .f32 :=
  select (broadcastInDim S50000x256 ![0, 1] bcast_S50000x1_S50000x256_0_1 (broadcastInDim S50000x1 ![0] bcast_S50000_S50000x1_0 mask))
    (broadcastInDim S50000x256 ![] bcast_S_S50000x256 (id c0)) x

/-- The source endpoints of the edges: row 0 of the edge list, as a vector. -/
def edgeSrc (ei : IVec S2x320000 32) : IVec S320000 32 :=
  shapeCast S320000 (extractStridedSlice S1x320000 ![0, 0] ei slices_S2x320000_S1x320000_0_0) shapeCasts_S1x320000_S320000
/-- The target endpoints: row 1. -/
def edgeDst (ei : IVec S2x320000 32) : IVec S320000 32 :=
  shapeCast S320000 (extractStridedSlice S1x320000 ![1, 0] ei slices_S2x320000_S1x320000_1_0) shapeCasts_S1x320000_S320000
/-- A negative source index counts from the end: 50000 is added to it. -/
def edgeSrcWrapped (ei : IVec S2x320000 32) : IVec S320000x1 32 :=
  broadcastInDim S320000x1 ![0] bcast_S320000_S320000x1_0
    (select (cmpi .slt (edgeSrc ei) (broadcastInDim S320000 ![] bcast_S_S320000 (constantI S_ 32 0#32)))
      (addi (edgeSrc ei) (broadcastInDim S320000 ![] bcast_S_S320000 (constantI S_ 32 50000#32))) (edgeSrc ei))

/-- Edge aggregation at width 128: the rows of the sources are gathered and added into the rows of the targets,
    starting from zero. -/
def aggK128 (xn : FVec Ideal S50000x128 .f32) (ei : IVec S2x320000 32) : FVec Ideal S50000x128 .f32 :=
  Host.scatterAdd scatter_S50000x128_S320000x1_S320000x128_1_0_0_1
    (broadcastInDim S50000x128 ![] bcast_S_S50000x128 c0)
    (broadcastInDim S320000x1 ![0] bcast_S320000_S320000x1_0 (edgeDst ei))
    (Host.gather gather_S50000x128_S320000x1_S320000x128_1_0_n_n_0_1_1128 xn (edgeSrcWrapped ei))

/-- The same at width 256. -/
def aggK256 (xn : FVec Ideal S50000x256 .f32) (ei : IVec S2x320000 32) : FVec Ideal S50000x256 .f32 :=
  Host.scatterAdd scatter_S50000x256_S320000x1_S320000x256_1_0_0_1
    (broadcastInDim S50000x256 ![] bcast_S_S50000x256 c0)
    (broadcastInDim S320000x1 ![0] bcast_S320000_S320000x1_0 (edgeDst ei))
    (Host.gather gather_S50000x256_S320000x1_S320000x256_1_0_n_n_0_1_1256 xn (edgeSrcWrapped ei))

/-- The Euclidean norm of every row, as a column. -/
def rowNorm (y : FVec Ideal S50000x128 .f32) : FVec Ideal S50000x1 .f32 :=
  Host.sqrt (broadcastInDim S50000x1 ![0] bcast_S50000_S50000x1_0
    (Host.reduceAdd (mulf y y) c0 reducesTo_S50000x128_S50000_d1 h_S_))
/-- Every row divided by its norm, the norm kept above a small positive constant. -/
def rowUnit (y : FVec Ideal S50000x128 .f32) : FVec Ideal S50000x128 .f32 :=
  Host.divf y (broadcastInDim S50000x128 ![0, 1] bcast_S50000x1_S50000x128_0_1
    (maximumf (rowNorm y) (broadcastInDim S50000x1 ![] bcast_S_S50000x1 (constant (F := Ideal) S_ .f32 0x2B8CBCCC#32))))
/-- One minus the cosine of corresponding rows. -/
def oneMinusCos (a b : FVec Ideal S50000x128 .f32) : FVec Ideal S50000 .f32 :=
  subf (broadcastInDim S50000 ![] bcast_S_S50000 (constant (F := Ideal) S_ .f32 0x3F800000#32))
    (Host.reduceAdd (mulf (rowUnit a) (rowUnit b)) c0 reducesTo_S50000x128_S50000_d1 h_S_)
/-- The mask as weights. -/
def maskW (mask : IVec S50000 1) : FVec Ideal S50000 .f32 := uitofp .f32 mask
/-- The masked mean of one minus the cosine. -/
def maskedLoss (a b : FVec Ideal S50000x128 .f32) (mask : IVec S50000 1) : FVec Ideal S_ .f32 :=
  Host.divf (Host.reduceAdd (mulf (maskW mask) (oneMinusCos a b)) c0 reducesTo_S50000_S_d0 h_S_)
    (Host.reduceAdd (maskW mask) c0 reducesTo_S50000_S_d0 h_S_)
/-- The mean over all rows of one minus the cosine. -/
def meanLoss (a b : FVec Ideal S50000x128 .f32) : FVec Ideal S_ .f32 :=
  Host.divf (Host.reduceAdd (oneMinusCos a b) c0 reducesTo_S50000_S_d0 h_S_) (constant (F := Ideal) S_ .f32 0x47435000#32)
/-- The loss: the two masked reconstruction losses and a tenth of the mean distance between the reconstructions. -/
def tailK (r1 r2 x : FVec Ideal S50000x128 .f32) (m1 m2 : IVec S50000 1) : FVec Ideal S_ .f32 :=
  addf (addf (maskedLoss r1 x m1) (maskedLoss r2 x m2))
    (mulf (constant (F := Ideal) S_ .f32 0x3DCCCCCD#32) (meanLoss r2 r1))

/-- The program's host functions in the shared shape. -/
def glue : Cert.Spec.Glue where
  where128 := whereK128
  where256 := whereK256
  agg128 := aggK128
  agg256 := aggK256
  tail := tailK

end Cert.KernelIdeal.HandValue
end
-- ==== Proof.Math.HostFin.lean ====
/-
  Finiteness through the host operations of an edge aggregation, over the extended reals.

  A scatter with an `add` body writes, at each index, the operand's entry plus a finite sum of update entries; a
  gather's, a broadcast's, a reshaping's, a slice's and a transposition's entries are entries of the operand; a
  selection's entries are entries of one of its two branches; a constant's entries are the value of its word. So each
  maps arrays whose entries are all real numbers to an array whose entries are all real numbers. The statements are
  over arbitrary shapes and arbitrary dimension records.
-/
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Mathlib.Tactic.Choose
import Mathlib.Tactic.SplitIfs

noncomputable section

namespace Cert.HostFin

open Idealize.ShloMosaic

open scoped BigOperators

/-- A finite sum of reals, read in the extended reals, is the real sum. -/
theorem coe_sum {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- A scatter that adds: each entry is the operand's entry plus a finite sum of update entries, so it is real when
    the operand's and the updates' entries are. -/
theorem hostScatterAdd_fin {s si su : Shape} (d : ScatterDims s si su) {w : Nat} (x : s.Idx → EReal)
    (idx : IVec si w) (upd : su.Idx → EReal) (hx : ∀ i, ∃ r : ℝ, x i = (r : EReal))
    (hu : ∀ j, ∃ r : ℝ, upd j = (r : EReal)) :
    ∀ i, ∃ r : ℝ, Ideal.hostScatterAdd d x idx upd i = (r : EReal) := by
  choose fx hfx using hx
  choose fu hfu using hu
  intro i
  unfold Ideal.hostScatterAdd
  simp only [hfx, hfu, coe_sum, ← EReal.coe_add]
  exact ⟨_, rfl⟩

/-- A gather: each entry is an entry of the operand (the start indices are clamped into the operand, so no fill
    value arises), so it is real when the operand's entries are. -/
theorem gather_fin {s si t : Shape} {w : Nat} (d : GatherDims s si t) (x : s.Idx → EReal) (idx : IVec si w)
    (hx : ∀ i, ∃ r : ℝ, x i = (r : EReal)) :
    ∀ j, ∃ r : ℝ, Host.gather d x idx j = (r : EReal) :=
  fun j => hx (d.operandIdx j idx)

/-- A gather of any values is, entry by entry, the operand at the gathered index. -/
theorem gather_apply {α : Type} {s si t : Shape} {w : Nat} (d : GatherDims s si t) (x : s.Idx → α) (idx : IVec si w)
    (j : t.Idx) : Host.gather d x idx j = x (d.operandIdx j idx) := rfl

/-- A selection, lane by lane: each entry is an entry of one of the two branches, so it is real when both
    branches' entries are. -/
theorem select_fin {s : Shape} (c : IVec s 1) (a b : s.Idx → EReal) (ha : ∀ i, ∃ r : ℝ, a i = (r : EReal))
    (hb : ∀ i, ∃ r : ℝ, b i = (r : EReal)) :
    ∀ i, ∃ r : ℝ, select c a b i = (r : EReal) := by
  intro i
  unfold select Scalar.select
  split_ifs
  · exact ha i
  · exact hb i

/-- A selection between whole arrays on one condition. -/
theorem scalar_select_fin {s : Shape} (c : BitVec 1) (a b : s.Idx → EReal) (ha : ∀ i, ∃ r : ℝ, a i = (r : EReal))
    (hb : ∀ i, ∃ r : ℝ, b i = (r : EReal)) :
    ∀ i, ∃ r : ℝ, Scalar.select c a b i = (r : EReal) := by
  intro i
  unfold Scalar.select
  split_ifs
  · exact ha i
  · exact hb i

/-- A broadcast along given axes: each entry is an entry of the operand. -/
theorem broadcastInDim_fin {s : Shape} (t : Shape) (dims : Fin s.rank → Fin t.rank) (h : s.BroadcastsInDim t dims)
    (x : s.Idx → EReal) (hx : ∀ i, ∃ r : ℝ, x i = (r : EReal)) :
    ∀ j, ∃ r : ℝ, broadcastInDim t dims h x j = (r : EReal) :=
  fun _ => hx _

/-- A broadcast of one value: each entry is that value. -/
theorem broadcast_fin (t : Shape) (x : EReal) (hx : ∃ r : ℝ, x = (r : EReal)) :
    ∀ j, ∃ r : ℝ, broadcast t x j = (r : EReal) :=
  fun _ => hx

/-- The same entries under another shape: each entry is an entry of the operand. -/
theorem shapeCast_fin {s : Shape} (t : Shape) (x : s.Idx → EReal) (h : s.ShapeCasts t)
    (hx : ∀ i, ∃ r : ℝ, x i = (r : EReal)) :
    ∀ j, ∃ r : ℝ, shapeCast t x h j = (r : EReal) :=
  fun _ => hx _

/-- A block cut out of an array: each entry is an entry of the operand. -/
theorem extractStridedSlice_fin {s : Shape} (t : Shape) (off : Fin s.rank → Nat) (x : s.Idx → EReal)
    (h : s.Slices off t) (hx : ∀ i, ∃ r : ℝ, x i = (r : EReal)) :
    ∀ j, ∃ r : ℝ, extractStridedSlice t off x h j = (r : EReal) :=
  fun _ => hx _

/-- A transposition: each entry is an entry of the operand. -/
theorem transpose_fin {s : Shape} (t : Shape) (perm : List (Fin s.rank)) (x : s.Idx → EReal)
    (h : s.Transposes perm t) (hx : ∀ i, ∃ r : ℝ, x i = (r : EReal)) :
    ∀ j, ∃ r : ℝ, transpose t perm x h j = (r : EReal) :=
  fun _ => hx _

/-- A constant array: every entry is the value its word denotes. -/
theorem constant_apply (s : Shape) (φ : FTy) (b : BitVec φ.bits) (i : s.Idx) :
    constant (F := Ideal) s φ b i = Ideal.ofBits φ b := rfl

/-- A constant array of a word that denotes a real number has every entry real. -/
theorem constant_fin (s : Shape) (φ : FTy) (b : BitVec φ.bits) (hb : ∃ r : ℝ, Ideal.ofBits φ b = (r : EReal)) :
    ∀ i, ∃ r : ℝ, constant (F := Ideal) s φ b i = (r : EReal) :=
  fun _ => hb

/-- The constant array of the zero word has every entry `0`. -/
theorem constant_zero_apply (s : Shape) (i : s.Idx) : constant (F := Ideal) s .f32 0x00000000#32 i = 0 := by
  rw [constant_apply, Ideal.ofBits_zero_f32]

/-- The constant array of the zero word has every entry real. -/
theorem constant_zero_fin (s : Shape) : ∀ i, ∃ r : ℝ, constant (F := Ideal) s .f32 0x00000000#32 i = (r : EReal) :=
  fun i => ⟨0, by rw [constant_zero_apply, EReal.coe_zero]⟩

/-- The host's scatter with an `add` body over the extended reals is the exact sum: each entry is the operand's
    entry plus a finite sum of update entries. -/
theorem host_scatterAdd_eq {s si su : Shape} {φ : FTy} {w : Nat} (d : ScatterDims s si su) (x : FVec Ideal s φ)
    (idx : IVec si w) (upd : FVec Ideal su φ) :
    Host.scatterAdd d x idx upd = Ideal.hostScatterAdd d x idx upd := rfl

/-- The host's scatter with an `add` body keeps every entry real. -/
theorem host_scatterAdd_fin {s si su : Shape} {φ : FTy} {w : Nat} (d : ScatterDims s si su) (x : FVec Ideal s φ)
    (idx : IVec si w) (upd : FVec Ideal su φ) (hx : ∀ i, ∃ r : ℝ, x i = (r : EReal))
    (hu : ∀ j, ∃ r : ℝ, upd j = (r : EReal)) :
    ∀ i, ∃ r : ℝ, Host.scatterAdd d x idx upd i = (r : EReal) :=
  hostScatterAdd_fin d x idx upd hx hu

end Cert.HostFin

end
-- ==== Proof.KI.GlueFin.lean ====
/-
  The host functions of the kernel program keep finiteness.

  Masking replaces the rows of masked nodes by zero: every entry of the result is either `0` or an entry of the
  input. Edge aggregation gathers rows of the input and adds them, starting from zero, into the rows of the targets:
  every entry of the result is `0` plus a finite sum of entries of the input. So both map a matrix whose entries are
  all real numbers to a matrix whose entries are all real numbers, whatever the mask and the edge list are.
-/
import proofs.«427833_j20194936226511_1_alg».proof.Proof.KI.Glue
import proofs.«427833_j20194936226511_1_alg».proof.Proof.Math.HostFin
import proofs.«427833_j20194936226511_1_alg».proof.Proof.Math.Skeleton
import Idealize.ShloMosaic.Lib.ValueIdx

noncomputable section

namespace Cert.KernelIdeal.HandValue

open Cert.KernelIdeal Cert.KernelIdeal.Gen
open Idealize.ShloMosaic Idealize.ShloMosaic.ValueIdx

namespace GlueFin

/-- Entry by entry over the two coordinates, or index by index: the same statement. -/
theorem all_of_fin2 {a b : ℕ} {x : Cert.Spec.Mx a b} (h : Cert.Spec.Fin2 x) : ∀ i, ∃ r : ℝ, x i = (r : EReal) := fun i => by
  obtain ⟨r, hr⟩ := h (i 0) (i 1)
  exact ⟨r, (congrArg x (ValueIdx.eq_ix2 i)).trans hr⟩

theorem fin2_of_all {a b : ℕ} {x : Cert.Spec.Mx a b} (h : ∀ i, ∃ r : ℝ, x i = (r : EReal)) : Cert.Spec.Fin2 x :=
  fun i j => h (ValueIdx.ix2 i j)

/-- Masking: a selection between the zero constant, broadcast, and an array of reals has real entries. -/
theorem where_fin {s : Shape} (c : IVec s 1) (hb : (⟨0, ![]⟩ : Shape).BroadcastsInDim s (![] : Fin 0 → Fin s.rank))
    (x : s.Idx → EReal) (hx : ∀ i, ∃ r : ℝ, x i = (r : EReal)) :
    ∀ i, ∃ r : ℝ, select c (broadcastInDim s ![] hb (constant (F := Ideal) ⟨0, ![]⟩ .f32 0x00000000#32)) x i = (r : EReal) :=
  Cert.HostFin.select_fin c _ x (Cert.HostFin.broadcastInDim_fin s _ hb _ (Cert.HostFin.constant_zero_fin _)) hx

/-- Aggregation: a scatter that adds, into zeros, rows gathered from an array of reals has real entries. -/
theorem agg_fin {s si sj su : Shape} {w w' : Nat} (d : ScatterDims s si su) (g : GatherDims s sj su)
    (hb : (⟨0, ![]⟩ : Shape).BroadcastsInDim s (![] : Fin 0 → Fin s.rank))
    (x : FVec Ideal s .f32) (src : IVec sj w') (dst : IVec si w) (hx : ∀ i, ∃ r : ℝ, x i = (r : EReal)) :
    ∀ i, ∃ r : ℝ, Host.scatterAdd d (broadcastInDim s ![] hb (constant (F := Ideal) ⟨0, ![]⟩ .f32 0x00000000#32)) dst
      (Host.gather g x src) i = (r : EReal) :=
  Cert.HostFin.host_scatterAdd_fin d _ dst _
    (Cert.HostFin.broadcastInDim_fin s _ hb _ (Cert.HostFin.constant_zero_fin _)) (Cert.HostFin.gather_fin g x src hx)

end GlueFin

/-- Masking and aggregation, as the program's host operations compute them, keep every entry a real number. -/
theorem glue_fin : glue.Finite where
  where128 := fun m x hx => GlueFin.fin2_of_all (GlueFin.where_fin _ bcast_S_S50000x128 x (GlueFin.all_of_fin2 hx))
  where256 := fun m x hx => GlueFin.fin2_of_all (GlueFin.where_fin _ bcast_S_S50000x256 x (GlueFin.all_of_fin2 hx))
  agg128 := fun x e hx => GlueFin.fin2_of_all
    (GlueFin.agg_fin scatter_S50000x128_S320000x1_S320000x128_1_0_0_1 gather_S50000x128_S320000x1_S320000x128_1_0_n_n_0_1_1128
      bcast_S_S50000x128 x _ _ (GlueFin.all_of_fin2 hx))
  agg256 := fun x e hx => GlueFin.fin2_of_all
    (GlueFin.agg_fin scatter_S50000x256_S320000x1_S320000x256_1_0_0_1 gather_S50000x256_S320000x1_S320000x256_1_0_n_n_0_1_1256
      bcast_S_S50000x256 x _ _ (GlueFin.all_of_fin2 hx))

end Cert.KernelIdeal.HandValue

end
-- ==== Proof.KI.ChainGlue.lean ====
/-
  The three layers' parameters as read off the argument arrays (a `[h]` array gives the row `j ↦` its entry at `j`),
  and the loss they give over the kernel's layer and the program's host functions.
-/
import proofs.«427833_j20194936226511_1_alg».proof.Proof.KI.RegionsP
import proofs.«427833_j20194936226511_1_alg».proof.Proof.KI.Glue
import proofs.«427833_j20194936226511_1_alg».proof.Proof.Math.Skeleton
import Idealize.ShloMosaic.Lib.ValueIdx

set_option maxRecDepth 8192

noncomputable section

namespace Cert.KernelIdeal.HandValue

open Cert.KernelIdeal Cert.KernelIdeal.Gen
open Idealize.ShloMosaic Idealize.ShloMosaic.TcCoe Idealize.ShloMosaic.ValueIdx
open Idealize.SL.Sem

/-! ## The arguments -/

variable (m : (ℓ : Loc nD τ sig) → Buf (Elt Ideal) ℓ) (outs : Outs (F := Ideal)) (c : Dev nD)

/-- The three layers' parameters, read off the argument arrays. -/
def e0W : Cert.Spec.LayerW 128 512 256 :=
  ⟨m ((c : Thread nD τ).loc main_arg6), m ((c : Thread nD τ).loc main_arg7),
   fun j => m ((c : Thread nD τ).loc main_arg8) (ix1 j), fun j => m ((c : Thread nD τ).loc main_arg9) (ix1 j),
   fun j => m ((c : Thread nD τ).loc main_arg10) (ix1 j), fun j => m ((c : Thread nD τ).loc main_arg11) (ix1 j)⟩
def e1W : Cert.Spec.LayerW 256 512 256 :=
  ⟨m ((c : Thread nD τ).loc main_arg12), m ((c : Thread nD τ).loc main_arg13),
   fun j => m ((c : Thread nD τ).loc main_arg14) (ix1 j), fun j => m ((c : Thread nD τ).loc main_arg15) (ix1 j),
   fun j => m ((c : Thread nD τ).loc main_arg16) (ix1 j), fun j => m ((c : Thread nD τ).loc main_arg17) (ix1 j)⟩
def dW : Cert.Spec.LayerW 256 512 128 :=
  ⟨m ((c : Thread nD τ).loc main_arg18), m ((c : Thread nD τ).loc main_arg19),
   fun j => m ((c : Thread nD τ).loc main_arg20) (ix1 j), fun j => m ((c : Thread nD τ).loc main_arg21) (ix1 j),
   fun j => m ((c : Thread nD τ).loc main_arg22) (ix1 j), fun j => m ((c : Thread nD τ).loc main_arg23) (ix1 j)⟩

/-- The loss over the kernel's layers. -/
def lossK : Cert.Spec.Scal :=
  Cert.Spec.loss (fun {k h o} => @Cert.Spec.layerK 50000 k h o) glue (e0W m c) (e1W m c) (dW m c)
    (m ((c : Thread nD τ).loc main_arg0)) (m ((c : Thread nD τ).loc main_arg1)) (m ((c : Thread nD τ).loc main_arg2))
    (m ((c : Thread nD τ).loc main_arg3)) (m ((c : Thread nD τ).loc main_arg4))

end Cert.KernelIdeal.HandValue

end
-- ==== Proof.KI.ChainBase.lean ====
/-
  What the eighteen kernel regions are assumed to leave (three stages per layer), the composition of three stages
  and the statistics between them into the kernel's layer, and two tools for reading the run's valuations: carrying
  a buffer back across the items that do not write it, and the narrow-type copies of the weights, which over the
  extended reals are the weights themselves.
-/
import proofs.«427833_j20194936226511_1_alg».proof.Proof.KI.RegionsP
import proofs.«427833_j20194936226511_1_alg».proof.Proof.KI.Glue
import proofs.«427833_j20194936226511_1_alg».proof.Proof.Spec
import Idealize.ShloMosaic.Lib.StableHlo.Run
import Idealize.ShloMosaic.Lib.ValueIdx
import Idealize.ShloMosaic.Lib.ValueLayout

set_option maxRecDepth 8192

noncomputable section

namespace Cert.KernelIdeal.HandValue

open Cert.KernelIdeal Cert.KernelIdeal.Gen
open Idealize.ShloMosaic Idealize.ShloMosaic.TcCoe Idealize.ShloMosaic.ValueIdx
open Idealize.SL.Sem

open Cert.Spec in
/-- A row `[1, b]` read as a function of the column. -/
def rowOf {b : ℕ} (r : Cert.Spec.Mx 1 b) : Fin b → EReal := fun j => r (ix2 0 j)

open Cert.Spec in
/-- What a first-stage region leaves: the product of the summed input with the weights, and in a row of twice the
    width the column sums of that product and of its squares. -/
structure Stage1 {n k h h2 : ℕ} (x a : Mx n k) (w : Mx k h) (z : Mx n h) (st : Mx 1 h2) : Prop where
  val : z = mm (add2 x a) w
  sum : ∀ (j : Fin h) (i : Fin h2), i.val = j.val → st (ix2 0 i) = colSum z j
  sq : ∀ (j : Fin h) (i : Fin h2), i.val = h + j.val → st (ix2 0 i) = colSumSq z j

open Cert.Spec in
/-- What a second-stage region leaves: the normalised, rectified input times the weights, and its statistics row. -/
structure Stage2 {n h o o2 : ℕ} (z1 : Mx n h) (mu var g b : Mx 1 h) (w : Mx h o) (z : Mx n o) (st : Mx 1 o2) : Prop where
  val : z = mm (bnRelu z1 (rowOf mu) (rowOf var) (rowOf g) (rowOf b)) w
  sum : ∀ (j : Fin o) (i : Fin o2), i.val = j.val → st (ix2 0 i) = colSum z j
  sq : ∀ (j : Fin o) (i : Fin o2), i.val = o + j.val → st (ix2 0 i) = colSumSq z j

open Cert.Spec in
/-- What a third-stage region leaves: the normalised, rectified input. -/
def Stage3 {n o : ℕ} (z : Mx n o) (mu var g b : Mx 1 o) (out : Mx n o) : Prop :=
  out = bnRelu z (rowOf mu) (rowOf var) (rowOf g) (rowOf b)

open Cert.Spec in
/-- The three stages with the statistics between them compose to the kernel's layer. -/
theorem layerK_of_stages {n k h o : ℕ} {x a : Mx n k} {w1 : Mx k h} {w2 : Mx h o} {bg bb : Fin h → EReal} {ng nb : Fin o → EReal}
    {z1 : Mx n h} {mu1 var1 g1 b1 : Fin h → EReal} {z2 : Mx n o} {mu2 var2 g2 b2 : Fin o → EReal} {out : Mx n o}
    (hz1 : z1 = mm (add2 x a) w1) (hmu1 : mu1 = mean z1) (hvar1 : var1 = varK z1) (hg1 : g1 = bg) (hb1 : b1 = bb)
    (hz2 : z2 = mm (bnRelu z1 mu1 var1 g1 b1) w2) (hmu2 : mu2 = mean z2) (hvar2 : var2 = varK z2) (hg2 : g2 = ng) (hb2 : b2 = nb)
    (hout : out = bnRelu z2 mu2 var2 g2 b2) : out = layerK (add2 x a) w1 w2 bg bb ng nb := by
  subst hout hmu2 hvar2 hg2 hb2 hz2 hmu1 hvar1 hg1 hb1 hz1
  rfl

/-- Rewrites a buffer's contents at one valuation to its contents at the last earlier valuation whose item wrote
    it: every item between leaves it alone. -/
macro "carry" : tactic => `(tactic| repeat (first
    | (rw [V57_of]; rotate_left; decide)
    | (rw [V56_of]; rotate_left; decide)
    | (rw [V55_of]; rotate_left; decide)
    | (rw [V54_of]; rotate_left; decide)
    | (rw [V53_of]; rotate_left; decide)
    | (rw [V52_of]; rotate_left; decide)
    | (rw [V51_of]; rotate_left; decide)
    | (rw [V50_of]; rotate_left; decide)
    | (rw [V49_of]; rotate_left; decide)
    | (rw [V48_of]; rotate_left; decide)
    | (rw [V47_of]; rotate_left; decide)
    | (rw [V46_of]; rotate_left; decide)
    | (rw [V45_of]; rotate_left; decide)
    | (rw [V44_of]; rotate_left; decide)
    | (rw [V43_of]; rotate_left; decide)
    | (rw [V42_of]; rotate_left; decide)
    | (rw [V41_of]; rotate_left; decide)
    | (rw [V40_of]; rotate_left; decide)
    | (rw [V39_of]; rotate_left; decide)
    | (rw [V38_of]; rotate_left; decide)
    | (rw [V37_of]; rotate_left; decide)
    | (rw [V36_of]; rotate_left; decide)
    | (rw [V35_of]; rotate_left; decide)
    | (rw [V34_of]; rotate_left; decide)
    | (rw [V33_of]; rotate_left; decide)
    | (rw [V32_of]; rotate_left; decide)
    | (rw [V31_of]; rotate_left; decide)
    | (rw [V30_of]; rotate_left; decide)
    | (rw [V29_of]; rotate_left; decide)
    | (rw [V28_of]; rotate_left; decide)
    | (rw [V27_of]; rotate_left; decide)
    | (rw [V26_of]; rotate_left; decide)
    | (rw [V25_of]; rotate_left; decide)
    | (rw [V24_of]; rotate_left; decide)
    | (rw [V23_of]; rotate_left; decide)
    | (rw [V22_of]; rotate_left; decide)
    | (rw [V21_of]; rotate_left; decide)
    | (rw [V20_of]; rotate_left; decide)
    | (rw [V19_of]; rotate_left; decide)
    | (rw [V18_of]; rotate_left; decide)
    | (rw [V17_of]; rotate_left; decide)
    | (rw [V16_of]; rotate_left; decide)
    | (rw [V15_of]; rotate_left; decide)
    | (rw [V14_of]; rotate_left; decide)
    | (rw [V13_of]; rotate_left; decide)
    | (rw [V12_of]; rotate_left; decide)
    | (rw [V11_of]; rotate_left; decide)
    | (rw [V10_of]; rotate_left; decide)
    | (rw [V9_of]; rotate_left; decide)
    | (rw [V8_of]; rotate_left; decide)
    | (rw [V7_of]; rotate_left; decide)
    | (rw [V6_of]; rotate_left; decide)
    | (rw [V5_of]; rotate_left; decide)
    | (rw [V4_of]; rotate_left; decide)
    | (rw [V3_of]; rotate_left; decide)
    | (rw [V2_of]; rotate_left; decide)
    | (rw [V1_of]; rotate_left; decide)))

/-- The weights rounded to the narrow type are the weights themselves over the extended reals. -/
theorem hostOps0_main_v0 (V : Valuation τ sig (Elt Ideal)) :
    (StableHlo.after (hostOps0 (F := Ideal)) V (Proc.devRef .tc main_v0) : Cert.Spec.Mx 128 512) = V (Proc.devRef .tc main_arg6) := by
  after_results <;> rfl

/-- The weights rounded to the narrow type are the weights themselves over the extended reals. -/
theorem hostOps0_main_v1 (V : Valuation τ sig (Elt Ideal)) :
    (StableHlo.after (hostOps0 (F := Ideal)) V (Proc.devRef .tc main_v1) : Cert.Spec.Mx 512 256) = V (Proc.devRef .tc main_arg7) := by
  after_results <;> rfl

/-- The weights rounded to the narrow type are the weights themselves over the extended reals. -/
theorem hostOps0_main_v2 (V : Valuation τ sig (Elt Ideal)) :
    (StableHlo.after (hostOps0 (F := Ideal)) V (Proc.devRef .tc main_v2) : Cert.Spec.Mx 256 512) = V (Proc.devRef .tc main_arg12) := by
  after_results <;> rfl

/-- The weights rounded to the narrow type are the weights themselves over the extended reals. -/
theorem hostOps0_main_v3 (V : Valuation τ sig (Elt Ideal)) :
    (StableHlo.after (hostOps0 (F := Ideal)) V (Proc.devRef .tc main_v3) : Cert.Spec.Mx 512 256) = V (Proc.devRef .tc main_arg13) := by
  after_results <;> rfl

/-- The weights rounded to the narrow type are the weights themselves over the extended reals. -/
theorem hostOps0_main_v4 (V : Valuation τ sig (Elt Ideal)) :
    (StableHlo.after (hostOps0 (F := Ideal)) V (Proc.devRef .tc main_v4) : Cert.Spec.Mx 256 512) = V (Proc.devRef .tc main_arg18) := by
  after_results <;> rfl

/-- The weights rounded to the narrow type are the weights themselves over the extended reals. -/
theorem hostOps0_main_v5 (V : Valuation τ sig (Elt Ideal)) :
    (StableHlo.after (hostOps0 (F := Ideal)) V (Proc.devRef .tc main_v5) : Cert.Spec.Mx 512 128) = V (Proc.devRef .tc main_arg19) := by
  after_results <;> rfl

end Cert.KernelIdeal.HandValue

end
-- ==== Proof.KI.ChainL0.lean ====
/-
  Layer 0 of the first pass (kernel regions 0, 1, 2). Its aggregation stretch leaves the edge aggregate of the
  input; after each of the first two stages a host stretch turns the statistics row (column sums, column sums of
  squares) into the mean row and the variance row, the variance as the mean of squares less the squared mean, cut
  off at zero, and puts a unit axis in front of the gain and the bias. With what the three regions are assumed to
  leave, the third stage's output is the kernel's layer of the input plus its edge aggregate.
-/
import proofs.«427833_j20194936226511_1_alg».proof.Proof.KI.ChainBase

set_option maxRecDepth 8192

noncomputable section

namespace Cert.KernelIdeal.HandValue

open Cert.KernelIdeal Cert.KernelIdeal.Gen
open Idealize.ShloMosaic Idealize.ShloMosaic.TcCoe Idealize.ShloMosaic.ValueIdx
open Idealize.SL.Sem

section Agg

set_option maxHeartbeats 1000000 in
/-- The aggregation stretch `hostOps0_2` leaves the edge aggregate of its input. -/
theorem hostOps0_2_agg (V : Valuation τ sig (Elt Ideal)) :
    (StableHlo.after (hostOps0_2 (F := Ideal)) V (Proc.devRef .tc main_v21) : Cert.Spec.Mx 50000 128)
      = aggK128 (V (Proc.devRef .tc main_v7)) (V (Proc.devRef .tc main_arg1)) := by
  after_results <;> rfl

end Agg

section Stats1

set_option maxHeartbeats 1000000 in
/-- The statistics stretch `hostOps1`: the mean row is the column sums over the number of rows. -/
theorem hostOps1_mean (V : Valuation τ sig (Elt Ideal)) (Z : Cert.Spec.Mx 50000 512)
    (hs : ∀ (j : Fin 512) (i : Fin 1024), i.val = j.val → (V (Proc.devRef .tc main_v22_1) : Cert.Spec.Mx 1 1024) (ix2 0 i) = Cert.Spec.colSum Z j) :
    rowOf (StableHlo.after (hostOps1 (F := Ideal)) V (Proc.devRef .tc main_v25) : Cert.Spec.Mx 1 512) = Cert.Spec.mean Z := by
  have e : (StableHlo.after (hostOps1 (F := Ideal)) V (Proc.devRef .tc main_v25) : Cert.Spec.Mx 1 512)
      = Host.divf (extractStridedSlice S1x512 ![0, 0] (V (Proc.devRef .tc main_v22_1)) slices_S1x1024_S1x512_0_0)
          (broadcastInDim S1x512 ![] bcast_S_S1x512 (constant (F := Ideal) S_ .f32 0x47435000#32)) := by
    after_results <;> rfl
  funext j
  unfold rowOf Cert.Spec.mean
  rw [e]
  show Ideal.div (extractStridedSlice S1x512 ![0, 0] (V (Proc.devRef .tc main_v22_1)) slices_S1x1024_S1x512_0_0 (ix2 0 j)) _ = _
  rw [slice2_axis1_apply 0 _ slices_S1x1024_S1x512_0_0 0 j ⟨j.val, by omega⟩ (Nat.zero_add _).symm, hs j _ rfl]
  rfl

set_option maxHeartbeats 1000000 in
/-- The variance row: the mean of squares less the squared mean, cut off at zero. -/
theorem hostOps1_var (V : Valuation τ sig (Elt Ideal)) (Z : Cert.Spec.Mx 50000 512)
    (hs : ∀ (j : Fin 512) (i : Fin 1024), i.val = j.val → (V (Proc.devRef .tc main_v22_1) : Cert.Spec.Mx 1 1024) (ix2 0 i) = Cert.Spec.colSum Z j)
    (hq : ∀ (j : Fin 512) (i : Fin 1024), i.val = 512 + j.val → (V (Proc.devRef .tc main_v22_1) : Cert.Spec.Mx 1 1024) (ix2 0 i) = Cert.Spec.colSumSq Z j) :
    rowOf (StableHlo.after (hostOps1 (F := Ideal)) V (Proc.devRef .tc main_v32) : Cert.Spec.Mx 1 512) = Cert.Spec.varK Z := by
  have e : (StableHlo.after (hostOps1 (F := Ideal)) V (Proc.devRef .tc main_v32) : Cert.Spec.Mx 1 512)
      = maximumf (subf
          (Host.divf (extractStridedSlice S1x512 ![0, 512] (V (Proc.devRef .tc main_v22_1)) slices_S1x1024_S1x512_0_512)
            (broadcastInDim S1x512 ![] bcast_S_S1x512 (constant (F := Ideal) S_ .f32 0x47435000#32)))
          (mulf
            (Host.divf (extractStridedSlice S1x512 ![0, 0] (V (Proc.devRef .tc main_v22_1)) slices_S1x1024_S1x512_0_0)
              (broadcastInDim S1x512 ![] bcast_S_S1x512 (constant (F := Ideal) S_ .f32 0x47435000#32)))
            (Host.divf (extractStridedSlice S1x512 ![0, 0] (V (Proc.devRef .tc main_v22_1)) slices_S1x1024_S1x512_0_0)
              (broadcastInDim S1x512 ![] bcast_S_S1x512 (constant (F := Ideal) S_ .f32 0x47435000#32)))))
          (broadcastInDim S1x512 ![] bcast_S_S1x512 (constant (F := Ideal) S_ .f32 0x00000000#32)) := by
    after_results <;> rfl
  funext j
  unfold rowOf Cert.Spec.varK Cert.Spec.mean
  rw [e]
  show max (Ideal.div (extractStridedSlice S1x512 ![0, 512] (V (Proc.devRef .tc main_v22_1)) slices_S1x1024_S1x512_0_512 (ix2 0 j)) _
      - Ideal.div (extractStridedSlice S1x512 ![0, 0] (V (Proc.devRef .tc main_v22_1)) slices_S1x1024_S1x512_0_0 (ix2 0 j)) _
        * Ideal.div (extractStridedSlice S1x512 ![0, 0] (V (Proc.devRef .tc main_v22_1)) slices_S1x1024_S1x512_0_0 (ix2 0 j)) _) _ = _
  rw [slice2_axis1_apply 512 _ slices_S1x1024_S1x512_0_512 0 j ⟨512 + j.val, by omega⟩ rfl,
    slice2_axis1_apply 0 _ slices_S1x1024_S1x512_0_0 0 j ⟨j.val, by omega⟩ (Nat.zero_add _).symm, hq j _ rfl, hs j _ rfl]
  rfl

set_option maxHeartbeats 1000000 in
/-- The gain and bias rows are the `[512]` arguments with a unit axis put in front. -/
theorem hostOps1_gain (V : Valuation τ sig (Elt Ideal)) :
    rowOf (StableHlo.after (hostOps1 (F := Ideal)) V (Proc.devRef .tc main_v33) : Cert.Spec.Mx 1 512)
      = fun j => (V (Proc.devRef .tc main_arg8) : (⟨1, ![512]⟩ : Shape).Idx → EReal) (ix1 j) := by
  have e : (StableHlo.after (hostOps1 (F := Ideal)) V (Proc.devRef .tc main_v33) : Cert.Spec.Mx 1 512)
      = shapeCast S1x512 (V (Proc.devRef .tc main_arg8)) shapeCasts_S512_S1x512 := by
    after_results <;> rfl
  funext j
  unfold rowOf
  rw [e]
  exact shapeCast_a_1a_apply _ _ 0 j
set_option maxHeartbeats 1000000 in
/-- The bias row likewise. -/
theorem hostOps1_bias (V : Valuation τ sig (Elt Ideal)) :
    rowOf (StableHlo.after (hostOps1 (F := Ideal)) V (Proc.devRef .tc main_v34) : Cert.Spec.Mx 1 512)
      = fun j => (V (Proc.devRef .tc main_arg9) : (⟨1, ![512]⟩ : Shape).Idx → EReal) (ix1 j) := by
  have e : (StableHlo.after (hostOps1 (F := Ideal)) V (Proc.devRef .tc main_v34) : Cert.Spec.Mx 1 512)
      = shapeCast S1x512 (V (Proc.devRef .tc main_arg9)) shapeCasts_S512_S1x512 := by
    after_results <;> rfl
  funext j
  unfold rowOf
  rw [e]
  exact shapeCast_a_1a_apply _ _ 0 j

end Stats1

section Stats2

set_option maxHeartbeats 1000000 in
/-- The statistics stretch `hostOps2`: the mean row is the column sums over the number of rows. -/
theorem hostOps2_mean (V : Valuation τ sig (Elt Ideal)) (Z : Cert.Spec.Mx 50000 256)
    (hs : ∀ (j : Fin 256) (i : Fin 512), i.val = j.val → (V (Proc.devRef .tc main_v35_1) : Cert.Spec.Mx 1 512) (ix2 0 i) = Cert.Spec.colSum Z j) :
    rowOf (StableHlo.after (hostOps2 (F := Ideal)) V (Proc.devRef .tc main_v38) : Cert.Spec.Mx 1 256) = Cert.Spec.mean Z := by
  have e : (StableHlo.after (hostOps2 (F := Ideal)) V (Proc.devRef .tc main_v38) : Cert.Spec.Mx 1 256)
      = Host.divf (extractStridedSlice S1x256 ![0, 0] (V (Proc.devRef .tc main_v35_1)) slices_S1x512_S1x256_0_0)
          (broadcastInDim S1x256 ![] bcast_S_S1x256 (constant (F := Ideal) S_ .f32 0x47435000#32)) := by
    after_results <;> rfl
  funext j
  unfold rowOf Cert.Spec.mean
  rw [e]
  show Ideal.div (extractStridedSlice S1x256 ![0, 0] (V (Proc.devRef .tc main_v35_1)) slices_S1x512_S1x256_0_0 (ix2 0 j)) _ = _
  rw [slice2_axis1_apply 0 _ slices_S1x512_S1x256_0_0 0 j ⟨j.val, by omega⟩ (Nat.zero_add _).symm, hs j _ rfl]
  rfl

set_option maxHeartbeats 1000000 in
/-- The variance row: the mean of squares less the squared mean, cut off at zero. -/
theorem hostOps2_var (V : Valuation τ sig (Elt Ideal)) (Z : Cert.Spec.Mx 50000 256)
    (hs : ∀ (j : Fin 256) (i : Fin 512), i.val = j.val → (V (Proc.devRef .tc main_v35_1) : Cert.Spec.Mx 1 512) (ix2 0 i) = Cert.Spec.colSum Z j)
    (hq : ∀ (j : Fin 256) (i : Fin 512), i.val = 256 + j.val → (V (Proc.devRef .tc main_v35_1) : Cert.Spec.Mx 1 512) (ix2 0 i) = Cert.Spec.colSumSq Z j) :
    rowOf (StableHlo.after (hostOps2 (F := Ideal)) V (Proc.devRef .tc main_v45) : Cert.Spec.Mx 1 256) = Cert.Spec.varK Z := by
  have e : (StableHlo.after (hostOps2 (F := Ideal)) V (Proc.devRef .tc main_v45) : Cert.Spec.Mx 1 256)
      = maximumf (subf
          (Host.divf (extractStridedSlice S1x256 ![0, 256] (V (Proc.devRef .tc main_v35_1)) slices_S1x512_S1x256_0_256)
            (broadcastInDim S1x256 ![] bcast_S_S1x256 (constant (F := Ideal) S_ .f32 0x47435000#32)))
          (mulf
            (Host.divf (extractStridedSlice S1x256 ![0, 0] (V (Proc.devRef .tc main_v35_1)) slices_S1x512_S1x256_0_0)
              (broadcastInDim S1x256 ![] bcast_S_S1x256 (constant (F := Ideal) S_ .f32 0x47435000#32)))
            (Host.divf (extractStridedSlice S1x256 ![0, 0] (V (Proc.devRef .tc main_v35_1)) slices_S1x512_S1x256_0_0)
              (broadcastInDim S1x256 ![] bcast_S_S1x256 (constant (F := Ideal) S_ .f32 0x47435000#32)))))
          (broadcastInDim S1x256 ![] bcast_S_S1x256 (constant (F := Ideal) S_ .f32 0x00000000#32)) := by
    after_results <;> rfl
  funext j
  unfold rowOf Cert.Spec.varK Cert.Spec.mean
  rw [e]
  show max (Ideal.div (extractStridedSlice S1x256 ![0, 256] (V (Proc.devRef .tc main_v35_1)) slices_S1x512_S1x256_0_256 (ix2 0 j)) _
      - Ideal.div (extractStridedSlice S1x256 ![0, 0] (V (Proc.devRef .tc main_v35_1)) slices_S1x512_S1x256_0_0 (ix2 0 j)) _
        * Ideal.div (extractStridedSlice S1x256 ![0, 0] (V (Proc.devRef .tc main_v35_1)) slices_S1x512_S1x256_0_0 (ix2 0 j)) _) _ = _
  rw [slice2_axis1_apply 256 _ slices_S1x512_S1x256_0_256 0 j ⟨256 + j.val, by omega⟩ rfl,
    slice2_axis1_apply 0 _ slices_S1x512_S1x256_0_0 0 j ⟨j.val, by omega⟩ (Nat.zero_add _).symm, hq j _ rfl, hs j _ rfl]
  rfl

set_option maxHeartbeats 1000000 in
/-- The gain and bias rows are the `[256]` arguments with a unit axis put in front. -/
theorem hostOps2_gain (V : Valuation τ sig (Elt Ideal)) :
    rowOf (StableHlo.after (hostOps2 (F := Ideal)) V (Proc.devRef .tc main_v46) : Cert.Spec.Mx 1 256)
      = fun j => (V (Proc.devRef .tc main_arg10) : (⟨1, ![256]⟩ : Shape).Idx → EReal) (ix1 j) := by
  have e : (StableHlo.after (hostOps2 (F := Ideal)) V (Proc.devRef .tc main_v46) : Cert.Spec.Mx 1 256)
      = shapeCast S1x256 (V (Proc.devRef .tc main_arg10)) shapeCasts_S256_S1x256 := by
    after_results <;> rfl
  funext j
  unfold rowOf
  rw [e]
  exact shapeCast_a_1a_apply _ _ 0 j
set_option maxHeartbeats 1000000 in
/-- The bias row likewise. -/
theorem hostOps2_bias (V : Valuation τ sig (Elt Ideal)) :
    rowOf (StableHlo.after (hostOps2 (F := Ideal)) V (Proc.devRef .tc main_v47) : Cert.Spec.Mx 1 256)
      = fun j => (V (Proc.devRef .tc main_arg11) : (⟨1, ![256]⟩ : Shape).Idx → EReal) (ix1 j) := by
  have e : (StableHlo.after (hostOps2 (F := Ideal)) V (Proc.devRef .tc main_v47) : Cert.Spec.Mx 1 256)
      = shapeCast S1x256 (V (Proc.devRef .tc main_arg11)) shapeCasts_S256_S1x256 := by
    after_results <;> rfl
  funext j
  unfold rowOf
  rw [e]
  exact shapeCast_a_1a_apply _ _ 0 j

end Stats2

section Layer

variable (m : (ℓ : Loc nD τ sig) → Buf (Elt Ideal) ℓ) (outs : Outs (F := Ideal)) (c : Dev nD)

set_option maxHeartbeats 1000000 in
/-- Layer 0: from the valuation its aggregation stretch is entered with, the third stage's output is the kernel's
    layer of the input plus its edge aggregate. -/
theorem layer0
    (H0 : Stage1 (n := 50000) (k := 128) (h := 512) (h2 := 1024) (V3 m c main_v7) (V3 m c main_v21) (V3 m c main_v0)
      (outs 4 main_v22_0 c) (outs 4 main_v22_1 c))
    (H1 : Stage2 (n := 50000) (h := 512) (o := 256) (o2 := 512) (V5 m outs c main_v22_0) (V5 m outs c main_v25) (V5 m outs c main_v32)
      (V5 m outs c main_v33) (V5 m outs c main_v34) (V5 m outs c main_v1) (outs 6 main_v35_0 c) (outs 6 main_v35_1 c))
    (H2 : Stage3 (n := 50000) (o := 256) (V7 m outs c main_v35_0) (V7 m outs c main_v38) (V7 m outs c main_v45)
      (V7 m outs c main_v46) (V7 m outs c main_v47) (outs 8 main_v48 c)) :
    (V8 m outs c main_v48 : Cert.Spec.Mx 50000 256)
      = Cert.Spec.layerK (Cert.Spec.add2 (V2 m c main_v7) (aggK128 (V2 m c main_v7) (m ((c : Thread nD τ).loc main_arg1))))
          (m ((c : Thread nD τ).loc main_arg6)) (m ((c : Thread nD τ).loc main_arg7)) (fun j => m ((c : Thread nD τ).loc main_arg8) (ix1 j)) (fun j => m ((c : Thread nD τ).loc main_arg9) (ix1 j))
          (fun j => m ((c : Thread nD τ).loc main_arg10) (ix1 j)) (fun j => m ((c : Thread nD τ).loc main_arg11) (ix1 j)) := by
  -- the first stage's operands: the input as it was, its edge aggregate, the weights
  have ex : V3 m c (Proc.devRef .tc main_v7) = V2 m c (Proc.devRef .tc main_v7) := V3_of m c main_v7 (by decide)
  have eei : V2 m c (Proc.devRef .tc main_arg1) = m ((c : Thread nD τ).loc main_arg1) := by carry <;> rfl
  have ea : (V3 m c (Proc.devRef .tc main_v21) : Cert.Spec.Mx 50000 128) = aggK128 (V2 m c (Proc.devRef .tc main_v7)) (m ((c : Thread nD τ).loc main_arg1)) :=
    (hostOps0_2_agg (V2 m c)).trans (by rw [eei])
  have ew1 : (V3 m c (Proc.devRef .tc main_v0) : Cert.Spec.Mx 128 512) = m ((c : Thread nD τ).loc main_arg6) := by
    carry; exact hostOps0_main_v0 (V0 m c)
  have hz1 := H0.val
  rw [ex, ea, ew1] at hz1
  -- the statistics of the first stage
  have e1z : V4 m outs c (Proc.devRef .tc main_v22_0) = outs 4 main_v22_0 c :=
    (Function.update_of_ne (StableHlo.devRef_ne_of_ne (by decide)) _ _).trans (Function.update_self ..)
  have e1s : V4 m outs c (Proc.devRef .tc main_v22_1) = outs 4 main_v22_1 c := Function.update_self ..
  have hmu1 : rowOf (V5 m outs c main_v25 : Cert.Spec.Mx 1 512) = Cert.Spec.mean (outs 4 main_v22_0 c) :=
    hostOps1_mean (V4 m outs c) _ (fun j i hi => by rw [e1s]; exact H0.sum j i hi)
  have hvar1 : rowOf (V5 m outs c main_v32 : Cert.Spec.Mx 1 512) = Cert.Spec.varK (outs 4 main_v22_0 c) :=
    hostOps1_var (V4 m outs c) _ (fun j i hi => by rw [e1s]; exact H0.sum j i hi) (fun j i hi => by rw [e1s]; exact H0.sq j i hi)
  have eg1 : V4 m outs c (Proc.devRef .tc main_arg8) = m ((c : Thread nD τ).loc main_arg8) := by carry <;> rfl
  have eb1 : V4 m outs c (Proc.devRef .tc main_arg9) = m ((c : Thread nD τ).loc main_arg9) := by carry <;> rfl
  have hg1 : rowOf (V5 m outs c main_v33 : Cert.Spec.Mx 1 512) = fun j => m ((c : Thread nD τ).loc main_arg8) (ix1 j) :=
    (hostOps1_gain (V4 m outs c)).trans (by rw [eg1])
  have hb1 : rowOf (V5 m outs c main_v34 : Cert.Spec.Mx 1 512) = fun j => m ((c : Thread nD τ).loc main_arg9) (ix1 j) :=
    (hostOps1_bias (V4 m outs c)).trans (by rw [eb1])
  -- the second stage's operands
  have e2z : V5 m outs c (Proc.devRef .tc main_v22_0) = outs 4 main_v22_0 c := (V5_of m outs c main_v22_0 (by decide)).trans e1z
  have ew2 : (V5 m outs c (Proc.devRef .tc main_v1) : Cert.Spec.Mx 512 256) = m ((c : Thread nD τ).loc main_arg7) := by
    carry; exact hostOps0_main_v1 (V0 m c)
  have hz2 := H1.val
  rw [e2z, ew2] at hz2
  -- the statistics of the second stage
  have e3z : V6 m outs c (Proc.devRef .tc main_v35_0) = outs 6 main_v35_0 c :=
    (Function.update_of_ne (StableHlo.devRef_ne_of_ne (by decide)) _ _).trans (Function.update_self ..)
  have e3s : V6 m outs c (Proc.devRef .tc main_v35_1) = outs 6 main_v35_1 c := Function.update_self ..
  have hmu2 : rowOf (V7 m outs c main_v38 : Cert.Spec.Mx 1 256) = Cert.Spec.mean (outs 6 main_v35_0 c) :=
    hostOps2_mean (V6 m outs c) _ (fun j i hi => by rw [e3s]; exact H1.sum j i hi)
  have hvar2 : rowOf (V7 m outs c main_v45 : Cert.Spec.Mx 1 256) = Cert.Spec.varK (outs 6 main_v35_0 c) :=
    hostOps2_var (V6 m outs c) _ (fun j i hi => by rw [e3s]; exact H1.sum j i hi) (fun j i hi => by rw [e3s]; exact H1.sq j i hi)
  have eg2 : V6 m outs c (Proc.devRef .tc main_arg10) = m ((c : Thread nD τ).loc main_arg10) := by carry <;> rfl
  have eb2 : V6 m outs c (Proc.devRef .tc main_arg11) = m ((c : Thread nD τ).loc main_arg11) := by carry <;> rfl
  have hg2 : rowOf (V7 m outs c main_v46 : Cert.Spec.Mx 1 256) = fun j => m ((c : Thread nD τ).loc main_arg10) (ix1 j) :=
    (hostOps2_gain (V6 m outs c)).trans (by rw [eg2])
  have hb2 : rowOf (V7 m outs c main_v47 : Cert.Spec.Mx 1 256) = fun j => m ((c : Thread nD τ).loc main_arg11) (ix1 j) :=
    (hostOps2_bias (V6 m outs c)).trans (by rw [eb2])
  -- the third stage
  have e4z : V7 m outs c (Proc.devRef .tc main_v35_0) = outs 6 main_v35_0 c := (V7_of m outs c main_v35_0 (by decide)).trans e3z
  have hout : (outs 8 main_v48 c : Cert.Spec.Mx 50000 256) = _ := H2
  rw [e4z] at hout
  have e5 : V8 m outs c (Proc.devRef .tc main_v48) = outs 8 main_v48 c := Function.update_self ..
  exact e5.trans (layerK_of_stages hz1 hmu1 hvar1 hg1 hb1 hz2 hmu2 hvar2 hg2 hb2 hout)

end Layer

end Cert.KernelIdeal.HandValue

end
-- ==== Proof.KI.ChainL1.lean ====
/-
  Layer 1 of the first pass (kernel regions 3, 4, 5): the second encoder layer, on the first layer's output.
  Its aggregation stretch leaves the edge aggregate of the input; after each of the first two stages a host stretch
  turns the statistics row into the mean row and the variance row (the mean of squares less the squared mean, cut off
  at zero) and puts a unit axis in front of the gain and the bias; with what the three regions are assumed to leave,
  the third stage's output is the kernel's layer of the input plus its edge aggregate.
-/
import proofs.«427833_j20194936226511_1_alg».proof.Proof.KI.ChainBase

set_option maxRecDepth 8192

noncomputable section

namespace Cert.KernelIdeal.HandValue

open Cert.KernelIdeal Cert.KernelIdeal.Gen
open Idealize.ShloMosaic Idealize.ShloMosaic.TcCoe Idealize.ShloMosaic.ValueIdx
open Idealize.SL.Sem

section Agg

set_option maxHeartbeats 1000000 in
/-- The aggregation stretch `hostOps3` leaves the edge aggregate of its input. -/
theorem hostOps3_agg (V : Valuation τ sig (Elt Ideal)) :
    (StableHlo.after (hostOps3 (F := Ideal)) V (Proc.devRef .tc main_v62) : Cert.Spec.Mx 50000 256)
      = aggK256 (V (Proc.devRef .tc main_v48)) (V (Proc.devRef .tc main_arg1)) := by
  after_results <;> rfl

end Agg

section Stats1

set_option maxHeartbeats 1000000 in
/-- The statistics stretch `hostOps4`: the mean row is the column sums over the number of rows. -/
theorem hostOps4_mean (V : Valuation τ sig (Elt Ideal)) (Z : Cert.Spec.Mx 50000 512)
    (hs : ∀ (j : Fin 512) (i : Fin 1024), i.val = j.val → (V (Proc.devRef .tc main_v63_1) : Cert.Spec.Mx 1 1024) (ix2 0 i) = Cert.Spec.colSum Z j) :
    rowOf (StableHlo.after (hostOps4 (F := Ideal)) V (Proc.devRef .tc main_v66) : Cert.Spec.Mx 1 512) = Cert.Spec.mean Z := by
  have e : (StableHlo.after (hostOps4 (F := Ideal)) V (Proc.devRef .tc main_v66) : Cert.Spec.Mx 1 512)
      = Host.divf (extractStridedSlice S1x512 ![0, 0] (V (Proc.devRef .tc main_v63_1)) slices_S1x1024_S1x512_0_0)
          (broadcastInDim S1x512 ![] bcast_S_S1x512 (constant (F := Ideal) S_ .f32 0x47435000#32)) := by
    after_results <;> rfl
  funext j
  unfold rowOf Cert.Spec.mean
  rw [e]
  show Ideal.div (extractStridedSlice S1x512 ![0, 0] (V (Proc.devRef .tc main_v63_1)) slices_S1x1024_S1x512_0_0 (ix2 0 j)) _ = _
  rw [slice2_axis1_apply 0 _ slices_S1x1024_S1x512_0_0 0 j ⟨j.val, by omega⟩ (Nat.zero_add _).symm, hs j _ rfl]
  rfl

set_option maxHeartbeats 1000000 in
/-- The variance row: the mean of squares less the squared mean, cut off at zero. -/
theorem hostOps4_var (V : Valuation τ sig (Elt Ideal)) (Z : Cert.Spec.Mx 50000 512)
    (hs : ∀ (j : Fin 512) (i : Fin 1024), i.val = j.val → (V (Proc.devRef .tc main_v63_1) : Cert.Spec.Mx 1 1024) (ix2 0 i) = Cert.Spec.colSum Z j)
    (hq : ∀ (j : Fin 512) (i : Fin 1024), i.val = 512 + j.val → (V (Proc.devRef .tc main_v63_1) : Cert.Spec.Mx 1 1024) (ix2 0 i) = Cert.Spec.colSumSq Z j) :
    rowOf (StableHlo.after (hostOps4 (F := Ideal)) V (Proc.devRef .tc main_v73) : Cert.Spec.Mx 1 512) = Cert.Spec.varK Z := by
  have e : (StableHlo.after (hostOps4 (F := Ideal)) V (Proc.devRef .tc main_v73) : Cert.Spec.Mx 1 512)
      = maximumf (subf
          (Host.divf (extractStridedSlice S1x512 ![0, 512] (V (Proc.devRef .tc main_v63_1)) slices_S1x1024_S1x512_0_512)
            (broadcastInDim S1x512 ![] bcast_S_S1x512 (constant (F := Ideal) S_ .f32 0x47435000#32)))
          (mulf
            (Host.divf (extractStridedSlice S1x512 ![0, 0] (V (Proc.devRef .tc main_v63_1)) slices_S1x1024_S1x512_0_0)
              (broadcastInDim S1x512 ![] bcast_S_S1x512 (constant (F := Ideal) S_ .f32 0x47435000#32)))
            (Host.divf (extractStridedSlice S1x512 ![0, 0] (V (Proc.devRef .tc main_v63_1)) slices_S1x1024_S1x512_0_0)
              (broadcastInDim S1x512 ![] bcast_S_S1x512 (constant (F := Ideal) S_ .f32 0x47435000#32)))))
          (broadcastInDim S1x512 ![] bcast_S_S1x512 (constant (F := Ideal) S_ .f32 0x00000000#32)) := by
    after_results <;> rfl
  funext j
  unfold rowOf Cert.Spec.varK Cert.Spec.mean
  rw [e]
  show max (Ideal.div (extractStridedSlice S1x512 ![0, 512] (V (Proc.devRef .tc main_v63_1)) slices_S1x1024_S1x512_0_512 (ix2 0 j)) _
      - Ideal.div (extractStridedSlice S1x512 ![0, 0] (V (Proc.devRef .tc main_v63_1)) slices_S1x1024_S1x512_0_0 (ix2 0 j)) _
        * Ideal.div (extractStridedSlice S1x512 ![0, 0] (V (Proc.devRef .tc main_v63_1)) slices_S1x1024_S1x512_0_0 (ix2 0 j)) _) _ = _
  rw [slice2_axis1_apply 512 _ slices_S1x1024_S1x512_0_512 0 j ⟨512 + j.val, by omega⟩ rfl,
    slice2_axis1_apply 0 _ slices_S1x1024_S1x512_0_0 0 j ⟨j.val, by omega⟩ (Nat.zero_add _).symm, hq j _ rfl, hs j _ rfl]
  rfl

set_option maxHeartbeats 1000000 in
/-- The gain and bias rows are the `[512]` arguments with a unit axis put in front. -/
theorem hostOps4_gain (V : Valuation τ sig (Elt Ideal)) :
    rowOf (StableHlo.after (hostOps4 (F := Ideal)) V (Proc.devRef .tc main_v74) : Cert.Spec.Mx 1 512)
      = fun j => (V (Proc.devRef .tc main_arg14) : (⟨1, ![512]⟩ : Shape).Idx → EReal) (ix1 j) := by
  have e : (StableHlo.after (hostOps4 (F := Ideal)) V (Proc.devRef .tc main_v74) : Cert.Spec.Mx 1 512)
      = shapeCast S1x512 (V (Proc.devRef .tc main_arg14)) shapeCasts_S512_S1x512 := by
    after_results <;> rfl
  funext j
  unfold rowOf
  rw [e]
  exact shapeCast_a_1a_apply _ _ 0 j
set_option maxHeartbeats 1000000 in
/-- The bias row likewise. -/
theorem hostOps4_bias (V : Valuation τ sig (Elt Ideal)) :
    rowOf (StableHlo.after (hostOps4 (F := Ideal)) V (Proc.devRef .tc main_v75) : Cert.Spec.Mx 1 512)
      = fun j => (V (Proc.devRef .tc main_arg15) : (⟨1, ![512]⟩ : Shape).Idx → EReal) (ix1 j) := by
  have e : (StableHlo.after (hostOps4 (F := Ideal)) V (Proc.devRef .tc main_v75) : Cert.Spec.Mx 1 512)
      = shapeCast S1x512 (V (Proc.devRef .tc main_arg15)) shapeCasts_S512_S1x512 := by
    after_results <;> rfl
  funext j
  unfold rowOf
  rw [e]
  exact shapeCast_a_1a_apply _ _ 0 j

end Stats1

section Stats2

set_option maxHeartbeats 1000000 in
/-- The statistics stretch `hostOps5`: the mean row is the column sums over the number of rows. -/
theorem hostOps5_mean (V : Valuation τ sig (Elt Ideal)) (Z : Cert.Spec.Mx 50000 256)
    (hs : ∀ (j : Fin 256) (i : Fin 512), i.val = j.val → (V (Proc.devRef .tc main_v76_1) : Cert.Spec.Mx 1 512) (ix2 0 i) = Cert.Spec.colSum Z j) :
    rowOf (StableHlo.after (hostOps5 (F := Ideal)) V (Proc.devRef .tc main_v79) : Cert.Spec.Mx 1 256) = Cert.Spec.mean Z := by
  have e : (StableHlo.after (hostOps5 (F := Ideal)) V (Proc.devRef .tc main_v79) : Cert.Spec.Mx 1 256)
      = Host.divf (extractStridedSlice S1x256 ![0, 0] (V (Proc.devRef .tc main_v76_1)) slices_S1x512_S1x256_0_0)
          (broadcastInDim S1x256 ![] bcast_S_S1x256 (constant (F := Ideal) S_ .f32 0x47435000#32)) := by
    after_results <;> rfl
  funext j
  unfold rowOf Cert.Spec.mean
  rw [e]
  show Ideal.div (extractStridedSlice S1x256 ![0, 0] (V (Proc.devRef .tc main_v76_1)) slices_S1x512_S1x256_0_0 (ix2 0 j)) _ = _
  rw [slice2_axis1_apply 0 _ slices_S1x512_S1x256_0_0 0 j ⟨j.val, by omega⟩ (Nat.zero_add _).symm, hs j _ rfl]
  rfl

set_option maxHeartbeats 1000000 in
/-- The variance row: the mean of squares less the squared mean, cut off at zero. -/
theorem hostOps5_var (V : Valuation τ sig (Elt Ideal)) (Z : Cert.Spec.Mx 50000 256)
    (hs : ∀ (j : Fin 256) (i : Fin 512), i.val = j.val → (V (Proc.devRef .tc main_v76_1) : Cert.Spec.Mx 1 512) (ix2 0 i) = Cert.Spec.colSum Z j)
    (hq : ∀ (j : Fin 256) (i : Fin 512), i.val = 256 + j.val → (V (Proc.devRef .tc main_v76_1) : Cert.Spec.Mx 1 512) (ix2 0 i) = Cert.Spec.colSumSq Z j) :
    rowOf (StableHlo.after (hostOps5 (F := Ideal)) V (Proc.devRef .tc main_v86) : Cert.Spec.Mx 1 256) = Cert.Spec.varK Z := by
  have e : (StableHlo.after (hostOps5 (F := Ideal)) V (Proc.devRef .tc main_v86) : Cert.Spec.Mx 1 256)
      = maximumf (subf
          (Host.divf (extractStridedSlice S1x256 ![0, 256] (V (Proc.devRef .tc main_v76_1)) slices_S1x512_S1x256_0_256)
            (broadcastInDim S1x256 ![] bcast_S_S1x256 (constant (F := Ideal) S_ .f32 0x47435000#32)))
          (mulf
            (Host.divf (extractStridedSlice S1x256 ![0, 0] (V (Proc.devRef .tc main_v76_1)) slices_S1x512_S1x256_0_0)
              (broadcastInDim S1x256 ![] bcast_S_S1x256 (constant (F := Ideal) S_ .f32 0x47435000#32)))
            (Host.divf (extractStridedSlice S1x256 ![0, 0] (V (Proc.devRef .tc main_v76_1)) slices_S1x512_S1x256_0_0)
              (broadcastInDim S1x256 ![] bcast_S_S1x256 (constant (F := Ideal) S_ .f32 0x47435000#32)))))
          (broadcastInDim S1x256 ![] bcast_S_S1x256 (constant (F := Ideal) S_ .f32 0x00000000#32)) := by
    after_results <;> rfl
  funext j
  unfold rowOf Cert.Spec.varK Cert.Spec.mean
  rw [e]
  show max (Ideal.div (extractStridedSlice S1x256 ![0, 256] (V (Proc.devRef .tc main_v76_1)) slices_S1x512_S1x256_0_256 (ix2 0 j)) _
      - Ideal.div (extractStridedSlice S1x256 ![0, 0] (V (Proc.devRef .tc main_v76_1)) slices_S1x512_S1x256_0_0 (ix2 0 j)) _
        * Ideal.div (extractStridedSlice S1x256 ![0, 0] (V (Proc.devRef .tc main_v76_1)) slices_S1x512_S1x256_0_0 (ix2 0 j)) _) _ = _
  rw [slice2_axis1_apply 256 _ slices_S1x512_S1x256_0_256 0 j ⟨256 + j.val, by omega⟩ rfl,
    slice2_axis1_apply 0 _ slices_S1x512_S1x256_0_0 0 j ⟨j.val, by omega⟩ (Nat.zero_add _).symm, hq j _ rfl, hs j _ rfl]
  rfl

set_option maxHeartbeats 1000000 in
/-- The gain and bias rows are the `[256]` arguments with a unit axis put in front. -/
theorem hostOps5_gain (V : Valuation τ sig (Elt Ideal)) :
    rowOf (StableHlo.after (hostOps5 (F := Ideal)) V (Proc.devRef .tc main_v87) : Cert.Spec.Mx 1 256)
      = fun j => (V (Proc.devRef .tc main_arg16) : (⟨1, ![256]⟩ : Shape).Idx → EReal) (ix1 j) := by
  have e : (StableHlo.after (hostOps5 (F := Ideal)) V (Proc.devRef .tc main_v87) : Cert.Spec.Mx 1 256)
      = shapeCast S1x256 (V (Proc.devRef .tc main_arg16)) shapeCasts_S256_S1x256 := by
    after_results <;> rfl
  funext j
  unfold rowOf
  rw [e]
  exact shapeCast_a_1a_apply _ _ 0 j
set_option maxHeartbeats 1000000 in
/-- The bias row likewise. -/
theorem hostOps5_bias (V : Valuation τ sig (Elt Ideal)) :
    rowOf (StableHlo.after (hostOps5 (F := Ideal)) V (Proc.devRef .tc main_v88) : Cert.Spec.Mx 1 256)
      = fun j => (V (Proc.devRef .tc main_arg17) : (⟨1, ![256]⟩ : Shape).Idx → EReal) (ix1 j) := by
  have e : (StableHlo.after (hostOps5 (F := Ideal)) V (Proc.devRef .tc main_v88) : Cert.Spec.Mx 1 256)
      = shapeCast S1x256 (V (Proc.devRef .tc main_arg17)) shapeCasts_S256_S1x256 := by
    after_results <;> rfl
  funext j
  unfold rowOf
  rw [e]
  exact shapeCast_a_1a_apply _ _ 0 j

end Stats2

section Layer

variable (m : (ℓ : Loc nD τ sig) → Buf (Elt Ideal) ℓ) (outs : Outs (F := Ideal)) (c : Dev nD)

set_option maxHeartbeats 1000000 in
/-- Layer 1: from the valuation its aggregation stretch is entered with, the third stage's output is the kernel's
    layer of the input plus its edge aggregate. -/
theorem layer1
    (H0 : Stage1 (n := 50000) (k := 256) (h := 512) (h2 := 1024) (V9 m outs c main_v48) (V9 m outs c main_v62) (V9 m outs c main_v2)
      (outs 10 main_v63_0 c) (outs 10 main_v63_1 c))
    (H1 : Stage2 (n := 50000) (h := 512) (o := 256) (o2 := 512) (V11 m outs c main_v63_0) (V11 m outs c main_v66) (V11 m outs c main_v73)
      (V11 m outs c main_v74) (V11 m outs c main_v75) (V11 m outs c main_v3) (outs 12 main_v76_0 c) (outs 12 main_v76_1 c))
    (H2 : Stage3 (n := 50000) (o := 256) (V13 m outs c main_v76_0) (V13 m outs c main_v79) (V13 m outs c main_v86)
      (V13 m outs c main_v87) (V13 m outs c main_v88) (outs 14 main_v89 c)) :
    (V14 m outs c main_v89 : Cert.Spec.Mx 50000 256)
      = Cert.Spec.layerK (Cert.Spec.add2 (V8 m outs c main_v48) (aggK256 (V8 m outs c main_v48) (m ((c : Thread nD τ).loc main_arg1))))
          (m ((c : Thread nD τ).loc main_arg12)) (m ((c : Thread nD τ).loc main_arg13)) (fun j => m ((c : Thread nD τ).loc main_arg14) (ix1 j)) (fun j => m ((c : Thread nD τ).loc main_arg15) (ix1 j))
          (fun j => m ((c : Thread nD τ).loc main_arg16) (ix1 j)) (fun j => m ((c : Thread nD τ).loc main_arg17) (ix1 j)) := by
  -- the first stage's operands: the input as it was, its edge aggregate, the weights
  have ex : V9 m outs c (Proc.devRef .tc main_v48) = V8 m outs c (Proc.devRef .tc main_v48) := V9_of m outs c main_v48 (by decide)
  have eei : V8 m outs c (Proc.devRef .tc main_arg1) = m ((c : Thread nD τ).loc main_arg1) := by carry <;> rfl
  have ea : (V9 m outs c (Proc.devRef .tc main_v62) : Cert.Spec.Mx 50000 256) = aggK256 (V8 m outs c (Proc.devRef .tc main_v48)) (m ((c : Thread nD τ).loc main_arg1)) :=
    (hostOps3_agg (V8 m outs c)).trans (by rw [eei])
  have ew1 : (V9 m outs c (Proc.devRef .tc main_v2) : Cert.Spec.Mx 256 512) = m ((c : Thread nD τ).loc main_arg12) := by
    carry; exact hostOps0_main_v2 (V0 m c)
  have hz1 := H0.val
  rw [ex, ea, ew1] at hz1
  -- the statistics of the first stage
  have e1z : V10 m outs c (Proc.devRef .tc main_v63_0) = outs 10 main_v63_0 c :=
    (Function.update_of_ne (StableHlo.devRef_ne_of_ne (by decide)) _ _).trans (Function.update_self ..)
  have e1s : V10 m outs c (Proc.devRef .tc main_v63_1) = outs 10 main_v63_1 c := Function.update_self ..
  have hmu1 : rowOf (V11 m outs c main_v66 : Cert.Spec.Mx 1 512) = Cert.Spec.mean (outs 10 main_v63_0 c) :=
    hostOps4_mean (V10 m outs c) _ (fun j i hi => by rw [e1s]; exact H0.sum j i hi)
  have hvar1 : rowOf (V11 m outs c main_v73 : Cert.Spec.Mx 1 512) = Cert.Spec.varK (outs 10 main_v63_0 c) :=
    hostOps4_var (V10 m outs c) _ (fun j i hi => by rw [e1s]; exact H0.sum j i hi) (fun j i hi => by rw [e1s]; exact H0.sq j i hi)
  have eg1 : V10 m outs c (Proc.devRef .tc main_arg14) = m ((c : Thread nD τ).loc main_arg14) := by carry <;> rfl
  have eb1 : V10 m outs c (Proc.devRef .tc main_arg15) = m ((c : Thread nD τ).loc main_arg15) := by carry <;> rfl
  have hg1 : rowOf (V11 m outs c main_v74 : Cert.Spec.Mx 1 512) = fun j => m ((c : Thread nD τ).loc main_arg14) (ix1 j) :=
    (hostOps4_gain (V10 m outs c)).trans (by rw [eg1])
  have hb1 : rowOf (V11 m outs c main_v75 : Cert.Spec.Mx 1 512) = fun j => m ((c : Thread nD τ).loc main_arg15) (ix1 j) :=
    (hostOps4_bias (V10 m outs c)).trans (by rw [eb1])
  -- the second stage's operands
  have e2z : V11 m outs c (Proc.devRef .tc main_v63_0) = outs 10 main_v63_0 c := (V11_of m outs c main_v63_0 (by decide)).trans e1z
  have ew2 : (V11 m outs c (Proc.devRef .tc main_v3) : Cert.Spec.Mx 512 256) = m ((c : Thread nD τ).loc main_arg13) := by
    carry; exact hostOps0_main_v3 (V0 m c)
  have hz2 := H1.val
  rw [e2z, ew2] at hz2
  -- the statistics of the second stage
  have e3z : V12 m outs c (Proc.devRef .tc main_v76_0) = outs 12 main_v76_0 c :=
    (Function.update_of_ne (StableHlo.devRef_ne_of_ne (by decide)) _ _).trans (Function.update_self ..)
  have e3s : V12 m outs c (Proc.devRef .tc main_v76_1) = outs 12 main_v76_1 c := Function.update_self ..
  have hmu2 : rowOf (V13 m outs c main_v79 : Cert.Spec.Mx 1 256) = Cert.Spec.mean (outs 12 main_v76_0 c) :=
    hostOps5_mean (V12 m outs c) _ (fun j i hi => by rw [e3s]; exact H1.sum j i hi)
  have hvar2 : rowOf (V13 m outs c main_v86 : Cert.Spec.Mx 1 256) = Cert.Spec.varK (outs 12 main_v76_0 c) :=
    hostOps5_var (V12 m outs c) _ (fun j i hi => by rw [e3s]; exact H1.sum j i hi) (fun j i hi => by rw [e3s]; exact H1.sq j i hi)
  have eg2 : V12 m outs c (Proc.devRef .tc main_arg16) = m ((c : Thread nD τ).loc main_arg16) := by carry <;> rfl
  have eb2 : V12 m outs c (Proc.devRef .tc main_arg17) = m ((c : Thread nD τ).loc main_arg17) := by carry <;> rfl
  have hg2 : rowOf (V13 m outs c main_v87 : Cert.Spec.Mx 1 256) = fun j => m ((c : Thread nD τ).loc main_arg16) (ix1 j) :=
    (hostOps5_gain (V12 m outs c)).trans (by rw [eg2])
  have hb2 : rowOf (V13 m outs c main_v88 : Cert.Spec.Mx 1 256) = fun j => m ((c : Thread nD τ).loc main_arg17) (ix1 j) :=
    (hostOps5_bias (V12 m outs c)).trans (by rw [eb2])
  -- the third stage
  have e4z : V13 m outs c (Proc.devRef .tc main_v76_0) = outs 12 main_v76_0 c := (V13_of m outs c main_v76_0 (by decide)).trans e3z
  have hout : (outs 14 main_v89 c : Cert.Spec.Mx 50000 256) = _ := H2
  rw [e4z] at hout
  have e5 : V14 m outs c (Proc.devRef .tc main_v89) = outs 14 main_v89 c := Function.update_self ..
  exact e5.trans (layerK_of_stages hz1 hmu1 hvar1 hg1 hb1 hz2 hmu2 hvar2 hg2 hb2 hout)

end Layer

end Cert.KernelIdeal.HandValue

end
-- ==== Proof.KI.ChainL2.lean ====
/-
  Layer 2 of the first pass (kernel regions 6, 7, 8): the decoder layer, on the masked encoder output.
  Its aggregation stretch leaves the edge aggregate of the input; after each of the first two stages a host stretch
  turns the statistics row into the mean row and the variance row (the mean of squares less the squared mean, cut off
  at zero) and puts a unit axis in front of the gain and the bias; with what the three regions are assumed to leave,
  the third stage's output is the kernel's layer of the input plus its edge aggregate.
-/
import proofs.«427833_j20194936226511_1_alg».proof.Proof.KI.ChainBase

set_option maxRecDepth 8192

noncomputable section

namespace Cert.KernelIdeal.HandValue

open Cert.KernelIdeal Cert.KernelIdeal.Gen
open Idealize.ShloMosaic Idealize.ShloMosaic.TcCoe Idealize.ShloMosaic.ValueIdx
open Idealize.SL.Sem

section Agg

set_option maxHeartbeats 1000000 in
/-- The aggregation stretch `hostOps6_2` leaves the edge aggregate of its input. -/
theorem hostOps6_2_agg (V : Valuation τ sig (Elt Ideal)) :
    (StableHlo.after (hostOps6_2 (F := Ideal)) V (Proc.devRef .tc main_v104) : Cert.Spec.Mx 50000 256)
      = aggK256 (V (Proc.devRef .tc main_v90)) (V (Proc.devRef .tc main_arg1)) := by
  after_results <;> rfl

end Agg

section Stats1

set_option maxHeartbeats 1000000 in
/-- The statistics stretch `hostOps7`: the mean row is the column sums over the number of rows. -/
theorem hostOps7_mean (V : Valuation τ sig (Elt Ideal)) (Z : Cert.Spec.Mx 50000 512)
    (hs : ∀ (j : Fin 512) (i : Fin 1024), i.val = j.val → (V (Proc.devRef .tc main_v105_1) : Cert.Spec.Mx 1 1024) (ix2 0 i) = Cert.Spec.colSum Z j) :
    rowOf (StableHlo.after (hostOps7 (F := Ideal)) V (Proc.devRef .tc main_v108) : Cert.Spec.Mx 1 512) = Cert.Spec.mean Z := by
  have e : (StableHlo.after (hostOps7 (F := Ideal)) V (Proc.devRef .tc main_v108) : Cert.Spec.Mx 1 512)
      = Host.divf (extractStridedSlice S1x512 ![0, 0] (V (Proc.devRef .tc main_v105_1)) slices_S1x1024_S1x512_0_0)
          (broadcastInDim S1x512 ![] bcast_S_S1x512 (constant (F := Ideal) S_ .f32 0x47435000#32)) := by
    after_results <;> rfl
  funext j
  unfold rowOf Cert.Spec.mean
  rw [e]
  show Ideal.div (extractStridedSlice S1x512 ![0, 0] (V (Proc.devRef .tc main_v105_1)) slices_S1x1024_S1x512_0_0 (ix2 0 j)) _ = _
  rw [slice2_axis1_apply 0 _ slices_S1x1024_S1x512_0_0 0 j ⟨j.val, by omega⟩ (Nat.zero_add _).symm, hs j _ rfl]
  rfl

set_option maxHeartbeats 1000000 in
/-- The variance row: the mean of squares less the squared mean, cut off at zero. -/
theorem hostOps7_var (V : Valuation τ sig (Elt Ideal)) (Z : Cert.Spec.Mx 50000 512)
    (hs : ∀ (j : Fin 512) (i : Fin 1024), i.val = j.val → (V (Proc.devRef .tc main_v105_1) : Cert.Spec.Mx 1 1024) (ix2 0 i) = Cert.Spec.colSum Z j)
    (hq : ∀ (j : Fin 512) (i : Fin 1024), i.val = 512 + j.val → (V (Proc.devRef .tc main_v105_1) : Cert.Spec.Mx 1 1024) (ix2 0 i) = Cert.Spec.colSumSq Z j) :
    rowOf (StableHlo.after (hostOps7 (F := Ideal)) V (Proc.devRef .tc main_v115) : Cert.Spec.Mx 1 512) = Cert.Spec.varK Z := by
  have e : (StableHlo.after (hostOps7 (F := Ideal)) V (Proc.devRef .tc main_v115) : Cert.Spec.Mx 1 512)
      = maximumf (subf
          (Host.divf (extractStridedSlice S1x512 ![0, 512] (V (Proc.devRef .tc main_v105_1)) slices_S1x1024_S1x512_0_512)
            (broadcastInDim S1x512 ![] bcast_S_S1x512 (constant (F := Ideal) S_ .f32 0x47435000#32)))
          (mulf
            (Host.divf (extractStridedSlice S1x512 ![0, 0] (V (Proc.devRef .tc main_v105_1)) slices_S1x1024_S1x512_0_0)
              (broadcastInDim S1x512 ![] bcast_S_S1x512 (constant (F := Ideal) S_ .f32 0x47435000#32)))
            (Host.divf (extractStridedSlice S1x512 ![0, 0] (V (Proc.devRef .tc main_v105_1)) slices_S1x1024_S1x512_0_0)
              (broadcastInDim S1x512 ![] bcast_S_S1x512 (constant (F := Ideal) S_ .f32 0x47435000#32)))))
          (broadcastInDim S1x512 ![] bcast_S_S1x512 (constant (F := Ideal) S_ .f32 0x00000000#32)) := by
    after_results <;> rfl
  funext j
  unfold rowOf Cert.Spec.varK Cert.Spec.mean
  rw [e]
  show max (Ideal.div (extractStridedSlice S1x512 ![0, 512] (V (Proc.devRef .tc main_v105_1)) slices_S1x1024_S1x512_0_512 (ix2 0 j)) _
      - Ideal.div (extractStridedSlice S1x512 ![0, 0] (V (Proc.devRef .tc main_v105_1)) slices_S1x1024_S1x512_0_0 (ix2 0 j)) _
        * Ideal.div (extractStridedSlice S1x512 ![0, 0] (V (Proc.devRef .tc main_v105_1)) slices_S1x1024_S1x512_0_0 (ix2 0 j)) _) _ = _
  rw [slice2_axis1_apply 512 _ slices_S1x1024_S1x512_0_512 0 j ⟨512 + j.val, by omega⟩ rfl,
    slice2_axis1_apply 0 _ slices_S1x1024_S1x512_0_0 0 j ⟨j.val, by omega⟩ (Nat.zero_add _).symm, hq j _ rfl, hs j _ rfl]
  rfl

set_option maxHeartbeats 1000000 in
/-- The gain and bias rows are the `[512]` arguments with a unit axis put in front. -/
theorem hostOps7_gain (V : Valuation τ sig (Elt Ideal)) :
    rowOf (StableHlo.after (hostOps7 (F := Ideal)) V (Proc.devRef .tc main_v116) : Cert.Spec.Mx 1 512)
      = fun j => (V (Proc.devRef .tc main_arg20) : (⟨1, ![512]⟩ : Shape).Idx → EReal) (ix1 j) := by
  have e : (StableHlo.after (hostOps7 (F := Ideal)) V (Proc.devRef .tc main_v116) : Cert.Spec.Mx 1 512)
      = shapeCast S1x512 (V (Proc.devRef .tc main_arg20)) shapeCasts_S512_S1x512 := by
    after_results <;> rfl
  funext j
  unfold rowOf
  rw [e]
  exact shapeCast_a_1a_apply _ _ 0 j
set_option maxHeartbeats 1000000 in
/-- The bias row likewise. -/
theorem hostOps7_bias (V : Valuation τ sig (Elt Ideal)) :
    rowOf (StableHlo.after (hostOps7 (F := Ideal)) V (Proc.devRef .tc main_v117) : Cert.Spec.Mx 1 512)
      = fun j => (V (Proc.devRef .tc main_arg21) : (⟨1, ![512]⟩ : Shape).Idx → EReal) (ix1 j) := by
  have e : (StableHlo.after (hostOps7 (F := Ideal)) V (Proc.devRef .tc main_v117) : Cert.Spec.Mx 1 512)
      = shapeCast S1x512 (V (Proc.devRef .tc main_arg21)) shapeCasts_S512_S1x512 := by
    after_results <;> rfl
  funext j
  unfold rowOf
  rw [e]
  exact shapeCast_a_1a_apply _ _ 0 j

end Stats1

section Stats2

set_option maxHeartbeats 1000000 in
/-- The statistics stretch `hostOps8`: the mean row is the column sums over the number of rows. -/
theorem hostOps8_mean (V : Valuation τ sig (Elt Ideal)) (Z : Cert.Spec.Mx 50000 128)
    (hs : ∀ (j : Fin 128) (i : Fin 256), i.val = j.val → (V (Proc.devRef .tc main_v118_1) : Cert.Spec.Mx 1 256) (ix2 0 i) = Cert.Spec.colSum Z j) :
    rowOf (StableHlo.after (hostOps8 (F := Ideal)) V (Proc.devRef .tc main_v121) : Cert.Spec.Mx 1 128) = Cert.Spec.mean Z := by
  have e : (StableHlo.after (hostOps8 (F := Ideal)) V (Proc.devRef .tc main_v121) : Cert.Spec.Mx 1 128)
      = Host.divf (extractStridedSlice S1x128 ![0, 0] (V (Proc.devRef .tc main_v118_1)) slices_S1x256_S1x128_0_0)
          (broadcastInDim S1x128 ![] bcast_S_S1x128 (constant (F := Ideal) S_ .f32 0x47435000#32)) := by
    after_results <;> rfl
  funext j
  unfold rowOf Cert.Spec.mean
  rw [e]
  show Ideal.div (extractStridedSlice S1x128 ![0, 0] (V (Proc.devRef .tc main_v118_1)) slices_S1x256_S1x128_0_0 (ix2 0 j)) _ = _
  rw [slice2_axis1_apply 0 _ slices_S1x256_S1x128_0_0 0 j ⟨j.val, by omega⟩ (Nat.zero_add _).symm, hs j _ rfl]
  rfl

set_option maxHeartbeats 1000000 in
/-- The variance row: the mean of squares less the squared mean, cut off at zero. -/
theorem hostOps8_var (V : Valuation τ sig (Elt Ideal)) (Z : Cert.Spec.Mx 50000 128)
    (hs : ∀ (j : Fin 128) (i : Fin 256), i.val = j.val → (V (Proc.devRef .tc main_v118_1) : Cert.Spec.Mx 1 256) (ix2 0 i) = Cert.Spec.colSum Z j)
    (hq : ∀ (j : Fin 128) (i : Fin 256), i.val = 128 + j.val → (V (Proc.devRef .tc main_v118_1) : Cert.Spec.Mx 1 256) (ix2 0 i) = Cert.Spec.colSumSq Z j) :
    rowOf (StableHlo.after (hostOps8 (F := Ideal)) V (Proc.devRef .tc main_v128) : Cert.Spec.Mx 1 128) = Cert.Spec.varK Z := by
  have e : (StableHlo.after (hostOps8 (F := Ideal)) V (Proc.devRef .tc main_v128) : Cert.Spec.Mx 1 128)
      = maximumf (subf
          (Host.divf (extractStridedSlice S1x128 ![0, 128] (V (Proc.devRef .tc main_v118_1)) slices_S1x256_S1x128_0_128)
            (broadcastInDim S1x128 ![] bcast_S_S1x128 (constant (F := Ideal) S_ .f32 0x47435000#32)))
          (mulf
            (Host.divf (extractStridedSlice S1x128 ![0, 0] (V (Proc.devRef .tc main_v118_1)) slices_S1x256_S1x128_0_0)
              (broadcastInDim S1x128 ![] bcast_S_S1x128 (constant (F := Ideal) S_ .f32 0x47435000#32)))
            (Host.divf (extractStridedSlice S1x128 ![0, 0] (V (Proc.devRef .tc main_v118_1)) slices_S1x256_S1x128_0_0)
              (broadcastInDim S1x128 ![] bcast_S_S1x128 (constant (F := Ideal) S_ .f32 0x47435000#32)))))
          (broadcastInDim S1x128 ![] bcast_S_S1x128 (constant (F := Ideal) S_ .f32 0x00000000#32)) := by
    after_results <;> rfl
  funext j
  unfold rowOf Cert.Spec.varK Cert.Spec.mean
  rw [e]
  show max (Ideal.div (extractStridedSlice S1x128 ![0, 128] (V (Proc.devRef .tc main_v118_1)) slices_S1x256_S1x128_0_128 (ix2 0 j)) _
      - Ideal.div (extractStridedSlice S1x128 ![0, 0] (V (Proc.devRef .tc main_v118_1)) slices_S1x256_S1x128_0_0 (ix2 0 j)) _
        * Ideal.div (extractStridedSlice S1x128 ![0, 0] (V (Proc.devRef .tc main_v118_1)) slices_S1x256_S1x128_0_0 (ix2 0 j)) _) _ = _
  rw [slice2_axis1_apply 128 _ slices_S1x256_S1x128_0_128 0 j ⟨128 + j.val, by omega⟩ rfl,
    slice2_axis1_apply 0 _ slices_S1x256_S1x128_0_0 0 j ⟨j.val, by omega⟩ (Nat.zero_add _).symm, hq j _ rfl, hs j _ rfl]
  rfl

set_option maxHeartbeats 1000000 in
/-- The gain and bias rows are the `[128]` arguments with a unit axis put in front. -/
theorem hostOps8_gain (V : Valuation τ sig (Elt Ideal)) :
    rowOf (StableHlo.after (hostOps8 (F := Ideal)) V (Proc.devRef .tc main_v129) : Cert.Spec.Mx 1 128)
      = fun j => (V (Proc.devRef .tc main_arg22) : (⟨1, ![128]⟩ : Shape).Idx → EReal) (ix1 j) := by
  have e : (StableHlo.after (hostOps8 (F := Ideal)) V (Proc.devRef .tc main_v129) : Cert.Spec.Mx 1 128)
      = shapeCast S1x128 (V (Proc.devRef .tc main_arg22)) shapeCasts_S128_S1x128 := by
    after_results <;> rfl
  funext j
  unfold rowOf
  rw [e]
  exact shapeCast_a_1a_apply _ _ 0 j
set_option maxHeartbeats 1000000 in
/-- The bias row likewise. -/
theorem hostOps8_bias (V : Valuation τ sig (Elt Ideal)) :
    rowOf (StableHlo.after (hostOps8 (F := Ideal)) V (Proc.devRef .tc main_v130) : Cert.Spec.Mx 1 128)
      = fun j => (V (Proc.devRef .tc main_arg23) : (⟨1, ![128]⟩ : Shape).Idx → EReal) (ix1 j) := by
  have e : (StableHlo.after (hostOps8 (F := Ideal)) V (Proc.devRef .tc main_v130) : Cert.Spec.Mx 1 128)
      = shapeCast S1x128 (V (Proc.devRef .tc main_arg23)) shapeCasts_S128_S1x128 := by
    after_results <;> rfl
  funext j
  unfold rowOf
  rw [e]
  exact shapeCast_a_1a_apply _ _ 0 j

end Stats2

section Layer

variable (m : (ℓ : Loc nD τ sig) → Buf (Elt Ideal) ℓ) (outs : Outs (F := Ideal)) (c : Dev nD)

set_option maxHeartbeats 1000000 in
/-- Layer 2: from the valuation its aggregation stretch is entered with, the third stage's output is the kernel's
    layer of the input plus its edge aggregate. -/
theorem layer2
    (H0 : Stage1 (n := 50000) (k := 256) (h := 512) (h2 := 1024) (V17 m outs c main_v90) (V17 m outs c main_v104) (V17 m outs c main_v4)
      (outs 18 main_v105_0 c) (outs 18 main_v105_1 c))
    (H1 : Stage2 (n := 50000) (h := 512) (o := 128) (o2 := 256) (V19 m outs c main_v105_0) (V19 m outs c main_v108) (V19 m outs c main_v115)
      (V19 m outs c main_v116) (V19 m outs c main_v117) (V19 m outs c main_v5) (outs 20 main_v118_0 c) (outs 20 main_v118_1 c))
    (H2 : Stage3 (n := 50000) (o := 128) (V21 m outs c main_v118_0) (V21 m outs c main_v121) (V21 m outs c main_v128)
      (V21 m outs c main_v129) (V21 m outs c main_v130) (outs 22 main_v131 c)) :
    (V22 m outs c main_v131 : Cert.Spec.Mx 50000 128)
      = Cert.Spec.layerK (Cert.Spec.add2 (V16 m outs c main_v90) (aggK256 (V16 m outs c main_v90) (m ((c : Thread nD τ).loc main_arg1))))
          (m ((c : Thread nD τ).loc main_arg18)) (m ((c : Thread nD τ).loc main_arg19)) (fun j => m ((c : Thread nD τ).loc main_arg20) (ix1 j)) (fun j => m ((c : Thread nD τ).loc main_arg21) (ix1 j))
          (fun j => m ((c : Thread nD τ).loc main_arg22) (ix1 j)) (fun j => m ((c : Thread nD τ).loc main_arg23) (ix1 j)) := by
  -- the first stage's operands: the input as it was, its edge aggregate, the weights
  have ex : V17 m outs c (Proc.devRef .tc main_v90) = V16 m outs c (Proc.devRef .tc main_v90) := V17_of m outs c main_v90 (by decide)
  have eei : V16 m outs c (Proc.devRef .tc main_arg1) = m ((c : Thread nD τ).loc main_arg1) := by carry <;> rfl
  have ea : (V17 m outs c (Proc.devRef .tc main_v104) : Cert.Spec.Mx 50000 256) = aggK256 (V16 m outs c (Proc.devRef .tc main_v90)) (m ((c : Thread nD τ).loc main_arg1)) :=
    (hostOps6_2_agg (V16 m outs c)).trans (by rw [eei])
  have ew1 : (V17 m outs c (Proc.devRef .tc main_v4) : Cert.Spec.Mx 256 512) = m ((c : Thread nD τ).loc main_arg18) := by
    carry; exact hostOps0_main_v4 (V0 m c)
  have hz1 := H0.val
  rw [ex, ea, ew1] at hz1
  -- the statistics of the first stage
  have e1z : V18 m outs c (Proc.devRef .tc main_v105_0) = outs 18 main_v105_0 c :=
    (Function.update_of_ne (StableHlo.devRef_ne_of_ne (by decide)) _ _).trans (Function.update_self ..)
  have e1s : V18 m outs c (Proc.devRef .tc main_v105_1) = outs 18 main_v105_1 c := Function.update_self ..
  have hmu1 : rowOf (V19 m outs c main_v108 : Cert.Spec.Mx 1 512) = Cert.Spec.mean (outs 18 main_v105_0 c) :=
    hostOps7_mean (V18 m outs c) _ (fun j i hi => by rw [e1s]; exact H0.sum j i hi)
  have hvar1 : rowOf (V19 m outs c main_v115 : Cert.Spec.Mx 1 512) = Cert.Spec.varK (outs 18 main_v105_0 c) :=
    hostOps7_var (V18 m outs c) _ (fun j i hi => by rw [e1s]; exact H0.sum j i hi) (fun j i hi => by rw [e1s]; exact H0.sq j i hi)
  have eg1 : V18 m outs c (Proc.devRef .tc main_arg20) = m ((c : Thread nD τ).loc main_arg20) := by carry <;> rfl
  have eb1 : V18 m outs c (Proc.devRef .tc main_arg21) = m ((c : Thread nD τ).loc main_arg21) := by carry <;> rfl
  have hg1 : rowOf (V19 m outs c main_v116 : Cert.Spec.Mx 1 512) = fun j => m ((c : Thread nD τ).loc main_arg20) (ix1 j) :=
    (hostOps7_gain (V18 m outs c)).trans (by rw [eg1])
  have hb1 : rowOf (V19 m outs c main_v117 : Cert.Spec.Mx 1 512) = fun j => m ((c : Thread nD τ).loc main_arg21) (ix1 j) :=
    (hostOps7_bias (V18 m outs c)).trans (by rw [eb1])
  -- the second stage's operands
  have e2z : V19 m outs c (Proc.devRef .tc main_v105_0) = outs 18 main_v105_0 c := (V19_of m outs c main_v105_0 (by decide)).trans e1z
  have ew2 : (V19 m outs c (Proc.devRef .tc main_v5) : Cert.Spec.Mx 512 128) = m ((c : Thread nD τ).loc main_arg19) := by
    carry; exact hostOps0_main_v5 (V0 m c)
  have hz2 := H1.val
  rw [e2z, ew2] at hz2
  -- the statistics of the second stage
  have e3z : V20 m outs c (Proc.devRef .tc main_v118_0) = outs 20 main_v118_0 c :=
    (Function.update_of_ne (StableHlo.devRef_ne_of_ne (by decide)) _ _).trans (Function.update_self ..)
  have e3s : V20 m outs c (Proc.devRef .tc main_v118_1) = outs 20 main_v118_1 c := Function.update_self ..
  have hmu2 : rowOf (V21 m outs c main_v121 : Cert.Spec.Mx 1 128) = Cert.Spec.mean (outs 20 main_v118_0 c) :=
    hostOps8_mean (V20 m outs c) _ (fun j i hi => by rw [e3s]; exact H1.sum j i hi)
  have hvar2 : rowOf (V21 m outs c main_v128 : Cert.Spec.Mx 1 128) = Cert.Spec.varK (outs 20 main_v118_0 c) :=
    hostOps8_var (V20 m outs c) _ (fun j i hi => by rw [e3s]; exact H1.sum j i hi) (fun j i hi => by rw [e3s]; exact H1.sq j i hi)
  have eg2 : V20 m outs c (Proc.devRef .tc main_arg22) = m ((c : Thread nD τ).loc main_arg22) := by carry <;> rfl
  have eb2 : V20 m outs c (Proc.devRef .tc main_arg23) = m ((c : Thread nD τ).loc main_arg23) := by carry <;> rfl
  have hg2 : rowOf (V21 m outs c main_v129 : Cert.Spec.Mx 1 128) = fun j => m ((c : Thread nD τ).loc main_arg22) (ix1 j) :=
    (hostOps8_gain (V20 m outs c)).trans (by rw [eg2])
  have hb2 : rowOf (V21 m outs c main_v130 : Cert.Spec.Mx 1 128) = fun j => m ((c : Thread nD τ).loc main_arg23) (ix1 j) :=
    (hostOps8_bias (V20 m outs c)).trans (by rw [eb2])
  -- the third stage
  have e4z : V21 m outs c (Proc.devRef .tc main_v118_0) = outs 20 main_v118_0 c := (V21_of m outs c main_v118_0 (by decide)).trans e3z
  have hout : (outs 22 main_v131 c : Cert.Spec.Mx 50000 128) = _ := H2
  rw [e4z] at hout
  have e5 : V22 m outs c (Proc.devRef .tc main_v131) = outs 22 main_v131 c := Function.update_self ..
  exact e5.trans (layerK_of_stages hz1 hmu1 hvar1 hg1 hb1 hz2 hmu2 hvar2 hg2 hb2 hout)

end Layer

end Cert.KernelIdeal.HandValue

end
-- ==== Proof.KI.ChainL3.lean ====
/-
  Layer 3, the first encoder layer of the second pass (kernel regions 9, 10, 11).
  Its aggregation stretch leaves the edge aggregate of the input; after each of the first two stages a host stretch
  turns the statistics row into the mean row and the variance row (the mean of squares less the squared mean, cut off
  at zero) and puts a unit axis in front of the gain and the bias; with what the three regions are assumed to leave,
  the third stage's output is the kernel's layer of the input plus its edge aggregate.
-/
import proofs.«427833_j20194936226511_1_alg».proof.Proof.KI.ChainBase

set_option maxRecDepth 8192

noncomputable section

namespace Cert.KernelIdeal.HandValue

open Cert.KernelIdeal Cert.KernelIdeal.Gen
open Idealize.ShloMosaic Idealize.ShloMosaic.TcCoe Idealize.ShloMosaic.ValueIdx
open Idealize.SL.Sem

section Agg

set_option maxHeartbeats 1000000 in
/-- The aggregation stretch `hostOps9_6` leaves the edge aggregate of its input. -/
theorem hostOps9_6_agg (V : Valuation τ sig (Elt Ideal)) :
    (StableHlo.after (hostOps9_6 (F := Ideal)) V (Proc.devRef .tc main_v166) : Cert.Spec.Mx 50000 128)
      = aggK128 (V (Proc.devRef .tc main_v152)) (V (Proc.devRef .tc main_arg2)) := by
  after_results <;> rfl

end Agg

section Stats1

set_option maxHeartbeats 1000000 in
/-- The statistics stretch `hostOps10`: the mean row is the column sums over the number of rows. -/
theorem hostOps10_mean (V : Valuation τ sig (Elt Ideal)) (Z : Cert.Spec.Mx 50000 512)
    (hs : ∀ (j : Fin 512) (i : Fin 1024), i.val = j.val → (V (Proc.devRef .tc main_v167_1) : Cert.Spec.Mx 1 1024) (ix2 0 i) = Cert.Spec.colSum Z j) :
    rowOf (StableHlo.after (hostOps10 (F := Ideal)) V (Proc.devRef .tc main_v170) : Cert.Spec.Mx 1 512) = Cert.Spec.mean Z := by
  have e : (StableHlo.after (hostOps10 (F := Ideal)) V (Proc.devRef .tc main_v170) : Cert.Spec.Mx 1 512)
      = Host.divf (extractStridedSlice S1x512 ![0, 0] (V (Proc.devRef .tc main_v167_1)) slices_S1x1024_S1x512_0_0)
          (broadcastInDim S1x512 ![] bcast_S_S1x512 (constant (F := Ideal) S_ .f32 0x47435000#32)) := by
    after_results <;> rfl
  funext j
  unfold rowOf Cert.Spec.mean
  rw [e]
  show Ideal.div (extractStridedSlice S1x512 ![0, 0] (V (Proc.devRef .tc main_v167_1)) slices_S1x1024_S1x512_0_0 (ix2 0 j)) _ = _
  rw [slice2_axis1_apply 0 _ slices_S1x1024_S1x512_0_0 0 j ⟨j.val, by omega⟩ (Nat.zero_add _).symm, hs j _ rfl]
  rfl

set_option maxHeartbeats 1000000 in
/-- The variance row: the mean of squares less the squared mean, cut off at zero. -/
theorem hostOps10_var (V : Valuation τ sig (Elt Ideal)) (Z : Cert.Spec.Mx 50000 512)
    (hs : ∀ (j : Fin 512) (i : Fin 1024), i.val = j.val → (V (Proc.devRef .tc main_v167_1) : Cert.Spec.Mx 1 1024) (ix2 0 i) = Cert.Spec.colSum Z j)
    (hq : ∀ (j : Fin 512) (i : Fin 1024), i.val = 512 + j.val → (V (Proc.devRef .tc main_v167_1) : Cert.Spec.Mx 1 1024) (ix2 0 i) = Cert.Spec.colSumSq Z j) :
    rowOf (StableHlo.after (hostOps10 (F := Ideal)) V (Proc.devRef .tc main_v177) : Cert.Spec.Mx 1 512) = Cert.Spec.varK Z := by
  have e : (StableHlo.after (hostOps10 (F := Ideal)) V (Proc.devRef .tc main_v177) : Cert.Spec.Mx 1 512)
      = maximumf (subf
          (Host.divf (extractStridedSlice S1x512 ![0, 512] (V (Proc.devRef .tc main_v167_1)) slices_S1x1024_S1x512_0_512)
            (broadcastInDim S1x512 ![] bcast_S_S1x512 (constant (F := Ideal) S_ .f32 0x47435000#32)))
          (mulf
            (Host.divf (extractStridedSlice S1x512 ![0, 0] (V (Proc.devRef .tc main_v167_1)) slices_S1x1024_S1x512_0_0)
              (broadcastInDim S1x512 ![] bcast_S_S1x512 (constant (F := Ideal) S_ .f32 0x47435000#32)))
            (Host.divf (extractStridedSlice S1x512 ![0, 0] (V (Proc.devRef .tc main_v167_1)) slices_S1x1024_S1x512_0_0)
              (broadcastInDim S1x512 ![] bcast_S_S1x512 (constant (F := Ideal) S_ .f32 0x47435000#32)))))
          (broadcastInDim S1x512 ![] bcast_S_S1x512 (constant (F := Ideal) S_ .f32 0x00000000#32)) := by
    after_results <;> rfl
  funext j
  unfold rowOf Cert.Spec.varK Cert.Spec.mean
  rw [e]
  show max (Ideal.div (extractStridedSlice S1x512 ![0, 512] (V (Proc.devRef .tc main_v167_1)) slices_S1x1024_S1x512_0_512 (ix2 0 j)) _
      - Ideal.div (extractStridedSlice S1x512 ![0, 0] (V (Proc.devRef .tc main_v167_1)) slices_S1x1024_S1x512_0_0 (ix2 0 j)) _
        * Ideal.div (extractStridedSlice S1x512 ![0, 0] (V (Proc.devRef .tc main_v167_1)) slices_S1x1024_S1x512_0_0 (ix2 0 j)) _) _ = _
  rw [slice2_axis1_apply 512 _ slices_S1x1024_S1x512_0_512 0 j ⟨512 + j.val, by omega⟩ rfl,
    slice2_axis1_apply 0 _ slices_S1x1024_S1x512_0_0 0 j ⟨j.val, by omega⟩ (Nat.zero_add _).symm, hq j _ rfl, hs j _ rfl]
  rfl

set_option maxHeartbeats 1000000 in
/-- The gain and bias rows are the `[512]` arguments with a unit axis put in front. -/
theorem hostOps10_gain (V : Valuation τ sig (Elt Ideal)) :
    rowOf (StableHlo.after (hostOps10 (F := Ideal)) V (Proc.devRef .tc main_v178) : Cert.Spec.Mx 1 512)
      = fun j => (V (Proc.devRef .tc main_arg8) : (⟨1, ![512]⟩ : Shape).Idx → EReal) (ix1 j) := by
  have e : (StableHlo.after (hostOps10 (F := Ideal)) V (Proc.devRef .tc main_v178) : Cert.Spec.Mx 1 512)
      = shapeCast S1x512 (V (Proc.devRef .tc main_arg8)) shapeCasts_S512_S1x512 := by
    after_results <;> rfl
  funext j
  unfold rowOf
  rw [e]
  exact shapeCast_a_1a_apply _ _ 0 j
set_option maxHeartbeats 1000000 in
/-- The bias row likewise. -/
theorem hostOps10_bias (V : Valuation τ sig (Elt Ideal)) :
    rowOf (StableHlo.after (hostOps10 (F := Ideal)) V (Proc.devRef .tc main_v179) : Cert.Spec.Mx 1 512)
      = fun j => (V (Proc.devRef .tc main_arg9) : (⟨1, ![512]⟩ : Shape).Idx → EReal) (ix1 j) := by
  have e : (StableHlo.after (hostOps10 (F := Ideal)) V (Proc.devRef .tc main_v179) : Cert.Spec.Mx 1 512)
      = shapeCast S1x512 (V (Proc.devRef .tc main_arg9)) shapeCasts_S512_S1x512 := by
    after_results <;> rfl
  funext j
  unfold rowOf
  rw [e]
  exact shapeCast_a_1a_apply _ _ 0 j

end Stats1

section Stats2

set_option maxHeartbeats 1000000 in
/-- The statistics stretch `hostOps11`: the mean row is the column sums over the number of rows. -/
theorem hostOps11_mean (V : Valuation τ sig (Elt Ideal)) (Z : Cert.Spec.Mx 50000 256)
    (hs : ∀ (j : Fin 256) (i : Fin 512), i.val = j.val → (V (Proc.devRef .tc main_v180_1) : Cert.Spec.Mx 1 512) (ix2 0 i) = Cert.Spec.colSum Z j) :
    rowOf (StableHlo.after (hostOps11 (F := Ideal)) V (Proc.devRef .tc main_v183) : Cert.Spec.Mx 1 256) = Cert.Spec.mean Z := by
  have e : (StableHlo.after (hostOps11 (F := Ideal)) V (Proc.devRef .tc main_v183) : Cert.Spec.Mx 1 256)
      = Host.divf (extractStridedSlice S1x256 ![0, 0] (V (Proc.devRef .tc main_v180_1)) slices_S1x512_S1x256_0_0)
          (broadcastInDim S1x256 ![] bcast_S_S1x256 (constant (F := Ideal) S_ .f32 0x47435000#32)) := by
    after_results <;> rfl
  funext j
  unfold rowOf Cert.Spec.mean
  rw [e]
  show Ideal.div (extractStridedSlice S1x256 ![0, 0] (V (Proc.devRef .tc main_v180_1)) slices_S1x512_S1x256_0_0 (ix2 0 j)) _ = _
  rw [slice2_axis1_apply 0 _ slices_S1x512_S1x256_0_0 0 j ⟨j.val, by omega⟩ (Nat.zero_add _).symm, hs j _ rfl]
  rfl

set_option maxHeartbeats 1000000 in
/-- The variance row: the mean of squares less the squared mean, cut off at zero. -/
theorem hostOps11_var (V : Valuation τ sig (Elt Ideal)) (Z : Cert.Spec.Mx 50000 256)
    (hs : ∀ (j : Fin 256) (i : Fin 512), i.val = j.val → (V (Proc.devRef .tc main_v180_1) : Cert.Spec.Mx 1 512) (ix2 0 i) = Cert.Spec.colSum Z j)
    (hq : ∀ (j : Fin 256) (i : Fin 512), i.val = 256 + j.val → (V (Proc.devRef .tc main_v180_1) : Cert.Spec.Mx 1 512) (ix2 0 i) = Cert.Spec.colSumSq Z j) :
    rowOf (StableHlo.after (hostOps11 (F := Ideal)) V (Proc.devRef .tc main_v190) : Cert.Spec.Mx 1 256) = Cert.Spec.varK Z := by
  have e : (StableHlo.after (hostOps11 (F := Ideal)) V (Proc.devRef .tc main_v190) : Cert.Spec.Mx 1 256)
      = maximumf (subf
          (Host.divf (extractStridedSlice S1x256 ![0, 256] (V (Proc.devRef .tc main_v180_1)) slices_S1x512_S1x256_0_256)
            (broadcastInDim S1x256 ![] bcast_S_S1x256 (constant (F := Ideal) S_ .f32 0x47435000#32)))
          (mulf
            (Host.divf (extractStridedSlice S1x256 ![0, 0] (V (Proc.devRef .tc main_v180_1)) slices_S1x512_S1x256_0_0)
              (broadcastInDim S1x256 ![] bcast_S_S1x256 (constant (F := Ideal) S_ .f32 0x47435000#32)))
            (Host.divf (extractStridedSlice S1x256 ![0, 0] (V (Proc.devRef .tc main_v180_1)) slices_S1x512_S1x256_0_0)
              (broadcastInDim S1x256 ![] bcast_S_S1x256 (constant (F := Ideal) S_ .f32 0x47435000#32)))))
          (broadcastInDim S1x256 ![] bcast_S_S1x256 (constant (F := Ideal) S_ .f32 0x00000000#32)) := by
    after_results <;> rfl
  funext j
  unfold rowOf Cert.Spec.varK Cert.Spec.mean
  rw [e]
  show max (Ideal.div (extractStridedSlice S1x256 ![0, 256] (V (Proc.devRef .tc main_v180_1)) slices_S1x512_S1x256_0_256 (ix2 0 j)) _
      - Ideal.div (extractStridedSlice S1x256 ![0, 0] (V (Proc.devRef .tc main_v180_1)) slices_S1x512_S1x256_0_0 (ix2 0 j)) _
        * Ideal.div (extractStridedSlice S1x256 ![0, 0] (V (Proc.devRef .tc main_v180_1)) slices_S1x512_S1x256_0_0 (ix2 0 j)) _) _ = _
  rw [slice2_axis1_apply 256 _ slices_S1x512_S1x256_0_256 0 j ⟨256 + j.val, by omega⟩ rfl,
    slice2_axis1_apply 0 _ slices_S1x512_S1x256_0_0 0 j ⟨j.val, by omega⟩ (Nat.zero_add _).symm, hq j _ rfl, hs j _ rfl]
  rfl

set_option maxHeartbeats 1000000 in
/-- The gain and bias rows are the `[256]` arguments with a unit axis put in front. -/
theorem hostOps11_gain (V : Valuation τ sig (Elt Ideal)) :
    rowOf (StableHlo.after (hostOps11 (F := Ideal)) V (Proc.devRef .tc main_v191) : Cert.Spec.Mx 1 256)
      = fun j => (V (Proc.devRef .tc main_arg10) : (⟨1, ![256]⟩ : Shape).Idx → EReal) (ix1 j) := by
  have e : (StableHlo.after (hostOps11 (F := Ideal)) V (Proc.devRef .tc main_v191) : Cert.Spec.Mx 1 256)
      = shapeCast S1x256 (V (Proc.devRef .tc main_arg10)) shapeCasts_S256_S1x256 := by
    after_results <;> rfl
  funext j
  unfold rowOf
  rw [e]
  exact shapeCast_a_1a_apply _ _ 0 j
set_option maxHeartbeats 1000000 in
/-- The bias row likewise. -/
theorem hostOps11_bias (V : Valuation τ sig (Elt Ideal)) :
    rowOf (StableHlo.after (hostOps11 (F := Ideal)) V (Proc.devRef .tc main_v192) : Cert.Spec.Mx 1 256)
      = fun j => (V (Proc.devRef .tc main_arg11) : (⟨1, ![256]⟩ : Shape).Idx → EReal) (ix1 j) := by
  have e : (StableHlo.after (hostOps11 (F := Ideal)) V (Proc.devRef .tc main_v192) : Cert.Spec.Mx 1 256)
      = shapeCast S1x256 (V (Proc.devRef .tc main_arg11)) shapeCasts_S256_S1x256 := by
    after_results <;> rfl
  funext j
  unfold rowOf
  rw [e]
  exact shapeCast_a_1a_apply _ _ 0 j

end Stats2

section Layer

variable (m : (ℓ : Loc nD τ sig) → Buf (Elt Ideal) ℓ) (outs : Outs (F := Ideal)) (c : Dev nD)

set_option maxHeartbeats 1000000 in
/-- Layer 3: from the valuation its aggregation stretch is entered with, the third stage's output is the kernel's
    layer of the input plus its edge aggregate. -/
theorem layer3
    (H0 : Stage1 (n := 50000) (k := 128) (h := 512) (h2 := 1024) (V29 m outs c main_v152) (V29 m outs c main_v166) (V29 m outs c main_v0)
      (outs 30 main_v167_0 c) (outs 30 main_v167_1 c))
    (H1 : Stage2 (n := 50000) (h := 512) (o := 256) (o2 := 512) (V31 m outs c main_v167_0) (V31 m outs c main_v170) (V31 m outs c main_v177)
      (V31 m outs c main_v178) (V31 m outs c main_v179) (V31 m outs c main_v1) (outs 32 main_v180_0 c) (outs 32 main_v180_1 c))
    (H2 : Stage3 (n := 50000) (o := 256) (V33 m outs c main_v180_0) (V33 m outs c main_v183) (V33 m outs c main_v190)
      (V33 m outs c main_v191) (V33 m outs c main_v192) (outs 34 main_v193 c)) :
    (V34 m outs c main_v193 : Cert.Spec.Mx 50000 256)
      = Cert.Spec.layerK (Cert.Spec.add2 (V28 m outs c main_v152) (aggK128 (V28 m outs c main_v152) (m ((c : Thread nD τ).loc main_arg2))))
          (m ((c : Thread nD τ).loc main_arg6)) (m ((c : Thread nD τ).loc main_arg7)) (fun j => m ((c : Thread nD τ).loc main_arg8) (ix1 j)) (fun j => m ((c : Thread nD τ).loc main_arg9) (ix1 j))
          (fun j => m ((c : Thread nD τ).loc main_arg10) (ix1 j)) (fun j => m ((c : Thread nD τ).loc main_arg11) (ix1 j)) := by
  -- the first stage's operands: the input as it was, its edge aggregate, the weights
  have ex : V29 m outs c (Proc.devRef .tc main_v152) = V28 m outs c (Proc.devRef .tc main_v152) := V29_of m outs c main_v152 (by decide)
  have eei : V28 m outs c (Proc.devRef .tc main_arg2) = m ((c : Thread nD τ).loc main_arg2) := by carry <;> rfl
  have ea : (V29 m outs c (Proc.devRef .tc main_v166) : Cert.Spec.Mx 50000 128) = aggK128 (V28 m outs c (Proc.devRef .tc main_v152)) (m ((c : Thread nD τ).loc main_arg2)) :=
    (hostOps9_6_agg (V28 m outs c)).trans (by rw [eei])
  have ew1 : (V29 m outs c (Proc.devRef .tc main_v0) : Cert.Spec.Mx 128 512) = m ((c : Thread nD τ).loc main_arg6) := by
    carry; exact hostOps0_main_v0 (V0 m c)
  have hz1 := H0.val
  rw [ex, ea, ew1] at hz1
  -- the statistics of the first stage
  have e1z : V30 m outs c (Proc.devRef .tc main_v167_0) = outs 30 main_v167_0 c :=
    (Function.update_of_ne (StableHlo.devRef_ne_of_ne (by decide)) _ _).trans (Function.update_self ..)
  have e1s : V30 m outs c (Proc.devRef .tc main_v167_1) = outs 30 main_v167_1 c := Function.update_self ..
  have hmu1 : rowOf (V31 m outs c main_v170 : Cert.Spec.Mx 1 512) = Cert.Spec.mean (outs 30 main_v167_0 c) :=
    hostOps10_mean (V30 m outs c) _ (fun j i hi => by rw [e1s]; exact H0.sum j i hi)
  have hvar1 : rowOf (V31 m outs c main_v177 : Cert.Spec.Mx 1 512) = Cert.Spec.varK (outs 30 main_v167_0 c) :=
    hostOps10_var (V30 m outs c) _ (fun j i hi => by rw [e1s]; exact H0.sum j i hi) (fun j i hi => by rw [e1s]; exact H0.sq j i hi)
  have eg1 : V30 m outs c (Proc.devRef .tc main_arg8) = m ((c : Thread nD τ).loc main_arg8) := by carry <;> rfl
  have eb1 : V30 m outs c (Proc.devRef .tc main_arg9) = m ((c : Thread nD τ).loc main_arg9) := by carry <;> rfl
  have hg1 : rowOf (V31 m outs c main_v178 : Cert.Spec.Mx 1 512) = fun j => m ((c : Thread nD τ).loc main_arg8) (ix1 j) :=
    (hostOps10_gain (V30 m outs c)).trans (by rw [eg1])
  have hb1 : rowOf (V31 m outs c main_v179 : Cert.Spec.Mx 1 512) = fun j => m ((c : Thread nD τ).loc main_arg9) (ix1 j) :=
    (hostOps10_bias (V30 m outs c)).trans (by rw [eb1])
  -- the second stage's operands
  have e2z : V31 m outs c (Proc.devRef .tc main_v167_0) = outs 30 main_v167_0 c := (V31_of m outs c main_v167_0 (by decide)).trans e1z
  have ew2 : (V31 m outs c (Proc.devRef .tc main_v1) : Cert.Spec.Mx 512 256) = m ((c : Thread nD τ).loc main_arg7) := by
    carry; exact hostOps0_main_v1 (V0 m c)
  have hz2 := H1.val
  rw [e2z, ew2] at hz2
  -- the statistics of the second stage
  have e3z : V32 m outs c (Proc.devRef .tc main_v180_0) = outs 32 main_v180_0 c :=
    (Function.update_of_ne (StableHlo.devRef_ne_of_ne (by decide)) _ _).trans (Function.update_self ..)
  have e3s : V32 m outs c (Proc.devRef .tc main_v180_1) = outs 32 main_v180_1 c := Function.update_self ..
  have hmu2 : rowOf (V33 m outs c main_v183 : Cert.Spec.Mx 1 256) = Cert.Spec.mean (outs 32 main_v180_0 c) :=
    hostOps11_mean (V32 m outs c) _ (fun j i hi => by rw [e3s]; exact H1.sum j i hi)
  have hvar2 : rowOf (V33 m outs c main_v190 : Cert.Spec.Mx 1 256) = Cert.Spec.varK (outs 32 main_v180_0 c) :=
    hostOps11_var (V32 m outs c) _ (fun j i hi => by rw [e3s]; exact H1.sum j i hi) (fun j i hi => by rw [e3s]; exact H1.sq j i hi)
  have eg2 : V32 m outs c (Proc.devRef .tc main_arg10) = m ((c : Thread nD τ).loc main_arg10) := by carry <;> rfl
  have eb2 : V32 m outs c (Proc.devRef .tc main_arg11) = m ((c : Thread nD τ).loc main_arg11) := by carry <;> rfl
  have hg2 : rowOf (V33 m outs c main_v191 : Cert.Spec.Mx 1 256) = fun j => m ((c : Thread nD τ).loc main_arg10) (ix1 j) :=
    (hostOps11_gain (V32 m outs c)).trans (by rw [eg2])
  have hb2 : rowOf (V33 m outs c main_v192 : Cert.Spec.Mx 1 256) = fun j => m ((c : Thread nD τ).loc main_arg11) (ix1 j) :=
    (hostOps11_bias (V32 m outs c)).trans (by rw [eb2])
  -- the third stage
  have e4z : V33 m outs c (Proc.devRef .tc main_v180_0) = outs 32 main_v180_0 c := (V33_of m outs c main_v180_0 (by decide)).trans e3z
  have hout : (outs 34 main_v193 c : Cert.Spec.Mx 50000 256) = _ := H2
  rw [e4z] at hout
  have e5 : V34 m outs c (Proc.devRef .tc main_v193) = outs 34 main_v193 c := Function.update_self ..
  exact e5.trans (layerK_of_stages hz1 hmu1 hvar1 hg1 hb1 hz2 hmu2 hvar2 hg2 hb2 hout)

end Layer

end Cert.KernelIdeal.HandValue

end
-- ==== Proof.KI.ChainL4.lean ====
/-
  Layer 4, the second encoder layer of the second pass (kernel regions 12, 13, 14).
  Its aggregation stretch leaves the edge aggregate of the input; after each of the first two stages a host stretch
  turns the statistics row into the mean row and the variance row (the mean of squares less the squared mean, cut off
  at zero) and puts a unit axis in front of the gain and the bias; with what the three regions are assumed to leave,
  the third stage's output is the kernel's layer of the input plus its edge aggregate.
-/
import proofs.«427833_j20194936226511_1_alg».proof.Proof.KI.ChainBase

set_option maxRecDepth 8192

noncomputable section

namespace Cert.KernelIdeal.HandValue

open Cert.KernelIdeal Cert.KernelIdeal.Gen
open Idealize.ShloMosaic Idealize.ShloMosaic.TcCoe Idealize.ShloMosaic.ValueIdx
open Idealize.SL.Sem

section Agg

set_option maxHeartbeats 1000000 in
/-- The aggregation stretch `hostOps12` leaves the edge aggregate of its input. -/
theorem hostOps12_agg (V : Valuation τ sig (Elt Ideal)) :
    (StableHlo.after (hostOps12 (F := Ideal)) V (Proc.devRef .tc main_v207) : Cert.Spec.Mx 50000 256)
      = aggK256 (V (Proc.devRef .tc main_v193)) (V (Proc.devRef .tc main_arg2)) := by
  after_results <;> rfl

end Agg

section Stats1

set_option maxHeartbeats 1000000 in
/-- The statistics stretch `hostOps13`: the mean row is the column sums over the number of rows. -/
theorem hostOps13_mean (V : Valuation τ sig (Elt Ideal)) (Z : Cert.Spec.Mx 50000 512)
    (hs : ∀ (j : Fin 512) (i : Fin 1024), i.val = j.val → (V (Proc.devRef .tc main_v208_1) : Cert.Spec.Mx 1 1024) (ix2 0 i) = Cert.Spec.colSum Z j) :
    rowOf (StableHlo.after (hostOps13 (F := Ideal)) V (Proc.devRef .tc main_v211) : Cert.Spec.Mx 1 512) = Cert.Spec.mean Z := by
  have e : (StableHlo.after (hostOps13 (F := Ideal)) V (Proc.devRef .tc main_v211) : Cert.Spec.Mx 1 512)
      = Host.divf (extractStridedSlice S1x512 ![0, 0] (V (Proc.devRef .tc main_v208_1)) slices_S1x1024_S1x512_0_0)
          (broadcastInDim S1x512 ![] bcast_S_S1x512 (constant (F := Ideal) S_ .f32 0x47435000#32)) := by
    after_results <;> rfl
  funext j
  unfold rowOf Cert.Spec.mean
  rw [e]
  show Ideal.div (extractStridedSlice S1x512 ![0, 0] (V (Proc.devRef .tc main_v208_1)) slices_S1x1024_S1x512_0_0 (ix2 0 j)) _ = _
  rw [slice2_axis1_apply 0 _ slices_S1x1024_S1x512_0_0 0 j ⟨j.val, by omega⟩ (Nat.zero_add _).symm, hs j _ rfl]
  rfl

set_option maxHeartbeats 1000000 in
/-- The variance row: the mean of squares less the squared mean, cut off at zero. -/
theorem hostOps13_var (V : Valuation τ sig (Elt Ideal)) (Z : Cert.Spec.Mx 50000 512)
    (hs : ∀ (j : Fin 512) (i : Fin 1024), i.val = j.val → (V (Proc.devRef .tc main_v208_1) : Cert.Spec.Mx 1 1024) (ix2 0 i) = Cert.Spec.colSum Z j)
    (hq : ∀ (j : Fin 512) (i : Fin 1024), i.val = 512 + j.val → (V (Proc.devRef .tc main_v208_1) : Cert.Spec.Mx 1 1024) (ix2 0 i) = Cert.Spec.colSumSq Z j) :
    rowOf (StableHlo.after (hostOps13 (F := Ideal)) V (Proc.devRef .tc main_v218) : Cert.Spec.Mx 1 512) = Cert.Spec.varK Z := by
  have e : (StableHlo.after (hostOps13 (F := Ideal)) V (Proc.devRef .tc main_v218) : Cert.Spec.Mx 1 512)
      = maximumf (subf
          (Host.divf (extractStridedSlice S1x512 ![0, 512] (V (Proc.devRef .tc main_v208_1)) slices_S1x1024_S1x512_0_512)
            (broadcastInDim S1x512 ![] bcast_S_S1x512 (constant (F := Ideal) S_ .f32 0x47435000#32)))
          (mulf
            (Host.divf (extractStridedSlice S1x512 ![0, 0] (V (Proc.devRef .tc main_v208_1)) slices_S1x1024_S1x512_0_0)
              (broadcastInDim S1x512 ![] bcast_S_S1x512 (constant (F := Ideal) S_ .f32 0x47435000#32)))
            (Host.divf (extractStridedSlice S1x512 ![0, 0] (V (Proc.devRef .tc main_v208_1)) slices_S1x1024_S1x512_0_0)
              (broadcastInDim S1x512 ![] bcast_S_S1x512 (constant (F := Ideal) S_ .f32 0x47435000#32)))))
          (broadcastInDim S1x512 ![] bcast_S_S1x512 (constant (F := Ideal) S_ .f32 0x00000000#32)) := by
    after_results <;> rfl
  funext j
  unfold rowOf Cert.Spec.varK Cert.Spec.mean
  rw [e]
  show max (Ideal.div (extractStridedSlice S1x512 ![0, 512] (V (Proc.devRef .tc main_v208_1)) slices_S1x1024_S1x512_0_512 (ix2 0 j)) _
      - Ideal.div (extractStridedSlice S1x512 ![0, 0] (V (Proc.devRef .tc main_v208_1)) slices_S1x1024_S1x512_0_0 (ix2 0 j)) _
        * Ideal.div (extractStridedSlice S1x512 ![0, 0] (V (Proc.devRef .tc main_v208_1)) slices_S1x1024_S1x512_0_0 (ix2 0 j)) _) _ = _
  rw [slice2_axis1_apply 512 _ slices_S1x1024_S1x512_0_512 0 j ⟨512 + j.val, by omega⟩ rfl,
    slice2_axis1_apply 0 _ slices_S1x1024_S1x512_0_0 0 j ⟨j.val, by omega⟩ (Nat.zero_add _).symm, hq j _ rfl, hs j _ rfl]
  rfl

set_option maxHeartbeats 1000000 in
/-- The gain and bias rows are the `[512]` arguments with a unit axis put in front. -/
theorem hostOps13_gain (V : Valuation τ sig (Elt Ideal)) :
    rowOf (StableHlo.after (hostOps13 (F := Ideal)) V (Proc.devRef .tc main_v219) : Cert.Spec.Mx 1 512)
      = fun j => (V (Proc.devRef .tc main_arg14) : (⟨1, ![512]⟩ : Shape).Idx → EReal) (ix1 j) := by
  have e : (StableHlo.after (hostOps13 (F := Ideal)) V (Proc.devRef .tc main_v219) : Cert.Spec.Mx 1 512)
      = shapeCast S1x512 (V (Proc.devRef .tc main_arg14)) shapeCasts_S512_S1x512 := by
    after_results <;> rfl
  funext j
  unfold rowOf
  rw [e]
  exact shapeCast_a_1a_apply _ _ 0 j
set_option maxHeartbeats 1000000 in
/-- The bias row likewise. -/
theorem hostOps13_bias (V : Valuation τ sig (Elt Ideal)) :
    rowOf (StableHlo.after (hostOps13 (F := Ideal)) V (Proc.devRef .tc main_v220) : Cert.Spec.Mx 1 512)
      = fun j => (V (Proc.devRef .tc main_arg15) : (⟨1, ![512]⟩ : Shape).Idx → EReal) (ix1 j) := by
  have e : (StableHlo.after (hostOps13 (F := Ideal)) V (Proc.devRef .tc main_v220) : Cert.Spec.Mx 1 512)
      = shapeCast S1x512 (V (Proc.devRef .tc main_arg15)) shapeCasts_S512_S1x512 := by
    after_results <;> rfl
  funext j
  unfold rowOf
  rw [e]
  exact shapeCast_a_1a_apply _ _ 0 j

end Stats1

section Stats2

set_option maxHeartbeats 1000000 in
/-- The statistics stretch `hostOps14`: the mean row is the column sums over the number of rows. -/
theorem hostOps14_mean (V : Valuation τ sig (Elt Ideal)) (Z : Cert.Spec.Mx 50000 256)
    (hs : ∀ (j : Fin 256) (i : Fin 512), i.val = j.val → (V (Proc.devRef .tc main_v221_1) : Cert.Spec.Mx 1 512) (ix2 0 i) = Cert.Spec.colSum Z j) :
    rowOf (StableHlo.after (hostOps14 (F := Ideal)) V (Proc.devRef .tc main_v224) : Cert.Spec.Mx 1 256) = Cert.Spec.mean Z := by
  have e : (StableHlo.after (hostOps14 (F := Ideal)) V (Proc.devRef .tc main_v224) : Cert.Spec.Mx 1 256)
      = Host.divf (extractStridedSlice S1x256 ![0, 0] (V (Proc.devRef .tc main_v221_1)) slices_S1x512_S1x256_0_0)
          (broadcastInDim S1x256 ![] bcast_S_S1x256 (constant (F := Ideal) S_ .f32 0x47435000#32)) := by
    after_results <;> rfl
  funext j
  unfold rowOf Cert.Spec.mean
  rw [e]
  show Ideal.div (extractStridedSlice S1x256 ![0, 0] (V (Proc.devRef .tc main_v221_1)) slices_S1x512_S1x256_0_0 (ix2 0 j)) _ = _
  rw [slice2_axis1_apply 0 _ slices_S1x512_S1x256_0_0 0 j ⟨j.val, by omega⟩ (Nat.zero_add _).symm, hs j _ rfl]
  rfl

set_option maxHeartbeats 1000000 in
/-- The variance row: the mean of squares less the squared mean, cut off at zero. -/
theorem hostOps14_var (V : Valuation τ sig (Elt Ideal)) (Z : Cert.Spec.Mx 50000 256)
    (hs : ∀ (j : Fin 256) (i : Fin 512), i.val = j.val → (V (Proc.devRef .tc main_v221_1) : Cert.Spec.Mx 1 512) (ix2 0 i) = Cert.Spec.colSum Z j)
    (hq : ∀ (j : Fin 256) (i : Fin 512), i.val = 256 + j.val → (V (Proc.devRef .tc main_v221_1) : Cert.Spec.Mx 1 512) (ix2 0 i) = Cert.Spec.colSumSq Z j) :
    rowOf (StableHlo.after (hostOps14 (F := Ideal)) V (Proc.devRef .tc main_v231) : Cert.Spec.Mx 1 256) = Cert.Spec.varK Z := by
  have e : (StableHlo.after (hostOps14 (F := Ideal)) V (Proc.devRef .tc main_v231) : Cert.Spec.Mx 1 256)
      = maximumf (subf
          (Host.divf (extractStridedSlice S1x256 ![0, 256] (V (Proc.devRef .tc main_v221_1)) slices_S1x512_S1x256_0_256)
            (broadcastInDim S1x256 ![] bcast_S_S1x256 (constant (F := Ideal) S_ .f32 0x47435000#32)))
          (mulf
            (Host.divf (extractStridedSlice S1x256 ![0, 0] (V (Proc.devRef .tc main_v221_1)) slices_S1x512_S1x256_0_0)
              (broadcastInDim S1x256 ![] bcast_S_S1x256 (constant (F := Ideal) S_ .f32 0x47435000#32)))
            (Host.divf (extractStridedSlice S1x256 ![0, 0] (V (Proc.devRef .tc main_v221_1)) slices_S1x512_S1x256_0_0)
              (broadcastInDim S1x256 ![] bcast_S_S1x256 (constant (F := Ideal) S_ .f32 0x47435000#32)))))
          (broadcastInDim S1x256 ![] bcast_S_S1x256 (constant (F := Ideal) S_ .f32 0x00000000#32)) := by
    after_results <;> rfl
  funext j
  unfold rowOf Cert.Spec.varK Cert.Spec.mean
  rw [e]
  show max (Ideal.div (extractStridedSlice S1x256 ![0, 256] (V (Proc.devRef .tc main_v221_1)) slices_S1x512_S1x256_0_256 (ix2 0 j)) _
      - Ideal.div (extractStridedSlice S1x256 ![0, 0] (V (Proc.devRef .tc main_v221_1)) slices_S1x512_S1x256_0_0 (ix2 0 j)) _
        * Ideal.div (extractStridedSlice S1x256 ![0, 0] (V (Proc.devRef .tc main_v221_1)) slices_S1x512_S1x256_0_0 (ix2 0 j)) _) _ = _
  rw [slice2_axis1_apply 256 _ slices_S1x512_S1x256_0_256 0 j ⟨256 + j.val, by omega⟩ rfl,
    slice2_axis1_apply 0 _ slices_S1x512_S1x256_0_0 0 j ⟨j.val, by omega⟩ (Nat.zero_add _).symm, hq j _ rfl, hs j _ rfl]
  rfl

set_option maxHeartbeats 1000000 in
/-- The gain and bias rows are the `[256]` arguments with a unit axis put in front. -/
theorem hostOps14_gain (V : Valuation τ sig (Elt Ideal)) :
    rowOf (StableHlo.after (hostOps14 (F := Ideal)) V (Proc.devRef .tc main_v232) : Cert.Spec.Mx 1 256)
      = fun j => (V (Proc.devRef .tc main_arg16) : (⟨1, ![256]⟩ : Shape).Idx → EReal) (ix1 j) := by
  have e : (StableHlo.after (hostOps14 (F := Ideal)) V (Proc.devRef .tc main_v232) : Cert.Spec.Mx 1 256)
      = shapeCast S1x256 (V (Proc.devRef .tc main_arg16)) shapeCasts_S256_S1x256 := by
    after_results <;> rfl
  funext j
  unfold rowOf
  rw [e]
  exact shapeCast_a_1a_apply _ _ 0 j
set_option maxHeartbeats 1000000 in
/-- The bias row likewise. -/
theorem hostOps14_bias (V : Valuation τ sig (Elt Ideal)) :
    rowOf (StableHlo.after (hostOps14 (F := Ideal)) V (Proc.devRef .tc main_v233) : Cert.Spec.Mx 1 256)
      = fun j => (V (Proc.devRef .tc main_arg17) : (⟨1, ![256]⟩ : Shape).Idx → EReal) (ix1 j) := by
  have e : (StableHlo.after (hostOps14 (F := Ideal)) V (Proc.devRef .tc main_v233) : Cert.Spec.Mx 1 256)
      = shapeCast S1x256 (V (Proc.devRef .tc main_arg17)) shapeCasts_S256_S1x256 := by
    after_results <;> rfl
  funext j
  unfold rowOf
  rw [e]
  exact shapeCast_a_1a_apply _ _ 0 j

end Stats2

section Layer

variable (m : (ℓ : Loc nD τ sig) → Buf (Elt Ideal) ℓ) (outs : Outs (F := Ideal)) (c : Dev nD)

set_option maxHeartbeats 1000000 in
/-- Layer 4: from the valuation its aggregation stretch is entered with, the third stage's output is the kernel's
    layer of the input plus its edge aggregate. -/
theorem layer4
    (H0 : Stage1 (n := 50000) (k := 256) (h := 512) (h2 := 1024) (V35 m outs c main_v193) (V35 m outs c main_v207) (V35 m outs c main_v2)
      (outs 36 main_v208_0 c) (outs 36 main_v208_1 c))
    (H1 : Stage2 (n := 50000) (h := 512) (o := 256) (o2 := 512) (V37 m outs c main_v208_0) (V37 m outs c main_v211) (V37 m outs c main_v218)
      (V37 m outs c main_v219) (V37 m outs c main_v220) (V37 m outs c main_v3) (outs 38 main_v221_0 c) (outs 38 main_v221_1 c))
    (H2 : Stage3 (n := 50000) (o := 256) (V39 m outs c main_v221_0) (V39 m outs c main_v224) (V39 m outs c main_v231)
      (V39 m outs c main_v232) (V39 m outs c main_v233) (outs 40 main_v234 c)) :
    (V40 m outs c main_v234 : Cert.Spec.Mx 50000 256)
      = Cert.Spec.layerK (Cert.Spec.add2 (V34 m outs c main_v193) (aggK256 (V34 m outs c main_v193) (m ((c : Thread nD τ).loc main_arg2))))
          (m ((c : Thread nD τ).loc main_arg12)) (m ((c : Thread nD τ).loc main_arg13)) (fun j => m ((c : Thread nD τ).loc main_arg14) (ix1 j)) (fun j => m ((c : Thread nD τ).loc main_arg15) (ix1 j))
          (fun j => m ((c : Thread nD τ).loc main_arg16) (ix1 j)) (fun j => m ((c : Thread nD τ).loc main_arg17) (ix1 j)) := by
  -- the first stage's operands: the input as it was, its edge aggregate, the weights
  have ex : V35 m outs c (Proc.devRef .tc main_v193) = V34 m outs c (Proc.devRef .tc main_v193) := V35_of m outs c main_v193 (by decide)
  have eei : V34 m outs c (Proc.devRef .tc main_arg2) = m ((c : Thread nD τ).loc main_arg2) := by carry <;> rfl
  have ea : (V35 m outs c (Proc.devRef .tc main_v207) : Cert.Spec.Mx 50000 256) = aggK256 (V34 m outs c (Proc.devRef .tc main_v193)) (m ((c : Thread nD τ).loc main_arg2)) :=
    (hostOps12_agg (V34 m outs c)).trans (by rw [eei])
  have ew1 : (V35 m outs c (Proc.devRef .tc main_v2) : Cert.Spec.Mx 256 512) = m ((c : Thread nD τ).loc main_arg12) := by
    carry; exact hostOps0_main_v2 (V0 m c)
  have hz1 := H0.val
  rw [ex, ea, ew1] at hz1
  -- the statistics of the first stage
  have e1z : V36 m outs c (Proc.devRef .tc main_v208_0) = outs 36 main_v208_0 c :=
    (Function.update_of_ne (StableHlo.devRef_ne_of_ne (by decide)) _ _).trans (Function.update_self ..)
  have e1s : V36 m outs c (Proc.devRef .tc main_v208_1) = outs 36 main_v208_1 c := Function.update_self ..
  have hmu1 : rowOf (V37 m outs c main_v211 : Cert.Spec.Mx 1 512) = Cert.Spec.mean (outs 36 main_v208_0 c) :=
    hostOps13_mean (V36 m outs c) _ (fun j i hi => by rw [e1s]; exact H0.sum j i hi)
  have hvar1 : rowOf (V37 m outs c main_v218 : Cert.Spec.Mx 1 512) = Cert.Spec.varK (outs 36 main_v208_0 c) :=
    hostOps13_var (V36 m outs c) _ (fun j i hi => by rw [e1s]; exact H0.sum j i hi) (fun j i hi => by rw [e1s]; exact H0.sq j i hi)
  have eg1 : V36 m outs c (Proc.devRef .tc main_arg14) = m ((c : Thread nD τ).loc main_arg14) := by carry <;> rfl
  have eb1 : V36 m outs c (Proc.devRef .tc main_arg15) = m ((c : Thread nD τ).loc main_arg15) := by carry <;> rfl
  have hg1 : rowOf (V37 m outs c main_v219 : Cert.Spec.Mx 1 512) = fun j => m ((c : Thread nD τ).loc main_arg14) (ix1 j) :=
    (hostOps13_gain (V36 m outs c)).trans (by rw [eg1])
  have hb1 : rowOf (V37 m outs c main_v220 : Cert.Spec.Mx 1 512) = fun j => m ((c : Thread nD τ).loc main_arg15) (ix1 j) :=
    (hostOps13_bias (V36 m outs c)).trans (by rw [eb1])
  -- the second stage's operands
  have e2z : V37 m outs c (Proc.devRef .tc main_v208_0) = outs 36 main_v208_0 c := (V37_of m outs c main_v208_0 (by decide)).trans e1z
  have ew2 : (V37 m outs c (Proc.devRef .tc main_v3) : Cert.Spec.Mx 512 256) = m ((c : Thread nD τ).loc main_arg13) := by
    carry; exact hostOps0_main_v3 (V0 m c)
  have hz2 := H1.val
  rw [e2z, ew2] at hz2
  -- the statistics of the second stage
  have e3z : V38 m outs c (Proc.devRef .tc main_v221_0) = outs 38 main_v221_0 c :=
    (Function.update_of_ne (StableHlo.devRef_ne_of_ne (by decide)) _ _).trans (Function.update_self ..)
  have e3s : V38 m outs c (Proc.devRef .tc main_v221_1) = outs 38 main_v221_1 c := Function.update_self ..
  have hmu2 : rowOf (V39 m outs c main_v224 : Cert.Spec.Mx 1 256) = Cert.Spec.mean (outs 38 main_v221_0 c) :=
    hostOps14_mean (V38 m outs c) _ (fun j i hi => by rw [e3s]; exact H1.sum j i hi)
  have hvar2 : rowOf (V39 m outs c main_v231 : Cert.Spec.Mx 1 256) = Cert.Spec.varK (outs 38 main_v221_0 c) :=
    hostOps14_var (V38 m outs c) _ (fun j i hi => by rw [e3s]; exact H1.sum j i hi) (fun j i hi => by rw [e3s]; exact H1.sq j i hi)
  have eg2 : V38 m outs c (Proc.devRef .tc main_arg16) = m ((c : Thread nD τ).loc main_arg16) := by carry <;> rfl
  have eb2 : V38 m outs c (Proc.devRef .tc main_arg17) = m ((c : Thread nD τ).loc main_arg17) := by carry <;> rfl
  have hg2 : rowOf (V39 m outs c main_v232 : Cert.Spec.Mx 1 256) = fun j => m ((c : Thread nD τ).loc main_arg16) (ix1 j) :=
    (hostOps14_gain (V38 m outs c)).trans (by rw [eg2])
  have hb2 : rowOf (V39 m outs c main_v233 : Cert.Spec.Mx 1 256) = fun j => m ((c : Thread nD τ).loc main_arg17) (ix1 j) :=
    (hostOps14_bias (V38 m outs c)).trans (by rw [eb2])
  -- the third stage
  have e4z : V39 m outs c (Proc.devRef .tc main_v221_0) = outs 38 main_v221_0 c := (V39_of m outs c main_v221_0 (by decide)).trans e3z
  have hout : (outs 40 main_v234 c : Cert.Spec.Mx 50000 256) = _ := H2
  rw [e4z] at hout
  have e5 : V40 m outs c (Proc.devRef .tc main_v234) = outs 40 main_v234 c := Function.update_self ..
  exact e5.trans (layerK_of_stages hz1 hmu1 hvar1 hg1 hb1 hz2 hmu2 hvar2 hg2 hb2 hout)

end Layer

end Cert.KernelIdeal.HandValue

end
-- ==== Proof.KI.ChainL5.lean ====
/-
  Layer 5, the decoder layer of the second pass (kernel regions 15, 16, 17).
  Its aggregation stretch leaves the edge aggregate of the input; after each of the first two stages a host stretch
  turns the statistics row into the mean row and the variance row (the mean of squares less the squared mean, cut off
  at zero) and puts a unit axis in front of the gain and the bias; with what the three regions are assumed to leave,
  the third stage's output is the kernel's layer of the input plus its edge aggregate.
-/
import proofs.«427833_j20194936226511_1_alg».proof.Proof.KI.ChainBase

set_option maxRecDepth 8192

noncomputable section

namespace Cert.KernelIdeal.HandValue

open Cert.KernelIdeal Cert.KernelIdeal.Gen
open Idealize.ShloMosaic Idealize.ShloMosaic.TcCoe Idealize.ShloMosaic.ValueIdx
open Idealize.SL.Sem

section Agg

set_option maxHeartbeats 1000000 in
/-- The aggregation stretch `hostOps15_2` leaves the edge aggregate of its input. -/
theorem hostOps15_2_agg (V : Valuation τ sig (Elt Ideal)) :
    (StableHlo.after (hostOps15_2 (F := Ideal)) V (Proc.devRef .tc main_v249) : Cert.Spec.Mx 50000 256)
      = aggK256 (V (Proc.devRef .tc main_v235)) (V (Proc.devRef .tc main_arg2)) := by
  after_results <;> rfl

end Agg

section Stats1

set_option maxHeartbeats 1000000 in
/-- The statistics stretch `hostOps16`: the mean row is the column sums over the number of rows. -/
theorem hostOps16_mean (V : Valuation τ sig (Elt Ideal)) (Z : Cert.Spec.Mx 50000 512)
    (hs : ∀ (j : Fin 512) (i : Fin 1024), i.val = j.val → (V (Proc.devRef .tc main_v250_1) : Cert.Spec.Mx 1 1024) (ix2 0 i) = Cert.Spec.colSum Z j) :
    rowOf (StableHlo.after (hostOps16 (F := Ideal)) V (Proc.devRef .tc main_v253) : Cert.Spec.Mx 1 512) = Cert.Spec.mean Z := by
  have e : (StableHlo.after (hostOps16 (F := Ideal)) V (Proc.devRef .tc main_v253) : Cert.Spec.Mx 1 512)
      = Host.divf (extractStridedSlice S1x512 ![0, 0] (V (Proc.devRef .tc main_v250_1)) slices_S1x1024_S1x512_0_0)
          (broadcastInDim S1x512 ![] bcast_S_S1x512 (constant (F := Ideal) S_ .f32 0x47435000#32)) := by
    after_results <;> rfl
  funext j
  unfold rowOf Cert.Spec.mean
  rw [e]
  show Ideal.div (extractStridedSlice S1x512 ![0, 0] (V (Proc.devRef .tc main_v250_1)) slices_S1x1024_S1x512_0_0 (ix2 0 j)) _ = _
  rw [slice2_axis1_apply 0 _ slices_S1x1024_S1x512_0_0 0 j ⟨j.val, by omega⟩ (Nat.zero_add _).symm, hs j _ rfl]
  rfl

set_option maxHeartbeats 1000000 in
/-- The variance row: the mean of squares less the squared mean, cut off at zero. -/
theorem hostOps16_var (V : Valuation τ sig (Elt Ideal)) (Z : Cert.Spec.Mx 50000 512)
    (hs : ∀ (j : Fin 512) (i : Fin 1024), i.val = j.val → (V (Proc.devRef .tc main_v250_1) : Cert.Spec.Mx 1 1024) (ix2 0 i) = Cert.Spec.colSum Z j)
    (hq : ∀ (j : Fin 512) (i : Fin 1024), i.val = 512 + j.val → (V (Proc.devRef .tc main_v250_1) : Cert.Spec.Mx 1 1024) (ix2 0 i) = Cert.Spec.colSumSq Z j) :
    rowOf (StableHlo.after (hostOps16 (F := Ideal)) V (Proc.devRef .tc main_v260) : Cert.Spec.Mx 1 512) = Cert.Spec.varK Z := by
  have e : (StableHlo.after (hostOps16 (F := Ideal)) V (Proc.devRef .tc main_v260) : Cert.Spec.Mx 1 512)
      = maximumf (subf
          (Host.divf (extractStridedSlice S1x512 ![0, 512] (V (Proc.devRef .tc main_v250_1)) slices_S1x1024_S1x512_0_512)
            (broadcastInDim S1x512 ![] bcast_S_S1x512 (constant (F := Ideal) S_ .f32 0x47435000#32)))
          (mulf
            (Host.divf (extractStridedSlice S1x512 ![0, 0] (V (Proc.devRef .tc main_v250_1)) slices_S1x1024_S1x512_0_0)
              (broadcastInDim S1x512 ![] bcast_S_S1x512 (constant (F := Ideal) S_ .f32 0x47435000#32)))
            (Host.divf (extractStridedSlice S1x512 ![0, 0] (V (Proc.devRef .tc main_v250_1)) slices_S1x1024_S1x512_0_0)
              (broadcastInDim S1x512 ![] bcast_S_S1x512 (constant (F := Ideal) S_ .f32 0x47435000#32)))))
          (broadcastInDim S1x512 ![] bcast_S_S1x512 (constant (F := Ideal) S_ .f32 0x00000000#32)) := by
    after_results <;> rfl
  funext j
  unfold rowOf Cert.Spec.varK Cert.Spec.mean
  rw [e]
  show max (Ideal.div (extractStridedSlice S1x512 ![0, 512] (V (Proc.devRef .tc main_v250_1)) slices_S1x1024_S1x512_0_512 (ix2 0 j)) _
      - Ideal.div (extractStridedSlice S1x512 ![0, 0] (V (Proc.devRef .tc main_v250_1)) slices_S1x1024_S1x512_0_0 (ix2 0 j)) _
        * Ideal.div (extractStridedSlice S1x512 ![0, 0] (V (Proc.devRef .tc main_v250_1)) slices_S1x1024_S1x512_0_0 (ix2 0 j)) _) _ = _
  rw [slice2_axis1_apply 512 _ slices_S1x1024_S1x512_0_512 0 j ⟨512 + j.val, by omega⟩ rfl,
    slice2_axis1_apply 0 _ slices_S1x1024_S1x512_0_0 0 j ⟨j.val, by omega⟩ (Nat.zero_add _).symm, hq j _ rfl, hs j _ rfl]
  rfl

set_option maxHeartbeats 1000000 in
/-- The gain and bias rows are the `[512]` arguments with a unit axis put in front. -/
theorem hostOps16_gain (V : Valuation τ sig (Elt Ideal)) :
    rowOf (StableHlo.after (hostOps16 (F := Ideal)) V (Proc.devRef .tc main_v261) : Cert.Spec.Mx 1 512)
      = fun j => (V (Proc.devRef .tc main_arg20) : (⟨1, ![512]⟩ : Shape).Idx → EReal) (ix1 j) := by
  have e : (StableHlo.after (hostOps16 (F := Ideal)) V (Proc.devRef .tc main_v261) : Cert.Spec.Mx 1 512)
      = shapeCast S1x512 (V (Proc.devRef .tc main_arg20)) shapeCasts_S512_S1x512 := by
    after_results <;> rfl
  funext j
  unfold rowOf
  rw [e]
  exact shapeCast_a_1a_apply _ _ 0 j
set_option maxHeartbeats 1000000 in
/-- The bias row likewise. -/
theorem hostOps16_bias (V : Valuation τ sig (Elt Ideal)) :
    rowOf (StableHlo.after (hostOps16 (F := Ideal)) V (Proc.devRef .tc main_v262) : Cert.Spec.Mx 1 512)
      = fun j => (V (Proc.devRef .tc main_arg21) : (⟨1, ![512]⟩ : Shape).Idx → EReal) (ix1 j) := by
  have e : (StableHlo.after (hostOps16 (F := Ideal)) V (Proc.devRef .tc main_v262) : Cert.Spec.Mx 1 512)
      = shapeCast S1x512 (V (Proc.devRef .tc main_arg21)) shapeCasts_S512_S1x512 := by
    after_results <;> rfl
  funext j
  unfold rowOf
  rw [e]
  exact shapeCast_a_1a_apply _ _ 0 j

end Stats1

section Stats2

set_option maxHeartbeats 1000000 in
/-- The statistics stretch `hostOps17`: the mean row is the column sums over the number of rows. -/
theorem hostOps17_mean (V : Valuation τ sig (Elt Ideal)) (Z : Cert.Spec.Mx 50000 128)
    (hs : ∀ (j : Fin 128) (i : Fin 256), i.val = j.val → (V (Proc.devRef .tc main_v263_1) : Cert.Spec.Mx 1 256) (ix2 0 i) = Cert.Spec.colSum Z j) :
    rowOf (StableHlo.after (hostOps17 (F := Ideal)) V (Proc.devRef .tc main_v266) : Cert.Spec.Mx 1 128) = Cert.Spec.mean Z := by
  have e : (StableHlo.after (hostOps17 (F := Ideal)) V (Proc.devRef .tc main_v266) : Cert.Spec.Mx 1 128)
      = Host.divf (extractStridedSlice S1x128 ![0, 0] (V (Proc.devRef .tc main_v263_1)) slices_S1x256_S1x128_0_0)
          (broadcastInDim S1x128 ![] bcast_S_S1x128 (constant (F := Ideal) S_ .f32 0x47435000#32)) := by
    after_results <;> rfl
  funext j
  unfold rowOf Cert.Spec.mean
  rw [e]
  show Ideal.div (extractStridedSlice S1x128 ![0, 0] (V (Proc.devRef .tc main_v263_1)) slices_S1x256_S1x128_0_0 (ix2 0 j)) _ = _
  rw [slice2_axis1_apply 0 _ slices_S1x256_S1x128_0_0 0 j ⟨j.val, by omega⟩ (Nat.zero_add _).symm, hs j _ rfl]
  rfl

set_option maxHeartbeats 1000000 in
/-- The variance row: the mean of squares less the squared mean, cut off at zero. -/
theorem hostOps17_var (V : Valuation τ sig (Elt Ideal)) (Z : Cert.Spec.Mx 50000 128)
    (hs : ∀ (j : Fin 128) (i : Fin 256), i.val = j.val → (V (Proc.devRef .tc main_v263_1) : Cert.Spec.Mx 1 256) (ix2 0 i) = Cert.Spec.colSum Z j)
    (hq : ∀ (j : Fin 128) (i : Fin 256), i.val = 128 + j.val → (V (Proc.devRef .tc main_v263_1) : Cert.Spec.Mx 1 256) (ix2 0 i) = Cert.Spec.colSumSq Z j) :
    rowOf (StableHlo.after (hostOps17 (F := Ideal)) V (Proc.devRef .tc main_v273) : Cert.Spec.Mx 1 128) = Cert.Spec.varK Z := by
  have e : (StableHlo.after (hostOps17 (F := Ideal)) V (Proc.devRef .tc main_v273) : Cert.Spec.Mx 1 128)
      = maximumf (subf
          (Host.divf (extractStridedSlice S1x128 ![0, 128] (V (Proc.devRef .tc main_v263_1)) slices_S1x256_S1x128_0_128)
            (broadcastInDim S1x128 ![] bcast_S_S1x128 (constant (F := Ideal) S_ .f32 0x47435000#32)))
          (mulf
            (Host.divf (extractStridedSlice S1x128 ![0, 0] (V (Proc.devRef .tc main_v263_1)) slices_S1x256_S1x128_0_0)
              (broadcastInDim S1x128 ![] bcast_S_S1x128 (constant (F := Ideal) S_ .f32 0x47435000#32)))
            (Host.divf (extractStridedSlice S1x128 ![0, 0] (V (Proc.devRef .tc main_v263_1)) slices_S1x256_S1x128_0_0)
              (broadcastInDim S1x128 ![] bcast_S_S1x128 (constant (F := Ideal) S_ .f32 0x47435000#32)))))
          (broadcastInDim S1x128 ![] bcast_S_S1x128 (constant (F := Ideal) S_ .f32 0x00000000#32)) := by
    after_results <;> rfl
  funext j
  unfold rowOf Cert.Spec.varK Cert.Spec.mean
  rw [e]
  show max (Ideal.div (extractStridedSlice S1x128 ![0, 128] (V (Proc.devRef .tc main_v263_1)) slices_S1x256_S1x128_0_128 (ix2 0 j)) _
      - Ideal.div (extractStridedSlice S1x128 ![0, 0] (V (Proc.devRef .tc main_v263_1)) slices_S1x256_S1x128_0_0 (ix2 0 j)) _
        * Ideal.div (extractStridedSlice S1x128 ![0, 0] (V (Proc.devRef .tc main_v263_1)) slices_S1x256_S1x128_0_0 (ix2 0 j)) _) _ = _
  rw [slice2_axis1_apply 128 _ slices_S1x256_S1x128_0_128 0 j ⟨128 + j.val, by omega⟩ rfl,
    slice2_axis1_apply 0 _ slices_S1x256_S1x128_0_0 0 j ⟨j.val, by omega⟩ (Nat.zero_add _).symm, hq j _ rfl, hs j _ rfl]
  rfl

set_option maxHeartbeats 1000000 in
/-- The gain and bias rows are the `[128]` arguments with a unit axis put in front. -/
theorem hostOps17_gain (V : Valuation τ sig (Elt Ideal)) :
    rowOf (StableHlo.after (hostOps17 (F := Ideal)) V (Proc.devRef .tc main_v274) : Cert.Spec.Mx 1 128)
      = fun j => (V (Proc.devRef .tc main_arg22) : (⟨1, ![128]⟩ : Shape).Idx → EReal) (ix1 j) := by
  have e : (StableHlo.after (hostOps17 (F := Ideal)) V (Proc.devRef .tc main_v274) : Cert.Spec.Mx 1 128)
      = shapeCast S1x128 (V (Proc.devRef .tc main_arg22)) shapeCasts_S128_S1x128 := by
    after_results <;> rfl
  funext j
  unfold rowOf
  rw [e]
  exact shapeCast_a_1a_apply _ _ 0 j
set_option maxHeartbeats 1000000 in
/-- The bias row likewise. -/
theorem hostOps17_bias (V : Valuation τ sig (Elt Ideal)) :
    rowOf (StableHlo.after (hostOps17 (F := Ideal)) V (Proc.devRef .tc main_v275) : Cert.Spec.Mx 1 128)
      = fun j => (V (Proc.devRef .tc main_arg23) : (⟨1, ![128]⟩ : Shape).Idx → EReal) (ix1 j) := by
  have e : (StableHlo.after (hostOps17 (F := Ideal)) V (Proc.devRef .tc main_v275) : Cert.Spec.Mx 1 128)
      = shapeCast S1x128 (V (Proc.devRef .tc main_arg23)) shapeCasts_S128_S1x128 := by
    after_results <;> rfl
  funext j
  unfold rowOf
  rw [e]
  exact shapeCast_a_1a_apply _ _ 0 j

end Stats2

section Layer

variable (m : (ℓ : Loc nD τ sig) → Buf (Elt Ideal) ℓ) (outs : Outs (F := Ideal)) (c : Dev nD)

set_option maxHeartbeats 1000000 in
/-- Layer 5: from the valuation its aggregation stretch is entered with, the third stage's output is the kernel's
    layer of the input plus its edge aggregate. -/
theorem layer5
    (H0 : Stage1 (n := 50000) (k := 256) (h := 512) (h2 := 1024) (V43 m outs c main_v235) (V43 m outs c main_v249) (V43 m outs c main_v4)
      (outs 44 main_v250_0 c) (outs 44 main_v250_1 c))
    (H1 : Stage2 (n := 50000) (h := 512) (o := 128) (o2 := 256) (V45 m outs c main_v250_0) (V45 m outs c main_v253) (V45 m outs c main_v260)
      (V45 m outs c main_v261) (V45 m outs c main_v262) (V45 m outs c main_v5) (outs 46 main_v263_0 c) (outs 46 main_v263_1 c))
    (H2 : Stage3 (n := 50000) (o := 128) (V47 m outs c main_v263_0) (V47 m outs c main_v266) (V47 m outs c main_v273)
      (V47 m outs c main_v274) (V47 m outs c main_v275) (outs 48 main_v276 c)) :
    (V48 m outs c main_v276 : Cert.Spec.Mx 50000 128)
      = Cert.Spec.layerK (Cert.Spec.add2 (V42 m outs c main_v235) (aggK256 (V42 m outs c main_v235) (m ((c : Thread nD τ).loc main_arg2))))
          (m ((c : Thread nD τ).loc main_arg18)) (m ((c : Thread nD τ).loc main_arg19)) (fun j => m ((c : Thread nD τ).loc main_arg20) (ix1 j)) (fun j => m ((c : Thread nD τ).loc main_arg21) (ix1 j))
          (fun j => m ((c : Thread nD τ).loc main_arg22) (ix1 j)) (fun j => m ((c : Thread nD τ).loc main_arg23) (ix1 j)) := by
  -- the first stage's operands: the input as it was, its edge aggregate, the weights
  have ex : V43 m outs c (Proc.devRef .tc main_v235) = V42 m outs c (Proc.devRef .tc main_v235) := V43_of m outs c main_v235 (by decide)
  have eei : V42 m outs c (Proc.devRef .tc main_arg2) = m ((c : Thread nD τ).loc main_arg2) := by carry <;> rfl
  have ea : (V43 m outs c (Proc.devRef .tc main_v249) : Cert.Spec.Mx 50000 256) = aggK256 (V42 m outs c (Proc.devRef .tc main_v235)) (m ((c : Thread nD τ).loc main_arg2)) :=
    (hostOps15_2_agg (V42 m outs c)).trans (by rw [eei])
  have ew1 : (V43 m outs c (Proc.devRef .tc main_v4) : Cert.Spec.Mx 256 512) = m ((c : Thread nD τ).loc main_arg18) := by
    carry; exact hostOps0_main_v4 (V0 m c)
  have hz1 := H0.val
  rw [ex, ea, ew1] at hz1
  -- the statistics of the first stage
  have e1z : V44 m outs c (Proc.devRef .tc main_v250_0) = outs 44 main_v250_0 c :=
    (Function.update_of_ne (StableHlo.devRef_ne_of_ne (by decide)) _ _).trans (Function.update_self ..)
  have e1s : V44 m outs c (Proc.devRef .tc main_v250_1) = outs 44 main_v250_1 c := Function.update_self ..
  have hmu1 : rowOf (V45 m outs c main_v253 : Cert.Spec.Mx 1 512) = Cert.Spec.mean (outs 44 main_v250_0 c) :=
    hostOps16_mean (V44 m outs c) _ (fun j i hi => by rw [e1s]; exact H0.sum j i hi)
  have hvar1 : rowOf (V45 m outs c main_v260 : Cert.Spec.Mx 1 512) = Cert.Spec.varK (outs 44 main_v250_0 c) :=
    hostOps16_var (V44 m outs c) _ (fun j i hi => by rw [e1s]; exact H0.sum j i hi) (fun j i hi => by rw [e1s]; exact H0.sq j i hi)
  have eg1 : V44 m outs c (Proc.devRef .tc main_arg20) = m ((c : Thread nD τ).loc main_arg20) := by carry <;> rfl
  have eb1 : V44 m outs c (Proc.devRef .tc main_arg21) = m ((c : Thread nD τ).loc main_arg21) := by carry <;> rfl
  have hg1 : rowOf (V45 m outs c main_v261 : Cert.Spec.Mx 1 512) = fun j => m ((c : Thread nD τ).loc main_arg20) (ix1 j) :=
    (hostOps16_gain (V44 m outs c)).trans (by rw [eg1])
  have hb1 : rowOf (V45 m outs c main_v262 : Cert.Spec.Mx 1 512) = fun j => m ((c : Thread nD τ).loc main_arg21) (ix1 j) :=
    (hostOps16_bias (V44 m outs c)).trans (by rw [eb1])
  -- the second stage's operands
  have e2z : V45 m outs c (Proc.devRef .tc main_v250_0) = outs 44 main_v250_0 c := (V45_of m outs c main_v250_0 (by decide)).trans e1z
  have ew2 : (V45 m outs c (Proc.devRef .tc main_v5) : Cert.Spec.Mx 512 128) = m ((c : Thread nD τ).loc main_arg19) := by
    carry; exact hostOps0_main_v5 (V0 m c)
  have hz2 := H1.val
  rw [e2z, ew2] at hz2
  -- the statistics of the second stage
  have e3z : V46 m outs c (Proc.devRef .tc main_v263_0) = outs 46 main_v263_0 c :=
    (Function.update_of_ne (StableHlo.devRef_ne_of_ne (by decide)) _ _).trans (Function.update_self ..)
  have e3s : V46 m outs c (Proc.devRef .tc main_v263_1) = outs 46 main_v263_1 c := Function.update_self ..
  have hmu2 : rowOf (V47 m outs c main_v266 : Cert.Spec.Mx 1 128) = Cert.Spec.mean (outs 46 main_v263_0 c) :=
    hostOps17_mean (V46 m outs c) _ (fun j i hi => by rw [e3s]; exact H1.sum j i hi)
  have hvar2 : rowOf (V47 m outs c main_v273 : Cert.Spec.Mx 1 128) = Cert.Spec.varK (outs 46 main_v263_0 c) :=
    hostOps17_var (V46 m outs c) _ (fun j i hi => by rw [e3s]; exact H1.sum j i hi) (fun j i hi => by rw [e3s]; exact H1.sq j i hi)
  have eg2 : V46 m outs c (Proc.devRef .tc main_arg22) = m ((c : Thread nD τ).loc main_arg22) := by carry <;> rfl
  have eb2 : V46 m outs c (Proc.devRef .tc main_arg23) = m ((c : Thread nD τ).loc main_arg23) := by carry <;> rfl
  have hg2 : rowOf (V47 m outs c main_v274 : Cert.Spec.Mx 1 128) = fun j => m ((c : Thread nD τ).loc main_arg22) (ix1 j) :=
    (hostOps17_gain (V46 m outs c)).trans (by rw [eg2])
  have hb2 : rowOf (V47 m outs c main_v275 : Cert.Spec.Mx 1 128) = fun j => m ((c : Thread nD τ).loc main_arg23) (ix1 j) :=
    (hostOps17_bias (V46 m outs c)).trans (by rw [eb2])
  -- the third stage
  have e4z : V47 m outs c (Proc.devRef .tc main_v263_0) = outs 46 main_v263_0 c := (V47_of m outs c main_v263_0 (by decide)).trans e3z
  have hout : (outs 48 main_v276 c : Cert.Spec.Mx 50000 128) = _ := H2
  rw [e4z] at hout
  have e5 : V48 m outs c (Proc.devRef .tc main_v276) = outs 48 main_v276 c := Function.update_self ..
  exact e5.trans (layerK_of_stages hz1 hmu1 hvar1 hg1 hb1 hz2 hmu2 hvar2 hg2 hb2 hout)

end Layer

end Cert.KernelIdeal.HandValue

end
-- ==== Proof.KI.Chain.lean ====
/-
  The value of the run's result buffer. Outside the layers the program masks the input (twice per pass), and at the
  end takes, for each pass, the masked mean of one minus the cosine between the pass's reconstruction and the input,
  and a tenth of the mean of one minus the cosine between the two reconstructions. Each such stretch equals the
  corresponding host function by unfolding the run's valuation; the six layers are read by their own lemmas; buffers
  are carried between the places where they are written and read. The result is the loss over the kernel's layers.
-/
import proofs.«427833_j20194936226511_1_alg».proof.Proof.KI.ChainGlue
import proofs.«427833_j20194936226511_1_alg».proof.Proof.KI.ChainBase
import proofs.«427833_j20194936226511_1_alg».proof.Proof.KI.ChainL0
import proofs.«427833_j20194936226511_1_alg».proof.Proof.KI.ChainL1
import proofs.«427833_j20194936226511_1_alg».proof.Proof.KI.ChainL2
import proofs.«427833_j20194936226511_1_alg».proof.Proof.KI.ChainL3
import proofs.«427833_j20194936226511_1_alg».proof.Proof.KI.ChainL4
import proofs.«427833_j20194936226511_1_alg».proof.Proof.KI.ChainL5

set_option maxRecDepth 8192

noncomputable section

namespace Cert.KernelIdeal.HandValue

open Cert.KernelIdeal Cert.KernelIdeal.Gen
open Idealize.ShloMosaic Idealize.ShloMosaic.TcCoe Idealize.ShloMosaic.ValueIdx
open Idealize.SL.Sem

/-! ## The host stretches outside the layers -/

set_option maxHeartbeats 4000000 in
/-- The first pass's input: the rows of masked nodes replaced by zero. -/
theorem where128_p1 (V : Valuation τ sig (Elt Ideal)) :
    (StableHlo.after (hostOps0_1 (F := Ideal)) (StableHlo.after (hostOps0 (F := Ideal)) (V)) (Proc.devRef .tc main_v7) : Cert.Spec.Mx 50000 128)
      = whereK128 (V (Proc.devRef .tc main_arg3)) (V (Proc.devRef .tc main_arg0)) := by
  after_results
  all_goals (try simp only [StableHlo.TRef.ofBuf, StableHlo.TRef.toBuf, cast_eq])
  all_goals rfl

set_option maxHeartbeats 4000000 in
/-- The mask as a column, as the first stretch leaves it. -/
theorem hostOps0_main_v6 (V : Valuation τ sig (Elt Ideal)) :
    StableHlo.after (hostOps0 (F := Ideal)) V (Proc.devRef .tc main_v6)
      = broadcastInDim S50000x1 ![0] bcast_S50000_S50000x1_0 (V (Proc.devRef .tc main_arg3)) := by
  after_results <;> rfl

set_option maxHeartbeats 4000000 in
/-- Masking before the decoder, first pass, over the mask column it reads. -/
theorem where256_p1 (V : Valuation τ sig (Elt Ideal)) :
    (StableHlo.after (hostOps6_1 (F := Ideal)) (StableHlo.after (hostOps6 (F := Ideal)) (V)) (Proc.devRef .tc main_v90) : Cert.Spec.Mx 50000 256)
      = select (broadcastInDim S50000x256 ![0, 1] bcast_S50000x1_S50000x256_0_1 (V (Proc.devRef .tc main_v6)))
          (broadcastInDim S50000x256 ![] bcast_S_S50000x256 (id c0)) (V (Proc.devRef .tc main_v89)) := by
  after_results
  all_goals (try simp only [StableHlo.TRef.ofBuf, StableHlo.TRef.toBuf, cast_eq])
  all_goals rfl

set_option maxHeartbeats 4000000 in
/-- The first pass's loss: the masked mean of one minus the cosine between reconstruction and input. -/
theorem loss1_p (V : Valuation τ sig (Elt Ideal)) :
    (StableHlo.after (hostOps9_4 (F := Ideal)) (StableHlo.after (hostOps9_3 (F := Ideal)) (StableHlo.after (hostOps9_2 (F := Ideal)) (StableHlo.after (hostOps9_1 (F := Ideal)) (StableHlo.after (hostOps9 (F := Ideal)) (V))))) (Proc.devRef .tc main_v150) : Cert.Spec.Scal)
      = maskedLoss (V (Proc.devRef .tc main_v131)) (V (Proc.devRef .tc main_arg0)) (V (Proc.devRef .tc main_arg3)) := by
  after_results
  all_goals (try simp only [StableHlo.TRef.ofBuf, StableHlo.TRef.toBuf, cast_eq])
  all_goals rfl

set_option maxHeartbeats 4000000 in
/-- The second mask as a column. -/
theorem hostOps9_4_main_v151 (V : Valuation τ sig (Elt Ideal)) :
    StableHlo.after (hostOps9_4 (F := Ideal)) V (Proc.devRef .tc main_v151)
      = broadcastInDim S50000x1 ![0] bcast_S50000_S50000x1_0 (V (Proc.devRef .tc main_arg4)) := by
  after_results <;> rfl

set_option maxHeartbeats 4000000 in
/-- The second pass's input. -/
theorem where128_p2 (V : Valuation τ sig (Elt Ideal)) :
    (StableHlo.after (hostOps9_5 (F := Ideal)) (StableHlo.after (hostOps9_4 (F := Ideal)) (V)) (Proc.devRef .tc main_v152) : Cert.Spec.Mx 50000 128)
      = whereK128 (V (Proc.devRef .tc main_arg4)) (V (Proc.devRef .tc main_arg0)) := by
  after_results
  all_goals (try simp only [StableHlo.TRef.ofBuf, StableHlo.TRef.toBuf, cast_eq])
  all_goals rfl

set_option maxHeartbeats 4000000 in
/-- Masking before the decoder, second pass. -/
theorem where256_p2 (V : Valuation τ sig (Elt Ideal)) :
    (StableHlo.after (hostOps15_1 (F := Ideal)) (StableHlo.after (hostOps15 (F := Ideal)) (V)) (Proc.devRef .tc main_v235) : Cert.Spec.Mx 50000 256)
      = select (broadcastInDim S50000x256 ![0, 1] bcast_S50000x1_S50000x256_0_1 (V (Proc.devRef .tc main_v151)))
          (broadcastInDim S50000x256 ![] bcast_S_S50000x256 (id c0)) (V (Proc.devRef .tc main_v234)) := by
  after_results
  all_goals (try simp only [StableHlo.TRef.ofBuf, StableHlo.TRef.toBuf, cast_eq])
  all_goals rfl

set_option maxHeartbeats 4000000 in
/-- The second pass's loss. -/
theorem loss2_p (V : Valuation τ sig (Elt Ideal)) :
    (StableHlo.after (hostOps18_4 (F := Ideal)) (StableHlo.after (hostOps18_3 (F := Ideal)) (StableHlo.after (hostOps18_2 (F := Ideal)) (StableHlo.after (hostOps18_1 (F := Ideal)) (StableHlo.after (hostOps18 (F := Ideal)) (V))))) (Proc.devRef .tc main_v295) : Cert.Spec.Scal)
      = maskedLoss (V (Proc.devRef .tc main_v276)) (V (Proc.devRef .tc main_arg0)) (V (Proc.devRef .tc main_arg4)) := by
  after_results
  all_goals (try simp only [StableHlo.TRef.ofBuf, StableHlo.TRef.toBuf, cast_eq])
  all_goals rfl

set_option maxHeartbeats 4000000 in
/-- The closing stretch: the two losses and a tenth of the mean distance between the two reconstructions. -/
theorem total_p (V : Valuation τ sig (Elt Ideal)) :
    (StableHlo.after (hostOps18_8 (F := Ideal)) (StableHlo.after (hostOps18_7 (F := Ideal)) (StableHlo.after (hostOps18_6 (F := Ideal)) (StableHlo.after (hostOps18_5 (F := Ideal)) (V)))) (Proc.devRef .tc main_v314) : Cert.Spec.Scal)
      = addf (addf (V (Proc.devRef .tc main_v150)) (V (Proc.devRef .tc main_v295)))
          (mulf (constant (F := Ideal) S_ .f32 0x3DCCCCCD#32) (meanLoss (V (Proc.devRef .tc main_v276)) (V (Proc.devRef .tc main_v131)))) := by
  after_results
  all_goals (try simp only [StableHlo.TRef.ofBuf, StableHlo.TRef.toBuf, cast_eq])
  all_goals rfl

/-! ## The whole run -/

variable (m : (ℓ : Loc nD τ sig) → Buf (Elt Ideal) ℓ) (outs : Outs (F := Ideal)) (c : Dev nD)

set_option maxHeartbeats 4000000 in
/-- The result buffer at the end of the run is the loss over the kernel's layers: each pass masks the input, runs two
    encoder layers, masks again and runs the decoder layer, each layer on its input plus its edge aggregate; the tail
    reads the two reconstructions, the input and the two masks. -/
theorem chain
    (h0 : Stage1 (n := 50000) (k := 128) (h := 512) (h2 := 1024) (V3 m c main_v7) (V3 m c main_v21) (V3 m c main_v0)
      (outs 4 main_v22_0 c) (outs 4 main_v22_1 c))
    (h1 : Stage2 (n := 50000) (h := 512) (o := 256) (o2 := 512) (V5 m outs c main_v22_0) (V5 m outs c main_v25) (V5 m outs c main_v32)
      (V5 m outs c main_v33) (V5 m outs c main_v34) (V5 m outs c main_v1) (outs 6 main_v35_0 c) (outs 6 main_v35_1 c))
    (h2 : Stage3 (n := 50000) (o := 256) (V7 m outs c main_v35_0) (V7 m outs c main_v38) (V7 m outs c main_v45)
      (V7 m outs c main_v46) (V7 m outs c main_v47) (outs 8 main_v48 c))
    (h3 : Stage1 (n := 50000) (k := 256) (h := 512) (h2 := 1024) (V9 m outs c main_v48) (V9 m outs c main_v62) (V9 m outs c main_v2)
      (outs 10 main_v63_0 c) (outs 10 main_v63_1 c))
    (h4 : Stage2 (n := 50000) (h := 512) (o := 256) (o2 := 512) (V11 m outs c main_v63_0) (V11 m outs c main_v66) (V11 m outs c main_v73)
      (V11 m outs c main_v74) (V11 m outs c main_v75) (V11 m outs c main_v3) (outs 12 main_v76_0 c) (outs 12 main_v76_1 c))
    (h5 : Stage3 (n := 50000) (o := 256) (V13 m outs c main_v76_0) (V13 m outs c main_v79) (V13 m outs c main_v86)
      (V13 m outs c main_v87) (V13 m outs c main_v88) (outs 14 main_v89 c))
    (h6 : Stage1 (n := 50000) (k := 256) (h := 512) (h2 := 1024) (V17 m outs c main_v90) (V17 m outs c main_v104) (V17 m outs c main_v4)
      (outs 18 main_v105_0 c) (outs 18 main_v105_1 c))
    (h7 : Stage2 (n := 50000) (h := 512) (o := 128) (o2 := 256) (V19 m outs c main_v105_0) (V19 m outs c main_v108) (V19 m outs c main_v115)
      (V19 m outs c main_v116) (V19 m outs c main_v117) (V19 m outs c main_v5) (outs 20 main_v118_0 c) (outs 20 main_v118_1 c))
    (h8 : Stage3 (n := 50000) (o := 128) (V21 m outs c main_v118_0) (V21 m outs c main_v121) (V21 m outs c main_v128)
      (V21 m outs c main_v129) (V21 m outs c main_v130) (outs 22 main_v131 c))
    (h9 : Stage1 (n := 50000) (k := 128) (h := 512) (h2 := 1024) (V29 m outs c main_v152) (V29 m outs c main_v166) (V29 m outs c main_v0)
      (outs 30 main_v167_0 c) (outs 30 main_v167_1 c))
    (h10 : Stage2 (n := 50000) (h := 512) (o := 256) (o2 := 512) (V31 m outs c main_v167_0) (V31 m outs c main_v170) (V31 m outs c main_v177)
      (V31 m outs c main_v178) (V31 m outs c main_v179) (V31 m outs c main_v1) (outs 32 main_v180_0 c) (outs 32 main_v180_1 c))
    (h11 : Stage3 (n := 50000) (o := 256) (V33 m outs c main_v180_0) (V33 m outs c main_v183) (V33 m outs c main_v190)
      (V33 m outs c main_v191) (V33 m outs c main_v192) (outs 34 main_v193 c))
    (h12 : Stage1 (n := 50000) (k := 256) (h := 512) (h2 := 1024) (V35 m outs c main_v193) (V35 m outs c main_v207) (V35 m outs c main_v2)
      (outs 36 main_v208_0 c) (outs 36 main_v208_1 c))
    (h13 : Stage2 (n := 50000) (h := 512) (o := 256) (o2 := 512) (V37 m outs c main_v208_0) (V37 m outs c main_v211) (V37 m outs c main_v218)
      (V37 m outs c main_v219) (V37 m outs c main_v220) (V37 m outs c main_v3) (outs 38 main_v221_0 c) (outs 38 main_v221_1 c))
    (h14 : Stage3 (n := 50000) (o := 256) (V39 m outs c main_v221_0) (V39 m outs c main_v224) (V39 m outs c main_v231)
      (V39 m outs c main_v232) (V39 m outs c main_v233) (outs 40 main_v234 c))
    (h15 : Stage1 (n := 50000) (k := 256) (h := 512) (h2 := 1024) (V43 m outs c main_v235) (V43 m outs c main_v249) (V43 m outs c main_v4)
      (outs 44 main_v250_0 c) (outs 44 main_v250_1 c))
    (h16 : Stage2 (n := 50000) (h := 512) (o := 128) (o2 := 256) (V45 m outs c main_v250_0) (V45 m outs c main_v253) (V45 m outs c main_v260)
      (V45 m outs c main_v261) (V45 m outs c main_v262) (V45 m outs c main_v5) (outs 46 main_v263_0 c) (outs 46 main_v263_1 c))
    (h17 : Stage3 (n := 50000) (o := 128) (V47 m outs c main_v263_0) (V47 m outs c main_v266) (V47 m outs c main_v273)
      (V47 m outs c main_v274) (V47 m outs c main_v275) (outs 48 main_v276 c)) :
    V57 m outs c main_v314 = lossK m c := by
  -- the first pass
  have x0 : (V2 m c (Proc.devRef .tc main_v7) : Cert.Spec.Mx 50000 128) = whereK128 (m ((c : Thread nD τ).loc main_arg3)) (m ((c : Thread nD τ).loc main_arg0)) := where128_p1 (V0 m c)
  have l0 := layer0 m outs c h0 h1 h2
  rw [x0] at l0
  have l1 := layer1 m outs c h3 h4 h5
  rw [l0] at l1
  have e6 : V14 m outs c (Proc.devRef .tc main_v6) = broadcastInDim S50000x1 ![0] bcast_S50000_S50000x1_0 (m ((c : Thread nD τ).loc main_arg3)) := by
    carry; exact hostOps0_main_v6 (V0 m c)
  have x2 : (V16 m outs c (Proc.devRef .tc main_v90) : Cert.Spec.Mx 50000 256) = whereK256 (m ((c : Thread nD τ).loc main_arg3)) (V14 m outs c (Proc.devRef .tc main_v89)) :=
    (where256_p1 (V14 m outs c)).trans (by rw [e6]; rfl)
  rw [l1] at x2
  have l2 := layer2 m outs c h6 h7 h8
  rw [x2] at l2
  -- the second pass
  have a4 : V26 m outs c (Proc.devRef .tc main_arg4) = (m ((c : Thread nD τ).loc main_arg4)) := by carry <;> rfl
  have a0 : V26 m outs c (Proc.devRef .tc main_arg0) = (m ((c : Thread nD τ).loc main_arg0)) := by carry <;> rfl
  have x3 : (V28 m outs c (Proc.devRef .tc main_v152) : Cert.Spec.Mx 50000 128) = whereK128 (m ((c : Thread nD τ).loc main_arg4)) (m ((c : Thread nD τ).loc main_arg0)) :=
    (where128_p2 (V26 m outs c)).trans (by rw [a4, a0])
  have l3 := layer3 m outs c h9 h10 h11
  rw [x3] at l3
  have l4 := layer4 m outs c h12 h13 h14
  rw [l3] at l4
  have e151 : V40 m outs c (Proc.devRef .tc main_v151) = broadcastInDim S50000x1 ![0] bcast_S50000_S50000x1_0 (m ((c : Thread nD τ).loc main_arg4)) := by
    carry; exact (hostOps9_4_main_v151 (V26 m outs c)).trans (by rw [a4])
  have x5 : (V42 m outs c (Proc.devRef .tc main_v235) : Cert.Spec.Mx 50000 256) = whereK256 (m ((c : Thread nD τ).loc main_arg4)) (V40 m outs c (Proc.devRef .tc main_v234)) :=
    (where256_p2 (V40 m outs c)).trans (by rw [e151]; rfl)
  rw [l4] at x5
  have l5 := layer5 m outs c h15 h16 h17
  rw [x5] at l5
  -- the tail
  have b0 : V22 m outs c (Proc.devRef .tc main_arg0) = (m ((c : Thread nD τ).loc main_arg0)) := by carry <;> rfl
  have b3 : V22 m outs c (Proc.devRef .tc main_arg3) = (m ((c : Thread nD τ).loc main_arg3)) := by carry <;> rfl
  have d0 : V48 m outs c (Proc.devRef .tc main_arg0) = (m ((c : Thread nD τ).loc main_arg0)) := by carry <;> rfl
  have d4 : V48 m outs c (Proc.devRef .tc main_arg4) = (m ((c : Thread nD τ).loc main_arg4)) := by carry <;> rfl
  have q1 : (V27 m outs c (Proc.devRef .tc main_v150) : Cert.Spec.Scal)
      = maskedLoss (V22 m outs c (Proc.devRef .tc main_v131)) (m ((c : Thread nD τ).loc main_arg0)) (m ((c : Thread nD τ).loc main_arg3)) := (loss1_p (V22 m outs c)).trans (by rw [b0, b3])
  have q2 : (V53 m outs c (Proc.devRef .tc main_v295) : Cert.Spec.Scal)
      = maskedLoss (V48 m outs c (Proc.devRef .tc main_v276)) (m ((c : Thread nD τ).loc main_arg0)) (m ((c : Thread nD τ).loc main_arg4)) := (loss2_p (V48 m outs c)).trans (by rw [d0, d4])
  have c150 : V53 m outs c (Proc.devRef .tc main_v150) = V27 m outs c (Proc.devRef .tc main_v150) := by carry <;> rfl
  have c276 : V53 m outs c (Proc.devRef .tc main_v276) = V48 m outs c (Proc.devRef .tc main_v276) := by carry <;> rfl
  have c131 : V53 m outs c (Proc.devRef .tc main_v131) = V22 m outs c (Proc.devRef .tc main_v131) := by carry <;> rfl
  have q : (V57 m outs c (Proc.devRef .tc main_v314) : Cert.Spec.Scal) = _ := total_p (V53 m outs c)
  rw [c150, q1, q2, c276, c131, l5, l2] at q
  rw [q]
  rfl

end Cert.KernelIdeal.HandValue

end
-- ==== Proof.KI.Val0.lean ====
import proofs.«427833_j20194936226511_1_alg».proof.Proof.Gen.KernelIdeal.Launch
import proofs.«427833_j20194936226511_1_alg».proof.Proof.Gen.KernelIdeal.Points
import proofs.«427833_j20194936226511_1_alg».proof.Proof.KI.Reg0
import Idealize.ShloMosaic.Lib.Tactic
import proofs.«427833_j20194936226511_1_alg».proof.Proof.Gen.KernelIdeal.Skeleton
import proofs.«427833_j20194936226511_1_alg».proof.Proof.Spec
import Idealize.ShloMosaic.PureOps.Ideal.Laws
import Idealize.ShloMosaic.Lib.ValueIdx
import Idealize.ShloMosaic.Lib.Pipeline.Value

/-!
# The value of the first stage: a matrix product and its column statistics

At every grid point the kernel adds two blocks of rows, multiplies the sum by the weight matrix,
stores the product block, and adds the block's column sums and the column sums of its squares into
one carried row of twice the width, which it clears at the first point and copies out at the last.

This module reads the arithmetic at an index over the extended reals, where a change of float
format is the identity, a matrix product into a zero accumulator is the plain sum of products and
a reduction over the rows is the plain sum.  It then reads what each control case of the body leaves in
the product block and in the carried row, shows by induction on the grid point that the carried row
holds, column by column, the sums over the tiles so far, and concludes that after the region the
product array is the whole matrix product and the statistics row holds its column sums and the
column sums of its squares: a sum over all the rows is regrouped tile by tile, which needs only that
addition of extended reals is commutative and associative.
-/

set_option maxRecDepth 16384

noncomputable section

namespace Cert.KernelIdeal.HandValue

open Cert.KernelIdeal Cert.KernelIdeal.Gen
open Cert.KernelIdeal.Hand
open Idealize.ShloMosaic Idealize.ShloMosaic.ValueIdx Idealize.ShloMosaic.TcCoe Idealize.ShloMosaic.Tactic Idealize.SL.Sem
open Idealize.ShloMosaic.Pipeline (Dat)

/-! ## The operand indices of the matrix product, axis by axis -/

theorem lhs0_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide),
    dif_pos (show (0 : Fin S2000x128.rank) ∈ dot_S2000x128_S128x512_S2000x512_1_0_0_1_n_n.lhsNonContracting by decide)]
  rfl
theorem lhs0_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem rhs0_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem rhs0_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide),
    dif_pos (show (1 : Fin S128x512.rank) ∈ dot_S2000x128_S128x512_S2000x512_1_0_0_1_n_n.rhsNonContracting by decide)]
  rfl

/-- The block product into the zero accumulator, at an index: the sum over the contracted
    coordinate of the products of the entries. -/
theorem matmul0_apply (p : FVec Ideal S2000x128 .bf16) (w : FVec Ideal S128x512 .bf16) (r : Fin 2000) (j : Fin 512) :
    matmul dot_S2000x128_S128x512_S2000x512_1_0_0_1_n_n none p w (constant (F := Ideal) S2000x512 .f32 0x00000000#32) (ix2 r j)
      = ∑ l : Fin 128, p (ix2 r l) * w (ix2 l j) := by
  show FloatOps.matmul dot_S2000x128_S128x512_S2000x512_1_0_0_1_n_n none p w (constant (F := Ideal) S2000x512 .f32 0x00000000#32) (ix2 r j) = _
  rw [Ideal.matmul_constant_zero_apply, ← Equiv.sum_comp (contrEquiv1 dot_S2000x128_S128x512_S2000x512_1_0_0_1_n_n 128 rfl rfl).symm]
  refine Finset.sum_congr rfl fun l _ => ?_
  have hk := contrEquiv1_symm_val dot_S2000x128_S128x512_S2000x512_1_0_0_1_n_n 128 rfl rfl l
  have el : dot_S2000x128_S128x512_S2000x512_1_0_0_1_n_n.lhsIdx (ix2 r j) ((contrEquiv1 dot_S2000x128_S128x512_S2000x512_1_0_0_1_n_n 128 rfl rfl).symm l) = ix2 r l :=
    funext fun a => Fin.ext (by
      match a with
      | ⟨0, _⟩ => exact lhs0_0 _ _
      | ⟨1, _⟩ => exact (lhs0_1 _ _).trans hk)
  have er : dot_S2000x128_S128x512_S2000x512_1_0_0_1_n_n.rhsIdx (ix2 r j) ((contrEquiv1 dot_S2000x128_S128x512_S2000x512_1_0_0_1_n_n 128 rfl rfl).symm l) = ix2 l j :=
    funext fun a => Fin.ext (by
      match a with
      | ⟨0, _⟩ => exact (rhs0_0 _ _).trans hk
      | ⟨1, _⟩ => exact rhs0_1 _ _)
  rw [el, er]

/-- The sum over the rows of a block, kept as a one-row matrix, at a column. -/
theorem rowsum0_apply (v : FVec Ideal S2000x512 .f32) (j : Fin 512) :
    shapeCast S1x512 (multiReduction (F := Ideal) .add [0] S512 v 0x00000000#32 reduces_S2000x512_S512 (.inl rfl) rfl)
        shapeCasts_S512_S1x512 (ix2 0 j)
      = ∑ r : Fin 2000, v (ix2 r j) := by
  refine (shapeCast_addUnit_apply ![512] _ shapeCasts_S512_S1x512 (ix2 0 j)).trans ?_
  refine (Ideal.multiReduction_add_single v 0x00000000#32 reduces_S2000x512_S512 (.inl rfl) rfl _).trans ?_
  refine Finset.sum_congr rfl fun r _ => congrArg v ?_
  funext a
  apply Fin.ext
  match a with
  | ⟨0, _⟩ => rfl
  | ⟨1, _⟩ => rfl

/-! ## The four payloads at an index -/

/-- The product block: row `r`, column `j` is the sum over `l` of the summed inputs' entry times the weight's. -/
theorem k0_pay2_apply (x a : Vec Ideal S2000x128 .f32) (w : Vec Ideal S128x512 .bf16) (r : Fin 2000) (j : Fin 512) :
    k0_pay2 (F := Ideal) x a w (ix2 r j) = ∑ l : Fin 128, (x (ix2 r l) + a (ix2 r l)) * w (ix2 l j) := by
  unfold k0_pay2
  simp only [shapeCast_self]
  exact matmul0_apply _ _ r j

/-- The carried row's first half: what it held plus the block's column sums. -/
theorem k0_pay3_apply (x a : Vec Ideal S2000x128 .f32) (w : Vec Ideal S128x512 .bf16) (acc : Vec Ideal S1x512 .f32) (j : Fin 512) :
    k0_pay3 (F := Ideal) x a w acc (ix2 0 j) = acc (ix2 0 j) + ∑ r : Fin 2000, k0_pay2 (F := Ideal) x a w (ix2 r j) := by
  unfold k0_pay3
  simp only [shapeCast_self]
  exact congrArg (acc (ix2 0 j) + ·) (rowsum0_apply (k0_pay2 (F := Ideal) x a w) j)

/-- The carried row's second half: what it held plus the column sums of the block's squares. -/
theorem k0_pay4_apply (x a : Vec Ideal S2000x128 .f32) (w : Vec Ideal S128x512 .bf16) (acc : Vec Ideal S1x512 .f32) (j : Fin 512) :
    k0_pay4 (F := Ideal) x a w acc (ix2 0 j)
      = acc (ix2 0 j) + ∑ r : Fin 2000, k0_pay2 (F := Ideal) x a w (ix2 r j) * k0_pay2 (F := Ideal) x a w (ix2 r j) := by
  unfold k0_pay4
  simp only [shapeCast_self]
  exact congrArg (acc (ix2 0 j) + ·)
    (rowsum0_apply (mulf (k0_pay2 (F := Ideal) x a w) (k0_pay2 (F := Ideal) x a w)) j)

/-- The cleared row is zero everywhere. -/
theorem k0_pay1_eq : (k0_pay1 (F := Ideal)) = fun _ => (0 : EReal) := by
  unfold k0_pay1
  simp only [shapeCast_self]
  funext i
  exact Ideal.ofBits_zero_f32

/-! ## Sums over all the rows, tile by tile -/

/-- A sum over all the rows is the sum, over the tiles, of the sums over one tile's rows. -/
theorem sum_rows_tiles0 (f : Fin 50000 → EReal) :
    ∑ i : Fin 50000, f i
      = ∑ t : Fin 25, ∑ r : Fin 2000, f ⟨2000 * t.val + r.val, by have := t.isLt; have := r.isLt; omega⟩ := by
  rw [← Fintype.sum_prod_type']
  refine (Fintype.sum_equiv (finProdFinEquiv (m := 25) (n := 2000)) _ f fun p => congrArg f (Fin.ext ?_)).symm
  show 2000 * p.1.val + p.2.val = p.2.val + 2000 * p.1.val
  omega

/-- A quantity that starts at its first term and then adds one term per step is the sum of the terms so far. -/
theorem steps_eq_sum0 (T : ℕ → EReal) (N : ℕ) (S : (n : ℕ) → n < N → EReal)
    (h0 : ∀ h, S 0 h = 0 + T 0) (hs : ∀ n (h : n + 1 < N), S (n + 1) h = S n (Nat.lt_of_succ_lt h) + T (n + 1)) :
    ∀ (n : ℕ) (h : n < N), S n h = ∑ t ∈ Finset.range (n + 1), T t
  | 0, h => by rw [h0 h, zero_add, Finset.sum_range_one]
  | n + 1, h => by rw [hs n h, steps_eq_sum0 T N S h0 hs n (Nat.lt_of_succ_lt h), Finset.sum_range_succ _ (n + 1)]

/-! ## Where the windows' blocks sit -/

/-- The block indices, decided over the grid: the two inputs' row blocks and the output's move with the point,
    the weight's block and the statistics' block stay. -/
theorem idx0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- The first input's block at point `t` is rows `2000 t …` of its array. -/
theorem read_blk0_0 (A : Vec Ideal S50000x128 .f32) (t : Fin cfg0.N) (r : Fin 2000) (l : Fin 128)
    (i : Fin 50000) (hi : i.val = 2000 * t.val + r.val) :
    (((cfg0.win 0).blk t).view.read (Elt Ideal) A : Vec Ideal S2000x128 .f32) (ix2 r l) = A (ix2 i l) := by
  rw [View.read_apply]
  show A _ = A _
  refine congrArg A ?_
  funext a
  apply Fin.ext
  match a with
  | ⟨0, _⟩ => show win0_0.index t (0 : Fin 2) * 2000 + 1 * r.val = i.val; rw [(idx0 t).1]; omega
  | ⟨1, _⟩ => show win0_0.index t (1 : Fin 2) * 128 + 1 * l.val = l.val; rw [(idx0 t).2.1]; omega

/-- The second input's block likewise. -/
theorem read_blk0_1 (A : Vec Ideal S50000x128 .f32) (t : Fin cfg0.N) (r : Fin 2000) (l : Fin 128)
    (i : Fin 50000) (hi : i.val = 2000 * t.val + r.val) :
    (((cfg0.win 1).blk t).view.read (Elt Ideal) A : Vec Ideal S2000x128 .f32) (ix2 r l) = A (ix2 i l) := by
  rw [View.read_apply]
  show A _ = A _
  refine congrArg A ?_
  funext a
  apply Fin.ext
  match a with
  | ⟨0, _⟩ => show win0_1.index t (0 : Fin 2) * 2000 + 1 * r.val = i.val; rw [(idx0 t).2.2.1]; omega
  | ⟨1, _⟩ => show win0_1.index t (1 : Fin 2) * 128 + 1 * l.val = l.val; rw [(idx0 t).2.2.2.1]; omega

/-- The weight's block is the whole weight matrix at every point. -/
theorem read_blk0_2 (A : Vec Ideal S128x512 .bf16) (t : Fin cfg0.N) (l : Fin 128) (j : Fin 512) :
    (((cfg0.win 2).blk t).view.read (Elt Ideal) A : Vec Ideal S128x512 .bf16) (ix2 l j) = A (ix2 l j) := by
  rw [View.read_apply]
  show A _ = A _
  refine congrArg A ?_
  funext a
  apply Fin.ext
  match a with
  | ⟨0, _⟩ => show win0_2.index t (0 : Fin 2) * 128 + 1 * l.val = l.val; rw [(idx0 t).2.2.2.2.1]; omega
  | ⟨1, _⟩ => show win0_2.index t (1 : Fin 2) * 512 + 1 * j.val = j.val; rw [(idx0 t).2.2.2.2.2.1]; omega

/-- The output's block at point `t` is rows `2000 t …` of its array. -/
theorem read_blk0_3 (A : Vec Ideal S50000x512 .f32) (t : Fin cfg0.N) (r : Fin 2000) (j : Fin 512)
    (i : Fin 50000) (hi : i.val = 2000 * t.val + r.val) :
    (((cfg0.win 3).blk t).view.read (Elt Ideal) A : Vec Ideal S2000x512 .f32) (ix2 r j) = A (ix2 i j) := by
  rw [View.read_apply]
  show A _ = A _
  refine congrArg A ?_
  funext a
  apply Fin.ext
  match a with
  | ⟨0, _⟩ => show win0_3.index t (0 : Fin 2) * 2000 + 1 * r.val = i.val; rw [(idx0 t).2.2.2.2.2.2.1]; omega
  | ⟨1, _⟩ => show win0_3.index t (1 : Fin 2) * 512 + 1 * j.val = j.val; rw [(idx0 t).2.2.2.2.2.2.2.1]; omega

/-- The statistics' block is the whole row at every point. -/
theorem read_blk0_4 (A : Vec Ideal S1x1024 .f32) (t : Fin cfg0.N) (y : S1x1024.Idx) :
    (((cfg0.win 4).blk t).view.read (Elt Ideal) A : Vec Ideal S1x1024 .f32) y = A y := by
  rw [View.read_apply]
  show A _ = A _
  refine congrArg A ?_
  funext a
  apply Fin.ext
  match a with
  | ⟨0, _⟩ => show win0_4.index t (0 : Fin 2) * 1 + 1 * (y 0).val = (y 0).val; rw [(idx0 t).2.2.2.2.2.2.2.2.1]; omega
  | ⟨1, _⟩ => show win0_4.index t (1 : Fin 2) * 1024 + 1 * (y 1).val = (y 1).val; rw [(idx0 t).2.2.2.2.2.2.2.2.2]; omega

/-- An index of the output array is in point `t`'s block iff each coordinate is in the block's range. -/
theorem mem_blk0_3 (t : Fin cfg0.N) (i : S50000x512.Idx) :
    i ∈ ((cfg0.win 3).blk t).view.set ↔ ∀ a : Fin 2, win0_3.index t a * S2000x512.size a ≤ (i a).val
      ∧ (i a).val < win0_3.index t a * S2000x512.size a + S2000x512.size a := by
  show i ∈ ((View.whole main_v22_0).slice (win0_3.rect t)).set ↔ _
  rw [View.set_slice_whole, Rect.mem_set_unit]
  exact Iff.rfl

/-- Every row of the output array is in the block of the point its tile belongs to. -/
theorem cover0_3 (i : S50000x512.Idx) :
    ∃ t : Fin cfg0.N, (cfg0.win 3).flush t = true ∧ i ∈ ((cfg0.win 3).blk t).view.set := by
  have hN : cfg0.N = 25 := N_0
  have hi0 : (i 0).val < 50000 := (i 0).isLt
  have hi1 : (i 1).val < 512 := (i 1).isLt
  refine ⟨⟨(i 0).val / 2000, by omega⟩, flush0_3 _, ?_⟩
  rw [mem_blk0_3]
  obtain ⟨-, -, -, -, -, -, e0, e1, -, -⟩ := idx0 ⟨(i 0).val / 2000, by omega⟩
  intro a
  match a with
  | ⟨0, _⟩ =>
    show win0_3.index _ (0 : Fin 2) * 2000 ≤ (i 0).val ∧ (i 0).val < win0_3.index _ (0 : Fin 2) * 2000 + 2000
    rw [e0]; dsimp only; omega
  | ⟨1, _⟩ =>
    show win0_3.index _ (1 : Fin 2) * 512 ≤ (i 1).val ∧ (i 1).val < win0_3.index _ (1 : Fin 2) * 512 + 512
    rw [e1]; omega

/-- An index of the statistics row is in point `t`'s block iff each coordinate is in the block's range. -/
theorem mem_blk0_4 (t : Fin cfg0.N) (i : S1x1024.Idx) :
    i ∈ ((cfg0.win 4).blk t).view.set ↔ ∀ a : Fin 2, win0_4.index t a * S1x1024.size a ≤ (i a).val
      ∧ (i a).val < win0_4.index t a * S1x1024.size a + S1x1024.size a := by
  show i ∈ ((View.whole main_v22_1).slice (win0_4.rect t)).set ↔ _
  rw [View.set_slice_whole, Rect.mem_set_unit]
  exact Iff.rfl

/-- The last point's block is the whole statistics row. -/
theorem cover0_4 (i : S1x1024.Idx) :
    ∃ t : Fin cfg0.N, (cfg0.win 4).flush t = true ∧ i ∈ ((cfg0.win 4).blk t).view.set := by
  have hN : cfg0.N = 25 := N_0
  have hi0 : (i 0).val < 1 := (i 0).isLt
  have hi1 : (i 1).val < 1024 := (i 1).isLt
  refine ⟨⟨24, by omega⟩, (flush0_4 _).mpr rfl, ?_⟩
  rw [mem_blk0_4]
  obtain ⟨-, -, -, -, -, -, -, -, e0, e1⟩ := idx0 ⟨24, by omega⟩
  intro a
  match a with
  | ⟨0, _⟩ =>
    show win0_4.index _ (0 : Fin 2) * 1 ≤ (i 0).val ∧ (i 0).val < win0_4.index _ (0 : Fin 2) * 1 + 1
    rw [e0]; omega
  | ⟨1, _⟩ =>
    show win0_4.index _ (1 : Fin 2) * 1024 ≤ (i 1).val ∧ (i 1).val < win0_4.index _ (1 : Fin 2) * 1024 + 1024
    rw [e1]; omega

/-! ## What each case of the body leaves, read as values

The body's run was found case by case as lists of stored pieces; read back, the product block's one covering store
leaves the product of the input blocks, and the carried row's stores leave, column by column, what the row held
(nothing, at the first point) plus the block's column sums, in its first half of the plain products and in its
second of their squares. The last point's copy leaves the statistics block equal to the carried row. -/

/-- A column of the first half of the carried row, and of the second. -/
abbrev lo0 (j : Fin 512) : Fin 1024 := ⟨j.val, by have := j.isLt; omega⟩
abbrev hi0 (j : Fin 512) : Fin 1024 := ⟨512 + j.val, by have := j.isLt; omega⟩

theorem hz0 : (![0, 0] : Fin 2 → Nat) = fun _ => 0 := funext fun a => by fin_cases a <;> rfl

/-- The two halves of the carried row, as the rectangles the body stores through. -/
abbrev rLo0 : Rect S1x1024 := Rect.unit (s := S1x1024) ![0, 0] S1x512.size inb_S1x1024_S1x512_0_0
abbrev rHi0 : Rect S1x1024 := Rect.unit (s := S1x1024) ![0, 512] S1x512.size inb_S1x1024_S1x512_0_512

theorem rLo0_emb (j : Fin 512) : rLo0.emb (ix2 0 j) = ix2 0 (lo0 j) := by
  funext a
  apply Fin.ext
  rw [Rect.emb_apply]
  match a with
  | ⟨0, _⟩ => rfl
  | ⟨1, _⟩ => show 0 + 1 * j.val = j.val; omega

theorem rHi0_emb (j : Fin 512) : rHi0.emb (ix2 0 j) = ix2 0 (hi0 j) := by
  funext a
  apply Fin.ext
  rw [Rect.emb_apply]
  match a with
  | ⟨0, _⟩ => rfl
  | ⟨1, _⟩ => show 512 + 1 * j.val = 512 + j.val; omega

theorem lo0_not_mem_hi (j : Fin 512) : ix2 0 (lo0 j) ∉ rHi0.set := by
  rw [Rect.mem_set_unit]
  intro h
  have h1 : (512 : ℕ) ≤ j.val := (h 1).1
  have := j.isLt
  omega

theorem hi0_not_mem_lo (j : Fin 512) : ix2 0 (hi0 j) ∉ rLo0.set := by
  rw [Rect.mem_set_unit]
  intro h
  have h1 : 512 + j.val < 0 + 512 := (h 1).2
  omega

/-- The whole carried row as a rectangle of itself. -/
abbrev rW0 : Rect S1x1024 := Rect.unit (s := S1x1024) ![0, 0] S1x1024.size inb_S1x1024_S1x1024_0_0

/-- A load after one store of the whole row reads that store's payload. -/
theorem readCov_rW0 {sig' : RefSig} {κ : Kind} {sp : Space} (v : View sig' κ sp S1x1024 .f32) (w : Vec Ideal S1x1024 .f32)
    (B : Rect S1x1024) (y : B.shape.Idx) :
    v.readCov [(⟨rW0, w⟩ : View.Piece (Elt Ideal) S1x1024 .f32)] B.toLoadRect y = w (B.idx y) := by
  have hc : ∀ y : S1x1024.Idx, ∃ p ∈ [(⟨rW0, w⟩ : View.Piece (Elt Ideal) S1x1024 .f32)], y ∈ p.1.set :=
    fun y => ⟨⟨rW0, w⟩, List.mem_singleton_self _, View.mem_set_unit_zero hz0 inb_S1x1024_S1x1024_0_0 y⟩
  rw [View.readCov_eq_canon_ld v _ B hc, View.canon_unit_zero hz0]

/-- The two half-row stores cover the row. -/
theorem halves_cover0 (wHi wLo : Vec Ideal S1x512 .f32) (y : S1x1024.Idx) :
    ∃ p ∈ ([⟨rHi0, wHi⟩, ⟨rLo0, wLo⟩] : List (View.Piece (Elt Ideal) S1x1024 .f32)), y ∈ p.1.set := by
  have h0 : (y 0).val < 1 := (y 0).isLt
  have h1 : (y 1).val < 1024 := (y 1).isLt
  by_cases h : (y 1).val < 512
  · refine ⟨⟨rLo0, wLo⟩, List.mem_cons_of_mem _ (List.mem_singleton_self _), ?_⟩
    show y ∈ rLo0.set
    rw [Rect.mem_set_unit]
    intro a
    match a with
    | ⟨0, _⟩ => show 0 ≤ (y 0).val ∧ (y 0).val < 0 + 1; omega
    | ⟨1, _⟩ => show 0 ≤ (y 1).val ∧ (y 1).val < 0 + 512; omega
  · refine ⟨⟨rHi0, wHi⟩, List.mem_cons_self, ?_⟩
    show y ∈ rHi0.set
    rw [Rect.mem_set_unit]
    intro a
    match a with
    | ⟨0, _⟩ => show 0 ≤ (y 0).val ∧ (y 0).val < 0 + 1; omega
    | ⟨1, _⟩ => show 512 ≤ (y 1).val ∧ (y 1).val < 512 + 512; omega

theorem out0_A_3_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i) (x0 x1 : Vec Ideal S2000x128 .f32) (x2 : Vec Ideal S128x512 .bf16) :
    out0_A_3 (F := Ideal) c i arg1 harg1 arg2 harg2 arg3 harg3 arg4 harg4 arg5 harg5 arg6 harg6 hc0 hc1 x0 x1 x2 = k0_pay2 (F := Ideal) x0 x1 x2 := by
  unfold out0_A_3
  rw [View.read_writes_eq_canon _ _ _ (cover0_A_3 c i arg1 harg1 arg2 harg2 arg3 harg3 arg4 harg4 arg5 harg5 arg6 harg6 hc0 hc1 x0 x1 x2)]
  unfold kernelRun0_A
  dsimp only
  sl_unfold_words
  rw [View.canon_unit_zero hz0]
  simp only [View.readAt_eq_ld, harg1.read_unread, harg2.read_unread, harg3.read_unread, View.ld_unit_zero (S := S2000x128) hz0, View.ld_unit_zero (S := S128x512) hz0]

theorem out0_B_3_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i) (x0 x1 : Vec Ideal S2000x128 .f32) (x2 : Vec Ideal S128x512 .bf16) (xs0 : Vec Ideal S1x1024 .f32) :
    out0_B_3 (F := Ideal) c i arg1 harg1 arg2 harg2 arg3 harg3 arg4 harg4 arg5 harg5 arg6 harg6 hc0 hc1 x0 x1 x2 xs0 = k0_pay2 (F := Ideal) x0 x1 x2 := by
  unfold out0_B_3
  rw [View.read_writes_eq_canon _ _ _ (cover0_B_3 c i arg1 harg1 arg2 harg2 arg3 harg3 arg4 harg4 arg5 harg5 arg6 harg6 hc0 hc1 x0 x1 x2 xs0)]
  unfold kernelRun0_B
  dsimp only
  sl_unfold_words
  rw [View.canon_unit_zero hz0]
  simp only [View.readAt_eq_ld, harg1.read_unread, harg2.read_unread, harg3.read_unread, View.ld_unit_zero (S := S2000x128) hz0, View.ld_unit_zero (S := S128x512) hz0]

theorem out0_C_3_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i) (x0 x1 : Vec Ideal S2000x128 .f32) (x2 : Vec Ideal S128x512 .bf16) (xs0 : Vec Ideal S1x1024 .f32) :
    out0_C_3 (F := Ideal) c i arg1 harg1 arg2 harg2 arg3 harg3 arg4 harg4 arg5 harg5 arg6 harg6 hc0 hc1 x0 x1 x2 xs0 = k0_pay2 (F := Ideal) x0 x1 x2 := by
  unfold out0_C_3
  rw [View.read_writes_eq_canon _ _ _ (cover0_C_3 c i arg1 harg1 arg2 harg2 arg3 harg3 arg4 harg4 arg5 harg5 arg6 harg6 hc0 hc1 x0 x1 x2 xs0)]
  unfold kernelRun0_C
  dsimp only
  sl_unfold_words
  rw [View.canon_unit_zero hz0]
  simp only [View.readAt_eq_ld, harg1.read_unread, harg2.read_unread, harg3.read_unread, View.ld_unit_zero (S := S2000x128) hz0, View.ld_unit_zero (S := S128x512) hz0]

theorem sout0_A_0_lo (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i) (x0 x1 : Vec Ideal S2000x128 .f32) (x2 : Vec Ideal S128x512 .bf16) (j : Fin 512) :
    sout0_A_0 (F := Ideal) c i arg1 harg1 arg2 harg2 arg3 harg3 arg4 harg4 arg5 harg5 arg6 harg6 hc0 hc1 x0 x1 x2 (ix2 0 (lo0 j))
      = 0 + ∑ r : Fin 2000, k0_pay2 (F := Ideal) x0 x1 x2 (ix2 r j) := by
  unfold sout0_A_0
  rw [View.read_writes_eq_canon _ _ _ (scover0_A_0 c i arg1 harg1 arg2 harg2 arg3 harg3 arg4 harg4 arg5 harg5 arg6 harg6 hc0 hc1 x0 x1 x2)]
  unfold kernelRun0_A
  dsimp only
  sl_unfold_words
  simp only [View.readAt_eq_ld, harg1.read_unread, harg2.read_unread, harg3.read_unread, View.ld_unit_zero (S := S2000x128) hz0, View.ld_unit_zero (S := S128x512) hz0]
  refine (View.canon_cons_of_not_mem (⟨rHi0, _⟩ : View.Piece (Elt Ideal) S1x1024 .f32) _ (lo0_not_mem_hi j)).trans ?_
  refine (congrArg _ (rLo0_emb j).symm).trans ((View.canon_cons_emb rLo0 _ _ (ix2 0 j)).trans ?_)
  refine (k0_pay3_apply x0 x1 x2 _ j).trans ?_
  refine congrArg (· + _) ?_
  exact (readCov_rW0 _ _ rLo0 (ix2 0 j)).trans (congrFun k0_pay1_eq _)

theorem sout0_A_0_hi (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i) (x0 x1 : Vec Ideal S2000x128 .f32) (x2 : Vec Ideal S128x512 .bf16) (j : Fin 512) :
    sout0_A_0 (F := Ideal) c i arg1 harg1 arg2 harg2 arg3 harg3 arg4 harg4 arg5 harg5 arg6 harg6 hc0 hc1 x0 x1 x2 (ix2 0 (hi0 j))
      = 0 + ∑ r : Fin 2000, k0_pay2 (F := Ideal) x0 x1 x2 (ix2 r j) * k0_pay2 (F := Ideal) x0 x1 x2 (ix2 r j) := by
  unfold sout0_A_0
  rw [View.read_writes_eq_canon _ _ _ (scover0_A_0 c i arg1 harg1 arg2 harg2 arg3 harg3 arg4 harg4 arg5 harg5 arg6 harg6 hc0 hc1 x0 x1 x2)]
  unfold kernelRun0_A
  dsimp only
  sl_unfold_words
  simp only [View.readAt_eq_ld, harg1.read_unread, harg2.read_unread, harg3.read_unread, View.ld_unit_zero (S := S2000x128) hz0, View.ld_unit_zero (S := S128x512) hz0]
  refine (congrArg _ (rHi0_emb j).symm).trans ((View.canon_cons_emb rHi0 _ _ (ix2 0 j)).trans ?_)
  refine (k0_pay4_apply x0 x1 x2 _ j).trans ?_
  refine congrArg (· + _) ?_
  refine (congrFun (View.readCov_eq_canon_ld _ _ rHi0 (fun y =>
    ⟨⟨rW0, k0_pay1 (F := Ideal)⟩, List.mem_cons_of_mem _ (List.mem_singleton_self _),
      View.mem_set_unit_zero hz0 inb_S1x1024_S1x1024_0_0 y⟩)) (ix2 0 j)).trans ?_
  show View.canon _ (rHi0.emb (ix2 0 j)) = 0
  rw [rHi0_emb]
  refine (View.canon_cons_of_not_mem (⟨rLo0, _⟩ : View.Piece (Elt Ideal) S1x1024 .f32) _ (hi0_not_mem_lo j)).trans ?_
  rw [View.canon_unit_zero hz0]
  exact congrFun k0_pay1_eq _

theorem sout0_B_0_lo (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i) (x0 x1 : Vec Ideal S2000x128 .f32) (x2 : Vec Ideal S128x512 .bf16) (xs0 : Vec Ideal S1x1024 .f32) (j : Fin 512) :
    sout0_B_0 (F := Ideal) c i arg1 harg1 arg2 harg2 arg3 harg3 arg4 harg4 arg5 harg5 arg6 harg6 hc0 hc1 x0 x1 x2 xs0 (ix2 0 (lo0 j))
      = xs0 (ix2 0 (lo0 j)) + ∑ r : Fin 2000, k0_pay2 (F := Ideal) x0 x1 x2 (ix2 r j) := by
  unfold sout0_B_0
  rw [View.read_writes_eq_canon _ _ _ (scover0_B_0 c i arg1 harg1 arg2 harg2 arg3 harg3 arg4 harg4 arg5 harg5 arg6 harg6 hc0 hc1 x0 x1 x2 xs0)]
  unfold kernelRun0_B
  dsimp only
  sl_unfold_words
  simp only [View.readAt_eq_ld, harg1.read_unread, harg2.read_unread, harg3.read_unread, harg6.read_unread, View.ld_unit_zero (S := S2000x128) hz0, View.ld_unit_zero (S := S128x512) hz0]
  refine (View.canon_cons_of_not_mem (⟨rHi0, _⟩ : View.Piece (Elt Ideal) S1x1024 .f32) _ (lo0_not_mem_hi j)).trans ?_
  refine (congrArg _ (rLo0_emb j).symm).trans ((View.canon_cons_emb rLo0 _ [] (ix2 0 j)).trans ?_)
  refine (k0_pay3_apply x0 x1 x2 _ j).trans ?_
  exact congrArg (· + _) (congrArg xs0 (rLo0_emb j))

theorem sout0_B_0_hi (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i) (x0 x1 : Vec Ideal S2000x128 .f32) (x2 : Vec Ideal S128x512 .bf16) (xs0 : Vec Ideal S1x1024 .f32) (j : Fin 512) :
    sout0_B_0 (F := Ideal) c i arg1 harg1 arg2 harg2 arg3 harg3 arg4 harg4 arg5 harg5 arg6 harg6 hc0 hc1 x0 x1 x2 xs0 (ix2 0 (hi0 j))
      = xs0 (ix2 0 (hi0 j)) + ∑ r : Fin 2000, k0_pay2 (F := Ideal) x0 x1 x2 (ix2 r j) * k0_pay2 (F := Ideal) x0 x1 x2 (ix2 r j) := by
  unfold sout0_B_0
  rw [View.read_writes_eq_canon _ _ _ (scover0_B_0 c i arg1 harg1 arg2 harg2 arg3 harg3 arg4 harg4 arg5 harg5 arg6 harg6 hc0 hc1 x0 x1 x2 xs0)]
  unfold kernelRun0_B
  dsimp only
  sl_unfold_words
  simp only [View.readAt_eq_ld, harg1.read_unread, harg2.read_unread, harg3.read_unread, harg6.read_unread, View.ld_unit_zero (S := S2000x128) hz0, View.ld_unit_zero (S := S128x512) hz0]
  refine (congrArg _ (rHi0_emb j).symm).trans ((View.canon_cons_emb rHi0 _ _ (ix2 0 j)).trans ?_)
  refine (k0_pay4_apply x0 x1 x2 _ j).trans ?_
  exact congrArg (· + _) (congrArg xs0 (rHi0_emb j))

theorem sout0_C_0_lo (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i) (x0 x1 : Vec Ideal S2000x128 .f32) (x2 : Vec Ideal S128x512 .bf16) (xs0 : Vec Ideal S1x1024 .f32) (j : Fin 512) :
    sout0_C_0 (F := Ideal) c i arg1 harg1 arg2 harg2 arg3 harg3 arg4 harg4 arg5 harg5 arg6 harg6 hc0 hc1 x0 x1 x2 xs0 (ix2 0 (lo0 j))
      = xs0 (ix2 0 (lo0 j)) + ∑ r : Fin 2000, k0_pay2 (F := Ideal) x0 x1 x2 (ix2 r j) := by
  unfold sout0_C_0
  rw [View.read_writes_eq_canon _ _ _ (scover0_C_0 c i arg1 harg1 arg2 harg2 arg3 harg3 arg4 harg4 arg5 harg5 arg6 harg6 hc0 hc1 x0 x1 x2 xs0)]
  unfold kernelRun0_C
  dsimp only
  sl_unfold_words
  simp only [View.readAt_eq_ld, harg1.read_unread, harg2.read_unread, harg3.read_unread, harg6.read_unread, View.ld_unit_zero (S := S2000x128) hz0, View.ld_unit_zero (S := S128x512) hz0]
  refine (View.canon_cons_of_not_mem (⟨rHi0, _⟩ : View.Piece (Elt Ideal) S1x1024 .f32) _ (lo0_not_mem_hi j)).trans ?_
  refine (congrArg _ (rLo0_emb j).symm).trans ((View.canon_cons_emb rLo0 _ [] (ix2 0 j)).trans ?_)
  refine (k0_pay3_apply x0 x1 x2 _ j).trans ?_
  exact congrArg (· + _) (congrArg xs0 (rLo0_emb j))

theorem sout0_C_0_hi (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i) (x0 x1 : Vec Ideal S2000x128 .f32) (x2 : Vec Ideal S128x512 .bf16) (xs0 : Vec Ideal S1x1024 .f32) (j : Fin 512) :
    sout0_C_0 (F := Ideal) c i arg1 harg1 arg2 harg2 arg3 harg3 arg4 harg4 arg5 harg5 arg6 harg6 hc0 hc1 x0 x1 x2 xs0 (ix2 0 (hi0 j))
      = xs0 (ix2 0 (hi0 j)) + ∑ r : Fin 2000, k0_pay2 (F := Ideal) x0 x1 x2 (ix2 r j) * k0_pay2 (F := Ideal) x0 x1 x2 (ix2 r j) := by
  unfold sout0_C_0
  rw [View.read_writes_eq_canon _ _ _ (scover0_C_0 c i arg1 harg1 arg2 harg2 arg3 harg3 arg4 harg4 arg5 harg5 arg6 harg6 hc0 hc1 x0 x1 x2 xs0)]
  unfold kernelRun0_C
  dsimp only
  sl_unfold_words
  simp only [View.readAt_eq_ld, harg1.read_unread, harg2.read_unread, harg3.read_unread, harg6.read_unread, View.ld_unit_zero (S := S2000x128) hz0, View.ld_unit_zero (S := S128x512) hz0]
  refine (congrArg _ (rHi0_emb j).symm).trans ((View.canon_cons_emb rHi0 _ _ (ix2 0 j)).trans ?_)
  refine (k0_pay4_apply x0 x1 x2 _ j).trans ?_
  exact congrArg (· + _) (congrArg xs0 (rHi0_emb j))

theorem out0_C_4_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i) (x0 x1 : Vec Ideal S2000x128 .f32) (x2 : Vec Ideal S128x512 .bf16) (xs0 : Vec Ideal S1x1024 .f32) :
    out0_C_4 (F := Ideal) c i arg1 harg1 arg2 harg2 arg3 harg3 arg4 harg4 arg5 harg5 arg6 harg6 hc0 hc1 x0 x1 x2 xs0 = sout0_C_0 (F := Ideal) c i arg1 harg1 arg2 harg2 arg3 harg3 arg4 harg4 arg5 harg5 arg6 harg6 hc0 hc1 x0 x1 x2 xs0 := by
  unfold out0_C_4 sout0_C_0
  rw [View.read_writes_eq_canon _ _ _ (cover0_C_4 c i arg1 harg1 arg2 harg2 arg3 harg3 arg4 harg4 arg5 harg5 arg6 harg6 hc0 hc1 x0 x1 x2 xs0), View.read_writes_eq_canon _ _ _ (scover0_C_0 c i arg1 harg1 arg2 harg2 arg3 harg3 arg4 harg4 arg5 harg5 arg6 harg6 hc0 hc1 x0 x1 x2 xs0)]
  unfold kernelRun0_C
  dsimp only
  sl_unfold_words
  rw [View.canon_unit_zero hz0]
  refine (View.readCov_eq_canon_ld _ _ rW0 (halves_cover0 _ _)).trans ?_
  exact View.ld_unit_zero hz0 _ _

/-! ## The region's arrays and blocks at their literal types -/

variable (V : (c : Dev nD) → (b : Ref sig .tc) → Buf (Elt Ideal) ((c : Thread nD τ).loc b))

/-- The two input arrays and the weight matrix as the region finds them. -/
abbrev X0_0 (c : Dev nD) : Spec.Mx 50000 128 := V c (Pipeline.arrRef spec0 0)
abbrev X0_1 (c : Dev nD) : Spec.Mx 50000 128 := V c (Pipeline.arrRef spec0 1)
abbrev X0_2 (c : Dev nD) : Spec.Mx 128 512 := V c (Pipeline.arrRef spec0 2)

/-- The product of the summed inputs with the weights, all rows at once. -/
abbrev Z0 (c : Dev nD) : Spec.Mx 50000 512 := Spec.mm (Spec.add2 (X0_0 V c) (X0_1 V c)) (X0_2 V c)

/-- The product block the body computes at point `t`. -/
abbrev zb0 (c : Dev nD) (t : Fin cfg0.N) : FVec Ideal S2000x512 .f32 :=
  k0_pay2 (F := Ideal) (iblk0 V c 0 t) (iblk0 V c 1 t) (iblk0 V c 2 t)

/-- The product block at point `t` is rows `2000 t …` of the whole product. -/
theorem zb0_apply (c : Dev nD) (t : Fin cfg0.N) (r : Fin 2000) (j : Fin 512) (i : Fin 50000) (hi : i.val = 2000 * t.val + r.val) :
    zb0 V c t (ix2 r j) = Z0 V c (ix2 i j) := by
  refine (k0_pay2_apply _ _ _ r j).trans ?_
  show _ = ∑ l : Fin 128, (X0_0 V c (ix2 i l) + X0_1 V c (ix2 i l)) * X0_2 V c (ix2 l j)
  refine Finset.sum_congr rfl fun l _ => ?_
  have e0 : (iblk0 V c 0 t : Vec Ideal S2000x128 .f32) (ix2 r l) = X0_0 V c (ix2 i l) := read_blk0_0 (X0_0 V c) t r l i hi
  have e1 : (iblk0 V c 1 t : Vec Ideal S2000x128 .f32) (ix2 r l) = X0_1 V c (ix2 i l) := read_blk0_1 (X0_1 V c) t r l i hi
  have e2 : (iblk0 V c 2 t : Vec Ideal S128x512 .bf16) (ix2 l j) = X0_2 V c (ix2 l j) := read_blk0_2 (X0_2 V c) t l j
  rw [e0, e1, e2]

/-! ## The carried row after each point -/

/-- The output block after point `t` is the product block, whichever case the point is. -/
theorem outsAt0_fst (c : Dev nD) (t : Fin cfg0.N) : (outsAt0 V c t.val t.isLt).1 = zb0 V c t := by
  by_cases h0 : t.val = 0
  · have h1 : ¬t.val = 24 := by omega
    rw [outsAt0_A V c t h0 h1]; dsimp only
    exact out0_A_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)
  · by_cases h1 : t.val = 24
    · rw [outsAt0_C V c t h0 h1]; dsimp only
      exact out0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) _
    · rw [outsAt0_B V c t h0 h1]; dsimp only
      exact out0_B_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) _

/-- Tile `t`'s contribution to column `j`'s sum, and to its sum of squares (nothing past the grid). -/
def tsum0 (c : Dev nD) (j : Fin 512) (t : ℕ) : EReal :=
  if h : t < cfg0.N then ∑ r : Fin 2000, zb0 V c ⟨t, h⟩ (ix2 r j) else 0
def tsq0 (c : Dev nD) (j : Fin 512) (t : ℕ) : EReal :=
  if h : t < cfg0.N then ∑ r : Fin 2000, zb0 V c ⟨t, h⟩ (ix2 r j) * zb0 V c ⟨t, h⟩ (ix2 r j) else 0

/-- The carried row at the first point. -/
theorem row0_zero (c : Dev nD) (j : Fin 512) (h : 0 < cfg0.N) :
    (outsAt0 V c 0 h).2.2 (ix2 0 (lo0 j)) = 0 + tsum0 V c j 0
    ∧ (outsAt0 V c 0 h).2.2 (ix2 0 (hi0 j)) = 0 + tsq0 V c j 0 := by
  have h1 : ¬(⟨0, h⟩ : Fin cfg0.N).val = 24 := by dsimp only; omega
  have e := outsAt0_A V c ⟨0, h⟩ rfl h1
  dsimp only at e
  rw [e]; dsimp only
  unfold tsum0 tsq0
  rw [dif_pos h, dif_pos h]
  exact ⟨sout0_A_0_lo c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (fun h' => h1 ((hcond0_1 ⟨0, h⟩).mp h')) (iblk0 V c 0 ⟨0, h⟩) (iblk0 V c 1 ⟨0, h⟩) (iblk0 V c 2 ⟨0, h⟩) j,
    sout0_A_0_hi c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (fun h' => h1 ((hcond0_1 ⟨0, h⟩).mp h')) (iblk0 V c 0 ⟨0, h⟩) (iblk0 V c 1 ⟨0, h⟩) (iblk0 V c 2 ⟨0, h⟩) j⟩

/-- The carried row at a later point: what the point before left plus this tile's contribution. -/
theorem row0_succ (c : Dev nD) (j : Fin 512) (n : ℕ) (h : n + 1 < cfg0.N) :
    (outsAt0 V c (n + 1) h).2.2 (ix2 0 (lo0 j)) = (outsAt0 V c n (Nat.lt_of_succ_lt h)).2.2 (ix2 0 (lo0 j)) + tsum0 V c j (n + 1)
    ∧ (outsAt0 V c (n + 1) h).2.2 (ix2 0 (hi0 j)) = (outsAt0 V c n (Nat.lt_of_succ_lt h)).2.2 (ix2 0 (hi0 j)) + tsq0 V c j (n + 1) := by
  have h0 : ¬(⟨n + 1, h⟩ : Fin cfg0.N).val = 0 := Nat.succ_ne_zero n
  unfold tsum0 tsq0
  rw [dif_pos h, dif_pos h]
  by_cases h1 : (⟨n + 1, h⟩ : Fin cfg0.N).val = 24
  · have e := outsAt0_C V c ⟨n + 1, h⟩ h0 h1
    dsimp only at e
    rw [e]; dsimp only
    exact ⟨sout0_C_0_lo c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => h0 ((hcond0_0 ⟨n + 1, h⟩).mp h')) ((hcond0_1 ⟨n + 1, h⟩).mpr h1) (iblk0 V c 0 ⟨n + 1, h⟩) (iblk0 V c 1 ⟨n + 1, h⟩) (iblk0 V c 2 ⟨n + 1, h⟩) _ j,
      sout0_C_0_hi c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => h0 ((hcond0_0 ⟨n + 1, h⟩).mp h')) ((hcond0_1 ⟨n + 1, h⟩).mpr h1) (iblk0 V c 0 ⟨n + 1, h⟩) (iblk0 V c 1 ⟨n + 1, h⟩) (iblk0 V c 2 ⟨n + 1, h⟩) _ j⟩
  · have e := outsAt0_B V c ⟨n + 1, h⟩ h0 h1
    dsimp only at e
    rw [e]; dsimp only
    exact ⟨sout0_B_0_lo c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => h0 ((hcond0_0 ⟨n + 1, h⟩).mp h')) (fun h' => h1 ((hcond0_1 ⟨n + 1, h⟩).mp h')) (iblk0 V c 0 ⟨n + 1, h⟩) (iblk0 V c 1 ⟨n + 1, h⟩) (iblk0 V c 2 ⟨n + 1, h⟩) _ j,
      sout0_B_0_hi c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => h0 ((hcond0_0 ⟨n + 1, h⟩).mp h')) (fun h' => h1 ((hcond0_1 ⟨n + 1, h⟩).mp h')) (iblk0 V c 0 ⟨n + 1, h⟩) (iblk0 V c 1 ⟨n + 1, h⟩) (iblk0 V c 2 ⟨n + 1, h⟩) _ j⟩

/-- So after point `n` the carried row holds, column by column, the sums over the tiles so far. -/
theorem row0_eq (c : Dev nD) (j : Fin 512) (n : ℕ) (h : n < cfg0.N) :
    (outsAt0 V c n h).2.2 (ix2 0 (lo0 j)) = ∑ t ∈ Finset.range (n + 1), tsum0 V c j t
    ∧ (outsAt0 V c n h).2.2 (ix2 0 (hi0 j)) = ∑ t ∈ Finset.range (n + 1), tsq0 V c j t :=
  ⟨steps_eq_sum0 (tsum0 V c j) cfg0.N (fun n h => (outsAt0 V c n h).2.2 (ix2 0 (lo0 j)))
      (fun h => (row0_zero V c j h).1) (fun n h => (row0_succ V c j n h).1) n h,
    steps_eq_sum0 (tsq0 V c j) cfg0.N (fun n h => (outsAt0 V c n h).2.2 (ix2 0 (hi0 j)))
      (fun h => (row0_zero V c j h).2) (fun n h => (row0_succ V c j n h).2) n h⟩

/-- The sums over all the tiles are the column sums of the whole product, and of its squares. -/
theorem tsum0_all (c : Dev nD) (j : Fin 512) :
    ∑ t ∈ Finset.range 25, tsum0 V c j t = Spec.colSum (Z0 V c) j := by
  have hN : cfg0.N = 25 := N_0
  rw [Finset.sum_range]
  show _ = ∑ i : Fin 50000, Z0 V c (ix2 i j)
  rw [sum_rows_tiles0]
  refine Finset.sum_congr rfl fun t _ => ?_
  have ht : t.val < cfg0.N := by have := t.isLt; omega
  unfold tsum0
  rw [dif_pos ht]
  exact Finset.sum_congr rfl fun r _ =>
    zb0_apply V c ⟨t.val, ht⟩ r j ⟨2000 * t.val + r.val, by have := t.isLt; have := r.isLt; omega⟩ rfl

theorem tsq0_all (c : Dev nD) (j : Fin 512) :
    ∑ t ∈ Finset.range 25, tsq0 V c j t = Spec.colSumSq (Z0 V c) j := by
  have hN : cfg0.N = 25 := N_0
  rw [Finset.sum_range]
  show _ = ∑ i : Fin 50000, Z0 V c (ix2 i j) * Z0 V c (ix2 i j)
  rw [sum_rows_tiles0]
  refine Finset.sum_congr rfl fun t _ => ?_
  have ht : t.val < cfg0.N := by have := t.isLt; omega
  unfold tsq0
  rw [dif_pos ht]
  exact Finset.sum_congr rfl fun r _ => by
    rw [zb0_apply V c ⟨t.val, ht⟩ r j ⟨2000 * t.val + r.val, by have := t.isLt; have := r.isLt; omega⟩ rfl]

/-! ## The two output arrays after the region -/

/-- The statistics row: the column sums in its first half, the column sums of squares in its second. -/
def stats0 (Z : Spec.Mx 50000 512) : Spec.Mx 1 1024 := fun i =>
  if h : (i 1).val < 512 then Spec.colSum Z ⟨(i 1).val, h⟩
  else Spec.colSumSq Z ⟨(i 1).val - 512, by have : (i 1).val < 1024 := (i 1).isLt; omega⟩

theorem stats0_lo (Z : Spec.Mx 50000 512) (j : Fin 512) : stats0 Z (ix2 0 (lo0 j)) = Spec.colSum Z j := by
  unfold stats0
  have hq : ((ix2 (0 : Fin 1) (lo0 j) : S1x1024.Idx) 1).val < 512 := j.isLt
  rw [dif_pos hq]
theorem stats0_hi (Z : Spec.Mx 50000 512) (j : Fin 512) : stats0 Z (ix2 0 (hi0 j)) = Spec.colSumSq Z j := by
  unfold stats0
  have hq : ¬((ix2 (0 : Fin 1) (hi0 j) : S1x1024.Idx) 1).val < 512 := by
    show ¬ 512 + j.val < 512; omega
  rw [dif_neg hq]
  exact congrArg (Spec.colSumSq Z) (Fin.ext (by show 512 + j.val - 512 = j.val; omega))

/-- What point `t` writes back of the product is block `t` of the whole product. -/
theorem flushed0_3_eq (c : Dev nD) (t : Fin cfg0.N) :
    (dat0 V c).flushed 3 t = ((cfg0.win 3).blk t).view.read (Elt Ideal) (Z0 V c) := by
  show (cfg0.win 3).cut (grid0.coords t) ((dat0 V c).after 3 t) = _
  rw [after0_3, outsAt0_fst]
  funext y
  obtain ⟨r, j, rfl⟩ : ∃ (r : Fin 2000) (j : Fin 512), y = ix2 r j := ⟨y 0, y 1, eq_ix2 y⟩
  have hi : (⟨2000 * t.val + r.val, by have hN : cfg0.N = 25 := N_0; have := t.isLt; have := r.isLt; omega⟩ : Fin 50000).val
      = 2000 * t.val + r.val := rfl
  refine Eq.trans ?_ (read_blk0_3 (Z0 V c) t r j _ hi).symm
  exact zb0_apply V c t r j _ hi

/-- The product array after the region is the whole product. -/
theorem z_eq0 (c : Dev nD) : (dat0 V c).arrAt 3 cfg0.N = Z0 V c :=
  (dat0 V c).arrAt_eq_of_cover 3 (Z0 V c) (fun t _ => flushed0_3_eq V c t) cover0_3

/-- What the last point writes back of the statistics is the whole statistics row. -/
theorem flushed0_4_eq (c : Dev nD) (t : Fin cfg0.N) (hf : (cfg0.win 4).flush t = true) :
    (dat0 V c).flushed 4 t = ((cfg0.win 4).blk t).view.read (Elt Ideal) (stats0 (Z0 V c)) := by
  have hN : cfg0.N = 25 := N_0
  have h24 : t.val = 24 := by have := (flush0_4 t).mp hf; have := t.isLt; omega
  have h0 : ¬t.val = 0 := by omega
  show (cfg0.win 4).cut (grid0.coords t) ((dat0 V c).after 4 t) = _
  rw [after0_4]
  funext y
  rw [read_blk0_4 (stats0 (Z0 V c)) t y]
  have e := outsAt0_C V c t h0 h24
  have e4 : (outsAt0 V c t.val t.isLt).2.1 = (outsAt0 V c t.val t.isLt).2.2 := by
    rw [e]; dsimp only
    exact out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h24) (iblk0 V c 0 t) (iblk0 V c 1 t) (iblk0 V c 2 t) _
  show (outsAt0 V c t.val t.isLt).2.1 y = _
  rw [e4]
  obtain ⟨p, q, rfl⟩ : ∃ (p : Fin 1) (q : Fin 1024), y = ix2 p q := ⟨y 0, y 1, eq_ix2 y⟩
  obtain rfl : p = 0 := Fin.ext (by have := p.isLt; omega)
  have hr := fun j => row0_eq V c j t.val t.isLt
  have hq : (∃ j : Fin 512, q = lo0 j) ∨ (∃ j : Fin 512, q = hi0 j) := by
    by_cases h : q.val < 512
    · exact .inl ⟨⟨q.val, h⟩, Fin.ext rfl⟩
    · exact .inr ⟨⟨q.val - 512, by have := q.isLt; omega⟩, Fin.ext (by show q.val = 512 + (q.val - 512); omega)⟩
  rcases hq with ⟨j, rfl⟩ | ⟨j, rfl⟩
  · rw [(hr j).1, h24, stats0_lo]; exact tsum0_all V c j
  · rw [(hr j).2, h24, stats0_hi]; exact tsq0_all V c j

/-- The statistics array after the region is the whole statistics row. -/
theorem stats_arr0 (c : Dev nD) : (dat0 V c).arrAt 4 cfg0.N = stats0 (Z0 V c) :=
  (dat0 V c).arrAt_eq_of_cover 4 (stats0 (Z0 V c)) (fun t hf => flushed0_4_eq V c t hf) cover0_4

/-- Column by column: the first half holds the column sums of the product, the second those of its squares. -/
theorem stats_eq0 (c : Dev nD) (j : Fin 512) :
    (dat0 V c).arrAt 4 cfg0.N (ix2 0 (lo0 j)) = Spec.colSum (Z0 V c) j
    ∧ (dat0 V c).arrAt 4 cfg0.N (ix2 0 (hi0 j)) = Spec.colSumSq (Z0 V c) j := by
  rw [stats_arr0]
  exact ⟨stats0_lo _ j, stats0_hi _ j⟩

end Cert.KernelIdeal.HandValue

end
-- ==== Proof.KI.Val1.lean ====
/-
  The value of the second stage's region, at the extended reals.

  The region walks 50000 rows in 25 tiles of 2000. At each tile it normalises the tile's rows with a
  mean row, a variance row, a gain row and a bias row, rectifies them, multiplies by the weights, and
  stores the tile's product; it adds the product's column sums and column sums of squares to a
  one-row accumulator (zeroed before the first tile), and after the last tile copies the accumulator
  out. This module reads that off: the product array is the specification's `mm (bnRelu …) w`, and the
  statistics row holds its column sums and column sums of squares over all rows. Addition of extended
  reals is commutative and associative, so regrouping the tiles' partial sums needs no finiteness.
-/
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import proofs.«427833_j20194936226511_1_alg».proof.Proof.Spec
import proofs.«427833_j20194936226511_1_alg».proof.Proof.KI.Reg1
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Mathlib.Algebra.BigOperators.Fin
import Mathlib.Logic.Equiv.Fin.Basic

noncomputable section

namespace Cert.KernelIdeal.HandValue

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)
open scoped BigOperators

/-! ## The product's operand indices, coordinate by coordinate

The product contracts the left operand's second axis with the right operand's first: at the output
index `(r, j)` and the contraction position `l` it reads the left operand at `(r, l)` and the right
operand at `(l, j)`. -/

theorem k1_dot_lhs_0 (j : S2000x256.Idx) (k : dot_S2000x512_S512x256_S2000x256_1_0_0_1_n_n.contr.Idx) :
    (dot_S2000x512_S512x256_S2000x256_1_0_0_1_n_n.lhsIdx j k 0 : ℕ) = j 0 := by
  simp [DotDims.lhsIdx, dot_S2000x512_S512x256_S2000x256_1_0_0_1_n_n] <;> rfl
theorem k1_dot_lhs_1 (j : S2000x256.Idx) (k : dot_S2000x512_S512x256_S2000x256_1_0_0_1_n_n.contr.Idx) :
    (dot_S2000x512_S512x256_S2000x256_1_0_0_1_n_n.lhsIdx j k 1 : ℕ) = k ⟨0, by decide⟩ := by
  simp [DotDims.lhsIdx, dot_S2000x512_S512x256_S2000x256_1_0_0_1_n_n] <;> rfl
theorem k1_dot_rhs_0 (j : S2000x256.Idx) (k : dot_S2000x512_S512x256_S2000x256_1_0_0_1_n_n.contr.Idx) :
    (dot_S2000x512_S512x256_S2000x256_1_0_0_1_n_n.rhsIdx j k 0 : ℕ) = k ⟨0, by decide⟩ := by
  simp [DotDims.rhsIdx, dot_S2000x512_S512x256_S2000x256_1_0_0_1_n_n] <;> rfl
theorem k1_dot_rhs_1 (j : S2000x256.Idx) (k : dot_S2000x512_S512x256_S2000x256_1_0_0_1_n_n.contr.Idx) :
    (dot_S2000x512_S512x256_S2000x256_1_0_0_1_n_n.rhsIdx j k 1 : ℕ) = j 1 := by
  simp [DotDims.rhsIdx, dot_S2000x512_S512x256_S2000x256_1_0_0_1_n_n] <;> rfl

/-- A product into the zero accumulator, read at `(r, j)`: the sum over the contracted axis. -/
theorem k1_matmul_apply (a : FVec Ideal S2000x512 .bf16) (w : FVec Ideal S512x256 .bf16) (r : Fin 2000) (j : Fin 256) :
    matmul (F := Ideal) dot_S2000x512_S512x256_S2000x256_1_0_0_1_n_n none a w (constant S2000x256 .f32 0x00000000#32) (ix2 r j)
      = ∑ l : Fin 512, a (ix2 r l) * w (ix2 l j) := by
  refine (Ideal.matmul_constant_zero_apply dot_S2000x512_S512x256_S2000x256_1_0_0_1_n_n none a w (ix2 r j)).trans ?_
  rw [← Equiv.sum_comp (contrEquiv1 dot_S2000x512_S512x256_S2000x256_1_0_0_1_n_n 512 rfl rfl).symm]
  refine Finset.sum_congr rfl fun l _ => ?_
  have hk := contrEquiv1_symm_val dot_S2000x512_S512x256_S2000x256_1_0_0_1_n_n 512 rfl rfl l
  refine congrArg₂ (· * ·) (congrArg a (funext fun ax => Fin.ext ?_)) (congrArg w (funext fun ax => Fin.ext ?_))
  · match ax with
    | ⟨0, _⟩ => exact k1_dot_lhs_0 _ _
    | ⟨1, _⟩ => exact (k1_dot_lhs_1 _ _).trans hk
  · match ax with
    | ⟨0, _⟩ => exact (k1_dot_rhs_0 _ _).trans hk
    | ⟨1, _⟩ => exact k1_dot_rhs_1 _ _

/-! ## The payloads at an index -/

/-- The tile's product at `(r, j)`: the sum over `l` of the normalised, rectified entry `(r, l)` of the
    block (gain `g`, mean `mu`, variance `var`, bias `b`, each one row) times the weight `(l, j)`. The
    change of float format in between is the identity on the extended reals. -/
theorem k1_pay4_apply (z : Vec Ideal S2000x512 .f32) (g mu var b : Vec Ideal S1x512 .f32) (w : Vec Ideal S512x256 .bf16)
    (r : Fin 2000) (j : Fin 256) :
    k1_pay4 (F := Ideal) z g mu var b w (ix2 r j)
      = ∑ l : Fin 512, max (g (ix2 0 l) * (z (ix2 r l) - mu (ix2 0 l)) * Ideal.rsqrt (var (ix2 0 l) + Spec.bnEps) + b (ix2 0 l)) Spec.zero
          * w (ix2 l j) := by
  unfold k1_pay4
  refine (k1_matmul_apply _ _ r j).trans ?_
  refine Finset.sum_congr rfl fun l _ => ?_
  simp only [shapeCast_self]
  refine congrArg₂ (· * ·) ?_ rfl
  show max (broadcastTo S2000x512 g broadcasts_S1x512_S2000x512 (ix2 r l)
        * (z (ix2 r l) - broadcastTo S2000x512 mu broadcasts_S1x512_S2000x512 (ix2 r l))
        * broadcastTo S2000x512 (rsqrt (F := Ideal) (addf (F := Ideal) var (broadcast S1x512 (Scalar.ofBits (F := Ideal) .f32 0x3727C5AC#32)))) broadcasts_S1x512_S2000x512 (ix2 r l)
        + broadcastTo S2000x512 b broadcasts_S1x512_S2000x512 (ix2 r l)) (Scalar.ofBits (F := Ideal) .f32 0x00000000#32) = _
  rw [broadcastTo_1b_ab_apply g, broadcastTo_1b_ab_apply mu, broadcastTo_1b_ab_apply b, broadcastTo_1b_ab_apply (rsqrt (F := Ideal) _)]
  rfl

/-- The tile's column sums, as a row: at `(0, j)` the sum of the tile's product over its rows. -/
theorem k1_pay5_apply (z : Vec Ideal S2000x512 .f32) (g mu var b : Vec Ideal S1x512 .f32) (w : Vec Ideal S512x256 .bf16) (j : Fin 256) :
    k1_pay5 (F := Ideal) z g mu var b w (ix2 0 j) = ∑ r : Fin 2000, k1_pay4 (F := Ideal) z g mu var b w (ix2 r j) := by
  refine (shapeCast_a_1a_apply (multiReduction (F := Ideal) .add [0] S256 (k1_pay4 z g mu var b w) 0x00000000#32 reduces_S2000x256_S256 (.inl rfl) rfl)
    shapeCasts_S256_S1x256 0 j).trans ?_
  refine (Ideal.multiReduction_add_single (k1_pay4 (F := Ideal) z g mu var b w) 0x00000000#32 reduces_S2000x256_S256 (.inl rfl) rfl (ix1 j)).trans ?_
  refine Finset.sum_congr rfl fun r _ => congrArg (k1_pay4 (F := Ideal) z g mu var b w) ?_
  funext c; match c with | ⟨0, _⟩ => rfl | ⟨1, _⟩ => rfl

/-- The tile's column sums of squares, as a row. -/
theorem k1_pay6_apply (z : Vec Ideal S2000x512 .f32) (g mu var b : Vec Ideal S1x512 .f32) (w : Vec Ideal S512x256 .bf16) (j : Fin 256) :
    k1_pay6 (F := Ideal) z g mu var b w (ix2 0 j)
      = ∑ r : Fin 2000, k1_pay4 (F := Ideal) z g mu var b w (ix2 r j) * k1_pay4 (F := Ideal) z g mu var b w (ix2 r j) := by
  refine (shapeCast_a_1a_apply (multiReduction (F := Ideal) .add [0] S256 (mulf (k1_pay4 z g mu var b w) (k1_pay4 z g mu var b w)) 0x00000000#32 reduces_S2000x256_S256 (.inl rfl) rfl)
    shapeCasts_S256_S1x256 0 j).trans ?_
  refine (Ideal.multiReduction_add_single (mulf (k1_pay4 (F := Ideal) z g mu var b w) (k1_pay4 (F := Ideal) z g mu var b w)) 0x00000000#32 reduces_S2000x256_S256 (.inl rfl) rfl (ix1 j)).trans ?_
  refine Finset.sum_congr rfl fun r _ => ?_
  have e : reduces_S2000x256_S256.lift (ix1 j) r = ix2 r j := by
    funext c; match c with | ⟨0, _⟩ => rfl | ⟨1, _⟩ => rfl
  rw [e]; rfl

/-- The accumulator's first half after a tile: what it held plus the tile's row of sums. -/
theorem k1_pay1_apply (row : FVec Ideal S1x256 .f32) (acc : Vec Ideal S1x256 .f32) (i : S1x256.Idx) :
    k1_pay1 (F := Ideal) row acc i = acc i + row i :=
  congrFun (shapeCast_self (addf (F := Ideal) acc row) shapeCasts_S1x256_S1x256) i

/-- The accumulator's second half after a tile: what it held plus the tile's row of sums of squares. -/
theorem k1_pay2_apply (row : FVec Ideal S1x256 .f32) (acc : Vec Ideal S1x256 .f32) (i : S1x256.Idx) :
    k1_pay2 (F := Ideal) row acc i = acc i + row i :=
  congrFun (shapeCast_self (addf (F := Ideal) acc row) shapeCasts_S1x256_S1x256) i

/-- The accumulator's reset: the zero word everywhere. -/
theorem k1_pay3_apply (i : S1x512.Idx) : k1_pay3 (F := Ideal) i = Spec.zero :=
  congrFun (shapeCast_self (broadcast S1x512 (Scalar.ofBits (F := Ideal) .f32 0x00000000#32)) shapeCasts_S1x512_S1x512) i

/-! ## Regrouping: the tiles' partial sums are the sum over all rows

The grid walks the rows in 25 tiles of 2000; row `r` of tile `t` is row `2000 t + r`. A sum over all
50000 rows is the sum over the tiles of the sums over a tile's rows: addition of extended reals is
commutative and associative, so no finiteness is needed. -/

/-- Row `r` of tile `t`. -/
def k1_rowOf (t : Fin 25) (r : Fin 2000) : Fin 50000 :=
  ⟨2000 * t.val + r.val, by have := t.isLt; have := r.isLt; omega⟩

theorem k1_rowOf_val (t : Fin 25) (r : Fin 2000) : (k1_rowOf t r).val = 2000 * t.val + r.val := rfl

theorem k1_sum_tiles (f : Fin 50000 → EReal) :
    ∑ t : Fin 25, ∑ r : Fin 2000, f (k1_rowOf t r) = ∑ i : Fin 50000, f i := by
  refine (Fintype.sum_prod_type' (fun t r => f (k1_rowOf t r))).symm.trans ?_
  refine Fintype.sum_equiv ((finProdFinEquiv (m := 25) (n := 2000)).trans (finCongr (by norm_num))) _ _ fun x => ?_
  refine congrArg f (Fin.ext ?_)
  simp [k1_rowOf, finProdFinEquiv]
  omega

/-- The sum of `f` over tile `t`'s rows; zero past the last tile. -/
def k1_tileSum (f : Fin 50000 → EReal) (t : ℕ) : EReal :=
  if h : t < 25 then ∑ r : Fin 2000, f (k1_rowOf ⟨t, h⟩ r) else 0

theorem k1_tileSum_of_lt (f : Fin 50000 → EReal) (t : ℕ) (h : t < 25) :
    k1_tileSum f t = ∑ r : Fin 2000, f (k1_rowOf ⟨t, h⟩ r) := dif_pos h

/-- The 25 tiles' sums, added in the grid's order, are the sum over all rows. -/
theorem k1_sum_range_tiles (f : Fin 50000 → EReal) :
    ∑ t ∈ Finset.range 25, k1_tileSum f t = ∑ i : Fin 50000, f i := by
  rw [Finset.sum_range]
  exact (Finset.sum_congr rfl fun t _ => k1_tileSum_of_lt f t.val t.isLt).trans (k1_sum_tiles f)

/-! ## One point, against the whole arrays

Over variables: the blocks `x0 … x5` the body loads at a point, and the arrays `M0 … M5` they are blocks
of. Tile `n`'s block of the first operand holds rows `2000 n …` of its array; the five other operands
are whole. -/

section Point
variable (x0 : Vec Ideal S2000x512 .f32) (x1 x2 x3 x4 : Vec Ideal S1x512 .f32) (x5 : Vec Ideal S512x256 .bf16)
variable (M0 : Spec.Mx 50000 512) (M1 M2 M3 M4 : Spec.Mx 1 512) (M5 : Spec.Mx 512 256)

/-- The whole product: the rows normalised with mean `M1`, variance `M2`, gain `M3`, bias `M4`,
    rectified, times the weights. -/
abbrev k1_prod : Spec.Mx 50000 256 :=
  Spec.mm (Spec.bnRelu M0 (fun l => M1 (ix2 0 l)) (fun l => M2 (ix2 0 l)) (fun l => M3 (ix2 0 l)) (fun l => M4 (ix2 0 l))) M5

/-- The tile's product at `(r, j)` is the whole product at the tile's row. (The body passes the gain
    first, then the mean, the variance and the bias.) -/
theorem k1_point4 (r : Fin 2000) (j : Fin 256) (ir : Fin 50000)
    (h0 : ∀ l : Fin 512, x0 (ix2 r l) = M0 (ix2 ir l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ l : Fin 512, x5 (ix2 l j) = M5 (ix2 l j)) :
    k1_pay4 (F := Ideal) x0 x3 x1 x2 x4 x5 (ix2 r j) = k1_prod M0 M1 M2 M3 M4 M5 (ix2 ir j) := by
  rw [k1_pay4_apply]
  show _ = ∑ l : Fin 512, max (M3 (ix2 0 l) * (M0 (ix2 ir l) - M1 (ix2 0 l)) * Ideal.rsqrt (M2 (ix2 0 l) + Spec.bnEps) + M4 (ix2 0 l)) Spec.zero
      * M5 (ix2 l j)
  refine Finset.sum_congr rfl fun l _ => ?_
  rw [h0, h1, h2, h3, h4, h5]

/-- Tile `n`'s row of column sums is the sum of the whole product's column over the tile's rows. -/
theorem k1_point5 (n : ℕ) (hn : n < 25) (j : Fin 256)
    (h0 : ∀ (r : Fin 2000) (l : Fin 512), x0 (ix2 r l) = M0 (ix2 (k1_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 256), x5 (ix2 l j) = M5 (ix2 l j)) :
    k1_pay5 (F := Ideal) x0 x3 x1 x2 x4 x5 (ix2 0 j) = k1_tileSum (fun i => k1_prod M0 M1 M2 M3 M4 M5 (ix2 i j)) n := by
  rw [k1_pay5_apply, k1_tileSum_of_lt _ n hn]
  exact Finset.sum_congr rfl fun r _ =>
    k1_point4 x0 x1 x2 x3 x4 x5 M0 M1 M2 M3 M4 M5 r j (k1_rowOf ⟨n, hn⟩ r) (h0 r) h1 h2 h3 h4 (fun l => h5 l j)

/-- Tile `n`'s row of column sums of squares likewise. -/
theorem k1_point6 (n : ℕ) (hn : n < 25) (j : Fin 256)
    (h0 : ∀ (r : Fin 2000) (l : Fin 512), x0 (ix2 r l) = M0 (ix2 (k1_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 256), x5 (ix2 l j) = M5 (ix2 l j)) :
    k1_pay6 (F := Ideal) x0 x3 x1 x2 x4 x5 (ix2 0 j)
      = k1_tileSum (fun i => k1_prod M0 M1 M2 M3 M4 M5 (ix2 i j) * k1_prod M0 M1 M2 M3 M4 M5 (ix2 i j)) n := by
  rw [k1_pay6_apply, k1_tileSum_of_lt _ n hn]
  refine Finset.sum_congr rfl fun r _ => ?_
  rw [k1_point4 x0 x1 x2 x3 x4 x5 M0 M1 M2 M3 M4 M5 r j (k1_rowOf ⟨n, hn⟩ r) (h0 r) h1 h2 h3 h4 (fun l => h5 l j)]

end Point

/-! ## The accumulator row

The row has two halves: the first carries the sums, the second the sums of squares. -/

/-- Column `j` of the first half. -/
def k1_lo (j : Fin 256) : Fin 512 := ⟨j.val, by have := j.isLt; omega⟩
/-- Column `j` of the second half. -/
def k1_hi (j : Fin 256) : Fin 512 := ⟨256 + j.val, by have := j.isLt; omega⟩

/-- The row holds the first `n` tiles' sums of `Z`'s columns and of their squares. -/
def k1_AccIs (Z : Spec.Mx 50000 256) (n : ℕ) (acc : Vec Ideal S1x512 .f32) : Prop :=
  ∀ j : Fin 256,
    acc (ix2 0 (k1_lo j)) = ∑ t ∈ Finset.range n, k1_tileSum (fun i => Z (ix2 i j)) t
    ∧ acc (ix2 0 (k1_hi j)) = ∑ t ∈ Finset.range n, k1_tileSum (fun i => Z (ix2 i j) * Z (ix2 i j)) t

/-- After the first tile: the zero word plus the tile's rows. -/
theorem k1_AccIs_first (Z : Spec.Mx 50000 256) (acc : Vec Ideal S1x512 .f32) (row5 row6 : FVec Ideal S1x256 .f32)
    (hlo : ∀ j : Fin 256, acc (ix2 0 (k1_lo j)) = Spec.zero + row5 (ix2 0 j))
    (hhi : ∀ j : Fin 256, acc (ix2 0 (k1_hi j)) = Spec.zero + row6 (ix2 0 j))
    (h5 : ∀ j : Fin 256, row5 (ix2 0 j) = k1_tileSum (fun i => Z (ix2 i j)) 0)
    (h6 : ∀ j : Fin 256, row6 (ix2 0 j) = k1_tileSum (fun i => Z (ix2 i j) * Z (ix2 i j)) 0) :
    k1_AccIs Z 1 acc := fun j => by
  have hz : Spec.zero = 0 := Ideal.ofBits_zero_f32
  rw [hlo, hhi, h5, h6, hz, zero_add, zero_add, Finset.sum_range_one, Finset.sum_range_one]
  exact ⟨rfl, rfl⟩

/-- After a later tile: what the row held plus the tile's rows. -/
theorem k1_AccIs_next (Z : Spec.Mx 50000 256) (n : ℕ) (acc acc' : Vec Ideal S1x512 .f32) (row5 row6 : FVec Ideal S1x256 .f32)
    (h : k1_AccIs Z n acc)
    (hlo : ∀ j : Fin 256, acc' (ix2 0 (k1_lo j)) = acc (ix2 0 (k1_lo j)) + row5 (ix2 0 j))
    (hhi : ∀ j : Fin 256, acc' (ix2 0 (k1_hi j)) = acc (ix2 0 (k1_hi j)) + row6 (ix2 0 j))
    (h5 : ∀ j : Fin 256, row5 (ix2 0 j) = k1_tileSum (fun i => Z (ix2 i j)) n)
    (h6 : ∀ j : Fin 256, row6 (ix2 0 j) = k1_tileSum (fun i => Z (ix2 i j) * Z (ix2 i j)) n) :
    k1_AccIs Z (n + 1) acc' := fun j => by
  rw [hlo, hhi, h5, h6, (h j).1, (h j).2, Finset.sum_range_succ, Finset.sum_range_succ]
  exact ⟨rfl, rfl⟩

/-- After the last tile the row holds the column sums and the column sums of squares. -/
theorem k1_AccIs_last (Z : Spec.Mx 50000 256) (acc : Vec Ideal S1x512 .f32) (h : k1_AccIs Z 25 acc) (j : Fin 256) :
    acc (ix2 0 (k1_lo j)) = Spec.colSum Z j ∧ acc (ix2 0 (k1_hi j)) = Spec.colSumSq Z j := by
  rw [(h j).1, (h j).2, k1_sum_range_tiles, k1_sum_range_tiles]
  exact ⟨rfl, rfl⟩

/-! ## The accumulator row's two halves, as rectangles -/

theorem k1_hz : (![0, 0] : Fin 2 → Nat) = fun _ => 0 := funext fun a => by fin_cases a <;> rfl

/-- The first half of the row. -/
abbrev k1_rLo : Rect S1x512 := Rect.unit (s := S1x512) ![0, 0] S1x256.size inb_S1x512_S1x256_0_0
/-- The second half of the row. -/
abbrev k1_rHi : Rect S1x512 := Rect.unit (s := S1x512) ![0, 256] S1x256.size inb_S1x512_S1x256_0_256
/-- The whole row. -/
abbrev k1_rAll : Rect S1x512 := Rect.unit (s := S1x512) ![0, 0] S1x512.size inb_S1x512_S1x512_0_0

/-- Column `j` of the first half sits at column `j` of the row. -/
theorem k1_rLo_emb (j : Fin 256) : k1_rLo.emb (ix2 (0 : Fin 1) j) = ix2 (0 : Fin 1) (k1_lo j) := by
  funext a; apply Fin.ext
  match a with
  | ⟨0, _⟩ => rfl
  | ⟨1, _⟩ => show 0 + 1 * j.val = j.val; omega

/-- Column `j` of the second half sits `j` columns past the first half. -/
theorem k1_rHi_emb (j : Fin 256) : k1_rHi.emb (ix2 (0 : Fin 1) j) = ix2 (0 : Fin 1) (k1_hi j) := by
  funext a; apply Fin.ext
  match a with
  | ⟨0, _⟩ => rfl
  | ⟨1, _⟩ => show 256 + 1 * j.val = 256 + j.val; omega

/-- The whole row's rectangle places every index at itself. -/
theorem k1_rAll_idx (y : S1x512.Idx) : k1_rAll.toLoadRect.idx y = y := by
  funext a; apply Fin.ext
  match a with
  | ⟨0, _⟩ => show 0 + 1 * (y 0).val = (y 0).val; omega
  | ⟨1, _⟩ => show 0 + 1 * (y 1).val = (y 1).val; omega

/-- A column of the first half is not in the second half's rectangle … -/
theorem k1_lo_not_mem_hi (j : Fin 256) : (ix2 (0 : Fin 1) (k1_lo j) : S1x512.Idx) ∉ k1_rHi.set := by
  rw [Rect.mem_set_unit]
  intro h
  have h1 : 256 ≤ j.val := (h 1).1
  have := j.isLt; omega

/-- … and a column of the second half is not in the first half's. -/
theorem k1_hi_not_mem_lo (j : Fin 256) : (ix2 (0 : Fin 1) (k1_hi j) : S1x512.Idx) ∉ k1_rLo.set := by
  rw [Rect.mem_set_unit]
  intro h
  have h1 : 256 + j.val < 0 + 256 := (h 1).2
  omega

section Canon
variable {F : FTy → Type} [FloatOps F]

/-- After the two half stores (the second half's last), the row's second half reads the second store's payload … -/
theorem k1_canon_hi (wHi wLo : Vec F S1x256 .f32) (L : List (View.Piece (Elt F) S1x512 .f32)) (j : Fin 256) :
    View.canon ((⟨k1_rHi, wHi⟩ : View.Piece (Elt F) S1x512 .f32) :: ⟨k1_rLo, wLo⟩ :: L) (ix2 (0 : Fin 1) (k1_hi j)) = wHi (ix2 (0 : Fin 1) j) := by
  rw [← k1_rHi_emb j]
  exact View.canon_cons_emb k1_rHi wHi _ (ix2 (0 : Fin 1) j)

/-- … and its first half the first store's. -/
theorem k1_canon_lo (wHi wLo : Vec F S1x256 .f32) (L : List (View.Piece (Elt F) S1x512 .f32)) (j : Fin 256) :
    View.canon ((⟨k1_rHi, wHi⟩ : View.Piece (Elt F) S1x512 .f32) :: ⟨k1_rLo, wLo⟩ :: L) (ix2 (0 : Fin 1) (k1_lo j)) = wLo (ix2 (0 : Fin 1) j) := by
  refine (View.canon_cons_of_not_mem (⟨k1_rHi, wHi⟩ : View.Piece (Elt F) S1x512 .f32) (⟨k1_rLo, wLo⟩ :: L) (k1_lo_not_mem_hi j)).trans ?_
  rw [← k1_rLo_emb j]
  exact View.canon_cons_emb k1_rLo wLo L (ix2 (0 : Fin 1) j)

/-- A load of the first half reads the row's first half … -/
theorem k1_ld_lo (xs : Vec F S1x512 .f32) (j : Fin 256) : View.ld xs k1_rLo (ix2 (0 : Fin 1) j) = xs (ix2 (0 : Fin 1) (k1_lo j)) :=
  congrArg xs (k1_rLo_emb j)
/-- … and a load of the second half its second half. -/
theorem k1_ld_hi (xs : Vec F S1x512 .f32) (j : Fin 256) : View.ld xs k1_rHi (ix2 (0 : Fin 1) j) = xs (ix2 (0 : Fin 1) (k1_hi j)) :=
  congrArg xs (k1_rHi_emb j)

/-- A load of the first half after the zeroing store alone reads the zero row … -/
theorem k1_readCov_lo_zero {sg : RefSig} {κ : Kind} {sp : Space} (v : View sg κ sp S1x512 .f32) (w0 : Vec F S1x512 .f32) (j : Fin 256) :
    v.readCov [(⟨k1_rAll, w0⟩ : View.Piece (Elt F) S1x512 .f32)] k1_rLo.toLoadRect (ix2 (0 : Fin 1) j) = w0 (ix2 (0 : Fin 1) (k1_lo j)) := by
  rw [View.readCov_eq_canon', View.canon_unit_zero k1_hz]
  exact congrArg w0 (k1_rLo_emb j)

/-- … and a load of the second half after the zeroing store and the first half's store still reads the zero row. -/
theorem k1_readCov_hi_zero {sg : RefSig} {κ : Kind} {sp : Space} (v : View sg κ sp S1x512 .f32) (wLo : Vec F S1x256 .f32) (w0 : Vec F S1x512 .f32) (j : Fin 256) :
    v.readCov [(⟨k1_rLo, wLo⟩ : View.Piece (Elt F) S1x512 .f32), ⟨k1_rAll, w0⟩] k1_rHi.toLoadRect (ix2 (0 : Fin 1) j) = w0 (ix2 (0 : Fin 1) (k1_hi j)) := by
  rw [View.readCov_eq_canon']
  show View.canon _ (k1_rHi.emb (ix2 (0 : Fin 1) j)) = _
  rw [k1_rHi_emb j]
  refine (View.canon_cons_of_not_mem (⟨k1_rLo, wLo⟩ : View.Piece (Elt F) S1x512 .f32) [⟨k1_rAll, w0⟩] (k1_hi_not_mem_lo j)).trans ?_
  rw [View.canon_unit_zero k1_hz]

/-- A load of the whole row after a list of stores reads what they leave. -/
theorem k1_readCov_all {sg : RefSig} {κ : Kind} {sp : Space} (v : View sg κ sp S1x512 .f32) (L : List (View.Piece (Elt F) S1x512 .f32)) :
    v.readCov L k1_rAll.toLoadRect = View.canon L := by
  rw [View.readCov_eq_canon']
  funext y
  exact congrArg (View.canon L) (k1_rAll_idx y)

end Canon

/-! ## The index maps over the grid, and the blocks of the two output arrays -/

/-- The first operand's and the product's blocks are the point's block of rows; every other block is its whole
    array. -/
theorem k1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0 :=
  (by decide +kernel : ∀ t : Fin grid1.N, _)

/-- A grid point as a tile number. -/
def k1_tile (t : Fin cfg1.N) : Fin 25 := ⟨t.val, by have hN : cfg1.N = 25 := N_1; have := t.isLt; omega⟩

/-- The last grid point. -/
def k1_tLast : Fin cfg1.N := ⟨24, by have hN : cfg1.N = 25 := N_1; omega⟩

/-- An index of the product array is in point `t`'s block iff each coordinate is in the block's range on its axis. -/
theorem k1_mem_blk6 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole (Pipeline.arrRef spec1 6)).slice (win1_6.rect t)).set ↔ _
  rw [View.set_slice_whole, Rect.mem_set_unit]
  exact Iff.rfl

/-- The point whose block holds a row: the row's number over the rows in a block. -/
theorem k1_pt_lt (i : S50000x256.Idx) : (i 0).val / 2000 < cfg1.N := by
  have hi0 : (i 0).val < 50000 := (i 0).isLt
  show (i 0).val / 2000 < grid1.N
  rw [N_1]; omega

/-- Every index of the product array is in some point's block, and every point writes its block back. -/
theorem k1_cover6 (i : S50000x256.Idx) :
    ∃ t : Fin cfg1.N, (cfg1.win 6).flush t = true ∧ i ∈ ((cfg1.win 6).blk t).view.set := by
  have hi1 : (i 1).val < 256 := (i 1).isLt
  obtain ⟨t, ht⟩ : ∃ t : Fin cfg1.N, t.val = (i 0).val / 2000 := ⟨⟨_, k1_pt_lt i⟩, rfl⟩
  obtain ⟨-, -, -, -, -, -, -, -, -, -, -, -, e60, e61, -, -⟩ := k1_idx_facts t
  refine ⟨t, flush1_6 t, ?_⟩
  rw [k1_mem_blk6]
  intro a
  match a with
  | ⟨0, _⟩ =>
    show win1_6.index t (0 : Fin 2) * 2000 ≤ (i 0).val ∧ (i 0).val < win1_6.index t (0 : Fin 2) * 2000 + 2000
    rw [e60, ht]; omega
  | ⟨1, _⟩ =>
    show win1_6.index t (1 : Fin 2) * 256 ≤ (i 1).val ∧ (i 1).val < win1_6.index t (1 : Fin 2) * 256 + 256
    rw [e61]; omega

/-- An index of the statistics row is in point `t`'s block iff each coordinate is in the block's range. -/
theorem k1_mem_blk7 (t : Fin cfg1.N) (i : S1x512.Idx) :
    i ∈ ((cfg1.win 7).blk t).view.set ↔ ∀ a : Fin 2, win1_7.index t a * S1x512.size a ≤ (i a).val
      ∧ (i a).val < win1_7.index t a * S1x512.size a + S1x512.size a := by
  show i ∈ ((View.whole (Pipeline.arrRef spec1 7)).slice (win1_7.rect t)).set ↔ _
  rw [View.set_slice_whole, Rect.mem_set_unit]
  exact Iff.rfl

/-- The last point writes the statistics row back, and its block is the whole row. -/
theorem k1_cover7 (i : S1x512.Idx) :
    ∃ t : Fin cfg1.N, (cfg1.win 7).flush t = true ∧ i ∈ ((cfg1.win 7).blk t).view.set := by
  have hi0 : (i 0).val < 1 := (i 0).isLt
  have hi1 : (i 1).val < 512 := (i 1).isLt
  obtain ⟨-, -, -, -, -, -, -, -, -, -, -, -, -, -, e70, e71⟩ := k1_idx_facts k1_tLast
  refine ⟨k1_tLast, (flush1_7 k1_tLast).mpr (by show 24 % 25 = 24; rfl), ?_⟩
  rw [k1_mem_blk7]
  intro a
  match a with
  | ⟨0, _⟩ =>
    show win1_7.index k1_tLast (0 : Fin 2) * 1 ≤ (i 0).val ∧ (i 0).val < win1_7.index k1_tLast (0 : Fin 2) * 1 + 1
    rw [e70]; omega
  | ⟨1, _⟩ =>
    show win1_7.index k1_tLast (1 : Fin 2) * 512 ≤ (i 1).val ∧ (i 1).val < win1_7.index k1_tLast (1 : Fin 2) * 512 + 512
    rw [e71]; omega

/-! ## What each case of the body leaves, read back as payloads

The body's run in each case names the pieces it stored (last store first). Read over nothing, they are
their canon; each load the payloads took is the loaded buffer's contents, or, for a load of the
accumulator after a store into it, what the stores before it left there. -/

open Cert.KernelIdeal.Hand

section Pieces
variable (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole)
  (x0 : Vec Ideal S2000x512 .f32) (x1 x2 x3 x4 : Vec Ideal S1x512 .f32) (x5 : Vec Ideal S512x256 .bf16)

/-- At the first point the product window holds the tile's product. -/
theorem k1_out_A_6 (hc0 : cond1_0 i) (hc1 : ¬cond1_1 i) :
    out1_A_6 c i arg1 harg1 arg2 harg2 arg3 harg3 arg4 harg4 arg5 harg5 arg6 harg6 arg7 harg7 arg8 harg8 arg9 harg9 hc0 hc1 x0 x1 x2 x3 x4 x5 = k1_pay4 (F := Ideal) x0 x3 x1 x2 x4 x5 := by
  unfold out1_A_6
  rw [View.read_writes_junk_eq_canon]
  unfold kernelRun1_A
  dsimp only
  sl_unfold_words
  rw [View.canon_unit_zero k1_hz]
  simp only [View.readAt_eq_ld, harg1.read_unread, harg2.read_unread, harg3.read_unread, harg4.read_unread, harg5.read_unread, harg6.read_unread,
    View.ld_unit_zero (S := S2000x512) k1_hz, View.ld_unit_zero (S := S1x512) k1_hz, View.ld_unit_zero (S := S512x256) k1_hz] <;> rfl

/-- At the first point the accumulator's first half holds the zero word plus the tile's column sums … -/
theorem k1_sout_A_lo (hc0 : cond1_0 i) (hc1 : ¬cond1_1 i) (j : Fin 256) :
    sout1_A_0 c i arg1 harg1 arg2 harg2 arg3 harg3 arg4 harg4 arg5 harg5 arg6 harg6 arg7 harg7 arg8 harg8 arg9 harg9 hc0 hc1 x0 x1 x2 x3 x4 x5 (ix2 (0 : Fin 1) (k1_lo j))
      = Spec.zero + k1_pay5 (F := Ideal) x0 x3 x1 x2 x4 x5 (ix2 (0 : Fin 1) j) := by
  unfold sout1_A_0
  rw [View.read_writes_junk_eq_canon]
  unfold kernelRun1_A
  dsimp only
  sl_unfold_words
  simp only [View.readAt_eq_ld, harg1.read_unread, harg2.read_unread, harg3.read_unread, harg4.read_unread, harg5.read_unread, harg6.read_unread,
    View.ld_unit_zero (S := S2000x512) k1_hz, View.ld_unit_zero (S := S1x512) k1_hz, View.ld_unit_zero (S := S512x256) k1_hz]
  refine (k1_canon_lo _ _ _ j).trans ?_
  refine (k1_pay1_apply _ _ _).trans ?_
  exact congrArg (· + _) ((k1_readCov_lo_zero _ _ j).trans (k1_pay3_apply _))

/-- … and its second half the zero word plus the tile's column sums of squares. -/
theorem k1_sout_A_hi (hc0 : cond1_0 i) (hc1 : ¬cond1_1 i) (j : Fin 256) :
    sout1_A_0 c i arg1 harg1 arg2 harg2 arg3 harg3 arg4 harg4 arg5 harg5 arg6 harg6 arg7 harg7 arg8 harg8 arg9 harg9 hc0 hc1 x0 x1 x2 x3 x4 x5 (ix2 (0 : Fin 1) (k1_hi j))
      = Spec.zero + k1_pay6 (F := Ideal) x0 x3 x1 x2 x4 x5 (ix2 (0 : Fin 1) j) := by
  unfold sout1_A_0
  rw [View.read_writes_junk_eq_canon]
  unfold kernelRun1_A
  dsimp only
  sl_unfold_words
  simp only [View.readAt_eq_ld, harg1.read_unread, harg2.read_unread, harg3.read_unread, harg4.read_unread, harg5.read_unread, harg6.read_unread,
    View.ld_unit_zero (S := S2000x512) k1_hz, View.ld_unit_zero (S := S1x512) k1_hz, View.ld_unit_zero (S := S512x256) k1_hz]
  refine (k1_canon_hi _ _ _ j).trans ?_
  refine (k1_pay2_apply _ _ _).trans ?_
  exact congrArg (· + _) ((k1_readCov_hi_zero _ _ _ j).trans (k1_pay3_apply _))

/-- At a point between the product window holds the tile's product. -/
theorem k1_out_B_6 (hc0 : ¬cond1_0 i) (hc1 : ¬cond1_1 i) (xs0 : Vec Ideal S1x512 .f32) :
    out1_B_6 c i arg1 harg1 arg2 harg2 arg3 harg3 arg4 harg4 arg5 harg5 arg6 harg6 arg7 harg7 arg8 harg8 arg9 harg9 hc0 hc1 x0 x1 x2 x3 x4 x5 xs0 = k1_pay4 (F := Ideal) x0 x3 x1 x2 x4 x5 := by
  unfold out1_B_6
  rw [View.read_writes_junk_eq_canon]
  unfold kernelRun1_B
  dsimp only
  sl_unfold_words
  rw [View.canon_unit_zero k1_hz]
  simp only [View.readAt_eq_ld, harg1.read_unread, harg2.read_unread, harg3.read_unread, harg4.read_unread, harg5.read_unread, harg6.read_unread,
    View.ld_unit_zero (S := S2000x512) k1_hz, View.ld_unit_zero (S := S1x512) k1_hz, View.ld_unit_zero (S := S512x256) k1_hz] <;> rfl

/-- At a point between the accumulator's first half holds what it held plus the tile's column sums … -/
theorem k1_sout_B_lo (hc0 : ¬cond1_0 i) (hc1 : ¬cond1_1 i) (xs0 : Vec Ideal S1x512 .f32) (j : Fin 256) :
    sout1_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k1_lo j))
      = xs0 (ix2 (0 : Fin 1) (k1_lo j)) + k1_pay5 (F := Ideal) x0 x3 x1 x2 x4 x5 (ix2 (0 : Fin 1) j) := by
  unfold sout1_B_0
  rw [View.read_writes_junk_eq_canon]
  unfold kernelRun1_B
  dsimp only
  sl_unfold_words
  simp only [View.readAt_eq_ld, harg1.read_unread, harg2.read_unread, harg3.read_unread, harg4.read_unread, harg5.read_unread, harg6.read_unread, harg9.read_unread,
    View.ld_unit_zero (S := S2000x512) k1_hz, View.ld_unit_zero (S := S1x512) k1_hz, View.ld_unit_zero (S := S512x256) k1_hz]
  refine (k1_canon_lo _ _ _ j).trans ?_
  refine (k1_pay1_apply _ _ _).trans ?_
  exact congrArg (· + _) (k1_ld_lo xs0 j)

/-- … and its second half what it held plus the tile's column sums of squares. -/
theorem k1_sout_B_hi (hc0 : ¬cond1_0 i) (hc1 : ¬cond1_1 i) (xs0 : Vec Ideal S1x512 .f32) (j : Fin 256) :
    sout1_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k1_hi j))
      = xs0 (ix2 (0 : Fin 1) (k1_hi j)) + k1_pay6 (F := Ideal) x0 x3 x1 x2 x4 x5 (ix2 (0 : Fin 1) j) := by
  unfold sout1_B_0
  rw [View.read_writes_junk_eq_canon]
  unfold kernelRun1_B
  dsimp only
  sl_unfold_words
  simp only [View.readAt_eq_ld, harg1.read_unread, harg2.read_unread, harg3.read_unread, harg4.read_unread, harg5.read_unread, harg6.read_unread, harg9.read_unread,
    View.ld_unit_zero (S := S2000x512) k1_hz, View.ld_unit_zero (S := S1x512) k1_hz, View.ld_unit_zero (S := S512x256) k1_hz]
  refine (k1_canon_hi _ _ _ j).trans ?_
  refine (k1_pay2_apply _ _ _).trans ?_
  exact congrArg (· + _) (k1_ld_hi xs0 j)

/-- At the last point the product window holds the tile's product. -/
theorem k1_out_C_6 (hc0 : ¬cond1_0 i) (hc1 : cond1_1 i) (xs0 : Vec Ideal S1x512 .f32) :
    out1_C_6 c i arg1 harg1 arg2 harg2 arg3 harg3 arg4 harg4 arg5 harg5 arg6 harg6 arg7 harg7 arg8 harg8 arg9 harg9 hc0 hc1 x0 x1 x2 x3 x4 x5 xs0 = k1_pay4 (F := Ideal) x0 x3 x1 x2 x4 x5 := by
  unfold out1_C_6
  rw [View.read_writes_junk_eq_canon]
  unfold kernelRun1_C
  dsimp only
  sl_unfold_words
  rw [View.canon_unit_zero k1_hz]
  simp only [View.readAt_eq_ld, harg1.read_unread, harg2.read_unread, harg3.read_unread, harg4.read_unread, harg5.read_unread, harg6.read_unread,
    View.ld_unit_zero (S := S2000x512) k1_hz, View.ld_unit_zero (S := S1x512) k1_hz, View.ld_unit_zero (S := S512x256) k1_hz] <;> rfl

/-- At the last point the accumulator's first half holds what it held plus the tile's column sums … -/
theorem k1_sout_C_lo (hc0 : ¬cond1_0 i) (hc1 : cond1_1 i) (xs0 : Vec Ideal S1x512 .f32) (j : Fin 256) :
    sout1_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k1_lo j))
      = xs0 (ix2 (0 : Fin 1) (k1_lo j)) + k1_pay5 (F := Ideal) x0 x3 x1 x2 x4 x5 (ix2 (0 : Fin 1) j) := by
  unfold sout1_C_0
  rw [View.read_writes_junk_eq_canon]
  unfold kernelRun1_C
  dsimp only
  sl_unfold_words
  simp only [View.readAt_eq_ld, harg1.read_unread, harg2.read_unread, harg3.read_unread, harg4.read_unread, harg5.read_unread, harg6.read_unread, harg9.read_unread,
    View.ld_unit_zero (S := S2000x512) k1_hz, View.ld_unit_zero (S := S1x512) k1_hz, View.ld_unit_zero (S := S512x256) k1_hz]
  refine (k1_canon_lo _ _ _ j).trans ?_
  refine (k1_pay1_apply _ _ _).trans ?_
  exact congrArg (· + _) (k1_ld_lo xs0 j)

/-- … and its second half what it held plus the tile's column sums of squares. -/
theorem k1_sout_C_hi (hc0 : ¬cond1_0 i) (hc1 : cond1_1 i) (xs0 : Vec Ideal S1x512 .f32) (j : Fin 256) :
    sout1_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k1_hi j))
      = xs0 (ix2 (0 : Fin 1) (k1_hi j)) + k1_pay6 (F := Ideal) x0 x3 x1 x2 x4 x5 (ix2 (0 : Fin 1) j) := by
  unfold sout1_C_0
  rw [View.read_writes_junk_eq_canon]
  unfold kernelRun1_C
  dsimp only
  sl_unfold_words
  simp only [View.readAt_eq_ld, harg1.read_unread, harg2.read_unread, harg3.read_unread, harg4.read_unread, harg5.read_unread, harg6.read_unread, harg9.read_unread,
    View.ld_unit_zero (S := S2000x512) k1_hz, View.ld_unit_zero (S := S1x512) k1_hz, View.ld_unit_zero (S := S512x256) k1_hz]
  refine (k1_canon_hi _ _ _ j).trans ?_
  refine (k1_pay2_apply _ _ _).trans ?_
  exact congrArg (· + _) (k1_ld_hi xs0 j)

/-- At the last point the statistics window receives the accumulator as the two half stores left it. -/
theorem k1_out_C_7 (hc0 : ¬cond1_0 i) (hc1 : cond1_1 i) (xs0 : Vec Ideal S1x512 .f32) :
    out1_C_7 c i arg1 harg1 arg2 harg2 arg3 harg3 arg4 harg4 arg5 harg5 arg6 harg6 arg7 harg7 arg8 harg8 arg9 harg9 hc0 hc1 x0 x1 x2 x3 x4 x5 xs0 = sout1_C_0 c i arg1 harg1 arg2 harg2 arg3 harg3 arg4 harg4 arg5 harg5 arg6 harg6 arg7 harg7 arg8 harg8 arg9 harg9 hc0 hc1 x0 x1 x2 x3 x4 x5 xs0 := by
  unfold out1_C_7 sout1_C_0
  rw [View.read_writes_junk_eq_canon, View.read_writes_junk_eq_canon]
  unfold kernelRun1_C
  dsimp only
  sl_unfold_words
  rw [View.canon_unit_zero k1_hz]
  exact k1_readCov_all _ _

end Pieces

/-! ## The region at the contents it is entered with -/

section Region
variable (V : (c : Dev nD) → (b : Ref sig .tc) → Buf (Elt Ideal) ((c : Thread nD τ).loc b))

/-- The arrays the region is entered with, as matrices: the rows to normalise; the mean, variance, gain and bias
    rows; the weights. -/
abbrev X1_0 (c : Dev nD) : Spec.Mx 50000 512 := V c (Pipeline.arrRef spec1 0)
abbrev X1_1 (c : Dev nD) : Spec.Mx 1 512 := V c (Pipeline.arrRef spec1 1)
abbrev X1_2 (c : Dev nD) : Spec.Mx 1 512 := V c (Pipeline.arrRef spec1 2)
abbrev X1_3 (c : Dev nD) : Spec.Mx 1 512 := V c (Pipeline.arrRef spec1 3)
abbrev X1_4 (c : Dev nD) : Spec.Mx 1 512 := V c (Pipeline.arrRef spec1 4)
abbrev X1_5 (c : Dev nD) : Spec.Mx 512 256 := V c (Pipeline.arrRef spec1 5)

/-- The region's product: the rows normalised with the mean row, the variance row, the gain row and the bias row,
    rectified, times the weights. -/
abbrev Z1 (c : Dev nD) : Spec.Mx 50000 256 :=
  Spec.mm (Spec.bnRelu (X1_0 V c) (fun l => X1_1 V c (ix2 0 l)) (fun l => X1_2 V c (ix2 0 l)) (fun l => X1_3 V c (ix2 0 l)) (fun l => X1_4 V c (ix2 0 l))) (X1_5 V c)

/-! ### The blocks the body loads are blocks of those arrays -/

/-- Point `t`'s block of the first operand is rows `2000 t …` of its array. -/
theorem k1_blk0 (c : Dev nD) (t : Fin cfg1.N) (r : Fin 2000) (l : Fin 512) :
    (iblk1 V c 0 t : Vec Ideal S2000x512 .f32) (ix2 r l) = X1_0 V c (ix2 (k1_rowOf (k1_tile t) r) l) := by
  obtain ⟨e0, e1, -⟩ := k1_idx_facts t
  show V c (Pipeline.arrRef spec1 0) (((cfg1.win 0).blk t).view.emb (ix2 r l)) = V c (Pipeline.arrRef spec1 0) (ix2 (k1_rowOf (k1_tile t) r) l)
  refine congrArg _ (funext fun a => Fin.ext ?_)
  match a with
  | ⟨0, _⟩ => show win1_0.index t (0 : Fin 2) * 2000 + 1 * r.val = 2000 * t.val + r.val; rw [e0]; omega
  | ⟨1, _⟩ => show win1_0.index t (1 : Fin 2) * 512 + 1 * l.val = l.val; rw [e1]; omega

/-- Every point's block of row operand 1 is the whole row. -/
theorem k1_blk1 (c : Dev nD) (t : Fin cfg1.N) (l : Fin 512) :
    (iblk1 V c 1 t : Vec Ideal S1x512 .f32) (ix2 (0 : Fin 1) l) = X1_1 V c (ix2 (0 : Fin 1) l) := by
  obtain ⟨-, -, e0, e1, -⟩ := k1_idx_facts t
  show V c (Pipeline.arrRef spec1 1) (((cfg1.win 1).blk t).view.emb (ix2 (0 : Fin 1) l)) = V c (Pipeline.arrRef spec1 1) (ix2 (0 : Fin 1) l)
  refine congrArg _ (funext fun a => Fin.ext ?_)
  match a with
  | ⟨0, _⟩ => show win1_1.index t (0 : Fin 2) * 1 + 1 * 0 = 0; rw [e0]
  | ⟨1, _⟩ => show win1_1.index t (1 : Fin 2) * 512 + 1 * l.val = l.val; rw [e1]; omega

/-- Every point's block of row operand 2 is the whole row. -/
theorem k1_blk2 (c : Dev nD) (t : Fin cfg1.N) (l : Fin 512) :
    (iblk1 V c 2 t : Vec Ideal S1x512 .f32) (ix2 (0 : Fin 1) l) = X1_2 V c (ix2 (0 : Fin 1) l) := by
  obtain ⟨-, -, -, -, e0, e1, -⟩ := k1_idx_facts t
  show V c (Pipeline.arrRef spec1 2) (((cfg1.win 2).blk t).view.emb (ix2 (0 : Fin 1) l)) = V c (Pipeline.arrRef spec1 2) (ix2 (0 : Fin 1) l)
  refine congrArg _ (funext fun a => Fin.ext ?_)
  match a with
  | ⟨0, _⟩ => show win1_2.index t (0 : Fin 2) * 1 + 1 * 0 = 0; rw [e0]
  | ⟨1, _⟩ => show win1_2.index t (1 : Fin 2) * 512 + 1 * l.val = l.val; rw [e1]; omega

/-- Every point's block of row operand 3 is the whole row. -/
theorem k1_blk3 (c : Dev nD) (t : Fin cfg1.N) (l : Fin 512) :
    (iblk1 V c 3 t : Vec Ideal S1x512 .f32) (ix2 (0 : Fin 1) l) = X1_3 V c (ix2 (0 : Fin 1) l) := by
  obtain ⟨-, -, -, -, -, -, e0, e1, -⟩ := k1_idx_facts t
  show V c (Pipeline.arrRef spec1 3) (((cfg1.win 3).blk t).view.emb (ix2 (0 : Fin 1) l)) = V c (Pipeline.arrRef spec1 3) (ix2 (0 : Fin 1) l)
  refine congrArg _ (funext fun a => Fin.ext ?_)
  match a with
  | ⟨0, _⟩ => show win1_3.index t (0 : Fin 2) * 1 + 1 * 0 = 0; rw [e0]
  | ⟨1, _⟩ => show win1_3.index t (1 : Fin 2) * 512 + 1 * l.val = l.val; rw [e1]; omega

/-- Every point's block of row operand 4 is the whole row. -/
theorem k1_blk4 (c : Dev nD) (t : Fin cfg1.N) (l : Fin 512) :
    (iblk1 V c 4 t : Vec Ideal S1x512 .f32) (ix2 (0 : Fin 1) l) = X1_4 V c (ix2 (0 : Fin 1) l) := by
  obtain ⟨-, -, -, -, -, -, -, -, e0, e1, -⟩ := k1_idx_facts t
  show V c (Pipeline.arrRef spec1 4) (((cfg1.win 4).blk t).view.emb (ix2 (0 : Fin 1) l)) = V c (Pipeline.arrRef spec1 4) (ix2 (0 : Fin 1) l)
  refine congrArg _ (funext fun a => Fin.ext ?_)
  match a with
  | ⟨0, _⟩ => show win1_4.index t (0 : Fin 2) * 1 + 1 * 0 = 0; rw [e0]
  | ⟨1, _⟩ => show win1_4.index t (1 : Fin 2) * 512 + 1 * l.val = l.val; rw [e1]; omega

/-- Every point's block of the weights is the whole array. -/
theorem k1_blk5 (c : Dev nD) (t : Fin cfg1.N) (l : Fin 512) (j : Fin 256) :
    (iblk1 V c 5 t : Vec Ideal S512x256 .bf16) (ix2 l j) = X1_5 V c (ix2 l j) := by
  obtain ⟨-, -, -, -, -, -, -, -, -, -, e0, e1, -⟩ := k1_idx_facts t
  show V c (Pipeline.arrRef spec1 5) (((cfg1.win 5).blk t).view.emb (ix2 l j)) = V c (Pipeline.arrRef spec1 5) (ix2 l j)
  refine congrArg _ (funext fun a => Fin.ext ?_)
  match a with
  | ⟨0, _⟩ => show win1_5.index t (0 : Fin 2) * 512 + 1 * l.val = l.val; rw [e0]; omega
  | ⟨1, _⟩ => show win1_5.index t (1 : Fin 2) * 256 + 1 * j.val = j.val; rw [e1]; omega

/-- Point `t`'s rows of column sums and of column sums of squares, of the blocks it loads. -/
abbrev k1_row5v (c : Dev nD) (t : Fin cfg1.N) : FVec Ideal S1x256 .f32 := k1_pay5 (F := Ideal) (iblk1 V c 0 t) (iblk1 V c 3 t) (iblk1 V c 1 t) (iblk1 V c 2 t) (iblk1 V c 4 t) (iblk1 V c 5 t)
abbrev k1_row6v (c : Dev nD) (t : Fin cfg1.N) : FVec Ideal S1x256 .f32 := k1_pay6 (F := Ideal) (iblk1 V c 0 t) (iblk1 V c 3 t) (iblk1 V c 1 t) (iblk1 V c 2 t) (iblk1 V c 4 t) (iblk1 V c 5 t)

/-- They are tile `t`'s sums of the product's columns … -/
theorem k1_row5 (c : Dev nD) (t : Fin cfg1.N) (j : Fin 256) :
    k1_row5v V c t (ix2 (0 : Fin 1) j) = k1_tileSum (fun i => Z1 V c (ix2 i j)) t.val :=
  k1_point5 (iblk1 V c 0 t) (iblk1 V c 1 t) (iblk1 V c 2 t) (iblk1 V c 3 t) (iblk1 V c 4 t) (iblk1 V c 5 t) (X1_0 V c) (X1_1 V c) (X1_2 V c) (X1_3 V c) (X1_4 V c) (X1_5 V c) t.val (k1_tile t).isLt j
    (fun r l => k1_blk0 V c t r l) (fun l => k1_blk1 V c t l) (fun l => k1_blk2 V c t l) (fun l => k1_blk3 V c t l) (fun l => k1_blk4 V c t l)
    (fun l j => k1_blk5 V c t l j)

/-- … and of their squares. -/
theorem k1_row6 (c : Dev nD) (t : Fin cfg1.N) (j : Fin 256) :
    k1_row6v V c t (ix2 (0 : Fin 1) j) = k1_tileSum (fun i => Z1 V c (ix2 i j) * Z1 V c (ix2 i j)) t.val :=
  k1_point6 (iblk1 V c 0 t) (iblk1 V c 1 t) (iblk1 V c 2 t) (iblk1 V c 3 t) (iblk1 V c 4 t) (iblk1 V c 5 t) (X1_0 V c) (X1_1 V c) (X1_2 V c) (X1_3 V c) (X1_4 V c) (X1_5 V c) t.val (k1_tile t).isLt j
    (fun r l => k1_blk0 V c t r l) (fun l => k1_blk1 V c t l) (fun l => k1_blk2 V c t l) (fun l => k1_blk3 V c t l) (fun l => k1_blk4 V c t l)
    (fun l j => k1_blk5 V c t l j)

/-! ### The three cases at a point of the grid -/

theorem k1_pt_A_6 (c : Dev nD) (t : Fin cfg1.N) (h0 : t.val = 0) :
    (outsPt1_A V c t h0).1 = k1_pay4 (F := Ideal) (iblk1 V c 0 t) (iblk1 V c 3 t) (iblk1 V c 1 t) (iblk1 V c 2 t) (iblk1 V c 4 t) (iblk1 V c 5 t) := by
  unfold outsPt1_A; dsimp only
  exact k1_out_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) ((hcond1_0 t).mpr h0) (notLast1_of_first t h0)

theorem k1_pt_B_6 (c : Dev nD) (t : Fin cfg1.N) (h0 : ¬t.val = 0) (h1 : ¬t.val = 24) (xs0 : Vec Ideal S1x512 .f32) :
    (outsPt1_B V c t h0 h1 xs0).1 = k1_pay4 (F := Ideal) (iblk1 V c 0 t) (iblk1 V c 3 t) (iblk1 V c 1 t) (iblk1 V c 2 t) (iblk1 V c 4 t) (iblk1 V c 5 t) := by
  unfold outsPt1_B; dsimp only
  exact k1_out_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) (fun h => h0 ((hcond1_0 t).mp h)) (fun h => h1 ((hcond1_1 t).mp h)) xs0

theorem k1_pt_C_6 (c : Dev nD) (t : Fin cfg1.N) (h0 : ¬t.val = 0) (h1 : t.val = 24) (xs0 : Vec Ideal S1x512 .f32) :
    (outsPt1_C V c t h0 h1 xs0).1 = k1_pay4 (F := Ideal) (iblk1 V c 0 t) (iblk1 V c 3 t) (iblk1 V c 1 t) (iblk1 V c 2 t) (iblk1 V c 4 t) (iblk1 V c 5 t) := by
  unfold outsPt1_C; dsimp only
  exact k1_out_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) (fun h => h0 ((hcond1_0 t).mp h)) ((hcond1_1 t).mpr h1) xs0

theorem k1_pt_A_lo (c : Dev nD) (t : Fin cfg1.N) (h0 : t.val = 0) (j : Fin 256) :
    (outsPt1_A V c t h0).2.2 (ix2 (0 : Fin 1) (k1_lo j)) = Spec.zero + k1_row5v V c t (ix2 (0 : Fin 1) j) := by
  unfold outsPt1_A; dsimp only
  exact k1_sout_A_lo c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) ((hcond1_0 t).mpr h0) (notLast1_of_first t h0) j

theorem k1_pt_A_hi (c : Dev nD) (t : Fin cfg1.N) (h0 : t.val = 0) (j : Fin 256) :
    (outsPt1_A V c t h0).2.2 (ix2 (0 : Fin 1) (k1_hi j)) = Spec.zero + k1_row6v V c t (ix2 (0 : Fin 1) j) := by
  unfold outsPt1_A; dsimp only
  exact k1_sout_A_hi c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) ((hcond1_0 t).mpr h0) (notLast1_of_first t h0) j

theorem k1_pt_B_lo (c : Dev nD) (t : Fin cfg1.N) (h0 : ¬t.val = 0) (h1 : ¬t.val = 24) (xs0 : Vec Ideal S1x512 .f32) (j : Fin 256) :
    (outsPt1_B V c t h0 h1 xs0).2.2 (ix2 (0 : Fin 1) (k1_lo j)) = xs0 (ix2 (0 : Fin 1) (k1_lo j)) + k1_row5v V c t (ix2 (0 : Fin 1) j) := by
  unfold outsPt1_B; dsimp only
  exact k1_sout_B_lo c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) (fun h => h0 ((hcond1_0 t).mp h)) (fun h => h1 ((hcond1_1 t).mp h)) xs0 j

theorem k1_pt_B_hi (c : Dev nD) (t : Fin cfg1.N) (h0 : ¬t.val = 0) (h1 : ¬t.val = 24) (xs0 : Vec Ideal S1x512 .f32) (j : Fin 256) :
    (outsPt1_B V c t h0 h1 xs0).2.2 (ix2 (0 : Fin 1) (k1_hi j)) = xs0 (ix2 (0 : Fin 1) (k1_hi j)) + k1_row6v V c t (ix2 (0 : Fin 1) j) := by
  unfold outsPt1_B; dsimp only
  exact k1_sout_B_hi c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) (fun h => h0 ((hcond1_0 t).mp h)) (fun h => h1 ((hcond1_1 t).mp h)) xs0 j

theorem k1_pt_C_lo (c : Dev nD) (t : Fin cfg1.N) (h0 : ¬t.val = 0) (h1 : t.val = 24) (xs0 : Vec Ideal S1x512 .f32) (j : Fin 256) :
    (outsPt1_C V c t h0 h1 xs0).2.2 (ix2 (0 : Fin 1) (k1_lo j)) = xs0 (ix2 (0 : Fin 1) (k1_lo j)) + k1_row5v V c t (ix2 (0 : Fin 1) j) := by
  unfold outsPt1_C; dsimp only
  exact k1_sout_C_lo c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) (fun h => h0 ((hcond1_0 t).mp h)) ((hcond1_1 t).mpr h1) xs0 j

theorem k1_pt_C_hi (c : Dev nD) (t : Fin cfg1.N) (h0 : ¬t.val = 0) (h1 : t.val = 24) (xs0 : Vec Ideal S1x512 .f32) (j : Fin 256) :
    (outsPt1_C V c t h0 h1 xs0).2.2 (ix2 (0 : Fin 1) (k1_hi j)) = xs0 (ix2 (0 : Fin 1) (k1_hi j)) + k1_row6v V c t (ix2 (0 : Fin 1) j) := by
  unfold outsPt1_C; dsimp only
  exact k1_sout_C_hi c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) (fun h => h0 ((hcond1_0 t).mp h)) ((hcond1_1 t).mpr h1) xs0 j

/-- At the last point the statistics window holds the accumulator. -/
theorem k1_pt_C_7 (c : Dev nD) (t : Fin cfg1.N) (h0 : ¬t.val = 0) (h1 : t.val = 24) (xs0 : Vec Ideal S1x512 .f32) :
    (outsPt1_C V c t h0 h1 xs0).2.1 = (outsPt1_C V c t h0 h1 xs0).2.2 := by
  unfold outsPt1_C; dsimp only
  exact k1_out_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) (fun h => h0 ((hcond1_0 t).mp h)) ((hcond1_1 t).mpr h1) xs0

/-! ### The product array -/

/-- At every point the product window holds the tile's product of the blocks loaded there. -/
theorem k1_outs6 (c : Dev nD) (t : Fin cfg1.N) :
    (outsAt1 V c t.val t.isLt).1 = k1_pay4 (F := Ideal) (iblk1 V c 0 t) (iblk1 V c 3 t) (iblk1 V c 1 t) (iblk1 V c 2 t) (iblk1 V c 4 t) (iblk1 V c 5 t) := by
  by_cases h0 : t.val = 0
  · rw [outsAt1_A V c t h0]; exact k1_pt_A_6 V c t h0
  · by_cases h1 : t.val = 24
    · rw [outsAt1_C V c t h0 h1]; exact k1_pt_C_6 V c t h0 h1 _
    · rw [outsAt1_B V c t h0 h1]; exact k1_pt_B_6 V c t h0 h1 _

/-- What point `t` writes back of the product is block `t` of the whole product. -/
theorem k1_flushed6 (c : Dev nD) (t : Fin cfg1.N) :
    (dat1 V c).flushed 6 t = ((cfg1.win 6).blk t).view.read (Elt Ideal) (Z1 V c) := by
  show (cfg1.win 6).cut (grid1.coords t) ((dat1 V c).after 6 t) = _
  rw [after1_6, k1_outs6]
  obtain ⟨-, -, -, -, -, -, -, -, -, -, -, -, e0, e1, -⟩ := k1_idx_facts t
  funext y
  obtain ⟨r, j, rfl⟩ : ∃ (r : Fin 2000) (j : Fin 256), y = ix2 r j := ⟨y 0, y 1, eq_ix2 (n0 := 2000) (n1 := 256) y⟩
  show k1_pay4 (F := Ideal) (iblk1 V c 0 t) (iblk1 V c 3 t) (iblk1 V c 1 t) (iblk1 V c 2 t) (iblk1 V c 4 t) (iblk1 V c 5 t) (ix2 r j) = Z1 V c (((cfg1.win 6).blk t).view.emb (ix2 r j))
  have hi : ((cfg1.win 6).blk t).view.emb (ix2 r j) = (ix2 (k1_rowOf (k1_tile t) r) j : S50000x256.Idx) := by
    funext a; apply Fin.ext
    match a with
    | ⟨0, _⟩ => show win1_6.index t (0 : Fin 2) * 2000 + 1 * r.val = 2000 * t.val + r.val; rw [e0]; omega
    | ⟨1, _⟩ => show win1_6.index t (1 : Fin 2) * 256 + 1 * j.val = j.val; rw [e1]; omega
  refine (k1_point4 (iblk1 V c 0 t) (iblk1 V c 1 t) (iblk1 V c 2 t) (iblk1 V c 3 t) (iblk1 V c 4 t) (iblk1 V c 5 t) (X1_0 V c) (X1_1 V c) (X1_2 V c) (X1_3 V c) (X1_4 V c) (X1_5 V c) r j (k1_rowOf (k1_tile t) r)
    (fun l => k1_blk0 V c t r l) (fun l => k1_blk1 V c t l) (fun l => k1_blk2 V c t l) (fun l => k1_blk3 V c t l) (fun l => k1_blk4 V c t l)
    (fun l => k1_blk5 V c t l j)).trans ?_
  exact congrArg (Z1 V c) hi.symm

/-- THE PRODUCT ARRAY after the last point: the specification's product of the normalised, rectified rows with the
    weights, over the arrays the region was entered with. -/
theorem z_eq1 (c : Dev nD) : (dat1 V c).arrAt 6 cfg1.N = Z1 V c :=
  (dat1 V c).arrAt_eq_of_cover 6 (Z1 V c) (fun t _ => k1_flushed6 V c t) k1_cover6

/-! ### The statistics row -/

/-- After point `n` the accumulator holds the first `n + 1` tiles' sums of the product's columns and of their
    squares: by induction on the point. -/
theorem k1_acc (c : Dev nD) : ∀ (n : ℕ) (hn : n < cfg1.N), k1_AccIs (Z1 V c) (n + 1) (outsAt1 V c n hn).2.2
  | 0, hn => by
    rw [outsAt1_A V c ⟨0, hn⟩ rfl]
    exact k1_AccIs_first (Z1 V c) (outsPt1_A V c ⟨0, hn⟩ rfl).2.2 (k1_row5v V c ⟨0, hn⟩) (k1_row6v V c ⟨0, hn⟩)
      (fun j => k1_pt_A_lo V c ⟨0, hn⟩ rfl j) (fun j => k1_pt_A_hi V c ⟨0, hn⟩ rfl j)
      (fun j => k1_row5 V c ⟨0, hn⟩ j) (fun j => k1_row6 V c ⟨0, hn⟩ j)
  | n + 1, hn => by
    have ih := k1_acc c n (Nat.lt_of_succ_lt hn)
    by_cases h1 : n + 1 = 24
    · rw [outsAt1_C V c ⟨n + 1, hn⟩ (Nat.succ_ne_zero n) h1]
      show k1_AccIs (Z1 V c) (n + 1 + 1) (outsPt1_C V c ⟨n + 1, hn⟩ (Nat.succ_ne_zero n) h1 (outsAt1 V c n (Nat.lt_of_succ_lt hn)).2.2).2.2
      exact k1_AccIs_next (Z1 V c) (n + 1) (outsAt1 V c n (Nat.lt_of_succ_lt hn)).2.2
        (outsPt1_C V c ⟨n + 1, hn⟩ (Nat.succ_ne_zero n) h1 (outsAt1 V c n (Nat.lt_of_succ_lt hn)).2.2).2.2
        (k1_row5v V c ⟨n + 1, hn⟩) (k1_row6v V c ⟨n + 1, hn⟩) ih
        (fun j => k1_pt_C_lo V c ⟨n + 1, hn⟩ (Nat.succ_ne_zero n) h1 _ j) (fun j => k1_pt_C_hi V c ⟨n + 1, hn⟩ (Nat.succ_ne_zero n) h1 _ j)
        (fun j => k1_row5 V c ⟨n + 1, hn⟩ j) (fun j => k1_row6 V c ⟨n + 1, hn⟩ j)
    · rw [outsAt1_B V c ⟨n + 1, hn⟩ (Nat.succ_ne_zero n) h1]
      show k1_AccIs (Z1 V c) (n + 1 + 1) (outsPt1_B V c ⟨n + 1, hn⟩ (Nat.succ_ne_zero n) h1 (outsAt1 V c n (Nat.lt_of_succ_lt hn)).2.2).2.2
      exact k1_AccIs_next (Z1 V c) (n + 1) (outsAt1 V c n (Nat.lt_of_succ_lt hn)).2.2
        (outsPt1_B V c ⟨n + 1, hn⟩ (Nat.succ_ne_zero n) h1 (outsAt1 V c n (Nat.lt_of_succ_lt hn)).2.2).2.2
        (k1_row5v V c ⟨n + 1, hn⟩) (k1_row6v V c ⟨n + 1, hn⟩) ih
        (fun j => k1_pt_B_lo V c ⟨n + 1, hn⟩ (Nat.succ_ne_zero n) h1 _ j) (fun j => k1_pt_B_hi V c ⟨n + 1, hn⟩ (Nat.succ_ne_zero n) h1 _ j)
        (fun j => k1_row5 V c ⟨n + 1, hn⟩ j) (fun j => k1_row6 V c ⟨n + 1, hn⟩ j)

/-- The accumulator after the last point. -/
abbrev k1_accLast (c : Dev nD) : Spec.Mx 1 512 := (outsAt1 V c k1_tLast.val k1_tLast.isLt).2.2

/-- The last point's block of the statistics row, read through zero offsets, is the row. -/
theorem k1_cut7 (W : Vec Ideal S1x512 .f32) :
    (cfg1.win 7).cut (grid1.coords k1_tLast) W = ((cfg1.win 7).blk k1_tLast).view.read (Elt Ideal) (W : Spec.Mx 1 512) := by
  obtain ⟨-, -, -, -, -, -, -, -, -, -, -, -, -, -, e0, e1⟩ := k1_idx_facts k1_tLast
  funext y
  show W y = W (((cfg1.win 7).blk k1_tLast).view.emb y)
  refine congrArg W (funext fun a => Fin.ext ?_)
  match a with
  | ⟨0, _⟩ => show (y 0).val = win1_7.index k1_tLast (0 : Fin 2) * 1 + 1 * (y 0).val; rw [e0]; omega
  | ⟨1, _⟩ => show (y 1).val = win1_7.index k1_tLast (1 : Fin 2) * 512 + 1 * (y 1).val; rw [e1]; omega

/-- The one write-back of the statistics row, at the last point, writes the accumulator: its block is the whole row. -/
theorem k1_flushed7 (c : Dev nD) (t : Fin cfg1.N) (hf : (cfg1.win 7).flush t = true) :
    (dat1 V c).flushed 7 t = ((cfg1.win 7).blk t).view.read (Elt Ideal) (k1_accLast V c) := by
  have hN : cfg1.N = 25 := N_1
  have h24 : t.val = 24 := by have := (flush1_7 t).mp hf; have := t.isLt; omega
  obtain rfl : t = k1_tLast := Fin.ext h24
  have h0 : ¬k1_tLast.val = 0 := by show ¬(24 : ℕ) = 0; decide
  show (cfg1.win 7).cut (grid1.coords k1_tLast) ((dat1 V c).after 7 k1_tLast) = _
  rw [after1_7]
  unfold k1_accLast
  rw [outsAt1_C V c k1_tLast h0 rfl, k1_pt_C_7 V c k1_tLast h0 rfl]
  exact k1_cut7 _

/-- So the statistics row ends holding the accumulator after the last point. -/
theorem k1_stats_arr (c : Dev nD) : (dat1 V c).arrAt 7 cfg1.N = k1_accLast V c :=
  (dat1 V c).arrAt_eq_of_cover 7 (k1_accLast V c) (fun t hf => k1_flushed7 V c t hf) k1_cover7

/-- THE STATISTICS ROW after the last point: its first half the product's column sums, its second half its
    column sums of squares, over all 50000 rows. -/
theorem stats_eq1 (c : Dev nD) (j : Fin 256) :
    ((dat1 V c).arrAt 7 cfg1.N : Spec.Mx 1 512) (ix2 (0 : Fin 1) (k1_lo j)) = Spec.colSum (Z1 V c) j
    ∧ ((dat1 V c).arrAt 7 cfg1.N : Spec.Mx 1 512) (ix2 (0 : Fin 1) (k1_hi j)) = Spec.colSumSq (Z1 V c) j := by
  rw [k1_stats_arr]
  exact k1_AccIs_last (Z1 V c) (k1_accLast V c) (k1_acc V c 24 k1_tLast.isLt) j

end Region

end Cert.KernelIdeal.HandValue

end
-- ==== Proof.KI.Val2.lean ====
import proofs.«427833_j20194936226511_1_alg».proof.Proof.Spec
import proofs.«427833_j20194936226511_1_alg».proof.Proof.KI.Reg2
import Idealize.ShloMosaic.Lib.Pipeline.Value
import Idealize.ShloMosaic.Lib.ValueIdx

/-!
# The value of the normalise-and-rectify region

The region reads a matrix block by block of rows, together with four one-row matrices (the columns' means,
variances, gains and biases), and writes, block by block, the matrix normalised column by column, scaled,
shifted and cut off at zero.  Here that is read off the region's proof data at the extended reals: the body's
one payload at an index, what each grid point leaves for the write-back as a block of ONE function of the
arrays the region was entered with, the cover of the output array by the points' blocks, and so the output
array after the last point.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- A row broadcast down the rows of a block reads the row at the column. -/
theorem bcastRow2 (x : S1x256.Idx → EReal) (h : S1x256.Broadcasts S2000x256) (r : Fin 2000) (j : Fin 256) :
    broadcastTo S2000x256 x h (ix2 r j) = x (ix2 (0 : Fin 1) j) :=
  broadcastTo_apply x h (ix2 r j) (ix2 (0 : Fin 1) j) fun a => by
    match a with
    | ⟨0, _⟩ => rfl
    | ⟨1, _⟩ => rfl

/-- The body's one payload at an index: the entry less its column's mean, times the column's gain and the
    reciprocal root of the column's variance plus epsilon, plus the column's bias, cut off at zero.
    The payload takes its row arguments in the order gain, mean, variance, bias. -/
theorem pay2_1_apply (z : Vec Ideal S2000x256 .f32) (g mu var b : Vec Ideal S1x256 .f32) (r : Fin 2000) (j : Fin 256) :
    k2_pay1 (F := Ideal) z g mu var b (ix2 r j)
      = max (g (ix2 (0 : Fin 1) j) * (z (ix2 r j) - mu (ix2 (0 : Fin 1) j)) * Ideal.rsqrt (var (ix2 (0 : Fin 1) j) + Spec.bnEps)
          + b (ix2 (0 : Fin 1) j)) Spec.zero := by
  unfold k2_pay1
  simp only [shapeCast_self]
  rw [maximumf_apply, addf_apply, mulf_apply, mulf_apply, subf_apply, broadcast_apply,
    bcastRow2, bcastRow2, bcastRow2, bcastRow2]
  rfl

/-- The payload of a block and four rows that are read off a matrix and four row matrices, at an index of the
    block and the matrix index it sits at: the specification's normalise-and-rectify of the matrices there. -/
theorem point2 (x0 : Vec Ideal S2000x256 .f32) (x1 x2 x3 x4 : Vec Ideal S1x256 .f32)
    (A0 : Spec.Mx 50000 256) (A1 A2 A3 A4 : Spec.Mx 1 256) (y : S2000x256.Idx) (i : S50000x256.Idx)
    (h0 : x0 y = A0 i) (hc : (i 1).val = (y 1).val)
    (h1 : ∀ j : Fin 256, x1 (ix2 (0 : Fin 1) j) = A1 (ix2 (0 : Fin 1) j))
    (h2 : ∀ j : Fin 256, x2 (ix2 (0 : Fin 1) j) = A2 (ix2 (0 : Fin 1) j))
    (h3 : ∀ j : Fin 256, x3 (ix2 (0 : Fin 1) j) = A3 (ix2 (0 : Fin 1) j))
    (h4 : ∀ j : Fin 256, x4 (ix2 (0 : Fin 1) j) = A4 (ix2 (0 : Fin 1) j)) :
    k2_pay1 (F := Ideal) x0 x3 x1 x2 x4 y
      = Spec.bnRelu A0 (fun j => A1 (ix2 (0 : Fin 1) j)) (fun j => A2 (ix2 (0 : Fin 1) j))
          (fun j => A3 (ix2 (0 : Fin 1) j)) (fun j => A4 (ix2 (0 : Fin 1) j)) i := by
  obtain ⟨r, j, rfl⟩ : ∃ (r : Fin 2000) (j : Fin 256), y = ix2 r j := ⟨y 0, y 1, eq_ix2 y⟩
  obtain ⟨p, q, rfl⟩ : ∃ (p : Fin 50000) (q : Fin 256), i = ix2 p q := ⟨i 0, i 1, eq_ix2 i⟩
  obtain rfl : q = j := Fin.ext hc
  rw [pay2_1_apply, h0, h1, h2, h3, h4]
  rfl

/-! ## From blocks to the array -/

variable (V : (c : Dev nD) → (b : Ref sig .tc) → Buf (Elt Ideal) ((c : Thread nD τ).loc b))

/-- The arrays the region is entered with, as matrices: the operand, and the rows of means, variances, gains and biases. -/
abbrev X2_0 (c : Dev nD) : Spec.Mx 50000 256 := V c (Pipeline.arrRef spec2 0)
abbrev X2_1 (c : Dev nD) : Spec.Mx 1 256 := V c (Pipeline.arrRef spec2 1)
abbrev X2_2 (c : Dev nD) : Spec.Mx 1 256 := V c (Pipeline.arrRef spec2 2)
abbrev X2_3 (c : Dev nD) : Spec.Mx 1 256 := V c (Pipeline.arrRef spec2 3)
abbrev X2_4 (c : Dev nD) : Spec.Mx 1 256 := V c (Pipeline.arrRef spec2 4)

/-- What the output array ends holding: the operand normalised column by column, scaled, shifted and rectified. -/
abbrev G2 (c : Dev nD) : Spec.Mx 50000 256 :=
  Spec.bnRelu (X2_0 V c) (fun j => X2_1 V c (ix2 (0 : Fin 1) j)) (fun j => X2_2 V c (ix2 (0 : Fin 1) j))
    (fun j => X2_3 V c (ix2 (0 : Fin 1) j)) (fun j => X2_4 V c (ix2 (0 : Fin 1) j))

theorem hz2 : (![0, 0] : Fin 2 → Nat) = fun _ => 0 := funext fun a => by fin_cases a <;> rfl

/-- The index maps over the grid: the operand's and the output's blocks are the point's block of rows, the four
    rows' blocks the whole rows. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` leaves for the write-back is block `t` of the result. -/
theorem cut2_5 (c : Dev nD) (t : Fin cfg2.N) :
    (cfg2.win 5).cut (grid2.coords t) (out2_5 (iblk2 V c 0 t) (iblk2 V c 1 t) (iblk2 V c 2 t) (iblk2 V c 3 t) (iblk2 V c 4 t))
      = ((cfg2.win 5).blk t).view.read (Elt Ideal) (G2 V c) := by
  unfold out2_5
  rw [View.canon_unit_zero hz2]
  simp only [View.ld_unit_zero (S := S2000x256) hz2, View.ld_unit_zero (S := S1x256) hz2]
  obtain ⟨e00, e01, e10, e11, e20, e21, e30, e31, e40, e41, e50, e51⟩ := idx_facts2 t
  funext y
  show k2_pay1 (F := Ideal) (iblk2 V c 0 t) (iblk2 V c 3 t) (iblk2 V c 1 t) (iblk2 V c 2 t) (iblk2 V c 4 t) y
    = G2 V c (((cfg2.win 5).blk t).view.emb y)
  refine point2 _ _ _ _ _ (X2_0 V c) (X2_1 V c) (X2_2 V c) (X2_3 V c) (X2_4 V c) y _ ?_ ?_ ?_ ?_ ?_ ?_
  · show V c (Pipeline.arrRef spec2 0) (((cfg2.win 0).blk t).view.emb y) = V c (Pipeline.arrRef spec2 0) (((cfg2.win 5).blk t).view.emb y)
    refine congrArg _ (funext fun a => Fin.ext ?_)
    match a with
    | ⟨0, _⟩ =>
      show win2_0.index t (0 : Fin 2) * 2000 + 1 * (y 0).val = win2_5.index t (0 : Fin 2) * 2000 + 1 * (y 0).val
      rw [e00, e50]
    | ⟨1, _⟩ =>
      show win2_0.index t (1 : Fin 2) * 256 + 1 * (y 1).val = win2_5.index t (1 : Fin 2) * 256 + 1 * (y 1).val
      rw [e01, e51]
  · show win2_5.index t (1 : Fin 2) * 256 + 1 * (y 1).val = (y 1).val
    rw [e51]; omega
  · intro j
    show V c (Pipeline.arrRef spec2 1) (((cfg2.win 1).blk t).view.emb (ix2 (0 : Fin 1) j)) = V c (Pipeline.arrRef spec2 1) (ix2 (0 : Fin 1) j)
    refine congrArg _ (funext fun a => Fin.ext ?_)
    match a with
    | ⟨0, _⟩ => show win2_1.index t (0 : Fin 2) * 1 + 1 * 0 = 0; rw [e10]
    | ⟨1, _⟩ => show win2_1.index t (1 : Fin 2) * 256 + 1 * j.val = j.val; rw [e11]; omega
  · intro j
    show V c (Pipeline.arrRef spec2 2) (((cfg2.win 2).blk t).view.emb (ix2 (0 : Fin 1) j)) = V c (Pipeline.arrRef spec2 2) (ix2 (0 : Fin 1) j)
    refine congrArg _ (funext fun a => Fin.ext ?_)
    match a with
    | ⟨0, _⟩ => show win2_2.index t (0 : Fin 2) * 1 + 1 * 0 = 0; rw [e20]
    | ⟨1, _⟩ => show win2_2.index t (1 : Fin 2) * 256 + 1 * j.val = j.val; rw [e21]; omega
  · intro j
    show V c (Pipeline.arrRef spec2 3) (((cfg2.win 3).blk t).view.emb (ix2 (0 : Fin 1) j)) = V c (Pipeline.arrRef spec2 3) (ix2 (0 : Fin 1) j)
    refine congrArg _ (funext fun a => Fin.ext ?_)
    match a with
    | ⟨0, _⟩ => show win2_3.index t (0 : Fin 2) * 1 + 1 * 0 = 0; rw [e30]
    | ⟨1, _⟩ => show win2_3.index t (1 : Fin 2) * 256 + 1 * j.val = j.val; rw [e31]; omega
  · intro j
    show V c (Pipeline.arrRef spec2 4) (((cfg2.win 4).blk t).view.emb (ix2 (0 : Fin 1) j)) = V c (Pipeline.arrRef spec2 4) (ix2 (0 : Fin 1) j)
    refine congrArg _ (funext fun a => Fin.ext ?_)
    match a with
    | ⟨0, _⟩ => show win2_4.index t (0 : Fin 2) * 1 + 1 * 0 = 0; rw [e40]
    | ⟨1, _⟩ => show win2_4.index t (1 : Fin 2) * 256 + 1 * j.val = j.val; rw [e41]; omega

/-- An index of the output array is in point `t`'s block iff each coordinate is in the block's range on its axis. -/
theorem mem_blk2 (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole (Pipeline.arrRef spec2 5)).slice (win2_5.rect t)).set ↔ _
  rw [View.set_slice_whole, Rect.mem_set_unit]
  exact Iff.rfl

/-- The point whose block holds a row: the row's number over the rows in a block. -/
theorem pt_lt2 (i : S50000x256.Idx) : (i 0).val / 2000 < cfg2.N := by
  have hi0 : (i 0).val < 50000 := (i 0).isLt
  show (i 0).val / 2000 < grid2.N
  rw [N_2]; omega

/-- Every index of the output array is in some point's block, and every point writes back. -/
theorem cover2 (i : S50000x256.Idx) :
    ∃ t : Fin cfg2.N, (cfg2.win 5).flush t = true ∧ i ∈ ((cfg2.win 5).blk t).view.set := by
  have hi1 : (i 1).val < 256 := (i 1).isLt
  obtain ⟨t, ht⟩ : ∃ t : Fin cfg2.N, t.val = (i 0).val / 2000 := ⟨⟨_, pt_lt2 i⟩, rfl⟩
  obtain ⟨-, -, -, -, -, -, -, -, -, -, e50, e51⟩ := idx_facts2 t
  refine ⟨t, flush2_5 t, ?_⟩
  rw [mem_blk2]
  intro a
  match a with
  | ⟨0, _⟩ =>
    show win2_5.index t (0 : Fin 2) * 2000 ≤ (i 0).val ∧ (i 0).val < win2_5.index t (0 : Fin 2) * 2000 + 2000
    rw [e50, ht]; omega
  | ⟨1, _⟩ =>
    show win2_5.index t (1 : Fin 2) * 256 ≤ (i 1).val ∧ (i 1).val < win2_5.index t (1 : Fin 2) * 256 + 256
    rw [e51]; omega

/-- What point `t` writes back is block `t` of the result. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  exact cut2_5 V c t

/-- THE OUTPUT ARRAY after the last point: the specification's normalise-and-rectify of the arrays the region
    was entered with. -/
theorem out_eq2 (c : Dev nD) : (dat2 V c).arrAt 5 cfg2.N = G2 V c :=
  (dat2 V c).arrAt_eq_of_cover 5 (G2 V c) (fun t _ => flushed2_eq V c t) cover2

end Cert.KernelIdeal.HandValue

end
-- ==== Proof.KI.Val3.lean ====
import proofs.«427833_j20194936226511_1_alg».proof.Proof.Gen.KernelIdeal.Launch
import proofs.«427833_j20194936226511_1_alg».proof.Proof.Gen.KernelIdeal.Points
import proofs.«427833_j20194936226511_1_alg».proof.Proof.KI.Reg3
import Idealize.ShloMosaic.Lib.Tactic
import proofs.«427833_j20194936226511_1_alg».proof.Proof.Gen.KernelIdeal.Skeleton
import proofs.«427833_j20194936226511_1_alg».proof.Proof.Spec
import Idealize.ShloMosaic.PureOps.Ideal.Laws
import Idealize.ShloMosaic.Lib.ValueIdx
import Idealize.ShloMosaic.Lib.Pipeline.Value

/-!
# The value of the first stage: a matrix product and its column statistics

At every grid point the kernel adds two blocks of rows, multiplies the sum by the weight matrix,
stores the product block, and adds the block's column sums and the column sums of its squares into
one carried row of twice the width, which it clears at the first point and copies out at the last.

This module reads the arithmetic at an index over the extended reals, where a change of float
format is the identity, a matrix product into a zero accumulator is the plain sum of products and
a reduction over the rows is the plain sum.  It then reads what each control case of the body leaves in
the product block and in the carried row, shows by induction on the grid point that the carried row
holds, column by column, the sums over the tiles so far, and concludes that after the region the
product array is the whole matrix product and the statistics row holds its column sums and the
column sums of its squares: a sum over all the rows is regrouped tile by tile, which needs only that
addition of extended reals is commutative and associative.
-/

set_option maxRecDepth 16384

noncomputable section

namespace Cert.KernelIdeal.HandValue

open Cert.KernelIdeal Cert.KernelIdeal.Gen
open Cert.KernelIdeal.Hand
open Idealize.ShloMosaic Idealize.ShloMosaic.ValueIdx Idealize.ShloMosaic.TcCoe Idealize.ShloMosaic.Tactic Idealize.SL.Sem
open Idealize.ShloMosaic.Pipeline (Dat)

/-! ## The operand indices of the matrix product, axis by axis -/

theorem lhs3_0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide),
    dif_pos (show (0 : Fin S2000x256.rank) ∈ dot_S2000x256_S256x512_S2000x512_1_0_0_1_n_n.lhsNonContracting by decide)]
  rfl
theorem lhs3_1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem rhs3_0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem rhs3_1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide),
    dif_pos (show (1 : Fin S256x512.rank) ∈ dot_S2000x256_S256x512_S2000x512_1_0_0_1_n_n.rhsNonContracting by decide)]
  rfl

/-- The block product into the zero accumulator, at an index: the sum over the contracted
    coordinate of the products of the entries. -/
theorem matmul3_apply (p : FVec Ideal S2000x256 .bf16) (w : FVec Ideal S256x512 .bf16) (r : Fin 2000) (j : Fin 512) :
    matmul dot_S2000x256_S256x512_S2000x512_1_0_0_1_n_n none p w (constant (F := Ideal) S2000x512 .f32 0x00000000#32) (ix2 r j)
      = ∑ l : Fin 256, p (ix2 r l) * w (ix2 l j) := by
  show FloatOps.matmul dot_S2000x256_S256x512_S2000x512_1_0_0_1_n_n none p w (constant (F := Ideal) S2000x512 .f32 0x00000000#32) (ix2 r j) = _
  rw [Ideal.matmul_constant_zero_apply, ← Equiv.sum_comp (contrEquiv1 dot_S2000x256_S256x512_S2000x512_1_0_0_1_n_n 256 rfl rfl).symm]
  refine Finset.sum_congr rfl fun l _ => ?_
  have hk := contrEquiv1_symm_val dot_S2000x256_S256x512_S2000x512_1_0_0_1_n_n 256 rfl rfl l
  have el : dot_S2000x256_S256x512_S2000x512_1_0_0_1_n_n.lhsIdx (ix2 r j) ((contrEquiv1 dot_S2000x256_S256x512_S2000x512_1_0_0_1_n_n 256 rfl rfl).symm l) = ix2 r l :=
    funext fun a => Fin.ext (by
      match a with
      | ⟨0, _⟩ => exact lhs3_0 _ _
      | ⟨1, _⟩ => exact (lhs3_1 _ _).trans hk)
  have er : dot_S2000x256_S256x512_S2000x512_1_0_0_1_n_n.rhsIdx (ix2 r j) ((contrEquiv1 dot_S2000x256_S256x512_S2000x512_1_0_0_1_n_n 256 rfl rfl).symm l) = ix2 l j :=
    funext fun a => Fin.ext (by
      match a with
      | ⟨0, _⟩ => exact (rhs3_0 _ _).trans hk
      | ⟨1, _⟩ => exact rhs3_1 _ _)
  rw [el, er]

/-- The sum over the rows of a block, kept as a one-row matrix, at a column. -/
theorem rowsum3_apply (v : FVec Ideal S2000x512 .f32) (j : Fin 512) :
    shapeCast S1x512 (multiReduction (F := Ideal) .add [0] S512 v 0x00000000#32 reduces_S2000x512_S512 (.inl rfl) rfl)
        shapeCasts_S512_S1x512 (ix2 0 j)
      = ∑ r : Fin 2000, v (ix2 r j) := by
  refine (shapeCast_addUnit_apply ![512] _ shapeCasts_S512_S1x512 (ix2 0 j)).trans ?_
  refine (Ideal.multiReduction_add_single v 0x00000000#32 reduces_S2000x512_S512 (.inl rfl) rfl _).trans ?_
  refine Finset.sum_congr rfl fun r _ => congrArg v ?_
  funext a
  apply Fin.ext
  match a with
  | ⟨0, _⟩ => rfl
  | ⟨1, _⟩ => rfl

/-! ## The four payloads at an index -/

/-- The product block: row `r`, column `j` is the sum over `l` of the summed inputs' entry times the weight's. -/
theorem k3_pay2_apply (x a : Vec Ideal S2000x256 .f32) (w : Vec Ideal S256x512 .bf16) (r : Fin 2000) (j : Fin 512) :
    k3_pay2 (F := Ideal) x a w (ix2 r j) = ∑ l : Fin 256, (x (ix2 r l) + a (ix2 r l)) * w (ix2 l j) := by
  unfold k3_pay2
  simp only [shapeCast_self]
  exact matmul3_apply _ _ r j

/-- The carried row's first half: what it held plus the block's column sums. -/
theorem k3_pay3_apply (x a : Vec Ideal S2000x256 .f32) (w : Vec Ideal S256x512 .bf16) (acc : Vec Ideal S1x512 .f32) (j : Fin 512) :
    k3_pay3 (F := Ideal) x a w acc (ix2 0 j) = acc (ix2 0 j) + ∑ r : Fin 2000, k3_pay2 (F := Ideal) x a w (ix2 r j) := by
  unfold k3_pay3
  simp only [shapeCast_self]
  exact congrArg (acc (ix2 0 j) + ·) (rowsum3_apply (k3_pay2 (F := Ideal) x a w) j)

/-- The carried row's second half: what it held plus the column sums of the block's squares. -/
theorem k3_pay4_apply (x a : Vec Ideal S2000x256 .f32) (w : Vec Ideal S256x512 .bf16) (acc : Vec Ideal S1x512 .f32) (j : Fin 512) :
    k3_pay4 (F := Ideal) x a w acc (ix2 0 j)
      = acc (ix2 0 j) + ∑ r : Fin 2000, k3_pay2 (F := Ideal) x a w (ix2 r j) * k3_pay2 (F := Ideal) x a w (ix2 r j) := by
  unfold k3_pay4
  simp only [shapeCast_self]
  exact congrArg (acc (ix2 0 j) + ·)
    (rowsum3_apply (mulf (k3_pay2 (F := Ideal) x a w) (k3_pay2 (F := Ideal) x a w)) j)

/-- The cleared row is zero everywhere. -/
theorem k3_pay1_eq : (k3_pay1 (F := Ideal)) = fun _ => (0 : EReal) := by
  unfold k3_pay1
  simp only [shapeCast_self]
  funext i
  exact Ideal.ofBits_zero_f32

/-! ## Sums over all the rows, tile by tile -/

/-- A sum over all the rows is the sum, over the tiles, of the sums over one tile's rows. -/
theorem sum_rows_tiles3 (f : Fin 50000 → EReal) :
    ∑ i : Fin 50000, f i
      = ∑ t : Fin 25, ∑ r : Fin 2000, f ⟨2000 * t.val + r.val, by have := t.isLt; have := r.isLt; omega⟩ := by
  rw [← Fintype.sum_prod_type']
  refine (Fintype.sum_equiv (finProdFinEquiv (m := 25) (n := 2000)) _ f fun p => congrArg f (Fin.ext ?_)).symm
  show 2000 * p.1.val + p.2.val = p.2.val + 2000 * p.1.val
  omega

/-- A quantity that starts at its first term and then adds one term per step is the sum of the terms so far. -/
theorem steps_eq_sum3 (T : ℕ → EReal) (N : ℕ) (S : (n : ℕ) → n < N → EReal)
    (h0 : ∀ h, S 0 h = 0 + T 0) (hs : ∀ n (h : n + 1 < N), S (n + 1) h = S n (Nat.lt_of_succ_lt h) + T (n + 1)) :
    ∀ (n : ℕ) (h : n < N), S n h = ∑ t ∈ Finset.range (n + 1), T t
  | 0, h => by rw [h0 h, zero_add, Finset.sum_range_one]
  | n + 1, h => by rw [hs n h, steps_eq_sum3 T N S h0 hs n (Nat.lt_of_succ_lt h), Finset.sum_range_succ _ (n + 1)]

/-! ## Where the windows' blocks sit -/

/-- The block indices, decided over the grid: the two inputs' row blocks and the output's move with the point,
    the weight's block and the statistics' block stay. -/
theorem idx3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0 :=
  (by decide +kernel : ∀ t : Fin grid3.N, _)

/-- The first input's block at point `t` is rows `2000 t …` of its array. -/
theorem read_blk3_0 (A : Vec Ideal S50000x256 .f32) (t : Fin cfg3.N) (r : Fin 2000) (l : Fin 256)
    (i : Fin 50000) (hi : i.val = 2000 * t.val + r.val) :
    (((cfg3.win 0).blk t).view.read (Elt Ideal) A : Vec Ideal S2000x256 .f32) (ix2 r l) = A (ix2 i l) := by
  rw [View.read_apply]
  show A _ = A _
  refine congrArg A ?_
  funext a
  apply Fin.ext
  match a with
  | ⟨0, _⟩ => show win3_0.index t (0 : Fin 2) * 2000 + 1 * r.val = i.val; rw [(idx3 t).1]; omega
  | ⟨1, _⟩ => show win3_0.index t (1 : Fin 2) * 256 + 1 * l.val = l.val; rw [(idx3 t).2.1]; omega

/-- The second input's block likewise. -/
theorem read_blk3_1 (A : Vec Ideal S50000x256 .f32) (t : Fin cfg3.N) (r : Fin 2000) (l : Fin 256)
    (i : Fin 50000) (hi : i.val = 2000 * t.val + r.val) :
    (((cfg3.win 1).blk t).view.read (Elt Ideal) A : Vec Ideal S2000x256 .f32) (ix2 r l) = A (ix2 i l) := by
  rw [View.read_apply]
  show A _ = A _
  refine congrArg A ?_
  funext a
  apply Fin.ext
  match a with
  | ⟨0, _⟩ => show win3_1.index t (0 : Fin 2) * 2000 + 1 * r.val = i.val; rw [(idx3 t).2.2.1]; omega
  | ⟨1, _⟩ => show win3_1.index t (1 : Fin 2) * 256 + 1 * l.val = l.val; rw [(idx3 t).2.2.2.1]; omega

/-- The weight's block is the whole weight matrix at every point. -/
theorem read_blk3_2 (A : Vec Ideal S256x512 .bf16) (t : Fin cfg3.N) (l : Fin 256) (j : Fin 512) :
    (((cfg3.win 2).blk t).view.read (Elt Ideal) A : Vec Ideal S256x512 .bf16) (ix2 l j) = A (ix2 l j) := by
  rw [View.read_apply]
  show A _ = A _
  refine congrArg A ?_
  funext a
  apply Fin.ext
  match a with
  | ⟨0, _⟩ => show win3_2.index t (0 : Fin 2) * 256 + 1 * l.val = l.val; rw [(idx3 t).2.2.2.2.1]; omega
  | ⟨1, _⟩ => show win3_2.index t (1 : Fin 2) * 512 + 1 * j.val = j.val; rw [(idx3 t).2.2.2.2.2.1]; omega

/-- The output's block at point `t` is rows `2000 t …` of its array. -/
theorem read_blk3_3 (A : Vec Ideal S50000x512 .f32) (t : Fin cfg3.N) (r : Fin 2000) (j : Fin 512)
    (i : Fin 50000) (hi : i.val = 2000 * t.val + r.val) :
    (((cfg3.win 3).blk t).view.read (Elt Ideal) A : Vec Ideal S2000x512 .f32) (ix2 r j) = A (ix2 i j) := by
  rw [View.read_apply]
  show A _ = A _
  refine congrArg A ?_
  funext a
  apply Fin.ext
  match a with
  | ⟨0, _⟩ => show win3_3.index t (0 : Fin 2) * 2000 + 1 * r.val = i.val; rw [(idx3 t).2.2.2.2.2.2.1]; omega
  | ⟨1, _⟩ => show win3_3.index t (1 : Fin 2) * 512 + 1 * j.val = j.val; rw [(idx3 t).2.2.2.2.2.2.2.1]; omega

/-- The statistics' block is the whole row at every point. -/
theorem read_blk3_4 (A : Vec Ideal S1x1024 .f32) (t : Fin cfg3.N) (y : S1x1024.Idx) :
    (((cfg3.win 4).blk t).view.read (Elt Ideal) A : Vec Ideal S1x1024 .f32) y = A y := by
  rw [View.read_apply]
  show A _ = A _
  refine congrArg A ?_
  funext a
  apply Fin.ext
  match a with
  | ⟨0, _⟩ => show win3_4.index t (0 : Fin 2) * 1 + 1 * (y 0).val = (y 0).val; rw [(idx3 t).2.2.2.2.2.2.2.2.1]; omega
  | ⟨1, _⟩ => show win3_4.index t (1 : Fin 2) * 1024 + 1 * (y 1).val = (y 1).val; rw [(idx3 t).2.2.2.2.2.2.2.2.2]; omega

/-- An index of the output array is in point `t`'s block iff each coordinate is in the block's range. -/
theorem mem_blk3_3 (t : Fin cfg3.N) (i : S50000x512.Idx) :
    i ∈ ((cfg3.win 3).blk t).view.set ↔ ∀ a : Fin 2, win3_3.index t a * S2000x512.size a ≤ (i a).val
      ∧ (i a).val < win3_3.index t a * S2000x512.size a + S2000x512.size a := by
  show i ∈ ((View.whole main_v63_0).slice (win3_3.rect t)).set ↔ _
  rw [View.set_slice_whole, Rect.mem_set_unit]
  exact Iff.rfl

/-- Every row of the output array is in the block of the point its tile belongs to. -/
theorem cover3_3 (i : S50000x512.Idx) :
    ∃ t : Fin cfg3.N, (cfg3.win 3).flush t = true ∧ i ∈ ((cfg3.win 3).blk t).view.set := by
  have hN : cfg3.N = 25 := N_3
  have hi3 : (i 0).val < 50000 := (i 0).isLt
  have hi1 : (i 1).val < 512 := (i 1).isLt
  refine ⟨⟨(i 0).val / 2000, by omega⟩, flush3_3 _, ?_⟩
  rw [mem_blk3_3]
  obtain ⟨-, -, -, -, -, -, e0, e1, -, -⟩ := idx3 ⟨(i 0).val / 2000, by omega⟩
  intro a
  match a with
  | ⟨0, _⟩ =>
    show win3_3.index _ (0 : Fin 2) * 2000 ≤ (i 0).val ∧ (i 0).val < win3_3.index _ (0 : Fin 2) * 2000 + 2000
    rw [e0]; dsimp only; omega
  | ⟨1, _⟩ =>
    show win3_3.index _ (1 : Fin 2) * 512 ≤ (i 1).val ∧ (i 1).val < win3_3.index _ (1 : Fin 2) * 512 + 512
    rw [e1]; omega

/-- An index of the statistics row is in point `t`'s block iff each coordinate is in the block's range. -/
theorem mem_blk3_4 (t : Fin cfg3.N) (i : S1x1024.Idx) :
    i ∈ ((cfg3.win 4).blk t).view.set ↔ ∀ a : Fin 2, win3_4.index t a * S1x1024.size a ≤ (i a).val
      ∧ (i a).val < win3_4.index t a * S1x1024.size a + S1x1024.size a := by
  show i ∈ ((View.whole main_v63_1).slice (win3_4.rect t)).set ↔ _
  rw [View.set_slice_whole, Rect.mem_set_unit]
  exact Iff.rfl

/-- The last point's block is the whole statistics row. -/
theorem cover3_4 (i : S1x1024.Idx) :
    ∃ t : Fin cfg3.N, (cfg3.win 4).flush t = true ∧ i ∈ ((cfg3.win 4).blk t).view.set := by
  have hN : cfg3.N = 25 := N_3
  have hi3 : (i 0).val < 1 := (i 0).isLt
  have hi1 : (i 1).val < 1024 := (i 1).isLt
  refine ⟨⟨24, by omega⟩, (flush3_4 _).mpr rfl, ?_⟩
  rw [mem_blk3_4]
  obtain ⟨-, -, -, -, -, -, -, -, e0, e1⟩ := idx3 ⟨24, by omega⟩
  intro a
  match a with
  | ⟨0, _⟩ =>
    show win3_4.index _ (0 : Fin 2) * 1 ≤ (i 0).val ∧ (i 0).val < win3_4.index _ (0 : Fin 2) * 1 + 1
    rw [e0]; omega
  | ⟨1, _⟩ =>
    show win3_4.index _ (1 : Fin 2) * 1024 ≤ (i 1).val ∧ (i 1).val < win3_4.index _ (1 : Fin 2) * 1024 + 1024
    rw [e1]; omega

/-! ## What each case of the body leaves, read as values

The body's run was found case by case as lists of stored pieces; read back, the product block's one covering store
leaves the product of the input blocks, and the carried row's stores leave, column by column, what the row held
(nothing, at the first point) plus the block's column sums, in its first half of the plain products and in its
second of their squares. The last point's copy leaves the statistics block equal to the carried row. -/

/-- A column of the first half of the carried row, and of the second. -/
abbrev lo3 (j : Fin 512) : Fin 1024 := ⟨j.val, by have := j.isLt; omega⟩
abbrev hi3 (j : Fin 512) : Fin 1024 := ⟨512 + j.val, by have := j.isLt; omega⟩

theorem hz3 : (![0, 0] : Fin 2 → Nat) = fun _ => 0 := funext fun a => by fin_cases a <;> rfl

/-- The two halves of the carried row, as the rectangles the body stores through. -/
abbrev rLo3 : Rect S1x1024 := Rect.unit (s := S1x1024) ![0, 0] S1x512.size inb_S1x1024_S1x512_0_0
abbrev rHi3 : Rect S1x1024 := Rect.unit (s := S1x1024) ![0, 512] S1x512.size inb_S1x1024_S1x512_0_512

theorem rLo3_emb (j : Fin 512) : rLo3.emb (ix2 0 j) = ix2 0 (lo3 j) := by
  funext a
  apply Fin.ext
  rw [Rect.emb_apply]
  match a with
  | ⟨0, _⟩ => rfl
  | ⟨1, _⟩ => show 0 + 1 * j.val = j.val; omega

theorem rHi3_emb (j : Fin 512) : rHi3.emb (ix2 0 j) = ix2 0 (hi3 j) := by
  funext a
  apply Fin.ext
  rw [Rect.emb_apply]
  match a with
  | ⟨0, _⟩ => rfl
  | ⟨1, _⟩ => show 512 + 1 * j.val = 512 + j.val; omega

theorem lo3_not_mem_hi (j : Fin 512) : ix2 0 (lo3 j) ∉ rHi3.set := by
  rw [Rect.mem_set_unit]
  intro h
  have h1 : (512 : ℕ) ≤ j.val := (h 1).1
  have := j.isLt
  omega

theorem hi3_not_mem_lo (j : Fin 512) : ix2 0 (hi3 j) ∉ rLo3.set := by
  rw [Rect.mem_set_unit]
  intro h
  have h1 : 512 + j.val < 0 + 512 := (h 1).2
  omega

/-- The whole carried row as a rectangle of itself. -/
abbrev rW3 : Rect S1x1024 := Rect.unit (s := S1x1024) ![0, 0] S1x1024.size inb_S1x1024_S1x1024_0_0

/-- A load after one store of the whole row reads that store's payload. -/
theorem readCov_rW3 {sig' : RefSig} {κ : Kind} {sp : Space} (v : View sig' κ sp S1x1024 .f32) (w : Vec Ideal S1x1024 .f32)
    (B : Rect S1x1024) (y : B.shape.Idx) :
    v.readCov [(⟨rW3, w⟩ : View.Piece (Elt Ideal) S1x1024 .f32)] B.toLoadRect y = w (B.idx y) := by
  have hc : ∀ y : S1x1024.Idx, ∃ p ∈ [(⟨rW3, w⟩ : View.Piece (Elt Ideal) S1x1024 .f32)], y ∈ p.1.set :=
    fun y => ⟨⟨rW3, w⟩, List.mem_singleton_self _, View.mem_set_unit_zero hz3 inb_S1x1024_S1x1024_0_0 y⟩
  rw [View.readCov_eq_canon_ld v _ B hc, View.canon_unit_zero hz3]

/-- The two half-row stores cover the row. -/
theorem halves_cover3 (wHi wLo : Vec Ideal S1x512 .f32) (y : S1x1024.Idx) :
    ∃ p ∈ ([⟨rHi3, wHi⟩, ⟨rLo3, wLo⟩] : List (View.Piece (Elt Ideal) S1x1024 .f32)), y ∈ p.1.set := by
  have h0 : (y 0).val < 1 := (y 0).isLt
  have h1 : (y 1).val < 1024 := (y 1).isLt
  by_cases h : (y 1).val < 512
  · refine ⟨⟨rLo3, wLo⟩, List.mem_cons_of_mem _ (List.mem_singleton_self _), ?_⟩
    show y ∈ rLo3.set
    rw [Rect.mem_set_unit]
    intro a
    match a with
    | ⟨0, _⟩ => show 0 ≤ (y 0).val ∧ (y 0).val < 0 + 1; omega
    | ⟨1, _⟩ => show 0 ≤ (y 1).val ∧ (y 1).val < 0 + 512; omega
  · refine ⟨⟨rHi3, wHi⟩, List.mem_cons_self, ?_⟩
    show y ∈ rHi3.set
    rw [Rect.mem_set_unit]
    intro a
    match a with
    | ⟨0, _⟩ => show 0 ≤ (y 0).val ∧ (y 0).val < 0 + 1; omega
    | ⟨1, _⟩ => show 512 ≤ (y 1).val ∧ (y 1).val < 512 + 512; omega

theorem out3_A_3_eq (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i) (x0 x1 : Vec Ideal S2000x256 .f32) (x2 : Vec Ideal S256x512 .bf16) :
    out3_A_3 (F := Ideal) c i arg1 harg1 arg2 harg2 arg3 harg3 arg4 harg4 arg5 harg5 arg6 harg6 hc0 hc1 x0 x1 x2 = k3_pay2 (F := Ideal) x0 x1 x2 := by
  unfold out3_A_3
  rw [View.read_writes_eq_canon _ _ _ (cover3_A_3 c i arg1 harg1 arg2 harg2 arg3 harg3 arg4 harg4 arg5 harg5 arg6 harg6 hc0 hc1 x0 x1 x2)]
  unfold kernelRun3_A
  dsimp only
  sl_unfold_words
  rw [View.canon_unit_zero hz3]
  simp only [View.readAt_eq_ld, harg1.read_unread, harg2.read_unread, harg3.read_unread, View.ld_unit_zero (S := S2000x256) hz3, View.ld_unit_zero (S := S256x512) hz3]

theorem out3_B_3_eq (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i) (x0 x1 : Vec Ideal S2000x256 .f32) (x2 : Vec Ideal S256x512 .bf16) (xs0 : Vec Ideal S1x1024 .f32) :
    out3_B_3 (F := Ideal) c i arg1 harg1 arg2 harg2 arg3 harg3 arg4 harg4 arg5 harg5 arg6 harg6 hc0 hc1 x0 x1 x2 xs0 = k3_pay2 (F := Ideal) x0 x1 x2 := by
  unfold out3_B_3
  rw [View.read_writes_eq_canon _ _ _ (cover3_B_3 c i arg1 harg1 arg2 harg2 arg3 harg3 arg4 harg4 arg5 harg5 arg6 harg6 hc0 hc1 x0 x1 x2 xs0)]
  unfold kernelRun3_B
  dsimp only
  sl_unfold_words
  rw [View.canon_unit_zero hz3]
  simp only [View.readAt_eq_ld, harg1.read_unread, harg2.read_unread, harg3.read_unread, View.ld_unit_zero (S := S2000x256) hz3, View.ld_unit_zero (S := S256x512) hz3]

theorem out3_C_3_eq (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i) (x0 x1 : Vec Ideal S2000x256 .f32) (x2 : Vec Ideal S256x512 .bf16) (xs0 : Vec Ideal S1x1024 .f32) :
    out3_C_3 (F := Ideal) c i arg1 harg1 arg2 harg2 arg3 harg3 arg4 harg4 arg5 harg5 arg6 harg6 hc0 hc1 x0 x1 x2 xs0 = k3_pay2 (F := Ideal) x0 x1 x2 := by
  unfold out3_C_3
  rw [View.read_writes_eq_canon _ _ _ (cover3_C_3 c i arg1 harg1 arg2 harg2 arg3 harg3 arg4 harg4 arg5 harg5 arg6 harg6 hc0 hc1 x0 x1 x2 xs0)]
  unfold kernelRun3_C
  dsimp only
  sl_unfold_words
  rw [View.canon_unit_zero hz3]
  simp only [View.readAt_eq_ld, harg1.read_unread, harg2.read_unread, harg3.read_unread, View.ld_unit_zero (S := S2000x256) hz3, View.ld_unit_zero (S := S256x512) hz3]

theorem sout3_A_0_lo (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i) (x0 x1 : Vec Ideal S2000x256 .f32) (x2 : Vec Ideal S256x512 .bf16) (j : Fin 512) :
    sout3_A_0 (F := Ideal) c i arg1 harg1 arg2 harg2 arg3 harg3 arg4 harg4 arg5 harg5 arg6 harg6 hc0 hc1 x0 x1 x2 (ix2 0 (lo3 j))
      = 0 + ∑ r : Fin 2000, k3_pay2 (F := Ideal) x0 x1 x2 (ix2 r j) := by
  unfold sout3_A_0
  rw [View.read_writes_eq_canon _ _ _ (scover3_A_0 c i arg1 harg1 arg2 harg2 arg3 harg3 arg4 harg4 arg5 harg5 arg6 harg6 hc0 hc1 x0 x1 x2)]
  unfold kernelRun3_A
  dsimp only
  sl_unfold_words
  simp only [View.readAt_eq_ld, harg1.read_unread, harg2.read_unread, harg3.read_unread, View.ld_unit_zero (S := S2000x256) hz3, View.ld_unit_zero (S := S256x512) hz3]
  refine (View.canon_cons_of_not_mem (⟨rHi3, _⟩ : View.Piece (Elt Ideal) S1x1024 .f32) _ (lo3_not_mem_hi j)).trans ?_
  refine (congrArg _ (rLo3_emb j).symm).trans ((View.canon_cons_emb rLo3 _ _ (ix2 0 j)).trans ?_)
  refine (k3_pay3_apply x0 x1 x2 _ j).trans ?_
  refine congrArg (· + _) ?_
  exact (readCov_rW3 _ _ rLo3 (ix2 0 j)).trans (congrFun k3_pay1_eq _)

theorem sout3_A_0_hi (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond3_0 i) (hc1 : ¬cond3_1 i) (x0 x1 : Vec Ideal S2000x256 .f32) (x2 : Vec Ideal S256x512 .bf16) (j : Fin 512) :
    sout3_A_0 (F := Ideal) c i arg1 harg1 arg2 harg2 arg3 harg3 arg4 harg4 arg5 harg5 arg6 harg6 hc0 hc1 x0 x1 x2 (ix2 0 (hi3 j))
      = 0 + ∑ r : Fin 2000, k3_pay2 (F := Ideal) x0 x1 x2 (ix2 r j) * k3_pay2 (F := Ideal) x0 x1 x2 (ix2 r j) := by
  unfold sout3_A_0
  rw [View.read_writes_eq_canon _ _ _ (scover3_A_0 c i arg1 harg1 arg2 harg2 arg3 harg3 arg4 harg4 arg5 harg5 arg6 harg6 hc0 hc1 x0 x1 x2)]
  unfold kernelRun3_A
  dsimp only
  sl_unfold_words
  simp only [View.readAt_eq_ld, harg1.read_unread, harg2.read_unread, harg3.read_unread, View.ld_unit_zero (S := S2000x256) hz3, View.ld_unit_zero (S := S256x512) hz3]
  refine (congrArg _ (rHi3_emb j).symm).trans ((View.canon_cons_emb rHi3 _ _ (ix2 0 j)).trans ?_)
  refine (k3_pay4_apply x0 x1 x2 _ j).trans ?_
  refine congrArg (· + _) ?_
  refine (congrFun (View.readCov_eq_canon_ld _ _ rHi3 (fun y =>
    ⟨⟨rW3, k3_pay1 (F := Ideal)⟩, List.mem_cons_of_mem _ (List.mem_singleton_self _),
      View.mem_set_unit_zero hz3 inb_S1x1024_S1x1024_0_0 y⟩)) (ix2 0 j)).trans ?_
  show View.canon _ (rHi3.emb (ix2 0 j)) = 0
  rw [rHi3_emb]
  refine (View.canon_cons_of_not_mem (⟨rLo3, _⟩ : View.Piece (Elt Ideal) S1x1024 .f32) _ (hi3_not_mem_lo j)).trans ?_
  rw [View.canon_unit_zero hz3]
  exact congrFun k3_pay1_eq _

theorem sout3_B_0_lo (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i) (x0 x1 : Vec Ideal S2000x256 .f32) (x2 : Vec Ideal S256x512 .bf16) (xs0 : Vec Ideal S1x1024 .f32) (j : Fin 512) :
    sout3_B_0 (F := Ideal) c i arg1 harg1 arg2 harg2 arg3 harg3 arg4 harg4 arg5 harg5 arg6 harg6 hc0 hc1 x0 x1 x2 xs0 (ix2 0 (lo3 j))
      = xs0 (ix2 0 (lo3 j)) + ∑ r : Fin 2000, k3_pay2 (F := Ideal) x0 x1 x2 (ix2 r j) := by
  unfold sout3_B_0
  rw [View.read_writes_eq_canon _ _ _ (scover3_B_0 c i arg1 harg1 arg2 harg2 arg3 harg3 arg4 harg4 arg5 harg5 arg6 harg6 hc0 hc1 x0 x1 x2 xs0)]
  unfold kernelRun3_B
  dsimp only
  sl_unfold_words
  simp only [View.readAt_eq_ld, harg1.read_unread, harg2.read_unread, harg3.read_unread, harg6.read_unread, View.ld_unit_zero (S := S2000x256) hz3, View.ld_unit_zero (S := S256x512) hz3]
  refine (View.canon_cons_of_not_mem (⟨rHi3, _⟩ : View.Piece (Elt Ideal) S1x1024 .f32) _ (lo3_not_mem_hi j)).trans ?_
  refine (congrArg _ (rLo3_emb j).symm).trans ((View.canon_cons_emb rLo3 _ [] (ix2 0 j)).trans ?_)
  refine (k3_pay3_apply x0 x1 x2 _ j).trans ?_
  exact congrArg (· + _) (congrArg xs0 (rLo3_emb j))

theorem sout3_B_0_hi (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : ¬cond3_1 i) (x0 x1 : Vec Ideal S2000x256 .f32) (x2 : Vec Ideal S256x512 .bf16) (xs0 : Vec Ideal S1x1024 .f32) (j : Fin 512) :
    sout3_B_0 (F := Ideal) c i arg1 harg1 arg2 harg2 arg3 harg3 arg4 harg4 arg5 harg5 arg6 harg6 hc0 hc1 x0 x1 x2 xs0 (ix2 0 (hi3 j))
      = xs0 (ix2 0 (hi3 j)) + ∑ r : Fin 2000, k3_pay2 (F := Ideal) x0 x1 x2 (ix2 r j) * k3_pay2 (F := Ideal) x0 x1 x2 (ix2 r j) := by
  unfold sout3_B_0
  rw [View.read_writes_eq_canon _ _ _ (scover3_B_0 c i arg1 harg1 arg2 harg2 arg3 harg3 arg4 harg4 arg5 harg5 arg6 harg6 hc0 hc1 x0 x1 x2 xs0)]
  unfold kernelRun3_B
  dsimp only
  sl_unfold_words
  simp only [View.readAt_eq_ld, harg1.read_unread, harg2.read_unread, harg3.read_unread, harg6.read_unread, View.ld_unit_zero (S := S2000x256) hz3, View.ld_unit_zero (S := S256x512) hz3]
  refine (congrArg _ (rHi3_emb j).symm).trans ((View.canon_cons_emb rHi3 _ _ (ix2 0 j)).trans ?_)
  refine (k3_pay4_apply x0 x1 x2 _ j).trans ?_
  exact congrArg (· + _) (congrArg xs0 (rHi3_emb j))

theorem sout3_C_0_lo (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i) (x0 x1 : Vec Ideal S2000x256 .f32) (x2 : Vec Ideal S256x512 .bf16) (xs0 : Vec Ideal S1x1024 .f32) (j : Fin 512) :
    sout3_C_0 (F := Ideal) c i arg1 harg1 arg2 harg2 arg3 harg3 arg4 harg4 arg5 harg5 arg6 harg6 hc0 hc1 x0 x1 x2 xs0 (ix2 0 (lo3 j))
      = xs0 (ix2 0 (lo3 j)) + ∑ r : Fin 2000, k3_pay2 (F := Ideal) x0 x1 x2 (ix2 r j) := by
  unfold sout3_C_0
  rw [View.read_writes_eq_canon _ _ _ (scover3_C_0 c i arg1 harg1 arg2 harg2 arg3 harg3 arg4 harg4 arg5 harg5 arg6 harg6 hc0 hc1 x0 x1 x2 xs0)]
  unfold kernelRun3_C
  dsimp only
  sl_unfold_words
  simp only [View.readAt_eq_ld, harg1.read_unread, harg2.read_unread, harg3.read_unread, harg6.read_unread, View.ld_unit_zero (S := S2000x256) hz3, View.ld_unit_zero (S := S256x512) hz3]
  refine (View.canon_cons_of_not_mem (⟨rHi3, _⟩ : View.Piece (Elt Ideal) S1x1024 .f32) _ (lo3_not_mem_hi j)).trans ?_
  refine (congrArg _ (rLo3_emb j).symm).trans ((View.canon_cons_emb rLo3 _ [] (ix2 0 j)).trans ?_)
  refine (k3_pay3_apply x0 x1 x2 _ j).trans ?_
  exact congrArg (· + _) (congrArg xs0 (rLo3_emb j))

theorem sout3_C_0_hi (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i) (x0 x1 : Vec Ideal S2000x256 .f32) (x2 : Vec Ideal S256x512 .bf16) (xs0 : Vec Ideal S1x1024 .f32) (j : Fin 512) :
    sout3_C_0 (F := Ideal) c i arg1 harg1 arg2 harg2 arg3 harg3 arg4 harg4 arg5 harg5 arg6 harg6 hc0 hc1 x0 x1 x2 xs0 (ix2 0 (hi3 j))
      = xs0 (ix2 0 (hi3 j)) + ∑ r : Fin 2000, k3_pay2 (F := Ideal) x0 x1 x2 (ix2 r j) * k3_pay2 (F := Ideal) x0 x1 x2 (ix2 r j) := by
  unfold sout3_C_0
  rw [View.read_writes_eq_canon _ _ _ (scover3_C_0 c i arg1 harg1 arg2 harg2 arg3 harg3 arg4 harg4 arg5 harg5 arg6 harg6 hc0 hc1 x0 x1 x2 xs0)]
  unfold kernelRun3_C
  dsimp only
  sl_unfold_words
  simp only [View.readAt_eq_ld, harg1.read_unread, harg2.read_unread, harg3.read_unread, harg6.read_unread, View.ld_unit_zero (S := S2000x256) hz3, View.ld_unit_zero (S := S256x512) hz3]
  refine (congrArg _ (rHi3_emb j).symm).trans ((View.canon_cons_emb rHi3 _ _ (ix2 0 j)).trans ?_)
  refine (k3_pay4_apply x0 x1 x2 _ j).trans ?_
  exact congrArg (· + _) (congrArg xs0 (rHi3_emb j))

theorem out3_C_4_eq (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond3_0 i) (hc1 : cond3_1 i) (x0 x1 : Vec Ideal S2000x256 .f32) (x2 : Vec Ideal S256x512 .bf16) (xs0 : Vec Ideal S1x1024 .f32) :
    out3_C_4 (F := Ideal) c i arg1 harg1 arg2 harg2 arg3 harg3 arg4 harg4 arg5 harg5 arg6 harg6 hc0 hc1 x0 x1 x2 xs0 = sout3_C_0 (F := Ideal) c i arg1 harg1 arg2 harg2 arg3 harg3 arg4 harg4 arg5 harg5 arg6 harg6 hc0 hc1 x0 x1 x2 xs0 := by
  unfold out3_C_4 sout3_C_0
  rw [View.read_writes_eq_canon _ _ _ (cover3_C_4 c i arg1 harg1 arg2 harg2 arg3 harg3 arg4 harg4 arg5 harg5 arg6 harg6 hc0 hc1 x0 x1 x2 xs0), View.read_writes_eq_canon _ _ _ (scover3_C_0 c i arg1 harg1 arg2 harg2 arg3 harg3 arg4 harg4 arg5 harg5 arg6 harg6 hc0 hc1 x0 x1 x2 xs0)]
  unfold kernelRun3_C
  dsimp only
  sl_unfold_words
  rw [View.canon_unit_zero hz3]
  refine (View.readCov_eq_canon_ld _ _ rW3 (halves_cover3 _ _)).trans ?_
  exact View.ld_unit_zero hz3 _ _

/-! ## The region's arrays and blocks at their literal types -/

variable (V : (c : Dev nD) → (b : Ref sig .tc) → Buf (Elt Ideal) ((c : Thread nD τ).loc b))

/-- The two input arrays and the weight matrix as the region finds them. -/
abbrev X3_0 (c : Dev nD) : Spec.Mx 50000 256 := V c (Pipeline.arrRef spec3 0)
abbrev X3_1 (c : Dev nD) : Spec.Mx 50000 256 := V c (Pipeline.arrRef spec3 1)
abbrev X3_2 (c : Dev nD) : Spec.Mx 256 512 := V c (Pipeline.arrRef spec3 2)

/-- The product of the summed inputs with the weights, all rows at once. -/
abbrev Z3 (c : Dev nD) : Spec.Mx 50000 512 := Spec.mm (Spec.add2 (X3_0 V c) (X3_1 V c)) (X3_2 V c)

/-- The product block the body computes at point `t`. -/
abbrev zb3 (c : Dev nD) (t : Fin cfg3.N) : FVec Ideal S2000x512 .f32 :=
  k3_pay2 (F := Ideal) (iblk3 V c 0 t) (iblk3 V c 1 t) (iblk3 V c 2 t)

/-- The product block at point `t` is rows `2000 t …` of the whole product. -/
theorem zb3_apply (c : Dev nD) (t : Fin cfg3.N) (r : Fin 2000) (j : Fin 512) (i : Fin 50000) (hi : i.val = 2000 * t.val + r.val) :
    zb3 V c t (ix2 r j) = Z3 V c (ix2 i j) := by
  refine (k3_pay2_apply _ _ _ r j).trans ?_
  show _ = ∑ l : Fin 256, (X3_0 V c (ix2 i l) + X3_1 V c (ix2 i l)) * X3_2 V c (ix2 l j)
  refine Finset.sum_congr rfl fun l _ => ?_
  have e0 : (iblk3 V c 0 t : Vec Ideal S2000x256 .f32) (ix2 r l) = X3_0 V c (ix2 i l) := read_blk3_0 (X3_0 V c) t r l i hi
  have e1 : (iblk3 V c 1 t : Vec Ideal S2000x256 .f32) (ix2 r l) = X3_1 V c (ix2 i l) := read_blk3_1 (X3_1 V c) t r l i hi
  have e2 : (iblk3 V c 2 t : Vec Ideal S256x512 .bf16) (ix2 l j) = X3_2 V c (ix2 l j) := read_blk3_2 (X3_2 V c) t l j
  rw [e0, e1, e2]

/-! ## The carried row after each point -/

/-- The output block after point `t` is the product block, whichever case the point is. -/
theorem outsAt3_fst (c : Dev nD) (t : Fin cfg3.N) : (outsAt3 V c t.val t.isLt).1 = zb3 V c t := by
  by_cases h0 : t.val = 0
  · have h1 : ¬t.val = 24 := by omega
    rw [outsAt3_A V c t h0 h1]; dsimp only
    exact out3_A_3_eq c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t)
  · by_cases h1 : t.val = 24
    · rw [outsAt3_C V c t h0 h1]; dsimp only
      exact out3_C_3_eq c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) _
    · rw [outsAt3_B V c t h0 h1]; dsimp only
      exact out3_B_3_eq c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) _

/-- Tile `t`'s contribution to column `j`'s sum, and to its sum of squares (nothing past the grid). -/
def tsum3 (c : Dev nD) (j : Fin 512) (t : ℕ) : EReal :=
  if h : t < cfg3.N then ∑ r : Fin 2000, zb3 V c ⟨t, h⟩ (ix2 r j) else 0
def tsq3 (c : Dev nD) (j : Fin 512) (t : ℕ) : EReal :=
  if h : t < cfg3.N then ∑ r : Fin 2000, zb3 V c ⟨t, h⟩ (ix2 r j) * zb3 V c ⟨t, h⟩ (ix2 r j) else 0

/-- The carried row at the first point. -/
theorem row3_zero (c : Dev nD) (j : Fin 512) (h : 0 < cfg3.N) :
    (outsAt3 V c 0 h).2.2 (ix2 0 (lo3 j)) = 0 + tsum3 V c j 0
    ∧ (outsAt3 V c 0 h).2.2 (ix2 0 (hi3 j)) = 0 + tsq3 V c j 0 := by
  have h1 : ¬(⟨0, h⟩ : Fin cfg3.N).val = 24 := by dsimp only; omega
  have e := outsAt3_A V c ⟨0, h⟩ rfl h1
  dsimp only at e
  rw [e]; dsimp only
  unfold tsum3 tsq3
  rw [dif_pos h, dif_pos h]
  exact ⟨sout3_A_0_lo c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) scM3_0 (Memref.isWhole_whole _) ((hcond3_0 ⟨0, h⟩).mpr rfl) (fun h' => h1 ((hcond3_1 ⟨0, h⟩).mp h')) (iblk3 V c 0 ⟨0, h⟩) (iblk3 V c 1 ⟨0, h⟩) (iblk3 V c 2 ⟨0, h⟩) j,
    sout3_A_0_hi c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) scM3_0 (Memref.isWhole_whole _) ((hcond3_0 ⟨0, h⟩).mpr rfl) (fun h' => h1 ((hcond3_1 ⟨0, h⟩).mp h')) (iblk3 V c 0 ⟨0, h⟩) (iblk3 V c 1 ⟨0, h⟩) (iblk3 V c 2 ⟨0, h⟩) j⟩

/-- The carried row at a later point: what the point before left plus this tile's contribution. -/
theorem row3_succ (c : Dev nD) (j : Fin 512) (n : ℕ) (h : n + 1 < cfg3.N) :
    (outsAt3 V c (n + 1) h).2.2 (ix2 0 (lo3 j)) = (outsAt3 V c n (Nat.lt_of_succ_lt h)).2.2 (ix2 0 (lo3 j)) + tsum3 V c j (n + 1)
    ∧ (outsAt3 V c (n + 1) h).2.2 (ix2 0 (hi3 j)) = (outsAt3 V c n (Nat.lt_of_succ_lt h)).2.2 (ix2 0 (hi3 j)) + tsq3 V c j (n + 1) := by
  have h0 : ¬(⟨n + 1, h⟩ : Fin cfg3.N).val = 0 := Nat.succ_ne_zero n
  unfold tsum3 tsq3
  rw [dif_pos h, dif_pos h]
  by_cases h1 : (⟨n + 1, h⟩ : Fin cfg3.N).val = 24
  · have e := outsAt3_C V c ⟨n + 1, h⟩ h0 h1
    dsimp only at e
    rw [e]; dsimp only
    exact ⟨sout3_C_0_lo c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) scM3_0 (Memref.isWhole_whole _) (fun h' => h0 ((hcond3_0 ⟨n + 1, h⟩).mp h')) ((hcond3_1 ⟨n + 1, h⟩).mpr h1) (iblk3 V c 0 ⟨n + 1, h⟩) (iblk3 V c 1 ⟨n + 1, h⟩) (iblk3 V c 2 ⟨n + 1, h⟩) _ j,
      sout3_C_0_hi c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) scM3_0 (Memref.isWhole_whole _) (fun h' => h0 ((hcond3_0 ⟨n + 1, h⟩).mp h')) ((hcond3_1 ⟨n + 1, h⟩).mpr h1) (iblk3 V c 0 ⟨n + 1, h⟩) (iblk3 V c 1 ⟨n + 1, h⟩) (iblk3 V c 2 ⟨n + 1, h⟩) _ j⟩
  · have e := outsAt3_B V c ⟨n + 1, h⟩ h0 h1
    dsimp only at e
    rw [e]; dsimp only
    exact ⟨sout3_B_0_lo c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) scM3_0 (Memref.isWhole_whole _) (fun h' => h0 ((hcond3_0 ⟨n + 1, h⟩).mp h')) (fun h' => h1 ((hcond3_1 ⟨n + 1, h⟩).mp h')) (iblk3 V c 0 ⟨n + 1, h⟩) (iblk3 V c 1 ⟨n + 1, h⟩) (iblk3 V c 2 ⟨n + 1, h⟩) _ j,
      sout3_B_0_hi c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) scM3_0 (Memref.isWhole_whole _) (fun h' => h0 ((hcond3_0 ⟨n + 1, h⟩).mp h')) (fun h' => h1 ((hcond3_1 ⟨n + 1, h⟩).mp h')) (iblk3 V c 0 ⟨n + 1, h⟩) (iblk3 V c 1 ⟨n + 1, h⟩) (iblk3 V c 2 ⟨n + 1, h⟩) _ j⟩

/-- So after point `n` the carried row holds, column by column, the sums over the tiles so far. -/
theorem row3_eq (c : Dev nD) (j : Fin 512) (n : ℕ) (h : n < cfg3.N) :
    (outsAt3 V c n h).2.2 (ix2 0 (lo3 j)) = ∑ t ∈ Finset.range (n + 1), tsum3 V c j t
    ∧ (outsAt3 V c n h).2.2 (ix2 0 (hi3 j)) = ∑ t ∈ Finset.range (n + 1), tsq3 V c j t :=
  ⟨steps_eq_sum3 (tsum3 V c j) cfg3.N (fun n h => (outsAt3 V c n h).2.2 (ix2 0 (lo3 j)))
      (fun h => (row3_zero V c j h).1) (fun n h => (row3_succ V c j n h).1) n h,
    steps_eq_sum3 (tsq3 V c j) cfg3.N (fun n h => (outsAt3 V c n h).2.2 (ix2 0 (hi3 j)))
      (fun h => (row3_zero V c j h).2) (fun n h => (row3_succ V c j n h).2) n h⟩

/-- The sums over all the tiles are the column sums of the whole product, and of its squares. -/
theorem tsum3_all (c : Dev nD) (j : Fin 512) :
    ∑ t ∈ Finset.range 25, tsum3 V c j t = Spec.colSum (Z3 V c) j := by
  have hN : cfg3.N = 25 := N_3
  rw [Finset.sum_range]
  show _ = ∑ i : Fin 50000, Z3 V c (ix2 i j)
  rw [sum_rows_tiles3]
  refine Finset.sum_congr rfl fun t _ => ?_
  have ht : t.val < cfg3.N := by have := t.isLt; omega
  unfold tsum3
  rw [dif_pos ht]
  exact Finset.sum_congr rfl fun r _ =>
    zb3_apply V c ⟨t.val, ht⟩ r j ⟨2000 * t.val + r.val, by have := t.isLt; have := r.isLt; omega⟩ rfl

theorem tsq3_all (c : Dev nD) (j : Fin 512) :
    ∑ t ∈ Finset.range 25, tsq3 V c j t = Spec.colSumSq (Z3 V c) j := by
  have hN : cfg3.N = 25 := N_3
  rw [Finset.sum_range]
  show _ = ∑ i : Fin 50000, Z3 V c (ix2 i j) * Z3 V c (ix2 i j)
  rw [sum_rows_tiles3]
  refine Finset.sum_congr rfl fun t _ => ?_
  have ht : t.val < cfg3.N := by have := t.isLt; omega
  unfold tsq3
  rw [dif_pos ht]
  exact Finset.sum_congr rfl fun r _ => by
    rw [zb3_apply V c ⟨t.val, ht⟩ r j ⟨2000 * t.val + r.val, by have := t.isLt; have := r.isLt; omega⟩ rfl]

/-! ## The two output arrays after the region -/

/-- The statistics row: the column sums in its first half, the column sums of squares in its second. -/
def stats3 (Z : Spec.Mx 50000 512) : Spec.Mx 1 1024 := fun i =>
  if h : (i 1).val < 512 then Spec.colSum Z ⟨(i 1).val, h⟩
  else Spec.colSumSq Z ⟨(i 1).val - 512, by have : (i 1).val < 1024 := (i 1).isLt; omega⟩

theorem stats3_lo (Z : Spec.Mx 50000 512) (j : Fin 512) : stats3 Z (ix2 0 (lo3 j)) = Spec.colSum Z j := by
  unfold stats3
  have hq : ((ix2 (0 : Fin 1) (lo3 j) : S1x1024.Idx) 1).val < 512 := j.isLt
  rw [dif_pos hq]
theorem stats3_hi (Z : Spec.Mx 50000 512) (j : Fin 512) : stats3 Z (ix2 0 (hi3 j)) = Spec.colSumSq Z j := by
  unfold stats3
  have hq : ¬((ix2 (0 : Fin 1) (hi3 j) : S1x1024.Idx) 1).val < 512 := by
    show ¬ 512 + j.val < 512; omega
  rw [dif_neg hq]
  exact congrArg (Spec.colSumSq Z) (Fin.ext (by show 512 + j.val - 512 = j.val; omega))

/-- What point `t` writes back of the product is block `t` of the whole product. -/
theorem flushed3_3_eq (c : Dev nD) (t : Fin cfg3.N) :
    (dat3 V c).flushed 3 t = ((cfg3.win 3).blk t).view.read (Elt Ideal) (Z3 V c) := by
  show (cfg3.win 3).cut (grid3.coords t) ((dat3 V c).after 3 t) = _
  rw [after3_3, outsAt3_fst]
  funext y
  obtain ⟨r, j, rfl⟩ : ∃ (r : Fin 2000) (j : Fin 512), y = ix2 r j := ⟨y 0, y 1, eq_ix2 y⟩
  have hi : (⟨2000 * t.val + r.val, by have hN : cfg3.N = 25 := N_3; have := t.isLt; have := r.isLt; omega⟩ : Fin 50000).val
      = 2000 * t.val + r.val := rfl
  refine Eq.trans ?_ (read_blk3_3 (Z3 V c) t r j _ hi).symm
  exact zb3_apply V c t r j _ hi

/-- The product array after the region is the whole product. -/
theorem z_eq3 (c : Dev nD) : (dat3 V c).arrAt 3 cfg3.N = Z3 V c :=
  (dat3 V c).arrAt_eq_of_cover 3 (Z3 V c) (fun t _ => flushed3_3_eq V c t) cover3_3

/-- What the last point writes back of the statistics is the whole statistics row. -/
theorem flushed3_4_eq (c : Dev nD) (t : Fin cfg3.N) (hf : (cfg3.win 4).flush t = true) :
    (dat3 V c).flushed 4 t = ((cfg3.win 4).blk t).view.read (Elt Ideal) (stats3 (Z3 V c)) := by
  have hN : cfg3.N = 25 := N_3
  have h24 : t.val = 24 := by have := (flush3_4 t).mp hf; have := t.isLt; omega
  have h0 : ¬t.val = 0 := by omega
  show (cfg3.win 4).cut (grid3.coords t) ((dat3 V c).after 4 t) = _
  rw [after3_4]
  funext y
  rw [read_blk3_4 (stats3 (Z3 V c)) t y]
  have e := outsAt3_C V c t h0 h24
  have e4 : (outsAt3 V c t.val t.isLt).2.1 = (outsAt3 V c t.val t.isLt).2.2 := by
    rw [e]; dsimp only
    exact out3_C_4_eq c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h24) (iblk3 V c 0 t) (iblk3 V c 1 t) (iblk3 V c 2 t) _
  show (outsAt3 V c t.val t.isLt).2.1 y = _
  rw [e4]
  obtain ⟨p, q, rfl⟩ : ∃ (p : Fin 1) (q : Fin 1024), y = ix2 p q := ⟨y 0, y 1, eq_ix2 y⟩
  obtain rfl : p = 0 := Fin.ext (by have := p.isLt; omega)
  have hr := fun j => row3_eq V c j t.val t.isLt
  have hq : (∃ j : Fin 512, q = lo3 j) ∨ (∃ j : Fin 512, q = hi3 j) := by
    by_cases h : q.val < 512
    · exact .inl ⟨⟨q.val, h⟩, Fin.ext rfl⟩
    · exact .inr ⟨⟨q.val - 512, by have := q.isLt; omega⟩, Fin.ext (by show q.val = 512 + (q.val - 512); omega)⟩
  rcases hq with ⟨j, rfl⟩ | ⟨j, rfl⟩
  · rw [(hr j).1, h24, stats3_lo]; exact tsum3_all V c j
  · rw [(hr j).2, h24, stats3_hi]; exact tsq3_all V c j

/-- The statistics array after the region is the whole statistics row. -/
theorem stats_arr3 (c : Dev nD) : (dat3 V c).arrAt 4 cfg3.N = stats3 (Z3 V c) :=
  (dat3 V c).arrAt_eq_of_cover 4 (stats3 (Z3 V c)) (fun t hf => flushed3_4_eq V c t hf) cover3_4

/-- Column by column: the first half holds the column sums of the product, the second those of its squares. -/
theorem stats_eq3 (c : Dev nD) (j : Fin 512) :
    (dat3 V c).arrAt 4 cfg3.N (ix2 0 (lo3 j)) = Spec.colSum (Z3 V c) j
    ∧ (dat3 V c).arrAt 4 cfg3.N (ix2 0 (hi3 j)) = Spec.colSumSq (Z3 V c) j := by
  rw [stats_arr3]
  exact ⟨stats3_lo _ j, stats3_hi _ j⟩

end Cert.KernelIdeal.HandValue

end
-- ==== Proof.KI.Val4.lean ====
/-
  The value of the second stage's region, at the extended reals.

  The region walks 50000 rows in 25 tiles of 2000. At each tile it normalises the tile's rows with a
  mean row, a variance row, a gain row and a bias row, rectifies them, multiplies by the weights, and
  stores the tile's product; it adds the product's column sums and column sums of squares to a
  one-row accumulator (zeroed before the first tile), and after the last tile copies the accumulator
  out. This module reads that off: the product array is the specification's `mm (bnRelu …) w`, and the
  statistics row holds its column sums and column sums of squares over all rows. Addition of extended
  reals is commutative and associative, so regrouping the tiles' partial sums needs no finiteness.
-/
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import proofs.«427833_j20194936226511_1_alg».proof.Proof.Spec
import proofs.«427833_j20194936226511_1_alg».proof.Proof.KI.Reg4
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Mathlib.Algebra.BigOperators.Fin
import Mathlib.Logic.Equiv.Fin.Basic

noncomputable section

namespace Cert.KernelIdeal.HandValue

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)
open scoped BigOperators

/-! ## The product's operand indices, coordinate by coordinate

The product contracts the left operand's second axis with the right operand's first: at the output
index `(r, j)` and the contraction position `l` it reads the left operand at `(r, l)` and the right
operand at `(l, j)`. -/

theorem k4_dot_lhs_0 (j : S2000x256.Idx) (k : dot_S2000x512_S512x256_S2000x256_1_0_0_1_n_n.contr.Idx) :
    (dot_S2000x512_S512x256_S2000x256_1_0_0_1_n_n.lhsIdx j k 0 : ℕ) = j 0 := by
  simp [DotDims.lhsIdx, dot_S2000x512_S512x256_S2000x256_1_0_0_1_n_n] <;> rfl
theorem k4_dot_lhs_1 (j : S2000x256.Idx) (k : dot_S2000x512_S512x256_S2000x256_1_0_0_1_n_n.contr.Idx) :
    (dot_S2000x512_S512x256_S2000x256_1_0_0_1_n_n.lhsIdx j k 1 : ℕ) = k ⟨0, by decide⟩ := by
  simp [DotDims.lhsIdx, dot_S2000x512_S512x256_S2000x256_1_0_0_1_n_n] <;> rfl
theorem k4_dot_rhs_0 (j : S2000x256.Idx) (k : dot_S2000x512_S512x256_S2000x256_1_0_0_1_n_n.contr.Idx) :
    (dot_S2000x512_S512x256_S2000x256_1_0_0_1_n_n.rhsIdx j k 0 : ℕ) = k ⟨0, by decide⟩ := by
  simp [DotDims.rhsIdx, dot_S2000x512_S512x256_S2000x256_1_0_0_1_n_n] <;> rfl
theorem k4_dot_rhs_1 (j : S2000x256.Idx) (k : dot_S2000x512_S512x256_S2000x256_1_0_0_1_n_n.contr.Idx) :
    (dot_S2000x512_S512x256_S2000x256_1_0_0_1_n_n.rhsIdx j k 1 : ℕ) = j 1 := by
  simp [DotDims.rhsIdx, dot_S2000x512_S512x256_S2000x256_1_0_0_1_n_n] <;> rfl

/-- A product into the zero accumulator, read at `(r, j)`: the sum over the contracted axis. -/
theorem k4_matmul_apply (a : FVec Ideal S2000x512 .bf16) (w : FVec Ideal S512x256 .bf16) (r : Fin 2000) (j : Fin 256) :
    matmul (F := Ideal) dot_S2000x512_S512x256_S2000x256_1_0_0_1_n_n none a w (constant S2000x256 .f32 0x00000000#32) (ix2 r j)
      = ∑ l : Fin 512, a (ix2 r l) * w (ix2 l j) := by
  refine (Ideal.matmul_constant_zero_apply dot_S2000x512_S512x256_S2000x256_1_0_0_1_n_n none a w (ix2 r j)).trans ?_
  rw [← Equiv.sum_comp (contrEquiv1 dot_S2000x512_S512x256_S2000x256_1_0_0_1_n_n 512 rfl rfl).symm]
  refine Finset.sum_congr rfl fun l _ => ?_
  have hk := contrEquiv1_symm_val dot_S2000x512_S512x256_S2000x256_1_0_0_1_n_n 512 rfl rfl l
  refine congrArg₂ (· * ·) (congrArg a (funext fun ax => Fin.ext ?_)) (congrArg w (funext fun ax => Fin.ext ?_))
  · match ax with
    | ⟨0, _⟩ => exact k4_dot_lhs_0 _ _
    | ⟨1, _⟩ => exact (k4_dot_lhs_1 _ _).trans hk
  · match ax with
    | ⟨0, _⟩ => exact (k4_dot_rhs_0 _ _).trans hk
    | ⟨1, _⟩ => exact k4_dot_rhs_1 _ _

/-! ## The payloads at an index -/

/-- The tile's product at `(r, j)`: the sum over `l` of the normalised, rectified entry `(r, l)` of the
    block (gain `g`, mean `mu`, variance `var`, bias `b`, each one row) times the weight `(l, j)`. The
    change of float format in between is the identity on the extended reals. -/
theorem k4_pay4_apply (z : Vec Ideal S2000x512 .f32) (g mu var b : Vec Ideal S1x512 .f32) (w : Vec Ideal S512x256 .bf16)
    (r : Fin 2000) (j : Fin 256) :
    k4_pay4 (F := Ideal) z g mu var b w (ix2 r j)
      = ∑ l : Fin 512, max (g (ix2 0 l) * (z (ix2 r l) - mu (ix2 0 l)) * Ideal.rsqrt (var (ix2 0 l) + Spec.bnEps) + b (ix2 0 l)) Spec.zero
          * w (ix2 l j) := by
  unfold k4_pay4
  refine (k4_matmul_apply _ _ r j).trans ?_
  refine Finset.sum_congr rfl fun l _ => ?_
  simp only [shapeCast_self]
  refine congrArg₂ (· * ·) ?_ rfl
  show max (broadcastTo S2000x512 g broadcasts_S1x512_S2000x512 (ix2 r l)
        * (z (ix2 r l) - broadcastTo S2000x512 mu broadcasts_S1x512_S2000x512 (ix2 r l))
        * broadcastTo S2000x512 (rsqrt (F := Ideal) (addf (F := Ideal) var (broadcast S1x512 (Scalar.ofBits (F := Ideal) .f32 0x3727C5AC#32)))) broadcasts_S1x512_S2000x512 (ix2 r l)
        + broadcastTo S2000x512 b broadcasts_S1x512_S2000x512 (ix2 r l)) (Scalar.ofBits (F := Ideal) .f32 0x00000000#32) = _
  rw [broadcastTo_1b_ab_apply g, broadcastTo_1b_ab_apply mu, broadcastTo_1b_ab_apply b, broadcastTo_1b_ab_apply (rsqrt (F := Ideal) _)]
  rfl

/-- The tile's column sums, as a row: at `(0, j)` the sum of the tile's product over its rows. -/
theorem k4_pay5_apply (z : Vec Ideal S2000x512 .f32) (g mu var b : Vec Ideal S1x512 .f32) (w : Vec Ideal S512x256 .bf16) (j : Fin 256) :
    k4_pay5 (F := Ideal) z g mu var b w (ix2 0 j) = ∑ r : Fin 2000, k4_pay4 (F := Ideal) z g mu var b w (ix2 r j) := by
  refine (shapeCast_a_1a_apply (multiReduction (F := Ideal) .add [0] S256 (k4_pay4 z g mu var b w) 0x00000000#32 reduces_S2000x256_S256 (.inl rfl) rfl)
    shapeCasts_S256_S1x256 0 j).trans ?_
  refine (Ideal.multiReduction_add_single (k4_pay4 (F := Ideal) z g mu var b w) 0x00000000#32 reduces_S2000x256_S256 (.inl rfl) rfl (ix1 j)).trans ?_
  refine Finset.sum_congr rfl fun r _ => congrArg (k4_pay4 (F := Ideal) z g mu var b w) ?_
  funext c; match c with | ⟨0, _⟩ => rfl | ⟨1, _⟩ => rfl

/-- The tile's column sums of squares, as a row. -/
theorem k4_pay6_apply (z : Vec Ideal S2000x512 .f32) (g mu var b : Vec Ideal S1x512 .f32) (w : Vec Ideal S512x256 .bf16) (j : Fin 256) :
    k4_pay6 (F := Ideal) z g mu var b w (ix2 0 j)
      = ∑ r : Fin 2000, k4_pay4 (F := Ideal) z g mu var b w (ix2 r j) * k4_pay4 (F := Ideal) z g mu var b w (ix2 r j) := by
  refine (shapeCast_a_1a_apply (multiReduction (F := Ideal) .add [0] S256 (mulf (k4_pay4 z g mu var b w) (k4_pay4 z g mu var b w)) 0x00000000#32 reduces_S2000x256_S256 (.inl rfl) rfl)
    shapeCasts_S256_S1x256 0 j).trans ?_
  refine (Ideal.multiReduction_add_single (mulf (k4_pay4 (F := Ideal) z g mu var b w) (k4_pay4 (F := Ideal) z g mu var b w)) 0x00000000#32 reduces_S2000x256_S256 (.inl rfl) rfl (ix1 j)).trans ?_
  refine Finset.sum_congr rfl fun r _ => ?_
  have e : reduces_S2000x256_S256.lift (ix1 j) r = ix2 r j := by
    funext c; match c with | ⟨0, _⟩ => rfl | ⟨1, _⟩ => rfl
  rw [e]; rfl

/-- The accumulator's first half after a tile: what it held plus the tile's row of sums. -/
theorem k4_pay1_apply (row : FVec Ideal S1x256 .f32) (acc : Vec Ideal S1x256 .f32) (i : S1x256.Idx) :
    k4_pay1 (F := Ideal) row acc i = acc i + row i :=
  congrFun (shapeCast_self (addf (F := Ideal) acc row) shapeCasts_S1x256_S1x256) i

/-- The accumulator's second half after a tile: what it held plus the tile's row of sums of squares. -/
theorem k4_pay2_apply (row : FVec Ideal S1x256 .f32) (acc : Vec Ideal S1x256 .f32) (i : S1x256.Idx) :
    k4_pay2 (F := Ideal) row acc i = acc i + row i :=
  congrFun (shapeCast_self (addf (F := Ideal) acc row) shapeCasts_S1x256_S1x256) i

/-- The accumulator's reset: the zero word everywhere. -/
theorem k4_pay3_apply (i : S1x512.Idx) : k4_pay3 (F := Ideal) i = Spec.zero :=
  congrFun (shapeCast_self (broadcast S1x512 (Scalar.ofBits (F := Ideal) .f32 0x00000000#32)) shapeCasts_S1x512_S1x512) i

/-! ## Regrouping: the tiles' partial sums are the sum over all rows

The grid walks the rows in 25 tiles of 2000; row `r` of tile `t` is row `2000 t + r`. A sum over all
50000 rows is the sum over the tiles of the sums over a tile's rows: addition of extended reals is
commutative and associative, so no finiteness is needed. -/

/-- Row `r` of tile `t`. -/
def k4_rowOf (t : Fin 25) (r : Fin 2000) : Fin 50000 :=
  ⟨2000 * t.val + r.val, by have := t.isLt; have := r.isLt; omega⟩

theorem k4_rowOf_val (t : Fin 25) (r : Fin 2000) : (k4_rowOf t r).val = 2000 * t.val + r.val := rfl

theorem k4_sum_tiles (f : Fin 50000 → EReal) :
    ∑ t : Fin 25, ∑ r : Fin 2000, f (k4_rowOf t r) = ∑ i : Fin 50000, f i := by
  refine (Fintype.sum_prod_type' (fun t r => f (k4_rowOf t r))).symm.trans ?_
  refine Fintype.sum_equiv ((finProdFinEquiv (m := 25) (n := 2000)).trans (finCongr (by norm_num))) _ _ fun x => ?_
  refine congrArg f (Fin.ext ?_)
  simp [k4_rowOf, finProdFinEquiv]
  omega

/-- The sum of `f` over tile `t`'s rows; zero past the last tile. -/
def k4_tileSum (f : Fin 50000 → EReal) (t : ℕ) : EReal :=
  if h : t < 25 then ∑ r : Fin 2000, f (k4_rowOf ⟨t, h⟩ r) else 0

theorem k4_tileSum_of_lt (f : Fin 50000 → EReal) (t : ℕ) (h : t < 25) :
    k4_tileSum f t = ∑ r : Fin 2000, f (k4_rowOf ⟨t, h⟩ r) := dif_pos h

/-- The 25 tiles' sums, added in the grid's order, are the sum over all rows. -/
theorem k4_sum_range_tiles (f : Fin 50000 → EReal) :
    ∑ t ∈ Finset.range 25, k4_tileSum f t = ∑ i : Fin 50000, f i := by
  rw [Finset.sum_range]
  exact (Finset.sum_congr rfl fun t _ => k4_tileSum_of_lt f t.val t.isLt).trans (k4_sum_tiles f)

/-! ## One point, against the whole arrays

Over variables: the blocks `x0 … x5` the body loads at a point, and the arrays `M0 … M5` they are blocks
of. Tile `n`'s block of the first operand holds rows `2000 n …` of its array; the five other operands
are whole. -/

section Point
variable (x0 : Vec Ideal S2000x512 .f32) (x1 x2 x3 x4 : Vec Ideal S1x512 .f32) (x5 : Vec Ideal S512x256 .bf16)
variable (M0 : Spec.Mx 50000 512) (M1 M2 M3 M4 : Spec.Mx 1 512) (M5 : Spec.Mx 512 256)

/-- The whole product: the rows normalised with mean `M1`, variance `M2`, gain `M3`, bias `M4`,
    rectified, times the weights. -/
abbrev k4_prod : Spec.Mx 50000 256 :=
  Spec.mm (Spec.bnRelu M0 (fun l => M1 (ix2 0 l)) (fun l => M2 (ix2 0 l)) (fun l => M3 (ix2 0 l)) (fun l => M4 (ix2 0 l))) M5

/-- The tile's product at `(r, j)` is the whole product at the tile's row. (The body passes the gain
    first, then the mean, the variance and the bias.) -/
theorem k4_point4 (r : Fin 2000) (j : Fin 256) (ir : Fin 50000)
    (h0 : ∀ l : Fin 512, x0 (ix2 r l) = M0 (ix2 ir l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ l : Fin 512, x5 (ix2 l j) = M5 (ix2 l j)) :
    k4_pay4 (F := Ideal) x0 x3 x1 x2 x4 x5 (ix2 r j) = k4_prod M0 M1 M2 M3 M4 M5 (ix2 ir j) := by
  rw [k4_pay4_apply]
  show _ = ∑ l : Fin 512, max (M3 (ix2 0 l) * (M0 (ix2 ir l) - M1 (ix2 0 l)) * Ideal.rsqrt (M2 (ix2 0 l) + Spec.bnEps) + M4 (ix2 0 l)) Spec.zero
      * M5 (ix2 l j)
  refine Finset.sum_congr rfl fun l _ => ?_
  rw [h0, h1, h2, h3, h4, h5]

/-- Tile `n`'s row of column sums is the sum of the whole product's column over the tile's rows. -/
theorem k4_point5 (n : ℕ) (hn : n < 25) (j : Fin 256)
    (h0 : ∀ (r : Fin 2000) (l : Fin 512), x0 (ix2 r l) = M0 (ix2 (k4_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 256), x5 (ix2 l j) = M5 (ix2 l j)) :
    k4_pay5 (F := Ideal) x0 x3 x1 x2 x4 x5 (ix2 0 j) = k4_tileSum (fun i => k4_prod M0 M1 M2 M3 M4 M5 (ix2 i j)) n := by
  rw [k4_pay5_apply, k4_tileSum_of_lt _ n hn]
  exact Finset.sum_congr rfl fun r _ =>
    k4_point4 x0 x1 x2 x3 x4 x5 M0 M1 M2 M3 M4 M5 r j (k4_rowOf ⟨n, hn⟩ r) (h0 r) h1 h2 h3 h4 (fun l => h5 l j)

/-- Tile `n`'s row of column sums of squares likewise. -/
theorem k4_point6 (n : ℕ) (hn : n < 25) (j : Fin 256)
    (h0 : ∀ (r : Fin 2000) (l : Fin 512), x0 (ix2 r l) = M0 (ix2 (k4_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 256), x5 (ix2 l j) = M5 (ix2 l j)) :
    k4_pay6 (F := Ideal) x0 x3 x1 x2 x4 x5 (ix2 0 j)
      = k4_tileSum (fun i => k4_prod M0 M1 M2 M3 M4 M5 (ix2 i j) * k4_prod M0 M1 M2 M3 M4 M5 (ix2 i j)) n := by
  rw [k4_pay6_apply, k4_tileSum_of_lt _ n hn]
  refine Finset.sum_congr rfl fun r _ => ?_
  rw [k4_point4 x0 x1 x2 x3 x4 x5 M0 M1 M2 M3 M4 M5 r j (k4_rowOf ⟨n, hn⟩ r) (h0 r) h1 h2 h3 h4 (fun l => h5 l j)]

end Point

/-! ## The accumulator row

The row has two halves: the first carries the sums, the second the sums of squares. -/

/-- Column `j` of the first half. -/
def k4_lo (j : Fin 256) : Fin 512 := ⟨j.val, by have := j.isLt; omega⟩
/-- Column `j` of the second half. -/
def k4_hi (j : Fin 256) : Fin 512 := ⟨256 + j.val, by have := j.isLt; omega⟩

/-- The row holds the first `n` tiles' sums of `Z`'s columns and of their squares. -/
def k4_AccIs (Z : Spec.Mx 50000 256) (n : ℕ) (acc : Vec Ideal S1x512 .f32) : Prop :=
  ∀ j : Fin 256,
    acc (ix2 0 (k4_lo j)) = ∑ t ∈ Finset.range n, k4_tileSum (fun i => Z (ix2 i j)) t
    ∧ acc (ix2 0 (k4_hi j)) = ∑ t ∈ Finset.range n, k4_tileSum (fun i => Z (ix2 i j) * Z (ix2 i j)) t

/-- After the first tile: the zero word plus the tile's rows. -/
theorem k4_AccIs_first (Z : Spec.Mx 50000 256) (acc : Vec Ideal S1x512 .f32) (row5 row6 : FVec Ideal S1x256 .f32)
    (hlo : ∀ j : Fin 256, acc (ix2 0 (k4_lo j)) = Spec.zero + row5 (ix2 0 j))
    (hhi : ∀ j : Fin 256, acc (ix2 0 (k4_hi j)) = Spec.zero + row6 (ix2 0 j))
    (h5 : ∀ j : Fin 256, row5 (ix2 0 j) = k4_tileSum (fun i => Z (ix2 i j)) 0)
    (h6 : ∀ j : Fin 256, row6 (ix2 0 j) = k4_tileSum (fun i => Z (ix2 i j) * Z (ix2 i j)) 0) :
    k4_AccIs Z 1 acc := fun j => by
  have hz : Spec.zero = 0 := Ideal.ofBits_zero_f32
  rw [hlo, hhi, h5, h6, hz, zero_add, zero_add, Finset.sum_range_one, Finset.sum_range_one]
  exact ⟨rfl, rfl⟩

/-- After a later tile: what the row held plus the tile's rows. -/
theorem k4_AccIs_next (Z : Spec.Mx 50000 256) (n : ℕ) (acc acc' : Vec Ideal S1x512 .f32) (row5 row6 : FVec Ideal S1x256 .f32)
    (h : k4_AccIs Z n acc)
    (hlo : ∀ j : Fin 256, acc' (ix2 0 (k4_lo j)) = acc (ix2 0 (k4_lo j)) + row5 (ix2 0 j))
    (hhi : ∀ j : Fin 256, acc' (ix2 0 (k4_hi j)) = acc (ix2 0 (k4_hi j)) + row6 (ix2 0 j))
    (h5 : ∀ j : Fin 256, row5 (ix2 0 j) = k4_tileSum (fun i => Z (ix2 i j)) n)
    (h6 : ∀ j : Fin 256, row6 (ix2 0 j) = k4_tileSum (fun i => Z (ix2 i j) * Z (ix2 i j)) n) :
    k4_AccIs Z (n + 1) acc' := fun j => by
  rw [hlo, hhi, h5, h6, (h j).1, (h j).2, Finset.sum_range_succ, Finset.sum_range_succ]
  exact ⟨rfl, rfl⟩

/-- After the last tile the row holds the column sums and the column sums of squares. -/
theorem k4_AccIs_last (Z : Spec.Mx 50000 256) (acc : Vec Ideal S1x512 .f32) (h : k4_AccIs Z 25 acc) (j : Fin 256) :
    acc (ix2 0 (k4_lo j)) = Spec.colSum Z j ∧ acc (ix2 0 (k4_hi j)) = Spec.colSumSq Z j := by
  rw [(h j).1, (h j).2, k4_sum_range_tiles, k4_sum_range_tiles]
  exact ⟨rfl, rfl⟩

/-! ## The accumulator row's two halves, as rectangles -/

theorem k4_hz : (![0, 0] : Fin 2 → Nat) = fun _ => 0 := funext fun a => by fin_cases a <;> rfl

/-- The first half of the row. -/
abbrev k4_rLo : Rect S1x512 := Rect.unit (s := S1x512) ![0, 0] S1x256.size inb_S1x512_S1x256_0_0
/-- The second half of the row. -/
abbrev k4_rHi : Rect S1x512 := Rect.unit (s := S1x512) ![0, 256] S1x256.size inb_S1x512_S1x256_0_256
/-- The whole row. -/
abbrev k4_rAll : Rect S1x512 := Rect.unit (s := S1x512) ![0, 0] S1x512.size inb_S1x512_S1x512_0_0

/-- Column `j` of the first half sits at column `j` of the row. -/
theorem k4_rLo_emb (j : Fin 256) : k4_rLo.emb (ix2 (0 : Fin 1) j) = ix2 (0 : Fin 1) (k4_lo j) := by
  funext a; apply Fin.ext
  match a with
  | ⟨0, _⟩ => rfl
  | ⟨1, _⟩ => show 0 + 1 * j.val = j.val; omega

/-- Column `j` of the second half sits `j` columns past the first half. -/
theorem k4_rHi_emb (j : Fin 256) : k4_rHi.emb (ix2 (0 : Fin 1) j) = ix2 (0 : Fin 1) (k4_hi j) := by
  funext a; apply Fin.ext
  match a with
  | ⟨0, _⟩ => rfl
  | ⟨1, _⟩ => show 256 + 1 * j.val = 256 + j.val; omega

/-- The whole row's rectangle places every index at itself. -/
theorem k4_rAll_idx (y : S1x512.Idx) : k4_rAll.toLoadRect.idx y = y := by
  funext a; apply Fin.ext
  match a with
  | ⟨0, _⟩ => show 0 + 1 * (y 0).val = (y 0).val; omega
  | ⟨1, _⟩ => show 0 + 1 * (y 1).val = (y 1).val; omega

/-- A column of the first half is not in the second half's rectangle … -/
theorem k4_lo_not_mem_hi (j : Fin 256) : (ix2 (0 : Fin 1) (k4_lo j) : S1x512.Idx) ∉ k4_rHi.set := by
  rw [Rect.mem_set_unit]
  intro h
  have h1 : 256 ≤ j.val := (h 1).1
  have := j.isLt; omega

/-- … and a column of the second half is not in the first half's. -/
theorem k4_hi_not_mem_lo (j : Fin 256) : (ix2 (0 : Fin 1) (k4_hi j) : S1x512.Idx) ∉ k4_rLo.set := by
  rw [Rect.mem_set_unit]
  intro h
  have h1 : 256 + j.val < 0 + 256 := (h 1).2
  omega

section Canon
variable {F : FTy → Type} [FloatOps F]

/-- After the two half stores (the second half's last), the row's second half reads the second store's payload … -/
theorem k4_canon_hi (wHi wLo : Vec F S1x256 .f32) (L : List (View.Piece (Elt F) S1x512 .f32)) (j : Fin 256) :
    View.canon ((⟨k4_rHi, wHi⟩ : View.Piece (Elt F) S1x512 .f32) :: ⟨k4_rLo, wLo⟩ :: L) (ix2 (0 : Fin 1) (k4_hi j)) = wHi (ix2 (0 : Fin 1) j) := by
  rw [← k4_rHi_emb j]
  exact View.canon_cons_emb k4_rHi wHi _ (ix2 (0 : Fin 1) j)

/-- … and its first half the first store's. -/
theorem k4_canon_lo (wHi wLo : Vec F S1x256 .f32) (L : List (View.Piece (Elt F) S1x512 .f32)) (j : Fin 256) :
    View.canon ((⟨k4_rHi, wHi⟩ : View.Piece (Elt F) S1x512 .f32) :: ⟨k4_rLo, wLo⟩ :: L) (ix2 (0 : Fin 1) (k4_lo j)) = wLo (ix2 (0 : Fin 1) j) := by
  refine (View.canon_cons_of_not_mem (⟨k4_rHi, wHi⟩ : View.Piece (Elt F) S1x512 .f32) (⟨k4_rLo, wLo⟩ :: L) (k4_lo_not_mem_hi j)).trans ?_
  rw [← k4_rLo_emb j]
  exact View.canon_cons_emb k4_rLo wLo L (ix2 (0 : Fin 1) j)

/-- A load of the first half reads the row's first half … -/
theorem k4_ld_lo (xs : Vec F S1x512 .f32) (j : Fin 256) : View.ld xs k4_rLo (ix2 (0 : Fin 1) j) = xs (ix2 (0 : Fin 1) (k4_lo j)) :=
  congrArg xs (k4_rLo_emb j)
/-- … and a load of the second half its second half. -/
theorem k4_ld_hi (xs : Vec F S1x512 .f32) (j : Fin 256) : View.ld xs k4_rHi (ix2 (0 : Fin 1) j) = xs (ix2 (0 : Fin 1) (k4_hi j)) :=
  congrArg xs (k4_rHi_emb j)

/-- A load of the first half after the zeroing store alone reads the zero row … -/
theorem k4_readCov_lo_zero {sg : RefSig} {κ : Kind} {sp : Space} (v : View sg κ sp S1x512 .f32) (w0 : Vec F S1x512 .f32) (j : Fin 256) :
    v.readCov [(⟨k4_rAll, w0⟩ : View.Piece (Elt F) S1x512 .f32)] k4_rLo.toLoadRect (ix2 (0 : Fin 1) j) = w0 (ix2 (0 : Fin 1) (k4_lo j)) := by
  rw [View.readCov_eq_canon', View.canon_unit_zero k4_hz]
  exact congrArg w0 (k4_rLo_emb j)

/-- … and a load of the second half after the zeroing store and the first half's store still reads the zero row. -/
theorem k4_readCov_hi_zero {sg : RefSig} {κ : Kind} {sp : Space} (v : View sg κ sp S1x512 .f32) (wLo : Vec F S1x256 .f32) (w0 : Vec F S1x512 .f32) (j : Fin 256) :
    v.readCov [(⟨k4_rLo, wLo⟩ : View.Piece (Elt F) S1x512 .f32), ⟨k4_rAll, w0⟩] k4_rHi.toLoadRect (ix2 (0 : Fin 1) j) = w0 (ix2 (0 : Fin 1) (k4_hi j)) := by
  rw [View.readCov_eq_canon']
  show View.canon _ (k4_rHi.emb (ix2 (0 : Fin 1) j)) = _
  rw [k4_rHi_emb j]
  refine (View.canon_cons_of_not_mem (⟨k4_rLo, wLo⟩ : View.Piece (Elt F) S1x512 .f32) [⟨k4_rAll, w0⟩] (k4_hi_not_mem_lo j)).trans ?_
  rw [View.canon_unit_zero k4_hz]

/-- A load of the whole row after a list of stores reads what they leave. -/
theorem k4_readCov_all {sg : RefSig} {κ : Kind} {sp : Space} (v : View sg κ sp S1x512 .f32) (L : List (View.Piece (Elt F) S1x512 .f32)) :
    v.readCov L k4_rAll.toLoadRect = View.canon L := by
  rw [View.readCov_eq_canon']
  funext y
  exact congrArg (View.canon L) (k4_rAll_idx y)

end Canon

/-! ## The index maps over the grid, and the blocks of the two output arrays -/

/-- The first operand's and the product's blocks are the point's block of rows; every other block is its whole
    array. -/
theorem k4_idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0 :=
  (by decide +kernel : ∀ t : Fin grid4.N, _)

/-- A grid point as a tile number. -/
def k4_tile (t : Fin cfg4.N) : Fin 25 := ⟨t.val, by have hN : cfg4.N = 25 := N_4; have := t.isLt; omega⟩

/-- The last grid point. -/
def k4_tLast : Fin cfg4.N := ⟨24, by have hN : cfg4.N = 25 := N_4; omega⟩

/-- An index of the product array is in point `t`'s block iff each coordinate is in the block's range on its axis. -/
theorem k4_mem_blk6 (t : Fin cfg4.N) (i : S50000x256.Idx) :
    i ∈ ((cfg4.win 6).blk t).view.set ↔ ∀ a : Fin 2, win4_6.index t a * S2000x256.size a ≤ (i a).val
      ∧ (i a).val < win4_6.index t a * S2000x256.size a + S2000x256.size a := by
  show i ∈ ((View.whole (Pipeline.arrRef spec4 6)).slice (win4_6.rect t)).set ↔ _
  rw [View.set_slice_whole, Rect.mem_set_unit]
  exact Iff.rfl

/-- The point whose block holds a row: the row's number over the rows in a block. -/
theorem k4_pt_lt (i : S50000x256.Idx) : (i 0).val / 2000 < cfg4.N := by
  have hi0 : (i 0).val < 50000 := (i 0).isLt
  show (i 0).val / 2000 < grid4.N
  rw [N_4]; omega

/-- Every index of the product array is in some point's block, and every point writes its block back. -/
theorem k4_cover6 (i : S50000x256.Idx) :
    ∃ t : Fin cfg4.N, (cfg4.win 6).flush t = true ∧ i ∈ ((cfg4.win 6).blk t).view.set := by
  have hi1 : (i 1).val < 256 := (i 1).isLt
  obtain ⟨t, ht⟩ : ∃ t : Fin cfg4.N, t.val = (i 0).val / 2000 := ⟨⟨_, k4_pt_lt i⟩, rfl⟩
  obtain ⟨-, -, -, -, -, -, -, -, -, -, -, -, e60, e61, -, -⟩ := k4_idx_facts t
  refine ⟨t, flush4_6 t, ?_⟩
  rw [k4_mem_blk6]
  intro a
  match a with
  | ⟨0, _⟩ =>
    show win4_6.index t (0 : Fin 2) * 2000 ≤ (i 0).val ∧ (i 0).val < win4_6.index t (0 : Fin 2) * 2000 + 2000
    rw [e60, ht]; omega
  | ⟨1, _⟩ =>
    show win4_6.index t (1 : Fin 2) * 256 ≤ (i 1).val ∧ (i 1).val < win4_6.index t (1 : Fin 2) * 256 + 256
    rw [e61]; omega

/-- An index of the statistics row is in point `t`'s block iff each coordinate is in the block's range. -/
theorem k4_mem_blk7 (t : Fin cfg4.N) (i : S1x512.Idx) :
    i ∈ ((cfg4.win 7).blk t).view.set ↔ ∀ a : Fin 2, win4_7.index t a * S1x512.size a ≤ (i a).val
      ∧ (i a).val < win4_7.index t a * S1x512.size a + S1x512.size a := by
  show i ∈ ((View.whole (Pipeline.arrRef spec4 7)).slice (win4_7.rect t)).set ↔ _
  rw [View.set_slice_whole, Rect.mem_set_unit]
  exact Iff.rfl

/-- The last point writes the statistics row back, and its block is the whole row. -/
theorem k4_cover7 (i : S1x512.Idx) :
    ∃ t : Fin cfg4.N, (cfg4.win 7).flush t = true ∧ i ∈ ((cfg4.win 7).blk t).view.set := by
  have hi0 : (i 0).val < 1 := (i 0).isLt
  have hi1 : (i 1).val < 512 := (i 1).isLt
  obtain ⟨-, -, -, -, -, -, -, -, -, -, -, -, -, -, e70, e71⟩ := k4_idx_facts k4_tLast
  refine ⟨k4_tLast, (flush4_7 k4_tLast).mpr (by show 24 % 25 = 24; rfl), ?_⟩
  rw [k4_mem_blk7]
  intro a
  match a with
  | ⟨0, _⟩ =>
    show win4_7.index k4_tLast (0 : Fin 2) * 1 ≤ (i 0).val ∧ (i 0).val < win4_7.index k4_tLast (0 : Fin 2) * 1 + 1
    rw [e70]; omega
  | ⟨1, _⟩ =>
    show win4_7.index k4_tLast (1 : Fin 2) * 512 ≤ (i 1).val ∧ (i 1).val < win4_7.index k4_tLast (1 : Fin 2) * 512 + 512
    rw [e71]; omega

/-! ## What each case of the body leaves, read back as payloads

The body's run in each case names the pieces it stored (last store first). Read over nothing, they are
their canon; each load the payloads took is the loaded buffer's contents, or, for a load of the
accumulator after a store into it, what the stores before it left there. -/

open Cert.KernelIdeal.Hand

section Pieces
variable (c : Dev nD) (i : grid4.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole)
  (x0 : Vec Ideal S2000x512 .f32) (x1 x2 x3 x4 : Vec Ideal S1x512 .f32) (x5 : Vec Ideal S512x256 .bf16)

/-- At the first point the product window holds the tile's product. -/
theorem k4_out_A_6 (hc0 : cond4_0 i) (hc1 : ¬cond4_1 i) :
    out4_A_6 c i arg1 harg1 arg2 harg2 arg3 harg3 arg4 harg4 arg5 harg5 arg6 harg6 arg7 harg7 arg8 harg8 arg9 harg9 hc0 hc1 x0 x1 x2 x3 x4 x5 = k4_pay4 (F := Ideal) x0 x3 x1 x2 x4 x5 := by
  unfold out4_A_6
  rw [View.read_writes_junk_eq_canon]
  unfold kernelRun4_A
  dsimp only
  sl_unfold_words
  rw [View.canon_unit_zero k4_hz]
  simp only [View.readAt_eq_ld, harg1.read_unread, harg2.read_unread, harg3.read_unread, harg4.read_unread, harg5.read_unread, harg6.read_unread,
    View.ld_unit_zero (S := S2000x512) k4_hz, View.ld_unit_zero (S := S1x512) k4_hz, View.ld_unit_zero (S := S512x256) k4_hz] <;> rfl

/-- At the first point the accumulator's first half holds the zero word plus the tile's column sums … -/
theorem k4_sout_A_lo (hc0 : cond4_0 i) (hc1 : ¬cond4_1 i) (j : Fin 256) :
    sout4_A_0 c i arg1 harg1 arg2 harg2 arg3 harg3 arg4 harg4 arg5 harg5 arg6 harg6 arg7 harg7 arg8 harg8 arg9 harg9 hc0 hc1 x0 x1 x2 x3 x4 x5 (ix2 (0 : Fin 1) (k4_lo j))
      = Spec.zero + k4_pay5 (F := Ideal) x0 x3 x1 x2 x4 x5 (ix2 (0 : Fin 1) j) := by
  unfold sout4_A_0
  rw [View.read_writes_junk_eq_canon]
  unfold kernelRun4_A
  dsimp only
  sl_unfold_words
  simp only [View.readAt_eq_ld, harg1.read_unread, harg2.read_unread, harg3.read_unread, harg4.read_unread, harg5.read_unread, harg6.read_unread,
    View.ld_unit_zero (S := S2000x512) k4_hz, View.ld_unit_zero (S := S1x512) k4_hz, View.ld_unit_zero (S := S512x256) k4_hz]
  refine (k4_canon_lo _ _ _ j).trans ?_
  refine (k4_pay1_apply _ _ _).trans ?_
  exact congrArg (· + _) ((k4_readCov_lo_zero _ _ j).trans (k4_pay3_apply _))

/-- … and its second half the zero word plus the tile's column sums of squares. -/
theorem k4_sout_A_hi (hc0 : cond4_0 i) (hc1 : ¬cond4_1 i) (j : Fin 256) :
    sout4_A_0 c i arg1 harg1 arg2 harg2 arg3 harg3 arg4 harg4 arg5 harg5 arg6 harg6 arg7 harg7 arg8 harg8 arg9 harg9 hc0 hc1 x0 x1 x2 x3 x4 x5 (ix2 (0 : Fin 1) (k4_hi j))
      = Spec.zero + k4_pay6 (F := Ideal) x0 x3 x1 x2 x4 x5 (ix2 (0 : Fin 1) j) := by
  unfold sout4_A_0
  rw [View.read_writes_junk_eq_canon]
  unfold kernelRun4_A
  dsimp only
  sl_unfold_words
  simp only [View.readAt_eq_ld, harg1.read_unread, harg2.read_unread, harg3.read_unread, harg4.read_unread, harg5.read_unread, harg6.read_unread,
    View.ld_unit_zero (S := S2000x512) k4_hz, View.ld_unit_zero (S := S1x512) k4_hz, View.ld_unit_zero (S := S512x256) k4_hz]
  refine (k4_canon_hi _ _ _ j).trans ?_
  refine (k4_pay2_apply _ _ _).trans ?_
  exact congrArg (· + _) ((k4_readCov_hi_zero _ _ _ j).trans (k4_pay3_apply _))

/-- At a point between the product window holds the tile's product. -/
theorem k4_out_B_6 (hc0 : ¬cond4_0 i) (hc1 : ¬cond4_1 i) (xs0 : Vec Ideal S1x512 .f32) :
    out4_B_6 c i arg1 harg1 arg2 harg2 arg3 harg3 arg4 harg4 arg5 harg5 arg6 harg6 arg7 harg7 arg8 harg8 arg9 harg9 hc0 hc1 x0 x1 x2 x3 x4 x5 xs0 = k4_pay4 (F := Ideal) x0 x3 x1 x2 x4 x5 := by
  unfold out4_B_6
  rw [View.read_writes_junk_eq_canon]
  unfold kernelRun4_B
  dsimp only
  sl_unfold_words
  rw [View.canon_unit_zero k4_hz]
  simp only [View.readAt_eq_ld, harg1.read_unread, harg2.read_unread, harg3.read_unread, harg4.read_unread, harg5.read_unread, harg6.read_unread,
    View.ld_unit_zero (S := S2000x512) k4_hz, View.ld_unit_zero (S := S1x512) k4_hz, View.ld_unit_zero (S := S512x256) k4_hz] <;> rfl

/-- At a point between the accumulator's first half holds what it held plus the tile's column sums … -/
theorem k4_sout_B_lo (hc0 : ¬cond4_0 i) (hc1 : ¬cond4_1 i) (xs0 : Vec Ideal S1x512 .f32) (j : Fin 256) :
    sout4_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k4_lo j))
      = xs0 (ix2 (0 : Fin 1) (k4_lo j)) + k4_pay5 (F := Ideal) x0 x3 x1 x2 x4 x5 (ix2 (0 : Fin 1) j) := by
  unfold sout4_B_0
  rw [View.read_writes_junk_eq_canon]
  unfold kernelRun4_B
  dsimp only
  sl_unfold_words
  simp only [View.readAt_eq_ld, harg1.read_unread, harg2.read_unread, harg3.read_unread, harg4.read_unread, harg5.read_unread, harg6.read_unread, harg9.read_unread,
    View.ld_unit_zero (S := S2000x512) k4_hz, View.ld_unit_zero (S := S1x512) k4_hz, View.ld_unit_zero (S := S512x256) k4_hz]
  refine (k4_canon_lo _ _ _ j).trans ?_
  refine (k4_pay1_apply _ _ _).trans ?_
  exact congrArg (· + _) (k4_ld_lo xs0 j)

/-- … and its second half what it held plus the tile's column sums of squares. -/
theorem k4_sout_B_hi (hc0 : ¬cond4_0 i) (hc1 : ¬cond4_1 i) (xs0 : Vec Ideal S1x512 .f32) (j : Fin 256) :
    sout4_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k4_hi j))
      = xs0 (ix2 (0 : Fin 1) (k4_hi j)) + k4_pay6 (F := Ideal) x0 x3 x1 x2 x4 x5 (ix2 (0 : Fin 1) j) := by
  unfold sout4_B_0
  rw [View.read_writes_junk_eq_canon]
  unfold kernelRun4_B
  dsimp only
  sl_unfold_words
  simp only [View.readAt_eq_ld, harg1.read_unread, harg2.read_unread, harg3.read_unread, harg4.read_unread, harg5.read_unread, harg6.read_unread, harg9.read_unread,
    View.ld_unit_zero (S := S2000x512) k4_hz, View.ld_unit_zero (S := S1x512) k4_hz, View.ld_unit_zero (S := S512x256) k4_hz]
  refine (k4_canon_hi _ _ _ j).trans ?_
  refine (k4_pay2_apply _ _ _).trans ?_
  exact congrArg (· + _) (k4_ld_hi xs0 j)

/-- At the last point the product window holds the tile's product. -/
theorem k4_out_C_6 (hc0 : ¬cond4_0 i) (hc1 : cond4_1 i) (xs0 : Vec Ideal S1x512 .f32) :
    out4_C_6 c i arg1 harg1 arg2 harg2 arg3 harg3 arg4 harg4 arg5 harg5 arg6 harg6 arg7 harg7 arg8 harg8 arg9 harg9 hc0 hc1 x0 x1 x2 x3 x4 x5 xs0 = k4_pay4 (F := Ideal) x0 x3 x1 x2 x4 x5 := by
  unfold out4_C_6
  rw [View.read_writes_junk_eq_canon]
  unfold kernelRun4_C
  dsimp only
  sl_unfold_words
  rw [View.canon_unit_zero k4_hz]
  simp only [View.readAt_eq_ld, harg1.read_unread, harg2.read_unread, harg3.read_unread, harg4.read_unread, harg5.read_unread, harg6.read_unread,
    View.ld_unit_zero (S := S2000x512) k4_hz, View.ld_unit_zero (S := S1x512) k4_hz, View.ld_unit_zero (S := S512x256) k4_hz] <;> rfl

/-- At the last point the accumulator's first half holds what it held plus the tile's column sums … -/
theorem k4_sout_C_lo (hc0 : ¬cond4_0 i) (hc1 : cond4_1 i) (xs0 : Vec Ideal S1x512 .f32) (j : Fin 256) :
    sout4_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k4_lo j))
      = xs0 (ix2 (0 : Fin 1) (k4_lo j)) + k4_pay5 (F := Ideal) x0 x3 x1 x2 x4 x5 (ix2 (0 : Fin 1) j) := by
  unfold sout4_C_0
  rw [View.read_writes_junk_eq_canon]
  unfold kernelRun4_C
  dsimp only
  sl_unfold_words
  simp only [View.readAt_eq_ld, harg1.read_unread, harg2.read_unread, harg3.read_unread, harg4.read_unread, harg5.read_unread, harg6.read_unread, harg9.read_unread,
    View.ld_unit_zero (S := S2000x512) k4_hz, View.ld_unit_zero (S := S1x512) k4_hz, View.ld_unit_zero (S := S512x256) k4_hz]
  refine (k4_canon_lo _ _ _ j).trans ?_
  refine (k4_pay1_apply _ _ _).trans ?_
  exact congrArg (· + _) (k4_ld_lo xs0 j)

/-- … and its second half what it held plus the tile's column sums of squares. -/
theorem k4_sout_C_hi (hc0 : ¬cond4_0 i) (hc1 : cond4_1 i) (xs0 : Vec Ideal S1x512 .f32) (j : Fin 256) :
    sout4_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k4_hi j))
      = xs0 (ix2 (0 : Fin 1) (k4_hi j)) + k4_pay6 (F := Ideal) x0 x3 x1 x2 x4 x5 (ix2 (0 : Fin 1) j) := by
  unfold sout4_C_0
  rw [View.read_writes_junk_eq_canon]
  unfold kernelRun4_C
  dsimp only
  sl_unfold_words
  simp only [View.readAt_eq_ld, harg1.read_unread, harg2.read_unread, harg3.read_unread, harg4.read_unread, harg5.read_unread, harg6.read_unread, harg9.read_unread,
    View.ld_unit_zero (S := S2000x512) k4_hz, View.ld_unit_zero (S := S1x512) k4_hz, View.ld_unit_zero (S := S512x256) k4_hz]
  refine (k4_canon_hi _ _ _ j).trans ?_
  refine (k4_pay2_apply _ _ _).trans ?_
  exact congrArg (· + _) (k4_ld_hi xs0 j)

/-- At the last point the statistics window receives the accumulator as the two half stores left it. -/
theorem k4_out_C_7 (hc0 : ¬cond4_0 i) (hc1 : cond4_1 i) (xs0 : Vec Ideal S1x512 .f32) :
    out4_C_7 c i arg1 harg1 arg2 harg2 arg3 harg3 arg4 harg4 arg5 harg5 arg6 harg6 arg7 harg7 arg8 harg8 arg9 harg9 hc0 hc1 x0 x1 x2 x3 x4 x5 xs0 = sout4_C_0 c i arg1 harg1 arg2 harg2 arg3 harg3 arg4 harg4 arg5 harg5 arg6 harg6 arg7 harg7 arg8 harg8 arg9 harg9 hc0 hc1 x0 x1 x2 x3 x4 x5 xs0 := by
  unfold out4_C_7 sout4_C_0
  rw [View.read_writes_junk_eq_canon, View.read_writes_junk_eq_canon]
  unfold kernelRun4_C
  dsimp only
  sl_unfold_words
  rw [View.canon_unit_zero k4_hz]
  exact k4_readCov_all _ _

end Pieces

/-! ## The region at the contents it is entered with -/

section Region
variable (V : (c : Dev nD) → (b : Ref sig .tc) → Buf (Elt Ideal) ((c : Thread nD τ).loc b))

/-- The arrays the region is entered with, as matrices: the rows to normalise; the mean, variance, gain and bias
    rows; the weights. -/
abbrev X4_0 (c : Dev nD) : Spec.Mx 50000 512 := V c (Pipeline.arrRef spec4 0)
abbrev X4_1 (c : Dev nD) : Spec.Mx 1 512 := V c (Pipeline.arrRef spec4 1)
abbrev X4_2 (c : Dev nD) : Spec.Mx 1 512 := V c (Pipeline.arrRef spec4 2)
abbrev X4_3 (c : Dev nD) : Spec.Mx 1 512 := V c (Pipeline.arrRef spec4 3)
abbrev X4_4 (c : Dev nD) : Spec.Mx 1 512 := V c (Pipeline.arrRef spec4 4)
abbrev X4_5 (c : Dev nD) : Spec.Mx 512 256 := V c (Pipeline.arrRef spec4 5)

/-- The region's product: the rows normalised with the mean row, the variance row, the gain row and the bias row,
    rectified, times the weights. -/
abbrev Z4 (c : Dev nD) : Spec.Mx 50000 256 :=
  Spec.mm (Spec.bnRelu (X4_0 V c) (fun l => X4_1 V c (ix2 0 l)) (fun l => X4_2 V c (ix2 0 l)) (fun l => X4_3 V c (ix2 0 l)) (fun l => X4_4 V c (ix2 0 l))) (X4_5 V c)

/-! ### The blocks the body loads are blocks of those arrays -/

/-- Point `t`'s block of the first operand is rows `2000 t …` of its array. -/
theorem k4_blk0 (c : Dev nD) (t : Fin cfg4.N) (r : Fin 2000) (l : Fin 512) :
    (iblk4 V c 0 t : Vec Ideal S2000x512 .f32) (ix2 r l) = X4_0 V c (ix2 (k4_rowOf (k4_tile t) r) l) := by
  obtain ⟨e0, e1, -⟩ := k4_idx_facts t
  show V c (Pipeline.arrRef spec4 0) (((cfg4.win 0).blk t).view.emb (ix2 r l)) = V c (Pipeline.arrRef spec4 0) (ix2 (k4_rowOf (k4_tile t) r) l)
  refine congrArg _ (funext fun a => Fin.ext ?_)
  match a with
  | ⟨0, _⟩ => show win4_0.index t (0 : Fin 2) * 2000 + 1 * r.val = 2000 * t.val + r.val; rw [e0]; omega
  | ⟨1, _⟩ => show win4_0.index t (1 : Fin 2) * 512 + 1 * l.val = l.val; rw [e1]; omega

/-- Every point's block of row operand 1 is the whole row. -/
theorem k4_blk1 (c : Dev nD) (t : Fin cfg4.N) (l : Fin 512) :
    (iblk4 V c 1 t : Vec Ideal S1x512 .f32) (ix2 (0 : Fin 1) l) = X4_1 V c (ix2 (0 : Fin 1) l) := by
  obtain ⟨-, -, e0, e1, -⟩ := k4_idx_facts t
  show V c (Pipeline.arrRef spec4 1) (((cfg4.win 1).blk t).view.emb (ix2 (0 : Fin 1) l)) = V c (Pipeline.arrRef spec4 1) (ix2 (0 : Fin 1) l)
  refine congrArg _ (funext fun a => Fin.ext ?_)
  match a with
  | ⟨0, _⟩ => show win4_1.index t (0 : Fin 2) * 1 + 1 * 0 = 0; rw [e0]
  | ⟨1, _⟩ => show win4_1.index t (1 : Fin 2) * 512 + 1 * l.val = l.val; rw [e1]; omega

/-- Every point's block of row operand 2 is the whole row. -/
theorem k4_blk2 (c : Dev nD) (t : Fin cfg4.N) (l : Fin 512) :
    (iblk4 V c 2 t : Vec Ideal S1x512 .f32) (ix2 (0 : Fin 1) l) = X4_2 V c (ix2 (0 : Fin 1) l) := by
  obtain ⟨-, -, -, -, e0, e1, -⟩ := k4_idx_facts t
  show V c (Pipeline.arrRef spec4 2) (((cfg4.win 2).blk t).view.emb (ix2 (0 : Fin 1) l)) = V c (Pipeline.arrRef spec4 2) (ix2 (0 : Fin 1) l)
  refine congrArg _ (funext fun a => Fin.ext ?_)
  match a with
  | ⟨0, _⟩ => show win4_2.index t (0 : Fin 2) * 1 + 1 * 0 = 0; rw [e0]
  | ⟨1, _⟩ => show win4_2.index t (1 : Fin 2) * 512 + 1 * l.val = l.val; rw [e1]; omega

/-- Every point's block of row operand 3 is the whole row. -/
theorem k4_blk3 (c : Dev nD) (t : Fin cfg4.N) (l : Fin 512) :
    (iblk4 V c 3 t : Vec Ideal S1x512 .f32) (ix2 (0 : Fin 1) l) = X4_3 V c (ix2 (0 : Fin 1) l) := by
  obtain ⟨-, -, -, -, -, -, e0, e1, -⟩ := k4_idx_facts t
  show V c (Pipeline.arrRef spec4 3) (((cfg4.win 3).blk t).view.emb (ix2 (0 : Fin 1) l)) = V c (Pipeline.arrRef spec4 3) (ix2 (0 : Fin 1) l)
  refine congrArg _ (funext fun a => Fin.ext ?_)
  match a with
  | ⟨0, _⟩ => show win4_3.index t (0 : Fin 2) * 1 + 1 * 0 = 0; rw [e0]
  | ⟨1, _⟩ => show win4_3.index t (1 : Fin 2) * 512 + 1 * l.val = l.val; rw [e1]; omega

/-- Every point's block of row operand 4 is the whole row. -/
theorem k4_blk4 (c : Dev nD) (t : Fin cfg4.N) (l : Fin 512) :
    (iblk4 V c 4 t : Vec Ideal S1x512 .f32) (ix2 (0 : Fin 1) l) = X4_4 V c (ix2 (0 : Fin 1) l) := by
  obtain ⟨-, -, -, -, -, -, -, -, e0, e1, -⟩ := k4_idx_facts t
  show V c (Pipeline.arrRef spec4 4) (((cfg4.win 4).blk t).view.emb (ix2 (0 : Fin 1) l)) = V c (Pipeline.arrRef spec4 4) (ix2 (0 : Fin 1) l)
  refine congrArg _ (funext fun a => Fin.ext ?_)
  match a with
  | ⟨0, _⟩ => show win4_4.index t (0 : Fin 2) * 1 + 1 * 0 = 0; rw [e0]
  | ⟨1, _⟩ => show win4_4.index t (1 : Fin 2) * 512 + 1 * l.val = l.val; rw [e1]; omega

/-- Every point's block of the weights is the whole array. -/
theorem k4_blk5 (c : Dev nD) (t : Fin cfg4.N) (l : Fin 512) (j : Fin 256) :
    (iblk4 V c 5 t : Vec Ideal S512x256 .bf16) (ix2 l j) = X4_5 V c (ix2 l j) := by
  obtain ⟨-, -, -, -, -, -, -, -, -, -, e0, e1, -⟩ := k4_idx_facts t
  show V c (Pipeline.arrRef spec4 5) (((cfg4.win 5).blk t).view.emb (ix2 l j)) = V c (Pipeline.arrRef spec4 5) (ix2 l j)
  refine congrArg _ (funext fun a => Fin.ext ?_)
  match a with
  | ⟨0, _⟩ => show win4_5.index t (0 : Fin 2) * 512 + 1 * l.val = l.val; rw [e0]; omega
  | ⟨1, _⟩ => show win4_5.index t (1 : Fin 2) * 256 + 1 * j.val = j.val; rw [e1]; omega

/-- Point `t`'s rows of column sums and of column sums of squares, of the blocks it loads. -/
abbrev k4_row5v (c : Dev nD) (t : Fin cfg4.N) : FVec Ideal S1x256 .f32 := k4_pay5 (F := Ideal) (iblk4 V c 0 t) (iblk4 V c 3 t) (iblk4 V c 1 t) (iblk4 V c 2 t) (iblk4 V c 4 t) (iblk4 V c 5 t)
abbrev k4_row6v (c : Dev nD) (t : Fin cfg4.N) : FVec Ideal S1x256 .f32 := k4_pay6 (F := Ideal) (iblk4 V c 0 t) (iblk4 V c 3 t) (iblk4 V c 1 t) (iblk4 V c 2 t) (iblk4 V c 4 t) (iblk4 V c 5 t)

/-- They are tile `t`'s sums of the product's columns … -/
theorem k4_row5 (c : Dev nD) (t : Fin cfg4.N) (j : Fin 256) :
    k4_row5v V c t (ix2 (0 : Fin 1) j) = k4_tileSum (fun i => Z4 V c (ix2 i j)) t.val :=
  k4_point5 (iblk4 V c 0 t) (iblk4 V c 1 t) (iblk4 V c 2 t) (iblk4 V c 3 t) (iblk4 V c 4 t) (iblk4 V c 5 t) (X4_0 V c) (X4_1 V c) (X4_2 V c) (X4_3 V c) (X4_4 V c) (X4_5 V c) t.val (k4_tile t).isLt j
    (fun r l => k4_blk0 V c t r l) (fun l => k4_blk1 V c t l) (fun l => k4_blk2 V c t l) (fun l => k4_blk3 V c t l) (fun l => k4_blk4 V c t l)
    (fun l j => k4_blk5 V c t l j)

/-- … and of their squares. -/
theorem k4_row6 (c : Dev nD) (t : Fin cfg4.N) (j : Fin 256) :
    k4_row6v V c t (ix2 (0 : Fin 1) j) = k4_tileSum (fun i => Z4 V c (ix2 i j) * Z4 V c (ix2 i j)) t.val :=
  k4_point6 (iblk4 V c 0 t) (iblk4 V c 1 t) (iblk4 V c 2 t) (iblk4 V c 3 t) (iblk4 V c 4 t) (iblk4 V c 5 t) (X4_0 V c) (X4_1 V c) (X4_2 V c) (X4_3 V c) (X4_4 V c) (X4_5 V c) t.val (k4_tile t).isLt j
    (fun r l => k4_blk0 V c t r l) (fun l => k4_blk1 V c t l) (fun l => k4_blk2 V c t l) (fun l => k4_blk3 V c t l) (fun l => k4_blk4 V c t l)
    (fun l j => k4_blk5 V c t l j)

/-! ### The three cases at a point of the grid -/

theorem k4_pt_A_6 (c : Dev nD) (t : Fin cfg4.N) (h0 : t.val = 0) :
    (outsPt4_A V c t h0).1 = k4_pay4 (F := Ideal) (iblk4 V c 0 t) (iblk4 V c 3 t) (iblk4 V c 1 t) (iblk4 V c 2 t) (iblk4 V c 4 t) (iblk4 V c 5 t) := by
  unfold outsPt4_A; dsimp only
  exact k4_out_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (iblk4 V c 0 t) (iblk4 V c 1 t) (iblk4 V c 2 t) (iblk4 V c 3 t) (iblk4 V c 4 t) (iblk4 V c 5 t) ((hcond4_0 t).mpr h0) (notLast4_of_first t h0)

theorem k4_pt_B_6 (c : Dev nD) (t : Fin cfg4.N) (h0 : ¬t.val = 0) (h1 : ¬t.val = 24) (xs0 : Vec Ideal S1x512 .f32) :
    (outsPt4_B V c t h0 h1 xs0).1 = k4_pay4 (F := Ideal) (iblk4 V c 0 t) (iblk4 V c 3 t) (iblk4 V c 1 t) (iblk4 V c 2 t) (iblk4 V c 4 t) (iblk4 V c 5 t) := by
  unfold outsPt4_B; dsimp only
  exact k4_out_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (iblk4 V c 0 t) (iblk4 V c 1 t) (iblk4 V c 2 t) (iblk4 V c 3 t) (iblk4 V c 4 t) (iblk4 V c 5 t) (fun h => h0 ((hcond4_0 t).mp h)) (fun h => h1 ((hcond4_1 t).mp h)) xs0

theorem k4_pt_C_6 (c : Dev nD) (t : Fin cfg4.N) (h0 : ¬t.val = 0) (h1 : t.val = 24) (xs0 : Vec Ideal S1x512 .f32) :
    (outsPt4_C V c t h0 h1 xs0).1 = k4_pay4 (F := Ideal) (iblk4 V c 0 t) (iblk4 V c 3 t) (iblk4 V c 1 t) (iblk4 V c 2 t) (iblk4 V c 4 t) (iblk4 V c 5 t) := by
  unfold outsPt4_C; dsimp only
  exact k4_out_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (iblk4 V c 0 t) (iblk4 V c 1 t) (iblk4 V c 2 t) (iblk4 V c 3 t) (iblk4 V c 4 t) (iblk4 V c 5 t) (fun h => h0 ((hcond4_0 t).mp h)) ((hcond4_1 t).mpr h1) xs0

theorem k4_pt_A_lo (c : Dev nD) (t : Fin cfg4.N) (h0 : t.val = 0) (j : Fin 256) :
    (outsPt4_A V c t h0).2.2 (ix2 (0 : Fin 1) (k4_lo j)) = Spec.zero + k4_row5v V c t (ix2 (0 : Fin 1) j) := by
  unfold outsPt4_A; dsimp only
  exact k4_sout_A_lo c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (iblk4 V c 0 t) (iblk4 V c 1 t) (iblk4 V c 2 t) (iblk4 V c 3 t) (iblk4 V c 4 t) (iblk4 V c 5 t) ((hcond4_0 t).mpr h0) (notLast4_of_first t h0) j

theorem k4_pt_A_hi (c : Dev nD) (t : Fin cfg4.N) (h0 : t.val = 0) (j : Fin 256) :
    (outsPt4_A V c t h0).2.2 (ix2 (0 : Fin 1) (k4_hi j)) = Spec.zero + k4_row6v V c t (ix2 (0 : Fin 1) j) := by
  unfold outsPt4_A; dsimp only
  exact k4_sout_A_hi c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (iblk4 V c 0 t) (iblk4 V c 1 t) (iblk4 V c 2 t) (iblk4 V c 3 t) (iblk4 V c 4 t) (iblk4 V c 5 t) ((hcond4_0 t).mpr h0) (notLast4_of_first t h0) j

theorem k4_pt_B_lo (c : Dev nD) (t : Fin cfg4.N) (h0 : ¬t.val = 0) (h1 : ¬t.val = 24) (xs0 : Vec Ideal S1x512 .f32) (j : Fin 256) :
    (outsPt4_B V c t h0 h1 xs0).2.2 (ix2 (0 : Fin 1) (k4_lo j)) = xs0 (ix2 (0 : Fin 1) (k4_lo j)) + k4_row5v V c t (ix2 (0 : Fin 1) j) := by
  unfold outsPt4_B; dsimp only
  exact k4_sout_B_lo c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (iblk4 V c 0 t) (iblk4 V c 1 t) (iblk4 V c 2 t) (iblk4 V c 3 t) (iblk4 V c 4 t) (iblk4 V c 5 t) (fun h => h0 ((hcond4_0 t).mp h)) (fun h => h1 ((hcond4_1 t).mp h)) xs0 j

theorem k4_pt_B_hi (c : Dev nD) (t : Fin cfg4.N) (h0 : ¬t.val = 0) (h1 : ¬t.val = 24) (xs0 : Vec Ideal S1x512 .f32) (j : Fin 256) :
    (outsPt4_B V c t h0 h1 xs0).2.2 (ix2 (0 : Fin 1) (k4_hi j)) = xs0 (ix2 (0 : Fin 1) (k4_hi j)) + k4_row6v V c t (ix2 (0 : Fin 1) j) := by
  unfold outsPt4_B; dsimp only
  exact k4_sout_B_hi c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (iblk4 V c 0 t) (iblk4 V c 1 t) (iblk4 V c 2 t) (iblk4 V c 3 t) (iblk4 V c 4 t) (iblk4 V c 5 t) (fun h => h0 ((hcond4_0 t).mp h)) (fun h => h1 ((hcond4_1 t).mp h)) xs0 j

theorem k4_pt_C_lo (c : Dev nD) (t : Fin cfg4.N) (h0 : ¬t.val = 0) (h1 : t.val = 24) (xs0 : Vec Ideal S1x512 .f32) (j : Fin 256) :
    (outsPt4_C V c t h0 h1 xs0).2.2 (ix2 (0 : Fin 1) (k4_lo j)) = xs0 (ix2 (0 : Fin 1) (k4_lo j)) + k4_row5v V c t (ix2 (0 : Fin 1) j) := by
  unfold outsPt4_C; dsimp only
  exact k4_sout_C_lo c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (iblk4 V c 0 t) (iblk4 V c 1 t) (iblk4 V c 2 t) (iblk4 V c 3 t) (iblk4 V c 4 t) (iblk4 V c 5 t) (fun h => h0 ((hcond4_0 t).mp h)) ((hcond4_1 t).mpr h1) xs0 j

theorem k4_pt_C_hi (c : Dev nD) (t : Fin cfg4.N) (h0 : ¬t.val = 0) (h1 : t.val = 24) (xs0 : Vec Ideal S1x512 .f32) (j : Fin 256) :
    (outsPt4_C V c t h0 h1 xs0).2.2 (ix2 (0 : Fin 1) (k4_hi j)) = xs0 (ix2 (0 : Fin 1) (k4_hi j)) + k4_row6v V c t (ix2 (0 : Fin 1) j) := by
  unfold outsPt4_C; dsimp only
  exact k4_sout_C_hi c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (iblk4 V c 0 t) (iblk4 V c 1 t) (iblk4 V c 2 t) (iblk4 V c 3 t) (iblk4 V c 4 t) (iblk4 V c 5 t) (fun h => h0 ((hcond4_0 t).mp h)) ((hcond4_1 t).mpr h1) xs0 j

/-- At the last point the statistics window holds the accumulator. -/
theorem k4_pt_C_7 (c : Dev nD) (t : Fin cfg4.N) (h0 : ¬t.val = 0) (h1 : t.val = 24) (xs0 : Vec Ideal S1x512 .f32) :
    (outsPt4_C V c t h0 h1 xs0).2.1 = (outsPt4_C V c t h0 h1 xs0).2.2 := by
  unfold outsPt4_C; dsimp only
  exact k4_out_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) (iblk4 V c 0 t) (iblk4 V c 1 t) (iblk4 V c 2 t) (iblk4 V c 3 t) (iblk4 V c 4 t) (iblk4 V c 5 t) (fun h => h0 ((hcond4_0 t).mp h)) ((hcond4_1 t).mpr h1) xs0

/-! ### The product array -/

/-- At every point the product window holds the tile's product of the blocks loaded there. -/
theorem k4_outs6 (c : Dev nD) (t : Fin cfg4.N) :
    (outsAt4 V c t.val t.isLt).1 = k4_pay4 (F := Ideal) (iblk4 V c 0 t) (iblk4 V c 3 t) (iblk4 V c 1 t) (iblk4 V c 2 t) (iblk4 V c 4 t) (iblk4 V c 5 t) := by
  by_cases h0 : t.val = 0
  · rw [outsAt4_A V c t h0]; exact k4_pt_A_6 V c t h0
  · by_cases h1 : t.val = 24
    · rw [outsAt4_C V c t h0 h1]; exact k4_pt_C_6 V c t h0 h1 _
    · rw [outsAt4_B V c t h0 h1]; exact k4_pt_B_6 V c t h0 h1 _

/-- What point `t` writes back of the product is block `t` of the whole product. -/
theorem k4_flushed6 (c : Dev nD) (t : Fin cfg4.N) :
    (dat4 V c).flushed 6 t = ((cfg4.win 6).blk t).view.read (Elt Ideal) (Z4 V c) := by
  show (cfg4.win 6).cut (grid4.coords t) ((dat4 V c).after 6 t) = _
  rw [after4_6, k4_outs6]
  obtain ⟨-, -, -, -, -, -, -, -, -, -, -, -, e0, e1, -⟩ := k4_idx_facts t
  funext y
  obtain ⟨r, j, rfl⟩ : ∃ (r : Fin 2000) (j : Fin 256), y = ix2 r j := ⟨y 0, y 1, eq_ix2 (n0 := 2000) (n1 := 256) y⟩
  show k4_pay4 (F := Ideal) (iblk4 V c 0 t) (iblk4 V c 3 t) (iblk4 V c 1 t) (iblk4 V c 2 t) (iblk4 V c 4 t) (iblk4 V c 5 t) (ix2 r j) = Z4 V c (((cfg4.win 6).blk t).view.emb (ix2 r j))
  have hi : ((cfg4.win 6).blk t).view.emb (ix2 r j) = (ix2 (k4_rowOf (k4_tile t) r) j : S50000x256.Idx) := by
    funext a; apply Fin.ext
    match a with
    | ⟨0, _⟩ => show win4_6.index t (0 : Fin 2) * 2000 + 1 * r.val = 2000 * t.val + r.val; rw [e0]; omega
    | ⟨1, _⟩ => show win4_6.index t (1 : Fin 2) * 256 + 1 * j.val = j.val; rw [e1]; omega
  refine (k4_point4 (iblk4 V c 0 t) (iblk4 V c 1 t) (iblk4 V c 2 t) (iblk4 V c 3 t) (iblk4 V c 4 t) (iblk4 V c 5 t) (X4_0 V c) (X4_1 V c) (X4_2 V c) (X4_3 V c) (X4_4 V c) (X4_5 V c) r j (k4_rowOf (k4_tile t) r)
    (fun l => k4_blk0 V c t r l) (fun l => k4_blk1 V c t l) (fun l => k4_blk2 V c t l) (fun l => k4_blk3 V c t l) (fun l => k4_blk4 V c t l)
    (fun l => k4_blk5 V c t l j)).trans ?_
  exact congrArg (Z4 V c) hi.symm

/-- THE PRODUCT ARRAY after the last point: the specification's product of the normalised, rectified rows with the
    weights, over the arrays the region was entered with. -/
theorem z_eq4 (c : Dev nD) : (dat4 V c).arrAt 6 cfg4.N = Z4 V c :=
  (dat4 V c).arrAt_eq_of_cover 6 (Z4 V c) (fun t _ => k4_flushed6 V c t) k4_cover6

/-! ### The statistics row -/

/-- After point `n` the accumulator holds the first `n + 1` tiles' sums of the product's columns and of their
    squares: by induction on the point. -/
theorem k4_acc (c : Dev nD) : ∀ (n : ℕ) (hn : n < cfg4.N), k4_AccIs (Z4 V c) (n + 1) (outsAt4 V c n hn).2.2
  | 0, hn => by
    rw [outsAt4_A V c ⟨0, hn⟩ rfl]
    exact k4_AccIs_first (Z4 V c) (outsPt4_A V c ⟨0, hn⟩ rfl).2.2 (k4_row5v V c ⟨0, hn⟩) (k4_row6v V c ⟨0, hn⟩)
      (fun j => k4_pt_A_lo V c ⟨0, hn⟩ rfl j) (fun j => k4_pt_A_hi V c ⟨0, hn⟩ rfl j)
      (fun j => k4_row5 V c ⟨0, hn⟩ j) (fun j => k4_row6 V c ⟨0, hn⟩ j)
  | n + 1, hn => by
    have ih := k4_acc c n (Nat.lt_of_succ_lt hn)
    by_cases h1 : n + 1 = 24
    · rw [outsAt4_C V c ⟨n + 1, hn⟩ (Nat.succ_ne_zero n) h1]
      show k4_AccIs (Z4 V c) (n + 1 + 1) (outsPt4_C V c ⟨n + 1, hn⟩ (Nat.succ_ne_zero n) h1 (outsAt4 V c n (Nat.lt_of_succ_lt hn)).2.2).2.2
      exact k4_AccIs_next (Z4 V c) (n + 1) (outsAt4 V c n (Nat.lt_of_succ_lt hn)).2.2
        (outsPt4_C V c ⟨n + 1, hn⟩ (Nat.succ_ne_zero n) h1 (outsAt4 V c n (Nat.lt_of_succ_lt hn)).2.2).2.2
        (k4_row5v V c ⟨n + 1, hn⟩) (k4_row6v V c ⟨n + 1, hn⟩) ih
        (fun j => k4_pt_C_lo V c ⟨n + 1, hn⟩ (Nat.succ_ne_zero n) h1 _ j) (fun j => k4_pt_C_hi V c ⟨n + 1, hn⟩ (Nat.succ_ne_zero n) h1 _ j)
        (fun j => k4_row5 V c ⟨n + 1, hn⟩ j) (fun j => k4_row6 V c ⟨n + 1, hn⟩ j)
    · rw [outsAt4_B V c ⟨n + 1, hn⟩ (Nat.succ_ne_zero n) h1]
      show k4_AccIs (Z4 V c) (n + 1 + 1) (outsPt4_B V c ⟨n + 1, hn⟩ (Nat.succ_ne_zero n) h1 (outsAt4 V c n (Nat.lt_of_succ_lt hn)).2.2).2.2
      exact k4_AccIs_next (Z4 V c) (n + 1) (outsAt4 V c n (Nat.lt_of_succ_lt hn)).2.2
        (outsPt4_B V c ⟨n + 1, hn⟩ (Nat.succ_ne_zero n) h1 (outsAt4 V c n (Nat.lt_of_succ_lt hn)).2.2).2.2
        (k4_row5v V c ⟨n + 1, hn⟩) (k4_row6v V c ⟨n + 1, hn⟩) ih
        (fun j => k4_pt_B_lo V c ⟨n + 1, hn⟩ (Nat.succ_ne_zero n) h1 _ j) (fun j => k4_pt_B_hi V c ⟨n + 1, hn⟩ (Nat.succ_ne_zero n) h1 _ j)
        (fun j => k4_row5 V c ⟨n + 1, hn⟩ j) (fun j => k4_row6 V c ⟨n + 1, hn⟩ j)

/-- The accumulator after the last point. -/
abbrev k4_accLast (c : Dev nD) : Spec.Mx 1 512 := (outsAt4 V c k4_tLast.val k4_tLast.isLt).2.2

/-- The last point's block of the statistics row, read through zero offsets, is the row. -/
theorem k4_cut7 (W : Vec Ideal S1x512 .f32) :
    (cfg4.win 7).cut (grid4.coords k4_tLast) W = ((cfg4.win 7).blk k4_tLast).view.read (Elt Ideal) (W : Spec.Mx 1 512) := by
  obtain ⟨-, -, -, -, -, -, -, -, -, -, -, -, -, -, e0, e1⟩ := k4_idx_facts k4_tLast
  funext y
  show W y = W (((cfg4.win 7).blk k4_tLast).view.emb y)
  refine congrArg W (funext fun a => Fin.ext ?_)
  match a with
  | ⟨0, _⟩ => show (y 0).val = win4_7.index k4_tLast (0 : Fin 2) * 1 + 1 * (y 0).val; rw [e0]; omega
  | ⟨1, _⟩ => show (y 1).val = win4_7.index k4_tLast (1 : Fin 2) * 512 + 1 * (y 1).val; rw [e1]; omega

/-- The one write-back of the statistics row, at the last point, writes the accumulator: its block is the whole row. -/
theorem k4_flushed7 (c : Dev nD) (t : Fin cfg4.N) (hf : (cfg4.win 7).flush t = true) :
    (dat4 V c).flushed 7 t = ((cfg4.win 7).blk t).view.read (Elt Ideal) (k4_accLast V c) := by
  have hN : cfg4.N = 25 := N_4
  have h24 : t.val = 24 := by have := (flush4_7 t).mp hf; have := t.isLt; omega
  obtain rfl : t = k4_tLast := Fin.ext h24
  have h0 : ¬k4_tLast.val = 0 := by show ¬(24 : ℕ) = 0; decide
  show (cfg4.win 7).cut (grid4.coords k4_tLast) ((dat4 V c).after 7 k4_tLast) = _
  rw [after4_7]
  unfold k4_accLast
  rw [outsAt4_C V c k4_tLast h0 rfl, k4_pt_C_7 V c k4_tLast h0 rfl]
  exact k4_cut7 _

/-- So the statistics row ends holding the accumulator after the last point. -/
theorem k4_stats_arr (c : Dev nD) : (dat4 V c).arrAt 7 cfg4.N = k4_accLast V c :=
  (dat4 V c).arrAt_eq_of_cover 7 (k4_accLast V c) (fun t hf => k4_flushed7 V c t hf) k4_cover7

/-- THE STATISTICS ROW after the last point: its first half the product's column sums, its second half its
    column sums of squares, over all 50000 rows. -/
theorem stats_eq4 (c : Dev nD) (j : Fin 256) :
    ((dat4 V c).arrAt 7 cfg4.N : Spec.Mx 1 512) (ix2 (0 : Fin 1) (k4_lo j)) = Spec.colSum (Z4 V c) j
    ∧ ((dat4 V c).arrAt 7 cfg4.N : Spec.Mx 1 512) (ix2 (0 : Fin 1) (k4_hi j)) = Spec.colSumSq (Z4 V c) j := by
  rw [k4_stats_arr]
  exact k4_AccIs_last (Z4 V c) (k4_accLast V c) (k4_acc V c 24 k4_tLast.isLt) j

end Region

end Cert.KernelIdeal.HandValue

end
-- ==== Proof.KI.Val5.lean ====
import proofs.«427833_j20194936226511_1_alg».proof.Proof.Spec
import proofs.«427833_j20194936226511_1_alg».proof.Proof.KI.Reg5
import Idealize.ShloMosaic.Lib.Pipeline.Value
import Idealize.ShloMosaic.Lib.ValueIdx

/-!
# The value of the normalise-and-rectify region

The region reads a matrix block by block of rows, together with four one-row matrices (the columns' means,
variances, gains and biases), and writes, block by block, the matrix normalised column by column, scaled,
shifted and cut off at zero.  Here that is read off the region's proof data at the extended reals: the body's
one payload at an index, what each grid point leaves for the write-back as a block of ONE function of the
arrays the region was entered with, the cover of the output array by the points' blocks, and so the output
array after the last point.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- A row broadcast down the rows of a block reads the row at the column. -/
theorem bcastRow5 (x : S1x256.Idx → EReal) (h : S1x256.Broadcasts S2000x256) (r : Fin 2000) (j : Fin 256) :
    broadcastTo S2000x256 x h (ix2 r j) = x (ix2 (0 : Fin 1) j) :=
  broadcastTo_apply x h (ix2 r j) (ix2 (0 : Fin 1) j) fun a => by
    match a with
    | ⟨0, _⟩ => rfl
    | ⟨1, _⟩ => rfl

/-- The body's one payload at an index: the entry less its column's mean, times the column's gain and the
    reciprocal root of the column's variance plus epsilon, plus the column's bias, cut off at zero.
    The payload takes its row arguments in the order gain, mean, variance, bias. -/
theorem pay5_1_apply (z : Vec Ideal S2000x256 .f32) (g mu var b : Vec Ideal S1x256 .f32) (r : Fin 2000) (j : Fin 256) :
    k5_pay1 (F := Ideal) z g mu var b (ix2 r j)
      = max (g (ix2 (0 : Fin 1) j) * (z (ix2 r j) - mu (ix2 (0 : Fin 1) j)) * Ideal.rsqrt (var (ix2 (0 : Fin 1) j) + Spec.bnEps)
          + b (ix2 (0 : Fin 1) j)) Spec.zero := by
  unfold k5_pay1
  simp only [shapeCast_self]
  rw [maximumf_apply, addf_apply, mulf_apply, mulf_apply, subf_apply, broadcast_apply,
    bcastRow5, bcastRow5, bcastRow5, bcastRow5]
  rfl

/-- The payload of a block and four rows that are read off a matrix and four row matrices, at an index of the
    block and the matrix index it sits at: the specification's normalise-and-rectify of the matrices there. -/
theorem point5 (x0 : Vec Ideal S2000x256 .f32) (x1 x2 x3 x4 : Vec Ideal S1x256 .f32)
    (A0 : Spec.Mx 50000 256) (A1 A2 A3 A4 : Spec.Mx 1 256) (y : S2000x256.Idx) (i : S50000x256.Idx)
    (h0 : x0 y = A0 i) (hc : (i 1).val = (y 1).val)
    (h1 : ∀ j : Fin 256, x1 (ix2 (0 : Fin 1) j) = A1 (ix2 (0 : Fin 1) j))
    (h2 : ∀ j : Fin 256, x2 (ix2 (0 : Fin 1) j) = A2 (ix2 (0 : Fin 1) j))
    (h3 : ∀ j : Fin 256, x3 (ix2 (0 : Fin 1) j) = A3 (ix2 (0 : Fin 1) j))
    (h4 : ∀ j : Fin 256, x4 (ix2 (0 : Fin 1) j) = A4 (ix2 (0 : Fin 1) j)) :
    k5_pay1 (F := Ideal) x0 x3 x1 x2 x4 y
      = Spec.bnRelu A0 (fun j => A1 (ix2 (0 : Fin 1) j)) (fun j => A2 (ix2 (0 : Fin 1) j))
          (fun j => A3 (ix2 (0 : Fin 1) j)) (fun j => A4 (ix2 (0 : Fin 1) j)) i := by
  obtain ⟨r, j, rfl⟩ : ∃ (r : Fin 2000) (j : Fin 256), y = ix2 r j := ⟨y 0, y 1, eq_ix2 y⟩
  obtain ⟨p, q, rfl⟩ : ∃ (p : Fin 50000) (q : Fin 256), i = ix2 p q := ⟨i 0, i 1, eq_ix2 i⟩
  obtain rfl : q = j := Fin.ext hc
  rw [pay5_1_apply, h0, h1, h2, h3, h4]
  rfl

/-! ## From blocks to the array -/

variable (V : (c : Dev nD) → (b : Ref sig .tc) → Buf (Elt Ideal) ((c : Thread nD τ).loc b))

/-- The arrays the region is entered with, as matrices: the operand, and the rows of means, variances, gains and biases. -/
abbrev X5_0 (c : Dev nD) : Spec.Mx 50000 256 := V c (Pipeline.arrRef spec5 0)
abbrev X5_1 (c : Dev nD) : Spec.Mx 1 256 := V c (Pipeline.arrRef spec5 1)
abbrev X5_2 (c : Dev nD) : Spec.Mx 1 256 := V c (Pipeline.arrRef spec5 2)
abbrev X5_3 (c : Dev nD) : Spec.Mx 1 256 := V c (Pipeline.arrRef spec5 3)
abbrev X5_4 (c : Dev nD) : Spec.Mx 1 256 := V c (Pipeline.arrRef spec5 4)

/-- What the output array ends holding: the operand normalised column by column, scaled, shifted and rectified. -/
abbrev G5 (c : Dev nD) : Spec.Mx 50000 256 :=
  Spec.bnRelu (X5_0 V c) (fun j => X5_1 V c (ix2 (0 : Fin 1) j)) (fun j => X5_2 V c (ix2 (0 : Fin 1) j))
    (fun j => X5_3 V c (ix2 (0 : Fin 1) j)) (fun j => X5_4 V c (ix2 (0 : Fin 1) j))

theorem hz5 : (![0, 0] : Fin 2 → Nat) = fun _ => 0 := funext fun a => by fin_cases a <;> rfl

/-- The index maps over the grid: the operand's and the output's blocks are the point's block of rows, the four
    rows' blocks the whole rows. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` leaves for the write-back is block `t` of the result. -/
theorem cut5_5 (c : Dev nD) (t : Fin cfg5.N) :
    (cfg5.win 5).cut (grid5.coords t) (out5_5 (iblk5 V c 0 t) (iblk5 V c 1 t) (iblk5 V c 2 t) (iblk5 V c 3 t) (iblk5 V c 4 t))
      = ((cfg5.win 5).blk t).view.read (Elt Ideal) (G5 V c) := by
  unfold out5_5
  rw [View.canon_unit_zero hz5]
  simp only [View.ld_unit_zero (S := S2000x256) hz5, View.ld_unit_zero (S := S1x256) hz5]
  obtain ⟨e00, e01, e10, e11, e20, e21, e30, e31, e40, e41, e50, e51⟩ := idx_facts5 t
  funext y
  show k5_pay1 (F := Ideal) (iblk5 V c 0 t) (iblk5 V c 3 t) (iblk5 V c 1 t) (iblk5 V c 2 t) (iblk5 V c 4 t) y
    = G5 V c (((cfg5.win 5).blk t).view.emb y)
  refine point5 _ _ _ _ _ (X5_0 V c) (X5_1 V c) (X5_2 V c) (X5_3 V c) (X5_4 V c) y _ ?_ ?_ ?_ ?_ ?_ ?_
  · show V c (Pipeline.arrRef spec5 0) (((cfg5.win 0).blk t).view.emb y) = V c (Pipeline.arrRef spec5 0) (((cfg5.win 5).blk t).view.emb y)
    refine congrArg _ (funext fun a => Fin.ext ?_)
    match a with
    | ⟨0, _⟩ =>
      show win5_0.index t (0 : Fin 2) * 2000 + 1 * (y 0).val = win5_5.index t (0 : Fin 2) * 2000 + 1 * (y 0).val
      rw [e00, e50]
    | ⟨1, _⟩ =>
      show win5_0.index t (1 : Fin 2) * 256 + 1 * (y 1).val = win5_5.index t (1 : Fin 2) * 256 + 1 * (y 1).val
      rw [e01, e51]
  · show win5_5.index t (1 : Fin 2) * 256 + 1 * (y 1).val = (y 1).val
    rw [e51]; omega
  · intro j
    show V c (Pipeline.arrRef spec5 1) (((cfg5.win 1).blk t).view.emb (ix2 (0 : Fin 1) j)) = V c (Pipeline.arrRef spec5 1) (ix2 (0 : Fin 1) j)
    refine congrArg _ (funext fun a => Fin.ext ?_)
    match a with
    | ⟨0, _⟩ => show win5_1.index t (0 : Fin 2) * 1 + 1 * 0 = 0; rw [e10]
    | ⟨1, _⟩ => show win5_1.index t (1 : Fin 2) * 256 + 1 * j.val = j.val; rw [e11]; omega
  · intro j
    show V c (Pipeline.arrRef spec5 2) (((cfg5.win 2).blk t).view.emb (ix2 (0 : Fin 1) j)) = V c (Pipeline.arrRef spec5 2) (ix2 (0 : Fin 1) j)
    refine congrArg _ (funext fun a => Fin.ext ?_)
    match a with
    | ⟨0, _⟩ => show win5_2.index t (0 : Fin 2) * 1 + 1 * 0 = 0; rw [e20]
    | ⟨1, _⟩ => show win5_2.index t (1 : Fin 2) * 256 + 1 * j.val = j.val; rw [e21]; omega
  · intro j
    show V c (Pipeline.arrRef spec5 3) (((cfg5.win 3).blk t).view.emb (ix2 (0 : Fin 1) j)) = V c (Pipeline.arrRef spec5 3) (ix2 (0 : Fin 1) j)
    refine congrArg _ (funext fun a => Fin.ext ?_)
    match a with
    | ⟨0, _⟩ => show win5_3.index t (0 : Fin 2) * 1 + 1 * 0 = 0; rw [e30]
    | ⟨1, _⟩ => show win5_3.index t (1 : Fin 2) * 256 + 1 * j.val = j.val; rw [e31]; omega
  · intro j
    show V c (Pipeline.arrRef spec5 4) (((cfg5.win 4).blk t).view.emb (ix2 (0 : Fin 1) j)) = V c (Pipeline.arrRef spec5 4) (ix2 (0 : Fin 1) j)
    refine congrArg _ (funext fun a => Fin.ext ?_)
    match a with
    | ⟨0, _⟩ => show win5_4.index t (0 : Fin 2) * 1 + 1 * 0 = 0; rw [e40]
    | ⟨1, _⟩ => show win5_4.index t (1 : Fin 2) * 256 + 1 * j.val = j.val; rw [e41]; omega

/-- An index of the output array is in point `t`'s block iff each coordinate is in the block's range on its axis. -/
theorem mem_blk5 (t : Fin cfg5.N) (i : S50000x256.Idx) :
    i ∈ ((cfg5.win 5).blk t).view.set ↔ ∀ a : Fin 2, win5_5.index t a * S2000x256.size a ≤ (i a).val
      ∧ (i a).val < win5_5.index t a * S2000x256.size a + S2000x256.size a := by
  show i ∈ ((View.whole (Pipeline.arrRef spec5 5)).slice (win5_5.rect t)).set ↔ _
  rw [View.set_slice_whole, Rect.mem_set_unit]
  exact Iff.rfl

/-- The point whose block holds a row: the row's number over the rows in a block. -/
theorem pt_lt5 (i : S50000x256.Idx) : (i 0).val / 2000 < cfg5.N := by
  have hi0 : (i 0).val < 50000 := (i 0).isLt
  show (i 0).val / 2000 < grid5.N
  rw [N_5]; omega

/-- Every index of the output array is in some point's block, and every point writes back. -/
theorem cover5 (i : S50000x256.Idx) :
    ∃ t : Fin cfg5.N, (cfg5.win 5).flush t = true ∧ i ∈ ((cfg5.win 5).blk t).view.set := by
  have hi1 : (i 1).val < 256 := (i 1).isLt
  obtain ⟨t, ht⟩ : ∃ t : Fin cfg5.N, t.val = (i 0).val / 2000 := ⟨⟨_, pt_lt5 i⟩, rfl⟩
  obtain ⟨-, -, -, -, -, -, -, -, -, -, e50, e51⟩ := idx_facts5 t
  refine ⟨t, flush5_5 t, ?_⟩
  rw [mem_blk5]
  intro a
  match a with
  | ⟨0, _⟩ =>
    show win5_5.index t (0 : Fin 2) * 2000 ≤ (i 0).val ∧ (i 0).val < win5_5.index t (0 : Fin 2) * 2000 + 2000
    rw [e50, ht]; omega
  | ⟨1, _⟩ =>
    show win5_5.index t (1 : Fin 2) * 256 ≤ (i 1).val ∧ (i 1).val < win5_5.index t (1 : Fin 2) * 256 + 256
    rw [e51]; omega

/-- What point `t` writes back is block `t` of the result. -/
theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  exact cut5_5 V c t

/-- THE OUTPUT ARRAY after the last point: the specification's normalise-and-rectify of the arrays the region
    was entered with. -/
theorem out_eq5 (c : Dev nD) : (dat5 V c).arrAt 5 cfg5.N = G5 V c :=
  (dat5 V c).arrAt_eq_of_cover 5 (G5 V c) (fun t _ => flushed5_eq V c t) cover5

end Cert.KernelIdeal.HandValue

end
-- ==== Proof.KI.Val6.lean ====
import proofs.«427833_j20194936226511_1_alg».proof.Proof.Gen.KernelIdeal.Launch
import proofs.«427833_j20194936226511_1_alg».proof.Proof.Gen.KernelIdeal.Points
import proofs.«427833_j20194936226511_1_alg».proof.Proof.KI.Reg6
import Idealize.ShloMosaic.Lib.Tactic
import proofs.«427833_j20194936226511_1_alg».proof.Proof.Gen.KernelIdeal.Skeleton
import proofs.«427833_j20194936226511_1_alg».proof.Proof.Spec
import Idealize.ShloMosaic.PureOps.Ideal.Laws
import Idealize.ShloMosaic.Lib.ValueIdx
import Idealize.ShloMosaic.Lib.Pipeline.Value

/-!
# The value of the first stage: a matrix product and its column statistics

At every grid point the kernel adds two blocks of rows, multiplies the sum by the weight matrix,
stores the product block, and adds the block's column sums and the column sums of its squares into
one carried row of twice the width, which it clears at the first point and copies out at the last.

This module reads the arithmetic at an index over the extended reals, where a change of float
format is the identity, a matrix product into a zero accumulator is the plain sum of products and
a reduction over the rows is the plain sum.  It then reads what each control case of the body leaves in
the product block and in the carried row, shows by induction on the grid point that the carried row
holds, column by column, the sums over the tiles so far, and concludes that after the region the
product array is the whole matrix product and the statistics row holds its column sums and the
column sums of its squares: a sum over all the rows is regrouped tile by tile, which needs only that
addition of extended reals is commutative and associative.
-/

set_option maxRecDepth 16384

noncomputable section

namespace Cert.KernelIdeal.HandValue

open Cert.KernelIdeal Cert.KernelIdeal.Gen
open Cert.KernelIdeal.Hand
open Idealize.ShloMosaic Idealize.ShloMosaic.ValueIdx Idealize.ShloMosaic.TcCoe Idealize.ShloMosaic.Tactic Idealize.SL.Sem
open Idealize.ShloMosaic.Pipeline (Dat)

/-! ## The operand indices of the matrix product, axis by axis -/

theorem lhs6_0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide),
    dif_pos (show (0 : Fin S2000x256.rank) ∈ dot_S2000x256_S256x512_S2000x512_1_0_0_1_n_n.lhsNonContracting by decide)]
  rfl
theorem lhs6_1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem rhs6_0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem rhs6_1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide),
    dif_pos (show (1 : Fin S256x512.rank) ∈ dot_S2000x256_S256x512_S2000x512_1_0_0_1_n_n.rhsNonContracting by decide)]
  rfl

/-- The block product into the zero accumulator, at an index: the sum over the contracted
    coordinate of the products of the entries. -/
theorem matmul6_apply (p : FVec Ideal S2000x256 .bf16) (w : FVec Ideal S256x512 .bf16) (r : Fin 2000) (j : Fin 512) :
    matmul dot_S2000x256_S256x512_S2000x512_1_0_0_1_n_n none p w (constant (F := Ideal) S2000x512 .f32 0x00000000#32) (ix2 r j)
      = ∑ l : Fin 256, p (ix2 r l) * w (ix2 l j) := by
  show FloatOps.matmul dot_S2000x256_S256x512_S2000x512_1_0_0_1_n_n none p w (constant (F := Ideal) S2000x512 .f32 0x00000000#32) (ix2 r j) = _
  rw [Ideal.matmul_constant_zero_apply, ← Equiv.sum_comp (contrEquiv1 dot_S2000x256_S256x512_S2000x512_1_0_0_1_n_n 256 rfl rfl).symm]
  refine Finset.sum_congr rfl fun l _ => ?_
  have hk := contrEquiv1_symm_val dot_S2000x256_S256x512_S2000x512_1_0_0_1_n_n 256 rfl rfl l
  have el : dot_S2000x256_S256x512_S2000x512_1_0_0_1_n_n.lhsIdx (ix2 r j) ((contrEquiv1 dot_S2000x256_S256x512_S2000x512_1_0_0_1_n_n 256 rfl rfl).symm l) = ix2 r l :=
    funext fun a => Fin.ext (by
      match a with
      | ⟨0, _⟩ => exact lhs6_0 _ _
      | ⟨1, _⟩ => exact (lhs6_1 _ _).trans hk)
  have er : dot_S2000x256_S256x512_S2000x512_1_0_0_1_n_n.rhsIdx (ix2 r j) ((contrEquiv1 dot_S2000x256_S256x512_S2000x512_1_0_0_1_n_n 256 rfl rfl).symm l) = ix2 l j :=
    funext fun a => Fin.ext (by
      match a with
      | ⟨0, _⟩ => exact (rhs6_0 _ _).trans hk
      | ⟨1, _⟩ => exact rhs6_1 _ _)
  rw [el, er]

/-- The sum over the rows of a block, kept as a one-row matrix, at a column. -/
theorem rowsum6_apply (v : FVec Ideal S2000x512 .f32) (j : Fin 512) :
    shapeCast S1x512 (multiReduction (F := Ideal) .add [0] S512 v 0x00000000#32 reduces_S2000x512_S512 (.inl rfl) rfl)
        shapeCasts_S512_S1x512 (ix2 0 j)
      = ∑ r : Fin 2000, v (ix2 r j) := by
  refine (shapeCast_addUnit_apply ![512] _ shapeCasts_S512_S1x512 (ix2 0 j)).trans ?_
  refine (Ideal.multiReduction_add_single v 0x00000000#32 reduces_S2000x512_S512 (.inl rfl) rfl _).trans ?_
  refine Finset.sum_congr rfl fun r _ => congrArg v ?_
  funext a
  apply Fin.ext
  match a with
  | ⟨0, _⟩ => rfl
  | ⟨1, _⟩ => rfl

/-! ## The four payloads at an index -/

/-- The product block: row `r`, column `j` is the sum over `l` of the summed inputs' entry times the weight's. -/
theorem k6_pay2_apply (x a : Vec Ideal S2000x256 .f32) (w : Vec Ideal S256x512 .bf16) (r : Fin 2000) (j : Fin 512) :
    k6_pay2 (F := Ideal) x a w (ix2 r j) = ∑ l : Fin 256, (x (ix2 r l) + a (ix2 r l)) * w (ix2 l j) := by
  unfold k6_pay2
  simp only [shapeCast_self]
  exact matmul6_apply _ _ r j

/-- The carried row's first half: what it held plus the block's column sums. -/
theorem k6_pay3_apply (x a : Vec Ideal S2000x256 .f32) (w : Vec Ideal S256x512 .bf16) (acc : Vec Ideal S1x512 .f32) (j : Fin 512) :
    k6_pay3 (F := Ideal) x a w acc (ix2 0 j) = acc (ix2 0 j) + ∑ r : Fin 2000, k6_pay2 (F := Ideal) x a w (ix2 r j) := by
  unfold k6_pay3
  simp only [shapeCast_self]
  exact congrArg (acc (ix2 0 j) + ·) (rowsum6_apply (k6_pay2 (F := Ideal) x a w) j)

/-- The carried row's second half: what it held plus the column sums of the block's squares. -/
theorem k6_pay4_apply (x a : Vec Ideal S2000x256 .f32) (w : Vec Ideal S256x512 .bf16) (acc : Vec Ideal S1x512 .f32) (j : Fin 512) :
    k6_pay4 (F := Ideal) x a w acc (ix2 0 j)
      = acc (ix2 0 j) + ∑ r : Fin 2000, k6_pay2 (F := Ideal) x a w (ix2 r j) * k6_pay2 (F := Ideal) x a w (ix2 r j) := by
  unfold k6_pay4
  simp only [shapeCast_self]
  exact congrArg (acc (ix2 0 j) + ·)
    (rowsum6_apply (mulf (k6_pay2 (F := Ideal) x a w) (k6_pay2 (F := Ideal) x a w)) j)

/-- The cleared row is zero everywhere. -/
theorem k6_pay1_eq : (k6_pay1 (F := Ideal)) = fun _ => (0 : EReal) := by
  unfold k6_pay1
  simp only [shapeCast_self]
  funext i
  exact Ideal.ofBits_zero_f32

/-! ## Sums over all the rows, tile by tile -/

/-- A sum over all the rows is the sum, over the tiles, of the sums over one tile's rows. -/
theorem sum_rows_tiles6 (f : Fin 50000 → EReal) :
    ∑ i : Fin 50000, f i
      = ∑ t : Fin 25, ∑ r : Fin 2000, f ⟨2000 * t.val + r.val, by have := t.isLt; have := r.isLt; omega⟩ := by
  rw [← Fintype.sum_prod_type']
  refine (Fintype.sum_equiv (finProdFinEquiv (m := 25) (n := 2000)) _ f fun p => congrArg f (Fin.ext ?_)).symm
  show 2000 * p.1.val + p.2.val = p.2.val + 2000 * p.1.val
  omega

/-- A quantity that starts at its first term and then adds one term per step is the sum of the terms so far. -/
theorem steps_eq_sum6 (T : ℕ → EReal) (N : ℕ) (S : (n : ℕ) → n < N → EReal)
    (h0 : ∀ h, S 0 h = 0 + T 0) (hs : ∀ n (h : n + 1 < N), S (n + 1) h = S n (Nat.lt_of_succ_lt h) + T (n + 1)) :
    ∀ (n : ℕ) (h : n < N), S n h = ∑ t ∈ Finset.range (n + 1), T t
  | 0, h => by rw [h0 h, zero_add, Finset.sum_range_one]
  | n + 1, h => by rw [hs n h, steps_eq_sum6 T N S h0 hs n (Nat.lt_of_succ_lt h), Finset.sum_range_succ _ (n + 1)]

/-! ## Where the windows' blocks sit -/

/-- The block indices, decided over the grid: the two inputs' row blocks and the output's move with the point,
    the weight's block and the statistics' block stay. -/
theorem idx6 : ∀ t : Fin cfg6.N,
      win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0 :=
  (by decide +kernel : ∀ t : Fin grid6.N, _)

/-- The first input's block at point `t` is rows `2000 t …` of its array. -/
theorem read_blk6_0 (A : Vec Ideal S50000x256 .f32) (t : Fin cfg6.N) (r : Fin 2000) (l : Fin 256)
    (i : Fin 50000) (hi : i.val = 2000 * t.val + r.val) :
    (((cfg6.win 0).blk t).view.read (Elt Ideal) A : Vec Ideal S2000x256 .f32) (ix2 r l) = A (ix2 i l) := by
  rw [View.read_apply]
  show A _ = A _
  refine congrArg A ?_
  funext a
  apply Fin.ext
  match a with
  | ⟨0, _⟩ => show win6_0.index t (0 : Fin 2) * 2000 + 1 * r.val = i.val; rw [(idx6 t).1]; omega
  | ⟨1, _⟩ => show win6_0.index t (1 : Fin 2) * 256 + 1 * l.val = l.val; rw [(idx6 t).2.1]; omega

/-- The second input's block likewise. -/
theorem read_blk6_1 (A : Vec Ideal S50000x256 .f32) (t : Fin cfg6.N) (r : Fin 2000) (l : Fin 256)
    (i : Fin 50000) (hi : i.val = 2000 * t.val + r.val) :
    (((cfg6.win 1).blk t).view.read (Elt Ideal) A : Vec Ideal S2000x256 .f32) (ix2 r l) = A (ix2 i l) := by
  rw [View.read_apply]
  show A _ = A _
  refine congrArg A ?_
  funext a
  apply Fin.ext
  match a with
  | ⟨0, _⟩ => show win6_1.index t (0 : Fin 2) * 2000 + 1 * r.val = i.val; rw [(idx6 t).2.2.1]; omega
  | ⟨1, _⟩ => show win6_1.index t (1 : Fin 2) * 256 + 1 * l.val = l.val; rw [(idx6 t).2.2.2.1]; omega

/-- The weight's block is the whole weight matrix at every point. -/
theorem read_blk6_2 (A : Vec Ideal S256x512 .bf16) (t : Fin cfg6.N) (l : Fin 256) (j : Fin 512) :
    (((cfg6.win 2).blk t).view.read (Elt Ideal) A : Vec Ideal S256x512 .bf16) (ix2 l j) = A (ix2 l j) := by
  rw [View.read_apply]
  show A _ = A _
  refine congrArg A ?_
  funext a
  apply Fin.ext
  match a with
  | ⟨0, _⟩ => show win6_2.index t (0 : Fin 2) * 256 + 1 * l.val = l.val; rw [(idx6 t).2.2.2.2.1]; omega
  | ⟨1, _⟩ => show win6_2.index t (1 : Fin 2) * 512 + 1 * j.val = j.val; rw [(idx6 t).2.2.2.2.2.1]; omega

/-- The output's block at point `t` is rows `2000 t …` of its array. -/
theorem read_blk6_3 (A : Vec Ideal S50000x512 .f32) (t : Fin cfg6.N) (r : Fin 2000) (j : Fin 512)
    (i : Fin 50000) (hi : i.val = 2000 * t.val + r.val) :
    (((cfg6.win 3).blk t).view.read (Elt Ideal) A : Vec Ideal S2000x512 .f32) (ix2 r j) = A (ix2 i j) := by
  rw [View.read_apply]
  show A _ = A _
  refine congrArg A ?_
  funext a
  apply Fin.ext
  match a with
  | ⟨0, _⟩ => show win6_3.index t (0 : Fin 2) * 2000 + 1 * r.val = i.val; rw [(idx6 t).2.2.2.2.2.2.1]; omega
  | ⟨1, _⟩ => show win6_3.index t (1 : Fin 2) * 512 + 1 * j.val = j.val; rw [(idx6 t).2.2.2.2.2.2.2.1]; omega

/-- The statistics' block is the whole row at every point. -/
theorem read_blk6_4 (A : Vec Ideal S1x1024 .f32) (t : Fin cfg6.N) (y : S1x1024.Idx) :
    (((cfg6.win 4).blk t).view.read (Elt Ideal) A : Vec Ideal S1x1024 .f32) y = A y := by
  rw [View.read_apply]
  show A _ = A _
  refine congrArg A ?_
  funext a
  apply Fin.ext
  match a with
  | ⟨0, _⟩ => show win6_4.index t (0 : Fin 2) * 1 + 1 * (y 0).val = (y 0).val; rw [(idx6 t).2.2.2.2.2.2.2.2.1]; omega
  | ⟨1, _⟩ => show win6_4.index t (1 : Fin 2) * 1024 + 1 * (y 1).val = (y 1).val; rw [(idx6 t).2.2.2.2.2.2.2.2.2]; omega

/-- An index of the output array is in point `t`'s block iff each coordinate is in the block's range. -/
theorem mem_blk6_3 (t : Fin cfg6.N) (i : S50000x512.Idx) :
    i ∈ ((cfg6.win 3).blk t).view.set ↔ ∀ a : Fin 2, win6_3.index t a * S2000x512.size a ≤ (i a).val
      ∧ (i a).val < win6_3.index t a * S2000x512.size a + S2000x512.size a := by
  show i ∈ ((View.whole main_v105_0).slice (win6_3.rect t)).set ↔ _
  rw [View.set_slice_whole, Rect.mem_set_unit]
  exact Iff.rfl

/-- Every row of the output array is in the block of the point its tile belongs to. -/
theorem cover6_3 (i : S50000x512.Idx) :
    ∃ t : Fin cfg6.N, (cfg6.win 3).flush t = true ∧ i ∈ ((cfg6.win 3).blk t).view.set := by
  have hN : cfg6.N = 25 := N_6
  have hi6 : (i 0).val < 50000 := (i 0).isLt
  have hi1 : (i 1).val < 512 := (i 1).isLt
  refine ⟨⟨(i 0).val / 2000, by omega⟩, flush6_3 _, ?_⟩
  rw [mem_blk6_3]
  obtain ⟨-, -, -, -, -, -, e0, e1, -, -⟩ := idx6 ⟨(i 0).val / 2000, by omega⟩
  intro a
  match a with
  | ⟨0, _⟩ =>
    show win6_3.index _ (0 : Fin 2) * 2000 ≤ (i 0).val ∧ (i 0).val < win6_3.index _ (0 : Fin 2) * 2000 + 2000
    rw [e0]; dsimp only; omega
  | ⟨1, _⟩ =>
    show win6_3.index _ (1 : Fin 2) * 512 ≤ (i 1).val ∧ (i 1).val < win6_3.index _ (1 : Fin 2) * 512 + 512
    rw [e1]; omega

/-- An index of the statistics row is in point `t`'s block iff each coordinate is in the block's range. -/
theorem mem_blk6_4 (t : Fin cfg6.N) (i : S1x1024.Idx) :
    i ∈ ((cfg6.win 4).blk t).view.set ↔ ∀ a : Fin 2, win6_4.index t a * S1x1024.size a ≤ (i a).val
      ∧ (i a).val < win6_4.index t a * S1x1024.size a + S1x1024.size a := by
  show i ∈ ((View.whole main_v105_1).slice (win6_4.rect t)).set ↔ _
  rw [View.set_slice_whole, Rect.mem_set_unit]
  exact Iff.rfl

/-- The last point's block is the whole statistics row. -/
theorem cover6_4 (i : S1x1024.Idx) :
    ∃ t : Fin cfg6.N, (cfg6.win 4).flush t = true ∧ i ∈ ((cfg6.win 4).blk t).view.set := by
  have hN : cfg6.N = 25 := N_6
  have hi6 : (i 0).val < 1 := (i 0).isLt
  have hi1 : (i 1).val < 1024 := (i 1).isLt
  refine ⟨⟨24, by omega⟩, (flush6_4 _).mpr rfl, ?_⟩
  rw [mem_blk6_4]
  obtain ⟨-, -, -, -, -, -, -, -, e0, e1⟩ := idx6 ⟨24, by omega⟩
  intro a
  match a with
  | ⟨0, _⟩ =>
    show win6_4.index _ (0 : Fin 2) * 1 ≤ (i 0).val ∧ (i 0).val < win6_4.index _ (0 : Fin 2) * 1 + 1
    rw [e0]; omega
  | ⟨1, _⟩ =>
    show win6_4.index _ (1 : Fin 2) * 1024 ≤ (i 1).val ∧ (i 1).val < win6_4.index _ (1 : Fin 2) * 1024 + 1024
    rw [e1]; omega

/-! ## What each case of the body leaves, read as values

The body's run was found case by case as lists of stored pieces; read back, the product block's one covering store
leaves the product of the input blocks, and the carried row's stores leave, column by column, what the row held
(nothing, at the first point) plus the block's column sums, in its first half of the plain products and in its
second of their squares. The last point's copy leaves the statistics block equal to the carried row. -/

/-- A column of the first half of the carried row, and of the second. -/
abbrev lo6 (j : Fin 512) : Fin 1024 := ⟨j.val, by have := j.isLt; omega⟩
abbrev hi6 (j : Fin 512) : Fin 1024 := ⟨512 + j.val, by have := j.isLt; omega⟩

theorem hz6 : (![0, 0] : Fin 2 → Nat) = fun _ => 0 := funext fun a => by fin_cases a <;> rfl

/-- The two halves of the carried row, as the rectangles the body stores through. -/
abbrev rLo6 : Rect S1x1024 := Rect.unit (s := S1x1024) ![0, 0] S1x512.size inb_S1x1024_S1x512_0_0
abbrev rHi6 : Rect S1x1024 := Rect.unit (s := S1x1024) ![0, 512] S1x512.size inb_S1x1024_S1x512_0_512

theorem rLo6_emb (j : Fin 512) : rLo6.emb (ix2 0 j) = ix2 0 (lo6 j) := by
  funext a
  apply Fin.ext
  rw [Rect.emb_apply]
  match a with
  | ⟨0, _⟩ => rfl
  | ⟨1, _⟩ => show 0 + 1 * j.val = j.val; omega

theorem rHi6_emb (j : Fin 512) : rHi6.emb (ix2 0 j) = ix2 0 (hi6 j) := by
  funext a
  apply Fin.ext
  rw [Rect.emb_apply]
  match a with
  | ⟨0, _⟩ => rfl
  | ⟨1, _⟩ => show 512 + 1 * j.val = 512 + j.val; omega

theorem lo6_not_mem_hi (j : Fin 512) : ix2 0 (lo6 j) ∉ rHi6.set := by
  rw [Rect.mem_set_unit]
  intro h
  have h1 : (512 : ℕ) ≤ j.val := (h 1).1
  have := j.isLt
  omega

theorem hi6_not_mem_lo (j : Fin 512) : ix2 0 (hi6 j) ∉ rLo6.set := by
  rw [Rect.mem_set_unit]
  intro h
  have h1 : 512 + j.val < 0 + 512 := (h 1).2
  omega

/-- The whole carried row as a rectangle of itself. -/
abbrev rW6 : Rect S1x1024 := Rect.unit (s := S1x1024) ![0, 0] S1x1024.size inb_S1x1024_S1x1024_0_0

/-- A load after one store of the whole row reads that store's payload. -/
theorem readCov_rW6 {sig' : RefSig} {κ : Kind} {sp : Space} (v : View sig' κ sp S1x1024 .f32) (w : Vec Ideal S1x1024 .f32)
    (B : Rect S1x1024) (y : B.shape.Idx) :
    v.readCov [(⟨rW6, w⟩ : View.Piece (Elt Ideal) S1x1024 .f32)] B.toLoadRect y = w (B.idx y) := by
  have hc : ∀ y : S1x1024.Idx, ∃ p ∈ [(⟨rW6, w⟩ : View.Piece (Elt Ideal) S1x1024 .f32)], y ∈ p.1.set :=
    fun y => ⟨⟨rW6, w⟩, List.mem_singleton_self _, View.mem_set_unit_zero hz6 inb_S1x1024_S1x1024_0_0 y⟩
  rw [View.readCov_eq_canon_ld v _ B hc, View.canon_unit_zero hz6]

/-- The two half-row stores cover the row. -/
theorem halves_cover6 (wHi wLo : Vec Ideal S1x512 .f32) (y : S1x1024.Idx) :
    ∃ p ∈ ([⟨rHi6, wHi⟩, ⟨rLo6, wLo⟩] : List (View.Piece (Elt Ideal) S1x1024 .f32)), y ∈ p.1.set := by
  have h0 : (y 0).val < 1 := (y 0).isLt
  have h1 : (y 1).val < 1024 := (y 1).isLt
  by_cases h : (y 1).val < 512
  · refine ⟨⟨rLo6, wLo⟩, List.mem_cons_of_mem _ (List.mem_singleton_self _), ?_⟩
    show y ∈ rLo6.set
    rw [Rect.mem_set_unit]
    intro a
    match a with
    | ⟨0, _⟩ => show 0 ≤ (y 0).val ∧ (y 0).val < 0 + 1; omega
    | ⟨1, _⟩ => show 0 ≤ (y 1).val ∧ (y 1).val < 0 + 512; omega
  · refine ⟨⟨rHi6, wHi⟩, List.mem_cons_self, ?_⟩
    show y ∈ rHi6.set
    rw [Rect.mem_set_unit]
    intro a
    match a with
    | ⟨0, _⟩ => show 0 ≤ (y 0).val ∧ (y 0).val < 0 + 1; omega
    | ⟨1, _⟩ => show 512 ≤ (y 1).val ∧ (y 1).val < 512 + 512; omega

theorem out6_A_3_eq (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i) (x0 x1 : Vec Ideal S2000x256 .f32) (x2 : Vec Ideal S256x512 .bf16) :
    out6_A_3 (F := Ideal) c i arg1 harg1 arg2 harg2 arg3 harg3 arg4 harg4 arg5 harg5 arg6 harg6 hc0 hc1 x0 x1 x2 = k6_pay2 (F := Ideal) x0 x1 x2 := by
  unfold out6_A_3
  rw [View.read_writes_eq_canon _ _ _ (cover6_A_3 c i arg1 harg1 arg2 harg2 arg3 harg3 arg4 harg4 arg5 harg5 arg6 harg6 hc0 hc1 x0 x1 x2)]
  unfold kernelRun6_A
  dsimp only
  sl_unfold_words
  rw [View.canon_unit_zero hz6]
  simp only [View.readAt_eq_ld, harg1.read_unread, harg2.read_unread, harg3.read_unread, View.ld_unit_zero (S := S2000x256) hz6, View.ld_unit_zero (S := S256x512) hz6]

theorem out6_B_3_eq (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i) (x0 x1 : Vec Ideal S2000x256 .f32) (x2 : Vec Ideal S256x512 .bf16) (xs0 : Vec Ideal S1x1024 .f32) :
    out6_B_3 (F := Ideal) c i arg1 harg1 arg2 harg2 arg3 harg3 arg4 harg4 arg5 harg5 arg6 harg6 hc0 hc1 x0 x1 x2 xs0 = k6_pay2 (F := Ideal) x0 x1 x2 := by
  unfold out6_B_3
  rw [View.read_writes_eq_canon _ _ _ (cover6_B_3 c i arg1 harg1 arg2 harg2 arg3 harg3 arg4 harg4 arg5 harg5 arg6 harg6 hc0 hc1 x0 x1 x2 xs0)]
  unfold kernelRun6_B
  dsimp only
  sl_unfold_words
  rw [View.canon_unit_zero hz6]
  simp only [View.readAt_eq_ld, harg1.read_unread, harg2.read_unread, harg3.read_unread, View.ld_unit_zero (S := S2000x256) hz6, View.ld_unit_zero (S := S256x512) hz6]

theorem out6_C_3_eq (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i) (x0 x1 : Vec Ideal S2000x256 .f32) (x2 : Vec Ideal S256x512 .bf16) (xs0 : Vec Ideal S1x1024 .f32) :
    out6_C_3 (F := Ideal) c i arg1 harg1 arg2 harg2 arg3 harg3 arg4 harg4 arg5 harg5 arg6 harg6 hc0 hc1 x0 x1 x2 xs0 = k6_pay2 (F := Ideal) x0 x1 x2 := by
  unfold out6_C_3
  rw [View.read_writes_eq_canon _ _ _ (cover6_C_3 c i arg1 harg1 arg2 harg2 arg3 harg3 arg4 harg4 arg5 harg5 arg6 harg6 hc0 hc1 x0 x1 x2 xs0)]
  unfold kernelRun6_C
  dsimp only
  sl_unfold_words
  rw [View.canon_unit_zero hz6]
  simp only [View.readAt_eq_ld, harg1.read_unread, harg2.read_unread, harg3.read_unread, View.ld_unit_zero (S := S2000x256) hz6, View.ld_unit_zero (S := S256x512) hz6]

theorem sout6_A_0_lo (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i) (x0 x1 : Vec Ideal S2000x256 .f32) (x2 : Vec Ideal S256x512 .bf16) (j : Fin 512) :
    sout6_A_0 (F := Ideal) c i arg1 harg1 arg2 harg2 arg3 harg3 arg4 harg4 arg5 harg5 arg6 harg6 hc0 hc1 x0 x1 x2 (ix2 0 (lo6 j))
      = 0 + ∑ r : Fin 2000, k6_pay2 (F := Ideal) x0 x1 x2 (ix2 r j) := by
  unfold sout6_A_0
  rw [View.read_writes_eq_canon _ _ _ (scover6_A_0 c i arg1 harg1 arg2 harg2 arg3 harg3 arg4 harg4 arg5 harg5 arg6 harg6 hc0 hc1 x0 x1 x2)]
  unfold kernelRun6_A
  dsimp only
  sl_unfold_words
  simp only [View.readAt_eq_ld, harg1.read_unread, harg2.read_unread, harg3.read_unread, View.ld_unit_zero (S := S2000x256) hz6, View.ld_unit_zero (S := S256x512) hz6]
  refine (View.canon_cons_of_not_mem (⟨rHi6, _⟩ : View.Piece (Elt Ideal) S1x1024 .f32) _ (lo6_not_mem_hi j)).trans ?_
  refine (congrArg _ (rLo6_emb j).symm).trans ((View.canon_cons_emb rLo6 _ _ (ix2 0 j)).trans ?_)
  refine (k6_pay3_apply x0 x1 x2 _ j).trans ?_
  refine congrArg (· + _) ?_
  exact (readCov_rW6 _ _ rLo6 (ix2 0 j)).trans (congrFun k6_pay1_eq _)

theorem sout6_A_0_hi (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond6_0 i) (hc1 : ¬cond6_1 i) (x0 x1 : Vec Ideal S2000x256 .f32) (x2 : Vec Ideal S256x512 .bf16) (j : Fin 512) :
    sout6_A_0 (F := Ideal) c i arg1 harg1 arg2 harg2 arg3 harg3 arg4 harg4 arg5 harg5 arg6 harg6 hc0 hc1 x0 x1 x2 (ix2 0 (hi6 j))
      = 0 + ∑ r : Fin 2000, k6_pay2 (F := Ideal) x0 x1 x2 (ix2 r j) * k6_pay2 (F := Ideal) x0 x1 x2 (ix2 r j) := by
  unfold sout6_A_0
  rw [View.read_writes_eq_canon _ _ _ (scover6_A_0 c i arg1 harg1 arg2 harg2 arg3 harg3 arg4 harg4 arg5 harg5 arg6 harg6 hc0 hc1 x0 x1 x2)]
  unfold kernelRun6_A
  dsimp only
  sl_unfold_words
  simp only [View.readAt_eq_ld, harg1.read_unread, harg2.read_unread, harg3.read_unread, View.ld_unit_zero (S := S2000x256) hz6, View.ld_unit_zero (S := S256x512) hz6]
  refine (congrArg _ (rHi6_emb j).symm).trans ((View.canon_cons_emb rHi6 _ _ (ix2 0 j)).trans ?_)
  refine (k6_pay4_apply x0 x1 x2 _ j).trans ?_
  refine congrArg (· + _) ?_
  refine (congrFun (View.readCov_eq_canon_ld _ _ rHi6 (fun y =>
    ⟨⟨rW6, k6_pay1 (F := Ideal)⟩, List.mem_cons_of_mem _ (List.mem_singleton_self _),
      View.mem_set_unit_zero hz6 inb_S1x1024_S1x1024_0_0 y⟩)) (ix2 0 j)).trans ?_
  show View.canon _ (rHi6.emb (ix2 0 j)) = 0
  rw [rHi6_emb]
  refine (View.canon_cons_of_not_mem (⟨rLo6, _⟩ : View.Piece (Elt Ideal) S1x1024 .f32) _ (hi6_not_mem_lo j)).trans ?_
  rw [View.canon_unit_zero hz6]
  exact congrFun k6_pay1_eq _

theorem sout6_B_0_lo (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i) (x0 x1 : Vec Ideal S2000x256 .f32) (x2 : Vec Ideal S256x512 .bf16) (xs0 : Vec Ideal S1x1024 .f32) (j : Fin 512) :
    sout6_B_0 (F := Ideal) c i arg1 harg1 arg2 harg2 arg3 harg3 arg4 harg4 arg5 harg5 arg6 harg6 hc0 hc1 x0 x1 x2 xs0 (ix2 0 (lo6 j))
      = xs0 (ix2 0 (lo6 j)) + ∑ r : Fin 2000, k6_pay2 (F := Ideal) x0 x1 x2 (ix2 r j) := by
  unfold sout6_B_0
  rw [View.read_writes_eq_canon _ _ _ (scover6_B_0 c i arg1 harg1 arg2 harg2 arg3 harg3 arg4 harg4 arg5 harg5 arg6 harg6 hc0 hc1 x0 x1 x2 xs0)]
  unfold kernelRun6_B
  dsimp only
  sl_unfold_words
  simp only [View.readAt_eq_ld, harg1.read_unread, harg2.read_unread, harg3.read_unread, harg6.read_unread, View.ld_unit_zero (S := S2000x256) hz6, View.ld_unit_zero (S := S256x512) hz6]
  refine (View.canon_cons_of_not_mem (⟨rHi6, _⟩ : View.Piece (Elt Ideal) S1x1024 .f32) _ (lo6_not_mem_hi j)).trans ?_
  refine (congrArg _ (rLo6_emb j).symm).trans ((View.canon_cons_emb rLo6 _ [] (ix2 0 j)).trans ?_)
  refine (k6_pay3_apply x0 x1 x2 _ j).trans ?_
  exact congrArg (· + _) (congrArg xs0 (rLo6_emb j))

theorem sout6_B_0_hi (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : ¬cond6_1 i) (x0 x1 : Vec Ideal S2000x256 .f32) (x2 : Vec Ideal S256x512 .bf16) (xs0 : Vec Ideal S1x1024 .f32) (j : Fin 512) :
    sout6_B_0 (F := Ideal) c i arg1 harg1 arg2 harg2 arg3 harg3 arg4 harg4 arg5 harg5 arg6 harg6 hc0 hc1 x0 x1 x2 xs0 (ix2 0 (hi6 j))
      = xs0 (ix2 0 (hi6 j)) + ∑ r : Fin 2000, k6_pay2 (F := Ideal) x0 x1 x2 (ix2 r j) * k6_pay2 (F := Ideal) x0 x1 x2 (ix2 r j) := by
  unfold sout6_B_0
  rw [View.read_writes_eq_canon _ _ _ (scover6_B_0 c i arg1 harg1 arg2 harg2 arg3 harg3 arg4 harg4 arg5 harg5 arg6 harg6 hc0 hc1 x0 x1 x2 xs0)]
  unfold kernelRun6_B
  dsimp only
  sl_unfold_words
  simp only [View.readAt_eq_ld, harg1.read_unread, harg2.read_unread, harg3.read_unread, harg6.read_unread, View.ld_unit_zero (S := S2000x256) hz6, View.ld_unit_zero (S := S256x512) hz6]
  refine (congrArg _ (rHi6_emb j).symm).trans ((View.canon_cons_emb rHi6 _ _ (ix2 0 j)).trans ?_)
  refine (k6_pay4_apply x0 x1 x2 _ j).trans ?_
  exact congrArg (· + _) (congrArg xs0 (rHi6_emb j))

theorem sout6_C_0_lo (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i) (x0 x1 : Vec Ideal S2000x256 .f32) (x2 : Vec Ideal S256x512 .bf16) (xs0 : Vec Ideal S1x1024 .f32) (j : Fin 512) :
    sout6_C_0 (F := Ideal) c i arg1 harg1 arg2 harg2 arg3 harg3 arg4 harg4 arg5 harg5 arg6 harg6 hc0 hc1 x0 x1 x2 xs0 (ix2 0 (lo6 j))
      = xs0 (ix2 0 (lo6 j)) + ∑ r : Fin 2000, k6_pay2 (F := Ideal) x0 x1 x2 (ix2 r j) := by
  unfold sout6_C_0
  rw [View.read_writes_eq_canon _ _ _ (scover6_C_0 c i arg1 harg1 arg2 harg2 arg3 harg3 arg4 harg4 arg5 harg5 arg6 harg6 hc0 hc1 x0 x1 x2 xs0)]
  unfold kernelRun6_C
  dsimp only
  sl_unfold_words
  simp only [View.readAt_eq_ld, harg1.read_unread, harg2.read_unread, harg3.read_unread, harg6.read_unread, View.ld_unit_zero (S := S2000x256) hz6, View.ld_unit_zero (S := S256x512) hz6]
  refine (View.canon_cons_of_not_mem (⟨rHi6, _⟩ : View.Piece (Elt Ideal) S1x1024 .f32) _ (lo6_not_mem_hi j)).trans ?_
  refine (congrArg _ (rLo6_emb j).symm).trans ((View.canon_cons_emb rLo6 _ [] (ix2 0 j)).trans ?_)
  refine (k6_pay3_apply x0 x1 x2 _ j).trans ?_
  exact congrArg (· + _) (congrArg xs0 (rLo6_emb j))

theorem sout6_C_0_hi (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i) (x0 x1 : Vec Ideal S2000x256 .f32) (x2 : Vec Ideal S256x512 .bf16) (xs0 : Vec Ideal S1x1024 .f32) (j : Fin 512) :
    sout6_C_0 (F := Ideal) c i arg1 harg1 arg2 harg2 arg3 harg3 arg4 harg4 arg5 harg5 arg6 harg6 hc0 hc1 x0 x1 x2 xs0 (ix2 0 (hi6 j))
      = xs0 (ix2 0 (hi6 j)) + ∑ r : Fin 2000, k6_pay2 (F := Ideal) x0 x1 x2 (ix2 r j) * k6_pay2 (F := Ideal) x0 x1 x2 (ix2 r j) := by
  unfold sout6_C_0
  rw [View.read_writes_eq_canon _ _ _ (scover6_C_0 c i arg1 harg1 arg2 harg2 arg3 harg3 arg4 harg4 arg5 harg5 arg6 harg6 hc0 hc1 x0 x1 x2 xs0)]
  unfold kernelRun6_C
  dsimp only
  sl_unfold_words
  simp only [View.readAt_eq_ld, harg1.read_unread, harg2.read_unread, harg3.read_unread, harg6.read_unread, View.ld_unit_zero (S := S2000x256) hz6, View.ld_unit_zero (S := S256x512) hz6]
  refine (congrArg _ (rHi6_emb j).symm).trans ((View.canon_cons_emb rHi6 _ _ (ix2 0 j)).trans ?_)
  refine (k6_pay4_apply x0 x1 x2 _ j).trans ?_
  exact congrArg (· + _) (congrArg xs0 (rHi6_emb j))

theorem out6_C_4_eq (c : Dev nD) (i : grid6.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond6_0 i) (hc1 : cond6_1 i) (x0 x1 : Vec Ideal S2000x256 .f32) (x2 : Vec Ideal S256x512 .bf16) (xs0 : Vec Ideal S1x1024 .f32) :
    out6_C_4 (F := Ideal) c i arg1 harg1 arg2 harg2 arg3 harg3 arg4 harg4 arg5 harg5 arg6 harg6 hc0 hc1 x0 x1 x2 xs0 = sout6_C_0 (F := Ideal) c i arg1 harg1 arg2 harg2 arg3 harg3 arg4 harg4 arg5 harg5 arg6 harg6 hc0 hc1 x0 x1 x2 xs0 := by
  unfold out6_C_4 sout6_C_0
  rw [View.read_writes_eq_canon _ _ _ (cover6_C_4 c i arg1 harg1 arg2 harg2 arg3 harg3 arg4 harg4 arg5 harg5 arg6 harg6 hc0 hc1 x0 x1 x2 xs0), View.read_writes_eq_canon _ _ _ (scover6_C_0 c i arg1 harg1 arg2 harg2 arg3 harg3 arg4 harg4 arg5 harg5 arg6 harg6 hc0 hc1 x0 x1 x2 xs0)]
  unfold kernelRun6_C
  dsimp only
  sl_unfold_words
  rw [View.canon_unit_zero hz6]
  refine (View.readCov_eq_canon_ld _ _ rW6 (halves_cover6 _ _)).trans ?_
  exact View.ld_unit_zero hz6 _ _

/-! ## The region's arrays and blocks at their literal types -/

variable (V : (c : Dev nD) → (b : Ref sig .tc) → Buf (Elt Ideal) ((c : Thread nD τ).loc b))

/-- The two input arrays and the weight matrix as the region finds them. -/
abbrev X6_0 (c : Dev nD) : Spec.Mx 50000 256 := V c (Pipeline.arrRef spec6 0)
abbrev X6_1 (c : Dev nD) : Spec.Mx 50000 256 := V c (Pipeline.arrRef spec6 1)
abbrev X6_2 (c : Dev nD) : Spec.Mx 256 512 := V c (Pipeline.arrRef spec6 2)

/-- The product of the summed inputs with the weights, all rows at once. -/
abbrev Z6 (c : Dev nD) : Spec.Mx 50000 512 := Spec.mm (Spec.add2 (X6_0 V c) (X6_1 V c)) (X6_2 V c)

/-- The product block the body computes at point `t`. -/
abbrev zb6 (c : Dev nD) (t : Fin cfg6.N) : FVec Ideal S2000x512 .f32 :=
  k6_pay2 (F := Ideal) (iblk6 V c 0 t) (iblk6 V c 1 t) (iblk6 V c 2 t)

/-- The product block at point `t` is rows `2000 t …` of the whole product. -/
theorem zb6_apply (c : Dev nD) (t : Fin cfg6.N) (r : Fin 2000) (j : Fin 512) (i : Fin 50000) (hi : i.val = 2000 * t.val + r.val) :
    zb6 V c t (ix2 r j) = Z6 V c (ix2 i j) := by
  refine (k6_pay2_apply _ _ _ r j).trans ?_
  show _ = ∑ l : Fin 256, (X6_0 V c (ix2 i l) + X6_1 V c (ix2 i l)) * X6_2 V c (ix2 l j)
  refine Finset.sum_congr rfl fun l _ => ?_
  have e0 : (iblk6 V c 0 t : Vec Ideal S2000x256 .f32) (ix2 r l) = X6_0 V c (ix2 i l) := read_blk6_0 (X6_0 V c) t r l i hi
  have e1 : (iblk6 V c 1 t : Vec Ideal S2000x256 .f32) (ix2 r l) = X6_1 V c (ix2 i l) := read_blk6_1 (X6_1 V c) t r l i hi
  have e2 : (iblk6 V c 2 t : Vec Ideal S256x512 .bf16) (ix2 l j) = X6_2 V c (ix2 l j) := read_blk6_2 (X6_2 V c) t l j
  rw [e0, e1, e2]

/-! ## The carried row after each point -/

/-- The output block after point `t` is the product block, whichever case the point is. -/
theorem outsAt6_fst (c : Dev nD) (t : Fin cfg6.N) : (outsAt6 V c t.val t.isLt).1 = zb6 V c t := by
  by_cases h0 : t.val = 0
  · have h1 : ¬t.val = 24 := by omega
    rw [outsAt6_A V c t h0 h1]; dsimp only
    exact out6_A_3_eq c (grid6.coords t) (ms6_0 t) (hs6_0 t) (ms6_1 t) (hs6_1 t) (ms6_2 t) (hs6_2 t) (ms6_3 t) (hs6_3 t) (ms6_4 t) (hs6_4 t) scM6_0 (Memref.isWhole_whole _) ((hcond6_0 t).mpr h0) (fun h => h1 ((hcond6_1 t).mp h)) (iblk6 V c 0 t) (iblk6 V c 1 t) (iblk6 V c 2 t)
  · by_cases h1 : t.val = 24
    · rw [outsAt6_C V c t h0 h1]; dsimp only
      exact out6_C_3_eq c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) _
    · rw [outsAt6_B V c t h0 h1]; dsimp only
      exact out6_B_3_eq c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) (fun h => h1 ((hcond6_1 t).mp h)) (iblk6 V c 0 t) (iblk6 V c 1 t) (iblk6 V c 2 t) _

/-- Tile `t`'s contribution to column `j`'s sum, and to its sum of squares (nothing past the grid). -/
def tsum6 (c : Dev nD) (j : Fin 512) (t : ℕ) : EReal :=
  if h : t < cfg6.N then ∑ r : Fin 2000, zb6 V c ⟨t, h⟩ (ix2 r j) else 0
def tsq6 (c : Dev nD) (j : Fin 512) (t : ℕ) : EReal :=
  if h : t < cfg6.N then ∑ r : Fin 2000, zb6 V c ⟨t, h⟩ (ix2 r j) * zb6 V c ⟨t, h⟩ (ix2 r j) else 0

/-- The carried row at the first point. -/
theorem row6_zero (c : Dev nD) (j : Fin 512) (h : 0 < cfg6.N) :
    (outsAt6 V c 0 h).2.2 (ix2 0 (lo6 j)) = 0 + tsum6 V c j 0
    ∧ (outsAt6 V c 0 h).2.2 (ix2 0 (hi6 j)) = 0 + tsq6 V c j 0 := by
  have h1 : ¬(⟨0, h⟩ : Fin cfg6.N).val = 24 := by dsimp only; omega
  have e := outsAt6_A V c ⟨0, h⟩ rfl h1
  dsimp only at e
  rw [e]; dsimp only
  unfold tsum6 tsq6
  rw [dif_pos h, dif_pos h]
  exact ⟨sout6_A_0_lo c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) scM6_0 (Memref.isWhole_whole _) ((hcond6_0 ⟨0, h⟩).mpr rfl) (fun h' => h1 ((hcond6_1 ⟨0, h⟩).mp h')) (iblk6 V c 0 ⟨0, h⟩) (iblk6 V c 1 ⟨0, h⟩) (iblk6 V c 2 ⟨0, h⟩) j,
    sout6_A_0_hi c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) scM6_0 (Memref.isWhole_whole _) ((hcond6_0 ⟨0, h⟩).mpr rfl) (fun h' => h1 ((hcond6_1 ⟨0, h⟩).mp h')) (iblk6 V c 0 ⟨0, h⟩) (iblk6 V c 1 ⟨0, h⟩) (iblk6 V c 2 ⟨0, h⟩) j⟩

/-- The carried row at a later point: what the point before left plus this tile's contribution. -/
theorem row6_succ (c : Dev nD) (j : Fin 512) (n : ℕ) (h : n + 1 < cfg6.N) :
    (outsAt6 V c (n + 1) h).2.2 (ix2 0 (lo6 j)) = (outsAt6 V c n (Nat.lt_of_succ_lt h)).2.2 (ix2 0 (lo6 j)) + tsum6 V c j (n + 1)
    ∧ (outsAt6 V c (n + 1) h).2.2 (ix2 0 (hi6 j)) = (outsAt6 V c n (Nat.lt_of_succ_lt h)).2.2 (ix2 0 (hi6 j)) + tsq6 V c j (n + 1) := by
  have h0 : ¬(⟨n + 1, h⟩ : Fin cfg6.N).val = 0 := Nat.succ_ne_zero n
  unfold tsum6 tsq6
  rw [dif_pos h, dif_pos h]
  by_cases h1 : (⟨n + 1, h⟩ : Fin cfg6.N).val = 24
  · have e := outsAt6_C V c ⟨n + 1, h⟩ h0 h1
    dsimp only at e
    rw [e]; dsimp only
    exact ⟨sout6_C_0_lo c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) scM6_0 (Memref.isWhole_whole _) (fun h' => h0 ((hcond6_0 ⟨n + 1, h⟩).mp h')) ((hcond6_1 ⟨n + 1, h⟩).mpr h1) (iblk6 V c 0 ⟨n + 1, h⟩) (iblk6 V c 1 ⟨n + 1, h⟩) (iblk6 V c 2 ⟨n + 1, h⟩) _ j,
      sout6_C_0_hi c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) scM6_0 (Memref.isWhole_whole _) (fun h' => h0 ((hcond6_0 ⟨n + 1, h⟩).mp h')) ((hcond6_1 ⟨n + 1, h⟩).mpr h1) (iblk6 V c 0 ⟨n + 1, h⟩) (iblk6 V c 1 ⟨n + 1, h⟩) (iblk6 V c 2 ⟨n + 1, h⟩) _ j⟩
  · have e := outsAt6_B V c ⟨n + 1, h⟩ h0 h1
    dsimp only at e
    rw [e]; dsimp only
    exact ⟨sout6_B_0_lo c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) scM6_0 (Memref.isWhole_whole _) (fun h' => h0 ((hcond6_0 ⟨n + 1, h⟩).mp h')) (fun h' => h1 ((hcond6_1 ⟨n + 1, h⟩).mp h')) (iblk6 V c 0 ⟨n + 1, h⟩) (iblk6 V c 1 ⟨n + 1, h⟩) (iblk6 V c 2 ⟨n + 1, h⟩) _ j,
      sout6_B_0_hi c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) scM6_0 (Memref.isWhole_whole _) (fun h' => h0 ((hcond6_0 ⟨n + 1, h⟩).mp h')) (fun h' => h1 ((hcond6_1 ⟨n + 1, h⟩).mp h')) (iblk6 V c 0 ⟨n + 1, h⟩) (iblk6 V c 1 ⟨n + 1, h⟩) (iblk6 V c 2 ⟨n + 1, h⟩) _ j⟩

/-- So after point `n` the carried row holds, column by column, the sums over the tiles so far. -/
theorem row6_eq (c : Dev nD) (j : Fin 512) (n : ℕ) (h : n < cfg6.N) :
    (outsAt6 V c n h).2.2 (ix2 0 (lo6 j)) = ∑ t ∈ Finset.range (n + 1), tsum6 V c j t
    ∧ (outsAt6 V c n h).2.2 (ix2 0 (hi6 j)) = ∑ t ∈ Finset.range (n + 1), tsq6 V c j t :=
  ⟨steps_eq_sum6 (tsum6 V c j) cfg6.N (fun n h => (outsAt6 V c n h).2.2 (ix2 0 (lo6 j)))
      (fun h => (row6_zero V c j h).1) (fun n h => (row6_succ V c j n h).1) n h,
    steps_eq_sum6 (tsq6 V c j) cfg6.N (fun n h => (outsAt6 V c n h).2.2 (ix2 0 (hi6 j)))
      (fun h => (row6_zero V c j h).2) (fun n h => (row6_succ V c j n h).2) n h⟩

/-- The sums over all the tiles are the column sums of the whole product, and of its squares. -/
theorem tsum6_all (c : Dev nD) (j : Fin 512) :
    ∑ t ∈ Finset.range 25, tsum6 V c j t = Spec.colSum (Z6 V c) j := by
  have hN : cfg6.N = 25 := N_6
  rw [Finset.sum_range]
  show _ = ∑ i : Fin 50000, Z6 V c (ix2 i j)
  rw [sum_rows_tiles6]
  refine Finset.sum_congr rfl fun t _ => ?_
  have ht : t.val < cfg6.N := by have := t.isLt; omega
  unfold tsum6
  rw [dif_pos ht]
  exact Finset.sum_congr rfl fun r _ =>
    zb6_apply V c ⟨t.val, ht⟩ r j ⟨2000 * t.val + r.val, by have := t.isLt; have := r.isLt; omega⟩ rfl

theorem tsq6_all (c : Dev nD) (j : Fin 512) :
    ∑ t ∈ Finset.range 25, tsq6 V c j t = Spec.colSumSq (Z6 V c) j := by
  have hN : cfg6.N = 25 := N_6
  rw [Finset.sum_range]
  show _ = ∑ i : Fin 50000, Z6 V c (ix2 i j) * Z6 V c (ix2 i j)
  rw [sum_rows_tiles6]
  refine Finset.sum_congr rfl fun t _ => ?_
  have ht : t.val < cfg6.N := by have := t.isLt; omega
  unfold tsq6
  rw [dif_pos ht]
  exact Finset.sum_congr rfl fun r _ => by
    rw [zb6_apply V c ⟨t.val, ht⟩ r j ⟨2000 * t.val + r.val, by have := t.isLt; have := r.isLt; omega⟩ rfl]

/-! ## The two output arrays after the region -/

/-- The statistics row: the column sums in its first half, the column sums of squares in its second. -/
def stats6 (Z : Spec.Mx 50000 512) : Spec.Mx 1 1024 := fun i =>
  if h : (i 1).val < 512 then Spec.colSum Z ⟨(i 1).val, h⟩
  else Spec.colSumSq Z ⟨(i 1).val - 512, by have : (i 1).val < 1024 := (i 1).isLt; omega⟩

theorem stats6_lo (Z : Spec.Mx 50000 512) (j : Fin 512) : stats6 Z (ix2 0 (lo6 j)) = Spec.colSum Z j := by
  unfold stats6
  have hq : ((ix2 (0 : Fin 1) (lo6 j) : S1x1024.Idx) 1).val < 512 := j.isLt
  rw [dif_pos hq]
theorem stats6_hi (Z : Spec.Mx 50000 512) (j : Fin 512) : stats6 Z (ix2 0 (hi6 j)) = Spec.colSumSq Z j := by
  unfold stats6
  have hq : ¬((ix2 (0 : Fin 1) (hi6 j) : S1x1024.Idx) 1).val < 512 := by
    show ¬ 512 + j.val < 512; omega
  rw [dif_neg hq]
  exact congrArg (Spec.colSumSq Z) (Fin.ext (by show 512 + j.val - 512 = j.val; omega))

/-- What point `t` writes back of the product is block `t` of the whole product. -/
theorem flushed6_3_eq (c : Dev nD) (t : Fin cfg6.N) :
    (dat6 V c).flushed 3 t = ((cfg6.win 3).blk t).view.read (Elt Ideal) (Z6 V c) := by
  show (cfg6.win 3).cut (grid6.coords t) ((dat6 V c).after 3 t) = _
  rw [after6_3, outsAt6_fst]
  funext y
  obtain ⟨r, j, rfl⟩ : ∃ (r : Fin 2000) (j : Fin 512), y = ix2 r j := ⟨y 0, y 1, eq_ix2 y⟩
  have hi : (⟨2000 * t.val + r.val, by have hN : cfg6.N = 25 := N_6; have := t.isLt; have := r.isLt; omega⟩ : Fin 50000).val
      = 2000 * t.val + r.val := rfl
  refine Eq.trans ?_ (read_blk6_3 (Z6 V c) t r j _ hi).symm
  exact zb6_apply V c t r j _ hi

/-- The product array after the region is the whole product. -/
theorem z_eq6 (c : Dev nD) : (dat6 V c).arrAt 3 cfg6.N = Z6 V c :=
  (dat6 V c).arrAt_eq_of_cover 3 (Z6 V c) (fun t _ => flushed6_3_eq V c t) cover6_3

/-- What the last point writes back of the statistics is the whole statistics row. -/
theorem flushed6_4_eq (c : Dev nD) (t : Fin cfg6.N) (hf : (cfg6.win 4).flush t = true) :
    (dat6 V c).flushed 4 t = ((cfg6.win 4).blk t).view.read (Elt Ideal) (stats6 (Z6 V c)) := by
  have hN : cfg6.N = 25 := N_6
  have h24 : t.val = 24 := by have := (flush6_4 t).mp hf; have := t.isLt; omega
  have h0 : ¬t.val = 0 := by omega
  show (cfg6.win 4).cut (grid6.coords t) ((dat6 V c).after 4 t) = _
  rw [after6_4]
  funext y
  rw [read_blk6_4 (stats6 (Z6 V c)) t y]
  have e := outsAt6_C V c t h0 h24
  have e4 : (outsAt6 V c t.val t.isLt).2.1 = (outsAt6 V c t.val t.isLt).2.2 := by
    rw [e]; dsimp only
    exact out6_C_4_eq c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h24) (iblk6 V c 0 t) (iblk6 V c 1 t) (iblk6 V c 2 t) _
  show (outsAt6 V c t.val t.isLt).2.1 y = _
  rw [e4]
  obtain ⟨p, q, rfl⟩ : ∃ (p : Fin 1) (q : Fin 1024), y = ix2 p q := ⟨y 0, y 1, eq_ix2 y⟩
  obtain rfl : p = 0 := Fin.ext (by have := p.isLt; omega)
  have hr := fun j => row6_eq V c j t.val t.isLt
  have hq : (∃ j : Fin 512, q = lo6 j) ∨ (∃ j : Fin 512, q = hi6 j) := by
    by_cases h : q.val < 512
    · exact .inl ⟨⟨q.val, h⟩, Fin.ext rfl⟩
    · exact .inr ⟨⟨q.val - 512, by have := q.isLt; omega⟩, Fin.ext (by show q.val = 512 + (q.val - 512); omega)⟩
  rcases hq with ⟨j, rfl⟩ | ⟨j, rfl⟩
  · rw [(hr j).1, h24, stats6_lo]; exact tsum6_all V c j
  · rw [(hr j).2, h24, stats6_hi]; exact tsq6_all V c j

/-- The statistics array after the region is the whole statistics row. -/
theorem stats_arr6 (c : Dev nD) : (dat6 V c).arrAt 4 cfg6.N = stats6 (Z6 V c) :=
  (dat6 V c).arrAt_eq_of_cover 4 (stats6 (Z6 V c)) (fun t hf => flushed6_4_eq V c t hf) cover6_4

/-- Column by column: the first half holds the column sums of the product, the second those of its squares. -/
theorem stats_eq6 (c : Dev nD) (j : Fin 512) :
    (dat6 V c).arrAt 4 cfg6.N (ix2 0 (lo6 j)) = Spec.colSum (Z6 V c) j
    ∧ (dat6 V c).arrAt 4 cfg6.N (ix2 0 (hi6 j)) = Spec.colSumSq (Z6 V c) j := by
  rw [stats_arr6]
  exact ⟨stats6_lo _ j, stats6_hi _ j⟩

end Cert.KernelIdeal.HandValue

end
-- ==== Proof.KI.Val7.lean ====
/-
  The value of the second stage's region, at the extended reals.

  The region walks 50000 rows in 25 tiles of 2000. At each tile it normalises the tile's rows with a
  mean row, a variance row, a gain row and a bias row, rectifies them, multiplies by the weights, and
  stores the tile's product; it adds the product's column sums and column sums of squares to a
  one-row accumulator (zeroed before the first tile), and after the last tile copies the accumulator
  out. This module reads that off: the product array is the specification's `mm (bnRelu …) w`, and the
  statistics row holds its column sums and column sums of squares over all rows. Addition of extended
  reals is commutative and associative, so regrouping the tiles' partial sums needs no finiteness.
-/
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import proofs.«427833_j20194936226511_1_alg».proof.Proof.Spec
import proofs.«427833_j20194936226511_1_alg».proof.Proof.KI.Reg7
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Mathlib.Algebra.BigOperators.Fin
import Mathlib.Logic.Equiv.Fin.Basic

noncomputable section

namespace Cert.KernelIdeal.HandValue

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)
open scoped BigOperators

/-! ## The product's operand indices, coordinate by coordinate

The product contracts the left operand's second axis with the right operand's first: at the output
index `(r, j)` and the contraction position `l` it reads the left operand at `(r, l)` and the right
operand at `(l, j)`. -/

theorem k7_dot_lhs_0 (j : S2000x128.Idx) (k : dot_S2000x512_S512x128_S2000x128_1_0_0_1_n_n.contr.Idx) :
    (dot_S2000x512_S512x128_S2000x128_1_0_0_1_n_n.lhsIdx j k 0 : ℕ) = j 0 := by
  simp [DotDims.lhsIdx, dot_S2000x512_S512x128_S2000x128_1_0_0_1_n_n] <;> rfl
theorem k7_dot_lhs_1 (j : S2000x128.Idx) (k : dot_S2000x512_S512x128_S2000x128_1_0_0_1_n_n.contr.Idx) :
    (dot_S2000x512_S512x128_S2000x128_1_0_0_1_n_n.lhsIdx j k 1 : ℕ) = k ⟨0, by decide⟩ := by
  simp [DotDims.lhsIdx, dot_S2000x512_S512x128_S2000x128_1_0_0_1_n_n] <;> rfl
theorem k7_dot_rhs_0 (j : S2000x128.Idx) (k : dot_S2000x512_S512x128_S2000x128_1_0_0_1_n_n.contr.Idx) :
    (dot_S2000x512_S512x128_S2000x128_1_0_0_1_n_n.rhsIdx j k 0 : ℕ) = k ⟨0, by decide⟩ := by
  simp [DotDims.rhsIdx, dot_S2000x512_S512x128_S2000x128_1_0_0_1_n_n] <;> rfl
theorem k7_dot_rhs_1 (j : S2000x128.Idx) (k : dot_S2000x512_S512x128_S2000x128_1_0_0_1_n_n.contr.Idx) :
    (dot_S2000x512_S512x128_S2000x128_1_0_0_1_n_n.rhsIdx j k 1 : ℕ) = j 1 := by
  simp [DotDims.rhsIdx, dot_S2000x512_S512x128_S2000x128_1_0_0_1_n_n] <;> rfl

/-- A product into the zero accumulator, read at `(r, j)`: the sum over the contracted axis. -/
theorem k7_matmul_apply (a : FVec Ideal S2000x512 .bf16) (w : FVec Ideal S512x128 .bf16) (r : Fin 2000) (j : Fin 128) :
    matmul (F := Ideal) dot_S2000x512_S512x128_S2000x128_1_0_0_1_n_n none a w (constant S2000x128 .f32 0x00000000#32) (ix2 r j)
      = ∑ l : Fin 512, a (ix2 r l) * w (ix2 l j) := by
  refine (Ideal.matmul_constant_zero_apply dot_S2000x512_S512x128_S2000x128_1_0_0_1_n_n none a w (ix2 r j)).trans ?_
  rw [← Equiv.sum_comp (contrEquiv1 dot_S2000x512_S512x128_S2000x128_1_0_0_1_n_n 512 rfl rfl).symm]
  refine Finset.sum_congr rfl fun l _ => ?_
  have hk := contrEquiv1_symm_val dot_S2000x512_S512x128_S2000x128_1_0_0_1_n_n 512 rfl rfl l
  refine congrArg₂ (· * ·) (congrArg a (funext fun ax => Fin.ext ?_)) (congrArg w (funext fun ax => Fin.ext ?_))
  · match ax with
    | ⟨0, _⟩ => exact k7_dot_lhs_0 _ _
    | ⟨1, _⟩ => exact (k7_dot_lhs_1 _ _).trans hk
  · match ax with
    | ⟨0, _⟩ => exact (k7_dot_rhs_0 _ _).trans hk
    | ⟨1, _⟩ => exact k7_dot_rhs_1 _ _

/-! ## The payloads at an index -/

/-- The tile's product at `(r, j)`: the sum over `l` of the normalised, rectified entry `(r, l)` of the
    block (gain `g`, mean `mu`, variance `var`, bias `b`, each one row) times the weight `(l, j)`. The
    change of float format in between is the identity on the extended reals. -/
theorem k7_pay4_apply (z : Vec Ideal S2000x512 .f32) (g mu var b : Vec Ideal S1x512 .f32) (w : Vec Ideal S512x128 .bf16)
    (r : Fin 2000) (j : Fin 128) :
    k7_pay4 (F := Ideal) z g mu var b w (ix2 r j)
      = ∑ l : Fin 512, max (g (ix2 0 l) * (z (ix2 r l) - mu (ix2 0 l)) * Ideal.rsqrt (var (ix2 0 l) + Spec.bnEps) + b (ix2 0 l)) Spec.zero
          * w (ix2 l j) := by
  unfold k7_pay4
  refine (k7_matmul_apply _ _ r j).trans ?_
  refine Finset.sum_congr rfl fun l _ => ?_
  simp only [shapeCast_self]
  refine congrArg₂ (· * ·) ?_ rfl
  show max (broadcastTo S2000x512 g broadcasts_S1x512_S2000x512 (ix2 r l)
        * (z (ix2 r l) - broadcastTo S2000x512 mu broadcasts_S1x512_S2000x512 (ix2 r l))
        * broadcastTo S2000x512 (rsqrt (F := Ideal) (addf (F := Ideal) var (broadcast S1x512 (Scalar.ofBits (F := Ideal) .f32 0x3727C5AC#32)))) broadcasts_S1x512_S2000x512 (ix2 r l)
        + broadcastTo S2000x512 b broadcasts_S1x512_S2000x512 (ix2 r l)) (Scalar.ofBits (F := Ideal) .f32 0x00000000#32) = _
  rw [broadcastTo_1b_ab_apply g, broadcastTo_1b_ab_apply mu, broadcastTo_1b_ab_apply b, broadcastTo_1b_ab_apply (rsqrt (F := Ideal) _)]
  rfl

/-- The tile's column sums, as a row: at `(0, j)` the sum of the tile's product over its rows. -/
theorem k7_pay5_apply (z : Vec Ideal S2000x512 .f32) (g mu var b : Vec Ideal S1x512 .f32) (w : Vec Ideal S512x128 .bf16) (j : Fin 128) :
    k7_pay5 (F := Ideal) z g mu var b w (ix2 0 j) = ∑ r : Fin 2000, k7_pay4 (F := Ideal) z g mu var b w (ix2 r j) := by
  refine (shapeCast_a_1a_apply (multiReduction (F := Ideal) .add [0] S128 (k7_pay4 z g mu var b w) 0x00000000#32 reduces_S2000x128_S128 (.inl rfl) rfl)
    shapeCasts_S128_S1x128 0 j).trans ?_
  refine (Ideal.multiReduction_add_single (k7_pay4 (F := Ideal) z g mu var b w) 0x00000000#32 reduces_S2000x128_S128 (.inl rfl) rfl (ix1 j)).trans ?_
  refine Finset.sum_congr rfl fun r _ => congrArg (k7_pay4 (F := Ideal) z g mu var b w) ?_
  funext c; match c with | ⟨0, _⟩ => rfl | ⟨1, _⟩ => rfl

/-- The tile's column sums of squares, as a row. -/
theorem k7_pay6_apply (z : Vec Ideal S2000x512 .f32) (g mu var b : Vec Ideal S1x512 .f32) (w : Vec Ideal S512x128 .bf16) (j : Fin 128) :
    k7_pay6 (F := Ideal) z g mu var b w (ix2 0 j)
      = ∑ r : Fin 2000, k7_pay4 (F := Ideal) z g mu var b w (ix2 r j) * k7_pay4 (F := Ideal) z g mu var b w (ix2 r j) := by
  refine (shapeCast_a_1a_apply (multiReduction (F := Ideal) .add [0] S128 (mulf (k7_pay4 z g mu var b w) (k7_pay4 z g mu var b w)) 0x00000000#32 reduces_S2000x128_S128 (.inl rfl) rfl)
    shapeCasts_S128_S1x128 0 j).trans ?_
  refine (Ideal.multiReduction_add_single (mulf (k7_pay4 (F := Ideal) z g mu var b w) (k7_pay4 (F := Ideal) z g mu var b w)) 0x00000000#32 reduces_S2000x128_S128 (.inl rfl) rfl (ix1 j)).trans ?_
  refine Finset.sum_congr rfl fun r _ => ?_
  have e : reduces_S2000x128_S128.lift (ix1 j) r = ix2 r j := by
    funext c; match c with | ⟨0, _⟩ => rfl | ⟨1, _⟩ => rfl
  rw [e]; rfl

/-- The accumulator's first half after a tile: what it held plus the tile's row of sums. -/
theorem k7_pay1_apply (row : FVec Ideal S1x128 .f32) (acc : Vec Ideal S1x128 .f32) (i : S1x128.Idx) :
    k7_pay1 (F := Ideal) row acc i = acc i + row i :=
  congrFun (shapeCast_self (addf (F := Ideal) acc row) shapeCasts_S1x128_S1x128) i

/-- The accumulator's second half after a tile: what it held plus the tile's row of sums of squares. -/
theorem k7_pay2_apply (row : FVec Ideal S1x128 .f32) (acc : Vec Ideal S1x128 .f32) (i : S1x128.Idx) :
    k7_pay2 (F := Ideal) row acc i = acc i + row i :=
  congrFun (shapeCast_self (addf (F := Ideal) acc row) shapeCasts_S1x128_S1x128) i

/-- The accumulator's reset: the zero word everywhere. -/
theorem k7_pay3_apply (i : S1x256.Idx) : k7_pay3 (F := Ideal) i = Spec.zero :=
  congrFun (shapeCast_self (broadcast S1x256 (Scalar.ofBits (F := Ideal) .f32 0x00000000#32)) shapeCasts_S1x256_S1x256) i

/-! ## Regrouping: the tiles' partial sums are the sum over all rows

The grid walks the rows in 25 tiles of 2000; row `r` of tile `t` is row `2000 t + r`. A sum over all
50000 rows is the sum over the tiles of the sums over a tile's rows: addition of extended reals is
commutative and associative, so no finiteness is needed. -/

/-- Row `r` of tile `t`. -/
def k7_rowOf (t : Fin 25) (r : Fin 2000) : Fin 50000 :=
  ⟨2000 * t.val + r.val, by have := t.isLt; have := r.isLt; omega⟩

theorem k7_rowOf_val (t : Fin 25) (r : Fin 2000) : (k7_rowOf t r).val = 2000 * t.val + r.val := rfl

theorem k7_sum_tiles (f : Fin 50000 → EReal) :
    ∑ t : Fin 25, ∑ r : Fin 2000, f (k7_rowOf t r) = ∑ i : Fin 50000, f i := by
  refine (Fintype.sum_prod_type' (fun t r => f (k7_rowOf t r))).symm.trans ?_
  refine Fintype.sum_equiv ((finProdFinEquiv (m := 25) (n := 2000)).trans (finCongr (by norm_num))) _ _ fun x => ?_
  refine congrArg f (Fin.ext ?_)
  simp [k7_rowOf, finProdFinEquiv]
  omega

/-- The sum of `f` over tile `t`'s rows; zero past the last tile. -/
def k7_tileSum (f : Fin 50000 → EReal) (t : ℕ) : EReal :=
  if h : t < 25 then ∑ r : Fin 2000, f (k7_rowOf ⟨t, h⟩ r) else 0

theorem k7_tileSum_of_lt (f : Fin 50000 → EReal) (t : ℕ) (h : t < 25) :
    k7_tileSum f t = ∑ r : Fin 2000, f (k7_rowOf ⟨t, h⟩ r) := dif_pos h

/-- The 25 tiles' sums, added in the grid's order, are the sum over all rows. -/
theorem k7_sum_range_tiles (f : Fin 50000 → EReal) :
    ∑ t ∈ Finset.range 25, k7_tileSum f t = ∑ i : Fin 50000, f i := by
  rw [Finset.sum_range]
  exact (Finset.sum_congr rfl fun t _ => k7_tileSum_of_lt f t.val t.isLt).trans (k7_sum_tiles f)

/-! ## One point, against the whole arrays

Over variables: the blocks `x0 … x5` the body loads at a point, and the arrays `M0 … M5` they are blocks
of. Tile `n`'s block of the first operand holds rows `2000 n …` of its array; the five other operands
are whole. -/

section Point
variable (x0 : Vec Ideal S2000x512 .f32) (x1 x2 x3 x4 : Vec Ideal S1x512 .f32) (x5 : Vec Ideal S512x128 .bf16)
variable (M0 : Spec.Mx 50000 512) (M1 M2 M3 M4 : Spec.Mx 1 512) (M5 : Spec.Mx 512 128)

/-- The whole product: the rows normalised with mean `M1`, variance `M2`, gain `M3`, bias `M4`,
    rectified, times the weights. -/
abbrev k7_prod : Spec.Mx 50000 128 :=
  Spec.mm (Spec.bnRelu M0 (fun l => M1 (ix2 0 l)) (fun l => M2 (ix2 0 l)) (fun l => M3 (ix2 0 l)) (fun l => M4 (ix2 0 l))) M5

/-- The tile's product at `(r, j)` is the whole product at the tile's row. (The body passes the gain
    first, then the mean, the variance and the bias.) -/
theorem k7_point4 (r : Fin 2000) (j : Fin 128) (ir : Fin 50000)
    (h0 : ∀ l : Fin 512, x0 (ix2 r l) = M0 (ix2 ir l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ l : Fin 512, x5 (ix2 l j) = M5 (ix2 l j)) :
    k7_pay4 (F := Ideal) x0 x3 x1 x2 x4 x5 (ix2 r j) = k7_prod M0 M1 M2 M3 M4 M5 (ix2 ir j) := by
  rw [k7_pay4_apply]
  show _ = ∑ l : Fin 512, max (M3 (ix2 0 l) * (M0 (ix2 ir l) - M1 (ix2 0 l)) * Ideal.rsqrt (M2 (ix2 0 l) + Spec.bnEps) + M4 (ix2 0 l)) Spec.zero
      * M5 (ix2 l j)
  refine Finset.sum_congr rfl fun l _ => ?_
  rw [h0, h1, h2, h3, h4, h5]

/-- Tile `n`'s row of column sums is the sum of the whole product's column over the tile's rows. -/
theorem k7_point5 (n : ℕ) (hn : n < 25) (j : Fin 128)
    (h0 : ∀ (r : Fin 2000) (l : Fin 512), x0 (ix2 r l) = M0 (ix2 (k7_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 128), x5 (ix2 l j) = M5 (ix2 l j)) :
    k7_pay5 (F := Ideal) x0 x3 x1 x2 x4 x5 (ix2 0 j) = k7_tileSum (fun i => k7_prod M0 M1 M2 M3 M4 M5 (ix2 i j)) n := by
  rw [k7_pay5_apply, k7_tileSum_of_lt _ n hn]
  exact Finset.sum_congr rfl fun r _ =>
    k7_point4 x0 x1 x2 x3 x4 x5 M0 M1 M2 M3 M4 M5 r j (k7_rowOf ⟨n, hn⟩ r) (h0 r) h1 h2 h3 h4 (fun l => h5 l j)

/-- Tile `n`'s row of column sums of squares likewise. -/
theorem k7_point6 (n : ℕ) (hn : n < 25) (j : Fin 128)
    (h0 : ∀ (r : Fin 2000) (l : Fin 512), x0 (ix2 r l) = M0 (ix2 (k7_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 128), x5 (ix2 l j) = M5 (ix2 l j)) :
    k7_pay6 (F := Ideal) x0 x3 x1 x2 x4 x5 (ix2 0 j)
      = k7_tileSum (fun i => k7_prod M0 M1 M2 M3 M4 M5 (ix2 i j) * k7_prod M0 M1 M2 M3 M4 M5 (ix2 i j)) n := by
  rw [k7_pay6_apply, k7_tileSum_of_lt _ n hn]
  refine Finset.sum_congr rfl fun r _ => ?_
  rw [k7_point4 x0 x1 x2 x3 x4 x5 M0 M1 M2 M3 M4 M5 r j (k7_rowOf ⟨n, hn⟩ r) (h0 r) h1 h2 h3 h4 (fun l => h5 l j)]

end Point

/-! ## The accumulator row

The row has two halves: the first carries the sums, the second the sums of squares. -/

/-- Column `j` of the first half. -/
def k7_lo (j : Fin 128) : Fin 256 := ⟨j.val, by have := j.isLt; omega⟩
/-- Column `j` of the second half. -/
def k7_hi (j : Fin 128) : Fin 256 := ⟨128 + j.val, by have := j.isLt; omega⟩

/-- The row holds the first `n` tiles' sums of `Z`'s columns and of their squares. -/
def k7_AccIs (Z : Spec.Mx 50000 128) (n : ℕ) (acc : Vec Ideal S1x256 .f32) : Prop :=
  ∀ j : Fin 128,
    acc (ix2 0 (k7_lo j)) = ∑ t ∈ Finset.range n, k7_tileSum (fun i => Z (ix2 i j)) t
    ∧ acc (ix2 0 (k7_hi j)) = ∑ t ∈ Finset.range n, k7_tileSum (fun i => Z (ix2 i j) * Z (ix2 i j)) t

/-- After the first tile: the zero word plus the tile's rows. -/
theorem k7_AccIs_first (Z : Spec.Mx 50000 128) (acc : Vec Ideal S1x256 .f32) (row5 row6 : FVec Ideal S1x128 .f32)
    (hlo : ∀ j : Fin 128, acc (ix2 0 (k7_lo j)) = Spec.zero + row5 (ix2 0 j))
    (hhi : ∀ j : Fin 128, acc (ix2 0 (k7_hi j)) = Spec.zero + row6 (ix2 0 j))
    (h5 : ∀ j : Fin 128, row5 (ix2 0 j) = k7_tileSum (fun i => Z (ix2 i j)) 0)
    (h6 : ∀ j : Fin 128, row6 (ix2 0 j) = k7_tileSum (fun i => Z (ix2 i j) * Z (ix2 i j)) 0) :
    k7_AccIs Z 1 acc := fun j => by
  have hz : Spec.zero = 0 := Ideal.ofBits_zero_f32
  rw [hlo, hhi, h5, h6, hz, zero_add, zero_add, Finset.sum_range_one, Finset.sum_range_one]
  exact ⟨rfl, rfl⟩

/-- After a later tile: what the row held plus the tile's rows. -/
theorem k7_AccIs_next (Z : Spec.Mx 50000 128) (n : ℕ) (acc acc' : Vec Ideal S1x256 .f32) (row5 row6 : FVec Ideal S1x128 .f32)
    (h : k7_AccIs Z n acc)
    (hlo : ∀ j : Fin 128, acc' (ix2 0 (k7_lo j)) = acc (ix2 0 (k7_lo j)) + row5 (ix2 0 j))
    (hhi : ∀ j : Fin 128, acc' (ix2 0 (k7_hi j)) = acc (ix2 0 (k7_hi j)) + row6 (ix2 0 j))
    (h5 : ∀ j : Fin 128, row5 (ix2 0 j) = k7_tileSum (fun i => Z (ix2 i j)) n)
    (h6 : ∀ j : Fin 128, row6 (ix2 0 j) = k7_tileSum (fun i => Z (ix2 i j) * Z (ix2 i j)) n) :
    k7_AccIs Z (n + 1) acc' := fun j => by
  rw [hlo, hhi, h5, h6, (h j).1, (h j).2, Finset.sum_range_succ, Finset.sum_range_succ]
  exact ⟨rfl, rfl⟩

/-- After the last tile the row holds the column sums and the column sums of squares. -/
theorem k7_AccIs_last (Z : Spec.Mx 50000 128) (acc : Vec Ideal S1x256 .f32) (h : k7_AccIs Z 25 acc) (j : Fin 128) :
    acc (ix2 0 (k7_lo j)) = Spec.colSum Z j ∧ acc (ix2 0 (k7_hi j)) = Spec.colSumSq Z j := by
  rw [(h j).1, (h j).2, k7_sum_range_tiles, k7_sum_range_tiles]
  exact ⟨rfl, rfl⟩

/-! ## The accumulator row's two halves, as rectangles -/

theorem k7_hz : (![0, 0] : Fin 2 → Nat) = fun _ => 0 := funext fun a => by fin_cases a <;> rfl

/-- The first half of the row. -/
abbrev k7_rLo : Rect S1x256 := Rect.unit (s := S1x256) ![0, 0] S1x128.size inb_S1x256_S1x128_0_0
/-- The second half of the row. -/
abbrev k7_rHi : Rect S1x256 := Rect.unit (s := S1x256) ![0, 128] S1x128.size inb_S1x256_S1x128_0_128
/-- The whole row. -/
abbrev k7_rAll : Rect S1x256 := Rect.unit (s := S1x256) ![0, 0] S1x256.size inb_S1x256_S1x256_0_0

/-- Column `j` of the first half sits at column `j` of the row. -/
theorem k7_rLo_emb (j : Fin 128) : k7_rLo.emb (ix2 (0 : Fin 1) j) = ix2 (0 : Fin 1) (k7_lo j) := by
  funext a; apply Fin.ext
  match a with
  | ⟨0, _⟩ => rfl
  | ⟨1, _⟩ => show 0 + 1 * j.val = j.val; omega

/-- Column `j` of the second half sits `j` columns past the first half. -/
theorem k7_rHi_emb (j : Fin 128) : k7_rHi.emb (ix2 (0 : Fin 1) j) = ix2 (0 : Fin 1) (k7_hi j) := by
  funext a; apply Fin.ext
  match a with
  | ⟨0, _⟩ => rfl
  | ⟨1, _⟩ => show 128 + 1 * j.val = 128 + j.val; omega

/-- The whole row's rectangle places every index at itself. -/
theorem k7_rAll_idx (y : S1x256.Idx) : k7_rAll.toLoadRect.idx y = y := by
  funext a; apply Fin.ext
  match a with
  | ⟨0, _⟩ => show 0 + 1 * (y 0).val = (y 0).val; omega
  | ⟨1, _⟩ => show 0 + 1 * (y 1).val = (y 1).val; omega

/-- A column of the first half is not in the second half's rectangle … -/
theorem k7_lo_not_mem_hi (j : Fin 128) : (ix2 (0 : Fin 1) (k7_lo j) : S1x256.Idx) ∉ k7_rHi.set := by
  rw [Rect.mem_set_unit]
  intro h
  have h1 : 128 ≤ j.val := (h 1).1
  have := j.isLt; omega

/-- … and a column of the second half is not in the first half's. -/
theorem k7_hi_not_mem_lo (j : Fin 128) : (ix2 (0 : Fin 1) (k7_hi j) : S1x256.Idx) ∉ k7_rLo.set := by
  rw [Rect.mem_set_unit]
  intro h
  have h1 : 128 + j.val < 0 + 128 := (h 1).2
  omega

section Canon
variable {F : FTy → Type} [FloatOps F]

/-- After the two half stores (the second half's last), the row's second half reads the second store's payload … -/
theorem k7_canon_hi (wHi wLo : Vec F S1x128 .f32) (L : List (View.Piece (Elt F) S1x256 .f32)) (j : Fin 128) :
    View.canon ((⟨k7_rHi, wHi⟩ : View.Piece (Elt F) S1x256 .f32) :: ⟨k7_rLo, wLo⟩ :: L) (ix2 (0 : Fin 1) (k7_hi j)) = wHi (ix2 (0 : Fin 1) j) := by
  rw [← k7_rHi_emb j]
  exact View.canon_cons_emb k7_rHi wHi _ (ix2 (0 : Fin 1) j)

/-- … and its first half the first store's. -/
theorem k7_canon_lo (wHi wLo : Vec F S1x128 .f32) (L : List (View.Piece (Elt F) S1x256 .f32)) (j : Fin 128) :
    View.canon ((⟨k7_rHi, wHi⟩ : View.Piece (Elt F) S1x256 .f32) :: ⟨k7_rLo, wLo⟩ :: L) (ix2 (0 : Fin 1) (k7_lo j)) = wLo (ix2 (0 : Fin 1) j) := by
  refine (View.canon_cons_of_not_mem (⟨k7_rHi, wHi⟩ : View.Piece (Elt F) S1x256 .f32) (⟨k7_rLo, wLo⟩ :: L) (k7_lo_not_mem_hi j)).trans ?_
  rw [← k7_rLo_emb j]
  exact View.canon_cons_emb k7_rLo wLo L (ix2 (0 : Fin 1) j)

/-- A load of the first half reads the row's first half … -/
theorem k7_ld_lo (xs : Vec F S1x256 .f32) (j : Fin 128) : View.ld xs k7_rLo (ix2 (0 : Fin 1) j) = xs (ix2 (0 : Fin 1) (k7_lo j)) :=
  congrArg xs (k7_rLo_emb j)
/-- … and a load of the second half its second half. -/
theorem k7_ld_hi (xs : Vec F S1x256 .f32) (j : Fin 128) : View.ld xs k7_rHi (ix2 (0 : Fin 1) j) = xs (ix2 (0 : Fin 1) (k7_hi j)) :=
  congrArg xs (k7_rHi_emb j)

/-- A load of the first half after the zeroing store alone reads the zero row … -/
theorem k7_readCov_lo_zero {sg : RefSig} {κ : Kind} {sp : Space} (v : View sg κ sp S1x256 .f32) (w0 : Vec F S1x256 .f32) (j : Fin 128) :
    v.readCov [(⟨k7_rAll, w0⟩ : View.Piece (Elt F) S1x256 .f32)] k7_rLo.toLoadRect (ix2 (0 : Fin 1) j) = w0 (ix2 (0 : Fin 1) (k7_lo j)) := by
  rw [View.readCov_eq_canon', View.canon_unit_zero k7_hz]
  exact congrArg w0 (k7_rLo_emb j)

/-- … and a load of the second half after the zeroing store and the first half's store still reads the zero row. -/
theorem k7_readCov_hi_zero {sg : RefSig} {κ : Kind} {sp : Space} (v : View sg κ sp S1x256 .f32) (wLo : Vec F S1x128 .f32) (w0 : Vec F S1x256 .f32) (j : Fin 128) :
    v.readCov [(⟨k7_rLo, wLo⟩ : View.Piece (Elt F) S1x256 .f32), ⟨k7_rAll, w0⟩] k7_rHi.toLoadRect (ix2 (0 : Fin 1) j) = w0 (ix2 (0 : Fin 1) (k7_hi j)) := by
  rw [View.readCov_eq_canon']
  show View.canon _ (k7_rHi.emb (ix2 (0 : Fin 1) j)) = _
  rw [k7_rHi_emb j]
  refine (View.canon_cons_of_not_mem (⟨k7_rLo, wLo⟩ : View.Piece (Elt F) S1x256 .f32) [⟨k7_rAll, w0⟩] (k7_hi_not_mem_lo j)).trans ?_
  rw [View.canon_unit_zero k7_hz]

/-- A load of the whole row after a list of stores reads what they leave. -/
theorem k7_readCov_all {sg : RefSig} {κ : Kind} {sp : Space} (v : View sg κ sp S1x256 .f32) (L : List (View.Piece (Elt F) S1x256 .f32)) :
    v.readCov L k7_rAll.toLoadRect = View.canon L := by
  rw [View.readCov_eq_canon']
  funext y
  exact congrArg (View.canon L) (k7_rAll_idx y)

end Canon

/-! ## The index maps over the grid, and the blocks of the two output arrays -/

/-- The first operand's and the product's blocks are the point's block of rows; every other block is its whole
    array. -/
theorem k7_idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0
    ∧ win7_7.index t (0 : Fin 2) = 0 ∧ win7_7.index t (1 : Fin 2) = 0 :=
  (by decide +kernel : ∀ t : Fin grid7.N, _)

/-- A grid point as a tile number. -/
def k7_tile (t : Fin cfg7.N) : Fin 25 := ⟨t.val, by have hN : cfg7.N = 25 := N_7; have := t.isLt; omega⟩

/-- The last grid point. -/
def k7_tLast : Fin cfg7.N := ⟨24, by have hN : cfg7.N = 25 := N_7; omega⟩

/-- An index of the product array is in point `t`'s block iff each coordinate is in the block's range on its axis. -/
theorem k7_mem_blk6 (t : Fin cfg7.N) (i : S50000x128.Idx) :
    i ∈ ((cfg7.win 6).blk t).view.set ↔ ∀ a : Fin 2, win7_6.index t a * S2000x128.size a ≤ (i a).val
      ∧ (i a).val < win7_6.index t a * S2000x128.size a + S2000x128.size a := by
  show i ∈ ((View.whole (Pipeline.arrRef spec7 6)).slice (win7_6.rect t)).set ↔ _
  rw [View.set_slice_whole, Rect.mem_set_unit]
  exact Iff.rfl

/-- The point whose block holds a row: the row's number over the rows in a block. -/
theorem k7_pt_lt (i : S50000x128.Idx) : (i 0).val / 2000 < cfg7.N := by
  have hi0 : (i 0).val < 50000 := (i 0).isLt
  show (i 0).val / 2000 < grid7.N
  rw [N_7]; omega

/-- Every index of the product array is in some point's block, and every point writes its block back. -/
theorem k7_cover6 (i : S50000x128.Idx) :
    ∃ t : Fin cfg7.N, (cfg7.win 6).flush t = true ∧ i ∈ ((cfg7.win 6).blk t).view.set := by
  have hi1 : (i 1).val < 128 := (i 1).isLt
  obtain ⟨t, ht⟩ : ∃ t : Fin cfg7.N, t.val = (i 0).val / 2000 := ⟨⟨_, k7_pt_lt i⟩, rfl⟩
  obtain ⟨-, -, -, -, -, -, -, -, -, -, -, -, e60, e61, -, -⟩ := k7_idx_facts t
  refine ⟨t, flush7_6 t, ?_⟩
  rw [k7_mem_blk6]
  intro a
  match a with
  | ⟨0, _⟩ =>
    show win7_6.index t (0 : Fin 2) * 2000 ≤ (i 0).val ∧ (i 0).val < win7_6.index t (0 : Fin 2) * 2000 + 2000
    rw [e60, ht]; omega
  | ⟨1, _⟩ =>
    show win7_6.index t (1 : Fin 2) * 128 ≤ (i 1).val ∧ (i 1).val < win7_6.index t (1 : Fin 2) * 128 + 128
    rw [e61]; omega

/-- An index of the statistics row is in point `t`'s block iff each coordinate is in the block's range. -/
theorem k7_mem_blk7 (t : Fin cfg7.N) (i : S1x256.Idx) :
    i ∈ ((cfg7.win 7).blk t).view.set ↔ ∀ a : Fin 2, win7_7.index t a * S1x256.size a ≤ (i a).val
      ∧ (i a).val < win7_7.index t a * S1x256.size a + S1x256.size a := by
  show i ∈ ((View.whole (Pipeline.arrRef spec7 7)).slice (win7_7.rect t)).set ↔ _
  rw [View.set_slice_whole, Rect.mem_set_unit]
  exact Iff.rfl

/-- The last point writes the statistics row back, and its block is the whole row. -/
theorem k7_cover7 (i : S1x256.Idx) :
    ∃ t : Fin cfg7.N, (cfg7.win 7).flush t = true ∧ i ∈ ((cfg7.win 7).blk t).view.set := by
  have hi0 : (i 0).val < 1 := (i 0).isLt
  have hi1 : (i 1).val < 256 := (i 1).isLt
  obtain ⟨-, -, -, -, -, -, -, -, -, -, -, -, -, -, e70, e71⟩ := k7_idx_facts k7_tLast
  refine ⟨k7_tLast, (flush7_7 k7_tLast).mpr (by show 24 % 25 = 24; rfl), ?_⟩
  rw [k7_mem_blk7]
  intro a
  match a with
  | ⟨0, _⟩ =>
    show win7_7.index k7_tLast (0 : Fin 2) * 1 ≤ (i 0).val ∧ (i 0).val < win7_7.index k7_tLast (0 : Fin 2) * 1 + 1
    rw [e70]; omega
  | ⟨1, _⟩ =>
    show win7_7.index k7_tLast (1 : Fin 2) * 256 ≤ (i 1).val ∧ (i 1).val < win7_7.index k7_tLast (1 : Fin 2) * 256 + 256
    rw [e71]; omega

/-! ## What each case of the body leaves, read back as payloads

The body's run in each case names the pieces it stored (last store first). Read over nothing, they are
their canon; each load the payloads took is the loaded buffer's contents, or, for a load of the
accumulator after a store into it, what the stores before it left there. -/

open Cert.KernelIdeal.Hand

section Pieces
variable (c : Dev nD) (i : grid7.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole)
  (x0 : Vec Ideal S2000x512 .f32) (x1 x2 x3 x4 : Vec Ideal S1x512 .f32) (x5 : Vec Ideal S512x128 .bf16)

/-- At the first point the product window holds the tile's product. -/
theorem k7_out_A_6 (hc0 : cond7_0 i) (hc1 : ¬cond7_1 i) :
    out7_A_6 c i arg1 harg1 arg2 harg2 arg3 harg3 arg4 harg4 arg5 harg5 arg6 harg6 arg7 harg7 arg8 harg8 arg9 harg9 hc0 hc1 x0 x1 x2 x3 x4 x5 = k7_pay4 (F := Ideal) x0 x3 x1 x2 x4 x5 := by
  unfold out7_A_6
  rw [View.read_writes_junk_eq_canon]
  unfold kernelRun7_A
  dsimp only
  sl_unfold_words
  rw [View.canon_unit_zero k7_hz]
  simp only [View.readAt_eq_ld, harg1.read_unread, harg2.read_unread, harg3.read_unread, harg4.read_unread, harg5.read_unread, harg6.read_unread,
    View.ld_unit_zero (S := S2000x512) k7_hz, View.ld_unit_zero (S := S1x512) k7_hz, View.ld_unit_zero (S := S512x128) k7_hz] <;> rfl

/-- At the first point the accumulator's first half holds the zero word plus the tile's column sums … -/
theorem k7_sout_A_lo (hc0 : cond7_0 i) (hc1 : ¬cond7_1 i) (j : Fin 128) :
    sout7_A_0 c i arg1 harg1 arg2 harg2 arg3 harg3 arg4 harg4 arg5 harg5 arg6 harg6 arg7 harg7 arg8 harg8 arg9 harg9 hc0 hc1 x0 x1 x2 x3 x4 x5 (ix2 (0 : Fin 1) (k7_lo j))
      = Spec.zero + k7_pay5 (F := Ideal) x0 x3 x1 x2 x4 x5 (ix2 (0 : Fin 1) j) := by
  unfold sout7_A_0
  rw [View.read_writes_junk_eq_canon]
  unfold kernelRun7_A
  dsimp only
  sl_unfold_words
  simp only [View.readAt_eq_ld, harg1.read_unread, harg2.read_unread, harg3.read_unread, harg4.read_unread, harg5.read_unread, harg6.read_unread,
    View.ld_unit_zero (S := S2000x512) k7_hz, View.ld_unit_zero (S := S1x512) k7_hz, View.ld_unit_zero (S := S512x128) k7_hz]
  refine (k7_canon_lo _ _ _ j).trans ?_
  refine (k7_pay1_apply _ _ _).trans ?_
  exact congrArg (· + _) ((k7_readCov_lo_zero _ _ j).trans (k7_pay3_apply _))

/-- … and its second half the zero word plus the tile's column sums of squares. -/
theorem k7_sout_A_hi (hc0 : cond7_0 i) (hc1 : ¬cond7_1 i) (j : Fin 128) :
    sout7_A_0 c i arg1 harg1 arg2 harg2 arg3 harg3 arg4 harg4 arg5 harg5 arg6 harg6 arg7 harg7 arg8 harg8 arg9 harg9 hc0 hc1 x0 x1 x2 x3 x4 x5 (ix2 (0 : Fin 1) (k7_hi j))
      = Spec.zero + k7_pay6 (F := Ideal) x0 x3 x1 x2 x4 x5 (ix2 (0 : Fin 1) j) := by
  unfold sout7_A_0
  rw [View.read_writes_junk_eq_canon]
  unfold kernelRun7_A
  dsimp only
  sl_unfold_words
  simp only [View.readAt_eq_ld, harg1.read_unread, harg2.read_unread, harg3.read_unread, harg4.read_unread, harg5.read_unread, harg6.read_unread,
    View.ld_unit_zero (S := S2000x512) k7_hz, View.ld_unit_zero (S := S1x512) k7_hz, View.ld_unit_zero (S := S512x128) k7_hz]
  refine (k7_canon_hi _ _ _ j).trans ?_
  refine (k7_pay2_apply _ _ _).trans ?_
  exact congrArg (· + _) ((k7_readCov_hi_zero _ _ _ j).trans (k7_pay3_apply _))

/-- At a point between the product window holds the tile's product. -/
theorem k7_out_B_6 (hc0 : ¬cond7_0 i) (hc1 : ¬cond7_1 i) (xs0 : Vec Ideal S1x256 .f32) :
    out7_B_6 c i arg1 harg1 arg2 harg2 arg3 harg3 arg4 harg4 arg5 harg5 arg6 harg6 arg7 harg7 arg8 harg8 arg9 harg9 hc0 hc1 x0 x1 x2 x3 x4 x5 xs0 = k7_pay4 (F := Ideal) x0 x3 x1 x2 x4 x5 := by
  unfold out7_B_6
  rw [View.read_writes_junk_eq_canon]
  unfold kernelRun7_B
  dsimp only
  sl_unfold_words
  rw [View.canon_unit_zero k7_hz]
  simp only [View.readAt_eq_ld, harg1.read_unread, harg2.read_unread, harg3.read_unread, harg4.read_unread, harg5.read_unread, harg6.read_unread,
    View.ld_unit_zero (S := S2000x512) k7_hz, View.ld_unit_zero (S := S1x512) k7_hz, View.ld_unit_zero (S := S512x128) k7_hz] <;> rfl

/-- At a point between the accumulator's first half holds what it held plus the tile's column sums … -/
theorem k7_sout_B_lo (hc0 : ¬cond7_0 i) (hc1 : ¬cond7_1 i) (xs0 : Vec Ideal S1x256 .f32) (j : Fin 128) :
    sout7_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k7_lo j))
      = xs0 (ix2 (0 : Fin 1) (k7_lo j)) + k7_pay5 (F := Ideal) x0 x3 x1 x2 x4 x5 (ix2 (0 : Fin 1) j) := by
  unfold sout7_B_0
  rw [View.read_writes_junk_eq_canon]
  unfold kernelRun7_B
  dsimp only
  sl_unfold_words
  simp only [View.readAt_eq_ld, harg1.read_unread, harg2.read_unread, harg3.read_unread, harg4.read_unread, harg5.read_unread, harg6.read_unread, harg9.read_unread,
    View.ld_unit_zero (S := S2000x512) k7_hz, View.ld_unit_zero (S := S1x512) k7_hz, View.ld_unit_zero (S := S512x128) k7_hz]
  refine (k7_canon_lo _ _ _ j).trans ?_
  refine (k7_pay1_apply _ _ _).trans ?_
  exact congrArg (· + _) (k7_ld_lo xs0 j)

/-- … and its second half what it held plus the tile's column sums of squares. -/
theorem k7_sout_B_hi (hc0 : ¬cond7_0 i) (hc1 : ¬cond7_1 i) (xs0 : Vec Ideal S1x256 .f32) (j : Fin 128) :
    sout7_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k7_hi j))
      = xs0 (ix2 (0 : Fin 1) (k7_hi j)) + k7_pay6 (F := Ideal) x0 x3 x1 x2 x4 x5 (ix2 (0 : Fin 1) j) := by
  unfold sout7_B_0
  rw [View.read_writes_junk_eq_canon]
  unfold kernelRun7_B
  dsimp only
  sl_unfold_words
  simp only [View.readAt_eq_ld, harg1.read_unread, harg2.read_unread, harg3.read_unread, harg4.read_unread, harg5.read_unread, harg6.read_unread, harg9.read_unread,
    View.ld_unit_zero (S := S2000x512) k7_hz, View.ld_unit_zero (S := S1x512) k7_hz, View.ld_unit_zero (S := S512x128) k7_hz]
  refine (k7_canon_hi _ _ _ j).trans ?_
  refine (k7_pay2_apply _ _ _).trans ?_
  exact congrArg (· + _) (k7_ld_hi xs0 j)

/-- At the last point the product window holds the tile's product. -/
theorem k7_out_C_6 (hc0 : ¬cond7_0 i) (hc1 : cond7_1 i) (xs0 : Vec Ideal S1x256 .f32) :
    out7_C_6 c i arg1 harg1 arg2 harg2 arg3 harg3 arg4 harg4 arg5 harg5 arg6 harg6 arg7 harg7 arg8 harg8 arg9 harg9 hc0 hc1 x0 x1 x2 x3 x4 x5 xs0 = k7_pay4 (F := Ideal) x0 x3 x1 x2 x4 x5 := by
  unfold out7_C_6
  rw [View.read_writes_junk_eq_canon]
  unfold kernelRun7_C
  dsimp only
  sl_unfold_words
  rw [View.canon_unit_zero k7_hz]
  simp only [View.readAt_eq_ld, harg1.read_unread, harg2.read_unread, harg3.read_unread, harg4.read_unread, harg5.read_unread, harg6.read_unread,
    View.ld_unit_zero (S := S2000x512) k7_hz, View.ld_unit_zero (S := S1x512) k7_hz, View.ld_unit_zero (S := S512x128) k7_hz] <;> rfl

/-- At the last point the accumulator's first half holds what it held plus the tile's column sums … -/
theorem k7_sout_C_lo (hc0 : ¬cond7_0 i) (hc1 : cond7_1 i) (xs0 : Vec Ideal S1x256 .f32) (j : Fin 128) :
    sout7_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k7_lo j))
      = xs0 (ix2 (0 : Fin 1) (k7_lo j)) + k7_pay5 (F := Ideal) x0 x3 x1 x2 x4 x5 (ix2 (0 : Fin 1) j) := by
  unfold sout7_C_0
  rw [View.read_writes_junk_eq_canon]
  unfold kernelRun7_C
  dsimp only
  sl_unfold_words
  simp only [View.readAt_eq_ld, harg1.read_unread, harg2.read_unread, harg3.read_unread, harg4.read_unread, harg5.read_unread, harg6.read_unread, harg9.read_unread,
    View.ld_unit_zero (S := S2000x512) k7_hz, View.ld_unit_zero (S := S1x512) k7_hz, View.ld_unit_zero (S := S512x128) k7_hz]
  refine (k7_canon_lo _ _ _ j).trans ?_
  refine (k7_pay1_apply _ _ _).trans ?_
  exact congrArg (· + _) (k7_ld_lo xs0 j)

/-- … and its second half what it held plus the tile's column sums of squares. -/
theorem k7_sout_C_hi (hc0 : ¬cond7_0 i) (hc1 : cond7_1 i) (xs0 : Vec Ideal S1x256 .f32) (j : Fin 128) :
    sout7_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k7_hi j))
      = xs0 (ix2 (0 : Fin 1) (k7_hi j)) + k7_pay6 (F := Ideal) x0 x3 x1 x2 x4 x5 (ix2 (0 : Fin 1) j) := by
  unfold sout7_C_0
  rw [View.read_writes_junk_eq_canon]
  unfold kernelRun7_C
  dsimp only
  sl_unfold_words
  simp only [View.readAt_eq_ld, harg1.read_unread, harg2.read_unread, harg3.read_unread, harg4.read_unread, harg5.read_unread, harg6.read_unread, harg9.read_unread,
    View.ld_unit_zero (S := S2000x512) k7_hz, View.ld_unit_zero (S := S1x512) k7_hz, View.ld_unit_zero (S := S512x128) k7_hz]
  refine (k7_canon_hi _ _ _ j).trans ?_
  refine (k7_pay2_apply _ _ _).trans ?_
  exact congrArg (· + _) (k7_ld_hi xs0 j)

/-- At the last point the statistics window receives the accumulator as the two half stores left it. -/
theorem k7_out_C_7 (hc0 : ¬cond7_0 i) (hc1 : cond7_1 i) (xs0 : Vec Ideal S1x256 .f32) :
    out7_C_7 c i arg1 harg1 arg2 harg2 arg3 harg3 arg4 harg4 arg5 harg5 arg6 harg6 arg7 harg7 arg8 harg8 arg9 harg9 hc0 hc1 x0 x1 x2 x3 x4 x5 xs0 = sout7_C_0 c i arg1 harg1 arg2 harg2 arg3 harg3 arg4 harg4 arg5 harg5 arg6 harg6 arg7 harg7 arg8 harg8 arg9 harg9 hc0 hc1 x0 x1 x2 x3 x4 x5 xs0 := by
  unfold out7_C_7 sout7_C_0
  rw [View.read_writes_junk_eq_canon, View.read_writes_junk_eq_canon]
  unfold kernelRun7_C
  dsimp only
  sl_unfold_words
  rw [View.canon_unit_zero k7_hz]
  exact k7_readCov_all _ _

end Pieces

/-! ## The region at the contents it is entered with -/

section Region
variable (V : (c : Dev nD) → (b : Ref sig .tc) → Buf (Elt Ideal) ((c : Thread nD τ).loc b))

/-- The arrays the region is entered with, as matrices: the rows to normalise; the mean, variance, gain and bias
    rows; the weights. -/
abbrev X7_0 (c : Dev nD) : Spec.Mx 50000 512 := V c (Pipeline.arrRef spec7 0)
abbrev X7_1 (c : Dev nD) : Spec.Mx 1 512 := V c (Pipeline.arrRef spec7 1)
abbrev X7_2 (c : Dev nD) : Spec.Mx 1 512 := V c (Pipeline.arrRef spec7 2)
abbrev X7_3 (c : Dev nD) : Spec.Mx 1 512 := V c (Pipeline.arrRef spec7 3)
abbrev X7_4 (c : Dev nD) : Spec.Mx 1 512 := V c (Pipeline.arrRef spec7 4)
abbrev X7_5 (c : Dev nD) : Spec.Mx 512 128 := V c (Pipeline.arrRef spec7 5)

/-- The region's product: the rows normalised with the mean row, the variance row, the gain row and the bias row,
    rectified, times the weights. -/
abbrev Z7 (c : Dev nD) : Spec.Mx 50000 128 :=
  Spec.mm (Spec.bnRelu (X7_0 V c) (fun l => X7_1 V c (ix2 0 l)) (fun l => X7_2 V c (ix2 0 l)) (fun l => X7_3 V c (ix2 0 l)) (fun l => X7_4 V c (ix2 0 l))) (X7_5 V c)

/-! ### The blocks the body loads are blocks of those arrays -/

/-- Point `t`'s block of the first operand is rows `2000 t …` of its array. -/
theorem k7_blk0 (c : Dev nD) (t : Fin cfg7.N) (r : Fin 2000) (l : Fin 512) :
    (iblk7 V c 0 t : Vec Ideal S2000x512 .f32) (ix2 r l) = X7_0 V c (ix2 (k7_rowOf (k7_tile t) r) l) := by
  obtain ⟨e0, e1, -⟩ := k7_idx_facts t
  show V c (Pipeline.arrRef spec7 0) (((cfg7.win 0).blk t).view.emb (ix2 r l)) = V c (Pipeline.arrRef spec7 0) (ix2 (k7_rowOf (k7_tile t) r) l)
  refine congrArg _ (funext fun a => Fin.ext ?_)
  match a with
  | ⟨0, _⟩ => show win7_0.index t (0 : Fin 2) * 2000 + 1 * r.val = 2000 * t.val + r.val; rw [e0]; omega
  | ⟨1, _⟩ => show win7_0.index t (1 : Fin 2) * 512 + 1 * l.val = l.val; rw [e1]; omega

/-- Every point's block of row operand 1 is the whole row. -/
theorem k7_blk1 (c : Dev nD) (t : Fin cfg7.N) (l : Fin 512) :
    (iblk7 V c 1 t : Vec Ideal S1x512 .f32) (ix2 (0 : Fin 1) l) = X7_1 V c (ix2 (0 : Fin 1) l) := by
  obtain ⟨-, -, e0, e1, -⟩ := k7_idx_facts t
  show V c (Pipeline.arrRef spec7 1) (((cfg7.win 1).blk t).view.emb (ix2 (0 : Fin 1) l)) = V c (Pipeline.arrRef spec7 1) (ix2 (0 : Fin 1) l)
  refine congrArg _ (funext fun a => Fin.ext ?_)
  match a with
  | ⟨0, _⟩ => show win7_1.index t (0 : Fin 2) * 1 + 1 * 0 = 0; rw [e0]
  | ⟨1, _⟩ => show win7_1.index t (1 : Fin 2) * 512 + 1 * l.val = l.val; rw [e1]; omega

/-- Every point's block of row operand 2 is the whole row. -/
theorem k7_blk2 (c : Dev nD) (t : Fin cfg7.N) (l : Fin 512) :
    (iblk7 V c 2 t : Vec Ideal S1x512 .f32) (ix2 (0 : Fin 1) l) = X7_2 V c (ix2 (0 : Fin 1) l) := by
  obtain ⟨-, -, -, -, e0, e1, -⟩ := k7_idx_facts t
  show V c (Pipeline.arrRef spec7 2) (((cfg7.win 2).blk t).view.emb (ix2 (0 : Fin 1) l)) = V c (Pipeline.arrRef spec7 2) (ix2 (0 : Fin 1) l)
  refine congrArg _ (funext fun a => Fin.ext ?_)
  match a with
  | ⟨0, _⟩ => show win7_2.index t (0 : Fin 2) * 1 + 1 * 0 = 0; rw [e0]
  | ⟨1, _⟩ => show win7_2.index t (1 : Fin 2) * 512 + 1 * l.val = l.val; rw [e1]; omega

/-- Every point's block of row operand 3 is the whole row. -/
theorem k7_blk3 (c : Dev nD) (t : Fin cfg7.N) (l : Fin 512) :
    (iblk7 V c 3 t : Vec Ideal S1x512 .f32) (ix2 (0 : Fin 1) l) = X7_3 V c (ix2 (0 : Fin 1) l) := by
  obtain ⟨-, -, -, -, -, -, e0, e1, -⟩ := k7_idx_facts t
  show V c (Pipeline.arrRef spec7 3) (((cfg7.win 3).blk t).view.emb (ix2 (0 : Fin 1) l)) = V c (Pipeline.arrRef spec7 3) (ix2 (0 : Fin 1) l)
  refine congrArg _ (funext fun a => Fin.ext ?_)
  match a with
  | ⟨0, _⟩ => show win7_3.index t (0 : Fin 2) * 1 + 1 * 0 = 0; rw [e0]
  | ⟨1, _⟩ => show win7_3.index t (1 : Fin 2) * 512 + 1 * l.val = l.val; rw [e1]; omega

/-- Every point's block of row operand 4 is the whole row. -/
theorem k7_blk4 (c : Dev nD) (t : Fin cfg7.N) (l : Fin 512) :
    (iblk7 V c 4 t : Vec Ideal S1x512 .f32) (ix2 (0 : Fin 1) l) = X7_4 V c (ix2 (0 : Fin 1) l) := by
  obtain ⟨-, -, -, -, -, -, -, -, e0, e1, -⟩ := k7_idx_facts t
  show V c (Pipeline.arrRef spec7 4) (((cfg7.win 4).blk t).view.emb (ix2 (0 : Fin 1) l)) = V c (Pipeline.arrRef spec7 4) (ix2 (0 : Fin 1) l)
  refine congrArg _ (funext fun a => Fin.ext ?_)
  match a with
  | ⟨0, _⟩ => show win7_4.index t (0 : Fin 2) * 1 + 1 * 0 = 0; rw [e0]
  | ⟨1, _⟩ => show win7_4.index t (1 : Fin 2) * 512 + 1 * l.val = l.val; rw [e1]; omega

/-- Every point's block of the weights is the whole array. -/
theorem k7_blk5 (c : Dev nD) (t : Fin cfg7.N) (l : Fin 512) (j : Fin 128) :
    (iblk7 V c 5 t : Vec Ideal S512x128 .bf16) (ix2 l j) = X7_5 V c (ix2 l j) := by
  obtain ⟨-, -, -, -, -, -, -, -, -, -, e0, e1, -⟩ := k7_idx_facts t
  show V c (Pipeline.arrRef spec7 5) (((cfg7.win 5).blk t).view.emb (ix2 l j)) = V c (Pipeline.arrRef spec7 5) (ix2 l j)
  refine congrArg _ (funext fun a => Fin.ext ?_)
  match a with
  | ⟨0, _⟩ => show win7_5.index t (0 : Fin 2) * 512 + 1 * l.val = l.val; rw [e0]; omega
  | ⟨1, _⟩ => show win7_5.index t (1 : Fin 2) * 128 + 1 * j.val = j.val; rw [e1]; omega

/-- Point `t`'s rows of column sums and of column sums of squares, of the blocks it loads. -/
abbrev k7_row5v (c : Dev nD) (t : Fin cfg7.N) : FVec Ideal S1x128 .f32 := k7_pay5 (F := Ideal) (iblk7 V c 0 t) (iblk7 V c 3 t) (iblk7 V c 1 t) (iblk7 V c 2 t) (iblk7 V c 4 t) (iblk7 V c 5 t)
abbrev k7_row6v (c : Dev nD) (t : Fin cfg7.N) : FVec Ideal S1x128 .f32 := k7_pay6 (F := Ideal) (iblk7 V c 0 t) (iblk7 V c 3 t) (iblk7 V c 1 t) (iblk7 V c 2 t) (iblk7 V c 4 t) (iblk7 V c 5 t)

/-- They are tile `t`'s sums of the product's columns … -/
theorem k7_row5 (c : Dev nD) (t : Fin cfg7.N) (j : Fin 128) :
    k7_row5v V c t (ix2 (0 : Fin 1) j) = k7_tileSum (fun i => Z7 V c (ix2 i j)) t.val :=
  k7_point5 (iblk7 V c 0 t) (iblk7 V c 1 t) (iblk7 V c 2 t) (iblk7 V c 3 t) (iblk7 V c 4 t) (iblk7 V c 5 t) (X7_0 V c) (X7_1 V c) (X7_2 V c) (X7_3 V c) (X7_4 V c) (X7_5 V c) t.val (k7_tile t).isLt j
    (fun r l => k7_blk0 V c t r l) (fun l => k7_blk1 V c t l) (fun l => k7_blk2 V c t l) (fun l => k7_blk3 V c t l) (fun l => k7_blk4 V c t l)
    (fun l j => k7_blk5 V c t l j)

/-- … and of their squares. -/
theorem k7_row6 (c : Dev nD) (t : Fin cfg7.N) (j : Fin 128) :
    k7_row6v V c t (ix2 (0 : Fin 1) j) = k7_tileSum (fun i => Z7 V c (ix2 i j) * Z7 V c (ix2 i j)) t.val :=
  k7_point6 (iblk7 V c 0 t) (iblk7 V c 1 t) (iblk7 V c 2 t) (iblk7 V c 3 t) (iblk7 V c 4 t) (iblk7 V c 5 t) (X7_0 V c) (X7_1 V c) (X7_2 V c) (X7_3 V c) (X7_4 V c) (X7_5 V c) t.val (k7_tile t).isLt j
    (fun r l => k7_blk0 V c t r l) (fun l => k7_blk1 V c t l) (fun l => k7_blk2 V c t l) (fun l => k7_blk3 V c t l) (fun l => k7_blk4 V c t l)
    (fun l j => k7_blk5 V c t l j)

/-! ### The three cases at a point of the grid -/

theorem k7_pt_A_6 (c : Dev nD) (t : Fin cfg7.N) (h0 : t.val = 0) :
    (outsPt7_A V c t h0).1 = k7_pay4 (F := Ideal) (iblk7 V c 0 t) (iblk7 V c 3 t) (iblk7 V c 1 t) (iblk7 V c 2 t) (iblk7 V c 4 t) (iblk7 V c 5 t) := by
  unfold outsPt7_A; dsimp only
  exact k7_out_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (iblk7 V c 0 t) (iblk7 V c 1 t) (iblk7 V c 2 t) (iblk7 V c 3 t) (iblk7 V c 4 t) (iblk7 V c 5 t) ((hcond7_0 t).mpr h0) (notLast7_of_first t h0)

theorem k7_pt_B_6 (c : Dev nD) (t : Fin cfg7.N) (h0 : ¬t.val = 0) (h1 : ¬t.val = 24) (xs0 : Vec Ideal S1x256 .f32) :
    (outsPt7_B V c t h0 h1 xs0).1 = k7_pay4 (F := Ideal) (iblk7 V c 0 t) (iblk7 V c 3 t) (iblk7 V c 1 t) (iblk7 V c 2 t) (iblk7 V c 4 t) (iblk7 V c 5 t) := by
  unfold outsPt7_B; dsimp only
  exact k7_out_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (iblk7 V c 0 t) (iblk7 V c 1 t) (iblk7 V c 2 t) (iblk7 V c 3 t) (iblk7 V c 4 t) (iblk7 V c 5 t) (fun h => h0 ((hcond7_0 t).mp h)) (fun h => h1 ((hcond7_1 t).mp h)) xs0

theorem k7_pt_C_6 (c : Dev nD) (t : Fin cfg7.N) (h0 : ¬t.val = 0) (h1 : t.val = 24) (xs0 : Vec Ideal S1x256 .f32) :
    (outsPt7_C V c t h0 h1 xs0).1 = k7_pay4 (F := Ideal) (iblk7 V c 0 t) (iblk7 V c 3 t) (iblk7 V c 1 t) (iblk7 V c 2 t) (iblk7 V c 4 t) (iblk7 V c 5 t) := by
  unfold outsPt7_C; dsimp only
  exact k7_out_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (iblk7 V c 0 t) (iblk7 V c 1 t) (iblk7 V c 2 t) (iblk7 V c 3 t) (iblk7 V c 4 t) (iblk7 V c 5 t) (fun h => h0 ((hcond7_0 t).mp h)) ((hcond7_1 t).mpr h1) xs0

theorem k7_pt_A_lo (c : Dev nD) (t : Fin cfg7.N) (h0 : t.val = 0) (j : Fin 128) :
    (outsPt7_A V c t h0).2.2 (ix2 (0 : Fin 1) (k7_lo j)) = Spec.zero + k7_row5v V c t (ix2 (0 : Fin 1) j) := by
  unfold outsPt7_A; dsimp only
  exact k7_sout_A_lo c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (iblk7 V c 0 t) (iblk7 V c 1 t) (iblk7 V c 2 t) (iblk7 V c 3 t) (iblk7 V c 4 t) (iblk7 V c 5 t) ((hcond7_0 t).mpr h0) (notLast7_of_first t h0) j

theorem k7_pt_A_hi (c : Dev nD) (t : Fin cfg7.N) (h0 : t.val = 0) (j : Fin 128) :
    (outsPt7_A V c t h0).2.2 (ix2 (0 : Fin 1) (k7_hi j)) = Spec.zero + k7_row6v V c t (ix2 (0 : Fin 1) j) := by
  unfold outsPt7_A; dsimp only
  exact k7_sout_A_hi c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (iblk7 V c 0 t) (iblk7 V c 1 t) (iblk7 V c 2 t) (iblk7 V c 3 t) (iblk7 V c 4 t) (iblk7 V c 5 t) ((hcond7_0 t).mpr h0) (notLast7_of_first t h0) j

theorem k7_pt_B_lo (c : Dev nD) (t : Fin cfg7.N) (h0 : ¬t.val = 0) (h1 : ¬t.val = 24) (xs0 : Vec Ideal S1x256 .f32) (j : Fin 128) :
    (outsPt7_B V c t h0 h1 xs0).2.2 (ix2 (0 : Fin 1) (k7_lo j)) = xs0 (ix2 (0 : Fin 1) (k7_lo j)) + k7_row5v V c t (ix2 (0 : Fin 1) j) := by
  unfold outsPt7_B; dsimp only
  exact k7_sout_B_lo c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (iblk7 V c 0 t) (iblk7 V c 1 t) (iblk7 V c 2 t) (iblk7 V c 3 t) (iblk7 V c 4 t) (iblk7 V c 5 t) (fun h => h0 ((hcond7_0 t).mp h)) (fun h => h1 ((hcond7_1 t).mp h)) xs0 j

theorem k7_pt_B_hi (c : Dev nD) (t : Fin cfg7.N) (h0 : ¬t.val = 0) (h1 : ¬t.val = 24) (xs0 : Vec Ideal S1x256 .f32) (j : Fin 128) :
    (outsPt7_B V c t h0 h1 xs0).2.2 (ix2 (0 : Fin 1) (k7_hi j)) = xs0 (ix2 (0 : Fin 1) (k7_hi j)) + k7_row6v V c t (ix2 (0 : Fin 1) j) := by
  unfold outsPt7_B; dsimp only
  exact k7_sout_B_hi c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (iblk7 V c 0 t) (iblk7 V c 1 t) (iblk7 V c 2 t) (iblk7 V c 3 t) (iblk7 V c 4 t) (iblk7 V c 5 t) (fun h => h0 ((hcond7_0 t).mp h)) (fun h => h1 ((hcond7_1 t).mp h)) xs0 j

theorem k7_pt_C_lo (c : Dev nD) (t : Fin cfg7.N) (h0 : ¬t.val = 0) (h1 : t.val = 24) (xs0 : Vec Ideal S1x256 .f32) (j : Fin 128) :
    (outsPt7_C V c t h0 h1 xs0).2.2 (ix2 (0 : Fin 1) (k7_lo j)) = xs0 (ix2 (0 : Fin 1) (k7_lo j)) + k7_row5v V c t (ix2 (0 : Fin 1) j) := by
  unfold outsPt7_C; dsimp only
  exact k7_sout_C_lo c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (iblk7 V c 0 t) (iblk7 V c 1 t) (iblk7 V c 2 t) (iblk7 V c 3 t) (iblk7 V c 4 t) (iblk7 V c 5 t) (fun h => h0 ((hcond7_0 t).mp h)) ((hcond7_1 t).mpr h1) xs0 j

theorem k7_pt_C_hi (c : Dev nD) (t : Fin cfg7.N) (h0 : ¬t.val = 0) (h1 : t.val = 24) (xs0 : Vec Ideal S1x256 .f32) (j : Fin 128) :
    (outsPt7_C V c t h0 h1 xs0).2.2 (ix2 (0 : Fin 1) (k7_hi j)) = xs0 (ix2 (0 : Fin 1) (k7_hi j)) + k7_row6v V c t (ix2 (0 : Fin 1) j) := by
  unfold outsPt7_C; dsimp only
  exact k7_sout_C_hi c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (iblk7 V c 0 t) (iblk7 V c 1 t) (iblk7 V c 2 t) (iblk7 V c 3 t) (iblk7 V c 4 t) (iblk7 V c 5 t) (fun h => h0 ((hcond7_0 t).mp h)) ((hcond7_1 t).mpr h1) xs0 j

/-- At the last point the statistics window holds the accumulator. -/
theorem k7_pt_C_7 (c : Dev nD) (t : Fin cfg7.N) (h0 : ¬t.val = 0) (h1 : t.val = 24) (xs0 : Vec Ideal S1x256 .f32) :
    (outsPt7_C V c t h0 h1 xs0).2.1 = (outsPt7_C V c t h0 h1 xs0).2.2 := by
  unfold outsPt7_C; dsimp only
  exact k7_out_C_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) (iblk7 V c 0 t) (iblk7 V c 1 t) (iblk7 V c 2 t) (iblk7 V c 3 t) (iblk7 V c 4 t) (iblk7 V c 5 t) (fun h => h0 ((hcond7_0 t).mp h)) ((hcond7_1 t).mpr h1) xs0

/-! ### The product array -/

/-- At every point the product window holds the tile's product of the blocks loaded there. -/
theorem k7_outs6 (c : Dev nD) (t : Fin cfg7.N) :
    (outsAt7 V c t.val t.isLt).1 = k7_pay4 (F := Ideal) (iblk7 V c 0 t) (iblk7 V c 3 t) (iblk7 V c 1 t) (iblk7 V c 2 t) (iblk7 V c 4 t) (iblk7 V c 5 t) := by
  by_cases h0 : t.val = 0
  · rw [outsAt7_A V c t h0]; exact k7_pt_A_6 V c t h0
  · by_cases h1 : t.val = 24
    · rw [outsAt7_C V c t h0 h1]; exact k7_pt_C_6 V c t h0 h1 _
    · rw [outsAt7_B V c t h0 h1]; exact k7_pt_B_6 V c t h0 h1 _

/-- What point `t` writes back of the product is block `t` of the whole product. -/
theorem k7_flushed6 (c : Dev nD) (t : Fin cfg7.N) :
    (dat7 V c).flushed 6 t = ((cfg7.win 6).blk t).view.read (Elt Ideal) (Z7 V c) := by
  show (cfg7.win 6).cut (grid7.coords t) ((dat7 V c).after 6 t) = _
  rw [after7_6, k7_outs6]
  obtain ⟨-, -, -, -, -, -, -, -, -, -, -, -, e0, e1, -⟩ := k7_idx_facts t
  funext y
  obtain ⟨r, j, rfl⟩ : ∃ (r : Fin 2000) (j : Fin 128), y = ix2 r j := ⟨y 0, y 1, eq_ix2 (n0 := 2000) (n1 := 128) y⟩
  show k7_pay4 (F := Ideal) (iblk7 V c 0 t) (iblk7 V c 3 t) (iblk7 V c 1 t) (iblk7 V c 2 t) (iblk7 V c 4 t) (iblk7 V c 5 t) (ix2 r j) = Z7 V c (((cfg7.win 6).blk t).view.emb (ix2 r j))
  have hi : ((cfg7.win 6).blk t).view.emb (ix2 r j) = (ix2 (k7_rowOf (k7_tile t) r) j : S50000x128.Idx) := by
    funext a; apply Fin.ext
    match a with
    | ⟨0, _⟩ => show win7_6.index t (0 : Fin 2) * 2000 + 1 * r.val = 2000 * t.val + r.val; rw [e0]; omega
    | ⟨1, _⟩ => show win7_6.index t (1 : Fin 2) * 128 + 1 * j.val = j.val; rw [e1]; omega
  refine (k7_point4 (iblk7 V c 0 t) (iblk7 V c 1 t) (iblk7 V c 2 t) (iblk7 V c 3 t) (iblk7 V c 4 t) (iblk7 V c 5 t) (X7_0 V c) (X7_1 V c) (X7_2 V c) (X7_3 V c) (X7_4 V c) (X7_5 V c) r j (k7_rowOf (k7_tile t) r)
    (fun l => k7_blk0 V c t r l) (fun l => k7_blk1 V c t l) (fun l => k7_blk2 V c t l) (fun l => k7_blk3 V c t l) (fun l => k7_blk4 V c t l)
    (fun l => k7_blk5 V c t l j)).trans ?_
  exact congrArg (Z7 V c) hi.symm

/-- THE PRODUCT ARRAY after the last point: the specification's product of the normalised, rectified rows with the
    weights, over the arrays the region was entered with. -/
theorem z_eq7 (c : Dev nD) : (dat7 V c).arrAt 6 cfg7.N = Z7 V c :=
  (dat7 V c).arrAt_eq_of_cover 6 (Z7 V c) (fun t _ => k7_flushed6 V c t) k7_cover6

/-! ### The statistics row -/

/-- After point `n` the accumulator holds the first `n + 1` tiles' sums of the product's columns and of their
    squares: by induction on the point. -/
theorem k7_acc (c : Dev nD) : ∀ (n : ℕ) (hn : n < cfg7.N), k7_AccIs (Z7 V c) (n + 1) (outsAt7 V c n hn).2.2
  | 0, hn => by
    rw [outsAt7_A V c ⟨0, hn⟩ rfl]
    exact k7_AccIs_first (Z7 V c) (outsPt7_A V c ⟨0, hn⟩ rfl).2.2 (k7_row5v V c ⟨0, hn⟩) (k7_row6v V c ⟨0, hn⟩)
      (fun j => k7_pt_A_lo V c ⟨0, hn⟩ rfl j) (fun j => k7_pt_A_hi V c ⟨0, hn⟩ rfl j)
      (fun j => k7_row5 V c ⟨0, hn⟩ j) (fun j => k7_row6 V c ⟨0, hn⟩ j)
  | n + 1, hn => by
    have ih := k7_acc c n (Nat.lt_of_succ_lt hn)
    by_cases h1 : n + 1 = 24
    · rw [outsAt7_C V c ⟨n + 1, hn⟩ (Nat.succ_ne_zero n) h1]
      show k7_AccIs (Z7 V c) (n + 1 + 1) (outsPt7_C V c ⟨n + 1, hn⟩ (Nat.succ_ne_zero n) h1 (outsAt7 V c n (Nat.lt_of_succ_lt hn)).2.2).2.2
      exact k7_AccIs_next (Z7 V c) (n + 1) (outsAt7 V c n (Nat.lt_of_succ_lt hn)).2.2
        (outsPt7_C V c ⟨n + 1, hn⟩ (Nat.succ_ne_zero n) h1 (outsAt7 V c n (Nat.lt_of_succ_lt hn)).2.2).2.2
        (k7_row5v V c ⟨n + 1, hn⟩) (k7_row6v V c ⟨n + 1, hn⟩) ih
        (fun j => k7_pt_C_lo V c ⟨n + 1, hn⟩ (Nat.succ_ne_zero n) h1 _ j) (fun j => k7_pt_C_hi V c ⟨n + 1, hn⟩ (Nat.succ_ne_zero n) h1 _ j)
        (fun j => k7_row5 V c ⟨n + 1, hn⟩ j) (fun j => k7_row6 V c ⟨n + 1, hn⟩ j)
    · rw [outsAt7_B V c ⟨n + 1, hn⟩ (Nat.succ_ne_zero n) h1]
      show k7_AccIs (Z7 V c) (n + 1 + 1) (outsPt7_B V c ⟨n + 1, hn⟩ (Nat.succ_ne_zero n) h1 (outsAt7 V c n (Nat.lt_of_succ_lt hn)).2.2).2.2
      exact k7_AccIs_next (Z7 V c) (n + 1) (outsAt7 V c n (Nat.lt_of_succ_lt hn)).2.2
        (outsPt7_B V c ⟨n + 1, hn⟩ (Nat.succ_ne_zero n) h1 (outsAt7 V c n (Nat.lt_of_succ_lt hn)).2.2).2.2
        (k7_row5v V c ⟨n + 1, hn⟩) (k7_row6v V c ⟨n + 1, hn⟩) ih
        (fun j => k7_pt_B_lo V c ⟨n + 1, hn⟩ (Nat.succ_ne_zero n) h1 _ j) (fun j => k7_pt_B_hi V c ⟨n + 1, hn⟩ (Nat.succ_ne_zero n) h1 _ j)
        (fun j => k7_row5 V c ⟨n + 1, hn⟩ j) (fun j => k7_row6 V c ⟨n + 1, hn⟩ j)

/-- The accumulator after the last point. -/
abbrev k7_accLast (c : Dev nD) : Spec.Mx 1 256 := (outsAt7 V c k7_tLast.val k7_tLast.isLt).2.2

/-- The last point's block of the statistics row, read through zero offsets, is the row. -/
theorem k7_cut7 (W : Vec Ideal S1x256 .f32) :
    (cfg7.win 7).cut (grid7.coords k7_tLast) W = ((cfg7.win 7).blk k7_tLast).view.read (Elt Ideal) (W : Spec.Mx 1 256) := by
  obtain ⟨-, -, -, -, -, -, -, -, -, -, -, -, -, -, e0, e1⟩ := k7_idx_facts k7_tLast
  funext y
  show W y = W (((cfg7.win 7).blk k7_tLast).view.emb y)
  refine congrArg W (funext fun a => Fin.ext ?_)
  match a with
  | ⟨0, _⟩ => show (y 0).val = win7_7.index k7_tLast (0 : Fin 2) * 1 + 1 * (y 0).val; rw [e0]; omega
  | ⟨1, _⟩ => show (y 1).val = win7_7.index k7_tLast (1 : Fin 2) * 256 + 1 * (y 1).val; rw [e1]; omega

/-- The one write-back of the statistics row, at the last point, writes the accumulator: its block is the whole row. -/
theorem k7_flushed7 (c : Dev nD) (t : Fin cfg7.N) (hf : (cfg7.win 7).flush t = true) :
    (dat7 V c).flushed 7 t = ((cfg7.win 7).blk t).view.read (Elt Ideal) (k7_accLast V c) := by
  have hN : cfg7.N = 25 := N_7
  have h24 : t.val = 24 := by have := (flush7_7 t).mp hf; have := t.isLt; omega
  obtain rfl : t = k7_tLast := Fin.ext h24
  have h0 : ¬k7_tLast.val = 0 := by show ¬(24 : ℕ) = 0; decide
  show (cfg7.win 7).cut (grid7.coords k7_tLast) ((dat7 V c).after 7 k7_tLast) = _
  rw [after7_7]
  unfold k7_accLast
  rw [outsAt7_C V c k7_tLast h0 rfl, k7_pt_C_7 V c k7_tLast h0 rfl]
  exact k7_cut7 _

/-- So the statistics row ends holding the accumulator after the last point. -/
theorem k7_stats_arr (c : Dev nD) : (dat7 V c).arrAt 7 cfg7.N = k7_accLast V c :=
  (dat7 V c).arrAt_eq_of_cover 7 (k7_accLast V c) (fun t hf => k7_flushed7 V c t hf) k7_cover7

/-- THE STATISTICS ROW after the last point: its first half the product's column sums, its second half its
    column sums of squares, over all 50000 rows. -/
theorem stats_eq7 (c : Dev nD) (j : Fin 128) :
    ((dat7 V c).arrAt 7 cfg7.N : Spec.Mx 1 256) (ix2 (0 : Fin 1) (k7_lo j)) = Spec.colSum (Z7 V c) j
    ∧ ((dat7 V c).arrAt 7 cfg7.N : Spec.Mx 1 256) (ix2 (0 : Fin 1) (k7_hi j)) = Spec.colSumSq (Z7 V c) j := by
  rw [k7_stats_arr]
  exact k7_AccIs_last (Z7 V c) (k7_accLast V c) (k7_acc V c 24 k7_tLast.isLt) j

end Region

end Cert.KernelIdeal.HandValue

end
-- ==== Proof.KI.Val8.lean ====
import proofs.«427833_j20194936226511_1_alg».proof.Proof.Spec
import proofs.«427833_j20194936226511_1_alg».proof.Proof.KI.Reg8
import Idealize.ShloMosaic.Lib.Pipeline.Value
import Idealize.ShloMosaic.Lib.ValueIdx

/-!
# The value of the normalise-and-rectify region

The region reads a matrix block by block of rows, together with four one-row matrices (the columns' means,
variances, gains and biases), and writes, block by block, the matrix normalised column by column, scaled,
shifted and cut off at zero.  Here that is read off the region's proof data at the extended reals: the body's
one payload at an index, what each grid point leaves for the write-back as a block of ONE function of the
arrays the region was entered with, the cover of the output array by the points' blocks, and so the output
array after the last point.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- A row broadcast down the rows of a block reads the row at the column. -/
theorem bcastRow8 (x : S1x128.Idx → EReal) (h : S1x128.Broadcasts S2000x128) (r : Fin 2000) (j : Fin 128) :
    broadcastTo S2000x128 x h (ix2 r j) = x (ix2 (0 : Fin 1) j) :=
  broadcastTo_apply x h (ix2 r j) (ix2 (0 : Fin 1) j) fun a => by
    match a with
    | ⟨0, _⟩ => rfl
    | ⟨1, _⟩ => rfl

/-- The body's one payload at an index: the entry less its column's mean, times the column's gain and the
    reciprocal root of the column's variance plus epsilon, plus the column's bias, cut off at zero.
    The payload takes its row arguments in the order gain, mean, variance, bias. -/
theorem pay8_1_apply (z : Vec Ideal S2000x128 .f32) (g mu var b : Vec Ideal S1x128 .f32) (r : Fin 2000) (j : Fin 128) :
    k8_pay1 (F := Ideal) z g mu var b (ix2 r j)
      = max (g (ix2 (0 : Fin 1) j) * (z (ix2 r j) - mu (ix2 (0 : Fin 1) j)) * Ideal.rsqrt (var (ix2 (0 : Fin 1) j) + Spec.bnEps)
          + b (ix2 (0 : Fin 1) j)) Spec.zero := by
  unfold k8_pay1
  simp only [shapeCast_self]
  rw [maximumf_apply, addf_apply, mulf_apply, mulf_apply, subf_apply, broadcast_apply,
    bcastRow8, bcastRow8, bcastRow8, bcastRow8]
  rfl

/-- The payload of a block and four rows that are read off a matrix and four row matrices, at an index of the
    block and the matrix index it sits at: the specification's normalise-and-rectify of the matrices there. -/
theorem point8 (x0 : Vec Ideal S2000x128 .f32) (x1 x2 x3 x4 : Vec Ideal S1x128 .f32)
    (A0 : Spec.Mx 50000 128) (A1 A2 A3 A4 : Spec.Mx 1 128) (y : S2000x128.Idx) (i : S50000x128.Idx)
    (h0 : x0 y = A0 i) (hc : (i 1).val = (y 1).val)
    (h1 : ∀ j : Fin 128, x1 (ix2 (0 : Fin 1) j) = A1 (ix2 (0 : Fin 1) j))
    (h2 : ∀ j : Fin 128, x2 (ix2 (0 : Fin 1) j) = A2 (ix2 (0 : Fin 1) j))
    (h3 : ∀ j : Fin 128, x3 (ix2 (0 : Fin 1) j) = A3 (ix2 (0 : Fin 1) j))
    (h4 : ∀ j : Fin 128, x4 (ix2 (0 : Fin 1) j) = A4 (ix2 (0 : Fin 1) j)) :
    k8_pay1 (F := Ideal) x0 x3 x1 x2 x4 y
      = Spec.bnRelu A0 (fun j => A1 (ix2 (0 : Fin 1) j)) (fun j => A2 (ix2 (0 : Fin 1) j))
          (fun j => A3 (ix2 (0 : Fin 1) j)) (fun j => A4 (ix2 (0 : Fin 1) j)) i := by
  obtain ⟨r, j, rfl⟩ : ∃ (r : Fin 2000) (j : Fin 128), y = ix2 r j := ⟨y 0, y 1, eq_ix2 y⟩
  obtain ⟨p, q, rfl⟩ : ∃ (p : Fin 50000) (q : Fin 128), i = ix2 p q := ⟨i 0, i 1, eq_ix2 i⟩
  obtain rfl : q = j := Fin.ext hc
  rw [pay8_1_apply, h0, h1, h2, h3, h4]
  rfl

/-! ## From blocks to the array -/

variable (V : (c : Dev nD) → (b : Ref sig .tc) → Buf (Elt Ideal) ((c : Thread nD τ).loc b))

/-- The arrays the region is entered with, as matrices: the operand, and the rows of means, variances, gains and biases. -/
abbrev X8_0 (c : Dev nD) : Spec.Mx 50000 128 := V c (Pipeline.arrRef spec8 0)
abbrev X8_1 (c : Dev nD) : Spec.Mx 1 128 := V c (Pipeline.arrRef spec8 1)
abbrev X8_2 (c : Dev nD) : Spec.Mx 1 128 := V c (Pipeline.arrRef spec8 2)
abbrev X8_3 (c : Dev nD) : Spec.Mx 1 128 := V c (Pipeline.arrRef spec8 3)
abbrev X8_4 (c : Dev nD) : Spec.Mx 1 128 := V c (Pipeline.arrRef spec8 4)

/-- What the output array ends holding: the operand normalised column by column, scaled, shifted and rectified. -/
abbrev G8 (c : Dev nD) : Spec.Mx 50000 128 :=
  Spec.bnRelu (X8_0 V c) (fun j => X8_1 V c (ix2 (0 : Fin 1) j)) (fun j => X8_2 V c (ix2 (0 : Fin 1) j))
    (fun j => X8_3 V c (ix2 (0 : Fin 1) j)) (fun j => X8_4 V c (ix2 (0 : Fin 1) j))

theorem hz8 : (![0, 0] : Fin 2 → Nat) = fun _ => 0 := funext fun a => by fin_cases a <;> rfl

/-- The index maps over the grid: the operand's and the output's blocks are the point's block of rows, the four
    rows' blocks the whole rows. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- What point `t` leaves for the write-back is block `t` of the result. -/
theorem cut8_5 (c : Dev nD) (t : Fin cfg8.N) :
    (cfg8.win 5).cut (grid8.coords t) (out8_5 (iblk8 V c 0 t) (iblk8 V c 1 t) (iblk8 V c 2 t) (iblk8 V c 3 t) (iblk8 V c 4 t))
      = ((cfg8.win 5).blk t).view.read (Elt Ideal) (G8 V c) := by
  unfold out8_5
  rw [View.canon_unit_zero hz8]
  simp only [View.ld_unit_zero (S := S2000x128) hz8, View.ld_unit_zero (S := S1x128) hz8]
  obtain ⟨e00, e01, e10, e11, e20, e21, e30, e31, e40, e41, e50, e51⟩ := idx_facts8 t
  funext y
  show k8_pay1 (F := Ideal) (iblk8 V c 0 t) (iblk8 V c 3 t) (iblk8 V c 1 t) (iblk8 V c 2 t) (iblk8 V c 4 t) y
    = G8 V c (((cfg8.win 5).blk t).view.emb y)
  refine point8 _ _ _ _ _ (X8_0 V c) (X8_1 V c) (X8_2 V c) (X8_3 V c) (X8_4 V c) y _ ?_ ?_ ?_ ?_ ?_ ?_
  · show V c (Pipeline.arrRef spec8 0) (((cfg8.win 0).blk t).view.emb y) = V c (Pipeline.arrRef spec8 0) (((cfg8.win 5).blk t).view.emb y)
    refine congrArg _ (funext fun a => Fin.ext ?_)
    match a with
    | ⟨0, _⟩ =>
      show win8_0.index t (0 : Fin 2) * 2000 + 1 * (y 0).val = win8_5.index t (0 : Fin 2) * 2000 + 1 * (y 0).val
      rw [e00, e50]
    | ⟨1, _⟩ =>
      show win8_0.index t (1 : Fin 2) * 128 + 1 * (y 1).val = win8_5.index t (1 : Fin 2) * 128 + 1 * (y 1).val
      rw [e01, e51]
  · show win8_5.index t (1 : Fin 2) * 128 + 1 * (y 1).val = (y 1).val
    rw [e51]; omega
  · intro j
    show V c (Pipeline.arrRef spec8 1) (((cfg8.win 1).blk t).view.emb (ix2 (0 : Fin 1) j)) = V c (Pipeline.arrRef spec8 1) (ix2 (0 : Fin 1) j)
    refine congrArg _ (funext fun a => Fin.ext ?_)
    match a with
    | ⟨0, _⟩ => show win8_1.index t (0 : Fin 2) * 1 + 1 * 0 = 0; rw [e10]
    | ⟨1, _⟩ => show win8_1.index t (1 : Fin 2) * 128 + 1 * j.val = j.val; rw [e11]; omega
  · intro j
    show V c (Pipeline.arrRef spec8 2) (((cfg8.win 2).blk t).view.emb (ix2 (0 : Fin 1) j)) = V c (Pipeline.arrRef spec8 2) (ix2 (0 : Fin 1) j)
    refine congrArg _ (funext fun a => Fin.ext ?_)
    match a with
    | ⟨0, _⟩ => show win8_2.index t (0 : Fin 2) * 1 + 1 * 0 = 0; rw [e20]
    | ⟨1, _⟩ => show win8_2.index t (1 : Fin 2) * 128 + 1 * j.val = j.val; rw [e21]; omega
  · intro j
    show V c (Pipeline.arrRef spec8 3) (((cfg8.win 3).blk t).view.emb (ix2 (0 : Fin 1) j)) = V c (Pipeline.arrRef spec8 3) (ix2 (0 : Fin 1) j)
    refine congrArg _ (funext fun a => Fin.ext ?_)
    match a with
    | ⟨0, _⟩ => show win8_3.index t (0 : Fin 2) * 1 + 1 * 0 = 0; rw [e30]
    | ⟨1, _⟩ => show win8_3.index t (1 : Fin 2) * 128 + 1 * j.val = j.val; rw [e31]; omega
  · intro j
    show V c (Pipeline.arrRef spec8 4) (((cfg8.win 4).blk t).view.emb (ix2 (0 : Fin 1) j)) = V c (Pipeline.arrRef spec8 4) (ix2 (0 : Fin 1) j)
    refine congrArg _ (funext fun a => Fin.ext ?_)
    match a with
    | ⟨0, _⟩ => show win8_4.index t (0 : Fin 2) * 1 + 1 * 0 = 0; rw [e40]
    | ⟨1, _⟩ => show win8_4.index t (1 : Fin 2) * 128 + 1 * j.val = j.val; rw [e41]; omega

/-- An index of the output array is in point `t`'s block iff each coordinate is in the block's range on its axis. -/
theorem mem_blk8 (t : Fin cfg8.N) (i : S50000x128.Idx) :
    i ∈ ((cfg8.win 5).blk t).view.set ↔ ∀ a : Fin 2, win8_5.index t a * S2000x128.size a ≤ (i a).val
      ∧ (i a).val < win8_5.index t a * S2000x128.size a + S2000x128.size a := by
  show i ∈ ((View.whole (Pipeline.arrRef spec8 5)).slice (win8_5.rect t)).set ↔ _
  rw [View.set_slice_whole, Rect.mem_set_unit]
  exact Iff.rfl

/-- The point whose block holds a row: the row's number over the rows in a block. -/
theorem pt_lt8 (i : S50000x128.Idx) : (i 0).val / 2000 < cfg8.N := by
  have hi0 : (i 0).val < 50000 := (i 0).isLt
  show (i 0).val / 2000 < grid8.N
  rw [N_8]; omega

/-- Every index of the output array is in some point's block, and every point writes back. -/
theorem cover8 (i : S50000x128.Idx) :
    ∃ t : Fin cfg8.N, (cfg8.win 5).flush t = true ∧ i ∈ ((cfg8.win 5).blk t).view.set := by
  have hi1 : (i 1).val < 128 := (i 1).isLt
  obtain ⟨t, ht⟩ : ∃ t : Fin cfg8.N, t.val = (i 0).val / 2000 := ⟨⟨_, pt_lt8 i⟩, rfl⟩
  obtain ⟨-, -, -, -, -, -, -, -, -, -, e50, e51⟩ := idx_facts8 t
  refine ⟨t, flush8_5 t, ?_⟩
  rw [mem_blk8]
  intro a
  match a with
  | ⟨0, _⟩ =>
    show win8_5.index t (0 : Fin 2) * 2000 ≤ (i 0).val ∧ (i 0).val < win8_5.index t (0 : Fin 2) * 2000 + 2000
    rw [e50, ht]; omega
  | ⟨1, _⟩ =>
    show win8_5.index t (1 : Fin 2) * 128 ≤ (i 1).val ∧ (i 1).val < win8_5.index t (1 : Fin 2) * 128 + 128
    rw [e51]; omega

/-- What point `t` writes back is block `t` of the result. -/
theorem flushed8_eq (c : Dev nD) (t : Fin cfg8.N) :
    (dat8 V c).flushed 5 t = ((cfg8.win 5).blk t).view.read (Elt Ideal) (G8 V c) := by
  show (cfg8.win 5).cut (grid8.coords t) ((dat8 V c).after 5 t) = _
  rw [after8_5]
  exact cut8_5 V c t

/-- THE OUTPUT ARRAY after the last point: the specification's normalise-and-rectify of the arrays the region
    was entered with. -/
theorem out_eq8 (c : Dev nD) : (dat8 V c).arrAt 5 cfg8.N = G8 V c :=
  (dat8 V c).arrAt_eq_of_cover 5 (G8 V c) (fun t _ => flushed8_eq V c t) cover8

end Cert.KernelIdeal.HandValue

end
-- ==== Proof.KI.Val9.lean ====
import proofs.«427833_j20194936226511_1_alg».proof.Proof.Gen.KernelIdeal.Launch
import proofs.«427833_j20194936226511_1_alg».proof.Proof.Gen.KernelIdeal.Points
import proofs.«427833_j20194936226511_1_alg».proof.Proof.KI.Reg9
import Idealize.ShloMosaic.Lib.Tactic
import proofs.«427833_j20194936226511_1_alg».proof.Proof.Gen.KernelIdeal.Skeleton
import proofs.«427833_j20194936226511_1_alg».proof.Proof.Spec
import Idealize.ShloMosaic.PureOps.Ideal.Laws
import Idealize.ShloMosaic.Lib.ValueIdx
import Idealize.ShloMosaic.Lib.Pipeline.Value

/-!
# The value of the first stage: a matrix product and its column statistics

At every grid point the kernel adds two blocks of rows, multiplies the sum by the weight matrix,
stores the product block, and adds the block's column sums and the column sums of its squares into
one carried row of twice the width, which it clears at the first point and copies out at the last.

This module reads the arithmetic at an index over the extended reals, where a change of float
format is the identity, a matrix product into a zero accumulator is the plain sum of products and
a reduction over the rows is the plain sum.  It then reads what each control case of the body leaves in
the product block and in the carried row, shows by induction on the grid point that the carried row
holds, column by column, the sums over the tiles so far, and concludes that after the region the
product array is the whole matrix product and the statistics row holds its column sums and the
column sums of its squares: a sum over all the rows is regrouped tile by tile, which needs only that
addition of extended reals is commutative and associative.
-/

set_option maxRecDepth 16384

noncomputable section

namespace Cert.KernelIdeal.HandValue

open Cert.KernelIdeal Cert.KernelIdeal.Gen
open Cert.KernelIdeal.Hand
open Idealize.ShloMosaic Idealize.ShloMosaic.ValueIdx Idealize.ShloMosaic.TcCoe Idealize.ShloMosaic.Tactic Idealize.SL.Sem
open Idealize.ShloMosaic.Pipeline (Dat)

/-! ## The operand indices of the matrix product, axis by axis -/

theorem lhs9_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide),
    dif_pos (show (0 : Fin S2000x128.rank) ∈ dot_S2000x128_S128x512_S2000x512_1_0_0_1_n_n.lhsNonContracting by decide)]
  rfl
theorem lhs9_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem rhs9_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem rhs9_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide),
    dif_pos (show (1 : Fin S128x512.rank) ∈ dot_S2000x128_S128x512_S2000x512_1_0_0_1_n_n.rhsNonContracting by decide)]
  rfl

/-- The block product into the zero accumulator, at an index: the sum over the contracted
    coordinate of the products of the entries. -/
theorem matmul9_apply (p : FVec Ideal S2000x128 .bf16) (w : FVec Ideal S128x512 .bf16) (r : Fin 2000) (j : Fin 512) :
    matmul dot_S2000x128_S128x512_S2000x512_1_0_0_1_n_n none p w (constant (F := Ideal) S2000x512 .f32 0x00000000#32) (ix2 r j)
      = ∑ l : Fin 128, p (ix2 r l) * w (ix2 l j) := by
  show FloatOps.matmul dot_S2000x128_S128x512_S2000x512_1_0_0_1_n_n none p w (constant (F := Ideal) S2000x512 .f32 0x00000000#32) (ix2 r j) = _
  rw [Ideal.matmul_constant_zero_apply, ← Equiv.sum_comp (contrEquiv1 dot_S2000x128_S128x512_S2000x512_1_0_0_1_n_n 128 rfl rfl).symm]
  refine Finset.sum_congr rfl fun l _ => ?_
  have hk := contrEquiv1_symm_val dot_S2000x128_S128x512_S2000x512_1_0_0_1_n_n 128 rfl rfl l
  have el : dot_S2000x128_S128x512_S2000x512_1_0_0_1_n_n.lhsIdx (ix2 r j) ((contrEquiv1 dot_S2000x128_S128x512_S2000x512_1_0_0_1_n_n 128 rfl rfl).symm l) = ix2 r l :=
    funext fun a => Fin.ext (by
      match a with
      | ⟨0, _⟩ => exact lhs9_0 _ _
      | ⟨1, _⟩ => exact (lhs9_1 _ _).trans hk)
  have er : dot_S2000x128_S128x512_S2000x512_1_0_0_1_n_n.rhsIdx (ix2 r j) ((contrEquiv1 dot_S2000x128_S128x512_S2000x512_1_0_0_1_n_n 128 rfl rfl).symm l) = ix2 l j :=
    funext fun a => Fin.ext (by
      match a with
      | ⟨0, _⟩ => exact (rhs9_0 _ _).trans hk
      | ⟨1, _⟩ => exact rhs9_1 _ _)
  rw [el, er]

/-- The sum over the rows of a block, kept as a one-row matrix, at a column. -/
theorem rowsum9_apply (v : FVec Ideal S2000x512 .f32) (j : Fin 512) :
    shapeCast S1x512 (multiReduction (F := Ideal) .add [0] S512 v 0x00000000#32 reduces_S2000x512_S512 (.inl rfl) rfl)
        shapeCasts_S512_S1x512 (ix2 0 j)
      = ∑ r : Fin 2000, v (ix2 r j) := by
  refine (shapeCast_addUnit_apply ![512] _ shapeCasts_S512_S1x512 (ix2 0 j)).trans ?_
  refine (Ideal.multiReduction_add_single v 0x00000000#32 reduces_S2000x512_S512 (.inl rfl) rfl _).trans ?_
  refine Finset.sum_congr rfl fun r _ => congrArg v ?_
  funext a
  apply Fin.ext
  match a with
  | ⟨0, _⟩ => rfl
  | ⟨1, _⟩ => rfl

/-! ## The four payloads at an index -/

/-- The product block: row `r`, column `j` is the sum over `l` of the summed inputs' entry times the weight's. -/
theorem k9_pay2_apply (x a : Vec Ideal S2000x128 .f32) (w : Vec Ideal S128x512 .bf16) (r : Fin 2000) (j : Fin 512) :
    k9_pay2 (F := Ideal) x a w (ix2 r j) = ∑ l : Fin 128, (x (ix2 r l) + a (ix2 r l)) * w (ix2 l j) := by
  unfold k9_pay2
  simp only [shapeCast_self]
  exact matmul9_apply _ _ r j

/-- The carried row's first half: what it held plus the block's column sums. -/
theorem k9_pay3_apply (x a : Vec Ideal S2000x128 .f32) (w : Vec Ideal S128x512 .bf16) (acc : Vec Ideal S1x512 .f32) (j : Fin 512) :
    k9_pay3 (F := Ideal) x a w acc (ix2 0 j) = acc (ix2 0 j) + ∑ r : Fin 2000, k9_pay2 (F := Ideal) x a w (ix2 r j) := by
  unfold k9_pay3
  simp only [shapeCast_self]
  exact congrArg (acc (ix2 0 j) + ·) (rowsum9_apply (k9_pay2 (F := Ideal) x a w) j)

/-- The carried row's second half: what it held plus the column sums of the block's squares. -/
theorem k9_pay4_apply (x a : Vec Ideal S2000x128 .f32) (w : Vec Ideal S128x512 .bf16) (acc : Vec Ideal S1x512 .f32) (j : Fin 512) :
    k9_pay4 (F := Ideal) x a w acc (ix2 0 j)
      = acc (ix2 0 j) + ∑ r : Fin 2000, k9_pay2 (F := Ideal) x a w (ix2 r j) * k9_pay2 (F := Ideal) x a w (ix2 r j) := by
  unfold k9_pay4
  simp only [shapeCast_self]
  exact congrArg (acc (ix2 0 j) + ·)
    (rowsum9_apply (mulf (k9_pay2 (F := Ideal) x a w) (k9_pay2 (F := Ideal) x a w)) j)

/-- The cleared row is zero everywhere. -/
theorem k9_pay1_eq : (k9_pay1 (F := Ideal)) = fun _ => (0 : EReal) := by
  unfold k9_pay1
  simp only [shapeCast_self]
  funext i
  exact Ideal.ofBits_zero_f32

/-! ## Sums over all the rows, tile by tile -/

/-- A sum over all the rows is the sum, over the tiles, of the sums over one tile's rows. -/
theorem sum_rows_tiles9 (f : Fin 50000 → EReal) :
    ∑ i : Fin 50000, f i
      = ∑ t : Fin 25, ∑ r : Fin 2000, f ⟨2000 * t.val + r.val, by have := t.isLt; have := r.isLt; omega⟩ := by
  rw [← Fintype.sum_prod_type']
  refine (Fintype.sum_equiv (finProdFinEquiv (m := 25) (n := 2000)) _ f fun p => congrArg f (Fin.ext ?_)).symm
  show 2000 * p.1.val + p.2.val = p.2.val + 2000 * p.1.val
  omega

/-- A quantity that starts at its first term and then adds one term per step is the sum of the terms so far. -/
theorem steps_eq_sum9 (T : ℕ → EReal) (N : ℕ) (S : (n : ℕ) → n < N → EReal)
    (h0 : ∀ h, S 0 h = 0 + T 0) (hs : ∀ n (h : n + 1 < N), S (n + 1) h = S n (Nat.lt_of_succ_lt h) + T (n + 1)) :
    ∀ (n : ℕ) (h : n < N), S n h = ∑ t ∈ Finset.range (n + 1), T t
  | 0, h => by rw [h0 h, zero_add, Finset.sum_range_one]
  | n + 1, h => by rw [hs n h, steps_eq_sum9 T N S h0 hs n (Nat.lt_of_succ_lt h), Finset.sum_range_succ _ (n + 1)]

/-! ## Where the windows' blocks sit -/

/-- The block indices, decided over the grid: the two inputs' row blocks and the output's move with the point,
    the weight's block and the statistics' block stay. -/
theorem idx9 : ∀ t : Fin cfg9.N,
      win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = 0 ∧ win9_4.index t (1 : Fin 2) = 0 :=
  (by decide +kernel : ∀ t : Fin grid9.N, _)

/-- The first input's block at point `t` is rows `2000 t …` of its array. -/
theorem read_blk9_0 (A : Vec Ideal S50000x128 .f32) (t : Fin cfg9.N) (r : Fin 2000) (l : Fin 128)
    (i : Fin 50000) (hi : i.val = 2000 * t.val + r.val) :
    (((cfg9.win 0).blk t).view.read (Elt Ideal) A : Vec Ideal S2000x128 .f32) (ix2 r l) = A (ix2 i l) := by
  rw [View.read_apply]
  show A _ = A _
  refine congrArg A ?_
  funext a
  apply Fin.ext
  match a with
  | ⟨0, _⟩ => show win9_0.index t (0 : Fin 2) * 2000 + 1 * r.val = i.val; rw [(idx9 t).1]; omega
  | ⟨1, _⟩ => show win9_0.index t (1 : Fin 2) * 128 + 1 * l.val = l.val; rw [(idx9 t).2.1]; omega

/-- The second input's block likewise. -/
theorem read_blk9_1 (A : Vec Ideal S50000x128 .f32) (t : Fin cfg9.N) (r : Fin 2000) (l : Fin 128)
    (i : Fin 50000) (hi : i.val = 2000 * t.val + r.val) :
    (((cfg9.win 1).blk t).view.read (Elt Ideal) A : Vec Ideal S2000x128 .f32) (ix2 r l) = A (ix2 i l) := by
  rw [View.read_apply]
  show A _ = A _
  refine congrArg A ?_
  funext a
  apply Fin.ext
  match a with
  | ⟨0, _⟩ => show win9_1.index t (0 : Fin 2) * 2000 + 1 * r.val = i.val; rw [(idx9 t).2.2.1]; omega
  | ⟨1, _⟩ => show win9_1.index t (1 : Fin 2) * 128 + 1 * l.val = l.val; rw [(idx9 t).2.2.2.1]; omega

/-- The weight's block is the whole weight matrix at every point. -/
theorem read_blk9_2 (A : Vec Ideal S128x512 .bf16) (t : Fin cfg9.N) (l : Fin 128) (j : Fin 512) :
    (((cfg9.win 2).blk t).view.read (Elt Ideal) A : Vec Ideal S128x512 .bf16) (ix2 l j) = A (ix2 l j) := by
  rw [View.read_apply]
  show A _ = A _
  refine congrArg A ?_
  funext a
  apply Fin.ext
  match a with
  | ⟨0, _⟩ => show win9_2.index t (0 : Fin 2) * 128 + 1 * l.val = l.val; rw [(idx9 t).2.2.2.2.1]; omega
  | ⟨1, _⟩ => show win9_2.index t (1 : Fin 2) * 512 + 1 * j.val = j.val; rw [(idx9 t).2.2.2.2.2.1]; omega

/-- The output's block at point `t` is rows `2000 t …` of its array. -/
theorem read_blk9_3 (A : Vec Ideal S50000x512 .f32) (t : Fin cfg9.N) (r : Fin 2000) (j : Fin 512)
    (i : Fin 50000) (hi : i.val = 2000 * t.val + r.val) :
    (((cfg9.win 3).blk t).view.read (Elt Ideal) A : Vec Ideal S2000x512 .f32) (ix2 r j) = A (ix2 i j) := by
  rw [View.read_apply]
  show A _ = A _
  refine congrArg A ?_
  funext a
  apply Fin.ext
  match a with
  | ⟨0, _⟩ => show win9_3.index t (0 : Fin 2) * 2000 + 1 * r.val = i.val; rw [(idx9 t).2.2.2.2.2.2.1]; omega
  | ⟨1, _⟩ => show win9_3.index t (1 : Fin 2) * 512 + 1 * j.val = j.val; rw [(idx9 t).2.2.2.2.2.2.2.1]; omega

/-- The statistics' block is the whole row at every point. -/
theorem read_blk9_4 (A : Vec Ideal S1x1024 .f32) (t : Fin cfg9.N) (y : S1x1024.Idx) :
    (((cfg9.win 4).blk t).view.read (Elt Ideal) A : Vec Ideal S1x1024 .f32) y = A y := by
  rw [View.read_apply]
  show A _ = A _
  refine congrArg A ?_
  funext a
  apply Fin.ext
  match a with
  | ⟨0, _⟩ => show win9_4.index t (0 : Fin 2) * 1 + 1 * (y 0).val = (y 0).val; rw [(idx9 t).2.2.2.2.2.2.2.2.1]; omega
  | ⟨1, _⟩ => show win9_4.index t (1 : Fin 2) * 1024 + 1 * (y 1).val = (y 1).val; rw [(idx9 t).2.2.2.2.2.2.2.2.2]; omega

/-- An index of the output array is in point `t`'s block iff each coordinate is in the block's range. -/
theorem mem_blk9_3 (t : Fin cfg9.N) (i : S50000x512.Idx) :
    i ∈ ((cfg9.win 3).blk t).view.set ↔ ∀ a : Fin 2, win9_3.index t a * S2000x512.size a ≤ (i a).val
      ∧ (i a).val < win9_3.index t a * S2000x512.size a + S2000x512.size a := by
  show i ∈ ((View.whole main_v167_0).slice (win9_3.rect t)).set ↔ _
  rw [View.set_slice_whole, Rect.mem_set_unit]
  exact Iff.rfl

/-- Every row of the output array is in the block of the point its tile belongs to. -/
theorem cover9_3 (i : S50000x512.Idx) :
    ∃ t : Fin cfg9.N, (cfg9.win 3).flush t = true ∧ i ∈ ((cfg9.win 3).blk t).view.set := by
  have hN : cfg9.N = 25 := N_9
  have hi9 : (i 0).val < 50000 := (i 0).isLt
  have hi1 : (i 1).val < 512 := (i 1).isLt
  refine ⟨⟨(i 0).val / 2000, by omega⟩, flush9_3 _, ?_⟩
  rw [mem_blk9_3]
  obtain ⟨-, -, -, -, -, -, e0, e1, -, -⟩ := idx9 ⟨(i 0).val / 2000, by omega⟩
  intro a
  match a with
  | ⟨0, _⟩ =>
    show win9_3.index _ (0 : Fin 2) * 2000 ≤ (i 0).val ∧ (i 0).val < win9_3.index _ (0 : Fin 2) * 2000 + 2000
    rw [e0]; dsimp only; omega
  | ⟨1, _⟩ =>
    show win9_3.index _ (1 : Fin 2) * 512 ≤ (i 1).val ∧ (i 1).val < win9_3.index _ (1 : Fin 2) * 512 + 512
    rw [e1]; omega

/-- An index of the statistics row is in point `t`'s block iff each coordinate is in the block's range. -/
theorem mem_blk9_4 (t : Fin cfg9.N) (i : S1x1024.Idx) :
    i ∈ ((cfg9.win 4).blk t).view.set ↔ ∀ a : Fin 2, win9_4.index t a * S1x1024.size a ≤ (i a).val
      ∧ (i a).val < win9_4.index t a * S1x1024.size a + S1x1024.size a := by
  show i ∈ ((View.whole main_v167_1).slice (win9_4.rect t)).set ↔ _
  rw [View.set_slice_whole, Rect.mem_set_unit]
  exact Iff.rfl

/-- The last point's block is the whole statistics row. -/
theorem cover9_4 (i : S1x1024.Idx) :
    ∃ t : Fin cfg9.N, (cfg9.win 4).flush t = true ∧ i ∈ ((cfg9.win 4).blk t).view.set := by
  have hN : cfg9.N = 25 := N_9
  have hi9 : (i 0).val < 1 := (i 0).isLt
  have hi1 : (i 1).val < 1024 := (i 1).isLt
  refine ⟨⟨24, by omega⟩, (flush9_4 _).mpr rfl, ?_⟩
  rw [mem_blk9_4]
  obtain ⟨-, -, -, -, -, -, -, -, e0, e1⟩ := idx9 ⟨24, by omega⟩
  intro a
  match a with
  | ⟨0, _⟩ =>
    show win9_4.index _ (0 : Fin 2) * 1 ≤ (i 0).val ∧ (i 0).val < win9_4.index _ (0 : Fin 2) * 1 + 1
    rw [e0]; omega
  | ⟨1, _⟩ =>
    show win9_4.index _ (1 : Fin 2) * 1024 ≤ (i 1).val ∧ (i 1).val < win9_4.index _ (1 : Fin 2) * 1024 + 1024
    rw [e1]; omega

/-! ## What each case of the body leaves, read as values

The body's run was found case by case as lists of stored pieces; read back, the product block's one covering store
leaves the product of the input blocks, and the carried row's stores leave, column by column, what the row held
(nothing, at the first point) plus the block's column sums, in its first half of the plain products and in its
second of their squares. The last point's copy leaves the statistics block equal to the carried row. -/

/-- A column of the first half of the carried row, and of the second. -/
abbrev lo9 (j : Fin 512) : Fin 1024 := ⟨j.val, by have := j.isLt; omega⟩
abbrev hi9 (j : Fin 512) : Fin 1024 := ⟨512 + j.val, by have := j.isLt; omega⟩

theorem hz9 : (![0, 0] : Fin 2 → Nat) = fun _ => 0 := funext fun a => by fin_cases a <;> rfl

/-- The two halves of the carried row, as the rectangles the body stores through. -/
abbrev rLo9 : Rect S1x1024 := Rect.unit (s := S1x1024) ![0, 0] S1x512.size inb_S1x1024_S1x512_0_0
abbrev rHi9 : Rect S1x1024 := Rect.unit (s := S1x1024) ![0, 512] S1x512.size inb_S1x1024_S1x512_0_512

theorem rLo9_emb (j : Fin 512) : rLo9.emb (ix2 0 j) = ix2 0 (lo9 j) := by
  funext a
  apply Fin.ext
  rw [Rect.emb_apply]
  match a with
  | ⟨0, _⟩ => rfl
  | ⟨1, _⟩ => show 0 + 1 * j.val = j.val; omega

theorem rHi9_emb (j : Fin 512) : rHi9.emb (ix2 0 j) = ix2 0 (hi9 j) := by
  funext a
  apply Fin.ext
  rw [Rect.emb_apply]
  match a with
  | ⟨0, _⟩ => rfl
  | ⟨1, _⟩ => show 512 + 1 * j.val = 512 + j.val; omega

theorem lo9_not_mem_hi (j : Fin 512) : ix2 0 (lo9 j) ∉ rHi9.set := by
  rw [Rect.mem_set_unit]
  intro h
  have h1 : (512 : ℕ) ≤ j.val := (h 1).1
  have := j.isLt
  omega

theorem hi9_not_mem_lo (j : Fin 512) : ix2 0 (hi9 j) ∉ rLo9.set := by
  rw [Rect.mem_set_unit]
  intro h
  have h1 : 512 + j.val < 0 + 512 := (h 1).2
  omega

/-- The whole carried row as a rectangle of itself. -/
abbrev rW9 : Rect S1x1024 := Rect.unit (s := S1x1024) ![0, 0] S1x1024.size inb_S1x1024_S1x1024_0_0

/-- A load after one store of the whole row reads that store's payload. -/
theorem readCov_rW9 {sig' : RefSig} {κ : Kind} {sp : Space} (v : View sig' κ sp S1x1024 .f32) (w : Vec Ideal S1x1024 .f32)
    (B : Rect S1x1024) (y : B.shape.Idx) :
    v.readCov [(⟨rW9, w⟩ : View.Piece (Elt Ideal) S1x1024 .f32)] B.toLoadRect y = w (B.idx y) := by
  have hc : ∀ y : S1x1024.Idx, ∃ p ∈ [(⟨rW9, w⟩ : View.Piece (Elt Ideal) S1x1024 .f32)], y ∈ p.1.set :=
    fun y => ⟨⟨rW9, w⟩, List.mem_singleton_self _, View.mem_set_unit_zero hz9 inb_S1x1024_S1x1024_0_0 y⟩
  rw [View.readCov_eq_canon_ld v _ B hc, View.canon_unit_zero hz9]

/-- The two half-row stores cover the row. -/
theorem halves_cover9 (wHi wLo : Vec Ideal S1x512 .f32) (y : S1x1024.Idx) :
    ∃ p ∈ ([⟨rHi9, wHi⟩, ⟨rLo9, wLo⟩] : List (View.Piece (Elt Ideal) S1x1024 .f32)), y ∈ p.1.set := by
  have h0 : (y 0).val < 1 := (y 0).isLt
  have h1 : (y 1).val < 1024 := (y 1).isLt
  by_cases h : (y 1).val < 512
  · refine ⟨⟨rLo9, wLo⟩, List.mem_cons_of_mem _ (List.mem_singleton_self _), ?_⟩
    show y ∈ rLo9.set
    rw [Rect.mem_set_unit]
    intro a
    match a with
    | ⟨0, _⟩ => show 0 ≤ (y 0).val ∧ (y 0).val < 0 + 1; omega
    | ⟨1, _⟩ => show 0 ≤ (y 1).val ∧ (y 1).val < 0 + 512; omega
  · refine ⟨⟨rHi9, wHi⟩, List.mem_cons_self, ?_⟩
    show y ∈ rHi9.set
    rw [Rect.mem_set_unit]
    intro a
    match a with
    | ⟨0, _⟩ => show 0 ≤ (y 0).val ∧ (y 0).val < 0 + 1; omega
    | ⟨1, _⟩ => show 512 ≤ (y 1).val ∧ (y 1).val < 512 + 512; omega

theorem out9_A_3_eq (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i) (x0 x1 : Vec Ideal S2000x128 .f32) (x2 : Vec Ideal S128x512 .bf16) :
    out9_A_3 (F := Ideal) c i arg1 harg1 arg2 harg2 arg3 harg3 arg4 harg4 arg5 harg5 arg6 harg6 hc0 hc1 x0 x1 x2 = k9_pay2 (F := Ideal) x0 x1 x2 := by
  unfold out9_A_3
  rw [View.read_writes_eq_canon _ _ _ (cover9_A_3 c i arg1 harg1 arg2 harg2 arg3 harg3 arg4 harg4 arg5 harg5 arg6 harg6 hc0 hc1 x0 x1 x2)]
  unfold kernelRun9_A
  dsimp only
  sl_unfold_words
  rw [View.canon_unit_zero hz9]
  simp only [View.readAt_eq_ld, harg1.read_unread, harg2.read_unread, harg3.read_unread, View.ld_unit_zero (S := S2000x128) hz9, View.ld_unit_zero (S := S128x512) hz9]

theorem out9_B_3_eq (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i) (x0 x1 : Vec Ideal S2000x128 .f32) (x2 : Vec Ideal S128x512 .bf16) (xs0 : Vec Ideal S1x1024 .f32) :
    out9_B_3 (F := Ideal) c i arg1 harg1 arg2 harg2 arg3 harg3 arg4 harg4 arg5 harg5 arg6 harg6 hc0 hc1 x0 x1 x2 xs0 = k9_pay2 (F := Ideal) x0 x1 x2 := by
  unfold out9_B_3
  rw [View.read_writes_eq_canon _ _ _ (cover9_B_3 c i arg1 harg1 arg2 harg2 arg3 harg3 arg4 harg4 arg5 harg5 arg6 harg6 hc0 hc1 x0 x1 x2 xs0)]
  unfold kernelRun9_B
  dsimp only
  sl_unfold_words
  rw [View.canon_unit_zero hz9]
  simp only [View.readAt_eq_ld, harg1.read_unread, harg2.read_unread, harg3.read_unread, View.ld_unit_zero (S := S2000x128) hz9, View.ld_unit_zero (S := S128x512) hz9]

theorem out9_C_3_eq (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i) (x0 x1 : Vec Ideal S2000x128 .f32) (x2 : Vec Ideal S128x512 .bf16) (xs0 : Vec Ideal S1x1024 .f32) :
    out9_C_3 (F := Ideal) c i arg1 harg1 arg2 harg2 arg3 harg3 arg4 harg4 arg5 harg5 arg6 harg6 hc0 hc1 x0 x1 x2 xs0 = k9_pay2 (F := Ideal) x0 x1 x2 := by
  unfold out9_C_3
  rw [View.read_writes_eq_canon _ _ _ (cover9_C_3 c i arg1 harg1 arg2 harg2 arg3 harg3 arg4 harg4 arg5 harg5 arg6 harg6 hc0 hc1 x0 x1 x2 xs0)]
  unfold kernelRun9_C
  dsimp only
  sl_unfold_words
  rw [View.canon_unit_zero hz9]
  simp only [View.readAt_eq_ld, harg1.read_unread, harg2.read_unread, harg3.read_unread, View.ld_unit_zero (S := S2000x128) hz9, View.ld_unit_zero (S := S128x512) hz9]

theorem sout9_A_0_lo (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i) (x0 x1 : Vec Ideal S2000x128 .f32) (x2 : Vec Ideal S128x512 .bf16) (j : Fin 512) :
    sout9_A_0 (F := Ideal) c i arg1 harg1 arg2 harg2 arg3 harg3 arg4 harg4 arg5 harg5 arg6 harg6 hc0 hc1 x0 x1 x2 (ix2 0 (lo9 j))
      = 0 + ∑ r : Fin 2000, k9_pay2 (F := Ideal) x0 x1 x2 (ix2 r j) := by
  unfold sout9_A_0
  rw [View.read_writes_eq_canon _ _ _ (scover9_A_0 c i arg1 harg1 arg2 harg2 arg3 harg3 arg4 harg4 arg5 harg5 arg6 harg6 hc0 hc1 x0 x1 x2)]
  unfold kernelRun9_A
  dsimp only
  sl_unfold_words
  simp only [View.readAt_eq_ld, harg1.read_unread, harg2.read_unread, harg3.read_unread, View.ld_unit_zero (S := S2000x128) hz9, View.ld_unit_zero (S := S128x512) hz9]
  refine (View.canon_cons_of_not_mem (⟨rHi9, _⟩ : View.Piece (Elt Ideal) S1x1024 .f32) _ (lo9_not_mem_hi j)).trans ?_
  refine (congrArg _ (rLo9_emb j).symm).trans ((View.canon_cons_emb rLo9 _ _ (ix2 0 j)).trans ?_)
  refine (k9_pay3_apply x0 x1 x2 _ j).trans ?_
  refine congrArg (· + _) ?_
  exact (readCov_rW9 _ _ rLo9 (ix2 0 j)).trans (congrFun k9_pay1_eq _)

theorem sout9_A_0_hi (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond9_0 i) (hc1 : ¬cond9_1 i) (x0 x1 : Vec Ideal S2000x128 .f32) (x2 : Vec Ideal S128x512 .bf16) (j : Fin 512) :
    sout9_A_0 (F := Ideal) c i arg1 harg1 arg2 harg2 arg3 harg3 arg4 harg4 arg5 harg5 arg6 harg6 hc0 hc1 x0 x1 x2 (ix2 0 (hi9 j))
      = 0 + ∑ r : Fin 2000, k9_pay2 (F := Ideal) x0 x1 x2 (ix2 r j) * k9_pay2 (F := Ideal) x0 x1 x2 (ix2 r j) := by
  unfold sout9_A_0
  rw [View.read_writes_eq_canon _ _ _ (scover9_A_0 c i arg1 harg1 arg2 harg2 arg3 harg3 arg4 harg4 arg5 harg5 arg6 harg6 hc0 hc1 x0 x1 x2)]
  unfold kernelRun9_A
  dsimp only
  sl_unfold_words
  simp only [View.readAt_eq_ld, harg1.read_unread, harg2.read_unread, harg3.read_unread, View.ld_unit_zero (S := S2000x128) hz9, View.ld_unit_zero (S := S128x512) hz9]
  refine (congrArg _ (rHi9_emb j).symm).trans ((View.canon_cons_emb rHi9 _ _ (ix2 0 j)).trans ?_)
  refine (k9_pay4_apply x0 x1 x2 _ j).trans ?_
  refine congrArg (· + _) ?_
  refine (congrFun (View.readCov_eq_canon_ld _ _ rHi9 (fun y =>
    ⟨⟨rW9, k9_pay1 (F := Ideal)⟩, List.mem_cons_of_mem _ (List.mem_singleton_self _),
      View.mem_set_unit_zero hz9 inb_S1x1024_S1x1024_0_0 y⟩)) (ix2 0 j)).trans ?_
  show View.canon _ (rHi9.emb (ix2 0 j)) = 0
  rw [rHi9_emb]
  refine (View.canon_cons_of_not_mem (⟨rLo9, _⟩ : View.Piece (Elt Ideal) S1x1024 .f32) _ (hi9_not_mem_lo j)).trans ?_
  rw [View.canon_unit_zero hz9]
  exact congrFun k9_pay1_eq _

theorem sout9_B_0_lo (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i) (x0 x1 : Vec Ideal S2000x128 .f32) (x2 : Vec Ideal S128x512 .bf16) (xs0 : Vec Ideal S1x1024 .f32) (j : Fin 512) :
    sout9_B_0 (F := Ideal) c i arg1 harg1 arg2 harg2 arg3 harg3 arg4 harg4 arg5 harg5 arg6 harg6 hc0 hc1 x0 x1 x2 xs0 (ix2 0 (lo9 j))
      = xs0 (ix2 0 (lo9 j)) + ∑ r : Fin 2000, k9_pay2 (F := Ideal) x0 x1 x2 (ix2 r j) := by
  unfold sout9_B_0
  rw [View.read_writes_eq_canon _ _ _ (scover9_B_0 c i arg1 harg1 arg2 harg2 arg3 harg3 arg4 harg4 arg5 harg5 arg6 harg6 hc0 hc1 x0 x1 x2 xs0)]
  unfold kernelRun9_B
  dsimp only
  sl_unfold_words
  simp only [View.readAt_eq_ld, harg1.read_unread, harg2.read_unread, harg3.read_unread, harg6.read_unread, View.ld_unit_zero (S := S2000x128) hz9, View.ld_unit_zero (S := S128x512) hz9]
  refine (View.canon_cons_of_not_mem (⟨rHi9, _⟩ : View.Piece (Elt Ideal) S1x1024 .f32) _ (lo9_not_mem_hi j)).trans ?_
  refine (congrArg _ (rLo9_emb j).symm).trans ((View.canon_cons_emb rLo9 _ [] (ix2 0 j)).trans ?_)
  refine (k9_pay3_apply x0 x1 x2 _ j).trans ?_
  exact congrArg (· + _) (congrArg xs0 (rLo9_emb j))

theorem sout9_B_0_hi (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : ¬cond9_1 i) (x0 x1 : Vec Ideal S2000x128 .f32) (x2 : Vec Ideal S128x512 .bf16) (xs0 : Vec Ideal S1x1024 .f32) (j : Fin 512) :
    sout9_B_0 (F := Ideal) c i arg1 harg1 arg2 harg2 arg3 harg3 arg4 harg4 arg5 harg5 arg6 harg6 hc0 hc1 x0 x1 x2 xs0 (ix2 0 (hi9 j))
      = xs0 (ix2 0 (hi9 j)) + ∑ r : Fin 2000, k9_pay2 (F := Ideal) x0 x1 x2 (ix2 r j) * k9_pay2 (F := Ideal) x0 x1 x2 (ix2 r j) := by
  unfold sout9_B_0
  rw [View.read_writes_eq_canon _ _ _ (scover9_B_0 c i arg1 harg1 arg2 harg2 arg3 harg3 arg4 harg4 arg5 harg5 arg6 harg6 hc0 hc1 x0 x1 x2 xs0)]
  unfold kernelRun9_B
  dsimp only
  sl_unfold_words
  simp only [View.readAt_eq_ld, harg1.read_unread, harg2.read_unread, harg3.read_unread, harg6.read_unread, View.ld_unit_zero (S := S2000x128) hz9, View.ld_unit_zero (S := S128x512) hz9]
  refine (congrArg _ (rHi9_emb j).symm).trans ((View.canon_cons_emb rHi9 _ _ (ix2 0 j)).trans ?_)
  refine (k9_pay4_apply x0 x1 x2 _ j).trans ?_
  exact congrArg (· + _) (congrArg xs0 (rHi9_emb j))

theorem sout9_C_0_lo (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i) (x0 x1 : Vec Ideal S2000x128 .f32) (x2 : Vec Ideal S128x512 .bf16) (xs0 : Vec Ideal S1x1024 .f32) (j : Fin 512) :
    sout9_C_0 (F := Ideal) c i arg1 harg1 arg2 harg2 arg3 harg3 arg4 harg4 arg5 harg5 arg6 harg6 hc0 hc1 x0 x1 x2 xs0 (ix2 0 (lo9 j))
      = xs0 (ix2 0 (lo9 j)) + ∑ r : Fin 2000, k9_pay2 (F := Ideal) x0 x1 x2 (ix2 r j) := by
  unfold sout9_C_0
  rw [View.read_writes_eq_canon _ _ _ (scover9_C_0 c i arg1 harg1 arg2 harg2 arg3 harg3 arg4 harg4 arg5 harg5 arg6 harg6 hc0 hc1 x0 x1 x2 xs0)]
  unfold kernelRun9_C
  dsimp only
  sl_unfold_words
  simp only [View.readAt_eq_ld, harg1.read_unread, harg2.read_unread, harg3.read_unread, harg6.read_unread, View.ld_unit_zero (S := S2000x128) hz9, View.ld_unit_zero (S := S128x512) hz9]
  refine (View.canon_cons_of_not_mem (⟨rHi9, _⟩ : View.Piece (Elt Ideal) S1x1024 .f32) _ (lo9_not_mem_hi j)).trans ?_
  refine (congrArg _ (rLo9_emb j).symm).trans ((View.canon_cons_emb rLo9 _ [] (ix2 0 j)).trans ?_)
  refine (k9_pay3_apply x0 x1 x2 _ j).trans ?_
  exact congrArg (· + _) (congrArg xs0 (rLo9_emb j))

theorem sout9_C_0_hi (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i) (x0 x1 : Vec Ideal S2000x128 .f32) (x2 : Vec Ideal S128x512 .bf16) (xs0 : Vec Ideal S1x1024 .f32) (j : Fin 512) :
    sout9_C_0 (F := Ideal) c i arg1 harg1 arg2 harg2 arg3 harg3 arg4 harg4 arg5 harg5 arg6 harg6 hc0 hc1 x0 x1 x2 xs0 (ix2 0 (hi9 j))
      = xs0 (ix2 0 (hi9 j)) + ∑ r : Fin 2000, k9_pay2 (F := Ideal) x0 x1 x2 (ix2 r j) * k9_pay2 (F := Ideal) x0 x1 x2 (ix2 r j) := by
  unfold sout9_C_0
  rw [View.read_writes_eq_canon _ _ _ (scover9_C_0 c i arg1 harg1 arg2 harg2 arg3 harg3 arg4 harg4 arg5 harg5 arg6 harg6 hc0 hc1 x0 x1 x2 xs0)]
  unfold kernelRun9_C
  dsimp only
  sl_unfold_words
  simp only [View.readAt_eq_ld, harg1.read_unread, harg2.read_unread, harg3.read_unread, harg6.read_unread, View.ld_unit_zero (S := S2000x128) hz9, View.ld_unit_zero (S := S128x512) hz9]
  refine (congrArg _ (rHi9_emb j).symm).trans ((View.canon_cons_emb rHi9 _ _ (ix2 0 j)).trans ?_)
  refine (k9_pay4_apply x0 x1 x2 _ j).trans ?_
  exact congrArg (· + _) (congrArg xs0 (rHi9_emb j))

theorem out9_C_4_eq (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S128x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond9_0 i) (hc1 : cond9_1 i) (x0 x1 : Vec Ideal S2000x128 .f32) (x2 : Vec Ideal S128x512 .bf16) (xs0 : Vec Ideal S1x1024 .f32) :
    out9_C_4 (F := Ideal) c i arg1 harg1 arg2 harg2 arg3 harg3 arg4 harg4 arg5 harg5 arg6 harg6 hc0 hc1 x0 x1 x2 xs0 = sout9_C_0 (F := Ideal) c i arg1 harg1 arg2 harg2 arg3 harg3 arg4 harg4 arg5 harg5 arg6 harg6 hc0 hc1 x0 x1 x2 xs0 := by
  unfold out9_C_4 sout9_C_0
  rw [View.read_writes_eq_canon _ _ _ (cover9_C_4 c i arg1 harg1 arg2 harg2 arg3 harg3 arg4 harg4 arg5 harg5 arg6 harg6 hc0 hc1 x0 x1 x2 xs0), View.read_writes_eq_canon _ _ _ (scover9_C_0 c i arg1 harg1 arg2 harg2 arg3 harg3 arg4 harg4 arg5 harg5 arg6 harg6 hc0 hc1 x0 x1 x2 xs0)]
  unfold kernelRun9_C
  dsimp only
  sl_unfold_words
  rw [View.canon_unit_zero hz9]
  refine (View.readCov_eq_canon_ld _ _ rW9 (halves_cover9 _ _)).trans ?_
  exact View.ld_unit_zero hz9 _ _

/-! ## The region's arrays and blocks at their literal types -/

variable (V : (c : Dev nD) → (b : Ref sig .tc) → Buf (Elt Ideal) ((c : Thread nD τ).loc b))

/-- The two input arrays and the weight matrix as the region finds them. -/
abbrev X9_0 (c : Dev nD) : Spec.Mx 50000 128 := V c (Pipeline.arrRef spec9 0)
abbrev X9_1 (c : Dev nD) : Spec.Mx 50000 128 := V c (Pipeline.arrRef spec9 1)
abbrev X9_2 (c : Dev nD) : Spec.Mx 128 512 := V c (Pipeline.arrRef spec9 2)

/-- The product of the summed inputs with the weights, all rows at once. -/
abbrev Z9 (c : Dev nD) : Spec.Mx 50000 512 := Spec.mm (Spec.add2 (X9_0 V c) (X9_1 V c)) (X9_2 V c)

/-- The product block the body computes at point `t`. -/
abbrev zb9 (c : Dev nD) (t : Fin cfg9.N) : FVec Ideal S2000x512 .f32 :=
  k9_pay2 (F := Ideal) (iblk9 V c 0 t) (iblk9 V c 1 t) (iblk9 V c 2 t)

/-- The product block at point `t` is rows `2000 t …` of the whole product. -/
theorem zb9_apply (c : Dev nD) (t : Fin cfg9.N) (r : Fin 2000) (j : Fin 512) (i : Fin 50000) (hi : i.val = 2000 * t.val + r.val) :
    zb9 V c t (ix2 r j) = Z9 V c (ix2 i j) := by
  refine (k9_pay2_apply _ _ _ r j).trans ?_
  show _ = ∑ l : Fin 128, (X9_0 V c (ix2 i l) + X9_1 V c (ix2 i l)) * X9_2 V c (ix2 l j)
  refine Finset.sum_congr rfl fun l _ => ?_
  have e0 : (iblk9 V c 0 t : Vec Ideal S2000x128 .f32) (ix2 r l) = X9_0 V c (ix2 i l) := read_blk9_0 (X9_0 V c) t r l i hi
  have e1 : (iblk9 V c 1 t : Vec Ideal S2000x128 .f32) (ix2 r l) = X9_1 V c (ix2 i l) := read_blk9_1 (X9_1 V c) t r l i hi
  have e2 : (iblk9 V c 2 t : Vec Ideal S128x512 .bf16) (ix2 l j) = X9_2 V c (ix2 l j) := read_blk9_2 (X9_2 V c) t l j
  rw [e0, e1, e2]

/-! ## The carried row after each point -/

/-- The output block after point `t` is the product block, whichever case the point is. -/
theorem outsAt9_fst (c : Dev nD) (t : Fin cfg9.N) : (outsAt9 V c t.val t.isLt).1 = zb9 V c t := by
  by_cases h0 : t.val = 0
  · have h1 : ¬t.val = 24 := by omega
    rw [outsAt9_A V c t h0 h1]; dsimp only
    exact out9_A_3_eq c (grid9.coords t) (ms9_0 t) (hs9_0 t) (ms9_1 t) (hs9_1 t) (ms9_2 t) (hs9_2 t) (ms9_3 t) (hs9_3 t) (ms9_4 t) (hs9_4 t) scM9_0 (Memref.isWhole_whole _) ((hcond9_0 t).mpr h0) (fun h => h1 ((hcond9_1 t).mp h)) (iblk9 V c 0 t) (iblk9 V c 1 t) (iblk9 V c 2 t)
  · by_cases h1 : t.val = 24
    · rw [outsAt9_C V c t h0 h1]; dsimp only
      exact out9_C_3_eq c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) _
    · rw [outsAt9_B V c t h0 h1]; dsimp only
      exact out9_B_3_eq c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) (fun h => h1 ((hcond9_1 t).mp h)) (iblk9 V c 0 t) (iblk9 V c 1 t) (iblk9 V c 2 t) _

/-- Tile `t`'s contribution to column `j`'s sum, and to its sum of squares (nothing past the grid). -/
def tsum9 (c : Dev nD) (j : Fin 512) (t : ℕ) : EReal :=
  if h : t < cfg9.N then ∑ r : Fin 2000, zb9 V c ⟨t, h⟩ (ix2 r j) else 0
def tsq9 (c : Dev nD) (j : Fin 512) (t : ℕ) : EReal :=
  if h : t < cfg9.N then ∑ r : Fin 2000, zb9 V c ⟨t, h⟩ (ix2 r j) * zb9 V c ⟨t, h⟩ (ix2 r j) else 0

/-- The carried row at the first point. -/
theorem row9_zero (c : Dev nD) (j : Fin 512) (h : 0 < cfg9.N) :
    (outsAt9 V c 0 h).2.2 (ix2 0 (lo9 j)) = 0 + tsum9 V c j 0
    ∧ (outsAt9 V c 0 h).2.2 (ix2 0 (hi9 j)) = 0 + tsq9 V c j 0 := by
  have h1 : ¬(⟨0, h⟩ : Fin cfg9.N).val = 24 := by dsimp only; omega
  have e := outsAt9_A V c ⟨0, h⟩ rfl h1
  dsimp only at e
  rw [e]; dsimp only
  unfold tsum9 tsq9
  rw [dif_pos h, dif_pos h]
  exact ⟨sout9_A_0_lo c (grid9.coords ⟨0, h⟩) (ms9_0 ⟨0, h⟩) (hs9_0 ⟨0, h⟩) (ms9_1 ⟨0, h⟩) (hs9_1 ⟨0, h⟩) (ms9_2 ⟨0, h⟩) (hs9_2 ⟨0, h⟩) (ms9_3 ⟨0, h⟩) (hs9_3 ⟨0, h⟩) (ms9_4 ⟨0, h⟩) (hs9_4 ⟨0, h⟩) scM9_0 (Memref.isWhole_whole _) ((hcond9_0 ⟨0, h⟩).mpr rfl) (fun h' => h1 ((hcond9_1 ⟨0, h⟩).mp h')) (iblk9 V c 0 ⟨0, h⟩) (iblk9 V c 1 ⟨0, h⟩) (iblk9 V c 2 ⟨0, h⟩) j,
    sout9_A_0_hi c (grid9.coords ⟨0, h⟩) (ms9_0 ⟨0, h⟩) (hs9_0 ⟨0, h⟩) (ms9_1 ⟨0, h⟩) (hs9_1 ⟨0, h⟩) (ms9_2 ⟨0, h⟩) (hs9_2 ⟨0, h⟩) (ms9_3 ⟨0, h⟩) (hs9_3 ⟨0, h⟩) (ms9_4 ⟨0, h⟩) (hs9_4 ⟨0, h⟩) scM9_0 (Memref.isWhole_whole _) ((hcond9_0 ⟨0, h⟩).mpr rfl) (fun h' => h1 ((hcond9_1 ⟨0, h⟩).mp h')) (iblk9 V c 0 ⟨0, h⟩) (iblk9 V c 1 ⟨0, h⟩) (iblk9 V c 2 ⟨0, h⟩) j⟩

/-- The carried row at a later point: what the point before left plus this tile's contribution. -/
theorem row9_succ (c : Dev nD) (j : Fin 512) (n : ℕ) (h : n + 1 < cfg9.N) :
    (outsAt9 V c (n + 1) h).2.2 (ix2 0 (lo9 j)) = (outsAt9 V c n (Nat.lt_of_succ_lt h)).2.2 (ix2 0 (lo9 j)) + tsum9 V c j (n + 1)
    ∧ (outsAt9 V c (n + 1) h).2.2 (ix2 0 (hi9 j)) = (outsAt9 V c n (Nat.lt_of_succ_lt h)).2.2 (ix2 0 (hi9 j)) + tsq9 V c j (n + 1) := by
  have h0 : ¬(⟨n + 1, h⟩ : Fin cfg9.N).val = 0 := Nat.succ_ne_zero n
  unfold tsum9 tsq9
  rw [dif_pos h, dif_pos h]
  by_cases h1 : (⟨n + 1, h⟩ : Fin cfg9.N).val = 24
  · have e := outsAt9_C V c ⟨n + 1, h⟩ h0 h1
    dsimp only at e
    rw [e]; dsimp only
    exact ⟨sout9_C_0_lo c (grid9.coords ⟨n + 1, h⟩) (ms9_0 ⟨n + 1, h⟩) (hs9_0 ⟨n + 1, h⟩) (ms9_1 ⟨n + 1, h⟩) (hs9_1 ⟨n + 1, h⟩) (ms9_2 ⟨n + 1, h⟩) (hs9_2 ⟨n + 1, h⟩) (ms9_3 ⟨n + 1, h⟩) (hs9_3 ⟨n + 1, h⟩) (ms9_4 ⟨n + 1, h⟩) (hs9_4 ⟨n + 1, h⟩) scM9_0 (Memref.isWhole_whole _) (fun h' => h0 ((hcond9_0 ⟨n + 1, h⟩).mp h')) ((hcond9_1 ⟨n + 1, h⟩).mpr h1) (iblk9 V c 0 ⟨n + 1, h⟩) (iblk9 V c 1 ⟨n + 1, h⟩) (iblk9 V c 2 ⟨n + 1, h⟩) _ j,
      sout9_C_0_hi c (grid9.coords ⟨n + 1, h⟩) (ms9_0 ⟨n + 1, h⟩) (hs9_0 ⟨n + 1, h⟩) (ms9_1 ⟨n + 1, h⟩) (hs9_1 ⟨n + 1, h⟩) (ms9_2 ⟨n + 1, h⟩) (hs9_2 ⟨n + 1, h⟩) (ms9_3 ⟨n + 1, h⟩) (hs9_3 ⟨n + 1, h⟩) (ms9_4 ⟨n + 1, h⟩) (hs9_4 ⟨n + 1, h⟩) scM9_0 (Memref.isWhole_whole _) (fun h' => h0 ((hcond9_0 ⟨n + 1, h⟩).mp h')) ((hcond9_1 ⟨n + 1, h⟩).mpr h1) (iblk9 V c 0 ⟨n + 1, h⟩) (iblk9 V c 1 ⟨n + 1, h⟩) (iblk9 V c 2 ⟨n + 1, h⟩) _ j⟩
  · have e := outsAt9_B V c ⟨n + 1, h⟩ h0 h1
    dsimp only at e
    rw [e]; dsimp only
    exact ⟨sout9_B_0_lo c (grid9.coords ⟨n + 1, h⟩) (ms9_0 ⟨n + 1, h⟩) (hs9_0 ⟨n + 1, h⟩) (ms9_1 ⟨n + 1, h⟩) (hs9_1 ⟨n + 1, h⟩) (ms9_2 ⟨n + 1, h⟩) (hs9_2 ⟨n + 1, h⟩) (ms9_3 ⟨n + 1, h⟩) (hs9_3 ⟨n + 1, h⟩) (ms9_4 ⟨n + 1, h⟩) (hs9_4 ⟨n + 1, h⟩) scM9_0 (Memref.isWhole_whole _) (fun h' => h0 ((hcond9_0 ⟨n + 1, h⟩).mp h')) (fun h' => h1 ((hcond9_1 ⟨n + 1, h⟩).mp h')) (iblk9 V c 0 ⟨n + 1, h⟩) (iblk9 V c 1 ⟨n + 1, h⟩) (iblk9 V c 2 ⟨n + 1, h⟩) _ j,
      sout9_B_0_hi c (grid9.coords ⟨n + 1, h⟩) (ms9_0 ⟨n + 1, h⟩) (hs9_0 ⟨n + 1, h⟩) (ms9_1 ⟨n + 1, h⟩) (hs9_1 ⟨n + 1, h⟩) (ms9_2 ⟨n + 1, h⟩) (hs9_2 ⟨n + 1, h⟩) (ms9_3 ⟨n + 1, h⟩) (hs9_3 ⟨n + 1, h⟩) (ms9_4 ⟨n + 1, h⟩) (hs9_4 ⟨n + 1, h⟩) scM9_0 (Memref.isWhole_whole _) (fun h' => h0 ((hcond9_0 ⟨n + 1, h⟩).mp h')) (fun h' => h1 ((hcond9_1 ⟨n + 1, h⟩).mp h')) (iblk9 V c 0 ⟨n + 1, h⟩) (iblk9 V c 1 ⟨n + 1, h⟩) (iblk9 V c 2 ⟨n + 1, h⟩) _ j⟩

/-- So after point `n` the carried row holds, column by column, the sums over the tiles so far. -/
theorem row9_eq (c : Dev nD) (j : Fin 512) (n : ℕ) (h : n < cfg9.N) :
    (outsAt9 V c n h).2.2 (ix2 0 (lo9 j)) = ∑ t ∈ Finset.range (n + 1), tsum9 V c j t
    ∧ (outsAt9 V c n h).2.2 (ix2 0 (hi9 j)) = ∑ t ∈ Finset.range (n + 1), tsq9 V c j t :=
  ⟨steps_eq_sum9 (tsum9 V c j) cfg9.N (fun n h => (outsAt9 V c n h).2.2 (ix2 0 (lo9 j)))
      (fun h => (row9_zero V c j h).1) (fun n h => (row9_succ V c j n h).1) n h,
    steps_eq_sum9 (tsq9 V c j) cfg9.N (fun n h => (outsAt9 V c n h).2.2 (ix2 0 (hi9 j)))
      (fun h => (row9_zero V c j h).2) (fun n h => (row9_succ V c j n h).2) n h⟩

/-- The sums over all the tiles are the column sums of the whole product, and of its squares. -/
theorem tsum9_all (c : Dev nD) (j : Fin 512) :
    ∑ t ∈ Finset.range 25, tsum9 V c j t = Spec.colSum (Z9 V c) j := by
  have hN : cfg9.N = 25 := N_9
  rw [Finset.sum_range]
  show _ = ∑ i : Fin 50000, Z9 V c (ix2 i j)
  rw [sum_rows_tiles9]
  refine Finset.sum_congr rfl fun t _ => ?_
  have ht : t.val < cfg9.N := by have := t.isLt; omega
  unfold tsum9
  rw [dif_pos ht]
  exact Finset.sum_congr rfl fun r _ =>
    zb9_apply V c ⟨t.val, ht⟩ r j ⟨2000 * t.val + r.val, by have := t.isLt; have := r.isLt; omega⟩ rfl

theorem tsq9_all (c : Dev nD) (j : Fin 512) :
    ∑ t ∈ Finset.range 25, tsq9 V c j t = Spec.colSumSq (Z9 V c) j := by
  have hN : cfg9.N = 25 := N_9
  rw [Finset.sum_range]
  show _ = ∑ i : Fin 50000, Z9 V c (ix2 i j) * Z9 V c (ix2 i j)
  rw [sum_rows_tiles9]
  refine Finset.sum_congr rfl fun t _ => ?_
  have ht : t.val < cfg9.N := by have := t.isLt; omega
  unfold tsq9
  rw [dif_pos ht]
  exact Finset.sum_congr rfl fun r _ => by
    rw [zb9_apply V c ⟨t.val, ht⟩ r j ⟨2000 * t.val + r.val, by have := t.isLt; have := r.isLt; omega⟩ rfl]

/-! ## The two output arrays after the region -/

/-- The statistics row: the column sums in its first half, the column sums of squares in its second. -/
def stats9 (Z : Spec.Mx 50000 512) : Spec.Mx 1 1024 := fun i =>
  if h : (i 1).val < 512 then Spec.colSum Z ⟨(i 1).val, h⟩
  else Spec.colSumSq Z ⟨(i 1).val - 512, by have : (i 1).val < 1024 := (i 1).isLt; omega⟩

theorem stats9_lo (Z : Spec.Mx 50000 512) (j : Fin 512) : stats9 Z (ix2 0 (lo9 j)) = Spec.colSum Z j := by
  unfold stats9
  have hq : ((ix2 (0 : Fin 1) (lo9 j) : S1x1024.Idx) 1).val < 512 := j.isLt
  rw [dif_pos hq]
theorem stats9_hi (Z : Spec.Mx 50000 512) (j : Fin 512) : stats9 Z (ix2 0 (hi9 j)) = Spec.colSumSq Z j := by
  unfold stats9
  have hq : ¬((ix2 (0 : Fin 1) (hi9 j) : S1x1024.Idx) 1).val < 512 := by
    show ¬ 512 + j.val < 512; omega
  rw [dif_neg hq]
  exact congrArg (Spec.colSumSq Z) (Fin.ext (by show 512 + j.val - 512 = j.val; omega))

/-- What point `t` writes back of the product is block `t` of the whole product. -/
theorem flushed9_3_eq (c : Dev nD) (t : Fin cfg9.N) :
    (dat9 V c).flushed 3 t = ((cfg9.win 3).blk t).view.read (Elt Ideal) (Z9 V c) := by
  show (cfg9.win 3).cut (grid9.coords t) ((dat9 V c).after 3 t) = _
  rw [after9_3, outsAt9_fst]
  funext y
  obtain ⟨r, j, rfl⟩ : ∃ (r : Fin 2000) (j : Fin 512), y = ix2 r j := ⟨y 0, y 1, eq_ix2 y⟩
  have hi : (⟨2000 * t.val + r.val, by have hN : cfg9.N = 25 := N_9; have := t.isLt; have := r.isLt; omega⟩ : Fin 50000).val
      = 2000 * t.val + r.val := rfl
  refine Eq.trans ?_ (read_blk9_3 (Z9 V c) t r j _ hi).symm
  exact zb9_apply V c t r j _ hi

/-- The product array after the region is the whole product. -/
theorem z_eq9 (c : Dev nD) : (dat9 V c).arrAt 3 cfg9.N = Z9 V c :=
  (dat9 V c).arrAt_eq_of_cover 3 (Z9 V c) (fun t _ => flushed9_3_eq V c t) cover9_3

/-- What the last point writes back of the statistics is the whole statistics row. -/
theorem flushed9_4_eq (c : Dev nD) (t : Fin cfg9.N) (hf : (cfg9.win 4).flush t = true) :
    (dat9 V c).flushed 4 t = ((cfg9.win 4).blk t).view.read (Elt Ideal) (stats9 (Z9 V c)) := by
  have hN : cfg9.N = 25 := N_9
  have h24 : t.val = 24 := by have := (flush9_4 t).mp hf; have := t.isLt; omega
  have h0 : ¬t.val = 0 := by omega
  show (cfg9.win 4).cut (grid9.coords t) ((dat9 V c).after 4 t) = _
  rw [after9_4]
  funext y
  rw [read_blk9_4 (stats9 (Z9 V c)) t y]
  have e := outsAt9_C V c t h0 h24
  have e4 : (outsAt9 V c t.val t.isLt).2.1 = (outsAt9 V c t.val t.isLt).2.2 := by
    rw [e]; dsimp only
    exact out9_C_4_eq c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h24) (iblk9 V c 0 t) (iblk9 V c 1 t) (iblk9 V c 2 t) _
  show (outsAt9 V c t.val t.isLt).2.1 y = _
  rw [e4]
  obtain ⟨p, q, rfl⟩ : ∃ (p : Fin 1) (q : Fin 1024), y = ix2 p q := ⟨y 0, y 1, eq_ix2 y⟩
  obtain rfl : p = 0 := Fin.ext (by have := p.isLt; omega)
  have hr := fun j => row9_eq V c j t.val t.isLt
  have hq : (∃ j : Fin 512, q = lo9 j) ∨ (∃ j : Fin 512, q = hi9 j) := by
    by_cases h : q.val < 512
    · exact .inl ⟨⟨q.val, h⟩, Fin.ext rfl⟩
    · exact .inr ⟨⟨q.val - 512, by have := q.isLt; omega⟩, Fin.ext (by show q.val = 512 + (q.val - 512); omega)⟩
  rcases hq with ⟨j, rfl⟩ | ⟨j, rfl⟩
  · rw [(hr j).1, h24, stats9_lo]; exact tsum9_all V c j
  · rw [(hr j).2, h24, stats9_hi]; exact tsq9_all V c j

/-- The statistics array after the region is the whole statistics row. -/
theorem stats_arr9 (c : Dev nD) : (dat9 V c).arrAt 4 cfg9.N = stats9 (Z9 V c) :=
  (dat9 V c).arrAt_eq_of_cover 4 (stats9 (Z9 V c)) (fun t hf => flushed9_4_eq V c t hf) cover9_4

/-- Column by column: the first half holds the column sums of the product, the second those of its squares. -/
theorem stats_eq9 (c : Dev nD) (j : Fin 512) :
    (dat9 V c).arrAt 4 cfg9.N (ix2 0 (lo9 j)) = Spec.colSum (Z9 V c) j
    ∧ (dat9 V c).arrAt 4 cfg9.N (ix2 0 (hi9 j)) = Spec.colSumSq (Z9 V c) j := by
  rw [stats_arr9]
  exact ⟨stats9_lo _ j, stats9_hi _ j⟩

end Cert.KernelIdeal.HandValue

end
-- ==== Proof.KI.Val10.lean ====
/-
  The value of the second stage's region, at the extended reals.

  The region walks 50000 rows in 25 tiles of 2000. At each tile it normalises the tile's rows with a
  mean row, a variance row, a gain row and a bias row, rectifies them, multiplies by the weights, and
  stores the tile's product; it adds the product's column sums and column sums of squares to a
  one-row accumulator (zeroed before the first tile), and after the last tile copies the accumulator
  out. This module reads that off: the product array is the specification's `mm (bnRelu …) w`, and the
  statistics row holds its column sums and column sums of squares over all rows. Addition of extended
  reals is commutative and associative, so regrouping the tiles' partial sums needs no finiteness.
-/
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import proofs.«427833_j20194936226511_1_alg».proof.Proof.Spec
import proofs.«427833_j20194936226511_1_alg».proof.Proof.KI.Reg10
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Mathlib.Algebra.BigOperators.Fin
import Mathlib.Logic.Equiv.Fin.Basic

noncomputable section

namespace Cert.KernelIdeal.HandValue

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)
open scoped BigOperators

/-! ## The product's operand indices, coordinate by coordinate

The product contracts the left operand's second axis with the right operand's first: at the output
index `(r, j)` and the contraction position `l` it reads the left operand at `(r, l)` and the right
operand at `(l, j)`. -/

theorem k10_dot_lhs_0 (j : S2000x256.Idx) (k : dot_S2000x512_S512x256_S2000x256_1_0_0_1_n_n.contr.Idx) :
    (dot_S2000x512_S512x256_S2000x256_1_0_0_1_n_n.lhsIdx j k 0 : ℕ) = j 0 := by
  simp [DotDims.lhsIdx, dot_S2000x512_S512x256_S2000x256_1_0_0_1_n_n] <;> rfl
theorem k10_dot_lhs_1 (j : S2000x256.Idx) (k : dot_S2000x512_S512x256_S2000x256_1_0_0_1_n_n.contr.Idx) :
    (dot_S2000x512_S512x256_S2000x256_1_0_0_1_n_n.lhsIdx j k 1 : ℕ) = k ⟨0, by decide⟩ := by
  simp [DotDims.lhsIdx, dot_S2000x512_S512x256_S2000x256_1_0_0_1_n_n] <;> rfl
theorem k10_dot_rhs_0 (j : S2000x256.Idx) (k : dot_S2000x512_S512x256_S2000x256_1_0_0_1_n_n.contr.Idx) :
    (dot_S2000x512_S512x256_S2000x256_1_0_0_1_n_n.rhsIdx j k 0 : ℕ) = k ⟨0, by decide⟩ := by
  simp [DotDims.rhsIdx, dot_S2000x512_S512x256_S2000x256_1_0_0_1_n_n] <;> rfl
theorem k10_dot_rhs_1 (j : S2000x256.Idx) (k : dot_S2000x512_S512x256_S2000x256_1_0_0_1_n_n.contr.Idx) :
    (dot_S2000x512_S512x256_S2000x256_1_0_0_1_n_n.rhsIdx j k 1 : ℕ) = j 1 := by
  simp [DotDims.rhsIdx, dot_S2000x512_S512x256_S2000x256_1_0_0_1_n_n] <;> rfl

/-- A product into the zero accumulator, read at `(r, j)`: the sum over the contracted axis. -/
theorem k10_matmul_apply (a : FVec Ideal S2000x512 .bf16) (w : FVec Ideal S512x256 .bf16) (r : Fin 2000) (j : Fin 256) :
    matmul (F := Ideal) dot_S2000x512_S512x256_S2000x256_1_0_0_1_n_n none a w (constant S2000x256 .f32 0x00000000#32) (ix2 r j)
      = ∑ l : Fin 512, a (ix2 r l) * w (ix2 l j) := by
  refine (Ideal.matmul_constant_zero_apply dot_S2000x512_S512x256_S2000x256_1_0_0_1_n_n none a w (ix2 r j)).trans ?_
  rw [← Equiv.sum_comp (contrEquiv1 dot_S2000x512_S512x256_S2000x256_1_0_0_1_n_n 512 rfl rfl).symm]
  refine Finset.sum_congr rfl fun l _ => ?_
  have hk := contrEquiv1_symm_val dot_S2000x512_S512x256_S2000x256_1_0_0_1_n_n 512 rfl rfl l
  refine congrArg₂ (· * ·) (congrArg a (funext fun ax => Fin.ext ?_)) (congrArg w (funext fun ax => Fin.ext ?_))
  · match ax with
    | ⟨0, _⟩ => exact k10_dot_lhs_0 _ _
    | ⟨1, _⟩ => exact (k10_dot_lhs_1 _ _).trans hk
  · match ax with
    | ⟨0, _⟩ => exact (k10_dot_rhs_0 _ _).trans hk
    | ⟨1, _⟩ => exact k10_dot_rhs_1 _ _

/-! ## The payloads at an index -/

/-- The tile's product at `(r, j)`: the sum over `l` of the normalised, rectified entry `(r, l)` of the
    block (gain `g`, mean `mu`, variance `var`, bias `b`, each one row) times the weight `(l, j)`. The
    change of float format in between is the identity on the extended reals. -/
theorem k10_pay4_apply (z : Vec Ideal S2000x512 .f32) (g mu var b : Vec Ideal S1x512 .f32) (w : Vec Ideal S512x256 .bf16)
    (r : Fin 2000) (j : Fin 256) :
    k10_pay4 (F := Ideal) z g mu var b w (ix2 r j)
      = ∑ l : Fin 512, max (g (ix2 0 l) * (z (ix2 r l) - mu (ix2 0 l)) * Ideal.rsqrt (var (ix2 0 l) + Spec.bnEps) + b (ix2 0 l)) Spec.zero
          * w (ix2 l j) := by
  unfold k10_pay4
  refine (k10_matmul_apply _ _ r j).trans ?_
  refine Finset.sum_congr rfl fun l _ => ?_
  simp only [shapeCast_self]
  refine congrArg₂ (· * ·) ?_ rfl
  show max (broadcastTo S2000x512 g broadcasts_S1x512_S2000x512 (ix2 r l)
        * (z (ix2 r l) - broadcastTo S2000x512 mu broadcasts_S1x512_S2000x512 (ix2 r l))
        * broadcastTo S2000x512 (rsqrt (F := Ideal) (addf (F := Ideal) var (broadcast S1x512 (Scalar.ofBits (F := Ideal) .f32 0x3727C5AC#32)))) broadcasts_S1x512_S2000x512 (ix2 r l)
        + broadcastTo S2000x512 b broadcasts_S1x512_S2000x512 (ix2 r l)) (Scalar.ofBits (F := Ideal) .f32 0x00000000#32) = _
  rw [broadcastTo_1b_ab_apply g, broadcastTo_1b_ab_apply mu, broadcastTo_1b_ab_apply b, broadcastTo_1b_ab_apply (rsqrt (F := Ideal) _)]
  rfl

/-- The tile's column sums, as a row: at `(0, j)` the sum of the tile's product over its rows. -/
theorem k10_pay5_apply (z : Vec Ideal S2000x512 .f32) (g mu var b : Vec Ideal S1x512 .f32) (w : Vec Ideal S512x256 .bf16) (j : Fin 256) :
    k10_pay5 (F := Ideal) z g mu var b w (ix2 0 j) = ∑ r : Fin 2000, k10_pay4 (F := Ideal) z g mu var b w (ix2 r j) := by
  refine (shapeCast_a_1a_apply (multiReduction (F := Ideal) .add [0] S256 (k10_pay4 z g mu var b w) 0x00000000#32 reduces_S2000x256_S256 (.inl rfl) rfl)
    shapeCasts_S256_S1x256 0 j).trans ?_
  refine (Ideal.multiReduction_add_single (k10_pay4 (F := Ideal) z g mu var b w) 0x00000000#32 reduces_S2000x256_S256 (.inl rfl) rfl (ix1 j)).trans ?_
  refine Finset.sum_congr rfl fun r _ => congrArg (k10_pay4 (F := Ideal) z g mu var b w) ?_
  funext c; match c with | ⟨0, _⟩ => rfl | ⟨1, _⟩ => rfl

/-- The tile's column sums of squares, as a row. -/
theorem k10_pay6_apply (z : Vec Ideal S2000x512 .f32) (g mu var b : Vec Ideal S1x512 .f32) (w : Vec Ideal S512x256 .bf16) (j : Fin 256) :
    k10_pay6 (F := Ideal) z g mu var b w (ix2 0 j)
      = ∑ r : Fin 2000, k10_pay4 (F := Ideal) z g mu var b w (ix2 r j) * k10_pay4 (F := Ideal) z g mu var b w (ix2 r j) := by
  refine (shapeCast_a_1a_apply (multiReduction (F := Ideal) .add [0] S256 (mulf (k10_pay4 z g mu var b w) (k10_pay4 z g mu var b w)) 0x00000000#32 reduces_S2000x256_S256 (.inl rfl) rfl)
    shapeCasts_S256_S1x256 0 j).trans ?_
  refine (Ideal.multiReduction_add_single (mulf (k10_pay4 (F := Ideal) z g mu var b w) (k10_pay4 (F := Ideal) z g mu var b w)) 0x00000000#32 reduces_S2000x256_S256 (.inl rfl) rfl (ix1 j)).trans ?_
  refine Finset.sum_congr rfl fun r _ => ?_
  have e : reduces_S2000x256_S256.lift (ix1 j) r = ix2 r j := by
    funext c; match c with | ⟨0, _⟩ => rfl | ⟨1, _⟩ => rfl
  rw [e]; rfl

/-- The accumulator's first half after a tile: what it held plus the tile's row of sums. -/
theorem k10_pay1_apply (row : FVec Ideal S1x256 .f32) (acc : Vec Ideal S1x256 .f32) (i : S1x256.Idx) :
    k10_pay1 (F := Ideal) row acc i = acc i + row i :=
  congrFun (shapeCast_self (addf (F := Ideal) acc row) shapeCasts_S1x256_S1x256) i

/-- The accumulator's second half after a tile: what it held plus the tile's row of sums of squares. -/
theorem k10_pay2_apply (row : FVec Ideal S1x256 .f32) (acc : Vec Ideal S1x256 .f32) (i : S1x256.Idx) :
    k10_pay2 (F := Ideal) row acc i = acc i + row i :=
  congrFun (shapeCast_self (addf (F := Ideal) acc row) shapeCasts_S1x256_S1x256) i

/-- The accumulator's reset: the zero word everywhere. -/
theorem k10_pay3_apply (i : S1x512.Idx) : k10_pay3 (F := Ideal) i = Spec.zero :=
  congrFun (shapeCast_self (broadcast S1x512 (Scalar.ofBits (F := Ideal) .f32 0x00000000#32)) shapeCasts_S1x512_S1x512) i

/-! ## Regrouping: the tiles' partial sums are the sum over all rows

The grid walks the rows in 25 tiles of 2000; row `r` of tile `t` is row `2000 t + r`. A sum over all
50000 rows is the sum over the tiles of the sums over a tile's rows: addition of extended reals is
commutative and associative, so no finiteness is needed. -/

/-- Row `r` of tile `t`. -/
def k10_rowOf (t : Fin 25) (r : Fin 2000) : Fin 50000 :=
  ⟨2000 * t.val + r.val, by have := t.isLt; have := r.isLt; omega⟩

theorem k10_rowOf_val (t : Fin 25) (r : Fin 2000) : (k10_rowOf t r).val = 2000 * t.val + r.val := rfl

theorem k10_sum_tiles (f : Fin 50000 → EReal) :
    ∑ t : Fin 25, ∑ r : Fin 2000, f (k10_rowOf t r) = ∑ i : Fin 50000, f i := by
  refine (Fintype.sum_prod_type' (fun t r => f (k10_rowOf t r))).symm.trans ?_
  refine Fintype.sum_equiv ((finProdFinEquiv (m := 25) (n := 2000)).trans (finCongr (by norm_num))) _ _ fun x => ?_
  refine congrArg f (Fin.ext ?_)
  simp [k10_rowOf, finProdFinEquiv]
  omega

/-- The sum of `f` over tile `t`'s rows; zero past the last tile. -/
def k10_tileSum (f : Fin 50000 → EReal) (t : ℕ) : EReal :=
  if h : t < 25 then ∑ r : Fin 2000, f (k10_rowOf ⟨t, h⟩ r) else 0

theorem k10_tileSum_of_lt (f : Fin 50000 → EReal) (t : ℕ) (h : t < 25) :
    k10_tileSum f t = ∑ r : Fin 2000, f (k10_rowOf ⟨t, h⟩ r) := dif_pos h

/-- The 25 tiles' sums, added in the grid's order, are the sum over all rows. -/
theorem k10_sum_range_tiles (f : Fin 50000 → EReal) :
    ∑ t ∈ Finset.range 25, k10_tileSum f t = ∑ i : Fin 50000, f i := by
  rw [Finset.sum_range]
  exact (Finset.sum_congr rfl fun t _ => k10_tileSum_of_lt f t.val t.isLt).trans (k10_sum_tiles f)

/-! ## One point, against the whole arrays

Over variables: the blocks `x0 … x5` the body loads at a point, and the arrays `M0 … M5` they are blocks
of. Tile `n`'s block of the first operand holds rows `2000 n …` of its array; the five other operands
are whole. -/

section Point
variable (x0 : Vec Ideal S2000x512 .f32) (x1 x2 x3 x4 : Vec Ideal S1x512 .f32) (x5 : Vec Ideal S512x256 .bf16)
variable (M0 : Spec.Mx 50000 512) (M1 M2 M3 M4 : Spec.Mx 1 512) (M5 : Spec.Mx 512 256)

/-- The whole product: the rows normalised with mean `M1`, variance `M2`, gain `M3`, bias `M4`,
    rectified, times the weights. -/
abbrev k10_prod : Spec.Mx 50000 256 :=
  Spec.mm (Spec.bnRelu M0 (fun l => M1 (ix2 0 l)) (fun l => M2 (ix2 0 l)) (fun l => M3 (ix2 0 l)) (fun l => M4 (ix2 0 l))) M5

/-- The tile's product at `(r, j)` is the whole product at the tile's row. (The body passes the gain
    first, then the mean, the variance and the bias.) -/
theorem k10_point4 (r : Fin 2000) (j : Fin 256) (ir : Fin 50000)
    (h0 : ∀ l : Fin 512, x0 (ix2 r l) = M0 (ix2 ir l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ l : Fin 512, x5 (ix2 l j) = M5 (ix2 l j)) :
    k10_pay4 (F := Ideal) x0 x3 x1 x2 x4 x5 (ix2 r j) = k10_prod M0 M1 M2 M3 M4 M5 (ix2 ir j) := by
  rw [k10_pay4_apply]
  show _ = ∑ l : Fin 512, max (M3 (ix2 0 l) * (M0 (ix2 ir l) - M1 (ix2 0 l)) * Ideal.rsqrt (M2 (ix2 0 l) + Spec.bnEps) + M4 (ix2 0 l)) Spec.zero
      * M5 (ix2 l j)
  refine Finset.sum_congr rfl fun l _ => ?_
  rw [h0, h1, h2, h3, h4, h5]

/-- Tile `n`'s row of column sums is the sum of the whole product's column over the tile's rows. -/
theorem k10_point5 (n : ℕ) (hn : n < 25) (j : Fin 256)
    (h0 : ∀ (r : Fin 2000) (l : Fin 512), x0 (ix2 r l) = M0 (ix2 (k10_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 256), x5 (ix2 l j) = M5 (ix2 l j)) :
    k10_pay5 (F := Ideal) x0 x3 x1 x2 x4 x5 (ix2 0 j) = k10_tileSum (fun i => k10_prod M0 M1 M2 M3 M4 M5 (ix2 i j)) n := by
  rw [k10_pay5_apply, k10_tileSum_of_lt _ n hn]
  exact Finset.sum_congr rfl fun r _ =>
    k10_point4 x0 x1 x2 x3 x4 x5 M0 M1 M2 M3 M4 M5 r j (k10_rowOf ⟨n, hn⟩ r) (h0 r) h1 h2 h3 h4 (fun l => h5 l j)

/-- Tile `n`'s row of column sums of squares likewise. -/
theorem k10_point6 (n : ℕ) (hn : n < 25) (j : Fin 256)
    (h0 : ∀ (r : Fin 2000) (l : Fin 512), x0 (ix2 r l) = M0 (ix2 (k10_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 256), x5 (ix2 l j) = M5 (ix2 l j)) :
    k10_pay6 (F := Ideal) x0 x3 x1 x2 x4 x5 (ix2 0 j)
      = k10_tileSum (fun i => k10_prod M0 M1 M2 M3 M4 M5 (ix2 i j) * k10_prod M0 M1 M2 M3 M4 M5 (ix2 i j)) n := by
  rw [k10_pay6_apply, k10_tileSum_of_lt _ n hn]
  refine Finset.sum_congr rfl fun r _ => ?_
  rw [k10_point4 x0 x1 x2 x3 x4 x5 M0 M1 M2 M3 M4 M5 r j (k10_rowOf ⟨n, hn⟩ r) (h0 r) h1 h2 h3 h4 (fun l => h5 l j)]

end Point

/-! ## The accumulator row

The row has two halves: the first carries the sums, the second the sums of squares. -/

/-- Column `j` of the first half. -/
def k10_lo (j : Fin 256) : Fin 512 := ⟨j.val, by have := j.isLt; omega⟩
/-- Column `j` of the second half. -/
def k10_hi (j : Fin 256) : Fin 512 := ⟨256 + j.val, by have := j.isLt; omega⟩

/-- The row holds the first `n` tiles' sums of `Z`'s columns and of their squares. -/
def k10_AccIs (Z : Spec.Mx 50000 256) (n : ℕ) (acc : Vec Ideal S1x512 .f32) : Prop :=
  ∀ j : Fin 256,
    acc (ix2 0 (k10_lo j)) = ∑ t ∈ Finset.range n, k10_tileSum (fun i => Z (ix2 i j)) t
    ∧ acc (ix2 0 (k10_hi j)) = ∑ t ∈ Finset.range n, k10_tileSum (fun i => Z (ix2 i j) * Z (ix2 i j)) t

/-- After the first tile: the zero word plus the tile's rows. -/
theorem k10_AccIs_first (Z : Spec.Mx 50000 256) (acc : Vec Ideal S1x512 .f32) (row5 row6 : FVec Ideal S1x256 .f32)
    (hlo : ∀ j : Fin 256, acc (ix2 0 (k10_lo j)) = Spec.zero + row5 (ix2 0 j))
    (hhi : ∀ j : Fin 256, acc (ix2 0 (k10_hi j)) = Spec.zero + row6 (ix2 0 j))
    (h5 : ∀ j : Fin 256, row5 (ix2 0 j) = k10_tileSum (fun i => Z (ix2 i j)) 0)
    (h6 : ∀ j : Fin 256, row6 (ix2 0 j) = k10_tileSum (fun i => Z (ix2 i j) * Z (ix2 i j)) 0) :
    k10_AccIs Z 1 acc := fun j => by
  have hz : Spec.zero = 0 := Ideal.ofBits_zero_f32
  rw [hlo, hhi, h5, h6, hz, zero_add, zero_add, Finset.sum_range_one, Finset.sum_range_one]
  exact ⟨rfl, rfl⟩

/-- After a later tile: what the row held plus the tile's rows. -/
theorem k10_AccIs_next (Z : Spec.Mx 50000 256) (n : ℕ) (acc acc' : Vec Ideal S1x512 .f32) (row5 row6 : FVec Ideal S1x256 .f32)
    (h : k10_AccIs Z n acc)
    (hlo : ∀ j : Fin 256, acc' (ix2 0 (k10_lo j)) = acc (ix2 0 (k10_lo j)) + row5 (ix2 0 j))
    (hhi : ∀ j : Fin 256, acc' (ix2 0 (k10_hi j)) = acc (ix2 0 (k10_hi j)) + row6 (ix2 0 j))
    (h5 : ∀ j : Fin 256, row5 (ix2 0 j) = k10_tileSum (fun i => Z (ix2 i j)) n)
    (h6 : ∀ j : Fin 256, row6 (ix2 0 j) = k10_tileSum (fun i => Z (ix2 i j) * Z (ix2 i j)) n) :
    k10_AccIs Z (n + 1) acc' := fun j => by
  rw [hlo, hhi, h5, h6, (h j).1, (h j).2, Finset.sum_range_succ, Finset.sum_range_succ]
  exact ⟨rfl, rfl⟩

/-- After the last tile the row holds the column sums and the column sums of squares. -/
theorem k10_AccIs_last (Z : Spec.Mx 50000 256) (acc : Vec Ideal S1x512 .f32) (h : k10_AccIs Z 25 acc) (j : Fin 256) :
    acc (ix2 0 (k10_lo j)) = Spec.colSum Z j ∧ acc (ix2 0 (k10_hi j)) = Spec.colSumSq Z j := by
  rw [(h j).1, (h j).2, k10_sum_range_tiles, k10_sum_range_tiles]
  exact ⟨rfl, rfl⟩

/-! ## The accumulator row's two halves, as rectangles -/

theorem k10_hz : (![0, 0] : Fin 2 → Nat) = fun _ => 0 := funext fun a => by fin_cases a <;> rfl

/-- The first half of the row. -/
abbrev k10_rLo : Rect S1x512 := Rect.unit (s := S1x512) ![0, 0] S1x256.size inb_S1x512_S1x256_0_0
/-- The second half of the row. -/
abbrev k10_rHi : Rect S1x512 := Rect.unit (s := S1x512) ![0, 256] S1x256.size inb_S1x512_S1x256_0_256
/-- The whole row. -/
abbrev k10_rAll : Rect S1x512 := Rect.unit (s := S1x512) ![0, 0] S1x512.size inb_S1x512_S1x512_0_0

/-- Column `j` of the first half sits at column `j` of the row. -/
theorem k10_rLo_emb (j : Fin 256) : k10_rLo.emb (ix2 (0 : Fin 1) j) = ix2 (0 : Fin 1) (k10_lo j) := by
  funext a; apply Fin.ext
  match a with
  | ⟨0, _⟩ => rfl
  | ⟨1, _⟩ => show 0 + 1 * j.val = j.val; omega

/-- Column `j` of the second half sits `j` columns past the first half. -/
theorem k10_rHi_emb (j : Fin 256) : k10_rHi.emb (ix2 (0 : Fin 1) j) = ix2 (0 : Fin 1) (k10_hi j) := by
  funext a; apply Fin.ext
  match a with
  | ⟨0, _⟩ => rfl
  | ⟨1, _⟩ => show 256 + 1 * j.val = 256 + j.val; omega

/-- The whole row's rectangle places every index at itself. -/
theorem k10_rAll_idx (y : S1x512.Idx) : k10_rAll.toLoadRect.idx y = y := by
  funext a; apply Fin.ext
  match a with
  | ⟨0, _⟩ => show 0 + 1 * (y 0).val = (y 0).val; omega
  | ⟨1, _⟩ => show 0 + 1 * (y 1).val = (y 1).val; omega

/-- A column of the first half is not in the second half's rectangle … -/
theorem k10_lo_not_mem_hi (j : Fin 256) : (ix2 (0 : Fin 1) (k10_lo j) : S1x512.Idx) ∉ k10_rHi.set := by
  rw [Rect.mem_set_unit]
  intro h
  have h1 : 256 ≤ j.val := (h 1).1
  have := j.isLt; omega

/-- … and a column of the second half is not in the first half's. -/
theorem k10_hi_not_mem_lo (j : Fin 256) : (ix2 (0 : Fin 1) (k10_hi j) : S1x512.Idx) ∉ k10_rLo.set := by
  rw [Rect.mem_set_unit]
  intro h
  have h1 : 256 + j.val < 0 + 256 := (h 1).2
  omega

section Canon
variable {F : FTy → Type} [FloatOps F]

/-- After the two half stores (the second half's last), the row's second half reads the second store's payload … -/
theorem k10_canon_hi (wHi wLo : Vec F S1x256 .f32) (L : List (View.Piece (Elt F) S1x512 .f32)) (j : Fin 256) :
    View.canon ((⟨k10_rHi, wHi⟩ : View.Piece (Elt F) S1x512 .f32) :: ⟨k10_rLo, wLo⟩ :: L) (ix2 (0 : Fin 1) (k10_hi j)) = wHi (ix2 (0 : Fin 1) j) := by
  rw [← k10_rHi_emb j]
  exact View.canon_cons_emb k10_rHi wHi _ (ix2 (0 : Fin 1) j)

/-- … and its first half the first store's. -/
theorem k10_canon_lo (wHi wLo : Vec F S1x256 .f32) (L : List (View.Piece (Elt F) S1x512 .f32)) (j : Fin 256) :
    View.canon ((⟨k10_rHi, wHi⟩ : View.Piece (Elt F) S1x512 .f32) :: ⟨k10_rLo, wLo⟩ :: L) (ix2 (0 : Fin 1) (k10_lo j)) = wLo (ix2 (0 : Fin 1) j) := by
  refine (View.canon_cons_of_not_mem (⟨k10_rHi, wHi⟩ : View.Piece (Elt F) S1x512 .f32) (⟨k10_rLo, wLo⟩ :: L) (k10_lo_not_mem_hi j)).trans ?_
  rw [← k10_rLo_emb j]
  exact View.canon_cons_emb k10_rLo wLo L (ix2 (0 : Fin 1) j)

/-- A load of the first half reads the row's first half … -/
theorem k10_ld_lo (xs : Vec F S1x512 .f32) (j : Fin 256) : View.ld xs k10_rLo (ix2 (0 : Fin 1) j) = xs (ix2 (0 : Fin 1) (k10_lo j)) :=
  congrArg xs (k10_rLo_emb j)
/-- … and a load of the second half its second half. -/
theorem k10_ld_hi (xs : Vec F S1x512 .f32) (j : Fin 256) : View.ld xs k10_rHi (ix2 (0 : Fin 1) j) = xs (ix2 (0 : Fin 1) (k10_hi j)) :=
  congrArg xs (k10_rHi_emb j)

/-- A load of the first half after the zeroing store alone reads the zero row … -/
theorem k10_readCov_lo_zero {sg : RefSig} {κ : Kind} {sp : Space} (v : View sg κ sp S1x512 .f32) (w0 : Vec F S1x512 .f32) (j : Fin 256) :
    v.readCov [(⟨k10_rAll, w0⟩ : View.Piece (Elt F) S1x512 .f32)] k10_rLo.toLoadRect (ix2 (0 : Fin 1) j) = w0 (ix2 (0 : Fin 1) (k10_lo j)) := by
  rw [View.readCov_eq_canon', View.canon_unit_zero k10_hz]
  exact congrArg w0 (k10_rLo_emb j)

/-- … and a load of the second half after the zeroing store and the first half's store still reads the zero row. -/
theorem k10_readCov_hi_zero {sg : RefSig} {κ : Kind} {sp : Space} (v : View sg κ sp S1x512 .f32) (wLo : Vec F S1x256 .f32) (w0 : Vec F S1x512 .f32) (j : Fin 256) :
    v.readCov [(⟨k10_rLo, wLo⟩ : View.Piece (Elt F) S1x512 .f32), ⟨k10_rAll, w0⟩] k10_rHi.toLoadRect (ix2 (0 : Fin 1) j) = w0 (ix2 (0 : Fin 1) (k10_hi j)) := by
  rw [View.readCov_eq_canon']
  show View.canon _ (k10_rHi.emb (ix2 (0 : Fin 1) j)) = _
  rw [k10_rHi_emb j]
  refine (View.canon_cons_of_not_mem (⟨k10_rLo, wLo⟩ : View.Piece (Elt F) S1x512 .f32) [⟨k10_rAll, w0⟩] (k10_hi_not_mem_lo j)).trans ?_
  rw [View.canon_unit_zero k10_hz]

/-- A load of the whole row after a list of stores reads what they leave. -/
theorem k10_readCov_all {sg : RefSig} {κ : Kind} {sp : Space} (v : View sg κ sp S1x512 .f32) (L : List (View.Piece (Elt F) S1x512 .f32)) :
    v.readCov L k10_rAll.toLoadRect = View.canon L := by
  rw [View.readCov_eq_canon']
  funext y
  exact congrArg (View.canon L) (k10_rAll_idx y)

end Canon

/-! ## The index maps over the grid, and the blocks of the two output arrays -/

/-- The first operand's and the product's blocks are the point's block of rows; every other block is its whole
    array. -/
theorem k10_idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0
    ∧ win10_7.index t (0 : Fin 2) = 0 ∧ win10_7.index t (1 : Fin 2) = 0 :=
  (by decide +kernel : ∀ t : Fin grid10.N, _)

/-- A grid point as a tile number. -/
def k10_tile (t : Fin cfg10.N) : Fin 25 := ⟨t.val, by have hN : cfg10.N = 25 := N_10; have := t.isLt; omega⟩

/-- The last grid point. -/
def k10_tLast : Fin cfg10.N := ⟨24, by have hN : cfg10.N = 25 := N_10; omega⟩

/-- An index of the product array is in point `t`'s block iff each coordinate is in the block's range on its axis. -/
theorem k10_mem_blk6 (t : Fin cfg10.N) (i : S50000x256.Idx) :
    i ∈ ((cfg10.win 6).blk t).view.set ↔ ∀ a : Fin 2, win10_6.index t a * S2000x256.size a ≤ (i a).val
      ∧ (i a).val < win10_6.index t a * S2000x256.size a + S2000x256.size a := by
  show i ∈ ((View.whole (Pipeline.arrRef spec10 6)).slice (win10_6.rect t)).set ↔ _
  rw [View.set_slice_whole, Rect.mem_set_unit]
  exact Iff.rfl

/-- The point whose block holds a row: the row's number over the rows in a block. -/
theorem k10_pt_lt (i : S50000x256.Idx) : (i 0).val / 2000 < cfg10.N := by
  have hi0 : (i 0).val < 50000 := (i 0).isLt
  show (i 0).val / 2000 < grid10.N
  rw [N_10]; omega

/-- Every index of the product array is in some point's block, and every point writes its block back. -/
theorem k10_cover6 (i : S50000x256.Idx) :
    ∃ t : Fin cfg10.N, (cfg10.win 6).flush t = true ∧ i ∈ ((cfg10.win 6).blk t).view.set := by
  have hi1 : (i 1).val < 256 := (i 1).isLt
  obtain ⟨t, ht⟩ : ∃ t : Fin cfg10.N, t.val = (i 0).val / 2000 := ⟨⟨_, k10_pt_lt i⟩, rfl⟩
  obtain ⟨-, -, -, -, -, -, -, -, -, -, -, -, e60, e61, -, -⟩ := k10_idx_facts t
  refine ⟨t, flush10_6 t, ?_⟩
  rw [k10_mem_blk6]
  intro a
  match a with
  | ⟨0, _⟩ =>
    show win10_6.index t (0 : Fin 2) * 2000 ≤ (i 0).val ∧ (i 0).val < win10_6.index t (0 : Fin 2) * 2000 + 2000
    rw [e60, ht]; omega
  | ⟨1, _⟩ =>
    show win10_6.index t (1 : Fin 2) * 256 ≤ (i 1).val ∧ (i 1).val < win10_6.index t (1 : Fin 2) * 256 + 256
    rw [e61]; omega

/-- An index of the statistics row is in point `t`'s block iff each coordinate is in the block's range. -/
theorem k10_mem_blk7 (t : Fin cfg10.N) (i : S1x512.Idx) :
    i ∈ ((cfg10.win 7).blk t).view.set ↔ ∀ a : Fin 2, win10_7.index t a * S1x512.size a ≤ (i a).val
      ∧ (i a).val < win10_7.index t a * S1x512.size a + S1x512.size a := by
  show i ∈ ((View.whole (Pipeline.arrRef spec10 7)).slice (win10_7.rect t)).set ↔ _
  rw [View.set_slice_whole, Rect.mem_set_unit]
  exact Iff.rfl

/-- The last point writes the statistics row back, and its block is the whole row. -/
theorem k10_cover7 (i : S1x512.Idx) :
    ∃ t : Fin cfg10.N, (cfg10.win 7).flush t = true ∧ i ∈ ((cfg10.win 7).blk t).view.set := by
  have hi0 : (i 0).val < 1 := (i 0).isLt
  have hi1 : (i 1).val < 512 := (i 1).isLt
  obtain ⟨-, -, -, -, -, -, -, -, -, -, -, -, -, -, e70, e71⟩ := k10_idx_facts k10_tLast
  refine ⟨k10_tLast, (flush10_7 k10_tLast).mpr (by show 24 % 25 = 24; rfl), ?_⟩
  rw [k10_mem_blk7]
  intro a
  match a with
  | ⟨0, _⟩ =>
    show win10_7.index k10_tLast (0 : Fin 2) * 1 ≤ (i 0).val ∧ (i 0).val < win10_7.index k10_tLast (0 : Fin 2) * 1 + 1
    rw [e70]; omega
  | ⟨1, _⟩ =>
    show win10_7.index k10_tLast (1 : Fin 2) * 512 ≤ (i 1).val ∧ (i 1).val < win10_7.index k10_tLast (1 : Fin 2) * 512 + 512
    rw [e71]; omega

/-! ## What each case of the body leaves, read back as payloads

The body's run in each case names the pieces it stored (last store first). Read over nothing, they are
their canon; each load the payloads took is the loaded buffer's contents, or, for a load of the
accumulator after a store into it, what the stores before it left there. -/

open Cert.KernelIdeal.Hand

section Pieces
variable (c : Dev nD) (i : grid10.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole)
  (x0 : Vec Ideal S2000x512 .f32) (x1 x2 x3 x4 : Vec Ideal S1x512 .f32) (x5 : Vec Ideal S512x256 .bf16)

/-- At the first point the product window holds the tile's product. -/
theorem k10_out_A_6 (hc0 : cond10_0 i) (hc1 : ¬cond10_1 i) :
    out10_A_6 c i arg1 harg1 arg2 harg2 arg3 harg3 arg4 harg4 arg5 harg5 arg6 harg6 arg7 harg7 arg8 harg8 arg9 harg9 hc0 hc1 x0 x1 x2 x3 x4 x5 = k10_pay4 (F := Ideal) x0 x3 x1 x2 x4 x5 := by
  unfold out10_A_6
  rw [View.read_writes_junk_eq_canon]
  unfold kernelRun10_A
  dsimp only
  sl_unfold_words
  rw [View.canon_unit_zero k10_hz]
  simp only [View.readAt_eq_ld, harg1.read_unread, harg2.read_unread, harg3.read_unread, harg4.read_unread, harg5.read_unread, harg6.read_unread,
    View.ld_unit_zero (S := S2000x512) k10_hz, View.ld_unit_zero (S := S1x512) k10_hz, View.ld_unit_zero (S := S512x256) k10_hz] <;> rfl

/-- At the first point the accumulator's first half holds the zero word plus the tile's column sums … -/
theorem k10_sout_A_lo (hc0 : cond10_0 i) (hc1 : ¬cond10_1 i) (j : Fin 256) :
    sout10_A_0 c i arg1 harg1 arg2 harg2 arg3 harg3 arg4 harg4 arg5 harg5 arg6 harg6 arg7 harg7 arg8 harg8 arg9 harg9 hc0 hc1 x0 x1 x2 x3 x4 x5 (ix2 (0 : Fin 1) (k10_lo j))
      = Spec.zero + k10_pay5 (F := Ideal) x0 x3 x1 x2 x4 x5 (ix2 (0 : Fin 1) j) := by
  unfold sout10_A_0
  rw [View.read_writes_junk_eq_canon]
  unfold kernelRun10_A
  dsimp only
  sl_unfold_words
  simp only [View.readAt_eq_ld, harg1.read_unread, harg2.read_unread, harg3.read_unread, harg4.read_unread, harg5.read_unread, harg6.read_unread,
    View.ld_unit_zero (S := S2000x512) k10_hz, View.ld_unit_zero (S := S1x512) k10_hz, View.ld_unit_zero (S := S512x256) k10_hz]
  refine (k10_canon_lo _ _ _ j).trans ?_
  refine (k10_pay1_apply _ _ _).trans ?_
  exact congrArg (· + _) ((k10_readCov_lo_zero _ _ j).trans (k10_pay3_apply _))

/-- … and its second half the zero word plus the tile's column sums of squares. -/
theorem k10_sout_A_hi (hc0 : cond10_0 i) (hc1 : ¬cond10_1 i) (j : Fin 256) :
    sout10_A_0 c i arg1 harg1 arg2 harg2 arg3 harg3 arg4 harg4 arg5 harg5 arg6 harg6 arg7 harg7 arg8 harg8 arg9 harg9 hc0 hc1 x0 x1 x2 x3 x4 x5 (ix2 (0 : Fin 1) (k10_hi j))
      = Spec.zero + k10_pay6 (F := Ideal) x0 x3 x1 x2 x4 x5 (ix2 (0 : Fin 1) j) := by
  unfold sout10_A_0
  rw [View.read_writes_junk_eq_canon]
  unfold kernelRun10_A
  dsimp only
  sl_unfold_words
  simp only [View.readAt_eq_ld, harg1.read_unread, harg2.read_unread, harg3.read_unread, harg4.read_unread, harg5.read_unread, harg6.read_unread,
    View.ld_unit_zero (S := S2000x512) k10_hz, View.ld_unit_zero (S := S1x512) k10_hz, View.ld_unit_zero (S := S512x256) k10_hz]
  refine (k10_canon_hi _ _ _ j).trans ?_
  refine (k10_pay2_apply _ _ _).trans ?_
  exact congrArg (· + _) ((k10_readCov_hi_zero _ _ _ j).trans (k10_pay3_apply _))

/-- At a point between the product window holds the tile's product. -/
theorem k10_out_B_6 (hc0 : ¬cond10_0 i) (hc1 : ¬cond10_1 i) (xs0 : Vec Ideal S1x512 .f32) :
    out10_B_6 c i arg1 harg1 arg2 harg2 arg3 harg3 arg4 harg4 arg5 harg5 arg6 harg6 arg7 harg7 arg8 harg8 arg9 harg9 hc0 hc1 x0 x1 x2 x3 x4 x5 xs0 = k10_pay4 (F := Ideal) x0 x3 x1 x2 x4 x5 := by
  unfold out10_B_6
  rw [View.read_writes_junk_eq_canon]
  unfold kernelRun10_B
  dsimp only
  sl_unfold_words
  rw [View.canon_unit_zero k10_hz]
  simp only [View.readAt_eq_ld, harg1.read_unread, harg2.read_unread, harg3.read_unread, harg4.read_unread, harg5.read_unread, harg6.read_unread,
    View.ld_unit_zero (S := S2000x512) k10_hz, View.ld_unit_zero (S := S1x512) k10_hz, View.ld_unit_zero (S := S512x256) k10_hz] <;> rfl

/-- At a point between the accumulator's first half holds what it held plus the tile's column sums … -/
theorem k10_sout_B_lo (hc0 : ¬cond10_0 i) (hc1 : ¬cond10_1 i) (xs0 : Vec Ideal S1x512 .f32) (j : Fin 256) :
    sout10_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k10_lo j))
      = xs0 (ix2 (0 : Fin 1) (k10_lo j)) + k10_pay5 (F := Ideal) x0 x3 x1 x2 x4 x5 (ix2 (0 : Fin 1) j) := by
  unfold sout10_B_0
  rw [View.read_writes_junk_eq_canon]
  unfold kernelRun10_B
  dsimp only
  sl_unfold_words
  simp only [View.readAt_eq_ld, harg1.read_unread, harg2.read_unread, harg3.read_unread, harg4.read_unread, harg5.read_unread, harg6.read_unread, harg9.read_unread,
    View.ld_unit_zero (S := S2000x512) k10_hz, View.ld_unit_zero (S := S1x512) k10_hz, View.ld_unit_zero (S := S512x256) k10_hz]
  refine (k10_canon_lo _ _ _ j).trans ?_
  refine (k10_pay1_apply _ _ _).trans ?_
  exact congrArg (· + _) (k10_ld_lo xs0 j)

/-- … and its second half what it held plus the tile's column sums of squares. -/
theorem k10_sout_B_hi (hc0 : ¬cond10_0 i) (hc1 : ¬cond10_1 i) (xs0 : Vec Ideal S1x512 .f32) (j : Fin 256) :
    sout10_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k10_hi j))
      = xs0 (ix2 (0 : Fin 1) (k10_hi j)) + k10_pay6 (F := Ideal) x0 x3 x1 x2 x4 x5 (ix2 (0 : Fin 1) j) := by
  unfold sout10_B_0
  rw [View.read_writes_junk_eq_canon]
  unfold kernelRun10_B
  dsimp only
  sl_unfold_words
  simp only [View.readAt_eq_ld, harg1.read_unread, harg2.read_unread, harg3.read_unread, harg4.read_unread, harg5.read_unread, harg6.read_unread, harg9.read_unread,
    View.ld_unit_zero (S := S2000x512) k10_hz, View.ld_unit_zero (S := S1x512) k10_hz, View.ld_unit_zero (S := S512x256) k10_hz]
  refine (k10_canon_hi _ _ _ j).trans ?_
  refine (k10_pay2_apply _ _ _).trans ?_
  exact congrArg (· + _) (k10_ld_hi xs0 j)

/-- At the last point the product window holds the tile's product. -/
theorem k10_out_C_6 (hc0 : ¬cond10_0 i) (hc1 : cond10_1 i) (xs0 : Vec Ideal S1x512 .f32) :
    out10_C_6 c i arg1 harg1 arg2 harg2 arg3 harg3 arg4 harg4 arg5 harg5 arg6 harg6 arg7 harg7 arg8 harg8 arg9 harg9 hc0 hc1 x0 x1 x2 x3 x4 x5 xs0 = k10_pay4 (F := Ideal) x0 x3 x1 x2 x4 x5 := by
  unfold out10_C_6
  rw [View.read_writes_junk_eq_canon]
  unfold kernelRun10_C
  dsimp only
  sl_unfold_words
  rw [View.canon_unit_zero k10_hz]
  simp only [View.readAt_eq_ld, harg1.read_unread, harg2.read_unread, harg3.read_unread, harg4.read_unread, harg5.read_unread, harg6.read_unread,
    View.ld_unit_zero (S := S2000x512) k10_hz, View.ld_unit_zero (S := S1x512) k10_hz, View.ld_unit_zero (S := S512x256) k10_hz] <;> rfl

/-- At the last point the accumulator's first half holds what it held plus the tile's column sums … -/
theorem k10_sout_C_lo (hc0 : ¬cond10_0 i) (hc1 : cond10_1 i) (xs0 : Vec Ideal S1x512 .f32) (j : Fin 256) :
    sout10_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k10_lo j))
      = xs0 (ix2 (0 : Fin 1) (k10_lo j)) + k10_pay5 (F := Ideal) x0 x3 x1 x2 x4 x5 (ix2 (0 : Fin 1) j) := by
  unfold sout10_C_0
  rw [View.read_writes_junk_eq_canon]
  unfold kernelRun10_C
  dsimp only
  sl_unfold_words
  simp only [View.readAt_eq_ld, harg1.read_unread, harg2.read_unread, harg3.read_unread, harg4.read_unread, harg5.read_unread, harg6.read_unread, harg9.read_unread,
    View.ld_unit_zero (S := S2000x512) k10_hz, View.ld_unit_zero (S := S1x512) k10_hz, View.ld_unit_zero (S := S512x256) k10_hz]
  refine (k10_canon_lo _ _ _ j).trans ?_
  refine (k10_pay1_apply _ _ _).trans ?_
  exact congrArg (· + _) (k10_ld_lo xs0 j)

/-- … and its second half what it held plus the tile's column sums of squares. -/
theorem k10_sout_C_hi (hc0 : ¬cond10_0 i) (hc1 : cond10_1 i) (xs0 : Vec Ideal S1x512 .f32) (j : Fin 256) :
    sout10_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k10_hi j))
      = xs0 (ix2 (0 : Fin 1) (k10_hi j)) + k10_pay6 (F := Ideal) x0 x3 x1 x2 x4 x5 (ix2 (0 : Fin 1) j) := by
  unfold sout10_C_0
  rw [View.read_writes_junk_eq_canon]
  unfold kernelRun10_C
  dsimp only
  sl_unfold_words
  simp only [View.readAt_eq_ld, harg1.read_unread, harg2.read_unread, harg3.read_unread, harg4.read_unread, harg5.read_unread, harg6.read_unread, harg9.read_unread,
    View.ld_unit_zero (S := S2000x512) k10_hz, View.ld_unit_zero (S := S1x512) k10_hz, View.ld_unit_zero (S := S512x256) k10_hz]
  refine (k10_canon_hi _ _ _ j).trans ?_
  refine (k10_pay2_apply _ _ _).trans ?_
  exact congrArg (· + _) (k10_ld_hi xs0 j)

/-- At the last point the statistics window receives the accumulator as the two half stores left it. -/
theorem k10_out_C_7 (hc0 : ¬cond10_0 i) (hc1 : cond10_1 i) (xs0 : Vec Ideal S1x512 .f32) :
    out10_C_7 c i arg1 harg1 arg2 harg2 arg3 harg3 arg4 harg4 arg5 harg5 arg6 harg6 arg7 harg7 arg8 harg8 arg9 harg9 hc0 hc1 x0 x1 x2 x3 x4 x5 xs0 = sout10_C_0 c i arg1 harg1 arg2 harg2 arg3 harg3 arg4 harg4 arg5 harg5 arg6 harg6 arg7 harg7 arg8 harg8 arg9 harg9 hc0 hc1 x0 x1 x2 x3 x4 x5 xs0 := by
  unfold out10_C_7 sout10_C_0
  rw [View.read_writes_junk_eq_canon, View.read_writes_junk_eq_canon]
  unfold kernelRun10_C
  dsimp only
  sl_unfold_words
  rw [View.canon_unit_zero k10_hz]
  exact k10_readCov_all _ _

end Pieces

/-! ## The region at the contents it is entered with -/

section Region
variable (V : (c : Dev nD) → (b : Ref sig .tc) → Buf (Elt Ideal) ((c : Thread nD τ).loc b))

/-- The arrays the region is entered with, as matrices: the rows to normalise; the mean, variance, gain and bias
    rows; the weights. -/
abbrev X10_0 (c : Dev nD) : Spec.Mx 50000 512 := V c (Pipeline.arrRef spec10 0)
abbrev X10_1 (c : Dev nD) : Spec.Mx 1 512 := V c (Pipeline.arrRef spec10 1)
abbrev X10_2 (c : Dev nD) : Spec.Mx 1 512 := V c (Pipeline.arrRef spec10 2)
abbrev X10_3 (c : Dev nD) : Spec.Mx 1 512 := V c (Pipeline.arrRef spec10 3)
abbrev X10_4 (c : Dev nD) : Spec.Mx 1 512 := V c (Pipeline.arrRef spec10 4)
abbrev X10_5 (c : Dev nD) : Spec.Mx 512 256 := V c (Pipeline.arrRef spec10 5)

/-- The region's product: the rows normalised with the mean row, the variance row, the gain row and the bias row,
    rectified, times the weights. -/
abbrev Z10 (c : Dev nD) : Spec.Mx 50000 256 :=
  Spec.mm (Spec.bnRelu (X10_0 V c) (fun l => X10_1 V c (ix2 0 l)) (fun l => X10_2 V c (ix2 0 l)) (fun l => X10_3 V c (ix2 0 l)) (fun l => X10_4 V c (ix2 0 l))) (X10_5 V c)

/-! ### The blocks the body loads are blocks of those arrays -/

/-- Point `t`'s block of the first operand is rows `2000 t …` of its array. -/
theorem k10_blk0 (c : Dev nD) (t : Fin cfg10.N) (r : Fin 2000) (l : Fin 512) :
    (iblk10 V c 0 t : Vec Ideal S2000x512 .f32) (ix2 r l) = X10_0 V c (ix2 (k10_rowOf (k10_tile t) r) l) := by
  obtain ⟨e0, e1, -⟩ := k10_idx_facts t
  show V c (Pipeline.arrRef spec10 0) (((cfg10.win 0).blk t).view.emb (ix2 r l)) = V c (Pipeline.arrRef spec10 0) (ix2 (k10_rowOf (k10_tile t) r) l)
  refine congrArg _ (funext fun a => Fin.ext ?_)
  match a with
  | ⟨0, _⟩ => show win10_0.index t (0 : Fin 2) * 2000 + 1 * r.val = 2000 * t.val + r.val; rw [e0]; omega
  | ⟨1, _⟩ => show win10_0.index t (1 : Fin 2) * 512 + 1 * l.val = l.val; rw [e1]; omega

/-- Every point's block of row operand 1 is the whole row. -/
theorem k10_blk1 (c : Dev nD) (t : Fin cfg10.N) (l : Fin 512) :
    (iblk10 V c 1 t : Vec Ideal S1x512 .f32) (ix2 (0 : Fin 1) l) = X10_1 V c (ix2 (0 : Fin 1) l) := by
  obtain ⟨-, -, e0, e1, -⟩ := k10_idx_facts t
  show V c (Pipeline.arrRef spec10 1) (((cfg10.win 1).blk t).view.emb (ix2 (0 : Fin 1) l)) = V c (Pipeline.arrRef spec10 1) (ix2 (0 : Fin 1) l)
  refine congrArg _ (funext fun a => Fin.ext ?_)
  match a with
  | ⟨0, _⟩ => show win10_1.index t (0 : Fin 2) * 1 + 1 * 0 = 0; rw [e0]
  | ⟨1, _⟩ => show win10_1.index t (1 : Fin 2) * 512 + 1 * l.val = l.val; rw [e1]; omega

/-- Every point's block of row operand 2 is the whole row. -/
theorem k10_blk2 (c : Dev nD) (t : Fin cfg10.N) (l : Fin 512) :
    (iblk10 V c 2 t : Vec Ideal S1x512 .f32) (ix2 (0 : Fin 1) l) = X10_2 V c (ix2 (0 : Fin 1) l) := by
  obtain ⟨-, -, -, -, e0, e1, -⟩ := k10_idx_facts t
  show V c (Pipeline.arrRef spec10 2) (((cfg10.win 2).blk t).view.emb (ix2 (0 : Fin 1) l)) = V c (Pipeline.arrRef spec10 2) (ix2 (0 : Fin 1) l)
  refine congrArg _ (funext fun a => Fin.ext ?_)
  match a with
  | ⟨0, _⟩ => show win10_2.index t (0 : Fin 2) * 1 + 1 * 0 = 0; rw [e0]
  | ⟨1, _⟩ => show win10_2.index t (1 : Fin 2) * 512 + 1 * l.val = l.val; rw [e1]; omega

/-- Every point's block of row operand 3 is the whole row. -/
theorem k10_blk3 (c : Dev nD) (t : Fin cfg10.N) (l : Fin 512) :
    (iblk10 V c 3 t : Vec Ideal S1x512 .f32) (ix2 (0 : Fin 1) l) = X10_3 V c (ix2 (0 : Fin 1) l) := by
  obtain ⟨-, -, -, -, -, -, e0, e1, -⟩ := k10_idx_facts t
  show V c (Pipeline.arrRef spec10 3) (((cfg10.win 3).blk t).view.emb (ix2 (0 : Fin 1) l)) = V c (Pipeline.arrRef spec10 3) (ix2 (0 : Fin 1) l)
  refine congrArg _ (funext fun a => Fin.ext ?_)
  match a with
  | ⟨0, _⟩ => show win10_3.index t (0 : Fin 2) * 1 + 1 * 0 = 0; rw [e0]
  | ⟨1, _⟩ => show win10_3.index t (1 : Fin 2) * 512 + 1 * l.val = l.val; rw [e1]; omega

/-- Every point's block of row operand 4 is the whole row. -/
theorem k10_blk4 (c : Dev nD) (t : Fin cfg10.N) (l : Fin 512) :
    (iblk10 V c 4 t : Vec Ideal S1x512 .f32) (ix2 (0 : Fin 1) l) = X10_4 V c (ix2 (0 : Fin 1) l) := by
  obtain ⟨-, -, -, -, -, -, -, -, e0, e1, -⟩ := k10_idx_facts t
  show V c (Pipeline.arrRef spec10 4) (((cfg10.win 4).blk t).view.emb (ix2 (0 : Fin 1) l)) = V c (Pipeline.arrRef spec10 4) (ix2 (0 : Fin 1) l)
  refine congrArg _ (funext fun a => Fin.ext ?_)
  match a with
  | ⟨0, _⟩ => show win10_4.index t (0 : Fin 2) * 1 + 1 * 0 = 0; rw [e0]
  | ⟨1, _⟩ => show win10_4.index t (1 : Fin 2) * 512 + 1 * l.val = l.val; rw [e1]; omega

/-- Every point's block of the weights is the whole array. -/
theorem k10_blk5 (c : Dev nD) (t : Fin cfg10.N) (l : Fin 512) (j : Fin 256) :
    (iblk10 V c 5 t : Vec Ideal S512x256 .bf16) (ix2 l j) = X10_5 V c (ix2 l j) := by
  obtain ⟨-, -, -, -, -, -, -, -, -, -, e0, e1, -⟩ := k10_idx_facts t
  show V c (Pipeline.arrRef spec10 5) (((cfg10.win 5).blk t).view.emb (ix2 l j)) = V c (Pipeline.arrRef spec10 5) (ix2 l j)
  refine congrArg _ (funext fun a => Fin.ext ?_)
  match a with
  | ⟨0, _⟩ => show win10_5.index t (0 : Fin 2) * 512 + 1 * l.val = l.val; rw [e0]; omega
  | ⟨1, _⟩ => show win10_5.index t (1 : Fin 2) * 256 + 1 * j.val = j.val; rw [e1]; omega

/-- Point `t`'s rows of column sums and of column sums of squares, of the blocks it loads. -/
abbrev k10_row5v (c : Dev nD) (t : Fin cfg10.N) : FVec Ideal S1x256 .f32 := k10_pay5 (F := Ideal) (iblk10 V c 0 t) (iblk10 V c 3 t) (iblk10 V c 1 t) (iblk10 V c 2 t) (iblk10 V c 4 t) (iblk10 V c 5 t)
abbrev k10_row6v (c : Dev nD) (t : Fin cfg10.N) : FVec Ideal S1x256 .f32 := k10_pay6 (F := Ideal) (iblk10 V c 0 t) (iblk10 V c 3 t) (iblk10 V c 1 t) (iblk10 V c 2 t) (iblk10 V c 4 t) (iblk10 V c 5 t)

/-- They are tile `t`'s sums of the product's columns … -/
theorem k10_row5 (c : Dev nD) (t : Fin cfg10.N) (j : Fin 256) :
    k10_row5v V c t (ix2 (0 : Fin 1) j) = k10_tileSum (fun i => Z10 V c (ix2 i j)) t.val :=
  k10_point5 (iblk10 V c 0 t) (iblk10 V c 1 t) (iblk10 V c 2 t) (iblk10 V c 3 t) (iblk10 V c 4 t) (iblk10 V c 5 t) (X10_0 V c) (X10_1 V c) (X10_2 V c) (X10_3 V c) (X10_4 V c) (X10_5 V c) t.val (k10_tile t).isLt j
    (fun r l => k10_blk0 V c t r l) (fun l => k10_blk1 V c t l) (fun l => k10_blk2 V c t l) (fun l => k10_blk3 V c t l) (fun l => k10_blk4 V c t l)
    (fun l j => k10_blk5 V c t l j)

/-- … and of their squares. -/
theorem k10_row6 (c : Dev nD) (t : Fin cfg10.N) (j : Fin 256) :
    k10_row6v V c t (ix2 (0 : Fin 1) j) = k10_tileSum (fun i => Z10 V c (ix2 i j) * Z10 V c (ix2 i j)) t.val :=
  k10_point6 (iblk10 V c 0 t) (iblk10 V c 1 t) (iblk10 V c 2 t) (iblk10 V c 3 t) (iblk10 V c 4 t) (iblk10 V c 5 t) (X10_0 V c) (X10_1 V c) (X10_2 V c) (X10_3 V c) (X10_4 V c) (X10_5 V c) t.val (k10_tile t).isLt j
    (fun r l => k10_blk0 V c t r l) (fun l => k10_blk1 V c t l) (fun l => k10_blk2 V c t l) (fun l => k10_blk3 V c t l) (fun l => k10_blk4 V c t l)
    (fun l j => k10_blk5 V c t l j)

/-! ### The three cases at a point of the grid -/

theorem k10_pt_A_6 (c : Dev nD) (t : Fin cfg10.N) (h0 : t.val = 0) :
    (outsPt10_A V c t h0).1 = k10_pay4 (F := Ideal) (iblk10 V c 0 t) (iblk10 V c 3 t) (iblk10 V c 1 t) (iblk10 V c 2 t) (iblk10 V c 4 t) (iblk10 V c 5 t) := by
  unfold outsPt10_A; dsimp only
  exact k10_out_A_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (iblk10 V c 0 t) (iblk10 V c 1 t) (iblk10 V c 2 t) (iblk10 V c 3 t) (iblk10 V c 4 t) (iblk10 V c 5 t) ((hcond10_0 t).mpr h0) (notLast10_of_first t h0)

theorem k10_pt_B_6 (c : Dev nD) (t : Fin cfg10.N) (h0 : ¬t.val = 0) (h1 : ¬t.val = 24) (xs0 : Vec Ideal S1x512 .f32) :
    (outsPt10_B V c t h0 h1 xs0).1 = k10_pay4 (F := Ideal) (iblk10 V c 0 t) (iblk10 V c 3 t) (iblk10 V c 1 t) (iblk10 V c 2 t) (iblk10 V c 4 t) (iblk10 V c 5 t) := by
  unfold outsPt10_B; dsimp only
  exact k10_out_B_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (iblk10 V c 0 t) (iblk10 V c 1 t) (iblk10 V c 2 t) (iblk10 V c 3 t) (iblk10 V c 4 t) (iblk10 V c 5 t) (fun h => h0 ((hcond10_0 t).mp h)) (fun h => h1 ((hcond10_1 t).mp h)) xs0

theorem k10_pt_C_6 (c : Dev nD) (t : Fin cfg10.N) (h0 : ¬t.val = 0) (h1 : t.val = 24) (xs0 : Vec Ideal S1x512 .f32) :
    (outsPt10_C V c t h0 h1 xs0).1 = k10_pay4 (F := Ideal) (iblk10 V c 0 t) (iblk10 V c 3 t) (iblk10 V c 1 t) (iblk10 V c 2 t) (iblk10 V c 4 t) (iblk10 V c 5 t) := by
  unfold outsPt10_C; dsimp only
  exact k10_out_C_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (iblk10 V c 0 t) (iblk10 V c 1 t) (iblk10 V c 2 t) (iblk10 V c 3 t) (iblk10 V c 4 t) (iblk10 V c 5 t) (fun h => h0 ((hcond10_0 t).mp h)) ((hcond10_1 t).mpr h1) xs0

theorem k10_pt_A_lo (c : Dev nD) (t : Fin cfg10.N) (h0 : t.val = 0) (j : Fin 256) :
    (outsPt10_A V c t h0).2.2 (ix2 (0 : Fin 1) (k10_lo j)) = Spec.zero + k10_row5v V c t (ix2 (0 : Fin 1) j) := by
  unfold outsPt10_A; dsimp only
  exact k10_sout_A_lo c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (iblk10 V c 0 t) (iblk10 V c 1 t) (iblk10 V c 2 t) (iblk10 V c 3 t) (iblk10 V c 4 t) (iblk10 V c 5 t) ((hcond10_0 t).mpr h0) (notLast10_of_first t h0) j

theorem k10_pt_A_hi (c : Dev nD) (t : Fin cfg10.N) (h0 : t.val = 0) (j : Fin 256) :
    (outsPt10_A V c t h0).2.2 (ix2 (0 : Fin 1) (k10_hi j)) = Spec.zero + k10_row6v V c t (ix2 (0 : Fin 1) j) := by
  unfold outsPt10_A; dsimp only
  exact k10_sout_A_hi c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (iblk10 V c 0 t) (iblk10 V c 1 t) (iblk10 V c 2 t) (iblk10 V c 3 t) (iblk10 V c 4 t) (iblk10 V c 5 t) ((hcond10_0 t).mpr h0) (notLast10_of_first t h0) j

theorem k10_pt_B_lo (c : Dev nD) (t : Fin cfg10.N) (h0 : ¬t.val = 0) (h1 : ¬t.val = 24) (xs0 : Vec Ideal S1x512 .f32) (j : Fin 256) :
    (outsPt10_B V c t h0 h1 xs0).2.2 (ix2 (0 : Fin 1) (k10_lo j)) = xs0 (ix2 (0 : Fin 1) (k10_lo j)) + k10_row5v V c t (ix2 (0 : Fin 1) j) := by
  unfold outsPt10_B; dsimp only
  exact k10_sout_B_lo c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (iblk10 V c 0 t) (iblk10 V c 1 t) (iblk10 V c 2 t) (iblk10 V c 3 t) (iblk10 V c 4 t) (iblk10 V c 5 t) (fun h => h0 ((hcond10_0 t).mp h)) (fun h => h1 ((hcond10_1 t).mp h)) xs0 j

theorem k10_pt_B_hi (c : Dev nD) (t : Fin cfg10.N) (h0 : ¬t.val = 0) (h1 : ¬t.val = 24) (xs0 : Vec Ideal S1x512 .f32) (j : Fin 256) :
    (outsPt10_B V c t h0 h1 xs0).2.2 (ix2 (0 : Fin 1) (k10_hi j)) = xs0 (ix2 (0 : Fin 1) (k10_hi j)) + k10_row6v V c t (ix2 (0 : Fin 1) j) := by
  unfold outsPt10_B; dsimp only
  exact k10_sout_B_hi c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (iblk10 V c 0 t) (iblk10 V c 1 t) (iblk10 V c 2 t) (iblk10 V c 3 t) (iblk10 V c 4 t) (iblk10 V c 5 t) (fun h => h0 ((hcond10_0 t).mp h)) (fun h => h1 ((hcond10_1 t).mp h)) xs0 j

theorem k10_pt_C_lo (c : Dev nD) (t : Fin cfg10.N) (h0 : ¬t.val = 0) (h1 : t.val = 24) (xs0 : Vec Ideal S1x512 .f32) (j : Fin 256) :
    (outsPt10_C V c t h0 h1 xs0).2.2 (ix2 (0 : Fin 1) (k10_lo j)) = xs0 (ix2 (0 : Fin 1) (k10_lo j)) + k10_row5v V c t (ix2 (0 : Fin 1) j) := by
  unfold outsPt10_C; dsimp only
  exact k10_sout_C_lo c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (iblk10 V c 0 t) (iblk10 V c 1 t) (iblk10 V c 2 t) (iblk10 V c 3 t) (iblk10 V c 4 t) (iblk10 V c 5 t) (fun h => h0 ((hcond10_0 t).mp h)) ((hcond10_1 t).mpr h1) xs0 j

theorem k10_pt_C_hi (c : Dev nD) (t : Fin cfg10.N) (h0 : ¬t.val = 0) (h1 : t.val = 24) (xs0 : Vec Ideal S1x512 .f32) (j : Fin 256) :
    (outsPt10_C V c t h0 h1 xs0).2.2 (ix2 (0 : Fin 1) (k10_hi j)) = xs0 (ix2 (0 : Fin 1) (k10_hi j)) + k10_row6v V c t (ix2 (0 : Fin 1) j) := by
  unfold outsPt10_C; dsimp only
  exact k10_sout_C_hi c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (iblk10 V c 0 t) (iblk10 V c 1 t) (iblk10 V c 2 t) (iblk10 V c 3 t) (iblk10 V c 4 t) (iblk10 V c 5 t) (fun h => h0 ((hcond10_0 t).mp h)) ((hcond10_1 t).mpr h1) xs0 j

/-- At the last point the statistics window holds the accumulator. -/
theorem k10_pt_C_7 (c : Dev nD) (t : Fin cfg10.N) (h0 : ¬t.val = 0) (h1 : t.val = 24) (xs0 : Vec Ideal S1x512 .f32) :
    (outsPt10_C V c t h0 h1 xs0).2.1 = (outsPt10_C V c t h0 h1 xs0).2.2 := by
  unfold outsPt10_C; dsimp only
  exact k10_out_C_7 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) scM10_0 (Memref.isWhole_whole _) (iblk10 V c 0 t) (iblk10 V c 1 t) (iblk10 V c 2 t) (iblk10 V c 3 t) (iblk10 V c 4 t) (iblk10 V c 5 t) (fun h => h0 ((hcond10_0 t).mp h)) ((hcond10_1 t).mpr h1) xs0

/-! ### The product array -/

/-- At every point the product window holds the tile's product of the blocks loaded there. -/
theorem k10_outs6 (c : Dev nD) (t : Fin cfg10.N) :
    (outsAt10 V c t.val t.isLt).1 = k10_pay4 (F := Ideal) (iblk10 V c 0 t) (iblk10 V c 3 t) (iblk10 V c 1 t) (iblk10 V c 2 t) (iblk10 V c 4 t) (iblk10 V c 5 t) := by
  by_cases h0 : t.val = 0
  · rw [outsAt10_A V c t h0]; exact k10_pt_A_6 V c t h0
  · by_cases h1 : t.val = 24
    · rw [outsAt10_C V c t h0 h1]; exact k10_pt_C_6 V c t h0 h1 _
    · rw [outsAt10_B V c t h0 h1]; exact k10_pt_B_6 V c t h0 h1 _

/-- What point `t` writes back of the product is block `t` of the whole product. -/
theorem k10_flushed6 (c : Dev nD) (t : Fin cfg10.N) :
    (dat10 V c).flushed 6 t = ((cfg10.win 6).blk t).view.read (Elt Ideal) (Z10 V c) := by
  show (cfg10.win 6).cut (grid10.coords t) ((dat10 V c).after 6 t) = _
  rw [after10_6, k10_outs6]
  obtain ⟨-, -, -, -, -, -, -, -, -, -, -, -, e0, e1, -⟩ := k10_idx_facts t
  funext y
  obtain ⟨r, j, rfl⟩ : ∃ (r : Fin 2000) (j : Fin 256), y = ix2 r j := ⟨y 0, y 1, eq_ix2 (n0 := 2000) (n1 := 256) y⟩
  show k10_pay4 (F := Ideal) (iblk10 V c 0 t) (iblk10 V c 3 t) (iblk10 V c 1 t) (iblk10 V c 2 t) (iblk10 V c 4 t) (iblk10 V c 5 t) (ix2 r j) = Z10 V c (((cfg10.win 6).blk t).view.emb (ix2 r j))
  have hi : ((cfg10.win 6).blk t).view.emb (ix2 r j) = (ix2 (k10_rowOf (k10_tile t) r) j : S50000x256.Idx) := by
    funext a; apply Fin.ext
    match a with
    | ⟨0, _⟩ => show win10_6.index t (0 : Fin 2) * 2000 + 1 * r.val = 2000 * t.val + r.val; rw [e0]; omega
    | ⟨1, _⟩ => show win10_6.index t (1 : Fin 2) * 256 + 1 * j.val = j.val; rw [e1]; omega
  refine (k10_point4 (iblk10 V c 0 t) (iblk10 V c 1 t) (iblk10 V c 2 t) (iblk10 V c 3 t) (iblk10 V c 4 t) (iblk10 V c 5 t) (X10_0 V c) (X10_1 V c) (X10_2 V c) (X10_3 V c) (X10_4 V c) (X10_5 V c) r j (k10_rowOf (k10_tile t) r)
    (fun l => k10_blk0 V c t r l) (fun l => k10_blk1 V c t l) (fun l => k10_blk2 V c t l) (fun l => k10_blk3 V c t l) (fun l => k10_blk4 V c t l)
    (fun l => k10_blk5 V c t l j)).trans ?_
  exact congrArg (Z10 V c) hi.symm

/-- THE PRODUCT ARRAY after the last point: the specification's product of the normalised, rectified rows with the
    weights, over the arrays the region was entered with. -/
theorem z_eq10 (c : Dev nD) : (dat10 V c).arrAt 6 cfg10.N = Z10 V c :=
  (dat10 V c).arrAt_eq_of_cover 6 (Z10 V c) (fun t _ => k10_flushed6 V c t) k10_cover6

/-! ### The statistics row -/

/-- After point `n` the accumulator holds the first `n + 1` tiles' sums of the product's columns and of their
    squares: by induction on the point. -/
theorem k10_acc (c : Dev nD) : ∀ (n : ℕ) (hn : n < cfg10.N), k10_AccIs (Z10 V c) (n + 1) (outsAt10 V c n hn).2.2
  | 0, hn => by
    rw [outsAt10_A V c ⟨0, hn⟩ rfl]
    exact k10_AccIs_first (Z10 V c) (outsPt10_A V c ⟨0, hn⟩ rfl).2.2 (k10_row5v V c ⟨0, hn⟩) (k10_row6v V c ⟨0, hn⟩)
      (fun j => k10_pt_A_lo V c ⟨0, hn⟩ rfl j) (fun j => k10_pt_A_hi V c ⟨0, hn⟩ rfl j)
      (fun j => k10_row5 V c ⟨0, hn⟩ j) (fun j => k10_row6 V c ⟨0, hn⟩ j)
  | n + 1, hn => by
    have ih := k10_acc c n (Nat.lt_of_succ_lt hn)
    by_cases h1 : n + 1 = 24
    · rw [outsAt10_C V c ⟨n + 1, hn⟩ (Nat.succ_ne_zero n) h1]
      show k10_AccIs (Z10 V c) (n + 1 + 1) (outsPt10_C V c ⟨n + 1, hn⟩ (Nat.succ_ne_zero n) h1 (outsAt10 V c n (Nat.lt_of_succ_lt hn)).2.2).2.2
      exact k10_AccIs_next (Z10 V c) (n + 1) (outsAt10 V c n (Nat.lt_of_succ_lt hn)).2.2
        (outsPt10_C V c ⟨n + 1, hn⟩ (Nat.succ_ne_zero n) h1 (outsAt10 V c n (Nat.lt_of_succ_lt hn)).2.2).2.2
        (k10_row5v V c ⟨n + 1, hn⟩) (k10_row6v V c ⟨n + 1, hn⟩) ih
        (fun j => k10_pt_C_lo V c ⟨n + 1, hn⟩ (Nat.succ_ne_zero n) h1 _ j) (fun j => k10_pt_C_hi V c ⟨n + 1, hn⟩ (Nat.succ_ne_zero n) h1 _ j)
        (fun j => k10_row5 V c ⟨n + 1, hn⟩ j) (fun j => k10_row6 V c ⟨n + 1, hn⟩ j)
    · rw [outsAt10_B V c ⟨n + 1, hn⟩ (Nat.succ_ne_zero n) h1]
      show k10_AccIs (Z10 V c) (n + 1 + 1) (outsPt10_B V c ⟨n + 1, hn⟩ (Nat.succ_ne_zero n) h1 (outsAt10 V c n (Nat.lt_of_succ_lt hn)).2.2).2.2
      exact k10_AccIs_next (Z10 V c) (n + 1) (outsAt10 V c n (Nat.lt_of_succ_lt hn)).2.2
        (outsPt10_B V c ⟨n + 1, hn⟩ (Nat.succ_ne_zero n) h1 (outsAt10 V c n (Nat.lt_of_succ_lt hn)).2.2).2.2
        (k10_row5v V c ⟨n + 1, hn⟩) (k10_row6v V c ⟨n + 1, hn⟩) ih
        (fun j => k10_pt_B_lo V c ⟨n + 1, hn⟩ (Nat.succ_ne_zero n) h1 _ j) (fun j => k10_pt_B_hi V c ⟨n + 1, hn⟩ (Nat.succ_ne_zero n) h1 _ j)
        (fun j => k10_row5 V c ⟨n + 1, hn⟩ j) (fun j => k10_row6 V c ⟨n + 1, hn⟩ j)

/-- The accumulator after the last point. -/
abbrev k10_accLast (c : Dev nD) : Spec.Mx 1 512 := (outsAt10 V c k10_tLast.val k10_tLast.isLt).2.2

/-- The last point's block of the statistics row, read through zero offsets, is the row. -/
theorem k10_cut7 (W : Vec Ideal S1x512 .f32) :
    (cfg10.win 7).cut (grid10.coords k10_tLast) W = ((cfg10.win 7).blk k10_tLast).view.read (Elt Ideal) (W : Spec.Mx 1 512) := by
  obtain ⟨-, -, -, -, -, -, -, -, -, -, -, -, -, -, e0, e1⟩ := k10_idx_facts k10_tLast
  funext y
  show W y = W (((cfg10.win 7).blk k10_tLast).view.emb y)
  refine congrArg W (funext fun a => Fin.ext ?_)
  match a with
  | ⟨0, _⟩ => show (y 0).val = win10_7.index k10_tLast (0 : Fin 2) * 1 + 1 * (y 0).val; rw [e0]; omega
  | ⟨1, _⟩ => show (y 1).val = win10_7.index k10_tLast (1 : Fin 2) * 512 + 1 * (y 1).val; rw [e1]; omega

/-- The one write-back of the statistics row, at the last point, writes the accumulator: its block is the whole row. -/
theorem k10_flushed7 (c : Dev nD) (t : Fin cfg10.N) (hf : (cfg10.win 7).flush t = true) :
    (dat10 V c).flushed 7 t = ((cfg10.win 7).blk t).view.read (Elt Ideal) (k10_accLast V c) := by
  have hN : cfg10.N = 25 := N_10
  have h24 : t.val = 24 := by have := (flush10_7 t).mp hf; have := t.isLt; omega
  obtain rfl : t = k10_tLast := Fin.ext h24
  have h0 : ¬k10_tLast.val = 0 := by show ¬(24 : ℕ) = 0; decide
  show (cfg10.win 7).cut (grid10.coords k10_tLast) ((dat10 V c).after 7 k10_tLast) = _
  rw [after10_7]
  unfold k10_accLast
  rw [outsAt10_C V c k10_tLast h0 rfl, k10_pt_C_7 V c k10_tLast h0 rfl]
  exact k10_cut7 _

/-- So the statistics row ends holding the accumulator after the last point. -/
theorem k10_stats_arr (c : Dev nD) : (dat10 V c).arrAt 7 cfg10.N = k10_accLast V c :=
  (dat10 V c).arrAt_eq_of_cover 7 (k10_accLast V c) (fun t hf => k10_flushed7 V c t hf) k10_cover7

/-- THE STATISTICS ROW after the last point: its first half the product's column sums, its second half its
    column sums of squares, over all 50000 rows. -/
theorem stats_eq10 (c : Dev nD) (j : Fin 256) :
    ((dat10 V c).arrAt 7 cfg10.N : Spec.Mx 1 512) (ix2 (0 : Fin 1) (k10_lo j)) = Spec.colSum (Z10 V c) j
    ∧ ((dat10 V c).arrAt 7 cfg10.N : Spec.Mx 1 512) (ix2 (0 : Fin 1) (k10_hi j)) = Spec.colSumSq (Z10 V c) j := by
  rw [k10_stats_arr]
  exact k10_AccIs_last (Z10 V c) (k10_accLast V c) (k10_acc V c 24 k10_tLast.isLt) j

end Region

end Cert.KernelIdeal.HandValue

end
-- ==== Proof.KI.Val11.lean ====
import proofs.«427833_j20194936226511_1_alg».proof.Proof.Spec
import proofs.«427833_j20194936226511_1_alg».proof.Proof.KI.Reg11
import Idealize.ShloMosaic.Lib.Pipeline.Value
import Idealize.ShloMosaic.Lib.ValueIdx

/-!
# The value of the normalise-and-rectify region

The region reads a matrix block by block of rows, together with four one-row matrices (the columns' means,
variances, gains and biases), and writes, block by block, the matrix normalised column by column, scaled,
shifted and cut off at zero.  Here that is read off the region's proof data at the extended reals: the body's
one payload at an index, what each grid point leaves for the write-back as a block of ONE function of the
arrays the region was entered with, the cover of the output array by the points' blocks, and so the output
array after the last point.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- A row broadcast down the rows of a block reads the row at the column. -/
theorem bcastRow11 (x : S1x256.Idx → EReal) (h : S1x256.Broadcasts S2000x256) (r : Fin 2000) (j : Fin 256) :
    broadcastTo S2000x256 x h (ix2 r j) = x (ix2 (0 : Fin 1) j) :=
  broadcastTo_apply x h (ix2 r j) (ix2 (0 : Fin 1) j) fun a => by
    match a with
    | ⟨0, _⟩ => rfl
    | ⟨1, _⟩ => rfl

/-- The body's one payload at an index: the entry less its column's mean, times the column's gain and the
    reciprocal root of the column's variance plus epsilon, plus the column's bias, cut off at zero.
    The payload takes its row arguments in the order gain, mean, variance, bias. -/
theorem pay11_1_apply (z : Vec Ideal S2000x256 .f32) (g mu var b : Vec Ideal S1x256 .f32) (r : Fin 2000) (j : Fin 256) :
    k11_pay1 (F := Ideal) z g mu var b (ix2 r j)
      = max (g (ix2 (0 : Fin 1) j) * (z (ix2 r j) - mu (ix2 (0 : Fin 1) j)) * Ideal.rsqrt (var (ix2 (0 : Fin 1) j) + Spec.bnEps)
          + b (ix2 (0 : Fin 1) j)) Spec.zero := by
  unfold k11_pay1
  simp only [shapeCast_self]
  rw [maximumf_apply, addf_apply, mulf_apply, mulf_apply, subf_apply, broadcast_apply,
    bcastRow11, bcastRow11, bcastRow11, bcastRow11]
  rfl

/-- The payload of a block and four rows that are read off a matrix and four row matrices, at an index of the
    block and the matrix index it sits at: the specification's normalise-and-rectify of the matrices there. -/
theorem point11 (x0 : Vec Ideal S2000x256 .f32) (x1 x2 x3 x4 : Vec Ideal S1x256 .f32)
    (A0 : Spec.Mx 50000 256) (A1 A2 A3 A4 : Spec.Mx 1 256) (y : S2000x256.Idx) (i : S50000x256.Idx)
    (h0 : x0 y = A0 i) (hc : (i 1).val = (y 1).val)
    (h1 : ∀ j : Fin 256, x1 (ix2 (0 : Fin 1) j) = A1 (ix2 (0 : Fin 1) j))
    (h2 : ∀ j : Fin 256, x2 (ix2 (0 : Fin 1) j) = A2 (ix2 (0 : Fin 1) j))
    (h3 : ∀ j : Fin 256, x3 (ix2 (0 : Fin 1) j) = A3 (ix2 (0 : Fin 1) j))
    (h4 : ∀ j : Fin 256, x4 (ix2 (0 : Fin 1) j) = A4 (ix2 (0 : Fin 1) j)) :
    k11_pay1 (F := Ideal) x0 x3 x1 x2 x4 y
      = Spec.bnRelu A0 (fun j => A1 (ix2 (0 : Fin 1) j)) (fun j => A2 (ix2 (0 : Fin 1) j))
          (fun j => A3 (ix2 (0 : Fin 1) j)) (fun j => A4 (ix2 (0 : Fin 1) j)) i := by
  obtain ⟨r, j, rfl⟩ : ∃ (r : Fin 2000) (j : Fin 256), y = ix2 r j := ⟨y 0, y 1, eq_ix2 y⟩
  obtain ⟨p, q, rfl⟩ : ∃ (p : Fin 50000) (q : Fin 256), i = ix2 p q := ⟨i 0, i 1, eq_ix2 i⟩
  obtain rfl : q = j := Fin.ext hc
  rw [pay11_1_apply, h0, h1, h2, h3, h4]
  rfl

/-! ## From blocks to the array -/

variable (V : (c : Dev nD) → (b : Ref sig .tc) → Buf (Elt Ideal) ((c : Thread nD τ).loc b))

/-- The arrays the region is entered with, as matrices: the operand, and the rows of means, variances, gains and biases. -/
abbrev X11_0 (c : Dev nD) : Spec.Mx 50000 256 := V c (Pipeline.arrRef spec11 0)
abbrev X11_1 (c : Dev nD) : Spec.Mx 1 256 := V c (Pipeline.arrRef spec11 1)
abbrev X11_2 (c : Dev nD) : Spec.Mx 1 256 := V c (Pipeline.arrRef spec11 2)
abbrev X11_3 (c : Dev nD) : Spec.Mx 1 256 := V c (Pipeline.arrRef spec11 3)
abbrev X11_4 (c : Dev nD) : Spec.Mx 1 256 := V c (Pipeline.arrRef spec11 4)

/-- What the output array ends holding: the operand normalised column by column, scaled, shifted and rectified. -/
abbrev G11 (c : Dev nD) : Spec.Mx 50000 256 :=
  Spec.bnRelu (X11_0 V c) (fun j => X11_1 V c (ix2 (0 : Fin 1) j)) (fun j => X11_2 V c (ix2 (0 : Fin 1) j))
    (fun j => X11_3 V c (ix2 (0 : Fin 1) j)) (fun j => X11_4 V c (ix2 (0 : Fin 1) j))

theorem hz11 : (![0, 0] : Fin 2 → Nat) = fun _ => 0 := funext fun a => by fin_cases a <;> rfl

/-- The index maps over the grid: the operand's and the output's blocks are the point's block of rows, the four
    rows' blocks the whole rows. -/
theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- What point `t` leaves for the write-back is block `t` of the result. -/
theorem cut11_5 (c : Dev nD) (t : Fin cfg11.N) :
    (cfg11.win 5).cut (grid11.coords t) (out11_5 (iblk11 V c 0 t) (iblk11 V c 1 t) (iblk11 V c 2 t) (iblk11 V c 3 t) (iblk11 V c 4 t))
      = ((cfg11.win 5).blk t).view.read (Elt Ideal) (G11 V c) := by
  unfold out11_5
  rw [View.canon_unit_zero hz11]
  simp only [View.ld_unit_zero (S := S2000x256) hz11, View.ld_unit_zero (S := S1x256) hz11]
  obtain ⟨e00, e01, e10, e11, e20, e21, e30, e31, e40, e41, e50, e51⟩ := idx_facts11 t
  funext y
  show k11_pay1 (F := Ideal) (iblk11 V c 0 t) (iblk11 V c 3 t) (iblk11 V c 1 t) (iblk11 V c 2 t) (iblk11 V c 4 t) y
    = G11 V c (((cfg11.win 5).blk t).view.emb y)
  refine point11 _ _ _ _ _ (X11_0 V c) (X11_1 V c) (X11_2 V c) (X11_3 V c) (X11_4 V c) y _ ?_ ?_ ?_ ?_ ?_ ?_
  · show V c (Pipeline.arrRef spec11 0) (((cfg11.win 0).blk t).view.emb y) = V c (Pipeline.arrRef spec11 0) (((cfg11.win 5).blk t).view.emb y)
    refine congrArg _ (funext fun a => Fin.ext ?_)
    match a with
    | ⟨0, _⟩ =>
      show win11_0.index t (0 : Fin 2) * 2000 + 1 * (y 0).val = win11_5.index t (0 : Fin 2) * 2000 + 1 * (y 0).val
      rw [e00, e50]
    | ⟨1, _⟩ =>
      show win11_0.index t (1 : Fin 2) * 256 + 1 * (y 1).val = win11_5.index t (1 : Fin 2) * 256 + 1 * (y 1).val
      rw [e01, e51]
  · show win11_5.index t (1 : Fin 2) * 256 + 1 * (y 1).val = (y 1).val
    rw [e51]; omega
  · intro j
    show V c (Pipeline.arrRef spec11 1) (((cfg11.win 1).blk t).view.emb (ix2 (0 : Fin 1) j)) = V c (Pipeline.arrRef spec11 1) (ix2 (0 : Fin 1) j)
    refine congrArg _ (funext fun a => Fin.ext ?_)
    match a with
    | ⟨0, _⟩ => show win11_1.index t (0 : Fin 2) * 1 + 1 * 0 = 0; rw [e10]
    | ⟨1, _⟩ => show win11_1.index t (1 : Fin 2) * 256 + 1 * j.val = j.val; rw [e11]; omega
  · intro j
    show V c (Pipeline.arrRef spec11 2) (((cfg11.win 2).blk t).view.emb (ix2 (0 : Fin 1) j)) = V c (Pipeline.arrRef spec11 2) (ix2 (0 : Fin 1) j)
    refine congrArg _ (funext fun a => Fin.ext ?_)
    match a with
    | ⟨0, _⟩ => show win11_2.index t (0 : Fin 2) * 1 + 1 * 0 = 0; rw [e20]
    | ⟨1, _⟩ => show win11_2.index t (1 : Fin 2) * 256 + 1 * j.val = j.val; rw [e21]; omega
  · intro j
    show V c (Pipeline.arrRef spec11 3) (((cfg11.win 3).blk t).view.emb (ix2 (0 : Fin 1) j)) = V c (Pipeline.arrRef spec11 3) (ix2 (0 : Fin 1) j)
    refine congrArg _ (funext fun a => Fin.ext ?_)
    match a with
    | ⟨0, _⟩ => show win11_3.index t (0 : Fin 2) * 1 + 1 * 0 = 0; rw [e30]
    | ⟨1, _⟩ => show win11_3.index t (1 : Fin 2) * 256 + 1 * j.val = j.val; rw [e31]; omega
  · intro j
    show V c (Pipeline.arrRef spec11 4) (((cfg11.win 4).blk t).view.emb (ix2 (0 : Fin 1) j)) = V c (Pipeline.arrRef spec11 4) (ix2 (0 : Fin 1) j)
    refine congrArg _ (funext fun a => Fin.ext ?_)
    match a with
    | ⟨0, _⟩ => show win11_4.index t (0 : Fin 2) * 1 + 1 * 0 = 0; rw [e40]
    | ⟨1, _⟩ => show win11_4.index t (1 : Fin 2) * 256 + 1 * j.val = j.val; rw [e41]; omega

/-- An index of the output array is in point `t`'s block iff each coordinate is in the block's range on its axis. -/
theorem mem_blk11 (t : Fin cfg11.N) (i : S50000x256.Idx) :
    i ∈ ((cfg11.win 5).blk t).view.set ↔ ∀ a : Fin 2, win11_5.index t a * S2000x256.size a ≤ (i a).val
      ∧ (i a).val < win11_5.index t a * S2000x256.size a + S2000x256.size a := by
  show i ∈ ((View.whole (Pipeline.arrRef spec11 5)).slice (win11_5.rect t)).set ↔ _
  rw [View.set_slice_whole, Rect.mem_set_unit]
  exact Iff.rfl

/-- The point whose block holds a row: the row's number over the rows in a block. -/
theorem pt_lt11 (i : S50000x256.Idx) : (i 0).val / 2000 < cfg11.N := by
  have hi0 : (i 0).val < 50000 := (i 0).isLt
  show (i 0).val / 2000 < grid11.N
  rw [N_11]; omega

/-- Every index of the output array is in some point's block, and every point writes back. -/
theorem cover11 (i : S50000x256.Idx) :
    ∃ t : Fin cfg11.N, (cfg11.win 5).flush t = true ∧ i ∈ ((cfg11.win 5).blk t).view.set := by
  have hi1 : (i 1).val < 256 := (i 1).isLt
  obtain ⟨t, ht⟩ : ∃ t : Fin cfg11.N, t.val = (i 0).val / 2000 := ⟨⟨_, pt_lt11 i⟩, rfl⟩
  obtain ⟨-, -, -, -, -, -, -, -, -, -, e50, e51⟩ := idx_facts11 t
  refine ⟨t, flush11_5 t, ?_⟩
  rw [mem_blk11]
  intro a
  match a with
  | ⟨0, _⟩ =>
    show win11_5.index t (0 : Fin 2) * 2000 ≤ (i 0).val ∧ (i 0).val < win11_5.index t (0 : Fin 2) * 2000 + 2000
    rw [e50, ht]; omega
  | ⟨1, _⟩ =>
    show win11_5.index t (1 : Fin 2) * 256 ≤ (i 1).val ∧ (i 1).val < win11_5.index t (1 : Fin 2) * 256 + 256
    rw [e51]; omega

/-- What point `t` writes back is block `t` of the result. -/
theorem flushed11_eq (c : Dev nD) (t : Fin cfg11.N) :
    (dat11 V c).flushed 5 t = ((cfg11.win 5).blk t).view.read (Elt Ideal) (G11 V c) := by
  show (cfg11.win 5).cut (grid11.coords t) ((dat11 V c).after 5 t) = _
  rw [after11_5]
  exact cut11_5 V c t

/-- THE OUTPUT ARRAY after the last point: the specification's normalise-and-rectify of the arrays the region
    was entered with. -/
theorem out_eq11 (c : Dev nD) : (dat11 V c).arrAt 5 cfg11.N = G11 V c :=
  (dat11 V c).arrAt_eq_of_cover 5 (G11 V c) (fun t _ => flushed11_eq V c t) cover11

end Cert.KernelIdeal.HandValue

end
-- ==== Proof.KI.Val12.lean ====
import proofs.«427833_j20194936226511_1_alg».proof.Proof.Gen.KernelIdeal.Launch
import proofs.«427833_j20194936226511_1_alg».proof.Proof.Gen.KernelIdeal.Points
import proofs.«427833_j20194936226511_1_alg».proof.Proof.KI.Reg12
import Idealize.ShloMosaic.Lib.Tactic
import proofs.«427833_j20194936226511_1_alg».proof.Proof.Gen.KernelIdeal.Skeleton
import proofs.«427833_j20194936226511_1_alg».proof.Proof.Spec
import Idealize.ShloMosaic.PureOps.Ideal.Laws
import Idealize.ShloMosaic.Lib.ValueIdx
import Idealize.ShloMosaic.Lib.Pipeline.Value

/-!
# The value of the first stage: a matrix product and its column statistics

At every grid point the kernel adds two blocks of rows, multiplies the sum by the weight matrix,
stores the product block, and adds the block's column sums and the column sums of its squares into
one carried row of twice the width, which it clears at the first point and copies out at the last.

This module reads the arithmetic at an index over the extended reals, where a change of float
format is the identity, a matrix product into a zero accumulator is the plain sum of products and
a reduction over the rows is the plain sum.  It then reads what each control case of the body leaves in
the product block and in the carried row, shows by induction on the grid point that the carried row
holds, column by column, the sums over the tiles so far, and concludes that after the region the
product array is the whole matrix product and the statistics row holds its column sums and the
column sums of its squares: a sum over all the rows is regrouped tile by tile, which needs only that
addition of extended reals is commutative and associative.
-/

set_option maxRecDepth 16384

noncomputable section

namespace Cert.KernelIdeal.HandValue

open Cert.KernelIdeal Cert.KernelIdeal.Gen
open Cert.KernelIdeal.Hand
open Idealize.ShloMosaic Idealize.ShloMosaic.ValueIdx Idealize.ShloMosaic.TcCoe Idealize.ShloMosaic.Tactic Idealize.SL.Sem
open Idealize.ShloMosaic.Pipeline (Dat)

/-! ## The operand indices of the matrix product, axis by axis -/

theorem lhs12_0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide),
    dif_pos (show (0 : Fin S2000x256.rank) ∈ dot_S2000x256_S256x512_S2000x512_1_0_0_1_n_n.lhsNonContracting by decide)]
  rfl
theorem lhs12_1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem rhs12_0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem rhs12_1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide),
    dif_pos (show (1 : Fin S256x512.rank) ∈ dot_S2000x256_S256x512_S2000x512_1_0_0_1_n_n.rhsNonContracting by decide)]
  rfl

/-- The block product into the zero accumulator, at an index: the sum over the contracted
    coordinate of the products of the entries. -/
theorem matmul12_apply (p : FVec Ideal S2000x256 .bf16) (w : FVec Ideal S256x512 .bf16) (r : Fin 2000) (j : Fin 512) :
    matmul dot_S2000x256_S256x512_S2000x512_1_0_0_1_n_n none p w (constant (F := Ideal) S2000x512 .f32 0x00000000#32) (ix2 r j)
      = ∑ l : Fin 256, p (ix2 r l) * w (ix2 l j) := by
  show FloatOps.matmul dot_S2000x256_S256x512_S2000x512_1_0_0_1_n_n none p w (constant (F := Ideal) S2000x512 .f32 0x00000000#32) (ix2 r j) = _
  rw [Ideal.matmul_constant_zero_apply, ← Equiv.sum_comp (contrEquiv1 dot_S2000x256_S256x512_S2000x512_1_0_0_1_n_n 256 rfl rfl).symm]
  refine Finset.sum_congr rfl fun l _ => ?_
  have hk := contrEquiv1_symm_val dot_S2000x256_S256x512_S2000x512_1_0_0_1_n_n 256 rfl rfl l
  have el : dot_S2000x256_S256x512_S2000x512_1_0_0_1_n_n.lhsIdx (ix2 r j) ((contrEquiv1 dot_S2000x256_S256x512_S2000x512_1_0_0_1_n_n 256 rfl rfl).symm l) = ix2 r l :=
    funext fun a => Fin.ext (by
      match a with
      | ⟨0, _⟩ => exact lhs12_0 _ _
      | ⟨1, _⟩ => exact (lhs12_1 _ _).trans hk)
  have er : dot_S2000x256_S256x512_S2000x512_1_0_0_1_n_n.rhsIdx (ix2 r j) ((contrEquiv1 dot_S2000x256_S256x512_S2000x512_1_0_0_1_n_n 256 rfl rfl).symm l) = ix2 l j :=
    funext fun a => Fin.ext (by
      match a with
      | ⟨0, _⟩ => exact (rhs12_0 _ _).trans hk
      | ⟨1, _⟩ => exact rhs12_1 _ _)
  rw [el, er]

/-- The sum over the rows of a block, kept as a one-row matrix, at a column. -/
theorem rowsum12_apply (v : FVec Ideal S2000x512 .f32) (j : Fin 512) :
    shapeCast S1x512 (multiReduction (F := Ideal) .add [0] S512 v 0x00000000#32 reduces_S2000x512_S512 (.inl rfl) rfl)
        shapeCasts_S512_S1x512 (ix2 0 j)
      = ∑ r : Fin 2000, v (ix2 r j) := by
  refine (shapeCast_addUnit_apply ![512] _ shapeCasts_S512_S1x512 (ix2 0 j)).trans ?_
  refine (Ideal.multiReduction_add_single v 0x00000000#32 reduces_S2000x512_S512 (.inl rfl) rfl _).trans ?_
  refine Finset.sum_congr rfl fun r _ => congrArg v ?_
  funext a
  apply Fin.ext
  match a with
  | ⟨0, _⟩ => rfl
  | ⟨1, _⟩ => rfl

/-! ## The four payloads at an index -/

/-- The product block: row `r`, column `j` is the sum over `l` of the summed inputs' entry times the weight's. -/
theorem k12_pay2_apply (x a : Vec Ideal S2000x256 .f32) (w : Vec Ideal S256x512 .bf16) (r : Fin 2000) (j : Fin 512) :
    k12_pay2 (F := Ideal) x a w (ix2 r j) = ∑ l : Fin 256, (x (ix2 r l) + a (ix2 r l)) * w (ix2 l j) := by
  unfold k12_pay2
  simp only [shapeCast_self]
  exact matmul12_apply _ _ r j

/-- The carried row's first half: what it held plus the block's column sums. -/
theorem k12_pay3_apply (x a : Vec Ideal S2000x256 .f32) (w : Vec Ideal S256x512 .bf16) (acc : Vec Ideal S1x512 .f32) (j : Fin 512) :
    k12_pay3 (F := Ideal) x a w acc (ix2 0 j) = acc (ix2 0 j) + ∑ r : Fin 2000, k12_pay2 (F := Ideal) x a w (ix2 r j) := by
  unfold k12_pay3
  simp only [shapeCast_self]
  exact congrArg (acc (ix2 0 j) + ·) (rowsum12_apply (k12_pay2 (F := Ideal) x a w) j)

/-- The carried row's second half: what it held plus the column sums of the block's squares. -/
theorem k12_pay4_apply (x a : Vec Ideal S2000x256 .f32) (w : Vec Ideal S256x512 .bf16) (acc : Vec Ideal S1x512 .f32) (j : Fin 512) :
    k12_pay4 (F := Ideal) x a w acc (ix2 0 j)
      = acc (ix2 0 j) + ∑ r : Fin 2000, k12_pay2 (F := Ideal) x a w (ix2 r j) * k12_pay2 (F := Ideal) x a w (ix2 r j) := by
  unfold k12_pay4
  simp only [shapeCast_self]
  exact congrArg (acc (ix2 0 j) + ·)
    (rowsum12_apply (mulf (k12_pay2 (F := Ideal) x a w) (k12_pay2 (F := Ideal) x a w)) j)

/-- The cleared row is zero everywhere. -/
theorem k12_pay1_eq : (k12_pay1 (F := Ideal)) = fun _ => (0 : EReal) := by
  unfold k12_pay1
  simp only [shapeCast_self]
  funext i
  exact Ideal.ofBits_zero_f32

/-! ## Sums over all the rows, tile by tile -/

/-- A sum over all the rows is the sum, over the tiles, of the sums over one tile's rows. -/
theorem sum_rows_tiles12 (f : Fin 50000 → EReal) :
    ∑ i : Fin 50000, f i
      = ∑ t : Fin 25, ∑ r : Fin 2000, f ⟨2000 * t.val + r.val, by have := t.isLt; have := r.isLt; omega⟩ := by
  rw [← Fintype.sum_prod_type']
  refine (Fintype.sum_equiv (finProdFinEquiv (m := 25) (n := 2000)) _ f fun p => congrArg f (Fin.ext ?_)).symm
  show 2000 * p.1.val + p.2.val = p.2.val + 2000 * p.1.val
  omega

/-- A quantity that starts at its first term and then adds one term per step is the sum of the terms so far. -/
theorem steps_eq_sum12 (T : ℕ → EReal) (N : ℕ) (S : (n : ℕ) → n < N → EReal)
    (h0 : ∀ h, S 0 h = 0 + T 0) (hs : ∀ n (h : n + 1 < N), S (n + 1) h = S n (Nat.lt_of_succ_lt h) + T (n + 1)) :
    ∀ (n : ℕ) (h : n < N), S n h = ∑ t ∈ Finset.range (n + 1), T t
  | 0, h => by rw [h0 h, zero_add, Finset.sum_range_one]
  | n + 1, h => by rw [hs n h, steps_eq_sum12 T N S h0 hs n (Nat.lt_of_succ_lt h), Finset.sum_range_succ _ (n + 1)]

/-! ## Where the windows' blocks sit -/

/-- The block indices, decided over the grid: the two inputs' row blocks and the output's move with the point,
    the weight's block and the statistics' block stay. -/
theorem idx12 : ∀ t : Fin cfg12.N,
      win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0
    ∧ win12_4.index t (0 : Fin 2) = 0 ∧ win12_4.index t (1 : Fin 2) = 0 :=
  (by decide +kernel : ∀ t : Fin grid12.N, _)

/-- The first input's block at point `t` is rows `2000 t …` of its array. -/
theorem read_blk12_0 (A : Vec Ideal S50000x256 .f32) (t : Fin cfg12.N) (r : Fin 2000) (l : Fin 256)
    (i : Fin 50000) (hi : i.val = 2000 * t.val + r.val) :
    (((cfg12.win 0).blk t).view.read (Elt Ideal) A : Vec Ideal S2000x256 .f32) (ix2 r l) = A (ix2 i l) := by
  rw [View.read_apply]
  show A _ = A _
  refine congrArg A ?_
  funext a
  apply Fin.ext
  match a with
  | ⟨0, _⟩ => show win12_0.index t (0 : Fin 2) * 2000 + 1 * r.val = i.val; rw [(idx12 t).1]; omega
  | ⟨1, _⟩ => show win12_0.index t (1 : Fin 2) * 256 + 1 * l.val = l.val; rw [(idx12 t).2.1]; omega

/-- The second input's block likewise. -/
theorem read_blk12_1 (A : Vec Ideal S50000x256 .f32) (t : Fin cfg12.N) (r : Fin 2000) (l : Fin 256)
    (i : Fin 50000) (hi : i.val = 2000 * t.val + r.val) :
    (((cfg12.win 1).blk t).view.read (Elt Ideal) A : Vec Ideal S2000x256 .f32) (ix2 r l) = A (ix2 i l) := by
  rw [View.read_apply]
  show A _ = A _
  refine congrArg A ?_
  funext a
  apply Fin.ext
  match a with
  | ⟨0, _⟩ => show win12_1.index t (0 : Fin 2) * 2000 + 1 * r.val = i.val; rw [(idx12 t).2.2.1]; omega
  | ⟨1, _⟩ => show win12_1.index t (1 : Fin 2) * 256 + 1 * l.val = l.val; rw [(idx12 t).2.2.2.1]; omega

/-- The weight's block is the whole weight matrix at every point. -/
theorem read_blk12_2 (A : Vec Ideal S256x512 .bf16) (t : Fin cfg12.N) (l : Fin 256) (j : Fin 512) :
    (((cfg12.win 2).blk t).view.read (Elt Ideal) A : Vec Ideal S256x512 .bf16) (ix2 l j) = A (ix2 l j) := by
  rw [View.read_apply]
  show A _ = A _
  refine congrArg A ?_
  funext a
  apply Fin.ext
  match a with
  | ⟨0, _⟩ => show win12_2.index t (0 : Fin 2) * 256 + 1 * l.val = l.val; rw [(idx12 t).2.2.2.2.1]; omega
  | ⟨1, _⟩ => show win12_2.index t (1 : Fin 2) * 512 + 1 * j.val = j.val; rw [(idx12 t).2.2.2.2.2.1]; omega

/-- The output's block at point `t` is rows `2000 t …` of its array. -/
theorem read_blk12_3 (A : Vec Ideal S50000x512 .f32) (t : Fin cfg12.N) (r : Fin 2000) (j : Fin 512)
    (i : Fin 50000) (hi : i.val = 2000 * t.val + r.val) :
    (((cfg12.win 3).blk t).view.read (Elt Ideal) A : Vec Ideal S2000x512 .f32) (ix2 r j) = A (ix2 i j) := by
  rw [View.read_apply]
  show A _ = A _
  refine congrArg A ?_
  funext a
  apply Fin.ext
  match a with
  | ⟨0, _⟩ => show win12_3.index t (0 : Fin 2) * 2000 + 1 * r.val = i.val; rw [(idx12 t).2.2.2.2.2.2.1]; omega
  | ⟨1, _⟩ => show win12_3.index t (1 : Fin 2) * 512 + 1 * j.val = j.val; rw [(idx12 t).2.2.2.2.2.2.2.1]; omega

/-- The statistics' block is the whole row at every point. -/
theorem read_blk12_4 (A : Vec Ideal S1x1024 .f32) (t : Fin cfg12.N) (y : S1x1024.Idx) :
    (((cfg12.win 4).blk t).view.read (Elt Ideal) A : Vec Ideal S1x1024 .f32) y = A y := by
  rw [View.read_apply]
  show A _ = A _
  refine congrArg A ?_
  funext a
  apply Fin.ext
  match a with
  | ⟨0, _⟩ => show win12_4.index t (0 : Fin 2) * 1 + 1 * (y 0).val = (y 0).val; rw [(idx12 t).2.2.2.2.2.2.2.2.1]; omega
  | ⟨1, _⟩ => show win12_4.index t (1 : Fin 2) * 1024 + 1 * (y 1).val = (y 1).val; rw [(idx12 t).2.2.2.2.2.2.2.2.2]; omega

/-- An index of the output array is in point `t`'s block iff each coordinate is in the block's range. -/
theorem mem_blk12_3 (t : Fin cfg12.N) (i : S50000x512.Idx) :
    i ∈ ((cfg12.win 3).blk t).view.set ↔ ∀ a : Fin 2, win12_3.index t a * S2000x512.size a ≤ (i a).val
      ∧ (i a).val < win12_3.index t a * S2000x512.size a + S2000x512.size a := by
  show i ∈ ((View.whole main_v208_0).slice (win12_3.rect t)).set ↔ _
  rw [View.set_slice_whole, Rect.mem_set_unit]
  exact Iff.rfl

/-- Every row of the output array is in the block of the point its tile belongs to. -/
theorem cover12_3 (i : S50000x512.Idx) :
    ∃ t : Fin cfg12.N, (cfg12.win 3).flush t = true ∧ i ∈ ((cfg12.win 3).blk t).view.set := by
  have hN : cfg12.N = 25 := N_12
  have hi12 : (i 0).val < 50000 := (i 0).isLt
  have hi1 : (i 1).val < 512 := (i 1).isLt
  refine ⟨⟨(i 0).val / 2000, by omega⟩, flush12_3 _, ?_⟩
  rw [mem_blk12_3]
  obtain ⟨-, -, -, -, -, -, e0, e1, -, -⟩ := idx12 ⟨(i 0).val / 2000, by omega⟩
  intro a
  match a with
  | ⟨0, _⟩ =>
    show win12_3.index _ (0 : Fin 2) * 2000 ≤ (i 0).val ∧ (i 0).val < win12_3.index _ (0 : Fin 2) * 2000 + 2000
    rw [e0]; dsimp only; omega
  | ⟨1, _⟩ =>
    show win12_3.index _ (1 : Fin 2) * 512 ≤ (i 1).val ∧ (i 1).val < win12_3.index _ (1 : Fin 2) * 512 + 512
    rw [e1]; omega

/-- An index of the statistics row is in point `t`'s block iff each coordinate is in the block's range. -/
theorem mem_blk12_4 (t : Fin cfg12.N) (i : S1x1024.Idx) :
    i ∈ ((cfg12.win 4).blk t).view.set ↔ ∀ a : Fin 2, win12_4.index t a * S1x1024.size a ≤ (i a).val
      ∧ (i a).val < win12_4.index t a * S1x1024.size a + S1x1024.size a := by
  show i ∈ ((View.whole main_v208_1).slice (win12_4.rect t)).set ↔ _
  rw [View.set_slice_whole, Rect.mem_set_unit]
  exact Iff.rfl

/-- The last point's block is the whole statistics row. -/
theorem cover12_4 (i : S1x1024.Idx) :
    ∃ t : Fin cfg12.N, (cfg12.win 4).flush t = true ∧ i ∈ ((cfg12.win 4).blk t).view.set := by
  have hN : cfg12.N = 25 := N_12
  have hi12 : (i 0).val < 1 := (i 0).isLt
  have hi1 : (i 1).val < 1024 := (i 1).isLt
  refine ⟨⟨24, by omega⟩, (flush12_4 _).mpr rfl, ?_⟩
  rw [mem_blk12_4]
  obtain ⟨-, -, -, -, -, -, -, -, e0, e1⟩ := idx12 ⟨24, by omega⟩
  intro a
  match a with
  | ⟨0, _⟩ =>
    show win12_4.index _ (0 : Fin 2) * 1 ≤ (i 0).val ∧ (i 0).val < win12_4.index _ (0 : Fin 2) * 1 + 1
    rw [e0]; omega
  | ⟨1, _⟩ =>
    show win12_4.index _ (1 : Fin 2) * 1024 ≤ (i 1).val ∧ (i 1).val < win12_4.index _ (1 : Fin 2) * 1024 + 1024
    rw [e1]; omega

/-! ## What each case of the body leaves, read as values

The body's run was found case by case as lists of stored pieces; read back, the product block's one covering store
leaves the product of the input blocks, and the carried row's stores leave, column by column, what the row held
(nothing, at the first point) plus the block's column sums, in its first half of the plain products and in its
second of their squares. The last point's copy leaves the statistics block equal to the carried row. -/

/-- A column of the first half of the carried row, and of the second. -/
abbrev lo12 (j : Fin 512) : Fin 1024 := ⟨j.val, by have := j.isLt; omega⟩
abbrev hi12 (j : Fin 512) : Fin 1024 := ⟨512 + j.val, by have := j.isLt; omega⟩

theorem hz12 : (![0, 0] : Fin 2 → Nat) = fun _ => 0 := funext fun a => by fin_cases a <;> rfl

/-- The two halves of the carried row, as the rectangles the body stores through. -/
abbrev rLo12 : Rect S1x1024 := Rect.unit (s := S1x1024) ![0, 0] S1x512.size inb_S1x1024_S1x512_0_0
abbrev rHi12 : Rect S1x1024 := Rect.unit (s := S1x1024) ![0, 512] S1x512.size inb_S1x1024_S1x512_0_512

theorem rLo12_emb (j : Fin 512) : rLo12.emb (ix2 0 j) = ix2 0 (lo12 j) := by
  funext a
  apply Fin.ext
  rw [Rect.emb_apply]
  match a with
  | ⟨0, _⟩ => rfl
  | ⟨1, _⟩ => show 0 + 1 * j.val = j.val; omega

theorem rHi12_emb (j : Fin 512) : rHi12.emb (ix2 0 j) = ix2 0 (hi12 j) := by
  funext a
  apply Fin.ext
  rw [Rect.emb_apply]
  match a with
  | ⟨0, _⟩ => rfl
  | ⟨1, _⟩ => show 512 + 1 * j.val = 512 + j.val; omega

theorem lo12_not_mem_hi (j : Fin 512) : ix2 0 (lo12 j) ∉ rHi12.set := by
  rw [Rect.mem_set_unit]
  intro h
  have h1 : (512 : ℕ) ≤ j.val := (h 1).1
  have := j.isLt
  omega

theorem hi12_not_mem_lo (j : Fin 512) : ix2 0 (hi12 j) ∉ rLo12.set := by
  rw [Rect.mem_set_unit]
  intro h
  have h1 : 512 + j.val < 0 + 512 := (h 1).2
  omega

/-- The whole carried row as a rectangle of itself. -/
abbrev rW12 : Rect S1x1024 := Rect.unit (s := S1x1024) ![0, 0] S1x1024.size inb_S1x1024_S1x1024_0_0

/-- A load after one store of the whole row reads that store's payload. -/
theorem readCov_rW12 {sig' : RefSig} {κ : Kind} {sp : Space} (v : View sig' κ sp S1x1024 .f32) (w : Vec Ideal S1x1024 .f32)
    (B : Rect S1x1024) (y : B.shape.Idx) :
    v.readCov [(⟨rW12, w⟩ : View.Piece (Elt Ideal) S1x1024 .f32)] B.toLoadRect y = w (B.idx y) := by
  have hc : ∀ y : S1x1024.Idx, ∃ p ∈ [(⟨rW12, w⟩ : View.Piece (Elt Ideal) S1x1024 .f32)], y ∈ p.1.set :=
    fun y => ⟨⟨rW12, w⟩, List.mem_singleton_self _, View.mem_set_unit_zero hz12 inb_S1x1024_S1x1024_0_0 y⟩
  rw [View.readCov_eq_canon_ld v _ B hc, View.canon_unit_zero hz12]

/-- The two half-row stores cover the row. -/
theorem halves_cover12 (wHi wLo : Vec Ideal S1x512 .f32) (y : S1x1024.Idx) :
    ∃ p ∈ ([⟨rHi12, wHi⟩, ⟨rLo12, wLo⟩] : List (View.Piece (Elt Ideal) S1x1024 .f32)), y ∈ p.1.set := by
  have h0 : (y 0).val < 1 := (y 0).isLt
  have h1 : (y 1).val < 1024 := (y 1).isLt
  by_cases h : (y 1).val < 512
  · refine ⟨⟨rLo12, wLo⟩, List.mem_cons_of_mem _ (List.mem_singleton_self _), ?_⟩
    show y ∈ rLo12.set
    rw [Rect.mem_set_unit]
    intro a
    match a with
    | ⟨0, _⟩ => show 0 ≤ (y 0).val ∧ (y 0).val < 0 + 1; omega
    | ⟨1, _⟩ => show 0 ≤ (y 1).val ∧ (y 1).val < 0 + 512; omega
  · refine ⟨⟨rHi12, wHi⟩, List.mem_cons_self, ?_⟩
    show y ∈ rHi12.set
    rw [Rect.mem_set_unit]
    intro a
    match a with
    | ⟨0, _⟩ => show 0 ≤ (y 0).val ∧ (y 0).val < 0 + 1; omega
    | ⟨1, _⟩ => show 512 ≤ (y 1).val ∧ (y 1).val < 512 + 512; omega

theorem out12_A_3_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i) (x0 x1 : Vec Ideal S2000x256 .f32) (x2 : Vec Ideal S256x512 .bf16) :
    out12_A_3 (F := Ideal) c i arg1 harg1 arg2 harg2 arg3 harg3 arg4 harg4 arg5 harg5 arg6 harg6 hc0 hc1 x0 x1 x2 = k12_pay2 (F := Ideal) x0 x1 x2 := by
  unfold out12_A_3
  rw [View.read_writes_eq_canon _ _ _ (cover12_A_3 c i arg1 harg1 arg2 harg2 arg3 harg3 arg4 harg4 arg5 harg5 arg6 harg6 hc0 hc1 x0 x1 x2)]
  unfold kernelRun12_A
  dsimp only
  sl_unfold_words
  rw [View.canon_unit_zero hz12]
  simp only [View.readAt_eq_ld, harg1.read_unread, harg2.read_unread, harg3.read_unread, View.ld_unit_zero (S := S2000x256) hz12, View.ld_unit_zero (S := S256x512) hz12]

theorem out12_B_3_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i) (x0 x1 : Vec Ideal S2000x256 .f32) (x2 : Vec Ideal S256x512 .bf16) (xs0 : Vec Ideal S1x1024 .f32) :
    out12_B_3 (F := Ideal) c i arg1 harg1 arg2 harg2 arg3 harg3 arg4 harg4 arg5 harg5 arg6 harg6 hc0 hc1 x0 x1 x2 xs0 = k12_pay2 (F := Ideal) x0 x1 x2 := by
  unfold out12_B_3
  rw [View.read_writes_eq_canon _ _ _ (cover12_B_3 c i arg1 harg1 arg2 harg2 arg3 harg3 arg4 harg4 arg5 harg5 arg6 harg6 hc0 hc1 x0 x1 x2 xs0)]
  unfold kernelRun12_B
  dsimp only
  sl_unfold_words
  rw [View.canon_unit_zero hz12]
  simp only [View.readAt_eq_ld, harg1.read_unread, harg2.read_unread, harg3.read_unread, View.ld_unit_zero (S := S2000x256) hz12, View.ld_unit_zero (S := S256x512) hz12]

theorem out12_C_3_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i) (x0 x1 : Vec Ideal S2000x256 .f32) (x2 : Vec Ideal S256x512 .bf16) (xs0 : Vec Ideal S1x1024 .f32) :
    out12_C_3 (F := Ideal) c i arg1 harg1 arg2 harg2 arg3 harg3 arg4 harg4 arg5 harg5 arg6 harg6 hc0 hc1 x0 x1 x2 xs0 = k12_pay2 (F := Ideal) x0 x1 x2 := by
  unfold out12_C_3
  rw [View.read_writes_eq_canon _ _ _ (cover12_C_3 c i arg1 harg1 arg2 harg2 arg3 harg3 arg4 harg4 arg5 harg5 arg6 harg6 hc0 hc1 x0 x1 x2 xs0)]
  unfold kernelRun12_C
  dsimp only
  sl_unfold_words
  rw [View.canon_unit_zero hz12]
  simp only [View.readAt_eq_ld, harg1.read_unread, harg2.read_unread, harg3.read_unread, View.ld_unit_zero (S := S2000x256) hz12, View.ld_unit_zero (S := S256x512) hz12]

theorem sout12_A_0_lo (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i) (x0 x1 : Vec Ideal S2000x256 .f32) (x2 : Vec Ideal S256x512 .bf16) (j : Fin 512) :
    sout12_A_0 (F := Ideal) c i arg1 harg1 arg2 harg2 arg3 harg3 arg4 harg4 arg5 harg5 arg6 harg6 hc0 hc1 x0 x1 x2 (ix2 0 (lo12 j))
      = 0 + ∑ r : Fin 2000, k12_pay2 (F := Ideal) x0 x1 x2 (ix2 r j) := by
  unfold sout12_A_0
  rw [View.read_writes_eq_canon _ _ _ (scover12_A_0 c i arg1 harg1 arg2 harg2 arg3 harg3 arg4 harg4 arg5 harg5 arg6 harg6 hc0 hc1 x0 x1 x2)]
  unfold kernelRun12_A
  dsimp only
  sl_unfold_words
  simp only [View.readAt_eq_ld, harg1.read_unread, harg2.read_unread, harg3.read_unread, View.ld_unit_zero (S := S2000x256) hz12, View.ld_unit_zero (S := S256x512) hz12]
  refine (View.canon_cons_of_not_mem (⟨rHi12, _⟩ : View.Piece (Elt Ideal) S1x1024 .f32) _ (lo12_not_mem_hi j)).trans ?_
  refine (congrArg _ (rLo12_emb j).symm).trans ((View.canon_cons_emb rLo12 _ _ (ix2 0 j)).trans ?_)
  refine (k12_pay3_apply x0 x1 x2 _ j).trans ?_
  refine congrArg (· + _) ?_
  exact (readCov_rW12 _ _ rLo12 (ix2 0 j)).trans (congrFun k12_pay1_eq _)

theorem sout12_A_0_hi (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond12_0 i) (hc1 : ¬cond12_1 i) (x0 x1 : Vec Ideal S2000x256 .f32) (x2 : Vec Ideal S256x512 .bf16) (j : Fin 512) :
    sout12_A_0 (F := Ideal) c i arg1 harg1 arg2 harg2 arg3 harg3 arg4 harg4 arg5 harg5 arg6 harg6 hc0 hc1 x0 x1 x2 (ix2 0 (hi12 j))
      = 0 + ∑ r : Fin 2000, k12_pay2 (F := Ideal) x0 x1 x2 (ix2 r j) * k12_pay2 (F := Ideal) x0 x1 x2 (ix2 r j) := by
  unfold sout12_A_0
  rw [View.read_writes_eq_canon _ _ _ (scover12_A_0 c i arg1 harg1 arg2 harg2 arg3 harg3 arg4 harg4 arg5 harg5 arg6 harg6 hc0 hc1 x0 x1 x2)]
  unfold kernelRun12_A
  dsimp only
  sl_unfold_words
  simp only [View.readAt_eq_ld, harg1.read_unread, harg2.read_unread, harg3.read_unread, View.ld_unit_zero (S := S2000x256) hz12, View.ld_unit_zero (S := S256x512) hz12]
  refine (congrArg _ (rHi12_emb j).symm).trans ((View.canon_cons_emb rHi12 _ _ (ix2 0 j)).trans ?_)
  refine (k12_pay4_apply x0 x1 x2 _ j).trans ?_
  refine congrArg (· + _) ?_
  refine (congrFun (View.readCov_eq_canon_ld _ _ rHi12 (fun y =>
    ⟨⟨rW12, k12_pay1 (F := Ideal)⟩, List.mem_cons_of_mem _ (List.mem_singleton_self _),
      View.mem_set_unit_zero hz12 inb_S1x1024_S1x1024_0_0 y⟩)) (ix2 0 j)).trans ?_
  show View.canon _ (rHi12.emb (ix2 0 j)) = 0
  rw [rHi12_emb]
  refine (View.canon_cons_of_not_mem (⟨rLo12, _⟩ : View.Piece (Elt Ideal) S1x1024 .f32) _ (hi12_not_mem_lo j)).trans ?_
  rw [View.canon_unit_zero hz12]
  exact congrFun k12_pay1_eq _

theorem sout12_B_0_lo (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i) (x0 x1 : Vec Ideal S2000x256 .f32) (x2 : Vec Ideal S256x512 .bf16) (xs0 : Vec Ideal S1x1024 .f32) (j : Fin 512) :
    sout12_B_0 (F := Ideal) c i arg1 harg1 arg2 harg2 arg3 harg3 arg4 harg4 arg5 harg5 arg6 harg6 hc0 hc1 x0 x1 x2 xs0 (ix2 0 (lo12 j))
      = xs0 (ix2 0 (lo12 j)) + ∑ r : Fin 2000, k12_pay2 (F := Ideal) x0 x1 x2 (ix2 r j) := by
  unfold sout12_B_0
  rw [View.read_writes_eq_canon _ _ _ (scover12_B_0 c i arg1 harg1 arg2 harg2 arg3 harg3 arg4 harg4 arg5 harg5 arg6 harg6 hc0 hc1 x0 x1 x2 xs0)]
  unfold kernelRun12_B
  dsimp only
  sl_unfold_words
  simp only [View.readAt_eq_ld, harg1.read_unread, harg2.read_unread, harg3.read_unread, harg6.read_unread, View.ld_unit_zero (S := S2000x256) hz12, View.ld_unit_zero (S := S256x512) hz12]
  refine (View.canon_cons_of_not_mem (⟨rHi12, _⟩ : View.Piece (Elt Ideal) S1x1024 .f32) _ (lo12_not_mem_hi j)).trans ?_
  refine (congrArg _ (rLo12_emb j).symm).trans ((View.canon_cons_emb rLo12 _ [] (ix2 0 j)).trans ?_)
  refine (k12_pay3_apply x0 x1 x2 _ j).trans ?_
  exact congrArg (· + _) (congrArg xs0 (rLo12_emb j))

theorem sout12_B_0_hi (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : ¬cond12_1 i) (x0 x1 : Vec Ideal S2000x256 .f32) (x2 : Vec Ideal S256x512 .bf16) (xs0 : Vec Ideal S1x1024 .f32) (j : Fin 512) :
    sout12_B_0 (F := Ideal) c i arg1 harg1 arg2 harg2 arg3 harg3 arg4 harg4 arg5 harg5 arg6 harg6 hc0 hc1 x0 x1 x2 xs0 (ix2 0 (hi12 j))
      = xs0 (ix2 0 (hi12 j)) + ∑ r : Fin 2000, k12_pay2 (F := Ideal) x0 x1 x2 (ix2 r j) * k12_pay2 (F := Ideal) x0 x1 x2 (ix2 r j) := by
  unfold sout12_B_0
  rw [View.read_writes_eq_canon _ _ _ (scover12_B_0 c i arg1 harg1 arg2 harg2 arg3 harg3 arg4 harg4 arg5 harg5 arg6 harg6 hc0 hc1 x0 x1 x2 xs0)]
  unfold kernelRun12_B
  dsimp only
  sl_unfold_words
  simp only [View.readAt_eq_ld, harg1.read_unread, harg2.read_unread, harg3.read_unread, harg6.read_unread, View.ld_unit_zero (S := S2000x256) hz12, View.ld_unit_zero (S := S256x512) hz12]
  refine (congrArg _ (rHi12_emb j).symm).trans ((View.canon_cons_emb rHi12 _ _ (ix2 0 j)).trans ?_)
  refine (k12_pay4_apply x0 x1 x2 _ j).trans ?_
  exact congrArg (· + _) (congrArg xs0 (rHi12_emb j))

theorem sout12_C_0_lo (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i) (x0 x1 : Vec Ideal S2000x256 .f32) (x2 : Vec Ideal S256x512 .bf16) (xs0 : Vec Ideal S1x1024 .f32) (j : Fin 512) :
    sout12_C_0 (F := Ideal) c i arg1 harg1 arg2 harg2 arg3 harg3 arg4 harg4 arg5 harg5 arg6 harg6 hc0 hc1 x0 x1 x2 xs0 (ix2 0 (lo12 j))
      = xs0 (ix2 0 (lo12 j)) + ∑ r : Fin 2000, k12_pay2 (F := Ideal) x0 x1 x2 (ix2 r j) := by
  unfold sout12_C_0
  rw [View.read_writes_eq_canon _ _ _ (scover12_C_0 c i arg1 harg1 arg2 harg2 arg3 harg3 arg4 harg4 arg5 harg5 arg6 harg6 hc0 hc1 x0 x1 x2 xs0)]
  unfold kernelRun12_C
  dsimp only
  sl_unfold_words
  simp only [View.readAt_eq_ld, harg1.read_unread, harg2.read_unread, harg3.read_unread, harg6.read_unread, View.ld_unit_zero (S := S2000x256) hz12, View.ld_unit_zero (S := S256x512) hz12]
  refine (View.canon_cons_of_not_mem (⟨rHi12, _⟩ : View.Piece (Elt Ideal) S1x1024 .f32) _ (lo12_not_mem_hi j)).trans ?_
  refine (congrArg _ (rLo12_emb j).symm).trans ((View.canon_cons_emb rLo12 _ [] (ix2 0 j)).trans ?_)
  refine (k12_pay3_apply x0 x1 x2 _ j).trans ?_
  exact congrArg (· + _) (congrArg xs0 (rLo12_emb j))

theorem sout12_C_0_hi (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i) (x0 x1 : Vec Ideal S2000x256 .f32) (x2 : Vec Ideal S256x512 .bf16) (xs0 : Vec Ideal S1x1024 .f32) (j : Fin 512) :
    sout12_C_0 (F := Ideal) c i arg1 harg1 arg2 harg2 arg3 harg3 arg4 harg4 arg5 harg5 arg6 harg6 hc0 hc1 x0 x1 x2 xs0 (ix2 0 (hi12 j))
      = xs0 (ix2 0 (hi12 j)) + ∑ r : Fin 2000, k12_pay2 (F := Ideal) x0 x1 x2 (ix2 r j) * k12_pay2 (F := Ideal) x0 x1 x2 (ix2 r j) := by
  unfold sout12_C_0
  rw [View.read_writes_eq_canon _ _ _ (scover12_C_0 c i arg1 harg1 arg2 harg2 arg3 harg3 arg4 harg4 arg5 harg5 arg6 harg6 hc0 hc1 x0 x1 x2 xs0)]
  unfold kernelRun12_C
  dsimp only
  sl_unfold_words
  simp only [View.readAt_eq_ld, harg1.read_unread, harg2.read_unread, harg3.read_unread, harg6.read_unread, View.ld_unit_zero (S := S2000x256) hz12, View.ld_unit_zero (S := S256x512) hz12]
  refine (congrArg _ (rHi12_emb j).symm).trans ((View.canon_cons_emb rHi12 _ _ (ix2 0 j)).trans ?_)
  refine (k12_pay4_apply x0 x1 x2 _ j).trans ?_
  exact congrArg (· + _) (congrArg xs0 (rHi12_emb j))

theorem out12_C_4_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond12_0 i) (hc1 : cond12_1 i) (x0 x1 : Vec Ideal S2000x256 .f32) (x2 : Vec Ideal S256x512 .bf16) (xs0 : Vec Ideal S1x1024 .f32) :
    out12_C_4 (F := Ideal) c i arg1 harg1 arg2 harg2 arg3 harg3 arg4 harg4 arg5 harg5 arg6 harg6 hc0 hc1 x0 x1 x2 xs0 = sout12_C_0 (F := Ideal) c i arg1 harg1 arg2 harg2 arg3 harg3 arg4 harg4 arg5 harg5 arg6 harg6 hc0 hc1 x0 x1 x2 xs0 := by
  unfold out12_C_4 sout12_C_0
  rw [View.read_writes_eq_canon _ _ _ (cover12_C_4 c i arg1 harg1 arg2 harg2 arg3 harg3 arg4 harg4 arg5 harg5 arg6 harg6 hc0 hc1 x0 x1 x2 xs0), View.read_writes_eq_canon _ _ _ (scover12_C_0 c i arg1 harg1 arg2 harg2 arg3 harg3 arg4 harg4 arg5 harg5 arg6 harg6 hc0 hc1 x0 x1 x2 xs0)]
  unfold kernelRun12_C
  dsimp only
  sl_unfold_words
  rw [View.canon_unit_zero hz12]
  refine (View.readCov_eq_canon_ld _ _ rW12 (halves_cover12 _ _)).trans ?_
  exact View.ld_unit_zero hz12 _ _

/-! ## The region's arrays and blocks at their literal types -/

variable (V : (c : Dev nD) → (b : Ref sig .tc) → Buf (Elt Ideal) ((c : Thread nD τ).loc b))

/-- The two input arrays and the weight matrix as the region finds them. -/
abbrev X12_0 (c : Dev nD) : Spec.Mx 50000 256 := V c (Pipeline.arrRef spec12 0)
abbrev X12_1 (c : Dev nD) : Spec.Mx 50000 256 := V c (Pipeline.arrRef spec12 1)
abbrev X12_2 (c : Dev nD) : Spec.Mx 256 512 := V c (Pipeline.arrRef spec12 2)

/-- The product of the summed inputs with the weights, all rows at once. -/
abbrev Z12 (c : Dev nD) : Spec.Mx 50000 512 := Spec.mm (Spec.add2 (X12_0 V c) (X12_1 V c)) (X12_2 V c)

/-- The product block the body computes at point `t`. -/
abbrev zb12 (c : Dev nD) (t : Fin cfg12.N) : FVec Ideal S2000x512 .f32 :=
  k12_pay2 (F := Ideal) (iblk12 V c 0 t) (iblk12 V c 1 t) (iblk12 V c 2 t)

/-- The product block at point `t` is rows `2000 t …` of the whole product. -/
theorem zb12_apply (c : Dev nD) (t : Fin cfg12.N) (r : Fin 2000) (j : Fin 512) (i : Fin 50000) (hi : i.val = 2000 * t.val + r.val) :
    zb12 V c t (ix2 r j) = Z12 V c (ix2 i j) := by
  refine (k12_pay2_apply _ _ _ r j).trans ?_
  show _ = ∑ l : Fin 256, (X12_0 V c (ix2 i l) + X12_1 V c (ix2 i l)) * X12_2 V c (ix2 l j)
  refine Finset.sum_congr rfl fun l _ => ?_
  have e0 : (iblk12 V c 0 t : Vec Ideal S2000x256 .f32) (ix2 r l) = X12_0 V c (ix2 i l) := read_blk12_0 (X12_0 V c) t r l i hi
  have e1 : (iblk12 V c 1 t : Vec Ideal S2000x256 .f32) (ix2 r l) = X12_1 V c (ix2 i l) := read_blk12_1 (X12_1 V c) t r l i hi
  have e2 : (iblk12 V c 2 t : Vec Ideal S256x512 .bf16) (ix2 l j) = X12_2 V c (ix2 l j) := read_blk12_2 (X12_2 V c) t l j
  rw [e0, e1, e2]

/-! ## The carried row after each point -/

/-- The output block after point `t` is the product block, whichever case the point is. -/
theorem outsAt12_fst (c : Dev nD) (t : Fin cfg12.N) : (outsAt12 V c t.val t.isLt).1 = zb12 V c t := by
  by_cases h0 : t.val = 0
  · have h1 : ¬t.val = 24 := by omega
    rw [outsAt12_A V c t h0 h1]; dsimp only
    exact out12_A_3_eq c (grid12.coords t) (ms12_0 t) (hs12_0 t) (ms12_1 t) (hs12_1 t) (ms12_2 t) (hs12_2 t) (ms12_3 t) (hs12_3 t) (ms12_4 t) (hs12_4 t) scM12_0 (Memref.isWhole_whole _) ((hcond12_0 t).mpr h0) (fun h => h1 ((hcond12_1 t).mp h)) (iblk12 V c 0 t) (iblk12 V c 1 t) (iblk12 V c 2 t)
  · by_cases h1 : t.val = 24
    · rw [outsAt12_C V c t h0 h1]; dsimp only
      exact out12_C_3_eq c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) _
    · rw [outsAt12_B V c t h0 h1]; dsimp only
      exact out12_B_3_eq c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) (fun h => h1 ((hcond12_1 t).mp h)) (iblk12 V c 0 t) (iblk12 V c 1 t) (iblk12 V c 2 t) _

/-- Tile `t`'s contribution to column `j`'s sum, and to its sum of squares (nothing past the grid). -/
def tsum12 (c : Dev nD) (j : Fin 512) (t : ℕ) : EReal :=
  if h : t < cfg12.N then ∑ r : Fin 2000, zb12 V c ⟨t, h⟩ (ix2 r j) else 0
def tsq12 (c : Dev nD) (j : Fin 512) (t : ℕ) : EReal :=
  if h : t < cfg12.N then ∑ r : Fin 2000, zb12 V c ⟨t, h⟩ (ix2 r j) * zb12 V c ⟨t, h⟩ (ix2 r j) else 0

/-- The carried row at the first point. -/
theorem row12_zero (c : Dev nD) (j : Fin 512) (h : 0 < cfg12.N) :
    (outsAt12 V c 0 h).2.2 (ix2 0 (lo12 j)) = 0 + tsum12 V c j 0
    ∧ (outsAt12 V c 0 h).2.2 (ix2 0 (hi12 j)) = 0 + tsq12 V c j 0 := by
  have h1 : ¬(⟨0, h⟩ : Fin cfg12.N).val = 24 := by dsimp only; omega
  have e := outsAt12_A V c ⟨0, h⟩ rfl h1
  dsimp only at e
  rw [e]; dsimp only
  unfold tsum12 tsq12
  rw [dif_pos h, dif_pos h]
  exact ⟨sout12_A_0_lo c (grid12.coords ⟨0, h⟩) (ms12_0 ⟨0, h⟩) (hs12_0 ⟨0, h⟩) (ms12_1 ⟨0, h⟩) (hs12_1 ⟨0, h⟩) (ms12_2 ⟨0, h⟩) (hs12_2 ⟨0, h⟩) (ms12_3 ⟨0, h⟩) (hs12_3 ⟨0, h⟩) (ms12_4 ⟨0, h⟩) (hs12_4 ⟨0, h⟩) scM12_0 (Memref.isWhole_whole _) ((hcond12_0 ⟨0, h⟩).mpr rfl) (fun h' => h1 ((hcond12_1 ⟨0, h⟩).mp h')) (iblk12 V c 0 ⟨0, h⟩) (iblk12 V c 1 ⟨0, h⟩) (iblk12 V c 2 ⟨0, h⟩) j,
    sout12_A_0_hi c (grid12.coords ⟨0, h⟩) (ms12_0 ⟨0, h⟩) (hs12_0 ⟨0, h⟩) (ms12_1 ⟨0, h⟩) (hs12_1 ⟨0, h⟩) (ms12_2 ⟨0, h⟩) (hs12_2 ⟨0, h⟩) (ms12_3 ⟨0, h⟩) (hs12_3 ⟨0, h⟩) (ms12_4 ⟨0, h⟩) (hs12_4 ⟨0, h⟩) scM12_0 (Memref.isWhole_whole _) ((hcond12_0 ⟨0, h⟩).mpr rfl) (fun h' => h1 ((hcond12_1 ⟨0, h⟩).mp h')) (iblk12 V c 0 ⟨0, h⟩) (iblk12 V c 1 ⟨0, h⟩) (iblk12 V c 2 ⟨0, h⟩) j⟩

/-- The carried row at a later point: what the point before left plus this tile's contribution. -/
theorem row12_succ (c : Dev nD) (j : Fin 512) (n : ℕ) (h : n + 1 < cfg12.N) :
    (outsAt12 V c (n + 1) h).2.2 (ix2 0 (lo12 j)) = (outsAt12 V c n (Nat.lt_of_succ_lt h)).2.2 (ix2 0 (lo12 j)) + tsum12 V c j (n + 1)
    ∧ (outsAt12 V c (n + 1) h).2.2 (ix2 0 (hi12 j)) = (outsAt12 V c n (Nat.lt_of_succ_lt h)).2.2 (ix2 0 (hi12 j)) + tsq12 V c j (n + 1) := by
  have h0 : ¬(⟨n + 1, h⟩ : Fin cfg12.N).val = 0 := Nat.succ_ne_zero n
  unfold tsum12 tsq12
  rw [dif_pos h, dif_pos h]
  by_cases h1 : (⟨n + 1, h⟩ : Fin cfg12.N).val = 24
  · have e := outsAt12_C V c ⟨n + 1, h⟩ h0 h1
    dsimp only at e
    rw [e]; dsimp only
    exact ⟨sout12_C_0_lo c (grid12.coords ⟨n + 1, h⟩) (ms12_0 ⟨n + 1, h⟩) (hs12_0 ⟨n + 1, h⟩) (ms12_1 ⟨n + 1, h⟩) (hs12_1 ⟨n + 1, h⟩) (ms12_2 ⟨n + 1, h⟩) (hs12_2 ⟨n + 1, h⟩) (ms12_3 ⟨n + 1, h⟩) (hs12_3 ⟨n + 1, h⟩) (ms12_4 ⟨n + 1, h⟩) (hs12_4 ⟨n + 1, h⟩) scM12_0 (Memref.isWhole_whole _) (fun h' => h0 ((hcond12_0 ⟨n + 1, h⟩).mp h')) ((hcond12_1 ⟨n + 1, h⟩).mpr h1) (iblk12 V c 0 ⟨n + 1, h⟩) (iblk12 V c 1 ⟨n + 1, h⟩) (iblk12 V c 2 ⟨n + 1, h⟩) _ j,
      sout12_C_0_hi c (grid12.coords ⟨n + 1, h⟩) (ms12_0 ⟨n + 1, h⟩) (hs12_0 ⟨n + 1, h⟩) (ms12_1 ⟨n + 1, h⟩) (hs12_1 ⟨n + 1, h⟩) (ms12_2 ⟨n + 1, h⟩) (hs12_2 ⟨n + 1, h⟩) (ms12_3 ⟨n + 1, h⟩) (hs12_3 ⟨n + 1, h⟩) (ms12_4 ⟨n + 1, h⟩) (hs12_4 ⟨n + 1, h⟩) scM12_0 (Memref.isWhole_whole _) (fun h' => h0 ((hcond12_0 ⟨n + 1, h⟩).mp h')) ((hcond12_1 ⟨n + 1, h⟩).mpr h1) (iblk12 V c 0 ⟨n + 1, h⟩) (iblk12 V c 1 ⟨n + 1, h⟩) (iblk12 V c 2 ⟨n + 1, h⟩) _ j⟩
  · have e := outsAt12_B V c ⟨n + 1, h⟩ h0 h1
    dsimp only at e
    rw [e]; dsimp only
    exact ⟨sout12_B_0_lo c (grid12.coords ⟨n + 1, h⟩) (ms12_0 ⟨n + 1, h⟩) (hs12_0 ⟨n + 1, h⟩) (ms12_1 ⟨n + 1, h⟩) (hs12_1 ⟨n + 1, h⟩) (ms12_2 ⟨n + 1, h⟩) (hs12_2 ⟨n + 1, h⟩) (ms12_3 ⟨n + 1, h⟩) (hs12_3 ⟨n + 1, h⟩) (ms12_4 ⟨n + 1, h⟩) (hs12_4 ⟨n + 1, h⟩) scM12_0 (Memref.isWhole_whole _) (fun h' => h0 ((hcond12_0 ⟨n + 1, h⟩).mp h')) (fun h' => h1 ((hcond12_1 ⟨n + 1, h⟩).mp h')) (iblk12 V c 0 ⟨n + 1, h⟩) (iblk12 V c 1 ⟨n + 1, h⟩) (iblk12 V c 2 ⟨n + 1, h⟩) _ j,
      sout12_B_0_hi c (grid12.coords ⟨n + 1, h⟩) (ms12_0 ⟨n + 1, h⟩) (hs12_0 ⟨n + 1, h⟩) (ms12_1 ⟨n + 1, h⟩) (hs12_1 ⟨n + 1, h⟩) (ms12_2 ⟨n + 1, h⟩) (hs12_2 ⟨n + 1, h⟩) (ms12_3 ⟨n + 1, h⟩) (hs12_3 ⟨n + 1, h⟩) (ms12_4 ⟨n + 1, h⟩) (hs12_4 ⟨n + 1, h⟩) scM12_0 (Memref.isWhole_whole _) (fun h' => h0 ((hcond12_0 ⟨n + 1, h⟩).mp h')) (fun h' => h1 ((hcond12_1 ⟨n + 1, h⟩).mp h')) (iblk12 V c 0 ⟨n + 1, h⟩) (iblk12 V c 1 ⟨n + 1, h⟩) (iblk12 V c 2 ⟨n + 1, h⟩) _ j⟩

/-- So after point `n` the carried row holds, column by column, the sums over the tiles so far. -/
theorem row12_eq (c : Dev nD) (j : Fin 512) (n : ℕ) (h : n < cfg12.N) :
    (outsAt12 V c n h).2.2 (ix2 0 (lo12 j)) = ∑ t ∈ Finset.range (n + 1), tsum12 V c j t
    ∧ (outsAt12 V c n h).2.2 (ix2 0 (hi12 j)) = ∑ t ∈ Finset.range (n + 1), tsq12 V c j t :=
  ⟨steps_eq_sum12 (tsum12 V c j) cfg12.N (fun n h => (outsAt12 V c n h).2.2 (ix2 0 (lo12 j)))
      (fun h => (row12_zero V c j h).1) (fun n h => (row12_succ V c j n h).1) n h,
    steps_eq_sum12 (tsq12 V c j) cfg12.N (fun n h => (outsAt12 V c n h).2.2 (ix2 0 (hi12 j)))
      (fun h => (row12_zero V c j h).2) (fun n h => (row12_succ V c j n h).2) n h⟩

/-- The sums over all the tiles are the column sums of the whole product, and of its squares. -/
theorem tsum12_all (c : Dev nD) (j : Fin 512) :
    ∑ t ∈ Finset.range 25, tsum12 V c j t = Spec.colSum (Z12 V c) j := by
  have hN : cfg12.N = 25 := N_12
  rw [Finset.sum_range]
  show _ = ∑ i : Fin 50000, Z12 V c (ix2 i j)
  rw [sum_rows_tiles12]
  refine Finset.sum_congr rfl fun t _ => ?_
  have ht : t.val < cfg12.N := by have := t.isLt; omega
  unfold tsum12
  rw [dif_pos ht]
  exact Finset.sum_congr rfl fun r _ =>
    zb12_apply V c ⟨t.val, ht⟩ r j ⟨2000 * t.val + r.val, by have := t.isLt; have := r.isLt; omega⟩ rfl

theorem tsq12_all (c : Dev nD) (j : Fin 512) :
    ∑ t ∈ Finset.range 25, tsq12 V c j t = Spec.colSumSq (Z12 V c) j := by
  have hN : cfg12.N = 25 := N_12
  rw [Finset.sum_range]
  show _ = ∑ i : Fin 50000, Z12 V c (ix2 i j) * Z12 V c (ix2 i j)
  rw [sum_rows_tiles12]
  refine Finset.sum_congr rfl fun t _ => ?_
  have ht : t.val < cfg12.N := by have := t.isLt; omega
  unfold tsq12
  rw [dif_pos ht]
  exact Finset.sum_congr rfl fun r _ => by
    rw [zb12_apply V c ⟨t.val, ht⟩ r j ⟨2000 * t.val + r.val, by have := t.isLt; have := r.isLt; omega⟩ rfl]

/-! ## The two output arrays after the region -/

/-- The statistics row: the column sums in its first half, the column sums of squares in its second. -/
def stats12 (Z : Spec.Mx 50000 512) : Spec.Mx 1 1024 := fun i =>
  if h : (i 1).val < 512 then Spec.colSum Z ⟨(i 1).val, h⟩
  else Spec.colSumSq Z ⟨(i 1).val - 512, by have : (i 1).val < 1024 := (i 1).isLt; omega⟩

theorem stats12_lo (Z : Spec.Mx 50000 512) (j : Fin 512) : stats12 Z (ix2 0 (lo12 j)) = Spec.colSum Z j := by
  unfold stats12
  have hq : ((ix2 (0 : Fin 1) (lo12 j) : S1x1024.Idx) 1).val < 512 := j.isLt
  rw [dif_pos hq]
theorem stats12_hi (Z : Spec.Mx 50000 512) (j : Fin 512) : stats12 Z (ix2 0 (hi12 j)) = Spec.colSumSq Z j := by
  unfold stats12
  have hq : ¬((ix2 (0 : Fin 1) (hi12 j) : S1x1024.Idx) 1).val < 512 := by
    show ¬ 512 + j.val < 512; omega
  rw [dif_neg hq]
  exact congrArg (Spec.colSumSq Z) (Fin.ext (by show 512 + j.val - 512 = j.val; omega))

/-- What point `t` writes back of the product is block `t` of the whole product. -/
theorem flushed12_3_eq (c : Dev nD) (t : Fin cfg12.N) :
    (dat12 V c).flushed 3 t = ((cfg12.win 3).blk t).view.read (Elt Ideal) (Z12 V c) := by
  show (cfg12.win 3).cut (grid12.coords t) ((dat12 V c).after 3 t) = _
  rw [after12_3, outsAt12_fst]
  funext y
  obtain ⟨r, j, rfl⟩ : ∃ (r : Fin 2000) (j : Fin 512), y = ix2 r j := ⟨y 0, y 1, eq_ix2 y⟩
  have hi : (⟨2000 * t.val + r.val, by have hN : cfg12.N = 25 := N_12; have := t.isLt; have := r.isLt; omega⟩ : Fin 50000).val
      = 2000 * t.val + r.val := rfl
  refine Eq.trans ?_ (read_blk12_3 (Z12 V c) t r j _ hi).symm
  exact zb12_apply V c t r j _ hi

/-- The product array after the region is the whole product. -/
theorem z_eq12 (c : Dev nD) : (dat12 V c).arrAt 3 cfg12.N = Z12 V c :=
  (dat12 V c).arrAt_eq_of_cover 3 (Z12 V c) (fun t _ => flushed12_3_eq V c t) cover12_3

/-- What the last point writes back of the statistics is the whole statistics row. -/
theorem flushed12_4_eq (c : Dev nD) (t : Fin cfg12.N) (hf : (cfg12.win 4).flush t = true) :
    (dat12 V c).flushed 4 t = ((cfg12.win 4).blk t).view.read (Elt Ideal) (stats12 (Z12 V c)) := by
  have hN : cfg12.N = 25 := N_12
  have h24 : t.val = 24 := by have := (flush12_4 t).mp hf; have := t.isLt; omega
  have h0 : ¬t.val = 0 := by omega
  show (cfg12.win 4).cut (grid12.coords t) ((dat12 V c).after 4 t) = _
  rw [after12_4]
  funext y
  rw [read_blk12_4 (stats12 (Z12 V c)) t y]
  have e := outsAt12_C V c t h0 h24
  have e4 : (outsAt12 V c t.val t.isLt).2.1 = (outsAt12 V c t.val t.isLt).2.2 := by
    rw [e]; dsimp only
    exact out12_C_4_eq c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h24) (iblk12 V c 0 t) (iblk12 V c 1 t) (iblk12 V c 2 t) _
  show (outsAt12 V c t.val t.isLt).2.1 y = _
  rw [e4]
  obtain ⟨p, q, rfl⟩ : ∃ (p : Fin 1) (q : Fin 1024), y = ix2 p q := ⟨y 0, y 1, eq_ix2 y⟩
  obtain rfl : p = 0 := Fin.ext (by have := p.isLt; omega)
  have hr := fun j => row12_eq V c j t.val t.isLt
  have hq : (∃ j : Fin 512, q = lo12 j) ∨ (∃ j : Fin 512, q = hi12 j) := by
    by_cases h : q.val < 512
    · exact .inl ⟨⟨q.val, h⟩, Fin.ext rfl⟩
    · exact .inr ⟨⟨q.val - 512, by have := q.isLt; omega⟩, Fin.ext (by show q.val = 512 + (q.val - 512); omega)⟩
  rcases hq with ⟨j, rfl⟩ | ⟨j, rfl⟩
  · rw [(hr j).1, h24, stats12_lo]; exact tsum12_all V c j
  · rw [(hr j).2, h24, stats12_hi]; exact tsq12_all V c j

/-- The statistics array after the region is the whole statistics row. -/
theorem stats_arr12 (c : Dev nD) : (dat12 V c).arrAt 4 cfg12.N = stats12 (Z12 V c) :=
  (dat12 V c).arrAt_eq_of_cover 4 (stats12 (Z12 V c)) (fun t hf => flushed12_4_eq V c t hf) cover12_4

/-- Column by column: the first half holds the column sums of the product, the second those of its squares. -/
theorem stats_eq12 (c : Dev nD) (j : Fin 512) :
    (dat12 V c).arrAt 4 cfg12.N (ix2 0 (lo12 j)) = Spec.colSum (Z12 V c) j
    ∧ (dat12 V c).arrAt 4 cfg12.N (ix2 0 (hi12 j)) = Spec.colSumSq (Z12 V c) j := by
  rw [stats_arr12]
  exact ⟨stats12_lo _ j, stats12_hi _ j⟩

end Cert.KernelIdeal.HandValue

end
-- ==== Proof.KI.Val13.lean ====
/-
  The value of the second stage's region, at the extended reals.

  The region walks 50000 rows in 25 tiles of 2000. At each tile it normalises the tile's rows with a
  mean row, a variance row, a gain row and a bias row, rectifies them, multiplies by the weights, and
  stores the tile's product; it adds the product's column sums and column sums of squares to a
  one-row accumulator (zeroed before the first tile), and after the last tile copies the accumulator
  out. This module reads that off: the product array is the specification's `mm (bnRelu …) w`, and the
  statistics row holds its column sums and column sums of squares over all rows. Addition of extended
  reals is commutative and associative, so regrouping the tiles' partial sums needs no finiteness.
-/
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import proofs.«427833_j20194936226511_1_alg».proof.Proof.Spec
import proofs.«427833_j20194936226511_1_alg».proof.Proof.KI.Reg13
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Mathlib.Algebra.BigOperators.Fin
import Mathlib.Logic.Equiv.Fin.Basic

noncomputable section

namespace Cert.KernelIdeal.HandValue

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)
open scoped BigOperators

/-! ## The product's operand indices, coordinate by coordinate

The product contracts the left operand's second axis with the right operand's first: at the output
index `(r, j)` and the contraction position `l` it reads the left operand at `(r, l)` and the right
operand at `(l, j)`. -/

theorem k13_dot_lhs_0 (j : S2000x256.Idx) (k : dot_S2000x512_S512x256_S2000x256_1_0_0_1_n_n.contr.Idx) :
    (dot_S2000x512_S512x256_S2000x256_1_0_0_1_n_n.lhsIdx j k 0 : ℕ) = j 0 := by
  simp [DotDims.lhsIdx, dot_S2000x512_S512x256_S2000x256_1_0_0_1_n_n] <;> rfl
theorem k13_dot_lhs_1 (j : S2000x256.Idx) (k : dot_S2000x512_S512x256_S2000x256_1_0_0_1_n_n.contr.Idx) :
    (dot_S2000x512_S512x256_S2000x256_1_0_0_1_n_n.lhsIdx j k 1 : ℕ) = k ⟨0, by decide⟩ := by
  simp [DotDims.lhsIdx, dot_S2000x512_S512x256_S2000x256_1_0_0_1_n_n] <;> rfl
theorem k13_dot_rhs_0 (j : S2000x256.Idx) (k : dot_S2000x512_S512x256_S2000x256_1_0_0_1_n_n.contr.Idx) :
    (dot_S2000x512_S512x256_S2000x256_1_0_0_1_n_n.rhsIdx j k 0 : ℕ) = k ⟨0, by decide⟩ := by
  simp [DotDims.rhsIdx, dot_S2000x512_S512x256_S2000x256_1_0_0_1_n_n] <;> rfl
theorem k13_dot_rhs_1 (j : S2000x256.Idx) (k : dot_S2000x512_S512x256_S2000x256_1_0_0_1_n_n.contr.Idx) :
    (dot_S2000x512_S512x256_S2000x256_1_0_0_1_n_n.rhsIdx j k 1 : ℕ) = j 1 := by
  simp [DotDims.rhsIdx, dot_S2000x512_S512x256_S2000x256_1_0_0_1_n_n] <;> rfl

/-- A product into the zero accumulator, read at `(r, j)`: the sum over the contracted axis. -/
theorem k13_matmul_apply (a : FVec Ideal S2000x512 .bf16) (w : FVec Ideal S512x256 .bf16) (r : Fin 2000) (j : Fin 256) :
    matmul (F := Ideal) dot_S2000x512_S512x256_S2000x256_1_0_0_1_n_n none a w (constant S2000x256 .f32 0x00000000#32) (ix2 r j)
      = ∑ l : Fin 512, a (ix2 r l) * w (ix2 l j) := by
  refine (Ideal.matmul_constant_zero_apply dot_S2000x512_S512x256_S2000x256_1_0_0_1_n_n none a w (ix2 r j)).trans ?_
  rw [← Equiv.sum_comp (contrEquiv1 dot_S2000x512_S512x256_S2000x256_1_0_0_1_n_n 512 rfl rfl).symm]
  refine Finset.sum_congr rfl fun l _ => ?_
  have hk := contrEquiv1_symm_val dot_S2000x512_S512x256_S2000x256_1_0_0_1_n_n 512 rfl rfl l
  refine congrArg₂ (· * ·) (congrArg a (funext fun ax => Fin.ext ?_)) (congrArg w (funext fun ax => Fin.ext ?_))
  · match ax with
    | ⟨0, _⟩ => exact k13_dot_lhs_0 _ _
    | ⟨1, _⟩ => exact (k13_dot_lhs_1 _ _).trans hk
  · match ax with
    | ⟨0, _⟩ => exact (k13_dot_rhs_0 _ _).trans hk
    | ⟨1, _⟩ => exact k13_dot_rhs_1 _ _

/-! ## The payloads at an index -/

/-- The tile's product at `(r, j)`: the sum over `l` of the normalised, rectified entry `(r, l)` of the
    block (gain `g`, mean `mu`, variance `var`, bias `b`, each one row) times the weight `(l, j)`. The
    change of float format in between is the identity on the extended reals. -/
theorem k13_pay4_apply (z : Vec Ideal S2000x512 .f32) (g mu var b : Vec Ideal S1x512 .f32) (w : Vec Ideal S512x256 .bf16)
    (r : Fin 2000) (j : Fin 256) :
    k13_pay4 (F := Ideal) z g mu var b w (ix2 r j)
      = ∑ l : Fin 512, max (g (ix2 0 l) * (z (ix2 r l) - mu (ix2 0 l)) * Ideal.rsqrt (var (ix2 0 l) + Spec.bnEps) + b (ix2 0 l)) Spec.zero
          * w (ix2 l j) := by
  unfold k13_pay4
  refine (k13_matmul_apply _ _ r j).trans ?_
  refine Finset.sum_congr rfl fun l _ => ?_
  simp only [shapeCast_self]
  refine congrArg₂ (· * ·) ?_ rfl
  show max (broadcastTo S2000x512 g broadcasts_S1x512_S2000x512 (ix2 r l)
        * (z (ix2 r l) - broadcastTo S2000x512 mu broadcasts_S1x512_S2000x512 (ix2 r l))
        * broadcastTo S2000x512 (rsqrt (F := Ideal) (addf (F := Ideal) var (broadcast S1x512 (Scalar.ofBits (F := Ideal) .f32 0x3727C5AC#32)))) broadcasts_S1x512_S2000x512 (ix2 r l)
        + broadcastTo S2000x512 b broadcasts_S1x512_S2000x512 (ix2 r l)) (Scalar.ofBits (F := Ideal) .f32 0x00000000#32) = _
  rw [broadcastTo_1b_ab_apply g, broadcastTo_1b_ab_apply mu, broadcastTo_1b_ab_apply b, broadcastTo_1b_ab_apply (rsqrt (F := Ideal) _)]
  rfl

/-- The tile's column sums, as a row: at `(0, j)` the sum of the tile's product over its rows. -/
theorem k13_pay5_apply (z : Vec Ideal S2000x512 .f32) (g mu var b : Vec Ideal S1x512 .f32) (w : Vec Ideal S512x256 .bf16) (j : Fin 256) :
    k13_pay5 (F := Ideal) z g mu var b w (ix2 0 j) = ∑ r : Fin 2000, k13_pay4 (F := Ideal) z g mu var b w (ix2 r j) := by
  refine (shapeCast_a_1a_apply (multiReduction (F := Ideal) .add [0] S256 (k13_pay4 z g mu var b w) 0x00000000#32 reduces_S2000x256_S256 (.inl rfl) rfl)
    shapeCasts_S256_S1x256 0 j).trans ?_
  refine (Ideal.multiReduction_add_single (k13_pay4 (F := Ideal) z g mu var b w) 0x00000000#32 reduces_S2000x256_S256 (.inl rfl) rfl (ix1 j)).trans ?_
  refine Finset.sum_congr rfl fun r _ => congrArg (k13_pay4 (F := Ideal) z g mu var b w) ?_
  funext c; match c with | ⟨0, _⟩ => rfl | ⟨1, _⟩ => rfl

/-- The tile's column sums of squares, as a row. -/
theorem k13_pay6_apply (z : Vec Ideal S2000x512 .f32) (g mu var b : Vec Ideal S1x512 .f32) (w : Vec Ideal S512x256 .bf16) (j : Fin 256) :
    k13_pay6 (F := Ideal) z g mu var b w (ix2 0 j)
      = ∑ r : Fin 2000, k13_pay4 (F := Ideal) z g mu var b w (ix2 r j) * k13_pay4 (F := Ideal) z g mu var b w (ix2 r j) := by
  refine (shapeCast_a_1a_apply (multiReduction (F := Ideal) .add [0] S256 (mulf (k13_pay4 z g mu var b w) (k13_pay4 z g mu var b w)) 0x00000000#32 reduces_S2000x256_S256 (.inl rfl) rfl)
    shapeCasts_S256_S1x256 0 j).trans ?_
  refine (Ideal.multiReduction_add_single (mulf (k13_pay4 (F := Ideal) z g mu var b w) (k13_pay4 (F := Ideal) z g mu var b w)) 0x00000000#32 reduces_S2000x256_S256 (.inl rfl) rfl (ix1 j)).trans ?_
  refine Finset.sum_congr rfl fun r _ => ?_
  have e : reduces_S2000x256_S256.lift (ix1 j) r = ix2 r j := by
    funext c; match c with | ⟨0, _⟩ => rfl | ⟨1, _⟩ => rfl
  rw [e]; rfl

/-- The accumulator's first half after a tile: what it held plus the tile's row of sums. -/
theorem k13_pay1_apply (row : FVec Ideal S1x256 .f32) (acc : Vec Ideal S1x256 .f32) (i : S1x256.Idx) :
    k13_pay1 (F := Ideal) row acc i = acc i + row i :=
  congrFun (shapeCast_self (addf (F := Ideal) acc row) shapeCasts_S1x256_S1x256) i

/-- The accumulator's second half after a tile: what it held plus the tile's row of sums of squares. -/
theorem k13_pay2_apply (row : FVec Ideal S1x256 .f32) (acc : Vec Ideal S1x256 .f32) (i : S1x256.Idx) :
    k13_pay2 (F := Ideal) row acc i = acc i + row i :=
  congrFun (shapeCast_self (addf (F := Ideal) acc row) shapeCasts_S1x256_S1x256) i

/-- The accumulator's reset: the zero word everywhere. -/
theorem k13_pay3_apply (i : S1x512.Idx) : k13_pay3 (F := Ideal) i = Spec.zero :=
  congrFun (shapeCast_self (broadcast S1x512 (Scalar.ofBits (F := Ideal) .f32 0x00000000#32)) shapeCasts_S1x512_S1x512) i

/-! ## Regrouping: the tiles' partial sums are the sum over all rows

The grid walks the rows in 25 tiles of 2000; row `r` of tile `t` is row `2000 t + r`. A sum over all
50000 rows is the sum over the tiles of the sums over a tile's rows: addition of extended reals is
commutative and associative, so no finiteness is needed. -/

/-- Row `r` of tile `t`. -/
def k13_rowOf (t : Fin 25) (r : Fin 2000) : Fin 50000 :=
  ⟨2000 * t.val + r.val, by have := t.isLt; have := r.isLt; omega⟩

theorem k13_rowOf_val (t : Fin 25) (r : Fin 2000) : (k13_rowOf t r).val = 2000 * t.val + r.val := rfl

theorem k13_sum_tiles (f : Fin 50000 → EReal) :
    ∑ t : Fin 25, ∑ r : Fin 2000, f (k13_rowOf t r) = ∑ i : Fin 50000, f i := by
  refine (Fintype.sum_prod_type' (fun t r => f (k13_rowOf t r))).symm.trans ?_
  refine Fintype.sum_equiv ((finProdFinEquiv (m := 25) (n := 2000)).trans (finCongr (by norm_num))) _ _ fun x => ?_
  refine congrArg f (Fin.ext ?_)
  simp [k13_rowOf, finProdFinEquiv]
  omega

/-- The sum of `f` over tile `t`'s rows; zero past the last tile. -/
def k13_tileSum (f : Fin 50000 → EReal) (t : ℕ) : EReal :=
  if h : t < 25 then ∑ r : Fin 2000, f (k13_rowOf ⟨t, h⟩ r) else 0

theorem k13_tileSum_of_lt (f : Fin 50000 → EReal) (t : ℕ) (h : t < 25) :
    k13_tileSum f t = ∑ r : Fin 2000, f (k13_rowOf ⟨t, h⟩ r) := dif_pos h

/-- The 25 tiles' sums, added in the grid's order, are the sum over all rows. -/
theorem k13_sum_range_tiles (f : Fin 50000 → EReal) :
    ∑ t ∈ Finset.range 25, k13_tileSum f t = ∑ i : Fin 50000, f i := by
  rw [Finset.sum_range]
  exact (Finset.sum_congr rfl fun t _ => k13_tileSum_of_lt f t.val t.isLt).trans (k13_sum_tiles f)

/-! ## One point, against the whole arrays

Over variables: the blocks `x0 … x5` the body loads at a point, and the arrays `M0 … M5` they are blocks
of. Tile `n`'s block of the first operand holds rows `2000 n …` of its array; the five other operands
are whole. -/

section Point
variable (x0 : Vec Ideal S2000x512 .f32) (x1 x2 x3 x4 : Vec Ideal S1x512 .f32) (x5 : Vec Ideal S512x256 .bf16)
variable (M0 : Spec.Mx 50000 512) (M1 M2 M3 M4 : Spec.Mx 1 512) (M5 : Spec.Mx 512 256)

/-- The whole product: the rows normalised with mean `M1`, variance `M2`, gain `M3`, bias `M4`,
    rectified, times the weights. -/
abbrev k13_prod : Spec.Mx 50000 256 :=
  Spec.mm (Spec.bnRelu M0 (fun l => M1 (ix2 0 l)) (fun l => M2 (ix2 0 l)) (fun l => M3 (ix2 0 l)) (fun l => M4 (ix2 0 l))) M5

/-- The tile's product at `(r, j)` is the whole product at the tile's row. (The body passes the gain
    first, then the mean, the variance and the bias.) -/
theorem k13_point4 (r : Fin 2000) (j : Fin 256) (ir : Fin 50000)
    (h0 : ∀ l : Fin 512, x0 (ix2 r l) = M0 (ix2 ir l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ l : Fin 512, x5 (ix2 l j) = M5 (ix2 l j)) :
    k13_pay4 (F := Ideal) x0 x3 x1 x2 x4 x5 (ix2 r j) = k13_prod M0 M1 M2 M3 M4 M5 (ix2 ir j) := by
  rw [k13_pay4_apply]
  show _ = ∑ l : Fin 512, max (M3 (ix2 0 l) * (M0 (ix2 ir l) - M1 (ix2 0 l)) * Ideal.rsqrt (M2 (ix2 0 l) + Spec.bnEps) + M4 (ix2 0 l)) Spec.zero
      * M5 (ix2 l j)
  refine Finset.sum_congr rfl fun l _ => ?_
  rw [h0, h1, h2, h3, h4, h5]

/-- Tile `n`'s row of column sums is the sum of the whole product's column over the tile's rows. -/
theorem k13_point5 (n : ℕ) (hn : n < 25) (j : Fin 256)
    (h0 : ∀ (r : Fin 2000) (l : Fin 512), x0 (ix2 r l) = M0 (ix2 (k13_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 256), x5 (ix2 l j) = M5 (ix2 l j)) :
    k13_pay5 (F := Ideal) x0 x3 x1 x2 x4 x5 (ix2 0 j) = k13_tileSum (fun i => k13_prod M0 M1 M2 M3 M4 M5 (ix2 i j)) n := by
  rw [k13_pay5_apply, k13_tileSum_of_lt _ n hn]
  exact Finset.sum_congr rfl fun r _ =>
    k13_point4 x0 x1 x2 x3 x4 x5 M0 M1 M2 M3 M4 M5 r j (k13_rowOf ⟨n, hn⟩ r) (h0 r) h1 h2 h3 h4 (fun l => h5 l j)

/-- Tile `n`'s row of column sums of squares likewise. -/
theorem k13_point6 (n : ℕ) (hn : n < 25) (j : Fin 256)
    (h0 : ∀ (r : Fin 2000) (l : Fin 512), x0 (ix2 r l) = M0 (ix2 (k13_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 256), x5 (ix2 l j) = M5 (ix2 l j)) :
    k13_pay6 (F := Ideal) x0 x3 x1 x2 x4 x5 (ix2 0 j)
      = k13_tileSum (fun i => k13_prod M0 M1 M2 M3 M4 M5 (ix2 i j) * k13_prod M0 M1 M2 M3 M4 M5 (ix2 i j)) n := by
  rw [k13_pay6_apply, k13_tileSum_of_lt _ n hn]
  refine Finset.sum_congr rfl fun r _ => ?_
  rw [k13_point4 x0 x1 x2 x3 x4 x5 M0 M1 M2 M3 M4 M5 r j (k13_rowOf ⟨n, hn⟩ r) (h0 r) h1 h2 h3 h4 (fun l => h5 l j)]

end Point

/-! ## The accumulator row

The row has two halves: the first carries the sums, the second the sums of squares. -/

/-- Column `j` of the first half. -/
def k13_lo (j : Fin 256) : Fin 512 := ⟨j.val, by have := j.isLt; omega⟩
/-- Column `j` of the second half. -/
def k13_hi (j : Fin 256) : Fin 512 := ⟨256 + j.val, by have := j.isLt; omega⟩

/-- The row holds the first `n` tiles' sums of `Z`'s columns and of their squares. -/
def k13_AccIs (Z : Spec.Mx 50000 256) (n : ℕ) (acc : Vec Ideal S1x512 .f32) : Prop :=
  ∀ j : Fin 256,
    acc (ix2 0 (k13_lo j)) = ∑ t ∈ Finset.range n, k13_tileSum (fun i => Z (ix2 i j)) t
    ∧ acc (ix2 0 (k13_hi j)) = ∑ t ∈ Finset.range n, k13_tileSum (fun i => Z (ix2 i j) * Z (ix2 i j)) t

/-- After the first tile: the zero word plus the tile's rows. -/
theorem k13_AccIs_first (Z : Spec.Mx 50000 256) (acc : Vec Ideal S1x512 .f32) (row5 row6 : FVec Ideal S1x256 .f32)
    (hlo : ∀ j : Fin 256, acc (ix2 0 (k13_lo j)) = Spec.zero + row5 (ix2 0 j))
    (hhi : ∀ j : Fin 256, acc (ix2 0 (k13_hi j)) = Spec.zero + row6 (ix2 0 j))
    (h5 : ∀ j : Fin 256, row5 (ix2 0 j) = k13_tileSum (fun i => Z (ix2 i j)) 0)
    (h6 : ∀ j : Fin 256, row6 (ix2 0 j) = k13_tileSum (fun i => Z (ix2 i j) * Z (ix2 i j)) 0) :
    k13_AccIs Z 1 acc := fun j => by
  have hz : Spec.zero = 0 := Ideal.ofBits_zero_f32
  rw [hlo, hhi, h5, h6, hz, zero_add, zero_add, Finset.sum_range_one, Finset.sum_range_one]
  exact ⟨rfl, rfl⟩

/-- After a later tile: what the row held plus the tile's rows. -/
theorem k13_AccIs_next (Z : Spec.Mx 50000 256) (n : ℕ) (acc acc' : Vec Ideal S1x512 .f32) (row5 row6 : FVec Ideal S1x256 .f32)
    (h : k13_AccIs Z n acc)
    (hlo : ∀ j : Fin 256, acc' (ix2 0 (k13_lo j)) = acc (ix2 0 (k13_lo j)) + row5 (ix2 0 j))
    (hhi : ∀ j : Fin 256, acc' (ix2 0 (k13_hi j)) = acc (ix2 0 (k13_hi j)) + row6 (ix2 0 j))
    (h5 : ∀ j : Fin 256, row5 (ix2 0 j) = k13_tileSum (fun i => Z (ix2 i j)) n)
    (h6 : ∀ j : Fin 256, row6 (ix2 0 j) = k13_tileSum (fun i => Z (ix2 i j) * Z (ix2 i j)) n) :
    k13_AccIs Z (n + 1) acc' := fun j => by
  rw [hlo, hhi, h5, h6, (h j).1, (h j).2, Finset.sum_range_succ, Finset.sum_range_succ]
  exact ⟨rfl, rfl⟩

/-- After the last tile the row holds the column sums and the column sums of squares. -/
theorem k13_AccIs_last (Z : Spec.Mx 50000 256) (acc : Vec Ideal S1x512 .f32) (h : k13_AccIs Z 25 acc) (j : Fin 256) :
    acc (ix2 0 (k13_lo j)) = Spec.colSum Z j ∧ acc (ix2 0 (k13_hi j)) = Spec.colSumSq Z j := by
  rw [(h j).1, (h j).2, k13_sum_range_tiles, k13_sum_range_tiles]
  exact ⟨rfl, rfl⟩

/-! ## The accumulator row's two halves, as rectangles -/

theorem k13_hz : (![0, 0] : Fin 2 → Nat) = fun _ => 0 := funext fun a => by fin_cases a <;> rfl

/-- The first half of the row. -/
abbrev k13_rLo : Rect S1x512 := Rect.unit (s := S1x512) ![0, 0] S1x256.size inb_S1x512_S1x256_0_0
/-- The second half of the row. -/
abbrev k13_rHi : Rect S1x512 := Rect.unit (s := S1x512) ![0, 256] S1x256.size inb_S1x512_S1x256_0_256
/-- The whole row. -/
abbrev k13_rAll : Rect S1x512 := Rect.unit (s := S1x512) ![0, 0] S1x512.size inb_S1x512_S1x512_0_0

/-- Column `j` of the first half sits at column `j` of the row. -/
theorem k13_rLo_emb (j : Fin 256) : k13_rLo.emb (ix2 (0 : Fin 1) j) = ix2 (0 : Fin 1) (k13_lo j) := by
  funext a; apply Fin.ext
  match a with
  | ⟨0, _⟩ => rfl
  | ⟨1, _⟩ => show 0 + 1 * j.val = j.val; omega

/-- Column `j` of the second half sits `j` columns past the first half. -/
theorem k13_rHi_emb (j : Fin 256) : k13_rHi.emb (ix2 (0 : Fin 1) j) = ix2 (0 : Fin 1) (k13_hi j) := by
  funext a; apply Fin.ext
  match a with
  | ⟨0, _⟩ => rfl
  | ⟨1, _⟩ => show 256 + 1 * j.val = 256 + j.val; omega

/-- The whole row's rectangle places every index at itself. -/
theorem k13_rAll_idx (y : S1x512.Idx) : k13_rAll.toLoadRect.idx y = y := by
  funext a; apply Fin.ext
  match a with
  | ⟨0, _⟩ => show 0 + 1 * (y 0).val = (y 0).val; omega
  | ⟨1, _⟩ => show 0 + 1 * (y 1).val = (y 1).val; omega

/-- A column of the first half is not in the second half's rectangle … -/
theorem k13_lo_not_mem_hi (j : Fin 256) : (ix2 (0 : Fin 1) (k13_lo j) : S1x512.Idx) ∉ k13_rHi.set := by
  rw [Rect.mem_set_unit]
  intro h
  have h1 : 256 ≤ j.val := (h 1).1
  have := j.isLt; omega

/-- … and a column of the second half is not in the first half's. -/
theorem k13_hi_not_mem_lo (j : Fin 256) : (ix2 (0 : Fin 1) (k13_hi j) : S1x512.Idx) ∉ k13_rLo.set := by
  rw [Rect.mem_set_unit]
  intro h
  have h1 : 256 + j.val < 0 + 256 := (h 1).2
  omega

section Canon
variable {F : FTy → Type} [FloatOps F]

/-- After the two half stores (the second half's last), the row's second half reads the second store's payload … -/
theorem k13_canon_hi (wHi wLo : Vec F S1x256 .f32) (L : List (View.Piece (Elt F) S1x512 .f32)) (j : Fin 256) :
    View.canon ((⟨k13_rHi, wHi⟩ : View.Piece (Elt F) S1x512 .f32) :: ⟨k13_rLo, wLo⟩ :: L) (ix2 (0 : Fin 1) (k13_hi j)) = wHi (ix2 (0 : Fin 1) j) := by
  rw [← k13_rHi_emb j]
  exact View.canon_cons_emb k13_rHi wHi _ (ix2 (0 : Fin 1) j)

/-- … and its first half the first store's. -/
theorem k13_canon_lo (wHi wLo : Vec F S1x256 .f32) (L : List (View.Piece (Elt F) S1x512 .f32)) (j : Fin 256) :
    View.canon ((⟨k13_rHi, wHi⟩ : View.Piece (Elt F) S1x512 .f32) :: ⟨k13_rLo, wLo⟩ :: L) (ix2 (0 : Fin 1) (k13_lo j)) = wLo (ix2 (0 : Fin 1) j) := by
  refine (View.canon_cons_of_not_mem (⟨k13_rHi, wHi⟩ : View.Piece (Elt F) S1x512 .f32) (⟨k13_rLo, wLo⟩ :: L) (k13_lo_not_mem_hi j)).trans ?_
  rw [← k13_rLo_emb j]
  exact View.canon_cons_emb k13_rLo wLo L (ix2 (0 : Fin 1) j)

/-- A load of the first half reads the row's first half … -/
theorem k13_ld_lo (xs : Vec F S1x512 .f32) (j : Fin 256) : View.ld xs k13_rLo (ix2 (0 : Fin 1) j) = xs (ix2 (0 : Fin 1) (k13_lo j)) :=
  congrArg xs (k13_rLo_emb j)
/-- … and a load of the second half its second half. -/
theorem k13_ld_hi (xs : Vec F S1x512 .f32) (j : Fin 256) : View.ld xs k13_rHi (ix2 (0 : Fin 1) j) = xs (ix2 (0 : Fin 1) (k13_hi j)) :=
  congrArg xs (k13_rHi_emb j)

/-- A load of the first half after the zeroing store alone reads the zero row … -/
theorem k13_readCov_lo_zero {sg : RefSig} {κ : Kind} {sp : Space} (v : View sg κ sp S1x512 .f32) (w0 : Vec F S1x512 .f32) (j : Fin 256) :
    v.readCov [(⟨k13_rAll, w0⟩ : View.Piece (Elt F) S1x512 .f32)] k13_rLo.toLoadRect (ix2 (0 : Fin 1) j) = w0 (ix2 (0 : Fin 1) (k13_lo j)) := by
  rw [View.readCov_eq_canon', View.canon_unit_zero k13_hz]
  exact congrArg w0 (k13_rLo_emb j)

/-- … and a load of the second half after the zeroing store and the first half's store still reads the zero row. -/
theorem k13_readCov_hi_zero {sg : RefSig} {κ : Kind} {sp : Space} (v : View sg κ sp S1x512 .f32) (wLo : Vec F S1x256 .f32) (w0 : Vec F S1x512 .f32) (j : Fin 256) :
    v.readCov [(⟨k13_rLo, wLo⟩ : View.Piece (Elt F) S1x512 .f32), ⟨k13_rAll, w0⟩] k13_rHi.toLoadRect (ix2 (0 : Fin 1) j) = w0 (ix2 (0 : Fin 1) (k13_hi j)) := by
  rw [View.readCov_eq_canon']
  show View.canon _ (k13_rHi.emb (ix2 (0 : Fin 1) j)) = _
  rw [k13_rHi_emb j]
  refine (View.canon_cons_of_not_mem (⟨k13_rLo, wLo⟩ : View.Piece (Elt F) S1x512 .f32) [⟨k13_rAll, w0⟩] (k13_hi_not_mem_lo j)).trans ?_
  rw [View.canon_unit_zero k13_hz]

/-- A load of the whole row after a list of stores reads what they leave. -/
theorem k13_readCov_all {sg : RefSig} {κ : Kind} {sp : Space} (v : View sg κ sp S1x512 .f32) (L : List (View.Piece (Elt F) S1x512 .f32)) :
    v.readCov L k13_rAll.toLoadRect = View.canon L := by
  rw [View.readCov_eq_canon']
  funext y
  exact congrArg (View.canon L) (k13_rAll_idx y)

end Canon

/-! ## The index maps over the grid, and the blocks of the two output arrays -/

/-- The first operand's and the product's blocks are the point's block of rows; every other block is its whole
    array. -/
theorem k13_idx_facts : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = t.val ∧ win13_6.index t (1 : Fin 2) = 0
    ∧ win13_7.index t (0 : Fin 2) = 0 ∧ win13_7.index t (1 : Fin 2) = 0 :=
  (by decide +kernel : ∀ t : Fin grid13.N, _)

/-- A grid point as a tile number. -/
def k13_tile (t : Fin cfg13.N) : Fin 25 := ⟨t.val, by have hN : cfg13.N = 25 := N_13; have := t.isLt; omega⟩

/-- The last grid point. -/
def k13_tLast : Fin cfg13.N := ⟨24, by have hN : cfg13.N = 25 := N_13; omega⟩

/-- An index of the product array is in point `t`'s block iff each coordinate is in the block's range on its axis. -/
theorem k13_mem_blk6 (t : Fin cfg13.N) (i : S50000x256.Idx) :
    i ∈ ((cfg13.win 6).blk t).view.set ↔ ∀ a : Fin 2, win13_6.index t a * S2000x256.size a ≤ (i a).val
      ∧ (i a).val < win13_6.index t a * S2000x256.size a + S2000x256.size a := by
  show i ∈ ((View.whole (Pipeline.arrRef spec13 6)).slice (win13_6.rect t)).set ↔ _
  rw [View.set_slice_whole, Rect.mem_set_unit]
  exact Iff.rfl

/-- The point whose block holds a row: the row's number over the rows in a block. -/
theorem k13_pt_lt (i : S50000x256.Idx) : (i 0).val / 2000 < cfg13.N := by
  have hi0 : (i 0).val < 50000 := (i 0).isLt
  show (i 0).val / 2000 < grid13.N
  rw [N_13]; omega

/-- Every index of the product array is in some point's block, and every point writes its block back. -/
theorem k13_cover6 (i : S50000x256.Idx) :
    ∃ t : Fin cfg13.N, (cfg13.win 6).flush t = true ∧ i ∈ ((cfg13.win 6).blk t).view.set := by
  have hi1 : (i 1).val < 256 := (i 1).isLt
  obtain ⟨t, ht⟩ : ∃ t : Fin cfg13.N, t.val = (i 0).val / 2000 := ⟨⟨_, k13_pt_lt i⟩, rfl⟩
  obtain ⟨-, -, -, -, -, -, -, -, -, -, -, -, e60, e61, -, -⟩ := k13_idx_facts t
  refine ⟨t, flush13_6 t, ?_⟩
  rw [k13_mem_blk6]
  intro a
  match a with
  | ⟨0, _⟩ =>
    show win13_6.index t (0 : Fin 2) * 2000 ≤ (i 0).val ∧ (i 0).val < win13_6.index t (0 : Fin 2) * 2000 + 2000
    rw [e60, ht]; omega
  | ⟨1, _⟩ =>
    show win13_6.index t (1 : Fin 2) * 256 ≤ (i 1).val ∧ (i 1).val < win13_6.index t (1 : Fin 2) * 256 + 256
    rw [e61]; omega

/-- An index of the statistics row is in point `t`'s block iff each coordinate is in the block's range. -/
theorem k13_mem_blk7 (t : Fin cfg13.N) (i : S1x512.Idx) :
    i ∈ ((cfg13.win 7).blk t).view.set ↔ ∀ a : Fin 2, win13_7.index t a * S1x512.size a ≤ (i a).val
      ∧ (i a).val < win13_7.index t a * S1x512.size a + S1x512.size a := by
  show i ∈ ((View.whole (Pipeline.arrRef spec13 7)).slice (win13_7.rect t)).set ↔ _
  rw [View.set_slice_whole, Rect.mem_set_unit]
  exact Iff.rfl

/-- The last point writes the statistics row back, and its block is the whole row. -/
theorem k13_cover7 (i : S1x512.Idx) :
    ∃ t : Fin cfg13.N, (cfg13.win 7).flush t = true ∧ i ∈ ((cfg13.win 7).blk t).view.set := by
  have hi0 : (i 0).val < 1 := (i 0).isLt
  have hi1 : (i 1).val < 512 := (i 1).isLt
  obtain ⟨-, -, -, -, -, -, -, -, -, -, -, -, -, -, e70, e71⟩ := k13_idx_facts k13_tLast
  refine ⟨k13_tLast, (flush13_7 k13_tLast).mpr (by show 24 % 25 = 24; rfl), ?_⟩
  rw [k13_mem_blk7]
  intro a
  match a with
  | ⟨0, _⟩ =>
    show win13_7.index k13_tLast (0 : Fin 2) * 1 ≤ (i 0).val ∧ (i 0).val < win13_7.index k13_tLast (0 : Fin 2) * 1 + 1
    rw [e70]; omega
  | ⟨1, _⟩ =>
    show win13_7.index k13_tLast (1 : Fin 2) * 512 ≤ (i 1).val ∧ (i 1).val < win13_7.index k13_tLast (1 : Fin 2) * 512 + 512
    rw [e71]; omega

/-! ## What each case of the body leaves, read back as payloads

The body's run in each case names the pieces it stored (last store first). Read over nothing, they are
their canon; each load the payloads took is the loaded buffer's contents, or, for a load of the
accumulator after a store into it, what the stores before it left there. -/

open Cert.KernelIdeal.Hand

section Pieces
variable (c : Dev nD) (i : grid13.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .bf16) (harg6 : arg6.IsWhole) (arg7 : Memref sig .tc .vmem S2000x256 .f32) (harg7 : arg7.IsWhole) (arg8 : Memref sig .tc .vmem S1x512 .f32) (harg8 : arg8.IsWhole) (arg9 : Memref sig .tc .vmem S1x512 .f32) (harg9 : arg9.IsWhole)
  (x0 : Vec Ideal S2000x512 .f32) (x1 x2 x3 x4 : Vec Ideal S1x512 .f32) (x5 : Vec Ideal S512x256 .bf16)

/-- At the first point the product window holds the tile's product. -/
theorem k13_out_A_6 (hc0 : cond13_0 i) (hc1 : ¬cond13_1 i) :
    out13_A_6 c i arg1 harg1 arg2 harg2 arg3 harg3 arg4 harg4 arg5 harg5 arg6 harg6 arg7 harg7 arg8 harg8 arg9 harg9 hc0 hc1 x0 x1 x2 x3 x4 x5 = k13_pay4 (F := Ideal) x0 x3 x1 x2 x4 x5 := by
  unfold out13_A_6
  rw [View.read_writes_junk_eq_canon]
  unfold kernelRun13_A
  dsimp only
  sl_unfold_words
  rw [View.canon_unit_zero k13_hz]
  simp only [View.readAt_eq_ld, harg1.read_unread, harg2.read_unread, harg3.read_unread, harg4.read_unread, harg5.read_unread, harg6.read_unread,
    View.ld_unit_zero (S := S2000x512) k13_hz, View.ld_unit_zero (S := S1x512) k13_hz, View.ld_unit_zero (S := S512x256) k13_hz] <;> rfl

/-- At the first point the accumulator's first half holds the zero word plus the tile's column sums … -/
theorem k13_sout_A_lo (hc0 : cond13_0 i) (hc1 : ¬cond13_1 i) (j : Fin 256) :
    sout13_A_0 c i arg1 harg1 arg2 harg2 arg3 harg3 arg4 harg4 arg5 harg5 arg6 harg6 arg7 harg7 arg8 harg8 arg9 harg9 hc0 hc1 x0 x1 x2 x3 x4 x5 (ix2 (0 : Fin 1) (k13_lo j))
      = Spec.zero + k13_pay5 (F := Ideal) x0 x3 x1 x2 x4 x5 (ix2 (0 : Fin 1) j) := by
  unfold sout13_A_0
  rw [View.read_writes_junk_eq_canon]
  unfold kernelRun13_A
  dsimp only
  sl_unfold_words
  simp only [View.readAt_eq_ld, harg1.read_unread, harg2.read_unread, harg3.read_unread, harg4.read_unread, harg5.read_unread, harg6.read_unread,
    View.ld_unit_zero (S := S2000x512) k13_hz, View.ld_unit_zero (S := S1x512) k13_hz, View.ld_unit_zero (S := S512x256) k13_hz]
  refine (k13_canon_lo _ _ _ j).trans ?_
  refine (k13_pay1_apply _ _ _).trans ?_
  exact congrArg (· + _) ((k13_readCov_lo_zero _ _ j).trans (k13_pay3_apply _))

/-- … and its second half the zero word plus the tile's column sums of squares. -/
theorem k13_sout_A_hi (hc0 : cond13_0 i) (hc1 : ¬cond13_1 i) (j : Fin 256) :
    sout13_A_0 c i arg1 harg1 arg2 harg2 arg3 harg3 arg4 harg4 arg5 harg5 arg6 harg6 arg7 harg7 arg8 harg8 arg9 harg9 hc0 hc1 x0 x1 x2 x3 x4 x5 (ix2 (0 : Fin 1) (k13_hi j))
      = Spec.zero + k13_pay6 (F := Ideal) x0 x3 x1 x2 x4 x5 (ix2 (0 : Fin 1) j) := by
  unfold sout13_A_0
  rw [View.read_writes_junk_eq_canon]
  unfold kernelRun13_A
  dsimp only
  sl_unfold_words
  simp only [View.readAt_eq_ld, harg1.read_unread, harg2.read_unread, harg3.read_unread, harg4.read_unread, harg5.read_unread, harg6.read_unread,
    View.ld_unit_zero (S := S2000x512) k13_hz, View.ld_unit_zero (S := S1x512) k13_hz, View.ld_unit_zero (S := S512x256) k13_hz]
  refine (k13_canon_hi _ _ _ j).trans ?_
  refine (k13_pay2_apply _ _ _).trans ?_
  exact congrArg (· + _) ((k13_readCov_hi_zero _ _ _ j).trans (k13_pay3_apply _))

/-- At a point between the product window holds the tile's product. -/
theorem k13_out_B_6 (hc0 : ¬cond13_0 i) (hc1 : ¬cond13_1 i) (xs0 : Vec Ideal S1x512 .f32) :
    out13_B_6 c i arg1 harg1 arg2 harg2 arg3 harg3 arg4 harg4 arg5 harg5 arg6 harg6 arg7 harg7 arg8 harg8 arg9 harg9 hc0 hc1 x0 x1 x2 x3 x4 x5 xs0 = k13_pay4 (F := Ideal) x0 x3 x1 x2 x4 x5 := by
  unfold out13_B_6
  rw [View.read_writes_junk_eq_canon]
  unfold kernelRun13_B
  dsimp only
  sl_unfold_words
  rw [View.canon_unit_zero k13_hz]
  simp only [View.readAt_eq_ld, harg1.read_unread, harg2.read_unread, harg3.read_unread, harg4.read_unread, harg5.read_unread, harg6.read_unread,
    View.ld_unit_zero (S := S2000x512) k13_hz, View.ld_unit_zero (S := S1x512) k13_hz, View.ld_unit_zero (S := S512x256) k13_hz] <;> rfl

/-- At a point between the accumulator's first half holds what it held plus the tile's column sums … -/
theorem k13_sout_B_lo (hc0 : ¬cond13_0 i) (hc1 : ¬cond13_1 i) (xs0 : Vec Ideal S1x512 .f32) (j : Fin 256) :
    sout13_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k13_lo j))
      = xs0 (ix2 (0 : Fin 1) (k13_lo j)) + k13_pay5 (F := Ideal) x0 x3 x1 x2 x4 x5 (ix2 (0 : Fin 1) j) := by
  unfold sout13_B_0
  rw [View.read_writes_junk_eq_canon]
  unfold kernelRun13_B
  dsimp only
  sl_unfold_words
  simp only [View.readAt_eq_ld, harg1.read_unread, harg2.read_unread, harg3.read_unread, harg4.read_unread, harg5.read_unread, harg6.read_unread, harg9.read_unread,
    View.ld_unit_zero (S := S2000x512) k13_hz, View.ld_unit_zero (S := S1x512) k13_hz, View.ld_unit_zero (S := S512x256) k13_hz]
  refine (k13_canon_lo _ _ _ j).trans ?_
  refine (k13_pay1_apply _ _ _).trans ?_
  exact congrArg (· + _) (k13_ld_lo xs0 j)

/-- … and its second half what it held plus the tile's column sums of squares. -/
theorem k13_sout_B_hi (hc0 : ¬cond13_0 i) (hc1 : ¬cond13_1 i) (xs0 : Vec Ideal S1x512 .f32) (j : Fin 256) :
    sout13_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k13_hi j))
      = xs0 (ix2 (0 : Fin 1) (k13_hi j)) + k13_pay6 (F := Ideal) x0 x3 x1 x2 x4 x5 (ix2 (0 : Fin 1) j) := by
  unfold sout13_B_0
  rw [View.read_writes_junk_eq_canon]
  unfold kernelRun13_B
  dsimp only
  sl_unfold_words
  simp only [View.readAt_eq_ld, harg1.read_unread, harg2.read_unread, harg3.read_unread, harg4.read_unread, harg5.read_unread, harg6.read_unread, harg9.read_unread,
    View.ld_unit_zero (S := S2000x512) k13_hz, View.ld_unit_zero (S := S1x512) k13_hz, View.ld_unit_zero (S := S512x256) k13_hz]
  refine (k13_canon_hi _ _ _ j).trans ?_
  refine (k13_pay2_apply _ _ _).trans ?_
  exact congrArg (· + _) (k13_ld_hi xs0 j)

/-- At the last point the product window holds the tile's product. -/
theorem k13_out_C_6 (hc0 : ¬cond13_0 i) (hc1 : cond13_1 i) (xs0 : Vec Ideal S1x512 .f32) :
    out13_C_6 c i arg1 harg1 arg2 harg2 arg3 harg3 arg4 harg4 arg5 harg5 arg6 harg6 arg7 harg7 arg8 harg8 arg9 harg9 hc0 hc1 x0 x1 x2 x3 x4 x5 xs0 = k13_pay4 (F := Ideal) x0 x3 x1 x2 x4 x5 := by
  unfold out13_C_6
  rw [View.read_writes_junk_eq_canon]
  unfold kernelRun13_C
  dsimp only
  sl_unfold_words
  rw [View.canon_unit_zero k13_hz]
  simp only [View.readAt_eq_ld, harg1.read_unread, harg2.read_unread, harg3.read_unread, harg4.read_unread, harg5.read_unread, harg6.read_unread,
    View.ld_unit_zero (S := S2000x512) k13_hz, View.ld_unit_zero (S := S1x512) k13_hz, View.ld_unit_zero (S := S512x256) k13_hz] <;> rfl

/-- At the last point the accumulator's first half holds what it held plus the tile's column sums … -/
theorem k13_sout_C_lo (hc0 : ¬cond13_0 i) (hc1 : cond13_1 i) (xs0 : Vec Ideal S1x512 .f32) (j : Fin 256) :
    sout13_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k13_lo j))
      = xs0 (ix2 (0 : Fin 1) (k13_lo j)) + k13_pay5 (F := Ideal) x0 x3 x1 x2 x4 x5 (ix2 (0 : Fin 1) j) := by
  unfold sout13_C_0
  rw [View.read_writes_junk_eq_canon]
  unfold kernelRun13_C
  dsimp only
  sl_unfold_words
  simp only [View.readAt_eq_ld, harg1.read_unread, harg2.read_unread, harg3.read_unread, harg4.read_unread, harg5.read_unread, harg6.read_unread, harg9.read_unread,
    View.ld_unit_zero (S := S2000x512) k13_hz, View.ld_unit_zero (S := S1x512) k13_hz, View.ld_unit_zero (S := S512x256) k13_hz]
  refine (k13_canon_lo _ _ _ j).trans ?_
  refine (k13_pay1_apply _ _ _).trans ?_
  exact congrArg (· + _) (k13_ld_lo xs0 j)

/-- … and its second half what it held plus the tile's column sums of squares. -/
theorem k13_sout_C_hi (hc0 : ¬cond13_0 i) (hc1 : cond13_1 i) (xs0 : Vec Ideal S1x512 .f32) (j : Fin 256) :
    sout13_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k13_hi j))
      = xs0 (ix2 (0 : Fin 1) (k13_hi j)) + k13_pay6 (F := Ideal) x0 x3 x1 x2 x4 x5 (ix2 (0 : Fin 1) j) := by
  unfold sout13_C_0
  rw [View.read_writes_junk_eq_canon]
  unfold kernelRun13_C
  dsimp only
  sl_unfold_words
  simp only [View.readAt_eq_ld, harg1.read_unread, harg2.read_unread, harg3.read_unread, harg4.read_unread, harg5.read_unread, harg6.read_unread, harg9.read_unread,
    View.ld_unit_zero (S := S2000x512) k13_hz, View.ld_unit_zero (S := S1x512) k13_hz, View.ld_unit_zero (S := S512x256) k13_hz]
  refine (k13_canon_hi _ _ _ j).trans ?_
  refine (k13_pay2_apply _ _ _).trans ?_
  exact congrArg (· + _) (k13_ld_hi xs0 j)

/-- At the last point the statistics window receives the accumulator as the two half stores left it. -/
theorem k13_out_C_7 (hc0 : ¬cond13_0 i) (hc1 : cond13_1 i) (xs0 : Vec Ideal S1x512 .f32) :
    out13_C_7 c i arg1 harg1 arg2 harg2 arg3 harg3 arg4 harg4 arg5 harg5 arg6 harg6 arg7 harg7 arg8 harg8 arg9 harg9 hc0 hc1 x0 x1 x2 x3 x4 x5 xs0 = sout13_C_0 c i arg1 harg1 arg2 harg2 arg3 harg3 arg4 harg4 arg5 harg5 arg6 harg6 arg7 harg7 arg8 harg8 arg9 harg9 hc0 hc1 x0 x1 x2 x3 x4 x5 xs0 := by
  unfold out13_C_7 sout13_C_0
  rw [View.read_writes_junk_eq_canon, View.read_writes_junk_eq_canon]
  unfold kernelRun13_C
  dsimp only
  sl_unfold_words
  rw [View.canon_unit_zero k13_hz]
  exact k13_readCov_all _ _

end Pieces

/-! ## The region at the contents it is entered with -/

section Region
variable (V : (c : Dev nD) → (b : Ref sig .tc) → Buf (Elt Ideal) ((c : Thread nD τ).loc b))

/-- The arrays the region is entered with, as matrices: the rows to normalise; the mean, variance, gain and bias
    rows; the weights. -/
abbrev X13_0 (c : Dev nD) : Spec.Mx 50000 512 := V c (Pipeline.arrRef spec13 0)
abbrev X13_1 (c : Dev nD) : Spec.Mx 1 512 := V c (Pipeline.arrRef spec13 1)
abbrev X13_2 (c : Dev nD) : Spec.Mx 1 512 := V c (Pipeline.arrRef spec13 2)
abbrev X13_3 (c : Dev nD) : Spec.Mx 1 512 := V c (Pipeline.arrRef spec13 3)
abbrev X13_4 (c : Dev nD) : Spec.Mx 1 512 := V c (Pipeline.arrRef spec13 4)
abbrev X13_5 (c : Dev nD) : Spec.Mx 512 256 := V c (Pipeline.arrRef spec13 5)

/-- The region's product: the rows normalised with the mean row, the variance row, the gain row and the bias row,
    rectified, times the weights. -/
abbrev Z13 (c : Dev nD) : Spec.Mx 50000 256 :=
  Spec.mm (Spec.bnRelu (X13_0 V c) (fun l => X13_1 V c (ix2 0 l)) (fun l => X13_2 V c (ix2 0 l)) (fun l => X13_3 V c (ix2 0 l)) (fun l => X13_4 V c (ix2 0 l))) (X13_5 V c)

/-! ### The blocks the body loads are blocks of those arrays -/

/-- Point `t`'s block of the first operand is rows `2000 t …` of its array. -/
theorem k13_blk0 (c : Dev nD) (t : Fin cfg13.N) (r : Fin 2000) (l : Fin 512) :
    (iblk13 V c 0 t : Vec Ideal S2000x512 .f32) (ix2 r l) = X13_0 V c (ix2 (k13_rowOf (k13_tile t) r) l) := by
  obtain ⟨e0, e1, -⟩ := k13_idx_facts t
  show V c (Pipeline.arrRef spec13 0) (((cfg13.win 0).blk t).view.emb (ix2 r l)) = V c (Pipeline.arrRef spec13 0) (ix2 (k13_rowOf (k13_tile t) r) l)
  refine congrArg _ (funext fun a => Fin.ext ?_)
  match a with
  | ⟨0, _⟩ => show win13_0.index t (0 : Fin 2) * 2000 + 1 * r.val = 2000 * t.val + r.val; rw [e0]; omega
  | ⟨1, _⟩ => show win13_0.index t (1 : Fin 2) * 512 + 1 * l.val = l.val; rw [e1]; omega

/-- Every point's block of row operand 1 is the whole row. -/
theorem k13_blk1 (c : Dev nD) (t : Fin cfg13.N) (l : Fin 512) :
    (iblk13 V c 1 t : Vec Ideal S1x512 .f32) (ix2 (0 : Fin 1) l) = X13_1 V c (ix2 (0 : Fin 1) l) := by
  obtain ⟨-, -, e0, e1, -⟩ := k13_idx_facts t
  show V c (Pipeline.arrRef spec13 1) (((cfg13.win 1).blk t).view.emb (ix2 (0 : Fin 1) l)) = V c (Pipeline.arrRef spec13 1) (ix2 (0 : Fin 1) l)
  refine congrArg _ (funext fun a => Fin.ext ?_)
  match a with
  | ⟨0, _⟩ => show win13_1.index t (0 : Fin 2) * 1 + 1 * 0 = 0; rw [e0]
  | ⟨1, _⟩ => show win13_1.index t (1 : Fin 2) * 512 + 1 * l.val = l.val; rw [e1]; omega

/-- Every point's block of row operand 2 is the whole row. -/
theorem k13_blk2 (c : Dev nD) (t : Fin cfg13.N) (l : Fin 512) :
    (iblk13 V c 2 t : Vec Ideal S1x512 .f32) (ix2 (0 : Fin 1) l) = X13_2 V c (ix2 (0 : Fin 1) l) := by
  obtain ⟨-, -, -, -, e0, e1, -⟩ := k13_idx_facts t
  show V c (Pipeline.arrRef spec13 2) (((cfg13.win 2).blk t).view.emb (ix2 (0 : Fin 1) l)) = V c (Pipeline.arrRef spec13 2) (ix2 (0 : Fin 1) l)
  refine congrArg _ (funext fun a => Fin.ext ?_)
  match a with
  | ⟨0, _⟩ => show win13_2.index t (0 : Fin 2) * 1 + 1 * 0 = 0; rw [e0]
  | ⟨1, _⟩ => show win13_2.index t (1 : Fin 2) * 512 + 1 * l.val = l.val; rw [e1]; omega

/-- Every point's block of row operand 3 is the whole row. -/
theorem k13_blk3 (c : Dev nD) (t : Fin cfg13.N) (l : Fin 512) :
    (iblk13 V c 3 t : Vec Ideal S1x512 .f32) (ix2 (0 : Fin 1) l) = X13_3 V c (ix2 (0 : Fin 1) l) := by
  obtain ⟨-, -, -, -, -, -, e0, e1, -⟩ := k13_idx_facts t
  show V c (Pipeline.arrRef spec13 3) (((cfg13.win 3).blk t).view.emb (ix2 (0 : Fin 1) l)) = V c (Pipeline.arrRef spec13 3) (ix2 (0 : Fin 1) l)
  refine congrArg _ (funext fun a => Fin.ext ?_)
  match a with
  | ⟨0, _⟩ => show win13_3.index t (0 : Fin 2) * 1 + 1 * 0 = 0; rw [e0]
  | ⟨1, _⟩ => show win13_3.index t (1 : Fin 2) * 512 + 1 * l.val = l.val; rw [e1]; omega

/-- Every point's block of row operand 4 is the whole row. -/
theorem k13_blk4 (c : Dev nD) (t : Fin cfg13.N) (l : Fin 512) :
    (iblk13 V c 4 t : Vec Ideal S1x512 .f32) (ix2 (0 : Fin 1) l) = X13_4 V c (ix2 (0 : Fin 1) l) := by
  obtain ⟨-, -, -, -, -, -, -, -, e0, e1, -⟩ := k13_idx_facts t
  show V c (Pipeline.arrRef spec13 4) (((cfg13.win 4).blk t).view.emb (ix2 (0 : Fin 1) l)) = V c (Pipeline.arrRef spec13 4) (ix2 (0 : Fin 1) l)
  refine congrArg _ (funext fun a => Fin.ext ?_)
  match a with
  | ⟨0, _⟩ => show win13_4.index t (0 : Fin 2) * 1 + 1 * 0 = 0; rw [e0]
  | ⟨1, _⟩ => show win13_4.index t (1 : Fin 2) * 512 + 1 * l.val = l.val; rw [e1]; omega

/-- Every point's block of the weights is the whole array. -/
theorem k13_blk5 (c : Dev nD) (t : Fin cfg13.N) (l : Fin 512) (j : Fin 256) :
    (iblk13 V c 5 t : Vec Ideal S512x256 .bf16) (ix2 l j) = X13_5 V c (ix2 l j) := by
  obtain ⟨-, -, -, -, -, -, -, -, -, -, e0, e1, -⟩ := k13_idx_facts t
  show V c (Pipeline.arrRef spec13 5) (((cfg13.win 5).blk t).view.emb (ix2 l j)) = V c (Pipeline.arrRef spec13 5) (ix2 l j)
  refine congrArg _ (funext fun a => Fin.ext ?_)
  match a with
  | ⟨0, _⟩ => show win13_5.index t (0 : Fin 2) * 512 + 1 * l.val = l.val; rw [e0]; omega
  | ⟨1, _⟩ => show win13_5.index t (1 : Fin 2) * 256 + 1 * j.val = j.val; rw [e1]; omega

/-- Point `t`'s rows of column sums and of column sums of squares, of the blocks it loads. -/
abbrev k13_row5v (c : Dev nD) (t : Fin cfg13.N) : FVec Ideal S1x256 .f32 := k13_pay5 (F := Ideal) (iblk13 V c 0 t) (iblk13 V c 3 t) (iblk13 V c 1 t) (iblk13 V c 2 t) (iblk13 V c 4 t) (iblk13 V c 5 t)
abbrev k13_row6v (c : Dev nD) (t : Fin cfg13.N) : FVec Ideal S1x256 .f32 := k13_pay6 (F := Ideal) (iblk13 V c 0 t) (iblk13 V c 3 t) (iblk13 V c 1 t) (iblk13 V c 2 t) (iblk13 V c 4 t) (iblk13 V c 5 t)

/-- They are tile `t`'s sums of the product's columns … -/
theorem k13_row5 (c : Dev nD) (t : Fin cfg13.N) (j : Fin 256) :
    k13_row5v V c t (ix2 (0 : Fin 1) j) = k13_tileSum (fun i => Z13 V c (ix2 i j)) t.val :=
  k13_point5 (iblk13 V c 0 t) (iblk13 V c 1 t) (iblk13 V c 2 t) (iblk13 V c 3 t) (iblk13 V c 4 t) (iblk13 V c 5 t) (X13_0 V c) (X13_1 V c) (X13_2 V c) (X13_3 V c) (X13_4 V c) (X13_5 V c) t.val (k13_tile t).isLt j
    (fun r l => k13_blk0 V c t r l) (fun l => k13_blk1 V c t l) (fun l => k13_blk2 V c t l) (fun l => k13_blk3 V c t l) (fun l => k13_blk4 V c t l)
    (fun l j => k13_blk5 V c t l j)

/-- … and of their squares. -/
theorem k13_row6 (c : Dev nD) (t : Fin cfg13.N) (j : Fin 256) :
    k13_row6v V c t (ix2 (0 : Fin 1) j) = k13_tileSum (fun i => Z13 V c (ix2 i j) * Z13 V c (ix2 i j)) t.val :=
  k13_point6 (iblk13 V c 0 t) (iblk13 V c 1 t) (iblk13 V c 2 t) (iblk13 V c 3 t) (iblk13 V c 4 t) (iblk13 V c 5 t) (X13_0 V c) (X13_1 V c) (X13_2 V c) (X13_3 V c) (X13_4 V c) (X13_5 V c) t.val (k13_tile t).isLt j
    (fun r l => k13_blk0 V c t r l) (fun l => k13_blk1 V c t l) (fun l => k13_blk2 V c t l) (fun l => k13_blk3 V c t l) (fun l => k13_blk4 V c t l)
    (fun l j => k13_blk5 V c t l j)

/-! ### The three cases at a point of the grid -/

theorem k13_pt_A_6 (c : Dev nD) (t : Fin cfg13.N) (h0 : t.val = 0) :
    (outsPt13_A V c t h0).1 = k13_pay4 (F := Ideal) (iblk13 V c 0 t) (iblk13 V c 3 t) (iblk13 V c 1 t) (iblk13 V c 2 t) (iblk13 V c 4 t) (iblk13 V c 5 t) := by
  unfold outsPt13_A; dsimp only
  exact k13_out_A_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (iblk13 V c 0 t) (iblk13 V c 1 t) (iblk13 V c 2 t) (iblk13 V c 3 t) (iblk13 V c 4 t) (iblk13 V c 5 t) ((hcond13_0 t).mpr h0) (notLast13_of_first t h0)

theorem k13_pt_B_6 (c : Dev nD) (t : Fin cfg13.N) (h0 : ¬t.val = 0) (h1 : ¬t.val = 24) (xs0 : Vec Ideal S1x512 .f32) :
    (outsPt13_B V c t h0 h1 xs0).1 = k13_pay4 (F := Ideal) (iblk13 V c 0 t) (iblk13 V c 3 t) (iblk13 V c 1 t) (iblk13 V c 2 t) (iblk13 V c 4 t) (iblk13 V c 5 t) := by
  unfold outsPt13_B; dsimp only
  exact k13_out_B_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (iblk13 V c 0 t) (iblk13 V c 1 t) (iblk13 V c 2 t) (iblk13 V c 3 t) (iblk13 V c 4 t) (iblk13 V c 5 t) (fun h => h0 ((hcond13_0 t).mp h)) (fun h => h1 ((hcond13_1 t).mp h)) xs0

theorem k13_pt_C_6 (c : Dev nD) (t : Fin cfg13.N) (h0 : ¬t.val = 0) (h1 : t.val = 24) (xs0 : Vec Ideal S1x512 .f32) :
    (outsPt13_C V c t h0 h1 xs0).1 = k13_pay4 (F := Ideal) (iblk13 V c 0 t) (iblk13 V c 3 t) (iblk13 V c 1 t) (iblk13 V c 2 t) (iblk13 V c 4 t) (iblk13 V c 5 t) := by
  unfold outsPt13_C; dsimp only
  exact k13_out_C_6 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (iblk13 V c 0 t) (iblk13 V c 1 t) (iblk13 V c 2 t) (iblk13 V c 3 t) (iblk13 V c 4 t) (iblk13 V c 5 t) (fun h => h0 ((hcond13_0 t).mp h)) ((hcond13_1 t).mpr h1) xs0

theorem k13_pt_A_lo (c : Dev nD) (t : Fin cfg13.N) (h0 : t.val = 0) (j : Fin 256) :
    (outsPt13_A V c t h0).2.2 (ix2 (0 : Fin 1) (k13_lo j)) = Spec.zero + k13_row5v V c t (ix2 (0 : Fin 1) j) := by
  unfold outsPt13_A; dsimp only
  exact k13_sout_A_lo c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (iblk13 V c 0 t) (iblk13 V c 1 t) (iblk13 V c 2 t) (iblk13 V c 3 t) (iblk13 V c 4 t) (iblk13 V c 5 t) ((hcond13_0 t).mpr h0) (notLast13_of_first t h0) j

theorem k13_pt_A_hi (c : Dev nD) (t : Fin cfg13.N) (h0 : t.val = 0) (j : Fin 256) :
    (outsPt13_A V c t h0).2.2 (ix2 (0 : Fin 1) (k13_hi j)) = Spec.zero + k13_row6v V c t (ix2 (0 : Fin 1) j) := by
  unfold outsPt13_A; dsimp only
  exact k13_sout_A_hi c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (iblk13 V c 0 t) (iblk13 V c 1 t) (iblk13 V c 2 t) (iblk13 V c 3 t) (iblk13 V c 4 t) (iblk13 V c 5 t) ((hcond13_0 t).mpr h0) (notLast13_of_first t h0) j

theorem k13_pt_B_lo (c : Dev nD) (t : Fin cfg13.N) (h0 : ¬t.val = 0) (h1 : ¬t.val = 24) (xs0 : Vec Ideal S1x512 .f32) (j : Fin 256) :
    (outsPt13_B V c t h0 h1 xs0).2.2 (ix2 (0 : Fin 1) (k13_lo j)) = xs0 (ix2 (0 : Fin 1) (k13_lo j)) + k13_row5v V c t (ix2 (0 : Fin 1) j) := by
  unfold outsPt13_B; dsimp only
  exact k13_sout_B_lo c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (iblk13 V c 0 t) (iblk13 V c 1 t) (iblk13 V c 2 t) (iblk13 V c 3 t) (iblk13 V c 4 t) (iblk13 V c 5 t) (fun h => h0 ((hcond13_0 t).mp h)) (fun h => h1 ((hcond13_1 t).mp h)) xs0 j

theorem k13_pt_B_hi (c : Dev nD) (t : Fin cfg13.N) (h0 : ¬t.val = 0) (h1 : ¬t.val = 24) (xs0 : Vec Ideal S1x512 .f32) (j : Fin 256) :
    (outsPt13_B V c t h0 h1 xs0).2.2 (ix2 (0 : Fin 1) (k13_hi j)) = xs0 (ix2 (0 : Fin 1) (k13_hi j)) + k13_row6v V c t (ix2 (0 : Fin 1) j) := by
  unfold outsPt13_B; dsimp only
  exact k13_sout_B_hi c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (iblk13 V c 0 t) (iblk13 V c 1 t) (iblk13 V c 2 t) (iblk13 V c 3 t) (iblk13 V c 4 t) (iblk13 V c 5 t) (fun h => h0 ((hcond13_0 t).mp h)) (fun h => h1 ((hcond13_1 t).mp h)) xs0 j

theorem k13_pt_C_lo (c : Dev nD) (t : Fin cfg13.N) (h0 : ¬t.val = 0) (h1 : t.val = 24) (xs0 : Vec Ideal S1x512 .f32) (j : Fin 256) :
    (outsPt13_C V c t h0 h1 xs0).2.2 (ix2 (0 : Fin 1) (k13_lo j)) = xs0 (ix2 (0 : Fin 1) (k13_lo j)) + k13_row5v V c t (ix2 (0 : Fin 1) j) := by
  unfold outsPt13_C; dsimp only
  exact k13_sout_C_lo c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (iblk13 V c 0 t) (iblk13 V c 1 t) (iblk13 V c 2 t) (iblk13 V c 3 t) (iblk13 V c 4 t) (iblk13 V c 5 t) (fun h => h0 ((hcond13_0 t).mp h)) ((hcond13_1 t).mpr h1) xs0 j

theorem k13_pt_C_hi (c : Dev nD) (t : Fin cfg13.N) (h0 : ¬t.val = 0) (h1 : t.val = 24) (xs0 : Vec Ideal S1x512 .f32) (j : Fin 256) :
    (outsPt13_C V c t h0 h1 xs0).2.2 (ix2 (0 : Fin 1) (k13_hi j)) = xs0 (ix2 (0 : Fin 1) (k13_hi j)) + k13_row6v V c t (ix2 (0 : Fin 1) j) := by
  unfold outsPt13_C; dsimp only
  exact k13_sout_C_hi c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (iblk13 V c 0 t) (iblk13 V c 1 t) (iblk13 V c 2 t) (iblk13 V c 3 t) (iblk13 V c 4 t) (iblk13 V c 5 t) (fun h => h0 ((hcond13_0 t).mp h)) ((hcond13_1 t).mpr h1) xs0 j

/-- At the last point the statistics window holds the accumulator. -/
theorem k13_pt_C_7 (c : Dev nD) (t : Fin cfg13.N) (h0 : ¬t.val = 0) (h1 : t.val = 24) (xs0 : Vec Ideal S1x512 .f32) :
    (outsPt13_C V c t h0 h1 xs0).2.1 = (outsPt13_C V c t h0 h1 xs0).2.2 := by
  unfold outsPt13_C; dsimp only
  exact k13_out_C_7 c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) scM13_0 (Memref.isWhole_whole _) (iblk13 V c 0 t) (iblk13 V c 1 t) (iblk13 V c 2 t) (iblk13 V c 3 t) (iblk13 V c 4 t) (iblk13 V c 5 t) (fun h => h0 ((hcond13_0 t).mp h)) ((hcond13_1 t).mpr h1) xs0

/-! ### The product array -/

/-- At every point the product window holds the tile's product of the blocks loaded there. -/
theorem k13_outs6 (c : Dev nD) (t : Fin cfg13.N) :
    (outsAt13 V c t.val t.isLt).1 = k13_pay4 (F := Ideal) (iblk13 V c 0 t) (iblk13 V c 3 t) (iblk13 V c 1 t) (iblk13 V c 2 t) (iblk13 V c 4 t) (iblk13 V c 5 t) := by
  by_cases h0 : t.val = 0
  · rw [outsAt13_A V c t h0]; exact k13_pt_A_6 V c t h0
  · by_cases h1 : t.val = 24
    · rw [outsAt13_C V c t h0 h1]; exact k13_pt_C_6 V c t h0 h1 _
    · rw [outsAt13_B V c t h0 h1]; exact k13_pt_B_6 V c t h0 h1 _

/-- What point `t` writes back of the product is block `t` of the whole product. -/
theorem k13_flushed6 (c : Dev nD) (t : Fin cfg13.N) :
    (dat13 V c).flushed 6 t = ((cfg13.win 6).blk t).view.read (Elt Ideal) (Z13 V c) := by
  show (cfg13.win 6).cut (grid13.coords t) ((dat13 V c).after 6 t) = _
  rw [after13_6, k13_outs6]
  obtain ⟨-, -, -, -, -, -, -, -, -, -, -, -, e0, e1, -⟩ := k13_idx_facts t
  funext y
  obtain ⟨r, j, rfl⟩ : ∃ (r : Fin 2000) (j : Fin 256), y = ix2 r j := ⟨y 0, y 1, eq_ix2 (n0 := 2000) (n1 := 256) y⟩
  show k13_pay4 (F := Ideal) (iblk13 V c 0 t) (iblk13 V c 3 t) (iblk13 V c 1 t) (iblk13 V c 2 t) (iblk13 V c 4 t) (iblk13 V c 5 t) (ix2 r j) = Z13 V c (((cfg13.win 6).blk t).view.emb (ix2 r j))
  have hi : ((cfg13.win 6).blk t).view.emb (ix2 r j) = (ix2 (k13_rowOf (k13_tile t) r) j : S50000x256.Idx) := by
    funext a; apply Fin.ext
    match a with
    | ⟨0, _⟩ => show win13_6.index t (0 : Fin 2) * 2000 + 1 * r.val = 2000 * t.val + r.val; rw [e0]; omega
    | ⟨1, _⟩ => show win13_6.index t (1 : Fin 2) * 256 + 1 * j.val = j.val; rw [e1]; omega
  refine (k13_point4 (iblk13 V c 0 t) (iblk13 V c 1 t) (iblk13 V c 2 t) (iblk13 V c 3 t) (iblk13 V c 4 t) (iblk13 V c 5 t) (X13_0 V c) (X13_1 V c) (X13_2 V c) (X13_3 V c) (X13_4 V c) (X13_5 V c) r j (k13_rowOf (k13_tile t) r)
    (fun l => k13_blk0 V c t r l) (fun l => k13_blk1 V c t l) (fun l => k13_blk2 V c t l) (fun l => k13_blk3 V c t l) (fun l => k13_blk4 V c t l)
    (fun l => k13_blk5 V c t l j)).trans ?_
  exact congrArg (Z13 V c) hi.symm

/-- THE PRODUCT ARRAY after the last point: the specification's product of the normalised, rectified rows with the
    weights, over the arrays the region was entered with. -/
theorem z_eq13 (c : Dev nD) : (dat13 V c).arrAt 6 cfg13.N = Z13 V c :=
  (dat13 V c).arrAt_eq_of_cover 6 (Z13 V c) (fun t _ => k13_flushed6 V c t) k13_cover6

/-! ### The statistics row -/

/-- After point `n` the accumulator holds the first `n + 1` tiles' sums of the product's columns and of their
    squares: by induction on the point. -/
theorem k13_acc (c : Dev nD) : ∀ (n : ℕ) (hn : n < cfg13.N), k13_AccIs (Z13 V c) (n + 1) (outsAt13 V c n hn).2.2
  | 0, hn => by
    rw [outsAt13_A V c ⟨0, hn⟩ rfl]
    exact k13_AccIs_first (Z13 V c) (outsPt13_A V c ⟨0, hn⟩ rfl).2.2 (k13_row5v V c ⟨0, hn⟩) (k13_row6v V c ⟨0, hn⟩)
      (fun j => k13_pt_A_lo V c ⟨0, hn⟩ rfl j) (fun j => k13_pt_A_hi V c ⟨0, hn⟩ rfl j)
      (fun j => k13_row5 V c ⟨0, hn⟩ j) (fun j => k13_row6 V c ⟨0, hn⟩ j)
  | n + 1, hn => by
    have ih := k13_acc c n (Nat.lt_of_succ_lt hn)
    by_cases h1 : n + 1 = 24
    · rw [outsAt13_C V c ⟨n + 1, hn⟩ (Nat.succ_ne_zero n) h1]
      show k13_AccIs (Z13 V c) (n + 1 + 1) (outsPt13_C V c ⟨n + 1, hn⟩ (Nat.succ_ne_zero n) h1 (outsAt13 V c n (Nat.lt_of_succ_lt hn)).2.2).2.2
      exact k13_AccIs_next (Z13 V c) (n + 1) (outsAt13 V c n (Nat.lt_of_succ_lt hn)).2.2
        (outsPt13_C V c ⟨n + 1, hn⟩ (Nat.succ_ne_zero n) h1 (outsAt13 V c n (Nat.lt_of_succ_lt hn)).2.2).2.2
        (k13_row5v V c ⟨n + 1, hn⟩) (k13_row6v V c ⟨n + 1, hn⟩) ih
        (fun j => k13_pt_C_lo V c ⟨n + 1, hn⟩ (Nat.succ_ne_zero n) h1 _ j) (fun j => k13_pt_C_hi V c ⟨n + 1, hn⟩ (Nat.succ_ne_zero n) h1 _ j)
        (fun j => k13_row5 V c ⟨n + 1, hn⟩ j) (fun j => k13_row6 V c ⟨n + 1, hn⟩ j)
    · rw [outsAt13_B V c ⟨n + 1, hn⟩ (Nat.succ_ne_zero n) h1]
      show k13_AccIs (Z13 V c) (n + 1 + 1) (outsPt13_B V c ⟨n + 1, hn⟩ (Nat.succ_ne_zero n) h1 (outsAt13 V c n (Nat.lt_of_succ_lt hn)).2.2).2.2
      exact k13_AccIs_next (Z13 V c) (n + 1) (outsAt13 V c n (Nat.lt_of_succ_lt hn)).2.2
        (outsPt13_B V c ⟨n + 1, hn⟩ (Nat.succ_ne_zero n) h1 (outsAt13 V c n (Nat.lt_of_succ_lt hn)).2.2).2.2
        (k13_row5v V c ⟨n + 1, hn⟩) (k13_row6v V c ⟨n + 1, hn⟩) ih
        (fun j => k13_pt_B_lo V c ⟨n + 1, hn⟩ (Nat.succ_ne_zero n) h1 _ j) (fun j => k13_pt_B_hi V c ⟨n + 1, hn⟩ (Nat.succ_ne_zero n) h1 _ j)
        (fun j => k13_row5 V c ⟨n + 1, hn⟩ j) (fun j => k13_row6 V c ⟨n + 1, hn⟩ j)

/-- The accumulator after the last point. -/
abbrev k13_accLast (c : Dev nD) : Spec.Mx 1 512 := (outsAt13 V c k13_tLast.val k13_tLast.isLt).2.2

/-- The last point's block of the statistics row, read through zero offsets, is the row. -/
theorem k13_cut7 (W : Vec Ideal S1x512 .f32) :
    (cfg13.win 7).cut (grid13.coords k13_tLast) W = ((cfg13.win 7).blk k13_tLast).view.read (Elt Ideal) (W : Spec.Mx 1 512) := by
  obtain ⟨-, -, -, -, -, -, -, -, -, -, -, -, -, -, e0, e1⟩ := k13_idx_facts k13_tLast
  funext y
  show W y = W (((cfg13.win 7).blk k13_tLast).view.emb y)
  refine congrArg W (funext fun a => Fin.ext ?_)
  match a with
  | ⟨0, _⟩ => show (y 0).val = win13_7.index k13_tLast (0 : Fin 2) * 1 + 1 * (y 0).val; rw [e0]; omega
  | ⟨1, _⟩ => show (y 1).val = win13_7.index k13_tLast (1 : Fin 2) * 512 + 1 * (y 1).val; rw [e1]; omega

/-- The one write-back of the statistics row, at the last point, writes the accumulator: its block is the whole row. -/
theorem k13_flushed7 (c : Dev nD) (t : Fin cfg13.N) (hf : (cfg13.win 7).flush t = true) :
    (dat13 V c).flushed 7 t = ((cfg13.win 7).blk t).view.read (Elt Ideal) (k13_accLast V c) := by
  have hN : cfg13.N = 25 := N_13
  have h24 : t.val = 24 := by have := (flush13_7 t).mp hf; have := t.isLt; omega
  obtain rfl : t = k13_tLast := Fin.ext h24
  have h0 : ¬k13_tLast.val = 0 := by show ¬(24 : ℕ) = 0; decide
  show (cfg13.win 7).cut (grid13.coords k13_tLast) ((dat13 V c).after 7 k13_tLast) = _
  rw [after13_7]
  unfold k13_accLast
  rw [outsAt13_C V c k13_tLast h0 rfl, k13_pt_C_7 V c k13_tLast h0 rfl]
  exact k13_cut7 _

/-- So the statistics row ends holding the accumulator after the last point. -/
theorem k13_stats_arr (c : Dev nD) : (dat13 V c).arrAt 7 cfg13.N = k13_accLast V c :=
  (dat13 V c).arrAt_eq_of_cover 7 (k13_accLast V c) (fun t hf => k13_flushed7 V c t hf) k13_cover7

/-- THE STATISTICS ROW after the last point: its first half the product's column sums, its second half its
    column sums of squares, over all 50000 rows. -/
theorem stats_eq13 (c : Dev nD) (j : Fin 256) :
    ((dat13 V c).arrAt 7 cfg13.N : Spec.Mx 1 512) (ix2 (0 : Fin 1) (k13_lo j)) = Spec.colSum (Z13 V c) j
    ∧ ((dat13 V c).arrAt 7 cfg13.N : Spec.Mx 1 512) (ix2 (0 : Fin 1) (k13_hi j)) = Spec.colSumSq (Z13 V c) j := by
  rw [k13_stats_arr]
  exact k13_AccIs_last (Z13 V c) (k13_accLast V c) (k13_acc V c 24 k13_tLast.isLt) j

end Region

end Cert.KernelIdeal.HandValue

end
-- ==== Proof.KI.Val14.lean ====
import proofs.«427833_j20194936226511_1_alg».proof.Proof.Spec
import proofs.«427833_j20194936226511_1_alg».proof.Proof.KI.Reg14
import Idealize.ShloMosaic.Lib.Pipeline.Value
import Idealize.ShloMosaic.Lib.ValueIdx

/-!
# The value of the normalise-and-rectify region

The region reads a matrix block by block of rows, together with four one-row matrices (the columns' means,
variances, gains and biases), and writes, block by block, the matrix normalised column by column, scaled,
shifted and cut off at zero.  Here that is read off the region's proof data at the extended reals: the body's
one payload at an index, what each grid point leaves for the write-back as a block of ONE function of the
arrays the region was entered with, the cover of the output array by the points' blocks, and so the output
array after the last point.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- A row broadcast down the rows of a block reads the row at the column. -/
theorem bcastRow14 (x : S1x256.Idx → EReal) (h : S1x256.Broadcasts S2000x256) (r : Fin 2000) (j : Fin 256) :
    broadcastTo S2000x256 x h (ix2 r j) = x (ix2 (0 : Fin 1) j) :=
  broadcastTo_apply x h (ix2 r j) (ix2 (0 : Fin 1) j) fun a => by
    match a with
    | ⟨0, _⟩ => rfl
    | ⟨1, _⟩ => rfl

/-- The body's one payload at an index: the entry less its column's mean, times the column's gain and the
    reciprocal root of the column's variance plus epsilon, plus the column's bias, cut off at zero.
    The payload takes its row arguments in the order gain, mean, variance, bias. -/
theorem pay14_1_apply (z : Vec Ideal S2000x256 .f32) (g mu var b : Vec Ideal S1x256 .f32) (r : Fin 2000) (j : Fin 256) :
    k14_pay1 (F := Ideal) z g mu var b (ix2 r j)
      = max (g (ix2 (0 : Fin 1) j) * (z (ix2 r j) - mu (ix2 (0 : Fin 1) j)) * Ideal.rsqrt (var (ix2 (0 : Fin 1) j) + Spec.bnEps)
          + b (ix2 (0 : Fin 1) j)) Spec.zero := by
  unfold k14_pay1
  simp only [shapeCast_self]
  rw [maximumf_apply, addf_apply, mulf_apply, mulf_apply, subf_apply, broadcast_apply,
    bcastRow14, bcastRow14, bcastRow14, bcastRow14]
  rfl

/-- The payload of a block and four rows that are read off a matrix and four row matrices, at an index of the
    block and the matrix index it sits at: the specification's normalise-and-rectify of the matrices there. -/
theorem point14 (x0 : Vec Ideal S2000x256 .f32) (x1 x2 x3 x4 : Vec Ideal S1x256 .f32)
    (A0 : Spec.Mx 50000 256) (A1 A2 A3 A4 : Spec.Mx 1 256) (y : S2000x256.Idx) (i : S50000x256.Idx)
    (h0 : x0 y = A0 i) (hc : (i 1).val = (y 1).val)
    (h1 : ∀ j : Fin 256, x1 (ix2 (0 : Fin 1) j) = A1 (ix2 (0 : Fin 1) j))
    (h2 : ∀ j : Fin 256, x2 (ix2 (0 : Fin 1) j) = A2 (ix2 (0 : Fin 1) j))
    (h3 : ∀ j : Fin 256, x3 (ix2 (0 : Fin 1) j) = A3 (ix2 (0 : Fin 1) j))
    (h4 : ∀ j : Fin 256, x4 (ix2 (0 : Fin 1) j) = A4 (ix2 (0 : Fin 1) j)) :
    k14_pay1 (F := Ideal) x0 x3 x1 x2 x4 y
      = Spec.bnRelu A0 (fun j => A1 (ix2 (0 : Fin 1) j)) (fun j => A2 (ix2 (0 : Fin 1) j))
          (fun j => A3 (ix2 (0 : Fin 1) j)) (fun j => A4 (ix2 (0 : Fin 1) j)) i := by
  obtain ⟨r, j, rfl⟩ : ∃ (r : Fin 2000) (j : Fin 256), y = ix2 r j := ⟨y 0, y 1, eq_ix2 y⟩
  obtain ⟨p, q, rfl⟩ : ∃ (p : Fin 50000) (q : Fin 256), i = ix2 p q := ⟨i 0, i 1, eq_ix2 i⟩
  obtain rfl : q = j := Fin.ext hc
  rw [pay14_1_apply, h0, h1, h2, h3, h4]
  rfl

/-! ## From blocks to the array -/

variable (V : (c : Dev nD) → (b : Ref sig .tc) → Buf (Elt Ideal) ((c : Thread nD τ).loc b))

/-- The arrays the region is entered with, as matrices: the operand, and the rows of means, variances, gains and biases. -/
abbrev X14_0 (c : Dev nD) : Spec.Mx 50000 256 := V c (Pipeline.arrRef spec14 0)
abbrev X14_1 (c : Dev nD) : Spec.Mx 1 256 := V c (Pipeline.arrRef spec14 1)
abbrev X14_2 (c : Dev nD) : Spec.Mx 1 256 := V c (Pipeline.arrRef spec14 2)
abbrev X14_3 (c : Dev nD) : Spec.Mx 1 256 := V c (Pipeline.arrRef spec14 3)
abbrev X14_4 (c : Dev nD) : Spec.Mx 1 256 := V c (Pipeline.arrRef spec14 4)

/-- What the output array ends holding: the operand normalised column by column, scaled, shifted and rectified. -/
abbrev G14 (c : Dev nD) : Spec.Mx 50000 256 :=
  Spec.bnRelu (X14_0 V c) (fun j => X14_1 V c (ix2 (0 : Fin 1) j)) (fun j => X14_2 V c (ix2 (0 : Fin 1) j))
    (fun j => X14_3 V c (ix2 (0 : Fin 1) j)) (fun j => X14_4 V c (ix2 (0 : Fin 1) j))

theorem hz14 : (![0, 0] : Fin 2 → Nat) = fun _ => 0 := funext fun a => by fin_cases a <;> rfl

/-- The index maps over the grid: the operand's and the output's blocks are the point's block of rows, the four
    rows' blocks the whole rows. -/
theorem idx_facts14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- What point `t` leaves for the write-back is block `t` of the result. -/
theorem cut14_5 (c : Dev nD) (t : Fin cfg14.N) :
    (cfg14.win 5).cut (grid14.coords t) (out14_5 (iblk14 V c 0 t) (iblk14 V c 1 t) (iblk14 V c 2 t) (iblk14 V c 3 t) (iblk14 V c 4 t))
      = ((cfg14.win 5).blk t).view.read (Elt Ideal) (G14 V c) := by
  unfold out14_5
  rw [View.canon_unit_zero hz14]
  simp only [View.ld_unit_zero (S := S2000x256) hz14, View.ld_unit_zero (S := S1x256) hz14]
  obtain ⟨e00, e01, e10, e11, e20, e21, e30, e31, e40, e41, e50, e51⟩ := idx_facts14 t
  funext y
  show k14_pay1 (F := Ideal) (iblk14 V c 0 t) (iblk14 V c 3 t) (iblk14 V c 1 t) (iblk14 V c 2 t) (iblk14 V c 4 t) y
    = G14 V c (((cfg14.win 5).blk t).view.emb y)
  refine point14 _ _ _ _ _ (X14_0 V c) (X14_1 V c) (X14_2 V c) (X14_3 V c) (X14_4 V c) y _ ?_ ?_ ?_ ?_ ?_ ?_
  · show V c (Pipeline.arrRef spec14 0) (((cfg14.win 0).blk t).view.emb y) = V c (Pipeline.arrRef spec14 0) (((cfg14.win 5).blk t).view.emb y)
    refine congrArg _ (funext fun a => Fin.ext ?_)
    match a with
    | ⟨0, _⟩ =>
      show win14_0.index t (0 : Fin 2) * 2000 + 1 * (y 0).val = win14_5.index t (0 : Fin 2) * 2000 + 1 * (y 0).val
      rw [e00, e50]
    | ⟨1, _⟩ =>
      show win14_0.index t (1 : Fin 2) * 256 + 1 * (y 1).val = win14_5.index t (1 : Fin 2) * 256 + 1 * (y 1).val
      rw [e01, e51]
  · show win14_5.index t (1 : Fin 2) * 256 + 1 * (y 1).val = (y 1).val
    rw [e51]; omega
  · intro j
    show V c (Pipeline.arrRef spec14 1) (((cfg14.win 1).blk t).view.emb (ix2 (0 : Fin 1) j)) = V c (Pipeline.arrRef spec14 1) (ix2 (0 : Fin 1) j)
    refine congrArg _ (funext fun a => Fin.ext ?_)
    match a with
    | ⟨0, _⟩ => show win14_1.index t (0 : Fin 2) * 1 + 1 * 0 = 0; rw [e10]
    | ⟨1, _⟩ => show win14_1.index t (1 : Fin 2) * 256 + 1 * j.val = j.val; rw [e11]; omega
  · intro j
    show V c (Pipeline.arrRef spec14 2) (((cfg14.win 2).blk t).view.emb (ix2 (0 : Fin 1) j)) = V c (Pipeline.arrRef spec14 2) (ix2 (0 : Fin 1) j)
    refine congrArg _ (funext fun a => Fin.ext ?_)
    match a with
    | ⟨0, _⟩ => show win14_2.index t (0 : Fin 2) * 1 + 1 * 0 = 0; rw [e20]
    | ⟨1, _⟩ => show win14_2.index t (1 : Fin 2) * 256 + 1 * j.val = j.val; rw [e21]; omega
  · intro j
    show V c (Pipeline.arrRef spec14 3) (((cfg14.win 3).blk t).view.emb (ix2 (0 : Fin 1) j)) = V c (Pipeline.arrRef spec14 3) (ix2 (0 : Fin 1) j)
    refine congrArg _ (funext fun a => Fin.ext ?_)
    match a with
    | ⟨0, _⟩ => show win14_3.index t (0 : Fin 2) * 1 + 1 * 0 = 0; rw [e30]
    | ⟨1, _⟩ => show win14_3.index t (1 : Fin 2) * 256 + 1 * j.val = j.val; rw [e31]; omega
  · intro j
    show V c (Pipeline.arrRef spec14 4) (((cfg14.win 4).blk t).view.emb (ix2 (0 : Fin 1) j)) = V c (Pipeline.arrRef spec14 4) (ix2 (0 : Fin 1) j)
    refine congrArg _ (funext fun a => Fin.ext ?_)
    match a with
    | ⟨0, _⟩ => show win14_4.index t (0 : Fin 2) * 1 + 1 * 0 = 0; rw [e40]
    | ⟨1, _⟩ => show win14_4.index t (1 : Fin 2) * 256 + 1 * j.val = j.val; rw [e41]; omega

/-- An index of the output array is in point `t`'s block iff each coordinate is in the block's range on its axis. -/
theorem mem_blk14 (t : Fin cfg14.N) (i : S50000x256.Idx) :
    i ∈ ((cfg14.win 5).blk t).view.set ↔ ∀ a : Fin 2, win14_5.index t a * S2000x256.size a ≤ (i a).val
      ∧ (i a).val < win14_5.index t a * S2000x256.size a + S2000x256.size a := by
  show i ∈ ((View.whole (Pipeline.arrRef spec14 5)).slice (win14_5.rect t)).set ↔ _
  rw [View.set_slice_whole, Rect.mem_set_unit]
  exact Iff.rfl

/-- The point whose block holds a row: the row's number over the rows in a block. -/
theorem pt_lt14 (i : S50000x256.Idx) : (i 0).val / 2000 < cfg14.N := by
  have hi0 : (i 0).val < 50000 := (i 0).isLt
  show (i 0).val / 2000 < grid14.N
  rw [N_14]; omega

/-- Every index of the output array is in some point's block, and every point writes back. -/
theorem cover14 (i : S50000x256.Idx) :
    ∃ t : Fin cfg14.N, (cfg14.win 5).flush t = true ∧ i ∈ ((cfg14.win 5).blk t).view.set := by
  have hi1 : (i 1).val < 256 := (i 1).isLt
  obtain ⟨t, ht⟩ : ∃ t : Fin cfg14.N, t.val = (i 0).val / 2000 := ⟨⟨_, pt_lt14 i⟩, rfl⟩
  obtain ⟨-, -, -, -, -, -, -, -, -, -, e50, e51⟩ := idx_facts14 t
  refine ⟨t, flush14_5 t, ?_⟩
  rw [mem_blk14]
  intro a
  match a with
  | ⟨0, _⟩ =>
    show win14_5.index t (0 : Fin 2) * 2000 ≤ (i 0).val ∧ (i 0).val < win14_5.index t (0 : Fin 2) * 2000 + 2000
    rw [e50, ht]; omega
  | ⟨1, _⟩ =>
    show win14_5.index t (1 : Fin 2) * 256 ≤ (i 1).val ∧ (i 1).val < win14_5.index t (1 : Fin 2) * 256 + 256
    rw [e51]; omega

/-- What point `t` writes back is block `t` of the result. -/
theorem flushed14_eq (c : Dev nD) (t : Fin cfg14.N) :
    (dat14 V c).flushed 5 t = ((cfg14.win 5).blk t).view.read (Elt Ideal) (G14 V c) := by
  show (cfg14.win 5).cut (grid14.coords t) ((dat14 V c).after 5 t) = _
  rw [after14_5]
  exact cut14_5 V c t

/-- THE OUTPUT ARRAY after the last point: the specification's normalise-and-rectify of the arrays the region
    was entered with. -/
theorem out_eq14 (c : Dev nD) : (dat14 V c).arrAt 5 cfg14.N = G14 V c :=
  (dat14 V c).arrAt_eq_of_cover 5 (G14 V c) (fun t _ => flushed14_eq V c t) cover14

end Cert.KernelIdeal.HandValue

end
-- ==== Proof.KI.Val15.lean ====
import proofs.«427833_j20194936226511_1_alg».proof.Proof.Gen.KernelIdeal.Launch
import proofs.«427833_j20194936226511_1_alg».proof.Proof.Gen.KernelIdeal.Points
import proofs.«427833_j20194936226511_1_alg».proof.Proof.KI.Reg15
import Idealize.ShloMosaic.Lib.Tactic
import proofs.«427833_j20194936226511_1_alg».proof.Proof.Gen.KernelIdeal.Skeleton
import proofs.«427833_j20194936226511_1_alg».proof.Proof.Spec
import Idealize.ShloMosaic.PureOps.Ideal.Laws
import Idealize.ShloMosaic.Lib.ValueIdx
import Idealize.ShloMosaic.Lib.Pipeline.Value

/-!
# The value of the first stage: a matrix product and its column statistics

At every grid point the kernel adds two blocks of rows, multiplies the sum by the weight matrix,
stores the product block, and adds the block's column sums and the column sums of its squares into
one carried row of twice the width, which it clears at the first point and copies out at the last.

This module reads the arithmetic at an index over the extended reals, where a change of float
format is the identity, a matrix product into a zero accumulator is the plain sum of products and
a reduction over the rows is the plain sum.  It then reads what each control case of the body leaves in
the product block and in the carried row, shows by induction on the grid point that the carried row
holds, column by column, the sums over the tiles so far, and concludes that after the region the
product array is the whole matrix product and the statistics row holds its column sums and the
column sums of its squares: a sum over all the rows is regrouped tile by tile, which needs only that
addition of extended reals is commutative and associative.
-/

set_option maxRecDepth 16384

noncomputable section

namespace Cert.KernelIdeal.HandValue

open Cert.KernelIdeal Cert.KernelIdeal.Gen
open Cert.KernelIdeal.Hand
open Idealize.ShloMosaic Idealize.ShloMosaic.ValueIdx Idealize.ShloMosaic.TcCoe Idealize.ShloMosaic.Tactic Idealize.SL.Sem
open Idealize.ShloMosaic.Pipeline (Dat)

/-! ## The operand indices of the matrix product, axis by axis -/

theorem lhs15_0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide),
    dif_pos (show (0 : Fin S2000x256.rank) ∈ dot_S2000x256_S256x512_S2000x512_1_0_0_1_n_n.lhsNonContracting by decide)]
  rfl
theorem lhs15_1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem rhs15_0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem rhs15_1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide),
    dif_pos (show (1 : Fin S256x512.rank) ∈ dot_S2000x256_S256x512_S2000x512_1_0_0_1_n_n.rhsNonContracting by decide)]
  rfl

/-- The block product into the zero accumulator, at an index: the sum over the contracted
    coordinate of the products of the entries. -/
theorem matmul15_apply (p : FVec Ideal S2000x256 .bf16) (w : FVec Ideal S256x512 .bf16) (r : Fin 2000) (j : Fin 512) :
    matmul dot_S2000x256_S256x512_S2000x512_1_0_0_1_n_n none p w (constant (F := Ideal) S2000x512 .f32 0x00000000#32) (ix2 r j)
      = ∑ l : Fin 256, p (ix2 r l) * w (ix2 l j) := by
  show FloatOps.matmul dot_S2000x256_S256x512_S2000x512_1_0_0_1_n_n none p w (constant (F := Ideal) S2000x512 .f32 0x00000000#32) (ix2 r j) = _
  rw [Ideal.matmul_constant_zero_apply, ← Equiv.sum_comp (contrEquiv1 dot_S2000x256_S256x512_S2000x512_1_0_0_1_n_n 256 rfl rfl).symm]
  refine Finset.sum_congr rfl fun l _ => ?_
  have hk := contrEquiv1_symm_val dot_S2000x256_S256x512_S2000x512_1_0_0_1_n_n 256 rfl rfl l
  have el : dot_S2000x256_S256x512_S2000x512_1_0_0_1_n_n.lhsIdx (ix2 r j) ((contrEquiv1 dot_S2000x256_S256x512_S2000x512_1_0_0_1_n_n 256 rfl rfl).symm l) = ix2 r l :=
    funext fun a => Fin.ext (by
      match a with
      | ⟨0, _⟩ => exact lhs15_0 _ _
      | ⟨1, _⟩ => exact (lhs15_1 _ _).trans hk)
  have er : dot_S2000x256_S256x512_S2000x512_1_0_0_1_n_n.rhsIdx (ix2 r j) ((contrEquiv1 dot_S2000x256_S256x512_S2000x512_1_0_0_1_n_n 256 rfl rfl).symm l) = ix2 l j :=
    funext fun a => Fin.ext (by
      match a with
      | ⟨0, _⟩ => exact (rhs15_0 _ _).trans hk
      | ⟨1, _⟩ => exact rhs15_1 _ _)
  rw [el, er]

/-- The sum over the rows of a block, kept as a one-row matrix, at a column. -/
theorem rowsum15_apply (v : FVec Ideal S2000x512 .f32) (j : Fin 512) :
    shapeCast S1x512 (multiReduction (F := Ideal) .add [0] S512 v 0x00000000#32 reduces_S2000x512_S512 (.inl rfl) rfl)
        shapeCasts_S512_S1x512 (ix2 0 j)
      = ∑ r : Fin 2000, v (ix2 r j) := by
  refine (shapeCast_addUnit_apply ![512] _ shapeCasts_S512_S1x512 (ix2 0 j)).trans ?_
  refine (Ideal.multiReduction_add_single v 0x00000000#32 reduces_S2000x512_S512 (.inl rfl) rfl _).trans ?_
  refine Finset.sum_congr rfl fun r _ => congrArg v ?_
  funext a
  apply Fin.ext
  match a with
  | ⟨0, _⟩ => rfl
  | ⟨1, _⟩ => rfl

/-! ## The four payloads at an index -/

/-- The product block: row `r`, column `j` is the sum over `l` of the summed inputs' entry times the weight's. -/
theorem k15_pay2_apply (x a : Vec Ideal S2000x256 .f32) (w : Vec Ideal S256x512 .bf16) (r : Fin 2000) (j : Fin 512) :
    k15_pay2 (F := Ideal) x a w (ix2 r j) = ∑ l : Fin 256, (x (ix2 r l) + a (ix2 r l)) * w (ix2 l j) := by
  unfold k15_pay2
  simp only [shapeCast_self]
  exact matmul15_apply _ _ r j

/-- The carried row's first half: what it held plus the block's column sums. -/
theorem k15_pay3_apply (x a : Vec Ideal S2000x256 .f32) (w : Vec Ideal S256x512 .bf16) (acc : Vec Ideal S1x512 .f32) (j : Fin 512) :
    k15_pay3 (F := Ideal) x a w acc (ix2 0 j) = acc (ix2 0 j) + ∑ r : Fin 2000, k15_pay2 (F := Ideal) x a w (ix2 r j) := by
  unfold k15_pay3
  simp only [shapeCast_self]
  exact congrArg (acc (ix2 0 j) + ·) (rowsum15_apply (k15_pay2 (F := Ideal) x a w) j)

/-- The carried row's second half: what it held plus the column sums of the block's squares. -/
theorem k15_pay4_apply (x a : Vec Ideal S2000x256 .f32) (w : Vec Ideal S256x512 .bf16) (acc : Vec Ideal S1x512 .f32) (j : Fin 512) :
    k15_pay4 (F := Ideal) x a w acc (ix2 0 j)
      = acc (ix2 0 j) + ∑ r : Fin 2000, k15_pay2 (F := Ideal) x a w (ix2 r j) * k15_pay2 (F := Ideal) x a w (ix2 r j) := by
  unfold k15_pay4
  simp only [shapeCast_self]
  exact congrArg (acc (ix2 0 j) + ·)
    (rowsum15_apply (mulf (k15_pay2 (F := Ideal) x a w) (k15_pay2 (F := Ideal) x a w)) j)

/-- The cleared row is zero everywhere. -/
theorem k15_pay1_eq : (k15_pay1 (F := Ideal)) = fun _ => (0 : EReal) := by
  unfold k15_pay1
  simp only [shapeCast_self]
  funext i
  exact Ideal.ofBits_zero_f32

/-! ## Sums over all the rows, tile by tile -/

/-- A sum over all the rows is the sum, over the tiles, of the sums over one tile's rows. -/
theorem sum_rows_tiles15 (f : Fin 50000 → EReal) :
    ∑ i : Fin 50000, f i
      = ∑ t : Fin 25, ∑ r : Fin 2000, f ⟨2000 * t.val + r.val, by have := t.isLt; have := r.isLt; omega⟩ := by
  rw [← Fintype.sum_prod_type']
  refine (Fintype.sum_equiv (finProdFinEquiv (m := 25) (n := 2000)) _ f fun p => congrArg f (Fin.ext ?_)).symm
  show 2000 * p.1.val + p.2.val = p.2.val + 2000 * p.1.val
  omega

/-- A quantity that starts at its first term and then adds one term per step is the sum of the terms so far. -/
theorem steps_eq_sum15 (T : ℕ → EReal) (N : ℕ) (S : (n : ℕ) → n < N → EReal)
    (h0 : ∀ h, S 0 h = 0 + T 0) (hs : ∀ n (h : n + 1 < N), S (n + 1) h = S n (Nat.lt_of_succ_lt h) + T (n + 1)) :
    ∀ (n : ℕ) (h : n < N), S n h = ∑ t ∈ Finset.range (n + 1), T t
  | 0, h => by rw [h0 h, zero_add, Finset.sum_range_one]
  | n + 1, h => by rw [hs n h, steps_eq_sum15 T N S h0 hs n (Nat.lt_of_succ_lt h), Finset.sum_range_succ _ (n + 1)]

/-! ## Where the windows' blocks sit -/

/-- The block indices, decided over the grid: the two inputs' row blocks and the output's move with the point,
    the weight's block and the statistics' block stay. -/
theorem idx15 : ∀ t : Fin cfg15.N,
      win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0
    ∧ win15_4.index t (0 : Fin 2) = 0 ∧ win15_4.index t (1 : Fin 2) = 0 :=
  (by decide +kernel : ∀ t : Fin grid15.N, _)

/-- The first input's block at point `t` is rows `2000 t …` of its array. -/
theorem read_blk15_0 (A : Vec Ideal S50000x256 .f32) (t : Fin cfg15.N) (r : Fin 2000) (l : Fin 256)
    (i : Fin 50000) (hi : i.val = 2000 * t.val + r.val) :
    (((cfg15.win 0).blk t).view.read (Elt Ideal) A : Vec Ideal S2000x256 .f32) (ix2 r l) = A (ix2 i l) := by
  rw [View.read_apply]
  show A _ = A _
  refine congrArg A ?_
  funext a
  apply Fin.ext
  match a with
  | ⟨0, _⟩ => show win15_0.index t (0 : Fin 2) * 2000 + 1 * r.val = i.val; rw [(idx15 t).1]; omega
  | ⟨1, _⟩ => show win15_0.index t (1 : Fin 2) * 256 + 1 * l.val = l.val; rw [(idx15 t).2.1]; omega

/-- The second input's block likewise. -/
theorem read_blk15_1 (A : Vec Ideal S50000x256 .f32) (t : Fin cfg15.N) (r : Fin 2000) (l : Fin 256)
    (i : Fin 50000) (hi : i.val = 2000 * t.val + r.val) :
    (((cfg15.win 1).blk t).view.read (Elt Ideal) A : Vec Ideal S2000x256 .f32) (ix2 r l) = A (ix2 i l) := by
  rw [View.read_apply]
  show A _ = A _
  refine congrArg A ?_
  funext a
  apply Fin.ext
  match a with
  | ⟨0, _⟩ => show win15_1.index t (0 : Fin 2) * 2000 + 1 * r.val = i.val; rw [(idx15 t).2.2.1]; omega
  | ⟨1, _⟩ => show win15_1.index t (1 : Fin 2) * 256 + 1 * l.val = l.val; rw [(idx15 t).2.2.2.1]; omega

/-- The weight's block is the whole weight matrix at every point. -/
theorem read_blk15_2 (A : Vec Ideal S256x512 .bf16) (t : Fin cfg15.N) (l : Fin 256) (j : Fin 512) :
    (((cfg15.win 2).blk t).view.read (Elt Ideal) A : Vec Ideal S256x512 .bf16) (ix2 l j) = A (ix2 l j) := by
  rw [View.read_apply]
  show A _ = A _
  refine congrArg A ?_
  funext a
  apply Fin.ext
  match a with
  | ⟨0, _⟩ => show win15_2.index t (0 : Fin 2) * 256 + 1 * l.val = l.val; rw [(idx15 t).2.2.2.2.1]; omega
  | ⟨1, _⟩ => show win15_2.index t (1 : Fin 2) * 512 + 1 * j.val = j.val; rw [(idx15 t).2.2.2.2.2.1]; omega

/-- The output's block at point `t` is rows `2000 t …` of its array. -/
theorem read_blk15_3 (A : Vec Ideal S50000x512 .f32) (t : Fin cfg15.N) (r : Fin 2000) (j : Fin 512)
    (i : Fin 50000) (hi : i.val = 2000 * t.val + r.val) :
    (((cfg15.win 3).blk t).view.read (Elt Ideal) A : Vec Ideal S2000x512 .f32) (ix2 r j) = A (ix2 i j) := by
  rw [View.read_apply]
  show A _ = A _
  refine congrArg A ?_
  funext a
  apply Fin.ext
  match a with
  | ⟨0, _⟩ => show win15_3.index t (0 : Fin 2) * 2000 + 1 * r.val = i.val; rw [(idx15 t).2.2.2.2.2.2.1]; omega
  | ⟨1, _⟩ => show win15_3.index t (1 : Fin 2) * 512 + 1 * j.val = j.val; rw [(idx15 t).2.2.2.2.2.2.2.1]; omega

/-- The statistics' block is the whole row at every point. -/
theorem read_blk15_4 (A : Vec Ideal S1x1024 .f32) (t : Fin cfg15.N) (y : S1x1024.Idx) :
    (((cfg15.win 4).blk t).view.read (Elt Ideal) A : Vec Ideal S1x1024 .f32) y = A y := by
  rw [View.read_apply]
  show A _ = A _
  refine congrArg A ?_
  funext a
  apply Fin.ext
  match a with
  | ⟨0, _⟩ => show win15_4.index t (0 : Fin 2) * 1 + 1 * (y 0).val = (y 0).val; rw [(idx15 t).2.2.2.2.2.2.2.2.1]; omega
  | ⟨1, _⟩ => show win15_4.index t (1 : Fin 2) * 1024 + 1 * (y 1).val = (y 1).val; rw [(idx15 t).2.2.2.2.2.2.2.2.2]; omega

/-- An index of the output array is in point `t`'s block iff each coordinate is in the block's range. -/
theorem mem_blk15_3 (t : Fin cfg15.N) (i : S50000x512.Idx) :
    i ∈ ((cfg15.win 3).blk t).view.set ↔ ∀ a : Fin 2, win15_3.index t a * S2000x512.size a ≤ (i a).val
      ∧ (i a).val < win15_3.index t a * S2000x512.size a + S2000x512.size a := by
  show i ∈ ((View.whole main_v250_0).slice (win15_3.rect t)).set ↔ _
  rw [View.set_slice_whole, Rect.mem_set_unit]
  exact Iff.rfl

/-- Every row of the output array is in the block of the point its tile belongs to. -/
theorem cover15_3 (i : S50000x512.Idx) :
    ∃ t : Fin cfg15.N, (cfg15.win 3).flush t = true ∧ i ∈ ((cfg15.win 3).blk t).view.set := by
  have hN : cfg15.N = 25 := N_15
  have hi15 : (i 0).val < 50000 := (i 0).isLt
  have hi1 : (i 1).val < 512 := (i 1).isLt
  refine ⟨⟨(i 0).val / 2000, by omega⟩, flush15_3 _, ?_⟩
  rw [mem_blk15_3]
  obtain ⟨-, -, -, -, -, -, e0, e1, -, -⟩ := idx15 ⟨(i 0).val / 2000, by omega⟩
  intro a
  match a with
  | ⟨0, _⟩ =>
    show win15_3.index _ (0 : Fin 2) * 2000 ≤ (i 0).val ∧ (i 0).val < win15_3.index _ (0 : Fin 2) * 2000 + 2000
    rw [e0]; dsimp only; omega
  | ⟨1, _⟩ =>
    show win15_3.index _ (1 : Fin 2) * 512 ≤ (i 1).val ∧ (i 1).val < win15_3.index _ (1 : Fin 2) * 512 + 512
    rw [e1]; omega

/-- An index of the statistics row is in point `t`'s block iff each coordinate is in the block's range. -/
theorem mem_blk15_4 (t : Fin cfg15.N) (i : S1x1024.Idx) :
    i ∈ ((cfg15.win 4).blk t).view.set ↔ ∀ a : Fin 2, win15_4.index t a * S1x1024.size a ≤ (i a).val
      ∧ (i a).val < win15_4.index t a * S1x1024.size a + S1x1024.size a := by
  show i ∈ ((View.whole main_v250_1).slice (win15_4.rect t)).set ↔ _
  rw [View.set_slice_whole, Rect.mem_set_unit]
  exact Iff.rfl

/-- The last point's block is the whole statistics row. -/
theorem cover15_4 (i : S1x1024.Idx) :
    ∃ t : Fin cfg15.N, (cfg15.win 4).flush t = true ∧ i ∈ ((cfg15.win 4).blk t).view.set := by
  have hN : cfg15.N = 25 := N_15
  have hi15 : (i 0).val < 1 := (i 0).isLt
  have hi1 : (i 1).val < 1024 := (i 1).isLt
  refine ⟨⟨24, by omega⟩, (flush15_4 _).mpr rfl, ?_⟩
  rw [mem_blk15_4]
  obtain ⟨-, -, -, -, -, -, -, -, e0, e1⟩ := idx15 ⟨24, by omega⟩
  intro a
  match a with
  | ⟨0, _⟩ =>
    show win15_4.index _ (0 : Fin 2) * 1 ≤ (i 0).val ∧ (i 0).val < win15_4.index _ (0 : Fin 2) * 1 + 1
    rw [e0]; omega
  | ⟨1, _⟩ =>
    show win15_4.index _ (1 : Fin 2) * 1024 ≤ (i 1).val ∧ (i 1).val < win15_4.index _ (1 : Fin 2) * 1024 + 1024
    rw [e1]; omega

/-! ## What each case of the body leaves, read as values

The body's run was found case by case as lists of stored pieces; read back, the product block's one covering store
leaves the product of the input blocks, and the carried row's stores leave, column by column, what the row held
(nothing, at the first point) plus the block's column sums, in its first half of the plain products and in its
second of their squares. The last point's copy leaves the statistics block equal to the carried row. -/

/-- A column of the first half of the carried row, and of the second. -/
abbrev lo15 (j : Fin 512) : Fin 1024 := ⟨j.val, by have := j.isLt; omega⟩
abbrev hi15 (j : Fin 512) : Fin 1024 := ⟨512 + j.val, by have := j.isLt; omega⟩

theorem hz15 : (![0, 0] : Fin 2 → Nat) = fun _ => 0 := funext fun a => by fin_cases a <;> rfl

/-- The two halves of the carried row, as the rectangles the body stores through. -/
abbrev rLo15 : Rect S1x1024 := Rect.unit (s := S1x1024) ![0, 0] S1x512.size inb_S1x1024_S1x512_0_0
abbrev rHi15 : Rect S1x1024 := Rect.unit (s := S1x1024) ![0, 512] S1x512.size inb_S1x1024_S1x512_0_512

theorem rLo15_emb (j : Fin 512) : rLo15.emb (ix2 0 j) = ix2 0 (lo15 j) := by
  funext a
  apply Fin.ext
  rw [Rect.emb_apply]
  match a with
  | ⟨0, _⟩ => rfl
  | ⟨1, _⟩ => show 0 + 1 * j.val = j.val; omega

theorem rHi15_emb (j : Fin 512) : rHi15.emb (ix2 0 j) = ix2 0 (hi15 j) := by
  funext a
  apply Fin.ext
  rw [Rect.emb_apply]
  match a with
  | ⟨0, _⟩ => rfl
  | ⟨1, _⟩ => show 512 + 1 * j.val = 512 + j.val; omega

theorem lo15_not_mem_hi (j : Fin 512) : ix2 0 (lo15 j) ∉ rHi15.set := by
  rw [Rect.mem_set_unit]
  intro h
  have h1 : (512 : ℕ) ≤ j.val := (h 1).1
  have := j.isLt
  omega

theorem hi15_not_mem_lo (j : Fin 512) : ix2 0 (hi15 j) ∉ rLo15.set := by
  rw [Rect.mem_set_unit]
  intro h
  have h1 : 512 + j.val < 0 + 512 := (h 1).2
  omega

/-- The whole carried row as a rectangle of itself. -/
abbrev rW15 : Rect S1x1024 := Rect.unit (s := S1x1024) ![0, 0] S1x1024.size inb_S1x1024_S1x1024_0_0

/-- A load after one store of the whole row reads that store's payload. -/
theorem readCov_rW15 {sig' : RefSig} {κ : Kind} {sp : Space} (v : View sig' κ sp S1x1024 .f32) (w : Vec Ideal S1x1024 .f32)
    (B : Rect S1x1024) (y : B.shape.Idx) :
    v.readCov [(⟨rW15, w⟩ : View.Piece (Elt Ideal) S1x1024 .f32)] B.toLoadRect y = w (B.idx y) := by
  have hc : ∀ y : S1x1024.Idx, ∃ p ∈ [(⟨rW15, w⟩ : View.Piece (Elt Ideal) S1x1024 .f32)], y ∈ p.1.set :=
    fun y => ⟨⟨rW15, w⟩, List.mem_singleton_self _, View.mem_set_unit_zero hz15 inb_S1x1024_S1x1024_0_0 y⟩
  rw [View.readCov_eq_canon_ld v _ B hc, View.canon_unit_zero hz15]

/-- The two half-row stores cover the row. -/
theorem halves_cover15 (wHi wLo : Vec Ideal S1x512 .f32) (y : S1x1024.Idx) :
    ∃ p ∈ ([⟨rHi15, wHi⟩, ⟨rLo15, wLo⟩] : List (View.Piece (Elt Ideal) S1x1024 .f32)), y ∈ p.1.set := by
  have h0 : (y 0).val < 1 := (y 0).isLt
  have h1 : (y 1).val < 1024 := (y 1).isLt
  by_cases h : (y 1).val < 512
  · refine ⟨⟨rLo15, wLo⟩, List.mem_cons_of_mem _ (List.mem_singleton_self _), ?_⟩
    show y ∈ rLo15.set
    rw [Rect.mem_set_unit]
    intro a
    match a with
    | ⟨0, _⟩ => show 0 ≤ (y 0).val ∧ (y 0).val < 0 + 1; omega
    | ⟨1, _⟩ => show 0 ≤ (y 1).val ∧ (y 1).val < 0 + 512; omega
  · refine ⟨⟨rHi15, wHi⟩, List.mem_cons_self, ?_⟩
    show y ∈ rHi15.set
    rw [Rect.mem_set_unit]
    intro a
    match a with
    | ⟨0, _⟩ => show 0 ≤ (y 0).val ∧ (y 0).val < 0 + 1; omega
    | ⟨1, _⟩ => show 512 ≤ (y 1).val ∧ (y 1).val < 512 + 512; omega

theorem out15_A_3_eq (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i) (x0 x1 : Vec Ideal S2000x256 .f32) (x2 : Vec Ideal S256x512 .bf16) :
    out15_A_3 (F := Ideal) c i arg1 harg1 arg2 harg2 arg3 harg3 arg4 harg4 arg5 harg5 arg6 harg6 hc0 hc1 x0 x1 x2 = k15_pay2 (F := Ideal) x0 x1 x2 := by
  unfold out15_A_3
  rw [View.read_writes_eq_canon _ _ _ (cover15_A_3 c i arg1 harg1 arg2 harg2 arg3 harg3 arg4 harg4 arg5 harg5 arg6 harg6 hc0 hc1 x0 x1 x2)]
  unfold kernelRun15_A
  dsimp only
  sl_unfold_words
  rw [View.canon_unit_zero hz15]
  simp only [View.readAt_eq_ld, harg1.read_unread, harg2.read_unread, harg3.read_unread, View.ld_unit_zero (S := S2000x256) hz15, View.ld_unit_zero (S := S256x512) hz15]

theorem out15_B_3_eq (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i) (x0 x1 : Vec Ideal S2000x256 .f32) (x2 : Vec Ideal S256x512 .bf16) (xs0 : Vec Ideal S1x1024 .f32) :
    out15_B_3 (F := Ideal) c i arg1 harg1 arg2 harg2 arg3 harg3 arg4 harg4 arg5 harg5 arg6 harg6 hc0 hc1 x0 x1 x2 xs0 = k15_pay2 (F := Ideal) x0 x1 x2 := by
  unfold out15_B_3
  rw [View.read_writes_eq_canon _ _ _ (cover15_B_3 c i arg1 harg1 arg2 harg2 arg3 harg3 arg4 harg4 arg5 harg5 arg6 harg6 hc0 hc1 x0 x1 x2 xs0)]
  unfold kernelRun15_B
  dsimp only
  sl_unfold_words
  rw [View.canon_unit_zero hz15]
  simp only [View.readAt_eq_ld, harg1.read_unread, harg2.read_unread, harg3.read_unread, View.ld_unit_zero (S := S2000x256) hz15, View.ld_unit_zero (S := S256x512) hz15]

theorem out15_C_3_eq (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i) (x0 x1 : Vec Ideal S2000x256 .f32) (x2 : Vec Ideal S256x512 .bf16) (xs0 : Vec Ideal S1x1024 .f32) :
    out15_C_3 (F := Ideal) c i arg1 harg1 arg2 harg2 arg3 harg3 arg4 harg4 arg5 harg5 arg6 harg6 hc0 hc1 x0 x1 x2 xs0 = k15_pay2 (F := Ideal) x0 x1 x2 := by
  unfold out15_C_3
  rw [View.read_writes_eq_canon _ _ _ (cover15_C_3 c i arg1 harg1 arg2 harg2 arg3 harg3 arg4 harg4 arg5 harg5 arg6 harg6 hc0 hc1 x0 x1 x2 xs0)]
  unfold kernelRun15_C
  dsimp only
  sl_unfold_words
  rw [View.canon_unit_zero hz15]
  simp only [View.readAt_eq_ld, harg1.read_unread, harg2.read_unread, harg3.read_unread, View.ld_unit_zero (S := S2000x256) hz15, View.ld_unit_zero (S := S256x512) hz15]

theorem sout15_A_0_lo (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i) (x0 x1 : Vec Ideal S2000x256 .f32) (x2 : Vec Ideal S256x512 .bf16) (j : Fin 512) :
    sout15_A_0 (F := Ideal) c i arg1 harg1 arg2 harg2 arg3 harg3 arg4 harg4 arg5 harg5 arg6 harg6 hc0 hc1 x0 x1 x2 (ix2 0 (lo15 j))
      = 0 + ∑ r : Fin 2000, k15_pay2 (F := Ideal) x0 x1 x2 (ix2 r j) := by
  unfold sout15_A_0
  rw [View.read_writes_eq_canon _ _ _ (scover15_A_0 c i arg1 harg1 arg2 harg2 arg3 harg3 arg4 harg4 arg5 harg5 arg6 harg6 hc0 hc1 x0 x1 x2)]
  unfold kernelRun15_A
  dsimp only
  sl_unfold_words
  simp only [View.readAt_eq_ld, harg1.read_unread, harg2.read_unread, harg3.read_unread, View.ld_unit_zero (S := S2000x256) hz15, View.ld_unit_zero (S := S256x512) hz15]
  refine (View.canon_cons_of_not_mem (⟨rHi15, _⟩ : View.Piece (Elt Ideal) S1x1024 .f32) _ (lo15_not_mem_hi j)).trans ?_
  refine (congrArg _ (rLo15_emb j).symm).trans ((View.canon_cons_emb rLo15 _ _ (ix2 0 j)).trans ?_)
  refine (k15_pay3_apply x0 x1 x2 _ j).trans ?_
  refine congrArg (· + _) ?_
  exact (readCov_rW15 _ _ rLo15 (ix2 0 j)).trans (congrFun k15_pay1_eq _)

theorem sout15_A_0_hi (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : cond15_0 i) (hc1 : ¬cond15_1 i) (x0 x1 : Vec Ideal S2000x256 .f32) (x2 : Vec Ideal S256x512 .bf16) (j : Fin 512) :
    sout15_A_0 (F := Ideal) c i arg1 harg1 arg2 harg2 arg3 harg3 arg4 harg4 arg5 harg5 arg6 harg6 hc0 hc1 x0 x1 x2 (ix2 0 (hi15 j))
      = 0 + ∑ r : Fin 2000, k15_pay2 (F := Ideal) x0 x1 x2 (ix2 r j) * k15_pay2 (F := Ideal) x0 x1 x2 (ix2 r j) := by
  unfold sout15_A_0
  rw [View.read_writes_eq_canon _ _ _ (scover15_A_0 c i arg1 harg1 arg2 harg2 arg3 harg3 arg4 harg4 arg5 harg5 arg6 harg6 hc0 hc1 x0 x1 x2)]
  unfold kernelRun15_A
  dsimp only
  sl_unfold_words
  simp only [View.readAt_eq_ld, harg1.read_unread, harg2.read_unread, harg3.read_unread, View.ld_unit_zero (S := S2000x256) hz15, View.ld_unit_zero (S := S256x512) hz15]
  refine (congrArg _ (rHi15_emb j).symm).trans ((View.canon_cons_emb rHi15 _ _ (ix2 0 j)).trans ?_)
  refine (k15_pay4_apply x0 x1 x2 _ j).trans ?_
  refine congrArg (· + _) ?_
  refine (congrFun (View.readCov_eq_canon_ld _ _ rHi15 (fun y =>
    ⟨⟨rW15, k15_pay1 (F := Ideal)⟩, List.mem_cons_of_mem _ (List.mem_singleton_self _),
      View.mem_set_unit_zero hz15 inb_S1x1024_S1x1024_0_0 y⟩)) (ix2 0 j)).trans ?_
  show View.canon _ (rHi15.emb (ix2 0 j)) = 0
  rw [rHi15_emb]
  refine (View.canon_cons_of_not_mem (⟨rLo15, _⟩ : View.Piece (Elt Ideal) S1x1024 .f32) _ (hi15_not_mem_lo j)).trans ?_
  rw [View.canon_unit_zero hz15]
  exact congrFun k15_pay1_eq _

theorem sout15_B_0_lo (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i) (x0 x1 : Vec Ideal S2000x256 .f32) (x2 : Vec Ideal S256x512 .bf16) (xs0 : Vec Ideal S1x1024 .f32) (j : Fin 512) :
    sout15_B_0 (F := Ideal) c i arg1 harg1 arg2 harg2 arg3 harg3 arg4 harg4 arg5 harg5 arg6 harg6 hc0 hc1 x0 x1 x2 xs0 (ix2 0 (lo15 j))
      = xs0 (ix2 0 (lo15 j)) + ∑ r : Fin 2000, k15_pay2 (F := Ideal) x0 x1 x2 (ix2 r j) := by
  unfold sout15_B_0
  rw [View.read_writes_eq_canon _ _ _ (scover15_B_0 c i arg1 harg1 arg2 harg2 arg3 harg3 arg4 harg4 arg5 harg5 arg6 harg6 hc0 hc1 x0 x1 x2 xs0)]
  unfold kernelRun15_B
  dsimp only
  sl_unfold_words
  simp only [View.readAt_eq_ld, harg1.read_unread, harg2.read_unread, harg3.read_unread, harg6.read_unread, View.ld_unit_zero (S := S2000x256) hz15, View.ld_unit_zero (S := S256x512) hz15]
  refine (View.canon_cons_of_not_mem (⟨rHi15, _⟩ : View.Piece (Elt Ideal) S1x1024 .f32) _ (lo15_not_mem_hi j)).trans ?_
  refine (congrArg _ (rLo15_emb j).symm).trans ((View.canon_cons_emb rLo15 _ [] (ix2 0 j)).trans ?_)
  refine (k15_pay3_apply x0 x1 x2 _ j).trans ?_
  exact congrArg (· + _) (congrArg xs0 (rLo15_emb j))

theorem sout15_B_0_hi (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : ¬cond15_1 i) (x0 x1 : Vec Ideal S2000x256 .f32) (x2 : Vec Ideal S256x512 .bf16) (xs0 : Vec Ideal S1x1024 .f32) (j : Fin 512) :
    sout15_B_0 (F := Ideal) c i arg1 harg1 arg2 harg2 arg3 harg3 arg4 harg4 arg5 harg5 arg6 harg6 hc0 hc1 x0 x1 x2 xs0 (ix2 0 (hi15 j))
      = xs0 (ix2 0 (hi15 j)) + ∑ r : Fin 2000, k15_pay2 (F := Ideal) x0 x1 x2 (ix2 r j) * k15_pay2 (F := Ideal) x0 x1 x2 (ix2 r j) := by
  unfold sout15_B_0
  rw [View.read_writes_eq_canon _ _ _ (scover15_B_0 c i arg1 harg1 arg2 harg2 arg3 harg3 arg4 harg4 arg5 harg5 arg6 harg6 hc0 hc1 x0 x1 x2 xs0)]
  unfold kernelRun15_B
  dsimp only
  sl_unfold_words
  simp only [View.readAt_eq_ld, harg1.read_unread, harg2.read_unread, harg3.read_unread, harg6.read_unread, View.ld_unit_zero (S := S2000x256) hz15, View.ld_unit_zero (S := S256x512) hz15]
  refine (congrArg _ (rHi15_emb j).symm).trans ((View.canon_cons_emb rHi15 _ _ (ix2 0 j)).trans ?_)
  refine (k15_pay4_apply x0 x1 x2 _ j).trans ?_
  exact congrArg (· + _) (congrArg xs0 (rHi15_emb j))

theorem sout15_C_0_lo (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i) (x0 x1 : Vec Ideal S2000x256 .f32) (x2 : Vec Ideal S256x512 .bf16) (xs0 : Vec Ideal S1x1024 .f32) (j : Fin 512) :
    sout15_C_0 (F := Ideal) c i arg1 harg1 arg2 harg2 arg3 harg3 arg4 harg4 arg5 harg5 arg6 harg6 hc0 hc1 x0 x1 x2 xs0 (ix2 0 (lo15 j))
      = xs0 (ix2 0 (lo15 j)) + ∑ r : Fin 2000, k15_pay2 (F := Ideal) x0 x1 x2 (ix2 r j) := by
  unfold sout15_C_0
  rw [View.read_writes_eq_canon _ _ _ (scover15_C_0 c i arg1 harg1 arg2 harg2 arg3 harg3 arg4 harg4 arg5 harg5 arg6 harg6 hc0 hc1 x0 x1 x2 xs0)]
  unfold kernelRun15_C
  dsimp only
  sl_unfold_words
  simp only [View.readAt_eq_ld, harg1.read_unread, harg2.read_unread, harg3.read_unread, harg6.read_unread, View.ld_unit_zero (S := S2000x256) hz15, View.ld_unit_zero (S := S256x512) hz15]
  refine (View.canon_cons_of_not_mem (⟨rHi15, _⟩ : View.Piece (Elt Ideal) S1x1024 .f32) _ (lo15_not_mem_hi j)).trans ?_
  refine (congrArg _ (rLo15_emb j).symm).trans ((View.canon_cons_emb rLo15 _ [] (ix2 0 j)).trans ?_)
  refine (k15_pay3_apply x0 x1 x2 _ j).trans ?_
  exact congrArg (· + _) (congrArg xs0 (rLo15_emb j))

theorem sout15_C_0_hi (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i) (x0 x1 : Vec Ideal S2000x256 .f32) (x2 : Vec Ideal S256x512 .bf16) (xs0 : Vec Ideal S1x1024 .f32) (j : Fin 512) :
    sout15_C_0 (F := Ideal) c i arg1 harg1 arg2 harg2 arg3 harg3 arg4 harg4 arg5 harg5 arg6 harg6 hc0 hc1 x0 x1 x2 xs0 (ix2 0 (hi15 j))
      = xs0 (ix2 0 (hi15 j)) + ∑ r : Fin 2000, k15_pay2 (F := Ideal) x0 x1 x2 (ix2 r j) * k15_pay2 (F := Ideal) x0 x1 x2 (ix2 r j) := by
  unfold sout15_C_0
  rw [View.read_writes_eq_canon _ _ _ (scover15_C_0 c i arg1 harg1 arg2 harg2 arg3 harg3 arg4 harg4 arg5 harg5 arg6 harg6 hc0 hc1 x0 x1 x2 xs0)]
  unfold kernelRun15_C
  dsimp only
  sl_unfold_words
  simp only [View.readAt_eq_ld, harg1.read_unread, harg2.read_unread, harg3.read_unread, harg6.read_unread, View.ld_unit_zero (S := S2000x256) hz15, View.ld_unit_zero (S := S256x512) hz15]
  refine (congrArg _ (rHi15_emb j).symm).trans ((View.canon_cons_emb rHi15 _ _ (ix2 0 j)).trans ?_)
  refine (k15_pay4_apply x0 x1 x2 _ j).trans ?_
  exact congrArg (· + _) (congrArg xs0 (rHi15_emb j))

theorem out15_C_4_eq (c : Dev nD) (i : grid15.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S2000x512 .f32) (harg4 : arg4.IsWhole) (arg5 : Memref sig .tc .vmem S1x1024 .f32) (harg5 : arg5.IsWhole) (arg6 : Memref sig .tc .vmem S1x1024 .f32) (harg6 : arg6.IsWhole) (hc0 : ¬cond15_0 i) (hc1 : cond15_1 i) (x0 x1 : Vec Ideal S2000x256 .f32) (x2 : Vec Ideal S256x512 .bf16) (xs0 : Vec Ideal S1x1024 .f32) :
    out15_C_4 (F := Ideal) c i arg1 harg1 arg2 harg2 arg3 harg3 arg4 harg4 arg5 harg5 arg6 harg6 hc0 hc1 x0 x1 x2 xs0 = sout15_C_0 (F := Ideal) c i arg1 harg1 arg2 harg2 arg3 harg3 arg4 harg4 arg5 harg5 arg6 harg6 hc0 hc1 x0 x1 x2 xs0 := by
  unfold out15_C_4 sout15_C_0
  rw [View.read_writes_eq_canon _ _ _ (cover15_C_4 c i arg1 harg1 arg2 harg2 arg3 harg3 arg4 harg4 arg5 harg5 arg6 harg6 hc0 hc1 x0 x1 x2 xs0), View.read_writes_eq_canon _ _ _ (scover15_C_0 c i arg1 harg1 arg2 harg2 arg3 harg3 arg4 harg4 arg5 harg5 arg6 harg6 hc0 hc1 x0 x1 x2 xs0)]
  unfold kernelRun15_C
  dsimp only
  sl_unfold_words
  rw [View.canon_unit_zero hz15]
  refine (View.readCov_eq_canon_ld _ _ rW15 (halves_cover15 _ _)).trans ?_
  exact View.ld_unit_zero hz15 _ _

/-! ## The region's arrays and blocks at their literal types -/

variable (V : (c : Dev nD) → (b : Ref sig .tc) → Buf (Elt Ideal) ((c : Thread nD τ).loc b))

/-- The two input arrays and the weight matrix as the region finds them. -/
abbrev X15_0 (c : Dev nD) : Spec.Mx 50000 256 := V c (Pipeline.arrRef spec15 0)
abbrev X15_1 (c : Dev nD) : Spec.Mx 50000 256 := V c (Pipeline.arrRef spec15 1)
abbrev X15_2 (c : Dev nD) : Spec.Mx 256 512 := V c (Pipeline.arrRef spec15 2)

/-- The product of the summed inputs with the weights, all rows at once. -/
abbrev Z15 (c : Dev nD) : Spec.Mx 50000 512 := Spec.mm (Spec.add2 (X15_0 V c) (X15_1 V c)) (X15_2 V c)

/-- The product block the body computes at point `t`. -/
abbrev zb15 (c : Dev nD) (t : Fin cfg15.N) : FVec Ideal S2000x512 .f32 :=
  k15_pay2 (F := Ideal) (iblk15 V c 0 t) (iblk15 V c 1 t) (iblk15 V c 2 t)

/-- The product block at point `t` is rows `2000 t …` of the whole product. -/
theorem zb15_apply (c : Dev nD) (t : Fin cfg15.N) (r : Fin 2000) (j : Fin 512) (i : Fin 50000) (hi : i.val = 2000 * t.val + r.val) :
    zb15 V c t (ix2 r j) = Z15 V c (ix2 i j) := by
  refine (k15_pay2_apply _ _ _ r j).trans ?_
  show _ = ∑ l : Fin 256, (X15_0 V c (ix2 i l) + X15_1 V c (ix2 i l)) * X15_2 V c (ix2 l j)
  refine Finset.sum_congr rfl fun l _ => ?_
  have e0 : (iblk15 V c 0 t : Vec Ideal S2000x256 .f32) (ix2 r l) = X15_0 V c (ix2 i l) := read_blk15_0 (X15_0 V c) t r l i hi
  have e1 : (iblk15 V c 1 t : Vec Ideal S2000x256 .f32) (ix2 r l) = X15_1 V c (ix2 i l) := read_blk15_1 (X15_1 V c) t r l i hi
  have e2 : (iblk15 V c 2 t : Vec Ideal S256x512 .bf16) (ix2 l j) = X15_2 V c (ix2 l j) := read_blk15_2 (X15_2 V c) t l j
  rw [e0, e1, e2]

/-! ## The carried row after each point -/

/-- The output block after point `t` is the product block, whichever case the point is. -/
theorem outsAt15_fst (c : Dev nD) (t : Fin cfg15.N) : (outsAt15 V c t.val t.isLt).1 = zb15 V c t := by
  by_cases h0 : t.val = 0
  · have h1 : ¬t.val = 24 := by omega
    rw [outsAt15_A V c t h0 h1]; dsimp only
    exact out15_A_3_eq c (grid15.coords t) (ms15_0 t) (hs15_0 t) (ms15_1 t) (hs15_1 t) (ms15_2 t) (hs15_2 t) (ms15_3 t) (hs15_3 t) (ms15_4 t) (hs15_4 t) scM15_0 (Memref.isWhole_whole _) ((hcond15_0 t).mpr h0) (fun h => h1 ((hcond15_1 t).mp h)) (iblk15 V c 0 t) (iblk15 V c 1 t) (iblk15 V c 2 t)
  · by_cases h1 : t.val = 24
    · rw [outsAt15_C V c t h0 h1]; dsimp only
      exact out15_C_3_eq c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) ((hcond15_1 t).mpr h1) (iblk15 V c 0 t) (iblk15 V c 1 t) (iblk15 V c 2 t) _
    · rw [outsAt15_B V c t h0 h1]; dsimp only
      exact out15_B_3_eq c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) (fun h => h1 ((hcond15_1 t).mp h)) (iblk15 V c 0 t) (iblk15 V c 1 t) (iblk15 V c 2 t) _

/-- Tile `t`'s contribution to column `j`'s sum, and to its sum of squares (nothing past the grid). -/
def tsum15 (c : Dev nD) (j : Fin 512) (t : ℕ) : EReal :=
  if h : t < cfg15.N then ∑ r : Fin 2000, zb15 V c ⟨t, h⟩ (ix2 r j) else 0
def tsq15 (c : Dev nD) (j : Fin 512) (t : ℕ) : EReal :=
  if h : t < cfg15.N then ∑ r : Fin 2000, zb15 V c ⟨t, h⟩ (ix2 r j) * zb15 V c ⟨t, h⟩ (ix2 r j) else 0

/-- The carried row at the first point. -/
theorem row15_zero (c : Dev nD) (j : Fin 512) (h : 0 < cfg15.N) :
    (outsAt15 V c 0 h).2.2 (ix2 0 (lo15 j)) = 0 + tsum15 V c j 0
    ∧ (outsAt15 V c 0 h).2.2 (ix2 0 (hi15 j)) = 0 + tsq15 V c j 0 := by
  have h1 : ¬(⟨0, h⟩ : Fin cfg15.N).val = 24 := by dsimp only; omega
  have e := outsAt15_A V c ⟨0, h⟩ rfl h1
  dsimp only at e
  rw [e]; dsimp only
  unfold tsum15 tsq15
  rw [dif_pos h, dif_pos h]
  exact ⟨sout15_A_0_lo c (grid15.coords ⟨0, h⟩) (ms15_0 ⟨0, h⟩) (hs15_0 ⟨0, h⟩) (ms15_1 ⟨0, h⟩) (hs15_1 ⟨0, h⟩) (ms15_2 ⟨0, h⟩) (hs15_2 ⟨0, h⟩) (ms15_3 ⟨0, h⟩) (hs15_3 ⟨0, h⟩) (ms15_4 ⟨0, h⟩) (hs15_4 ⟨0, h⟩) scM15_0 (Memref.isWhole_whole _) ((hcond15_0 ⟨0, h⟩).mpr rfl) (fun h' => h1 ((hcond15_1 ⟨0, h⟩).mp h')) (iblk15 V c 0 ⟨0, h⟩) (iblk15 V c 1 ⟨0, h⟩) (iblk15 V c 2 ⟨0, h⟩) j,
    sout15_A_0_hi c (grid15.coords ⟨0, h⟩) (ms15_0 ⟨0, h⟩) (hs15_0 ⟨0, h⟩) (ms15_1 ⟨0, h⟩) (hs15_1 ⟨0, h⟩) (ms15_2 ⟨0, h⟩) (hs15_2 ⟨0, h⟩) (ms15_3 ⟨0, h⟩) (hs15_3 ⟨0, h⟩) (ms15_4 ⟨0, h⟩) (hs15_4 ⟨0, h⟩) scM15_0 (Memref.isWhole_whole _) ((hcond15_0 ⟨0, h⟩).mpr rfl) (fun h' => h1 ((hcond15_1 ⟨0, h⟩).mp h')) (iblk15 V c 0 ⟨0, h⟩) (iblk15 V c 1 ⟨0, h⟩) (iblk15 V c 2 ⟨0, h⟩) j⟩

/-- The carried row at a later point: what the point before left plus this tile's contribution. -/
theorem row15_succ (c : Dev nD) (j : Fin 512) (n : ℕ) (h : n + 1 < cfg15.N) :
    (outsAt15 V c (n + 1) h).2.2 (ix2 0 (lo15 j)) = (outsAt15 V c n (Nat.lt_of_succ_lt h)).2.2 (ix2 0 (lo15 j)) + tsum15 V c j (n + 1)
    ∧ (outsAt15 V c (n + 1) h).2.2 (ix2 0 (hi15 j)) = (outsAt15 V c n (Nat.lt_of_succ_lt h)).2.2 (ix2 0 (hi15 j)) + tsq15 V c j (n + 1) := by
  have h0 : ¬(⟨n + 1, h⟩ : Fin cfg15.N).val = 0 := Nat.succ_ne_zero n
  unfold tsum15 tsq15
  rw [dif_pos h, dif_pos h]
  by_cases h1 : (⟨n + 1, h⟩ : Fin cfg15.N).val = 24
  · have e := outsAt15_C V c ⟨n + 1, h⟩ h0 h1
    dsimp only at e
    rw [e]; dsimp only
    exact ⟨sout15_C_0_lo c (grid15.coords ⟨n + 1, h⟩) (ms15_0 ⟨n + 1, h⟩) (hs15_0 ⟨n + 1, h⟩) (ms15_1 ⟨n + 1, h⟩) (hs15_1 ⟨n + 1, h⟩) (ms15_2 ⟨n + 1, h⟩) (hs15_2 ⟨n + 1, h⟩) (ms15_3 ⟨n + 1, h⟩) (hs15_3 ⟨n + 1, h⟩) (ms15_4 ⟨n + 1, h⟩) (hs15_4 ⟨n + 1, h⟩) scM15_0 (Memref.isWhole_whole _) (fun h' => h0 ((hcond15_0 ⟨n + 1, h⟩).mp h')) ((hcond15_1 ⟨n + 1, h⟩).mpr h1) (iblk15 V c 0 ⟨n + 1, h⟩) (iblk15 V c 1 ⟨n + 1, h⟩) (iblk15 V c 2 ⟨n + 1, h⟩) _ j,
      sout15_C_0_hi c (grid15.coords ⟨n + 1, h⟩) (ms15_0 ⟨n + 1, h⟩) (hs15_0 ⟨n + 1, h⟩) (ms15_1 ⟨n + 1, h⟩) (hs15_1 ⟨n + 1, h⟩) (ms15_2 ⟨n + 1, h⟩) (hs15_2 ⟨n + 1, h⟩) (ms15_3 ⟨n + 1, h⟩) (hs15_3 ⟨n + 1, h⟩) (ms15_4 ⟨n + 1, h⟩) (hs15_4 ⟨n + 1, h⟩) scM15_0 (Memref.isWhole_whole _) (fun h' => h0 ((hcond15_0 ⟨n + 1, h⟩).mp h')) ((hcond15_1 ⟨n + 1, h⟩).mpr h1) (iblk15 V c 0 ⟨n + 1, h⟩) (iblk15 V c 1 ⟨n + 1, h⟩) (iblk15 V c 2 ⟨n + 1, h⟩) _ j⟩
  · have e := outsAt15_B V c ⟨n + 1, h⟩ h0 h1
    dsimp only at e
    rw [e]; dsimp only
    exact ⟨sout15_B_0_lo c (grid15.coords ⟨n + 1, h⟩) (ms15_0 ⟨n + 1, h⟩) (hs15_0 ⟨n + 1, h⟩) (ms15_1 ⟨n + 1, h⟩) (hs15_1 ⟨n + 1, h⟩) (ms15_2 ⟨n + 1, h⟩) (hs15_2 ⟨n + 1, h⟩) (ms15_3 ⟨n + 1, h⟩) (hs15_3 ⟨n + 1, h⟩) (ms15_4 ⟨n + 1, h⟩) (hs15_4 ⟨n + 1, h⟩) scM15_0 (Memref.isWhole_whole _) (fun h' => h0 ((hcond15_0 ⟨n + 1, h⟩).mp h')) (fun h' => h1 ((hcond15_1 ⟨n + 1, h⟩).mp h')) (iblk15 V c 0 ⟨n + 1, h⟩) (iblk15 V c 1 ⟨n + 1, h⟩) (iblk15 V c 2 ⟨n + 1, h⟩) _ j,
      sout15_B_0_hi c (grid15.coords ⟨n + 1, h⟩) (ms15_0 ⟨n + 1, h⟩) (hs15_0 ⟨n + 1, h⟩) (ms15_1 ⟨n + 1, h⟩) (hs15_1 ⟨n + 1, h⟩) (ms15_2 ⟨n + 1, h⟩) (hs15_2 ⟨n + 1, h⟩) (ms15_3 ⟨n + 1, h⟩) (hs15_3 ⟨n + 1, h⟩) (ms15_4 ⟨n + 1, h⟩) (hs15_4 ⟨n + 1, h⟩) scM15_0 (Memref.isWhole_whole _) (fun h' => h0 ((hcond15_0 ⟨n + 1, h⟩).mp h')) (fun h' => h1 ((hcond15_1 ⟨n + 1, h⟩).mp h')) (iblk15 V c 0 ⟨n + 1, h⟩) (iblk15 V c 1 ⟨n + 1, h⟩) (iblk15 V c 2 ⟨n + 1, h⟩) _ j⟩

/-- So after point `n` the carried row holds, column by column, the sums over the tiles so far. -/
theorem row15_eq (c : Dev nD) (j : Fin 512) (n : ℕ) (h : n < cfg15.N) :
    (outsAt15 V c n h).2.2 (ix2 0 (lo15 j)) = ∑ t ∈ Finset.range (n + 1), tsum15 V c j t
    ∧ (outsAt15 V c n h).2.2 (ix2 0 (hi15 j)) = ∑ t ∈ Finset.range (n + 1), tsq15 V c j t :=
  ⟨steps_eq_sum15 (tsum15 V c j) cfg15.N (fun n h => (outsAt15 V c n h).2.2 (ix2 0 (lo15 j)))
      (fun h => (row15_zero V c j h).1) (fun n h => (row15_succ V c j n h).1) n h,
    steps_eq_sum15 (tsq15 V c j) cfg15.N (fun n h => (outsAt15 V c n h).2.2 (ix2 0 (hi15 j)))
      (fun h => (row15_zero V c j h).2) (fun n h => (row15_succ V c j n h).2) n h⟩

/-- The sums over all the tiles are the column sums of the whole product, and of its squares. -/
theorem tsum15_all (c : Dev nD) (j : Fin 512) :
    ∑ t ∈ Finset.range 25, tsum15 V c j t = Spec.colSum (Z15 V c) j := by
  have hN : cfg15.N = 25 := N_15
  rw [Finset.sum_range]
  show _ = ∑ i : Fin 50000, Z15 V c (ix2 i j)
  rw [sum_rows_tiles15]
  refine Finset.sum_congr rfl fun t _ => ?_
  have ht : t.val < cfg15.N := by have := t.isLt; omega
  unfold tsum15
  rw [dif_pos ht]
  exact Finset.sum_congr rfl fun r _ =>
    zb15_apply V c ⟨t.val, ht⟩ r j ⟨2000 * t.val + r.val, by have := t.isLt; have := r.isLt; omega⟩ rfl

theorem tsq15_all (c : Dev nD) (j : Fin 512) :
    ∑ t ∈ Finset.range 25, tsq15 V c j t = Spec.colSumSq (Z15 V c) j := by
  have hN : cfg15.N = 25 := N_15
  rw [Finset.sum_range]
  show _ = ∑ i : Fin 50000, Z15 V c (ix2 i j) * Z15 V c (ix2 i j)
  rw [sum_rows_tiles15]
  refine Finset.sum_congr rfl fun t _ => ?_
  have ht : t.val < cfg15.N := by have := t.isLt; omega
  unfold tsq15
  rw [dif_pos ht]
  exact Finset.sum_congr rfl fun r _ => by
    rw [zb15_apply V c ⟨t.val, ht⟩ r j ⟨2000 * t.val + r.val, by have := t.isLt; have := r.isLt; omega⟩ rfl]

/-! ## The two output arrays after the region -/

/-- The statistics row: the column sums in its first half, the column sums of squares in its second. -/
def stats15 (Z : Spec.Mx 50000 512) : Spec.Mx 1 1024 := fun i =>
  if h : (i 1).val < 512 then Spec.colSum Z ⟨(i 1).val, h⟩
  else Spec.colSumSq Z ⟨(i 1).val - 512, by have : (i 1).val < 1024 := (i 1).isLt; omega⟩

theorem stats15_lo (Z : Spec.Mx 50000 512) (j : Fin 512) : stats15 Z (ix2 0 (lo15 j)) = Spec.colSum Z j := by
  unfold stats15
  have hq : ((ix2 (0 : Fin 1) (lo15 j) : S1x1024.Idx) 1).val < 512 := j.isLt
  rw [dif_pos hq]
theorem stats15_hi (Z : Spec.Mx 50000 512) (j : Fin 512) : stats15 Z (ix2 0 (hi15 j)) = Spec.colSumSq Z j := by
  unfold stats15
  have hq : ¬((ix2 (0 : Fin 1) (hi15 j) : S1x1024.Idx) 1).val < 512 := by
    show ¬ 512 + j.val < 512; omega
  rw [dif_neg hq]
  exact congrArg (Spec.colSumSq Z) (Fin.ext (by show 512 + j.val - 512 = j.val; omega))

/-- What point `t` writes back of the product is block `t` of the whole product. -/
theorem flushed15_3_eq (c : Dev nD) (t : Fin cfg15.N) :
    (dat15 V c).flushed 3 t = ((cfg15.win 3).blk t).view.read (Elt Ideal) (Z15 V c) := by
  show (cfg15.win 3).cut (grid15.coords t) ((dat15 V c).after 3 t) = _
  rw [after15_3, outsAt15_fst]
  funext y
  obtain ⟨r, j, rfl⟩ : ∃ (r : Fin 2000) (j : Fin 512), y = ix2 r j := ⟨y 0, y 1, eq_ix2 y⟩
  have hi : (⟨2000 * t.val + r.val, by have hN : cfg15.N = 25 := N_15; have := t.isLt; have := r.isLt; omega⟩ : Fin 50000).val
      = 2000 * t.val + r.val := rfl
  refine Eq.trans ?_ (read_blk15_3 (Z15 V c) t r j _ hi).symm
  exact zb15_apply V c t r j _ hi

/-- The product array after the region is the whole product. -/
theorem z_eq15 (c : Dev nD) : (dat15 V c).arrAt 3 cfg15.N = Z15 V c :=
  (dat15 V c).arrAt_eq_of_cover 3 (Z15 V c) (fun t _ => flushed15_3_eq V c t) cover15_3

/-- What the last point writes back of the statistics is the whole statistics row. -/
theorem flushed15_4_eq (c : Dev nD) (t : Fin cfg15.N) (hf : (cfg15.win 4).flush t = true) :
    (dat15 V c).flushed 4 t = ((cfg15.win 4).blk t).view.read (Elt Ideal) (stats15 (Z15 V c)) := by
  have hN : cfg15.N = 25 := N_15
  have h24 : t.val = 24 := by have := (flush15_4 t).mp hf; have := t.isLt; omega
  have h0 : ¬t.val = 0 := by omega
  show (cfg15.win 4).cut (grid15.coords t) ((dat15 V c).after 4 t) = _
  rw [after15_4]
  funext y
  rw [read_blk15_4 (stats15 (Z15 V c)) t y]
  have e := outsAt15_C V c t h0 h24
  have e4 : (outsAt15 V c t.val t.isLt).2.1 = (outsAt15 V c t.val t.isLt).2.2 := by
    rw [e]; dsimp only
    exact out15_C_4_eq c (grid15.coords t) (ms15_0 t) (hs15_0 t) (ms15_1 t) (hs15_1 t) (ms15_2 t) (hs15_2 t) (ms15_3 t) (hs15_3 t) (ms15_4 t) (hs15_4 t) scM15_0 (Memref.isWhole_whole _) (fun h => h0 ((hcond15_0 t).mp h)) ((hcond15_1 t).mpr h24) (iblk15 V c 0 t) (iblk15 V c 1 t) (iblk15 V c 2 t) _
  show (outsAt15 V c t.val t.isLt).2.1 y = _
  rw [e4]
  obtain ⟨p, q, rfl⟩ : ∃ (p : Fin 1) (q : Fin 1024), y = ix2 p q := ⟨y 0, y 1, eq_ix2 y⟩
  obtain rfl : p = 0 := Fin.ext (by have := p.isLt; omega)
  have hr := fun j => row15_eq V c j t.val t.isLt
  have hq : (∃ j : Fin 512, q = lo15 j) ∨ (∃ j : Fin 512, q = hi15 j) := by
    by_cases h : q.val < 512
    · exact .inl ⟨⟨q.val, h⟩, Fin.ext rfl⟩
    · exact .inr ⟨⟨q.val - 512, by have := q.isLt; omega⟩, Fin.ext (by show q.val = 512 + (q.val - 512); omega)⟩
  rcases hq with ⟨j, rfl⟩ | ⟨j, rfl⟩
  · rw [(hr j).1, h24, stats15_lo]; exact tsum15_all V c j
  · rw [(hr j).2, h24, stats15_hi]; exact tsq15_all V c j

/-- The statistics array after the region is the whole statistics row. -/
theorem stats_arr15 (c : Dev nD) : (dat15 V c).arrAt 4 cfg15.N = stats15 (Z15 V c) :=
  (dat15 V c).arrAt_eq_of_cover 4 (stats15 (Z15 V c)) (fun t hf => flushed15_4_eq V c t hf) cover15_4

/-- Column by column: the first half holds the column sums of the product, the second those of its squares. -/
theorem stats_eq15 (c : Dev nD) (j : Fin 512) :
    (dat15 V c).arrAt 4 cfg15.N (ix2 0 (lo15 j)) = Spec.colSum (Z15 V c) j
    ∧ (dat15 V c).arrAt 4 cfg15.N (ix2 0 (hi15 j)) = Spec.colSumSq (Z15 V c) j := by
  rw [stats_arr15]
  exact ⟨stats15_lo _ j, stats15_hi _ j⟩

end Cert.KernelIdeal.HandValue

end
-- ==== Proof.KI.Val16.lean ====
/-
  The value of the second stage's region, at the extended reals.

  The region walks 50000 rows in 25 tiles of 2000. At each tile it normalises the tile's rows with a
  mean row, a variance row, a gain row and a bias row, rectifies them, multiplies by the weights, and
  stores the tile's product; it adds the product's column sums and column sums of squares to a
  one-row accumulator (zeroed before the first tile), and after the last tile copies the accumulator
  out. This module reads that off: the product array is the specification's `mm (bnRelu …) w`, and the
  statistics row holds its column sums and column sums of squares over all rows. Addition of extended
  reals is commutative and associative, so regrouping the tiles' partial sums needs no finiteness.
-/
import proofs.«427833_j20194936226511_1_alg».proof.Proof.Gen.KernelIdeal.Launch
import proofs.«427833_j20194936226511_1_alg».proof.Proof.Gen.KernelIdeal.Skeleton
import proofs.«427833_j20194936226511_1_alg».proof.Proof.Gen.KernelIdeal.Points
import proofs.«427833_j20194936226511_1_alg».proof.Proof.Spec
import proofs.«427833_j20194936226511_1_alg».proof.Proof.KI.Reg16
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Mathlib.Algebra.BigOperators.Fin
import Mathlib.Logic.Equiv.Fin.Basic

noncomputable section

namespace Cert.KernelIdeal.HandValue

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)
open scoped BigOperators

/-! ## The product's operand indices, coordinate by coordinate

The product contracts the left operand's second axis with the right operand's first: at the output
index `(r, j)` and the contraction position `l` it reads the left operand at `(r, l)` and the right
operand at `(l, j)`. -/

theorem k16_dot_lhs_0 (j : S2000x128.Idx) (k : dot_S2000x512_S512x128_S2000x128_1_0_0_1_n_n.contr.Idx) :
    (dot_S2000x512_S512x128_S2000x128_1_0_0_1_n_n.lhsIdx j k 0 : ℕ) = j 0 := by
  simp [DotDims.lhsIdx, dot_S2000x512_S512x128_S2000x128_1_0_0_1_n_n] <;> rfl
theorem k16_dot_lhs_1 (j : S2000x128.Idx) (k : dot_S2000x512_S512x128_S2000x128_1_0_0_1_n_n.contr.Idx) :
    (dot_S2000x512_S512x128_S2000x128_1_0_0_1_n_n.lhsIdx j k 1 : ℕ) = k ⟨0, by decide⟩ := by
  simp [DotDims.lhsIdx, dot_S2000x512_S512x128_S2000x128_1_0_0_1_n_n] <;> rfl
theorem k16_dot_rhs_0 (j : S2000x128.Idx) (k : dot_S2000x512_S512x128_S2000x128_1_0_0_1_n_n.contr.Idx) :
    (dot_S2000x512_S512x128_S2000x128_1_0_0_1_n_n.rhsIdx j k 0 : ℕ) = k ⟨0, by decide⟩ := by
  simp [DotDims.rhsIdx, dot_S2000x512_S512x128_S2000x128_1_0_0_1_n_n] <;> rfl
theorem k16_dot_rhs_1 (j : S2000x128.Idx) (k : dot_S2000x512_S512x128_S2000x128_1_0_0_1_n_n.contr.Idx) :
    (dot_S2000x512_S512x128_S2000x128_1_0_0_1_n_n.rhsIdx j k 1 : ℕ) = j 1 := by
  simp [DotDims.rhsIdx, dot_S2000x512_S512x128_S2000x128_1_0_0_1_n_n] <;> rfl

/-- A product into the zero accumulator, read at `(r, j)`: the sum over the contracted axis. -/
theorem k16_matmul_apply (a : FVec Ideal S2000x512 .bf16) (w : FVec Ideal S512x128 .bf16) (r : Fin 2000) (j : Fin 128) :
    matmul (F := Ideal) dot_S2000x512_S512x128_S2000x128_1_0_0_1_n_n none a w (constant S2000x128 .f32 0x00000000#32) (ix2 r j)
      = ∑ l : Fin 512, a (ix2 r l) * w (ix2 l j) := by
  refine (Ideal.matmul_constant_zero_apply dot_S2000x512_S512x128_S2000x128_1_0_0_1_n_n none a w (ix2 r j)).trans ?_
  rw [← Equiv.sum_comp (contrEquiv1 dot_S2000x512_S512x128_S2000x128_1_0_0_1_n_n 512 rfl rfl).symm]
  refine Finset.sum_congr rfl fun l _ => ?_
  have hk := contrEquiv1_symm_val dot_S2000x512_S512x128_S2000x128_1_0_0_1_n_n 512 rfl rfl l
  refine congrArg₂ (· * ·) (congrArg a (funext fun ax => Fin.ext ?_)) (congrArg w (funext fun ax => Fin.ext ?_))
  · match ax with
    | ⟨0, _⟩ => exact k16_dot_lhs_0 _ _
    | ⟨1, _⟩ => exact (k16_dot_lhs_1 _ _).trans hk
  · match ax with
    | ⟨0, _⟩ => exact (k16_dot_rhs_0 _ _).trans hk
    | ⟨1, _⟩ => exact k16_dot_rhs_1 _ _

/-! ## The payloads at an index -/

/-- The tile's product at `(r, j)`: the sum over `l` of the normalised, rectified entry `(r, l)` of the
    block (gain `g`, mean `mu`, variance `var`, bias `b`, each one row) times the weight `(l, j)`. The
    change of float format in between is the identity on the extended reals. -/
theorem k16_pay4_apply (z : Vec Ideal S2000x512 .f32) (g mu var b : Vec Ideal S1x512 .f32) (w : Vec Ideal S512x128 .bf16)
    (r : Fin 2000) (j : Fin 128) :
    k16_pay4 (F := Ideal) z g mu var b w (ix2 r j)
      = ∑ l : Fin 512, max (g (ix2 0 l) * (z (ix2 r l) - mu (ix2 0 l)) * Ideal.rsqrt (var (ix2 0 l) + Spec.bnEps) + b (ix2 0 l)) Spec.zero
          * w (ix2 l j) := by
  unfold k16_pay4
  refine (k16_matmul_apply _ _ r j).trans ?_
  refine Finset.sum_congr rfl fun l _ => ?_
  simp only [shapeCast_self]
  refine congrArg₂ (· * ·) ?_ rfl
  show max (broadcastTo S2000x512 g broadcasts_S1x512_S2000x512 (ix2 r l)
        * (z (ix2 r l) - broadcastTo S2000x512 mu broadcasts_S1x512_S2000x512 (ix2 r l))
        * broadcastTo S2000x512 (rsqrt (F := Ideal) (addf (F := Ideal) var (broadcast S1x512 (Scalar.ofBits (F := Ideal) .f32 0x3727C5AC#32)))) broadcasts_S1x512_S2000x512 (ix2 r l)
        + broadcastTo S2000x512 b broadcasts_S1x512_S2000x512 (ix2 r l)) (Scalar.ofBits (F := Ideal) .f32 0x00000000#32) = _
  rw [broadcastTo_1b_ab_apply g, broadcastTo_1b_ab_apply mu, broadcastTo_1b_ab_apply b, broadcastTo_1b_ab_apply (rsqrt (F := Ideal) _)]
  rfl

/-- The tile's column sums, as a row: at `(0, j)` the sum of the tile's product over its rows. -/
theorem k16_pay5_apply (z : Vec Ideal S2000x512 .f32) (g mu var b : Vec Ideal S1x512 .f32) (w : Vec Ideal S512x128 .bf16) (j : Fin 128) :
    k16_pay5 (F := Ideal) z g mu var b w (ix2 0 j) = ∑ r : Fin 2000, k16_pay4 (F := Ideal) z g mu var b w (ix2 r j) := by
  refine (shapeCast_a_1a_apply (multiReduction (F := Ideal) .add [0] S128 (k16_pay4 z g mu var b w) 0x00000000#32 reduces_S2000x128_S128 (.inl rfl) rfl)
    shapeCasts_S128_S1x128 0 j).trans ?_
  refine (Ideal.multiReduction_add_single (k16_pay4 (F := Ideal) z g mu var b w) 0x00000000#32 reduces_S2000x128_S128 (.inl rfl) rfl (ix1 j)).trans ?_
  refine Finset.sum_congr rfl fun r _ => congrArg (k16_pay4 (F := Ideal) z g mu var b w) ?_
  funext c; match c with | ⟨0, _⟩ => rfl | ⟨1, _⟩ => rfl

/-- The tile's column sums of squares, as a row. -/
theorem k16_pay6_apply (z : Vec Ideal S2000x512 .f32) (g mu var b : Vec Ideal S1x512 .f32) (w : Vec Ideal S512x128 .bf16) (j : Fin 128) :
    k16_pay6 (F := Ideal) z g mu var b w (ix2 0 j)
      = ∑ r : Fin 2000, k16_pay4 (F := Ideal) z g mu var b w (ix2 r j) * k16_pay4 (F := Ideal) z g mu var b w (ix2 r j) := by
  refine (shapeCast_a_1a_apply (multiReduction (F := Ideal) .add [0] S128 (mulf (k16_pay4 z g mu var b w) (k16_pay4 z g mu var b w)) 0x00000000#32 reduces_S2000x128_S128 (.inl rfl) rfl)
    shapeCasts_S128_S1x128 0 j).trans ?_
  refine (Ideal.multiReduction_add_single (mulf (k16_pay4 (F := Ideal) z g mu var b w) (k16_pay4 (F := Ideal) z g mu var b w)) 0x00000000#32 reduces_S2000x128_S128 (.inl rfl) rfl (ix1 j)).trans ?_
  refine Finset.sum_congr rfl fun r _ => ?_
  have e : reduces_S2000x128_S128.lift (ix1 j) r = ix2 r j := by
    funext c; match c with | ⟨0, _⟩ => rfl | ⟨1, _⟩ => rfl
  rw [e]; rfl

/-- The accumulator's first half after a tile: what it held plus the tile's row of sums. -/
theorem k16_pay1_apply (row : FVec Ideal S1x128 .f32) (acc : Vec Ideal S1x128 .f32) (i : S1x128.Idx) :
    k16_pay1 (F := Ideal) row acc i = acc i + row i :=
  congrFun (shapeCast_self (addf (F := Ideal) acc row) shapeCasts_S1x128_S1x128) i

/-- The accumulator's second half after a tile: what it held plus the tile's row of sums of squares. -/
theorem k16_pay2_apply (row : FVec Ideal S1x128 .f32) (acc : Vec Ideal S1x128 .f32) (i : S1x128.Idx) :
    k16_pay2 (F := Ideal) row acc i = acc i + row i :=
  congrFun (shapeCast_self (addf (F := Ideal) acc row) shapeCasts_S1x128_S1x128) i

/-- The accumulator's reset: the zero word everywhere. -/
theorem k16_pay3_apply (i : S1x256.Idx) : k16_pay3 (F := Ideal) i = Spec.zero :=
  congrFun (shapeCast_self (broadcast S1x256 (Scalar.ofBits (F := Ideal) .f32 0x00000000#32)) shapeCasts_S1x256_S1x256) i

/-! ## Regrouping: the tiles' partial sums are the sum over all rows

The grid walks the rows in 25 tiles of 2000; row `r` of tile `t` is row `2000 t + r`. A sum over all
50000 rows is the sum over the tiles of the sums over a tile's rows: addition of extended reals is
commutative and associative, so no finiteness is needed. -/

/-- Row `r` of tile `t`. -/
def k16_rowOf (t : Fin 25) (r : Fin 2000) : Fin 50000 :=
  ⟨2000 * t.val + r.val, by have := t.isLt; have := r.isLt; omega⟩

theorem k16_rowOf_val (t : Fin 25) (r : Fin 2000) : (k16_rowOf t r).val = 2000 * t.val + r.val := rfl

theorem k16_sum_tiles (f : Fin 50000 → EReal) :
    ∑ t : Fin 25, ∑ r : Fin 2000, f (k16_rowOf t r) = ∑ i : Fin 50000, f i := by
  refine (Fintype.sum_prod_type' (fun t r => f (k16_rowOf t r))).symm.trans ?_
  refine Fintype.sum_equiv ((finProdFinEquiv (m := 25) (n := 2000)).trans (finCongr (by norm_num))) _ _ fun x => ?_
  refine congrArg f (Fin.ext ?_)
  simp [k16_rowOf, finProdFinEquiv]
  omega

/-- The sum of `f` over tile `t`'s rows; zero past the last tile. -/
def k16_tileSum (f : Fin 50000 → EReal) (t : ℕ) : EReal :=
  if h : t < 25 then ∑ r : Fin 2000, f (k16_rowOf ⟨t, h⟩ r) else 0

theorem k16_tileSum_of_lt (f : Fin 50000 → EReal) (t : ℕ) (h : t < 25) :
    k16_tileSum f t = ∑ r : Fin 2000, f (k16_rowOf ⟨t, h⟩ r) := dif_pos h

/-- The 25 tiles' sums, added in the grid's order, are the sum over all rows. -/
theorem k16_sum_range_tiles (f : Fin 50000 → EReal) :
    ∑ t ∈ Finset.range 25, k16_tileSum f t = ∑ i : Fin 50000, f i := by
  rw [Finset.sum_range]
  exact (Finset.sum_congr rfl fun t _ => k16_tileSum_of_lt f t.val t.isLt).trans (k16_sum_tiles f)

/-! ## One point, against the whole arrays

Over variables: the blocks `x0 … x5` the body loads at a point, and the arrays `M0 … M5` they are blocks
of. Tile `n`'s block of the first operand holds rows `2000 n …` of its array; the five other operands
are whole. -/

section Point
variable (x0 : Vec Ideal S2000x512 .f32) (x1 x2 x3 x4 : Vec Ideal S1x512 .f32) (x5 : Vec Ideal S512x128 .bf16)
variable (M0 : Spec.Mx 50000 512) (M1 M2 M3 M4 : Spec.Mx 1 512) (M5 : Spec.Mx 512 128)

/-- The whole product: the rows normalised with mean `M1`, variance `M2`, gain `M3`, bias `M4`,
    rectified, times the weights. -/
abbrev k16_prod : Spec.Mx 50000 128 :=
  Spec.mm (Spec.bnRelu M0 (fun l => M1 (ix2 0 l)) (fun l => M2 (ix2 0 l)) (fun l => M3 (ix2 0 l)) (fun l => M4 (ix2 0 l))) M5

/-- The tile's product at `(r, j)` is the whole product at the tile's row. (The body passes the gain
    first, then the mean, the variance and the bias.) -/
theorem k16_point4 (r : Fin 2000) (j : Fin 128) (ir : Fin 50000)
    (h0 : ∀ l : Fin 512, x0 (ix2 r l) = M0 (ix2 ir l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ l : Fin 512, x5 (ix2 l j) = M5 (ix2 l j)) :
    k16_pay4 (F := Ideal) x0 x3 x1 x2 x4 x5 (ix2 r j) = k16_prod M0 M1 M2 M3 M4 M5 (ix2 ir j) := by
  rw [k16_pay4_apply]
  show _ = ∑ l : Fin 512, max (M3 (ix2 0 l) * (M0 (ix2 ir l) - M1 (ix2 0 l)) * Ideal.rsqrt (M2 (ix2 0 l) + Spec.bnEps) + M4 (ix2 0 l)) Spec.zero
      * M5 (ix2 l j)
  refine Finset.sum_congr rfl fun l _ => ?_
  rw [h0, h1, h2, h3, h4, h5]

/-- Tile `n`'s row of column sums is the sum of the whole product's column over the tile's rows. -/
theorem k16_point5 (n : ℕ) (hn : n < 25) (j : Fin 128)
    (h0 : ∀ (r : Fin 2000) (l : Fin 512), x0 (ix2 r l) = M0 (ix2 (k16_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 128), x5 (ix2 l j) = M5 (ix2 l j)) :
    k16_pay5 (F := Ideal) x0 x3 x1 x2 x4 x5 (ix2 0 j) = k16_tileSum (fun i => k16_prod M0 M1 M2 M3 M4 M5 (ix2 i j)) n := by
  rw [k16_pay5_apply, k16_tileSum_of_lt _ n hn]
  exact Finset.sum_congr rfl fun r _ =>
    k16_point4 x0 x1 x2 x3 x4 x5 M0 M1 M2 M3 M4 M5 r j (k16_rowOf ⟨n, hn⟩ r) (h0 r) h1 h2 h3 h4 (fun l => h5 l j)

/-- Tile `n`'s row of column sums of squares likewise. -/
theorem k16_point6 (n : ℕ) (hn : n < 25) (j : Fin 128)
    (h0 : ∀ (r : Fin 2000) (l : Fin 512), x0 (ix2 r l) = M0 (ix2 (k16_rowOf ⟨n, hn⟩ r) l))
    (h1 : ∀ l : Fin 512, x1 (ix2 0 l) = M1 (ix2 0 l)) (h2 : ∀ l : Fin 512, x2 (ix2 0 l) = M2 (ix2 0 l))
    (h3 : ∀ l : Fin 512, x3 (ix2 0 l) = M3 (ix2 0 l)) (h4 : ∀ l : Fin 512, x4 (ix2 0 l) = M4 (ix2 0 l))
    (h5 : ∀ (l : Fin 512) (j : Fin 128), x5 (ix2 l j) = M5 (ix2 l j)) :
    k16_pay6 (F := Ideal) x0 x3 x1 x2 x4 x5 (ix2 0 j)
      = k16_tileSum (fun i => k16_prod M0 M1 M2 M3 M4 M5 (ix2 i j) * k16_prod M0 M1 M2 M3 M4 M5 (ix2 i j)) n := by
  rw [k16_pay6_apply, k16_tileSum_of_lt _ n hn]
  refine Finset.sum_congr rfl fun r _ => ?_
  rw [k16_point4 x0 x1 x2 x3 x4 x5 M0 M1 M2 M3 M4 M5 r j (k16_rowOf ⟨n, hn⟩ r) (h0 r) h1 h2 h3 h4 (fun l => h5 l j)]

end Point

/-! ## The accumulator row

The row has two halves: the first carries the sums, the second the sums of squares. -/

/-- Column `j` of the first half. -/
def k16_lo (j : Fin 128) : Fin 256 := ⟨j.val, by have := j.isLt; omega⟩
/-- Column `j` of the second half. -/
def k16_hi (j : Fin 128) : Fin 256 := ⟨128 + j.val, by have := j.isLt; omega⟩

/-- The row holds the first `n` tiles' sums of `Z`'s columns and of their squares. -/
def k16_AccIs (Z : Spec.Mx 50000 128) (n : ℕ) (acc : Vec Ideal S1x256 .f32) : Prop :=
  ∀ j : Fin 128,
    acc (ix2 0 (k16_lo j)) = ∑ t ∈ Finset.range n, k16_tileSum (fun i => Z (ix2 i j)) t
    ∧ acc (ix2 0 (k16_hi j)) = ∑ t ∈ Finset.range n, k16_tileSum (fun i => Z (ix2 i j) * Z (ix2 i j)) t

/-- After the first tile: the zero word plus the tile's rows. -/
theorem k16_AccIs_first (Z : Spec.Mx 50000 128) (acc : Vec Ideal S1x256 .f32) (row5 row6 : FVec Ideal S1x128 .f32)
    (hlo : ∀ j : Fin 128, acc (ix2 0 (k16_lo j)) = Spec.zero + row5 (ix2 0 j))
    (hhi : ∀ j : Fin 128, acc (ix2 0 (k16_hi j)) = Spec.zero + row6 (ix2 0 j))
    (h5 : ∀ j : Fin 128, row5 (ix2 0 j) = k16_tileSum (fun i => Z (ix2 i j)) 0)
    (h6 : ∀ j : Fin 128, row6 (ix2 0 j) = k16_tileSum (fun i => Z (ix2 i j) * Z (ix2 i j)) 0) :
    k16_AccIs Z 1 acc := fun j => by
  have hz : Spec.zero = 0 := Ideal.ofBits_zero_f32
  rw [hlo, hhi, h5, h6, hz, zero_add, zero_add, Finset.sum_range_one, Finset.sum_range_one]
  exact ⟨rfl, rfl⟩

/-- After a later tile: what the row held plus the tile's rows. -/
theorem k16_AccIs_next (Z : Spec.Mx 50000 128) (n : ℕ) (acc acc' : Vec Ideal S1x256 .f32) (row5 row6 : FVec Ideal S1x128 .f32)
    (h : k16_AccIs Z n acc)
    (hlo : ∀ j : Fin 128, acc' (ix2 0 (k16_lo j)) = acc (ix2 0 (k16_lo j)) + row5 (ix2 0 j))
    (hhi : ∀ j : Fin 128, acc' (ix2 0 (k16_hi j)) = acc (ix2 0 (k16_hi j)) + row6 (ix2 0 j))
    (h5 : ∀ j : Fin 128, row5 (ix2 0 j) = k16_tileSum (fun i => Z (ix2 i j)) n)
    (h6 : ∀ j : Fin 128, row6 (ix2 0 j) = k16_tileSum (fun i => Z (ix2 i j) * Z (ix2 i j)) n) :
    k16_AccIs Z (n + 1) acc' := fun j => by
  rw [hlo, hhi, h5, h6, (h j).1, (h j).2, Finset.sum_range_succ, Finset.sum_range_succ]
  exact ⟨rfl, rfl⟩

/-- After the last tile the row holds the column sums and the column sums of squares. -/
theorem k16_AccIs_last (Z : Spec.Mx 50000 128) (acc : Vec Ideal S1x256 .f32) (h : k16_AccIs Z 25 acc) (j : Fin 128) :
    acc (ix2 0 (k16_lo j)) = Spec.colSum Z j ∧ acc (ix2 0 (k16_hi j)) = Spec.colSumSq Z j := by
  rw [(h j).1, (h j).2, k16_sum_range_tiles, k16_sum_range_tiles]
  exact ⟨rfl, rfl⟩

/-! ## The accumulator row's two halves, as rectangles -/

theorem k16_hz : (![0, 0] : Fin 2 → Nat) = fun _ => 0 := funext fun a => by fin_cases a <;> rfl

/-- The first half of the row. -/
abbrev k16_rLo : Rect S1x256 := Rect.unit (s := S1x256) ![0, 0] S1x128.size inb_S1x256_S1x128_0_0
/-- The second half of the row. -/
abbrev k16_rHi : Rect S1x256 := Rect.unit (s := S1x256) ![0, 128] S1x128.size inb_S1x256_S1x128_0_128
/-- The whole row. -/
abbrev k16_rAll : Rect S1x256 := Rect.unit (s := S1x256) ![0, 0] S1x256.size inb_S1x256_S1x256_0_0

/-- Column `j` of the first half sits at column `j` of the row. -/
theorem k16_rLo_emb (j : Fin 128) : k16_rLo.emb (ix2 (0 : Fin 1) j) = ix2 (0 : Fin 1) (k16_lo j) := by
  funext a; apply Fin.ext
  match a with
  | ⟨0, _⟩ => rfl
  | ⟨1, _⟩ => show 0 + 1 * j.val = j.val; omega

/-- Column `j` of the second half sits `j` columns past the first half. -/
theorem k16_rHi_emb (j : Fin 128) : k16_rHi.emb (ix2 (0 : Fin 1) j) = ix2 (0 : Fin 1) (k16_hi j) := by
  funext a; apply Fin.ext
  match a with
  | ⟨0, _⟩ => rfl
  | ⟨1, _⟩ => show 128 + 1 * j.val = 128 + j.val; omega

/-- The whole row's rectangle places every index at itself. -/
theorem k16_rAll_idx (y : S1x256.Idx) : k16_rAll.toLoadRect.idx y = y := by
  funext a; apply Fin.ext
  match a with
  | ⟨0, _⟩ => show 0 + 1 * (y 0).val = (y 0).val; omega
  | ⟨1, _⟩ => show 0 + 1 * (y 1).val = (y 1).val; omega

/-- A column of the first half is not in the second half's rectangle … -/
theorem k16_lo_not_mem_hi (j : Fin 128) : (ix2 (0 : Fin 1) (k16_lo j) : S1x256.Idx) ∉ k16_rHi.set := by
  rw [Rect.mem_set_unit]
  intro h
  have h1 : 128 ≤ j.val := (h 1).1
  have := j.isLt; omega

/-- … and a column of the second half is not in the first half's. -/
theorem k16_hi_not_mem_lo (j : Fin 128) : (ix2 (0 : Fin 1) (k16_hi j) : S1x256.Idx) ∉ k16_rLo.set := by
  rw [Rect.mem_set_unit]
  intro h
  have h1 : 128 + j.val < 0 + 128 := (h 1).2
  omega

section Canon
variable {F : FTy → Type} [FloatOps F]

/-- After the two half stores (the second half's last), the row's second half reads the second store's payload … -/
theorem k16_canon_hi (wHi wLo : Vec F S1x128 .f32) (L : List (View.Piece (Elt F) S1x256 .f32)) (j : Fin 128) :
    View.canon ((⟨k16_rHi, wHi⟩ : View.Piece (Elt F) S1x256 .f32) :: ⟨k16_rLo, wLo⟩ :: L) (ix2 (0 : Fin 1) (k16_hi j)) = wHi (ix2 (0 : Fin 1) j) := by
  rw [← k16_rHi_emb j]
  exact View.canon_cons_emb k16_rHi wHi _ (ix2 (0 : Fin 1) j)

/-- … and its first half the first store's. -/
theorem k16_canon_lo (wHi wLo : Vec F S1x128 .f32) (L : List (View.Piece (Elt F) S1x256 .f32)) (j : Fin 128) :
    View.canon ((⟨k16_rHi, wHi⟩ : View.Piece (Elt F) S1x256 .f32) :: ⟨k16_rLo, wLo⟩ :: L) (ix2 (0 : Fin 1) (k16_lo j)) = wLo (ix2 (0 : Fin 1) j) := by
  refine (View.canon_cons_of_not_mem (⟨k16_rHi, wHi⟩ : View.Piece (Elt F) S1x256 .f32) (⟨k16_rLo, wLo⟩ :: L) (k16_lo_not_mem_hi j)).trans ?_
  rw [← k16_rLo_emb j]
  exact View.canon_cons_emb k16_rLo wLo L (ix2 (0 : Fin 1) j)

/-- A load of the first half reads the row's first half … -/
theorem k16_ld_lo (xs : Vec F S1x256 .f32) (j : Fin 128) : View.ld xs k16_rLo (ix2 (0 : Fin 1) j) = xs (ix2 (0 : Fin 1) (k16_lo j)) :=
  congrArg xs (k16_rLo_emb j)
/-- … and a load of the second half its second half. -/
theorem k16_ld_hi (xs : Vec F S1x256 .f32) (j : Fin 128) : View.ld xs k16_rHi (ix2 (0 : Fin 1) j) = xs (ix2 (0 : Fin 1) (k16_hi j)) :=
  congrArg xs (k16_rHi_emb j)

/-- A load of the first half after the zeroing store alone reads the zero row … -/
theorem k16_readCov_lo_zero {sg : RefSig} {κ : Kind} {sp : Space} (v : View sg κ sp S1x256 .f32) (w0 : Vec F S1x256 .f32) (j : Fin 128) :
    v.readCov [(⟨k16_rAll, w0⟩ : View.Piece (Elt F) S1x256 .f32)] k16_rLo.toLoadRect (ix2 (0 : Fin 1) j) = w0 (ix2 (0 : Fin 1) (k16_lo j)) := by
  rw [View.readCov_eq_canon', View.canon_unit_zero k16_hz]
  exact congrArg w0 (k16_rLo_emb j)

/-- … and a load of the second half after the zeroing store and the first half's store still reads the zero row. -/
theorem k16_readCov_hi_zero {sg : RefSig} {κ : Kind} {sp : Space} (v : View sg κ sp S1x256 .f32) (wLo : Vec F S1x128 .f32) (w0 : Vec F S1x256 .f32) (j : Fin 128) :
    v.readCov [(⟨k16_rLo, wLo⟩ : View.Piece (Elt F) S1x256 .f32), ⟨k16_rAll, w0⟩] k16_rHi.toLoadRect (ix2 (0 : Fin 1) j) = w0 (ix2 (0 : Fin 1) (k16_hi j)) := by
  rw [View.readCov_eq_canon']
  show View.canon _ (k16_rHi.emb (ix2 (0 : Fin 1) j)) = _
  rw [k16_rHi_emb j]
  refine (View.canon_cons_of_not_mem (⟨k16_rLo, wLo⟩ : View.Piece (Elt F) S1x256 .f32) [⟨k16_rAll, w0⟩] (k16_hi_not_mem_lo j)).trans ?_
  rw [View.canon_unit_zero k16_hz]

/-- A load of the whole row after a list of stores reads what they leave. -/
theorem k16_readCov_all {sg : RefSig} {κ : Kind} {sp : Space} (v : View sg κ sp S1x256 .f32) (L : List (View.Piece (Elt F) S1x256 .f32)) :
    v.readCov L k16_rAll.toLoadRect = View.canon L := by
  rw [View.readCov_eq_canon']
  funext y
  exact congrArg (View.canon L) (k16_rAll_idx y)

end Canon

/-! ## The index maps over the grid, and the blocks of the two output arrays -/

/-- The first operand's and the product's blocks are the point's block of rows; every other block is its whole
    array. -/
theorem k16_idx_facts : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0
    ∧ win16_6.index t (0 : Fin 2) = t.val ∧ win16_6.index t (1 : Fin 2) = 0
    ∧ win16_7.index t (0 : Fin 2) = 0 ∧ win16_7.index t (1 : Fin 2) = 0 :=
  (by decide +kernel : ∀ t : Fin grid16.N, _)

/-- A grid point as a tile number. -/
def k16_tile (t : Fin cfg16.N) : Fin 25 := ⟨t.val, by have hN : cfg16.N = 25 := N_16; have := t.isLt; omega⟩

/-- The last grid point. -/
def k16_tLast : Fin cfg16.N := ⟨24, by have hN : cfg16.N = 25 := N_16; omega⟩

/-- An index of the product array is in point `t`'s block iff each coordinate is in the block's range on its axis. -/
theorem k16_mem_blk6 (t : Fin cfg16.N) (i : S50000x128.Idx) :
    i ∈ ((cfg16.win 6).blk t).view.set ↔ ∀ a : Fin 2, win16_6.index t a * S2000x128.size a ≤ (i a).val
      ∧ (i a).val < win16_6.index t a * S2000x128.size a + S2000x128.size a := by
  show i ∈ ((View.whole (Pipeline.arrRef spec16 6)).slice (win16_6.rect t)).set ↔ _
  rw [View.set_slice_whole, Rect.mem_set_unit]
  exact Iff.rfl

/-- The point whose block holds a row: the row's number over the rows in a block. -/
theorem k16_pt_lt (i : S50000x128.Idx) : (i 0).val / 2000 < cfg16.N := by
  have hi0 : (i 0).val < 50000 := (i 0).isLt
  show (i 0).val / 2000 < grid16.N
  rw [N_16]; omega

/-- Every index of the product array is in some point's block, and every point writes its block back. -/
theorem k16_cover6 (i : S50000x128.Idx) :
    ∃ t : Fin cfg16.N, (cfg16.win 6).flush t = true ∧ i ∈ ((cfg16.win 6).blk t).view.set := by
  have hi1 : (i 1).val < 128 := (i 1).isLt
  obtain ⟨t, ht⟩ : ∃ t : Fin cfg16.N, t.val = (i 0).val / 2000 := ⟨⟨_, k16_pt_lt i⟩, rfl⟩
  obtain ⟨-, -, -, -, -, -, -, -, -, -, -, -, e60, e61, -, -⟩ := k16_idx_facts t
  refine ⟨t, flush16_6 t, ?_⟩
  rw [k16_mem_blk6]
  intro a
  match a with
  | ⟨0, _⟩ =>
    show win16_6.index t (0 : Fin 2) * 2000 ≤ (i 0).val ∧ (i 0).val < win16_6.index t (0 : Fin 2) * 2000 + 2000
    rw [e60, ht]; omega
  | ⟨1, _⟩ =>
    show win16_6.index t (1 : Fin 2) * 128 ≤ (i 1).val ∧ (i 1).val < win16_6.index t (1 : Fin 2) * 128 + 128
    rw [e61]; omega

/-- An index of the statistics row is in point `t`'s block iff each coordinate is in the block's range. -/
theorem k16_mem_blk7 (t : Fin cfg16.N) (i : S1x256.Idx) :
    i ∈ ((cfg16.win 7).blk t).view.set ↔ ∀ a : Fin 2, win16_7.index t a * S1x256.size a ≤ (i a).val
      ∧ (i a).val < win16_7.index t a * S1x256.size a + S1x256.size a := by
  show i ∈ ((View.whole (Pipeline.arrRef spec16 7)).slice (win16_7.rect t)).set ↔ _
  rw [View.set_slice_whole, Rect.mem_set_unit]
  exact Iff.rfl

/-- The last point writes the statistics row back, and its block is the whole row. -/
theorem k16_cover7 (i : S1x256.Idx) :
    ∃ t : Fin cfg16.N, (cfg16.win 7).flush t = true ∧ i ∈ ((cfg16.win 7).blk t).view.set := by
  have hi0 : (i 0).val < 1 := (i 0).isLt
  have hi1 : (i 1).val < 256 := (i 1).isLt
  obtain ⟨-, -, -, -, -, -, -, -, -, -, -, -, -, -, e70, e71⟩ := k16_idx_facts k16_tLast
  refine ⟨k16_tLast, (flush16_7 k16_tLast).mpr (by show 24 % 25 = 24; rfl), ?_⟩
  rw [k16_mem_blk7]
  intro a
  match a with
  | ⟨0, _⟩ =>
    show win16_7.index k16_tLast (0 : Fin 2) * 1 ≤ (i 0).val ∧ (i 0).val < win16_7.index k16_tLast (0 : Fin 2) * 1 + 1
    rw [e70]; omega
  | ⟨1, _⟩ =>
    show win16_7.index k16_tLast (1 : Fin 2) * 256 ≤ (i 1).val ∧ (i 1).val < win16_7.index k16_tLast (1 : Fin 2) * 256 + 256
    rw [e71]; omega

/-! ## What each case of the body leaves, read back as payloads

The body's run in each case names the pieces it stored (last store first). Read over nothing, they are
their canon; each load the payloads took is the loaded buffer's contents, or, for a load of the
accumulator after a store into it, what the stores before it left there. -/

open Cert.KernelIdeal.Hand

section Pieces
variable (c : Dev nD) (i : grid16.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .bf16) (harg6 : arg6.IsWhole) (arg7 : Memref sig .tc .vmem S2000x128 .f32) (harg7 : arg7.IsWhole) (arg8 : Memref sig .tc .vmem S1x256 .f32) (harg8 : arg8.IsWhole) (arg9 : Memref sig .tc .vmem S1x256 .f32) (harg9 : arg9.IsWhole)
  (x0 : Vec Ideal S2000x512 .f32) (x1 x2 x3 x4 : Vec Ideal S1x512 .f32) (x5 : Vec Ideal S512x128 .bf16)

/-- At the first point the product window holds the tile's product. -/
theorem k16_out_A_6 (hc0 : cond16_0 i) (hc1 : ¬cond16_1 i) :
    out16_A_6 c i arg1 harg1 arg2 harg2 arg3 harg3 arg4 harg4 arg5 harg5 arg6 harg6 arg7 harg7 arg8 harg8 arg9 harg9 hc0 hc1 x0 x1 x2 x3 x4 x5 = k16_pay4 (F := Ideal) x0 x3 x1 x2 x4 x5 := by
  unfold out16_A_6
  rw [View.read_writes_junk_eq_canon]
  unfold kernelRun16_A
  dsimp only
  sl_unfold_words
  rw [View.canon_unit_zero k16_hz]
  simp only [View.readAt_eq_ld, harg1.read_unread, harg2.read_unread, harg3.read_unread, harg4.read_unread, harg5.read_unread, harg6.read_unread,
    View.ld_unit_zero (S := S2000x512) k16_hz, View.ld_unit_zero (S := S1x512) k16_hz, View.ld_unit_zero (S := S512x128) k16_hz] <;> rfl

/-- At the first point the accumulator's first half holds the zero word plus the tile's column sums … -/
theorem k16_sout_A_lo (hc0 : cond16_0 i) (hc1 : ¬cond16_1 i) (j : Fin 128) :
    sout16_A_0 c i arg1 harg1 arg2 harg2 arg3 harg3 arg4 harg4 arg5 harg5 arg6 harg6 arg7 harg7 arg8 harg8 arg9 harg9 hc0 hc1 x0 x1 x2 x3 x4 x5 (ix2 (0 : Fin 1) (k16_lo j))
      = Spec.zero + k16_pay5 (F := Ideal) x0 x3 x1 x2 x4 x5 (ix2 (0 : Fin 1) j) := by
  unfold sout16_A_0
  rw [View.read_writes_junk_eq_canon]
  unfold kernelRun16_A
  dsimp only
  sl_unfold_words
  simp only [View.readAt_eq_ld, harg1.read_unread, harg2.read_unread, harg3.read_unread, harg4.read_unread, harg5.read_unread, harg6.read_unread,
    View.ld_unit_zero (S := S2000x512) k16_hz, View.ld_unit_zero (S := S1x512) k16_hz, View.ld_unit_zero (S := S512x128) k16_hz]
  refine (k16_canon_lo _ _ _ j).trans ?_
  refine (k16_pay1_apply _ _ _).trans ?_
  exact congrArg (· + _) ((k16_readCov_lo_zero _ _ j).trans (k16_pay3_apply _))

/-- … and its second half the zero word plus the tile's column sums of squares. -/
theorem k16_sout_A_hi (hc0 : cond16_0 i) (hc1 : ¬cond16_1 i) (j : Fin 128) :
    sout16_A_0 c i arg1 harg1 arg2 harg2 arg3 harg3 arg4 harg4 arg5 harg5 arg6 harg6 arg7 harg7 arg8 harg8 arg9 harg9 hc0 hc1 x0 x1 x2 x3 x4 x5 (ix2 (0 : Fin 1) (k16_hi j))
      = Spec.zero + k16_pay6 (F := Ideal) x0 x3 x1 x2 x4 x5 (ix2 (0 : Fin 1) j) := by
  unfold sout16_A_0
  rw [View.read_writes_junk_eq_canon]
  unfold kernelRun16_A
  dsimp only
  sl_unfold_words
  simp only [View.readAt_eq_ld, harg1.read_unread, harg2.read_unread, harg3.read_unread, harg4.read_unread, harg5.read_unread, harg6.read_unread,
    View.ld_unit_zero (S := S2000x512) k16_hz, View.ld_unit_zero (S := S1x512) k16_hz, View.ld_unit_zero (S := S512x128) k16_hz]
  refine (k16_canon_hi _ _ _ j).trans ?_
  refine (k16_pay2_apply _ _ _).trans ?_
  exact congrArg (· + _) ((k16_readCov_hi_zero _ _ _ j).trans (k16_pay3_apply _))

/-- At a point between the product window holds the tile's product. -/
theorem k16_out_B_6 (hc0 : ¬cond16_0 i) (hc1 : ¬cond16_1 i) (xs0 : Vec Ideal S1x256 .f32) :
    out16_B_6 c i arg1 harg1 arg2 harg2 arg3 harg3 arg4 harg4 arg5 harg5 arg6 harg6 arg7 harg7 arg8 harg8 arg9 harg9 hc0 hc1 x0 x1 x2 x3 x4 x5 xs0 = k16_pay4 (F := Ideal) x0 x3 x1 x2 x4 x5 := by
  unfold out16_B_6
  rw [View.read_writes_junk_eq_canon]
  unfold kernelRun16_B
  dsimp only
  sl_unfold_words
  rw [View.canon_unit_zero k16_hz]
  simp only [View.readAt_eq_ld, harg1.read_unread, harg2.read_unread, harg3.read_unread, harg4.read_unread, harg5.read_unread, harg6.read_unread,
    View.ld_unit_zero (S := S2000x512) k16_hz, View.ld_unit_zero (S := S1x512) k16_hz, View.ld_unit_zero (S := S512x128) k16_hz] <;> rfl

/-- At a point between the accumulator's first half holds what it held plus the tile's column sums … -/
theorem k16_sout_B_lo (hc0 : ¬cond16_0 i) (hc1 : ¬cond16_1 i) (xs0 : Vec Ideal S1x256 .f32) (j : Fin 128) :
    sout16_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k16_lo j))
      = xs0 (ix2 (0 : Fin 1) (k16_lo j)) + k16_pay5 (F := Ideal) x0 x3 x1 x2 x4 x5 (ix2 (0 : Fin 1) j) := by
  unfold sout16_B_0
  rw [View.read_writes_junk_eq_canon]
  unfold kernelRun16_B
  dsimp only
  sl_unfold_words
  simp only [View.readAt_eq_ld, harg1.read_unread, harg2.read_unread, harg3.read_unread, harg4.read_unread, harg5.read_unread, harg6.read_unread, harg9.read_unread,
    View.ld_unit_zero (S := S2000x512) k16_hz, View.ld_unit_zero (S := S1x512) k16_hz, View.ld_unit_zero (S := S512x128) k16_hz]
  refine (k16_canon_lo _ _ _ j).trans ?_
  refine (k16_pay1_apply _ _ _).trans ?_
  exact congrArg (· + _) (k16_ld_lo xs0 j)

/-- … and its second half what it held plus the tile's column sums of squares. -/
theorem k16_sout_B_hi (hc0 : ¬cond16_0 i) (hc1 : ¬cond16_1 i) (xs0 : Vec Ideal S1x256 .f32) (j : Fin 128) :
    sout16_B_0 c i arg1 harg1 arg2 harg2 arg3 harg3 arg4 harg4 arg5 harg5 arg6 harg6 arg7 harg7 arg8 harg8 arg9 harg9 hc0 hc1 x0 x1 x2 x3 x4 x5 xs0 (ix2 (0 : Fin 1) (k16_hi j))
      = xs0 (ix2 (0 : Fin 1) (k16_hi j)) + k16_pay6 (F := Ideal) x0 x3 x1 x2 x4 x5 (ix2 (0 : Fin 1) j) := by
  unfold sout16_B_0
  rw [View.read_writes_junk_eq_canon]
  unfold kernelRun16_B
  dsimp only
  sl_unfold_words
  simp only [View.readAt_eq_ld, harg1.read_unread, harg2.read_unread, harg3.read_unread, harg4.read_unread, harg5.read_unread, harg6.read_unread, harg9.read_unread,
    View.ld_unit_zero (S := S2000x512) k16_hz, View.ld_unit_zero (S := S1x512) k16_hz, View.ld_unit_zero (S := S512x128) k16_hz]
  refine (k16_canon_hi _ _ _ j).trans ?_
  refine (k16_pay2_apply _ _ _).trans ?_
  exact congrArg (· + _) (k16_ld_hi xs0 j)

/-- At the last point the product window holds the tile's product. -/
theorem k16_out_C_6 (hc0 : ¬cond16_0 i) (hc1 : cond16_1 i) (xs0 : Vec Ideal S1x256 .f32) :
    out16_C_6 c i arg1 harg1 arg2 harg2 arg3 harg3 arg4 harg4 arg5 harg5 arg6 harg6 arg7 harg7 arg8 harg8 arg9 harg9 hc0 hc1 x0 x1 x2 x3 x4 x5 xs0 = k16_pay4 (F := Ideal) x0 x3 x1 x2 x4 x5 := by
  unfold out16_C_6
  rw [View.read_writes_junk_eq_canon]
  unfold kernelRun16_C
  dsimp only
  sl_unfold_words
  rw [View.canon_unit_zero k16_hz]
  simp only [View.readAt_eq_ld, harg1.read_unread, harg2.read_unread, harg3.read_unread, harg4.read_unread, harg5.read_unread, harg6.read_unread,
    View.ld_unit_zero (S := S2000x512) k16_hz, View.ld_unit_zero (S := S1x512) k16_hz, View.ld_unit_zero (S := S512x128) k16_hz] <;> rfl

/-- At the last point the accumulator's first half holds what it held plus the tile's column sums … -/
theorem k16_sout_C_lo (hc0 : ¬cond16_0 i) (hc1 : cond16_1 i) (xs0 : Vec Ideal S1x256 .f32) (j : Fin 128) :
    sout16_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k16_lo j))
      = xs0 (ix2 (0 : Fin 1) (k16_lo j)) + k16_pay5 (F := Ideal) x0 x3 x1 x2 x4 x5 (ix2 (0 : Fin 1) j) := by
  unfold sout16_C_0
  rw [View.read_writes_junk_eq_canon]
  unfold kernelRun16_C
  dsimp only
  sl_unfold_words
  simp only [View.readAt_eq_ld, harg1.read_unread, harg2.read_unread, harg3.read_unread, harg4.read_unread, harg5.read_unread, harg6.read_unread, harg9.read_unread,
    View.ld_unit_zero (S := S2000x512) k16_hz, View.ld_unit_zero (S := S1x512) k16_hz, View.ld_unit_zero (S := S512x128) k16_hz]
  refine (k16_canon_lo _ _ _ j).trans ?_
  refine (k16_pay1_apply _ _ _).trans ?_
  exact congrArg (· + _) (k16_ld_lo xs0 j)

/-- … and its second half what it held plus the tile's column sums of squares. -/
theorem k16_sout_C_hi (hc0 : ¬cond16_0 i) (hc1 : cond16_1 i) (xs0 : Vec Ideal S1x256 .f32) (j : Fin 128) :
    sout16_C_0 c i arg1 harg1 arg2 harg2 arg3 harg3 arg4 harg4 arg5 harg5 arg6 harg6 arg7 harg7 arg8 harg8 arg9 harg9 hc0 hc1 x0 x1 x2 x3 x4 x5 xs0 (ix2 (0 : Fin 1) (k16_hi j))
      = xs0 (ix2 (0 : Fin 1) (k16_hi j)) + k16_pay6 (F := Ideal) x0 x3 x1 x2 x4 x5 (ix2 (0 : Fin 1) j) := by
  unfold sout16_C_0
  rw [View.read_writes_junk_eq_canon]
  unfold kernelRun16_C
  dsimp only
  sl_unfold_words
  simp only [View.readAt_eq_ld, harg1.read_unread, harg2.read_unread, harg3.read_unread, harg4.read_unread, harg5.read_unread, harg6.read_unread, harg9.read_unread,
    View.ld_unit_zero (S := S2000x512) k16_hz, View.ld_unit_zero (S := S1x512) k16_hz, View.ld_unit_zero (S := S512x128) k16_hz]
  refine (k16_canon_hi _ _ _ j).trans ?_
  refine (k16_pay2_apply _ _ _).trans ?_
  exact congrArg (· + _) (k16_ld_hi xs0 j)

/-- At the last point the statistics window receives the accumulator as the two half stores left it. -/
theorem k16_out_C_7 (hc0 : ¬cond16_0 i) (hc1 : cond16_1 i) (xs0 : Vec Ideal S1x256 .f32) :
    out16_C_7 c i arg1 harg1 arg2 harg2 arg3 harg3 arg4 harg4 arg5 harg5 arg6 harg6 arg7 harg7 arg8 harg8 arg9 harg9 hc0 hc1 x0 x1 x2 x3 x4 x5 xs0 = sout16_C_0 c i arg1 harg1 arg2 harg2 arg3 harg3 arg4 harg4 arg5 harg5 arg6 harg6 arg7 harg7 arg8 harg8 arg9 harg9 hc0 hc1 x0 x1 x2 x3 x4 x5 xs0 := by
  unfold out16_C_7 sout16_C_0
  rw [View.read_writes_junk_eq_canon, View.read_writes_junk_eq_canon]
  unfold kernelRun16_C
  dsimp only
  sl_unfold_words
  rw [View.canon_unit_zero k16_hz]
  exact k16_readCov_all _ _

end Pieces

/-! ## The region at the contents it is entered with -/

section Region
variable (V : (c : Dev nD) → (b : Ref sig .tc) → Buf (Elt Ideal) ((c : Thread nD τ).loc b))

/-- The arrays the region is entered with, as matrices: the rows to normalise; the mean, variance, gain and bias
    rows; the weights. -/
abbrev X16_0 (c : Dev nD) : Spec.Mx 50000 512 := V c (Pipeline.arrRef spec16 0)
abbrev X16_1 (c : Dev nD) : Spec.Mx 1 512 := V c (Pipeline.arrRef spec16 1)
abbrev X16_2 (c : Dev nD) : Spec.Mx 1 512 := V c (Pipeline.arrRef spec16 2)
abbrev X16_3 (c : Dev nD) : Spec.Mx 1 512 := V c (Pipeline.arrRef spec16 3)
abbrev X16_4 (c : Dev nD) : Spec.Mx 1 512 := V c (Pipeline.arrRef spec16 4)
abbrev X16_5 (c : Dev nD) : Spec.Mx 512 128 := V c (Pipeline.arrRef spec16 5)

/-- The region's product: the rows normalised with the mean row, the variance row, the gain row and the bias row,
    rectified, times the weights. -/
abbrev Z16 (c : Dev nD) : Spec.Mx 50000 128 :=
  Spec.mm (Spec.bnRelu (X16_0 V c) (fun l => X16_1 V c (ix2 0 l)) (fun l => X16_2 V c (ix2 0 l)) (fun l => X16_3 V c (ix2 0 l)) (fun l => X16_4 V c (ix2 0 l))) (X16_5 V c)

/-! ### The blocks the body loads are blocks of those arrays -/

/-- Point `t`'s block of the first operand is rows `2000 t …` of its array. -/
theorem k16_blk0 (c : Dev nD) (t : Fin cfg16.N) (r : Fin 2000) (l : Fin 512) :
    (iblk16 V c 0 t : Vec Ideal S2000x512 .f32) (ix2 r l) = X16_0 V c (ix2 (k16_rowOf (k16_tile t) r) l) := by
  obtain ⟨e0, e1, -⟩ := k16_idx_facts t
  show V c (Pipeline.arrRef spec16 0) (((cfg16.win 0).blk t).view.emb (ix2 r l)) = V c (Pipeline.arrRef spec16 0) (ix2 (k16_rowOf (k16_tile t) r) l)
  refine congrArg _ (funext fun a => Fin.ext ?_)
  match a with
  | ⟨0, _⟩ => show win16_0.index t (0 : Fin 2) * 2000 + 1 * r.val = 2000 * t.val + r.val; rw [e0]; omega
  | ⟨1, _⟩ => show win16_0.index t (1 : Fin 2) * 512 + 1 * l.val = l.val; rw [e1]; omega

/-- Every point's block of row operand 1 is the whole row. -/
theorem k16_blk1 (c : Dev nD) (t : Fin cfg16.N) (l : Fin 512) :
    (iblk16 V c 1 t : Vec Ideal S1x512 .f32) (ix2 (0 : Fin 1) l) = X16_1 V c (ix2 (0 : Fin 1) l) := by
  obtain ⟨-, -, e0, e1, -⟩ := k16_idx_facts t
  show V c (Pipeline.arrRef spec16 1) (((cfg16.win 1).blk t).view.emb (ix2 (0 : Fin 1) l)) = V c (Pipeline.arrRef spec16 1) (ix2 (0 : Fin 1) l)
  refine congrArg _ (funext fun a => Fin.ext ?_)
  match a with
  | ⟨0, _⟩ => show win16_1.index t (0 : Fin 2) * 1 + 1 * 0 = 0; rw [e0]
  | ⟨1, _⟩ => show win16_1.index t (1 : Fin 2) * 512 + 1 * l.val = l.val; rw [e1]; omega

/-- Every point's block of row operand 2 is the whole row. -/
theorem k16_blk2 (c : Dev nD) (t : Fin cfg16.N) (l : Fin 512) :
    (iblk16 V c 2 t : Vec Ideal S1x512 .f32) (ix2 (0 : Fin 1) l) = X16_2 V c (ix2 (0 : Fin 1) l) := by
  obtain ⟨-, -, -, -, e0, e1, -⟩ := k16_idx_facts t
  show V c (Pipeline.arrRef spec16 2) (((cfg16.win 2).blk t).view.emb (ix2 (0 : Fin 1) l)) = V c (Pipeline.arrRef spec16 2) (ix2 (0 : Fin 1) l)
  refine congrArg _ (funext fun a => Fin.ext ?_)
  match a with
  | ⟨0, _⟩ => show win16_2.index t (0 : Fin 2) * 1 + 1 * 0 = 0; rw [e0]
  | ⟨1, _⟩ => show win16_2.index t (1 : Fin 2) * 512 + 1 * l.val = l.val; rw [e1]; omega

/-- Every point's block of row operand 3 is the whole row. -/
theorem k16_blk3 (c : Dev nD) (t : Fin cfg16.N) (l : Fin 512) :
    (iblk16 V c 3 t : Vec Ideal S1x512 .f32) (ix2 (0 : Fin 1) l) = X16_3 V c (ix2 (0 : Fin 1) l) := by
  obtain ⟨-, -, -, -, -, -, e0, e1, -⟩ := k16_idx_facts t
  show V c (Pipeline.arrRef spec16 3) (((cfg16.win 3).blk t).view.emb (ix2 (0 : Fin 1) l)) = V c (Pipeline.arrRef spec16 3) (ix2 (0 : Fin 1) l)
  refine congrArg _ (funext fun a => Fin.ext ?_)
  match a with
  | ⟨0, _⟩ => show win16_3.index t (0 : Fin 2) * 1 + 1 * 0 = 0; rw [e0]
  | ⟨1, _⟩ => show win16_3.index t (1 : Fin 2) * 512 + 1 * l.val = l.val; rw [e1]; omega

/-- Every point's block of row operand 4 is the whole row. -/
theorem k16_blk4 (c : Dev nD) (t : Fin cfg16.N) (l : Fin 512) :
    (iblk16 V c 4 t : Vec Ideal S1x512 .f32) (ix2 (0 : Fin 1) l) = X16_4 V c (ix2 (0 : Fin 1) l) := by
  obtain ⟨-, -, -, -, -, -, -, -, e0, e1, -⟩ := k16_idx_facts t
  show V c (Pipeline.arrRef spec16 4) (((cfg16.win 4).blk t).view.emb (ix2 (0 : Fin 1) l)) = V c (Pipeline.arrRef spec16 4) (ix2 (0 : Fin 1) l)
  refine congrArg _ (funext fun a => Fin.ext ?_)
  match a with
  | ⟨0, _⟩ => show win16_4.index t (0 : Fin 2) * 1 + 1 * 0 = 0; rw [e0]
  | ⟨1, _⟩ => show win16_4.index t (1 : Fin 2) * 512 + 1 * l.val = l.val; rw [e1]; omega

/-- Every point's block of the weights is the whole array. -/
theorem k16_blk5 (c : Dev nD) (t : Fin cfg16.N) (l : Fin 512) (j : Fin 128) :
    (iblk16 V c 5 t : Vec Ideal S512x128 .bf16) (ix2 l j) = X16_5 V c (ix2 l j) := by
  obtain ⟨-, -, -, -, -, -, -, -, -, -, e0, e1, -⟩ := k16_idx_facts t
  show V c (Pipeline.arrRef spec16 5) (((cfg16.win 5).blk t).view.emb (ix2 l j)) = V c (Pipeline.arrRef spec16 5) (ix2 l j)
  refine congrArg _ (funext fun a => Fin.ext ?_)
  match a with
  | ⟨0, _⟩ => show win16_5.index t (0 : Fin 2) * 512 + 1 * l.val = l.val; rw [e0]; omega
  | ⟨1, _⟩ => show win16_5.index t (1 : Fin 2) * 128 + 1 * j.val = j.val; rw [e1]; omega

/-- Point `t`'s rows of column sums and of column sums of squares, of the blocks it loads. -/
abbrev k16_row5v (c : Dev nD) (t : Fin cfg16.N) : FVec Ideal S1x128 .f32 := k16_pay5 (F := Ideal) (iblk16 V c 0 t) (iblk16 V c 3 t) (iblk16 V c 1 t) (iblk16 V c 2 t) (iblk16 V c 4 t) (iblk16 V c 5 t)
abbrev k16_row6v (c : Dev nD) (t : Fin cfg16.N) : FVec Ideal S1x128 .f32 := k16_pay6 (F := Ideal) (iblk16 V c 0 t) (iblk16 V c 3 t) (iblk16 V c 1 t) (iblk16 V c 2 t) (iblk16 V c 4 t) (iblk16 V c 5 t)

/-- They are tile `t`'s sums of the product's columns … -/
theorem k16_row5 (c : Dev nD) (t : Fin cfg16.N) (j : Fin 128) :
    k16_row5v V c t (ix2 (0 : Fin 1) j) = k16_tileSum (fun i => Z16 V c (ix2 i j)) t.val :=
  k16_point5 (iblk16 V c 0 t) (iblk16 V c 1 t) (iblk16 V c 2 t) (iblk16 V c 3 t) (iblk16 V c 4 t) (iblk16 V c 5 t) (X16_0 V c) (X16_1 V c) (X16_2 V c) (X16_3 V c) (X16_4 V c) (X16_5 V c) t.val (k16_tile t).isLt j
    (fun r l => k16_blk0 V c t r l) (fun l => k16_blk1 V c t l) (fun l => k16_blk2 V c t l) (fun l => k16_blk3 V c t l) (fun l => k16_blk4 V c t l)
    (fun l j => k16_blk5 V c t l j)

/-- … and of their squares. -/
theorem k16_row6 (c : Dev nD) (t : Fin cfg16.N) (j : Fin 128) :
    k16_row6v V c t (ix2 (0 : Fin 1) j) = k16_tileSum (fun i => Z16 V c (ix2 i j) * Z16 V c (ix2 i j)) t.val :=
  k16_point6 (iblk16 V c 0 t) (iblk16 V c 1 t) (iblk16 V c 2 t) (iblk16 V c 3 t) (iblk16 V c 4 t) (iblk16 V c 5 t) (X16_0 V c) (X16_1 V c) (X16_2 V c) (X16_3 V c) (X16_4 V c) (X16_5 V c) t.val (k16_tile t).isLt j
    (fun r l => k16_blk0 V c t r l) (fun l => k16_blk1 V c t l) (fun l => k16_blk2 V c t l) (fun l => k16_blk3 V c t l) (fun l => k16_blk4 V c t l)
    (fun l j => k16_blk5 V c t l j)

/-! ### The three cases at a point of the grid -/

theorem k16_pt_A_6 (c : Dev nD) (t : Fin cfg16.N) (h0 : t.val = 0) :
    (outsPt16_A V c t h0).1 = k16_pay4 (F := Ideal) (iblk16 V c 0 t) (iblk16 V c 3 t) (iblk16 V c 1 t) (iblk16 V c 2 t) (iblk16 V c 4 t) (iblk16 V c 5 t) := by
  unfold outsPt16_A; dsimp only
  exact k16_out_A_6 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (iblk16 V c 0 t) (iblk16 V c 1 t) (iblk16 V c 2 t) (iblk16 V c 3 t) (iblk16 V c 4 t) (iblk16 V c 5 t) ((hcond16_0 t).mpr h0) (notLast16_of_first t h0)

theorem k16_pt_B_6 (c : Dev nD) (t : Fin cfg16.N) (h0 : ¬t.val = 0) (h1 : ¬t.val = 24) (xs0 : Vec Ideal S1x256 .f32) :
    (outsPt16_B V c t h0 h1 xs0).1 = k16_pay4 (F := Ideal) (iblk16 V c 0 t) (iblk16 V c 3 t) (iblk16 V c 1 t) (iblk16 V c 2 t) (iblk16 V c 4 t) (iblk16 V c 5 t) := by
  unfold outsPt16_B; dsimp only
  exact k16_out_B_6 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (iblk16 V c 0 t) (iblk16 V c 1 t) (iblk16 V c 2 t) (iblk16 V c 3 t) (iblk16 V c 4 t) (iblk16 V c 5 t) (fun h => h0 ((hcond16_0 t).mp h)) (fun h => h1 ((hcond16_1 t).mp h)) xs0

theorem k16_pt_C_6 (c : Dev nD) (t : Fin cfg16.N) (h0 : ¬t.val = 0) (h1 : t.val = 24) (xs0 : Vec Ideal S1x256 .f32) :
    (outsPt16_C V c t h0 h1 xs0).1 = k16_pay4 (F := Ideal) (iblk16 V c 0 t) (iblk16 V c 3 t) (iblk16 V c 1 t) (iblk16 V c 2 t) (iblk16 V c 4 t) (iblk16 V c 5 t) := by
  unfold outsPt16_C; dsimp only
  exact k16_out_C_6 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (iblk16 V c 0 t) (iblk16 V c 1 t) (iblk16 V c 2 t) (iblk16 V c 3 t) (iblk16 V c 4 t) (iblk16 V c 5 t) (fun h => h0 ((hcond16_0 t).mp h)) ((hcond16_1 t).mpr h1) xs0

theorem k16_pt_A_lo (c : Dev nD) (t : Fin cfg16.N) (h0 : t.val = 0) (j : Fin 128) :
    (outsPt16_A V c t h0).2.2 (ix2 (0 : Fin 1) (k16_lo j)) = Spec.zero + k16_row5v V c t (ix2 (0 : Fin 1) j) := by
  unfold outsPt16_A; dsimp only
  exact k16_sout_A_lo c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (iblk16 V c 0 t) (iblk16 V c 1 t) (iblk16 V c 2 t) (iblk16 V c 3 t) (iblk16 V c 4 t) (iblk16 V c 5 t) ((hcond16_0 t).mpr h0) (notLast16_of_first t h0) j

theorem k16_pt_A_hi (c : Dev nD) (t : Fin cfg16.N) (h0 : t.val = 0) (j : Fin 128) :
    (outsPt16_A V c t h0).2.2 (ix2 (0 : Fin 1) (k16_hi j)) = Spec.zero + k16_row6v V c t (ix2 (0 : Fin 1) j) := by
  unfold outsPt16_A; dsimp only
  exact k16_sout_A_hi c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (iblk16 V c 0 t) (iblk16 V c 1 t) (iblk16 V c 2 t) (iblk16 V c 3 t) (iblk16 V c 4 t) (iblk16 V c 5 t) ((hcond16_0 t).mpr h0) (notLast16_of_first t h0) j

theorem k16_pt_B_lo (c : Dev nD) (t : Fin cfg16.N) (h0 : ¬t.val = 0) (h1 : ¬t.val = 24) (xs0 : Vec Ideal S1x256 .f32) (j : Fin 128) :
    (outsPt16_B V c t h0 h1 xs0).2.2 (ix2 (0 : Fin 1) (k16_lo j)) = xs0 (ix2 (0 : Fin 1) (k16_lo j)) + k16_row5v V c t (ix2 (0 : Fin 1) j) := by
  unfold outsPt16_B; dsimp only
  exact k16_sout_B_lo c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (iblk16 V c 0 t) (iblk16 V c 1 t) (iblk16 V c 2 t) (iblk16 V c 3 t) (iblk16 V c 4 t) (iblk16 V c 5 t) (fun h => h0 ((hcond16_0 t).mp h)) (fun h => h1 ((hcond16_1 t).mp h)) xs0 j

theorem k16_pt_B_hi (c : Dev nD) (t : Fin cfg16.N) (h0 : ¬t.val = 0) (h1 : ¬t.val = 24) (xs0 : Vec Ideal S1x256 .f32) (j : Fin 128) :
    (outsPt16_B V c t h0 h1 xs0).2.2 (ix2 (0 : Fin 1) (k16_hi j)) = xs0 (ix2 (0 : Fin 1) (k16_hi j)) + k16_row6v V c t (ix2 (0 : Fin 1) j) := by
  unfold outsPt16_B; dsimp only
  exact k16_sout_B_hi c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (iblk16 V c 0 t) (iblk16 V c 1 t) (iblk16 V c 2 t) (iblk16 V c 3 t) (iblk16 V c 4 t) (iblk16 V c 5 t) (fun h => h0 ((hcond16_0 t).mp h)) (fun h => h1 ((hcond16_1 t).mp h)) xs0 j

theorem k16_pt_C_lo (c : Dev nD) (t : Fin cfg16.N) (h0 : ¬t.val = 0) (h1 : t.val = 24) (xs0 : Vec Ideal S1x256 .f32) (j : Fin 128) :
    (outsPt16_C V c t h0 h1 xs0).2.2 (ix2 (0 : Fin 1) (k16_lo j)) = xs0 (ix2 (0 : Fin 1) (k16_lo j)) + k16_row5v V c t (ix2 (0 : Fin 1) j) := by
  unfold outsPt16_C; dsimp only
  exact k16_sout_C_lo c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (iblk16 V c 0 t) (iblk16 V c 1 t) (iblk16 V c 2 t) (iblk16 V c 3 t) (iblk16 V c 4 t) (iblk16 V c 5 t) (fun h => h0 ((hcond16_0 t).mp h)) ((hcond16_1 t).mpr h1) xs0 j

theorem k16_pt_C_hi (c : Dev nD) (t : Fin cfg16.N) (h0 : ¬t.val = 0) (h1 : t.val = 24) (xs0 : Vec Ideal S1x256 .f32) (j : Fin 128) :
    (outsPt16_C V c t h0 h1 xs0).2.2 (ix2 (0 : Fin 1) (k16_hi j)) = xs0 (ix2 (0 : Fin 1) (k16_hi j)) + k16_row6v V c t (ix2 (0 : Fin 1) j) := by
  unfold outsPt16_C; dsimp only
  exact k16_sout_C_hi c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (iblk16 V c 0 t) (iblk16 V c 1 t) (iblk16 V c 2 t) (iblk16 V c 3 t) (iblk16 V c 4 t) (iblk16 V c 5 t) (fun h => h0 ((hcond16_0 t).mp h)) ((hcond16_1 t).mpr h1) xs0 j

/-- At the last point the statistics window holds the accumulator. -/
theorem k16_pt_C_7 (c : Dev nD) (t : Fin cfg16.N) (h0 : ¬t.val = 0) (h1 : t.val = 24) (xs0 : Vec Ideal S1x256 .f32) :
    (outsPt16_C V c t h0 h1 xs0).2.1 = (outsPt16_C V c t h0 h1 xs0).2.2 := by
  unfold outsPt16_C; dsimp only
  exact k16_out_C_7 c (grid16.coords t) (ms16_0 t) (hs16_0 t) (ms16_1 t) (hs16_1 t) (ms16_2 t) (hs16_2 t) (ms16_3 t) (hs16_3 t) (ms16_4 t) (hs16_4 t) (ms16_5 t) (hs16_5 t) (ms16_6 t) (hs16_6 t) (ms16_7 t) (hs16_7 t) scM16_0 (Memref.isWhole_whole _) (iblk16 V c 0 t) (iblk16 V c 1 t) (iblk16 V c 2 t) (iblk16 V c 3 t) (iblk16 V c 4 t) (iblk16 V c 5 t) (fun h => h0 ((hcond16_0 t).mp h)) ((hcond16_1 t).mpr h1) xs0

/-! ### The product array -/

/-- At every point the product window holds the tile's product of the blocks loaded there. -/
theorem k16_outs6 (c : Dev nD) (t : Fin cfg16.N) :
    (outsAt16 V c t.val t.isLt).1 = k16_pay4 (F := Ideal) (iblk16 V c 0 t) (iblk16 V c 3 t) (iblk16 V c 1 t) (iblk16 V c 2 t) (iblk16 V c 4 t) (iblk16 V c 5 t) := by
  by_cases h0 : t.val = 0
  · rw [outsAt16_A V c t h0]; exact k16_pt_A_6 V c t h0
  · by_cases h1 : t.val = 24
    · rw [outsAt16_C V c t h0 h1]; exact k16_pt_C_6 V c t h0 h1 _
    · rw [outsAt16_B V c t h0 h1]; exact k16_pt_B_6 V c t h0 h1 _

/-- What point `t` writes back of the product is block `t` of the whole product. -/
theorem k16_flushed6 (c : Dev nD) (t : Fin cfg16.N) :
    (dat16 V c).flushed 6 t = ((cfg16.win 6).blk t).view.read (Elt Ideal) (Z16 V c) := by
  show (cfg16.win 6).cut (grid16.coords t) ((dat16 V c).after 6 t) = _
  rw [after16_6, k16_outs6]
  obtain ⟨-, -, -, -, -, -, -, -, -, -, -, -, e0, e1, -⟩ := k16_idx_facts t
  funext y
  obtain ⟨r, j, rfl⟩ : ∃ (r : Fin 2000) (j : Fin 128), y = ix2 r j := ⟨y 0, y 1, eq_ix2 (n0 := 2000) (n1 := 128) y⟩
  show k16_pay4 (F := Ideal) (iblk16 V c 0 t) (iblk16 V c 3 t) (iblk16 V c 1 t) (iblk16 V c 2 t) (iblk16 V c 4 t) (iblk16 V c 5 t) (ix2 r j) = Z16 V c (((cfg16.win 6).blk t).view.emb (ix2 r j))
  have hi : ((cfg16.win 6).blk t).view.emb (ix2 r j) = (ix2 (k16_rowOf (k16_tile t) r) j : S50000x128.Idx) := by
    funext a; apply Fin.ext
    match a with
    | ⟨0, _⟩ => show win16_6.index t (0 : Fin 2) * 2000 + 1 * r.val = 2000 * t.val + r.val; rw [e0]; omega
    | ⟨1, _⟩ => show win16_6.index t (1 : Fin 2) * 128 + 1 * j.val = j.val; rw [e1]; omega
  refine (k16_point4 (iblk16 V c 0 t) (iblk16 V c 1 t) (iblk16 V c 2 t) (iblk16 V c 3 t) (iblk16 V c 4 t) (iblk16 V c 5 t) (X16_0 V c) (X16_1 V c) (X16_2 V c) (X16_3 V c) (X16_4 V c) (X16_5 V c) r j (k16_rowOf (k16_tile t) r)
    (fun l => k16_blk0 V c t r l) (fun l => k16_blk1 V c t l) (fun l => k16_blk2 V c t l) (fun l => k16_blk3 V c t l) (fun l => k16_blk4 V c t l)
    (fun l => k16_blk5 V c t l j)).trans ?_
  exact congrArg (Z16 V c) hi.symm

/-- THE PRODUCT ARRAY after the last point: the specification's product of the normalised, rectified rows with the
    weights, over the arrays the region was entered with. -/
theorem z_eq16 (c : Dev nD) : (dat16 V c).arrAt 6 cfg16.N = Z16 V c :=
  (dat16 V c).arrAt_eq_of_cover 6 (Z16 V c) (fun t _ => k16_flushed6 V c t) k16_cover6

/-! ### The statistics row -/

/-- After point `n` the accumulator holds the first `n + 1` tiles' sums of the product's columns and of their
    squares: by induction on the point. -/
theorem k16_acc (c : Dev nD) : ∀ (n : ℕ) (hn : n < cfg16.N), k16_AccIs (Z16 V c) (n + 1) (outsAt16 V c n hn).2.2
  | 0, hn => by
    rw [outsAt16_A V c ⟨0, hn⟩ rfl]
    exact k16_AccIs_first (Z16 V c) (outsPt16_A V c ⟨0, hn⟩ rfl).2.2 (k16_row5v V c ⟨0, hn⟩) (k16_row6v V c ⟨0, hn⟩)
      (fun j => k16_pt_A_lo V c ⟨0, hn⟩ rfl j) (fun j => k16_pt_A_hi V c ⟨0, hn⟩ rfl j)
      (fun j => k16_row5 V c ⟨0, hn⟩ j) (fun j => k16_row6 V c ⟨0, hn⟩ j)
  | n + 1, hn => by
    have ih := k16_acc c n (Nat.lt_of_succ_lt hn)
    by_cases h1 : n + 1 = 24
    · rw [outsAt16_C V c ⟨n + 1, hn⟩ (Nat.succ_ne_zero n) h1]
      show k16_AccIs (Z16 V c) (n + 1 + 1) (outsPt16_C V c ⟨n + 1, hn⟩ (Nat.succ_ne_zero n) h1 (outsAt16 V c n (Nat.lt_of_succ_lt hn)).2.2).2.2
      exact k16_AccIs_next (Z16 V c) (n + 1) (outsAt16 V c n (Nat.lt_of_succ_lt hn)).2.2
        (outsPt16_C V c ⟨n + 1, hn⟩ (Nat.succ_ne_zero n) h1 (outsAt16 V c n (Nat.lt_of_succ_lt hn)).2.2).2.2
        (k16_row5v V c ⟨n + 1, hn⟩) (k16_row6v V c ⟨n + 1, hn⟩) ih
        (fun j => k16_pt_C_lo V c ⟨n + 1, hn⟩ (Nat.succ_ne_zero n) h1 _ j) (fun j => k16_pt_C_hi V c ⟨n + 1, hn⟩ (Nat.succ_ne_zero n) h1 _ j)
        (fun j => k16_row5 V c ⟨n + 1, hn⟩ j) (fun j => k16_row6 V c ⟨n + 1, hn⟩ j)
    · rw [outsAt16_B V c ⟨n + 1, hn⟩ (Nat.succ_ne_zero n) h1]
      show k16_AccIs (Z16 V c) (n + 1 + 1) (outsPt16_B V c ⟨n + 1, hn⟩ (Nat.succ_ne_zero n) h1 (outsAt16 V c n (Nat.lt_of_succ_lt hn)).2.2).2.2
      exact k16_AccIs_next (Z16 V c) (n + 1) (outsAt16 V c n (Nat.lt_of_succ_lt hn)).2.2
        (outsPt16_B V c ⟨n + 1, hn⟩ (Nat.succ_ne_zero n) h1 (outsAt16 V c n (Nat.lt_of_succ_lt hn)).2.2).2.2
        (k16_row5v V c ⟨n + 1, hn⟩) (k16_row6v V c ⟨n + 1, hn⟩) ih
        (fun j => k16_pt_B_lo V c ⟨n + 1, hn⟩ (Nat.succ_ne_zero n) h1 _ j) (fun j => k16_pt_B_hi V c ⟨n + 1, hn⟩ (Nat.succ_ne_zero n) h1 _ j)
        (fun j => k16_row5 V c ⟨n + 1, hn⟩ j) (fun j => k16_row6 V c ⟨n + 1, hn⟩ j)

/-- The accumulator after the last point. -/
abbrev k16_accLast (c : Dev nD) : Spec.Mx 1 256 := (outsAt16 V c k16_tLast.val k16_tLast.isLt).2.2

/-- The last point's block of the statistics row, read through zero offsets, is the row. -/
theorem k16_cut7 (W : Vec Ideal S1x256 .f32) :
    (cfg16.win 7).cut (grid16.coords k16_tLast) W = ((cfg16.win 7).blk k16_tLast).view.read (Elt Ideal) (W : Spec.Mx 1 256) := by
  obtain ⟨-, -, -, -, -, -, -, -, -, -, -, -, -, -, e0, e1⟩ := k16_idx_facts k16_tLast
  funext y
  show W y = W (((cfg16.win 7).blk k16_tLast).view.emb y)
  refine congrArg W (funext fun a => Fin.ext ?_)
  match a with
  | ⟨0, _⟩ => show (y 0).val = win16_7.index k16_tLast (0 : Fin 2) * 1 + 1 * (y 0).val; rw [e0]; omega
  | ⟨1, _⟩ => show (y 1).val = win16_7.index k16_tLast (1 : Fin 2) * 256 + 1 * (y 1).val; rw [e1]; omega

/-- The one write-back of the statistics row, at the last point, writes the accumulator: its block is the whole row. -/
theorem k16_flushed7 (c : Dev nD) (t : Fin cfg16.N) (hf : (cfg16.win 7).flush t = true) :
    (dat16 V c).flushed 7 t = ((cfg16.win 7).blk t).view.read (Elt Ideal) (k16_accLast V c) := by
  have hN : cfg16.N = 25 := N_16
  have h24 : t.val = 24 := by have := (flush16_7 t).mp hf; have := t.isLt; omega
  obtain rfl : t = k16_tLast := Fin.ext h24
  have h0 : ¬k16_tLast.val = 0 := by show ¬(24 : ℕ) = 0; decide
  show (cfg16.win 7).cut (grid16.coords k16_tLast) ((dat16 V c).after 7 k16_tLast) = _
  rw [after16_7]
  unfold k16_accLast
  rw [outsAt16_C V c k16_tLast h0 rfl, k16_pt_C_7 V c k16_tLast h0 rfl]
  exact k16_cut7 _

/-- So the statistics row ends holding the accumulator after the last point. -/
theorem k16_stats_arr (c : Dev nD) : (dat16 V c).arrAt 7 cfg16.N = k16_accLast V c :=
  (dat16 V c).arrAt_eq_of_cover 7 (k16_accLast V c) (fun t hf => k16_flushed7 V c t hf) k16_cover7

/-- THE STATISTICS ROW after the last point: its first half the product's column sums, its second half its
    column sums of squares, over all 50000 rows. -/
theorem stats_eq16 (c : Dev nD) (j : Fin 128) :
    ((dat16 V c).arrAt 7 cfg16.N : Spec.Mx 1 256) (ix2 (0 : Fin 1) (k16_lo j)) = Spec.colSum (Z16 V c) j
    ∧ ((dat16 V c).arrAt 7 cfg16.N : Spec.Mx 1 256) (ix2 (0 : Fin 1) (k16_hi j)) = Spec.colSumSq (Z16 V c) j := by
  rw [k16_stats_arr]
  exact k16_AccIs_last (Z16 V c) (k16_accLast V c) (k16_acc V c 24 k16_tLast.isLt) j

end Region

end Cert.KernelIdeal.HandValue

end
-- ==== Proof.KI.Val17.lean ====
import proofs.«427833_j20194936226511_1_alg».proof.Proof.Spec
import proofs.«427833_j20194936226511_1_alg».proof.Proof.KI.Reg17
import Idealize.ShloMosaic.Lib.Pipeline.Value
import Idealize.ShloMosaic.Lib.ValueIdx

/-!
# The value of the normalise-and-rectify region

The region reads a matrix block by block of rows, together with four one-row matrices (the columns' means,
variances, gains and biases), and writes, block by block, the matrix normalised column by column, scaled,
shifted and cut off at zero.  Here that is read off the region's proof data at the extended reals: the body's
one payload at an index, what each grid point leaves for the write-back as a block of ONE function of the
arrays the region was entered with, the cover of the output array by the points' blocks, and so the output
array after the last point.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- A row broadcast down the rows of a block reads the row at the column. -/
theorem bcastRow17 (x : S1x128.Idx → EReal) (h : S1x128.Broadcasts S2000x128) (r : Fin 2000) (j : Fin 128) :
    broadcastTo S2000x128 x h (ix2 r j) = x (ix2 (0 : Fin 1) j) :=
  broadcastTo_apply x h (ix2 r j) (ix2 (0 : Fin 1) j) fun a => by
    match a with
    | ⟨0, _⟩ => rfl
    | ⟨1, _⟩ => rfl

/-- The body's one payload at an index: the entry less its column's mean, times the column's gain and the
    reciprocal root of the column's variance plus epsilon, plus the column's bias, cut off at zero.
    The payload takes its row arguments in the order gain, mean, variance, bias. -/
theorem pay17_1_apply (z : Vec Ideal S2000x128 .f32) (g mu var b : Vec Ideal S1x128 .f32) (r : Fin 2000) (j : Fin 128) :
    k17_pay1 (F := Ideal) z g mu var b (ix2 r j)
      = max (g (ix2 (0 : Fin 1) j) * (z (ix2 r j) - mu (ix2 (0 : Fin 1) j)) * Ideal.rsqrt (var (ix2 (0 : Fin 1) j) + Spec.bnEps)
          + b (ix2 (0 : Fin 1) j)) Spec.zero := by
  unfold k17_pay1
  simp only [shapeCast_self]
  rw [maximumf_apply, addf_apply, mulf_apply, mulf_apply, subf_apply, broadcast_apply,
    bcastRow17, bcastRow17, bcastRow17, bcastRow17]
  rfl

/-- The payload of a block and four rows that are read off a matrix and four row matrices, at an index of the
    block and the matrix index it sits at: the specification's normalise-and-rectify of the matrices there. -/
theorem point17 (x0 : Vec Ideal S2000x128 .f32) (x1 x2 x3 x4 : Vec Ideal S1x128 .f32)
    (A0 : Spec.Mx 50000 128) (A1 A2 A3 A4 : Spec.Mx 1 128) (y : S2000x128.Idx) (i : S50000x128.Idx)
    (h0 : x0 y = A0 i) (hc : (i 1).val = (y 1).val)
    (h1 : ∀ j : Fin 128, x1 (ix2 (0 : Fin 1) j) = A1 (ix2 (0 : Fin 1) j))
    (h2 : ∀ j : Fin 128, x2 (ix2 (0 : Fin 1) j) = A2 (ix2 (0 : Fin 1) j))
    (h3 : ∀ j : Fin 128, x3 (ix2 (0 : Fin 1) j) = A3 (ix2 (0 : Fin 1) j))
    (h4 : ∀ j : Fin 128, x4 (ix2 (0 : Fin 1) j) = A4 (ix2 (0 : Fin 1) j)) :
    k17_pay1 (F := Ideal) x0 x3 x1 x2 x4 y
      = Spec.bnRelu A0 (fun j => A1 (ix2 (0 : Fin 1) j)) (fun j => A2 (ix2 (0 : Fin 1) j))
          (fun j => A3 (ix2 (0 : Fin 1) j)) (fun j => A4 (ix2 (0 : Fin 1) j)) i := by
  obtain ⟨r, j, rfl⟩ : ∃ (r : Fin 2000) (j : Fin 128), y = ix2 r j := ⟨y 0, y 1, eq_ix2 y⟩
  obtain ⟨p, q, rfl⟩ : ∃ (p : Fin 50000) (q : Fin 128), i = ix2 p q := ⟨i 0, i 1, eq_ix2 i⟩
  obtain rfl : q = j := Fin.ext hc
  rw [pay17_1_apply, h0, h1, h2, h3, h4]
  rfl

/-! ## From blocks to the array -/

variable (V : (c : Dev nD) → (b : Ref sig .tc) → Buf (Elt Ideal) ((c : Thread nD τ).loc b))

/-- The arrays the region is entered with, as matrices: the operand, and the rows of means, variances, gains and biases. -/
abbrev X17_0 (c : Dev nD) : Spec.Mx 50000 128 := V c (Pipeline.arrRef spec17 0)
abbrev X17_1 (c : Dev nD) : Spec.Mx 1 128 := V c (Pipeline.arrRef spec17 1)
abbrev X17_2 (c : Dev nD) : Spec.Mx 1 128 := V c (Pipeline.arrRef spec17 2)
abbrev X17_3 (c : Dev nD) : Spec.Mx 1 128 := V c (Pipeline.arrRef spec17 3)
abbrev X17_4 (c : Dev nD) : Spec.Mx 1 128 := V c (Pipeline.arrRef spec17 4)

/-- What the output array ends holding: the operand normalised column by column, scaled, shifted and rectified. -/
abbrev G17 (c : Dev nD) : Spec.Mx 50000 128 :=
  Spec.bnRelu (X17_0 V c) (fun j => X17_1 V c (ix2 (0 : Fin 1) j)) (fun j => X17_2 V c (ix2 (0 : Fin 1) j))
    (fun j => X17_3 V c (ix2 (0 : Fin 1) j)) (fun j => X17_4 V c (ix2 (0 : Fin 1) j))

theorem hz17 : (![0, 0] : Fin 2 → Nat) = fun _ => 0 := funext fun a => by fin_cases a <;> rfl

/-- The index maps over the grid: the operand's and the output's blocks are the point's block of rows, the four
    rows' blocks the whole rows. -/
theorem idx_facts17 : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0
    ∧ win17_4.index t (0 : Fin 2) = 0 ∧ win17_4.index t (1 : Fin 2) = 0
    ∧ win17_5.index t (0 : Fin 2) = t.val ∧ win17_5.index t (1 : Fin 2) = 0 :=
  (by decide +kernel : ∀ t : Fin grid17.N, _)

/-- What point `t` leaves for the write-back is block `t` of the result. -/
theorem cut17_5 (c : Dev nD) (t : Fin cfg17.N) :
    (cfg17.win 5).cut (grid17.coords t) (out17_5 (iblk17 V c 0 t) (iblk17 V c 1 t) (iblk17 V c 2 t) (iblk17 V c 3 t) (iblk17 V c 4 t))
      = ((cfg17.win 5).blk t).view.read (Elt Ideal) (G17 V c) := by
  unfold out17_5
  rw [View.canon_unit_zero hz17]
  simp only [View.ld_unit_zero (S := S2000x128) hz17, View.ld_unit_zero (S := S1x128) hz17]
  obtain ⟨e00, e01, e10, e11, e20, e21, e30, e31, e40, e41, e50, e51⟩ := idx_facts17 t
  funext y
  show k17_pay1 (F := Ideal) (iblk17 V c 0 t) (iblk17 V c 3 t) (iblk17 V c 1 t) (iblk17 V c 2 t) (iblk17 V c 4 t) y
    = G17 V c (((cfg17.win 5).blk t).view.emb y)
  refine point17 _ _ _ _ _ (X17_0 V c) (X17_1 V c) (X17_2 V c) (X17_3 V c) (X17_4 V c) y _ ?_ ?_ ?_ ?_ ?_ ?_
  · show V c (Pipeline.arrRef spec17 0) (((cfg17.win 0).blk t).view.emb y) = V c (Pipeline.arrRef spec17 0) (((cfg17.win 5).blk t).view.emb y)
    refine congrArg _ (funext fun a => Fin.ext ?_)
    match a with
    | ⟨0, _⟩ =>
      show win17_0.index t (0 : Fin 2) * 2000 + 1 * (y 0).val = win17_5.index t (0 : Fin 2) * 2000 + 1 * (y 0).val
      rw [e00, e50]
    | ⟨1, _⟩ =>
      show win17_0.index t (1 : Fin 2) * 128 + 1 * (y 1).val = win17_5.index t (1 : Fin 2) * 128 + 1 * (y 1).val
      rw [e01, e51]
  · show win17_5.index t (1 : Fin 2) * 128 + 1 * (y 1).val = (y 1).val
    rw [e51]; omega
  · intro j
    show V c (Pipeline.arrRef spec17 1) (((cfg17.win 1).blk t).view.emb (ix2 (0 : Fin 1) j)) = V c (Pipeline.arrRef spec17 1) (ix2 (0 : Fin 1) j)
    refine congrArg _ (funext fun a => Fin.ext ?_)
    match a with
    | ⟨0, _⟩ => show win17_1.index t (0 : Fin 2) * 1 + 1 * 0 = 0; rw [e10]
    | ⟨1, _⟩ => show win17_1.index t (1 : Fin 2) * 128 + 1 * j.val = j.val; rw [e11]; omega
  · intro j
    show V c (Pipeline.arrRef spec17 2) (((cfg17.win 2).blk t).view.emb (ix2 (0 : Fin 1) j)) = V c (Pipeline.arrRef spec17 2) (ix2 (0 : Fin 1) j)
    refine congrArg _ (funext fun a => Fin.ext ?_)
    match a with
    | ⟨0, _⟩ => show win17_2.index t (0 : Fin 2) * 1 + 1 * 0 = 0; rw [e20]
    | ⟨1, _⟩ => show win17_2.index t (1 : Fin 2) * 128 + 1 * j.val = j.val; rw [e21]; omega
  · intro j
    show V c (Pipeline.arrRef spec17 3) (((cfg17.win 3).blk t).view.emb (ix2 (0 : Fin 1) j)) = V c (Pipeline.arrRef spec17 3) (ix2 (0 : Fin 1) j)
    refine congrArg _ (funext fun a => Fin.ext ?_)
    match a with
    | ⟨0, _⟩ => show win17_3.index t (0 : Fin 2) * 1 + 1 * 0 = 0; rw [e30]
    | ⟨1, _⟩ => show win17_3.index t (1 : Fin 2) * 128 + 1 * j.val = j.val; rw [e31]; omega
  · intro j
    show V c (Pipeline.arrRef spec17 4) (((cfg17.win 4).blk t).view.emb (ix2 (0 : Fin 1) j)) = V c (Pipeline.arrRef spec17 4) (ix2 (0 : Fin 1) j)
    refine congrArg _ (funext fun a => Fin.ext ?_)
    match a with
    | ⟨0, _⟩ => show win17_4.index t (0 : Fin 2) * 1 + 1 * 0 = 0; rw [e40]
    | ⟨1, _⟩ => show win17_4.index t (1 : Fin 2) * 128 + 1 * j.val = j.val; rw [e41]; omega

/-- An index of the output array is in point `t`'s block iff each coordinate is in the block's range on its axis. -/
theorem mem_blk17 (t : Fin cfg17.N) (i : S50000x128.Idx) :
    i ∈ ((cfg17.win 5).blk t).view.set ↔ ∀ a : Fin 2, win17_5.index t a * S2000x128.size a ≤ (i a).val
      ∧ (i a).val < win17_5.index t a * S2000x128.size a + S2000x128.size a := by
  show i ∈ ((View.whole (Pipeline.arrRef spec17 5)).slice (win17_5.rect t)).set ↔ _
  rw [View.set_slice_whole, Rect.mem_set_unit]
  exact Iff.rfl

/-- The point whose block holds a row: the row's number over the rows in a block. -/
theorem pt_lt17 (i : S50000x128.Idx) : (i 0).val / 2000 < cfg17.N := by
  have hi0 : (i 0).val < 50000 := (i 0).isLt
  show (i 0).val / 2000 < grid17.N
  rw [N_17]; omega

/-- Every index of the output array is in some point's block, and every point writes back. -/
theorem cover17 (i : S50000x128.Idx) :
    ∃ t : Fin cfg17.N, (cfg17.win 5).flush t = true ∧ i ∈ ((cfg17.win 5).blk t).view.set := by
  have hi1 : (i 1).val < 128 := (i 1).isLt
  obtain ⟨t, ht⟩ : ∃ t : Fin cfg17.N, t.val = (i 0).val / 2000 := ⟨⟨_, pt_lt17 i⟩, rfl⟩
  obtain ⟨-, -, -, -, -, -, -, -, -, -, e50, e51⟩ := idx_facts17 t
  refine ⟨t, flush17_5 t, ?_⟩
  rw [mem_blk17]
  intro a
  match a with
  | ⟨0, _⟩ =>
    show win17_5.index t (0 : Fin 2) * 2000 ≤ (i 0).val ∧ (i 0).val < win17_5.index t (0 : Fin 2) * 2000 + 2000
    rw [e50, ht]; omega
  | ⟨1, _⟩ =>
    show win17_5.index t (1 : Fin 2) * 128 ≤ (i 1).val ∧ (i 1).val < win17_5.index t (1 : Fin 2) * 128 + 128
    rw [e51]; omega

/-- What point `t` writes back is block `t` of the result. -/
theorem flushed17_eq (c : Dev nD) (t : Fin cfg17.N) :
    (dat17 V c).flushed 5 t = ((cfg17.win 5).blk t).view.read (Elt Ideal) (G17 V c) := by
  show (cfg17.win 5).cut (grid17.coords t) ((dat17 V c).after 5 t) = _
  rw [after17_5]
  exact cut17_5 V c t

/-- THE OUTPUT ARRAY after the last point: the specification's normalise-and-rectify of the arrays the region
    was entered with. -/
theorem out_eq17 (c : Dev nD) : (dat17 V c).arrAt 5 cfg17.N = G17 V c :=
  (dat17 V c).arrAt_eq_of_cover 5 (G17 V c) (fun t _ => flushed17_eq V c t) cover17

end Cert.KernelIdeal.HandValue

end
-- ==== Proof.KI.ChainInst.lean ====
import proofs.«427833_j20194936226511_1_alg».proof.Proof.KI.Run
import proofs.«427833_j20194936226511_1_alg».proof.Proof.KI.Chain
import proofs.«427833_j20194936226511_1_alg».proof.Proof.KI.Val0
import proofs.«427833_j20194936226511_1_alg».proof.Proof.KI.Val1
import proofs.«427833_j20194936226511_1_alg».proof.Proof.KI.Val2
import proofs.«427833_j20194936226511_1_alg».proof.Proof.KI.Val3
import proofs.«427833_j20194936226511_1_alg».proof.Proof.KI.Val4
import proofs.«427833_j20194936226511_1_alg».proof.Proof.KI.Val5
import proofs.«427833_j20194936226511_1_alg».proof.Proof.KI.Val6
import proofs.«427833_j20194936226511_1_alg».proof.Proof.KI.Val7
import proofs.«427833_j20194936226511_1_alg».proof.Proof.KI.Val8
import proofs.«427833_j20194936226511_1_alg».proof.Proof.KI.Val9
import proofs.«427833_j20194936226511_1_alg».proof.Proof.KI.Val10
import proofs.«427833_j20194936226511_1_alg».proof.Proof.KI.Val11
import proofs.«427833_j20194936226511_1_alg».proof.Proof.KI.Val12
import proofs.«427833_j20194936226511_1_alg».proof.Proof.KI.Val13
import proofs.«427833_j20194936226511_1_alg».proof.Proof.KI.Val14
import proofs.«427833_j20194936226511_1_alg».proof.Proof.KI.Val15
import proofs.«427833_j20194936226511_1_alg».proof.Proof.KI.Val16
import proofs.«427833_j20194936226511_1_alg».proof.Proof.KI.Val17

/-!
# The regions' values joined to the composition

Each of the eighteen kernel regions is entered at a known valuation of the core's arrays and leaves its output arrays
at what its pipeline's proof data say; the region's value, read at that entry valuation, is one of three things: a
matrix product with its column sums and sums of squares, the product of a normalised and rectified matrix with its
statistics, or a normalised and rectified matrix.  Here each region's output is so named, which is what the
composition of the three layers and the loss asks of the run.
-/

set_option maxRecDepth 8192

noncomputable section

namespace Cert.KernelIdeal.HandValue

open Cert.KernelIdeal Cert.KernelIdeal.Gen
open Idealize.ShloMosaic Idealize.ShloMosaic.TcCoe Idealize.ShloMosaic.ValueIdx Idealize.SL.Sem

/-! ## A region's hypothesis from its value lemmas -/

open Cert.Spec in
/-- A first-stage region's hypothesis, from its product and its statistics row named apart: the row's first half
    holds the product's column sums, its second half the column sums of squares. -/
theorem Stage1.of {n k h h2 : ℕ} {x a : Mx n k} {w : Mx k h} {z : Mx n h} {st : Mx 1 h2} (S : Mx 1 h2)
    (hz : z = mm (add2 x a) w) (hs : st = S)
    (hlo : ∀ (j : Fin h) (i : Fin h2), i.val = j.val → S (ix2 0 i) = colSum (mm (add2 x a) w) j)
    (hhi : ∀ (j : Fin h) (i : Fin h2), i.val = h + j.val → S (ix2 0 i) = colSumSq (mm (add2 x a) w) j) :
    Stage1 x a w z st := by
  subst hz hs
  exact ⟨rfl, hlo, hhi⟩

open Cert.Spec in
/-- A second-stage region's hypothesis, likewise. -/
theorem Stage2.of {n h o o2 : ℕ} {z1 : Mx n h} {mu var g b : Mx 1 h} {w : Mx h o} {z : Mx n o} {st : Mx 1 o2} (S : Mx 1 o2)
    (hz : z = mm (bnRelu z1 (rowOf mu) (rowOf var) (rowOf g) (rowOf b)) w) (hs : st = S)
    (hlo : ∀ (j : Fin o) (i : Fin o2), i.val = j.val
      → S (ix2 0 i) = colSum (mm (bnRelu z1 (rowOf mu) (rowOf var) (rowOf g) (rowOf b)) w) j)
    (hhi : ∀ (j : Fin o) (i : Fin o2), i.val = o + j.val
      → S (ix2 0 i) = colSumSq (mm (bnRelu z1 (rowOf mu) (rowOf var) (rowOf g) (rowOf b)) w) j) :
    Stage2 z1 mu var g b w z st := by
  subst hz hs
  exact ⟨rfl, hlo, hhi⟩

/-! ## The eighteen regions -/

variable (m : (ℓ : Loc nD τ sig) → Buf (Elt Ideal) ℓ) (c : Dev nD)

/-- The first stage of the first layer application: the summed input times the first weights, with the product's column statistics. -/
theorem inst0 : Stage1 (n := 50000) (k := 128) (h := 512) (h2 := 1024) (V3 m c main_v7) (V3 m c main_v21) (V3 m c main_v0)
      (Hand.outs m 4 main_v22_0 c) (Hand.outs m 4 main_v22_1 c) :=
  Stage1.of ((Hand.dat0 (Hand.ent0 m) c).arrAt 4 cfg0.N)
    ((Hand.outs_eq_0_3 m c).trans (z_eq0 (Hand.ent0 m) c)) (Hand.outs_eq_0_4 m c)
    (fun j i hi => by obtain rfl : i = lo0 j := Fin.ext hi; exact (stats_eq0 (Hand.ent0 m) c j).1)
    (fun j i hi => by obtain rfl : i = hi0 j := Fin.ext hi; exact (stats_eq0 (Hand.ent0 m) c j).2)

/-- The second stage of the first layer application: the normalised, rectified first product times the second weights, with that product's column statistics. -/
theorem inst1 : Stage2 (n := 50000) (h := 512) (o := 256) (o2 := 512) (V5 m (Hand.outs m) c main_v22_0) (V5 m (Hand.outs m) c main_v25)
      (V5 m (Hand.outs m) c main_v32) (V5 m (Hand.outs m) c main_v33) (V5 m (Hand.outs m) c main_v34) (V5 m (Hand.outs m) c main_v1)
      (Hand.outs m 6 main_v35_0 c) (Hand.outs m 6 main_v35_1 c) :=
  Stage2.of ((Hand.dat1 (Hand.ent1 m) c).arrAt 7 cfg1.N)
    ((Hand.outs_eq_1_6 m c).trans (z_eq1 (Hand.ent1 m) c)) (Hand.outs_eq_1_7 m c)
    (fun j i hi => by
      obtain rfl : i = k1_lo j := Fin.ext hi
      exact (stats_eq1 (Hand.ent1 m) c j).1)
    (fun j i hi => by
      obtain rfl : i = k1_hi j := Fin.ext hi
      exact (stats_eq1 (Hand.ent1 m) c j).2)

/-- The third stage of the first layer application: the normalised, rectified second product. -/
theorem inst2 : Stage3 (n := 50000) (o := 256) (V7 m (Hand.outs m) c main_v35_0) (V7 m (Hand.outs m) c main_v38) (V7 m (Hand.outs m) c main_v45)
      (V7 m (Hand.outs m) c main_v46) (V7 m (Hand.outs m) c main_v47) (Hand.outs m 8 main_v48 c) :=
  (Hand.outs_eq_2_5 m c).trans (out_eq2 (Hand.ent2 m) c)

/-- The first stage of the second layer application: the summed input times the first weights, with the product's column statistics. -/
theorem inst3 : Stage1 (n := 50000) (k := 256) (h := 512) (h2 := 1024) (V9 m (Hand.outs m) c main_v48) (V9 m (Hand.outs m) c main_v62)
      (V9 m (Hand.outs m) c main_v2) (Hand.outs m 10 main_v63_0 c) (Hand.outs m 10 main_v63_1 c) :=
  Stage1.of ((Hand.dat3 (Hand.ent3 m) c).arrAt 4 cfg3.N)
    ((Hand.outs_eq_3_3 m c).trans (z_eq3 (Hand.ent3 m) c)) (Hand.outs_eq_3_4 m c)
    (fun j i hi => by obtain rfl : i = lo3 j := Fin.ext hi; exact (stats_eq3 (Hand.ent3 m) c j).1)
    (fun j i hi => by obtain rfl : i = hi3 j := Fin.ext hi; exact (stats_eq3 (Hand.ent3 m) c j).2)

/-- The second stage of the second layer application: the normalised, rectified first product times the second weights, with that product's column statistics. -/
theorem inst4 : Stage2 (n := 50000) (h := 512) (o := 256) (o2 := 512) (V11 m (Hand.outs m) c main_v63_0) (V11 m (Hand.outs m) c main_v66)
      (V11 m (Hand.outs m) c main_v73) (V11 m (Hand.outs m) c main_v74) (V11 m (Hand.outs m) c main_v75) (V11 m (Hand.outs m) c main_v3)
      (Hand.outs m 12 main_v76_0 c) (Hand.outs m 12 main_v76_1 c) :=
  Stage2.of ((Hand.dat4 (Hand.ent4 m) c).arrAt 7 cfg4.N)
    ((Hand.outs_eq_4_6 m c).trans (z_eq4 (Hand.ent4 m) c)) (Hand.outs_eq_4_7 m c)
    (fun j i hi => by
      obtain rfl : i = k4_lo j := Fin.ext hi
      exact (stats_eq4 (Hand.ent4 m) c j).1)
    (fun j i hi => by
      obtain rfl : i = k4_hi j := Fin.ext hi
      exact (stats_eq4 (Hand.ent4 m) c j).2)

/-- The third stage of the second layer application: the normalised, rectified second product. -/
theorem inst5 : Stage3 (n := 50000) (o := 256) (V13 m (Hand.outs m) c main_v76_0) (V13 m (Hand.outs m) c main_v79) (V13 m (Hand.outs m) c main_v86)
      (V13 m (Hand.outs m) c main_v87) (V13 m (Hand.outs m) c main_v88) (Hand.outs m 14 main_v89 c) :=
  (Hand.outs_eq_5_5 m c).trans (out_eq5 (Hand.ent5 m) c)

/-- The first stage of the third layer application: the summed input times the first weights, with the product's column statistics. -/
theorem inst6 : Stage1 (n := 50000) (k := 256) (h := 512) (h2 := 1024) (V17 m (Hand.outs m) c main_v90) (V17 m (Hand.outs m) c main_v104)
      (V17 m (Hand.outs m) c main_v4) (Hand.outs m 18 main_v105_0 c) (Hand.outs m 18 main_v105_1 c) :=
  Stage1.of ((Hand.dat6 (Hand.ent6 m) c).arrAt 4 cfg6.N)
    ((Hand.outs_eq_6_3 m c).trans (z_eq6 (Hand.ent6 m) c)) (Hand.outs_eq_6_4 m c)
    (fun j i hi => by obtain rfl : i = lo6 j := Fin.ext hi; exact (stats_eq6 (Hand.ent6 m) c j).1)
    (fun j i hi => by obtain rfl : i = hi6 j := Fin.ext hi; exact (stats_eq6 (Hand.ent6 m) c j).2)

/-- The second stage of the third layer application: the normalised, rectified first product times the second weights, with that product's column statistics. -/
theorem inst7 : Stage2 (n := 50000) (h := 512) (o := 128) (o2 := 256) (V19 m (Hand.outs m) c main_v105_0) (V19 m (Hand.outs m) c main_v108)
      (V19 m (Hand.outs m) c main_v115) (V19 m (Hand.outs m) c main_v116) (V19 m (Hand.outs m) c main_v117) (V19 m (Hand.outs m) c main_v5)
      (Hand.outs m 20 main_v118_0 c) (Hand.outs m 20 main_v118_1 c) :=
  Stage2.of ((Hand.dat7 (Hand.ent7 m) c).arrAt 7 cfg7.N)
    ((Hand.outs_eq_7_6 m c).trans (z_eq7 (Hand.ent7 m) c)) (Hand.outs_eq_7_7 m c)
    (fun j i hi => by
      obtain rfl : i = k7_lo j := Fin.ext hi
      exact (stats_eq7 (Hand.ent7 m) c j).1)
    (fun j i hi => by
      obtain rfl : i = k7_hi j := Fin.ext hi
      exact (stats_eq7 (Hand.ent7 m) c j).2)

/-- The third stage of the third layer application: the normalised, rectified second product. -/
theorem inst8 : Stage3 (n := 50000) (o := 128) (V21 m (Hand.outs m) c main_v118_0) (V21 m (Hand.outs m) c main_v121) (V21 m (Hand.outs m) c main_v128)
      (V21 m (Hand.outs m) c main_v129) (V21 m (Hand.outs m) c main_v130) (Hand.outs m 22 main_v131 c) :=
  (Hand.outs_eq_8_5 m c).trans (out_eq8 (Hand.ent8 m) c)

/-- The first stage of the fourth layer application: the summed input times the first weights, with the product's column statistics. -/
theorem inst9 : Stage1 (n := 50000) (k := 128) (h := 512) (h2 := 1024) (V29 m (Hand.outs m) c main_v152) (V29 m (Hand.outs m) c main_v166)
      (V29 m (Hand.outs m) c main_v0) (Hand.outs m 30 main_v167_0 c) (Hand.outs m 30 main_v167_1 c) :=
  Stage1.of ((Hand.dat9 (Hand.ent9 m) c).arrAt 4 cfg9.N)
    ((Hand.outs_eq_9_3 m c).trans (z_eq9 (Hand.ent9 m) c)) (Hand.outs_eq_9_4 m c)
    (fun j i hi => by obtain rfl : i = lo9 j := Fin.ext hi; exact (stats_eq9 (Hand.ent9 m) c j).1)
    (fun j i hi => by obtain rfl : i = hi9 j := Fin.ext hi; exact (stats_eq9 (Hand.ent9 m) c j).2)

/-- The second stage of the fourth layer application: the normalised, rectified first product times the second weights, with that product's column statistics. -/
theorem inst10 : Stage2 (n := 50000) (h := 512) (o := 256) (o2 := 512) (V31 m (Hand.outs m) c main_v167_0) (V31 m (Hand.outs m) c main_v170)
      (V31 m (Hand.outs m) c main_v177) (V31 m (Hand.outs m) c main_v178) (V31 m (Hand.outs m) c main_v179) (V31 m (Hand.outs m) c main_v1)
      (Hand.outs m 32 main_v180_0 c) (Hand.outs m 32 main_v180_1 c) :=
  Stage2.of ((Hand.dat10 (Hand.ent10 m) c).arrAt 7 cfg10.N)
    ((Hand.outs_eq_10_6 m c).trans (z_eq10 (Hand.ent10 m) c)) (Hand.outs_eq_10_7 m c)
    (fun j i hi => by
      obtain rfl : i = k10_lo j := Fin.ext hi
      exact (stats_eq10 (Hand.ent10 m) c j).1)
    (fun j i hi => by
      obtain rfl : i = k10_hi j := Fin.ext hi
      exact (stats_eq10 (Hand.ent10 m) c j).2)

/-- The third stage of the fourth layer application: the normalised, rectified second product. -/
theorem inst11 : Stage3 (n := 50000) (o := 256) (V33 m (Hand.outs m) c main_v180_0) (V33 m (Hand.outs m) c main_v183)
      (V33 m (Hand.outs m) c main_v190) (V33 m (Hand.outs m) c main_v191) (V33 m (Hand.outs m) c main_v192) (Hand.outs m 34 main_v193 c) :=
  (Hand.outs_eq_11_5 m c).trans (out_eq11 (Hand.ent11 m) c)

/-- The first stage of the fifth layer application: the summed input times the first weights, with the product's column statistics. -/
theorem inst12 : Stage1 (n := 50000) (k := 256) (h := 512) (h2 := 1024) (V35 m (Hand.outs m) c main_v193) (V35 m (Hand.outs m) c main_v207)
      (V35 m (Hand.outs m) c main_v2) (Hand.outs m 36 main_v208_0 c) (Hand.outs m 36 main_v208_1 c) :=
  Stage1.of ((Hand.dat12 (Hand.ent12 m) c).arrAt 4 cfg12.N)
    ((Hand.outs_eq_12_3 m c).trans (z_eq12 (Hand.ent12 m) c)) (Hand.outs_eq_12_4 m c)
    (fun j i hi => by obtain rfl : i = lo12 j := Fin.ext hi; exact (stats_eq12 (Hand.ent12 m) c j).1)
    (fun j i hi => by obtain rfl : i = hi12 j := Fin.ext hi; exact (stats_eq12 (Hand.ent12 m) c j).2)

/-- The second stage of the fifth layer application: the normalised, rectified first product times the second weights, with that product's column statistics. -/
theorem inst13 : Stage2 (n := 50000) (h := 512) (o := 256) (o2 := 512) (V37 m (Hand.outs m) c main_v208_0) (V37 m (Hand.outs m) c main_v211)
      (V37 m (Hand.outs m) c main_v218) (V37 m (Hand.outs m) c main_v219) (V37 m (Hand.outs m) c main_v220) (V37 m (Hand.outs m) c main_v3)
      (Hand.outs m 38 main_v221_0 c) (Hand.outs m 38 main_v221_1 c) :=
  Stage2.of ((Hand.dat13 (Hand.ent13 m) c).arrAt 7 cfg13.N)
    ((Hand.outs_eq_13_6 m c).trans (z_eq13 (Hand.ent13 m) c)) (Hand.outs_eq_13_7 m c)
    (fun j i hi => by
      obtain rfl : i = k13_lo j := Fin.ext hi
      exact (stats_eq13 (Hand.ent13 m) c j).1)
    (fun j i hi => by
      obtain rfl : i = k13_hi j := Fin.ext hi
      exact (stats_eq13 (Hand.ent13 m) c j).2)

/-- The third stage of the fifth layer application: the normalised, rectified second product. -/
theorem inst14 : Stage3 (n := 50000) (o := 256) (V39 m (Hand.outs m) c main_v221_0) (V39 m (Hand.outs m) c main_v224)
      (V39 m (Hand.outs m) c main_v231) (V39 m (Hand.outs m) c main_v232) (V39 m (Hand.outs m) c main_v233) (Hand.outs m 40 main_v234 c) :=
  (Hand.outs_eq_14_5 m c).trans (out_eq14 (Hand.ent14 m) c)

/-- The first stage of the sixth layer application: the summed input times the first weights, with the product's column statistics. -/
theorem inst15 : Stage1 (n := 50000) (k := 256) (h := 512) (h2 := 1024) (V43 m (Hand.outs m) c main_v235) (V43 m (Hand.outs m) c main_v249)
      (V43 m (Hand.outs m) c main_v4) (Hand.outs m 44 main_v250_0 c) (Hand.outs m 44 main_v250_1 c) :=
  Stage1.of ((Hand.dat15 (Hand.ent15 m) c).arrAt 4 cfg15.N)
    ((Hand.outs_eq_15_3 m c).trans (z_eq15 (Hand.ent15 m) c)) (Hand.outs_eq_15_4 m c)
    (fun j i hi => by obtain rfl : i = lo15 j := Fin.ext hi; exact (stats_eq15 (Hand.ent15 m) c j).1)
    (fun j i hi => by obtain rfl : i = hi15 j := Fin.ext hi; exact (stats_eq15 (Hand.ent15 m) c j).2)

/-- The second stage of the sixth layer application: the normalised, rectified first product times the second weights, with that product's column statistics. -/
theorem inst16 : Stage2 (n := 50000) (h := 512) (o := 128) (o2 := 256) (V45 m (Hand.outs m) c main_v250_0) (V45 m (Hand.outs m) c main_v253)
      (V45 m (Hand.outs m) c main_v260) (V45 m (Hand.outs m) c main_v261) (V45 m (Hand.outs m) c main_v262) (V45 m (Hand.outs m) c main_v5)
      (Hand.outs m 46 main_v263_0 c) (Hand.outs m 46 main_v263_1 c) :=
  Stage2.of ((Hand.dat16 (Hand.ent16 m) c).arrAt 7 cfg16.N)
    ((Hand.outs_eq_16_6 m c).trans (z_eq16 (Hand.ent16 m) c)) (Hand.outs_eq_16_7 m c)
    (fun j i hi => by
      obtain rfl : i = k16_lo j := Fin.ext hi
      exact (stats_eq16 (Hand.ent16 m) c j).1)
    (fun j i hi => by
      obtain rfl : i = k16_hi j := Fin.ext hi
      exact (stats_eq16 (Hand.ent16 m) c j).2)

/-- The third stage of the sixth layer application: the normalised, rectified second product. -/
theorem inst17 : Stage3 (n := 50000) (o := 128) (V47 m (Hand.outs m) c main_v263_0) (V47 m (Hand.outs m) c main_v266)
      (V47 m (Hand.outs m) c main_v273) (V47 m (Hand.outs m) c main_v274) (V47 m (Hand.outs m) c main_v275) (Hand.outs m 48 main_v276 c) :=
  (Hand.outs_eq_17_5 m c).trans (out_eq17 (Hand.ent17 m) c)

/-! ## The run's result -/

/-- THE KERNEL'S RESULT: every region's output read through its value, the run's last valuation holds at the result
    buffer the loss over the kernel's layers. -/
theorem chain_inst : Gen.V57 m (Hand.outs m) c main_v314 = lossK m c :=
  chain m (Hand.outs m) c (inst0 m c) (inst1 m c) (inst2 m c) (inst3 m c) (inst4 m c) (inst5 m c) (inst6 m c) (inst7 m c) (inst8 m c)
    (inst9 m c) (inst10 m c) (inst11 m c) (inst12 m c) (inst13 m c) (inst14 m c) (inst15 m c) (inst16 m c) (inst17 m c)

end Cert.KernelIdeal.HandValue

end
-- ==== Proof.Ref.Ops.lean ====
/- The reference program's operations as LISTS, laid out from its printed text: each outlined function's operations over
   the buffers one call of it names (`opsX args φ`, a call inside it standing as the callee's list at the nested record), each
   of @main's nine windows (`opsPartJ`: its own operations in order, a call standing as the callee's list at that call's
   record), and the whole line `ops`. Beside each list, the references its operations write, in the same order (`wX φ`,
   `WPartJ`, `W`): every builder writes exactly its result reference. The program is the loss of a masked graph
   auto-encoder on 50000 nodes: twice (once per edge list and node mask) the masked input goes through two layers
   `x + Σ_{j→i} x_j` followed by two products with batch normalisation and `relu`, and, masked again, through a third; each
   pass's loss is the masked rows' mean of `1 - cos` between the reconstruction's row and the input's; the result adds a tenth
   of the mean `1 - cos` between the two reconstructions. -/
import proofs.«427833_j20194936226511_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The outlined functions -/

/-- `where(m, c, x)` for a mask column `m` (50000×1), a scalar `c` and an array `x` (50000×128): the scalar at its own
    type (the identity), the mask column repeated along each row, the scalar repeated over the array, and the choice entry
    by entry: `c` where the row is masked, `x`'s entry elsewhere. -/
def opsWhere (arg0 : StableHlo.TRef sig ⟨S50000x1, .i1⟩) (arg1 : StableHlo.TRef sig ⟨S_, .f32⟩) (arg2 : StableHlo.TRef sig ⟨S50000x128, .f32⟩) (φ : fn_where.Bufs) : List (HloOp τ sig (Elt F)) :=
  [ StableHlo.TRef.unary arg1 φ.v0 id,
    StableHlo.TRef.unary arg0 φ.v1 (broadcastInDim S50000x128 ![0, 1] bcast_S50000x1_S50000x128_0_1),
    StableHlo.TRef.unary φ.v0 φ.v2 (broadcastInDim S50000x128 ![] bcast_S_S50000x128),
    StableHlo.TRef.ternary φ.v1 φ.v2 arg2 φ.v3 select ]

/-- The references `opsWhere`'s operations write, in order. -/
noncomputable def wWhere (φ : fn_where.Bufs) : List (Ref sig .tc) :=
  [φ.v0.ref, φ.v1.ref, φ.v2.ref, φ.v3.ref]

/-- `where(p, v, c)` for ONE truth value `p`, a vector `v` of 512 entries and a scalar `c`: the scalar at its own
    type (the identity), repeated to the vector's length, and the choice with `p` repeated to that length: `v` if `p` holds,
    else the constant vector. -/
def opsWhere0 (arg0 : StableHlo.TRef sig ⟨S_, .i1⟩) (arg1 : StableHlo.TRef sig ⟨S512, .f32⟩) (arg2 : StableHlo.TRef sig ⟨S_, .f32⟩) (φ : fn_where_0.Bufs) : List (HloOp τ sig (Elt F)) :=
  [ StableHlo.TRef.unary arg2 φ.v0 id,
    StableHlo.TRef.unary φ.v0 φ.v1 (broadcastInDim S512 ![] bcast_S_S512),
    StableHlo.TRef.ternary arg0 arg1 φ.v1 φ.v2 (fun p a b => select (broadcastInDim S512 ![] bcast_S_S512 p) a b) ]

/-- The references `opsWhere0`'s operations write, in order. -/
noncomputable def wWhere0 (φ : fn_where_0.Bufs) : List (Ref sig .tc) :=
  [φ.v0.ref, φ.v1.ref, φ.v2.ref]

/-- The variance of each column of a 50000×512 array with `ddof` degrees of freedom taken off (`arg1`, an integer):
    the column sums over the 50000 rows, divided by 50000 (the means); the array less its columns' means, squared entry by
    entry; those squares' column sums, divided by `50000 - ddof`; and unless `50000 - ddof > 0` the answer is NaN (the
    outlined `where`, whose operations end the list). -/
def opsVar (arg0 : StableHlo.TRef sig ⟨S50000x512, .f32⟩) (arg1 : StableHlo.TRef sig ⟨S_, .i32⟩) (φ : fn_var.Bufs) : List (HloOp τ sig (Elt F)) :=
  [ StableHlo.TRef.nullary φ.cst (constant S_ .f32 0x00000000#32),
    StableHlo.TRef.binary arg0 φ.cst φ.v0 (fun x v => Host.reduceAdd x v reducesTo_S50000x512_S512_d0 h_S_),
    StableHlo.TRef.unary φ.v0 φ.v1 (broadcastInDim S1x512 ![1] bcast_S512_S1x512_1),
    StableHlo.TRef.nullary φ.cst_0 (constant S_ .f32 0x47435000#32),
    StableHlo.TRef.unary φ.cst_0 φ.v2 (broadcastInDim S1x512 ![] bcast_S_S1x512),
    StableHlo.TRef.binary φ.v1 φ.v2 φ.v3 Host.divf,
    StableHlo.TRef.unary φ.v3 φ.v4 (broadcastInDim S50000x512 ![0, 1] bcast_S1x512_S50000x512_0_1),
    StableHlo.TRef.binary arg0 φ.v4 φ.v5 subf,
    StableHlo.TRef.binary φ.v5 φ.v5 φ.v6 mulf,
    StableHlo.TRef.unary arg1 φ.v7 (sitofp .f32),
    StableHlo.TRef.nullary φ.cst_1 (constant S_ .f32 0x47435000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S50000x512_S512_d0 h_S_),
    StableHlo.TRef.unary φ.v8 φ.v10 (broadcastInDim S512 ![] bcast_S_S512),
    StableHlo.TRef.binary φ.v9 φ.v10 φ.v11 Host.divf,
    StableHlo.TRef.nullary φ.cst_3 (constant S_ .f32 0x00000000#32),
    StableHlo.TRef.binary φ.v8 φ.cst_3 φ.v12 (cmpf .ogt),
    StableHlo.TRef.nullary φ.cst_4 (constant S_ .f32 0x7FC00000#32) ] ++
  (  opsWhere0 φ.v12 φ.v11 φ.cst_4 φ.call0)

/-- The references `opsVar`'s operations write, in order. -/
noncomputable def wVar (φ : fn_var.Bufs) : List (Ref sig .tc) :=
  [φ.cst.ref, φ.v0.ref, φ.v1.ref, φ.cst_0.ref, φ.v2.ref, φ.v3.ref, φ.v4.ref, φ.v5.ref, φ.v6.ref, φ.v7.ref, φ.cst_1.ref, φ.v8.ref, φ.cst_2.ref, φ.v9.ref, φ.v10.ref, φ.v11.ref, φ.cst_3.ref, φ.v12.ref, φ.cst_4.ref] ++
  (  wWhere0 φ.call0)

/-- `max(x, 0)` entry by entry on a 50000×512 array: the zero, repeated over the array, the maximum. -/
def opsRelu (arg0 : StableHlo.TRef sig ⟨S50000x512, .f32⟩) (φ : fn_relu.Bufs) : List (HloOp τ sig (Elt F)) :=
  [ StableHlo.TRef.nullary φ.cst (constant S_ .f32 0x00000000#32),
    StableHlo.TRef.unary φ.cst φ.v0 (broadcastInDim S50000x512 ![] bcast_S_S50000x512),
    StableHlo.TRef.binary arg0 φ.v0 φ.v1 maximumf ]

/-- The references `opsRelu`'s operations write, in order. -/
noncomputable def wRelu (φ : fn_relu.Bufs) : List (Ref sig .tc) :=
  [φ.cst.ref, φ.v0.ref, φ.v1.ref]

/-- `where(p, v, c)` for ONE truth value `p`, a vector `v` of 256 entries and a scalar `c`: the scalar at its own
    type (the identity), repeated to the vector's length, and the choice with `p` repeated to that length: `v` if `p` holds,
    else the constant vector. -/
def opsWhere2 (arg0 : StableHlo.TRef sig ⟨S_, .i1⟩) (arg1 : StableHlo.TRef sig ⟨S256, .f32⟩) (arg2 : StableHlo.TRef sig ⟨S_, .f32⟩) (φ : fn_where_2.Bufs) : List (HloOp τ sig (Elt F)) :=
  [ StableHlo.TRef.unary arg2 φ.v0 id,
    StableHlo.TRef.unary φ.v0 φ.v1 (broadcastInDim S256 ![] bcast_S_S256),
    StableHlo.TRef.ternary arg0 arg1 φ.v1 φ.v2 (fun p a b => select (broadcastInDim S256 ![] bcast_S_S256 p) a b) ]

/-- The references `opsWhere2`'s operations write, in order. -/
noncomputable def wWhere2 (φ : fn_where_2.Bufs) : List (Ref sig .tc) :=
  [φ.v0.ref, φ.v1.ref, φ.v2.ref]

/-- The variance of each column of a 50000×256 array with `ddof` degrees of freedom taken off (`arg1`, an integer):
    the column sums over the 50000 rows, divided by 50000 (the means); the array less its columns' means, squared entry by
    entry; those squares' column sums, divided by `50000 - ddof`; and unless `50000 - ddof > 0` the answer is NaN (the
    outlined `where`, whose operations end the list). -/
def opsVar1 (arg0 : StableHlo.TRef sig ⟨S50000x256, .f32⟩) (arg1 : StableHlo.TRef sig ⟨S_, .i32⟩) (φ : fn_var_1.Bufs) : List (HloOp τ sig (Elt F)) :=
  [ StableHlo.TRef.nullary φ.cst (constant S_ .f32 0x00000000#32),
    StableHlo.TRef.binary arg0 φ.cst φ.v0 (fun x v => Host.reduceAdd x v reducesTo_S50000x256_S256_d0 h_S_),
    StableHlo.TRef.unary φ.v0 φ.v1 (broadcastInDim S1x256 ![1] bcast_S256_S1x256_1),
    StableHlo.TRef.nullary φ.cst_0 (constant S_ .f32 0x47435000#32),
    StableHlo.TRef.unary φ.cst_0 φ.v2 (broadcastInDim S1x256 ![] bcast_S_S1x256),
    StableHlo.TRef.binary φ.v1 φ.v2 φ.v3 Host.divf,
    StableHlo.TRef.unary φ.v3 φ.v4 (broadcastInDim S50000x256 ![0, 1] bcast_S1x256_S50000x256_0_1),
    StableHlo.TRef.binary arg0 φ.v4 φ.v5 subf,
    StableHlo.TRef.binary φ.v5 φ.v5 φ.v6 mulf,
    StableHlo.TRef.unary arg1 φ.v7 (sitofp .f32),
    StableHlo.TRef.nullary φ.cst_1 (constant S_ .f32 0x47435000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S50000x256_S256_d0 h_S_),
    StableHlo.TRef.unary φ.v8 φ.v10 (broadcastInDim S256 ![] bcast_S_S256),
    StableHlo.TRef.binary φ.v9 φ.v10 φ.v11 Host.divf,
    StableHlo.TRef.nullary φ.cst_3 (constant S_ .f32 0x00000000#32),
    StableHlo.TRef.binary φ.v8 φ.cst_3 φ.v12 (cmpf .ogt),
    StableHlo.TRef.nullary φ.cst_4 (constant S_ .f32 0x7FC00000#32) ] ++
  (  opsWhere2 φ.v12 φ.v11 φ.cst_4 φ.call0)

/-- The references `opsVar1`'s operations write, in order. -/
noncomputable def wVar1 (φ : fn_var_1.Bufs) : List (Ref sig .tc) :=
  [φ.cst.ref, φ.v0.ref, φ.v1.ref, φ.cst_0.ref, φ.v2.ref, φ.v3.ref, φ.v4.ref, φ.v5.ref, φ.v6.ref, φ.v7.ref, φ.cst_1.ref, φ.v8.ref, φ.cst_2.ref, φ.v9.ref, φ.v10.ref, φ.v11.ref, φ.cst_3.ref, φ.v12.ref, φ.cst_4.ref] ++
  (  wWhere2 φ.call0)

/-- `max(x, 0)` entry by entry on a 50000×256 array: the zero, repeated over the array, the maximum. -/
def opsRelu3 (arg0 : StableHlo.TRef sig ⟨S50000x256, .f32⟩) (φ : fn_relu_3.Bufs) : List (HloOp τ sig (Elt F)) :=
  [ StableHlo.TRef.nullary φ.cst (constant S_ .f32 0x00000000#32),
    StableHlo.TRef.unary φ.cst φ.v0 (broadcastInDim S50000x256 ![] bcast_S_S50000x256),
    StableHlo.TRef.binary arg0 φ.v0 φ.v1 maximumf ]

/-- The references `opsRelu3`'s operations write, in order. -/
noncomputable def wRelu3 (φ : fn_relu_3.Bufs) : List (Ref sig .tc) :=
  [φ.cst.ref, φ.v0.ref, φ.v1.ref]

/-- `where(m, c, x)` for a mask column `m` (50000×1), a scalar `c` and an array `x` (50000×256): the scalar at its own
    type (the identity), the mask column repeated along each row, the scalar repeated over the array, and the choice entry
    by entry: `c` where the row is masked, `x`'s entry elsewhere. -/
def opsWhere4 (arg0 : StableHlo.TRef sig ⟨S50000x1, .i1⟩) (arg1 : StableHlo.TRef sig ⟨S_, .f32⟩) (arg2 : StableHlo.TRef sig ⟨S50000x256, .f32⟩) (φ : fn_where_4.Bufs) : List (HloOp τ sig (Elt F)) :=
  [ StableHlo.TRef.unary arg1 φ.v0 id,
    StableHlo.TRef.unary arg0 φ.v1 (broadcastInDim S50000x256 ![0, 1] bcast_S50000x1_S50000x256_0_1),
    StableHlo.TRef.unary φ.v0 φ.v2 (broadcastInDim S50000x256 ![] bcast_S_S50000x256),
    StableHlo.TRef.ternary φ.v1 φ.v2 arg2 φ.v3 select ]

/-- The references `opsWhere4`'s operations write, in order. -/
noncomputable def wWhere4 (φ : fn_where_4.Bufs) : List (Ref sig .tc) :=
  [φ.v0.ref, φ.v1.ref, φ.v2.ref, φ.v3.ref]

/-- `where(p, v, c)` for ONE truth value `p`, a vector `v` of 128 entries and a scalar `c`: the scalar at its own
    type (the identity), repeated to the vector's length, and the choice with `p` repeated to that length: `v` if `p` holds,
    else the constant vector. -/
def opsWhere6 (arg0 : StableHlo.TRef sig ⟨S_, .i1⟩) (arg1 : StableHlo.TRef sig ⟨S128, .f32⟩) (arg2 : StableHlo.TRef sig ⟨S_, .f32⟩) (φ : fn_where_6.Bufs) : List (HloOp τ sig (Elt F)) :=
  [ StableHlo.TRef.unary arg2 φ.v0 id,
    StableHlo.TRef.unary φ.v0 φ.v1 (broadcastInDim S128 ![] bcast_S_S128),
    StableHlo.TRef.ternary arg0 arg1 φ.v1 φ.v2 (fun p a b => select (broadcastInDim S128 ![] bcast_S_S128 p) a b) ]

/-- The references `opsWhere6`'s operations write, in order. -/
noncomputable def wWhere6 (φ : fn_where_6.Bufs) : List (Ref sig .tc) :=
  [φ.v0.ref, φ.v1.ref, φ.v2.ref]

/-- The variance of each column of a 50000×128 array with `ddof` degrees of freedom taken off (`arg1`, an integer):
    the column sums over the 50000 rows, divided by 50000 (the means); the array less its columns' means, squared entry by
    entry; those squares' column sums, divided by `50000 - ddof`; and unless `50000 - ddof > 0` the answer is NaN (the
    outlined `where`, whose operations end the list). -/
def opsVar5 (arg0 : StableHlo.TRef sig ⟨S50000x128, .f32⟩) (arg1 : StableHlo.TRef sig ⟨S_, .i32⟩) (φ : fn_var_5.Bufs) : List (HloOp τ sig (Elt F)) :=
  [ StableHlo.TRef.nullary φ.cst (constant S_ .f32 0x00000000#32),
    StableHlo.TRef.binary arg0 φ.cst φ.v0 (fun x v => Host.reduceAdd x v reducesTo_S50000x128_S128_d0 h_S_),
    StableHlo.TRef.unary φ.v0 φ.v1 (broadcastInDim S1x128 ![1] bcast_S128_S1x128_1),
    StableHlo.TRef.nullary φ.cst_0 (constant S_ .f32 0x47435000#32),
    StableHlo.TRef.unary φ.cst_0 φ.v2 (broadcastInDim S1x128 ![] bcast_S_S1x128),
    StableHlo.TRef.binary φ.v1 φ.v2 φ.v3 Host.divf,
    StableHlo.TRef.unary φ.v3 φ.v4 (broadcastInDim S50000x128 ![0, 1] bcast_S1x128_S50000x128_0_1),
    StableHlo.TRef.binary arg0 φ.v4 φ.v5 subf,
    StableHlo.TRef.binary φ.v5 φ.v5 φ.v6 mulf,
    StableHlo.TRef.unary arg1 φ.v7 (sitofp .f32),
    StableHlo.TRef.nullary φ.cst_1 (constant S_ .f32 0x47435000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S50000x128_S128_d0 h_S_),
    StableHlo.TRef.unary φ.v8 φ.v10 (broadcastInDim S128 ![] bcast_S_S128),
    StableHlo.TRef.binary φ.v9 φ.v10 φ.v11 Host.divf,
    StableHlo.TRef.nullary φ.cst_3 (constant S_ .f32 0x00000000#32),
    StableHlo.TRef.binary φ.v8 φ.cst_3 φ.v12 (cmpf .ogt),
    StableHlo.TRef.nullary φ.cst_4 (constant S_ .f32 0x7FC00000#32) ] ++
  (  opsWhere6 φ.v12 φ.v11 φ.cst_4 φ.call0)

/-- The references `opsVar5`'s operations write, in order. -/
noncomputable def wVar5 (φ : fn_var_5.Bufs) : List (Ref sig .tc) :=
  [φ.cst.ref, φ.v0.ref, φ.v1.ref, φ.cst_0.ref, φ.v2.ref, φ.v3.ref, φ.v4.ref, φ.v5.ref, φ.v6.ref, φ.v7.ref, φ.cst_1.ref, φ.v8.ref, φ.cst_2.ref, φ.v9.ref, φ.v10.ref, φ.v11.ref, φ.cst_3.ref, φ.v12.ref, φ.cst_4.ref] ++
  (  wWhere6 φ.call0)

/-- `max(x, 0)` entry by entry on a 50000×128 array: the zero, repeated over the array, the maximum. -/
def opsRelu7 (arg0 : StableHlo.TRef sig ⟨S50000x128, .f32⟩) (φ : fn_relu_7.Bufs) : List (HloOp τ sig (Elt F)) :=
  [ StableHlo.TRef.nullary φ.cst (constant S_ .f32 0x00000000#32),
    StableHlo.TRef.unary φ.cst φ.v0 (broadcastInDim S50000x128 ![] bcast_S_S50000x128),
    StableHlo.TRef.binary arg0 φ.v0 φ.v1 maximumf ]

/-- The references `opsRelu7`'s operations write, in order. -/
noncomputable def wRelu7 (φ : fn_relu_7.Bufs) : List (Ref sig .tc) :=
  [φ.cst.ref, φ.v0.ref, φ.v1.ref]

/-- The Euclidean norm of each row of a 50000×128 array, kept as a column: the squares, each row's sum, that
    vector as a 50000×1 column, its square root. -/
def opsNorm (arg0 : StableHlo.TRef sig ⟨S50000x128, .f32⟩) (φ : fn_norm.Bufs) : List (HloOp τ sig (Elt F)) :=
  [ StableHlo.TRef.binary arg0 arg0 φ.v0 mulf,
    StableHlo.TRef.nullary φ.cst (constant S_ .f32 0x00000000#32),
    StableHlo.TRef.binary φ.v0 φ.cst φ.v1 (fun x v => Host.reduceAdd x v reducesTo_S50000x128_S50000_d1 h_S_),
    StableHlo.TRef.unary φ.v1 φ.v2 (broadcastInDim S50000x1 ![0] bcast_S50000_S50000x1_0),
    StableHlo.TRef.unary φ.v2 φ.v3 Host.sqrt ]

/-- The references `opsNorm`'s operations write, in order. -/
noncomputable def wNorm (φ : fn_norm.Bufs) : List (Ref sig .tc) :=
  [φ.v0.ref, φ.cst.ref, φ.v1.ref, φ.v2.ref, φ.v3.ref]

/-- The Euclidean norm of each row of a 50000×128 array, kept as a column: the squares, each row's sum, that
    vector as a 50000×1 column, its square root. -/
def opsNorm8 (arg0 : StableHlo.TRef sig ⟨S50000x128, .f32⟩) (φ : fn_norm_8.Bufs) : List (HloOp τ sig (Elt F)) :=
  [ StableHlo.TRef.binary arg0 arg0 φ.v0 mulf,
    StableHlo.TRef.nullary φ.cst (constant S_ .f32 0x00000000#32),
    StableHlo.TRef.binary φ.v0 φ.cst φ.v1 (fun x v => Host.reduceAdd x v reducesTo_S50000x128_S50000_d1 h_S_),
    StableHlo.TRef.unary φ.v1 φ.v2 (broadcastInDim S50000x1 ![0] bcast_S50000_S50000x1_0),
    StableHlo.TRef.unary φ.v2 φ.v3 Host.sqrt ]

/-- The references `opsNorm8`'s operations write, in order. -/
noncomputable def wNorm8 (φ : fn_norm_8.Bufs) : List (Ref sig .tc) :=
  [φ.v0.ref, φ.cst.ref, φ.v1.ref, φ.v2.ref, φ.v3.ref]

/-! ## @main's windows -/

/-- Statements 1 … 60 (values %0 … %48). First pass (edge list `arg1`, node mask `arg3`): the masked input `where(m, 0, x)`; the
    first layer's neighbour sum (rows gathered at the edges' sources, negative indices wrapped, and added up at their targets
    into a zero array), `x + agg`, the product with the 128×512 weight `arg6`, its batch normalisation over the rows
    (column means, the outlined variance, scale `arg8`, the reciprocal root of variance + ε, shift `arg9`), `relu`, the product
    with the 512×256 weight `arg7`, and the outer normalisation as far as the centred array scaled by `arg10`. -/
def opsPart0 : List (HloOp τ sig (Elt F)) :=
  [ StableHlo.unary main_arg3 main_v0 (broadcastInDim S50000x1 ![0] bcast_S50000_S50000x1_0 : (⟨S50000, .i1⟩ : BufTy).Contents (Elt F) → (⟨S50000x1, .i1⟩ : BufTy).Contents (Elt F)),
    StableHlo.nullary main_cst (constant S_ .f32 0x00000000#32) ] ++
  (  opsWhere (.of main_v0) (.of main_cst) (.of main_arg0) main_call0 ++
  (  [ StableHlo.unary main_arg1 main_v2 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v2 main_v3 rfl shapeCasts_S1x320000_S320000,
    StableHlo.nullary main_c (constantI S_ 32 0#32),
    StableHlo.unary main_c main_v4 (broadcastInDim S320000 ![] bcast_S_S320000 : (⟨S_, .i32⟩ : BufTy).Contents (Elt F) → (⟨S320000, .i32⟩ : BufTy).Contents (Elt F)),
    StableHlo.binary main_v3 main_v4 main_v5 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 50000#32),
    StableHlo.unary main_c_0 main_v6 (broadcastInDim S320000 ![] bcast_S_S320000 : (⟨S_, .i32⟩ : BufTy).Contents (Elt F) → (⟨S320000, .i32⟩ : BufTy).Contents (Elt F)),
    StableHlo.binary main_v3 main_v6 main_v7 (addi : (⟨S320000, .i32⟩ : BufTy).Contents (Elt F) → (⟨S320000, .i32⟩ : BufTy).Contents (Elt F) → (⟨S320000, .i32⟩ : BufTy).Contents (Elt F)),
    StableHlo.ternary main_v5 main_v7 main_v3 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v8 main_v9 (broadcastInDim S320000x1 ![0] bcast_S320000_S320000x1_0 : (⟨S320000, .i32⟩ : BufTy).Contents (Elt F) → (⟨S320000x1, .i32⟩ : BufTy).Contents (Elt F)),
    StableHlo.binary main_v1 main_v9 main_v10 ((fun x i => Host.gather gather_S50000x128_S320000x1_S320000x128_1_0_n_n_0_1_1128 x i) : (⟨S50000x128, .f32⟩ : BufTy).Contents (Elt F) → (⟨S320000x1, .i32⟩ : BufTy).Contents (Elt F) → (⟨S320000x128, .f32⟩ : BufTy).Contents (Elt F)),
    StableHlo.unary main_arg1 main_v11 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v11 main_v12 rfl shapeCasts_S1x320000_S320000,
    StableHlo.nullary main_cst_1 (constant S_ .f32 0x00000000#32),
    StableHlo.unary main_cst_1 main_v13 (broadcastInDim S50000x128 ![] bcast_S_S50000x128 : (⟨S_, .f32⟩ : BufTy).Contents (Elt F) → (⟨S50000x128, .f32⟩ : BufTy).Contents (Elt F)),
    StableHlo.unary main_v12 main_v14 (broadcastInDim S320000x1 ![0] bcast_S320000_S320000x1_0 : (⟨S320000, .i32⟩ : BufTy).Contents (Elt F) → (⟨S320000x1, .i32⟩ : BufTy).Contents (Elt F)),
    StableHlo.ternary main_v13 main_v14 main_v10 main_v15 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)),
    StableHlo.binary main_v1 main_v15 main_v16 (addf : (⟨S50000x128, .f32⟩ : BufTy).Contents (Elt F) → (⟨S50000x128, .f32⟩ : BufTy).Contents (Elt F) → (⟨S50000x128, .f32⟩ : BufTy).Contents (Elt F)),
    StableHlo.binary main_v16 main_arg6 main_v17 ((fun l r => Host.dotGeneral dot_S50000x128_S128x512_S50000x512_1_0_0_1_n_n none l r) : (⟨S50000x128, .f32⟩ : BufTy).Contents (Elt F) → (⟨S128x512, .f32⟩ : BufTy).Contents (Elt F) → (⟨S50000x512, .f32⟩ : BufTy).Contents (Elt F)),
    StableHlo.nullary main_cst_2 (constant S_ .f32 0x00000000#32),
    StableHlo.binary main_v17 main_cst_2 main_v18 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_3 (constant S_ .f32 0x47435000#32),
    StableHlo.unary main_cst_3 main_v19 (broadcastInDim S512 ![] bcast_S_S512 : (⟨S_, .f32⟩ : BufTy).Contents (Elt F) → (⟨S512, .f32⟩ : BufTy).Contents (Elt F)),
    StableHlo.binary main_v18 main_v19 main_v20 (Host.divf : (⟨S512, .f32⟩ : BufTy).Contents (Elt F) → (⟨S512, .f32⟩ : BufTy).Contents (Elt F) → (⟨S512, .f32⟩ : BufTy).Contents (Elt F)),
    StableHlo.nullary main_c_4 (constantI S_ 32 0#32) ] ++
  (  opsVar (.of main_v17) (.of main_c_4) main_call1 ++
  (  [ StableHlo.unary main_v20 main_v22 (broadcastInDim S1x512 ![1] bcast_S512_S1x512_1 : (⟨S512, .f32⟩ : BufTy).Contents (Elt F) → (⟨S1x512, .f32⟩ : BufTy).Contents (Elt F)),
    StableHlo.unary main_v22 main_v23 (broadcastInDim S50000x512 ![0, 1] bcast_S1x512_S50000x512_0_1 : (⟨S1x512, .f32⟩ : BufTy).Contents (Elt F) → (⟨S50000x512, .f32⟩ : BufTy).Contents (Elt F)),
    StableHlo.binary main_v17 main_v23 main_v24 (subf : (⟨S50000x512, .f32⟩ : BufTy).Contents (Elt F) → (⟨S50000x512, .f32⟩ : BufTy).Contents (Elt F) → (⟨S50000x512, .f32⟩ : BufTy).Contents (Elt F)),
    StableHlo.unary main_arg8 main_v25 (broadcastInDim S1x512 ![1] bcast_S512_S1x512_1 : (⟨S512, .f32⟩ : BufTy).Contents (Elt F) → (⟨S1x512, .f32⟩ : BufTy).Contents (Elt F)),
    StableHlo.unary main_v25 main_v26 (broadcastInDim S50000x512 ![0, 1] bcast_S1x512_S50000x512_0_1 : (⟨S1x512, .f32⟩ : BufTy).Contents (Elt F) → (⟨S50000x512, .f32⟩ : BufTy).Contents (Elt F)),
    StableHlo.binary main_v26 main_v24 main_v27 (mulf : (⟨S50000x512, .f32⟩ : BufTy).Contents (Elt F) → (⟨S50000x512, .f32⟩ : BufTy).Contents (Elt F) → (⟨S50000x512, .f32⟩ : BufTy).Contents (Elt F)),
    StableHlo.nullary main_cst_5 (constant S_ .f32 0x3727C5AC#32),
    StableHlo.unary main_cst_5 main_v28 (broadcastInDim S512 ![] bcast_S_S512 : (⟨S_, .f32⟩ : BufTy).Contents (Elt F) → (⟨S512, .f32⟩ : BufTy).Contents (Elt F)),
    StableHlo.binary main_v21 main_v28 main_v29 (addf : (⟨S512, .f32⟩ : BufTy).Contents (Elt F) → (⟨S512, .f32⟩ : BufTy).Contents (Elt F) → (⟨S512, .f32⟩ : BufTy).Contents (Elt F)),
    StableHlo.unary main_v29 main_v30 (Host.rsqrt : (⟨S512, .f32⟩ : BufTy).Contents (Elt F) → (⟨S512, .f32⟩ : BufTy).Contents (Elt F)),
    StableHlo.unary main_v30 main_v31 (broadcastInDim S1x512 ![1] bcast_S512_S1x512_1 : (⟨S512, .f32⟩ : BufTy).Contents (Elt F) → (⟨S1x512, .f32⟩ : BufTy).Contents (Elt F)),
    StableHlo.unary main_v31 main_v32 (broadcastInDim S50000x512 ![0, 1] bcast_S1x512_S50000x512_0_1 : (⟨S1x512, .f32⟩ : BufTy).Contents (Elt F) → (⟨S50000x512, .f32⟩ : BufTy).Contents (Elt F)),
    StableHlo.binary main_v27 main_v32 main_v33 (mulf : (⟨S50000x512, .f32⟩ : BufTy).Contents (Elt F) → (⟨S50000x512, .f32⟩ : BufTy).Contents (Elt F) → (⟨S50000x512, .f32⟩ : BufTy).Contents (Elt F)),
    StableHlo.unary main_arg9 main_v34 (broadcastInDim S1x512 ![1] bcast_S512_S1x512_1 : (⟨S512, .f32⟩ : BufTy).Contents (Elt F) → (⟨S1x512, .f32⟩ : BufTy).Contents (Elt F)),
    StableHlo.unary main_v34 main_v35 (broadcastInDim S50000x512 ![0, 1] bcast_S1x512_S50000x512_0_1 : (⟨S1x512, .f32⟩ : BufTy).Contents (Elt F) → (⟨S50000x512, .f32⟩ : BufTy).Contents (Elt F)),
    StableHlo.binary main_v33 main_v35 main_v36 (addf : (⟨S50000x512, .f32⟩ : BufTy).Contents (Elt F) → (⟨S50000x512, .f32⟩ : BufTy).Contents (Elt F) → (⟨S50000x512, .f32⟩ : BufTy).Contents (Elt F)) ] ++
  (  opsRelu (.of main_v36) main_call2 ++
  (  [ StableHlo.binary main_v37 main_arg7 main_v38 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.nullary main_cst_6 (constant S_ .f32 0x00000000#32),
    StableHlo.binary main_v38 main_cst_6 main_v39 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_7 (constant S_ .f32 0x47435000#32),
    StableHlo.unary main_cst_7 main_v40 (broadcastInDim S256 ![] bcast_S_S256 : (⟨S_, .f32⟩ : BufTy).Contents (Elt F) → (⟨S256, .f32⟩ : BufTy).Contents (Elt F)),
    StableHlo.binary main_v39 main_v40 main_v41 (Host.divf : (⟨S256, .f32⟩ : BufTy).Contents (Elt F) → (⟨S256, .f32⟩ : BufTy).Contents (Elt F) → (⟨S256, .f32⟩ : BufTy).Contents (Elt F)),
    StableHlo.nullary main_c_8 (constantI S_ 32 0#32) ] ++
  (  opsVar1 (.of main_v38) (.of main_c_8) main_call3 ++
  (  [ StableHlo.unary main_v41 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S50000x256 ![0, 1] bcast_S1x256_S50000x256_0_1 : (⟨S1x256, .f32⟩ : BufTy).Contents (Elt F) → (⟨S50000x256, .f32⟩ : BufTy).Contents (Elt F)),
    StableHlo.binary main_v38 main_v44 main_v45 (subf : (⟨S50000x256, .f32⟩ : BufTy).Contents (Elt F) → (⟨S50000x256, .f32⟩ : BufTy).Contents (Elt F) → (⟨S50000x256, .f32⟩ : BufTy).Contents (Elt F)),
    StableHlo.unary main_arg10 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S50000x256 ![0, 1] bcast_S1x256_S50000x256_0_1 : (⟨S1x256, .f32⟩ : BufTy).Contents (Elt F) → (⟨S50000x256, .f32⟩ : BufTy).Contents (Elt F)),
    StableHlo.binary main_v47 main_v45 main_v48 (mulf : (⟨S50000x256, .f32⟩ : BufTy).Contents (Elt F) → (⟨S50000x256, .f32⟩ : BufTy).Contents (Elt F) → (⟨S50000x256, .f32⟩ : BufTy).Contents (Elt F)) ]))))))))

/-- The references `opsPart0`'s operations write, in order. -/
noncomputable def WPart0 : List (Ref sig .tc) :=
  [main_v0, main_cst] ++
  (  wWhere main_call0 ++
  (  [main_v2, main_v3, main_c, main_v4, main_v5, main_c_0, main_v6, main_v7, main_v8, main_v9, main_v10, main_v11, main_v12, main_cst_1, main_v13, main_v14, main_v15, main_v16, main_v17, main_cst_2, main_v18, main_cst_3, main_v19, main_v20, main_c_4] ++
  (  wVar main_call1 ++
  (  [main_v22, main_v23, main_v24, main_v25, main_v26, main_v27, main_cst_5, main_v28, main_v29, main_v30, main_v31, main_v32, main_v33, main_v34, main_v35, main_v36] ++
  (  wRelu main_call2 ++
  (  [main_v38, main_cst_6, main_v39, main_cst_7, main_v40, main_v41, main_c_8] ++
  (  wVar1 main_call3 ++
  (  [main_v43, main_v44, main_v45, main_v46, main_v47, main_v48]))))))))

/-- Statements 61 … 120. First pass: the outer normalisation's end (shift `arg11`) and `relu`; that output's sums per graph (added up
    at `arg5` into a zero array); the second layer's neighbour sum, product with the 256×512 weight `arg12`, batch normalisation
    (`arg14`, `arg15`), `relu` and product with the 512×256 weight `arg13`. -/
def opsPart1 : List (HloOp τ sig (Elt F)) :=
  [ StableHlo.nullary main_cst_9 (constant S_ .f32 0x3727C5AC#32),
    StableHlo.unary main_cst_9 main_v49 (broadcastInDim S256 ![] bcast_S_S256 : (⟨S_, .f32⟩ : BufTy).Contents (Elt F) → (⟨S256, .f32⟩ : BufTy).Contents (Elt F)),
    StableHlo.binary main_v42 main_v49 main_v50 (addf : (⟨S256, .f32⟩ : BufTy).Contents (Elt F) → (⟨S256, .f32⟩ : BufTy).Contents (Elt F) → (⟨S256, .f32⟩ : BufTy).Contents (Elt F)),
    StableHlo.unary main_v50 main_v51 (Host.rsqrt : (⟨S256, .f32⟩ : BufTy).Contents (Elt F) → (⟨S256, .f32⟩ : BufTy).Contents (Elt F)),
    StableHlo.unary main_v51 main_v52 (broadcastInDim S1x256 ![1] bcast_S256_S1x256_1 : (⟨S256, .f32⟩ : BufTy).Contents (Elt F) → (⟨S1x256, .f32⟩ : BufTy).Contents (Elt F)),
    StableHlo.unary main_v52 main_v53 (broadcastInDim S50000x256 ![0, 1] bcast_S1x256_S50000x256_0_1 : (⟨S1x256, .f32⟩ : BufTy).Contents (Elt F) → (⟨S50000x256, .f32⟩ : BufTy).Contents (Elt F)),
    StableHlo.binary main_v48 main_v53 main_v54 (mulf : (⟨S50000x256, .f32⟩ : BufTy).Contents (Elt F) → (⟨S50000x256, .f32⟩ : BufTy).Contents (Elt F) → (⟨S50000x256, .f32⟩ : BufTy).Contents (Elt F)),
    StableHlo.unary main_arg11 main_v55 (broadcastInDim S1x256 ![1] bcast_S256_S1x256_1 : (⟨S256, .f32⟩ : BufTy).Contents (Elt F) → (⟨S1x256, .f32⟩ : BufTy).Contents (Elt F)),
    StableHlo.unary main_v55 main_v56 (broadcastInDim S50000x256 ![0, 1] bcast_S1x256_S50000x256_0_1 : (⟨S1x256, .f32⟩ : BufTy).Contents (Elt F) → (⟨S50000x256, .f32⟩ : BufTy).Contents (Elt F)),
    StableHlo.binary main_v54 main_v56 main_v57 (addf : (⟨S50000x256, .f32⟩ : BufTy).Contents (Elt F) → (⟨S50000x256, .f32⟩ : BufTy).Contents (Elt F) → (⟨S50000x256, .f32⟩ : BufTy).Contents (Elt F)) ] ++
  (  opsRelu3 (.of main_v57) main_call4 ++
  (  [ StableHlo.nullary main_cst_10 (constant S_ .f32 0x00000000#32),
    StableHlo.unary main_cst_10 main_v59 (broadcastInDim S512x256 ![] bcast_S_S512x256 : (⟨S_, .f32⟩ : BufTy).Contents (Elt F) → (⟨S512x256, .f32⟩ : BufTy).Contents (Elt F)),
    StableHlo.unary main_arg5 main_v60 (broadcastInDim S50000x1 ![0] bcast_S50000_S50000x1_0 : (⟨S50000, .i32⟩ : BufTy).Contents (Elt F) → (⟨S50000x1, .i32⟩ : BufTy).Contents (Elt F)),
    StableHlo.ternary main_v59 main_v60 main_v58 main_v61 ((fun x i u => Host.scatterAdd scatter_S512x256_S50000x1_S50000x256_1_0_0_1 x i u) : (⟨S512x256, .f32⟩ : BufTy).Contents (Elt F) → (⟨S50000x1, .i32⟩ : BufTy).Contents (Elt F) → (⟨S50000x256, .f32⟩ : BufTy).Contents (Elt F) → (⟨S512x256, .f32⟩ : BufTy).Contents (Elt F)),
    StableHlo.unary main_arg1 main_v62 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v62 main_v63 rfl shapeCasts_S1x320000_S320000,
    StableHlo.nullary main_c_11 (constantI S_ 32 0#32),
    StableHlo.unary main_c_11 main_v64 (broadcastInDim S320000 ![] bcast_S_S320000 : (⟨S_, .i32⟩ : BufTy).Contents (Elt F) → (⟨S320000, .i32⟩ : BufTy).Contents (Elt F)),
    StableHlo.binary main_v63 main_v64 main_v65 (cmpi .slt : (⟨S320000, .i32⟩ : BufTy).Contents (Elt F) → (⟨S320000, .i32⟩ : BufTy).Contents (Elt F) → (⟨S320000, .i1⟩ : BufTy).Contents (Elt F)),
    StableHlo.nullary main_c_12 (constantI S_ 32 50000#32),
    StableHlo.unary main_c_12 main_v66 (broadcastInDim S320000 ![] bcast_S_S320000 : (⟨S_, .i32⟩ : BufTy).Contents (Elt F) → (⟨S320000, .i32⟩ : BufTy).Contents (Elt F)),
    StableHlo.binary main_v63 main_v66 main_v67 (addi : (⟨S320000, .i32⟩ : BufTy).Contents (Elt F) → (⟨S320000, .i32⟩ : BufTy).Contents (Elt F) → (⟨S320000, .i32⟩ : BufTy).Contents (Elt F)),
    StableHlo.ternary main_v65 main_v67 main_v63 main_v68 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v68 main_v69 (broadcastInDim S320000x1 ![0] bcast_S320000_S320000x1_0 : (⟨S320000, .i32⟩ : BufTy).Contents (Elt F) → (⟨S320000x1, .i32⟩ : BufTy).Contents (Elt F)),
    StableHlo.binary main_v58 main_v69 main_v70 ((fun x i => Host.gather gather_S50000x256_S320000x1_S320000x256_1_0_n_n_0_1_1256 x i) : (⟨S50000x256, .f32⟩ : BufTy).Contents (Elt F) → (⟨S320000x1, .i32⟩ : BufTy).Contents (Elt F) → (⟨S320000x256, .f32⟩ : BufTy).Contents (Elt F)),
    StableHlo.unary main_arg1 main_v71 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v71 main_v72 rfl shapeCasts_S1x320000_S320000,
    StableHlo.nullary main_cst_13 (constant S_ .f32 0x00000000#32),
    StableHlo.unary main_cst_13 main_v73 (broadcastInDim S50000x256 ![] bcast_S_S50000x256 : (⟨S_, .f32⟩ : BufTy).Contents (Elt F) → (⟨S50000x256, .f32⟩ : BufTy).Contents (Elt F)),
    StableHlo.unary main_v72 main_v74 (broadcastInDim S320000x1 ![0] bcast_S320000_S320000x1_0 : (⟨S320000, .i32⟩ : BufTy).Contents (Elt F) → (⟨S320000x1, .i32⟩ : BufTy).Contents (Elt F)),
    StableHlo.ternary main_v73 main_v74 main_v70 main_v75 ((fun x i u => Host.scatterAdd scatter_S50000x256_S320000x1_S320000x256_1_0_0_1 x i u) : (⟨S50000x256, .f32⟩ : BufTy).Contents (Elt F) → (⟨S320000x1, .i32⟩ : BufTy).Contents (Elt F) → (⟨S320000x256, .f32⟩ : BufTy).Contents (Elt F) → (⟨S50000x256, .f32⟩ : BufTy).Contents (Elt F)),
    StableHlo.binary main_v58 main_v75 main_v76 (addf : (⟨S50000x256, .f32⟩ : BufTy).Contents (Elt F) → (⟨S50000x256, .f32⟩ : BufTy).Contents (Elt F) → (⟨S50000x256, .f32⟩ : BufTy).Contents (Elt F)),
    StableHlo.binary main_v76 main_arg12 main_v77 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.nullary main_cst_14 (constant S_ .f32 0x00000000#32),
    StableHlo.binary main_v77 main_cst_14 main_v78 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_15 (constant S_ .f32 0x47435000#32),
    StableHlo.unary main_cst_15 main_v79 (broadcastInDim S512 ![] bcast_S_S512 : (⟨S_, .f32⟩ : BufTy).Contents (Elt F) → (⟨S512, .f32⟩ : BufTy).Contents (Elt F)),
    StableHlo.binary main_v78 main_v79 main_v80 (Host.divf : (⟨S512, .f32⟩ : BufTy).Contents (Elt F) → (⟨S512, .f32⟩ : BufTy).Contents (Elt F) → (⟨S512, .f32⟩ : BufTy).Contents (Elt F)),
    StableHlo.nullary main_c_16 (constantI S_ 32 0#32) ] ++
  (  opsVar (.of main_v77) (.of main_c_16) main_call5 ++
  (  [ StableHlo.unary main_v80 main_v82 (broadcastInDim S1x512 ![1] bcast_S512_S1x512_1 : (⟨S512, .f32⟩ : BufTy).Contents (Elt F) → (⟨S1x512, .f32⟩ : BufTy).Contents (Elt F)),
    StableHlo.unary main_v82 main_v83 (broadcastInDim S50000x512 ![0, 1] bcast_S1x512_S50000x512_0_1 : (⟨S1x512, .f32⟩ : BufTy).Contents (Elt F) → (⟨S50000x512, .f32⟩ : BufTy).Contents (Elt F)),
    StableHlo.binary main_v77 main_v83 main_v84 (subf : (⟨S50000x512, .f32⟩ : BufTy).Contents (Elt F) → (⟨S50000x512, .f32⟩ : BufTy).Contents (Elt F) → (⟨S50000x512, .f32⟩ : BufTy).Contents (Elt F)),
    StableHlo.unary main_arg14 main_v85 (broadcastInDim S1x512 ![1] bcast_S512_S1x512_1 : (⟨S512, .f32⟩ : BufTy).Contents (Elt F) → (⟨S1x512, .f32⟩ : BufTy).Contents (Elt F)),
    StableHlo.unary main_v85 main_v86 (broadcastInDim S50000x512 ![0, 1] bcast_S1x512_S50000x512_0_1 : (⟨S1x512, .f32⟩ : BufTy).Contents (Elt F) → (⟨S50000x512, .f32⟩ : BufTy).Contents (Elt F)),
    StableHlo.binary main_v86 main_v84 main_v87 (mulf : (⟨S50000x512, .f32⟩ : BufTy).Contents (Elt F) → (⟨S50000x512, .f32⟩ : BufTy).Contents (Elt F) → (⟨S50000x512, .f32⟩ : BufTy).Contents (Elt F)),
    StableHlo.nullary main_cst_17 (constant S_ .f32 0x3727C5AC#32),
    StableHlo.unary main_cst_17 main_v88 (broadcastInDim S512 ![] bcast_S_S512 : (⟨S_, .f32⟩ : BufTy).Contents (Elt F) → (⟨S512, .f32⟩ : BufTy).Contents (Elt F)),
    StableHlo.binary main_v81 main_v88 main_v89 (addf : (⟨S512, .f32⟩ : BufTy).Contents (Elt F) → (⟨S512, .f32⟩ : BufTy).Contents (Elt F) → (⟨S512, .f32⟩ : BufTy).Contents (Elt F)),
    StableHlo.unary main_v89 main_v90 (Host.rsqrt : (⟨S512, .f32⟩ : BufTy).Contents (Elt F) → (⟨S512, .f32⟩ : BufTy).Contents (Elt F)),
    StableHlo.unary main_v90 main_v91 (broadcastInDim S1x512 ![1] bcast_S512_S1x512_1 : (⟨S512, .f32⟩ : BufTy).Contents (Elt F) → (⟨S1x512, .f32⟩ : BufTy).Contents (Elt F)),
    StableHlo.unary main_v91 main_v92 (broadcastInDim S50000x512 ![0, 1] bcast_S1x512_S50000x512_0_1 : (⟨S1x512, .f32⟩ : BufTy).Contents (Elt F) → (⟨S50000x512, .f32⟩ : BufTy).Contents (Elt F)),
    StableHlo.binary main_v87 main_v92 main_v93 (mulf : (⟨S50000x512, .f32⟩ : BufTy).Contents (Elt F) → (⟨S50000x512, .f32⟩ : BufTy).Contents (Elt F) → (⟨S50000x512, .f32⟩ : BufTy).Contents (Elt F)),
    StableHlo.unary main_arg15 main_v94 (broadcastInDim S1x512 ![1] bcast_S512_S1x512_1 : (⟨S512, .f32⟩ : BufTy).Contents (Elt F) → (⟨S1x512, .f32⟩ : BufTy).Contents (Elt F)),
    StableHlo.unary main_v94 main_v95 (broadcastInDim S50000x512 ![0, 1] bcast_S1x512_S50000x512_0_1 : (⟨S1x512, .f32⟩ : BufTy).Contents (Elt F) → (⟨S50000x512, .f32⟩ : BufTy).Contents (Elt F)),
    StableHlo.binary main_v93 main_v95 main_v96 (addf : (⟨S50000x512, .f32⟩ : BufTy).Contents (Elt F) → (⟨S50000x512, .f32⟩ : BufTy).Contents (Elt F) → (⟨S50000x512, .f32⟩ : BufTy).Contents (Elt F)) ] ++
  (  opsRelu (.of main_v96) main_call6 ++
  (  [ StableHlo.binary main_v97 main_arg13 main_v98 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.nullary main_cst_18 (constant S_ .f32 0x00000000#32) ]))))))

/-- The references `opsPart1`'s operations write, in order. -/
noncomputable def WPart1 : List (Ref sig .tc) :=
  [main_cst_9, main_v49, main_v50, main_v51, main_v52, main_v53, main_v54, main_v55, main_v56, main_v57] ++
  (  wRelu3 main_call4 ++
  (  [main_cst_10, main_v59, main_v60, main_v61, main_v62, main_v63, main_c_11, main_v64, main_v65, main_c_12, main_v66, main_v67, main_v68, main_v69, main_v70, main_v71, main_v72, main_cst_13, main_v73, main_v74, main_v75, main_v76, main_v77, main_cst_14, main_v78, main_cst_15, main_v79, main_v80, main_c_16] ++
  (  wVar main_call5 ++
  (  [main_v82, main_v83, main_v84, main_v85, main_v86, main_v87, main_cst_17, main_v88, main_v89, main_v90, main_v91, main_v92, main_v93, main_v94, main_v95, main_v96] ++
  (  wRelu main_call6 ++
  (  [main_v98, main_cst_18]))))))

/-- Statements 121 … 180 (values %99 … %147). First pass: the second layer's outer normalisation (`arg16`, `arg17`) and `relu`;
    that output's sums per graph and the two layers' sums side by side; the output masked again (`where(m, 0, h)`); the third
    layer's neighbour sum, product with the 256×512 weight `arg18`, and the start of its batch normalisation (scale `arg20`). -/
def opsPart2 : List (HloOp τ sig (Elt F)) :=
  [ StableHlo.binary main_v98 main_cst_18 main_v99 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_19 (constant S_ .f32 0x47435000#32),
    StableHlo.unary main_cst_19 main_v100 (broadcastInDim S256 ![] bcast_S_S256 : (⟨S_, .f32⟩ : BufTy).Contents (Elt F) → (⟨S256, .f32⟩ : BufTy).Contents (Elt F)),
    StableHlo.binary main_v99 main_v100 main_v101 (Host.divf : (⟨S256, .f32⟩ : BufTy).Contents (Elt F) → (⟨S256, .f32⟩ : BufTy).Contents (Elt F) → (⟨S256, .f32⟩ : BufTy).Contents (Elt F)),
    StableHlo.nullary main_c_20 (constantI S_ 32 0#32) ] ++
  (  opsVar1 (.of main_v98) (.of main_c_20) main_call7 ++
  (  [ StableHlo.unary main_v101 main_v103 (broadcastInDim S1x256 ![1] bcast_S256_S1x256_1 : (⟨S256, .f32⟩ : BufTy).Contents (Elt F) → (⟨S1x256, .f32⟩ : BufTy).Contents (Elt F)),
    StableHlo.unary main_v103 main_v104 (broadcastInDim S50000x256 ![0, 1] bcast_S1x256_S50000x256_0_1 : (⟨S1x256, .f32⟩ : BufTy).Contents (Elt F) → (⟨S50000x256, .f32⟩ : BufTy).Contents (Elt F)),
    StableHlo.binary main_v98 main_v104 main_v105 (subf : (⟨S50000x256, .f32⟩ : BufTy).Contents (Elt F) → (⟨S50000x256, .f32⟩ : BufTy).Contents (Elt F) → (⟨S50000x256, .f32⟩ : BufTy).Contents (Elt F)),
    StableHlo.unary main_arg16 main_v106 (broadcastInDim S1x256 ![1] bcast_S256_S1x256_1 : (⟨S256, .f32⟩ : BufTy).Contents (Elt F) → (⟨S1x256, .f32⟩ : BufTy).Contents (Elt F)),
    StableHlo.unary main_v106 main_v107 (broadcastInDim S50000x256 ![0, 1] bcast_S1x256_S50000x256_0_1 : (⟨S1x256, .f32⟩ : BufTy).Contents (Elt F) → (⟨S50000x256, .f32⟩ : BufTy).Contents (Elt F)),
    StableHlo.binary main_v107 main_v105 main_v108 (mulf : (⟨S50000x256, .f32⟩ : BufTy).Contents (Elt F) → (⟨S50000x256, .f32⟩ : BufTy).Contents (Elt F) → (⟨S50000x256, .f32⟩ : BufTy).Contents (Elt F)),
    StableHlo.nullary main_cst_21 (constant S_ .f32 0x3727C5AC#32),
    StableHlo.unary main_cst_21 main_v109 (broadcastInDim S256 ![] bcast_S_S256 : (⟨S_, .f32⟩ : BufTy).Contents (Elt F) → (⟨S256, .f32⟩ : BufTy).Contents (Elt F)),
    StableHlo.binary main_v102 main_v109 main_v110 (addf : (⟨S256, .f32⟩ : BufTy).Contents (Elt F) → (⟨S256, .f32⟩ : BufTy).Contents (Elt F) → (⟨S256, .f32⟩ : BufTy).Contents (Elt F)),
    StableHlo.unary main_v110 main_v111 (Host.rsqrt : (⟨S256, .f32⟩ : BufTy).Contents (Elt F) → (⟨S256, .f32⟩ : BufTy).Contents (Elt F)),
    StableHlo.unary main_v111 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S50000x256 ![0, 1] bcast_S1x256_S50000x256_0_1 : (⟨S1x256, .f32⟩ : BufTy).Contents (Elt F) → (⟨S50000x256, .f32⟩ : BufTy).Contents (Elt F)),
    StableHlo.binary main_v108 main_v113 main_v114 (mulf : (⟨S50000x256, .f32⟩ : BufTy).Contents (Elt F) → (⟨S50000x256, .f32⟩ : BufTy).Contents (Elt F) → (⟨S50000x256, .f32⟩ : BufTy).Contents (Elt F)),
    StableHlo.unary main_arg17 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S50000x256 ![0, 1] bcast_S1x256_S50000x256_0_1 : (⟨S1x256, .f32⟩ : BufTy).Contents (Elt F) → (⟨S50000x256, .f32⟩ : BufTy).Contents (Elt F)),
    StableHlo.binary main_v114 main_v116 main_v117 (addf : (⟨S50000x256, .f32⟩ : BufTy).Contents (Elt F) → (⟨S50000x256, .f32⟩ : BufTy).Contents (Elt F) → (⟨S50000x256, .f32⟩ : BufTy).Contents (Elt F)) ] ++
  (  opsRelu3 (.of main_v117) main_call8 ++
  (  [ StableHlo.nullary main_cst_22 (constant S_ .f32 0x00000000#32),
    StableHlo.unary main_cst_22 main_v119 (broadcastInDim S512x256 ![] bcast_S_S512x256 : (⟨S_, .f32⟩ : BufTy).Contents (Elt F) → (⟨S512x256, .f32⟩ : BufTy).Contents (Elt F)),
    StableHlo.unary main_arg5 main_v120 (broadcastInDim S50000x1 ![0] bcast_S50000_S50000x1_0 : (⟨S50000, .i32⟩ : BufTy).Contents (Elt F) → (⟨S50000x1, .i32⟩ : BufTy).Contents (Elt F)),
    StableHlo.ternary main_v119 main_v120 main_v118 main_v121 ((fun x i u => Host.scatterAdd scatter_S512x256_S50000x1_S50000x256_1_0_0_1 x i u) : (⟨S512x256, .f32⟩ : BufTy).Contents (Elt F) → (⟨S50000x1, .i32⟩ : BufTy).Contents (Elt F) → (⟨S50000x256, .f32⟩ : BufTy).Contents (Elt F) → (⟨S512x256, .f32⟩ : BufTy).Contents (Elt F)),
    StableHlo.binary main_v61 main_v121 main_v122 ((fun a b => concatenate S512x512 1 [⟨S512x256, a⟩, ⟨S512x256, b⟩] concatenates_S512x256_S512x256_S512x512_d1) : (⟨S512x256, .f32⟩ : BufTy).Contents (Elt F) → (⟨S512x256, .f32⟩ : BufTy).Contents (Elt F) → (⟨S512x512, .f32⟩ : BufTy).Contents (Elt F)),
    StableHlo.nullary main_cst_23 (constant S_ .f32 0x00000000#32) ] ++
  (  opsWhere4 (.of main_v0) (.of main_cst_23) (.of main_v118) main_call9 ++
  (  [ StableHlo.unary main_arg1 main_v124 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v124 main_v125 rfl shapeCasts_S1x320000_S320000,
    StableHlo.nullary main_c_24 (constantI S_ 32 0#32),
    StableHlo.unary main_c_24 main_v126 (broadcastInDim S320000 ![] bcast_S_S320000 : (⟨S_, .i32⟩ : BufTy).Contents (Elt F) → (⟨S320000, .i32⟩ : BufTy).Contents (Elt F)),
    StableHlo.binary main_v125 main_v126 main_v127 (cmpi .slt : (⟨S320000, .i32⟩ : BufTy).Contents (Elt F) → (⟨S320000, .i32⟩ : BufTy).Contents (Elt F) → (⟨S320000, .i1⟩ : BufTy).Contents (Elt F)),
    StableHlo.nullary main_c_25 (constantI S_ 32 50000#32),
    StableHlo.unary main_c_25 main_v128 (broadcastInDim S320000 ![] bcast_S_S320000 : (⟨S_, .i32⟩ : BufTy).Contents (Elt F) → (⟨S320000, .i32⟩ : BufTy).Contents (Elt F)),
    StableHlo.binary main_v125 main_v128 main_v129 (addi : (⟨S320000, .i32⟩ : BufTy).Contents (Elt F) → (⟨S320000, .i32⟩ : BufTy).Contents (Elt F) → (⟨S320000, .i32⟩ : BufTy).Contents (Elt F)),
    StableHlo.ternary main_v127 main_v129 main_v125 main_v130 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v130 main_v131 (broadcastInDim S320000x1 ![0] bcast_S320000_S320000x1_0 : (⟨S320000, .i32⟩ : BufTy).Contents (Elt F) → (⟨S320000x1, .i32⟩ : BufTy).Contents (Elt F)),
    StableHlo.binary main_v123 main_v131 main_v132 ((fun x i => Host.gather gather_S50000x256_S320000x1_S320000x256_1_0_n_n_0_1_1256 x i) : (⟨S50000x256, .f32⟩ : BufTy).Contents (Elt F) → (⟨S320000x1, .i32⟩ : BufTy).Contents (Elt F) → (⟨S320000x256, .f32⟩ : BufTy).Contents (Elt F)),
    StableHlo.unary main_arg1 main_v133 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v133 main_v134 rfl shapeCasts_S1x320000_S320000,
    StableHlo.nullary main_cst_26 (constant S_ .f32 0x00000000#32),
    StableHlo.unary main_cst_26 main_v135 (broadcastInDim S50000x256 ![] bcast_S_S50000x256 : (⟨S_, .f32⟩ : BufTy).Contents (Elt F) → (⟨S50000x256, .f32⟩ : BufTy).Contents (Elt F)),
    StableHlo.unary main_v134 main_v136 (broadcastInDim S320000x1 ![0] bcast_S320000_S320000x1_0 : (⟨S320000, .i32⟩ : BufTy).Contents (Elt F) → (⟨S320000x1, .i32⟩ : BufTy).Contents (Elt F)),
    StableHlo.ternary main_v135 main_v136 main_v132 main_v137 ((fun x i u => Host.scatterAdd scatter_S50000x256_S320000x1_S320000x256_1_0_0_1 x i u) : (⟨S50000x256, .f32⟩ : BufTy).Contents (Elt F) → (⟨S320000x1, .i32⟩ : BufTy).Contents (Elt F) → (⟨S320000x256, .f32⟩ : BufTy).Contents (Elt F) → (⟨S50000x256, .f32⟩ : BufTy).Contents (Elt F)),
    StableHlo.binary main_v123 main_v137 main_v138 (addf : (⟨S50000x256, .f32⟩ : BufTy).Contents (Elt F) → (⟨S50000x256, .f32⟩ : BufTy).Contents (Elt F) → (⟨S50000x256, .f32⟩ : BufTy).Contents (Elt F)),
    StableHlo.binary main_v138 main_arg18 main_v139 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.nullary main_cst_27 (constant S_ .f32 0x00000000#32),
    StableHlo.binary main_v139 main_cst_27 main_v140 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_28 (constant S_ .f32 0x47435000#32),
    StableHlo.unary main_cst_28 main_v141 (broadcastInDim S512 ![] bcast_S_S512 : (⟨S_, .f32⟩ : BufTy).Contents (Elt F) → (⟨S512, .f32⟩ : BufTy).Contents (Elt F)),
    StableHlo.binary main_v140 main_v141 main_v142 (Host.divf : (⟨S512, .f32⟩ : BufTy).Contents (Elt F) → (⟨S512, .f32⟩ : BufTy).Contents (Elt F) → (⟨S512, .f32⟩ : BufTy).Contents (Elt F)),
    StableHlo.nullary main_c_29 (constantI S_ 32 0#32) ] ++
  (  opsVar (.of main_v139) (.of main_c_29) main_call10 ++
  (  [ StableHlo.unary main_v142 main_v144 (broadcastInDim S1x512 ![1] bcast_S512_S1x512_1 : (⟨S512, .f32⟩ : BufTy).Contents (Elt F) → (⟨S1x512, .f32⟩ : BufTy).Contents (Elt F)),
    StableHlo.unary main_v144 main_v145 (broadcastInDim S50000x512 ![0, 1] bcast_S1x512_S50000x512_0_1 : (⟨S1x512, .f32⟩ : BufTy).Contents (Elt F) → (⟨S50000x512, .f32⟩ : BufTy).Contents (Elt F)),
    StableHlo.binary main_v139 main_v145 main_v146 (subf : (⟨S50000x512, .f32⟩ : BufTy).Contents (Elt F) → (⟨S50000x512, .f32⟩ : BufTy).Contents (Elt F) → (⟨S50000x512, .f32⟩ : BufTy).Contents (Elt F)),
    StableHlo.unary main_arg20 main_v147 (broadcastInDim S1x512 ![1] bcast_S512_S1x512_1 : (⟨S512, .f32⟩ : BufTy).Contents (Elt F) → (⟨S1x512, .f32⟩ : BufTy).Contents (Elt F)) ]))))))))

/-- The references `opsPart2`'s operations write, in order. -/
noncomputable def WPart2 : List (Ref sig .tc) :=
  [main_v99, main_cst_19, main_v100, main_v101, main_c_20] ++
  (  wVar1 main_call7 ++
  (  [main_v103, main_v104, main_v105, main_v106, main_v107, main_v108, main_cst_21, main_v109, main_v110, main_v111, main_v112, main_v113, main_v114, main_v115, main_v116, main_v117] ++
  (  wRelu3 main_call8 ++
  (  [main_cst_22, main_v119, main_v120, main_v121, main_v122, main_cst_23] ++
  (  wWhere4 main_call9 ++
  (  [main_v124, main_v125, main_c_24, main_v126, main_v127, main_c_25, main_v128, main_v129, main_v130, main_v131, main_v132, main_v133, main_v134, main_cst_26, main_v135, main_v136, main_v137, main_v138, main_v139, main_cst_27, main_v140, main_cst_28, main_v141, main_v142, main_c_29] ++
  (  wVar main_call10 ++
  (  [main_v144, main_v145, main_v146, main_v147]))))))))

/-- Statements 181 … 240 (values %148 … %197). First pass: the third layer's batch normalisation's end (shift `arg21`), `relu`,
    product with the 512×128 weight `arg19`, outer normalisation (`arg22`, `arg23`) and `relu`: the reconstruction; its sums per
    graph; and, towards the first loss, the row norms of the reconstruction and of the input `arg0` (the two outlined norms)
    and the operations on them up to %197. -/
def opsPart3 : List (HloOp τ sig (Elt F)) :=
  [ StableHlo.unary main_v147 main_v148 (broadcastInDim S50000x512 ![0, 1] bcast_S1x512_S50000x512_0_1 : (⟨S1x512, .f32⟩ : BufTy).Contents (Elt F) → (⟨S50000x512, .f32⟩ : BufTy).Contents (Elt F)),
    StableHlo.binary main_v148 main_v146 main_v149 (mulf : (⟨S50000x512, .f32⟩ : BufTy).Contents (Elt F) → (⟨S50000x512, .f32⟩ : BufTy).Contents (Elt F) → (⟨S50000x512, .f32⟩ : BufTy).Contents (Elt F)),
    StableHlo.nullary main_cst_30 (constant S_ .f32 0x3727C5AC#32),
    StableHlo.unary main_cst_30 main_v150 (broadcastInDim S512 ![] bcast_S_S512 : (⟨S_, .f32⟩ : BufTy).Contents (Elt F) → (⟨S512, .f32⟩ : BufTy).Contents (Elt F)),
    StableHlo.binary main_v143 main_v150 main_v151 (addf : (⟨S512, .f32⟩ : BufTy).Contents (Elt F) → (⟨S512, .f32⟩ : BufTy).Contents (Elt F) → (⟨S512, .f32⟩ : BufTy).Contents (Elt F)),
    StableHlo.unary main_v151 main_v152 (Host.rsqrt : (⟨S512, .f32⟩ : BufTy).Contents (Elt F) → (⟨S512, .f32⟩ : BufTy).Contents (Elt F)),
    StableHlo.unary main_v152 main_v153 (broadcastInDim S1x512 ![1] bcast_S512_S1x512_1 : (⟨S512, .f32⟩ : BufTy).Contents (Elt F) → (⟨S1x512, .f32⟩ : BufTy).Contents (Elt F)),
    StableHlo.unary main_v153 main_v154 (broadcastInDim S50000x512 ![0, 1] bcast_S1x512_S50000x512_0_1 : (⟨S1x512, .f32⟩ : BufTy).Contents (Elt F) → (⟨S50000x512, .f32⟩ : BufTy).Contents (Elt F)),
    StableHlo.binary main_v149 main_v154 main_v155 (mulf : (⟨S50000x512, .f32⟩ : BufTy).Contents (Elt F) → (⟨S50000x512, .f32⟩ : BufTy).Contents (Elt F) → (⟨S50000x512, .f32⟩ : BufTy).Contents (Elt F)),
    StableHlo.unary main_arg21 main_v156 (broadcastInDim S1x512 ![1] bcast_S512_S1x512_1 : (⟨S512, .f32⟩ : BufTy).Contents (Elt F) → (⟨S1x512, .f32⟩ : BufTy).Contents (Elt F)),
    StableHlo.unary main_v156 main_v157 (broadcastInDim S50000x512 ![0, 1] bcast_S1x512_S50000x512_0_1 : (⟨S1x512, .f32⟩ : BufTy).Contents (Elt F) → (⟨S50000x512, .f32⟩ : BufTy).Contents (Elt F)),
    StableHlo.binary main_v155 main_v157 main_v158 (addf : (⟨S50000x512, .f32⟩ : BufTy).Contents (Elt F) → (⟨S50000x512, .f32⟩ : BufTy).Contents (Elt F) → (⟨S50000x512, .f32⟩ : BufTy).Contents (Elt F)) ] ++
  (  opsRelu (.of main_v158) main_call11 ++
  (  [ StableHlo.binary main_v159 main_arg19 main_v160 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    StableHlo.nullary main_cst_31 (constant S_ .f32 0x00000000#32),
    StableHlo.binary main_v160 main_cst_31 main_v161 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_32 (constant S_ .f32 0x47435000#32),
    StableHlo.unary main_cst_32 main_v162 (broadcastInDim S128 ![] bcast_S_S128 : (⟨S_, .f32⟩ : BufTy).Contents (Elt F) → (⟨S128, .f32⟩ : BufTy).Contents (Elt F)),
    StableHlo.binary main_v161 main_v162 main_v163 (Host.divf : (⟨S128, .f32⟩ : BufTy).Contents (Elt F) → (⟨S128, .f32⟩ : BufTy).Contents (Elt F) → (⟨S128, .f32⟩ : BufTy).Contents (Elt F)),
    StableHlo.nullary main_c_33 (constantI S_ 32 0#32) ] ++
  (  opsVar5 (.of main_v160) (.of main_c_33) main_call12 ++
  (  [ StableHlo.unary main_v163 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S50000x128 ![0, 1] bcast_S1x128_S50000x128_0_1 : (⟨S1x128, .f32⟩ : BufTy).Contents (Elt F) → (⟨S50000x128, .f32⟩ : BufTy).Contents (Elt F)),
    StableHlo.binary main_v160 main_v166 main_v167 (subf : (⟨S50000x128, .f32⟩ : BufTy).Contents (Elt F) → (⟨S50000x128, .f32⟩ : BufTy).Contents (Elt F) → (⟨S50000x128, .f32⟩ : BufTy).Contents (Elt F)),
    StableHlo.unary main_arg22 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S50000x128 ![0, 1] bcast_S1x128_S50000x128_0_1 : (⟨S1x128, .f32⟩ : BufTy).Contents (Elt F) → (⟨S50000x128, .f32⟩ : BufTy).Contents (Elt F)),
    StableHlo.binary main_v169 main_v167 main_v170 (mulf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x3727C5AC#32),
    StableHlo.unary main_cst_34 main_v171 (broadcastInDim S128 ![] bcast_S_S128 : (⟨S_, .f32⟩ : BufTy).Contents (Elt F) → (⟨S128, .f32⟩ : BufTy).Contents (Elt F)),
    StableHlo.binary main_v164 main_v171 main_v172 (addf : (⟨S128, .f32⟩ : BufTy).Contents (Elt F) → (⟨S128, .f32⟩ : BufTy).Contents (Elt F) → (⟨S128, .f32⟩ : BufTy).Contents (Elt F)),
    StableHlo.unary main_v172 main_v173 (Host.rsqrt : (⟨S128, .f32⟩ : BufTy).Contents (Elt F) → (⟨S128, .f32⟩ : BufTy).Contents (Elt F)),
    StableHlo.unary main_v173 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S50000x128 ![0, 1] bcast_S1x128_S50000x128_0_1 : (⟨S1x128, .f32⟩ : BufTy).Contents (Elt F) → (⟨S50000x128, .f32⟩ : BufTy).Contents (Elt F)),
    StableHlo.binary main_v170 main_v175 main_v176 (mulf : (⟨S50000x128, .f32⟩ : BufTy).Contents (Elt F) → (⟨S50000x128, .f32⟩ : BufTy).Contents (Elt F) → (⟨S50000x128, .f32⟩ : BufTy).Contents (Elt F)),
    StableHlo.unary main_arg23 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S50000x128 ![0, 1] bcast_S1x128_S50000x128_0_1 : (⟨S1x128, .f32⟩ : BufTy).Contents (Elt F) → (⟨S50000x128, .f32⟩ : BufTy).Contents (Elt F)),
    StableHlo.binary main_v176 main_v178 main_v179 (addf : (⟨S50000x128, .f32⟩ : BufTy).Contents (Elt F) → (⟨S50000x128, .f32⟩ : BufTy).Contents (Elt F) → (⟨S50000x128, .f32⟩ : BufTy).Contents (Elt F)) ] ++
  (  opsRelu7 (.of main_v179) main_call13 ++
  (  [ StableHlo.nullary main_cst_35 (constant S_ .f32 0x00000000#32),
    StableHlo.unary main_cst_35 main_v181 (broadcastInDim S512x128 ![] bcast_S_S512x128 : (⟨S_, .f32⟩ : BufTy).Contents (Elt F) → (⟨S512x128, .f32⟩ : BufTy).Contents (Elt F)),
    StableHlo.unary main_arg5 main_v182 (broadcastInDim S50000x1 ![0] bcast_S50000_S50000x1_0 : (⟨S50000, .i32⟩ : BufTy).Contents (Elt F) → (⟨S50000x1, .i32⟩ : BufTy).Contents (Elt F)),
    StableHlo.ternary main_v181 main_v182 main_v180 main_v183 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg3 main_v184 (uitofp .f32 : (⟨S50000, .i1⟩ : BufTy).Contents (Elt F) → (⟨S50000, .f32⟩ : BufTy).Contents (Elt F)) ] ++
  (  opsNorm (.of main_v180) main_call14 ++
  (  [ StableHlo.nullary main_cst_36 (constant S_ .f32 0x2B8CBCCC#32),
    StableHlo.unary main_cst_36 main_v186 (broadcastInDim S50000x1 ![] bcast_S_S50000x1 : (⟨S_, .f32⟩ : BufTy).Contents (Elt F) → (⟨S50000x1, .f32⟩ : BufTy).Contents (Elt F)),
    StableHlo.binary main_v185 main_v186 main_v187 (maximumf : (⟨S50000x1, .f32⟩ : BufTy).Contents (Elt F) → (⟨S50000x1, .f32⟩ : BufTy).Contents (Elt F) → (⟨S50000x1, .f32⟩ : BufTy).Contents (Elt F)),
    StableHlo.unary main_v187 main_v188 (broadcastInDim S50000x128 ![0, 1] bcast_S50000x1_S50000x128_0_1 : (⟨S50000x1, .f32⟩ : BufTy).Contents (Elt F) → (⟨S50000x128, .f32⟩ : BufTy).Contents (Elt F)),
    StableHlo.binary main_v180 main_v188 main_v189 (Host.divf : (⟨S50000x128, .f32⟩ : BufTy).Contents (Elt F) → (⟨S50000x128, .f32⟩ : BufTy).Contents (Elt F) → (⟨S50000x128, .f32⟩ : BufTy).Contents (Elt F)) ] ++
  (  opsNorm8 (.of main_arg0) main_call15 ++
  (  [ StableHlo.nullary main_cst_37 (constant S_ .f32 0x2B8CBCCC#32),
    StableHlo.unary main_cst_37 main_v191 (broadcastInDim S50000x1 ![] bcast_S_S50000x1 : (⟨S_, .f32⟩ : BufTy).Contents (Elt F) → (⟨S50000x1, .f32⟩ : BufTy).Contents (Elt F)),
    StableHlo.binary main_v190 main_v191 main_v192 (maximumf : (⟨S50000x1, .f32⟩ : BufTy).Contents (Elt F) → (⟨S50000x1, .f32⟩ : BufTy).Contents (Elt F) → (⟨S50000x1, .f32⟩ : BufTy).Contents (Elt F)),
    StableHlo.unary main_v192 main_v193 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v193 main_v194 (Host.divf : (⟨S50000x128, .f32⟩ : BufTy).Contents (Elt F) → (⟨S50000x128, .f32⟩ : BufTy).Contents (Elt F) → (⟨S50000x128, .f32⟩ : BufTy).Contents (Elt F)),
    StableHlo.binary main_v189 main_v194 main_v195 (mulf : (⟨S50000x128, .f32⟩ : BufTy).Contents (Elt F) → (⟨S50000x128, .f32⟩ : BufTy).Contents (Elt F) → (⟨S50000x128, .f32⟩ : BufTy).Contents (Elt F)),
    StableHlo.nullary main_cst_38 (constant S_ .f32 0x00000000#32),
    StableHlo.binary main_v195 main_cst_38 main_v196 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.nullary main_cst_39 (constant S_ .f32 0x3F800000#32),
    StableHlo.unary main_cst_39 main_v197 (broadcastInDim S50000 ![] bcast_S_S50000 : (⟨S_, .f32⟩ : BufTy).Contents (Elt F) → (⟨S50000, .f32⟩ : BufTy).Contents (Elt F)) ]))))))))))

/-- The references `opsPart3`'s operations write, in order. -/
noncomputable def WPart3 : List (Ref sig .tc) :=
  [main_v148, main_v149, main_cst_30, main_v150, main_v151, main_v152, main_v153, main_v154, main_v155, main_v156, main_v157, main_v158] ++
  (  wRelu main_call11 ++
  (  [main_v160, main_cst_31, main_v161, main_cst_32, main_v162, main_v163, main_c_33] ++
  (  wVar5 main_call12 ++
  (  [main_v165, main_v166, main_v167, main_v168, main_v169, main_v170, main_cst_34, main_v171, main_v172, main_v173, main_v174, main_v175, main_v176, main_v177, main_v178, main_v179] ++
  (  wRelu7 main_call13 ++
  (  [main_cst_35, main_v181, main_v182, main_v183, main_v184] ++
  (  wNorm main_call14 ++
  (  [main_cst_36, main_v186, main_v187, main_v188, main_v189] ++
  (  wNorm8 main_call15 ++
  (  [main_cst_37, main_v191, main_v192, main_v193, main_v194, main_v195, main_cst_38, main_v196, main_cst_39, main_v197]))))))))))

/-- Statements 241 … 300 (values %198 … %c_52). Two sums closing the first pass; then the second pass (edge list `arg2`, node
    mask `arg4`) as the first: the masked input, the first layer's neighbour sum, product with `arg6`, batch normalisation
    (`arg8`, `arg9`), `relu`, product with `arg7` and its column sums. -/
def opsPart4 : List (HloOp τ sig (Elt F)) :=
  [ StableHlo.binary main_v197 main_v196 main_v198 (subf : (⟨S50000, .f32⟩ : BufTy).Contents (Elt F) → (⟨S50000, .f32⟩ : BufTy).Contents (Elt F) → (⟨S50000, .f32⟩ : BufTy).Contents (Elt F)),
    StableHlo.binary main_v184 main_v198 main_v199 (mulf : (⟨S50000, .f32⟩ : BufTy).Contents (Elt F) → (⟨S50000, .f32⟩ : BufTy).Contents (Elt F) → (⟨S50000, .f32⟩ : BufTy).Contents (Elt F)),
    StableHlo.nullary main_cst_40 (constant S_ .f32 0x00000000#32),
    StableHlo.binary main_v199 main_cst_40 main_v200 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    StableHlo.nullary main_cst_41 (constant S_ .f32 0x00000000#32),
    StableHlo.binary main_v184 main_cst_41 main_v201 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    StableHlo.binary main_v200 main_v201 main_v202 (Host.divf : (⟨S_, .f32⟩ : BufTy).Contents (Elt F) → (⟨S_, .f32⟩ : BufTy).Contents (Elt F) → (⟨S_, .f32⟩ : BufTy).Contents (Elt F)),
    StableHlo.unary main_arg4 main_v203 (broadcastInDim S50000x1 ![0] bcast_S50000_S50000x1_0 : (⟨S50000, .i1⟩ : BufTy).Contents (Elt F) → (⟨S50000x1, .i1⟩ : BufTy).Contents (Elt F)),
    StableHlo.nullary main_cst_42 (constant S_ .f32 0x00000000#32) ] ++
  (  opsWhere (.of main_v203) (.of main_cst_42) (.of main_arg0) main_call16 ++
  (  [ StableHlo.unary main_arg2 main_v205 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v205 main_v206 rfl shapeCasts_S1x320000_S320000,
    StableHlo.nullary main_c_43 (constantI S_ 32 0#32),
    StableHlo.unary main_c_43 main_v207 (broadcastInDim S320000 ![] bcast_S_S320000 : (⟨S_, .i32⟩ : BufTy).Contents (Elt F) → (⟨S320000, .i32⟩ : BufTy).Contents (Elt F)),
    StableHlo.binary main_v206 main_v207 main_v208 (cmpi .slt : (⟨S320000, .i32⟩ : BufTy).Contents (Elt F) → (⟨S320000, .i32⟩ : BufTy).Contents (Elt F) → (⟨S320000, .i1⟩ : BufTy).Contents (Elt F)),
    StableHlo.nullary main_c_44 (constantI S_ 32 50000#32),
    StableHlo.unary main_c_44 main_v209 (broadcastInDim S320000 ![] bcast_S_S320000 : (⟨S_, .i32⟩ : BufTy).Contents (Elt F) → (⟨S320000, .i32⟩ : BufTy).Contents (Elt F)),
    StableHlo.binary main_v206 main_v209 main_v210 (addi : (⟨S320000, .i32⟩ : BufTy).Contents (Elt F) → (⟨S320000, .i32⟩ : BufTy).Contents (Elt F) → (⟨S320000, .i32⟩ : BufTy).Contents (Elt F)),
    StableHlo.ternary main_v208 main_v210 main_v206 main_v211 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v211 main_v212 (broadcastInDim S320000x1 ![0] bcast_S320000_S320000x1_0 : (⟨S320000, .i32⟩ : BufTy).Contents (Elt F) → (⟨S320000x1, .i32⟩ : BufTy).Contents (Elt F)),
    StableHlo.binary main_v204 main_v212 main_v213 ((fun x i => Host.gather gather_S50000x128_S320000x1_S320000x128_1_0_n_n_0_1_1128 x i) : (⟨S50000x128, .f32⟩ : BufTy).Contents (Elt F) → (⟨S320000x1, .i32⟩ : BufTy).Contents (Elt F) → (⟨S320000x128, .f32⟩ : BufTy).Contents (Elt F)),
    StableHlo.unary main_arg2 main_v214 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v214 main_v215 rfl shapeCasts_S1x320000_S320000,
    StableHlo.nullary main_cst_45 (constant S_ .f32 0x00000000#32),
    StableHlo.unary main_cst_45 main_v216 (broadcastInDim S50000x128 ![] bcast_S_S50000x128 : (⟨S_, .f32⟩ : BufTy).Contents (Elt F) → (⟨S50000x128, .f32⟩ : BufTy).Contents (Elt F)),
    StableHlo.unary main_v215 main_v217 (broadcastInDim S320000x1 ![0] bcast_S320000_S320000x1_0 : (⟨S320000, .i32⟩ : BufTy).Contents (Elt F) → (⟨S320000x1, .i32⟩ : BufTy).Contents (Elt F)),
    StableHlo.ternary main_v216 main_v217 main_v213 main_v218 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)),
    StableHlo.binary main_v204 main_v218 main_v219 (addf : (⟨S50000x128, .f32⟩ : BufTy).Contents (Elt F) → (⟨S50000x128, .f32⟩ : BufTy).Contents (Elt F) → (⟨S50000x128, .f32⟩ : BufTy).Contents (Elt F)),
    StableHlo.binary main_v219 main_arg6 main_v220 ((fun l r => Host.dotGeneral dot_S50000x128_S128x512_S50000x512_1_0_0_1_n_n none l r) : (⟨S50000x128, .f32⟩ : BufTy).Contents (Elt F) → (⟨S128x512, .f32⟩ : BufTy).Contents (Elt F) → (⟨S50000x512, .f32⟩ : BufTy).Contents (Elt F)),
    StableHlo.nullary main_cst_46 (constant S_ .f32 0x00000000#32),
    StableHlo.binary main_v220 main_cst_46 main_v221 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_47 (constant S_ .f32 0x47435000#32),
    StableHlo.unary main_cst_47 main_v222 (broadcastInDim S512 ![] bcast_S_S512 : (⟨S_, .f32⟩ : BufTy).Contents (Elt F) → (⟨S512, .f32⟩ : BufTy).Contents (Elt F)),
    StableHlo.binary main_v221 main_v222 main_v223 (Host.divf : (⟨S512, .f32⟩ : BufTy).Contents (Elt F) → (⟨S512, .f32⟩ : BufTy).Contents (Elt F) → (⟨S512, .f32⟩ : BufTy).Contents (Elt F)),
    StableHlo.nullary main_c_48 (constantI S_ 32 0#32) ] ++
  (  opsVar (.of main_v220) (.of main_c_48) main_call17 ++
  (  [ StableHlo.unary main_v223 main_v225 (broadcastInDim S1x512 ![1] bcast_S512_S1x512_1 : (⟨S512, .f32⟩ : BufTy).Contents (Elt F) → (⟨S1x512, .f32⟩ : BufTy).Contents (Elt F)),
    StableHlo.unary main_v225 main_v226 (broadcastInDim S50000x512 ![0, 1] bcast_S1x512_S50000x512_0_1 : (⟨S1x512, .f32⟩ : BufTy).Contents (Elt F) → (⟨S50000x512, .f32⟩ : BufTy).Contents (Elt F)),
    StableHlo.binary main_v220 main_v226 main_v227 (subf : (⟨S50000x512, .f32⟩ : BufTy).Contents (Elt F) → (⟨S50000x512, .f32⟩ : BufTy).Contents (Elt F) → (⟨S50000x512, .f32⟩ : BufTy).Contents (Elt F)),
    StableHlo.unary main_arg8 main_v228 (broadcastInDim S1x512 ![1] bcast_S512_S1x512_1 : (⟨S512, .f32⟩ : BufTy).Contents (Elt F) → (⟨S1x512, .f32⟩ : BufTy).Contents (Elt F)),
    StableHlo.unary main_v228 main_v229 (broadcastInDim S50000x512 ![0, 1] bcast_S1x512_S50000x512_0_1 : (⟨S1x512, .f32⟩ : BufTy).Contents (Elt F) → (⟨S50000x512, .f32⟩ : BufTy).Contents (Elt F)),
    StableHlo.binary main_v229 main_v227 main_v230 (mulf : (⟨S50000x512, .f32⟩ : BufTy).Contents (Elt F) → (⟨S50000x512, .f32⟩ : BufTy).Contents (Elt F) → (⟨S50000x512, .f32⟩ : BufTy).Contents (Elt F)),
    StableHlo.nullary main_cst_49 (constant S_ .f32 0x3727C5AC#32),
    StableHlo.unary main_cst_49 main_v231 (broadcastInDim S512 ![] bcast_S_S512 : (⟨S_, .f32⟩ : BufTy).Contents (Elt F) → (⟨S512, .f32⟩ : BufTy).Contents (Elt F)),
    StableHlo.binary main_v224 main_v231 main_v232 (addf : (⟨S512, .f32⟩ : BufTy).Contents (Elt F) → (⟨S512, .f32⟩ : BufTy).Contents (Elt F) → (⟨S512, .f32⟩ : BufTy).Contents (Elt F)),
    StableHlo.unary main_v232 main_v233 (Host.rsqrt : (⟨S512, .f32⟩ : BufTy).Contents (Elt F) → (⟨S512, .f32⟩ : BufTy).Contents (Elt F)),
    StableHlo.unary main_v233 main_v234 (broadcastInDim S1x512 ![1] bcast_S512_S1x512_1 : (⟨S512, .f32⟩ : BufTy).Contents (Elt F) → (⟨S1x512, .f32⟩ : BufTy).Contents (Elt F)),
    StableHlo.unary main_v234 main_v235 (broadcastInDim S50000x512 ![0, 1] bcast_S1x512_S50000x512_0_1 : (⟨S1x512, .f32⟩ : BufTy).Contents (Elt F) → (⟨S50000x512, .f32⟩ : BufTy).Contents (Elt F)),
    StableHlo.binary main_v230 main_v235 main_v236 (mulf : (⟨S50000x512, .f32⟩ : BufTy).Contents (Elt F) → (⟨S50000x512, .f32⟩ : BufTy).Contents (Elt F) → (⟨S50000x512, .f32⟩ : BufTy).Contents (Elt F)),
    StableHlo.unary main_arg9 main_v237 (broadcastInDim S1x512 ![1] bcast_S512_S1x512_1 : (⟨S512, .f32⟩ : BufTy).Contents (Elt F) → (⟨S1x512, .f32⟩ : BufTy).Contents (Elt F)),
    StableHlo.unary main_v237 main_v238 (broadcastInDim S50000x512 ![0, 1] bcast_S1x512_S50000x512_0_1 : (⟨S1x512, .f32⟩ : BufTy).Contents (Elt F) → (⟨S50000x512, .f32⟩ : BufTy).Contents (Elt F)),
    StableHlo.binary main_v236 main_v238 main_v239 (addf : (⟨S50000x512, .f32⟩ : BufTy).Contents (Elt F) → (⟨S50000x512, .f32⟩ : BufTy).Contents (Elt F) → (⟨S50000x512, .f32⟩ : BufTy).Contents (Elt F)) ] ++
  (  opsRelu (.of main_v239) main_call18 ++
  (  [ StableHlo.binary main_v240 main_arg7 main_v241 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.nullary main_cst_50 (constant S_ .f32 0x00000000#32),
    StableHlo.binary main_v241 main_cst_50 main_v242 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_51 (constant S_ .f32 0x47435000#32),
    StableHlo.unary main_cst_51 main_v243 (broadcastInDim S256 ![] bcast_S_S256 : (⟨S_, .f32⟩ : BufTy).Contents (Elt F) → (⟨S256, .f32⟩ : BufTy).Contents (Elt F)),
    StableHlo.binary main_v242 main_v243 main_v244 (Host.divf : (⟨S256, .f32⟩ : BufTy).Contents (Elt F) → (⟨S256, .f32⟩ : BufTy).Contents (Elt F) → (⟨S256, .f32⟩ : BufTy).Contents (Elt F)),
    StableHlo.nullary main_c_52 (constantI S_ 32 0#32) ]))))))

/-- The references `opsPart4`'s operations write, in order. -/
noncomputable def WPart4 : List (Ref sig .tc) :=
  [main_v198, main_v199, main_cst_40, main_v200, main_cst_41, main_v201, main_v202, main_v203, main_cst_42] ++
  (  wWhere main_call16 ++
  (  [main_v205, main_v206, main_c_43, main_v207, main_v208, main_c_44, main_v209, main_v210, main_v211, main_v212, main_v213, main_v214, main_v215, main_cst_45, main_v216, main_v217, main_v218, main_v219, main_v220, main_cst_46, main_v221, main_cst_47, main_v222, main_v223, main_c_48] ++
  (  wVar main_call17 ++
  (  [main_v225, main_v226, main_v227, main_v228, main_v229, main_v230, main_cst_49, main_v231, main_v232, main_v233, main_v234, main_v235, main_v236, main_v237, main_v238, main_v239] ++
  (  wRelu main_call18 ++
  (  [main_v241, main_cst_50, main_v242, main_cst_51, main_v243, main_v244, main_c_52]))))))

/-- Statements 301 … 360 (values %245 … %295). Second pass: the first layer's outer normalisation (`arg10`, `arg11`) and `relu`, its
    sums per graph, the second layer's neighbour sum, product with `arg12`, and batch normalisation as far as the scale `arg14`. -/
def opsPart5 : List (HloOp τ sig (Elt F)) :=
  opsVar1 (.of main_v241) (.of main_c_52) main_call19 ++
  (  [ StableHlo.unary main_v244 main_v246 (broadcastInDim S1x256 ![1] bcast_S256_S1x256_1 : (⟨S256, .f32⟩ : BufTy).Contents (Elt F) → (⟨S1x256, .f32⟩ : BufTy).Contents (Elt F)),
    StableHlo.unary main_v246 main_v247 (broadcastInDim S50000x256 ![0, 1] bcast_S1x256_S50000x256_0_1 : (⟨S1x256, .f32⟩ : BufTy).Contents (Elt F) → (⟨S50000x256, .f32⟩ : BufTy).Contents (Elt F)),
    StableHlo.binary main_v241 main_v247 main_v248 (subf : (⟨S50000x256, .f32⟩ : BufTy).Contents (Elt F) → (⟨S50000x256, .f32⟩ : BufTy).Contents (Elt F) → (⟨S50000x256, .f32⟩ : BufTy).Contents (Elt F)),
    StableHlo.unary main_arg10 main_v249 (broadcastInDim S1x256 ![1] bcast_S256_S1x256_1 : (⟨S256, .f32⟩ : BufTy).Contents (Elt F) → (⟨S1x256, .f32⟩ : BufTy).Contents (Elt F)),
    StableHlo.unary main_v249 main_v250 (broadcastInDim S50000x256 ![0, 1] bcast_S1x256_S50000x256_0_1 : (⟨S1x256, .f32⟩ : BufTy).Contents (Elt F) → (⟨S50000x256, .f32⟩ : BufTy).Contents (Elt F)),
    StableHlo.binary main_v250 main_v248 main_v251 (mulf : (⟨S50000x256, .f32⟩ : BufTy).Contents (Elt F) → (⟨S50000x256, .f32⟩ : BufTy).Contents (Elt F) → (⟨S50000x256, .f32⟩ : BufTy).Contents (Elt F)),
    StableHlo.nullary main_cst_53 (constant S_ .f32 0x3727C5AC#32),
    StableHlo.unary main_cst_53 main_v252 (broadcastInDim S256 ![] bcast_S_S256 : (⟨S_, .f32⟩ : BufTy).Contents (Elt F) → (⟨S256, .f32⟩ : BufTy).Contents (Elt F)),
    StableHlo.binary main_v245 main_v252 main_v253 (addf : (⟨S256, .f32⟩ : BufTy).Contents (Elt F) → (⟨S256, .f32⟩ : BufTy).Contents (Elt F) → (⟨S256, .f32⟩ : BufTy).Contents (Elt F)),
    StableHlo.unary main_v253 main_v254 (Host.rsqrt : (⟨S256, .f32⟩ : BufTy).Contents (Elt F) → (⟨S256, .f32⟩ : BufTy).Contents (Elt F)),
    StableHlo.unary main_v254 main_v255 (broadcastInDim S1x256 ![1] bcast_S256_S1x256_1 : (⟨S256, .f32⟩ : BufTy).Contents (Elt F) → (⟨S1x256, .f32⟩ : BufTy).Contents (Elt F)),
    StableHlo.unary main_v255 main_v256 (broadcastInDim S50000x256 ![0, 1] bcast_S1x256_S50000x256_0_1 : (⟨S1x256, .f32⟩ : BufTy).Contents (Elt F) → (⟨S50000x256, .f32⟩ : BufTy).Contents (Elt F)),
    StableHlo.binary main_v251 main_v256 main_v257 (mulf : (⟨S50000x256, .f32⟩ : BufTy).Contents (Elt F) → (⟨S50000x256, .f32⟩ : BufTy).Contents (Elt F) → (⟨S50000x256, .f32⟩ : BufTy).Contents (Elt F)),
    StableHlo.unary main_arg11 main_v258 (broadcastInDim S1x256 ![1] bcast_S256_S1x256_1 : (⟨S256, .f32⟩ : BufTy).Contents (Elt F) → (⟨S1x256, .f32⟩ : BufTy).Contents (Elt F)),
    StableHlo.unary main_v258 main_v259 (broadcastInDim S50000x256 ![0, 1] bcast_S1x256_S50000x256_0_1 : (⟨S1x256, .f32⟩ : BufTy).Contents (Elt F) → (⟨S50000x256, .f32⟩ : BufTy).Contents (Elt F)),
    StableHlo.binary main_v257 main_v259 main_v260 (addf : (⟨S50000x256, .f32⟩ : BufTy).Contents (Elt F) → (⟨S50000x256, .f32⟩ : BufTy).Contents (Elt F) → (⟨S50000x256, .f32⟩ : BufTy).Contents (Elt F)) ] ++
  (  opsRelu3 (.of main_v260) main_call20 ++
  (  [ StableHlo.nullary main_cst_54 (constant S_ .f32 0x00000000#32),
    StableHlo.unary main_cst_54 main_v262 (broadcastInDim S512x256 ![] bcast_S_S512x256 : (⟨S_, .f32⟩ : BufTy).Contents (Elt F) → (⟨S512x256, .f32⟩ : BufTy).Contents (Elt F)),
    StableHlo.unary main_arg5 main_v263 (broadcastInDim S50000x1 ![0] bcast_S50000_S50000x1_0 : (⟨S50000, .i32⟩ : BufTy).Contents (Elt F) → (⟨S50000x1, .i32⟩ : BufTy).Contents (Elt F)),
    StableHlo.ternary main_v262 main_v263 main_v261 main_v264 ((fun x i u => Host.scatterAdd scatter_S512x256_S50000x1_S50000x256_1_0_0_1 x i u) : (⟨S512x256, .f32⟩ : BufTy).Contents (Elt F) → (⟨S50000x1, .i32⟩ : BufTy).Contents (Elt F) → (⟨S50000x256, .f32⟩ : BufTy).Contents (Elt F) → (⟨S512x256, .f32⟩ : BufTy).Contents (Elt F)),
    StableHlo.unary main_arg2 main_v265 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v265 main_v266 rfl shapeCasts_S1x320000_S320000,
    StableHlo.nullary main_c_55 (constantI S_ 32 0#32),
    StableHlo.unary main_c_55 main_v267 (broadcastInDim S320000 ![] bcast_S_S320000 : (⟨S_, .i32⟩ : BufTy).Contents (Elt F) → (⟨S320000, .i32⟩ : BufTy).Contents (Elt F)),
    StableHlo.binary main_v266 main_v267 main_v268 (cmpi .slt : (⟨S320000, .i32⟩ : BufTy).Contents (Elt F) → (⟨S320000, .i32⟩ : BufTy).Contents (Elt F) → (⟨S320000, .i1⟩ : BufTy).Contents (Elt F)),
    StableHlo.nullary main_c_56 (constantI S_ 32 50000#32),
    StableHlo.unary main_c_56 main_v269 (broadcastInDim S320000 ![] bcast_S_S320000 : (⟨S_, .i32⟩ : BufTy).Contents (Elt F) → (⟨S320000, .i32⟩ : BufTy).Contents (Elt F)),
    StableHlo.binary main_v266 main_v269 main_v270 (addi : (⟨S320000, .i32⟩ : BufTy).Contents (Elt F) → (⟨S320000, .i32⟩ : BufTy).Contents (Elt F) → (⟨S320000, .i32⟩ : BufTy).Contents (Elt F)),
    StableHlo.ternary main_v268 main_v270 main_v266 main_v271 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v271 main_v272 (broadcastInDim S320000x1 ![0] bcast_S320000_S320000x1_0 : (⟨S320000, .i32⟩ : BufTy).Contents (Elt F) → (⟨S320000x1, .i32⟩ : BufTy).Contents (Elt F)),
    StableHlo.binary main_v261 main_v272 main_v273 ((fun x i => Host.gather gather_S50000x256_S320000x1_S320000x256_1_0_n_n_0_1_1256 x i) : (⟨S50000x256, .f32⟩ : BufTy).Contents (Elt F) → (⟨S320000x1, .i32⟩ : BufTy).Contents (Elt F) → (⟨S320000x256, .f32⟩ : BufTy).Contents (Elt F)),
    StableHlo.unary main_arg2 main_v274 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v274 main_v275 rfl shapeCasts_S1x320000_S320000,
    StableHlo.nullary main_cst_57 (constant S_ .f32 0x00000000#32),
    StableHlo.unary main_cst_57 main_v276 (broadcastInDim S50000x256 ![] bcast_S_S50000x256 : (⟨S_, .f32⟩ : BufTy).Contents (Elt F) → (⟨S50000x256, .f32⟩ : BufTy).Contents (Elt F)),
    StableHlo.unary main_v275 main_v277 (broadcastInDim S320000x1 ![0] bcast_S320000_S320000x1_0 : (⟨S320000, .i32⟩ : BufTy).Contents (Elt F) → (⟨S320000x1, .i32⟩ : BufTy).Contents (Elt F)),
    StableHlo.ternary main_v276 main_v277 main_v273 main_v278 ((fun x i u => Host.scatterAdd scatter_S50000x256_S320000x1_S320000x256_1_0_0_1 x i u) : (⟨S50000x256, .f32⟩ : BufTy).Contents (Elt F) → (⟨S320000x1, .i32⟩ : BufTy).Contents (Elt F) → (⟨S320000x256, .f32⟩ : BufTy).Contents (Elt F) → (⟨S50000x256, .f32⟩ : BufTy).Contents (Elt F)),
    StableHlo.binary main_v261 main_v278 main_v279 (addf : (⟨S50000x256, .f32⟩ : BufTy).Contents (Elt F) → (⟨S50000x256, .f32⟩ : BufTy).Contents (Elt F) → (⟨S50000x256, .f32⟩ : BufTy).Contents (Elt F)),
    StableHlo.binary main_v279 main_arg12 main_v280 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.nullary main_cst_58 (constant S_ .f32 0x00000000#32),
    StableHlo.binary main_v280 main_cst_58 main_v281 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_59 (constant S_ .f32 0x47435000#32),
    StableHlo.unary main_cst_59 main_v282 (broadcastInDim S512 ![] bcast_S_S512 : (⟨S_, .f32⟩ : BufTy).Contents (Elt F) → (⟨S512, .f32⟩ : BufTy).Contents (Elt F)),
    StableHlo.binary main_v281 main_v282 main_v283 (Host.divf : (⟨S512, .f32⟩ : BufTy).Contents (Elt F) → (⟨S512, .f32⟩ : BufTy).Contents (Elt F) → (⟨S512, .f32⟩ : BufTy).Contents (Elt F)),
    StableHlo.nullary main_c_60 (constantI S_ 32 0#32) ] ++
  (  opsVar (.of main_v280) (.of main_c_60) main_call21 ++
  (  [ StableHlo.unary main_v283 main_v285 (broadcastInDim S1x512 ![1] bcast_S512_S1x512_1 : (⟨S512, .f32⟩ : BufTy).Contents (Elt F) → (⟨S1x512, .f32⟩ : BufTy).Contents (Elt F)),
    StableHlo.unary main_v285 main_v286 (broadcastInDim S50000x512 ![0, 1] bcast_S1x512_S50000x512_0_1 : (⟨S1x512, .f32⟩ : BufTy).Contents (Elt F) → (⟨S50000x512, .f32⟩ : BufTy).Contents (Elt F)),
    StableHlo.binary main_v280 main_v286 main_v287 (subf : (⟨S50000x512, .f32⟩ : BufTy).Contents (Elt F) → (⟨S50000x512, .f32⟩ : BufTy).Contents (Elt F) → (⟨S50000x512, .f32⟩ : BufTy).Contents (Elt F)),
    StableHlo.unary main_arg14 main_v288 (broadcastInDim S1x512 ![1] bcast_S512_S1x512_1 : (⟨S512, .f32⟩ : BufTy).Contents (Elt F) → (⟨S1x512, .f32⟩ : BufTy).Contents (Elt F)),
    StableHlo.unary main_v288 main_v289 (broadcastInDim S50000x512 ![0, 1] bcast_S1x512_S50000x512_0_1 : (⟨S1x512, .f32⟩ : BufTy).Contents (Elt F) → (⟨S50000x512, .f32⟩ : BufTy).Contents (Elt F)),
    StableHlo.binary main_v289 main_v287 main_v290 (mulf : (⟨S50000x512, .f32⟩ : BufTy).Contents (Elt F) → (⟨S50000x512, .f32⟩ : BufTy).Contents (Elt F) → (⟨S50000x512, .f32⟩ : BufTy).Contents (Elt F)),
    StableHlo.nullary main_cst_61 (constant S_ .f32 0x3727C5AC#32),
    StableHlo.unary main_cst_61 main_v291 (broadcastInDim S512 ![] bcast_S_S512 : (⟨S_, .f32⟩ : BufTy).Contents (Elt F) → (⟨S512, .f32⟩ : BufTy).Contents (Elt F)),
    StableHlo.binary main_v284 main_v291 main_v292 (addf : (⟨S512, .f32⟩ : BufTy).Contents (Elt F) → (⟨S512, .f32⟩ : BufTy).Contents (Elt F) → (⟨S512, .f32⟩ : BufTy).Contents (Elt F)),
    StableHlo.unary main_v292 main_v293 (Host.rsqrt : (⟨S512, .f32⟩ : BufTy).Contents (Elt F) → (⟨S512, .f32⟩ : BufTy).Contents (Elt F)),
    StableHlo.unary main_v293 main_v294 (broadcastInDim S1x512 ![1] bcast_S512_S1x512_1 : (⟨S512, .f32⟩ : BufTy).Contents (Elt F) → (⟨S1x512, .f32⟩ : BufTy).Contents (Elt F)),
    StableHlo.unary main_v294 main_v295 (broadcastInDim S50000x512 ![0, 1] bcast_S1x512_S50000x512_0_1 : (⟨S1x512, .f32⟩ : BufTy).Contents (Elt F) → (⟨S50000x512, .f32⟩ : BufTy).Contents (Elt F)) ])))))

/-- The references `opsPart5`'s operations write, in order. -/
noncomputable def WPart5 : List (Ref sig .tc) :=
  wVar1 main_call19 ++
  (  [main_v246, main_v247, main_v248, main_v249, main_v250, main_v251, main_cst_53, main_v252, main_v253, main_v254, main_v255, main_v256, main_v257, main_v258, main_v259, main_v260] ++
  (  wRelu3 main_call20 ++
  (  [main_cst_54, main_v262, main_v263, main_v264, main_v265, main_v266, main_c_55, main_v267, main_v268, main_c_56, main_v269, main_v270, main_v271, main_v272, main_v273, main_v274, main_v275, main_cst_57, main_v276, main_v277, main_v278, main_v279, main_v280, main_cst_58, main_v281, main_cst_59, main_v282, main_v283, main_c_60] ++
  (  wVar main_call21 ++
  (  [main_v285, main_v286, main_v287, main_v288, main_v289, main_v290, main_cst_61, main_v291, main_v292, main_v293, main_v294, main_v295])))))

/-- Statements 361 … 420 (values %296 … %344). Second pass: the second layer's shift `arg15`, `relu`, product with `arg13`, outer
    normalisation (`arg16`, `arg17`) and `relu`, the sums per graph side by side, the output masked again, the third layer's
    neighbour sum, product with `arg18` and its column sums. -/
def opsPart6 : List (HloOp τ sig (Elt F)) :=
  [ StableHlo.binary main_v290 main_v295 main_v296 (mulf : (⟨S50000x512, .f32⟩ : BufTy).Contents (Elt F) → (⟨S50000x512, .f32⟩ : BufTy).Contents (Elt F) → (⟨S50000x512, .f32⟩ : BufTy).Contents (Elt F)),
    StableHlo.unary main_arg15 main_v297 (broadcastInDim S1x512 ![1] bcast_S512_S1x512_1 : (⟨S512, .f32⟩ : BufTy).Contents (Elt F) → (⟨S1x512, .f32⟩ : BufTy).Contents (Elt F)),
    StableHlo.unary main_v297 main_v298 (broadcastInDim S50000x512 ![0, 1] bcast_S1x512_S50000x512_0_1 : (⟨S1x512, .f32⟩ : BufTy).Contents (Elt F) → (⟨S50000x512, .f32⟩ : BufTy).Contents (Elt F)),
    StableHlo.binary main_v296 main_v298 main_v299 (addf : (⟨S50000x512, .f32⟩ : BufTy).Contents (Elt F) → (⟨S50000x512, .f32⟩ : BufTy).Contents (Elt F) → (⟨S50000x512, .f32⟩ : BufTy).Contents (Elt F)) ] ++
  (  opsRelu (.of main_v299) main_call22 ++
  (  [ StableHlo.binary main_v300 main_arg13 main_v301 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.nullary main_cst_62 (constant S_ .f32 0x00000000#32),
    StableHlo.binary main_v301 main_cst_62 main_v302 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_63 (constant S_ .f32 0x47435000#32),
    StableHlo.unary main_cst_63 main_v303 (broadcastInDim S256 ![] bcast_S_S256 : (⟨S_, .f32⟩ : BufTy).Contents (Elt F) → (⟨S256, .f32⟩ : BufTy).Contents (Elt F)),
    StableHlo.binary main_v302 main_v303 main_v304 (Host.divf : (⟨S256, .f32⟩ : BufTy).Contents (Elt F) → (⟨S256, .f32⟩ : BufTy).Contents (Elt F) → (⟨S256, .f32⟩ : BufTy).Contents (Elt F)),
    StableHlo.nullary main_c_64 (constantI S_ 32 0#32) ] ++
  (  opsVar1 (.of main_v301) (.of main_c_64) main_call23 ++
  (  [ StableHlo.unary main_v304 main_v306 (broadcastInDim S1x256 ![1] bcast_S256_S1x256_1 : (⟨S256, .f32⟩ : BufTy).Contents (Elt F) → (⟨S1x256, .f32⟩ : BufTy).Contents (Elt F)),
    StableHlo.unary main_v306 main_v307 (broadcastInDim S50000x256 ![0, 1] bcast_S1x256_S50000x256_0_1 : (⟨S1x256, .f32⟩ : BufTy).Contents (Elt F) → (⟨S50000x256, .f32⟩ : BufTy).Contents (Elt F)),
    StableHlo.binary main_v301 main_v307 main_v308 (subf : (⟨S50000x256, .f32⟩ : BufTy).Contents (Elt F) → (⟨S50000x256, .f32⟩ : BufTy).Contents (Elt F) → (⟨S50000x256, .f32⟩ : BufTy).Contents (Elt F)),
    StableHlo.unary main_arg16 main_v309 (broadcastInDim S1x256 ![1] bcast_S256_S1x256_1 : (⟨S256, .f32⟩ : BufTy).Contents (Elt F) → (⟨S1x256, .f32⟩ : BufTy).Contents (Elt F)),
    StableHlo.unary main_v309 main_v310 (broadcastInDim S50000x256 ![0, 1] bcast_S1x256_S50000x256_0_1 : (⟨S1x256, .f32⟩ : BufTy).Contents (Elt F) → (⟨S50000x256, .f32⟩ : BufTy).Contents (Elt F)),
    StableHlo.binary main_v310 main_v308 main_v311 (mulf : (⟨S50000x256, .f32⟩ : BufTy).Contents (Elt F) → (⟨S50000x256, .f32⟩ : BufTy).Contents (Elt F) → (⟨S50000x256, .f32⟩ : BufTy).Contents (Elt F)),
    StableHlo.nullary main_cst_65 (constant S_ .f32 0x3727C5AC#32),
    StableHlo.unary main_cst_65 main_v312 (broadcastInDim S256 ![] bcast_S_S256 : (⟨S_, .f32⟩ : BufTy).Contents (Elt F) → (⟨S256, .f32⟩ : BufTy).Contents (Elt F)),
    StableHlo.binary main_v305 main_v312 main_v313 (addf : (⟨S256, .f32⟩ : BufTy).Contents (Elt F) → (⟨S256, .f32⟩ : BufTy).Contents (Elt F) → (⟨S256, .f32⟩ : BufTy).Contents (Elt F)),
    StableHlo.unary main_v313 main_v314 (Host.rsqrt : (⟨S256, .f32⟩ : BufTy).Contents (Elt F) → (⟨S256, .f32⟩ : BufTy).Contents (Elt F)),
    StableHlo.unary main_v314 main_v315 (broadcastInDim S1x256 ![1] bcast_S256_S1x256_1 : (⟨S256, .f32⟩ : BufTy).Contents (Elt F) → (⟨S1x256, .f32⟩ : BufTy).Contents (Elt F)),
    StableHlo.unary main_v315 main_v316 (broadcastInDim S50000x256 ![0, 1] bcast_S1x256_S50000x256_0_1 : (⟨S1x256, .f32⟩ : BufTy).Contents (Elt F) → (⟨S50000x256, .f32⟩ : BufTy).Contents (Elt F)),
    StableHlo.binary main_v311 main_v316 main_v317 (mulf : (⟨S50000x256, .f32⟩ : BufTy).Contents (Elt F) → (⟨S50000x256, .f32⟩ : BufTy).Contents (Elt F) → (⟨S50000x256, .f32⟩ : BufTy).Contents (Elt F)),
    StableHlo.unary main_arg17 main_v318 (broadcastInDim S1x256 ![1] bcast_S256_S1x256_1 : (⟨S256, .f32⟩ : BufTy).Contents (Elt F) → (⟨S1x256, .f32⟩ : BufTy).Contents (Elt F)),
    StableHlo.unary main_v318 main_v319 (broadcastInDim S50000x256 ![0, 1] bcast_S1x256_S50000x256_0_1 : (⟨S1x256, .f32⟩ : BufTy).Contents (Elt F) → (⟨S50000x256, .f32⟩ : BufTy).Contents (Elt F)),
    StableHlo.binary main_v317 main_v319 main_v320 (addf : (⟨S50000x256, .f32⟩ : BufTy).Contents (Elt F) → (⟨S50000x256, .f32⟩ : BufTy).Contents (Elt F) → (⟨S50000x256, .f32⟩ : BufTy).Contents (Elt F)) ] ++
  (  opsRelu3 (.of main_v320) main_call24 ++
  (  [ StableHlo.nullary main_cst_66 (constant S_ .f32 0x00000000#32),
    StableHlo.unary main_cst_66 main_v322 (broadcastInDim S512x256 ![] bcast_S_S512x256 : (⟨S_, .f32⟩ : BufTy).Contents (Elt F) → (⟨S512x256, .f32⟩ : BufTy).Contents (Elt F)),
    StableHlo.unary main_arg5 main_v323 (broadcastInDim S50000x1 ![0] bcast_S50000_S50000x1_0 : (⟨S50000, .i32⟩ : BufTy).Contents (Elt F) → (⟨S50000x1, .i32⟩ : BufTy).Contents (Elt F)),
    StableHlo.ternary main_v322 main_v323 main_v321 main_v324 ((fun x i u => Host.scatterAdd scatter_S512x256_S50000x1_S50000x256_1_0_0_1 x i u) : (⟨S512x256, .f32⟩ : BufTy).Contents (Elt F) → (⟨S50000x1, .i32⟩ : BufTy).Contents (Elt F) → (⟨S50000x256, .f32⟩ : BufTy).Contents (Elt F) → (⟨S512x256, .f32⟩ : BufTy).Contents (Elt F)),
    StableHlo.binary main_v264 main_v324 main_v325 ((fun a b => concatenate S512x512 1 [⟨S512x256, a⟩, ⟨S512x256, b⟩] concatenates_S512x256_S512x256_S512x512_d1) : (⟨S512x256, .f32⟩ : BufTy).Contents (Elt F) → (⟨S512x256, .f32⟩ : BufTy).Contents (Elt F) → (⟨S512x512, .f32⟩ : BufTy).Contents (Elt F)),
    StableHlo.nullary main_cst_67 (constant S_ .f32 0x00000000#32) ] ++
  (  opsWhere4 (.of main_v203) (.of main_cst_67) (.of main_v321) main_call25 ++
  (  [ StableHlo.unary main_arg2 main_v327 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v327 main_v328 rfl shapeCasts_S1x320000_S320000,
    StableHlo.nullary main_c_68 (constantI S_ 32 0#32),
    StableHlo.unary main_c_68 main_v329 (broadcastInDim S320000 ![] bcast_S_S320000 : (⟨S_, .i32⟩ : BufTy).Contents (Elt F) → (⟨S320000, .i32⟩ : BufTy).Contents (Elt F)),
    StableHlo.binary main_v328 main_v329 main_v330 (cmpi .slt : (⟨S320000, .i32⟩ : BufTy).Contents (Elt F) → (⟨S320000, .i32⟩ : BufTy).Contents (Elt F) → (⟨S320000, .i1⟩ : BufTy).Contents (Elt F)),
    StableHlo.nullary main_c_69 (constantI S_ 32 50000#32),
    StableHlo.unary main_c_69 main_v331 (broadcastInDim S320000 ![] bcast_S_S320000 : (⟨S_, .i32⟩ : BufTy).Contents (Elt F) → (⟨S320000, .i32⟩ : BufTy).Contents (Elt F)),
    StableHlo.binary main_v328 main_v331 main_v332 (addi : (⟨S320000, .i32⟩ : BufTy).Contents (Elt F) → (⟨S320000, .i32⟩ : BufTy).Contents (Elt F) → (⟨S320000, .i32⟩ : BufTy).Contents (Elt F)),
    StableHlo.ternary main_v330 main_v332 main_v328 main_v333 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v333 main_v334 (broadcastInDim S320000x1 ![0] bcast_S320000_S320000x1_0 : (⟨S320000, .i32⟩ : BufTy).Contents (Elt F) → (⟨S320000x1, .i32⟩ : BufTy).Contents (Elt F)),
    StableHlo.binary main_v326 main_v334 main_v335 ((fun x i => Host.gather gather_S50000x256_S320000x1_S320000x256_1_0_n_n_0_1_1256 x i) : (⟨S50000x256, .f32⟩ : BufTy).Contents (Elt F) → (⟨S320000x1, .i32⟩ : BufTy).Contents (Elt F) → (⟨S320000x256, .f32⟩ : BufTy).Contents (Elt F)),
    StableHlo.unary main_arg2 main_v336 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v336 main_v337 rfl shapeCasts_S1x320000_S320000,
    StableHlo.nullary main_cst_70 (constant S_ .f32 0x00000000#32),
    StableHlo.unary main_cst_70 main_v338 (broadcastInDim S50000x256 ![] bcast_S_S50000x256 : (⟨S_, .f32⟩ : BufTy).Contents (Elt F) → (⟨S50000x256, .f32⟩ : BufTy).Contents (Elt F)),
    StableHlo.unary main_v337 main_v339 (broadcastInDim S320000x1 ![0] bcast_S320000_S320000x1_0 : (⟨S320000, .i32⟩ : BufTy).Contents (Elt F) → (⟨S320000x1, .i32⟩ : BufTy).Contents (Elt F)),
    StableHlo.ternary main_v338 main_v339 main_v335 main_v340 ((fun x i u => Host.scatterAdd scatter_S50000x256_S320000x1_S320000x256_1_0_0_1 x i u) : (⟨S50000x256, .f32⟩ : BufTy).Contents (Elt F) → (⟨S320000x1, .i32⟩ : BufTy).Contents (Elt F) → (⟨S320000x256, .f32⟩ : BufTy).Contents (Elt F) → (⟨S50000x256, .f32⟩ : BufTy).Contents (Elt F)),
    StableHlo.binary main_v326 main_v340 main_v341 (addf : (⟨S50000x256, .f32⟩ : BufTy).Contents (Elt F) → (⟨S50000x256, .f32⟩ : BufTy).Contents (Elt F) → (⟨S50000x256, .f32⟩ : BufTy).Contents (Elt F)),
    StableHlo.binary main_v341 main_arg18 main_v342 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.nullary main_cst_71 (constant S_ .f32 0x00000000#32),
    StableHlo.binary main_v342 main_cst_71 main_v343 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_72 (constant S_ .f32 0x47435000#32),
    StableHlo.unary main_cst_72 main_v344 (broadcastInDim S512 ![] bcast_S_S512 : (⟨S_, .f32⟩ : BufTy).Contents (Elt F) → (⟨S512, .f32⟩ : BufTy).Contents (Elt F)) ]))))))))

/-- The references `opsPart6`'s operations write, in order. -/
noncomputable def WPart6 : List (Ref sig .tc) :=
  [main_v296, main_v297, main_v298, main_v299] ++
  (  wRelu main_call22 ++
  (  [main_v301, main_cst_62, main_v302, main_cst_63, main_v303, main_v304, main_c_64] ++
  (  wVar1 main_call23 ++
  (  [main_v306, main_v307, main_v308, main_v309, main_v310, main_v311, main_cst_65, main_v312, main_v313, main_v314, main_v315, main_v316, main_v317, main_v318, main_v319, main_v320] ++
  (  wRelu3 main_call24 ++
  (  [main_cst_66, main_v322, main_v323, main_v324, main_v325, main_cst_67] ++
  (  wWhere4 main_call25 ++
  (  [main_v327, main_v328, main_c_68, main_v329, main_v330, main_c_69, main_v331, main_v332, main_v333, main_v334, main_v335, main_v336, main_v337, main_cst_70, main_v338, main_v339, main_v340, main_v341, main_v342, main_cst_71, main_v343, main_cst_72, main_v344]))))))))

/-- Statements 421 … 480 (values %345 … %395). Second pass: the third layer's batch normalisation (`arg20`, `arg21`), `relu`,
    product with `arg19`, outer normalisation (`arg22`, `arg23`) and `relu`: the second reconstruction; its sums per graph;
    the row norms of it and of the input `arg0` towards the second loss. -/
def opsPart7 : List (HloOp τ sig (Elt F)) :=
  [ StableHlo.binary main_v343 main_v344 main_v345 (Host.divf : (⟨S512, .f32⟩ : BufTy).Contents (Elt F) → (⟨S512, .f32⟩ : BufTy).Contents (Elt F) → (⟨S512, .f32⟩ : BufTy).Contents (Elt F)),
    StableHlo.nullary main_c_73 (constantI S_ 32 0#32) ] ++
  (  opsVar (.of main_v342) (.of main_c_73) main_call26 ++
  (  [ StableHlo.unary main_v345 main_v347 (broadcastInDim S1x512 ![1] bcast_S512_S1x512_1 : (⟨S512, .f32⟩ : BufTy).Contents (Elt F) → (⟨S1x512, .f32⟩ : BufTy).Contents (Elt F)),
    StableHlo.unary main_v347 main_v348 (broadcastInDim S50000x512 ![0, 1] bcast_S1x512_S50000x512_0_1 : (⟨S1x512, .f32⟩ : BufTy).Contents (Elt F) → (⟨S50000x512, .f32⟩ : BufTy).Contents (Elt F)),
    StableHlo.binary main_v342 main_v348 main_v349 (subf : (⟨S50000x512, .f32⟩ : BufTy).Contents (Elt F) → (⟨S50000x512, .f32⟩ : BufTy).Contents (Elt F) → (⟨S50000x512, .f32⟩ : BufTy).Contents (Elt F)),
    StableHlo.unary main_arg20 main_v350 (broadcastInDim S1x512 ![1] bcast_S512_S1x512_1 : (⟨S512, .f32⟩ : BufTy).Contents (Elt F) → (⟨S1x512, .f32⟩ : BufTy).Contents (Elt F)),
    StableHlo.unary main_v350 main_v351 (broadcastInDim S50000x512 ![0, 1] bcast_S1x512_S50000x512_0_1 : (⟨S1x512, .f32⟩ : BufTy).Contents (Elt F) → (⟨S50000x512, .f32⟩ : BufTy).Contents (Elt F)),
    StableHlo.binary main_v351 main_v349 main_v352 (mulf : (⟨S50000x512, .f32⟩ : BufTy).Contents (Elt F) → (⟨S50000x512, .f32⟩ : BufTy).Contents (Elt F) → (⟨S50000x512, .f32⟩ : BufTy).Contents (Elt F)),
    StableHlo.nullary main_cst_74 (constant S_ .f32 0x3727C5AC#32),
    StableHlo.unary main_cst_74 main_v353 (broadcastInDim S512 ![] bcast_S_S512 : (⟨S_, .f32⟩ : BufTy).Contents (Elt F) → (⟨S512, .f32⟩ : BufTy).Contents (Elt F)),
    StableHlo.binary main_v346 main_v353 main_v354 (addf : (⟨S512, .f32⟩ : BufTy).Contents (Elt F) → (⟨S512, .f32⟩ : BufTy).Contents (Elt F) → (⟨S512, .f32⟩ : BufTy).Contents (Elt F)),
    StableHlo.unary main_v354 main_v355 (Host.rsqrt : (⟨S512, .f32⟩ : BufTy).Contents (Elt F) → (⟨S512, .f32⟩ : BufTy).Contents (Elt F)),
    StableHlo.unary main_v355 main_v356 (broadcastInDim S1x512 ![1] bcast_S512_S1x512_1 : (⟨S512, .f32⟩ : BufTy).Contents (Elt F) → (⟨S1x512, .f32⟩ : BufTy).Contents (Elt F)),
    StableHlo.unary main_v356 main_v357 (broadcastInDim S50000x512 ![0, 1] bcast_S1x512_S50000x512_0_1 : (⟨S1x512, .f32⟩ : BufTy).Contents (Elt F) → (⟨S50000x512, .f32⟩ : BufTy).Contents (Elt F)),
    StableHlo.binary main_v352 main_v357 main_v358 (mulf : (⟨S50000x512, .f32⟩ : BufTy).Contents (Elt F) → (⟨S50000x512, .f32⟩ : BufTy).Contents (Elt F) → (⟨S50000x512, .f32⟩ : BufTy).Contents (Elt F)),
    StableHlo.unary main_arg21 main_v359 (broadcastInDim S1x512 ![1] bcast_S512_S1x512_1 : (⟨S512, .f32⟩ : BufTy).Contents (Elt F) → (⟨S1x512, .f32⟩ : BufTy).Contents (Elt F)),
    StableHlo.unary main_v359 main_v360 (broadcastInDim S50000x512 ![0, 1] bcast_S1x512_S50000x512_0_1 : (⟨S1x512, .f32⟩ : BufTy).Contents (Elt F) → (⟨S50000x512, .f32⟩ : BufTy).Contents (Elt F)),
    StableHlo.binary main_v358 main_v360 main_v361 (addf : (⟨S50000x512, .f32⟩ : BufTy).Contents (Elt F) → (⟨S50000x512, .f32⟩ : BufTy).Contents (Elt F) → (⟨S50000x512, .f32⟩ : BufTy).Contents (Elt F)) ] ++
  (  opsRelu (.of main_v361) main_call27 ++
  (  [ StableHlo.binary main_v362 main_arg19 main_v363 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    StableHlo.nullary main_cst_75 (constant S_ .f32 0x00000000#32),
    StableHlo.binary main_v363 main_cst_75 main_v364 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_76 (constant S_ .f32 0x47435000#32),
    StableHlo.unary main_cst_76 main_v365 (broadcastInDim S128 ![] bcast_S_S128 : (⟨S_, .f32⟩ : BufTy).Contents (Elt F) → (⟨S128, .f32⟩ : BufTy).Contents (Elt F)),
    StableHlo.binary main_v364 main_v365 main_v366 (Host.divf : (⟨S128, .f32⟩ : BufTy).Contents (Elt F) → (⟨S128, .f32⟩ : BufTy).Contents (Elt F) → (⟨S128, .f32⟩ : BufTy).Contents (Elt F)),
    StableHlo.nullary main_c_77 (constantI S_ 32 0#32) ] ++
  (  opsVar5 (.of main_v363) (.of main_c_77) main_call28 ++
  (  [ StableHlo.unary main_v366 main_v368 (broadcastInDim S1x128 ![1] bcast_S128_S1x128_1 : (⟨S128, .f32⟩ : BufTy).Contents (Elt F) → (⟨S1x128, .f32⟩ : BufTy).Contents (Elt F)),
    StableHlo.unary main_v368 main_v369 (broadcastInDim S50000x128 ![0, 1] bcast_S1x128_S50000x128_0_1 : (⟨S1x128, .f32⟩ : BufTy).Contents (Elt F) → (⟨S50000x128, .f32⟩ : BufTy).Contents (Elt F)),
    StableHlo.binary main_v363 main_v369 main_v370 (subf : (⟨S50000x128, .f32⟩ : BufTy).Contents (Elt F) → (⟨S50000x128, .f32⟩ : BufTy).Contents (Elt F) → (⟨S50000x128, .f32⟩ : BufTy).Contents (Elt F)),
    StableHlo.unary main_arg22 main_v371 (broadcastInDim S1x128 ![1] bcast_S128_S1x128_1 : (⟨S128, .f32⟩ : BufTy).Contents (Elt F) → (⟨S1x128, .f32⟩ : BufTy).Contents (Elt F)),
    StableHlo.unary main_v371 main_v372 (broadcastInDim S50000x128 ![0, 1] bcast_S1x128_S50000x128_0_1 : (⟨S1x128, .f32⟩ : BufTy).Contents (Elt F) → (⟨S50000x128, .f32⟩ : BufTy).Contents (Elt F)),
    StableHlo.binary main_v372 main_v370 main_v373 (mulf : (⟨S50000x128, .f32⟩ : BufTy).Contents (Elt F) → (⟨S50000x128, .f32⟩ : BufTy).Contents (Elt F) → (⟨S50000x128, .f32⟩ : BufTy).Contents (Elt F)),
    StableHlo.nullary main_cst_78 (constant S_ .f32 0x3727C5AC#32),
    StableHlo.unary main_cst_78 main_v374 (broadcastInDim S128 ![] bcast_S_S128 : (⟨S_, .f32⟩ : BufTy).Contents (Elt F) → (⟨S128, .f32⟩ : BufTy).Contents (Elt F)),
    StableHlo.binary main_v367 main_v374 main_v375 (addf : (⟨S128, .f32⟩ : BufTy).Contents (Elt F) → (⟨S128, .f32⟩ : BufTy).Contents (Elt F) → (⟨S128, .f32⟩ : BufTy).Contents (Elt F)),
    StableHlo.unary main_v375 main_v376 (Host.rsqrt : (⟨S128, .f32⟩ : BufTy).Contents (Elt F) → (⟨S128, .f32⟩ : BufTy).Contents (Elt F)),
    StableHlo.unary main_v376 main_v377 (broadcastInDim S1x128 ![1] bcast_S128_S1x128_1 : (⟨S128, .f32⟩ : BufTy).Contents (Elt F) → (⟨S1x128, .f32⟩ : BufTy).Contents (Elt F)),
    StableHlo.unary main_v377 main_v378 (broadcastInDim S50000x128 ![0, 1] bcast_S1x128_S50000x128_0_1 : (⟨S1x128, .f32⟩ : BufTy).Contents (Elt F) → (⟨S50000x128, .f32⟩ : BufTy).Contents (Elt F)),
    StableHlo.binary main_v373 main_v378 main_v379 (mulf : (⟨S50000x128, .f32⟩ : BufTy).Contents (Elt F) → (⟨S50000x128, .f32⟩ : BufTy).Contents (Elt F) → (⟨S50000x128, .f32⟩ : BufTy).Contents (Elt F)),
    StableHlo.unary main_arg23 main_v380 (broadcastInDim S1x128 ![1] bcast_S128_S1x128_1 : (⟨S128, .f32⟩ : BufTy).Contents (Elt F) → (⟨S1x128, .f32⟩ : BufTy).Contents (Elt F)),
    StableHlo.unary main_v380 main_v381 (broadcastInDim S50000x128 ![0, 1] bcast_S1x128_S50000x128_0_1 : (⟨S1x128, .f32⟩ : BufTy).Contents (Elt F) → (⟨S50000x128, .f32⟩ : BufTy).Contents (Elt F)),
    StableHlo.binary main_v379 main_v381 main_v382 (addf : (⟨S50000x128, .f32⟩ : BufTy).Contents (Elt F) → (⟨S50000x128, .f32⟩ : BufTy).Contents (Elt F) → (⟨S50000x128, .f32⟩ : BufTy).Contents (Elt F)) ] ++
  (  opsRelu7 (.of main_v382) main_call29 ++
  (  [ StableHlo.nullary main_cst_79 (constant S_ .f32 0x00000000#32),
    StableHlo.unary main_cst_79 main_v384 (broadcastInDim S512x128 ![] bcast_S_S512x128 : (⟨S_, .f32⟩ : BufTy).Contents (Elt F) → (⟨S512x128, .f32⟩ : BufTy).Contents (Elt F)),
    StableHlo.unary main_arg5 main_v385 (broadcastInDim S50000x1 ![0] bcast_S50000_S50000x1_0 : (⟨S50000, .i32⟩ : BufTy).Contents (Elt F) → (⟨S50000x1, .i32⟩ : BufTy).Contents (Elt F)),
    StableHlo.ternary main_v384 main_v385 main_v383 main_v386 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg4 main_v387 (uitofp .f32 : (⟨S50000, .i1⟩ : BufTy).Contents (Elt F) → (⟨S50000, .f32⟩ : BufTy).Contents (Elt F)) ] ++
  (  opsNorm (.of main_v383) main_call30 ++
  (  [ StableHlo.nullary main_cst_80 (constant S_ .f32 0x2B8CBCCC#32),
    StableHlo.unary main_cst_80 main_v389 (broadcastInDim S50000x1 ![] bcast_S_S50000x1 : (⟨S_, .f32⟩ : BufTy).Contents (Elt F) → (⟨S50000x1, .f32⟩ : BufTy).Contents (Elt F)),
    StableHlo.binary main_v388 main_v389 main_v390 (maximumf : (⟨S50000x1, .f32⟩ : BufTy).Contents (Elt F) → (⟨S50000x1, .f32⟩ : BufTy).Contents (Elt F) → (⟨S50000x1, .f32⟩ : BufTy).Contents (Elt F)),
    StableHlo.unary main_v390 main_v391 (broadcastInDim S50000x128 ![0, 1] bcast_S50000x1_S50000x128_0_1 : (⟨S50000x1, .f32⟩ : BufTy).Contents (Elt F) → (⟨S50000x128, .f32⟩ : BufTy).Contents (Elt F)),
    StableHlo.binary main_v383 main_v391 main_v392 (Host.divf : (⟨S50000x128, .f32⟩ : BufTy).Contents (Elt F) → (⟨S50000x128, .f32⟩ : BufTy).Contents (Elt F) → (⟨S50000x128, .f32⟩ : BufTy).Contents (Elt F)) ] ++
  (  opsNorm8 (.of main_arg0) main_call31 ++
  (  [ StableHlo.nullary main_cst_81 (constant S_ .f32 0x2B8CBCCC#32),
    StableHlo.unary main_cst_81 main_v394 (broadcastInDim S50000x1 ![] bcast_S_S50000x1 : (⟨S_, .f32⟩ : BufTy).Contents (Elt F) → (⟨S50000x1, .f32⟩ : BufTy).Contents (Elt F)),
    StableHlo.binary main_v393 main_v394 main_v395 (maximumf : (⟨S50000x1, .f32⟩ : BufTy).Contents (Elt F) → (⟨S50000x1, .f32⟩ : BufTy).Contents (Elt F) → (⟨S50000x1, .f32⟩ : BufTy).Contents (Elt F)) ]))))))))))))

/-- The references `opsPart7`'s operations write, in order. -/
noncomputable def WPart7 : List (Ref sig .tc) :=
  [main_v345, main_c_73] ++
  (  wVar main_call26 ++
  (  [main_v347, main_v348, main_v349, main_v350, main_v351, main_v352, main_cst_74, main_v353, main_v354, main_v355, main_v356, main_v357, main_v358, main_v359, main_v360, main_v361] ++
  (  wRelu main_call27 ++
  (  [main_v363, main_cst_75, main_v364, main_cst_76, main_v365, main_v366, main_c_77] ++
  (  wVar5 main_call28 ++
  (  [main_v368, main_v369, main_v370, main_v371, main_v372, main_v373, main_cst_78, main_v374, main_v375, main_v376, main_v377, main_v378, main_v379, main_v380, main_v381, main_v382] ++
  (  wRelu7 main_call29 ++
  (  [main_cst_79, main_v384, main_v385, main_v386, main_v387] ++
  (  wNorm main_call30 ++
  (  [main_cst_80, main_v389, main_v390, main_v391, main_v392] ++
  (  wNorm8 main_call31 ++
  (  [main_cst_81, main_v394, main_v395]))))))))))))

/-- Statements 481 … 521 (values %396 … %424). The sums closing the second pass; the row norms of the two reconstructions
    (the outlined norm, twice) and the sums towards the mean of one less their rows' cosine; the result %424: the two
    passes' losses added, plus 0.1 × that mean. -/
def opsPart8 : List (HloOp τ sig (Elt F)) :=
  [ StableHlo.unary main_v395 main_v396 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v396 main_v397 (Host.divf : (⟨S50000x128, .f32⟩ : BufTy).Contents (Elt F) → (⟨S50000x128, .f32⟩ : BufTy).Contents (Elt F) → (⟨S50000x128, .f32⟩ : BufTy).Contents (Elt F)),
    StableHlo.binary main_v392 main_v397 main_v398 (mulf : (⟨S50000x128, .f32⟩ : BufTy).Contents (Elt F) → (⟨S50000x128, .f32⟩ : BufTy).Contents (Elt F) → (⟨S50000x128, .f32⟩ : BufTy).Contents (Elt F)),
    StableHlo.nullary main_cst_82 (constant S_ .f32 0x00000000#32),
    StableHlo.binary main_v398 main_cst_82 main_v399 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.nullary main_cst_83 (constant S_ .f32 0x3F800000#32),
    StableHlo.unary main_cst_83 main_v400 (broadcastInDim S50000 ![] bcast_S_S50000 : (⟨S_, .f32⟩ : BufTy).Contents (Elt F) → (⟨S50000, .f32⟩ : BufTy).Contents (Elt F)),
    StableHlo.binary main_v400 main_v399 main_v401 (subf : (⟨S50000, .f32⟩ : BufTy).Contents (Elt F) → (⟨S50000, .f32⟩ : BufTy).Contents (Elt F) → (⟨S50000, .f32⟩ : BufTy).Contents (Elt F)),
    StableHlo.binary main_v387 main_v401 main_v402 (mulf : (⟨S50000, .f32⟩ : BufTy).Contents (Elt F) → (⟨S50000, .f32⟩ : BufTy).Contents (Elt F) → (⟨S50000, .f32⟩ : BufTy).Contents (Elt F)),
    StableHlo.nullary main_cst_84 (constant S_ .f32 0x00000000#32),
    StableHlo.binary main_v402 main_cst_84 main_v403 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    StableHlo.nullary main_cst_85 (constant S_ .f32 0x00000000#32),
    StableHlo.binary main_v387 main_cst_85 main_v404 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    StableHlo.binary main_v403 main_v404 main_v405 (Host.divf : (⟨S_, .f32⟩ : BufTy).Contents (Elt F) → (⟨S_, .f32⟩ : BufTy).Contents (Elt F) → (⟨S_, .f32⟩ : BufTy).Contents (Elt F)) ] ++
  (  opsNorm (.of main_v383) main_call32 ++
  (  [ StableHlo.nullary main_cst_86 (constant S_ .f32 0x2B8CBCCC#32),
    StableHlo.unary main_cst_86 main_v407 (broadcastInDim S50000x1 ![] bcast_S_S50000x1 : (⟨S_, .f32⟩ : BufTy).Contents (Elt F) → (⟨S50000x1, .f32⟩ : BufTy).Contents (Elt F)),
    StableHlo.binary main_v406 main_v407 main_v408 (maximumf : (⟨S50000x1, .f32⟩ : BufTy).Contents (Elt F) → (⟨S50000x1, .f32⟩ : BufTy).Contents (Elt F) → (⟨S50000x1, .f32⟩ : BufTy).Contents (Elt F)),
    StableHlo.unary main_v408 main_v409 (broadcastInDim S50000x128 ![0, 1] bcast_S50000x1_S50000x128_0_1 : (⟨S50000x1, .f32⟩ : BufTy).Contents (Elt F) → (⟨S50000x128, .f32⟩ : BufTy).Contents (Elt F)),
    StableHlo.binary main_v383 main_v409 main_v410 (Host.divf : (⟨S50000x128, .f32⟩ : BufTy).Contents (Elt F) → (⟨S50000x128, .f32⟩ : BufTy).Contents (Elt F) → (⟨S50000x128, .f32⟩ : BufTy).Contents (Elt F)) ] ++
  (  opsNorm (.of main_v180) main_call33 ++
  (  [ StableHlo.nullary main_cst_87 (constant S_ .f32 0x2B8CBCCC#32),
    StableHlo.unary main_cst_87 main_v412 (broadcastInDim S50000x1 ![] bcast_S_S50000x1 : (⟨S_, .f32⟩ : BufTy).Contents (Elt F) → (⟨S50000x1, .f32⟩ : BufTy).Contents (Elt F)),
    StableHlo.binary main_v411 main_v412 main_v413 (maximumf : (⟨S50000x1, .f32⟩ : BufTy).Contents (Elt F) → (⟨S50000x1, .f32⟩ : BufTy).Contents (Elt F) → (⟨S50000x1, .f32⟩ : BufTy).Contents (Elt F)),
    StableHlo.unary main_v413 main_v414 (broadcastInDim S50000x128 ![0, 1] bcast_S50000x1_S50000x128_0_1 : (⟨S50000x1, .f32⟩ : BufTy).Contents (Elt F) → (⟨S50000x128, .f32⟩ : BufTy).Contents (Elt F)),
    StableHlo.binary main_v180 main_v414 main_v415 (Host.divf : (⟨S50000x128, .f32⟩ : BufTy).Contents (Elt F) → (⟨S50000x128, .f32⟩ : BufTy).Contents (Elt F) → (⟨S50000x128, .f32⟩ : BufTy).Contents (Elt F)),
    StableHlo.binary main_v410 main_v415 main_v416 (mulf : (⟨S50000x128, .f32⟩ : BufTy).Contents (Elt F) → (⟨S50000x128, .f32⟩ : BufTy).Contents (Elt F) → (⟨S50000x128, .f32⟩ : BufTy).Contents (Elt F)),
    StableHlo.nullary main_cst_88 (constant S_ .f32 0x00000000#32),
    StableHlo.binary main_v416 main_cst_88 main_v417 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.nullary main_cst_89 (constant S_ .f32 0x3F800000#32),
    StableHlo.unary main_cst_89 main_v418 (broadcastInDim S50000 ![] bcast_S_S50000 : (⟨S_, .f32⟩ : BufTy).Contents (Elt F) → (⟨S50000, .f32⟩ : BufTy).Contents (Elt F)),
    StableHlo.binary main_v418 main_v417 main_v419 (subf : (⟨S50000, .f32⟩ : BufTy).Contents (Elt F) → (⟨S50000, .f32⟩ : BufTy).Contents (Elt F) → (⟨S50000, .f32⟩ : BufTy).Contents (Elt F)),
    StableHlo.nullary main_cst_90 (constant S_ .f32 0x00000000#32),
    StableHlo.binary main_v419 main_cst_90 main_v420 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    StableHlo.nullary main_cst_91 (constant S_ .f32 0x47435000#32),
    StableHlo.binary main_v420 main_cst_91 main_v421 (Host.divf : (⟨S_, .f32⟩ : BufTy).Contents (Elt F) → (⟨S_, .f32⟩ : BufTy).Contents (Elt F) → (⟨S_, .f32⟩ : BufTy).Contents (Elt F)),
    StableHlo.binary main_v202 main_v405 main_v422 (addf : (⟨S_, .f32⟩ : BufTy).Contents (Elt F) → (⟨S_, .f32⟩ : BufTy).Contents (Elt F) → (⟨S_, .f32⟩ : BufTy).Contents (Elt F)),
    StableHlo.nullary main_cst_92 (constant S_ .f32 0x3DCCCCCD#32),
    StableHlo.binary main_cst_92 main_v421 main_v423 (mulf : (⟨S_, .f32⟩ : BufTy).Contents (Elt F) → (⟨S_, .f32⟩ : BufTy).Contents (Elt F) → (⟨S_, .f32⟩ : BufTy).Contents (Elt F)),
    StableHlo.binary main_v422 main_v423 main_v424 (addf : (⟨S_, .f32⟩ : BufTy).Contents (Elt F) → (⟨S_, .f32⟩ : BufTy).Contents (Elt F) → (⟨S_, .f32⟩ : BufTy).Contents (Elt F)) ]))))

/-- The references `opsPart8`'s operations write, in order. -/
noncomputable def WPart8 : List (Ref sig .tc) :=
  [main_v396, main_v397, main_v398, main_cst_82, main_v399, main_cst_83, main_v400, main_v401, main_v402, main_cst_84, main_v403, main_cst_85, main_v404, main_v405] ++
  (  wNorm main_call32 ++
  (  [main_cst_86, main_v407, main_v408, main_v409, main_v410] ++
  (  wNorm main_call33 ++
  (  [main_cst_87, main_v412, main_v413, main_v414, main_v415, main_v416, main_cst_88, main_v417, main_cst_89, main_v418, main_v419, main_cst_90, main_v420, main_cst_91, main_v421, main_v422, main_cst_92, main_v423, main_v424]))))

/-! ## The whole line -/

/-- @main's operations, in order: the nine windows' lists. -/
def ops : List (HloOp τ sig (Elt F)) :=
  opsPart0 ++ opsPart1 ++ opsPart2 ++ opsPart3 ++ opsPart4 ++ opsPart5 ++ opsPart6 ++ opsPart7 ++ opsPart8

/-- The references @main's operations write, in order. -/
noncomputable def W : List (Ref sig .tc) :=
  WPart0 ++ WPart1 ++ WPart2 ++ WPart3 ++ WPart4 ++ WPart5 ++ WPart6 ++ WPart7 ++ WPart8

end Cert.ReferenceIdeal.HandRun

end
-- ==== Proof.Ref.Writes.lean ====
/- Through a straight line of operations each of which writes exactly one reference, a reference that is none of those
   keeps its contents: an operation's result differs from what was there only at the buffers it writes, and distinct
   references are distinct buffers of the device. Stated for a line paired, operation by operation, with the list of the
   references written (`List.Forall₂`), so that it composes along concatenation. -/
import Idealize.ShloMosaic.Lib.StableHlo.Run

noncomputable section

namespace Cert.ReferenceIdeal.HandRun

open Idealize.ShloMosaic Idealize.ShloMosaic.StableHlo

variable {τ : Topo} {sig : RefSig} {Val : EltTy → Type}

/-! Each of the five builders a straight line of tensor operations uses (a constant, a map of one, two or three operands, a
reshape) determines its result: it leaves no buffer's new contents open. -/
section Builders

variable (x a b c y : Ref sig .tc)

@[simp] theorem nullary_fresh (v : y.ty.Contents Val) (hy) : (nullary (τ := τ) y v hy).fresh = ∅ := rfl
@[simp] theorem unary_fresh (f : x.ty.Contents Val → y.ty.Contents Val) (hx hy) :
    (unary (τ := τ) x y f hx hy).fresh = ∅ := rfl
@[simp] theorem binary_fresh (f : a.ty.Contents Val → b.ty.Contents Val → y.ty.Contents Val) (ha hb hy) :
    (binary (τ := τ) a b y f ha hb hy).fresh = ∅ := rfl
@[simp] theorem ternary_fresh (f : c.ty.Contents Val → a.ty.Contents Val → b.ty.Contents Val → y.ty.Contents Val) (hc ha hb hy) :
    (ternary (τ := τ) c a b y f hc ha hb hy).fresh = ∅ := rfl
@[simp] theorem reshape_fresh (he hn hx hy) : (reshape (τ := τ) (Val := Val) x y he hn hx hy).fresh = ∅ := rfl

end Builders

/-- The operation writes exactly the reference. -/
def WritesRef (op : HloOp τ sig Val) (y : Ref sig .tc) : Prop := op.writes = {Proc.devRef (τ := τ) .tc y}

/-- Two paired lists side by side are paired. -/
theorem forall₂_append {α β : Type} {R : α → β → Prop} {l₁ l₂ : List α} {m₁ m₂ : List β}
    (h₁ : List.Forall₂ R l₁ m₁) (h₂ : List.Forall₂ R l₂ m₂) : List.Forall₂ R (l₁ ++ l₂) (m₁ ++ m₂) :=
  List.rel_append h₁ h₂

/-- Through a line whose operations write, one by one, the references of a list, a reference not in the list keeps its
    contents: each operation leaves every buffer but its result's as it was. -/
theorem after_of_writesRef {l : List (HloOp τ sig Val)} {w : List (Ref sig .tc)} (h : List.Forall₂ WritesRef l w) :
    ∀ {r : Ref sig .tc}, r ∉ w → ∀ V : Valuation τ sig Val, after l V (Proc.devRef .tc r) = V (Proc.devRef .tc r) := by
  induction h with
  | nil => intro r _ V; rfl
  | @cons op y l' w' hop _ ih =>
    intro r hr V
    have hy : r ≠ y := fun e => hr (List.mem_cons.mpr (Or.inl e))
    have hw : r ∉ w' := fun hm => hr (List.mem_cons.mpr (Or.inr hm))
    have hop' : op.writes = {Proc.devRef (τ := τ) .tc y} := hop
    rw [after_cons, ih hw, op.result_of_not_mem V]
    rw [hop', Finset.mem_singleton]
    exact fun e => hy (Proc.devRef_injective _ e)

end Cert.ReferenceIdeal.HandRun

end
-- ==== Proof.Ref.RunLemmas.lean ====
/- The lists of Ref/Ops.lean, list by list: each outlined function's body is `seq` of its list, each window of @main is `seq`
   of its list, every operation of a list touches TensorCore references only and determines its result, and the operations
   of a list write, one by one, the references of the list beside it. A function that calls nothing is its list by
   unfolding; one that ends in a call is its own operations' list followed by the callee's, and `seq` of a concatenation
   runs the two one after the other (`seq_append`); a window is the same with several calls. The facts about single
   operations are the five builders' (a constant, a map of one, two or three operands, a reshape): Lib/StableHlo/Run.lean's
   `*_bufs_sub` and `*_writes`, and `fresh = ∅` by unfolding. -/
import proofs.«427833_j20194936226511_1_alg».proof.Proof.Ref.Ops
import proofs.«427833_j20194936226511_1_alg».proof.Proof.Ref.Writes

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Each outlined function's body is `seq` of its list -/

theorem opsWhere_eq (arg0) (arg1) (arg2) (φ) :
    fn_where.body (F := F) arg0 arg1 arg2 φ = seq (opsWhere arg0 arg1 arg2 φ) := rfl
theorem opsWhere0_eq (arg0) (arg1) (arg2) (φ) :
    fn_where_0.body (F := F) arg0 arg1 arg2 φ = seq (opsWhere0 arg0 arg1 arg2 φ) := rfl
theorem opsRelu_eq (arg0) (φ) :
    fn_relu.body (F := F) arg0 φ = seq (opsRelu arg0 φ) := rfl
theorem opsWhere2_eq (arg0) (arg1) (arg2) (φ) :
    fn_where_2.body (F := F) arg0 arg1 arg2 φ = seq (opsWhere2 arg0 arg1 arg2 φ) := rfl
theorem opsRelu3_eq (arg0) (φ) :
    fn_relu_3.body (F := F) arg0 φ = seq (opsRelu3 arg0 φ) := rfl
theorem opsWhere4_eq (arg0) (arg1) (arg2) (φ) :
    fn_where_4.body (F := F) arg0 arg1 arg2 φ = seq (opsWhere4 arg0 arg1 arg2 φ) := rfl
theorem opsWhere6_eq (arg0) (arg1) (arg2) (φ) :
    fn_where_6.body (F := F) arg0 arg1 arg2 φ = seq (opsWhere6 arg0 arg1 arg2 φ) := rfl
theorem opsRelu7_eq (arg0) (φ) :
    fn_relu_7.body (F := F) arg0 φ = seq (opsRelu7 arg0 φ) := rfl
theorem opsNorm_eq (arg0) (φ) :
    fn_norm.body (F := F) arg0 φ = seq (opsNorm arg0 φ) := rfl
theorem opsNorm8_eq (arg0) (φ) :
    fn_norm_8.body (F := F) arg0 φ = seq (opsNorm8 arg0 φ) := rfl

set_option maxRecDepth 8192 in
theorem opsVar_eq (arg0) (arg1) (φ) :
    fn_var.body (F := F) arg0 arg1 φ = seq (opsVar arg0 arg1 φ) := by
  rw [opsVar, seq_append, ← opsWhere0_eq]
  rfl

set_option maxRecDepth 8192 in
theorem opsVar1_eq (arg0) (arg1) (φ) :
    fn_var_1.body (F := F) arg0 arg1 φ = seq (opsVar1 arg0 arg1 φ) := by
  rw [opsVar1, seq_append, ← opsWhere2_eq]
  rfl

set_option maxRecDepth 8192 in
theorem opsVar5_eq (arg0) (arg1) (φ) :
    fn_var_5.body (F := F) arg0 arg1 φ = seq (opsVar5 arg0 arg1 φ) := by
  rw [opsVar5, seq_append, ← opsWhere6_eq]
  rfl

/-! ## Each window of @main is `seq` of its list -/

/-- `seq` of a concatenation into the pieces in order, each call's piece as the callee's body. -/
macro "seq_pieces" : tactic =>
  `(tactic| simp only [seq_append, ← opsWhere_eq, ← opsWhere0_eq, ← opsVar_eq, ← opsRelu_eq, ← opsWhere2_eq, ← opsVar1_eq, ← opsRelu3_eq, ← opsWhere4_eq, ← opsWhere6_eq, ← opsVar5_eq, ← opsRelu7_eq, ← opsNorm_eq, ← opsNorm8_eq])

set_option maxRecDepth 8192 in
set_option maxHeartbeats 4000000 in
theorem main_part0_eq (d : Dev nD) : main_part0 (F := F) d = seq opsPart0 := by
  rw [opsPart0]; seq_pieces; rfl

set_option maxRecDepth 8192 in
set_option maxHeartbeats 4000000 in
theorem main_part1_eq (d : Dev nD) : main_part1 (F := F) d = seq opsPart1 := by
  rw [opsPart1]; seq_pieces; rfl

set_option maxRecDepth 8192 in
set_option maxHeartbeats 4000000 in
theorem main_part2_eq (d : Dev nD) : main_part2 (F := F) d = seq opsPart2 := by
  rw [opsPart2]; seq_pieces; rfl

set_option maxRecDepth 8192 in
set_option maxHeartbeats 4000000 in
theorem main_part3_eq (d : Dev nD) : main_part3 (F := F) d = seq opsPart3 := by
  rw [opsPart3]; seq_pieces; rfl

set_option maxRecDepth 8192 in
set_option maxHeartbeats 4000000 in
theorem main_part4_eq (d : Dev nD) : main_part4 (F := F) d = seq opsPart4 := by
  rw [opsPart4]; seq_pieces; rfl

set_option maxRecDepth 8192 in
set_option maxHeartbeats 4000000 in
theorem main_part5_eq (d : Dev nD) : main_part5 (F := F) d = seq opsPart5 := by
  rw [opsPart5]; seq_pieces; rfl

set_option maxRecDepth 8192 in
set_option maxHeartbeats 4000000 in
theorem main_part6_eq (d : Dev nD) : main_part6 (F := F) d = seq opsPart6 := by
  rw [opsPart6]; seq_pieces; rfl

set_option maxRecDepth 8192 in
set_option maxHeartbeats 4000000 in
theorem main_part7_eq (d : Dev nD) : main_part7 (F := F) d = seq opsPart7 := by
  rw [opsPart7]; seq_pieces; rfl

set_option maxRecDepth 8192 in
set_option maxHeartbeats 4000000 in
theorem main_part8_eq (d : Dev nD) : main_part8 (F := F) d = seq opsPart8 := by
  rw [opsPart8]; seq_pieces; rfl

/-! ## Every operation touches TensorCore references only -/

/-- A literal stretch: the conjunction over its operations, each the builder's own fact. -/
macro "builders_sub" : tactic =>
  `(tactic| simp only [List.Forall, nullary_bufs_sub, unary_bufs_sub, binary_bufs_sub, ternary_bufs_sub, reshape_bufs_sub, and_self])

theorem opsWhere_sub (arg0) (arg1) (arg2) (φ) :
    (opsWhere (F := F) arg0 arg1 arg2 φ).Forall fun op => op.bufs ⊆ tcRefs τ sig := by
  unfold opsWhere; builders_sub
theorem opsWhere0_sub (arg0) (arg1) (arg2) (φ) :
    (opsWhere0 (F := F) arg0 arg1 arg2 φ).Forall fun op => op.bufs ⊆ tcRefs τ sig := by
  unfold opsWhere0; builders_sub
theorem opsRelu_sub (arg0) (φ) :
    (opsRelu (F := F) arg0 φ).Forall fun op => op.bufs ⊆ tcRefs τ sig := by
  unfold opsRelu; builders_sub
theorem opsWhere2_sub (arg0) (arg1) (arg2) (φ) :
    (opsWhere2 (F := F) arg0 arg1 arg2 φ).Forall fun op => op.bufs ⊆ tcRefs τ sig := by
  unfold opsWhere2; builders_sub
theorem opsRelu3_sub (arg0) (φ) :
    (opsRelu3 (F := F) arg0 φ).Forall fun op => op.bufs ⊆ tcRefs τ sig := by
  unfold opsRelu3; builders_sub
theorem opsWhere4_sub (arg0) (arg1) (arg2) (φ) :
    (opsWhere4 (F := F) arg0 arg1 arg2 φ).Forall fun op => op.bufs ⊆ tcRefs τ sig := by
  unfold opsWhere4; builders_sub
theorem opsWhere6_sub (arg0) (arg1) (arg2) (φ) :
    (opsWhere6 (F := F) arg0 arg1 arg2 φ).Forall fun op => op.bufs ⊆ tcRefs τ sig := by
  unfold opsWhere6; builders_sub
theorem opsRelu7_sub (arg0) (φ) :
    (opsRelu7 (F := F) arg0 φ).Forall fun op => op.bufs ⊆ tcRefs τ sig := by
  unfold opsRelu7; builders_sub
theorem opsNorm_sub (arg0) (φ) :
    (opsNorm (F := F) arg0 φ).Forall fun op => op.bufs ⊆ tcRefs τ sig := by
  unfold opsNorm; builders_sub
theorem opsNorm8_sub (arg0) (φ) :
    (opsNorm8 (F := F) arg0 φ).Forall fun op => op.bufs ⊆ tcRefs τ sig := by
  unfold opsNorm8; builders_sub

theorem opsVar_sub (arg0) (arg1) (φ) :
    (opsVar (F := F) arg0 arg1 φ).Forall fun op => op.bufs ⊆ tcRefs τ sig := by
  unfold opsVar; simp only [List.forall_append, List.Forall, nullary_bufs_sub, unary_bufs_sub, binary_bufs_sub, ternary_bufs_sub, reshape_bufs_sub, opsWhere0_sub, and_self]
theorem opsVar1_sub (arg0) (arg1) (φ) :
    (opsVar1 (F := F) arg0 arg1 φ).Forall fun op => op.bufs ⊆ tcRefs τ sig := by
  unfold opsVar1; simp only [List.forall_append, List.Forall, nullary_bufs_sub, unary_bufs_sub, binary_bufs_sub, ternary_bufs_sub, reshape_bufs_sub, opsWhere2_sub, and_self]
theorem opsVar5_sub (arg0) (arg1) (φ) :
    (opsVar5 (F := F) arg0 arg1 φ).Forall fun op => op.bufs ⊆ tcRefs τ sig := by
  unfold opsVar5; simp only [List.forall_append, List.Forall, nullary_bufs_sub, unary_bufs_sub, binary_bufs_sub, ternary_bufs_sub, reshape_bufs_sub, opsWhere6_sub, and_self]

/-- A window's list: a builder's fact per operation, a function's per call. -/
macro "pieces_sub" : tactic =>
  `(tactic| simp only [List.forall_append, List.Forall, nullary_bufs_sub, unary_bufs_sub, binary_bufs_sub, ternary_bufs_sub, reshape_bufs_sub,
    opsWhere_sub, opsWhere0_sub, opsVar_sub, opsRelu_sub, opsWhere2_sub, opsVar1_sub, opsRelu3_sub, opsWhere4_sub, opsWhere6_sub, opsVar5_sub, opsRelu7_sub, opsNorm_sub, opsNorm8_sub, and_self])

theorem opsPart0_sub : (opsPart0 (F := F)).Forall fun op => op.bufs ⊆ tcRefs τ sig := by
  unfold opsPart0; pieces_sub
theorem opsPart1_sub : (opsPart1 (F := F)).Forall fun op => op.bufs ⊆ tcRefs τ sig := by
  unfold opsPart1; pieces_sub
theorem opsPart2_sub : (opsPart2 (F := F)).Forall fun op => op.bufs ⊆ tcRefs τ sig := by
  unfold opsPart2; pieces_sub
theorem opsPart3_sub : (opsPart3 (F := F)).Forall fun op => op.bufs ⊆ tcRefs τ sig := by
  unfold opsPart3; pieces_sub
theorem opsPart4_sub : (opsPart4 (F := F)).Forall fun op => op.bufs ⊆ tcRefs τ sig := by
  unfold opsPart4; pieces_sub
theorem opsPart5_sub : (opsPart5 (F := F)).Forall fun op => op.bufs ⊆ tcRefs τ sig := by
  unfold opsPart5; pieces_sub
theorem opsPart6_sub : (opsPart6 (F := F)).Forall fun op => op.bufs ⊆ tcRefs τ sig := by
  unfold opsPart6; pieces_sub
theorem opsPart7_sub : (opsPart7 (F := F)).Forall fun op => op.bufs ⊆ tcRefs τ sig := by
  unfold opsPart7; pieces_sub
theorem opsPart8_sub : (opsPart8 (F := F)).Forall fun op => op.bufs ⊆ tcRefs τ sig := by
  unfold opsPart8; pieces_sub

/-! ## Every operation determines its result -/

/-- A literal stretch: no builder leaves its result open. -/
macro "builders_fresh" : tactic =>
  `(tactic| simp only [List.Forall, nullary_fresh, unary_fresh, binary_fresh, ternary_fresh, reshape_fresh, and_self])

theorem opsWhere_fresh (arg0) (arg1) (arg2) (φ) :
    (opsWhere (F := F) arg0 arg1 arg2 φ).Forall fun op => op.fresh = ∅ := by
  unfold opsWhere; builders_fresh
theorem opsWhere0_fresh (arg0) (arg1) (arg2) (φ) :
    (opsWhere0 (F := F) arg0 arg1 arg2 φ).Forall fun op => op.fresh = ∅ := by
  unfold opsWhere0; builders_fresh
theorem opsRelu_fresh (arg0) (φ) :
    (opsRelu (F := F) arg0 φ).Forall fun op => op.fresh = ∅ := by
  unfold opsRelu; builders_fresh
theorem opsWhere2_fresh (arg0) (arg1) (arg2) (φ) :
    (opsWhere2 (F := F) arg0 arg1 arg2 φ).Forall fun op => op.fresh = ∅ := by
  unfold opsWhere2; builders_fresh
theorem opsRelu3_fresh (arg0) (φ) :
    (opsRelu3 (F := F) arg0 φ).Forall fun op => op.fresh = ∅ := by
  unfold opsRelu3; builders_fresh
theorem opsWhere4_fresh (arg0) (arg1) (arg2) (φ) :
    (opsWhere4 (F := F) arg0 arg1 arg2 φ).Forall fun op => op.fresh = ∅ := by
  unfold opsWhere4; builders_fresh
theorem opsWhere6_fresh (arg0) (arg1) (arg2) (φ) :
    (opsWhere6 (F := F) arg0 arg1 arg2 φ).Forall fun op => op.fresh = ∅ := by
  unfold opsWhere6; builders_fresh
theorem opsRelu7_fresh (arg0) (φ) :
    (opsRelu7 (F := F) arg0 φ).Forall fun op => op.fresh = ∅ := by
  unfold opsRelu7; builders_fresh
theorem opsNorm_fresh (arg0) (φ) :
    (opsNorm (F := F) arg0 φ).Forall fun op => op.fresh = ∅ := by
  unfold opsNorm; builders_fresh
theorem opsNorm8_fresh (arg0) (φ) :
    (opsNorm8 (F := F) arg0 φ).Forall fun op => op.fresh = ∅ := by
  unfold opsNorm8; builders_fresh

theorem opsVar_fresh (arg0) (arg1) (φ) :
    (opsVar (F := F) arg0 arg1 φ).Forall fun op => op.fresh = ∅ := by
  unfold opsVar; simp only [List.forall_append, List.Forall, nullary_fresh, unary_fresh, binary_fresh, ternary_fresh, reshape_fresh, opsWhere0_fresh, and_self]
theorem opsVar1_fresh (arg0) (arg1) (φ) :
    (opsVar1 (F := F) arg0 arg1 φ).Forall fun op => op.fresh = ∅ := by
  unfold opsVar1; simp only [List.forall_append, List.Forall, nullary_fresh, unary_fresh, binary_fresh, ternary_fresh, reshape_fresh, opsWhere2_fresh, and_self]
theorem opsVar5_fresh (arg0) (arg1) (φ) :
    (opsVar5 (F := F) arg0 arg1 φ).Forall fun op => op.fresh = ∅ := by
  unfold opsVar5; simp only [List.forall_append, List.Forall, nullary_fresh, unary_fresh, binary_fresh, ternary_fresh, reshape_fresh, opsWhere6_fresh, and_self]

/-- A window's list: no builder leaves its result open, nor does a function's list. -/
macro "pieces_fresh" : tactic =>
  `(tactic| simp only [List.forall_append, List.Forall, nullary_fresh, unary_fresh, binary_fresh, ternary_fresh, reshape_fresh,
    opsWhere_fresh, opsWhere0_fresh, opsVar_fresh, opsRelu_fresh, opsWhere2_fresh, opsVar1_fresh, opsRelu3_fresh, opsWhere4_fresh, opsWhere6_fresh, opsVar5_fresh, opsRelu7_fresh, opsNorm_fresh, opsNorm8_fresh, and_self])

theorem opsPart0_fresh : (opsPart0 (F := F)).Forall fun op => op.fresh = ∅ := by
  unfold opsPart0; pieces_fresh
theorem opsPart1_fresh : (opsPart1 (F := F)).Forall fun op => op.fresh = ∅ := by
  unfold opsPart1; pieces_fresh
theorem opsPart2_fresh : (opsPart2 (F := F)).Forall fun op => op.fresh = ∅ := by
  unfold opsPart2; pieces_fresh
theorem opsPart3_fresh : (opsPart3 (F := F)).Forall fun op => op.fresh = ∅ := by
  unfold opsPart3; pieces_fresh
theorem opsPart4_fresh : (opsPart4 (F := F)).Forall fun op => op.fresh = ∅ := by
  unfold opsPart4; pieces_fresh
theorem opsPart5_fresh : (opsPart5 (F := F)).Forall fun op => op.fresh = ∅ := by
  unfold opsPart5; pieces_fresh
theorem opsPart6_fresh : (opsPart6 (F := F)).Forall fun op => op.fresh = ∅ := by
  unfold opsPart6; pieces_fresh
theorem opsPart7_fresh : (opsPart7 (F := F)).Forall fun op => op.fresh = ∅ := by
  unfold opsPart7; pieces_fresh
theorem opsPart8_fresh : (opsPart8 (F := F)).Forall fun op => op.fresh = ∅ := by
  unfold opsPart8; pieces_fresh

/-! ## The operations of a list write the references of the list beside it -/

/-- A list against its written references: piece by piece and then operation by operation (a call's list opens into its
    operations), each operation the builder's own fact. -/
macro "pieces_writes" : tactic =>
  `(tactic| ((repeat' first
      | exact List.Forall₂.nil
      | apply forall₂_append
      | apply List.Forall₂.cons) <;>
    (simp only [WritesRef, nullary_writes, unary_writes, binary_writes, ternary_writes, reshape_writes]; try rfl)))

theorem opsWhere_writes (arg0) (arg1) (arg2) (φ) :
    List.Forall₂ WritesRef (opsWhere (F := F) arg0 arg1 arg2 φ) (wWhere φ) := by
  unfold opsWhere wWhere; pieces_writes
theorem opsWhere0_writes (arg0) (arg1) (arg2) (φ) :
    List.Forall₂ WritesRef (opsWhere0 (F := F) arg0 arg1 arg2 φ) (wWhere0 φ) := by
  unfold opsWhere0 wWhere0; pieces_writes
theorem opsVar_writes (arg0) (arg1) (φ) :
    List.Forall₂ WritesRef (opsVar (F := F) arg0 arg1 φ) (wVar φ) := by
  unfold opsVar wVar; pieces_writes
theorem opsRelu_writes (arg0) (φ) :
    List.Forall₂ WritesRef (opsRelu (F := F) arg0 φ) (wRelu φ) := by
  unfold opsRelu wRelu; pieces_writes
theorem opsWhere2_writes (arg0) (arg1) (arg2) (φ) :
    List.Forall₂ WritesRef (opsWhere2 (F := F) arg0 arg1 arg2 φ) (wWhere2 φ) := by
  unfold opsWhere2 wWhere2; pieces_writes
theorem opsVar1_writes (arg0) (arg1) (φ) :
    List.Forall₂ WritesRef (opsVar1 (F := F) arg0 arg1 φ) (wVar1 φ) := by
  unfold opsVar1 wVar1; pieces_writes
theorem opsRelu3_writes (arg0) (φ) :
    List.Forall₂ WritesRef (opsRelu3 (F := F) arg0 φ) (wRelu3 φ) := by
  unfold opsRelu3 wRelu3; pieces_writes
theorem opsWhere4_writes (arg0) (arg1) (arg2) (φ) :
    List.Forall₂ WritesRef (opsWhere4 (F := F) arg0 arg1 arg2 φ) (wWhere4 φ) := by
  unfold opsWhere4 wWhere4; pieces_writes
theorem opsWhere6_writes (arg0) (arg1) (arg2) (φ) :
    List.Forall₂ WritesRef (opsWhere6 (F := F) arg0 arg1 arg2 φ) (wWhere6 φ) := by
  unfold opsWhere6 wWhere6; pieces_writes
theorem opsVar5_writes (arg0) (arg1) (φ) :
    List.Forall₂ WritesRef (opsVar5 (F := F) arg0 arg1 φ) (wVar5 φ) := by
  unfold opsVar5 wVar5; pieces_writes
theorem opsRelu7_writes (arg0) (φ) :
    List.Forall₂ WritesRef (opsRelu7 (F := F) arg0 φ) (wRelu7 φ) := by
  unfold opsRelu7 wRelu7; pieces_writes
theorem opsNorm_writes (arg0) (φ) :
    List.Forall₂ WritesRef (opsNorm (F := F) arg0 φ) (wNorm φ) := by
  unfold opsNorm wNorm; pieces_writes
theorem opsNorm8_writes (arg0) (φ) :
    List.Forall₂ WritesRef (opsNorm8 (F := F) arg0 φ) (wNorm8 φ) := by
  unfold opsNorm8 wNorm8; pieces_writes

set_option maxRecDepth 8192 in
theorem opsPart0_writes : List.Forall₂ WritesRef (opsPart0 (F := F)) WPart0 := by
  unfold opsPart0 WPart0; pieces_writes
set_option maxRecDepth 8192 in
theorem opsPart1_writes : List.Forall₂ WritesRef (opsPart1 (F := F)) WPart1 := by
  unfold opsPart1 WPart1; pieces_writes
set_option maxRecDepth 8192 in
theorem opsPart2_writes : List.Forall₂ WritesRef (opsPart2 (F := F)) WPart2 := by
  unfold opsPart2 WPart2; pieces_writes
set_option maxRecDepth 8192 in
theorem opsPart3_writes : List.Forall₂ WritesRef (opsPart3 (F := F)) WPart3 := by
  unfold opsPart3 WPart3; pieces_writes
set_option maxRecDepth 8192 in
theorem opsPart4_writes : List.Forall₂ WritesRef (opsPart4 (F := F)) WPart4 := by
  unfold opsPart4 WPart4; pieces_writes
set_option maxRecDepth 8192 in
theorem opsPart5_writes : List.Forall₂ WritesRef (opsPart5 (F := F)) WPart5 := by
  unfold opsPart5 WPart5; pieces_writes
set_option maxRecDepth 8192 in
theorem opsPart6_writes : List.Forall₂ WritesRef (opsPart6 (F := F)) WPart6 := by
  unfold opsPart6 WPart6; pieces_writes
set_option maxRecDepth 8192 in
theorem opsPart7_writes : List.Forall₂ WritesRef (opsPart7 (F := F)) WPart7 := by
  unfold opsPart7 WPart7; pieces_writes
set_option maxRecDepth 8192 in
theorem opsPart8_writes : List.Forall₂ WritesRef (opsPart8 (F := F)) WPart8 := by
  unfold opsPart8 WPart8; pieces_writes

end Cert.ReferenceIdeal.HandRun

end
-- ==== Proof.Ref.Run.lean ====
/- The run of the reference program. The lists of Ref/Ops.lean are the program: each outlined function's body is `seq` of
   its list and each of @main's nine windows is `seq` of its list (Ref/RunLemmas.lean: where a call stands, running two
   lists one after the other is running their concatenation, `seq_append`); @main runs the windows in order, so it is
   `seq ops` (`main_eq`). Every operation is one of five builders (a constant, a map of one, two or three operands, a
   reshape): it touches TensorCore references only (`ops_sub`), determines its result (`ops_fresh`), and writes exactly its
   result reference (`ops_writes`, against the list `W` of Ref/Ops.lean). The signature scopes no buffer and no semaphore,
   so Lib/StableHlo/Run.lean's `run_seq` applies: from any memory with zero counters every weakly fair execution of @main
   terminates with every buffer at the fold `after ops` of the launch contents (`run`). A reference no operation writes
   holds after the fold what it held before (`kept`); Ref/Args.lean reads off that the 24 arguments are such references. -/
import proofs.«427833_j20194936226511_1_alg».proof.Proof.Ref.RunLemmas

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## @main is `seq ops` -/

/-- @main runs its nine windows in order, and `ops` is their nine lists in order: `seq` of the concatenation is the windows'
    programs one after the other, and sequencing is associative. -/
theorem main_eq (d : Dev nD) : main (F := F) d = seq ops := by
  rw [ops]
  simp only [seq_append, ← main_part0_eq d, ← main_part1_eq d, ← main_part2_eq d, ← main_part3_eq d, ← main_part4_eq d,
    ← main_part5_eq d, ← main_part6_eq d, ← main_part7_eq d, ← main_part8_eq d, bind_assoc]
  rfl

/-! ## Every operation touches TensorCore references only, and determines its result -/

theorem ops_sub : (ops (F := F)).Forall fun op => op.bufs ⊆ tcRefs τ sig := by
  unfold ops; simp only [List.forall_append]
  exact ⟨⟨⟨⟨⟨⟨⟨⟨opsPart0_sub, opsPart1_sub⟩, opsPart2_sub⟩, opsPart3_sub⟩, opsPart4_sub⟩, opsPart5_sub⟩, opsPart6_sub⟩,
    opsPart7_sub⟩, opsPart8_sub⟩

theorem ops_fresh : (ops (F := F)).Forall fun op => op.fresh = ∅ := by
  unfold ops; simp only [List.forall_append]
  exact ⟨⟨⟨⟨⟨⟨⟨⟨opsPart0_fresh, opsPart1_fresh⟩, opsPart2_fresh⟩, opsPart3_fresh⟩, opsPart4_fresh⟩, opsPart5_fresh⟩,
    opsPart6_fresh⟩, opsPart7_fresh⟩, opsPart8_fresh⟩

/-! ## The run -/

/-- The signature scopes no TensorCore buffer: every one is a tensor value's, live across the whole program. -/
theorem scopedRefs_eq : (Finset.univ.filter fun b : Ref sig .tc => b.isScoped) = ∅ := by decide
/-- It has no semaphore at all. -/
theorem scopedSems_eq : (Finset.univ.filter fun sm : SemLoc sig => sm.isScoped .tc) = ∅ := by decide

/-- On every device, for any float values, from any memory with zero counters: every weakly fair execution of @main
    terminates, and every final state has each TensorCore buffer at the fold of `ops` over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-! ## What the line writes, and the arguments it keeps -/

/-- The whole line against the references it writes: window by window. -/
theorem ops_writes : List.Forall₂ WritesRef (ops (F := F)) W := by
  unfold ops W
  exact forall₂_append (forall₂_append (forall₂_append (forall₂_append (forall₂_append (forall₂_append (forall₂_append
    (forall₂_append opsPart0_writes opsPart1_writes) opsPart2_writes) opsPart3_writes) opsPart4_writes) opsPart5_writes)
    opsPart6_writes) opsPart7_writes) opsPart8_writes

/-- A reference @main's operations do not write holds after the line what it held before. -/
theorem kept {r : Ref sig .tc} (hr : r ∉ W) (V : Valuation τ sig (Elt F)) :
    after ops V (Proc.devRef .tc r) = V (Proc.devRef .tc r) :=
  after_of_writesRef ops_writes hr V

end Cert.ReferenceIdeal.HandRun

end
-- ==== Proof.Ref.Args.lean ====
/- No operation of the reference's @main writes one of its 24 arguments. The arguments are the device's buffers 0 … 23;
   every reference the line writes (the list `W` of Ref/Ops.lean, one entry per operation) is a value's buffer, of index 24
   or more: a finite check over the list. So an argument is none of the written references, and holds after the line what
   it held at the launch (`kept` of Ref/Run.lean). -/
import proofs.«427833_j20194936226511_1_alg».proof.Proof.Ref.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
/-- Every written reference is a value's buffer: its index among the device's buffers is 24 or more. The check runs down
    the list (stated with `List.Forall`, so that it is decided entry by entry and not by a search through all the device's
    references for each entry), in the kernel. -/
theorem W_values : ∀ r ∈ W, 24 ≤ r.idx.val :=
  List.forall_iff_forall_mem.mp (by decide +kernel : W.Forall fun r => 24 ≤ r.idx.val)

/-- @main's 24 arguments: the device's buffers 0 … 23. -/
def argRefs : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17, main_arg18, main_arg19, main_arg20,
    main_arg21, main_arg22, main_arg23]

theorem argRefs_small : ∀ r ∈ argRefs, r.idx.val < 24 :=
  List.forall_iff_forall_mem.mp (by decide : argRefs.Forall fun r => r.idx.val < 24)

/-- No operation writes an argument: each holds after the line what it held at the launch. For one argument:
    `args_kept (r := main_arg5) (by decide) V`. -/
theorem args_kept {r : Ref sig .tc} (hr : r ∈ argRefs) (V : Valuation τ sig (Elt F)) :
    after ops V (Proc.devRef .tc r) = V (Proc.devRef .tc r) :=
  kept (fun h => absurd (W_values r h) (Nat.not_le.mpr (argRefs_small r hr))) V

end Cert.ReferenceIdeal.HandRun

end
-- ==== Proof.Ref.LayerMath.lean ====
/-
  One GIN layer as the reference spells it, for all widths, read back as `Spec.layerR`.

  A host reduction over the rows from the zero word is the column sum. The outlined variance divides the sum of squared
  distances from the mean by `50000 − 0`, guarded by the comparison `50000 − 0 > 0` that would select a NaN word: the
  guard holds, so the selection returns the quotient, which is `Spec.varR`. A row `[b]` laid along the columns of
  `[n, b]` reads the row's entry, a broadcast scalar reads the scalar, and the plain matrix product of the host is the
  entrywise sum of products. So batch normalisation followed by the cut-off at zero is `Spec.bnRelu` at the column means
  and `Spec.varR`, and the two products with their normalisations are `Spec.layerR`.
-/
import proofs.«427833_j20194936226511_1_alg».proof.Proof.Math.LayerEq
import Idealize.ShloMosaic.PureOps.Ideal
import Idealize.ShloMosaic.PureOps.Ideal.Laws
import Idealize.ShloMosaic.Lib.ValueIdx
import Idealize.ShloMosaic.Lib.IdealHost
import Idealize.ShloMosaic.Lib.StackMember
import Idealize.ShloMosaic.Lib.KernelVsHost
import Mathlib.Tactic.SplitIfs
import Mathlib.Tactic.NormNum

noncomputable section

namespace Cert.ReferenceIdeal.HandValue

open Idealize.ShloMosaic Idealize.ShloMosaic.ValueIdx Cert.Spec

open scoped BigOperators

/-- The scalar shape. -/
abbrev S0 : Shape := ⟨0, ![]⟩

/-- The shape facts one batch normalisation over the rows of an `[n, b]` matrix cites. -/
structure BnF (n b : ℕ) : Prop where
  red  : (⟨2, ![n, b]⟩ : Shape).ReducesTo [0] ⟨1, ![b]⟩
  red' : (⟨2, ![n, b]⟩ : Shape).Reduces [0] ⟨1, ![b]⟩
  h0   : 0 < S0.numel
  sb   : S0.BroadcastsInDim ⟨1, ![b]⟩ ![]
  b1b  : (⟨1, ![b]⟩ : Shape).BroadcastsInDim ⟨2, ![1, b]⟩ ![1]
  s1b  : S0.BroadcastsInDim ⟨2, ![1, b]⟩ ![]
  onb  : (⟨2, ![1, b]⟩ : Shape).BroadcastsInDim ⟨2, ![n, b]⟩ ![0, 1]
  snb  : S0.BroadcastsInDim ⟨2, ![n, b]⟩ ![]

section Layer

variable {n b : ℕ}

/-- The sum of each column, as the host reduction from the zero word. -/
def colSumT (f : BnF n b) (z : FVec Ideal ⟨2, ![n, b]⟩ .f32) : FVec Ideal ⟨1, ![b]⟩ .f32 :=
  Host.reduceAdd z (constant (F := Ideal) S0 .f32 0x00000000#32) f.red f.h0

/-- The index over column `j` with the row coordinate `k` inserted is `(k, j)`. -/
theorem lift_eq (f : BnF n b) (j : Fin b) (k : Fin n) : f.red'.lift (ix1 j) k = ix2 k j := by
  funext c
  apply Fin.ext
  match c with
  | ⟨0, _⟩ => rfl
  | ⟨1, _⟩ => rfl

theorem colSumT_apply (f : BnF n b) (z : FVec Ideal ⟨2, ![n, b]⟩ .f32) (j : Fin b) :
    colSumT f z (ix1 j) = colSum z j := by
  unfold colSumT colSum
  rw [hostReduceAdd_apply, Ideal.hostReduceAdd_single f.red f.red', constant_apply, Ideal.ofBits_zero_f32, zero_add]
  exact Finset.sum_congr rfl fun k _ => congrArg z (lift_eq f j k)

/-- A row `[b]` laid along the columns of `[n, b]`, read at an entry, is the row's entry. -/
theorem rowBcast_apply (f : BnF n b) {α : Type} (v : (⟨1, ![b]⟩ : Shape).Idx → α) (r : Fin n) (c : Fin b) :
    broadcastInDim ⟨2, ![n, b]⟩ ![0, 1] f.onb (broadcastInDim ⟨2, ![1, b]⟩ ![1] f.b1b v) (ix2 r c) = v (ix1 c) := by
  rw [broadcastInDim_oneRow_apply]
  refine broadcastInDim_apply ![1] f.b1b v (ix2 (0 : Fin 1) c) (ix1 c) ?_
  intro a
  match a with
  | ⟨0, _⟩ =>
    show c.val = if b = 1 then 0 else c.val
    split_ifs with hb
    · have := c.isLt; omega
    · rfl

/-- The column means: the column sums over the number of rows. -/
def meanT (f : BnF n b) (z : FVec Ideal ⟨2, ![n, b]⟩ .f32) : FVec Ideal ⟨1, ![b]⟩ .f32 :=
  Host.divf (colSumT f z) (broadcastInDim ⟨1, ![b]⟩ ![] f.sb (constant (F := Ideal) S0 .f32 0x47435000#32))

theorem meanT_apply (f : BnF n b) (z : FVec Ideal ⟨2, ![n, b]⟩ .f32) (j : Fin b) : meanT f z (ix1 j) = mean z j := by
  unfold meanT mean
  rw [hostDivf_apply, colSumT_apply, broadcastInDim_scalar_apply, constant_apply]
  rfl

/-- The column variances as the reference spells them: the mean squared distance from the mean, the divisor
    `50000 − 0` guarded by a comparison against zero that selects a NaN word when it fails. -/
def varT (f : BnF n b) (z : FVec Ideal ⟨2, ![n, b]⟩ .f32) : FVec Ideal ⟨1, ![b]⟩ .f32 :=
  let v3 : FVec Ideal ⟨2, ![1, b]⟩ .f32 := Host.divf (broadcastInDim ⟨2, ![1, b]⟩ ![1] f.b1b (colSumT f z))
      (broadcastInDim ⟨2, ![1, b]⟩ ![] f.s1b (constant (F := Ideal) S0 .f32 0x47435000#32))
  let v5 : FVec Ideal ⟨2, ![n, b]⟩ .f32 := subf z (broadcastInDim ⟨2, ![n, b]⟩ ![0, 1] f.onb v3)
  let v8 : FVec Ideal S0 .f32 := subf (constant (F := Ideal) S0 .f32 0x47435000#32) (sitofp .f32 (constantI S0 32 0#32))
  let v11 : FVec Ideal ⟨1, ![b]⟩ .f32 := Host.divf (colSumT f (mulf v5 v5)) (broadcastInDim ⟨1, ![b]⟩ ![] f.sb v8)
  select (broadcastInDim ⟨1, ![b]⟩ ![] f.sb (cmpf .ogt v8 (constant (F := Ideal) S0 .f32 0x00000000#32))) v11
    (broadcastInDim ⟨1, ![b]⟩ ![] f.sb (id (constant (F := Ideal) S0 .f32 0x7FC00000#32)))

/-- The guarded divisor `50000 − 0` is the number of rows. -/
theorem divisor_eq : Ideal.ofBits .f32 0x47435000#32 - (((0#32 : BitVec 32).toInt : ℝ) : EReal) = nrows := by
  have h : (((0#32 : BitVec 32).toInt : ℝ) : EReal) = 0 := by
    rw [show (0#32 : BitVec 32).toInt = 0 from by decide]; simp
  rw [h, sub_zero]; rfl

/-- The number of rows is above zero, so the guard holds. -/
theorem guard_eq : Ideal.cmp .ogt nrows (Ideal.ofBits .f32 0x00000000#32) = 1#1 := by
  unfold Ideal.cmp
  have h : Ideal.ofBits .f32 0x00000000#32 < nrows := by
    rw [Ideal.ofBits_zero_f32, nrows_eq]; exact EReal.coe_pos.mpr (by norm_num)
  simp only [h, decide_true]; rfl

/-- The guarded divisor as the program spells it, read at its one index. -/
theorem v8_apply : (subf (constant (F := Ideal) S0 .f32 0x47435000#32) (sitofp .f32 (constantI S0 32 0#32)) : FVec Ideal S0 .f32) ix0
    = nrows := divisor_eq

theorem varT_apply (f : BnF n b) (z : FVec Ideal ⟨2, ![n, b]⟩ .f32) (j : Fin b) : varT f z (ix1 j) = varR z j := by
  unfold varT varR
  simp only []
  rw [select_apply, broadcastInDim_scalar_apply, cmpf_apply, v8_apply, constant_apply, Ideal.cmpf_def, guard_eq, select_one,
    hostDivf_apply, colSumT_apply, broadcastInDim_scalar_apply, v8_apply]
  unfold colSum
  refine congrArg (fun s => Ideal.div s nrows) (Finset.sum_congr rfl fun i _ => ?_)
  have e : (subf z (broadcastInDim ⟨2, ![n, b]⟩ ![0, 1] f.onb (Host.divf (broadcastInDim ⟨2, ![1, b]⟩ ![1] f.b1b (colSumT f z))
      (broadcastInDim ⟨2, ![1, b]⟩ ![] f.s1b (constant (F := Ideal) S0 .f32 0x47435000#32)))) : FVec Ideal ⟨2, ![n, b]⟩ .f32) (ix2 i j)
      = z (ix2 i j) - mean z j := by
    rw [subf_apply, broadcastInDim_oneRow_apply, hostDivf_apply, broadcastInDim_scalar_apply, constant_apply]
    have e1 : broadcastInDim ⟨2, ![1, b]⟩ ![1] f.b1b (colSumT f z) (ix2 (0 : Fin 1) j) = colSumT f z (ix1 j) := by
      refine broadcastInDim_apply ![1] f.b1b _ (ix2 (0 : Fin 1) j) (ix1 j) ?_
      intro a
      match a with
      | ⟨0, _⟩ =>
        show j.val = if b = 1 then 0 else j.val
        split_ifs with hb
        · have := j.isLt; omega
        · rfl
    rw [e1, colSumT_apply]; rfl
  rw [mulf_apply, e]

/-- Batch normalisation over the rows, gain and bias per column, then the cut-off at zero: the reference's operations
    in their order. -/
def bnReluT (f : BnF n b) (z : FVec Ideal ⟨2, ![n, b]⟩ .f32) (g bias : FVec Ideal ⟨1, ![b]⟩ .f32) : FVec Ideal ⟨2, ![n, b]⟩ .f32 :=
  let v24 : FVec Ideal ⟨2, ![n, b]⟩ .f32 := subf z (broadcastInDim ⟨2, ![n, b]⟩ ![0, 1] f.onb (broadcastInDim ⟨2, ![1, b]⟩ ![1] f.b1b (meanT f z)))
  let v27 : FVec Ideal ⟨2, ![n, b]⟩ .f32 := mulf (broadcastInDim ⟨2, ![n, b]⟩ ![0, 1] f.onb (broadcastInDim ⟨2, ![1, b]⟩ ![1] f.b1b g)) v24
  let v30 : FVec Ideal ⟨1, ![b]⟩ .f32 := Host.rsqrt (addf (varT f z) (broadcastInDim ⟨1, ![b]⟩ ![] f.sb (constant (F := Ideal) S0 .f32 0x3727C5AC#32)))
  let v33 : FVec Ideal ⟨2, ![n, b]⟩ .f32 := mulf v27 (broadcastInDim ⟨2, ![n, b]⟩ ![0, 1] f.onb (broadcastInDim ⟨2, ![1, b]⟩ ![1] f.b1b v30))
  let v36 : FVec Ideal ⟨2, ![n, b]⟩ .f32 := addf v33 (broadcastInDim ⟨2, ![n, b]⟩ ![0, 1] f.onb (broadcastInDim ⟨2, ![1, b]⟩ ![1] f.b1b bias))
  maximumf v36 (broadcastInDim ⟨2, ![n, b]⟩ ![] f.snb (constant (F := Ideal) S0 .f32 0x00000000#32))

theorem bnReluT_eq (f : BnF n b) (z : FVec Ideal ⟨2, ![n, b]⟩ .f32) (g bias : FVec Ideal ⟨1, ![b]⟩ .f32) :
    bnReluT f z g bias = bnRelu z (mean z) (varR z) (fun j => g (ix1 j)) (fun j => bias (ix1 j)) := by
  funext i
  obtain ⟨r, c, rfl⟩ : ∃ (r : Fin n) (c : Fin b), i = ix2 r c := ⟨i 0, i 1, eq_ix2 i⟩
  unfold bnReluT bnRelu
  simp only [ofFn2_ix2]
  rw [maximumf_apply, addf_apply, mulf_apply, mulf_apply, subf_apply, rowBcast_apply f, rowBcast_apply f, rowBcast_apply f,
    rowBcast_apply f, broadcastInDim_scalar_apply, constant_apply, meanT_apply]
  show max (_ * _ * Ideal.rsqrt ((addf (varT f z) _ : FVec Ideal ⟨1, ![b]⟩ .f32) (ix1 c)) + _) _ = _
  rw [addf_apply, varT_apply, broadcastInDim_scalar_apply, constant_apply]
  rfl

/-- The plain matrix product of the host is the entrywise sum of products. -/
theorem dot_eq {m k h : ℕ} (x : FVec Ideal ⟨2, ![m, k]⟩ .f32) (w : FVec Ideal ⟨2, ![k, h]⟩ .f32) :
    Host.dotGeneral (DotDims.plain m k h) none x w = mm x w := by
  funext i
  obtain ⟨r, c, rfl⟩ : ∃ (r : Fin m) (c : Fin h), i = ix2 r c := ⟨i 0, i 1, eq_ix2 i⟩
  rw [StackMember.dotGeneral_plain_apply]
  rfl

end Layer

/-- The shape facts one layer `k → h → o` over `n` rows cites. -/
structure LayF (n h o : ℕ) : Prop where
  bh : BnF n h
  bo : BnF n o

/-- One layer from `x = xn + agg`: product, normalisation and cut-off, twice. -/
def layerT {n k h o : ℕ} (f : LayF n h o) (x : FVec Ideal ⟨2, ![n, k]⟩ .f32) (w1 : FVec Ideal ⟨2, ![k, h]⟩ .f32)
    (w2 : FVec Ideal ⟨2, ![h, o]⟩ .f32) (bg bb : FVec Ideal ⟨1, ![h]⟩ .f32) (ng nb : FVec Ideal ⟨1, ![o]⟩ .f32) :
    FVec Ideal ⟨2, ![n, o]⟩ .f32 :=
  bnReluT f.bo (Host.dotGeneral (DotDims.plain n h o) none
    (bnReluT f.bh (Host.dotGeneral (DotDims.plain n k h) none x w1) bg bb) w2) ng nb

theorem layerT_eq {n k h o : ℕ} (f : LayF n h o) (x : FVec Ideal ⟨2, ![n, k]⟩ .f32) (w1 : FVec Ideal ⟨2, ![k, h]⟩ .f32)
    (w2 : FVec Ideal ⟨2, ![h, o]⟩ .f32) (bg bb : FVec Ideal ⟨1, ![h]⟩ .f32) (ng nb : FVec Ideal ⟨1, ![o]⟩ .f32) :
    layerT f x w1 w2 bg bb ng nb
      = layerR x w1 w2 (fun j => bg (ix1 j)) (fun j => bb (ix1 j)) (fun j => ng (ix1 j)) (fun j => nb (ix1 j)) := by
  unfold layerT layerR
  rw [dot_eq, bnReluT_eq, dot_eq, bnReluT_eq]

/-- The entrywise sum of the host is the sum of matrices. -/
theorem addf_eq_add2 {a c : ℕ} (x y : FVec Ideal ⟨2, ![a, c]⟩ .f32) : addf x y = add2 x y := by
  funext i
  obtain ⟨r, s, rfl⟩ : ∃ (r : Fin a) (s : Fin c), i = ix2 r s := ⟨i 0, i 1, eq_ix2 i⟩
  rfl

end Cert.ReferenceIdeal.HandValue

end
-- ==== Proof.Ref.Glue.lean ====
/-
  The host functions the reference shares with the kernel's program, as the literal compositions of the reference's
  printed operations at the ideal values: masking the rows of a node mask by zero, the edge aggregation
  `segment_sum(xn[src], dst)` with negative source indices wrapped, and the loss tail (the masked mean of one minus the
  cosine between reconstruction and input for each pass, plus a tenth of the mean of one minus the cosine between the two
  reconstructions).
-/
import proofs.«427833_j20194936226511_1_alg».proof.Proof.Gen.ReferenceIdeal
import proofs.«427833_j20194936226511_1_alg».proof.Proof.Math.Skeleton
import Idealize.ShloMosaic.Lib.ValueIdx

noncomputable section

namespace Cert.ReferenceIdeal.HandValue

open Cert.ReferenceIdeal Cert.ReferenceIdeal.Gen
open Idealize.ShloMosaic Idealize.ShloMosaic.ValueIdx

/-- The zero word as a scalar. -/
abbrev c0 : FVec Ideal S_ .f32 := constant (F := Ideal) S_ .f32 0x00000000#32

/-- Rows of a masked node are replaced by zero: the mask is broadcast along the feature axis and selects the zero
    matrix where it is set. Width 128. -/
def whereR128 (mask : IVec S50000 1) (x : FVec Ideal S50000x128 .f32) : FVec Ideal S50000x128 .f32 :=
  select (broadcastInDim S50000x128 ![0, 1] bcast_S50000x1_S50000x128_0_1 (broadcastInDim S50000x1 ![0] bcast_S50000_S50000x1_0 mask))
    (broadcastInDim S50000x128 ![] bcast_S_S50000x128 (id c0)) x

/-- The same at width 256. -/
def whereR256 (mask : IVec S50000 1) (x : FVec Ideal S50000x256 .f32) : FVec Ideal S50000x256 .f32 :=
  select (broadcastInDim S50000x256 ![0, 1] bcast_S50000x1_S50000x256_0_1 (broadcastInDim S50000x1 ![0] bcast_S50000_S50000x1_0 mask))
    (broadcastInDim S50000x256 ![] bcast_S_S50000x256 (id c0)) x

/-- The source endpoints of the edges: row 0 of the edge list, as a vector. -/
def edgeSrc (ei : IVec S2x320000 32) : IVec S320000 32 :=
  shapeCast S320000 (extractStridedSlice S1x320000 ![0, 0] ei slices_S2x320000_S1x320000_0_0) shapeCasts_S1x320000_S320000
/-- The target endpoints: row 1. -/
def edgeDst (ei : IVec S2x320000 32) : IVec S320000 32 :=
  shapeCast S320000 (extractStridedSlice S1x320000 ![1, 0] ei slices_S2x320000_S1x320000_1_0) shapeCasts_S1x320000_S320000
/-- A negative source index counts from the end: 50000 is added to it. -/
def edgeSrcWrapped (ei : IVec S2x320000 32) : IVec S320000x1 32 :=
  broadcastInDim S320000x1 ![0] bcast_S320000_S320000x1_0
    (select (cmpi .slt (edgeSrc ei) (broadcastInDim S320000 ![] bcast_S_S320000 (constantI S_ 32 0#32)))
      (addi (edgeSrc ei) (broadcastInDim S320000 ![] bcast_S_S320000 (constantI S_ 32 50000#32))) (edgeSrc ei))

/-- Edge aggregation at width 128: the rows of the sources are gathered and added into the rows of the targets,
    starting from zero. -/
def aggR128 (xn : FVec Ideal S50000x128 .f32) (ei : IVec S2x320000 32) : FVec Ideal S50000x128 .f32 :=
  Host.scatterAdd scatter_S50000x128_S320000x1_S320000x128_1_0_0_1
    (broadcastInDim S50000x128 ![] bcast_S_S50000x128 c0)
    (broadcastInDim S320000x1 ![0] bcast_S320000_S320000x1_0 (edgeDst ei))
    (Host.gather gather_S50000x128_S320000x1_S320000x128_1_0_n_n_0_1_1128 xn (edgeSrcWrapped ei))

/-- The same at width 256. -/
def aggR256 (xn : FVec Ideal S50000x256 .f32) (ei : IVec S2x320000 32) : FVec Ideal S50000x256 .f32 :=
  Host.scatterAdd scatter_S50000x256_S320000x1_S320000x256_1_0_0_1
    (broadcastInDim S50000x256 ![] bcast_S_S50000x256 c0)
    (broadcastInDim S320000x1 ![0] bcast_S320000_S320000x1_0 (edgeDst ei))
    (Host.gather gather_S50000x256_S320000x1_S320000x256_1_0_n_n_0_1_1256 xn (edgeSrcWrapped ei))

/-- The Euclidean norm of every row, as a column. -/
def rowNorm (y : FVec Ideal S50000x128 .f32) : FVec Ideal S50000x1 .f32 :=
  Host.sqrt (broadcastInDim S50000x1 ![0] bcast_S50000_S50000x1_0
    (Host.reduceAdd (mulf y y) c0 reducesTo_S50000x128_S50000_d1 h_S_))
/-- Every row divided by its norm, the norm kept above a small positive constant. -/
def rowUnit (y : FVec Ideal S50000x128 .f32) : FVec Ideal S50000x128 .f32 :=
  Host.divf y (broadcastInDim S50000x128 ![0, 1] bcast_S50000x1_S50000x128_0_1
    (maximumf (rowNorm y) (broadcastInDim S50000x1 ![] bcast_S_S50000x1 (constant (F := Ideal) S_ .f32 0x2B8CBCCC#32))))
/-- One minus the cosine of corresponding rows. -/
def oneMinusCos (a b : FVec Ideal S50000x128 .f32) : FVec Ideal S50000 .f32 :=
  subf (broadcastInDim S50000 ![] bcast_S_S50000 (constant (F := Ideal) S_ .f32 0x3F800000#32))
    (Host.reduceAdd (mulf (rowUnit a) (rowUnit b)) c0 reducesTo_S50000x128_S50000_d1 h_S_)
/-- The mask as weights. -/
def maskW (mask : IVec S50000 1) : FVec Ideal S50000 .f32 := uitofp .f32 mask
/-- The masked mean of one minus the cosine. -/
def maskedLoss (a b : FVec Ideal S50000x128 .f32) (mask : IVec S50000 1) : FVec Ideal S_ .f32 :=
  Host.divf (Host.reduceAdd (mulf (maskW mask) (oneMinusCos a b)) c0 reducesTo_S50000_S_d0 h_S_)
    (Host.reduceAdd (maskW mask) c0 reducesTo_S50000_S_d0 h_S_)
/-- The mean over all rows of one minus the cosine. -/
def meanLoss (a b : FVec Ideal S50000x128 .f32) : FVec Ideal S_ .f32 :=
  Host.divf (Host.reduceAdd (oneMinusCos a b) c0 reducesTo_S50000_S_d0 h_S_) (constant (F := Ideal) S_ .f32 0x47435000#32)
/-- The loss: the two masked reconstruction losses and a tenth of the mean distance between the reconstructions. -/
def tailR (r1 r2 x : FVec Ideal S50000x128 .f32) (m1 m2 : IVec S50000 1) : FVec Ideal S_ .f32 :=
  addf (addf (maskedLoss r1 x m1) (maskedLoss r2 x m2))
    (mulf (constant (F := Ideal) S_ .f32 0x3DCCCCCD#32) (meanLoss r2 r1))

/-- The program's host functions in the shared shape. -/
def glue : Cert.Spec.Glue where
  where128 := whereR128
  where256 := whereR256
  agg128 := aggR128
  agg256 := aggR256
  tail := tailR

end Cert.ReferenceIdeal.HandValue

end
-- ==== Proof.Ref.ValueA.lean ====
/-
  The first pass of the reference, stretch by stretch.

  The run's fold of operations is cut at the layer boundaries. This module holds the stretches of the first pass (masking
  of the input, the two encoder layers, the second masking, the decoder layer, the pass's masked loss): the references each
  writes, and its result buffer read back as the stretch's function of the buffers it was entered with. A layer's stretch
  composes to `layerT`, the literal composition of one layer's operations, of `xn + agg xn`.
-/
import proofs.«427833_j20194936226511_1_alg».proof.Proof.Ref.RunLemmas
import proofs.«427833_j20194936226511_1_alg».proof.Proof.Ref.LayerMath
import proofs.«427833_j20194936226511_1_alg».proof.Proof.Ref.Glue
import Idealize.ShloMosaic.Lib.StableHlo.Run
import Idealize.ShloMosaic.Lib.Pipeline.Frame
import Mathlib.Data.List.Forall2

set_option maxRecDepth 8192
set_option maxHeartbeats 4000000
set_option Elab.async false

noncomputable section

namespace Cert.ReferenceIdeal.HandValue

open Cert.ReferenceIdeal Cert.ReferenceIdeal.Gen Cert.ReferenceIdeal.HandRun
open Idealize.ShloMosaic Idealize.ShloMosaic.TcCoe Idealize.ShloMosaic.ValueIdx Idealize.SL.Sem Idealize.ShloMosaic.StableHlo

/-- Contents of every buffer at the ideal values, and a line of operations over them. -/
abbrev VI : Type := Valuation τ sig (Elt Ideal)
abbrev OpsI : Type := List (HloOp τ sig (Elt Ideal))

/-! ## The shape facts of the three widths -/

theorem bnF512 : BnF 50000 512 :=
  ⟨reducesTo_S50000x512_S512_d0, by decide, h_S_, bcast_S_S512, bcast_S512_S1x512_1, bcast_S_S1x512,
    bcast_S1x512_S50000x512_0_1, bcast_S_S50000x512⟩
theorem bnF256 : BnF 50000 256 :=
  ⟨reducesTo_S50000x256_S256_d0, by decide, h_S_, bcast_S_S256, bcast_S256_S1x256_1, bcast_S_S1x256,
    bcast_S1x256_S50000x256_0_1, bcast_S_S50000x256⟩
theorem bnF128 : BnF 50000 128 :=
  ⟨reducesTo_S50000x128_S128_d0, by decide, h_S_, bcast_S_S128, bcast_S128_S1x128_1, bcast_S_S1x128,
    bcast_S1x128_S50000x128_0_1, bcast_S_S50000x128⟩
theorem lay256 : LayF 50000 512 256 := ⟨bnF512, bnF256⟩
theorem lay128 : LayF 50000 512 128 := ⟨bnF512, bnF128⟩

/-! ## The stretches of the first pass -/

/-- A stretch of the fold between two layer boundaries, and the references it writes. -/
def segW1 : OpsI := (opsPart0 (F := Ideal)).take 6
def wW1 : List (Ref sig .tc) := WPart0.take 6
theorem segW1_writes : List.Forall₂ WritesRef segW1 wW1 := List.forall₂_take 6 opsPart0_writes
theorem segW1_vals : ∀ r ∈ wW1, 24 ≤ r.idx.val := by decide +kernel
/-- A stretch of the fold between two layer boundaries, and the references it writes. -/
def segE0a : OpsI := (opsPart0 (F := Ideal)).drop 6 ++ (opsPart1 (F := Ideal)).take 13
def wE0a : List (Ref sig .tc) := WPart0.drop 6 ++ WPart1.take 13
theorem segE0a_writes : List.Forall₂ WritesRef segE0a wE0a := forall₂_append (List.forall₂_drop 6 opsPart0_writes) (List.forall₂_take 13 opsPart1_writes)
theorem segE0a_vals : ∀ r ∈ wE0a, 24 ≤ r.idx.val := by decide +kernel
/-- A stretch of the fold between two layer boundaries, and the references it writes. -/
def segE1a : OpsI := (opsPart1 (F := Ideal)).drop 13 ++ (opsPart2 (F := Ideal)).take 46
def wE1a : List (Ref sig .tc) := WPart1.drop 13 ++ WPart2.take 46
theorem segE1a_writes : List.Forall₂ WritesRef segE1a wE1a := forall₂_append (List.forall₂_drop 13 opsPart1_writes) (List.forall₂_take 46 opsPart2_writes)
theorem segE1a_vals : ∀ r ∈ wE1a, 24 ≤ r.idx.val := by decide +kernel
/-- A stretch of the fold between two layer boundaries, and the references it writes. -/
def segW2a : OpsI := ((opsPart2 (F := Ideal)).drop 46).take 10
def wW2a : List (Ref sig .tc) := (WPart2.drop 46).take 10
theorem segW2a_writes : List.Forall₂ WritesRef segW2a wW2a := List.forall₂_take 10 (List.forall₂_drop 46 opsPart2_writes)
theorem segW2a_vals : ∀ r ∈ wW2a, 24 ≤ r.idx.val := by decide +kernel
/-- A stretch of the fold between two layer boundaries, and the references it writes. -/
def segDa : OpsI := ((opsPart2 (F := Ideal)).drop 46).drop 10 ++ (opsPart3 (F := Ideal)).take 63
def wDa : List (Ref sig .tc) := (WPart2.drop 46).drop 10 ++ WPart3.take 63
theorem segDa_writes : List.Forall₂ WritesRef segDa wDa := forall₂_append (List.forall₂_drop 10 (List.forall₂_drop 46 opsPart2_writes)) (List.forall₂_take 63 opsPart3_writes)
theorem segDa_vals : ∀ r ∈ wDa, 24 ≤ r.idx.val := by decide +kernel
/-- A stretch of the fold between two layer boundaries, and the references it writes. -/
def segL1 : OpsI := (opsPart3 (F := Ideal)).drop 63 ++ (opsPart4 (F := Ideal)).take 7
def wL1 : List (Ref sig .tc) := WPart3.drop 63 ++ WPart4.take 7
theorem segL1_writes : List.Forall₂ WritesRef segL1 wL1 := forall₂_append (List.forall₂_drop 63 opsPart3_writes) (List.forall₂_take 7 opsPart4_writes)
theorem segL1_vals : ∀ r ∈ wL1, 24 ≤ r.idx.val := by decide +kernel

/-! ## Each stretch read back -/

theorem segW1_v1 (X : VI) :
    after segW1 X (Proc.devRef .tc main_v1) = whereR128 (X (Proc.devRef .tc main_arg3)) (X (Proc.devRef .tc main_arg0)) := by
  unfold segW1
  simp only [opsPart0, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segW1_v0 (X : VI) :
    after segW1 X (Proc.devRef .tc main_v0) = broadcastInDim S50000x1 ![0] bcast_S50000_S50000x1_0 (X (Proc.devRef .tc main_arg3)) := by
  unfold segW1
  simp only [opsPart0, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segE0a_out (X : VI) :
    after segE0a X (Proc.devRef .tc main_v58)
      = layerT lay256 (k := 128) (addf (X (Proc.devRef .tc main_v1)) (aggR128 (X (Proc.devRef .tc main_v1)) (X (Proc.devRef .tc main_arg1))))
        (X (Proc.devRef .tc main_arg6)) (X (Proc.devRef .tc main_arg7)) (X (Proc.devRef .tc main_arg8)) (X (Proc.devRef .tc main_arg9)) (X (Proc.devRef .tc main_arg10)) (X (Proc.devRef .tc main_arg11)) := by
  unfold segE0a
  simp only [opsPart0, opsPart1, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segE1a_out (X : VI) :
    after segE1a X (Proc.devRef .tc main_v118)
      = layerT lay256 (k := 256) (addf (X (Proc.devRef .tc main_v58)) (aggR256 (X (Proc.devRef .tc main_v58)) (X (Proc.devRef .tc main_arg1))))
        (X (Proc.devRef .tc main_arg12)) (X (Proc.devRef .tc main_arg13)) (X (Proc.devRef .tc main_arg14)) (X (Proc.devRef .tc main_arg15)) (X (Proc.devRef .tc main_arg16)) (X (Proc.devRef .tc main_arg17)) := by
  unfold segE1a
  simp only [opsPart1, opsPart2, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segW2a_out (X : VI) :
    after segW2a X (Proc.devRef .tc main_v123)
      = select (broadcastInDim S50000x256 ![0, 1] bcast_S50000x1_S50000x256_0_1 (X (Proc.devRef .tc main_v0)))
        (broadcastInDim S50000x256 ![] bcast_S_S50000x256 (id c0)) (X (Proc.devRef .tc main_v118)) := by
  unfold segW2a
  simp only [opsPart2, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segDa_out (X : VI) :
    after segDa X (Proc.devRef .tc main_v180)
      = layerT lay128 (k := 256) (addf (X (Proc.devRef .tc main_v123)) (aggR256 (X (Proc.devRef .tc main_v123)) (X (Proc.devRef .tc main_arg1))))
        (X (Proc.devRef .tc main_arg18)) (X (Proc.devRef .tc main_arg19)) (X (Proc.devRef .tc main_arg20)) (X (Proc.devRef .tc main_arg21)) (X (Proc.devRef .tc main_arg22)) (X (Proc.devRef .tc main_arg23)) := by
  unfold segDa
  simp only [opsPart2, opsPart3, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segL1_out (X : VI) :
    after segL1 X (Proc.devRef .tc main_v202) = maskedLoss (X (Proc.devRef .tc main_v180)) (X (Proc.devRef .tc main_arg0)) (X (Proc.devRef .tc main_arg3)) := by
  unfold segL1
  simp only [opsPart3, opsPart4, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

end Cert.ReferenceIdeal.HandValue

end
-- ==== Proof.Ref.ValueB.lean ====
/-
  The second pass of the reference and the loss tail, stretch by stretch.

  The run's fold of operations is cut at the layer boundaries. This module holds the stretches of the second pass (masking
  of the input, the two encoder layers, the second masking, the decoder layer) and the last stretch (the second pass's
  masked loss, the mean distance between the two reconstructions, and the sum): the references each writes, and its
  result buffer read back as the stretch's function of the buffers it was entered with.
-/
import proofs.«427833_j20194936226511_1_alg».proof.Proof.Ref.RunLemmas
import proofs.«427833_j20194936226511_1_alg».proof.Proof.Ref.LayerMath
import proofs.«427833_j20194936226511_1_alg».proof.Proof.Ref.Glue
import proofs.«427833_j20194936226511_1_alg».proof.Proof.Ref.ValueA
import Idealize.ShloMosaic.Lib.StableHlo.Run
import Idealize.ShloMosaic.Lib.Pipeline.Frame
import Mathlib.Data.List.Forall2

set_option Elab.async false
set_option maxRecDepth 8192
set_option maxHeartbeats 4000000

noncomputable section

namespace Cert.ReferenceIdeal.HandValue

open Cert.ReferenceIdeal Cert.ReferenceIdeal.Gen Cert.ReferenceIdeal.HandRun
open Idealize.ShloMosaic Idealize.ShloMosaic.TcCoe Idealize.ShloMosaic.ValueIdx Idealize.SL.Sem Idealize.ShloMosaic.StableHlo

/-! ## The stretches of the second pass and the tail -/

/-- A stretch of the fold between two layer boundaries, and the references it writes. -/
def segW1b : OpsI := ((opsPart4 (F := Ideal)).drop 7).take 6
def wW1b : List (Ref sig .tc) := (WPart4.drop 7).take 6
theorem segW1b_writes : List.Forall₂ WritesRef segW1b wW1b := List.forall₂_take 6 (List.forall₂_drop 7 opsPart4_writes)
theorem segW1b_vals : ∀ r ∈ wW1b, 24 ≤ r.idx.val := by decide +kernel
/-- A stretch of the fold between two layer boundaries, and the references it writes. -/
def segE0b : OpsI := ((opsPart4 (F := Ideal)).drop 7).drop 6 ++ (opsPart5 (F := Ideal)).take 41
def wE0b : List (Ref sig .tc) := (WPart4.drop 7).drop 6 ++ WPart5.take 41
theorem segE0b_writes : List.Forall₂ WritesRef segE0b wE0b := forall₂_append (List.forall₂_drop 6 (List.forall₂_drop 7 opsPart4_writes)) (List.forall₂_take 41 opsPart5_writes)
theorem segE0b_vals : ∀ r ∈ wE0b, 24 ≤ r.idx.val := by decide +kernel
/-- A stretch of the fold between two layer boundaries, and the references it writes. -/
def segE1b : OpsI := (opsPart5 (F := Ideal)).drop 41 ++ (opsPart6 (F := Ideal)).take 55
def wE1b : List (Ref sig .tc) := WPart5.drop 41 ++ WPart6.take 55
theorem segE1b_writes : List.Forall₂ WritesRef segE1b wE1b := forall₂_append (List.forall₂_drop 41 opsPart5_writes) (List.forall₂_take 55 opsPart6_writes)
theorem segE1b_vals : ∀ r ∈ wE1b, 24 ≤ r.idx.val := by decide +kernel
/-- A stretch of the fold between two layer boundaries, and the references it writes. -/
def segW2b : OpsI := ((opsPart6 (F := Ideal)).drop 55).take 10
def wW2b : List (Ref sig .tc) := (WPart6.drop 55).take 10
theorem segW2b_writes : List.Forall₂ WritesRef segW2b wW2b := List.forall₂_take 10 (List.forall₂_drop 55 opsPart6_writes)
theorem segW2b_vals : ∀ r ∈ wW2b, 24 ≤ r.idx.val := by decide +kernel
/-- A stretch of the fold between two layer boundaries, and the references it writes. -/
def segDb : OpsI := ((opsPart6 (F := Ideal)).drop 55).drop 10 ++ (opsPart7 (F := Ideal)).take 91
def wDb : List (Ref sig .tc) := (WPart6.drop 55).drop 10 ++ WPart7.take 91
theorem segDb_writes : List.Forall₂ WritesRef segDb wDb := forall₂_append (List.forall₂_drop 10 (List.forall₂_drop 55 opsPart6_writes)) (List.forall₂_take 91 opsPart7_writes)
theorem segDb_vals : ∀ r ∈ wDb, 24 ≤ r.idx.val := by decide +kernel
/-- A stretch of the fold between two layer boundaries, and the references it writes. -/
def segT : OpsI := (opsPart7 (F := Ideal)).drop 91 ++ (opsPart8 (F := Ideal))
def wT : List (Ref sig .tc) := WPart7.drop 91 ++ WPart8
theorem segT_writes : List.Forall₂ WritesRef segT wT := forall₂_append (List.forall₂_drop 91 opsPart7_writes) opsPart8_writes
theorem segT_vals : ∀ r ∈ wT, 24 ≤ r.idx.val := by decide +kernel

/-! ## Each stretch read back -/

theorem segW1b_v204 (X : VI) :
    after segW1b X (Proc.devRef .tc main_v204) = whereR128 (X (Proc.devRef .tc main_arg4)) (X (Proc.devRef .tc main_arg0)) := by
  unfold segW1b
  simp only [opsPart4, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segW1b_v203 (X : VI) :
    after segW1b X (Proc.devRef .tc main_v203) = broadcastInDim S50000x1 ![0] bcast_S50000_S50000x1_0 (X (Proc.devRef .tc main_arg4)) := by
  unfold segW1b
  simp only [opsPart4, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segE0b_out (X : VI) :
    after segE0b X (Proc.devRef .tc main_v261)
      = layerT lay256 (k := 128) (addf (X (Proc.devRef .tc main_v204)) (aggR128 (X (Proc.devRef .tc main_v204)) (X (Proc.devRef .tc main_arg2))))
        (X (Proc.devRef .tc main_arg6)) (X (Proc.devRef .tc main_arg7)) (X (Proc.devRef .tc main_arg8)) (X (Proc.devRef .tc main_arg9)) (X (Proc.devRef .tc main_arg10)) (X (Proc.devRef .tc main_arg11)) := by
  unfold segE0b
  simp only [opsPart4, opsPart5, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segE1b_out (X : VI) :
    after segE1b X (Proc.devRef .tc main_v321)
      = layerT lay256 (k := 256) (addf (X (Proc.devRef .tc main_v261)) (aggR256 (X (Proc.devRef .tc main_v261)) (X (Proc.devRef .tc main_arg2))))
        (X (Proc.devRef .tc main_arg12)) (X (Proc.devRef .tc main_arg13)) (X (Proc.devRef .tc main_arg14)) (X (Proc.devRef .tc main_arg15)) (X (Proc.devRef .tc main_arg16)) (X (Proc.devRef .tc main_arg17)) := by
  unfold segE1b
  simp only [opsPart5, opsPart6, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segW2b_out (X : VI) :
    after segW2b X (Proc.devRef .tc main_v326)
      = select (broadcastInDim S50000x256 ![0, 1] bcast_S50000x1_S50000x256_0_1 (X (Proc.devRef .tc main_v203)))
        (broadcastInDim S50000x256 ![] bcast_S_S50000x256 (id c0)) (X (Proc.devRef .tc main_v321)) := by
  unfold segW2b
  simp only [opsPart6, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segDb_out (X : VI) :
    after segDb X (Proc.devRef .tc main_v383)
      = layerT lay128 (k := 256) (addf (X (Proc.devRef .tc main_v326)) (aggR256 (X (Proc.devRef .tc main_v326)) (X (Proc.devRef .tc main_arg2))))
        (X (Proc.devRef .tc main_arg18)) (X (Proc.devRef .tc main_arg19)) (X (Proc.devRef .tc main_arg20)) (X (Proc.devRef .tc main_arg21)) (X (Proc.devRef .tc main_arg22)) (X (Proc.devRef .tc main_arg23)) := by
  unfold segDb
  simp only [opsPart6, opsPart7, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

theorem segT_out (X : VI) :
    after segT X (Proc.devRef .tc main_v424)
      = addf (addf (X (Proc.devRef .tc main_v202)) (maskedLoss (X (Proc.devRef .tc main_v383)) (X (Proc.devRef .tc main_arg0)) (X (Proc.devRef .tc main_arg4))))
          (mulf (constant (F := Ideal) S_ .f32 0x3DCCCCCD#32) (meanLoss (X (Proc.devRef .tc main_v383)) (X (Proc.devRef .tc main_v180)))) := by
  unfold segT
  simp only [opsPart7, opsPart8, opsWhere, opsWhere0, opsVar, opsRelu, opsWhere2, opsVar1, opsRelu3, opsWhere4, opsWhere6, opsVar5, opsRelu7, opsNorm, opsNorm8, List.cons_append, List.nil_append, List.append_nil, List.append_assoc, List.take_succ_cons, List.take_zero, List.drop_succ_cons, List.drop_zero]
  after_results_simp <;> (try simp only [StableHlo.TRef.ofBuf, StableHlo.TRef.toBuf, cast_eq]) <;> rfl

end Cert.ReferenceIdeal.HandValue

end
-- ==== Proof.Ref.Value.lean ====
/-
  The value of the reference program's result.

  The reference computes, twice (once per edge list and node mask), `layer_d ∘ mask ∘ layer_e1 ∘ layer_e0 ∘ mask` of the
  input, each layer fed `xn + agg xn`, then the loss over the two reconstructions. The run's fold of operations is cut at
  the layer boundaries into twelve stretches, each read back in the two modules imported here. Every operation writes
  exactly its own result buffer, so a buffer a stretch does not write is kept through it; the arguments are written by no
  operation at all. A layer's composition of operations is `Spec.layerR` of `xn + agg` by the layer mathematics.
  Composing the stretches, the result buffer holds `Spec.loss` over `Spec.layerR` and the reference's host functions
  `glue`, at the arguments.
-/
import proofs.«427833_j20194936226511_1_alg».proof.Proof.Ref.RunLemmas
import proofs.«427833_j20194936226511_1_alg».proof.Proof.Ref.LayerMath
import proofs.«427833_j20194936226511_1_alg».proof.Proof.Ref.Glue
import proofs.«427833_j20194936226511_1_alg».proof.Proof.Ref.ValueA
import proofs.«427833_j20194936226511_1_alg».proof.Proof.Ref.ValueB
import proofs.«427833_j20194936226511_1_alg».proof.Proof.Math.Skeleton
import Idealize.ShloMosaic.Lib.StableHlo.Run
import Idealize.ShloMosaic.Lib.Pipeline.Frame
import Mathlib.Data.List.Forall2

set_option maxRecDepth 8192
set_option maxHeartbeats 4000000
set_option Elab.async false

noncomputable section

namespace Cert.ReferenceIdeal.HandValue

open Cert.ReferenceIdeal Cert.ReferenceIdeal.Gen Cert.ReferenceIdeal.HandRun
open Idealize.ShloMosaic Idealize.ShloMosaic.TcCoe Idealize.ShloMosaic.ValueIdx Idealize.SL.Sem Idealize.ShloMosaic.StableHlo

/-- A list's head stretch followed by its rest and more is the list followed by the more. -/
theorem take_append_drop_append {α : Type} (n : ℕ) (l r : List α) : l.take n ++ (l.drop n ++ r) = l ++ r := by
  rw [← List.append_assoc, List.take_append_drop]

/-- The whole line is its twelve stretches in order. -/
theorem ops_split : ops (F := Ideal) = segW1 ++ (segE0a ++ (segE1a ++ (segW2a ++ (segDa ++ (segL1 ++ (segW1b ++ (segE0b ++ (segE1b ++ (segW2b ++ (segDb ++ (segT))))))))))) := by
  simp only [ops, segW1, segE0a, segE1a, segW2a, segDa, segL1, segW1b, segE0b, segE1b, segW2b, segDb, segT, List.append_assoc, take_append_drop_append, List.take_append_drop]

/-! ## The fold, stretch by stretch -/

/-- The contents after each stretch, from launch contents `V`. -/
def V1 (V : VI) : VI := after segW1 V
def V2 (V : VI) : VI := after segE0a (V1 V)
def V3 (V : VI) : VI := after segE1a (V2 V)
def V4 (V : VI) : VI := after segW2a (V3 V)
def V5 (V : VI) : VI := after segDa (V4 V)
def V6 (V : VI) : VI := after segL1 (V5 V)
def V7 (V : VI) : VI := after segW1b (V6 V)
def V8 (V : VI) : VI := after segE0b (V7 V)
def V9 (V : VI) : VI := after segE1b (V8 V)
def V10 (V : VI) : VI := after segW2b (V9 V)
def V11 (V : VI) : VI := after segDb (V10 V)
def V12 (V : VI) : VI := after segT (V11 V)

theorem ops_after (V : VI) : after (ops (F := Ideal)) V = V12 V := by
  rw [ops_split]
  simp only [StableHlo.after_append]
  rfl

/-- Through a stretch that writes only value buffers, an argument keeps its contents. -/
theorem keepArg {l : OpsI} {w : List (Ref sig .tc)} (hw : List.Forall₂ WritesRef l w) (hv : ∀ r ∈ w, 24 ≤ r.idx.val)
    (r : Ref sig .tc) (hr : r.idx.val < 24) (X : VI) : after l X (Proc.devRef .tc r) = X (Proc.devRef .tc r) :=
  after_of_writesRef hw (fun h => absurd (hv r h) (by omega)) X

theorem V1_arg (V : VI) (r : Ref sig .tc) (hr : r.idx.val < 24) : V1 V (Proc.devRef .tc r) = V (Proc.devRef .tc r) :=
  keepArg segW1_writes segW1_vals r hr V
theorem V2_arg (V : VI) (r : Ref sig .tc) (hr : r.idx.val < 24) : V2 V (Proc.devRef .tc r) = V (Proc.devRef .tc r) :=
  (keepArg segE0a_writes segE0a_vals r hr (V1 V)).trans (V1_arg V r hr)
theorem V3_arg (V : VI) (r : Ref sig .tc) (hr : r.idx.val < 24) : V3 V (Proc.devRef .tc r) = V (Proc.devRef .tc r) :=
  (keepArg segE1a_writes segE1a_vals r hr (V2 V)).trans (V2_arg V r hr)
theorem V4_arg (V : VI) (r : Ref sig .tc) (hr : r.idx.val < 24) : V4 V (Proc.devRef .tc r) = V (Proc.devRef .tc r) :=
  (keepArg segW2a_writes segW2a_vals r hr (V3 V)).trans (V3_arg V r hr)
theorem V5_arg (V : VI) (r : Ref sig .tc) (hr : r.idx.val < 24) : V5 V (Proc.devRef .tc r) = V (Proc.devRef .tc r) :=
  (keepArg segDa_writes segDa_vals r hr (V4 V)).trans (V4_arg V r hr)
theorem V6_arg (V : VI) (r : Ref sig .tc) (hr : r.idx.val < 24) : V6 V (Proc.devRef .tc r) = V (Proc.devRef .tc r) :=
  (keepArg segL1_writes segL1_vals r hr (V5 V)).trans (V5_arg V r hr)
theorem V7_arg (V : VI) (r : Ref sig .tc) (hr : r.idx.val < 24) : V7 V (Proc.devRef .tc r) = V (Proc.devRef .tc r) :=
  (keepArg segW1b_writes segW1b_vals r hr (V6 V)).trans (V6_arg V r hr)
theorem V8_arg (V : VI) (r : Ref sig .tc) (hr : r.idx.val < 24) : V8 V (Proc.devRef .tc r) = V (Proc.devRef .tc r) :=
  (keepArg segE0b_writes segE0b_vals r hr (V7 V)).trans (V7_arg V r hr)
theorem V9_arg (V : VI) (r : Ref sig .tc) (hr : r.idx.val < 24) : V9 V (Proc.devRef .tc r) = V (Proc.devRef .tc r) :=
  (keepArg segE1b_writes segE1b_vals r hr (V8 V)).trans (V8_arg V r hr)
theorem V10_arg (V : VI) (r : Ref sig .tc) (hr : r.idx.val < 24) : V10 V (Proc.devRef .tc r) = V (Proc.devRef .tc r) :=
  (keepArg segW2b_writes segW2b_vals r hr (V9 V)).trans (V9_arg V r hr)
theorem V11_arg (V : VI) (r : Ref sig .tc) (hr : r.idx.val < 24) : V11 V (Proc.devRef .tc r) = V (Proc.devRef .tc r) :=
  (keepArg segDb_writes segDb_vals r hr (V10 V)).trans (V10_arg V r hr)

/-- The layer of the reference at 50000 rows. -/
abbrev LR : Cert.Spec.LayerFn := fun {k h o} => @Cert.Spec.layerR 50000 k h o

/-- The three layers' parameters, read from the arguments: the matrices as they are, the vectors entry by entry. -/
def e0W (V : VI) : Cert.Spec.LayerW 128 512 256 :=
  ⟨(V (Proc.devRef .tc main_arg6)), (V (Proc.devRef .tc main_arg7)), (fun j => (V (Proc.devRef .tc main_arg8)) (ix1 j)), (fun j => (V (Proc.devRef .tc main_arg9)) (ix1 j)), (fun j => (V (Proc.devRef .tc main_arg10)) (ix1 j)), (fun j => (V (Proc.devRef .tc main_arg11)) (ix1 j))⟩
def e1W (V : VI) : Cert.Spec.LayerW 256 512 256 :=
  ⟨(V (Proc.devRef .tc main_arg12)), (V (Proc.devRef .tc main_arg13)), (fun j => (V (Proc.devRef .tc main_arg14)) (ix1 j)), (fun j => (V (Proc.devRef .tc main_arg15)) (ix1 j)), (fun j => (V (Proc.devRef .tc main_arg16)) (ix1 j)), (fun j => (V (Proc.devRef .tc main_arg17)) (ix1 j))⟩
def dW (V : VI) : Cert.Spec.LayerW 256 512 128 :=
  ⟨(V (Proc.devRef .tc main_arg18)), (V (Proc.devRef .tc main_arg19)), (fun j => (V (Proc.devRef .tc main_arg20)) (ix1 j)), (fun j => (V (Proc.devRef .tc main_arg21)) (ix1 j)), (fun j => (V (Proc.devRef .tc main_arg22)) (ix1 j)), (fun j => (V (Proc.devRef .tc main_arg23)) (ix1 j))⟩

/-- The stages of one pass: masked input, first and second encoder layer, masked again, decoder layer. -/
def st1 (x : Cert.Spec.Mx 50000 128) (m : Cert.Spec.Mask) : Cert.Spec.Mx 50000 128 := glue.where128 m x
def st2 (e0 : Cert.Spec.LayerW 128 512 256) (x : Cert.Spec.Mx 50000 128) (ei : Cert.Spec.Edges) (m : Cert.Spec.Mask) : Cert.Spec.Mx 50000 256 :=
  Cert.Spec.layerR (Cert.Spec.add2 (st1 x m) (glue.agg128 (st1 x m) ei)) e0.w1 e0.w2 e0.bg e0.bb e0.ng e0.nb
def st3 (e0 : Cert.Spec.LayerW 128 512 256) (e1 : Cert.Spec.LayerW 256 512 256) (x : Cert.Spec.Mx 50000 128) (ei : Cert.Spec.Edges)
    (m : Cert.Spec.Mask) : Cert.Spec.Mx 50000 256 :=
  Cert.Spec.layerR (Cert.Spec.add2 (st2 e0 x ei m) (glue.agg256 (st2 e0 x ei m) ei)) e1.w1 e1.w2 e1.bg e1.bb e1.ng e1.nb
def st4 (e0 : Cert.Spec.LayerW 128 512 256) (e1 : Cert.Spec.LayerW 256 512 256) (x : Cert.Spec.Mx 50000 128) (ei : Cert.Spec.Edges)
    (m : Cert.Spec.Mask) : Cert.Spec.Mx 50000 256 := glue.where256 m (st3 e0 e1 x ei m)
def st5 (e0 : Cert.Spec.LayerW 128 512 256) (e1 : Cert.Spec.LayerW 256 512 256) (d : Cert.Spec.LayerW 256 512 128)
    (x : Cert.Spec.Mx 50000 128) (ei : Cert.Spec.Edges) (m : Cert.Spec.Mask) : Cert.Spec.Mx 50000 128 :=
  Cert.Spec.layerR (Cert.Spec.add2 (st4 e0 e1 x ei m) (glue.agg256 (st4 e0 e1 x ei m) ei)) d.w1 d.w2 d.bg d.bb d.ng d.nb

theorem st5_eq (e0 : Cert.Spec.LayerW 128 512 256) (e1 : Cert.Spec.LayerW 256 512 256) (d : Cert.Spec.LayerW 256 512 128)
    (x : Cert.Spec.Mx 50000 128) (ei : Cert.Spec.Edges) (m : Cert.Spec.Mask) :
    st5 e0 e1 d x ei m = Cert.Spec.pass LR glue e0 e1 d x ei m := rfl

/-! ### The first pass -/
theorem V1_v1 (V : VI) : V1 V (Proc.devRef .tc main_v1) = st1 (V (Proc.devRef .tc main_arg0)) (V (Proc.devRef .tc main_arg3)) := by
  show after segW1 V (Proc.devRef .tc main_v1) = _
  rw [segW1_v1]
  rfl
theorem V1_v0 (V : VI) : V1 V (Proc.devRef .tc main_v0) = broadcastInDim S50000x1 ![0] bcast_S50000_S50000x1_0 (V (Proc.devRef .tc main_arg3)) := by
  show after segW1 V (Proc.devRef .tc main_v0) = _
  rw [segW1_v0]
theorem V2_v0 (V : VI) : V2 V (Proc.devRef .tc main_v0) = broadcastInDim S50000x1 ![0] bcast_S50000_S50000x1_0 (V (Proc.devRef .tc main_arg3)) :=
  (after_of_writesRef (r := main_v0) segE0a_writes (by decide +kernel) (V1 V)).trans (V1_v0 V)
theorem V2_v58 (V : VI) : V2 V (Proc.devRef .tc main_v58) = st2 (e0W V) (V (Proc.devRef .tc main_arg0)) (V (Proc.devRef .tc main_arg1)) (V (Proc.devRef .tc main_arg3)) := by
  show after segE0a (V1 V) (Proc.devRef .tc main_v58) = _
  rw [segE0a_out, V1_v1, V1_arg V main_arg1 (by decide), V1_arg V main_arg6 (by decide), V1_arg V main_arg7 (by decide), V1_arg V main_arg8 (by decide), V1_arg V main_arg9 (by decide), V1_arg V main_arg10 (by decide), V1_arg V main_arg11 (by decide), layerT_eq, addf_eq_add2]
  rfl
theorem V3_v0 (V : VI) : V3 V (Proc.devRef .tc main_v0) = broadcastInDim S50000x1 ![0] bcast_S50000_S50000x1_0 (V (Proc.devRef .tc main_arg3)) :=
  (after_of_writesRef (r := main_v0) segE1a_writes (by decide +kernel) (V2 V)).trans (V2_v0 V)
theorem V3_v118 (V : VI) : V3 V (Proc.devRef .tc main_v118) = st3 (e0W V) (e1W V) (V (Proc.devRef .tc main_arg0)) (V (Proc.devRef .tc main_arg1)) (V (Proc.devRef .tc main_arg3)) := by
  show after segE1a (V2 V) (Proc.devRef .tc main_v118) = _
  rw [segE1a_out, V2_v58, V2_arg V main_arg1 (by decide), V2_arg V main_arg12 (by decide), V2_arg V main_arg13 (by decide), V2_arg V main_arg14 (by decide), V2_arg V main_arg15 (by decide), V2_arg V main_arg16 (by decide), V2_arg V main_arg17 (by decide), layerT_eq, addf_eq_add2]
  rfl
theorem V4_v123 (V : VI) : V4 V (Proc.devRef .tc main_v123) = st4 (e0W V) (e1W V) (V (Proc.devRef .tc main_arg0)) (V (Proc.devRef .tc main_arg1)) (V (Proc.devRef .tc main_arg3)) := by
  show after segW2a (V3 V) (Proc.devRef .tc main_v123) = _
  rw [segW2a_out, V3_v0, V3_v118]
  rfl
theorem V5_v180 (V : VI) : V5 V (Proc.devRef .tc main_v180) = st5 (e0W V) (e1W V) (dW V) (V (Proc.devRef .tc main_arg0)) (V (Proc.devRef .tc main_arg1)) (V (Proc.devRef .tc main_arg3)) := by
  show after segDa (V4 V) (Proc.devRef .tc main_v180) = _
  rw [segDa_out, V4_v123, V4_arg V main_arg1 (by decide), V4_arg V main_arg18 (by decide), V4_arg V main_arg19 (by decide), V4_arg V main_arg20 (by decide), V4_arg V main_arg21 (by decide), V4_arg V main_arg22 (by decide), V4_arg V main_arg23 (by decide), layerT_eq, addf_eq_add2]
  rfl

theorem V6_v180 (V : VI) : V6 V (Proc.devRef .tc main_v180) = st5 (e0W V) (e1W V) (dW V) (V (Proc.devRef .tc main_arg0)) (V (Proc.devRef .tc main_arg1)) (V (Proc.devRef .tc main_arg3)) :=
  (after_of_writesRef (r := main_v180) segL1_writes (by decide +kernel) (V5 V)).trans (V5_v180 V)
theorem V6_v202 (V : VI) : V6 V (Proc.devRef .tc main_v202) = maskedLoss (st5 (e0W V) (e1W V) (dW V) (V (Proc.devRef .tc main_arg0)) (V (Proc.devRef .tc main_arg1)) (V (Proc.devRef .tc main_arg3))) (V (Proc.devRef .tc main_arg0)) (V (Proc.devRef .tc main_arg3)) := by
  show after segL1 (V5 V) (Proc.devRef .tc main_v202) = _
  rw [segL1_out, V5_v180, V5_arg V main_arg0 (by decide), V5_arg V main_arg3 (by decide)]

/-! ### The second pass -/
theorem V7_v204 (V : VI) : V7 V (Proc.devRef .tc main_v204) = st1 (V (Proc.devRef .tc main_arg0)) (V (Proc.devRef .tc main_arg4)) := by
  show after segW1b (V6 V) (Proc.devRef .tc main_v204) = _
  rw [segW1b_v204, V6_arg V main_arg4 (by decide), V6_arg V main_arg0 (by decide)]
  rfl
theorem V7_v203 (V : VI) : V7 V (Proc.devRef .tc main_v203) = broadcastInDim S50000x1 ![0] bcast_S50000_S50000x1_0 (V (Proc.devRef .tc main_arg4)) := by
  show after segW1b (V6 V) (Proc.devRef .tc main_v203) = _
  rw [segW1b_v203, V6_arg V main_arg4 (by decide)]
theorem V7_v180 (V : VI) : V7 V (Proc.devRef .tc main_v180) = st5 (e0W V) (e1W V) (dW V) (V (Proc.devRef .tc main_arg0)) (V (Proc.devRef .tc main_arg1)) (V (Proc.devRef .tc main_arg3)) :=
  (after_of_writesRef (r := main_v180) segW1b_writes (by decide +kernel) (V6 V)).trans (V6_v180 V)
theorem V7_v202 (V : VI) : V7 V (Proc.devRef .tc main_v202) = maskedLoss (st5 (e0W V) (e1W V) (dW V) (V (Proc.devRef .tc main_arg0)) (V (Proc.devRef .tc main_arg1)) (V (Proc.devRef .tc main_arg3))) (V (Proc.devRef .tc main_arg0)) (V (Proc.devRef .tc main_arg3)) :=
  (after_of_writesRef (r := main_v202) segW1b_writes (by decide +kernel) (V6 V)).trans (V6_v202 V)
theorem V8_v203 (V : VI) : V8 V (Proc.devRef .tc main_v203) = broadcastInDim S50000x1 ![0] bcast_S50000_S50000x1_0 (V (Proc.devRef .tc main_arg4)) :=
  (after_of_writesRef (r := main_v203) segE0b_writes (by decide +kernel) (V7 V)).trans (V7_v203 V)
theorem V8_v180 (V : VI) : V8 V (Proc.devRef .tc main_v180) = st5 (e0W V) (e1W V) (dW V) (V (Proc.devRef .tc main_arg0)) (V (Proc.devRef .tc main_arg1)) (V (Proc.devRef .tc main_arg3)) :=
  (after_of_writesRef (r := main_v180) segE0b_writes (by decide +kernel) (V7 V)).trans (V7_v180 V)
theorem V8_v202 (V : VI) : V8 V (Proc.devRef .tc main_v202) = maskedLoss (st5 (e0W V) (e1W V) (dW V) (V (Proc.devRef .tc main_arg0)) (V (Proc.devRef .tc main_arg1)) (V (Proc.devRef .tc main_arg3))) (V (Proc.devRef .tc main_arg0)) (V (Proc.devRef .tc main_arg3)) :=
  (after_of_writesRef (r := main_v202) segE0b_writes (by decide +kernel) (V7 V)).trans (V7_v202 V)
theorem V8_v261 (V : VI) : V8 V (Proc.devRef .tc main_v261) = st2 (e0W V) (V (Proc.devRef .tc main_arg0)) (V (Proc.devRef .tc main_arg2)) (V (Proc.devRef .tc main_arg4)) := by
  show after segE0b (V7 V) (Proc.devRef .tc main_v261) = _
  rw [segE0b_out, V7_v204, V7_arg V main_arg2 (by decide), V7_arg V main_arg6 (by decide), V7_arg V main_arg7 (by decide), V7_arg V main_arg8 (by decide), V7_arg V main_arg9 (by decide), V7_arg V main_arg10 (by decide), V7_arg V main_arg11 (by decide), layerT_eq, addf_eq_add2]
  rfl
theorem V9_v203 (V : VI) : V9 V (Proc.devRef .tc main_v203) = broadcastInDim S50000x1 ![0] bcast_S50000_S50000x1_0 (V (Proc.devRef .tc main_arg4)) :=
  (after_of_writesRef (r := main_v203) segE1b_writes (by decide +kernel) (V8 V)).trans (V8_v203 V)
theorem V9_v180 (V : VI) : V9 V (Proc.devRef .tc main_v180) = st5 (e0W V) (e1W V) (dW V) (V (Proc.devRef .tc main_arg0)) (V (Proc.devRef .tc main_arg1)) (V (Proc.devRef .tc main_arg3)) :=
  (after_of_writesRef (r := main_v180) segE1b_writes (by decide +kernel) (V8 V)).trans (V8_v180 V)
theorem V9_v202 (V : VI) : V9 V (Proc.devRef .tc main_v202) = maskedLoss (st5 (e0W V) (e1W V) (dW V) (V (Proc.devRef .tc main_arg0)) (V (Proc.devRef .tc main_arg1)) (V (Proc.devRef .tc main_arg3))) (V (Proc.devRef .tc main_arg0)) (V (Proc.devRef .tc main_arg3)) :=
  (after_of_writesRef (r := main_v202) segE1b_writes (by decide +kernel) (V8 V)).trans (V8_v202 V)
theorem V9_v321 (V : VI) : V9 V (Proc.devRef .tc main_v321) = st3 (e0W V) (e1W V) (V (Proc.devRef .tc main_arg0)) (V (Proc.devRef .tc main_arg2)) (V (Proc.devRef .tc main_arg4)) := by
  show after segE1b (V8 V) (Proc.devRef .tc main_v321) = _
  rw [segE1b_out, V8_v261, V8_arg V main_arg2 (by decide), V8_arg V main_arg12 (by decide), V8_arg V main_arg13 (by decide), V8_arg V main_arg14 (by decide), V8_arg V main_arg15 (by decide), V8_arg V main_arg16 (by decide), V8_arg V main_arg17 (by decide), layerT_eq, addf_eq_add2]
  rfl
theorem V10_v180 (V : VI) : V10 V (Proc.devRef .tc main_v180) = st5 (e0W V) (e1W V) (dW V) (V (Proc.devRef .tc main_arg0)) (V (Proc.devRef .tc main_arg1)) (V (Proc.devRef .tc main_arg3)) :=
  (after_of_writesRef (r := main_v180) segW2b_writes (by decide +kernel) (V9 V)).trans (V9_v180 V)
theorem V10_v202 (V : VI) : V10 V (Proc.devRef .tc main_v202) = maskedLoss (st5 (e0W V) (e1W V) (dW V) (V (Proc.devRef .tc main_arg0)) (V (Proc.devRef .tc main_arg1)) (V (Proc.devRef .tc main_arg3))) (V (Proc.devRef .tc main_arg0)) (V (Proc.devRef .tc main_arg3)) :=
  (after_of_writesRef (r := main_v202) segW2b_writes (by decide +kernel) (V9 V)).trans (V9_v202 V)
theorem V10_v326 (V : VI) : V10 V (Proc.devRef .tc main_v326) = st4 (e0W V) (e1W V) (V (Proc.devRef .tc main_arg0)) (V (Proc.devRef .tc main_arg2)) (V (Proc.devRef .tc main_arg4)) := by
  show after segW2b (V9 V) (Proc.devRef .tc main_v326) = _
  rw [segW2b_out, V9_v203, V9_v321]
  rfl
theorem V11_v180 (V : VI) : V11 V (Proc.devRef .tc main_v180) = st5 (e0W V) (e1W V) (dW V) (V (Proc.devRef .tc main_arg0)) (V (Proc.devRef .tc main_arg1)) (V (Proc.devRef .tc main_arg3)) :=
  (after_of_writesRef (r := main_v180) segDb_writes (by decide +kernel) (V10 V)).trans (V10_v180 V)
theorem V11_v202 (V : VI) : V11 V (Proc.devRef .tc main_v202) = maskedLoss (st5 (e0W V) (e1W V) (dW V) (V (Proc.devRef .tc main_arg0)) (V (Proc.devRef .tc main_arg1)) (V (Proc.devRef .tc main_arg3))) (V (Proc.devRef .tc main_arg0)) (V (Proc.devRef .tc main_arg3)) :=
  (after_of_writesRef (r := main_v202) segDb_writes (by decide +kernel) (V10 V)).trans (V10_v202 V)
theorem V11_v383 (V : VI) : V11 V (Proc.devRef .tc main_v383) = st5 (e0W V) (e1W V) (dW V) (V (Proc.devRef .tc main_arg0)) (V (Proc.devRef .tc main_arg2)) (V (Proc.devRef .tc main_arg4)) := by
  show after segDb (V10 V) (Proc.devRef .tc main_v383) = _
  rw [segDb_out, V10_v326, V10_arg V main_arg2 (by decide), V10_arg V main_arg18 (by decide), V10_arg V main_arg19 (by decide), V10_arg V main_arg20 (by decide), V10_arg V main_arg21 (by decide), V10_arg V main_arg22 (by decide), V10_arg V main_arg23 (by decide), layerT_eq, addf_eq_add2]
  rfl

/-! ### The loss -/

theorem V12_v424 (V : VI) :
    V12 V (Proc.devRef .tc main_v424)
      = Cert.Spec.loss LR glue (e0W V) (e1W V) (dW V) (V (Proc.devRef .tc main_arg0)) (V (Proc.devRef .tc main_arg1)) (V (Proc.devRef .tc main_arg2)) (V (Proc.devRef .tc main_arg3)) (V (Proc.devRef .tc main_arg4)) := by
  show after segT (V11 V) (Proc.devRef .tc main_v424) = _
  rw [segT_out, V11_v202, V11_v383, V11_v180, V11_arg V main_arg0 (by decide), V11_arg V main_arg4 (by decide), st5_eq, st5_eq]
  rfl

/-- The reference's result buffer after the run's fold, from launch contents `V`: the loss of the shared shape over
    the reference's layer and host functions, at the arguments. -/
theorem value (V : VI) :
    after (ops (F := Ideal)) V (Proc.devRef .tc main_v424)
      = Cert.Spec.loss LR glue (e0W V) (e1W V) (dW V) (V (Proc.devRef .tc main_arg0)) (V (Proc.devRef .tc main_arg1)) (V (Proc.devRef .tc main_arg2)) (V (Proc.devRef .tc main_arg3)) (V (Proc.devRef .tc main_arg4)) := by
  rw [ops_after]
  exact V12_v424 V

end Cert.ReferenceIdeal.HandValue

end
-- ==== Proof.Final.lean ====
/-
  The claims that speak of values: the reference runs and keeps its arguments, and the two programs' results agree.

  The reference's run ends every buffer at the fold of its operations, which keeps the arguments and whose value at
  the result is the specification's result through the reference's layers; the kernel's run ends its result at a term
  whose value is the specification's result through the kernel's layers. The two programs' host functions are the
  same compositions of the same operations, and they keep entries finite; the precondition makes the arguments
  finite; on finite arguments the two readings of a layer are one function.
-/
import proofs.«427833_j20194936226511_1_alg».proof.Proof.FinalOf
import proofs.«427833_j20194936226511_1_alg».proof.Proof.KI.GlueFin
import proofs.«427833_j20194936226511_1_alg».proof.Proof.KI.Run
import proofs.«427833_j20194936226511_1_alg».proof.Proof.KI.ChainInst
import proofs.«427833_j20194936226511_1_alg».proof.Proof.Ref.Args
import proofs.«427833_j20194936226511_1_alg».proof.Proof.Ref.Value

noncomputable section

namespace Cert.Proof.Final

open Idealize.ShloMosaic Idealize.ShloMosaic.ValueIdx Idealize.SL.Sem Cert.Spec

/-- The two programs' host functions are the same compositions of the same operations at the same dimension
    records, printed in two namespaces. -/
theorem glue_eq : Cert.KernelIdeal.HandValue.glue = Cert.ReferenceIdeal.HandValue.glue := rfl

/-- The kernel's host functions keep entries finite, so the reference's, the same functions, do. -/
theorem glue_fin : Cert.Spec.Glue.Finite Cert.ReferenceIdeal.HandValue.glue :=
  glue_eq ▸ Cert.KernelIdeal.HandValue.glue_fin

/-- The fold of the reference's operations keeps each of the 24 arguments. -/
theorem keptR (V : Valuation Cert.ReferenceIdeal.τ Cert.ReferenceIdeal.sig (Elt Ideal)) :
    StableHlo.after (Cert.ReferenceIdeal.HandRun.ops (F := Ideal)) V (Proc.devRef .tc Cert.ReferenceIdeal.main_arg0) = V (Proc.devRef .tc Cert.ReferenceIdeal.main_arg0)
      ∧ StableHlo.after (Cert.ReferenceIdeal.HandRun.ops (F := Ideal)) V (Proc.devRef .tc Cert.ReferenceIdeal.main_arg1) = V (Proc.devRef .tc Cert.ReferenceIdeal.main_arg1)
      ∧ StableHlo.after (Cert.ReferenceIdeal.HandRun.ops (F := Ideal)) V (Proc.devRef .tc Cert.ReferenceIdeal.main_arg2) = V (Proc.devRef .tc Cert.ReferenceIdeal.main_arg2)
      ∧ StableHlo.after (Cert.ReferenceIdeal.HandRun.ops (F := Ideal)) V (Proc.devRef .tc Cert.ReferenceIdeal.main_arg3) = V (Proc.devRef .tc Cert.ReferenceIdeal.main_arg3)
      ∧ StableHlo.after (Cert.ReferenceIdeal.HandRun.ops (F := Ideal)) V (Proc.devRef .tc Cert.ReferenceIdeal.main_arg4) = V (Proc.devRef .tc Cert.ReferenceIdeal.main_arg4)
      ∧ StableHlo.after (Cert.ReferenceIdeal.HandRun.ops (F := Ideal)) V (Proc.devRef .tc Cert.ReferenceIdeal.main_arg5) = V (Proc.devRef .tc Cert.ReferenceIdeal.main_arg5)
      ∧ StableHlo.after (Cert.ReferenceIdeal.HandRun.ops (F := Ideal)) V (Proc.devRef .tc Cert.ReferenceIdeal.main_arg6) = V (Proc.devRef .tc Cert.ReferenceIdeal.main_arg6)
      ∧ StableHlo.after (Cert.ReferenceIdeal.HandRun.ops (F := Ideal)) V (Proc.devRef .tc Cert.ReferenceIdeal.main_arg7) = V (Proc.devRef .tc Cert.ReferenceIdeal.main_arg7)
      ∧ StableHlo.after (Cert.ReferenceIdeal.HandRun.ops (F := Ideal)) V (Proc.devRef .tc Cert.ReferenceIdeal.main_arg8) = V (Proc.devRef .tc Cert.ReferenceIdeal.main_arg8)
      ∧ StableHlo.after (Cert.ReferenceIdeal.HandRun.ops (F := Ideal)) V (Proc.devRef .tc Cert.ReferenceIdeal.main_arg9) = V (Proc.devRef .tc Cert.ReferenceIdeal.main_arg9)
      ∧ StableHlo.after (Cert.ReferenceIdeal.HandRun.ops (F := Ideal)) V (Proc.devRef .tc Cert.ReferenceIdeal.main_arg10) = V (Proc.devRef .tc Cert.ReferenceIdeal.main_arg10)
      ∧ StableHlo.after (Cert.ReferenceIdeal.HandRun.ops (F := Ideal)) V (Proc.devRef .tc Cert.ReferenceIdeal.main_arg11) = V (Proc.devRef .tc Cert.ReferenceIdeal.main_arg11)
      ∧ StableHlo.after (Cert.ReferenceIdeal.HandRun.ops (F := Ideal)) V (Proc.devRef .tc Cert.ReferenceIdeal.main_arg12) = V (Proc.devRef .tc Cert.ReferenceIdeal.main_arg12)
      ∧ StableHlo.after (Cert.ReferenceIdeal.HandRun.ops (F := Ideal)) V (Proc.devRef .tc Cert.ReferenceIdeal.main_arg13) = V (Proc.devRef .tc Cert.ReferenceIdeal.main_arg13)
      ∧ StableHlo.after (Cert.ReferenceIdeal.HandRun.ops (F := Ideal)) V (Proc.devRef .tc Cert.ReferenceIdeal.main_arg14) = V (Proc.devRef .tc Cert.ReferenceIdeal.main_arg14)
      ∧ StableHlo.after (Cert.ReferenceIdeal.HandRun.ops (F := Ideal)) V (Proc.devRef .tc Cert.ReferenceIdeal.main_arg15) = V (Proc.devRef .tc Cert.ReferenceIdeal.main_arg15)
      ∧ StableHlo.after (Cert.ReferenceIdeal.HandRun.ops (F := Ideal)) V (Proc.devRef .tc Cert.ReferenceIdeal.main_arg16) = V (Proc.devRef .tc Cert.ReferenceIdeal.main_arg16)
      ∧ StableHlo.after (Cert.ReferenceIdeal.HandRun.ops (F := Ideal)) V (Proc.devRef .tc Cert.ReferenceIdeal.main_arg17) = V (Proc.devRef .tc Cert.ReferenceIdeal.main_arg17)
      ∧ StableHlo.after (Cert.ReferenceIdeal.HandRun.ops (F := Ideal)) V (Proc.devRef .tc Cert.ReferenceIdeal.main_arg18) = V (Proc.devRef .tc Cert.ReferenceIdeal.main_arg18)
      ∧ StableHlo.after (Cert.ReferenceIdeal.HandRun.ops (F := Ideal)) V (Proc.devRef .tc Cert.ReferenceIdeal.main_arg19) = V (Proc.devRef .tc Cert.ReferenceIdeal.main_arg19)
      ∧ StableHlo.after (Cert.ReferenceIdeal.HandRun.ops (F := Ideal)) V (Proc.devRef .tc Cert.ReferenceIdeal.main_arg20) = V (Proc.devRef .tc Cert.ReferenceIdeal.main_arg20)
      ∧ StableHlo.after (Cert.ReferenceIdeal.HandRun.ops (F := Ideal)) V (Proc.devRef .tc Cert.ReferenceIdeal.main_arg21) = V (Proc.devRef .tc Cert.ReferenceIdeal.main_arg21)
      ∧ StableHlo.after (Cert.ReferenceIdeal.HandRun.ops (F := Ideal)) V (Proc.devRef .tc Cert.ReferenceIdeal.main_arg22) = V (Proc.devRef .tc Cert.ReferenceIdeal.main_arg22)
      ∧ StableHlo.after (Cert.ReferenceIdeal.HandRun.ops (F := Ideal)) V (Proc.devRef .tc Cert.ReferenceIdeal.main_arg23) = V (Proc.devRef .tc Cert.ReferenceIdeal.main_arg23) :=
  ⟨Cert.ReferenceIdeal.HandRun.args_kept (r := Cert.ReferenceIdeal.main_arg0) (by decide) V,
   Cert.ReferenceIdeal.HandRun.args_kept (r := Cert.ReferenceIdeal.main_arg1) (by decide) V,
   Cert.ReferenceIdeal.HandRun.args_kept (r := Cert.ReferenceIdeal.main_arg2) (by decide) V,
   Cert.ReferenceIdeal.HandRun.args_kept (r := Cert.ReferenceIdeal.main_arg3) (by decide) V,
   Cert.ReferenceIdeal.HandRun.args_kept (r := Cert.ReferenceIdeal.main_arg4) (by decide) V,
   Cert.ReferenceIdeal.HandRun.args_kept (r := Cert.ReferenceIdeal.main_arg5) (by decide) V,
   Cert.ReferenceIdeal.HandRun.args_kept (r := Cert.ReferenceIdeal.main_arg6) (by decide) V,
   Cert.ReferenceIdeal.HandRun.args_kept (r := Cert.ReferenceIdeal.main_arg7) (by decide) V,
   Cert.ReferenceIdeal.HandRun.args_kept (r := Cert.ReferenceIdeal.main_arg8) (by decide) V,
   Cert.ReferenceIdeal.HandRun.args_kept (r := Cert.ReferenceIdeal.main_arg9) (by decide) V,
   Cert.ReferenceIdeal.HandRun.args_kept (r := Cert.ReferenceIdeal.main_arg10) (by decide) V,
   Cert.ReferenceIdeal.HandRun.args_kept (r := Cert.ReferenceIdeal.main_arg11) (by decide) V,
   Cert.ReferenceIdeal.HandRun.args_kept (r := Cert.ReferenceIdeal.main_arg12) (by decide) V,
   Cert.ReferenceIdeal.HandRun.args_kept (r := Cert.ReferenceIdeal.main_arg13) (by decide) V,
   Cert.ReferenceIdeal.HandRun.args_kept (r := Cert.ReferenceIdeal.main_arg14) (by decide) V,
   Cert.ReferenceIdeal.HandRun.args_kept (r := Cert.ReferenceIdeal.main_arg15) (by decide) V,
   Cert.ReferenceIdeal.HandRun.args_kept (r := Cert.ReferenceIdeal.main_arg16) (by decide) V,
   Cert.ReferenceIdeal.HandRun.args_kept (r := Cert.ReferenceIdeal.main_arg17) (by decide) V,
   Cert.ReferenceIdeal.HandRun.args_kept (r := Cert.ReferenceIdeal.main_arg18) (by decide) V,
   Cert.ReferenceIdeal.HandRun.args_kept (r := Cert.ReferenceIdeal.main_arg19) (by decide) V,
   Cert.ReferenceIdeal.HandRun.args_kept (r := Cert.ReferenceIdeal.main_arg20) (by decide) V,
   Cert.ReferenceIdeal.HandRun.args_kept (r := Cert.ReferenceIdeal.main_arg21) (by decide) V,
   Cert.ReferenceIdeal.HandRun.args_kept (r := Cert.ReferenceIdeal.main_arg22) (by decide) V,
   Cert.ReferenceIdeal.HandRun.args_kept (r := Cert.ReferenceIdeal.main_arg23) (by decide) V⟩

/-- The reference runs and keeps its arguments. -/
theorem frame_ri : Cert.frame_ReferenceIdeal :=
  frame_ri_of (Cert.ReferenceIdeal.HandRun.ops (F := Ideal)) (Cert.ReferenceIdeal.HandRun.run (F := Ideal)) keptR

set_option maxRecDepth 8192 in
/-- The two programs, run from memories agreeing on the arguments, end with equal results and unchanged arguments. -/
theorem algebraic : Cert.algebraic_KernelIdeal_ReferenceIdeal :=
  algebraic_of Cert.KernelIdeal.HandValue.glue Cert.ReferenceIdeal.HandValue.glue glue_eq glue_fin
    (runK_of Cert.KernelIdeal.HandValue.glue (fun m c => Cert.KernelIdeal.Gen.V57 m (Cert.KernelIdeal.Hand.outs m) c (Proc.devRef .tc Cert.KernelIdeal.main_v314))
      (fun m ρ => Cert.KernelIdeal.Hand.run_result (F := Ideal) m ρ) (fun m c => Cert.KernelIdeal.HandValue.chain_inst m c))
    (runR_of Cert.ReferenceIdeal.HandValue.glue (Cert.ReferenceIdeal.HandRun.ops (F := Ideal))
      (Cert.ReferenceIdeal.HandRun.run (F := Ideal)) keptR
      (fun m c => Cert.ReferenceIdeal.HandValue.value (StableHlo.launchContents m c)))
    pre_fin

end Cert.Proof.Final

end
-- ==== Proof.lean ====
/-
  The certificate's proof. The programs: `Kernel` (a GIN autoencoder's two passes, each three layers of three TensorCore
  regions — a matmul with column statistics, batch normalisation + relu + a second matmul with statistics, batch
  normalisation + relu — among host glue), its idealization `KernelIdeal`, and the jnp reference `ReferenceIdeal`.

  Frames: each of the 18 regions runs as one pipeline segment (its proof data and body in Proof/K/RegN, Proof/KI/RegN;
  the segments chained over the host stretches in Proof/K/Run, Proof/KI/Run); the reference is a list of host
  operations (Proof/Ref/Run). `preserves` has no conjunct: the ideal pass rewrote nothing.

  Values: region by region the kernel computes `Spec.layerK` (Proof/KI/ValN, Proof/KI/Chain*), the reference
  `Spec.layerR` (Proof/Ref/Value), over the same host glue. The two layers differ only in how a column's variance is
  spelt — `max (E[z²] − E[z]², 0)` against `E[(z − E z)²]` — equal on real numbers; the precondition makes every input
  real and every operation on the way keeps entries real (Proof/Math, Proof/PreFin, Proof/Final).
-/
import proofs.«427833_j20194936226511_1_alg».proof.Defs
import proofs.«427833_j20194936226511_1_alg».proof.Proof.Gen.Kernel
import proofs.«427833_j20194936226511_1_alg».proof.Proof.Gen.KernelIdeal
import proofs.«427833_j20194936226511_1_alg».proof.Proof.Gen.ReferenceIdeal
import proofs.«427833_j20194936226511_1_alg».proof.Proof.Gen.Pre_finite_inputs
import proofs.«427833_j20194936226511_1_alg».proof.Proof.K.Run
import proofs.«427833_j20194936226511_1_alg».proof.Proof.KI.Run
import proofs.«427833_j20194936226511_1_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Proof.Final.frame_ri,
    trivial,
    Cert.Proof.Final.algebraic⟩

end Cert.Proof

end
